-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v359)) (v1 : (c : Dev Cert.KernelIdeal.nD) → Buf (Elt Ideal) ((c.tc : Thread Cert.KernelIdeal.nD Cert.KernelIdeal.τ).loc Cert.KernelIdeal.main_v374)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v359) = v0 c
          ∧ r.2.mem ((c.tc : Thread Cert.KernelIdeal.nD Cert.KernelIdeal.τ).loc Cert.KernelIdeal.main_v374) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v537) = v0 c
          ∧ r.2.mem ((c.tc : Thread Cert.ReferenceIdeal.nD Cert.ReferenceIdeal.τ).loc Cert.ReferenceIdeal.main_v552) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000 : Shape := ⟨1, ![800000]⟩
abbrev S100000 : Shape := ⟨1, ![100000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S384x128 : Shape := ⟨2, ![384, 128]⟩
abbrev S128x128 : Shape := ⟨2, ![128, 128]⟩
abbrev S128x5 : Shape := ⟨2, ![128, 5]⟩
abbrev S5 : Shape := ⟨1, ![5]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x128 : S_.BroadcastsInDim S384x128 (![] : Fin 0 → Fin S384x128.rank)
  reducesTo_S384x128_S_d0_1 : S384x128.ReducesTo [0, 1] S_
  bcast_S_S128x128 : S_.BroadcastsInDim S128x128 (![] : Fin 0 → Fin S128x128.rank)
  reducesTo_S128x128_S_d0_1 : S128x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part5 {F : FTy → Type} [FloatOps F] (main_arg21 : FVec F S5 .f32) (main_arg22 : FVec F S5 .f32) (main_v83 : IVec S_ 1) (main_v84 : FVec F S5 .f32) (main_cst_32 : FVec F S_ .f32) : IVec S_ 1 :=
  let main_v85 : FVec F S5 .f32 := broadcastInDim S5 ![] bcast_S_S5 main_cst_32
  let main_v86 : IVec S5 1 := cmpf .olt main_v84 main_v85
  let main_c_33 : IVec S_ 1 := constantI S_ 1 1#1
  let main_v87 : IVec S_ 1 := (fun x v => Host.reduce IntOp.andi x v reducesTo_S5_S_d0 h_S_) main_v86 main_c_33
  let main_v88 : IVec S_ 1 := andi main_v83 main_v87
  let main_v89 : FVec F S5 .f32 := Host.absf main_arg21
  let main_cst_34 : FVec F S_ .f32 := constant S_ .f32 0x7F800000#32
  let main_v90 : FVec F S5 .f32 := broadcastInDim S5 ![] bcast_S_S5 main_cst_34
  let main_v91 : IVec S5 1 := cmpf .olt main_v89 main_v90
  let main_c_35 : IVec S_ 1 := constantI S_ 1 1#1
  let main_v92 : IVec S_ 1 := (fun x v => Host.reduce IntOp.andi x v reducesTo_S5_S_d0 h_S_) main_v91 main_c_35
  let main_v93 : IVec S_ 1 := andi main_v88 main_v92
  let main_v94 : FVec F S5 .f32 := Host.absf main_arg22
  let main_cst_36 : FVec F S_ .f32 := constant S_ .f32 0x7F800000#32
  let main_v95 : FVec F S5 .f32 := broadcastInDim S5 ![] bcast_S_S5 main_cst_36
  let main_v96 : IVec S5 1 := cmpf .olt main_v94 main_v95
  let main_c_37 : IVec S_ 1 := constantI S_ 1 1#1
  let main_v97 : IVec S_ 1 := (fun x v => Host.reduce IntOp.andi x v reducesTo_S5_S_d0 h_S_) main_v96 main_c_37
  let main_v98 : IVec S_ 1 := andi main_v93 main_v97
  main_v98

def fn_part4 {F : FTy → Type} [FloatOps F] (main_arg17 : FVec F S128 .f32) (main_arg18 : FVec F S128 .f32) (main_arg19 : FVec F S128x5 .f32) (main_arg20 : FVec F S5 .f32) (main_arg21 : FVec F S5 .f32) (main_arg22 : FVec F S5 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x5 .f32 := Host.absf main_arg19
  let main_cst_30 : FVec F S_ .f32 := constant S_ .f32 0x7F800000#32
  let main_v80 : FVec F S128x5 .f32 := broadcastInDim S128x5 ![] bcast_S_S128x5 main_cst_30
  let main_v81 : IVec S128x5 1 := cmpf .olt main_v79 main_v80
  let main_c_31 : IVec S_ 1 := constantI S_ 1 1#1
  let main_v82 : IVec S_ 1 := (fun x v => Host.reduce IntOp.andi x v reducesTo_S128x5_S_d0_1 h_S_) main_v81 main_c_31
  let main_v83 : IVec S_ 1 := andi main_v78 main_v82
  let main_v84 : FVec F S5 .f32 := Host.absf main_arg20
  let main_cst_32 : FVec F S_ .f32 := constant S_ .f32 0x7F800000#32
  fn_part5 (F := F) main_arg21 main_arg22 main_v83 main_v84 main_cst_32

def fn_part3 {F : FTy → Type} [FloatOps F] (main_arg14 : FVec F S128 .f32) (main_arg15 : FVec F S128x128 .f32) (main_arg16 : FVec F S128 .f32) (main_arg17 : FVec F S128 .f32) (main_arg18 : FVec F S128 .f32) (main_arg19 : FVec F S128x5 .f32) (main_arg20 : FVec F S5 .f32) (main_arg21 : FVec F S5 .f32) (main_arg22 : FVec F S5 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_arg19 main_arg20 main_arg21 main_arg22 main_v63 main_v67

def fn_part2 {F : FTy → Type} [FloatOps F] (main_arg10 : FVec F S3x128 .f32) (main_arg11 : FVec F S3x128 .f32) (main_arg12 : FVec F S384x128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128x5 .f32) (main_arg20 : FVec F S5 .f32) (main_arg21 : FVec F S5 .f32) (main_arg22 : FVec F S5 .f32) (main_v33 : IVec S_ 1) : IVec S_ 1 :=
  let main_v34 : FVec F S3x128 .f32 := Host.absf main_arg10
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg11
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S384x128 .f32 := Host.absf main_arg12
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_arg20 main_arg21 main_arg22 main_v48 main_v49 main_v50

def fn_part1 {F : FTy → Type} [FloatOps F] (main_arg7 : FVec F S128 .f32) (main_arg8 : FVec F S3x128x128 .f32) (main_arg9 : FVec F S3x128 .f32) (main_arg10 : FVec F S3x128 .f32) (main_arg11 : FVec F S3x128 .f32) (main_arg12 : FVec F S384x128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128x5 .f32) (main_arg20 : FVec F S5 .f32) (main_arg21 : FVec F S5 .f32) (main_arg22 : FVec F S5 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg8
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg9
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_v33

def fn {F : FTy → Type} [FloatOps F] (main_arg0 : FVec F S100000x64 .f32) (main_arg1 : IVec S800000 32) (main_arg2 : IVec S800000 32) (main_arg3 : IVec S100000 32) (main_arg4 : FVec F S64x128 .f32) (main_arg5 : FVec F S128 .f32) (main_arg6 : FVec F S128 .f32) (main_arg7 : FVec F S128 .f32) (main_arg8 : FVec F S3x128x128 .f32) (main_arg9 : FVec F S3x128 .f32) (main_arg10 : FVec F S3x128 .f32) (main_arg11 : FVec F S3x128 .f32) (main_arg12 : FVec F S384x128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128x5 .f32) (main_arg20 : FVec F S5 .f32) (main_arg21 : FVec F S5 .f32) (main_arg22 : FVec F S5 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x64 : Shape := ⟨2, ![100000, 64]⟩
abbrev S800000 : Shape := ⟨1, ![800000]⟩
abbrev S100000 : Shape := ⟨1, ![100000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S384x128 : Shape := ⟨2, ![384, 128]⟩
abbrev S128x128 : Shape := ⟨2, ![128, 128]⟩
abbrev S128x5 : Shape := ⟨2, ![128, 5]⟩
abbrev S5 : Shape := ⟨1, ![5]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S1x5 : Shape := ⟨2, ![1, 5]⟩
abbrev S100000x5 : Shape := ⟨2, ![100000, 5]⟩
abbrev S5000x5 : Shape := ⟨2, ![5000, 5]⟩
abbrev S100000x1 : Shape := ⟨2, ![100000, 1]⟩
abbrev S100000x5x1 : Shape := ⟨3, ![100000, 5, 1]⟩
abbrev S100000x1x128 : Shape := ⟨3, ![100000, 1, 128]⟩
abbrev S100000x5x128 : Shape := ⟨3, ![100000, 5, 128]⟩
abbrev S1000x5x128 : Shape := ⟨3, ![1000, 5, 128]⟩
abbrev S1000x640 : Shape := ⟨2, ![1000, 640]⟩

abbrev nBuf : Space → Nat
  | .hbm => 498
  | .vmem => 276
  | .smem => 0
  | _ => 0

abbrev hbmTy0_0 (i : Nat) : BufTy := match i % 128 with
  | 0 => ⟨S100000x64, .f32⟩
  | 1 => ⟨S800000, .i32⟩
  | 2 => ⟨S800000, .i32⟩
  | 3 => ⟨S100000, .i32⟩
  | 4 => ⟨S64x128, .f32⟩
  | 5 => ⟨S128, .f32⟩
  | 6 => ⟨S128, .f32⟩
  | 7 => ⟨S128, .f32⟩
  | 8 => ⟨S3x128x128, .f32⟩
  | 9 => ⟨S3x128, .f32⟩
  | 10 => ⟨S3x128, .f32⟩
  | 11 => ⟨S3x128, .f32⟩
  | 12 => ⟨S384x128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128x5, .f32⟩
  | 20 => ⟨S5, .f32⟩
  | 21 => ⟨S5, .f32⟩
  | 22 => ⟨S5, .f32⟩
  | 23 => ⟨S1x128, .f32⟩
  | 24 => ⟨S100000x128, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S1x128, .f32⟩
  | 37 => ⟨S100000x128, .f32⟩
  | 38 => ⟨S_, .f32⟩
  | 39 => ⟨S128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S_, .f32⟩
  | 50 => ⟨S100000x128, .f32⟩
  | 51 => ⟨S800000x1, .i32⟩
  | 52 => ⟨S100000x128, .f32⟩
  | 53 => ⟨S1x128x128, .f32⟩
  | 54 => ⟨S128x128, .f32⟩
  | 55 => ⟨S1x128, .f32⟩
  | 56 => ⟨S128, .f32⟩
  | 57 => ⟨S1x128, .f32⟩
  | 58 => ⟨S100000x128, .f32⟩
  | 59 => ⟨S1x128, .f32⟩
  | 60 => ⟨S1x128, .f32⟩
  | 61 => ⟨S_, .f32⟩
  | 62 => ⟨S1x128, .f32⟩
  | 63 => ⟨S1x128, .f32⟩
  | 64 => ⟨S_, .f32⟩
  | 65 => ⟨S1x128, .f32⟩
  | 66 => ⟨S1x128, .f32⟩
  | 67 => ⟨S1x128, .f32⟩
  | 68 => ⟨S1x128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S1x128, .f32⟩
  | 75 => ⟨S100000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S100000x128, .f32⟩
  | 87 => ⟨S800000x1, .i32⟩
  | 88 => ⟨S100000x128, .f32⟩
  | 89 => ⟨S1x128x128, .f32⟩
  | 90 => ⟨S128x128, .f32⟩
  | 91 => ⟨S1x128, .f32⟩
  | 92 => ⟨S128, .f32⟩
  | 93 => ⟨S1x128, .f32⟩
  | 94 => ⟨S100000x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S1x128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S1x128, .f32⟩
  | 111 => ⟨S100000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S_, .f32⟩
  | 122 => ⟨S100000x128, .f32⟩
  | 123 => ⟨S800000x1, .i32⟩
  | 124 => ⟨S100000x128, .f32⟩
  | 125 => ⟨S1x128x128, .f32⟩
  | 126 => ⟨S128x128, .f32⟩
  | 127 => ⟨S1x128, .f32⟩
  | _ => ⟨S100000x64, .f32⟩

abbrev hbmTy0_1 (i : Nat) : BufTy := match i % 128 with
  | 0 => ⟨S128, .f32⟩
  | 1 => ⟨S1x128, .f32⟩
  | 2 => ⟨S100000x128, .f32⟩
  | 3 => ⟨S1x128, .f32⟩
  | 4 => ⟨S1x128, .f32⟩
  | 5 => ⟨S_, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S1x128, .f32⟩
  | 12 => ⟨S1x128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S1x128, .f32⟩
  | 19 => ⟨S100000x128, .f32⟩
  | 20 => ⟨S128x128, .f32⟩
  | 21 => ⟨S128x128, .f32⟩
  | 22 => ⟨S128x128, .f32⟩
  | 23 => ⟨S1x128, .f32⟩
  | 24 => ⟨S100000x128, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S1x128, .f32⟩
  | 37 => ⟨S100000x128, .f32⟩
  | 38 => ⟨S100000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S_, .f32⟩
  | 49 => ⟨S100000x128, .f32⟩
  | 50 => ⟨S800000x1, .i32⟩
  | 51 => ⟨S100000x128, .f32⟩
  | 52 => ⟨S1x128x128, .f32⟩
  | 53 => ⟨S128x128, .f32⟩
  | 54 => ⟨S1x128, .f32⟩
  | 55 => ⟨S128, .f32⟩
  | 56 => ⟨S1x128, .f32⟩
  | 57 => ⟨S100000x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S1x128, .f32⟩
  | 67 => ⟨S1x128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S1x128, .f32⟩
  | 74 => ⟨S100000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .f32⟩
  | 85 => ⟨S100000x128, .f32⟩
  | 86 => ⟨S800000x1, .i32⟩
  | 87 => ⟨S100000x128, .f32⟩
  | 88 => ⟨S1x128x128, .f32⟩
  | 89 => ⟨S128x128, .f32⟩
  | 90 => ⟨S1x128, .f32⟩
  | 91 => ⟨S128, .f32⟩
  | 92 => ⟨S1x128, .f32⟩
  | 93 => ⟨S100000x128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S1x128, .f32⟩
  | 103 => ⟨S1x128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S1x128, .f32⟩
  | 110 => ⟨S100000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S_, .f32⟩
  | 121 => ⟨S100000x128, .f32⟩
  | 122 => ⟨S800000x1, .i32⟩
  | 123 => ⟨S100000x128, .f32⟩
  | 124 => ⟨S1x128x128, .f32⟩
  | 125 => ⟨S128x128, .f32⟩
  | 126 => ⟨S1x128, .f32⟩
  | 127 => ⟨S128, .f32⟩
  | _ => ⟨S100000x64, .f32⟩

abbrev hbmTy0_2 (i : Nat) : BufTy := match i % 128 with
  | 0 => ⟨S1x128, .f32⟩
  | 1 => ⟨S100000x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S_, .f32⟩
  | 8 => ⟨S1x128, .f32⟩
  | 9 => ⟨S1x128, .f32⟩
  | 10 => ⟨S1x128, .f32⟩
  | 11 => ⟨S1x128, .f32⟩
  | 12 => ⟨S1x128, .f32⟩
  | 13 => ⟨S128, .f32⟩
  | 14 => ⟨S1x128, .f32⟩
  | 15 => ⟨S128, .f32⟩
  | 16 => ⟨S1x128, .f32⟩
  | 17 => ⟨S1x128, .f32⟩
  | 18 => ⟨S100000x128, .f32⟩
  | 19 => ⟨S128x128, .f32⟩
  | 20 => ⟨S128x128, .f32⟩
  | 21 => ⟨S128x128, .f32⟩
  | 22 => ⟨S1x128, .f32⟩
  | 23 => ⟨S100000x128, .f32⟩
  | 24 => ⟨S1x128, .f32⟩
  | 25 => ⟨S1x128, .f32⟩
  | 26 => ⟨S_, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S100000x128, .f32⟩
  | 37 => ⟨S100000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S100000x128, .f32⟩
  | 49 => ⟨S800000x1, .i32⟩
  | 50 => ⟨S100000x128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S100000x128, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S_, .f32⟩
  | 63 => ⟨S1x128, .f32⟩
  | 64 => ⟨S1x128, .f32⟩
  | 65 => ⟨S1x128, .f32⟩
  | 66 => ⟨S1x128, .f32⟩
  | 67 => ⟨S1x128, .f32⟩
  | 68 => ⟨S128, .f32⟩
  | 69 => ⟨S1x128, .f32⟩
  | 70 => ⟨S128, .f32⟩
  | 71 => ⟨S1x128, .f32⟩
  | 72 => ⟨S1x128, .f32⟩
  | 73 => ⟨S100000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S_, .f32⟩
  | 84 => ⟨S100000x128, .f32⟩
  | 85 => ⟨S800000x1, .i32⟩
  | 86 => ⟨S100000x128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S100000x128, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S1x128, .f32⟩
  | 109 => ⟨S100000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .f32⟩
  | 120 => ⟨S100000x128, .f32⟩
  | 121 => ⟨S800000x1, .i32⟩
  | 122 => ⟨S100000x128, .f32⟩
  | 123 => ⟨S1x128x128, .f32⟩
  | 124 => ⟨S128x128, .f32⟩
  | 125 => ⟨S1x128, .f32⟩
  | 126 => ⟨S128, .f32⟩
  | 127 => ⟨S1x128, .f32⟩
  | _ => ⟨S100000x64, .f32⟩

abbrev hbmTy0_3 (i : Nat) : BufTy := match i % 128 with
  | 0 => ⟨S100000x128, .f32⟩
  | 1 => ⟨S1x128, .f32⟩
  | 2 => ⟨S1x128, .f32⟩
  | 3 => ⟨S_, .f32⟩
  | 4 => ⟨S1x128, .f32⟩
  | 5 => ⟨S1x128, .f32⟩
  | 6 => ⟨S_, .f32⟩
  | 7 => ⟨S1x128, .f32⟩
  | 8 => ⟨S1x128, .f32⟩
  | 9 => ⟨S1x128, .f32⟩
  | 10 => ⟨S1x128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S1x128, .f32⟩
  | 17 => ⟨S100000x128, .f32⟩
  | 18 => ⟨S128x128, .f32⟩
  | 19 => ⟨S128x128, .f32⟩
  | 20 => ⟨S128x128, .f32⟩
  | 21 => ⟨S1x128, .f32⟩
  | 22 => ⟨S100000x128, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S_, .f32⟩
  | 29 => ⟨S1x128, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S100000x128, .f32⟩
  | 36 => ⟨S1x128, .f32⟩
  | 37 => ⟨S100000x128, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S1x128, .f32⟩
  | 47 => ⟨S1x128, .f32⟩
  | 48 => ⟨S1x128, .f32⟩
  | 49 => ⟨S1x128, .f32⟩
  | 50 => ⟨S100000x128, .f32⟩
  | 51 => ⟨S1x5, .f32⟩
  | 52 => ⟨S100000x5, .f32⟩
  | 53 => ⟨S1x5, .f32⟩
  | 54 => ⟨S1x5, .f32⟩
  | 55 => ⟨S_, .f32⟩
  | 56 => ⟨S1x5, .f32⟩
  | 57 => ⟨S1x5, .f32⟩
  | 58 => ⟨S_, .f32⟩
  | 59 => ⟨S1x5, .f32⟩
  | 60 => ⟨S1x5, .f32⟩
  | 61 => ⟨S1x5, .f32⟩
  | 62 => ⟨S1x5, .f32⟩
  | 63 => ⟨S1x5, .f32⟩
  | 64 => ⟨S1x5, .f32⟩
  | 65 => ⟨S100000x5, .f32⟩
  | 66 => ⟨S_, .f32⟩
  | 67 => ⟨S100000, .f32⟩
  | 68 => ⟨S_, .f32⟩
  | 69 => ⟨S100000, .f32⟩
  | 70 => ⟨S100000, .f32⟩
  | 71 => ⟨S100000x1, .f32⟩
  | 72 => ⟨S100000x5, .f32⟩
  | 73 => ⟨S100000x5, .f32⟩
  | 74 => ⟨S100000x5, .f32⟩
  | 75 => ⟨S_, .f32⟩
  | 76 => ⟨S100000, .f32⟩
  | 77 => ⟨S100000x1, .f32⟩
  | 78 => ⟨S100000x5, .f32⟩
  | 79 => ⟨S100000x5, .f32⟩
  | 80 => ⟨S100000x5x1, .f32⟩
  | 81 => ⟨S100000x1x128, .f32⟩
  | 82 => ⟨S100000x5x128, .f32⟩
  | 83 => ⟨S100000x5x128, .f32⟩
  | 84 => ⟨S100000x5x128, .f32⟩
  | 85 => ⟨S_, .f32⟩
  | 86 => ⟨S1000x5x128, .f32⟩
  | 87 => ⟨S100000x1, .i32⟩
  | 88 => ⟨S1000x5x128, .f32⟩
  | 89 => ⟨S1000x640, .f32⟩
  | 90 => ⟨S_, .f32⟩
  | 91 => ⟨S1000x640, .f32⟩
  | 92 => ⟨S1000x640, .f32⟩
  | 93 => ⟨S64x128, .f32⟩
  | 94 => ⟨S_, .f32⟩
  | 95 => ⟨S_, .f32⟩
  | 96 => ⟨S3x128x128, .f32⟩
  | 97 => ⟨S_, .f32⟩
  | 98 => ⟨S_, .f32⟩
  | 99 => ⟨S_, .f32⟩
  | 100 => ⟨S384x128, .f32⟩
  | 101 => ⟨S_, .f32⟩
  | 102 => ⟨S_, .f32⟩
  | 103 => ⟨S_, .f32⟩
  | 104 => ⟨S128x128, .f32⟩
  | 105 => ⟨S_, .f32⟩
  | 106 => ⟨S_, .f32⟩
  | 107 => ⟨S_, .f32⟩
  | 108 => ⟨S128x5, .f32⟩
  | 109 => ⟨S_, .f32⟩
  | 110 => ⟨S_, .f32⟩
  | 111 => ⟨S_, .f32⟩
  | 112 => ⟨S_, .f32⟩
  | 113 => ⟨S_, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev vmemTy0_0 (i : Nat) : BufTy := match i % 128 with
  | 0 => ⟨S5000x64, .f32⟩
  | 1 => ⟨S5000x64, .f32⟩
  | 2 => ⟨S64x128, .f32⟩
  | 3 => ⟨S1x128, .f32⟩
  | 4 => ⟨S5000x128, .f32⟩
  | 5 => ⟨S5000x128, .f32⟩
  | 6 => ⟨S1x128, .f32⟩
  | 7 => ⟨S1x128, .f32⟩
  | 8 => ⟨S5000x128, .f32⟩
  | 9 => ⟨S5000x128, .f32⟩
  | 10 => ⟨S1x128, .f32⟩
  | 11 => ⟨S1x128, .f32⟩
  | 12 => ⟨S1x128, .f32⟩
  | 13 => ⟨S1x128, .f32⟩
  | 14 => ⟨S5000x128, .f32⟩
  | 15 => ⟨S5000x128, .f32⟩
  | 16 => ⟨S5000x128, .f32⟩
  | 17 => ⟨S5000x128, .f32⟩
  | 18 => ⟨S5000x128, .f32⟩
  | 19 => ⟨S5000x128, .f32⟩
  | 20 => ⟨S128x128, .f32⟩
  | 21 => ⟨S1x128, .f32⟩
  | 22 => ⟨S5000x128, .f32⟩
  | 23 => ⟨S5000x128, .f32⟩
  | 24 => ⟨S1x128, .f32⟩
  | 25 => ⟨S1x128, .f32⟩
  | 26 => ⟨S5000x128, .f32⟩
  | 27 => ⟨S5000x128, .f32⟩
  | 28 => ⟨S1x128, .f32⟩
  | 29 => ⟨S1x128, .f32⟩
  | 30 => ⟨S1x128, .f32⟩
  | 31 => ⟨S1x128, .f32⟩
  | 32 => ⟨S5000x128, .f32⟩
  | 33 => ⟨S5000x128, .f32⟩
  | 34 => ⟨S5000x128, .f32⟩
  | 35 => ⟨S5000x128, .f32⟩
  | 36 => ⟨S5000x128, .f32⟩
  | 37 => ⟨S5000x128, .f32⟩
  | 38 => ⟨S128x128, .f32⟩
  | 39 => ⟨S1x128, .f32⟩
  | 40 => ⟨S5000x128, .f32⟩
  | 41 => ⟨S5000x128, .f32⟩
  | 42 => ⟨S1x128, .f32⟩
  | 43 => ⟨S1x128, .f32⟩
  | 44 => ⟨S5000x128, .f32⟩
  | 45 => ⟨S5000x128, .f32⟩
  | 46 => ⟨S1x128, .f32⟩
  | 47 => ⟨S1x128, .f32⟩
  | 48 => ⟨S1x128, .f32⟩
  | 49 => ⟨S1x128, .f32⟩
  | 50 => ⟨S5000x128, .f32⟩
  | 51 => ⟨S5000x128, .f32⟩
  | 52 => ⟨S5000x128, .f32⟩
  | 53 => ⟨S5000x128, .f32⟩
  | 54 => ⟨S5000x128, .f32⟩
  | 55 => ⟨S5000x128, .f32⟩
  | 56 => ⟨S128x128, .f32⟩
  | 57 => ⟨S1x128, .f32⟩
  | 58 => ⟨S5000x128, .f32⟩
  | 59 => ⟨S5000x128, .f32⟩
  | 60 => ⟨S1x128, .f32⟩
  | 61 => ⟨S1x128, .f32⟩
  | 62 => ⟨S5000x128, .f32⟩
  | 63 => ⟨S5000x128, .f32⟩
  | 64 => ⟨S1x128, .f32⟩
  | 65 => ⟨S1x128, .f32⟩
  | 66 => ⟨S1x128, .f32⟩
  | 67 => ⟨S1x128, .f32⟩
  | 68 => ⟨S5000x128, .f32⟩
  | 69 => ⟨S5000x128, .f32⟩
  | 70 => ⟨S5000x128, .f32⟩
  | 71 => ⟨S5000x128, .f32⟩
  | 72 => ⟨S5000x128, .f32⟩
  | 73 => ⟨S5000x128, .f32⟩
  | 74 => ⟨S5000x128, .f32⟩
  | 75 => ⟨S5000x128, .f32⟩
  | 76 => ⟨S128x128, .f32⟩
  | 77 => ⟨S128x128, .f32⟩
  | 78 => ⟨S128x128, .f32⟩
  | 79 => ⟨S1x128, .f32⟩
  | 80 => ⟨S5000x128, .f32⟩
  | 81 => ⟨S5000x128, .f32⟩
  | 82 => ⟨S1x128, .f32⟩
  | 83 => ⟨S1x128, .f32⟩
  | 84 => ⟨S5000x128, .f32⟩
  | 85 => ⟨S5000x128, .f32⟩
  | 86 => ⟨S1x128, .f32⟩
  | 87 => ⟨S1x128, .f32⟩
  | 88 => ⟨S1x128, .f32⟩
  | 89 => ⟨S1x128, .f32⟩
  | 90 => ⟨S5000x128, .f32⟩
  | 91 => ⟨S5000x128, .f32⟩
  | 92 => ⟨S5000x128, .f32⟩
  | 93 => ⟨S5000x128, .f32⟩
  | 94 => ⟨S5000x128, .f32⟩
  | 95 => ⟨S5000x128, .f32⟩
  | 96 => ⟨S128x128, .f32⟩
  | 97 => ⟨S1x128, .f32⟩
  | 98 => ⟨S5000x128, .f32⟩
  | 99 => ⟨S5000x128, .f32⟩
  | 100 => ⟨S1x128, .f32⟩
  | 101 => ⟨S1x128, .f32⟩
  | 102 => ⟨S5000x128, .f32⟩
  | 103 => ⟨S5000x128, .f32⟩
  | 104 => ⟨S1x128, .f32⟩
  | 105 => ⟨S1x128, .f32⟩
  | 106 => ⟨S1x128, .f32⟩
  | 107 => ⟨S1x128, .f32⟩
  | 108 => ⟨S5000x128, .f32⟩
  | 109 => ⟨S5000x128, .f32⟩
  | 110 => ⟨S5000x128, .f32⟩
  | 111 => ⟨S5000x128, .f32⟩
  | 112 => ⟨S5000x128, .f32⟩
  | 113 => ⟨S5000x128, .f32⟩
  | 114 => ⟨S128x128, .f32⟩
  | 115 => ⟨S1x128, .f32⟩
  | 116 => ⟨S5000x128, .f32⟩
  | 117 => ⟨S5000x128, .f32⟩
  | 118 => ⟨S1x128, .f32⟩
  | 119 => ⟨S1x128, .f32⟩
  | 120 => ⟨S5000x128, .f32⟩
  | 121 => ⟨S5000x128, .f32⟩
  | 122 => ⟨S1x128, .f32⟩
  | 123 => ⟨S1x128, .f32⟩
  | 124 => ⟨S1x128, .f32⟩
  | 125 => ⟨S1x128, .f32⟩
  | 126 => ⟨S5000x128, .f32⟩
  | 127 => ⟨S5000x128, .f32⟩
  | _ => ⟨S100000x64, .f32⟩

abbrev vmemTy0_1 (i : Nat) : BufTy := match i % 128 with
  | 0 => ⟨S5000x128, .f32⟩
  | 1 => ⟨S5000x128, .f32⟩
  | 2 => ⟨S5000x128, .f32⟩
  | 3 => ⟨S5000x128, .f32⟩
  | 4 => ⟨S128x128, .f32⟩
  | 5 => ⟨S1x128, .f32⟩
  | 6 => ⟨S5000x128, .f32⟩
  | 7 => ⟨S5000x128, .f32⟩
  | 8 => ⟨S1x128, .f32⟩
  | 9 => ⟨S1x128, .f32⟩
  | 10 => ⟨S5000x128, .f32⟩
  | 11 => ⟨S5000x128, .f32⟩
  | 12 => ⟨S1x128, .f32⟩
  | 13 => ⟨S1x128, .f32⟩
  | 14 => ⟨S1x128, .f32⟩
  | 15 => ⟨S1x128, .f32⟩
  | 16 => ⟨S5000x128, .f32⟩
  | 17 => ⟨S5000x128, .f32⟩
  | 18 => ⟨S5000x128, .f32⟩
  | 19 => ⟨S5000x128, .f32⟩
  | 20 => ⟨S5000x128, .f32⟩
  | 21 => ⟨S5000x128, .f32⟩
  | 22 => ⟨S5000x128, .f32⟩
  | 23 => ⟨S5000x128, .f32⟩
  | 24 => ⟨S128x128, .f32⟩
  | 25 => ⟨S128x128, .f32⟩
  | 26 => ⟨S128x128, .f32⟩
  | 27 => ⟨S1x128, .f32⟩
  | 28 => ⟨S5000x128, .f32⟩
  | 29 => ⟨S5000x128, .f32⟩
  | 30 => ⟨S1x128, .f32⟩
  | 31 => ⟨S1x128, .f32⟩
  | 32 => ⟨S5000x128, .f32⟩
  | 33 => ⟨S5000x128, .f32⟩
  | 34 => ⟨S1x128, .f32⟩
  | 35 => ⟨S1x128, .f32⟩
  | 36 => ⟨S1x128, .f32⟩
  | 37 => ⟨S1x128, .f32⟩
  | 38 => ⟨S5000x128, .f32⟩
  | 39 => ⟨S5000x128, .f32⟩
  | 40 => ⟨S5000x128, .f32⟩
  | 41 => ⟨S5000x128, .f32⟩
  | 42 => ⟨S5000x128, .f32⟩
  | 43 => ⟨S5000x128, .f32⟩
  | 44 => ⟨S128x128, .f32⟩
  | 45 => ⟨S1x128, .f32⟩
  | 46 => ⟨S5000x128, .f32⟩
  | 47 => ⟨S5000x128, .f32⟩
  | 48 => ⟨S1x128, .f32⟩
  | 49 => ⟨S1x128, .f32⟩
  | 50 => ⟨S5000x128, .f32⟩
  | 51 => ⟨S5000x128, .f32⟩
  | 52 => ⟨S1x128, .f32⟩
  | 53 => ⟨S1x128, .f32⟩
  | 54 => ⟨S1x128, .f32⟩
  | 55 => ⟨S1x128, .f32⟩
  | 56 => ⟨S5000x128, .f32⟩
  | 57 => ⟨S5000x128, .f32⟩
  | 58 => ⟨S5000x128, .f32⟩
  | 59 => ⟨S5000x128, .f32⟩
  | 60 => ⟨S5000x128, .f32⟩
  | 61 => ⟨S5000x128, .f32⟩
  | 62 => ⟨S128x128, .f32⟩
  | 63 => ⟨S1x128, .f32⟩
  | 64 => ⟨S5000x128, .f32⟩
  | 65 => ⟨S5000x128, .f32⟩
  | 66 => ⟨S1x128, .f32⟩
  | 67 => ⟨S1x128, .f32⟩
  | 68 => ⟨S5000x128, .f32⟩
  | 69 => ⟨S5000x128, .f32⟩
  | 70 => ⟨S1x128, .f32⟩
  | 71 => ⟨S1x128, .f32⟩
  | 72 => ⟨S1x128, .f32⟩
  | 73 => ⟨S1x128, .f32⟩
  | 74 => ⟨S5000x128, .f32⟩
  | 75 => ⟨S5000x128, .f32⟩
  | 76 => ⟨S5000x128, .f32⟩
  | 77 => ⟨S5000x128, .f32⟩
  | 78 => ⟨S5000x128, .f32⟩
  | 79 => ⟨S5000x128, .f32⟩
  | 80 => ⟨S128x128, .f32⟩
  | 81 => ⟨S1x128, .f32⟩
  | 82 => ⟨S5000x128, .f32⟩
  | 83 => ⟨S5000x128, .f32⟩
  | 84 => ⟨S1x128, .f32⟩
  | 85 => ⟨S1x128, .f32⟩
  | 86 => ⟨S5000x128, .f32⟩
  | 87 => ⟨S5000x128, .f32⟩
  | 88 => ⟨S1x128, .f32⟩
  | 89 => ⟨S1x128, .f32⟩
  | 90 => ⟨S1x128, .f32⟩
  | 91 => ⟨S1x128, .f32⟩
  | 92 => ⟨S5000x128, .f32⟩
  | 93 => ⟨S5000x128, .f32⟩
  | 94 => ⟨S5000x128, .f32⟩
  | 95 => ⟨S5000x128, .f32⟩
  | 96 => ⟨S5000x128, .f32⟩
  | 97 => ⟨S5000x128, .f32⟩
  | 98 => ⟨S5000x128, .f32⟩
  | 99 => ⟨S5000x128, .f32⟩
  | 100 => ⟨S128x128, .f32⟩
  | 101 => ⟨S128x128, .f32⟩
  | 102 => ⟨S128x128, .f32⟩
  | 103 => ⟨S1x128, .f32⟩
  | 104 => ⟨S5000x128, .f32⟩
  | 105 => ⟨S5000x128, .f32⟩
  | 106 => ⟨S1x128, .f32⟩
  | 107 => ⟨S1x128, .f32⟩
  | 108 => ⟨S5000x128, .f32⟩
  | 109 => ⟨S5000x128, .f32⟩
  | 110 => ⟨S1x128, .f32⟩
  | 111 => ⟨S1x128, .f32⟩
  | 112 => ⟨S1x128, .f32⟩
  | 113 => ⟨S1x128, .f32⟩
  | 114 => ⟨S5000x128, .f32⟩
  | 115 => ⟨S5000x128, .f32⟩
  | 116 => ⟨S5000x128, .f32⟩
  | 117 => ⟨S5000x128, .f32⟩
  | 118 => ⟨S128x128, .f32⟩
  | 119 => ⟨S1x128, .f32⟩
  | 120 => ⟨S5000x128, .f32⟩
  | 121 => ⟨S5000x128, .f32⟩
  | 122 => ⟨S1x128, .f32⟩
  | 123 => ⟨S1x128, .f32⟩
  | 124 => ⟨S5000x128, .f32⟩
  | 125 => ⟨S5000x128, .f32⟩
  | 126 => ⟨S1x128, .f32⟩
  | 127 => ⟨S1x128, .f32⟩
  | _ => ⟨S100000x64, .f32⟩

abbrev vmemTy0_2 (i : Nat) : BufTy := match i % 128 with
  | 0 => ⟨S1x128, .f32⟩
  | 1 => ⟨S1x128, .f32⟩
  | 2 => ⟨S5000x128, .f32⟩
  | 3 => ⟨S5000x128, .f32⟩
  | 4 => ⟨S5000x128, .f32⟩
  | 5 => ⟨S5000x128, .f32⟩
  | 6 => ⟨S128x5, .f32⟩
  | 7 => ⟨S1x5, .f32⟩
  | 8 => ⟨S5000x5, .f32⟩
  | 9 => ⟨S5000x5, .f32⟩
  | 10 => ⟨S1x5, .f32⟩
  | 11 => ⟨S1x5, .f32⟩
  | 12 => ⟨S5000x5, .f32⟩
  | 13 => ⟨S5000x5, .f32⟩
  | 14 => ⟨S1x5, .f32⟩
  | 15 => ⟨S1x5, .f32⟩
  | 16 => ⟨S1x5, .f32⟩
  | 17 => ⟨S1x5, .f32⟩
  | 18 => ⟨S5000x5, .f32⟩
  | 19 => ⟨S5000x5, .f32⟩
  | _ => ⟨S100000x64, .f32⟩

abbrev vmemTy (i : Nat) : BufTy := match i / 128 with
  | 0 => vmemTy0_0 i
  | 1 => vmemTy0_1 i
  | 2 => vmemTy0_2 i
  | _ => ⟨S100000x64, .f32⟩

abbrev bufTy : (tb : Table) → Fin (tcTables nBuf tb) → BufTy
  | .hbm, ⟨i, _⟩ => hbmTy i
  | .local _ .vmem, ⟨i, _⟩ => vmemTy i
  | _, _ => ⟨S100000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | _ => false

abbrev dmaSemScopedAt (i : Nat) : Bool := match i / 128 with
  | 0 => dmaSemScopedAt0_0 i
  | 1 => dmaSemScopedAt0_1 i
  | 2 => dmaSemScopedAt0_2 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | _ => false

abbrev vmemScopedAt (i : Nat) : Bool := match i / 128 with
  | 0 => vmemScopedAt0_0 i
  | 1 => vmemScopedAt0_1 i
  | 2 => vmemScopedAt0_2 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 276 → Bool
  | ⟨i, _⟩ => dmaSemScopedAt i

abbrev sig : RefSig :=
  ofTc nBuf bufTy 0 276 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1_0 : Ref sig .tc := ⟨.hbm, 24, rfl⟩
abbrev main_v1_1 : Ref sig .tc := ⟨.hbm, 25, rfl⟩
abbrev main_v1_2 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_3 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27_0 : Ref sig .tc := ⟨.hbm, 58, rfl⟩
abbrev main_v27_1 : Ref sig .tc := ⟨.hbm, 59, rfl⟩
abbrev main_v27_2 : Ref sig .tc := ⟨.hbm, 60, rfl⟩
abbrev main_cst_4 : Ref sig .tc := ⟨.hbm, 61, rfl⟩
abbrev main_v28 : Ref sig .tc := ⟨.hbm, 62, rfl⟩
abbrev main_v29 : Ref sig .tc := ⟨.hbm, 63, rfl⟩
abbrev main_cst_5 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_6 : Ref sig .tc := ⟨.hbm, 76, rfl⟩
abbrev main_v41 : Ref sig .tc := ⟨.hbm, 77, rfl⟩
abbrev main_v42 : Ref sig .tc := ⟨.hbm, 78, rfl⟩
abbrev main_c_7 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_8 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56_0 : Ref sig .tc := ⟨.hbm, 94, rfl⟩
abbrev main_v56_1 : Ref sig .tc := ⟨.hbm, 95, rfl⟩
abbrev main_v56_2 : Ref sig .tc := ⟨.hbm, 96, rfl⟩
abbrev main_cst_9 : Ref sig .tc := ⟨.hbm, 97, rfl⟩
abbrev main_v57 : Ref sig .tc := ⟨.hbm, 98, rfl⟩
abbrev main_v58 : Ref sig .tc := ⟨.hbm, 99, rfl⟩
abbrev main_cst_10 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_c_11 : Ref sig .tc := ⟨.hbm, 112, rfl⟩
abbrev main_v70 : Ref sig .tc := ⟨.hbm, 113, rfl⟩
abbrev main_v71 : Ref sig .tc := ⟨.hbm, 114, rfl⟩
abbrev main_c_12 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_13 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85_0 : Ref sig .tc := ⟨.hbm, 130, rfl⟩
abbrev main_v85_1 : Ref sig .tc := ⟨.hbm, 131, rfl⟩
abbrev main_v85_2 : Ref sig .tc := ⟨.hbm, 132, rfl⟩
abbrev main_cst_14 : Ref sig .tc := ⟨.hbm, 133, rfl⟩
abbrev main_v86 : Ref sig .tc := ⟨.hbm, 134, rfl⟩
abbrev main_v87 : Ref sig .tc := ⟨.hbm, 135, rfl⟩
abbrev main_cst_15 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103_0 : Ref sig .tc := ⟨.hbm, 152, rfl⟩
abbrev main_v103_1 : Ref sig .tc := ⟨.hbm, 153, rfl⟩
abbrev main_v103_2 : Ref sig .tc := ⟨.hbm, 154, rfl⟩
abbrev main_cst_16 : Ref sig .tc := ⟨.hbm, 155, rfl⟩
abbrev main_v104 : Ref sig .tc := ⟨.hbm, 156, rfl⟩
abbrev main_v105 : Ref sig .tc := ⟨.hbm, 157, rfl⟩
abbrev main_cst_17 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_c_18 : Ref sig .tc := ⟨.hbm, 167, rfl⟩
abbrev main_v114 : Ref sig .tc := ⟨.hbm, 168, rfl⟩
abbrev main_v115 : Ref sig .tc := ⟨.hbm, 169, rfl⟩
abbrev main_c_19 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_20 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129_0 : Ref sig .tc := ⟨.hbm, 185, rfl⟩
abbrev main_v129_1 : Ref sig .tc := ⟨.hbm, 186, rfl⟩
abbrev main_v129_2 : Ref sig .tc := ⟨.hbm, 187, rfl⟩
abbrev main_cst_21 : Ref sig .tc := ⟨.hbm, 188, rfl⟩
abbrev main_v130 : Ref sig .tc := ⟨.hbm, 189, rfl⟩
abbrev main_v131 : Ref sig .tc := ⟨.hbm, 190, rfl⟩
abbrev main_cst_22 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_c_23 : Ref sig .tc := ⟨.hbm, 203, rfl⟩
abbrev main_v143 : Ref sig .tc := ⟨.hbm, 204, rfl⟩
abbrev main_v144 : Ref sig .tc := ⟨.hbm, 205, rfl⟩
abbrev main_c_24 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_cst_25 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158_0 : Ref sig .tc := ⟨.hbm, 221, rfl⟩
abbrev main_v158_1 : Ref sig .tc := ⟨.hbm, 222, rfl⟩
abbrev main_v158_2 : Ref sig .tc := ⟨.hbm, 223, rfl⟩
abbrev main_cst_26 : Ref sig .tc := ⟨.hbm, 224, rfl⟩
abbrev main_v159 : Ref sig .tc := ⟨.hbm, 225, rfl⟩
abbrev main_v160 : Ref sig .tc := ⟨.hbm, 226, rfl⟩
abbrev main_cst_27 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_c_28 : Ref sig .tc := ⟨.hbm, 239, rfl⟩
abbrev main_v172 : Ref sig .tc := ⟨.hbm, 240, rfl⟩
abbrev main_v173 : Ref sig .tc := ⟨.hbm, 241, rfl⟩
abbrev main_c_29 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_cst_30 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187_0 : Ref sig .tc := ⟨.hbm, 257, rfl⟩
abbrev main_v187_1 : Ref sig .tc := ⟨.hbm, 258, rfl⟩
abbrev main_v187_2 : Ref sig .tc := ⟨.hbm, 259, rfl⟩
abbrev main_cst_31 : Ref sig .tc := ⟨.hbm, 260, rfl⟩
abbrev main_v188 : Ref sig .tc := ⟨.hbm, 261, rfl⟩
abbrev main_v189 : Ref sig .tc := ⟨.hbm, 262, rfl⟩
abbrev main_cst_32 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205_0 : Ref sig .tc := ⟨.hbm, 279, rfl⟩
abbrev main_v205_1 : Ref sig .tc := ⟨.hbm, 280, rfl⟩
abbrev main_v205_2 : Ref sig .tc := ⟨.hbm, 281, rfl⟩
abbrev main_cst_33 : Ref sig .tc := ⟨.hbm, 282, rfl⟩
abbrev main_v206 : Ref sig .tc := ⟨.hbm, 283, rfl⟩
abbrev main_v207 : Ref sig .tc := ⟨.hbm, 284, rfl⟩
abbrev main_cst_34 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_c_35 : Ref sig .tc := ⟨.hbm, 294, rfl⟩
abbrev main_v216 : Ref sig .tc := ⟨.hbm, 295, rfl⟩
abbrev main_v217 : Ref sig .tc := ⟨.hbm, 296, rfl⟩
abbrev main_c_36 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_cst_37 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231_0 : Ref sig .tc := ⟨.hbm, 312, rfl⟩
abbrev main_v231_1 : Ref sig .tc := ⟨.hbm, 313, rfl⟩
abbrev main_v231_2 : Ref sig .tc := ⟨.hbm, 314, rfl⟩
abbrev main_cst_38 : Ref sig .tc := ⟨.hbm, 315, rfl⟩
abbrev main_v232 : Ref sig .tc := ⟨.hbm, 316, rfl⟩
abbrev main_v233 : Ref sig .tc := ⟨.hbm, 317, rfl⟩
abbrev main_cst_39 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_c_40 : Ref sig .tc := ⟨.hbm, 330, rfl⟩
abbrev main_v245 : Ref sig .tc := ⟨.hbm, 331, rfl⟩
abbrev main_v246 : Ref sig .tc := ⟨.hbm, 332, rfl⟩
abbrev main_c_41 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_v251 : Ref sig .tc := ⟨.hbm, 338, rfl⟩
abbrev main_cst_42 : Ref sig .tc := ⟨.hbm, 339, rfl⟩
abbrev main_v252 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_v256 : Ref sig .tc := ⟨.hbm, 344, rfl⟩
abbrev main_v257 : Ref sig .tc := ⟨.hbm, 345, rfl⟩
abbrev main_v258 : Ref sig .tc := ⟨.hbm, 346, rfl⟩
abbrev main_v259 : Ref sig .tc := ⟨.hbm, 347, rfl⟩
abbrev main_v260_0 : Ref sig .tc := ⟨.hbm, 348, rfl⟩
abbrev main_v260_1 : Ref sig .tc := ⟨.hbm, 349, rfl⟩
abbrev main_v260_2 : Ref sig .tc := ⟨.hbm, 350, rfl⟩
abbrev main_cst_43 : Ref sig .tc := ⟨.hbm, 351, rfl⟩
abbrev main_v261 : Ref sig .tc := ⟨.hbm, 352, rfl⟩
abbrev main_v262 : Ref sig .tc := ⟨.hbm, 353, rfl⟩
abbrev main_cst_44 : Ref sig .tc := ⟨.hbm, 354, rfl⟩
abbrev main_v263 : Ref sig .tc := ⟨.hbm, 355, rfl⟩
abbrev main_v264 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_c_45 : Ref sig .tc := ⟨.hbm, 366, rfl⟩
abbrev main_v274 : Ref sig .tc := ⟨.hbm, 367, rfl⟩
abbrev main_v275 : Ref sig .tc := ⟨.hbm, 368, rfl⟩
abbrev main_c_46 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_cst_47 : Ref sig .tc := ⟨.hbm, 375, rfl⟩
abbrev main_v281 : Ref sig .tc := ⟨.hbm, 376, rfl⟩
abbrev main_v282 : Ref sig .tc := ⟨.hbm, 377, rfl⟩
abbrev main_v283 : Ref sig .tc := ⟨.hbm, 378, rfl⟩
abbrev main_v284 : Ref sig .tc := ⟨.hbm, 379, rfl⟩
abbrev main_v285 : Ref sig .tc := ⟨.hbm, 380, rfl⟩
abbrev main_v286 : Ref sig .tc := ⟨.hbm, 381, rfl⟩
abbrev main_v287 : Ref sig .tc := ⟨.hbm, 382, rfl⟩
abbrev main_v288 : Ref sig .tc := ⟨.hbm, 383, rfl⟩
abbrev main_v289_0 : Ref sig .tc := ⟨.hbm, 384, rfl⟩
abbrev main_v289_1 : Ref sig .tc := ⟨.hbm, 385, rfl⟩
abbrev main_v289_2 : Ref sig .tc := ⟨.hbm, 386, rfl⟩
abbrev main_cst_48 : Ref sig .tc := ⟨.hbm, 387, rfl⟩
abbrev main_v290 : Ref sig .tc := ⟨.hbm, 388, rfl⟩
abbrev main_v291 : Ref sig .tc := ⟨.hbm, 389, rfl⟩
abbrev main_cst_49 : Ref sig .tc := ⟨.hbm, 390, rfl⟩
abbrev main_v292 : Ref sig .tc := ⟨.hbm, 391, rfl⟩
abbrev main_v293 : Ref sig .tc := ⟨.hbm, 392, rfl⟩
abbrev main_v294 : Ref sig .tc := ⟨.hbm, 393, rfl⟩
abbrev main_v295 : Ref sig .tc := ⟨.hbm, 394, rfl⟩
abbrev main_v296 : Ref sig .tc := ⟨.hbm, 395, rfl⟩
abbrev main_v297 : Ref sig .tc := ⟨.hbm, 396, rfl⟩
abbrev main_v298 : Ref sig .tc := ⟨.hbm, 397, rfl⟩
abbrev main_v299 : Ref sig .tc := ⟨.hbm, 398, rfl⟩
abbrev main_v300 : Ref sig .tc := ⟨.hbm, 399, rfl⟩
abbrev main_v301 : Ref sig .tc := ⟨.hbm, 400, rfl⟩
abbrev main_v302 : Ref sig .tc := ⟨.hbm, 401, rfl⟩
abbrev main_v303 : Ref sig .tc := ⟨.hbm, 402, rfl⟩
abbrev main_v304 : Ref sig .tc := ⟨.hbm, 403, rfl⟩
abbrev main_v305 : Ref sig .tc := ⟨.hbm, 404, rfl⟩
abbrev main_v306 : Ref sig .tc := ⟨.hbm, 405, rfl⟩
abbrev main_v307_0 : Ref sig .tc := ⟨.hbm, 406, rfl⟩
abbrev main_v307_1 : Ref sig .tc := ⟨.hbm, 407, rfl⟩
abbrev main_v307_2 : Ref sig .tc := ⟨.hbm, 408, rfl⟩
abbrev main_cst_50 : Ref sig .tc := ⟨.hbm, 409, rfl⟩
abbrev main_v308 : Ref sig .tc := ⟨.hbm, 410, rfl⟩
abbrev main_v309 : Ref sig .tc := ⟨.hbm, 411, rfl⟩
abbrev main_cst_51 : Ref sig .tc := ⟨.hbm, 412, rfl⟩
abbrev main_v310 : Ref sig .tc := ⟨.hbm, 413, rfl⟩
abbrev main_v311 : Ref sig .tc := ⟨.hbm, 414, rfl⟩
abbrev main_v312 : Ref sig .tc := ⟨.hbm, 415, rfl⟩
abbrev main_v313 : Ref sig .tc := ⟨.hbm, 416, rfl⟩
abbrev main_v314 : Ref sig .tc := ⟨.hbm, 417, rfl⟩
abbrev main_v315 : Ref sig .tc := ⟨.hbm, 418, rfl⟩
abbrev main_v316 : Ref sig .tc := ⟨.hbm, 419, rfl⟩
abbrev main_v317 : Ref sig .tc := ⟨.hbm, 420, rfl⟩
abbrev main_v318_0 : Ref sig .tc := ⟨.hbm, 421, rfl⟩
abbrev main_v318_1 : Ref sig .tc := ⟨.hbm, 422, rfl⟩
abbrev main_v318_2 : Ref sig .tc := ⟨.hbm, 423, rfl⟩
abbrev main_cst_52 : Ref sig .tc := ⟨.hbm, 424, rfl⟩
abbrev main_v319 : Ref sig .tc := ⟨.hbm, 425, rfl⟩
abbrev main_v320 : Ref sig .tc := ⟨.hbm, 426, rfl⟩
abbrev main_cst_53 : Ref sig .tc := ⟨.hbm, 427, rfl⟩
abbrev main_v321 : Ref sig .tc := ⟨.hbm, 428, rfl⟩
abbrev main_v322 : Ref sig .tc := ⟨.hbm, 429, rfl⟩
abbrev main_v323 : Ref sig .tc := ⟨.hbm, 430, rfl⟩
abbrev main_v324 : Ref sig .tc := ⟨.hbm, 431, rfl⟩
abbrev main_v325 : Ref sig .tc := ⟨.hbm, 432, rfl⟩
abbrev main_v326 : Ref sig .tc := ⟨.hbm, 433, rfl⟩
abbrev main_v327 : Ref sig .tc := ⟨.hbm, 434, rfl⟩
abbrev main_v328 : Ref sig .tc := ⟨.hbm, 435, rfl⟩
abbrev main_v329_0 : Ref sig .tc := ⟨.hbm, 436, rfl⟩
abbrev main_v329_1 : Ref sig .tc := ⟨.hbm, 437, rfl⟩
abbrev main_v329_2 : Ref sig .tc := ⟨.hbm, 438, rfl⟩
abbrev main_cst_54 : Ref sig .tc := ⟨.hbm, 439, rfl⟩
abbrev main_v330 : Ref sig .tc := ⟨.hbm, 440, rfl⟩
abbrev main_v331 : Ref sig .tc := ⟨.hbm, 441, rfl⟩
abbrev main_cst_55 : Ref sig .tc := ⟨.hbm, 442, rfl⟩
abbrev main_v332 : Ref sig .tc := ⟨.hbm, 443, rfl⟩
abbrev main_v333 : Ref sig .tc := ⟨.hbm, 444, rfl⟩
abbrev main_v334 : Ref sig .tc := ⟨.hbm, 445, rfl⟩
abbrev main_v335 : Ref sig .tc := ⟨.hbm, 446, rfl⟩
abbrev main_v336 : Ref sig .tc := ⟨.hbm, 447, rfl⟩
abbrev main_v337 : Ref sig .tc := ⟨.hbm, 448, rfl⟩
abbrev main_v338 : Ref sig .tc := ⟨.hbm, 449, rfl⟩
abbrev main_cst_56 : Ref sig .tc := ⟨.hbm, 450, rfl⟩
abbrev main_v339 : Ref sig .tc := ⟨.hbm, 451, rfl⟩
abbrev main_cst_57 : Ref sig .tc := ⟨.hbm, 452, rfl⟩
abbrev main_v340 : Ref sig .tc := ⟨.hbm, 453, rfl⟩
abbrev main_v341 : Ref sig .tc := ⟨.hbm, 454, rfl⟩
abbrev main_v342 : Ref sig .tc := ⟨.hbm, 455, rfl⟩
abbrev main_v343 : Ref sig .tc := ⟨.hbm, 456, rfl⟩
abbrev main_v344 : Ref sig .tc := ⟨.hbm, 457, rfl⟩
abbrev main_v345 : Ref sig .tc := ⟨.hbm, 458, rfl⟩
abbrev main_cst_58 : Ref sig .tc := ⟨.hbm, 459, rfl⟩
abbrev main_v346 : Ref sig .tc := ⟨.hbm, 460, rfl⟩
abbrev main_v347 : Ref sig .tc := ⟨.hbm, 461, rfl⟩
abbrev main_v348 : Ref sig .tc := ⟨.hbm, 462, rfl⟩
abbrev main_v349 : Ref sig .tc := ⟨.hbm, 463, rfl⟩
abbrev main_v350 : Ref sig .tc := ⟨.hbm, 464, rfl⟩
abbrev main_v351 : Ref sig .tc := ⟨.hbm, 465, rfl⟩
abbrev main_v352 : Ref sig .tc := ⟨.hbm, 466, rfl⟩
abbrev main_v353 : Ref sig .tc := ⟨.hbm, 467, rfl⟩
abbrev main_v354 : Ref sig .tc := ⟨.hbm, 468, rfl⟩
abbrev main_cst_59 : Ref sig .tc := ⟨.hbm, 469, rfl⟩
abbrev main_v355 : Ref sig .tc := ⟨.hbm, 470, rfl⟩
abbrev main_v356 : Ref sig .tc := ⟨.hbm, 471, rfl⟩
abbrev main_v357 : Ref sig .tc := ⟨.hbm, 472, rfl⟩
abbrev main_v358 : Ref sig .tc := ⟨.hbm, 473, rfl⟩
abbrev main_call0_cst : Ref sig .tc := ⟨.hbm, 474, rfl⟩
abbrev main_call0_v0 : Ref sig .tc := ⟨.hbm, 475, rfl⟩
abbrev main_v359 : Ref sig .tc := ⟨.hbm, 476, rfl⟩
abbrev main_v360 : Ref sig .tc := ⟨.hbm, 477, rfl⟩
abbrev main_cst_60 : Ref sig .tc := ⟨.hbm, 478, rfl⟩
abbrev main_v361 : Ref sig .tc := ⟨.hbm, 479, rfl⟩
abbrev main_v362 : Ref sig .tc := ⟨.hbm, 480, rfl⟩
abbrev main_cst_61 : Ref sig .tc := ⟨.hbm, 481, rfl⟩
abbrev main_v363 : Ref sig .tc := ⟨.hbm, 482, rfl⟩
abbrev main_v364 : Ref sig .tc := ⟨.hbm, 483, rfl⟩
abbrev main_v365 : Ref sig .tc := ⟨.hbm, 484, rfl⟩
abbrev main_cst_62 : Ref sig .tc := ⟨.hbm, 485, rfl⟩
abbrev main_v366 : Ref sig .tc := ⟨.hbm, 486, rfl⟩
abbrev main_v367 : Ref sig .tc := ⟨.hbm, 487, rfl⟩
abbrev main_v368 : Ref sig .tc := ⟨.hbm, 488, rfl⟩
abbrev main_cst_63 : Ref sig .tc := ⟨.hbm, 489, rfl⟩
abbrev main_v369 : Ref sig .tc := ⟨.hbm, 490, rfl⟩
abbrev main_v370 : Ref sig .tc := ⟨.hbm, 491, rfl⟩
abbrev main_v371 : Ref sig .tc := ⟨.hbm, 492, rfl⟩
abbrev main_cst_64 : Ref sig .tc := ⟨.hbm, 493, rfl⟩
abbrev main_v372 : Ref sig .tc := ⟨.hbm, 494, rfl⟩
abbrev main_v373 : Ref sig .tc := ⟨.hbm, 495, rfl⟩
abbrev main_cst_65 : Ref sig .tc := ⟨.hbm, 496, rfl⟩
abbrev main_v374 : Ref sig .tc := ⟨.hbm, 497, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg6_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc4_stg5_0 : Ref sig .tc := ⟨.vmem, 42, rfl⟩
abbrev cc4_stg6_0 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg4_1 : Ref sig .tc := ⟨.vmem, 59, rfl⟩
abbrev cc6_stg5_0 : Ref sig .tc := ⟨.vmem, 60, rfl⟩
abbrev cc6_stg6_0 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg5_0 : Ref sig .tc := ⟨.vmem, 68, rfl⟩
abbrev cc7_stg5_1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg1_1 : Ref sig .tc := ⟨.vmem, 73, rfl⟩
abbrev cc8_stg2_0 : Ref sig .tc := ⟨.vmem, 74, rfl⟩
abbrev cc8_stg2_1 : Ref sig .tc := ⟨.vmem, 75, rfl⟩
abbrev cc8_stg3_0 : Ref sig .tc := ⟨.vmem, 76, rfl⟩
abbrev cc8_stg4_0 : Ref sig .tc := ⟨.vmem, 77, rfl⟩
abbrev cc8_stg5_0 : Ref sig .tc := ⟨.vmem, 78, rfl⟩
abbrev cc8_stg6_0 : Ref sig .tc := ⟨.vmem, 79, rfl⟩
abbrev cc8_stg7_0 : Ref sig .tc := ⟨.vmem, 80, rfl⟩
abbrev cc8_stg7_1 : Ref sig .tc := ⟨.vmem, 81, rfl⟩
abbrev cc8_stg8_0 : Ref sig .tc := ⟨.vmem, 82, rfl⟩
abbrev cc8_stg9_0 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg2_0 : Ref sig .tc := ⟨.vmem, 87, rfl⟩
abbrev cc9_stg3_0 : Ref sig .tc := ⟨.vmem, 88, rfl⟩
abbrev cc9_stg4_0 : Ref sig .tc := ⟨.vmem, 89, rfl⟩
abbrev cc9_stg5_0 : Ref sig .tc := ⟨.vmem, 90, rfl⟩
abbrev cc9_stg5_1 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg1_1 : Ref sig .tc := ⟨.vmem, 95, rfl⟩
abbrev cc10_stg2_0 : Ref sig .tc := ⟨.vmem, 96, rfl⟩
abbrev cc10_stg3_0 : Ref sig .tc := ⟨.vmem, 97, rfl⟩
abbrev cc10_stg4_0 : Ref sig .tc := ⟨.vmem, 98, rfl⟩
abbrev cc10_stg4_1 : Ref sig .tc := ⟨.vmem, 99, rfl⟩
abbrev cc10_stg5_0 : Ref sig .tc := ⟨.vmem, 100, rfl⟩
abbrev cc10_stg6_0 : Ref sig .tc := ⟨.vmem, 101, rfl⟩
abbrev cc11_stg0_0 : Ref sig .tc := ⟨.vmem, 102, rfl⟩
abbrev cc11_stg0_1 : Ref sig .tc := ⟨.vmem, 103, rfl⟩
abbrev cc11_stg1_0 : Ref sig .tc := ⟨.vmem, 104, rfl⟩
abbrev cc11_stg2_0 : Ref sig .tc := ⟨.vmem, 105, rfl⟩
abbrev cc11_stg3_0 : Ref sig .tc := ⟨.vmem, 106, rfl⟩
abbrev cc11_stg4_0 : Ref sig .tc := ⟨.vmem, 107, rfl⟩
abbrev cc11_stg5_0 : Ref sig .tc := ⟨.vmem, 108, rfl⟩
abbrev cc11_stg5_1 : Ref sig .tc := ⟨.vmem, 109, rfl⟩
abbrev cc12_stg0_0 : Ref sig .tc := ⟨.vmem, 110, rfl⟩
abbrev cc12_stg0_1 : Ref sig .tc := ⟨.vmem, 111, rfl⟩
abbrev cc12_stg1_0 : Ref sig .tc := ⟨.vmem, 112, rfl⟩
abbrev cc12_stg1_1 : Ref sig .tc := ⟨.vmem, 113, rfl⟩
abbrev cc12_stg2_0 : Ref sig .tc := ⟨.vmem, 114, rfl⟩
abbrev cc12_stg3_0 : Ref sig .tc := ⟨.vmem, 115, rfl⟩
abbrev cc12_stg4_0 : Ref sig .tc := ⟨.vmem, 116, rfl⟩
abbrev cc12_stg4_1 : Ref sig .tc := ⟨.vmem, 117, rfl⟩
abbrev cc12_stg5_0 : Ref sig .tc := ⟨.vmem, 118, rfl⟩
abbrev cc12_stg6_0 : Ref sig .tc := ⟨.vmem, 119, rfl⟩
abbrev cc13_stg0_0 : Ref sig .tc := ⟨.vmem, 120, rfl⟩
abbrev cc13_stg0_1 : Ref sig .tc := ⟨.vmem, 121, rfl⟩
abbrev cc13_stg1_0 : Ref sig .tc := ⟨.vmem, 122, rfl⟩
abbrev cc13_stg2_0 : Ref sig .tc := ⟨.vmem, 123, rfl⟩
abbrev cc13_stg3_0 : Ref sig .tc := ⟨.vmem, 124, rfl⟩
abbrev cc13_stg4_0 : Ref sig .tc := ⟨.vmem, 125, rfl⟩
abbrev cc13_stg5_0 : Ref sig .tc := ⟨.vmem, 126, rfl⟩
abbrev cc13_stg5_1 : Ref sig .tc := ⟨.vmem, 127, rfl⟩
abbrev cc14_stg0_0 : Ref sig .tc := ⟨.vmem, 128, rfl⟩
abbrev cc14_stg0_1 : Ref sig .tc := ⟨.vmem, 129, rfl⟩
abbrev cc14_stg1_0 : Ref sig .tc := ⟨.vmem, 130, rfl⟩
abbrev cc14_stg1_1 : Ref sig .tc := ⟨.vmem, 131, rfl⟩
abbrev cc14_stg2_0 : Ref sig .tc := ⟨.vmem, 132, rfl⟩
abbrev cc14_stg3_0 : Ref sig .tc := ⟨.vmem, 133, rfl⟩
abbrev cc14_stg4_0 : Ref sig .tc := ⟨.vmem, 134, rfl⟩
abbrev cc14_stg4_1 : Ref sig .tc := ⟨.vmem, 135, rfl⟩
abbrev cc14_stg5_0 : Ref sig .tc := ⟨.vmem, 136, rfl⟩
abbrev cc14_stg6_0 : Ref sig .tc := ⟨.vmem, 137, rfl⟩
abbrev cc15_stg0_0 : Ref sig .tc := ⟨.vmem, 138, rfl⟩
abbrev cc15_stg0_1 : Ref sig .tc := ⟨.vmem, 139, rfl⟩
abbrev cc15_stg1_0 : Ref sig .tc := ⟨.vmem, 140, rfl⟩
abbrev cc15_stg2_0 : Ref sig .tc := ⟨.vmem, 141, rfl⟩
abbrev cc15_stg3_0 : Ref sig .tc := ⟨.vmem, 142, rfl⟩
abbrev cc15_stg4_0 : Ref sig .tc := ⟨.vmem, 143, rfl⟩
abbrev cc15_stg5_0 : Ref sig .tc := ⟨.vmem, 144, rfl⟩
abbrev cc15_stg5_1 : Ref sig .tc := ⟨.vmem, 145, rfl⟩
abbrev cc16_stg0_0 : Ref sig .tc := ⟨.vmem, 146, rfl⟩
abbrev cc16_stg0_1 : Ref sig .tc := ⟨.vmem, 147, rfl⟩
abbrev cc16_stg1_0 : Ref sig .tc := ⟨.vmem, 148, rfl⟩
abbrev cc16_stg1_1 : Ref sig .tc := ⟨.vmem, 149, rfl⟩
abbrev cc16_stg2_0 : Ref sig .tc := ⟨.vmem, 150, rfl⟩
abbrev cc16_stg2_1 : Ref sig .tc := ⟨.vmem, 151, rfl⟩
abbrev cc16_stg3_0 : Ref sig .tc := ⟨.vmem, 152, rfl⟩
abbrev cc16_stg4_0 : Ref sig .tc := ⟨.vmem, 153, rfl⟩
abbrev cc16_stg5_0 : Ref sig .tc := ⟨.vmem, 154, rfl⟩
abbrev cc16_stg6_0 : Ref sig .tc := ⟨.vmem, 155, rfl⟩
abbrev cc16_stg7_0 : Ref sig .tc := ⟨.vmem, 156, rfl⟩
abbrev cc16_stg7_1 : Ref sig .tc := ⟨.vmem, 157, rfl⟩
abbrev cc16_stg8_0 : Ref sig .tc := ⟨.vmem, 158, rfl⟩
abbrev cc16_stg9_0 : Ref sig .tc := ⟨.vmem, 159, rfl⟩
abbrev cc17_stg0_0 : Ref sig .tc := ⟨.vmem, 160, rfl⟩
abbrev cc17_stg0_1 : Ref sig .tc := ⟨.vmem, 161, rfl⟩
abbrev cc17_stg1_0 : Ref sig .tc := ⟨.vmem, 162, rfl⟩
abbrev cc17_stg2_0 : Ref sig .tc := ⟨.vmem, 163, rfl⟩
abbrev cc17_stg3_0 : Ref sig .tc := ⟨.vmem, 164, rfl⟩
abbrev cc17_stg4_0 : Ref sig .tc := ⟨.vmem, 165, rfl⟩
abbrev cc17_stg5_0 : Ref sig .tc := ⟨.vmem, 166, rfl⟩
abbrev cc17_stg5_1 : Ref sig .tc := ⟨.vmem, 167, rfl⟩
abbrev cc18_stg0_0 : Ref sig .tc := ⟨.vmem, 168, rfl⟩
abbrev cc18_stg0_1 : Ref sig .tc := ⟨.vmem, 169, rfl⟩
abbrev cc18_stg1_0 : Ref sig .tc := ⟨.vmem, 170, rfl⟩
abbrev cc18_stg1_1 : Ref sig .tc := ⟨.vmem, 171, rfl⟩
abbrev cc18_stg2_0 : Ref sig .tc := ⟨.vmem, 172, rfl⟩
abbrev cc18_stg3_0 : Ref sig .tc := ⟨.vmem, 173, rfl⟩
abbrev cc18_stg4_0 : Ref sig .tc := ⟨.vmem, 174, rfl⟩
abbrev cc18_stg4_1 : Ref sig .tc := ⟨.vmem, 175, rfl⟩
abbrev cc18_stg5_0 : Ref sig .tc := ⟨.vmem, 176, rfl⟩
abbrev cc18_stg6_0 : Ref sig .tc := ⟨.vmem, 177, rfl⟩
abbrev cc19_stg0_0 : Ref sig .tc := ⟨.vmem, 178, rfl⟩
abbrev cc19_stg0_1 : Ref sig .tc := ⟨.vmem, 179, rfl⟩
abbrev cc19_stg1_0 : Ref sig .tc := ⟨.vmem, 180, rfl⟩
abbrev cc19_stg2_0 : Ref sig .tc := ⟨.vmem, 181, rfl⟩
abbrev cc19_stg3_0 : Ref sig .tc := ⟨.vmem, 182, rfl⟩
abbrev cc19_stg4_0 : Ref sig .tc := ⟨.vmem, 183, rfl⟩
abbrev cc19_stg5_0 : Ref sig .tc := ⟨.vmem, 184, rfl⟩
abbrev cc19_stg5_1 : Ref sig .tc := ⟨.vmem, 185, rfl⟩
abbrev cc20_stg0_0 : Ref sig .tc := ⟨.vmem, 186, rfl⟩
abbrev cc20_stg0_1 : Ref sig .tc := ⟨.vmem, 187, rfl⟩
abbrev cc20_stg1_0 : Ref sig .tc := ⟨.vmem, 188, rfl⟩
abbrev cc20_stg1_1 : Ref sig .tc := ⟨.vmem, 189, rfl⟩
abbrev cc20_stg2_0 : Ref sig .tc := ⟨.vmem, 190, rfl⟩
abbrev cc20_stg3_0 : Ref sig .tc := ⟨.vmem, 191, rfl⟩
abbrev cc20_stg4_0 : Ref sig .tc := ⟨.vmem, 192, rfl⟩
abbrev cc20_stg4_1 : Ref sig .tc := ⟨.vmem, 193, rfl⟩
abbrev cc20_stg5_0 : Ref sig .tc := ⟨.vmem, 194, rfl⟩
abbrev cc20_stg6_0 : Ref sig .tc := ⟨.vmem, 195, rfl⟩
abbrev cc21_stg0_0 : Ref sig .tc := ⟨.vmem, 196, rfl⟩
abbrev cc21_stg0_1 : Ref sig .tc := ⟨.vmem, 197, rfl⟩
abbrev cc21_stg1_0 : Ref sig .tc := ⟨.vmem, 198, rfl⟩
abbrev cc21_stg2_0 : Ref sig .tc := ⟨.vmem, 199, rfl⟩
abbrev cc21_stg3_0 : Ref sig .tc := ⟨.vmem, 200, rfl⟩
abbrev cc21_stg4_0 : Ref sig .tc := ⟨.vmem, 201, rfl⟩
abbrev cc21_stg5_0 : Ref sig .tc := ⟨.vmem, 202, rfl⟩
abbrev cc21_stg5_1 : Ref sig .tc := ⟨.vmem, 203, rfl⟩
abbrev cc22_stg0_0 : Ref sig .tc := ⟨.vmem, 204, rfl⟩
abbrev cc22_stg0_1 : Ref sig .tc := ⟨.vmem, 205, rfl⟩
abbrev cc22_stg1_0 : Ref sig .tc := ⟨.vmem, 206, rfl⟩
abbrev cc22_stg1_1 : Ref sig .tc := ⟨.vmem, 207, rfl⟩
abbrev cc22_stg2_0 : Ref sig .tc := ⟨.vmem, 208, rfl⟩
abbrev cc22_stg3_0 : Ref sig .tc := ⟨.vmem, 209, rfl⟩
abbrev cc22_stg4_0 : Ref sig .tc := ⟨.vmem, 210, rfl⟩
abbrev cc22_stg4_1 : Ref sig .tc := ⟨.vmem, 211, rfl⟩
abbrev cc22_stg5_0 : Ref sig .tc := ⟨.vmem, 212, rfl⟩
abbrev cc22_stg6_0 : Ref sig .tc := ⟨.vmem, 213, rfl⟩
abbrev cc23_stg0_0 : Ref sig .tc := ⟨.vmem, 214, rfl⟩
abbrev cc23_stg0_1 : Ref sig .tc := ⟨.vmem, 215, rfl⟩
abbrev cc23_stg1_0 : Ref sig .tc := ⟨.vmem, 216, rfl⟩
abbrev cc23_stg2_0 : Ref sig .tc := ⟨.vmem, 217, rfl⟩
abbrev cc23_stg3_0 : Ref sig .tc := ⟨.vmem, 218, rfl⟩
abbrev cc23_stg4_0 : Ref sig .tc := ⟨.vmem, 219, rfl⟩
abbrev cc23_stg5_0 : Ref sig .tc := ⟨.vmem, 220, rfl⟩
abbrev cc23_stg5_1 : Ref sig .tc := ⟨.vmem, 221, rfl⟩
abbrev cc24_stg0_0 : Ref sig .tc := ⟨.vmem, 222, rfl⟩
abbrev cc24_stg0_1 : Ref sig .tc := ⟨.vmem, 223, rfl⟩
abbrev cc24_stg1_0 : Ref sig .tc := ⟨.vmem, 224, rfl⟩
abbrev cc24_stg1_1 : Ref sig .tc := ⟨.vmem, 225, rfl⟩
abbrev cc24_stg2_0 : Ref sig .tc := ⟨.vmem, 226, rfl⟩
abbrev cc24_stg2_1 : Ref sig .tc := ⟨.vmem, 227, rfl⟩
abbrev cc24_stg3_0 : Ref sig .tc := ⟨.vmem, 228, rfl⟩
abbrev cc24_stg4_0 : Ref sig .tc := ⟨.vmem, 229, rfl⟩
abbrev cc24_stg5_0 : Ref sig .tc := ⟨.vmem, 230, rfl⟩
abbrev cc24_stg6_0 : Ref sig .tc := ⟨.vmem, 231, rfl⟩
abbrev cc24_stg7_0 : Ref sig .tc := ⟨.vmem, 232, rfl⟩
abbrev cc24_stg7_1 : Ref sig .tc := ⟨.vmem, 233, rfl⟩
abbrev cc24_stg8_0 : Ref sig .tc := ⟨.vmem, 234, rfl⟩
abbrev cc24_stg9_0 : Ref sig .tc := ⟨.vmem, 235, rfl⟩
abbrev cc25_stg0_0 : Ref sig .tc := ⟨.vmem, 236, rfl⟩
abbrev cc25_stg0_1 : Ref sig .tc := ⟨.vmem, 237, rfl⟩
abbrev cc25_stg1_0 : Ref sig .tc := ⟨.vmem, 238, rfl⟩
abbrev cc25_stg2_0 : Ref sig .tc := ⟨.vmem, 239, rfl⟩
abbrev cc25_stg3_0 : Ref sig .tc := ⟨.vmem, 240, rfl⟩
abbrev cc25_stg4_0 : Ref sig .tc := ⟨.vmem, 241, rfl⟩
abbrev cc25_stg5_0 : Ref sig .tc := ⟨.vmem, 242, rfl⟩
abbrev cc25_stg5_1 : Ref sig .tc := ⟨.vmem, 243, rfl⟩
abbrev cc26_stg0_0 : Ref sig .tc := ⟨.vmem, 244, rfl⟩
abbrev cc26_stg0_1 : Ref sig .tc := ⟨.vmem, 245, rfl⟩
abbrev cc26_stg1_0 : Ref sig .tc := ⟨.vmem, 246, rfl⟩
abbrev cc26_stg2_0 : Ref sig .tc := ⟨.vmem, 247, rfl⟩
abbrev cc26_stg3_0 : Ref sig .tc := ⟨.vmem, 248, rfl⟩
abbrev cc26_stg3_1 : Ref sig .tc := ⟨.vmem, 249, rfl⟩
abbrev cc26_stg4_0 : Ref sig .tc := ⟨.vmem, 250, rfl⟩
abbrev cc26_stg5_0 : Ref sig .tc := ⟨.vmem, 251, rfl⟩
abbrev cc27_stg0_0 : Ref sig .tc := ⟨.vmem, 252, rfl⟩
abbrev cc27_stg0_1 : Ref sig .tc := ⟨.vmem, 253, rfl⟩
abbrev cc27_stg1_0 : Ref sig .tc := ⟨.vmem, 254, rfl⟩
abbrev cc27_stg2_0 : Ref sig .tc := ⟨.vmem, 255, rfl⟩
abbrev cc27_stg3_0 : Ref sig .tc := ⟨.vmem, 256, rfl⟩
abbrev cc27_stg4_0 : Ref sig .tc := ⟨.vmem, 257, rfl⟩
abbrev cc27_stg5_0 : Ref sig .tc := ⟨.vmem, 258, rfl⟩
abbrev cc27_stg5_1 : Ref sig .tc := ⟨.vmem, 259, rfl⟩
abbrev cc28_stg0_0 : Ref sig .tc := ⟨.vmem, 260, rfl⟩
abbrev cc28_stg0_1 : Ref sig .tc := ⟨.vmem, 261, rfl⟩
abbrev cc28_stg1_0 : Ref sig .tc := ⟨.vmem, 262, rfl⟩
abbrev cc28_stg2_0 : Ref sig .tc := ⟨.vmem, 263, rfl⟩
abbrev cc28_stg3_0 : Ref sig .tc := ⟨.vmem, 264, rfl⟩
abbrev cc28_stg3_1 : Ref sig .tc := ⟨.vmem, 265, rfl⟩
abbrev cc28_stg4_0 : Ref sig .tc := ⟨.vmem, 266, rfl⟩
abbrev cc28_stg5_0 : Ref sig .tc := ⟨.vmem, 267, rfl⟩
abbrev cc29_stg0_0 : Ref sig .tc := ⟨.vmem, 268, rfl⟩
abbrev cc29_stg0_1 : Ref sig .tc := ⟨.vmem, 269, rfl⟩
abbrev cc29_stg1_0 : Ref sig .tc := ⟨.vmem, 270, rfl⟩
abbrev cc29_stg2_0 : Ref sig .tc := ⟨.vmem, 271, rfl⟩
abbrev cc29_stg3_0 : Ref sig .tc := ⟨.vmem, 272, rfl⟩
abbrev cc29_stg4_0 : Ref sig .tc := ⟨.vmem, 273, rfl⟩
abbrev cc29_stg5_0 : Ref sig .tc := ⟨.vmem, 274, rfl⟩
abbrev cc29_stg5_1 : Ref sig .tc := ⟨.vmem, 275, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem6_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem4_1 : DmaSem sig := 41
abbrev cc4_sem5_0 : DmaSem sig := 42
abbrev cc4_sem6_0 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem4_1 : DmaSem sig := 59
abbrev cc6_sem5_0 : DmaSem sig := 60
abbrev cc6_sem6_0 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem4_0 : DmaSem sig := 67
abbrev cc7_sem5_0 : DmaSem sig := 68
abbrev cc7_sem5_1 : DmaSem sig := 69
abbrev cc8_sem0_0 : DmaSem sig := 70
abbrev cc8_sem0_1 : DmaSem sig := 71
abbrev cc8_sem1_0 : DmaSem sig := 72
abbrev cc8_sem1_1 : DmaSem sig := 73
abbrev cc8_sem2_0 : DmaSem sig := 74
abbrev cc8_sem2_1 : DmaSem sig := 75
abbrev cc8_sem3_0 : DmaSem sig := 76
abbrev cc8_sem4_0 : DmaSem sig := 77
abbrev cc8_sem5_0 : DmaSem sig := 78
abbrev cc8_sem6_0 : DmaSem sig := 79
abbrev cc8_sem7_0 : DmaSem sig := 80
abbrev cc8_sem7_1 : DmaSem sig := 81
abbrev cc8_sem8_0 : DmaSem sig := 82
abbrev cc8_sem9_0 : DmaSem sig := 83
abbrev cc9_sem0_0 : DmaSem sig := 84
abbrev cc9_sem0_1 : DmaSem sig := 85
abbrev cc9_sem1_0 : DmaSem sig := 86
abbrev cc9_sem2_0 : DmaSem sig := 87
abbrev cc9_sem3_0 : DmaSem sig := 88
abbrev cc9_sem4_0 : DmaSem sig := 89
abbrev cc9_sem5_0 : DmaSem sig := 90
abbrev cc9_sem5_1 : DmaSem sig := 91
abbrev cc10_sem0_0 : DmaSem sig := 92
abbrev cc10_sem0_1 : DmaSem sig := 93
abbrev cc10_sem1_0 : DmaSem sig := 94
abbrev cc10_sem1_1 : DmaSem sig := 95
abbrev cc10_sem2_0 : DmaSem sig := 96
abbrev cc10_sem3_0 : DmaSem sig := 97
abbrev cc10_sem4_0 : DmaSem sig := 98
abbrev cc10_sem4_1 : DmaSem sig := 99
abbrev cc10_sem5_0 : DmaSem sig := 100
abbrev cc10_sem6_0 : DmaSem sig := 101
abbrev cc11_sem0_0 : DmaSem sig := 102
abbrev cc11_sem0_1 : DmaSem sig := 103
abbrev cc11_sem1_0 : DmaSem sig := 104
abbrev cc11_sem2_0 : DmaSem sig := 105
abbrev cc11_sem3_0 : DmaSem sig := 106
abbrev cc11_sem4_0 : DmaSem sig := 107
abbrev cc11_sem5_0 : DmaSem sig := 108
abbrev cc11_sem5_1 : DmaSem sig := 109
abbrev cc12_sem0_0 : DmaSem sig := 110
abbrev cc12_sem0_1 : DmaSem sig := 111
abbrev cc12_sem1_0 : DmaSem sig := 112
abbrev cc12_sem1_1 : DmaSem sig := 113
abbrev cc12_sem2_0 : DmaSem sig := 114
abbrev cc12_sem3_0 : DmaSem sig := 115
abbrev cc12_sem4_0 : DmaSem sig := 116
abbrev cc12_sem4_1 : DmaSem sig := 117
abbrev cc12_sem5_0 : DmaSem sig := 118
abbrev cc12_sem6_0 : DmaSem sig := 119
abbrev cc13_sem0_0 : DmaSem sig := 120
abbrev cc13_sem0_1 : DmaSem sig := 121
abbrev cc13_sem1_0 : DmaSem sig := 122
abbrev cc13_sem2_0 : DmaSem sig := 123
abbrev cc13_sem3_0 : DmaSem sig := 124
abbrev cc13_sem4_0 : DmaSem sig := 125
abbrev cc13_sem5_0 : DmaSem sig := 126
abbrev cc13_sem5_1 : DmaSem sig := 127
abbrev cc14_sem0_0 : DmaSem sig := 128
abbrev cc14_sem0_1 : DmaSem sig := 129
abbrev cc14_sem1_0 : DmaSem sig := 130
abbrev cc14_sem1_1 : DmaSem sig := 131
abbrev cc14_sem2_0 : DmaSem sig := 132
abbrev cc14_sem3_0 : DmaSem sig := 133
abbrev cc14_sem4_0 : DmaSem sig := 134
abbrev cc14_sem4_1 : DmaSem sig := 135
abbrev cc14_sem5_0 : DmaSem sig := 136
abbrev cc14_sem6_0 : DmaSem sig := 137
abbrev cc15_sem0_0 : DmaSem sig := 138
abbrev cc15_sem0_1 : DmaSem sig := 139
abbrev cc15_sem1_0 : DmaSem sig := 140
abbrev cc15_sem2_0 : DmaSem sig := 141
abbrev cc15_sem3_0 : DmaSem sig := 142
abbrev cc15_sem4_0 : DmaSem sig := 143
abbrev cc15_sem5_0 : DmaSem sig := 144
abbrev cc15_sem5_1 : DmaSem sig := 145
abbrev cc16_sem0_0 : DmaSem sig := 146
abbrev cc16_sem0_1 : DmaSem sig := 147
abbrev cc16_sem1_0 : DmaSem sig := 148
abbrev cc16_sem1_1 : DmaSem sig := 149
abbrev cc16_sem2_0 : DmaSem sig := 150
abbrev cc16_sem2_1 : DmaSem sig := 151
abbrev cc16_sem3_0 : DmaSem sig := 152
abbrev cc16_sem4_0 : DmaSem sig := 153
abbrev cc16_sem5_0 : DmaSem sig := 154
abbrev cc16_sem6_0 : DmaSem sig := 155
abbrev cc16_sem7_0 : DmaSem sig := 156
abbrev cc16_sem7_1 : DmaSem sig := 157
abbrev cc16_sem8_0 : DmaSem sig := 158
abbrev cc16_sem9_0 : DmaSem sig := 159
abbrev cc17_sem0_0 : DmaSem sig := 160
abbrev cc17_sem0_1 : DmaSem sig := 161
abbrev cc17_sem1_0 : DmaSem sig := 162
abbrev cc17_sem2_0 : DmaSem sig := 163
abbrev cc17_sem3_0 : DmaSem sig := 164
abbrev cc17_sem4_0 : DmaSem sig := 165
abbrev cc17_sem5_0 : DmaSem sig := 166
abbrev cc17_sem5_1 : DmaSem sig := 167
abbrev cc18_sem0_0 : DmaSem sig := 168
abbrev cc18_sem0_1 : DmaSem sig := 169
abbrev cc18_sem1_0 : DmaSem sig := 170
abbrev cc18_sem1_1 : DmaSem sig := 171
abbrev cc18_sem2_0 : DmaSem sig := 172
abbrev cc18_sem3_0 : DmaSem sig := 173
abbrev cc18_sem4_0 : DmaSem sig := 174
abbrev cc18_sem4_1 : DmaSem sig := 175
abbrev cc18_sem5_0 : DmaSem sig := 176
abbrev cc18_sem6_0 : DmaSem sig := 177
abbrev cc19_sem0_0 : DmaSem sig := 178
abbrev cc19_sem0_1 : DmaSem sig := 179
abbrev cc19_sem1_0 : DmaSem sig := 180
abbrev cc19_sem2_0 : DmaSem sig := 181
abbrev cc19_sem3_0 : DmaSem sig := 182
abbrev cc19_sem4_0 : DmaSem sig := 183
abbrev cc19_sem5_0 : DmaSem sig := 184
abbrev cc19_sem5_1 : DmaSem sig := 185
abbrev cc20_sem0_0 : DmaSem sig := 186
abbrev cc20_sem0_1 : DmaSem sig := 187
abbrev cc20_sem1_0 : DmaSem sig := 188
abbrev cc20_sem1_1 : DmaSem sig := 189
abbrev cc20_sem2_0 : DmaSem sig := 190
abbrev cc20_sem3_0 : DmaSem sig := 191
abbrev cc20_sem4_0 : DmaSem sig := 192
abbrev cc20_sem4_1 : DmaSem sig := 193
abbrev cc20_sem5_0 : DmaSem sig := 194
abbrev cc20_sem6_0 : DmaSem sig := 195
abbrev cc21_sem0_0 : DmaSem sig := 196
abbrev cc21_sem0_1 : DmaSem sig := 197
abbrev cc21_sem1_0 : DmaSem sig := 198
abbrev cc21_sem2_0 : DmaSem sig := 199
abbrev cc21_sem3_0 : DmaSem sig := 200
abbrev cc21_sem4_0 : DmaSem sig := 201
abbrev cc21_sem5_0 : DmaSem sig := 202
abbrev cc21_sem5_1 : DmaSem sig := 203
abbrev cc22_sem0_0 : DmaSem sig := 204
abbrev cc22_sem0_1 : DmaSem sig := 205
abbrev cc22_sem1_0 : DmaSem sig := 206
abbrev cc22_sem1_1 : DmaSem sig := 207
abbrev cc22_sem2_0 : DmaSem sig := 208
abbrev cc22_sem3_0 : DmaSem sig := 209
abbrev cc22_sem4_0 : DmaSem sig := 210
abbrev cc22_sem4_1 : DmaSem sig := 211
abbrev cc22_sem5_0 : DmaSem sig := 212
abbrev cc22_sem6_0 : DmaSem sig := 213
abbrev cc23_sem0_0 : DmaSem sig := 214
abbrev cc23_sem0_1 : DmaSem sig := 215
abbrev cc23_sem1_0 : DmaSem sig := 216
abbrev cc23_sem2_0 : DmaSem sig := 217
abbrev cc23_sem3_0 : DmaSem sig := 218
abbrev cc23_sem4_0 : DmaSem sig := 219
abbrev cc23_sem5_0 : DmaSem sig := 220
abbrev cc23_sem5_1 : DmaSem sig := 221
abbrev cc24_sem0_0 : DmaSem sig := 222
abbrev cc24_sem0_1 : DmaSem sig := 223
abbrev cc24_sem1_0 : DmaSem sig := 224
abbrev cc24_sem1_1 : DmaSem sig := 225
abbrev cc24_sem2_0 : DmaSem sig := 226
abbrev cc24_sem2_1 : DmaSem sig := 227
abbrev cc24_sem3_0 : DmaSem sig := 228
abbrev cc24_sem4_0 : DmaSem sig := 229
abbrev cc24_sem5_0 : DmaSem sig := 230
abbrev cc24_sem6_0 : DmaSem sig := 231
abbrev cc24_sem7_0 : DmaSem sig := 232
abbrev cc24_sem7_1 : DmaSem sig := 233
abbrev cc24_sem8_0 : DmaSem sig := 234
abbrev cc24_sem9_0 : DmaSem sig := 235
abbrev cc25_sem0_0 : DmaSem sig := 236
abbrev cc25_sem0_1 : DmaSem sig := 237
abbrev cc25_sem1_0 : DmaSem sig := 238
abbrev cc25_sem2_0 : DmaSem sig := 239
abbrev cc25_sem3_0 : DmaSem sig := 240
abbrev cc25_sem4_0 : DmaSem sig := 241
abbrev cc25_sem5_0 : DmaSem sig := 242
abbrev cc25_sem5_1 : DmaSem sig := 243
abbrev cc26_sem0_0 : DmaSem sig := 244
abbrev cc26_sem0_1 : DmaSem sig := 245
abbrev cc26_sem1_0 : DmaSem sig := 246
abbrev cc26_sem2_0 : DmaSem sig := 247
abbrev cc26_sem3_0 : DmaSem sig := 248
abbrev cc26_sem3_1 : DmaSem sig := 249
abbrev cc26_sem4_0 : DmaSem sig := 250
abbrev cc26_sem5_0 : DmaSem sig := 251
abbrev cc27_sem0_0 : DmaSem sig := 252
abbrev cc27_sem0_1 : DmaSem sig := 253
abbrev cc27_sem1_0 : DmaSem sig := 254
abbrev cc27_sem2_0 : DmaSem sig := 255
abbrev cc27_sem3_0 : DmaSem sig := 256
abbrev cc27_sem4_0 : DmaSem sig := 257
abbrev cc27_sem5_0 : DmaSem sig := 258
abbrev cc27_sem5_1 : DmaSem sig := 259
abbrev cc28_sem0_0 : DmaSem sig := 260
abbrev cc28_sem0_1 : DmaSem sig := 261
abbrev cc28_sem1_0 : DmaSem sig := 262
abbrev cc28_sem2_0 : DmaSem sig := 263
abbrev cc28_sem3_0 : DmaSem sig := 264
abbrev cc28_sem3_1 : DmaSem sig := 265
abbrev cc28_sem4_0 : DmaSem sig := 266
abbrev cc28_sem5_0 : DmaSem sig := 267
abbrev cc29_sem0_0 : DmaSem sig := 268
abbrev cc29_sem0_1 : DmaSem sig := 269
abbrev cc29_sem1_0 : DmaSem sig := 270
abbrev cc29_sem2_0 : DmaSem sig := 271
abbrev cc29_sem3_0 : DmaSem sig := 272
abbrev cc29_sem4_0 : DmaSem sig := 273
abbrev cc29_sem5_0 : DmaSem sig := 274
abbrev cc29_sem5_1 : DmaSem sig := 275

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x128 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S5000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S5000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S128x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 2 → Memref sig .tc .vmem S5000x128 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev stage14_5 : Fin 1 → Memref sig .tc .vmem S1x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x128 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev grid15 : Pipeline.Grid := ⟨1, ![20], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S5000x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![20], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_7 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_8 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_9 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S5000x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 1 → Memref sig .tc .vmem S128x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S128x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S128x128 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 1 → Memref sig .tc .vmem S1x128 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false]

abbrev stage16_7 : Fin 2 → Memref sig .tc .vmem S5000x128 .f32 := fun | 0 => Memref.whole cc16_stg7_0 | 1 => Memref.whole cc16_stg7_1 | ⟨_ + 2, h⟩ => absurd h (Nat.not_lt.2 (Nat.le_add_left _ _))
abbrev sem16_7 : Fin 2 → DmaSem sig := fun | 0 => cc16_sem7_0 | 1 => cc16_sem7_1 | ⟨_ + 2, h⟩ => absurd h (Nat.not_lt.2 (Nat.le_add_left _ _))
abbrev reads16_7 : Fin grid16.rank → Bool := ![true]

abbrev stage16_8 : Fin 1 → Memref sig .tc .vmem S1x128 .f32 := fun | 0 => Memref.whole cc16_stg8_0 | ⟨_ + 1, h⟩ => absurd h (Nat.not_lt.2 (Nat.le_add_left _ _))
abbrev sem16_8 : Fin 1 → DmaSem sig := fun | 0 => cc16_sem8_0 | ⟨_ + 1, h⟩ => absurd h (Nat.not_lt.2 (Nat.le_add_left _ _))
abbrev reads16_8 : Fin grid16.rank → Bool := ![false]

abbrev stage16_9 : Fin 1 → Memref sig .tc .vmem S1x128 .f32 := fun | 0 => Memref.whole cc16_stg9_0 | ⟨_ + 1, h⟩ => absurd h (Nat.not_lt.2 (Nat.le_add_left _ _))
abbrev sem16_9 : Fin 1 → DmaSem sig := fun | 0 => cc16_sem9_0 | ⟨_ + 1, h⟩ => absurd h (Nat.not_lt.2 (Nat.le_add_left _ _))
abbrev reads16_9 : Fin grid16.rank → Bool := ![false]

abbrev grid17 : Pipeline.Grid := ⟨1, ![20], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S1x128 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 2 → Memref sig .tc .vmem S5000x128 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

abbrev grid18 : Pipeline.Grid := ⟨1, ![20], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_5 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_6 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage18_0 : Fin 2 → Memref sig .tc .vmem S5000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S5000x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 1 → Memref sig .tc .vmem S128x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S1x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 2 → Memref sig .tc .vmem S5000x128 .f32 := fun | 0 => Memref.whole cc18_stg4_0 | 1 => Memref.whole cc18_stg4_1 | ⟨_ + 2, h⟩ => absurd h (Nat.not_lt.2 (Nat.le_add_left _ _))
abbrev sem18_4 : Fin 2 → DmaSem sig := fun | 0 => cc18_sem4_0 | 1 => cc18_sem4_1 | ⟨_ + 2, h⟩ => absurd h (Nat.not_lt.2 (Nat.le_add_left _ _))
abbrev reads18_4 : Fin grid18.rank → Bool := ![true]

abbrev stage18_5 : Fin 1 → Memref sig .tc .vmem S1x128 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![false]

abbrev stage18_6 : Fin 1 → Memref sig .tc .vmem S1x128 .f32 := fun | 0 => Memref.whole cc18_stg6_0 | ⟨_ + 1, h⟩ => absurd h (Nat.not_lt.2 (Nat.le_add_left _ _))
abbrev sem18_6 : Fin 1 → DmaSem sig := fun | 0 => cc18_sem6_0 | ⟨_ + 1, h⟩ => absurd h (Nat.not_lt.2 (Nat.le_add_left _ _))
abbrev reads18_6 : Fin grid18.rank → Bool := ![false]

abbrev grid19 : Pipeline.Grid := ⟨1, ![20], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x128 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S1x128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x128 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S5000x128 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

abbrev grid20 : Pipeline.Grid := ⟨1, ![20], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_5 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_6 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage20_0 : Fin 2 → Memref sig .tc .vmem S5000x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S5000x128 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S128x128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S1x128 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 2 → Memref sig .tc .vmem S5000x128 .f32 := fun | 0 => Memref.whole cc20_stg4_0 | 1 => Memref.whole cc20_stg4_1 | ⟨_ + 2, h⟩ => absurd h (Nat.not_lt.2 (Nat.le_add_left _ _))
abbrev sem20_4 : Fin 2 → DmaSem sig := fun | 0 => cc20_sem4_0 | 1 => cc20_sem4_1 | ⟨_ + 2, h⟩ => absurd h (Nat.not_lt.2 (Nat.le_add_left _ _))
abbrev reads20_4 : Fin grid20.rank → Bool := ![true]

abbrev stage20_5 : Fin 1 → Memref sig .tc .vmem S1x128 .f32 := fun | 0 => Memref.whole cc20_stg5_0 | ⟨_ + 1, h⟩ => absurd h (Nat.not_lt.2 (Nat.le_add_left _ _))
abbrev sem20_5 : Fin 1 → DmaSem sig := fun | 0 => cc20_sem5_0 | ⟨_ + 1, h⟩ => absurd h (Nat.not_lt.2 (Nat.le_add_left _ _))
abbrev reads20_5 : Fin grid20.rank → Bool := ![false]

abbrev stage20_6 : Fin 1 → Memref sig .tc .vmem S1x128 .f32 := fun | 0 => Memref.whole cc20_stg6_0 | ⟨_ + 1, h⟩ => absurd h (Nat.not_lt.2 (Nat.le_add_left _ _))
abbrev sem20_6 : Fin 1 → DmaSem sig := fun | 0 => cc20_sem6_0 | ⟨_ + 1, h⟩ => absurd h (Nat.not_lt.2 (Nat.le_add_left _ _))
abbrev reads20_6 : Fin grid20.rank → Bool := ![false]

abbrev grid21 : Pipeline.Grid := ⟨1, ![20], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_4 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_5 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S5000x128 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S1x128 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S1x128 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S1x128 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 1 → Memref sig .tc .vmem S1x128 .f32 := fun | 0 => Memref.whole cc21_stg4_0 | ⟨_ + 1, h⟩ => absurd h (Nat.not_lt.2 (Nat.le_add_left _ _))
abbrev sem21_4 : Fin 1 → DmaSem sig := fun | 0 => cc21_sem4_0 | ⟨_ + 1, h⟩ => absurd h (Nat.not_lt.2 (Nat.le_add_left _ _))
abbrev reads21_4 : Fin grid21.rank → Bool := ![false]

abbrev stage21_5 : Fin 2 → Memref sig .tc .vmem S5000x128 .f32 := fun | 0 => Memref.whole cc21_stg5_0 | 1 => Memref.whole cc21_stg5_1 | ⟨_ + 2, h⟩ => absurd h (Nat.not_lt.2 (Nat.le_add_left _ _))
abbrev sem21_5 : Fin 2 → DmaSem sig := fun | 0 => cc21_sem5_0 | 1 => cc21_sem5_1 | ⟨_ + 2, h⟩ => absurd h (Nat.not_lt.2 (Nat.le_add_left _ _))
abbrev reads21_5 : Fin grid21.rank → Bool := ![true]

abbrev grid22 : Pipeline.Grid := ⟨1, ![20], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_4 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_5 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_6 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage22_0 : Fin 2 → Memref sig .tc .vmem S5000x128 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S5000x128 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 1 → Memref sig .tc .vmem S128x128 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 1 → Memref sig .tc .vmem S1x128 .f32 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 2 → Memref sig .tc .vmem S5000x128 .f32 := fun | 0 => Memref.whole cc22_stg4_0 | 1 => Memref.whole cc22_stg4_1 | ⟨_ + 2, h⟩ => absurd h (Nat.not_lt.2 (Nat.le_add_left _ _))
abbrev sem22_4 : Fin 2 → DmaSem sig := fun | 0 => cc22_sem4_0 | 1 => cc22_sem4_1 | ⟨_ + 2, h⟩ => absurd h (Nat.not_lt.2 (Nat.le_add_left _ _))
abbrev reads22_4 : Fin grid22.rank → Bool := ![true]

abbrev stage22_5 : Fin 1 → Memref sig .tc .vmem S1x128 .f32 := fun | 0 => Memref.whole cc22_stg5_0 | ⟨_ + 1, h⟩ => absurd h (Nat.not_lt.2 (Nat.le_add_left _ _))
abbrev sem22_5 : Fin 1 → DmaSem sig := fun | 0 => cc22_sem5_0 | ⟨_ + 1, h⟩ => absurd h (Nat.not_lt.2 (Nat.le_add_left _ _))
abbrev reads22_5 : Fin grid22.rank → Bool := ![false]

abbrev stage22_6 : Fin 1 → Memref sig .tc .vmem S1x128 .f32 := fun | 0 => Memref.whole cc22_stg6_0 | ⟨_ + 1, h⟩ => absurd h (Nat.not_lt.2 (Nat.le_add_left _ _))
abbrev sem22_6 : Fin 1 → DmaSem sig := fun | 0 => cc22_sem6_0 | ⟨_ + 1, h⟩ => absurd h (Nat.not_lt.2 (Nat.le_add_left _ _))
abbrev reads22_6 : Fin grid22.rank → Bool := ![false]

abbrev grid23 : Pipeline.Grid := ⟨1, ![20], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_4 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_5 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S5000x128 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S1x128 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 1 → Memref sig .tc .vmem S1x128 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 1 → Memref sig .tc .vmem S1x128 .f32 := fun | 0 => Memref.whole cc23_stg3_0 | ⟨_ + 1, h⟩ => absurd h (Nat.not_lt.2 (Nat.le_add_left _ _))
abbrev sem23_3 : Fin 1 → DmaSem sig := fun | 0 => cc23_sem3_0 | ⟨_ + 1, h⟩ => absurd h (Nat.not_lt.2 (Nat.le_add_left _ _))
abbrev reads23_3 : Fin grid23.rank → Bool := ![false]

abbrev stage23_4 : Fin 1 → Memref sig .tc .vmem S1x128 .f32 := fun | 0 => Memref.whole cc23_stg4_0 | ⟨_ + 1, h⟩ => absurd h (Nat.not_lt.2 (Nat.le_add_left _ _))
abbrev sem23_4 : Fin 1 → DmaSem sig := fun | 0 => cc23_sem4_0 | ⟨_ + 1, h⟩ => absurd h (Nat.not_lt.2 (Nat.le_add_left _ _))
abbrev reads23_4 : Fin grid23.rank → Bool := ![false]

abbrev stage23_5 : Fin 2 → Memref sig .tc .vmem S5000x128 .f32 := fun | 0 => Memref.whole cc23_stg5_0 | 1 => Memref.whole cc23_stg5_1 | ⟨_ + 2, h⟩ => absurd h (Nat.not_lt.2 (Nat.le_add_left _ _))
abbrev sem23_5 : Fin 2 → DmaSem sig := fun | 0 => cc23_sem5_0 | 1 => cc23_sem5_1 | ⟨_ + 2, h⟩ => absurd h (Nat.not_lt.2 (Nat.le_add_left _ _))
abbrev reads23_5 : Fin grid23.rank → Bool := ![true]

abbrev grid24 : Pipeline.Grid := ⟨1, ![20], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_2 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_3 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_4 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_5 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_6 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_7 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_8 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_9 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage24_0 : Fin 2 → Memref sig .tc .vmem S5000x128 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 2 → Memref sig .tc .vmem S5000x128 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true]

abbrev stage24_2 : Fin 2 → Memref sig .tc .vmem S5000x128 .f32 := fun | 0 => Memref.whole cc24_stg2_0 | 1 => Memref.whole cc24_stg2_1 | ⟨_ + 2, h⟩ => absurd h (Nat.not_lt.2 (Nat.le_add_left _ _))
abbrev sem24_2 : Fin 2 → DmaSem sig := fun | 0 => cc24_sem2_0 | 1 => cc24_sem2_1 | ⟨_ + 2, h⟩ => absurd h (Nat.not_lt.2 (Nat.le_add_left _ _))
abbrev reads24_2 : Fin grid24.rank → Bool := ![true]

abbrev stage24_3 : Fin 1 → Memref sig .tc .vmem S128x128 .f32 := fun | 0 => Memref.whole cc24_stg3_0 | ⟨_ + 1, h⟩ => absurd h (Nat.not_lt.2 (Nat.le_add_left _ _))
abbrev sem24_3 : Fin 1 → DmaSem sig := fun | 0 => cc24_sem3_0 | ⟨_ + 1, h⟩ => absurd h (Nat.not_lt.2 (Nat.le_add_left _ _))
abbrev reads24_3 : Fin grid24.rank → Bool := ![false]

abbrev stage24_4 : Fin 1 → Memref sig .tc .vmem S128x128 .f32 := fun | 0 => Memref.whole cc24_stg4_0 | ⟨_ + 1, h⟩ => absurd h (Nat.not_lt.2 (Nat.le_add_left _ _))
abbrev sem24_4 : Fin 1 → DmaSem sig := fun | 0 => cc24_sem4_0 | ⟨_ + 1, h⟩ => absurd h (Nat.not_lt.2 (Nat.le_add_left _ _))
abbrev reads24_4 : Fin grid24.rank → Bool := ![false]

abbrev stage24_5 : Fin 1 → Memref sig .tc .vmem S128x128 .f32 := fun | 0 => Memref.whole cc24_stg5_0 | ⟨_ + 1, h⟩ => absurd h (Nat.not_lt.2 (Nat.le_add_left _ _))
abbrev sem24_5 : Fin 1 → DmaSem sig := fun | 0 => cc24_sem5_0 | ⟨_ + 1, h⟩ => absurd h (Nat.not_lt.2 (Nat.le_add_left _ _))
abbrev reads24_5 : Fin grid24.rank → Bool := ![false]

abbrev stage24_6 : Fin 1 → Memref sig .tc .vmem S1x128 .f32 := fun | 0 => Memref.whole cc24_stg6_0 | ⟨_ + 1, h⟩ => absurd h (Nat.not_lt.2 (Nat.le_add_left _ _))
abbrev sem24_6 : Fin 1 → DmaSem sig := fun | 0 => cc24_sem6_0 | ⟨_ + 1, h⟩ => absurd h (Nat.not_lt.2 (Nat.le_add_left _ _))
abbrev reads24_6 : Fin grid24.rank → Bool := ![false]

abbrev stage24_7 : Fin 2 → Memref sig .tc .vmem S5000x128 .f32 := fun | 0 => Memref.whole cc24_stg7_0 | 1 => Memref.whole cc24_stg7_1 | ⟨_ + 2, h⟩ => absurd h (Nat.not_lt.2 (Nat.le_add_left _ _))
abbrev sem24_7 : Fin 2 → DmaSem sig := fun | 0 => cc24_sem7_0 | 1 => cc24_sem7_1 | ⟨_ + 2, h⟩ => absurd h (Nat.not_lt.2 (Nat.le_add_left _ _))
abbrev reads24_7 : Fin grid24.rank → Bool := ![true]

abbrev stage24_8 : Fin 1 → Memref sig .tc .vmem S1x128 .f32 := fun | 0 => Memref.whole cc24_stg8_0 | ⟨_ + 1, h⟩ => absurd h (Nat.not_lt.2 (Nat.le_add_left _ _))
abbrev sem24_8 : Fin 1 → DmaSem sig := fun | 0 => cc24_sem8_0 | ⟨_ + 1, h⟩ => absurd h (Nat.not_lt.2 (Nat.le_add_left _ _))
abbrev reads24_8 : Fin grid24.rank → Bool := ![false]

abbrev stage24_9 : Fin 1 → Memref sig .tc .vmem S1x128 .f32 := fun | 0 => Memref.whole cc24_stg9_0 | ⟨_ + 1, h⟩ => absurd h (Nat.not_lt.2 (Nat.le_add_left _ _))
abbrev sem24_9 : Fin 1 → DmaSem sig := fun | 0 => cc24_sem9_0 | ⟨_ + 1, h⟩ => absurd h (Nat.not_lt.2 (Nat.le_add_left _ _))
abbrev reads24_9 : Fin grid24.rank → Bool := ![false]

abbrev grid25 : Pipeline.Grid := ⟨1, ![20], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_2 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_3 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_4 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_5 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S5000x128 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 1 → Memref sig .tc .vmem S1x128 .f32 := fun | 0 => Memref.whole cc25_stg1_0 | ⟨_ + 1, h⟩ => absurd h (Nat.not_lt.2 (Nat.le_add_left _ _))
abbrev sem25_1 : Fin 1 → DmaSem sig := fun | 0 => cc25_sem1_0 | ⟨_ + 1, h⟩ => absurd h (Nat.not_lt.2 (Nat.le_add_left _ _))
abbrev reads25_1 : Fin grid25.rank → Bool := ![false]

abbrev stage25_2 : Fin 1 → Memref sig .tc .vmem S1x128 .f32 := fun | 0 => Memref.whole cc25_stg2_0 | ⟨_ + 1, h⟩ => absurd h (Nat.not_lt.2 (Nat.le_add_left _ _))
abbrev sem25_2 : Fin 1 → DmaSem sig := fun | 0 => cc25_sem2_0 | ⟨_ + 1, h⟩ => absurd h (Nat.not_lt.2 (Nat.le_add_left _ _))
abbrev reads25_2 : Fin grid25.rank → Bool := ![false]

abbrev stage25_3 : Fin 1 → Memref sig .tc .vmem S1x128 .f32 := fun | 0 => Memref.whole cc25_stg3_0 | ⟨_ + 1, h⟩ => absurd h (Nat.not_lt.2 (Nat.le_add_left _ _))
abbrev sem25_3 : Fin 1 → DmaSem sig := fun | 0 => cc25_sem3_0 | ⟨_ + 1, h⟩ => absurd h (Nat.not_lt.2 (Nat.le_add_left _ _))
abbrev reads25_3 : Fin grid25.rank → Bool := ![false]

abbrev stage25_4 : Fin 1 → Memref sig .tc .vmem S1x128 .f32 := fun | 0 => Memref.whole cc25_stg4_0 | ⟨_ + 1, h⟩ => absurd h (Nat.not_lt.2 (Nat.le_add_left _ _))
abbrev sem25_4 : Fin 1 → DmaSem sig := fun | 0 => cc25_sem4_0 | ⟨_ + 1, h⟩ => absurd h (Nat.not_lt.2 (Nat.le_add_left _ _))
abbrev reads25_4 : Fin grid25.rank → Bool := ![false]

abbrev stage25_5 : Fin 2 → Memref sig .tc .vmem S5000x128 .f32 := fun | 0 => Memref.whole cc25_stg5_0 | 1 => Memref.whole cc25_stg5_1 | ⟨_ + 2, h⟩ => absurd h (Nat.not_lt.2 (Nat.le_add_left _ _))
abbrev sem25_5 : Fin 2 → DmaSem sig := fun | 0 => cc25_sem5_0 | 1 => cc25_sem5_1 | ⟨_ + 2, h⟩ => absurd h (Nat.not_lt.2 (Nat.le_add_left _ _))
abbrev reads25_5 : Fin grid25.rank → Bool := ![true]

abbrev grid26 : Pipeline.Grid := ⟨1, ![20], ![false]⟩

def cc26_transform_0 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_2 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_3 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_4 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_5 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage26_0 : Fin 2 → Memref sig .tc .vmem S5000x128 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 1 → Memref sig .tc .vmem S128x128 .f32 := fun | 0 => Memref.whole cc26_stg1_0 | ⟨_ + 1, h⟩ => absurd h (Nat.not_lt.2 (Nat.le_add_left _ _))
abbrev sem26_1 : Fin 1 → DmaSem sig := fun | 0 => cc26_sem1_0 | ⟨_ + 1, h⟩ => absurd h (Nat.not_lt.2 (Nat.le_add_left _ _))
abbrev reads26_1 : Fin grid26.rank → Bool := ![false]

abbrev stage26_2 : Fin 1 → Memref sig .tc .vmem S1x128 .f32 := fun | 0 => Memref.whole cc26_stg2_0 | ⟨_ + 1, h⟩ => absurd h (Nat.not_lt.2 (Nat.le_add_left _ _))
abbrev sem26_2 : Fin 1 → DmaSem sig := fun | 0 => cc26_sem2_0 | ⟨_ + 1, h⟩ => absurd h (Nat.not_lt.2 (Nat.le_add_left _ _))
abbrev reads26_2 : Fin grid26.rank → Bool := ![false]

abbrev stage26_3 : Fin 2 → Memref sig .tc .vmem S5000x128 .f32 := fun | 0 => Memref.whole cc26_stg3_0 | 1 => Memref.whole cc26_stg3_1 | ⟨_ + 2, h⟩ => absurd h (Nat.not_lt.2 (Nat.le_add_left _ _))
abbrev sem26_3 : Fin 2 → DmaSem sig := fun | 0 => cc26_sem3_0 | 1 => cc26_sem3_1 | ⟨_ + 2, h⟩ => absurd h (Nat.not_lt.2 (Nat.le_add_left _ _))
abbrev reads26_3 : Fin grid26.rank → Bool := ![true]

abbrev stage26_4 : Fin 1 → Memref sig .tc .vmem S1x128 .f32 := fun | 0 => Memref.whole cc26_stg4_0 | ⟨_ + 1, h⟩ => absurd h (Nat.not_lt.2 (Nat.le_add_left _ _))
abbrev sem26_4 : Fin 1 → DmaSem sig := fun | 0 => cc26_sem4_0 | ⟨_ + 1, h⟩ => absurd h (Nat.not_lt.2 (Nat.le_add_left _ _))
abbrev reads26_4 : Fin grid26.rank → Bool := ![false]

abbrev stage26_5 : Fin 1 → Memref sig .tc .vmem S1x128 .f32 := fun | 0 => Memref.whole cc26_stg5_0 | ⟨_ + 1, h⟩ => absurd h (Nat.not_lt.2 (Nat.le_add_left _ _))
abbrev sem26_5 : Fin 1 → DmaSem sig := fun | 0 => cc26_sem5_0 | ⟨_ + 1, h⟩ => absurd h (Nat.not_lt.2 (Nat.le_add_left _ _))
abbrev reads26_5 : Fin grid26.rank → Bool := ![false]

abbrev grid27 : Pipeline.Grid := ⟨1, ![20], ![false]⟩

def cc27_transform_0 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_1 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_2 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_3 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_4 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_5 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage27_0 : Fin 2 → Memref sig .tc .vmem S5000x128 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 1 → Memref sig .tc .vmem S1x128 .f32 := fun | 0 => Memref.whole cc27_stg1_0 | ⟨_ + 1, h⟩ => absurd h (Nat.not_lt.2 (Nat.le_add_left _ _))
abbrev sem27_1 : Fin 1 → DmaSem sig := fun | 0 => cc27_sem1_0 | ⟨_ + 1, h⟩ => absurd h (Nat.not_lt.2 (Nat.le_add_left _ _))
abbrev reads27_1 : Fin grid27.rank → Bool := ![false]

abbrev stage27_2 : Fin 1 → Memref sig .tc .vmem S1x128 .f32 := fun | 0 => Memref.whole cc27_stg2_0 | ⟨_ + 1, h⟩ => absurd h (Nat.not_lt.2 (Nat.le_add_left _ _))
abbrev sem27_2 : Fin 1 → DmaSem sig := fun | 0 => cc27_sem2_0 | ⟨_ + 1, h⟩ => absurd h (Nat.not_lt.2 (Nat.le_add_left _ _))
abbrev reads27_2 : Fin grid27.rank → Bool := ![false]

abbrev stage27_3 : Fin 1 → Memref sig .tc .vmem S1x128 .f32 := fun | 0 => Memref.whole cc27_stg3_0 | ⟨_ + 1, h⟩ => absurd h (Nat.not_lt.2 (Nat.le_add_left _ _))
abbrev sem27_3 : Fin 1 → DmaSem sig := fun | 0 => cc27_sem3_0 | ⟨_ + 1, h⟩ => absurd h (Nat.not_lt.2 (Nat.le_add_left _ _))
abbrev reads27_3 : Fin grid27.rank → Bool := ![false]

abbrev stage27_4 : Fin 1 → Memref sig .tc .vmem S1x128 .f32 := fun | 0 => Memref.whole cc27_stg4_0 | ⟨_ + 1, h⟩ => absurd h (Nat.not_lt.2 (Nat.le_add_left _ _))
abbrev sem27_4 : Fin 1 → DmaSem sig := fun | 0 => cc27_sem4_0 | ⟨_ + 1, h⟩ => absurd h (Nat.not_lt.2 (Nat.le_add_left _ _))
abbrev reads27_4 : Fin grid27.rank → Bool := ![false]

abbrev stage27_5 : Fin 2 → Memref sig .tc .vmem S5000x128 .f32 := fun | 0 => Memref.whole cc27_stg5_0 | 1 => Memref.whole cc27_stg5_1 | ⟨_ + 2, h⟩ => absurd h (Nat.not_lt.2 (Nat.le_add_left _ _))
abbrev sem27_5 : Fin 2 → DmaSem sig := fun | 0 => cc27_sem5_0 | 1 => cc27_sem5_1 | ⟨_ + 2, h⟩ => absurd h (Nat.not_lt.2 (Nat.le_add_left _ _))
abbrev reads27_5 : Fin grid27.rank → Bool := ![true]

abbrev grid28 : Pipeline.Grid := ⟨1, ![20], ![false]⟩

def cc28_transform_0 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_1 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_2 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_3 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_4 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_5 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage28_0 : Fin 2 → Memref sig .tc .vmem S5000x128 .f32 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev stage28_1 : Fin 1 → Memref sig .tc .vmem S128x5 .f32 := fun | 0 => Memref.whole cc28_stg1_0 | ⟨_ + 1, h⟩ => absurd h (Nat.not_lt.2 (Nat.le_add_left _ _))
abbrev sem28_1 : Fin 1 → DmaSem sig := fun | 0 => cc28_sem1_0 | ⟨_ + 1, h⟩ => absurd h (Nat.not_lt.2 (Nat.le_add_left _ _))
abbrev reads28_1 : Fin grid28.rank → Bool := ![false]

abbrev stage28_2 : Fin 1 → Memref sig .tc .vmem S1x5 .f32 := fun | 0 => Memref.whole cc28_stg2_0 | ⟨_ + 1, h⟩ => absurd h (Nat.not_lt.2 (Nat.le_add_left _ _))
abbrev sem28_2 : Fin 1 → DmaSem sig := fun | 0 => cc28_sem2_0 | ⟨_ + 1, h⟩ => absurd h (Nat.not_lt.2 (Nat.le_add_left _ _))
abbrev reads28_2 : Fin grid28.rank → Bool := ![false]

abbrev stage28_3 : Fin 2 → Memref sig .tc .vmem S5000x5 .f32 := fun | 0 => Memref.whole cc28_stg3_0 | 1 => Memref.whole cc28_stg3_1 | ⟨_ + 2, h⟩ => absurd h (Nat.not_lt.2 (Nat.le_add_left _ _))
abbrev sem28_3 : Fin 2 → DmaSem sig := fun | 0 => cc28_sem3_0 | 1 => cc28_sem3_1 | ⟨_ + 2, h⟩ => absurd h (Nat.not_lt.2 (Nat.le_add_left _ _))
abbrev reads28_3 : Fin grid28.rank → Bool := ![true]

abbrev stage28_4 : Fin 1 → Memref sig .tc .vmem S1x5 .f32 := fun | 0 => Memref.whole cc28_stg4_0 | ⟨_ + 1, h⟩ => absurd h (Nat.not_lt.2 (Nat.le_add_left _ _))
abbrev sem28_4 : Fin 1 → DmaSem sig := fun | 0 => cc28_sem4_0 | ⟨_ + 1, h⟩ => absurd h (Nat.not_lt.2 (Nat.le_add_left _ _))
abbrev reads28_4 : Fin grid28.rank → Bool := ![false]

abbrev stage28_5 : Fin 1 → Memref sig .tc .vmem S1x5 .f32 := fun | 0 => Memref.whole cc28_stg5_0 | ⟨_ + 1, h⟩ => absurd h (Nat.not_lt.2 (Nat.le_add_left _ _))
abbrev sem28_5 : Fin 1 → DmaSem sig := fun | 0 => cc28_sem5_0 | ⟨_ + 1, h⟩ => absurd h (Nat.not_lt.2 (Nat.le_add_left _ _))
abbrev reads28_5 : Fin grid28.rank → Bool := ![false]

abbrev grid29 : Pipeline.Grid := ⟨1, ![20], ![false]⟩

def cc29_transform_0 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_1 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_2 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_3 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_4 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_5 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage29_0 : Fin 2 → Memref sig .tc .vmem S5000x5 .f32 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true]

abbrev stage29_1 : Fin 1 → Memref sig .tc .vmem S1x5 .f32 := fun | 0 => Memref.whole cc29_stg1_0 | ⟨_ + 1, h⟩ => absurd h (Nat.not_lt.2 (Nat.le_add_left _ _))
abbrev sem29_1 : Fin 1 → DmaSem sig := fun | 0 => cc29_sem1_0 | ⟨_ + 1, h⟩ => absurd h (Nat.not_lt.2 (Nat.le_add_left _ _))
abbrev reads29_1 : Fin grid29.rank → Bool := ![false]

abbrev stage29_2 : Fin 1 → Memref sig .tc .vmem S1x5 .f32 := fun | 0 => Memref.whole cc29_stg2_0 | ⟨_ + 1, h⟩ => absurd h (Nat.not_lt.2 (Nat.le_add_left _ _))
abbrev sem29_2 : Fin 1 → DmaSem sig := fun | 0 => cc29_sem2_0 | ⟨_ + 1, h⟩ => absurd h (Nat.not_lt.2 (Nat.le_add_left _ _))
abbrev reads29_2 : Fin grid29.rank → Bool := ![false]

abbrev stage29_3 : Fin 1 → Memref sig .tc .vmem S1x5 .f32 := fun | 0 => Memref.whole cc29_stg3_0 | ⟨_ + 1, h⟩ => absurd h (Nat.not_lt.2 (Nat.le_add_left _ _))
abbrev sem29_3 : Fin 1 → DmaSem sig := fun | 0 => cc29_sem3_0 | ⟨_ + 1, h⟩ => absurd h (Nat.not_lt.2 (Nat.le_add_left _ _))
abbrev reads29_3 : Fin grid29.rank → Bool := ![false]

abbrev stage29_4 : Fin 1 → Memref sig .tc .vmem S1x5 .f32 := fun | 0 => Memref.whole cc29_stg4_0 | ⟨_ + 1, h⟩ => absurd h (Nat.not_lt.2 (Nat.le_add_left _ _))
abbrev sem29_4 : Fin 1 → DmaSem sig := fun | 0 => cc29_sem4_0 | ⟨_ + 1, h⟩ => absurd h (Nat.not_lt.2 (Nat.le_add_left _ _))
abbrev reads29_4 : Fin grid29.rank → Bool := ![false]

abbrev stage29_5 : Fin 2 → Memref sig .tc .vmem S5000x5 .f32 := fun | 0 => Memref.whole cc29_stg5_0 | 1 => Memref.whole cc29_stg5_1 | ⟨_ + 2, h⟩ => absurd h (Nat.not_lt.2 (Nat.le_add_left _ _))
abbrev sem29_5 : Fin 2 → DmaSem sig := fun | 0 => cc29_sem5_0 | 1 => cc29_sem5_1 | ⟨_ + 2, h⟩ => absurd h (Nat.not_lt.2 (Nat.le_add_left _ _))
abbrev reads29_5 : Fin grid29.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)

class K4.Facts₀ : Prop where
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)

class K5.Facts₀ : Prop where
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)

class K6.Facts₀ : Prop where
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)

class K7.Facts₀ : Prop where
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)

class K8.Facts₀ : Prop where
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x128.size a ≤ S100000x128.size a
  hwx8_7 : ∀ i : grid8.Coords, EltTy.bits .f32 = 32 ∨ (Rect.block (s := S100000x128) S5000x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x128.size a ≤ S1x128.size a
  hwx8_9 : ∀ i : grid8.Coords, EltTy.bits .f32 = 32 ∨ (Rect.block (s := S1x128) S1x128.size (cc8_transform_9 i) (hinb8_9 i)).WholeWords (EltTy.packing .f32)

class K9.Facts₀ : Prop where
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S100000x128.size a
  hwx9_5 : ∀ i : grid9.Coords, EltTy.bits .f32 = 32 ∨ (Rect.block (s := S100000x128) S5000x128.size (cc9_transform_5 i) (hinb9_5 i)).WholeWords (EltTy.packing .f32)

class K10.Facts₀ : Prop where
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S100000x128.size a
  hwx10_1 : ∀ i : grid10.Coords, EltTy.bits .f32 = 32 ∨ (Rect.block (s := S100000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x128.size a ≤ S100000x128.size a
  hwx10_4 : ∀ i : grid10.Coords, EltTy.bits .f32 = 32 ∨ (Rect.block (s := S100000x128) S5000x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)

class K11.Facts₀ : Prop where
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S100000x128.size a
  hwx11_5 : ∀ i : grid11.Coords, EltTy.bits .f32 = 32 ∨ (Rect.block (s := S100000x128) S5000x128.size (cc11_transform_5 i) (hinb11_5 i)).WholeWords (EltTy.packing .f32)

class K12.Facts₀ : Prop where
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x128.size a ≤ S100000x128.size a
  hwx12_1 : ∀ i : grid12.Coords, EltTy.bits .f32 = 32 ∨ (Rect.block (s := S100000x128) S5000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x128.size a ≤ S100000x128.size a
  hwx12_4 : ∀ i : grid12.Coords, EltTy.bits .f32 = 32 ∨ (Rect.block (s := S100000x128) S5000x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x128.size a ≤ S1x128.size a
  hwx12_6 : ∀ i : grid12.Coords, EltTy.bits .f32 = 32 ∨ (Rect.block (s := S1x128) S1x128.size (cc12_transform_6 i) (hinb12_6 i)).WholeWords (EltTy.packing .f32)

class K13.Facts₀ : Prop where
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S100000x128.size a
  hwx13_0 : ∀ i : grid13.Coords, EltTy.bits .f32 = 32 ∨ (Rect.block (s := S100000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S5000x128.size a ≤ S100000x128.size a
  hwx13_5 : ∀ i : grid13.Coords, EltTy.bits .f32 = 32 ∨ (Rect.block (s := S100000x128) S5000x128.size (cc13_transform_5 i) (hinb13_5 i)).WholeWords (EltTy.packing .f32)

class K14.Facts₀ : Prop where
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S100000x128.size a
  hwx14_0 : ∀ i : grid14.Coords, EltTy.bits .f32 = 32 ∨ (Rect.block (s := S100000x128) S5000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x128.size a ≤ S100000x128.size a
  hwx14_1 : ∀ i : grid14.Coords, EltTy.bits .f32 = 32 ∨ (Rect.block (s := S100000x128) S5000x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S128x128.size a ≤ S128x128.size a
  hwx14_2 : ∀ i : grid14.Coords, EltTy.bits .f32 = 32 ∨ (Rect.block (s := S128x128) S128x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S5000x128.size a ≤ S100000x128.size a
  hwx14_4 : ∀ i : grid14.Coords, EltTy.bits .f32 = 32 ∨ (Rect.block (s := S100000x128) S5000x128.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x128.size a ≤ S1x128.size a
  hwx14_5 : ∀ i : grid14.Coords, EltTy.bits .f32 = 32 ∨ (Rect.block (s := S1x128) S1x128.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x128.size a ≤ S1x128.size a
  hwx14_6 : ∀ i : grid14.Coords, EltTy.bits .f32 = 32 ∨ (Rect.block (s := S1x128) S1x128.size (cc14_transform_6 i) (hinb14_6 i)).WholeWords (EltTy.packing .f32)

class K15.Facts₀ : Prop where
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S100000x128.size a
  hwx15_0 : ∀ i : grid15.Coords, EltTy.bits .f32 = 32 ∨ (Rect.block (s := S100000x128) S5000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S5000x128.size a ≤ S100000x128.size a
  hwx15_5 : ∀ i : grid15.Coords, EltTy.bits .f32 = 32 ∨ (Rect.block (s := S100000x128) S5000x128.size (cc15_transform_5 i) (hinb15_5 i)).WholeWords (EltTy.packing .f32)

class K16.Facts₀ : Prop where
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S100000x128.size a
  hwx16_0 : ∀ i : grid16.Coords, EltTy.bits .f32 = 32 ∨ (Rect.block (s := S100000x128) S5000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x128.size a ≤ S100000x128.size a
  hwx16_1 : ∀ i : grid16.Coords, EltTy.bits .f32 = 32 ∨ (Rect.block (s := S100000x128) S5000x128.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S5000x128.size a ≤ S100000x128.size a
  hwx16_2 : ∀ i : grid16.Coords, EltTy.bits .f32 = 32 ∨ (Rect.block (s := S100000x128) S5000x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S128x128.size a ≤ S128x128.size a
  hwx16_3 : ∀ i : grid16.Coords, EltTy.bits .f32 = 32 ∨ (Rect.block (s := S128x128) S128x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S128x128.size a ≤ S128x128.size a
  hwx16_4 : ∀ i : grid16.Coords, EltTy.bits .f32 = 32 ∨ (Rect.block (s := S128x128) S128x128.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S128x128.size a ≤ S128x128.size a
  hwx16_5 : ∀ i : grid16.Coords, EltTy.bits .f32 = 32 ∨ (Rect.block (s := S128x128) S128x128.size (cc16_transform_5 i) (hinb16_5 i)).WholeWords (EltTy.packing .f32)
  hstage16_6 : ∀ j, (stage16_6 j).IsWhole
  nbuf16_6 : grid16.bufCount reads16_6 true = 1
  hreads16_6 : ∀ i i' : grid16.Coords, (∀ a, reads16_6 a = true → i a = i' a) → cc16_transform_6 i = cc16_transform_6 i'
  hinb16_6 : ∀ (i : grid16.Coords) a, (cc16_transform_6 i a + 1) * S1x128.size a ≤ S1x128.size a
  hwx16_6 : ∀ i : grid16.Coords, EltTy.bits .f32 = 32 ∨ (Rect.block (s := S1x128) S1x128.size (cc16_transform_6 i) (hinb16_6 i)).WholeWords (EltTy.packing .f32)
  hstage16_7 : ∀ j, (stage16_7 j).IsWhole
  nbuf16_7 : grid16.bufCount reads16_7 false = 2
  hreads16_7 : ∀ i i' : grid16.Coords, (∀ a, reads16_7 a = true → i a = i' a) → cc16_transform_7 i = cc16_transform_7 i'
  hinb16_7 : ∀ (i : grid16.Coords) a, (cc16_transform_7 i a + 1) * S5000x128.size a ≤ S100000x128.size a
  hwx16_7 : ∀ i : grid16.Coords, EltTy.bits .f32 = 32 ∨ (Rect.block (s := S100000x128) S5000x128.size (cc16_transform_7 i) (hinb16_7 i)).WholeWords (EltTy.packing .f32)
  hstage16_8 : ∀ j, (stage16_8 j).IsWhole
  nbuf16_8 : grid16.bufCount reads16_8 true = 1
  hreads16_8 : ∀ i i' : grid16.Coords, (∀ a, reads16_8 a = true → i a = i' a) → cc16_transform_8 i = cc16_transform_8 i'
  hinb16_8 : ∀ (i : grid16.Coords) a, (cc16_transform_8 i a + 1) * S1x128.size a ≤ S1x128.size a
  hwx16_8 : ∀ i : grid16.Coords, EltTy.bits .f32 = 32 ∨ (Rect.block (s := S1x128) S1x128.size (cc16_transform_8 i) (hinb16_8 i)).WholeWords (EltTy.packing .f32)
  hstage16_9 : ∀ j, (stage16_9 j).IsWhole
  nbuf16_9 : grid16.bufCount reads16_9 true = 1
  hreads16_9 : ∀ i i' : grid16.Coords, (∀ a, reads16_9 a = true → i a = i' a) → cc16_transform_9 i = cc16_transform_9 i'
  hinb16_9 : ∀ (i : grid16.Coords) a, (cc16_transform_9 i a + 1) * S1x128.size a ≤ S1x128.size a
  hwx16_9 : ∀ i : grid16.Coords, EltTy.bits .f32 = 32 ∨ (Rect.block (s := S1x128) S1x128.size (cc16_transform_9 i) (hinb16_9 i)).WholeWords (EltTy.packing .f32)

class K17.Facts₀ : Prop where
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x128.size a ≤ S100000x128.size a
  hwx17_0 : ∀ i : grid17.Coords, EltTy.bits .f32 = 32 ∨ (Rect.block (s := S100000x128) S5000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x128.size a ≤ S1x128.size a
  hwx17_1 : ∀ i : grid17.Coords, EltTy.bits .f32 = 32 ∨ (Rect.block (s := S1x128) S1x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x128.size a ≤ S1x128.size a
  hwx17_3 : ∀ i : grid17.Coords, EltTy.bits .f32 = 32 ∨ (Rect.block (s := S1x128) S1x128.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S1x128.size a ≤ S1x128.size a
  hwx17_4 : ∀ i : grid17.Coords, EltTy.bits .f32 = 32 ∨ (Rect.block (s := S1x128) S1x128.size (cc17_transform_4 i) (hinb17_4 i)).WholeWords (EltTy.packing .f32)
  hstage17_5 : ∀ j, (stage17_5 j).IsWhole
  nbuf17_5 : grid17.bufCount reads17_5 false = 2
  hreads17_5 : ∀ i i' : grid17.Coords, (∀ a, reads17_5 a = true → i a = i' a) → cc17_transform_5 i = cc17_transform_5 i'
  hinb17_5 : ∀ (i : grid17.Coords) a, (cc17_transform_5 i a + 1) * S5000x128.size a ≤ S100000x128.size a
  hwx17_5 : ∀ i : grid17.Coords, EltTy.bits .f32 = 32 ∨ (Rect.block (s := S100000x128) S5000x128.size (cc17_transform_5 i) (hinb17_5 i)).WholeWords (EltTy.packing .f32)

class K18.Facts₀ : Prop where
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x128.size a ≤ S100000x128.size a
  hwx18_0 : ∀ i : grid18.Coords, EltTy.bits .f32 = 32 ∨ (Rect.block (s := S100000x128) S5000x128.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S5000x128.size a ≤ S100000x128.size a
  hwx18_1 : ∀ i : grid18.Coords, EltTy.bits .f32 = 32 ∨ (Rect.block (s := S100000x128) S5000x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S128x128.size a ≤ S128x128.size a
  hwx18_2 : ∀ i : grid18.Coords, EltTy.bits .f32 = 32 ∨ (Rect.block (s := S128x128) S128x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x128.size a ≤ S1x128.size a
  hwx18_3 : ∀ i : grid18.Coords, EltTy.bits .f32 = 32 ∨ (Rect.block (s := S1x128) S1x128.size (cc18_transform_3 i) (hinb18_3 i)).WholeWords (EltTy.packing .f32)
  hstage18_4 : ∀ j, (stage18_4 j).IsWhole
  nbuf18_4 : grid18.bufCount reads18_4 false = 2
  hreads18_4 : ∀ i i' : grid18.Coords, (∀ a, reads18_4 a = true → i a = i' a) → cc18_transform_4 i = cc18_transform_4 i'
  hinb18_4 : ∀ (i : grid18.Coords) a, (cc18_transform_4 i a + 1) * S5000x128.size a ≤ S100000x128.size a
  hwx18_4 : ∀ i : grid18.Coords, EltTy.bits .f32 = 32 ∨ (Rect.block (s := S100000x128) S5000x128.size (cc18_transform_4 i) (hinb18_4 i)).WholeWords (EltTy.packing .f32)
  hstage18_5 : ∀ j, (stage18_5 j).IsWhole
  nbuf18_5 : grid18.bufCount reads18_5 true = 1
  hreads18_5 : ∀ i i' : grid18.Coords, (∀ a, reads18_5 a = true → i a = i' a) → cc18_transform_5 i = cc18_transform_5 i'
  hinb18_5 : ∀ (i : grid18.Coords) a, (cc18_transform_5 i a + 1) * S1x128.size a ≤ S1x128.size a
  hwx18_5 : ∀ i : grid18.Coords, EltTy.bits .f32 = 32 ∨ (Rect.block (s := S1x128) S1x128.size (cc18_transform_5 i) (hinb18_5 i)).WholeWords (EltTy.packing .f32)
  hstage18_6 : ∀ j, (stage18_6 j).IsWhole
  nbuf18_6 : grid18.bufCount reads18_6 true = 1
  hreads18_6 : ∀ i i' : grid18.Coords, (∀ a, reads18_6 a = true → i a = i' a) → cc18_transform_6 i = cc18_transform_6 i'
  hinb18_6 : ∀ (i : grid18.Coords) a, (cc18_transform_6 i a + 1) * S1x128.size a ≤ S1x128.size a
  hwx18_6 : ∀ i : grid18.Coords, EltTy.bits .f32 = 32 ∨ (Rect.block (s := S1x128) S1x128.size (cc18_transform_6 i) (hinb18_6 i)).WholeWords (EltTy.packing .f32)

class K19.Facts₀ : Prop where
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x128.size a ≤ S100000x128.size a
  hwx19_0 : ∀ i : grid19.Coords, EltTy.bits .f32 = 32 ∨ (Rect.block (s := S100000x128) S5000x128.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x128.size a ≤ S1x128.size a
  hwx19_1 : ∀ i : grid19.Coords, EltTy.bits .f32 = 32 ∨ (Rect.block (s := S1x128) S1x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x128.size a ≤ S1x128.size a
  hwx19_2 : ∀ i : grid19.Coords, EltTy.bits .f32 = 32 ∨ (Rect.block (s := S1x128) S1x128.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S1x128.size a ≤ S1x128.size a
  hwx19_3 : ∀ i : grid19.Coords, EltTy.bits .f32 = 32 ∨ (Rect.block (s := S1x128) S1x128.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S1x128.size a ≤ S1x128.size a
  hwx19_4 : ∀ i : grid19.Coords, EltTy.bits .f32 = 32 ∨ (Rect.block (s := S1x128) S1x128.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S5000x128.size a ≤ S100000x128.size a
  hwx19_5 : ∀ i : grid19.Coords, EltTy.bits .f32 = 32 ∨ (Rect.block (s := S100000x128) S5000x128.size (cc19_transform_5 i) (hinb19_5 i)).WholeWords (EltTy.packing .f32)

class K20.Facts₀ : Prop where
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S5000x128.size a ≤ S100000x128.size a
  hwx20_0 : ∀ i : grid20.Coords, EltTy.bits .f32 = 32 ∨ (Rect.block (s := S100000x128) S5000x128.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S5000x128.size a ≤ S100000x128.size a
  hwx20_1 : ∀ i : grid20.Coords, EltTy.bits .f32 = 32 ∨ (Rect.block (s := S100000x128) S5000x128.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S128x128.size a ≤ S128x128.size a
  hwx20_2 : ∀ i : grid20.Coords, EltTy.bits .f32 = 32 ∨ (Rect.block (s := S128x128) S128x128.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S1x128.size a ≤ S1x128.size a
  hwx20_3 : ∀ i : grid20.Coords, EltTy.bits .f32 = 32 ∨ (Rect.block (s := S1x128) S1x128.size (cc20_transform_3 i) (hinb20_3 i)).WholeWords (EltTy.packing .f32)
  hstage20_4 : ∀ j, (stage20_4 j).IsWhole
  nbuf20_4 : grid20.bufCount reads20_4 false = 2
  hreads20_4 : ∀ i i' : grid20.Coords, (∀ a, reads20_4 a = true → i a = i' a) → cc20_transform_4 i = cc20_transform_4 i'
  hinb20_4 : ∀ (i : grid20.Coords) a, (cc20_transform_4 i a + 1) * S5000x128.size a ≤ S100000x128.size a
  hwx20_4 : ∀ i : grid20.Coords, EltTy.bits .f32 = 32 ∨ (Rect.block (s := S100000x128) S5000x128.size (cc20_transform_4 i) (hinb20_4 i)).WholeWords (EltTy.packing .f32)
  hstage20_5 : ∀ j, (stage20_5 j).IsWhole
  nbuf20_5 : grid20.bufCount reads20_5 true = 1
  hreads20_5 : ∀ i i' : grid20.Coords, (∀ a, reads20_5 a = true → i a = i' a) → cc20_transform_5 i = cc20_transform_5 i'
  hinb20_5 : ∀ (i : grid20.Coords) a, (cc20_transform_5 i a + 1) * S1x128.size a ≤ S1x128.size a
  hwx20_5 : ∀ i : grid20.Coords, EltTy.bits .f32 = 32 ∨ (Rect.block (s := S1x128) S1x128.size (cc20_transform_5 i) (hinb20_5 i)).WholeWords (EltTy.packing .f32)
  hstage20_6 : ∀ j, (stage20_6 j).IsWhole
  nbuf20_6 : grid20.bufCount reads20_6 true = 1
  hreads20_6 : ∀ i i' : grid20.Coords, (∀ a, reads20_6 a = true → i a = i' a) → cc20_transform_6 i = cc20_transform_6 i'
  hinb20_6 : ∀ (i : grid20.Coords) a, (cc20_transform_6 i a + 1) * S1x128.size a ≤ S1x128.size a
  hwx20_6 : ∀ i : grid20.Coords, EltTy.bits .f32 = 32 ∨ (Rect.block (s := S1x128) S1x128.size (cc20_transform_6 i) (hinb20_6 i)).WholeWords (EltTy.packing .f32)

class K21.Facts₀ : Prop where
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S5000x128.size a ≤ S100000x128.size a
  hwx21_0 : ∀ i : grid21.Coords, EltTy.bits .f32 = 32 ∨ (Rect.block (s := S100000x128) S5000x128.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S1x128.size a ≤ S1x128.size a
  hwx21_1 : ∀ i : grid21.Coords, EltTy.bits .f32 = 32 ∨ (Rect.block (s := S1x128) S1x128.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x128.size a ≤ S1x128.size a
  hwx21_2 : ∀ i : grid21.Coords, EltTy.bits .f32 = 32 ∨ (Rect.block (s := S1x128) S1x128.size (cc21_transform_2 i) (hinb21_2 i)).WholeWords (EltTy.packing .f32)
  hstage21_3 : ∀ j, (stage21_3 j).IsWhole
  nbuf21_3 : grid21.bufCount reads21_3 true = 1
  hreads21_3 : ∀ i i' : grid21.Coords, (∀ a, reads21_3 a = true → i a = i' a) → cc21_transform_3 i = cc21_transform_3 i'
  hinb21_3 : ∀ (i : grid21.Coords) a, (cc21_transform_3 i a + 1) * S1x128.size a ≤ S1x128.size a
  hwx21_3 : ∀ i : grid21.Coords, EltTy.bits .f32 = 32 ∨ (Rect.block (s := S1x128) S1x128.size (cc21_transform_3 i) (hinb21_3 i)).WholeWords (EltTy.packing .f32)
  hstage21_4 : ∀ j, (stage21_4 j).IsWhole
  nbuf21_4 : grid21.bufCount reads21_4 true = 1
  hreads21_4 : ∀ i i' : grid21.Coords, (∀ a, reads21_4 a = true → i a = i' a) → cc21_transform_4 i = cc21_transform_4 i'
  hinb21_4 : ∀ (i : grid21.Coords) a, (cc21_transform_4 i a + 1) * S1x128.size a ≤ S1x128.size a
  hwx21_4 : ∀ i : grid21.Coords, EltTy.bits .f32 = 32 ∨ (Rect.block (s := S1x128) S1x128.size (cc21_transform_4 i) (hinb21_4 i)).WholeWords (EltTy.packing .f32)
  hstage21_5 : ∀ j, (stage21_5 j).IsWhole
  nbuf21_5 : grid21.bufCount reads21_5 false = 2
  hreads21_5 : ∀ i i' : grid21.Coords, (∀ a, reads21_5 a = true → i a = i' a) → cc21_transform_5 i = cc21_transform_5 i'
  hinb21_5 : ∀ (i : grid21.Coords) a, (cc21_transform_5 i a + 1) * S5000x128.size a ≤ S100000x128.size a
  hwx21_5 : ∀ i : grid21.Coords, EltTy.bits .f32 = 32 ∨ (Rect.block (s := S100000x128) S5000x128.size (cc21_transform_5 i) (hinb21_5 i)).WholeWords (EltTy.packing .f32)

class K22.Facts₀ : Prop where
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S5000x128.size a ≤ S100000x128.size a
  hwx22_0 : ∀ i : grid22.Coords, EltTy.bits .f32 = 32 ∨ (Rect.block (s := S100000x128) S5000x128.size (cc22_transform_0 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S5000x128.size a ≤ S100000x128.size a
  hwx22_1 : ∀ i : grid22.Coords, EltTy.bits .f32 = 32 ∨ (Rect.block (s := S100000x128) S5000x128.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S128x128.size a ≤ S128x128.size a
  hwx22_2 : ∀ i : grid22.Coords, EltTy.bits .f32 = 32 ∨ (Rect.block (s := S128x128) S128x128.size (cc22_transform_2 i) (hinb22_2 i)).WholeWords (EltTy.packing .f32)
  hstage22_3 : ∀ j, (stage22_3 j).IsWhole
  nbuf22_3 : grid22.bufCount reads22_3 true = 1
  hreads22_3 : ∀ i i' : grid22.Coords, (∀ a, reads22_3 a = true → i a = i' a) → cc22_transform_3 i = cc22_transform_3 i'
  hinb22_3 : ∀ (i : grid22.Coords) a, (cc22_transform_3 i a + 1) * S1x128.size a ≤ S1x128.size a
  hwx22_3 : ∀ i : grid22.Coords, EltTy.bits .f32 = 32 ∨ (Rect.block (s := S1x128) S1x128.size (cc22_transform_3 i) (hinb22_3 i)).WholeWords (EltTy.packing .f32)
  hstage22_4 : ∀ j, (stage22_4 j).IsWhole
  nbuf22_4 : grid22.bufCount reads22_4 false = 2
  hreads22_4 : ∀ i i' : grid22.Coords, (∀ a, reads22_4 a = true → i a = i' a) → cc22_transform_4 i = cc22_transform_4 i'
  hinb22_4 : ∀ (i : grid22.Coords) a, (cc22_transform_4 i a + 1) * S5000x128.size a ≤ S100000x128.size a
  hwx22_4 : ∀ i : grid22.Coords, EltTy.bits .f32 = 32 ∨ (Rect.block (s := S100000x128) S5000x128.size (cc22_transform_4 i) (hinb22_4 i)).WholeWords (EltTy.packing .f32)
  hstage22_5 : ∀ j, (stage22_5 j).IsWhole
  nbuf22_5 : grid22.bufCount reads22_5 true = 1
  hreads22_5 : ∀ i i' : grid22.Coords, (∀ a, reads22_5 a = true → i a = i' a) → cc22_transform_5 i = cc22_transform_5 i'
  hinb22_5 : ∀ (i : grid22.Coords) a, (cc22_transform_5 i a + 1) * S1x128.size a ≤ S1x128.size a
  hwx22_5 : ∀ i : grid22.Coords, EltTy.bits .f32 = 32 ∨ (Rect.block (s := S1x128) S1x128.size (cc22_transform_5 i) (hinb22_5 i)).WholeWords (EltTy.packing .f32)
  hstage22_6 : ∀ j, (stage22_6 j).IsWhole
  nbuf22_6 : grid22.bufCount reads22_6 true = 1
  hreads22_6 : ∀ i i' : grid22.Coords, (∀ a, reads22_6 a = true → i a = i' a) → cc22_transform_6 i = cc22_transform_6 i'
  hinb22_6 : ∀ (i : grid22.Coords) a, (cc22_transform_6 i a + 1) * S1x128.size a ≤ S1x128.size a
  hwx22_6 : ∀ i : grid22.Coords, EltTy.bits .f32 = 32 ∨ (Rect.block (s := S1x128) S1x128.size (cc22_transform_6 i) (hinb22_6 i)).WholeWords (EltTy.packing .f32)

class K23.Facts₀ : Prop where
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S5000x128.size a ≤ S100000x128.size a
  hwx23_0 : ∀ i : grid23.Coords, EltTy.bits .f32 = 32 ∨ (Rect.block (s := S100000x128) S5000x128.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S1x128.size a ≤ S1x128.size a
  hwx23_1 : ∀ i : grid23.Coords, EltTy.bits .f32 = 32 ∨ (Rect.block (s := S1x128) S1x128.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S1x128.size a ≤ S1x128.size a
  hwx23_2 : ∀ i : grid23.Coords, EltTy.bits .f32 = 32 ∨ (Rect.block (s := S1x128) S1x128.size (cc23_transform_2 i) (hinb23_2 i)).WholeWords (EltTy.packing .f32)
  hstage23_3 : ∀ j, (stage23_3 j).IsWhole
  nbuf23_3 : grid23.bufCount reads23_3 true = 1
  hreads23_3 : ∀ i i' : grid23.Coords, (∀ a, reads23_3 a = true → i a = i' a) → cc23_transform_3 i = cc23_transform_3 i'
  hinb23_3 : ∀ (i : grid23.Coords) a, (cc23_transform_3 i a + 1) * S1x128.size a ≤ S1x128.size a
  hwx23_3 : ∀ i : grid23.Coords, EltTy.bits .f32 = 32 ∨ (Rect.block (s := S1x128) S1x128.size (cc23_transform_3 i) (hinb23_3 i)).WholeWords (EltTy.packing .f32)
  hstage23_4 : ∀ j, (stage23_4 j).IsWhole
  nbuf23_4 : grid23.bufCount reads23_4 true = 1
  hreads23_4 : ∀ i i' : grid23.Coords, (∀ a, reads23_4 a = true → i a = i' a) → cc23_transform_4 i = cc23_transform_4 i'
  hinb23_4 : ∀ (i : grid23.Coords) a, (cc23_transform_4 i a + 1) * S1x128.size a ≤ S1x128.size a
  hwx23_4 : ∀ i : grid23.Coords, EltTy.bits .f32 = 32 ∨ (Rect.block (s := S1x128) S1x128.size (cc23_transform_4 i) (hinb23_4 i)).WholeWords (EltTy.packing .f32)
  hstage23_5 : ∀ j, (stage23_5 j).IsWhole
  nbuf23_5 : grid23.bufCount reads23_5 false = 2
  hreads23_5 : ∀ i i' : grid23.Coords, (∀ a, reads23_5 a = true → i a = i' a) → cc23_transform_5 i = cc23_transform_5 i'
  hinb23_5 : ∀ (i : grid23.Coords) a, (cc23_transform_5 i a + 1) * S5000x128.size a ≤ S100000x128.size a
  hwx23_5 : ∀ i : grid23.Coords, EltTy.bits .f32 = 32 ∨ (Rect.block (s := S100000x128) S5000x128.size (cc23_transform_5 i) (hinb23_5 i)).WholeWords (EltTy.packing .f32)

class K24.Facts₀ : Prop where
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S5000x128.size a ≤ S100000x128.size a
  hwx24_0 : ∀ i : grid24.Coords, EltTy.bits .f32 = 32 ∨ (Rect.block (s := S100000x128) S5000x128.size (cc24_transform_0 i) (hinb24_0 i)).WholeWords (EltTy.packing .f32)
  hstage24_1 : ∀ j, (stage24_1 j).IsWhole
  nbuf24_1 : grid24.bufCount reads24_1 false = 2
  hreads24_1 : ∀ i i' : grid24.Coords, (∀ a, reads24_1 a = true → i a = i' a) → cc24_transform_1 i = cc24_transform_1 i'
  hinb24_1 : ∀ (i : grid24.Coords) a, (cc24_transform_1 i a + 1) * S5000x128.size a ≤ S100000x128.size a
  hwx24_1 : ∀ i : grid24.Coords, EltTy.bits .f32 = 32 ∨ (Rect.block (s := S100000x128) S5000x128.size (cc24_transform_1 i) (hinb24_1 i)).WholeWords (EltTy.packing .f32)
  hstage24_2 : ∀ j, (stage24_2 j).IsWhole
  nbuf24_2 : grid24.bufCount reads24_2 false = 2
  hreads24_2 : ∀ i i' : grid24.Coords, (∀ a, reads24_2 a = true → i a = i' a) → cc24_transform_2 i = cc24_transform_2 i'
  hinb24_2 : ∀ (i : grid24.Coords) a, (cc24_transform_2 i a + 1) * S5000x128.size a ≤ S100000x128.size a
  hwx24_2 : ∀ i : grid24.Coords, EltTy.bits .f32 = 32 ∨ (Rect.block (s := S100000x128) S5000x128.size (cc24_transform_2 i) (hinb24_2 i)).WholeWords (EltTy.packing .f32)
  hstage24_3 : ∀ j, (stage24_3 j).IsWhole
  nbuf24_3 : grid24.bufCount reads24_3 true = 1
  hreads24_3 : ∀ i i' : grid24.Coords, (∀ a, reads24_3 a = true → i a = i' a) → cc24_transform_3 i = cc24_transform_3 i'
  hinb24_3 : ∀ (i : grid24.Coords) a, (cc24_transform_3 i a + 1) * S128x128.size a ≤ S128x128.size a
  hwx24_3 : ∀ i : grid24.Coords, EltTy.bits .f32 = 32 ∨ (Rect.block (s := S128x128) S128x128.size (cc24_transform_3 i) (hinb24_3 i)).WholeWords (EltTy.packing .f32)
  hstage24_4 : ∀ j, (stage24_4 j).IsWhole
  nbuf24_4 : grid24.bufCount reads24_4 true = 1
  hreads24_4 : ∀ i i' : grid24.Coords, (∀ a, reads24_4 a = true → i a = i' a) → cc24_transform_4 i = cc24_transform_4 i'
  hinb24_4 : ∀ (i : grid24.Coords) a, (cc24_transform_4 i a + 1) * S128x128.size a ≤ S128x128.size a
  hwx24_4 : ∀ i : grid24.Coords, EltTy.bits .f32 = 32 ∨ (Rect.block (s := S128x128) S128x128.size (cc24_transform_4 i) (hinb24_4 i)).WholeWords (EltTy.packing .f32)
  hstage24_5 : ∀ j, (stage24_5 j).IsWhole
  nbuf24_5 : grid24.bufCount reads24_5 true = 1
  hreads24_5 : ∀ i i' : grid24.Coords, (∀ a, reads24_5 a = true → i a = i' a) → cc24_transform_5 i = cc24_transform_5 i'
  hinb24_5 : ∀ (i : grid24.Coords) a, (cc24_transform_5 i a + 1) * S128x128.size a ≤ S128x128.size a
  hwx24_5 : ∀ i : grid24.Coords, EltTy.bits .f32 = 32 ∨ (Rect.block (s := S128x128) S128x128.size (cc24_transform_5 i) (hinb24_5 i)).WholeWords (EltTy.packing .f32)
  hstage24_6 : ∀ j, (stage24_6 j).IsWhole
  nbuf24_6 : grid24.bufCount reads24_6 true = 1
  hreads24_6 : ∀ i i' : grid24.Coords, (∀ a, reads24_6 a = true → i a = i' a) → cc24_transform_6 i = cc24_transform_6 i'
  hinb24_6 : ∀ (i : grid24.Coords) a, (cc24_transform_6 i a + 1) * S1x128.size a ≤ S1x128.size a
  hwx24_6 : ∀ i : grid24.Coords, EltTy.bits .f32 = 32 ∨ (Rect.block (s := S1x128) S1x128.size (cc24_transform_6 i) (hinb24_6 i)).WholeWords (EltTy.packing .f32)
  hstage24_7 : ∀ j, (stage24_7 j).IsWhole
  nbuf24_7 : grid24.bufCount reads24_7 false = 2
  hreads24_7 : ∀ i i' : grid24.Coords, (∀ a, reads24_7 a = true → i a = i' a) → cc24_transform_7 i = cc24_transform_7 i'
  hinb24_7 : ∀ (i : grid24.Coords) a, (cc24_transform_7 i a + 1) * S5000x128.size a ≤ S100000x128.size a
  hwx24_7 : ∀ i : grid24.Coords, EltTy.bits .f32 = 32 ∨ (Rect.block (s := S100000x128) S5000x128.size (cc24_transform_7 i) (hinb24_7 i)).WholeWords (EltTy.packing .f32)
  hstage24_8 : ∀ j, (stage24_8 j).IsWhole
  nbuf24_8 : grid24.bufCount reads24_8 true = 1
  hreads24_8 : ∀ i i' : grid24.Coords, (∀ a, reads24_8 a = true → i a = i' a) → cc24_transform_8 i = cc24_transform_8 i'
  hinb24_8 : ∀ (i : grid24.Coords) a, (cc24_transform_8 i a + 1) * S1x128.size a ≤ S1x128.size a
  hwx24_8 : ∀ i : grid24.Coords, EltTy.bits .f32 = 32 ∨ (Rect.block (s := S1x128) S1x128.size (cc24_transform_8 i) (hinb24_8 i)).WholeWords (EltTy.packing .f32)
  hstage24_9 : ∀ j, (stage24_9 j).IsWhole
  nbuf24_9 : grid24.bufCount reads24_9 true = 1
  hreads24_9 : ∀ i i' : grid24.Coords, (∀ a, reads24_9 a = true → i a = i' a) → cc24_transform_9 i = cc24_transform_9 i'
  hinb24_9 : ∀ (i : grid24.Coords) a, (cc24_transform_9 i a + 1) * S1x128.size a ≤ S1x128.size a
  hwx24_9 : ∀ i : grid24.Coords, EltTy.bits .f32 = 32 ∨ (Rect.block (s := S1x128) S1x128.size (cc24_transform_9 i) (hinb24_9 i)).WholeWords (EltTy.packing .f32)

class K25.Facts₀ : Prop where
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S5000x128.size a ≤ S100000x128.size a
  hwx25_0 : ∀ i : grid25.Coords, EltTy.bits .f32 = 32 ∨ (Rect.block (s := S100000x128) S5000x128.size (cc25_transform_0 i) (hinb25_0 i)).WholeWords (EltTy.packing .f32)
  hstage25_1 : ∀ j, (stage25_1 j).IsWhole
  nbuf25_1 : grid25.bufCount reads25_1 true = 1
  hreads25_1 : ∀ i i' : grid25.Coords, (∀ a, reads25_1 a = true → i a = i' a) → cc25_transform_1 i = cc25_transform_1 i'
  hinb25_1 : ∀ (i : grid25.Coords) a, (cc25_transform_1 i a + 1) * S1x128.size a ≤ S1x128.size a
  hwx25_1 : ∀ i : grid25.Coords, EltTy.bits .f32 = 32 ∨ (Rect.block (s := S1x128) S1x128.size (cc25_transform_1 i) (hinb25_1 i)).WholeWords (EltTy.packing .f32)
  hstage25_2 : ∀ j, (stage25_2 j).IsWhole
  nbuf25_2 : grid25.bufCount reads25_2 true = 1
  hreads25_2 : ∀ i i' : grid25.Coords, (∀ a, reads25_2 a = true → i a = i' a) → cc25_transform_2 i = cc25_transform_2 i'
  hinb25_2 : ∀ (i : grid25.Coords) a, (cc25_transform_2 i a + 1) * S1x128.size a ≤ S1x128.size a
  hwx25_2 : ∀ i : grid25.Coords, EltTy.bits .f32 = 32 ∨ (Rect.block (s := S1x128) S1x128.size (cc25_transform_2 i) (hinb25_2 i)).WholeWords (EltTy.packing .f32)
  hstage25_3 : ∀ j, (stage25_3 j).IsWhole
  nbuf25_3 : grid25.bufCount reads25_3 true = 1
  hreads25_3 : ∀ i i' : grid25.Coords, (∀ a, reads25_3 a = true → i a = i' a) → cc25_transform_3 i = cc25_transform_3 i'
  hinb25_3 : ∀ (i : grid25.Coords) a, (cc25_transform_3 i a + 1) * S1x128.size a ≤ S1x128.size a
  hwx25_3 : ∀ i : grid25.Coords, EltTy.bits .f32 = 32 ∨ (Rect.block (s := S1x128) S1x128.size (cc25_transform_3 i) (hinb25_3 i)).WholeWords (EltTy.packing .f32)
  hstage25_4 : ∀ j, (stage25_4 j).IsWhole
  nbuf25_4 : grid25.bufCount reads25_4 true = 1
  hreads25_4 : ∀ i i' : grid25.Coords, (∀ a, reads25_4 a = true → i a = i' a) → cc25_transform_4 i = cc25_transform_4 i'
  hinb25_4 : ∀ (i : grid25.Coords) a, (cc25_transform_4 i a + 1) * S1x128.size a ≤ S1x128.size a
  hwx25_4 : ∀ i : grid25.Coords, EltTy.bits .f32 = 32 ∨ (Rect.block (s := S1x128) S1x128.size (cc25_transform_4 i) (hinb25_4 i)).WholeWords (EltTy.packing .f32)
  hstage25_5 : ∀ j, (stage25_5 j).IsWhole
  nbuf25_5 : grid25.bufCount reads25_5 false = 2
  hreads25_5 : ∀ i i' : grid25.Coords, (∀ a, reads25_5 a = true → i a = i' a) → cc25_transform_5 i = cc25_transform_5 i'
  hinb25_5 : ∀ (i : grid25.Coords) a, (cc25_transform_5 i a + 1) * S5000x128.size a ≤ S100000x128.size a
  hwx25_5 : ∀ i : grid25.Coords, EltTy.bits .f32 = 32 ∨ (Rect.block (s := S100000x128) S5000x128.size (cc25_transform_5 i) (hinb25_5 i)).WholeWords (EltTy.packing .f32)

class K26.Facts₀ : Prop where
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S5000x128.size a ≤ S100000x128.size a
  hwx26_0 : ∀ i : grid26.Coords, EltTy.bits .f32 = 32 ∨ (Rect.block (s := S100000x128) S5000x128.size (cc26_transform_0 i) (hinb26_0 i)).WholeWords (EltTy.packing .f32)
  hstage26_1 : ∀ j, (stage26_1 j).IsWhole
  nbuf26_1 : grid26.bufCount reads26_1 true = 1
  hreads26_1 : ∀ i i' : grid26.Coords, (∀ a, reads26_1 a = true → i a = i' a) → cc26_transform_1 i = cc26_transform_1 i'
  hinb26_1 : ∀ (i : grid26.Coords) a, (cc26_transform_1 i a + 1) * S128x128.size a ≤ S128x128.size a
  hwx26_1 : ∀ i : grid26.Coords, EltTy.bits .f32 = 32 ∨ (Rect.block (s := S128x128) S128x128.size (cc26_transform_1 i) (hinb26_1 i)).WholeWords (EltTy.packing .f32)
  hstage26_2 : ∀ j, (stage26_2 j).IsWhole
  nbuf26_2 : grid26.bufCount reads26_2 true = 1
  hreads26_2 : ∀ i i' : grid26.Coords, (∀ a, reads26_2 a = true → i a = i' a) → cc26_transform_2 i = cc26_transform_2 i'
  hinb26_2 : ∀ (i : grid26.Coords) a, (cc26_transform_2 i a + 1) * S1x128.size a ≤ S1x128.size a
  hwx26_2 : ∀ i : grid26.Coords, EltTy.bits .f32 = 32 ∨ (Rect.block (s := S1x128) S1x128.size (cc26_transform_2 i) (hinb26_2 i)).WholeWords (EltTy.packing .f32)
  hstage26_3 : ∀ j, (stage26_3 j).IsWhole
  nbuf26_3 : grid26.bufCount reads26_3 false = 2
  hreads26_3 : ∀ i i' : grid26.Coords, (∀ a, reads26_3 a = true → i a = i' a) → cc26_transform_3 i = cc26_transform_3 i'
  hinb26_3 : ∀ (i : grid26.Coords) a, (cc26_transform_3 i a + 1) * S5000x128.size a ≤ S100000x128.size a
  hwx26_3 : ∀ i : grid26.Coords, EltTy.bits .f32 = 32 ∨ (Rect.block (s := S100000x128) S5000x128.size (cc26_transform_3 i) (hinb26_3 i)).WholeWords (EltTy.packing .f32)
  hstage26_4 : ∀ j, (stage26_4 j).IsWhole
  nbuf26_4 : grid26.bufCount reads26_4 true = 1
  hreads26_4 : ∀ i i' : grid26.Coords, (∀ a, reads26_4 a = true → i a = i' a) → cc26_transform_4 i = cc26_transform_4 i'
  hinb26_4 : ∀ (i : grid26.Coords) a, (cc26_transform_4 i a + 1) * S1x128.size a ≤ S1x128.size a
  hwx26_4 : ∀ i : grid26.Coords, EltTy.bits .f32 = 32 ∨ (Rect.block (s := S1x128) S1x128.size (cc26_transform_4 i) (hinb26_4 i)).WholeWords (EltTy.packing .f32)
  hstage26_5 : ∀ j, (stage26_5 j).IsWhole
  nbuf26_5 : grid26.bufCount reads26_5 true = 1
  hreads26_5 : ∀ i i' : grid26.Coords, (∀ a, reads26_5 a = true → i a = i' a) → cc26_transform_5 i = cc26_transform_5 i'
  hinb26_5 : ∀ (i : grid26.Coords) a, (cc26_transform_5 i a + 1) * S1x128.size a ≤ S1x128.size a
  hwx26_5 : ∀ i : grid26.Coords, EltTy.bits .f32 = 32 ∨ (Rect.block (s := S1x128) S1x128.size (cc26_transform_5 i) (hinb26_5 i)).WholeWords (EltTy.packing .f32)

class K27.Facts₀ : Prop where
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S5000x128.size a ≤ S100000x128.size a
  hwx27_0 : ∀ i : grid27.Coords, EltTy.bits .f32 = 32 ∨ (Rect.block (s := S100000x128) S5000x128.size (cc27_transform_0 i) (hinb27_0 i)).WholeWords (EltTy.packing .f32)
  hstage27_1 : ∀ j, (stage27_1 j).IsWhole
  nbuf27_1 : grid27.bufCount reads27_1 true = 1
  hreads27_1 : ∀ i i' : grid27.Coords, (∀ a, reads27_1 a = true → i a = i' a) → cc27_transform_1 i = cc27_transform_1 i'
  hinb27_1 : ∀ (i : grid27.Coords) a, (cc27_transform_1 i a + 1) * S1x128.size a ≤ S1x128.size a
  hwx27_1 : ∀ i : grid27.Coords, EltTy.bits .f32 = 32 ∨ (Rect.block (s := S1x128) S1x128.size (cc27_transform_1 i) (hinb27_1 i)).WholeWords (EltTy.packing .f32)
  hstage27_2 : ∀ j, (stage27_2 j).IsWhole
  nbuf27_2 : grid27.bufCount reads27_2 true = 1
  hreads27_2 : ∀ i i' : grid27.Coords, (∀ a, reads27_2 a = true → i a = i' a) → cc27_transform_2 i = cc27_transform_2 i'
  hinb27_2 : ∀ (i : grid27.Coords) a, (cc27_transform_2 i a + 1) * S1x128.size a ≤ S1x128.size a
  hwx27_2 : ∀ i : grid27.Coords, EltTy.bits .f32 = 32 ∨ (Rect.block (s := S1x128) S1x128.size (cc27_transform_2 i) (hinb27_2 i)).WholeWords (EltTy.packing .f32)
  hstage27_3 : ∀ j, (stage27_3 j).IsWhole
  nbuf27_3 : grid27.bufCount reads27_3 true = 1
  hreads27_3 : ∀ i i' : grid27.Coords, (∀ a, reads27_3 a = true → i a = i' a) → cc27_transform_3 i = cc27_transform_3 i'
  hinb27_3 : ∀ (i : grid27.Coords) a, (cc27_transform_3 i a + 1) * S1x128.size a ≤ S1x128.size a
  hwx27_3 : ∀ i : grid27.Coords, EltTy.bits .f32 = 32 ∨ (Rect.block (s := S1x128) S1x128.size (cc27_transform_3 i) (hinb27_3 i)).WholeWords (EltTy.packing .f32)
  hstage27_4 : ∀ j, (stage27_4 j).IsWhole
  nbuf27_4 : grid27.bufCount reads27_4 true = 1
  hreads27_4 : ∀ i i' : grid27.Coords, (∀ a, reads27_4 a = true → i a = i' a) → cc27_transform_4 i = cc27_transform_4 i'
  hinb27_4 : ∀ (i : grid27.Coords) a, (cc27_transform_4 i a + 1) * S1x128.size a ≤ S1x128.size a
  hwx27_4 : ∀ i : grid27.Coords, EltTy.bits .f32 = 32 ∨ (Rect.block (s := S1x128) S1x128.size (cc27_transform_4 i) (hinb27_4 i)).WholeWords (EltTy.packing .f32)
  hstage27_5 : ∀ j, (stage27_5 j).IsWhole
  nbuf27_5 : grid27.bufCount reads27_5 false = 2
  hreads27_5 : ∀ i i' : grid27.Coords, (∀ a, reads27_5 a = true → i a = i' a) → cc27_transform_5 i = cc27_transform_5 i'
  hinb27_5 : ∀ (i : grid27.Coords) a, (cc27_transform_5 i a + 1) * S5000x128.size a ≤ S100000x128.size a
  hwx27_5 : ∀ i : grid27.Coords, EltTy.bits .f32 = 32 ∨ (Rect.block (s := S100000x128) S5000x128.size (cc27_transform_5 i) (hinb27_5 i)).WholeWords (EltTy.packing .f32)

class K28.Facts₀ : Prop where
  hrank28 : 0 < grid28.rank
  hstage28_0 : ∀ j, (stage28_0 j).IsWhole
  nbuf28_0 : grid28.bufCount reads28_0 false = 2
  hreads28_0 : ∀ i i' : grid28.Coords, (∀ a, reads28_0 a = true → i a = i' a) → cc28_transform_0 i = cc28_transform_0 i'
  hinb28_0 : ∀ (i : grid28.Coords) a, (cc28_transform_0 i a + 1) * S5000x128.size a ≤ S100000x128.size a
  hwx28_0 : ∀ i : grid28.Coords, EltTy.bits .f32 = 32 ∨ (Rect.block (s := S100000x128) S5000x128.size (cc28_transform_0 i) (hinb28_0 i)).WholeWords (EltTy.packing .f32)
  hstage28_1 : ∀ j, (stage28_1 j).IsWhole
  nbuf28_1 : grid28.bufCount reads28_1 true = 1
  hreads28_1 : ∀ i i' : grid28.Coords, (∀ a, reads28_1 a = true → i a = i' a) → cc28_transform_1 i = cc28_transform_1 i'
  hinb28_1 : ∀ (i : grid28.Coords) a, (cc28_transform_1 i a + 1) * S128x5.size a ≤ S128x5.size a
  hwx28_1 : ∀ i : grid28.Coords, EltTy.bits .f32 = 32 ∨ (Rect.block (s := S128x5) S128x5.size (cc28_transform_1 i) (hinb28_1 i)).WholeWords (EltTy.packing .f32)
  hstage28_2 : ∀ j, (stage28_2 j).IsWhole
  nbuf28_2 : grid28.bufCount reads28_2 true = 1
  hreads28_2 : ∀ i i' : grid28.Coords, (∀ a, reads28_2 a = true → i a = i' a) → cc28_transform_2 i = cc28_transform_2 i'
  hinb28_2 : ∀ (i : grid28.Coords) a, (cc28_transform_2 i a + 1) * S1x5.size a ≤ S1x5.size a
  hwx28_2 : ∀ i : grid28.Coords, EltTy.bits .f32 = 32 ∨ (Rect.block (s := S1x5) S1x5.size (cc28_transform_2 i) (hinb28_2 i)).WholeWords (EltTy.packing .f32)
  hstage28_3 : ∀ j, (stage28_3 j).IsWhole
  nbuf28_3 : grid28.bufCount reads28_3 false = 2
  hreads28_3 : ∀ i i' : grid28.Coords, (∀ a, reads28_3 a = true → i a = i' a) → cc28_transform_3 i = cc28_transform_3 i'
  hinb28_3 : ∀ (i : grid28.Coords) a, (cc28_transform_3 i a + 1) * S5000x5.size a ≤ S100000x5.size a
  hwx28_3 : ∀ i : grid28.Coords, EltTy.bits .f32 = 32 ∨ (Rect.block (s := S100000x5) S5000x5.size (cc28_transform_3 i) (hinb28_3 i)).WholeWords (EltTy.packing .f32)
  hstage28_4 : ∀ j, (stage28_4 j).IsWhole
  nbuf28_4 : grid28.bufCount reads28_4 true = 1
  hreads28_4 : ∀ i i' : grid28.Coords, (∀ a, reads28_4 a = true → i a = i' a) → cc28_transform_4 i = cc28_transform_4 i'
  hinb28_4 : ∀ (i : grid28.Coords) a, (cc28_transform_4 i a + 1) * S1x5.size a ≤ S1x5.size a
  hwx28_4 : ∀ i : grid28.Coords, EltTy.bits .f32 = 32 ∨ (Rect.block (s := S1x5) S1x5.size (cc28_transform_4 i) (hinb28_4 i)).WholeWords (EltTy.packing .f32)
  hstage28_5 : ∀ j, (stage28_5 j).IsWhole
  nbuf28_5 : grid28.bufCount reads28_5 true = 1
  hreads28_5 : ∀ i i' : grid28.Coords, (∀ a, reads28_5 a = true → i a = i' a) → cc28_transform_5 i = cc28_transform_5 i'
  hinb28_5 : ∀ (i : grid28.Coords) a, (cc28_transform_5 i a + 1) * S1x5.size a ≤ S1x5.size a
  hwx28_5 : ∀ i : grid28.Coords, EltTy.bits .f32 = 32 ∨ (Rect.block (s := S1x5) S1x5.size (cc28_transform_5 i) (hinb28_5 i)).WholeWords (EltTy.packing .f32)

class K29.Facts₀ : Prop where
  hrank29 : 0 < grid29.rank
  hstage29_0 : ∀ j, (stage29_0 j).IsWhole
  nbuf29_0 : grid29.bufCount reads29_0 false = 2
  hreads29_0 : ∀ i i' : grid29.Coords, (∀ a, reads29_0 a = true → i a = i' a) → cc29_transform_0 i = cc29_transform_0 i'
  hinb29_0 : ∀ (i : grid29.Coords) a, (cc29_transform_0 i a + 1) * S5000x5.size a ≤ S100000x5.size a
  hwx29_0 : ∀ i : grid29.Coords, EltTy.bits .f32 = 32 ∨ (Rect.block (s := S100000x5) S5000x5.size (cc29_transform_0 i) (hinb29_0 i)).WholeWords (EltTy.packing .f32)
  hstage29_1 : ∀ j, (stage29_1 j).IsWhole
  nbuf29_1 : grid29.bufCount reads29_1 true = 1
  hreads29_1 : ∀ i i' : grid29.Coords, (∀ a, reads29_1 a = true → i a = i' a) → cc29_transform_1 i = cc29_transform_1 i'
  hinb29_1 : ∀ (i : grid29.Coords) a, (cc29_transform_1 i a + 1) * S1x5.size a ≤ S1x5.size a
  hwx29_1 : ∀ i : grid29.Coords, EltTy.bits .f32 = 32 ∨ (Rect.block (s := S1x5) S1x5.size (cc29_transform_1 i) (hinb29_1 i)).WholeWords (EltTy.packing .f32)
  hstage29_2 : ∀ j, (stage29_2 j).IsWhole
  nbuf29_2 : grid29.bufCount reads29_2 true = 1
  hreads29_2 : ∀ i i' : grid29.Coords, (∀ a, reads29_2 a = true → i a = i' a) → cc29_transform_2 i = cc29_transform_2 i'
  hinb29_2 : ∀ (i : grid29.Coords) a, (cc29_transform_2 i a + 1) * S1x5.size a ≤ S1x5.size a
  hwx29_2 : ∀ i : grid29.Coords, EltTy.bits .f32 = 32 ∨ (Rect.block (s := S1x5) S1x5.size (cc29_transform_2 i) (hinb29_2 i)).WholeWords (EltTy.packing .f32)
  hstage29_3 : ∀ j, (stage29_3 j).IsWhole
  nbuf29_3 : grid29.bufCount reads29_3 true = 1
  hreads29_3 : ∀ i i' : grid29.Coords, (∀ a, reads29_3 a = true → i a = i' a) → cc29_transform_3 i = cc29_transform_3 i'
  hinb29_3 : ∀ (i : grid29.Coords) a, (cc29_transform_3 i a + 1) * S1x5.size a ≤ S1x5.size a
  hwx29_3 : ∀ i : grid29.Coords, EltTy.bits .f32 = 32 ∨ (Rect.block (s := S1x5) S1x5.size (cc29_transform_3 i) (hinb29_3 i)).WholeWords (EltTy.packing .f32)
  hstage29_4 : ∀ j, (stage29_4 j).IsWhole
  nbuf29_4 : grid29.bufCount reads29_4 true = 1
  hreads29_4 : ∀ i i' : grid29.Coords, (∀ a, reads29_4 a = true → i a = i' a) → cc29_transform_4 i = cc29_transform_4 i'
  hinb29_4 : ∀ (i : grid29.Coords) a, (cc29_transform_4 i a + 1) * S1x5.size a ≤ S1x5.size a
  hwx29_4 : ∀ i : grid29.Coords, EltTy.bits .f32 = 32 ∨ (Rect.block (s := S1x5) S1x5.size (cc29_transform_4 i) (hinb29_4 i)).WholeWords (EltTy.packing .f32)
  hstage29_5 : ∀ j, (stage29_5 j).IsWhole
  nbuf29_5 : grid29.bufCount reads29_5 false = 2
  hreads29_5 : ∀ i i' : grid29.Coords, (∀ a, reads29_5 a = true → i a = i' a) → cc29_transform_5 i = cc29_transform_5 i'
  hinb29_5 : ∀ (i : grid29.Coords) a, (cc29_transform_5 i a + 1) * S5000x5.size a ≤ S100000x5.size a
  hwx29_5 : ∀ i : grid29.Coords, EltTy.bits .f32 = 32 ∨ (Rect.block (s := S100000x5) S5000x5.size (cc29_transform_5 i) (hinb29_5 i)).WholeWords (EltTy.packing .f32)

class Shapes1.Facts₀ : Prop where
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  bcast_S_S128 : S_.BroadcastsInDim S128 (![] : Fin 0 → Fin S128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S5_S1x5 : S5.ShapeCasts S1x5
  inb_S1x5_S1x5_0_0 : ∀ a, (![0, 0] : Fin 2 → Nat) a + S1x5.size a ≤ S1x5.size a
  h_S1x5 : 0 < S1x5.numel
  inb_S128x5_S128x5_0_0 : ∀ a, (![0, 0] : Fin 2 → Nat) a + S128x5.size a ≤ S128x5.size a
  h_S128x5 : 0 < S128x5.numel
  shapeCasts_S1x5_S1x5 : S1x5.ShapeCasts S1x5
  broadcasts_S1x5_S5000x5 : S1x5.Broadcasts S5000x5
  inb_S5000x5_S5000x5_0_0 : ∀ a, (![0, 0] : Fin 2 → Nat) a + S5000x5.size a ≤ S5000x5.size a
  h_S5000x5 : 0 < S5000x5.numel
  reduces_S5000x5_S5 : S5000x5.Reduces [0] S5
  bcast_S_S1x5 : S_.BroadcastsInDim S1x5 (![] : Fin 0 → Fin S1x5.rank)
  shapeCasts_S5000x5_S5000x5 : S5000x5.ShapeCasts S5000x5
  reducesTo_S100000x5_S100000_d1 : S100000x5.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  bcast_S100000x5_S100000x5x1_0_1 : S100000x5.BroadcastsInDim S100000x5x1 (![0, 1] : Fin 2 → Fin S100000x5x1.rank)
  bcast_S100000x128_S100000x1x128_0_2 : S100000x128.BroadcastsInDim S100000x1x128 (![0, 2] : Fin 2 → Fin S100000x1x128.rank)
  bcast_S100000x5x1_S100000x5x128_0_1_2 : S100000x5x1.BroadcastsInDim S100000x5x128 (![0, 1, 2] : Fin 3 → Fin S100000x5x128.rank)
  bcast_S100000x1x128_S100000x5x128_0_1_2 : S100000x1x128.BroadcastsInDim S100000x5x128 (![0, 1, 2] : Fin 3 → Fin S100000x5x128.rank)
  bcast_S_S1000x5x128 : S_.BroadcastsInDim S1000x5x128 (![] : Fin 0 → Fin S1000x5x128.rank)
  shapeCasts_S1000x5x128_S1000x640 : S1000x5x128.ShapeCasts S1000x640
  bcast_S_S1000x640 : S_.BroadcastsInDim S1000x640 (![] : Fin 0 → Fin S1000x640.rank)
  reducesTo_S64x128_S_d0_1 : S64x128.ReducesTo [0, 1] S_
  reducesTo_S3x128x128_S_d0_1_2 : S3x128x128.ReducesTo [0, 1, 2] S_
  reducesTo_S384x128_S_d0_1 : S384x128.ReducesTo [0, 1] S_
  reducesTo_S128x128_S_d0_1 : S128x128.ReducesTo [0, 1] S_
  reducesTo_S128x5_S_d0_1 : S128x5.ReducesTo [0, 1] S_
  dot_S5000x64_S64x128_S5000x128_1_0_0_1_n_n_wf : DotDims.WF S5000x64 S64x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S5000x128_S128x5_S5000x5_1_0_0_1_n_n_wf : DotDims.WF S5000x128 S128x5 S5000x5 [1] [0] [0] [1] [] []
  scatter_S1000x5x128_S100000x1_S100000x5x128_12_0_0_1_wf : ScatterDims.WF S1000x5x128 S100000x1 S100000x5x128 [1, 2] [0] [0] 1

class Facts₀ : Prop where
  k0 : K0.Facts₀
  k1 : K1.Facts₀
  k2 : K2.Facts₀
  k3 : K3.Facts₀
  k4 : K4.Facts₀
  k5 : K5.Facts₀
  k6 : K6.Facts₀
  k7 : K7.Facts₀
  k8 : K8.Facts₀
  k9 : K9.Facts₀
  k10 : K10.Facts₀
  k11 : K11.Facts₀
  k12 : K12.Facts₀
  k13 : K13.Facts₀
  k14 : K14.Facts₀
  k15 : K15.Facts₀
  k16 : K16.Facts₀
  k17 : K17.Facts₀
  k18 : K18.Facts₀
  k19 : K19.Facts₀
  k20 : K20.Facts₀
  k21 : K21.Facts₀
  k22 : K22.Facts₀
  k23 : K23.Facts₀
  k24 : K24.Facts₀
  k25 : K25.Facts₀
  k26 : K26.Facts₀
  k27 : K27.Facts₀
  k28 : K28.Facts₀
  k29 : K29.Facts₀
  shapes1 : Shapes1.Facts₀
attribute [instance] Facts₀.k0 Facts₀.k1 Facts₀.k2 Facts₀.k3 Facts₀.k4 Facts₀.k5 Facts₀.k6 Facts₀.k7 Facts₀.k8 Facts₀.k9 Facts₀.k10 Facts₀.k11 Facts₀.k12 Facts₀.k13 Facts₀.k14 Facts₀.k15 Facts₀.k16 Facts₀.k17 Facts₀.k18 Facts₀.k19 Facts₀.k20 Facts₀.k21 Facts₀.k22 Facts₀.k23 Facts₀.k24 Facts₀.k25 Facts₀.k26 Facts₀.k27 Facts₀.k28 Facts₀.k29 Facts₀.shapes1

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x5_S5000x5_1_0_0_1_n_n : DotDims S5000x128 S128x5 S5000x5 where
  lhsContracting := [1]
  rhsContracting := [0]
  lhsNonContracting := [0]
  rhsNonContracting := [1]
  lhsBatch := []
  rhsBatch := []
  wf := dot_S5000x128_S128x5_S5000x5_1_0_0_1_n_n_wf
def scatter_S1000x5x128_S100000x1_S100000x5x128_12_0_0_1 : ScatterDims S1000x5x128 S100000x1 S100000x5x128 where
  updateWindowDims := [1, 2]
  insertedWindowDims := [0]
  scatterDimsToOperandDims := [0]
  indexVectorDim := 1
  wf := scatter_S1000x5x128_S100000x1_S100000x5x128_12_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v21) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v27_1) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27_2) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v27_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v50) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v55) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v56_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v56_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v56_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v56_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v68) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v69) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v79) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v10) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v81) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v84) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v85_0) S5000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v85_1) S1x128.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v85_2) S1x128.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v85_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v87) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v91) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v96) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v97) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v98) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v40) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v69) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v98) S5000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v99) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v100) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v101) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v102) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v103_0) S5000x128.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_v103_1) S1x128.size cc8_transform_8 reads8_8 true true 1 stage8_8 sem8_8
    hrank8 hreads8_8 hinb8_8 nbuf8_8 (Memref.isWhole_whole _) hwx8_8 hstage8_8

abbrev win8_9 : Pipeline.Window sig grid8 :=
  Pipeline.Window.ofSpec (Memref.whole main_v103_2) S1x128.size cc8_transform_9 reads8_9 true true 1 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v103_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v105) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v109) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v110) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v111) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v112) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v123) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v113) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v125) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v128) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v129_0) S5000x128.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v129_1) S1x128.size cc10_transform_5 reads10_5 true true 1 stage10_5 sem10_5
    hrank10 hreads10_5 hinb10_5 nbuf10_5 (Memref.isWhole_whole _) hwx10_5 hstage10_5

abbrev win10_6 : Pipeline.Window sig grid10 :=
  Pipeline.Window.ofSpec (Memref.whole main_v129_2) S1x128.size cc10_transform_6 reads10_6 true true 1 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v129_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v131) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v135) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v140) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v141) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v142) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v152) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v113) S5000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v154) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v157) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v158_0) S5000x128.size cc12_transform_4 reads12_4 true false 2 stage12_4 sem12_4
    hrank12 hreads12_4 hinb12_4 nbuf12_4 (Memref.isWhole_whole _) hwx12_4 hstage12_4

abbrev win12_5 : Pipeline.Window sig grid12 :=
  Pipeline.Window.ofSpec (Memref.whole main_v158_1) S1x128.size cc12_transform_5 reads12_5 true true 1 stage12_5 sem12_5
    hrank12 hreads12_5 hinb12_5 nbuf12_5 (Memref.isWhole_whole _) hwx12_5 hstage12_5

abbrev win12_6 : Pipeline.Window sig grid12 :=
  Pipeline.Window.ofSpec (Memref.whole main_v158_2) S1x128.size cc12_transform_6 reads12_6 true true 1 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v158_0) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v160) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v164) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v169) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v170) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v171) S5000x128.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v181) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v113) S5000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v183) S128x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v186) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v187_0) S5000x128.size cc14_transform_4 reads14_4 true false 2 stage14_4 sem14_4
    hrank14 hreads14_4 hinb14_4 nbuf14_4 (Memref.isWhole_whole _) hwx14_4 hstage14_4

abbrev win14_5 : Pipeline.Window sig grid14 :=
  Pipeline.Window.ofSpec (Memref.whole main_v187_1) S1x128.size cc14_transform_5 reads14_5 true true 1 stage14_5 sem14_5
    hrank14 hreads14_5 hinb14_5 nbuf14_5 (Memref.isWhole_whole _) hwx14_5 hstage14_5

abbrev win14_6 : Pipeline.Window sig grid14 :=
  Pipeline.Window.ofSpec (Memref.whole main_v187_2) S1x128.size cc14_transform_6 reads14_6 true true 1 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

abbrev win15_0 : Pipeline.Window sig grid15 :=
  Pipeline.Window.ofSpec (Memref.whole main_v187_0) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v189) S1x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v193) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v198) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v199) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v200) S5000x128.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v142) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v171) S5000x128.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v200) S5000x128.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v201) S128x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v202) S128x128.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v203) S128x128.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v204) S1x128.size cc16_transform_6 reads16_6 false true 1 stage16_6 sem16_6
    hrank16 hreads16_6 hinb16_6 nbuf16_6 (Memref.isWhole_whole _) hwx16_6 hstage16_6

abbrev win16_7 : Pipeline.Window sig grid16 :=
  Pipeline.Window.ofSpec (Memref.whole main_v205_0) S5000x128.size cc16_transform_7 reads16_7 true false 2 stage16_7 sem16_7
    hrank16 hreads16_7 hinb16_7 nbuf16_7 (Memref.isWhole_whole _) hwx16_7 hstage16_7

abbrev win16_8 : Pipeline.Window sig grid16 :=
  Pipeline.Window.ofSpec (Memref.whole main_v205_1) S1x128.size cc16_transform_8 reads16_8 true true 1 stage16_8 sem16_8
    hrank16 hreads16_8 hinb16_8 nbuf16_8 (Memref.isWhole_whole _) hwx16_8 hstage16_8

abbrev win16_9 : Pipeline.Window sig grid16 :=
  Pipeline.Window.ofSpec (Memref.whole main_v205_2) S1x128.size cc16_transform_9 reads16_9 true true 1 stage16_9 sem16_9
    hrank16 hreads16_9 hinb16_9 nbuf16_9 (Memref.isWhole_whole _) hwx16_9 hstage16_9

abbrev win16 : Fin 10 → Pipeline.Window sig grid16 := fun | 0 => win16_0 | 1 => win16_1 | 2 => win16_2 | 3 => win16_3 | 4 => win16_4 | 5 => win16_5 | 6 => win16_6 | 7 => win16_7 | 8 => win16_8 | 9 => win16_9 | ⟨_ + 10, h⟩ => absurd h (Nat.not_lt.2 (Nat.le_add_left _ _))
abbrev spec16 : Fin 10 → Pipeline.WinSpec sig grid16.rank := fun w => (win16 w).toWinSpec

abbrev win17_0 : Pipeline.Window sig grid17 :=
  Pipeline.Window.ofSpec (Memref.whole main_v205_0) S5000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v207) S1x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v211) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v212) S1x128.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v213) S1x128.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v214) S5000x128.size cc17_transform_5 reads17_5 true false 2 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

abbrev win18_0 : Pipeline.Window sig grid18 :=
  Pipeline.Window.ofSpec (Memref.whole main_v225) S5000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v215) S5000x128.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v227) S128x128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v230) S1x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v231_0) S5000x128.size cc18_transform_4 reads18_4 true false 2 stage18_4 sem18_4
    hrank18 hreads18_4 hinb18_4 nbuf18_4 (Memref.isWhole_whole _) hwx18_4 hstage18_4

abbrev win18_5 : Pipeline.Window sig grid18 :=
  Pipeline.Window.ofSpec (Memref.whole main_v231_1) S1x128.size cc18_transform_5 reads18_5 true true 1 stage18_5 sem18_5
    hrank18 hreads18_5 hinb18_5 nbuf18_5 (Memref.isWhole_whole _) hwx18_5 hstage18_5

abbrev win18_6 : Pipeline.Window sig grid18 :=
  Pipeline.Window.ofSpec (Memref.whole main_v231_2) S1x128.size cc18_transform_6 reads18_6 true true 1 stage18_6 sem18_6
    hrank18 hreads18_6 hinb18_6 nbuf18_6 (Memref.isWhole_whole _) hwx18_6 hstage18_6

abbrev win18 : Fin 7 → Pipeline.Window sig grid18 := fun | 0 => win18_0 | 1 => win18_1 | 2 => win18_2 | 3 => win18_3 | 4 => win18_4 | 5 => win18_5 | 6 => win18_6 | ⟨_ + 7, h⟩ => absurd h (Nat.not_lt.2 (Nat.le_add_left _ _))
abbrev spec18 : Fin 7 → Pipeline.WinSpec sig grid18.rank := fun w => (win18 w).toWinSpec

abbrev win19_0 : Pipeline.Window sig grid19 :=
  Pipeline.Window.ofSpec (Memref.whole main_v231_0) S5000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v233) S1x128.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v237) S1x128.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v242) S1x128.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v243) S1x128.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v244) S5000x128.size cc19_transform_5 reads19_5 true false 2 stage19_5 sem19_5
    hrank19 hreads19_5 hinb19_5 nbuf19_5 (Memref.isWhole_whole _) hwx19_5 hstage19_5

abbrev win19 : Fin 6 → Pipeline.Window sig grid19 := fun | 0 => win19_0 | 1 => win19_1 | 2 => win19_2 | 3 => win19_3 | 4 => win19_4 | 5 => win19_5 | ⟨_ + 6, h⟩ => absurd h (Nat.not_lt.2 (Nat.le_add_left _ _))
abbrev spec19 : Fin 6 → Pipeline.WinSpec sig grid19.rank := fun w => (win19 w).toWinSpec

abbrev win20_0 : Pipeline.Window sig grid20 :=
  Pipeline.Window.ofSpec (Memref.whole main_v254) S5000x128.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v215) S5000x128.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v256) S128x128.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v259) S1x128.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v260_0) S5000x128.size cc20_transform_4 reads20_4 true false 2 stage20_4 sem20_4
    hrank20 hreads20_4 hinb20_4 nbuf20_4 (Memref.isWhole_whole _) hwx20_4 hstage20_4

abbrev win20_5 : Pipeline.Window sig grid20 :=
  Pipeline.Window.ofSpec (Memref.whole main_v260_1) S1x128.size cc20_transform_5 reads20_5 true true 1 stage20_5 sem20_5
    hrank20 hreads20_5 hinb20_5 nbuf20_5 (Memref.isWhole_whole _) hwx20_5 hstage20_5

abbrev win20_6 : Pipeline.Window sig grid20 :=
  Pipeline.Window.ofSpec (Memref.whole main_v260_2) S1x128.size cc20_transform_6 reads20_6 true true 1 stage20_6 sem20_6
    hrank20 hreads20_6 hinb20_6 nbuf20_6 (Memref.isWhole_whole _) hwx20_6 hstage20_6

abbrev win20 : Fin 7 → Pipeline.Window sig grid20 := fun | 0 => win20_0 | 1 => win20_1 | 2 => win20_2 | 3 => win20_3 | 4 => win20_4 | 5 => win20_5 | 6 => win20_6 | ⟨_ + 7, h⟩ => absurd h (Nat.not_lt.2 (Nat.le_add_left _ _))
abbrev spec20 : Fin 7 → Pipeline.WinSpec sig grid20.rank := fun w => (win20 w).toWinSpec

abbrev win21_0 : Pipeline.Window sig grid21 :=
  Pipeline.Window.ofSpec (Memref.whole main_v260_0) S5000x128.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v262) S1x128.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v266) S1x128.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v271) S1x128.size cc21_transform_3 reads21_3 false true 1 stage21_3 sem21_3
    hrank21 hreads21_3 hinb21_3 nbuf21_3 (Memref.isWhole_whole _) hwx21_3 hstage21_3

abbrev win21_4 : Pipeline.Window sig grid21 :=
  Pipeline.Window.ofSpec (Memref.whole main_v272) S1x128.size cc21_transform_4 reads21_4 false true 1 stage21_4 sem21_4
    hrank21 hreads21_4 hinb21_4 nbuf21_4 (Memref.isWhole_whole _) hwx21_4 hstage21_4

abbrev win21_5 : Pipeline.Window sig grid21 :=
  Pipeline.Window.ofSpec (Memref.whole main_v273) S5000x128.size cc21_transform_5 reads21_5 true false 2 stage21_5 sem21_5
    hrank21 hreads21_5 hinb21_5 nbuf21_5 (Memref.isWhole_whole _) hwx21_5 hstage21_5

abbrev win21 : Fin 6 → Pipeline.Window sig grid21 := fun | 0 => win21_0 | 1 => win21_1 | 2 => win21_2 | 3 => win21_3 | 4 => win21_4 | 5 => win21_5 | ⟨_ + 6, h⟩ => absurd h (Nat.not_lt.2 (Nat.le_add_left _ _))
abbrev spec21 : Fin 6 → Pipeline.WinSpec sig grid21.rank := fun w => (win21 w).toWinSpec

abbrev win22_0 : Pipeline.Window sig grid22 :=
  Pipeline.Window.ofSpec (Memref.whole main_v283) S5000x128.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v215) S5000x128.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v285) S128x128.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v288) S1x128.size cc22_transform_3 reads22_3 false true 1 stage22_3 sem22_3
    hrank22 hreads22_3 hinb22_3 nbuf22_3 (Memref.isWhole_whole _) hwx22_3 hstage22_3

abbrev win22_4 : Pipeline.Window sig grid22 :=
  Pipeline.Window.ofSpec (Memref.whole main_v289_0) S5000x128.size cc22_transform_4 reads22_4 true false 2 stage22_4 sem22_4
    hrank22 hreads22_4 hinb22_4 nbuf22_4 (Memref.isWhole_whole _) hwx22_4 hstage22_4

abbrev win22_5 : Pipeline.Window sig grid22 :=
  Pipeline.Window.ofSpec (Memref.whole main_v289_1) S1x128.size cc22_transform_5 reads22_5 true true 1 stage22_5 sem22_5
    hrank22 hreads22_5 hinb22_5 nbuf22_5 (Memref.isWhole_whole _) hwx22_5 hstage22_5

abbrev win22_6 : Pipeline.Window sig grid22 :=
  Pipeline.Window.ofSpec (Memref.whole main_v289_2) S1x128.size cc22_transform_6 reads22_6 true true 1 stage22_6 sem22_6
    hrank22 hreads22_6 hinb22_6 nbuf22_6 (Memref.isWhole_whole _) hwx22_6 hstage22_6

abbrev win22 : Fin 7 → Pipeline.Window sig grid22 := fun | 0 => win22_0 | 1 => win22_1 | 2 => win22_2 | 3 => win22_3 | 4 => win22_4 | 5 => win22_5 | 6 => win22_6 | ⟨_ + 7, h⟩ => absurd h (Nat.not_lt.2 (Nat.le_add_left _ _))
abbrev spec22 : Fin 7 → Pipeline.WinSpec sig grid22.rank := fun w => (win22 w).toWinSpec

abbrev win23_0 : Pipeline.Window sig grid23 :=
  Pipeline.Window.ofSpec (Memref.whole main_v289_0) S5000x128.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v291) S1x128.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v295) S1x128.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v300) S1x128.size cc23_transform_3 reads23_3 false true 1 stage23_3 sem23_3
    hrank23 hreads23_3 hinb23_3 nbuf23_3 (Memref.isWhole_whole _) hwx23_3 hstage23_3

abbrev win23_4 : Pipeline.Window sig grid23 :=
  Pipeline.Window.ofSpec (Memref.whole main_v301) S1x128.size cc23_transform_4 reads23_4 false true 1 stage23_4 sem23_4
    hrank23 hreads23_4 hinb23_4 nbuf23_4 (Memref.isWhole_whole _) hwx23_4 hstage23_4

abbrev win23_5 : Pipeline.Window sig grid23 :=
  Pipeline.Window.ofSpec (Memref.whole main_v302) S5000x128.size cc23_transform_5 reads23_5 true false 2 stage23_5 sem23_5
    hrank23 hreads23_5 hinb23_5 nbuf23_5 (Memref.isWhole_whole _) hwx23_5 hstage23_5

abbrev win23 : Fin 6 → Pipeline.Window sig grid23 := fun | 0 => win23_0 | 1 => win23_1 | 2 => win23_2 | 3 => win23_3 | 4 => win23_4 | 5 => win23_5 | ⟨_ + 6, h⟩ => absurd h (Nat.not_lt.2 (Nat.le_add_left _ _))
abbrev spec23 : Fin 6 → Pipeline.WinSpec sig grid23.rank := fun w => (win23 w).toWinSpec

abbrev win24_0 : Pipeline.Window sig grid24 :=
  Pipeline.Window.ofSpec (Memref.whole main_v244) S5000x128.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v273) S5000x128.size cc24_transform_1 reads24_1 false false 2 stage24_1 sem24_1
    hrank24 hreads24_1 hinb24_1 nbuf24_1 (Memref.isWhole_whole _) hwx24_1 hstage24_1

abbrev win24_2 : Pipeline.Window sig grid24 :=
  Pipeline.Window.ofSpec (Memref.whole main_v302) S5000x128.size cc24_transform_2 reads24_2 false false 2 stage24_2 sem24_2
    hrank24 hreads24_2 hinb24_2 nbuf24_2 (Memref.isWhole_whole _) hwx24_2 hstage24_2

abbrev win24_3 : Pipeline.Window sig grid24 :=
  Pipeline.Window.ofSpec (Memref.whole main_v303) S128x128.size cc24_transform_3 reads24_3 false true 1 stage24_3 sem24_3
    hrank24 hreads24_3 hinb24_3 nbuf24_3 (Memref.isWhole_whole _) hwx24_3 hstage24_3

abbrev win24_4 : Pipeline.Window sig grid24 :=
  Pipeline.Window.ofSpec (Memref.whole main_v304) S128x128.size cc24_transform_4 reads24_4 false true 1 stage24_4 sem24_4
    hrank24 hreads24_4 hinb24_4 nbuf24_4 (Memref.isWhole_whole _) hwx24_4 hstage24_4

abbrev win24_5 : Pipeline.Window sig grid24 :=
  Pipeline.Window.ofSpec (Memref.whole main_v305) S128x128.size cc24_transform_5 reads24_5 false true 1 stage24_5 sem24_5
    hrank24 hreads24_5 hinb24_5 nbuf24_5 (Memref.isWhole_whole _) hwx24_5 hstage24_5

abbrev win24_6 : Pipeline.Window sig grid24 :=
  Pipeline.Window.ofSpec (Memref.whole main_v306) S1x128.size cc24_transform_6 reads24_6 false true 1 stage24_6 sem24_6
    hrank24 hreads24_6 hinb24_6 nbuf24_6 (Memref.isWhole_whole _) hwx24_6 hstage24_6

abbrev win24_7 : Pipeline.Window sig grid24 :=
  Pipeline.Window.ofSpec (Memref.whole main_v307_0) S5000x128.size cc24_transform_7 reads24_7 true false 2 stage24_7 sem24_7
    hrank24 hreads24_7 hinb24_7 nbuf24_7 (Memref.isWhole_whole _) hwx24_7 hstage24_7

abbrev win24_8 : Pipeline.Window sig grid24 :=
  Pipeline.Window.ofSpec (Memref.whole main_v307_1) S1x128.size cc24_transform_8 reads24_8 true true 1 stage24_8 sem24_8
    hrank24 hreads24_8 hinb24_8 nbuf24_8 (Memref.isWhole_whole _) hwx24_8 hstage24_8

abbrev win24_9 : Pipeline.Window sig grid24 :=
  Pipeline.Window.ofSpec (Memref.whole main_v307_2) S1x128.size cc24_transform_9 reads24_9 true true 1 stage24_9 sem24_9
    hrank24 hreads24_9 hinb24_9 nbuf24_9 (Memref.isWhole_whole _) hwx24_9 hstage24_9

abbrev win24 : Fin 10 → Pipeline.Window sig grid24 := fun | 0 => win24_0 | 1 => win24_1 | 2 => win24_2 | 3 => win24_3 | 4 => win24_4 | 5 => win24_5 | 6 => win24_6 | 7 => win24_7 | 8 => win24_8 | 9 => win24_9 | ⟨_ + 10, h⟩ => absurd h (Nat.not_lt.2 (Nat.le_add_left _ _))
abbrev spec24 : Fin 10 → Pipeline.WinSpec sig grid24.rank := fun w => (win24 w).toWinSpec

abbrev win25_0 : Pipeline.Window sig grid25 :=
  Pipeline.Window.ofSpec (Memref.whole main_v307_0) S5000x128.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v309) S1x128.size cc25_transform_1 reads25_1 false true 1 stage25_1 sem25_1
    hrank25 hreads25_1 hinb25_1 nbuf25_1 (Memref.isWhole_whole _) hwx25_1 hstage25_1

abbrev win25_2 : Pipeline.Window sig grid25 :=
  Pipeline.Window.ofSpec (Memref.whole main_v313) S1x128.size cc25_transform_2 reads25_2 false true 1 stage25_2 sem25_2
    hrank25 hreads25_2 hinb25_2 nbuf25_2 (Memref.isWhole_whole _) hwx25_2 hstage25_2

abbrev win25_3 : Pipeline.Window sig grid25 :=
  Pipeline.Window.ofSpec (Memref.whole main_v314) S1x128.size cc25_transform_3 reads25_3 false true 1 stage25_3 sem25_3
    hrank25 hreads25_3 hinb25_3 nbuf25_3 (Memref.isWhole_whole _) hwx25_3 hstage25_3

abbrev win25_4 : Pipeline.Window sig grid25 :=
  Pipeline.Window.ofSpec (Memref.whole main_v315) S1x128.size cc25_transform_4 reads25_4 false true 1 stage25_4 sem25_4
    hrank25 hreads25_4 hinb25_4 nbuf25_4 (Memref.isWhole_whole _) hwx25_4 hstage25_4

abbrev win25_5 : Pipeline.Window sig grid25 :=
  Pipeline.Window.ofSpec (Memref.whole main_v316) S5000x128.size cc25_transform_5 reads25_5 true false 2 stage25_5 sem25_5
    hrank25 hreads25_5 hinb25_5 nbuf25_5 (Memref.isWhole_whole _) hwx25_5 hstage25_5

abbrev win25 : Fin 6 → Pipeline.Window sig grid25 := fun | 0 => win25_0 | 1 => win25_1 | 2 => win25_2 | 3 => win25_3 | 4 => win25_4 | 5 => win25_5 | ⟨_ + 6, h⟩ => absurd h (Nat.not_lt.2 (Nat.le_add_left _ _))
abbrev spec25 : Fin 6 → Pipeline.WinSpec sig grid25.rank := fun w => (win25 w).toWinSpec

abbrev win26_0 : Pipeline.Window sig grid26 :=
  Pipeline.Window.ofSpec (Memref.whole main_v316) S5000x128.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_arg15) S128x128.size cc26_transform_1 reads26_1 false true 1 stage26_1 sem26_1
    hrank26 hreads26_1 hinb26_1 nbuf26_1 (Memref.isWhole_whole _) hwx26_1 hstage26_1

abbrev win26_2 : Pipeline.Window sig grid26 :=
  Pipeline.Window.ofSpec (Memref.whole main_v317) S1x128.size cc26_transform_2 reads26_2 false true 1 stage26_2 sem26_2
    hrank26 hreads26_2 hinb26_2 nbuf26_2 (Memref.isWhole_whole _) hwx26_2 hstage26_2

abbrev win26_3 : Pipeline.Window sig grid26 :=
  Pipeline.Window.ofSpec (Memref.whole main_v318_0) S5000x128.size cc26_transform_3 reads26_3 true false 2 stage26_3 sem26_3
    hrank26 hreads26_3 hinb26_3 nbuf26_3 (Memref.isWhole_whole _) hwx26_3 hstage26_3

abbrev win26_4 : Pipeline.Window sig grid26 :=
  Pipeline.Window.ofSpec (Memref.whole main_v318_1) S1x128.size cc26_transform_4 reads26_4 true true 1 stage26_4 sem26_4
    hrank26 hreads26_4 hinb26_4 nbuf26_4 (Memref.isWhole_whole _) hwx26_4 hstage26_4

abbrev win26_5 : Pipeline.Window sig grid26 :=
  Pipeline.Window.ofSpec (Memref.whole main_v318_2) S1x128.size cc26_transform_5 reads26_5 true true 1 stage26_5 sem26_5
    hrank26 hreads26_5 hinb26_5 nbuf26_5 (Memref.isWhole_whole _) hwx26_5 hstage26_5

abbrev win26 : Fin 6 → Pipeline.Window sig grid26 := fun | 0 => win26_0 | 1 => win26_1 | 2 => win26_2 | 3 => win26_3 | 4 => win26_4 | 5 => win26_5 | ⟨_ + 6, h⟩ => absurd h (Nat.not_lt.2 (Nat.le_add_left _ _))
abbrev spec26 : Fin 6 → Pipeline.WinSpec sig grid26.rank := fun w => (win26 w).toWinSpec

abbrev win27_0 : Pipeline.Window sig grid27 :=
  Pipeline.Window.ofSpec (Memref.whole main_v318_0) S5000x128.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_v320) S1x128.size cc27_transform_1 reads27_1 false true 1 stage27_1 sem27_1
    hrank27 hreads27_1 hinb27_1 nbuf27_1 (Memref.isWhole_whole _) hwx27_1 hstage27_1

abbrev win27_2 : Pipeline.Window sig grid27 :=
  Pipeline.Window.ofSpec (Memref.whole main_v324) S1x128.size cc27_transform_2 reads27_2 false true 1 stage27_2 sem27_2
    hrank27 hreads27_2 hinb27_2 nbuf27_2 (Memref.isWhole_whole _) hwx27_2 hstage27_2

abbrev win27_3 : Pipeline.Window sig grid27 :=
  Pipeline.Window.ofSpec (Memref.whole main_v325) S1x128.size cc27_transform_3 reads27_3 false true 1 stage27_3 sem27_3
    hrank27 hreads27_3 hinb27_3 nbuf27_3 (Memref.isWhole_whole _) hwx27_3 hstage27_3

abbrev win27_4 : Pipeline.Window sig grid27 :=
  Pipeline.Window.ofSpec (Memref.whole main_v326) S1x128.size cc27_transform_4 reads27_4 false true 1 stage27_4 sem27_4
    hrank27 hreads27_4 hinb27_4 nbuf27_4 (Memref.isWhole_whole _) hwx27_4 hstage27_4

abbrev win27_5 : Pipeline.Window sig grid27 :=
  Pipeline.Window.ofSpec (Memref.whole main_v327) S5000x128.size cc27_transform_5 reads27_5 true false 2 stage27_5 sem27_5
    hrank27 hreads27_5 hinb27_5 nbuf27_5 (Memref.isWhole_whole _) hwx27_5 hstage27_5

abbrev win27 : Fin 6 → Pipeline.Window sig grid27 := fun | 0 => win27_0 | 1 => win27_1 | 2 => win27_2 | 3 => win27_3 | 4 => win27_4 | 5 => win27_5 | ⟨_ + 6, h⟩ => absurd h (Nat.not_lt.2 (Nat.le_add_left _ _))
abbrev spec27 : Fin 6 → Pipeline.WinSpec sig grid27.rank := fun w => (win27 w).toWinSpec

abbrev win28_0 : Pipeline.Window sig grid28 :=
  Pipeline.Window.ofSpec (Memref.whole main_v327) S5000x128.size cc28_transform_0 reads28_0 false false 2 stage28_0 sem28_0
    hrank28 hreads28_0 hinb28_0 nbuf28_0 (Memref.isWhole_whole _) hwx28_0 hstage28_0

abbrev win28_1 : Pipeline.Window sig grid28 :=
  Pipeline.Window.ofSpec (Memref.whole main_arg19) S128x5.size cc28_transform_1 reads28_1 false true 1 stage28_1 sem28_1
    hrank28 hreads28_1 hinb28_1 nbuf28_1 (Memref.isWhole_whole _) hwx28_1 hstage28_1

abbrev win28_2 : Pipeline.Window sig grid28 :=
  Pipeline.Window.ofSpec (Memref.whole main_v328) S1x5.size cc28_transform_2 reads28_2 false true 1 stage28_2 sem28_2
    hrank28 hreads28_2 hinb28_2 nbuf28_2 (Memref.isWhole_whole _) hwx28_2 hstage28_2

abbrev win28_3 : Pipeline.Window sig grid28 :=
  Pipeline.Window.ofSpec (Memref.whole main_v329_0) S5000x5.size cc28_transform_3 reads28_3 true false 2 stage28_3 sem28_3
    hrank28 hreads28_3 hinb28_3 nbuf28_3 (Memref.isWhole_whole _) hwx28_3 hstage28_3

abbrev win28_4 : Pipeline.Window sig grid28 :=
  Pipeline.Window.ofSpec (Memref.whole main_v329_1) S1x5.size cc28_transform_4 reads28_4 true true 1 stage28_4 sem28_4
    hrank28 hreads28_4 hinb28_4 nbuf28_4 (Memref.isWhole_whole _) hwx28_4 hstage28_4

abbrev win28_5 : Pipeline.Window sig grid28 :=
  Pipeline.Window.ofSpec (Memref.whole main_v329_2) S1x5.size cc28_transform_5 reads28_5 true true 1 stage28_5 sem28_5
    hrank28 hreads28_5 hinb28_5 nbuf28_5 (Memref.isWhole_whole _) hwx28_5 hstage28_5

abbrev win28 : Fin 6 → Pipeline.Window sig grid28 := fun | 0 => win28_0 | 1 => win28_1 | 2 => win28_2 | 3 => win28_3 | 4 => win28_4 | 5 => win28_5 | ⟨_ + 6, h⟩ => absurd h (Nat.not_lt.2 (Nat.le_add_left _ _))
abbrev spec28 : Fin 6 → Pipeline.WinSpec sig grid28.rank := fun w => (win28 w).toWinSpec

abbrev win29_0 : Pipeline.Window sig grid29 :=
  Pipeline.Window.ofSpec (Memref.whole main_v329_0) S5000x5.size cc29_transform_0 reads29_0 false false 2 stage29_0 sem29_0
    hrank29 hreads29_0 hinb29_0 nbuf29_0 (Memref.isWhole_whole _) hwx29_0 hstage29_0

abbrev win29_1 : Pipeline.Window sig grid29 :=
  Pipeline.Window.ofSpec (Memref.whole main_v331) S1x5.size cc29_transform_1 reads29_1 false true 1 stage29_1 sem29_1
    hrank29 hreads29_1 hinb29_1 nbuf29_1 (Memref.isWhole_whole _) hwx29_1 hstage29_1

abbrev win29_2 : Pipeline.Window sig grid29 :=
  Pipeline.Window.ofSpec (Memref.whole main_v335) S1x5.size cc29_transform_2 reads29_2 false true 1 stage29_2 sem29_2
    hrank29 hreads29_2 hinb29_2 nbuf29_2 (Memref.isWhole_whole _) hwx29_2 hstage29_2

abbrev win29_3 : Pipeline.Window sig grid29 :=
  Pipeline.Window.ofSpec (Memref.whole main_v336) S1x5.size cc29_transform_3 reads29_3 false true 1 stage29_3 sem29_3
    hrank29 hreads29_3 hinb29_3 nbuf29_3 (Memref.isWhole_whole _) hwx29_3 hstage29_3

abbrev win29_4 : Pipeline.Window sig grid29 :=
  Pipeline.Window.ofSpec (Memref.whole main_v337) S1x5.size cc29_transform_4 reads29_4 false true 1 stage29_4 sem29_4
    hrank29 hreads29_4 hinb29_4 nbuf29_4 (Memref.isWhole_whole _) hwx29_4 hstage29_4

abbrev win29_5 : Pipeline.Window sig grid29 :=
  Pipeline.Window.ofSpec (Memref.whole main_v338) S5000x5.size cc29_transform_5 reads29_5 true false 2 stage29_5 sem29_5
    hrank29 hreads29_5 hinb29_5 nbuf29_5 (Memref.isWhole_whole _) hwx29_5 hstage29_5

abbrev win29 : Fin 6 → Pipeline.Window sig grid29 := fun | 0 => win29_0 | 1 => win29_1 | 2 => win29_2 | 3 => win29_3 | 4 => win29_4 | 5 => win29_5 | ⟨_ + 6, h⟩ => absurd h (Nat.not_lt.2 (Nat.le_add_left _ _))
abbrev spec29 : Fin 6 → Pipeline.WinSpec sig grid29.rank := fun w => (win29 w).toWinSpec

class Facts : Prop extends Facts₀ where

variable [Facts]
-- ==== ReferenceIdeal.lean ====
abbrev S100000x64 : Shape := ⟨2, ![100000, 64]⟩
abbrev S800000 : Shape := ⟨1, ![800000]⟩
abbrev S100000 : Shape := ⟨1, ![100000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S384x128 : Shape := ⟨2, ![384, 128]⟩
abbrev S128x128 : Shape := ⟨2, ![128, 128]⟩
abbrev S128x5 : Shape := ⟨2, ![128, 5]⟩
abbrev S5 : Shape := ⟨1, ![5]⟩
abbrev S100000x128 : Shape := ⟨2, ![100000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S100000x384 : Shape := ⟨2, ![100000, 384]⟩
abbrev S100000x5 : Shape := ⟨2, ![100000, 5]⟩
abbrev S1x5 : Shape := ⟨2, ![1, 5]⟩
abbrev S100000x1 : Shape := ⟨2, ![100000, 1]⟩
abbrev S100000x5x1 : Shape := ⟨3, ![100000, 5, 1]⟩
abbrev S100000x1x128 : Shape := ⟨3, ![100000, 1, 128]⟩
abbrev S100000x5x128 : Shape := ⟨3, ![100000, 5, 128]⟩
abbrev S1000x5x128 : Shape := ⟨3, ![1000, 5, 128]⟩
abbrev S1000x640 : Shape := ⟨2, ![1000, 640]⟩

abbrev nBuf : Space → Nat
  | .hbm => 998
  | .vmem => 0
  | .smem => 0
  | _ => 0

abbrev hbmTy0_0 (i : Nat) : BufTy := match i % 128 with
  | 0 => ⟨S100000x64, .f32⟩
  | 1 => ⟨S800000, .i32⟩
  | 2 => ⟨S800000, .i32⟩
  | 3 => ⟨S100000, .i32⟩
  | 4 => ⟨S64x128, .f32⟩
  | 5 => ⟨S128, .f32⟩
  | 6 => ⟨S128, .f32⟩
  | 7 => ⟨S128, .f32⟩
  | 8 => ⟨S3x128x128, .f32⟩
  | 9 => ⟨S3x128, .f32⟩
  | 10 => ⟨S3x128, .f32⟩
  | 11 => ⟨S3x128, .f32⟩
  | 12 => ⟨S384x128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128x5, .f32⟩
  | 20 => ⟨S5, .f32⟩
  | 21 => ⟨S5, .f32⟩
  | 22 => ⟨S5, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S128, .f32⟩
  | 29 => ⟨S_, .f32⟩
  | 30 => ⟨S128, .f32⟩
  | 31 => ⟨S128, .f32⟩
  | 32 => ⟨S_, .i32⟩
  | 33 => ⟨S_, .f32⟩
  | 34 => ⟨S128, .f32⟩
  | 35 => ⟨S1x128, .f32⟩
  | 36 => ⟨S_, .f32⟩
  | 37 => ⟨S1x128, .f32⟩
  | 38 => ⟨S1x128, .f32⟩
  | 39 => ⟨S100000x128, .f32⟩
  | 40 => ⟨S100000x128, .f32⟩
  | 41 => ⟨S100000x128, .f32⟩
  | 42 => ⟨S_, .f32⟩
  | 43 => ⟨S_, .f32⟩
  | 44 => ⟨S_, .f32⟩
  | 45 => ⟨S_, .f32⟩
  | 46 => ⟨S128, .f32⟩
  | 47 => ⟨S128, .f32⟩
  | 48 => ⟨S128, .f32⟩
  | 49 => ⟨S_, .f32⟩
  | 50 => ⟨S_, .i1⟩
  | 51 => ⟨S_, .f32⟩
  | 52 => ⟨S_, .f32⟩
  | 53 => ⟨S128, .f32⟩
  | 54 => ⟨S128, .f32⟩
  | 55 => ⟨S1x128, .f32⟩
  | 56 => ⟨S100000x128, .f32⟩
  | 57 => ⟨S100000x128, .f32⟩
  | 58 => ⟨S_, .f32⟩
  | 59 => ⟨S128, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S_, .f32⟩
  | 84 => ⟨S100000x128, .f32⟩
  | 85 => ⟨S800000x1, .i32⟩
  | 86 => ⟨S100000x128, .f32⟩
  | 87 => ⟨S100000x128, .f32⟩
  | 88 => ⟨S1x128x128, .f32⟩
  | 89 => ⟨S128x128, .f32⟩
  | 90 => ⟨S100000x128, .f32⟩
  | 91 => ⟨S1x128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S128, .f32⟩
  | 98 => ⟨S1x128, .f32⟩
  | 99 => ⟨S128, .f32⟩
  | 100 => ⟨S_, .f32⟩
  | 101 => ⟨S128, .f32⟩
  | 102 => ⟨S_, .f32⟩
  | 103 => ⟨S128, .f32⟩
  | 104 => ⟨S128, .f32⟩
  | 105 => ⟨S_, .i32⟩
  | 106 => ⟨S_, .f32⟩
  | 107 => ⟨S128, .f32⟩
  | 108 => ⟨S1x128, .f32⟩
  | 109 => ⟨S_, .f32⟩
  | 110 => ⟨S1x128, .f32⟩
  | 111 => ⟨S1x128, .f32⟩
  | 112 => ⟨S100000x128, .f32⟩
  | 113 => ⟨S100000x128, .f32⟩
  | 114 => ⟨S100000x128, .f32⟩
  | 115 => ⟨S_, .f32⟩
  | 116 => ⟨S_, .f32⟩
  | 117 => ⟨S_, .f32⟩
  | 118 => ⟨S_, .f32⟩
  | 119 => ⟨S128, .f32⟩
  | 120 => ⟨S128, .f32⟩
  | 121 => ⟨S128, .f32⟩
  | 122 => ⟨S_, .f32⟩
  | 123 => ⟨S_, .i1⟩
  | 124 => ⟨S_, .f32⟩
  | 125 => ⟨S_, .f32⟩
  | 126 => ⟨S128, .f32⟩
  | 127 => ⟨S128, .f32⟩
  | _ => ⟨S100000x64, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S128, .f32⟩
  | 5 => ⟨S128, .f32⟩
  | 6 => ⟨S128, .f32⟩
  | 7 => ⟨S1x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S100000x128, .f32⟩
  | 27 => ⟨S800000x1, .i32⟩
  | 28 => ⟨S100000x128, .f32⟩
  | 29 => ⟨S100000x128, .f32⟩
  | 30 => ⟨S1x128x128, .f32⟩
  | 31 => ⟨S128x128, .f32⟩
  | 32 => ⟨S100000x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S1x128, .f32⟩
  | 39 => ⟨S128, .f32⟩
  | 40 => ⟨S1x128, .f32⟩
  | 41 => ⟨S128, .f32⟩
  | 42 => ⟨S_, .f32⟩
  | 43 => ⟨S128, .f32⟩
  | 44 => ⟨S_, .f32⟩
  | 45 => ⟨S128, .f32⟩
  | 46 => ⟨S128, .f32⟩
  | 47 => ⟨S_, .i32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S100000x128, .f32⟩
  | 55 => ⟨S100000x128, .f32⟩
  | 56 => ⟨S100000x128, .f32⟩
  | 57 => ⟨S_, .f32⟩
  | 58 => ⟨S_, .f32⟩
  | 59 => ⟨S_, .f32⟩
  | 60 => ⟨S_, .f32⟩
  | 61 => ⟨S128, .f32⟩
  | 62 => ⟨S128, .f32⟩
  | 63 => ⟨S128, .f32⟩
  | 64 => ⟨S_, .f32⟩
  | 65 => ⟨S_, .i1⟩
  | 66 => ⟨S_, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S128, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S100000x128, .f32⟩
  | 97 => ⟨S800000x1, .i32⟩
  | 98 => ⟨S100000x128, .f32⟩
  | 99 => ⟨S100000x128, .f32⟩
  | 100 => ⟨S1x128x128, .f32⟩
  | 101 => ⟨S128x128, .f32⟩
  | 102 => ⟨S100000x128, .f32⟩
  | 103 => ⟨S1x128, .f32⟩
  | 104 => ⟨S128, .f32⟩
  | 105 => ⟨S1x128, .f32⟩
  | 106 => ⟨S100000x128, .f32⟩
  | 107 => ⟨S100000x128, .f32⟩
  | 108 => ⟨S1x128, .f32⟩
  | 109 => ⟨S128, .f32⟩
  | 110 => ⟨S1x128, .f32⟩
  | 111 => ⟨S128, .f32⟩
  | 112 => ⟨S_, .f32⟩
  | 113 => ⟨S128, .f32⟩
  | 114 => ⟨S_, .f32⟩
  | 115 => ⟨S128, .f32⟩
  | 116 => ⟨S128, .f32⟩
  | 117 => ⟨S_, .i32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S100000x128, .f32⟩
  | 125 => ⟨S100000x128, .f32⟩
  | 126 => ⟨S100000x128, .f32⟩
  | 127 => ⟨S_, .f32⟩
  | _ => ⟨S100000x64, .f32⟩

abbrev hbmTy0_2 (i : Nat) : BufTy := match i % 128 with
  | 0 => ⟨S_, .f32⟩
  | 1 => ⟨S_, .f32⟩
  | 2 => ⟨S_, .f32⟩
  | 3 => ⟨S128, .f32⟩
  | 4 => ⟨S128, .f32⟩
  | 5 => ⟨S128, .f32⟩
  | 6 => ⟨S_, .f32⟩
  | 7 => ⟨S_, .i1⟩
  | 8 => ⟨S_, .f32⟩
  | 9 => ⟨S_, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S_, .f32⟩
  | 16 => ⟨S128, .f32⟩
  | 17 => ⟨S128, .f32⟩
  | 18 => ⟨S128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S100000x384, .f32⟩
  | 29 => ⟨S100000x128, .f32⟩
  | 30 => ⟨S_, .f32⟩
  | 31 => ⟨S128, .f32⟩
  | 32 => ⟨S_, .f32⟩
  | 33 => ⟨S128, .f32⟩
  | 34 => ⟨S128, .f32⟩
  | 35 => ⟨S_, .i32⟩
  | 36 => ⟨S_, .f32⟩
  | 37 => ⟨S128, .f32⟩
  | 38 => ⟨S1x128, .f32⟩
  | 39 => ⟨S_, .f32⟩
  | 40 => ⟨S1x128, .f32⟩
  | 41 => ⟨S1x128, .f32⟩
  | 42 => ⟨S100000x128, .f32⟩
  | 43 => ⟨S100000x128, .f32⟩
  | 44 => ⟨S100000x128, .f32⟩
  | 45 => ⟨S_, .f32⟩
  | 46 => ⟨S_, .f32⟩
  | 47 => ⟨S_, .f32⟩
  | 48 => ⟨S_, .f32⟩
  | 49 => ⟨S128, .f32⟩
  | 50 => ⟨S128, .f32⟩
  | 51 => ⟨S128, .f32⟩
  | 52 => ⟨S_, .f32⟩
  | 53 => ⟨S_, .i1⟩
  | 54 => ⟨S_, .f32⟩
  | 55 => ⟨S_, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S_, .f32⟩
  | 62 => ⟨S128, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S100000x128, .f32⟩
  | 89 => ⟨S800000x1, .i32⟩
  | 90 => ⟨S100000x128, .f32⟩
  | 91 => ⟨S100000x128, .f32⟩
  | 92 => ⟨S1x128x128, .f32⟩
  | 93 => ⟨S128x128, .f32⟩
  | 94 => ⟨S100000x128, .f32⟩
  | 95 => ⟨S1x128, .f32⟩
  | 96 => ⟨S128, .f32⟩
  | 97 => ⟨S1x128, .f32⟩
  | 98 => ⟨S100000x128, .f32⟩
  | 99 => ⟨S100000x128, .f32⟩
  | 100 => ⟨S1x128, .f32⟩
  | 101 => ⟨S128, .f32⟩
  | 102 => ⟨S1x128, .f32⟩
  | 103 => ⟨S128, .f32⟩
  | 104 => ⟨S_, .f32⟩
  | 105 => ⟨S128, .f32⟩
  | 106 => ⟨S_, .f32⟩
  | 107 => ⟨S128, .f32⟩
  | 108 => ⟨S128, .f32⟩
  | 109 => ⟨S_, .i32⟩
  | 110 => ⟨S_, .f32⟩
  | 111 => ⟨S128, .f32⟩
  | 112 => ⟨S1x128, .f32⟩
  | 113 => ⟨S_, .f32⟩
  | 114 => ⟨S1x128, .f32⟩
  | 115 => ⟨S1x128, .f32⟩
  | 116 => ⟨S100000x128, .f32⟩
  | 117 => ⟨S100000x128, .f32⟩
  | 118 => ⟨S100000x128, .f32⟩
  | 119 => ⟨S_, .f32⟩
  | 120 => ⟨S_, .f32⟩
  | 121 => ⟨S_, .f32⟩
  | 122 => ⟨S_, .f32⟩
  | 123 => ⟨S128, .f32⟩
  | 124 => ⟨S128, .f32⟩
  | 125 => ⟨S128, .f32⟩
  | 126 => ⟨S_, .f32⟩
  | 127 => ⟨S_, .i1⟩
  | _ => ⟨S100000x64, .f32⟩

abbrev hbmTy0_3 (i : Nat) : BufTy := match i % 128 with
  | 0 => ⟨S_, .f32⟩
  | 1 => ⟨S_, .f32⟩
  | 2 => ⟨S128, .f32⟩
  | 3 => ⟨S128, .f32⟩
  | 4 => ⟨S1x128, .f32⟩
  | 5 => ⟨S100000x128, .f32⟩
  | 6 => ⟨S100000x128, .f32⟩
  | 7 => ⟨S_, .f32⟩
  | 8 => ⟨S128, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S100000x128, .f32⟩
  | 31 => ⟨S800000x1, .i32⟩
  | 32 => ⟨S100000x128, .f32⟩
  | 33 => ⟨S100000x128, .f32⟩
  | 34 => ⟨S1x128x128, .f32⟩
  | 35 => ⟨S128x128, .f32⟩
  | 36 => ⟨S100000x128, .f32⟩
  | 37 => ⟨S1x128, .f32⟩
  | 38 => ⟨S128, .f32⟩
  | 39 => ⟨S1x128, .f32⟩
  | 40 => ⟨S100000x128, .f32⟩
  | 41 => ⟨S100000x128, .f32⟩
  | 42 => ⟨S1x128, .f32⟩
  | 43 => ⟨S128, .f32⟩
  | 44 => ⟨S1x128, .f32⟩
  | 45 => ⟨S128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S100000x128, .f32⟩
  | 59 => ⟨S100000x128, .f32⟩
  | 60 => ⟨S100000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S_, .f32⟩
  | 100 => ⟨S100000x128, .f32⟩
  | 101 => ⟨S800000x1, .i32⟩
  | 102 => ⟨S100000x128, .f32⟩
  | 103 => ⟨S100000x128, .f32⟩
  | 104 => ⟨S1x128x128, .f32⟩
  | 105 => ⟨S128x128, .f32⟩
  | 106 => ⟨S100000x128, .f32⟩
  | 107 => ⟨S1x128, .f32⟩
  | 108 => ⟨S128, .f32⟩
  | 109 => ⟨S1x128, .f32⟩
  | 110 => ⟨S100000x128, .f32⟩
  | 111 => ⟨S100000x128, .f32⟩
  | 112 => ⟨S1x128, .f32⟩
  | 113 => ⟨S128, .f32⟩
  | 114 => ⟨S1x128, .f32⟩
  | 115 => ⟨S128, .f32⟩
  | 116 => ⟨S_, .f32⟩
  | 117 => ⟨S128, .f32⟩
  | 118 => ⟨S_, .f32⟩
  | 119 => ⟨S128, .f32⟩
  | 120 => ⟨S128, .f32⟩
  | 121 => ⟨S_, .i32⟩
  | 122 => ⟨S_, .f32⟩
  | 123 => ⟨S128, .f32⟩
  | 124 => ⟨S1x128, .f32⟩
  | 125 => ⟨S_, .f32⟩
  | 126 => ⟨S1x128, .f32⟩
  | 127 => ⟨S1x128, .f32⟩
  | _ => ⟨S100000x64, .f32⟩

abbrev hbmTy0_4 (i : Nat) : BufTy := match i % 128 with
  | 0 => ⟨S100000x128, .f32⟩
  | 1 => ⟨S100000x128, .f32⟩
  | 2 => ⟨S100000x128, .f32⟩
  | 3 => ⟨S_, .f32⟩
  | 4 => ⟨S_, .f32⟩
  | 5 => ⟨S_, .f32⟩
  | 6 => ⟨S_, .f32⟩
  | 7 => ⟨S128, .f32⟩
  | 8 => ⟨S128, .f32⟩
  | 9 => ⟨S128, .f32⟩
  | 10 => ⟨S_, .f32⟩
  | 11 => ⟨S_, .i1⟩
  | 12 => ⟨S_, .f32⟩
  | 13 => ⟨S_, .f32⟩
  | 14 => ⟨S128, .f32⟩
  | 15 => ⟨S128, .f32⟩
  | 16 => ⟨S1x128, .f32⟩
  | 17 => ⟨S100000x128, .f32⟩
  | 18 => ⟨S100000x128, .f32⟩
  | 19 => ⟨S_, .f32⟩
  | 20 => ⟨S128, .f32⟩
  | 21 => ⟨S128, .f32⟩
  | 22 => ⟨S128, .f32⟩
  | 23 => ⟨S1x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S100000x384, .f32⟩
  | 33 => ⟨S100000x128, .f32⟩
  | 34 => ⟨S_, .f32⟩
  | 35 => ⟨S128, .f32⟩
  | 36 => ⟨S_, .f32⟩
  | 37 => ⟨S128, .f32⟩
  | 38 => ⟨S128, .f32⟩
  | 39 => ⟨S_, .i32⟩
  | 40 => ⟨S_, .f32⟩
  | 41 => ⟨S128, .f32⟩
  | 42 => ⟨S1x128, .f32⟩
  | 43 => ⟨S_, .f32⟩
  | 44 => ⟨S1x128, .f32⟩
  | 45 => ⟨S1x128, .f32⟩
  | 46 => ⟨S100000x128, .f32⟩
  | 47 => ⟨S100000x128, .f32⟩
  | 48 => ⟨S100000x128, .f32⟩
  | 49 => ⟨S_, .f32⟩
  | 50 => ⟨S_, .f32⟩
  | 51 => ⟨S_, .f32⟩
  | 52 => ⟨S_, .f32⟩
  | 53 => ⟨S128, .f32⟩
  | 54 => ⟨S128, .f32⟩
  | 55 => ⟨S128, .f32⟩
  | 56 => ⟨S_, .f32⟩
  | 57 => ⟨S_, .i1⟩
  | 58 => ⟨S_, .f32⟩
  | 59 => ⟨S_, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S_, .f32⟩
  | 66 => ⟨S128, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S_, .f32⟩
  | 92 => ⟨S100000x128, .f32⟩
  | 93 => ⟨S800000x1, .i32⟩
  | 94 => ⟨S100000x128, .f32⟩
  | 95 => ⟨S100000x128, .f32⟩
  | 96 => ⟨S1x128x128, .f32⟩
  | 97 => ⟨S128x128, .f32⟩
  | 98 => ⟨S100000x128, .f32⟩
  | 99 => ⟨S1x128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S128, .f32⟩
  | 106 => ⟨S1x128, .f32⟩
  | 107 => ⟨S128, .f32⟩
  | 108 => ⟨S_, .f32⟩
  | 109 => ⟨S128, .f32⟩
  | 110 => ⟨S_, .f32⟩
  | 111 => ⟨S128, .f32⟩
  | 112 => ⟨S128, .f32⟩
  | 113 => ⟨S_, .i32⟩
  | 114 => ⟨S_, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S100000x128, .f32⟩
  | 121 => ⟨S100000x128, .f32⟩
  | 122 => ⟨S100000x128, .f32⟩
  | 123 => ⟨S_, .f32⟩
  | 124 => ⟨S_, .f32⟩
  | 125 => ⟨S_, .f32⟩
  | 126 => ⟨S_, .f32⟩
  | 127 => ⟨S128, .f32⟩
  | _ => ⟨S100000x64, .f32⟩

abbrev hbmTy0_5 (i : Nat) : BufTy := match i % 128 with
  | 0 => ⟨S128, .f32⟩
  | 1 => ⟨S128, .f32⟩
  | 2 => ⟨S_, .f32⟩
  | 3 => ⟨S_, .i1⟩
  | 4 => ⟨S_, .f32⟩
  | 5 => ⟨S_, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S_, .f32⟩
  | 12 => ⟨S128, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S100000x128, .f32⟩
  | 35 => ⟨S800000x1, .i32⟩
  | 36 => ⟨S100000x128, .f32⟩
  | 37 => ⟨S100000x128, .f32⟩
  | 38 => ⟨S1x128x128, .f32⟩
  | 39 => ⟨S128x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S128, .f32⟩
  | 48 => ⟨S1x128, .f32⟩
  | 49 => ⟨S128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S_, .f32⟩
  | 104 => ⟨S100000x128, .f32⟩
  | 105 => ⟨S800000x1, .i32⟩
  | 106 => ⟨S100000x128, .f32⟩
  | 107 => ⟨S100000x128, .f32⟩
  | 108 => ⟨S1x128x128, .f32⟩
  | 109 => ⟨S128x128, .f32⟩
  | 110 => ⟨S100000x128, .f32⟩
  | 111 => ⟨S1x128, .f32⟩
  | 112 => ⟨S128, .f32⟩
  | 113 => ⟨S1x128, .f32⟩
  | 114 => ⟨S100000x128, .f32⟩
  | 115 => ⟨S100000x128, .f32⟩
  | 116 => ⟨S1x128, .f32⟩
  | 117 => ⟨S128, .f32⟩
  | 118 => ⟨S1x128, .f32⟩
  | 119 => ⟨S128, .f32⟩
  | 120 => ⟨S_, .f32⟩
  | 121 => ⟨S128, .f32⟩
  | 122 => ⟨S_, .f32⟩
  | 123 => ⟨S128, .f32⟩
  | 124 => ⟨S128, .f32⟩
  | 125 => ⟨S_, .i32⟩
  | 126 => ⟨S_, .f32⟩
  | 127 => ⟨S128, .f32⟩
  | _ => ⟨S100000x64, .f32⟩

abbrev hbmTy0_6 (i : Nat) : BufTy := match i % 128 with
  | 0 => ⟨S1x128, .f32⟩
  | 1 => ⟨S_, .f32⟩
  | 2 => ⟨S1x128, .f32⟩
  | 3 => ⟨S1x128, .f32⟩
  | 4 => ⟨S100000x128, .f32⟩
  | 5 => ⟨S100000x128, .f32⟩
  | 6 => ⟨S100000x128, .f32⟩
  | 7 => ⟨S_, .f32⟩
  | 8 => ⟨S_, .f32⟩
  | 9 => ⟨S_, .f32⟩
  | 10 => ⟨S_, .f32⟩
  | 11 => ⟨S128, .f32⟩
  | 12 => ⟨S128, .f32⟩
  | 13 => ⟨S128, .f32⟩
  | 14 => ⟨S_, .f32⟩
  | 15 => ⟨S_, .i1⟩
  | 16 => ⟨S_, .f32⟩
  | 17 => ⟨S_, .f32⟩
  | 18 => ⟨S128, .f32⟩
  | 19 => ⟨S128, .f32⟩
  | 20 => ⟨S1x128, .f32⟩
  | 21 => ⟨S100000x128, .f32⟩
  | 22 => ⟨S100000x128, .f32⟩
  | 23 => ⟨S_, .f32⟩
  | 24 => ⟨S128, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S100000x384, .f32⟩
  | 37 => ⟨S100000x128, .f32⟩
  | 38 => ⟨S_, .f32⟩
  | 39 => ⟨S128, .f32⟩
  | 40 => ⟨S_, .f32⟩
  | 41 => ⟨S128, .f32⟩
  | 42 => ⟨S128, .f32⟩
  | 43 => ⟨S_, .i32⟩
  | 44 => ⟨S_, .f32⟩
  | 45 => ⟨S128, .f32⟩
  | 46 => ⟨S1x128, .f32⟩
  | 47 => ⟨S_, .f32⟩
  | 48 => ⟨S1x128, .f32⟩
  | 49 => ⟨S1x128, .f32⟩
  | 50 => ⟨S100000x128, .f32⟩
  | 51 => ⟨S100000x128, .f32⟩
  | 52 => ⟨S100000x128, .f32⟩
  | 53 => ⟨S_, .f32⟩
  | 54 => ⟨S_, .f32⟩
  | 55 => ⟨S_, .f32⟩
  | 56 => ⟨S_, .f32⟩
  | 57 => ⟨S128, .f32⟩
  | 58 => ⟨S128, .f32⟩
  | 59 => ⟨S128, .f32⟩
  | 60 => ⟨S_, .f32⟩
  | 61 => ⟨S_, .i1⟩
  | 62 => ⟨S_, .f32⟩
  | 63 => ⟨S_, .f32⟩
  | 64 => ⟨S128, .f32⟩
  | 65 => ⟨S128, .f32⟩
  | 66 => ⟨S1x128, .f32⟩
  | 67 => ⟨S100000x128, .f32⟩
  | 68 => ⟨S100000x128, .f32⟩
  | 69 => ⟨S_, .f32⟩
  | 70 => ⟨S128, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S100000x128, .f32⟩
  | 90 => ⟨S_, .f32⟩
  | 91 => ⟨S128, .f32⟩
  | 92 => ⟨S_, .f32⟩
  | 93 => ⟨S128, .f32⟩
  | 94 => ⟨S128, .f32⟩
  | 95 => ⟨S_, .i32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S100000x128, .f32⟩
  | 103 => ⟨S100000x128, .f32⟩
  | 104 => ⟨S100000x128, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .i1⟩
  | 114 => ⟨S_, .f32⟩
  | 115 => ⟨S_, .f32⟩
  | 116 => ⟨S128, .f32⟩
  | 117 => ⟨S128, .f32⟩
  | 118 => ⟨S1x128, .f32⟩
  | 119 => ⟨S100000x128, .f32⟩
  | 120 => ⟨S100000x128, .f32⟩
  | 121 => ⟨S_, .f32⟩
  | 122 => ⟨S128, .f32⟩
  | 123 => ⟨S128, .f32⟩
  | 124 => ⟨S128, .f32⟩
  | 125 => ⟨S1x128, .f32⟩
  | 126 => ⟨S100000x128, .f32⟩
  | 127 => ⟨S100000x128, .f32⟩
  | _ => ⟨S100000x64, .f32⟩

abbrev hbmTy0_7 (i : Nat) : BufTy := match i % 128 with
  | 0 => ⟨S1x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S100000x5, .f32⟩
  | 7 => ⟨S1x5, .f32⟩
  | 8 => ⟨S100000x5, .f32⟩
  | 9 => ⟨S100000x5, .f32⟩
  | 10 => ⟨S_, .f32⟩
  | 11 => ⟨S5, .f32⟩
  | 12 => ⟨S_, .f32⟩
  | 13 => ⟨S5, .f32⟩
  | 14 => ⟨S5, .f32⟩
  | 15 => ⟨S_, .i32⟩
  | 16 => ⟨S_, .f32⟩
  | 17 => ⟨S5, .f32⟩
  | 18 => ⟨S1x5, .f32⟩
  | 19 => ⟨S_, .f32⟩
  | 20 => ⟨S1x5, .f32⟩
  | 21 => ⟨S1x5, .f32⟩
  | 22 => ⟨S100000x5, .f32⟩
  | 23 => ⟨S100000x5, .f32⟩
  | 24 => ⟨S100000x5, .f32⟩
  | 25 => ⟨S_, .f32⟩
  | 26 => ⟨S_, .f32⟩
  | 27 => ⟨S_, .f32⟩
  | 28 => ⟨S_, .f32⟩
  | 29 => ⟨S5, .f32⟩
  | 30 => ⟨S5, .f32⟩
  | 31 => ⟨S5, .f32⟩
  | 32 => ⟨S_, .f32⟩
  | 33 => ⟨S_, .i1⟩
  | 34 => ⟨S_, .f32⟩
  | 35 => ⟨S_, .f32⟩
  | 36 => ⟨S5, .f32⟩
  | 37 => ⟨S5, .f32⟩
  | 38 => ⟨S1x5, .f32⟩
  | 39 => ⟨S100000x5, .f32⟩
  | 40 => ⟨S100000x5, .f32⟩
  | 41 => ⟨S_, .f32⟩
  | 42 => ⟨S5, .f32⟩
  | 43 => ⟨S5, .f32⟩
  | 44 => ⟨S5, .f32⟩
  | 45 => ⟨S1x5, .f32⟩
  | 46 => ⟨S100000x5, .f32⟩
  | 47 => ⟨S100000x5, .f32⟩
  | 48 => ⟨S1x5, .f32⟩
  | 49 => ⟨S100000x5, .f32⟩
  | 50 => ⟨S100000x5, .f32⟩
  | 51 => ⟨S1x5, .f32⟩
  | 52 => ⟨S100000x5, .f32⟩
  | 53 => ⟨S100000x5, .f32⟩
  | 54 => ⟨S_, .f32⟩
  | 55 => ⟨S100000, .f32⟩
  | 56 => ⟨S_, .f32⟩
  | 57 => ⟨S100000, .f32⟩
  | 58 => ⟨S100000, .f32⟩
  | 59 => ⟨S100000x1, .f32⟩
  | 60 => ⟨S100000x5, .f32⟩
  | 61 => ⟨S100000x5, .f32⟩
  | 62 => ⟨S100000x5, .f32⟩
  | 63 => ⟨S_, .f32⟩
  | 64 => ⟨S100000, .f32⟩
  | 65 => ⟨S100000x1, .f32⟩
  | 66 => ⟨S100000x5, .f32⟩
  | 67 => ⟨S100000x5, .f32⟩
  | 68 => ⟨S100000x5x1, .f32⟩
  | 69 => ⟨S100000x1x128, .f32⟩
  | 70 => ⟨S100000x5x128, .f32⟩
  | 71 => ⟨S100000x5x128, .f32⟩
  | 72 => ⟨S100000x5x128, .f32⟩
  | 73 => ⟨S_, .f32⟩
  | 74 => ⟨S1000x5x128, .f32⟩
  | 75 => ⟨S100000x1, .i32⟩
  | 76 => ⟨S1000x5x128, .f32⟩
  | 77 => ⟨S1000x640, .f32⟩
  | 78 => ⟨S_, .f32⟩
  | 79 => ⟨S1000x640, .f32⟩
  | 80 => ⟨S1000x640, .f32⟩
  | 81 => ⟨S64x128, .f32⟩
  | 82 => ⟨S_, .f32⟩
  | 83 => ⟨S_, .f32⟩
  | 84 => ⟨S3x128x128, .f32⟩
  | 85 => ⟨S_, .f32⟩
  | 86 => ⟨S_, .f32⟩
  | 87 => ⟨S_, .f32⟩
  | 88 => ⟨S384x128, .f32⟩
  | 89 => ⟨S_, .f32⟩
  | 90 => ⟨S_, .f32⟩
  | 91 => ⟨S_, .f32⟩
  | 92 => ⟨S128x128, .f32⟩
  | 93 => ⟨S_, .f32⟩
  | 94 => ⟨S_, .f32⟩
  | 95 => ⟨S_, .f32⟩
  | 96 => ⟨S128x5, .f32⟩
  | 97 => ⟨S_, .f32⟩
  | 98 => ⟨S_, .f32⟩
  | 99 => ⟨S_, .f32⟩
  | 100 => ⟨S_, .f32⟩
  | 101 => ⟨S_, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_cst_3 : Ref sig .tc := ⟨.hbm, 49, rfl⟩
abbrev main_call0_v12 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst_1 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_call1_cst : Ref sig .tc := ⟨.hbm, 71, rfl⟩
abbrev main_call1_v0 : Ref sig .tc := ⟨.hbm, 72, rfl⟩
abbrev main_v23 : Ref sig .tc := ⟨.hbm, 73, rfl⟩
abbrev main_c_2 : Ref sig .tc := ⟨.hbm, 74, rfl⟩
abbrev main_v24 : Ref sig .tc := ⟨.hbm, 75, rfl⟩
abbrev main_v25 : Ref sig .tc := ⟨.hbm, 76, rfl⟩
abbrev main_c_3 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_cst_4 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_cst_5 : Ref sig .tc := ⟨.hbm, 100, rfl⟩
abbrev main_v47 : Ref sig .tc := ⟨.hbm, 101, rfl⟩
abbrev main_cst_6 : Ref sig .tc := ⟨.hbm, 102, rfl⟩
abbrev main_v48 : Ref sig .tc := ⟨.hbm, 103, rfl⟩
abbrev main_v49 : Ref sig .tc := ⟨.hbm, 104, rfl⟩
abbrev main_c_7 : Ref sig .tc := ⟨.hbm, 105, rfl⟩
abbrev main_call2_cst : Ref sig .tc := ⟨.hbm, 106, rfl⟩
abbrev main_call2_v0 : Ref sig .tc := ⟨.hbm, 107, rfl⟩
abbrev main_call2_v1 : Ref sig .tc := ⟨.hbm, 108, rfl⟩
abbrev main_call2_cst_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_cst_1 : Ref sig .tc := ⟨.hbm, 116, rfl⟩
abbrev main_call2_v8 : Ref sig .tc := ⟨.hbm, 117, rfl⟩
abbrev main_call2_cst_2 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_cst_3 : Ref sig .tc := ⟨.hbm, 122, rfl⟩
abbrev main_call2_v12 : Ref sig .tc := ⟨.hbm, 123, rfl⟩
abbrev main_call2_cst_4 : Ref sig .tc := ⟨.hbm, 124, rfl⟩
abbrev main_call2_call0_v0 : Ref sig .tc := ⟨.hbm, 125, rfl⟩
abbrev main_call2_call0_v1 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_cst_8 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_c_9 : Ref sig .tc := ⟨.hbm, 144, rfl⟩
abbrev main_v66 : Ref sig .tc := ⟨.hbm, 145, rfl⟩
abbrev main_v67 : Ref sig .tc := ⟨.hbm, 146, rfl⟩
abbrev main_c_10 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_cst_11 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_cst_12 : Ref sig .tc := ⟨.hbm, 170, rfl⟩
abbrev main_v89 : Ref sig .tc := ⟨.hbm, 171, rfl⟩
abbrev main_cst_13 : Ref sig .tc := ⟨.hbm, 172, rfl⟩
abbrev main_v90 : Ref sig .tc := ⟨.hbm, 173, rfl⟩
abbrev main_v91 : Ref sig .tc := ⟨.hbm, 174, rfl⟩
abbrev main_c_14 : Ref sig .tc := ⟨.hbm, 175, rfl⟩
abbrev main_call3_cst : Ref sig .tc := ⟨.hbm, 176, rfl⟩
abbrev main_call3_v0 : Ref sig .tc := ⟨.hbm, 177, rfl⟩
abbrev main_call3_v1 : Ref sig .tc := ⟨.hbm, 178, rfl⟩
abbrev main_call3_cst_0 : Ref sig .tc := ⟨.hbm, 179, rfl⟩
abbrev main_call3_v2 : Ref sig .tc := ⟨.hbm, 180, rfl⟩
abbrev main_call3_v3 : Ref sig .tc := ⟨.hbm, 181, rfl⟩
abbrev main_call3_v4 : Ref sig .tc := ⟨.hbm, 182, rfl⟩
abbrev main_call3_v5 : Ref sig .tc := ⟨.hbm, 183, rfl⟩
abbrev main_call3_v6 : Ref sig .tc := ⟨.hbm, 184, rfl⟩
abbrev main_call3_v7 : Ref sig .tc := ⟨.hbm, 185, rfl⟩
abbrev main_call3_cst_1 : Ref sig .tc := ⟨.hbm, 186, rfl⟩
abbrev main_call3_v8 : Ref sig .tc := ⟨.hbm, 187, rfl⟩
abbrev main_call3_cst_2 : Ref sig .tc := ⟨.hbm, 188, rfl⟩
abbrev main_call3_v9 : Ref sig .tc := ⟨.hbm, 189, rfl⟩
abbrev main_call3_v10 : Ref sig .tc := ⟨.hbm, 190, rfl⟩
abbrev main_call3_v11 : Ref sig .tc := ⟨.hbm, 191, rfl⟩
abbrev main_call3_cst_3 : Ref sig .tc := ⟨.hbm, 192, rfl⟩
abbrev main_call3_v12 : Ref sig .tc := ⟨.hbm, 193, rfl⟩
abbrev main_call3_cst_4 : Ref sig .tc := ⟨.hbm, 194, rfl⟩
abbrev main_call3_call0_v0 : Ref sig .tc := ⟨.hbm, 195, rfl⟩
abbrev main_call3_call0_v1 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_cst_15 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_c_16 : Ref sig .tc := ⟨.hbm, 214, rfl⟩
abbrev main_v108 : Ref sig .tc := ⟨.hbm, 215, rfl⟩
abbrev main_v109 : Ref sig .tc := ⟨.hbm, 216, rfl⟩
abbrev main_c_17 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_cst_18 : Ref sig .tc := ⟨.hbm, 223, rfl⟩
abbrev main_v115 : Ref sig .tc := ⟨.hbm, 224, rfl⟩
abbrev main_v116 : Ref sig .tc := ⟨.hbm, 225, rfl⟩
abbrev main_v117 : Ref sig .tc := ⟨.hbm, 226, rfl⟩
abbrev main_v118 : Ref sig .tc := ⟨.hbm, 227, rfl⟩
abbrev main_v119 : Ref sig .tc := ⟨.hbm, 228, rfl⟩
abbrev main_v120 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_v127 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_cst_19 : Ref sig .tc := ⟨.hbm, 240, rfl⟩
abbrev main_v131 : Ref sig .tc := ⟨.hbm, 241, rfl⟩
abbrev main_cst_20 : Ref sig .tc := ⟨.hbm, 242, rfl⟩
abbrev main_v132 : Ref sig .tc := ⟨.hbm, 243, rfl⟩
abbrev main_v133 : Ref sig .tc := ⟨.hbm, 244, rfl⟩
abbrev main_c_21 : Ref sig .tc := ⟨.hbm, 245, rfl⟩
abbrev main_call4_cst : Ref sig .tc := ⟨.hbm, 246, rfl⟩
abbrev main_call4_v0 : Ref sig .tc := ⟨.hbm, 247, rfl⟩
abbrev main_call4_v1 : Ref sig .tc := ⟨.hbm, 248, rfl⟩
abbrev main_call4_cst_0 : Ref sig .tc := ⟨.hbm, 249, rfl⟩
abbrev main_call4_v2 : Ref sig .tc := ⟨.hbm, 250, rfl⟩
abbrev main_call4_v3 : Ref sig .tc := ⟨.hbm, 251, rfl⟩
abbrev main_call4_v4 : Ref sig .tc := ⟨.hbm, 252, rfl⟩
abbrev main_call4_v5 : Ref sig .tc := ⟨.hbm, 253, rfl⟩
abbrev main_call4_v6 : Ref sig .tc := ⟨.hbm, 254, rfl⟩
abbrev main_call4_v7 : Ref sig .tc := ⟨.hbm, 255, rfl⟩
abbrev main_call4_cst_1 : Ref sig .tc := ⟨.hbm, 256, rfl⟩
abbrev main_call4_v8 : Ref sig .tc := ⟨.hbm, 257, rfl⟩
abbrev main_call4_cst_2 : Ref sig .tc := ⟨.hbm, 258, rfl⟩
abbrev main_call4_v9 : Ref sig .tc := ⟨.hbm, 259, rfl⟩
abbrev main_call4_v10 : Ref sig .tc := ⟨.hbm, 260, rfl⟩
abbrev main_call4_v11 : Ref sig .tc := ⟨.hbm, 261, rfl⟩
abbrev main_call4_cst_3 : Ref sig .tc := ⟨.hbm, 262, rfl⟩
abbrev main_call4_v12 : Ref sig .tc := ⟨.hbm, 263, rfl⟩
abbrev main_call4_cst_4 : Ref sig .tc := ⟨.hbm, 264, rfl⟩
abbrev main_call4_call0_v0 : Ref sig .tc := ⟨.hbm, 265, rfl⟩
abbrev main_call4_call0_v1 : Ref sig .tc := ⟨.hbm, 266, rfl⟩
abbrev main_v134 : Ref sig .tc := ⟨.hbm, 267, rfl⟩
abbrev main_v135 : Ref sig .tc := ⟨.hbm, 268, rfl⟩
abbrev main_v136 : Ref sig .tc := ⟨.hbm, 269, rfl⟩
abbrev main_v137 : Ref sig .tc := ⟨.hbm, 270, rfl⟩
abbrev main_cst_22 : Ref sig .tc := ⟨.hbm, 271, rfl⟩
abbrev main_v138 : Ref sig .tc := ⟨.hbm, 272, rfl⟩
abbrev main_v139 : Ref sig .tc := ⟨.hbm, 273, rfl⟩
abbrev main_v140 : Ref sig .tc := ⟨.hbm, 274, rfl⟩
abbrev main_v141 : Ref sig .tc := ⟨.hbm, 275, rfl⟩
abbrev main_v142 : Ref sig .tc := ⟨.hbm, 276, rfl⟩
abbrev main_v143 : Ref sig .tc := ⟨.hbm, 277, rfl⟩
abbrev main_v144 : Ref sig .tc := ⟨.hbm, 278, rfl⟩
abbrev main_v145 : Ref sig .tc := ⟨.hbm, 279, rfl⟩
abbrev main_v146 : Ref sig .tc := ⟨.hbm, 280, rfl⟩
abbrev main_v147 : Ref sig .tc := ⟨.hbm, 281, rfl⟩
abbrev main_v148 : Ref sig .tc := ⟨.hbm, 282, rfl⟩
abbrev main_v149 : Ref sig .tc := ⟨.hbm, 283, rfl⟩
abbrev main_v150 : Ref sig .tc := ⟨.hbm, 284, rfl⟩
abbrev main_v151 : Ref sig .tc := ⟨.hbm, 285, rfl⟩
abbrev main_cst_23 : Ref sig .tc := ⟨.hbm, 286, rfl⟩
abbrev main_v152 : Ref sig .tc := ⟨.hbm, 287, rfl⟩
abbrev main_cst_24 : Ref sig .tc := ⟨.hbm, 288, rfl⟩
abbrev main_v153 : Ref sig .tc := ⟨.hbm, 289, rfl⟩
abbrev main_v154 : Ref sig .tc := ⟨.hbm, 290, rfl⟩
abbrev main_c_25 : Ref sig .tc := ⟨.hbm, 291, rfl⟩
abbrev main_call5_cst : Ref sig .tc := ⟨.hbm, 292, rfl⟩
abbrev main_call5_v0 : Ref sig .tc := ⟨.hbm, 293, rfl⟩
abbrev main_call5_v1 : Ref sig .tc := ⟨.hbm, 294, rfl⟩
abbrev main_call5_cst_0 : Ref sig .tc := ⟨.hbm, 295, rfl⟩
abbrev main_call5_v2 : Ref sig .tc := ⟨.hbm, 296, rfl⟩
abbrev main_call5_v3 : Ref sig .tc := ⟨.hbm, 297, rfl⟩
abbrev main_call5_v4 : Ref sig .tc := ⟨.hbm, 298, rfl⟩
abbrev main_call5_v5 : Ref sig .tc := ⟨.hbm, 299, rfl⟩
abbrev main_call5_v6 : Ref sig .tc := ⟨.hbm, 300, rfl⟩
abbrev main_call5_v7 : Ref sig .tc := ⟨.hbm, 301, rfl⟩
abbrev main_call5_cst_1 : Ref sig .tc := ⟨.hbm, 302, rfl⟩
abbrev main_call5_v8 : Ref sig .tc := ⟨.hbm, 303, rfl⟩
abbrev main_call5_cst_2 : Ref sig .tc := ⟨.hbm, 304, rfl⟩
abbrev main_call5_v9 : Ref sig .tc := ⟨.hbm, 305, rfl⟩
abbrev main_call5_v10 : Ref sig .tc := ⟨.hbm, 306, rfl⟩
abbrev main_call5_v11 : Ref sig .tc := ⟨.hbm, 307, rfl⟩
abbrev main_call5_cst_3 : Ref sig .tc := ⟨.hbm, 308, rfl⟩
abbrev main_call5_v12 : Ref sig .tc := ⟨.hbm, 309, rfl⟩
abbrev main_call5_cst_4 : Ref sig .tc := ⟨.hbm, 310, rfl⟩
abbrev main_call5_call0_v0 : Ref sig .tc := ⟨.hbm, 311, rfl⟩
abbrev main_call5_call0_v1 : Ref sig .tc := ⟨.hbm, 312, rfl⟩
abbrev main_v155 : Ref sig .tc := ⟨.hbm, 313, rfl⟩
abbrev main_v156 : Ref sig .tc := ⟨.hbm, 314, rfl⟩
abbrev main_v157 : Ref sig .tc := ⟨.hbm, 315, rfl⟩
abbrev main_v158 : Ref sig .tc := ⟨.hbm, 316, rfl⟩
abbrev main_cst_26 : Ref sig .tc := ⟨.hbm, 317, rfl⟩
abbrev main_v159 : Ref sig .tc := ⟨.hbm, 318, rfl⟩
abbrev main_v160 : Ref sig .tc := ⟨.hbm, 319, rfl⟩
abbrev main_v161 : Ref sig .tc := ⟨.hbm, 320, rfl⟩
abbrev main_v162 : Ref sig .tc := ⟨.hbm, 321, rfl⟩
abbrev main_v163 : Ref sig .tc := ⟨.hbm, 322, rfl⟩
abbrev main_v164 : Ref sig .tc := ⟨.hbm, 323, rfl⟩
abbrev main_v165 : Ref sig .tc := ⟨.hbm, 324, rfl⟩
abbrev main_v166 : Ref sig .tc := ⟨.hbm, 325, rfl⟩
abbrev main_v167 : Ref sig .tc := ⟨.hbm, 326, rfl⟩
abbrev main_v168 : Ref sig .tc := ⟨.hbm, 327, rfl⟩
abbrev main_v169 : Ref sig .tc := ⟨.hbm, 328, rfl⟩
abbrev main_v170 : Ref sig .tc := ⟨.hbm, 329, rfl⟩
abbrev main_call6_cst : Ref sig .tc := ⟨.hbm, 330, rfl⟩
abbrev main_call6_v0 : Ref sig .tc := ⟨.hbm, 331, rfl⟩
abbrev main_v171 : Ref sig .tc := ⟨.hbm, 332, rfl⟩
abbrev main_v172 : Ref sig .tc := ⟨.hbm, 333, rfl⟩
abbrev main_c_27 : Ref sig .tc := ⟨.hbm, 334, rfl⟩
abbrev main_v173 : Ref sig .tc := ⟨.hbm, 335, rfl⟩
abbrev main_v174 : Ref sig .tc := ⟨.hbm, 336, rfl⟩
abbrev main_c_28 : Ref sig .tc := ⟨.hbm, 337, rfl⟩
abbrev main_v175 : Ref sig .tc := ⟨.hbm, 338, rfl⟩
abbrev main_v176 : Ref sig .tc := ⟨.hbm, 339, rfl⟩
abbrev main_v177 : Ref sig .tc := ⟨.hbm, 340, rfl⟩
abbrev main_v178 : Ref sig .tc := ⟨.hbm, 341, rfl⟩
abbrev main_v179 : Ref sig .tc := ⟨.hbm, 342, rfl⟩
abbrev main_cst_29 : Ref sig .tc := ⟨.hbm, 343, rfl⟩
abbrev main_v180 : Ref sig .tc := ⟨.hbm, 344, rfl⟩
abbrev main_v181 : Ref sig .tc := ⟨.hbm, 345, rfl⟩
abbrev main_v182 : Ref sig .tc := ⟨.hbm, 346, rfl⟩
abbrev main_v183 : Ref sig .tc := ⟨.hbm, 347, rfl⟩
abbrev main_v184 : Ref sig .tc := ⟨.hbm, 348, rfl⟩
abbrev main_v185 : Ref sig .tc := ⟨.hbm, 349, rfl⟩
abbrev main_v186 : Ref sig .tc := ⟨.hbm, 350, rfl⟩
abbrev main_v187 : Ref sig .tc := ⟨.hbm, 351, rfl⟩
abbrev main_v188 : Ref sig .tc := ⟨.hbm, 352, rfl⟩
abbrev main_v189 : Ref sig .tc := ⟨.hbm, 353, rfl⟩
abbrev main_v190 : Ref sig .tc := ⟨.hbm, 354, rfl⟩
abbrev main_v191 : Ref sig .tc := ⟨.hbm, 355, rfl⟩
abbrev main_v192 : Ref sig .tc := ⟨.hbm, 356, rfl⟩
abbrev main_v193 : Ref sig .tc := ⟨.hbm, 357, rfl⟩
abbrev main_v194 : Ref sig .tc := ⟨.hbm, 358, rfl⟩
abbrev main_v195 : Ref sig .tc := ⟨.hbm, 359, rfl⟩
abbrev main_cst_30 : Ref sig .tc := ⟨.hbm, 360, rfl⟩
abbrev main_v196 : Ref sig .tc := ⟨.hbm, 361, rfl⟩
abbrev main_cst_31 : Ref sig .tc := ⟨.hbm, 362, rfl⟩
abbrev main_v197 : Ref sig .tc := ⟨.hbm, 363, rfl⟩
abbrev main_v198 : Ref sig .tc := ⟨.hbm, 364, rfl⟩
abbrev main_c_32 : Ref sig .tc := ⟨.hbm, 365, rfl⟩
abbrev main_call7_cst : Ref sig .tc := ⟨.hbm, 366, rfl⟩
abbrev main_call7_v0 : Ref sig .tc := ⟨.hbm, 367, rfl⟩
abbrev main_call7_v1 : Ref sig .tc := ⟨.hbm, 368, rfl⟩
abbrev main_call7_cst_0 : Ref sig .tc := ⟨.hbm, 369, rfl⟩
abbrev main_call7_v2 : Ref sig .tc := ⟨.hbm, 370, rfl⟩
abbrev main_call7_v3 : Ref sig .tc := ⟨.hbm, 371, rfl⟩
abbrev main_call7_v4 : Ref sig .tc := ⟨.hbm, 372, rfl⟩
abbrev main_call7_v5 : Ref sig .tc := ⟨.hbm, 373, rfl⟩
abbrev main_call7_v6 : Ref sig .tc := ⟨.hbm, 374, rfl⟩
abbrev main_call7_v7 : Ref sig .tc := ⟨.hbm, 375, rfl⟩
abbrev main_call7_cst_1 : Ref sig .tc := ⟨.hbm, 376, rfl⟩
abbrev main_call7_v8 : Ref sig .tc := ⟨.hbm, 377, rfl⟩
abbrev main_call7_cst_2 : Ref sig .tc := ⟨.hbm, 378, rfl⟩
abbrev main_call7_v9 : Ref sig .tc := ⟨.hbm, 379, rfl⟩
abbrev main_call7_v10 : Ref sig .tc := ⟨.hbm, 380, rfl⟩
abbrev main_call7_v11 : Ref sig .tc := ⟨.hbm, 381, rfl⟩
abbrev main_call7_cst_3 : Ref sig .tc := ⟨.hbm, 382, rfl⟩
abbrev main_call7_v12 : Ref sig .tc := ⟨.hbm, 383, rfl⟩
abbrev main_call7_cst_4 : Ref sig .tc := ⟨.hbm, 384, rfl⟩
abbrev main_call7_call0_v0 : Ref sig .tc := ⟨.hbm, 385, rfl⟩
abbrev main_call7_call0_v1 : Ref sig .tc := ⟨.hbm, 386, rfl⟩
abbrev main_v199 : Ref sig .tc := ⟨.hbm, 387, rfl⟩
abbrev main_v200 : Ref sig .tc := ⟨.hbm, 388, rfl⟩
abbrev main_v201 : Ref sig .tc := ⟨.hbm, 389, rfl⟩
abbrev main_v202 : Ref sig .tc := ⟨.hbm, 390, rfl⟩
abbrev main_cst_33 : Ref sig .tc := ⟨.hbm, 391, rfl⟩
abbrev main_v203 : Ref sig .tc := ⟨.hbm, 392, rfl⟩
abbrev main_v204 : Ref sig .tc := ⟨.hbm, 393, rfl⟩
abbrev main_v205 : Ref sig .tc := ⟨.hbm, 394, rfl⟩
abbrev main_v206 : Ref sig .tc := ⟨.hbm, 395, rfl⟩
abbrev main_v207 : Ref sig .tc := ⟨.hbm, 396, rfl⟩
abbrev main_v208 : Ref sig .tc := ⟨.hbm, 397, rfl⟩
abbrev main_v209 : Ref sig .tc := ⟨.hbm, 398, rfl⟩
abbrev main_v210 : Ref sig .tc := ⟨.hbm, 399, rfl⟩
abbrev main_v211 : Ref sig .tc := ⟨.hbm, 400, rfl⟩
abbrev main_v212 : Ref sig .tc := ⟨.hbm, 401, rfl⟩
abbrev main_v213 : Ref sig .tc := ⟨.hbm, 402, rfl⟩
abbrev main_v214 : Ref sig .tc := ⟨.hbm, 403, rfl⟩
abbrev main_c_34 : Ref sig .tc := ⟨.hbm, 404, rfl⟩
abbrev main_v215 : Ref sig .tc := ⟨.hbm, 405, rfl⟩
abbrev main_v216 : Ref sig .tc := ⟨.hbm, 406, rfl⟩
abbrev main_c_35 : Ref sig .tc := ⟨.hbm, 407, rfl⟩
abbrev main_v217 : Ref sig .tc := ⟨.hbm, 408, rfl⟩
abbrev main_v218 : Ref sig .tc := ⟨.hbm, 409, rfl⟩
abbrev main_v219 : Ref sig .tc := ⟨.hbm, 410, rfl⟩
abbrev main_v220 : Ref sig .tc := ⟨.hbm, 411, rfl⟩
abbrev main_v221 : Ref sig .tc := ⟨.hbm, 412, rfl⟩
abbrev main_cst_36 : Ref sig .tc := ⟨.hbm, 413, rfl⟩
abbrev main_v222 : Ref sig .tc := ⟨.hbm, 414, rfl⟩
abbrev main_v223 : Ref sig .tc := ⟨.hbm, 415, rfl⟩
abbrev main_v224 : Ref sig .tc := ⟨.hbm, 416, rfl⟩
abbrev main_v225 : Ref sig .tc := ⟨.hbm, 417, rfl⟩
abbrev main_v226 : Ref sig .tc := ⟨.hbm, 418, rfl⟩
abbrev main_v227 : Ref sig .tc := ⟨.hbm, 419, rfl⟩
abbrev main_v228 : Ref sig .tc := ⟨.hbm, 420, rfl⟩
abbrev main_v229 : Ref sig .tc := ⟨.hbm, 421, rfl⟩
abbrev main_v230 : Ref sig .tc := ⟨.hbm, 422, rfl⟩
abbrev main_v231 : Ref sig .tc := ⟨.hbm, 423, rfl⟩
abbrev main_v232 : Ref sig .tc := ⟨.hbm, 424, rfl⟩
abbrev main_v233 : Ref sig .tc := ⟨.hbm, 425, rfl⟩
abbrev main_v234 : Ref sig .tc := ⟨.hbm, 426, rfl⟩
abbrev main_v235 : Ref sig .tc := ⟨.hbm, 427, rfl⟩
abbrev main_v236 : Ref sig .tc := ⟨.hbm, 428, rfl⟩
abbrev main_v237 : Ref sig .tc := ⟨.hbm, 429, rfl⟩
abbrev main_cst_37 : Ref sig .tc := ⟨.hbm, 430, rfl⟩
abbrev main_v238 : Ref sig .tc := ⟨.hbm, 431, rfl⟩
abbrev main_cst_38 : Ref sig .tc := ⟨.hbm, 432, rfl⟩
abbrev main_v239 : Ref sig .tc := ⟨.hbm, 433, rfl⟩
abbrev main_v240 : Ref sig .tc := ⟨.hbm, 434, rfl⟩
abbrev main_c_39 : Ref sig .tc := ⟨.hbm, 435, rfl⟩
abbrev main_call8_cst : Ref sig .tc := ⟨.hbm, 436, rfl⟩
abbrev main_call8_v0 : Ref sig .tc := ⟨.hbm, 437, rfl⟩
abbrev main_call8_v1 : Ref sig .tc := ⟨.hbm, 438, rfl⟩
abbrev main_call8_cst_0 : Ref sig .tc := ⟨.hbm, 439, rfl⟩
abbrev main_call8_v2 : Ref sig .tc := ⟨.hbm, 440, rfl⟩
abbrev main_call8_v3 : Ref sig .tc := ⟨.hbm, 441, rfl⟩
abbrev main_call8_v4 : Ref sig .tc := ⟨.hbm, 442, rfl⟩
abbrev main_call8_v5 : Ref sig .tc := ⟨.hbm, 443, rfl⟩
abbrev main_call8_v6 : Ref sig .tc := ⟨.hbm, 444, rfl⟩
abbrev main_call8_v7 : Ref sig .tc := ⟨.hbm, 445, rfl⟩
abbrev main_call8_cst_1 : Ref sig .tc := ⟨.hbm, 446, rfl⟩
abbrev main_call8_v8 : Ref sig .tc := ⟨.hbm, 447, rfl⟩
abbrev main_call8_cst_2 : Ref sig .tc := ⟨.hbm, 448, rfl⟩
abbrev main_call8_v9 : Ref sig .tc := ⟨.hbm, 449, rfl⟩
abbrev main_call8_v10 : Ref sig .tc := ⟨.hbm, 450, rfl⟩
abbrev main_call8_v11 : Ref sig .tc := ⟨.hbm, 451, rfl⟩
abbrev main_call8_cst_3 : Ref sig .tc := ⟨.hbm, 452, rfl⟩
abbrev main_call8_v12 : Ref sig .tc := ⟨.hbm, 453, rfl⟩
abbrev main_call8_cst_4 : Ref sig .tc := ⟨.hbm, 454, rfl⟩
abbrev main_call8_call0_v0 : Ref sig .tc := ⟨.hbm, 455, rfl⟩
abbrev main_call8_call0_v1 : Ref sig .tc := ⟨.hbm, 456, rfl⟩
abbrev main_v241 : Ref sig .tc := ⟨.hbm, 457, rfl⟩
abbrev main_v242 : Ref sig .tc := ⟨.hbm, 458, rfl⟩
abbrev main_v243 : Ref sig .tc := ⟨.hbm, 459, rfl⟩
abbrev main_v244 : Ref sig .tc := ⟨.hbm, 460, rfl⟩
abbrev main_cst_40 : Ref sig .tc := ⟨.hbm, 461, rfl⟩
abbrev main_v245 : Ref sig .tc := ⟨.hbm, 462, rfl⟩
abbrev main_v246 : Ref sig .tc := ⟨.hbm, 463, rfl⟩
abbrev main_v247 : Ref sig .tc := ⟨.hbm, 464, rfl⟩
abbrev main_v248 : Ref sig .tc := ⟨.hbm, 465, rfl⟩
abbrev main_v249 : Ref sig .tc := ⟨.hbm, 466, rfl⟩
abbrev main_v250 : Ref sig .tc := ⟨.hbm, 467, rfl⟩
abbrev main_v251 : Ref sig .tc := ⟨.hbm, 468, rfl⟩
abbrev main_v252 : Ref sig .tc := ⟨.hbm, 469, rfl⟩
abbrev main_v253 : Ref sig .tc := ⟨.hbm, 470, rfl⟩
abbrev main_v254 : Ref sig .tc := ⟨.hbm, 471, rfl⟩
abbrev main_v255 : Ref sig .tc := ⟨.hbm, 472, rfl⟩
abbrev main_v256 : Ref sig .tc := ⟨.hbm, 473, rfl⟩
abbrev main_c_41 : Ref sig .tc := ⟨.hbm, 474, rfl⟩
abbrev main_v257 : Ref sig .tc := ⟨.hbm, 475, rfl⟩
abbrev main_v258 : Ref sig .tc := ⟨.hbm, 476, rfl⟩
abbrev main_c_42 : Ref sig .tc := ⟨.hbm, 477, rfl⟩
abbrev main_v259 : Ref sig .tc := ⟨.hbm, 478, rfl⟩
abbrev main_v260 : Ref sig .tc := ⟨.hbm, 479, rfl⟩
abbrev main_v261 : Ref sig .tc := ⟨.hbm, 480, rfl⟩
abbrev main_v262 : Ref sig .tc := ⟨.hbm, 481, rfl⟩
abbrev main_v263 : Ref sig .tc := ⟨.hbm, 482, rfl⟩
abbrev main_cst_43 : Ref sig .tc := ⟨.hbm, 483, rfl⟩
abbrev main_v264 : Ref sig .tc := ⟨.hbm, 484, rfl⟩
abbrev main_v265 : Ref sig .tc := ⟨.hbm, 485, rfl⟩
abbrev main_v266 : Ref sig .tc := ⟨.hbm, 486, rfl⟩
abbrev main_v267 : Ref sig .tc := ⟨.hbm, 487, rfl⟩
abbrev main_v268 : Ref sig .tc := ⟨.hbm, 488, rfl⟩
abbrev main_v269 : Ref sig .tc := ⟨.hbm, 489, rfl⟩
abbrev main_v270 : Ref sig .tc := ⟨.hbm, 490, rfl⟩
abbrev main_v271 : Ref sig .tc := ⟨.hbm, 491, rfl⟩
abbrev main_v272 : Ref sig .tc := ⟨.hbm, 492, rfl⟩
abbrev main_v273 : Ref sig .tc := ⟨.hbm, 493, rfl⟩
abbrev main_v274 : Ref sig .tc := ⟨.hbm, 494, rfl⟩
abbrev main_v275 : Ref sig .tc := ⟨.hbm, 495, rfl⟩
abbrev main_v276 : Ref sig .tc := ⟨.hbm, 496, rfl⟩
abbrev main_v277 : Ref sig .tc := ⟨.hbm, 497, rfl⟩
abbrev main_v278 : Ref sig .tc := ⟨.hbm, 498, rfl⟩
abbrev main_v279 : Ref sig .tc := ⟨.hbm, 499, rfl⟩
abbrev main_cst_44 : Ref sig .tc := ⟨.hbm, 500, rfl⟩
abbrev main_v280 : Ref sig .tc := ⟨.hbm, 501, rfl⟩
abbrev main_cst_45 : Ref sig .tc := ⟨.hbm, 502, rfl⟩
abbrev main_v281 : Ref sig .tc := ⟨.hbm, 503, rfl⟩
abbrev main_v282 : Ref sig .tc := ⟨.hbm, 504, rfl⟩
abbrev main_c_46 : Ref sig .tc := ⟨.hbm, 505, rfl⟩
abbrev main_call9_cst : Ref sig .tc := ⟨.hbm, 506, rfl⟩
abbrev main_call9_v0 : Ref sig .tc := ⟨.hbm, 507, rfl⟩
abbrev main_call9_v1 : Ref sig .tc := ⟨.hbm, 508, rfl⟩
abbrev main_call9_cst_0 : Ref sig .tc := ⟨.hbm, 509, rfl⟩
abbrev main_call9_v2 : Ref sig .tc := ⟨.hbm, 510, rfl⟩
abbrev main_call9_v3 : Ref sig .tc := ⟨.hbm, 511, rfl⟩
abbrev main_call9_v4 : Ref sig .tc := ⟨.hbm, 512, rfl⟩
abbrev main_call9_v5 : Ref sig .tc := ⟨.hbm, 513, rfl⟩
abbrev main_call9_v6 : Ref sig .tc := ⟨.hbm, 514, rfl⟩
abbrev main_call9_v7 : Ref sig .tc := ⟨.hbm, 515, rfl⟩
abbrev main_call9_cst_1 : Ref sig .tc := ⟨.hbm, 516, rfl⟩
abbrev main_call9_v8 : Ref sig .tc := ⟨.hbm, 517, rfl⟩
abbrev main_call9_cst_2 : Ref sig .tc := ⟨.hbm, 518, rfl⟩
abbrev main_call9_v9 : Ref sig .tc := ⟨.hbm, 519, rfl⟩
abbrev main_call9_v10 : Ref sig .tc := ⟨.hbm, 520, rfl⟩
abbrev main_call9_v11 : Ref sig .tc := ⟨.hbm, 521, rfl⟩
abbrev main_call9_cst_3 : Ref sig .tc := ⟨.hbm, 522, rfl⟩
abbrev main_call9_v12 : Ref sig .tc := ⟨.hbm, 523, rfl⟩
abbrev main_call9_cst_4 : Ref sig .tc := ⟨.hbm, 524, rfl⟩
abbrev main_call9_call0_v0 : Ref sig .tc := ⟨.hbm, 525, rfl⟩
abbrev main_call9_call0_v1 : Ref sig .tc := ⟨.hbm, 526, rfl⟩
abbrev main_v283 : Ref sig .tc := ⟨.hbm, 527, rfl⟩
abbrev main_v284 : Ref sig .tc := ⟨.hbm, 528, rfl⟩
abbrev main_v285 : Ref sig .tc := ⟨.hbm, 529, rfl⟩
abbrev main_v286 : Ref sig .tc := ⟨.hbm, 530, rfl⟩
abbrev main_cst_47 : Ref sig .tc := ⟨.hbm, 531, rfl⟩
abbrev main_v287 : Ref sig .tc := ⟨.hbm, 532, rfl⟩
abbrev main_v288 : Ref sig .tc := ⟨.hbm, 533, rfl⟩
abbrev main_v289 : Ref sig .tc := ⟨.hbm, 534, rfl⟩
abbrev main_v290 : Ref sig .tc := ⟨.hbm, 535, rfl⟩
abbrev main_v291 : Ref sig .tc := ⟨.hbm, 536, rfl⟩
abbrev main_v292 : Ref sig .tc := ⟨.hbm, 537, rfl⟩
abbrev main_v293 : Ref sig .tc := ⟨.hbm, 538, rfl⟩
abbrev main_v294 : Ref sig .tc := ⟨.hbm, 539, rfl⟩
abbrev main_v295 : Ref sig .tc := ⟨.hbm, 540, rfl⟩
abbrev main_v296 : Ref sig .tc := ⟨.hbm, 541, rfl⟩
abbrev main_v297 : Ref sig .tc := ⟨.hbm, 542, rfl⟩
abbrev main_v298 : Ref sig .tc := ⟨.hbm, 543, rfl⟩
abbrev main_v299 : Ref sig .tc := ⟨.hbm, 544, rfl⟩
abbrev main_v300 : Ref sig .tc := ⟨.hbm, 545, rfl⟩
abbrev main_cst_48 : Ref sig .tc := ⟨.hbm, 546, rfl⟩
abbrev main_v301 : Ref sig .tc := ⟨.hbm, 547, rfl⟩
abbrev main_cst_49 : Ref sig .tc := ⟨.hbm, 548, rfl⟩
abbrev main_v302 : Ref sig .tc := ⟨.hbm, 549, rfl⟩
abbrev main_v303 : Ref sig .tc := ⟨.hbm, 550, rfl⟩
abbrev main_c_50 : Ref sig .tc := ⟨.hbm, 551, rfl⟩
abbrev main_call10_cst : Ref sig .tc := ⟨.hbm, 552, rfl⟩
abbrev main_call10_v0 : Ref sig .tc := ⟨.hbm, 553, rfl⟩
abbrev main_call10_v1 : Ref sig .tc := ⟨.hbm, 554, rfl⟩
abbrev main_call10_cst_0 : Ref sig .tc := ⟨.hbm, 555, rfl⟩
abbrev main_call10_v2 : Ref sig .tc := ⟨.hbm, 556, rfl⟩
abbrev main_call10_v3 : Ref sig .tc := ⟨.hbm, 557, rfl⟩
abbrev main_call10_v4 : Ref sig .tc := ⟨.hbm, 558, rfl⟩
abbrev main_call10_v5 : Ref sig .tc := ⟨.hbm, 559, rfl⟩
abbrev main_call10_v6 : Ref sig .tc := ⟨.hbm, 560, rfl⟩
abbrev main_call10_v7 : Ref sig .tc := ⟨.hbm, 561, rfl⟩
abbrev main_call10_cst_1 : Ref sig .tc := ⟨.hbm, 562, rfl⟩
abbrev main_call10_v8 : Ref sig .tc := ⟨.hbm, 563, rfl⟩
abbrev main_call10_cst_2 : Ref sig .tc := ⟨.hbm, 564, rfl⟩
abbrev main_call10_v9 : Ref sig .tc := ⟨.hbm, 565, rfl⟩
abbrev main_call10_v10 : Ref sig .tc := ⟨.hbm, 566, rfl⟩
abbrev main_call10_v11 : Ref sig .tc := ⟨.hbm, 567, rfl⟩
abbrev main_call10_cst_3 : Ref sig .tc := ⟨.hbm, 568, rfl⟩
abbrev main_call10_v12 : Ref sig .tc := ⟨.hbm, 569, rfl⟩
abbrev main_call10_cst_4 : Ref sig .tc := ⟨.hbm, 570, rfl⟩
abbrev main_call10_call0_v0 : Ref sig .tc := ⟨.hbm, 571, rfl⟩
abbrev main_call10_call0_v1 : Ref sig .tc := ⟨.hbm, 572, rfl⟩
abbrev main_v304 : Ref sig .tc := ⟨.hbm, 573, rfl⟩
abbrev main_v305 : Ref sig .tc := ⟨.hbm, 574, rfl⟩
abbrev main_v306 : Ref sig .tc := ⟨.hbm, 575, rfl⟩
abbrev main_v307 : Ref sig .tc := ⟨.hbm, 576, rfl⟩
abbrev main_cst_51 : Ref sig .tc := ⟨.hbm, 577, rfl⟩
abbrev main_v308 : Ref sig .tc := ⟨.hbm, 578, rfl⟩
abbrev main_v309 : Ref sig .tc := ⟨.hbm, 579, rfl⟩
abbrev main_v310 : Ref sig .tc := ⟨.hbm, 580, rfl⟩
abbrev main_v311 : Ref sig .tc := ⟨.hbm, 581, rfl⟩
abbrev main_v312 : Ref sig .tc := ⟨.hbm, 582, rfl⟩
abbrev main_v313 : Ref sig .tc := ⟨.hbm, 583, rfl⟩
abbrev main_v314 : Ref sig .tc := ⟨.hbm, 584, rfl⟩
abbrev main_v315 : Ref sig .tc := ⟨.hbm, 585, rfl⟩
abbrev main_v316 : Ref sig .tc := ⟨.hbm, 586, rfl⟩
abbrev main_v317 : Ref sig .tc := ⟨.hbm, 587, rfl⟩
abbrev main_v318 : Ref sig .tc := ⟨.hbm, 588, rfl⟩
abbrev main_v319 : Ref sig .tc := ⟨.hbm, 589, rfl⟩
abbrev main_call11_cst : Ref sig .tc := ⟨.hbm, 590, rfl⟩
abbrev main_call11_v0 : Ref sig .tc := ⟨.hbm, 591, rfl⟩
abbrev main_v320 : Ref sig .tc := ⟨.hbm, 592, rfl⟩
abbrev main_v321 : Ref sig .tc := ⟨.hbm, 593, rfl⟩
abbrev main_c_52 : Ref sig .tc := ⟨.hbm, 594, rfl⟩
abbrev main_v322 : Ref sig .tc := ⟨.hbm, 595, rfl⟩
abbrev main_v323 : Ref sig .tc := ⟨.hbm, 596, rfl⟩
abbrev main_c_53 : Ref sig .tc := ⟨.hbm, 597, rfl⟩
abbrev main_v324 : Ref sig .tc := ⟨.hbm, 598, rfl⟩
abbrev main_v325 : Ref sig .tc := ⟨.hbm, 599, rfl⟩
abbrev main_v326 : Ref sig .tc := ⟨.hbm, 600, rfl⟩
abbrev main_v327 : Ref sig .tc := ⟨.hbm, 601, rfl⟩
abbrev main_v328 : Ref sig .tc := ⟨.hbm, 602, rfl⟩
abbrev main_cst_54 : Ref sig .tc := ⟨.hbm, 603, rfl⟩
abbrev main_v329 : Ref sig .tc := ⟨.hbm, 604, rfl⟩
abbrev main_v330 : Ref sig .tc := ⟨.hbm, 605, rfl⟩
abbrev main_v331 : Ref sig .tc := ⟨.hbm, 606, rfl⟩
abbrev main_v332 : Ref sig .tc := ⟨.hbm, 607, rfl⟩
abbrev main_v333 : Ref sig .tc := ⟨.hbm, 608, rfl⟩
abbrev main_v334 : Ref sig .tc := ⟨.hbm, 609, rfl⟩
abbrev main_v335 : Ref sig .tc := ⟨.hbm, 610, rfl⟩
abbrev main_v336 : Ref sig .tc := ⟨.hbm, 611, rfl⟩
abbrev main_v337 : Ref sig .tc := ⟨.hbm, 612, rfl⟩
abbrev main_v338 : Ref sig .tc := ⟨.hbm, 613, rfl⟩
abbrev main_v339 : Ref sig .tc := ⟨.hbm, 614, rfl⟩
abbrev main_v340 : Ref sig .tc := ⟨.hbm, 615, rfl⟩
abbrev main_v341 : Ref sig .tc := ⟨.hbm, 616, rfl⟩
abbrev main_v342 : Ref sig .tc := ⟨.hbm, 617, rfl⟩
abbrev main_v343 : Ref sig .tc := ⟨.hbm, 618, rfl⟩
abbrev main_v344 : Ref sig .tc := ⟨.hbm, 619, rfl⟩
abbrev main_cst_55 : Ref sig .tc := ⟨.hbm, 620, rfl⟩
abbrev main_v345 : Ref sig .tc := ⟨.hbm, 621, rfl⟩
abbrev main_cst_56 : Ref sig .tc := ⟨.hbm, 622, rfl⟩
abbrev main_v346 : Ref sig .tc := ⟨.hbm, 623, rfl⟩
abbrev main_v347 : Ref sig .tc := ⟨.hbm, 624, rfl⟩
abbrev main_c_57 : Ref sig .tc := ⟨.hbm, 625, rfl⟩
abbrev main_call12_cst : Ref sig .tc := ⟨.hbm, 626, rfl⟩
abbrev main_call12_v0 : Ref sig .tc := ⟨.hbm, 627, rfl⟩
abbrev main_call12_v1 : Ref sig .tc := ⟨.hbm, 628, rfl⟩
abbrev main_call12_cst_0 : Ref sig .tc := ⟨.hbm, 629, rfl⟩
abbrev main_call12_v2 : Ref sig .tc := ⟨.hbm, 630, rfl⟩
abbrev main_call12_v3 : Ref sig .tc := ⟨.hbm, 631, rfl⟩
abbrev main_call12_v4 : Ref sig .tc := ⟨.hbm, 632, rfl⟩
abbrev main_call12_v5 : Ref sig .tc := ⟨.hbm, 633, rfl⟩
abbrev main_call12_v6 : Ref sig .tc := ⟨.hbm, 634, rfl⟩
abbrev main_call12_v7 : Ref sig .tc := ⟨.hbm, 635, rfl⟩
abbrev main_call12_cst_1 : Ref sig .tc := ⟨.hbm, 636, rfl⟩
abbrev main_call12_v8 : Ref sig .tc := ⟨.hbm, 637, rfl⟩
abbrev main_call12_cst_2 : Ref sig .tc := ⟨.hbm, 638, rfl⟩
abbrev main_call12_v9 : Ref sig .tc := ⟨.hbm, 639, rfl⟩
abbrev main_call12_v10 : Ref sig .tc := ⟨.hbm, 640, rfl⟩
abbrev main_call12_v11 : Ref sig .tc := ⟨.hbm, 641, rfl⟩
abbrev main_call12_cst_3 : Ref sig .tc := ⟨.hbm, 642, rfl⟩
abbrev main_call12_v12 : Ref sig .tc := ⟨.hbm, 643, rfl⟩
abbrev main_call12_cst_4 : Ref sig .tc := ⟨.hbm, 644, rfl⟩
abbrev main_call12_call0_v0 : Ref sig .tc := ⟨.hbm, 645, rfl⟩
abbrev main_call12_call0_v1 : Ref sig .tc := ⟨.hbm, 646, rfl⟩
abbrev main_v348 : Ref sig .tc := ⟨.hbm, 647, rfl⟩
abbrev main_v349 : Ref sig .tc := ⟨.hbm, 648, rfl⟩
abbrev main_v350 : Ref sig .tc := ⟨.hbm, 649, rfl⟩
abbrev main_v351 : Ref sig .tc := ⟨.hbm, 650, rfl⟩
abbrev main_cst_58 : Ref sig .tc := ⟨.hbm, 651, rfl⟩
abbrev main_v352 : Ref sig .tc := ⟨.hbm, 652, rfl⟩
abbrev main_v353 : Ref sig .tc := ⟨.hbm, 653, rfl⟩
abbrev main_v354 : Ref sig .tc := ⟨.hbm, 654, rfl⟩
abbrev main_v355 : Ref sig .tc := ⟨.hbm, 655, rfl⟩
abbrev main_v356 : Ref sig .tc := ⟨.hbm, 656, rfl⟩
abbrev main_v357 : Ref sig .tc := ⟨.hbm, 657, rfl⟩
abbrev main_v358 : Ref sig .tc := ⟨.hbm, 658, rfl⟩
abbrev main_v359 : Ref sig .tc := ⟨.hbm, 659, rfl⟩
abbrev main_v360 : Ref sig .tc := ⟨.hbm, 660, rfl⟩
abbrev main_v361 : Ref sig .tc := ⟨.hbm, 661, rfl⟩
abbrev main_v362 : Ref sig .tc := ⟨.hbm, 662, rfl⟩
abbrev main_v363 : Ref sig .tc := ⟨.hbm, 663, rfl⟩
abbrev main_c_59 : Ref sig .tc := ⟨.hbm, 664, rfl⟩
abbrev main_v364 : Ref sig .tc := ⟨.hbm, 665, rfl⟩
abbrev main_v365 : Ref sig .tc := ⟨.hbm, 666, rfl⟩
abbrev main_c_60 : Ref sig .tc := ⟨.hbm, 667, rfl⟩
abbrev main_v366 : Ref sig .tc := ⟨.hbm, 668, rfl⟩
abbrev main_v367 : Ref sig .tc := ⟨.hbm, 669, rfl⟩
abbrev main_v368 : Ref sig .tc := ⟨.hbm, 670, rfl⟩
abbrev main_v369 : Ref sig .tc := ⟨.hbm, 671, rfl⟩
abbrev main_v370 : Ref sig .tc := ⟨.hbm, 672, rfl⟩
abbrev main_cst_61 : Ref sig .tc := ⟨.hbm, 673, rfl⟩
abbrev main_v371 : Ref sig .tc := ⟨.hbm, 674, rfl⟩
abbrev main_v372 : Ref sig .tc := ⟨.hbm, 675, rfl⟩
abbrev main_v373 : Ref sig .tc := ⟨.hbm, 676, rfl⟩
abbrev main_v374 : Ref sig .tc := ⟨.hbm, 677, rfl⟩
abbrev main_v375 : Ref sig .tc := ⟨.hbm, 678, rfl⟩
abbrev main_v376 : Ref sig .tc := ⟨.hbm, 679, rfl⟩
abbrev main_v377 : Ref sig .tc := ⟨.hbm, 680, rfl⟩
abbrev main_v378 : Ref sig .tc := ⟨.hbm, 681, rfl⟩
abbrev main_v379 : Ref sig .tc := ⟨.hbm, 682, rfl⟩
abbrev main_v380 : Ref sig .tc := ⟨.hbm, 683, rfl⟩
abbrev main_v381 : Ref sig .tc := ⟨.hbm, 684, rfl⟩
abbrev main_v382 : Ref sig .tc := ⟨.hbm, 685, rfl⟩
abbrev main_v383 : Ref sig .tc := ⟨.hbm, 686, rfl⟩
abbrev main_v384 : Ref sig .tc := ⟨.hbm, 687, rfl⟩
abbrev main_v385 : Ref sig .tc := ⟨.hbm, 688, rfl⟩
abbrev main_v386 : Ref sig .tc := ⟨.hbm, 689, rfl⟩
abbrev main_cst_62 : Ref sig .tc := ⟨.hbm, 690, rfl⟩
abbrev main_v387 : Ref sig .tc := ⟨.hbm, 691, rfl⟩
abbrev main_cst_63 : Ref sig .tc := ⟨.hbm, 692, rfl⟩
abbrev main_v388 : Ref sig .tc := ⟨.hbm, 693, rfl⟩
abbrev main_v389 : Ref sig .tc := ⟨.hbm, 694, rfl⟩
abbrev main_c_64 : Ref sig .tc := ⟨.hbm, 695, rfl⟩
abbrev main_call13_cst : Ref sig .tc := ⟨.hbm, 696, rfl⟩
abbrev main_call13_v0 : Ref sig .tc := ⟨.hbm, 697, rfl⟩
abbrev main_call13_v1 : Ref sig .tc := ⟨.hbm, 698, rfl⟩
abbrev main_call13_cst_0 : Ref sig .tc := ⟨.hbm, 699, rfl⟩
abbrev main_call13_v2 : Ref sig .tc := ⟨.hbm, 700, rfl⟩
abbrev main_call13_v3 : Ref sig .tc := ⟨.hbm, 701, rfl⟩
abbrev main_call13_v4 : Ref sig .tc := ⟨.hbm, 702, rfl⟩
abbrev main_call13_v5 : Ref sig .tc := ⟨.hbm, 703, rfl⟩
abbrev main_call13_v6 : Ref sig .tc := ⟨.hbm, 704, rfl⟩
abbrev main_call13_v7 : Ref sig .tc := ⟨.hbm, 705, rfl⟩
abbrev main_call13_cst_1 : Ref sig .tc := ⟨.hbm, 706, rfl⟩
abbrev main_call13_v8 : Ref sig .tc := ⟨.hbm, 707, rfl⟩
abbrev main_call13_cst_2 : Ref sig .tc := ⟨.hbm, 708, rfl⟩
abbrev main_call13_v9 : Ref sig .tc := ⟨.hbm, 709, rfl⟩
abbrev main_call13_v10 : Ref sig .tc := ⟨.hbm, 710, rfl⟩
abbrev main_call13_v11 : Ref sig .tc := ⟨.hbm, 711, rfl⟩
abbrev main_call13_cst_3 : Ref sig .tc := ⟨.hbm, 712, rfl⟩
abbrev main_call13_v12 : Ref sig .tc := ⟨.hbm, 713, rfl⟩
abbrev main_call13_cst_4 : Ref sig .tc := ⟨.hbm, 714, rfl⟩
abbrev main_call13_call0_v0 : Ref sig .tc := ⟨.hbm, 715, rfl⟩
abbrev main_call13_call0_v1 : Ref sig .tc := ⟨.hbm, 716, rfl⟩
abbrev main_v390 : Ref sig .tc := ⟨.hbm, 717, rfl⟩
abbrev main_v391 : Ref sig .tc := ⟨.hbm, 718, rfl⟩
abbrev main_v392 : Ref sig .tc := ⟨.hbm, 719, rfl⟩
abbrev main_v393 : Ref sig .tc := ⟨.hbm, 720, rfl⟩
abbrev main_cst_65 : Ref sig .tc := ⟨.hbm, 721, rfl⟩
abbrev main_v394 : Ref sig .tc := ⟨.hbm, 722, rfl⟩
abbrev main_v395 : Ref sig .tc := ⟨.hbm, 723, rfl⟩
abbrev main_v396 : Ref sig .tc := ⟨.hbm, 724, rfl⟩
abbrev main_v397 : Ref sig .tc := ⟨.hbm, 725, rfl⟩
abbrev main_v398 : Ref sig .tc := ⟨.hbm, 726, rfl⟩
abbrev main_v399 : Ref sig .tc := ⟨.hbm, 727, rfl⟩
abbrev main_v400 : Ref sig .tc := ⟨.hbm, 728, rfl⟩
abbrev main_v401 : Ref sig .tc := ⟨.hbm, 729, rfl⟩
abbrev main_v402 : Ref sig .tc := ⟨.hbm, 730, rfl⟩
abbrev main_v403 : Ref sig .tc := ⟨.hbm, 731, rfl⟩
abbrev main_v404 : Ref sig .tc := ⟨.hbm, 732, rfl⟩
abbrev main_v405 : Ref sig .tc := ⟨.hbm, 733, rfl⟩
abbrev main_c_66 : Ref sig .tc := ⟨.hbm, 734, rfl⟩
abbrev main_v406 : Ref sig .tc := ⟨.hbm, 735, rfl⟩
abbrev main_v407 : Ref sig .tc := ⟨.hbm, 736, rfl⟩
abbrev main_c_67 : Ref sig .tc := ⟨.hbm, 737, rfl⟩
abbrev main_v408 : Ref sig .tc := ⟨.hbm, 738, rfl⟩
abbrev main_v409 : Ref sig .tc := ⟨.hbm, 739, rfl⟩
abbrev main_v410 : Ref sig .tc := ⟨.hbm, 740, rfl⟩
abbrev main_v411 : Ref sig .tc := ⟨.hbm, 741, rfl⟩
abbrev main_v412 : Ref sig .tc := ⟨.hbm, 742, rfl⟩
abbrev main_cst_68 : Ref sig .tc := ⟨.hbm, 743, rfl⟩
abbrev main_v413 : Ref sig .tc := ⟨.hbm, 744, rfl⟩
abbrev main_v414 : Ref sig .tc := ⟨.hbm, 745, rfl⟩
abbrev main_v415 : Ref sig .tc := ⟨.hbm, 746, rfl⟩
abbrev main_v416 : Ref sig .tc := ⟨.hbm, 747, rfl⟩
abbrev main_v417 : Ref sig .tc := ⟨.hbm, 748, rfl⟩
abbrev main_v418 : Ref sig .tc := ⟨.hbm, 749, rfl⟩
abbrev main_v419 : Ref sig .tc := ⟨.hbm, 750, rfl⟩
abbrev main_v420 : Ref sig .tc := ⟨.hbm, 751, rfl⟩
abbrev main_v421 : Ref sig .tc := ⟨.hbm, 752, rfl⟩
abbrev main_v422 : Ref sig .tc := ⟨.hbm, 753, rfl⟩
abbrev main_v423 : Ref sig .tc := ⟨.hbm, 754, rfl⟩
abbrev main_v424 : Ref sig .tc := ⟨.hbm, 755, rfl⟩
abbrev main_v425 : Ref sig .tc := ⟨.hbm, 756, rfl⟩
abbrev main_v426 : Ref sig .tc := ⟨.hbm, 757, rfl⟩
abbrev main_v427 : Ref sig .tc := ⟨.hbm, 758, rfl⟩
abbrev main_v428 : Ref sig .tc := ⟨.hbm, 759, rfl⟩
abbrev main_cst_69 : Ref sig .tc := ⟨.hbm, 760, rfl⟩
abbrev main_v429 : Ref sig .tc := ⟨.hbm, 761, rfl⟩
abbrev main_cst_70 : Ref sig .tc := ⟨.hbm, 762, rfl⟩
abbrev main_v430 : Ref sig .tc := ⟨.hbm, 763, rfl⟩
abbrev main_v431 : Ref sig .tc := ⟨.hbm, 764, rfl⟩
abbrev main_c_71 : Ref sig .tc := ⟨.hbm, 765, rfl⟩
abbrev main_call14_cst : Ref sig .tc := ⟨.hbm, 766, rfl⟩
abbrev main_call14_v0 : Ref sig .tc := ⟨.hbm, 767, rfl⟩
abbrev main_call14_v1 : Ref sig .tc := ⟨.hbm, 768, rfl⟩
abbrev main_call14_cst_0 : Ref sig .tc := ⟨.hbm, 769, rfl⟩
abbrev main_call14_v2 : Ref sig .tc := ⟨.hbm, 770, rfl⟩
abbrev main_call14_v3 : Ref sig .tc := ⟨.hbm, 771, rfl⟩
abbrev main_call14_v4 : Ref sig .tc := ⟨.hbm, 772, rfl⟩
abbrev main_call14_v5 : Ref sig .tc := ⟨.hbm, 773, rfl⟩
abbrev main_call14_v6 : Ref sig .tc := ⟨.hbm, 774, rfl⟩
abbrev main_call14_v7 : Ref sig .tc := ⟨.hbm, 775, rfl⟩
abbrev main_call14_cst_1 : Ref sig .tc := ⟨.hbm, 776, rfl⟩
abbrev main_call14_v8 : Ref sig .tc := ⟨.hbm, 777, rfl⟩
abbrev main_call14_cst_2 : Ref sig .tc := ⟨.hbm, 778, rfl⟩
abbrev main_call14_v9 : Ref sig .tc := ⟨.hbm, 779, rfl⟩
abbrev main_call14_v10 : Ref sig .tc := ⟨.hbm, 780, rfl⟩
abbrev main_call14_v11 : Ref sig .tc := ⟨.hbm, 781, rfl⟩
abbrev main_call14_cst_3 : Ref sig .tc := ⟨.hbm, 782, rfl⟩
abbrev main_call14_v12 : Ref sig .tc := ⟨.hbm, 783, rfl⟩
abbrev main_call14_cst_4 : Ref sig .tc := ⟨.hbm, 784, rfl⟩
abbrev main_call14_call0_v0 : Ref sig .tc := ⟨.hbm, 785, rfl⟩
abbrev main_call14_call0_v1 : Ref sig .tc := ⟨.hbm, 786, rfl⟩
abbrev main_v432 : Ref sig .tc := ⟨.hbm, 787, rfl⟩
abbrev main_v433 : Ref sig .tc := ⟨.hbm, 788, rfl⟩
abbrev main_v434 : Ref sig .tc := ⟨.hbm, 789, rfl⟩
abbrev main_v435 : Ref sig .tc := ⟨.hbm, 790, rfl⟩
abbrev main_cst_72 : Ref sig .tc := ⟨.hbm, 791, rfl⟩
abbrev main_v436 : Ref sig .tc := ⟨.hbm, 792, rfl⟩
abbrev main_v437 : Ref sig .tc := ⟨.hbm, 793, rfl⟩
abbrev main_v438 : Ref sig .tc := ⟨.hbm, 794, rfl⟩
abbrev main_v439 : Ref sig .tc := ⟨.hbm, 795, rfl⟩
abbrev main_v440 : Ref sig .tc := ⟨.hbm, 796, rfl⟩
abbrev main_v441 : Ref sig .tc := ⟨.hbm, 797, rfl⟩
abbrev main_v442 : Ref sig .tc := ⟨.hbm, 798, rfl⟩
abbrev main_v443 : Ref sig .tc := ⟨.hbm, 799, rfl⟩
abbrev main_v444 : Ref sig .tc := ⟨.hbm, 800, rfl⟩
abbrev main_v445 : Ref sig .tc := ⟨.hbm, 801, rfl⟩
abbrev main_v446 : Ref sig .tc := ⟨.hbm, 802, rfl⟩
abbrev main_v447 : Ref sig .tc := ⟨.hbm, 803, rfl⟩
abbrev main_v448 : Ref sig .tc := ⟨.hbm, 804, rfl⟩
abbrev main_v449 : Ref sig .tc := ⟨.hbm, 805, rfl⟩
abbrev main_cst_73 : Ref sig .tc := ⟨.hbm, 806, rfl⟩
abbrev main_v450 : Ref sig .tc := ⟨.hbm, 807, rfl⟩
abbrev main_cst_74 : Ref sig .tc := ⟨.hbm, 808, rfl⟩
abbrev main_v451 : Ref sig .tc := ⟨.hbm, 809, rfl⟩
abbrev main_v452 : Ref sig .tc := ⟨.hbm, 810, rfl⟩
abbrev main_c_75 : Ref sig .tc := ⟨.hbm, 811, rfl⟩
abbrev main_call15_cst : Ref sig .tc := ⟨.hbm, 812, rfl⟩
abbrev main_call15_v0 : Ref sig .tc := ⟨.hbm, 813, rfl⟩
abbrev main_call15_v1 : Ref sig .tc := ⟨.hbm, 814, rfl⟩
abbrev main_call15_cst_0 : Ref sig .tc := ⟨.hbm, 815, rfl⟩
abbrev main_call15_v2 : Ref sig .tc := ⟨.hbm, 816, rfl⟩
abbrev main_call15_v3 : Ref sig .tc := ⟨.hbm, 817, rfl⟩
abbrev main_call15_v4 : Ref sig .tc := ⟨.hbm, 818, rfl⟩
abbrev main_call15_v5 : Ref sig .tc := ⟨.hbm, 819, rfl⟩
abbrev main_call15_v6 : Ref sig .tc := ⟨.hbm, 820, rfl⟩
abbrev main_call15_v7 : Ref sig .tc := ⟨.hbm, 821, rfl⟩
abbrev main_call15_cst_1 : Ref sig .tc := ⟨.hbm, 822, rfl⟩
abbrev main_call15_v8 : Ref sig .tc := ⟨.hbm, 823, rfl⟩
abbrev main_call15_cst_2 : Ref sig .tc := ⟨.hbm, 824, rfl⟩
abbrev main_call15_v9 : Ref sig .tc := ⟨.hbm, 825, rfl⟩
abbrev main_call15_v10 : Ref sig .tc := ⟨.hbm, 826, rfl⟩
abbrev main_call15_v11 : Ref sig .tc := ⟨.hbm, 827, rfl⟩
abbrev main_call15_cst_3 : Ref sig .tc := ⟨.hbm, 828, rfl⟩
abbrev main_call15_v12 : Ref sig .tc := ⟨.hbm, 829, rfl⟩
abbrev main_call15_cst_4 : Ref sig .tc := ⟨.hbm, 830, rfl⟩
abbrev main_call15_call0_v0 : Ref sig .tc := ⟨.hbm, 831, rfl⟩
abbrev main_call15_call0_v1 : Ref sig .tc := ⟨.hbm, 832, rfl⟩
abbrev main_v453 : Ref sig .tc := ⟨.hbm, 833, rfl⟩
abbrev main_v454 : Ref sig .tc := ⟨.hbm, 834, rfl⟩
abbrev main_v455 : Ref sig .tc := ⟨.hbm, 835, rfl⟩
abbrev main_v456 : Ref sig .tc := ⟨.hbm, 836, rfl⟩
abbrev main_cst_76 : Ref sig .tc := ⟨.hbm, 837, rfl⟩
abbrev main_v457 : Ref sig .tc := ⟨.hbm, 838, rfl⟩
abbrev main_v458 : Ref sig .tc := ⟨.hbm, 839, rfl⟩
abbrev main_v459 : Ref sig .tc := ⟨.hbm, 840, rfl⟩
abbrev main_v460 : Ref sig .tc := ⟨.hbm, 841, rfl⟩
abbrev main_v461 : Ref sig .tc := ⟨.hbm, 842, rfl⟩
abbrev main_v462 : Ref sig .tc := ⟨.hbm, 843, rfl⟩
abbrev main_v463 : Ref sig .tc := ⟨.hbm, 844, rfl⟩
abbrev main_v464 : Ref sig .tc := ⟨.hbm, 845, rfl⟩
abbrev main_v465 : Ref sig .tc := ⟨.hbm, 846, rfl⟩
abbrev main_v466 : Ref sig .tc := ⟨.hbm, 847, rfl⟩
abbrev main_v467 : Ref sig .tc := ⟨.hbm, 848, rfl⟩
abbrev main_v468 : Ref sig .tc := ⟨.hbm, 849, rfl⟩
abbrev main_call16_cst : Ref sig .tc := ⟨.hbm, 850, rfl⟩
abbrev main_call16_v0 : Ref sig .tc := ⟨.hbm, 851, rfl⟩
abbrev main_v469 : Ref sig .tc := ⟨.hbm, 852, rfl⟩
abbrev main_v470 : Ref sig .tc := ⟨.hbm, 853, rfl⟩
abbrev main_v471 : Ref sig .tc := ⟨.hbm, 854, rfl⟩
abbrev main_v472 : Ref sig .tc := ⟨.hbm, 855, rfl⟩
abbrev main_v473 : Ref sig .tc := ⟨.hbm, 856, rfl⟩
abbrev main_v474 : Ref sig .tc := ⟨.hbm, 857, rfl⟩
abbrev main_cst_77 : Ref sig .tc := ⟨.hbm, 858, rfl⟩
abbrev main_v475 : Ref sig .tc := ⟨.hbm, 859, rfl⟩
abbrev main_cst_78 : Ref sig .tc := ⟨.hbm, 860, rfl⟩
abbrev main_v476 : Ref sig .tc := ⟨.hbm, 861, rfl⟩
abbrev main_v477 : Ref sig .tc := ⟨.hbm, 862, rfl⟩
abbrev main_c_79 : Ref sig .tc := ⟨.hbm, 863, rfl⟩
abbrev main_call17_cst : Ref sig .tc := ⟨.hbm, 864, rfl⟩
abbrev main_call17_v0 : Ref sig .tc := ⟨.hbm, 865, rfl⟩
abbrev main_call17_v1 : Ref sig .tc := ⟨.hbm, 866, rfl⟩
abbrev main_call17_cst_0 : Ref sig .tc := ⟨.hbm, 867, rfl⟩
abbrev main_call17_v2 : Ref sig .tc := ⟨.hbm, 868, rfl⟩
abbrev main_call17_v3 : Ref sig .tc := ⟨.hbm, 869, rfl⟩
abbrev main_call17_v4 : Ref sig .tc := ⟨.hbm, 870, rfl⟩
abbrev main_call17_v5 : Ref sig .tc := ⟨.hbm, 871, rfl⟩
abbrev main_call17_v6 : Ref sig .tc := ⟨.hbm, 872, rfl⟩
abbrev main_call17_v7 : Ref sig .tc := ⟨.hbm, 873, rfl⟩
abbrev main_call17_cst_1 : Ref sig .tc := ⟨.hbm, 874, rfl⟩
abbrev main_call17_v8 : Ref sig .tc := ⟨.hbm, 875, rfl⟩
abbrev main_call17_cst_2 : Ref sig .tc := ⟨.hbm, 876, rfl⟩
abbrev main_call17_v9 : Ref sig .tc := ⟨.hbm, 877, rfl⟩
abbrev main_call17_v10 : Ref sig .tc := ⟨.hbm, 878, rfl⟩
abbrev main_call17_v11 : Ref sig .tc := ⟨.hbm, 879, rfl⟩
abbrev main_call17_cst_3 : Ref sig .tc := ⟨.hbm, 880, rfl⟩
abbrev main_call17_v12 : Ref sig .tc := ⟨.hbm, 881, rfl⟩
abbrev main_call17_cst_4 : Ref sig .tc := ⟨.hbm, 882, rfl⟩
abbrev main_call17_call0_v0 : Ref sig .tc := ⟨.hbm, 883, rfl⟩
abbrev main_call17_call0_v1 : Ref sig .tc := ⟨.hbm, 884, rfl⟩
abbrev main_v478 : Ref sig .tc := ⟨.hbm, 885, rfl⟩
abbrev main_v479 : Ref sig .tc := ⟨.hbm, 886, rfl⟩
abbrev main_v480 : Ref sig .tc := ⟨.hbm, 887, rfl⟩
abbrev main_v481 : Ref sig .tc := ⟨.hbm, 888, rfl⟩
abbrev main_cst_80 : Ref sig .tc := ⟨.hbm, 889, rfl⟩
abbrev main_v482 : Ref sig .tc := ⟨.hbm, 890, rfl⟩
abbrev main_v483 : Ref sig .tc := ⟨.hbm, 891, rfl⟩
abbrev main_v484 : Ref sig .tc := ⟨.hbm, 892, rfl⟩
abbrev main_v485 : Ref sig .tc := ⟨.hbm, 893, rfl⟩
abbrev main_v486 : Ref sig .tc := ⟨.hbm, 894, rfl⟩
abbrev main_v487 : Ref sig .tc := ⟨.hbm, 895, rfl⟩
abbrev main_v488 : Ref sig .tc := ⟨.hbm, 896, rfl⟩
abbrev main_v489 : Ref sig .tc := ⟨.hbm, 897, rfl⟩
abbrev main_v490 : Ref sig .tc := ⟨.hbm, 898, rfl⟩
abbrev main_v491 : Ref sig .tc := ⟨.hbm, 899, rfl⟩
abbrev main_v492 : Ref sig .tc := ⟨.hbm, 900, rfl⟩
abbrev main_v493 : Ref sig .tc := ⟨.hbm, 901, rfl⟩
abbrev main_v494 : Ref sig .tc := ⟨.hbm, 902, rfl⟩
abbrev main_v495 : Ref sig .tc := ⟨.hbm, 903, rfl⟩
abbrev main_v496 : Ref sig .tc := ⟨.hbm, 904, rfl⟩
abbrev main_v497 : Ref sig .tc := ⟨.hbm, 905, rfl⟩
abbrev main_cst_81 : Ref sig .tc := ⟨.hbm, 906, rfl⟩
abbrev main_v498 : Ref sig .tc := ⟨.hbm, 907, rfl⟩
abbrev main_cst_82 : Ref sig .tc := ⟨.hbm, 908, rfl⟩
abbrev main_v499 : Ref sig .tc := ⟨.hbm, 909, rfl⟩
abbrev main_v500 : Ref sig .tc := ⟨.hbm, 910, rfl⟩
abbrev main_c_83 : Ref sig .tc := ⟨.hbm, 911, rfl⟩
abbrev main_call18_cst : Ref sig .tc := ⟨.hbm, 912, rfl⟩
abbrev main_call18_v0 : Ref sig .tc := ⟨.hbm, 913, rfl⟩
abbrev main_call18_v1 : Ref sig .tc := ⟨.hbm, 914, rfl⟩
abbrev main_call18_cst_0 : Ref sig .tc := ⟨.hbm, 915, rfl⟩
abbrev main_call18_v2 : Ref sig .tc := ⟨.hbm, 916, rfl⟩
abbrev main_call18_v3 : Ref sig .tc := ⟨.hbm, 917, rfl⟩
abbrev main_call18_v4 : Ref sig .tc := ⟨.hbm, 918, rfl⟩
abbrev main_call18_v5 : Ref sig .tc := ⟨.hbm, 919, rfl⟩
abbrev main_call18_v6 : Ref sig .tc := ⟨.hbm, 920, rfl⟩
abbrev main_call18_v7 : Ref sig .tc := ⟨.hbm, 921, rfl⟩
abbrev main_call18_cst_1 : Ref sig .tc := ⟨.hbm, 922, rfl⟩
abbrev main_call18_v8 : Ref sig .tc := ⟨.hbm, 923, rfl⟩
abbrev main_call18_cst_2 : Ref sig .tc := ⟨.hbm, 924, rfl⟩
abbrev main_call18_v9 : Ref sig .tc := ⟨.hbm, 925, rfl⟩
abbrev main_call18_v10 : Ref sig .tc := ⟨.hbm, 926, rfl⟩
abbrev main_call18_v11 : Ref sig .tc := ⟨.hbm, 927, rfl⟩
abbrev main_call18_cst_3 : Ref sig .tc := ⟨.hbm, 928, rfl⟩
abbrev main_call18_v12 : Ref sig .tc := ⟨.hbm, 929, rfl⟩
abbrev main_call18_cst_4 : Ref sig .tc := ⟨.hbm, 930, rfl⟩
abbrev main_call18_call0_v0 : Ref sig .tc := ⟨.hbm, 931, rfl⟩
abbrev main_call18_call0_v1 : Ref sig .tc := ⟨.hbm, 932, rfl⟩
abbrev main_v501 : Ref sig .tc := ⟨.hbm, 933, rfl⟩
abbrev main_v502 : Ref sig .tc := ⟨.hbm, 934, rfl⟩
abbrev main_v503 : Ref sig .tc := ⟨.hbm, 935, rfl⟩
abbrev main_v504 : Ref sig .tc := ⟨.hbm, 936, rfl⟩
abbrev main_cst_84 : Ref sig .tc := ⟨.hbm, 937, rfl⟩
abbrev main_v505 : Ref sig .tc := ⟨.hbm, 938, rfl⟩
abbrev main_v506 : Ref sig .tc := ⟨.hbm, 939, rfl⟩
abbrev main_v507 : Ref sig .tc := ⟨.hbm, 940, rfl⟩
abbrev main_v508 : Ref sig .tc := ⟨.hbm, 941, rfl⟩
abbrev main_v509 : Ref sig .tc := ⟨.hbm, 942, rfl⟩
abbrev main_v510 : Ref sig .tc := ⟨.hbm, 943, rfl⟩
abbrev main_v511 : Ref sig .tc := ⟨.hbm, 944, rfl⟩
abbrev main_v512 : Ref sig .tc := ⟨.hbm, 945, rfl⟩
abbrev main_v513 : Ref sig .tc := ⟨.hbm, 946, rfl⟩
abbrev main_v514 : Ref sig .tc := ⟨.hbm, 947, rfl⟩
abbrev main_v515 : Ref sig .tc := ⟨.hbm, 948, rfl⟩
abbrev main_v516 : Ref sig .tc := ⟨.hbm, 949, rfl⟩
abbrev main_cst_85 : Ref sig .tc := ⟨.hbm, 950, rfl⟩
abbrev main_v517 : Ref sig .tc := ⟨.hbm, 951, rfl⟩
abbrev main_cst_86 : Ref sig .tc := ⟨.hbm, 952, rfl⟩
abbrev main_v518 : Ref sig .tc := ⟨.hbm, 953, rfl⟩
abbrev main_v519 : Ref sig .tc := ⟨.hbm, 954, rfl⟩
abbrev main_v520 : Ref sig .tc := ⟨.hbm, 955, rfl⟩
abbrev main_v521 : Ref sig .tc := ⟨.hbm, 956, rfl⟩
abbrev main_v522 : Ref sig .tc := ⟨.hbm, 957, rfl⟩
abbrev main_v523 : Ref sig .tc := ⟨.hbm, 958, rfl⟩
abbrev main_cst_87 : Ref sig .tc := ⟨.hbm, 959, rfl⟩
abbrev main_v524 : Ref sig .tc := ⟨.hbm, 960, rfl⟩
abbrev main_v525 : Ref sig .tc := ⟨.hbm, 961, rfl⟩
abbrev main_v526 : Ref sig .tc := ⟨.hbm, 962, rfl⟩
abbrev main_v527 : Ref sig .tc := ⟨.hbm, 963, rfl⟩
abbrev main_v528 : Ref sig .tc := ⟨.hbm, 964, rfl⟩
abbrev main_v529 : Ref sig .tc := ⟨.hbm, 965, rfl⟩
abbrev main_v530 : Ref sig .tc := ⟨.hbm, 966, rfl⟩
abbrev main_v531 : Ref sig .tc := ⟨.hbm, 967, rfl⟩
abbrev main_v532 : Ref sig .tc := ⟨.hbm, 968, rfl⟩
abbrev main_cst_88 : Ref sig .tc := ⟨.hbm, 969, rfl⟩
abbrev main_v533 : Ref sig .tc := ⟨.hbm, 970, rfl⟩
abbrev main_v534 : Ref sig .tc := ⟨.hbm, 971, rfl⟩
abbrev main_v535 : Ref sig .tc := ⟨.hbm, 972, rfl⟩
abbrev main_v536 : Ref sig .tc := ⟨.hbm, 973, rfl⟩
abbrev main_call19_cst : Ref sig .tc := ⟨.hbm, 974, rfl⟩
abbrev main_call19_v0 : Ref sig .tc := ⟨.hbm, 975, rfl⟩
abbrev main_v537 : Ref sig .tc := ⟨.hbm, 976, rfl⟩
abbrev main_v538 : Ref sig .tc := ⟨.hbm, 977, rfl⟩
abbrev main_cst_89 : Ref sig .tc := ⟨.hbm, 978, rfl⟩
abbrev main_v539 : Ref sig .tc := ⟨.hbm, 979, rfl⟩
abbrev main_v540 : Ref sig .tc := ⟨.hbm, 980, rfl⟩
abbrev main_cst_90 : Ref sig .tc := ⟨.hbm, 981, rfl⟩
abbrev main_v541 : Ref sig .tc := ⟨.hbm, 982, rfl⟩
abbrev main_v542 : Ref sig .tc := ⟨.hbm, 983, rfl⟩
abbrev main_v543 : Ref sig .tc := ⟨.hbm, 984, rfl⟩
abbrev main_cst_91 : Ref sig .tc := ⟨.hbm, 985, rfl⟩
abbrev main_v544 : Ref sig .tc := ⟨.hbm, 986, rfl⟩
abbrev main_v545 : Ref sig .tc := ⟨.hbm, 987, rfl⟩
abbrev main_v546 : Ref sig .tc := ⟨.hbm, 988, rfl⟩
abbrev main_cst_92 : Ref sig .tc := ⟨.hbm, 989, rfl⟩
abbrev main_v547 : Ref sig .tc := ⟨.hbm, 990, rfl⟩
abbrev main_v548 : Ref sig .tc := ⟨.hbm, 991, rfl⟩
abbrev main_v549 : Ref sig .tc := ⟨.hbm, 992, rfl⟩
abbrev main_cst_93 : Ref sig .tc := ⟨.hbm, 993, rfl⟩
abbrev main_v550 : Ref sig .tc := ⟨.hbm, 994, rfl⟩
abbrev main_v551 : Ref sig .tc := ⟨.hbm, 995, rfl⟩
abbrev main_cst_94 : Ref sig .tc := ⟨.hbm, 996, rfl⟩
abbrev main_v552 : Ref sig .tc := ⟨.hbm, 997, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S100000x128_S100000x128_S100000x128_S100000x384_d1 : Shape.Concatenates [S100000x128, S100000x128, S100000x128] S100000x384 1
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  reducesTo_S100000x5_S5_d0 : S100000x5.ReducesTo [0] S5
  bcast_S_S5 : S_.BroadcastsInDim S5 (![] : Fin 0 → Fin S5.rank)
  bcast_S_S1x5 : S_.BroadcastsInDim S1x5 (![] : Fin 0 → Fin S1x5.rank)
  reducesTo_S100000x5_S100000_d1 : S100000x5.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  bcast_S100000x5_S100000x5x1_0_1 : S100000x5.BroadcastsInDim S100000x5x1 (![0, 1] : Fin 2 → Fin S100000x5x1.rank)
  bcast_S100000x128_S100000x1x128_0_2 : S100000x128.BroadcastsInDim S100000x1x128 (![0, 2] : Fin 2 → Fin S100000x1x128.rank)
  bcast_S100000x5x1_S100000x5x128_0_1_2 : S100000x5x1.BroadcastsInDim S100000x5x128 (![0, 1, 2] : Fin 3 → Fin S100000x5x128.rank)
  bcast_S100000x1x128_S100000x5x128_0_1_2 : S100000x1x128.BroadcastsInDim S100000x5x128 (![0, 1, 2] : Fin 3 → Fin S100000x5x128.rank)
  bcast_S_S1000x5x128 : S_.BroadcastsInDim S1000x5x128 (![] : Fin 0 → Fin S1000x5x128.rank)
  shapeCasts_S1000x5x128_S1000x640 : S1000x5x128.ShapeCasts S1000x640
  bcast_S_S1000x640 : S_.BroadcastsInDim S1000x640 (![] : Fin 0 → Fin S1000x640.rank)
  reducesTo_S64x128_S_d0_1 : S64x128.ReducesTo [0, 1] S_
  reducesTo_S3x128x128_S_d0_1_2 : S3x128x128.ReducesTo [0, 1, 2] S_
  reducesTo_S384x128_S_d0_1 : S384x128.ReducesTo [0, 1] S_
  reducesTo_S128x128_S_d0_1 : S128x128.ReducesTo [0, 1] S_
  reducesTo_S128x5_S_d0_1 : S128x5.ReducesTo [0, 1] S_
  dot_S100000x64_S64x128_S100000x128_1_0_0_1_n_n_wf : DotDims.WF S100000x64 S64x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  dot_S100000x384_S384x128_S100000x128_1_0_0_1_n_n_wf : DotDims.WF S100000x384 S384x128 S100000x128 [1] [0] [0] [1] [] []
  dot_S100000x128_S128x5_S100000x5_1_0_0_1_n_n_wf : DotDims.WF S100000x128 S128x5 S100000x5 [1] [0] [0] [1] [] []
  scatter_S1000x5x128_S100000x1_S100000x5x128_12_0_0_1_wf : ScatterDims.WF S1000x5x128 S100000x1 S100000x5x128 [1, 2] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x5_S100000x5_1_0_0_1_n_n : DotDims S100000x128 S128x5 S100000x5 where
  lhsContracting := [1]
  rhsContracting := [0]
  lhsNonContracting := [0]
  rhsNonContracting := [1]
  lhsBatch := []
  rhsBatch := []
  wf := dot_S100000x128_S128x5_S100000x5_1_0_0_1_n_n_wf
def scatter_S1000x5x128_S100000x1_S100000x5x128_12_0_0_1 : ScatterDims S1000x5x128 S100000x1 S100000x5x128 where
  updateWindowDims := [1, 2]
  insertedWindowDims := [0]
  scatterDimsToOperandDims := [0]
  indexVectorDim := 1
  wf := scatter_S1000x5x128_S100000x1_S100000x5x128_12_0_0_1_wf

class Facts : Prop extends Facts₀ where

variable [Facts]
-- ==== Proof.RefRun.lean ====
/- The reference program's @main as the list of its 975 host operations and its run.  @main is printed as
   11 windows run in order; window K's operations are the list opsK, a call of a module-local function
   standing as its callee's operations over the buffer record of that call (a callee's own call likewise), and
   ops is their concatenation, nested to the right: ops0 ++ (ops1 ++ (… ++ ops10)).  Each window IS the
   straight line of its list by computation (a call unfolds to its body, sequencing reassociates, the record's
   fields are the literal buffers); the windows join because a concatenation runs as one list after the other.
   Every operation reads and writes device buffers only and determines what it writes, so the straight-line rule
   applies: every weakly fair execution terminates with each buffer at the fold of the operations' results over
   the launch contents. -/
import proofs.«414479_j7705171329025_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 83 operations of window 0 of @main (main_part0), calls unfolded. -/
abbrev ops0 : List (HloOp τ sig (Elt F)) :=
  [ StableHlo.binary main_arg0 main_arg4 main_v0 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg5 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S100000x128 ![0, 1] bcast_S1x128_S100000x128_0_1 : (⟨S1x128, .f32⟩ : BufTy).Contents (Elt F) → (⟨S100000x128, .f32⟩ : BufTy).Contents (Elt F)),
    StableHlo.binary main_v0 main_v2 main_v3 (addf : (⟨S100000x128, .f32⟩ : BufTy).Contents (Elt F) → (⟨S100000x128, .f32⟩ : BufTy).Contents (Elt F) → (⟨S100000x128, .f32⟩ : BufTy).Contents (Elt F)),
    StableHlo.nullary main_cst (constant S_ .f32 0x00000000#32),
    StableHlo.binary main_v3 main_cst main_v4 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_0 (constant S_ .f32 0x47C35000#32),
    StableHlo.unary main_cst_0 main_v5 (broadcastInDim S128 ![] bcast_S_S128 : (⟨S_, .f32⟩ : BufTy).Contents (Elt F) → (⟨S128, .f32⟩ : BufTy).Contents (Elt F)),
    StableHlo.binary main_v4 main_v5 main_v6 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call0.cst (constant S_ .f32 0x00000000#32),
    StableHlo.TRef.binary (.of main_v3) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v3) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v6 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S100000x128 ![0, 1] bcast_S1x128_S100000x128_0_1 : (⟨S1x128, .f32⟩ : BufTy).Contents (Elt F) → (⟨S100000x128, .f32⟩ : BufTy).Contents (Elt F)),
    StableHlo.binary main_v3 main_v9 main_v10 (subf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x3727C5AC#32),
    StableHlo.unary main_cst_1 main_v11 (broadcastInDim S128 ![] bcast_S_S128 : (⟨S_, .f32⟩ : BufTy).Contents (Elt F) → (⟨S128, .f32⟩ : BufTy).Contents (Elt F)),
    StableHlo.binary main_v7 main_v11 main_v12 (addf : (⟨S128, .f32⟩ : BufTy).Contents (Elt F) → (⟨S128, .f32⟩ : BufTy).Contents (Elt F) → (⟨S128, .f32⟩ : BufTy).Contents (Elt F)),
    StableHlo.unary main_v12 main_v13 (Host.rsqrt : (⟨S128, .f32⟩ : BufTy).Contents (Elt F) → (⟨S128, .f32⟩ : BufTy).Contents (Elt F)),
    StableHlo.unary main_v13 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S100000x128 ![0, 1] bcast_S1x128_S100000x128_0_1 : (⟨S1x128, .f32⟩ : BufTy).Contents (Elt F) → (⟨S100000x128, .f32⟩ : BufTy).Contents (Elt F)),
    StableHlo.binary main_v10 main_v15 main_v16 (mulf : (⟨S100000x128, .f32⟩ : BufTy).Contents (Elt F) → (⟨S100000x128, .f32⟩ : BufTy).Contents (Elt F) → (⟨S100000x128, .f32⟩ : BufTy).Contents (Elt F)),
    StableHlo.unary main_arg6 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S100000x128 ![0, 1] bcast_S1x128_S100000x128_0_1 : (⟨S1x128, .f32⟩ : BufTy).Contents (Elt F) → (⟨S100000x128, .f32⟩ : BufTy).Contents (Elt F)),
    StableHlo.binary main_v16 main_v18 main_v19 (mulf : (⟨S100000x128, .f32⟩ : BufTy).Contents (Elt F) → (⟨S100000x128, .f32⟩ : BufTy).Contents (Elt F) → (⟨S100000x128, .f32⟩ : BufTy).Contents (Elt F)),
    StableHlo.unary main_arg7 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v19 main_v21 main_v22 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v22) main_call1.v0 main_call1.v1 maximumf,
    StableHlo.nullary main_c_2 (constantI S_ 32 0#32),
    StableHlo.unary main_c_2 main_v24 (broadcastInDim S800000 ![] bcast_S_S800000 : (⟨S_, .i32⟩ : BufTy).Contents (Elt F) → (⟨S800000, .i32⟩ : BufTy).Contents (Elt F)),
    StableHlo.binary main_arg1 main_v24 main_v25 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 100000#32),
    StableHlo.unary main_c_3 main_v26 (broadcastInDim S800000 ![] bcast_S_S800000 : (⟨S_, .i32⟩ : BufTy).Contents (Elt F) → (⟨S800000, .i32⟩ : BufTy).Contents (Elt F)),
    StableHlo.binary main_arg1 main_v26 main_v27 (addi : (⟨S800000, .i32⟩ : BufTy).Contents (Elt F) → (⟨S800000, .i32⟩ : BufTy).Contents (Elt F) → (⟨S800000, .i32⟩ : BufTy).Contents (Elt F)),
    StableHlo.ternary main_v25 main_v27 main_arg1 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v28 main_v29 (broadcastInDim S800000x1 ![0] bcast_S800000_S800000x1_0 : (⟨S800000, .i32⟩ : BufTy).Contents (Elt F) → (⟨S800000x1, .i32⟩ : BufTy).Contents (Elt F)),
    StableHlo.binary main_v23 main_v29 main_v30 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v31 (broadcastInDim S100000x128 ![] bcast_S_S100000x128 : (⟨S_, .f32⟩ : BufTy).Contents (Elt F) → (⟨S100000x128, .f32⟩ : BufTy).Contents (Elt F)),
    StableHlo.unary main_arg2 main_v32 (broadcastInDim S800000x1 ![0] bcast_S800000_S800000x1_0 : (⟨S800000, .i32⟩ : BufTy).Contents (Elt F) → (⟨S800000x1, .i32⟩ : BufTy).Contents (Elt F)),
    StableHlo.ternary main_v31 main_v32 main_v30 main_v33 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v33 main_v23 main_v34 (addf : (⟨S100000x128, .f32⟩ : BufTy).Contents (Elt F) → (⟨S100000x128, .f32⟩ : BufTy).Contents (Elt F) → (⟨S100000x128, .f32⟩ : BufTy).Contents (Elt F)),
    StableHlo.unary main_arg8 main_v35 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v35 main_v36 rfl shapeCasts_S1x128x128_S128x128,
    StableHlo.binary main_v34 main_v36 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v38 ((extractStridedSlice S1x128 ![0, 0] · slices_S3x128_S1x128_0_0) : (⟨S3x128, .f32⟩ : BufTy).Contents (Elt F) → (⟨S1x128, .f32⟩ : BufTy).Contents (Elt F)),
    StableHlo.reshape main_v38 main_v39 rfl shapeCasts_S1x128_S128,
    StableHlo.unary main_v39 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v41 main_v42 (addf : (⟨S100000x128, .f32⟩ : BufTy).Contents (Elt F) → (⟨S100000x128, .f32⟩ : BufTy).Contents (Elt F) → (⟨S100000x128, .f32⟩ : BufTy).Contents (Elt F)),
    StableHlo.unary main_arg10 main_v43 ((extractStridedSlice S1x128 ![0, 0] · slices_S3x128_S1x128_0_0) : (⟨S3x128, .f32⟩ : BufTy).Contents (Elt F) → (⟨S1x128, .f32⟩ : BufTy).Contents (Elt F)),
    StableHlo.reshape main_v43 main_v44 rfl shapeCasts_S1x128_S128,
    StableHlo.unary main_arg11 main_v45 ((extractStridedSlice S1x128 ![0, 0] · slices_S3x128_S1x128_0_0) : (⟨S3x128, .f32⟩ : BufTy).Contents (Elt F) → (⟨S1x128, .f32⟩ : BufTy).Contents (Elt F)),
    StableHlo.reshape main_v45 main_v46 rfl shapeCasts_S1x128_S128,
    StableHlo.nullary main_cst_5 (constant S_ .f32 0x00000000#32),
    StableHlo.binary main_v42 main_cst_5 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v48 (broadcastInDim S128 ![] bcast_S_S128 : (⟨S_, .f32⟩ : BufTy).Contents (Elt F) → (⟨S128, .f32⟩ : BufTy).Contents (Elt F)),
    StableHlo.binary main_v47 main_v48 main_v49 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32) ]

/-- The 102 operations of window 1 of @main (main_part1), calls unfolded. -/
abbrev ops1 : List (HloOp τ sig (Elt F)) :=
  [ StableHlo.TRef.nullary main_call2.cst (constant S_ .f32 0x00000000#32),
    StableHlo.TRef.binary (.of main_v42) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v42) main_call2.v4 main_call2.v5 subf,
    StableHlo.TRef.binary main_call2.v5 main_call2.v5 main_call2.v6 mulf,
    StableHlo.TRef.unary (.of main_c_7) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v49 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v52 main_v53 (subf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v54 (broadcastInDim S128 ![] bcast_S_S128 : (⟨S_, .f32⟩ : BufTy).Contents (Elt F) → (⟨S128, .f32⟩ : BufTy).Contents (Elt F)),
    StableHlo.binary main_v50 main_v54 main_v55 (addf : (⟨S128, .f32⟩ : BufTy).Contents (Elt F) → (⟨S128, .f32⟩ : BufTy).Contents (Elt F) → (⟨S128, .f32⟩ : BufTy).Contents (Elt F)),
    StableHlo.unary main_v55 main_v56 (Host.rsqrt : (⟨S128, .f32⟩ : BufTy).Contents (Elt F) → (⟨S128, .f32⟩ : BufTy).Contents (Elt F)),
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v58 main_v59 (mulf : (⟨S100000x128, .f32⟩ : BufTy).Contents (Elt F) → (⟨S100000x128, .f32⟩ : BufTy).Contents (Elt F) → (⟨S100000x128, .f32⟩ : BufTy).Contents (Elt F)),
    StableHlo.unary main_v44 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v61 main_v62 (mulf : (⟨S100000x128, .f32⟩ : BufTy).Contents (Elt F) → (⟨S100000x128, .f32⟩ : BufTy).Contents (Elt F) → (⟨S100000x128, .f32⟩ : BufTy).Contents (Elt F)),
    StableHlo.unary main_v46 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (addf : (⟨S100000x128, .f32⟩ : BufTy).Contents (Elt F) → (⟨S100000x128, .f32⟩ : BufTy).Contents (Elt F) → (⟨S100000x128, .f32⟩ : BufTy).Contents (Elt F)),
    StableHlo.nullary main_c_9 (constantI S_ 32 0#32),
    StableHlo.unary main_c_9 main_v66 (broadcastInDim S800000 ![] bcast_S_S800000 : (⟨S_, .i32⟩ : BufTy).Contents (Elt F) → (⟨S800000, .i32⟩ : BufTy).Contents (Elt F)),
    StableHlo.binary main_arg1 main_v66 main_v67 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 100000#32),
    StableHlo.unary main_c_10 main_v68 (broadcastInDim S800000 ![] bcast_S_S800000 : (⟨S_, .i32⟩ : BufTy).Contents (Elt F) → (⟨S800000, .i32⟩ : BufTy).Contents (Elt F)),
    StableHlo.binary main_arg1 main_v68 main_v69 (addi : (⟨S800000, .i32⟩ : BufTy).Contents (Elt F) → (⟨S800000, .i32⟩ : BufTy).Contents (Elt F) → (⟨S800000, .i32⟩ : BufTy).Contents (Elt F)),
    StableHlo.ternary main_v67 main_v69 main_arg1 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v70 main_v71 (broadcastInDim S800000x1 ![0] bcast_S800000_S800000x1_0 : (⟨S800000, .i32⟩ : BufTy).Contents (Elt F) → (⟨S800000x1, .i32⟩ : BufTy).Contents (Elt F)),
    StableHlo.binary main_v65 main_v71 main_v72 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v73 (broadcastInDim S100000x128 ![] bcast_S_S100000x128 : (⟨S_, .f32⟩ : BufTy).Contents (Elt F) → (⟨S100000x128, .f32⟩ : BufTy).Contents (Elt F)),
    StableHlo.unary main_arg2 main_v74 (broadcastInDim S800000x1 ![0] bcast_S800000_S800000x1_0 : (⟨S800000, .i32⟩ : BufTy).Contents (Elt F) → (⟨S800000x1, .i32⟩ : BufTy).Contents (Elt F)),
    StableHlo.ternary main_v73 main_v74 main_v72 main_v75 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v75 main_v23 main_v76 (addf : (⟨S100000x128, .f32⟩ : BufTy).Contents (Elt F) → (⟨S100000x128, .f32⟩ : BufTy).Contents (Elt F) → (⟨S100000x128, .f32⟩ : BufTy).Contents (Elt F)),
    StableHlo.unary main_arg8 main_v77 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v77 main_v78 rfl shapeCasts_S1x128x128_S128x128,
    StableHlo.binary main_v76 main_v78 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v80 ((extractStridedSlice S1x128 ![1, 0] · slices_S3x128_S1x128_1_0) : (⟨S3x128, .f32⟩ : BufTy).Contents (Elt F) → (⟨S1x128, .f32⟩ : BufTy).Contents (Elt F)),
    StableHlo.reshape main_v80 main_v81 rfl shapeCasts_S1x128_S128,
    StableHlo.unary main_v81 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v83 main_v84 (addf : (⟨S100000x128, .f32⟩ : BufTy).Contents (Elt F) → (⟨S100000x128, .f32⟩ : BufTy).Contents (Elt F) → (⟨S100000x128, .f32⟩ : BufTy).Contents (Elt F)),
    StableHlo.unary main_arg10 main_v85 ((extractStridedSlice S1x128 ![1, 0] · slices_S3x128_S1x128_1_0) : (⟨S3x128, .f32⟩ : BufTy).Contents (Elt F) → (⟨S1x128, .f32⟩ : BufTy).Contents (Elt F)),
    StableHlo.reshape main_v85 main_v86 rfl shapeCasts_S1x128_S128,
    StableHlo.unary main_arg11 main_v87 ((extractStridedSlice S1x128 ![1, 0] · slices_S3x128_S1x128_1_0) : (⟨S3x128, .f32⟩ : BufTy).Contents (Elt F) → (⟨S1x128, .f32⟩ : BufTy).Contents (Elt F)),
    StableHlo.reshape main_v87 main_v88 rfl shapeCasts_S1x128_S128,
    StableHlo.nullary main_cst_12 (constant S_ .f32 0x00000000#32),
    StableHlo.binary main_v84 main_cst_12 main_v89 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_13 (constant S_ .f32 0x47C35000#32),
    StableHlo.unary main_cst_13 main_v90 (broadcastInDim S128 ![] bcast_S_S128 : (⟨S_, .f32⟩ : BufTy).Contents (Elt F) → (⟨S128, .f32⟩ : BufTy).Contents (Elt F)),
    StableHlo.binary main_v89 main_v90 main_v91 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call3.cst (constant S_ .f32 0x00000000#32),
    StableHlo.TRef.binary (.of main_v84) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v84) main_call3.v4 main_call3.v5 subf,
    StableHlo.TRef.binary main_call3.v5 main_call3.v5 main_call3.v6 mulf,
    StableHlo.TRef.unary (.of main_c_14) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v91 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v94 main_v95 (subf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3727C5AC#32),
    StableHlo.unary main_cst_15 main_v96 (broadcastInDim S128 ![] bcast_S_S128 : (⟨S_, .f32⟩ : BufTy).Contents (Elt F) → (⟨S128, .f32⟩ : BufTy).Contents (Elt F)),
    StableHlo.binary main_v92 main_v96 main_v97 (addf : (⟨S128, .f32⟩ : BufTy).Contents (Elt F) → (⟨S128, .f32⟩ : BufTy).Contents (Elt F) → (⟨S128, .f32⟩ : BufTy).Contents (Elt F)),
    StableHlo.unary main_v97 main_v98 (Host.rsqrt : (⟨S128, .f32⟩ : BufTy).Contents (Elt F) → (⟨S128, .f32⟩ : BufTy).Contents (Elt F)),
    StableHlo.unary main_v98 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S100000x128 ![0, 1] bcast_S1x128_S100000x128_0_1 : (⟨S1x128, .f32⟩ : BufTy).Contents (Elt F) → (⟨S100000x128, .f32⟩ : BufTy).Contents (Elt F)),
    StableHlo.binary main_v95 main_v100 main_v101 (mulf : (⟨S100000x128, .f32⟩ : BufTy).Contents (Elt F) → (⟨S100000x128, .f32⟩ : BufTy).Contents (Elt F) → (⟨S100000x128, .f32⟩ : BufTy).Contents (Elt F)) ]

/-- The 81 operations of window 2 of @main (main_part2), calls unfolded. -/
abbrev ops2 : List (HloOp τ sig (Elt F)) :=
  [ StableHlo.unary main_v86 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S100000x128 ![0, 1] bcast_S1x128_S100000x128_0_1 : (⟨S1x128, .f32⟩ : BufTy).Contents (Elt F) → (⟨S100000x128, .f32⟩ : BufTy).Contents (Elt F)),
    StableHlo.binary main_v101 main_v103 main_v104 (mulf : (⟨S100000x128, .f32⟩ : BufTy).Contents (Elt F) → (⟨S100000x128, .f32⟩ : BufTy).Contents (Elt F) → (⟨S100000x128, .f32⟩ : BufTy).Contents (Elt F)),
    StableHlo.unary main_v88 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S100000x128 ![0, 1] bcast_S1x128_S100000x128_0_1 : (⟨S1x128, .f32⟩ : BufTy).Contents (Elt F) → (⟨S100000x128, .f32⟩ : BufTy).Contents (Elt F)),
    StableHlo.binary main_v104 main_v106 main_v107 (addf : (⟨S100000x128, .f32⟩ : BufTy).Contents (Elt F) → (⟨S100000x128, .f32⟩ : BufTy).Contents (Elt F) → (⟨S100000x128, .f32⟩ : BufTy).Contents (Elt F)),
    StableHlo.nullary main_c_16 (constantI S_ 32 0#32),
    StableHlo.unary main_c_16 main_v108 (broadcastInDim S800000 ![] bcast_S_S800000 : (⟨S_, .i32⟩ : BufTy).Contents (Elt F) → (⟨S800000, .i32⟩ : BufTy).Contents (Elt F)),
    StableHlo.binary main_arg1 main_v108 main_v109 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 100000#32),
    StableHlo.unary main_c_17 main_v110 (broadcastInDim S800000 ![] bcast_S_S800000 : (⟨S_, .i32⟩ : BufTy).Contents (Elt F) → (⟨S800000, .i32⟩ : BufTy).Contents (Elt F)),
    StableHlo.binary main_arg1 main_v110 main_v111 (addi : (⟨S800000, .i32⟩ : BufTy).Contents (Elt F) → (⟨S800000, .i32⟩ : BufTy).Contents (Elt F) → (⟨S800000, .i32⟩ : BufTy).Contents (Elt F)),
    StableHlo.ternary main_v109 main_v111 main_arg1 main_v112 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v112 main_v113 (broadcastInDim S800000x1 ![0] bcast_S800000_S800000x1_0 : (⟨S800000, .i32⟩ : BufTy).Contents (Elt F) → (⟨S800000x1, .i32⟩ : BufTy).Contents (Elt F)),
    StableHlo.binary main_v107 main_v113 main_v114 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_18 (constant S_ .f32 0x00000000#32),
    StableHlo.unary main_cst_18 main_v115 (broadcastInDim S100000x128 ![] bcast_S_S100000x128 : (⟨S_, .f32⟩ : BufTy).Contents (Elt F) → (⟨S100000x128, .f32⟩ : BufTy).Contents (Elt F)),
    StableHlo.unary main_arg2 main_v116 (broadcastInDim S800000x1 ![0] bcast_S800000_S800000x1_0 : (⟨S800000, .i32⟩ : BufTy).Contents (Elt F) → (⟨S800000x1, .i32⟩ : BufTy).Contents (Elt F)),
    StableHlo.ternary main_v115 main_v116 main_v114 main_v117 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v117 main_v23 main_v118 (addf : (⟨S100000x128, .f32⟩ : BufTy).Contents (Elt F) → (⟨S100000x128, .f32⟩ : BufTy).Contents (Elt F) → (⟨S100000x128, .f32⟩ : BufTy).Contents (Elt F)),
    StableHlo.unary main_arg8 main_v119 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v119 main_v120 rfl shapeCasts_S1x128x128_S128x128,
    StableHlo.binary main_v118 main_v120 main_v121 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v122 ((extractStridedSlice S1x128 ![2, 0] · slices_S3x128_S1x128_2_0) : (⟨S3x128, .f32⟩ : BufTy).Contents (Elt F) → (⟨S1x128, .f32⟩ : BufTy).Contents (Elt F)),
    StableHlo.reshape main_v122 main_v123 rfl shapeCasts_S1x128_S128,
    StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v125 main_v126 (addf : (⟨S100000x128, .f32⟩ : BufTy).Contents (Elt F) → (⟨S100000x128, .f32⟩ : BufTy).Contents (Elt F) → (⟨S100000x128, .f32⟩ : BufTy).Contents (Elt F)),
    StableHlo.unary main_arg10 main_v127 ((extractStridedSlice S1x128 ![2, 0] · slices_S3x128_S1x128_2_0) : (⟨S3x128, .f32⟩ : BufTy).Contents (Elt F) → (⟨S1x128, .f32⟩ : BufTy).Contents (Elt F)),
    StableHlo.reshape main_v127 main_v128 rfl shapeCasts_S1x128_S128,
    StableHlo.unary main_arg11 main_v129 ((extractStridedSlice S1x128 ![2, 0] · slices_S3x128_S1x128_2_0) : (⟨S3x128, .f32⟩ : BufTy).Contents (Elt F) → (⟨S1x128, .f32⟩ : BufTy).Contents (Elt F)),
    StableHlo.reshape main_v129 main_v130 rfl shapeCasts_S1x128_S128,
    StableHlo.nullary main_cst_19 (constant S_ .f32 0x00000000#32),
    StableHlo.binary main_v126 main_cst_19 main_v131 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_20 (constant S_ .f32 0x47C35000#32),
    StableHlo.unary main_cst_20 main_v132 (broadcastInDim S128 ![] bcast_S_S128 : (⟨S_, .f32⟩ : BufTy).Contents (Elt F) → (⟨S128, .f32⟩ : BufTy).Contents (Elt F)),
    StableHlo.binary main_v131 main_v132 main_v133 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary main_call4.cst (constant S_ .f32 0x00000000#32),
    StableHlo.TRef.binary (.of main_v126) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v126) main_call4.v4 main_call4.v5 subf,
    StableHlo.TRef.binary main_call4.v5 main_call4.v5 main_call4.v6 mulf,
    StableHlo.TRef.unary (.of main_c_21) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v133 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v126 main_v136 main_v137 (subf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x3727C5AC#32),
    StableHlo.unary main_cst_22 main_v138 (broadcastInDim S128 ![] bcast_S_S128 : (⟨S_, .f32⟩ : BufTy).Contents (Elt F) → (⟨S128, .f32⟩ : BufTy).Contents (Elt F)),
    StableHlo.binary main_v134 main_v138 main_v139 (addf : (⟨S128, .f32⟩ : BufTy).Contents (Elt F) → (⟨S128, .f32⟩ : BufTy).Contents (Elt F) → (⟨S128, .f32⟩ : BufTy).Contents (Elt F)),
    StableHlo.unary main_v139 main_v140 (Host.rsqrt : (⟨S128, .f32⟩ : BufTy).Contents (Elt F) → (⟨S128, .f32⟩ : BufTy).Contents (Elt F)),
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v142 main_v143 (mulf : (⟨S100000x128, .f32⟩ : BufTy).Contents (Elt F) → (⟨S100000x128, .f32⟩ : BufTy).Contents (Elt F) → (⟨S100000x128, .f32⟩ : BufTy).Contents (Elt F)),
    StableHlo.unary main_v128 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S100000x128 ![0, 1] bcast_S1x128_S100000x128_0_1 : (⟨S1x128, .f32⟩ : BufTy).Contents (Elt F) → (⟨S100000x128, .f32⟩ : BufTy).Contents (Elt F)),
    StableHlo.binary main_v143 main_v145 main_v146 (mulf : (⟨S100000x128, .f32⟩ : BufTy).Contents (Elt F) → (⟨S100000x128, .f32⟩ : BufTy).Contents (Elt F) → (⟨S100000x128, .f32⟩ : BufTy).Contents (Elt F)),
    StableHlo.unary main_v130 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S100000x128 ![0, 1] bcast_S1x128_S100000x128_0_1 : (⟨S1x128, .f32⟩ : BufTy).Contents (Elt F) → (⟨S100000x128, .f32⟩ : BufTy).Contents (Elt F)),
    StableHlo.binary main_v146 main_v148 main_v149 (addf : (⟨S100000x128, .f32⟩ : BufTy).Contents (Elt F) → (⟨S100000x128, .f32⟩ : BufTy).Contents (Elt F) → (⟨S100000x128, .f32⟩ : BufTy).Contents (Elt F)),
    StableHlo.nary ![main_v65, main_v107, main_v149] main_v150 (fun u => concatenate S100000x384 1 [⟨S100000x128, u 0⟩, ⟨S100000x128, u 1⟩, ⟨S100000x128, u 2⟩] concatenates_S100000x128_S100000x128_S100000x128_S100000x384_d1),
    StableHlo.binary main_v150 main_arg12 main_v151 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)),
    StableHlo.nullary main_cst_23 (constant S_ .f32 0x00000000#32),
    StableHlo.binary main_v151 main_cst_23 main_v152 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_24 (constant S_ .f32 0x47C35000#32) ]

/-- The 104 operations of window 3 of @main (main_part3), calls unfolded. -/
abbrev ops3 : List (HloOp τ sig (Elt F)) :=
  [ StableHlo.unary main_cst_24 main_v153 (broadcastInDim S128 ![] bcast_S_S128 : (⟨S_, .f32⟩ : BufTy).Contents (Elt F) → (⟨S128, .f32⟩ : BufTy).Contents (Elt F)),
    StableHlo.binary main_v152 main_v153 main_v154 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call5.cst (constant S_ .f32 0x00000000#32),
    StableHlo.TRef.binary (.of main_v151) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v151) main_call5.v4 main_call5.v5 subf,
    StableHlo.TRef.binary main_call5.v5 main_call5.v5 main_call5.v6 mulf,
    StableHlo.TRef.unary (.of main_c_25) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v154 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v157 main_v158 (subf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x3727C5AC#32),
    StableHlo.unary main_cst_26 main_v159 (broadcastInDim S128 ![] bcast_S_S128 : (⟨S_, .f32⟩ : BufTy).Contents (Elt F) → (⟨S128, .f32⟩ : BufTy).Contents (Elt F)),
    StableHlo.binary main_v155 main_v159 main_v160 (addf : (⟨S128, .f32⟩ : BufTy).Contents (Elt F) → (⟨S128, .f32⟩ : BufTy).Contents (Elt F) → (⟨S128, .f32⟩ : BufTy).Contents (Elt F)),
    StableHlo.unary main_v160 main_v161 (Host.rsqrt : (⟨S128, .f32⟩ : BufTy).Contents (Elt F) → (⟨S128, .f32⟩ : BufTy).Contents (Elt F)),
    StableHlo.unary main_v161 main_v162 (broadcastInDim S1x128 ![1] bcast_S128_S1x128_1 : (⟨S128, .f32⟩ : BufTy).Contents (Elt F) → (⟨S1x128, .f32⟩ : BufTy).Contents (Elt F)),
    StableHlo.unary main_v162 main_v163 (broadcastInDim S100000x128 ![0, 1] bcast_S1x128_S100000x128_0_1 : (⟨S1x128, .f32⟩ : BufTy).Contents (Elt F) → (⟨S100000x128, .f32⟩ : BufTy).Contents (Elt F)),
    StableHlo.binary main_v158 main_v163 main_v164 (mulf : (⟨S100000x128, .f32⟩ : BufTy).Contents (Elt F) → (⟨S100000x128, .f32⟩ : BufTy).Contents (Elt F) → (⟨S100000x128, .f32⟩ : BufTy).Contents (Elt F)),
    StableHlo.unary main_arg13 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S100000x128 ![0, 1] bcast_S1x128_S100000x128_0_1 : (⟨S1x128, .f32⟩ : BufTy).Contents (Elt F) → (⟨S100000x128, .f32⟩ : BufTy).Contents (Elt F)),
    StableHlo.binary main_v164 main_v166 main_v167 (mulf : (⟨S100000x128, .f32⟩ : BufTy).Contents (Elt F) → (⟨S100000x128, .f32⟩ : BufTy).Contents (Elt F) → (⟨S100000x128, .f32⟩ : BufTy).Contents (Elt F)),
    StableHlo.unary main_arg14 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S100000x128 ![0, 1] bcast_S1x128_S100000x128_0_1 : (⟨S1x128, .f32⟩ : BufTy).Contents (Elt F) → (⟨S100000x128, .f32⟩ : BufTy).Contents (Elt F)),
    StableHlo.binary main_v167 main_v169 main_v170 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v170) main_call6.v0 main_call6.v1 maximumf,
    StableHlo.binary main_v171 main_v23 main_v172 (addf : (⟨S100000x128, .f32⟩ : BufTy).Contents (Elt F) → (⟨S100000x128, .f32⟩ : BufTy).Contents (Elt F) → (⟨S100000x128, .f32⟩ : BufTy).Contents (Elt F)),
    StableHlo.nullary main_c_27 (constantI S_ 32 0#32),
    StableHlo.unary main_c_27 main_v173 (broadcastInDim S800000 ![] bcast_S_S800000 : (⟨S_, .i32⟩ : BufTy).Contents (Elt F) → (⟨S800000, .i32⟩ : BufTy).Contents (Elt F)),
    StableHlo.binary main_arg1 main_v173 main_v174 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 100000#32),
    StableHlo.unary main_c_28 main_v175 (broadcastInDim S800000 ![] bcast_S_S800000 : (⟨S_, .i32⟩ : BufTy).Contents (Elt F) → (⟨S800000, .i32⟩ : BufTy).Contents (Elt F)),
    StableHlo.binary main_arg1 main_v175 main_v176 (addi : (⟨S800000, .i32⟩ : BufTy).Contents (Elt F) → (⟨S800000, .i32⟩ : BufTy).Contents (Elt F) → (⟨S800000, .i32⟩ : BufTy).Contents (Elt F)),
    StableHlo.ternary main_v174 main_v176 main_arg1 main_v177 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v177 main_v178 (broadcastInDim S800000x1 ![0] bcast_S800000_S800000x1_0 : (⟨S800000, .i32⟩ : BufTy).Contents (Elt F) → (⟨S800000x1, .i32⟩ : BufTy).Contents (Elt F)),
    StableHlo.binary main_v172 main_v178 main_v179 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_29 (constant S_ .f32 0x00000000#32),
    StableHlo.unary main_cst_29 main_v180 (broadcastInDim S100000x128 ![] bcast_S_S100000x128 : (⟨S_, .f32⟩ : BufTy).Contents (Elt F) → (⟨S100000x128, .f32⟩ : BufTy).Contents (Elt F)),
    StableHlo.unary main_arg2 main_v181 (broadcastInDim S800000x1 ![0] bcast_S800000_S800000x1_0 : (⟨S800000, .i32⟩ : BufTy).Contents (Elt F) → (⟨S800000x1, .i32⟩ : BufTy).Contents (Elt F)),
    StableHlo.ternary main_v180 main_v181 main_v179 main_v182 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v182 main_v172 main_v183 (addf : (⟨S100000x128, .f32⟩ : BufTy).Contents (Elt F) → (⟨S100000x128, .f32⟩ : BufTy).Contents (Elt F) → (⟨S100000x128, .f32⟩ : BufTy).Contents (Elt F)),
    StableHlo.unary main_arg8 main_v184 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v184 main_v185 rfl shapeCasts_S1x128x128_S128x128,
    StableHlo.binary main_v183 main_v185 main_v186 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v187 ((extractStridedSlice S1x128 ![0, 0] · slices_S3x128_S1x128_0_0) : (⟨S3x128, .f32⟩ : BufTy).Contents (Elt F) → (⟨S1x128, .f32⟩ : BufTy).Contents (Elt F)),
    StableHlo.reshape main_v187 main_v188 rfl shapeCasts_S1x128_S128,
    StableHlo.unary main_v188 main_v189 (broadcastInDim S1x128 ![1] bcast_S128_S1x128_1 : (⟨S128, .f32⟩ : BufTy).Contents (Elt F) → (⟨S1x128, .f32⟩ : BufTy).Contents (Elt F)),
    StableHlo.unary main_v189 main_v190 (broadcastInDim S100000x128 ![0, 1] bcast_S1x128_S100000x128_0_1 : (⟨S1x128, .f32⟩ : BufTy).Contents (Elt F) → (⟨S100000x128, .f32⟩ : BufTy).Contents (Elt F)),
    StableHlo.binary main_v186 main_v190 main_v191 (addf : (⟨S100000x128, .f32⟩ : BufTy).Contents (Elt F) → (⟨S100000x128, .f32⟩ : BufTy).Contents (Elt F) → (⟨S100000x128, .f32⟩ : BufTy).Contents (Elt F)),
    StableHlo.unary main_arg10 main_v192 ((extractStridedSlice S1x128 ![0, 0] · slices_S3x128_S1x128_0_0) : (⟨S3x128, .f32⟩ : BufTy).Contents (Elt F) → (⟨S1x128, .f32⟩ : BufTy).Contents (Elt F)),
    StableHlo.reshape main_v192 main_v193 rfl shapeCasts_S1x128_S128,
    StableHlo.unary main_arg11 main_v194 ((extractStridedSlice S1x128 ![0, 0] · slices_S3x128_S1x128_0_0) : (⟨S3x128, .f32⟩ : BufTy).Contents (Elt F) → (⟨S1x128, .f32⟩ : BufTy).Contents (Elt F)),
    StableHlo.reshape main_v194 main_v195 rfl shapeCasts_S1x128_S128,
    StableHlo.nullary main_cst_30 (constant S_ .f32 0x00000000#32),
    StableHlo.binary main_v191 main_cst_30 main_v196 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_31 (constant S_ .f32 0x47C35000#32),
    StableHlo.unary main_cst_31 main_v197 (broadcastInDim S128 ![] bcast_S_S128 : (⟨S_, .f32⟩ : BufTy).Contents (Elt F) → (⟨S128, .f32⟩ : BufTy).Contents (Elt F)),
    StableHlo.binary main_v196 main_v197 main_v198 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call7.cst (constant S_ .f32 0x00000000#32),
    StableHlo.TRef.binary (.of main_v191) main_call7.cst main_call7.v0 (fun x v => Host.reduceAdd x v reducesTo_S100000x128_S128_d0 h_S_),
    StableHlo.TRef.unary main_call7.v0 main_call7.v1 (broadcastInDim S1x128 ![1] bcast_S128_S1x128_1),
    StableHlo.TRef.nullary main_call7.cst_0 (constant S_ .f32 0x47C35000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S100000x128 ![0, 1] bcast_S1x128_S100000x128_0_1),
    StableHlo.TRef.binary (.of main_v191) main_call7.v4 main_call7.v5 subf,
    StableHlo.TRef.binary main_call7.v5 main_call7.v5 main_call7.v6 mulf,
    StableHlo.TRef.unary (.of main_c_32) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b),
    StableHlo.unary main_v198 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S100000x128 ![0, 1] bcast_S1x128_S100000x128_0_1 : (⟨S1x128, .f32⟩ : BufTy).Contents (Elt F) → (⟨S100000x128, .f32⟩ : BufTy).Contents (Elt F)),
    StableHlo.binary main_v191 main_v201 main_v202 (subf : (⟨S100000x128, .f32⟩ : BufTy).Contents (Elt F) → (⟨S100000x128, .f32⟩ : BufTy).Contents (Elt F) → (⟨S100000x128, .f32⟩ : BufTy).Contents (Elt F)),
    StableHlo.nullary main_cst_33 (constant S_ .f32 0x3727C5AC#32),
    StableHlo.unary main_cst_33 main_v203 (broadcastInDim S128 ![] bcast_S_S128 : (⟨S_, .f32⟩ : BufTy).Contents (Elt F) → (⟨S128, .f32⟩ : BufTy).Contents (Elt F)) ]

/-- The 81 operations of window 4 of @main (main_part4), calls unfolded. -/
abbrev ops4 : List (HloOp τ sig (Elt F)) :=
  [ StableHlo.binary main_v199 main_v203 main_v204 (addf : (⟨S128, .f32⟩ : BufTy).Contents (Elt F) → (⟨S128, .f32⟩ : BufTy).Contents (Elt F) → (⟨S128, .f32⟩ : BufTy).Contents (Elt F)),
    StableHlo.unary main_v204 main_v205 (Host.rsqrt : (⟨S128, .f32⟩ : BufTy).Contents (Elt F) → (⟨S128, .f32⟩ : BufTy).Contents (Elt F)),
    StableHlo.unary main_v205 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S100000x128 ![0, 1] bcast_S1x128_S100000x128_0_1 : (⟨S1x128, .f32⟩ : BufTy).Contents (Elt F) → (⟨S100000x128, .f32⟩ : BufTy).Contents (Elt F)),
    StableHlo.binary main_v202 main_v207 main_v208 (mulf : (⟨S100000x128, .f32⟩ : BufTy).Contents (Elt F) → (⟨S100000x128, .f32⟩ : BufTy).Contents (Elt F) → (⟨S100000x128, .f32⟩ : BufTy).Contents (Elt F)),
    StableHlo.unary main_v193 main_v209 (broadcastInDim S1x128 ![1] bcast_S128_S1x128_1 : (⟨S128, .f32⟩ : BufTy).Contents (Elt F) → (⟨S1x128, .f32⟩ : BufTy).Contents (Elt F)),
    StableHlo.unary main_v209 main_v210 (broadcastInDim S100000x128 ![0, 1] bcast_S1x128_S100000x128_0_1 : (⟨S1x128, .f32⟩ : BufTy).Contents (Elt F) → (⟨S100000x128, .f32⟩ : BufTy).Contents (Elt F)),
    StableHlo.binary main_v208 main_v210 main_v211 (mulf : (⟨S100000x128, .f32⟩ : BufTy).Contents (Elt F) → (⟨S100000x128, .f32⟩ : BufTy).Contents (Elt F) → (⟨S100000x128, .f32⟩ : BufTy).Contents (Elt F)),
    StableHlo.unary main_v195 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S100000x128 ![0, 1] bcast_S1x128_S100000x128_0_1 : (⟨S1x128, .f32⟩ : BufTy).Contents (Elt F) → (⟨S100000x128, .f32⟩ : BufTy).Contents (Elt F)),
    StableHlo.binary main_v211 main_v213 main_v214 (addf : (⟨S100000x128, .f32⟩ : BufTy).Contents (Elt F) → (⟨S100000x128, .f32⟩ : BufTy).Contents (Elt F) → (⟨S100000x128, .f32⟩ : BufTy).Contents (Elt F)),
    StableHlo.nullary main_c_34 (constantI S_ 32 0#32),
    StableHlo.unary main_c_34 main_v215 (broadcastInDim S800000 ![] bcast_S_S800000 : (⟨S_, .i32⟩ : BufTy).Contents (Elt F) → (⟨S800000, .i32⟩ : BufTy).Contents (Elt F)),
    StableHlo.binary main_arg1 main_v215 main_v216 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 100000#32),
    StableHlo.unary main_c_35 main_v217 (broadcastInDim S800000 ![] bcast_S_S800000 : (⟨S_, .i32⟩ : BufTy).Contents (Elt F) → (⟨S800000, .i32⟩ : BufTy).Contents (Elt F)),
    StableHlo.binary main_arg1 main_v217 main_v218 (addi : (⟨S800000, .i32⟩ : BufTy).Contents (Elt F) → (⟨S800000, .i32⟩ : BufTy).Contents (Elt F) → (⟨S800000, .i32⟩ : BufTy).Contents (Elt F)),
    StableHlo.ternary main_v216 main_v218 main_arg1 main_v219 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v219 main_v220 (broadcastInDim S800000x1 ![0] bcast_S800000_S800000x1_0 : (⟨S800000, .i32⟩ : BufTy).Contents (Elt F) → (⟨S800000x1, .i32⟩ : BufTy).Contents (Elt F)),
    StableHlo.binary main_v214 main_v220 main_v221 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_36 (constant S_ .f32 0x00000000#32),
    StableHlo.unary main_cst_36 main_v222 (broadcastInDim S100000x128 ![] bcast_S_S100000x128 : (⟨S_, .f32⟩ : BufTy).Contents (Elt F) → (⟨S100000x128, .f32⟩ : BufTy).Contents (Elt F)),
    StableHlo.unary main_arg2 main_v223 (broadcastInDim S800000x1 ![0] bcast_S800000_S800000x1_0 : (⟨S800000, .i32⟩ : BufTy).Contents (Elt F) → (⟨S800000x1, .i32⟩ : BufTy).Contents (Elt F)),
    StableHlo.ternary main_v222 main_v223 main_v221 main_v224 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v224 main_v172 main_v225 (addf : (⟨S100000x128, .f32⟩ : BufTy).Contents (Elt F) → (⟨S100000x128, .f32⟩ : BufTy).Contents (Elt F) → (⟨S100000x128, .f32⟩ : BufTy).Contents (Elt F)),
    StableHlo.unary main_arg8 main_v226 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v226 main_v227 rfl shapeCasts_S1x128x128_S128x128,
    StableHlo.binary main_v225 main_v227 main_v228 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v229 ((extractStridedSlice S1x128 ![1, 0] · slices_S3x128_S1x128_1_0) : (⟨S3x128, .f32⟩ : BufTy).Contents (Elt F) → (⟨S1x128, .f32⟩ : BufTy).Contents (Elt F)),
    StableHlo.reshape main_v229 main_v230 rfl shapeCasts_S1x128_S128,
    StableHlo.unary main_v230 main_v231 (broadcastInDim S1x128 ![1] bcast_S128_S1x128_1 : (⟨S128, .f32⟩ : BufTy).Contents (Elt F) → (⟨S1x128, .f32⟩ : BufTy).Contents (Elt F)),
    StableHlo.unary main_v231 main_v232 (broadcastInDim S100000x128 ![0, 1] bcast_S1x128_S100000x128_0_1 : (⟨S1x128, .f32⟩ : BufTy).Contents (Elt F) → (⟨S100000x128, .f32⟩ : BufTy).Contents (Elt F)),
    StableHlo.binary main_v228 main_v232 main_v233 (addf : (⟨S100000x128, .f32⟩ : BufTy).Contents (Elt F) → (⟨S100000x128, .f32⟩ : BufTy).Contents (Elt F) → (⟨S100000x128, .f32⟩ : BufTy).Contents (Elt F)),
    StableHlo.unary main_arg10 main_v234 ((extractStridedSlice S1x128 ![1, 0] · slices_S3x128_S1x128_1_0) : (⟨S3x128, .f32⟩ : BufTy).Contents (Elt F) → (⟨S1x128, .f32⟩ : BufTy).Contents (Elt F)),
    StableHlo.reshape main_v234 main_v235 rfl shapeCasts_S1x128_S128,
    StableHlo.unary main_arg11 main_v236 ((extractStridedSlice S1x128 ![1, 0] · slices_S3x128_S1x128_1_0) : (⟨S3x128, .f32⟩ : BufTy).Contents (Elt F) → (⟨S1x128, .f32⟩ : BufTy).Contents (Elt F)),
    StableHlo.reshape main_v236 main_v237 rfl shapeCasts_S1x128_S128,
    StableHlo.nullary main_cst_37 (constant S_ .f32 0x00000000#32),
    StableHlo.binary main_v233 main_cst_37 main_v238 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_38 (constant S_ .f32 0x47C35000#32),
    StableHlo.unary main_cst_38 main_v239 (broadcastInDim S128 ![] bcast_S_S128 : (⟨S_, .f32⟩ : BufTy).Contents (Elt F) → (⟨S128, .f32⟩ : BufTy).Contents (Elt F)),
    StableHlo.binary main_v238 main_v239 main_v240 (Host.divf : (⟨S128, .f32⟩ : BufTy).Contents (Elt F) → (⟨S128, .f32⟩ : BufTy).Contents (Elt F) → (⟨S128, .f32⟩ : BufTy).Contents (Elt F)),
    StableHlo.nullary main_c_39 (constantI S_ 32 0#32),
    StableHlo.TRef.nullary main_call8.cst (constant S_ .f32 0x00000000#32),
    StableHlo.TRef.binary (.of main_v233) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v233) main_call8.v4 main_call8.v5 subf,
    StableHlo.TRef.binary main_call8.v5 main_call8.v5 main_call8.v6 mulf,
    StableHlo.TRef.unary (.of main_c_39) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v240 main_v242 (broadcastInDim S1x128 ![1] bcast_S128_S1x128_1 : (⟨S128, .f32⟩ : BufTy).Contents (Elt F) → (⟨S1x128, .f32⟩ : BufTy).Contents (Elt F)),
    StableHlo.unary main_v242 main_v243 (broadcastInDim S100000x128 ![0, 1] bcast_S1x128_S100000x128_0_1 : (⟨S1x128, .f32⟩ : BufTy).Contents (Elt F) → (⟨S100000x128, .f32⟩ : BufTy).Contents (Elt F)),
    StableHlo.binary main_v233 main_v243 main_v244 (subf : (⟨S100000x128, .f32⟩ : BufTy).Contents (Elt F) → (⟨S100000x128, .f32⟩ : BufTy).Contents (Elt F) → (⟨S100000x128, .f32⟩ : BufTy).Contents (Elt F)),
    StableHlo.nullary main_cst_40 (constant S_ .f32 0x3727C5AC#32),
    StableHlo.unary main_cst_40 main_v245 (broadcastInDim S128 ![] bcast_S_S128 : (⟨S_, .f32⟩ : BufTy).Contents (Elt F) → (⟨S128, .f32⟩ : BufTy).Contents (Elt F)),
    StableHlo.binary main_v241 main_v245 main_v246 (addf : (⟨S128, .f32⟩ : BufTy).Contents (Elt F) → (⟨S128, .f32⟩ : BufTy).Contents (Elt F) → (⟨S128, .f32⟩ : BufTy).Contents (Elt F)),
    StableHlo.unary main_v246 main_v247 (Host.rsqrt : (⟨S128, .f32⟩ : BufTy).Contents (Elt F) → (⟨S128, .f32⟩ : BufTy).Contents (Elt F)),
    StableHlo.unary main_v247 main_v248 (broadcastInDim S1x128 ![1] bcast_S128_S1x128_1 : (⟨S128, .f32⟩ : BufTy).Contents (Elt F) → (⟨S1x128, .f32⟩ : BufTy).Contents (Elt F)),
    StableHlo.unary main_v248 main_v249 (broadcastInDim S100000x128 ![0, 1] bcast_S1x128_S100000x128_0_1 : (⟨S1x128, .f32⟩ : BufTy).Contents (Elt F) → (⟨S100000x128, .f32⟩ : BufTy).Contents (Elt F)),
    StableHlo.binary main_v244 main_v249 main_v250 (mulf : (⟨S100000x128, .f32⟩ : BufTy).Contents (Elt F) → (⟨S100000x128, .f32⟩ : BufTy).Contents (Elt F) → (⟨S100000x128, .f32⟩ : BufTy).Contents (Elt F)),
    StableHlo.unary main_v235 main_v251 (broadcastInDim S1x128 ![1] bcast_S128_S1x128_1 : (⟨S128, .f32⟩ : BufTy).Contents (Elt F) → (⟨S1x128, .f32⟩ : BufTy).Contents (Elt F)),
    StableHlo.unary main_v251 main_v252 (broadcastInDim S100000x128 ![0, 1] bcast_S1x128_S100000x128_0_1 : (⟨S1x128, .f32⟩ : BufTy).Contents (Elt F) → (⟨S100000x128, .f32⟩ : BufTy).Contents (Elt F)),
    StableHlo.binary main_v250 main_v252 main_v253 (mulf : (⟨S100000x128, .f32⟩ : BufTy).Contents (Elt F) → (⟨S100000x128, .f32⟩ : BufTy).Contents (Elt F) → (⟨S100000x128, .f32⟩ : BufTy).Contents (Elt F)),
    StableHlo.unary main_v237 main_v254 (broadcastInDim S1x128 ![1] bcast_S128_S1x128_1 : (⟨S128, .f32⟩ : BufTy).Contents (Elt F) → (⟨S1x128, .f32⟩ : BufTy).Contents (Elt F)),
    StableHlo.unary main_v254 main_v255 (broadcastInDim S100000x128 ![0, 1] bcast_S1x128_S100000x128_0_1 : (⟨S1x128, .f32⟩ : BufTy).Contents (Elt F) → (⟨S100000x128, .f32⟩ : BufTy).Contents (Elt F)),
    StableHlo.binary main_v253 main_v255 main_v256 (addf : (⟨S100000x128, .f32⟩ : BufTy).Contents (Elt F) → (⟨S100000x128, .f32⟩ : BufTy).Contents (Elt F) → (⟨S100000x128, .f32⟩ : BufTy).Contents (Elt F)) ]

/-- The 102 operations of window 5 of @main (main_part5), calls unfolded. -/
abbrev ops5 : List (HloOp τ sig (Elt F)) :=
  [ StableHlo.nullary main_c_41 (constantI S_ 32 0#32),
    StableHlo.unary main_c_41 main_v257 (broadcastInDim S800000 ![] bcast_S_S800000 : (⟨S_, .i32⟩ : BufTy).Contents (Elt F) → (⟨S800000, .i32⟩ : BufTy).Contents (Elt F)),
    StableHlo.binary main_arg1 main_v257 main_v258 (cmpi .slt : (⟨S800000, .i32⟩ : BufTy).Contents (Elt F) → (⟨S800000, .i32⟩ : BufTy).Contents (Elt F) → (⟨S800000, .i1⟩ : BufTy).Contents (Elt F)),
    StableHlo.nullary main_c_42 (constantI S_ 32 100000#32),
    StableHlo.unary main_c_42 main_v259 (broadcastInDim S800000 ![] bcast_S_S800000 : (⟨S_, .i32⟩ : BufTy).Contents (Elt F) → (⟨S800000, .i32⟩ : BufTy).Contents (Elt F)),
    StableHlo.binary main_arg1 main_v259 main_v260 (addi : (⟨S800000, .i32⟩ : BufTy).Contents (Elt F) → (⟨S800000, .i32⟩ : BufTy).Contents (Elt F) → (⟨S800000, .i32⟩ : BufTy).Contents (Elt F)),
    StableHlo.ternary main_v258 main_v260 main_arg1 main_v261 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v261 main_v262 (broadcastInDim S800000x1 ![0] bcast_S800000_S800000x1_0 : (⟨S800000, .i32⟩ : BufTy).Contents (Elt F) → (⟨S800000x1, .i32⟩ : BufTy).Contents (Elt F)),
    StableHlo.binary main_v256 main_v262 main_v263 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_43 (constant S_ .f32 0x00000000#32),
    StableHlo.unary main_cst_43 main_v264 (broadcastInDim S100000x128 ![] bcast_S_S100000x128 : (⟨S_, .f32⟩ : BufTy).Contents (Elt F) → (⟨S100000x128, .f32⟩ : BufTy).Contents (Elt F)),
    StableHlo.unary main_arg2 main_v265 (broadcastInDim S800000x1 ![0] bcast_S800000_S800000x1_0 : (⟨S800000, .i32⟩ : BufTy).Contents (Elt F) → (⟨S800000x1, .i32⟩ : BufTy).Contents (Elt F)),
    StableHlo.ternary main_v264 main_v265 main_v263 main_v266 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v266 main_v172 main_v267 (addf : (⟨S100000x128, .f32⟩ : BufTy).Contents (Elt F) → (⟨S100000x128, .f32⟩ : BufTy).Contents (Elt F) → (⟨S100000x128, .f32⟩ : BufTy).Contents (Elt F)),
    StableHlo.unary main_arg8 main_v268 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v268 main_v269 rfl shapeCasts_S1x128x128_S128x128,
    StableHlo.binary main_v267 main_v269 main_v270 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v271 ((extractStridedSlice S1x128 ![2, 0] · slices_S3x128_S1x128_2_0) : (⟨S3x128, .f32⟩ : BufTy).Contents (Elt F) → (⟨S1x128, .f32⟩ : BufTy).Contents (Elt F)),
    StableHlo.reshape main_v271 main_v272 rfl shapeCasts_S1x128_S128,
    StableHlo.unary main_v272 main_v273 (broadcastInDim S1x128 ![1] bcast_S128_S1x128_1 : (⟨S128, .f32⟩ : BufTy).Contents (Elt F) → (⟨S1x128, .f32⟩ : BufTy).Contents (Elt F)),
    StableHlo.unary main_v273 main_v274 (broadcastInDim S100000x128 ![0, 1] bcast_S1x128_S100000x128_0_1 : (⟨S1x128, .f32⟩ : BufTy).Contents (Elt F) → (⟨S100000x128, .f32⟩ : BufTy).Contents (Elt F)),
    StableHlo.binary main_v270 main_v274 main_v275 (addf : (⟨S100000x128, .f32⟩ : BufTy).Contents (Elt F) → (⟨S100000x128, .f32⟩ : BufTy).Contents (Elt F) → (⟨S100000x128, .f32⟩ : BufTy).Contents (Elt F)),
    StableHlo.unary main_arg10 main_v276 ((extractStridedSlice S1x128 ![2, 0] · slices_S3x128_S1x128_2_0) : (⟨S3x128, .f32⟩ : BufTy).Contents (Elt F) → (⟨S1x128, .f32⟩ : BufTy).Contents (Elt F)),
    StableHlo.reshape main_v276 main_v277 rfl shapeCasts_S1x128_S128,
    StableHlo.unary main_arg11 main_v278 ((extractStridedSlice S1x128 ![2, 0] · slices_S3x128_S1x128_2_0) : (⟨S3x128, .f32⟩ : BufTy).Contents (Elt F) → (⟨S1x128, .f32⟩ : BufTy).Contents (Elt F)),
    StableHlo.reshape main_v278 main_v279 rfl shapeCasts_S1x128_S128,
    StableHlo.nullary main_cst_44 (constant S_ .f32 0x00000000#32),
    StableHlo.binary main_v275 main_cst_44 main_v280 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_45 (constant S_ .f32 0x47C35000#32),
    StableHlo.unary main_cst_45 main_v281 (broadcastInDim S128 ![] bcast_S_S128 : (⟨S_, .f32⟩ : BufTy).Contents (Elt F) → (⟨S128, .f32⟩ : BufTy).Contents (Elt F)),
    StableHlo.binary main_v280 main_v281 main_v282 (Host.divf : (⟨S128, .f32⟩ : BufTy).Contents (Elt F) → (⟨S128, .f32⟩ : BufTy).Contents (Elt F) → (⟨S128, .f32⟩ : BufTy).Contents (Elt F)),
    StableHlo.nullary main_c_46 (constantI S_ 32 0#32),
    StableHlo.TRef.nullary main_call9.cst (constant S_ .f32 0x00000000#32),
    StableHlo.TRef.binary (.of main_v275) main_call9.cst main_call9.v0 (fun x v => Host.reduceAdd x v reducesTo_S100000x128_S128_d0 h_S_),
    StableHlo.TRef.unary main_call9.v0 main_call9.v1 (broadcastInDim S1x128 ![1] bcast_S128_S1x128_1),
    StableHlo.TRef.nullary main_call9.cst_0 (constant S_ .f32 0x47C35000#32),
    StableHlo.TRef.unary main_call9.cst_0 main_call9.v2 (broadcastInDim S1x128 ![] bcast_S_S1x128),
    StableHlo.TRef.binary main_call9.v1 main_call9.v2 main_call9.v3 Host.divf,
    StableHlo.TRef.unary main_call9.v3 main_call9.v4 (broadcastInDim S100000x128 ![0, 1] bcast_S1x128_S100000x128_0_1),
    StableHlo.TRef.binary (.of main_v275) main_call9.v4 main_call9.v5 subf,
    StableHlo.TRef.binary main_call9.v5 main_call9.v5 main_call9.v6 mulf,
    StableHlo.TRef.unary (.of main_c_46) main_call9.v7 (sitofp .f32),
    StableHlo.TRef.nullary main_call9.cst_1 (constant S_ .f32 0x47C35000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S100000x128_S128_d0 h_S_),
    StableHlo.TRef.unary main_call9.v8 main_call9.v10 (broadcastInDim S128 ![] bcast_S_S128),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S128 ![] bcast_S_S128),
    StableHlo.TRef.ternary main_call9.v12 main_call9.v11 main_call9.call0.v1 main_call9.call0.v2 (fun p a b => select (broadcastInDim S128 ![] bcast_S_S128 p) a b),
    StableHlo.unary main_v282 main_v284 (broadcastInDim S1x128 ![1] bcast_S128_S1x128_1 : (⟨S128, .f32⟩ : BufTy).Contents (Elt F) → (⟨S1x128, .f32⟩ : BufTy).Contents (Elt F)),
    StableHlo.unary main_v284 main_v285 (broadcastInDim S100000x128 ![0, 1] bcast_S1x128_S100000x128_0_1 : (⟨S1x128, .f32⟩ : BufTy).Contents (Elt F) → (⟨S100000x128, .f32⟩ : BufTy).Contents (Elt F)),
    StableHlo.binary main_v275 main_v285 main_v286 (subf : (⟨S100000x128, .f32⟩ : BufTy).Contents (Elt F) → (⟨S100000x128, .f32⟩ : BufTy).Contents (Elt F) → (⟨S100000x128, .f32⟩ : BufTy).Contents (Elt F)),
    StableHlo.nullary main_cst_47 (constant S_ .f32 0x3727C5AC#32),
    StableHlo.unary main_cst_47 main_v287 (broadcastInDim S128 ![] bcast_S_S128 : (⟨S_, .f32⟩ : BufTy).Contents (Elt F) → (⟨S128, .f32⟩ : BufTy).Contents (Elt F)),
    StableHlo.binary main_v283 main_v287 main_v288 (addf : (⟨S128, .f32⟩ : BufTy).Contents (Elt F) → (⟨S128, .f32⟩ : BufTy).Contents (Elt F) → (⟨S128, .f32⟩ : BufTy).Contents (Elt F)),
    StableHlo.unary main_v288 main_v289 (Host.rsqrt : (⟨S128, .f32⟩ : BufTy).Contents (Elt F) → (⟨S128, .f32⟩ : BufTy).Contents (Elt F)),
    StableHlo.unary main_v289 main_v290 (broadcastInDim S1x128 ![1] bcast_S128_S1x128_1 : (⟨S128, .f32⟩ : BufTy).Contents (Elt F) → (⟨S1x128, .f32⟩ : BufTy).Contents (Elt F)),
    StableHlo.unary main_v290 main_v291 (broadcastInDim S100000x128 ![0, 1] bcast_S1x128_S100000x128_0_1 : (⟨S1x128, .f32⟩ : BufTy).Contents (Elt F) → (⟨S100000x128, .f32⟩ : BufTy).Contents (Elt F)),
    StableHlo.binary main_v286 main_v291 main_v292 (mulf : (⟨S100000x128, .f32⟩ : BufTy).Contents (Elt F) → (⟨S100000x128, .f32⟩ : BufTy).Contents (Elt F) → (⟨S100000x128, .f32⟩ : BufTy).Contents (Elt F)),
    StableHlo.unary main_v277 main_v293 (broadcastInDim S1x128 ![1] bcast_S128_S1x128_1 : (⟨S128, .f32⟩ : BufTy).Contents (Elt F) → (⟨S1x128, .f32⟩ : BufTy).Contents (Elt F)),
    StableHlo.unary main_v293 main_v294 (broadcastInDim S100000x128 ![0, 1] bcast_S1x128_S100000x128_0_1 : (⟨S1x128, .f32⟩ : BufTy).Contents (Elt F) → (⟨S100000x128, .f32⟩ : BufTy).Contents (Elt F)),
    StableHlo.binary main_v292 main_v294 main_v295 (mulf : (⟨S100000x128, .f32⟩ : BufTy).Contents (Elt F) → (⟨S100000x128, .f32⟩ : BufTy).Contents (Elt F) → (⟨S100000x128, .f32⟩ : BufTy).Contents (Elt F)),
    StableHlo.unary main_v279 main_v296 (broadcastInDim S1x128 ![1] bcast_S128_S1x128_1 : (⟨S128, .f32⟩ : BufTy).Contents (Elt F) → (⟨S1x128, .f32⟩ : BufTy).Contents (Elt F)),
    StableHlo.unary main_v296 main_v297 (broadcastInDim S100000x128 ![0, 1] bcast_S1x128_S100000x128_0_1 : (⟨S1x128, .f32⟩ : BufTy).Contents (Elt F) → (⟨S100000x128, .f32⟩ : BufTy).Contents (Elt F)),
    StableHlo.binary main_v295 main_v297 main_v298 (addf : (⟨S100000x128, .f32⟩ : BufTy).Contents (Elt F) → (⟨S100000x128, .f32⟩ : BufTy).Contents (Elt F) → (⟨S100000x128, .f32⟩ : BufTy).Contents (Elt F)),
    StableHlo.nary ![main_v214, main_v256, main_v298] main_v299 (fun u => concatenate S100000x384 1 [⟨S100000x128, u 0⟩, ⟨S100000x128, u 1⟩, ⟨S100000x128, u 2⟩] concatenates_S100000x128_S100000x128_S100000x128_S100000x384_d1),
    StableHlo.binary main_v299 main_arg12 main_v300 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)),
    StableHlo.nullary main_cst_48 (constant S_ .f32 0x00000000#32),
    StableHlo.binary main_v300 main_cst_48 main_v301 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_49 (constant S_ .f32 0x47C35000#32),
    StableHlo.unary main_cst_49 main_v302 (broadcastInDim S128 ![] bcast_S_S128 : (⟨S_, .f32⟩ : BufTy).Contents (Elt F) → (⟨S128, .f32⟩ : BufTy).Contents (Elt F)),
    StableHlo.binary main_v301 main_v302 main_v303 (Host.divf : (⟨S128, .f32⟩ : BufTy).Contents (Elt F) → (⟨S128, .f32⟩ : BufTy).Contents (Elt F) → (⟨S128, .f32⟩ : BufTy).Contents (Elt F)),
    StableHlo.nullary main_c_50 (constantI S_ 32 0#32),
    StableHlo.TRef.nullary main_call10.cst (constant S_ .f32 0x00000000#32),
    StableHlo.TRef.binary (.of main_v300) main_call10.cst main_call10.v0 (fun x v => Host.reduceAdd x v reducesTo_S100000x128_S128_d0 h_S_),
    StableHlo.TRef.unary main_call10.v0 main_call10.v1 (broadcastInDim S1x128 ![1] bcast_S128_S1x128_1),
    StableHlo.TRef.nullary main_call10.cst_0 (constant S_ .f32 0x47C35000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S100000x128 ![0, 1] bcast_S1x128_S100000x128_0_1),
    StableHlo.TRef.binary (.of main_v300) main_call10.v4 main_call10.v5 subf,
    StableHlo.TRef.binary main_call10.v5 main_call10.v5 main_call10.v6 mulf,
    StableHlo.TRef.unary (.of main_c_50) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v303 main_v305 (broadcastInDim S1x128 ![1] bcast_S128_S1x128_1 : (⟨S128, .f32⟩ : BufTy).Contents (Elt F) → (⟨S1x128, .f32⟩ : BufTy).Contents (Elt F)),
    StableHlo.unary main_v305 main_v306 (broadcastInDim S100000x128 ![0, 1] bcast_S1x128_S100000x128_0_1 : (⟨S1x128, .f32⟩ : BufTy).Contents (Elt F) → (⟨S100000x128, .f32⟩ : BufTy).Contents (Elt F)) ]

/-- The 83 operations of window 6 of @main (main_part6), calls unfolded. -/
abbrev ops6 : List (HloOp τ sig (Elt F)) :=
  [ StableHlo.binary main_v300 main_v306 main_v307 (subf : (⟨S100000x128, .f32⟩ : BufTy).Contents (Elt F) → (⟨S100000x128, .f32⟩ : BufTy).Contents (Elt F) → (⟨S100000x128, .f32⟩ : BufTy).Contents (Elt F)),
    StableHlo.nullary main_cst_51 (constant S_ .f32 0x3727C5AC#32),
    StableHlo.unary main_cst_51 main_v308 (broadcastInDim S128 ![] bcast_S_S128 : (⟨S_, .f32⟩ : BufTy).Contents (Elt F) → (⟨S128, .f32⟩ : BufTy).Contents (Elt F)),
    StableHlo.binary main_v304 main_v308 main_v309 (addf : (⟨S128, .f32⟩ : BufTy).Contents (Elt F) → (⟨S128, .f32⟩ : BufTy).Contents (Elt F) → (⟨S128, .f32⟩ : BufTy).Contents (Elt F)),
    StableHlo.unary main_v309 main_v310 (Host.rsqrt : (⟨S128, .f32⟩ : BufTy).Contents (Elt F) → (⟨S128, .f32⟩ : BufTy).Contents (Elt F)),
    StableHlo.unary main_v310 main_v311 (broadcastInDim S1x128 ![1] bcast_S128_S1x128_1 : (⟨S128, .f32⟩ : BufTy).Contents (Elt F) → (⟨S1x128, .f32⟩ : BufTy).Contents (Elt F)),
    StableHlo.unary main_v311 main_v312 (broadcastInDim S100000x128 ![0, 1] bcast_S1x128_S100000x128_0_1 : (⟨S1x128, .f32⟩ : BufTy).Contents (Elt F) → (⟨S100000x128, .f32⟩ : BufTy).Contents (Elt F)),
    StableHlo.binary main_v307 main_v312 main_v313 (mulf : (⟨S100000x128, .f32⟩ : BufTy).Contents (Elt F) → (⟨S100000x128, .f32⟩ : BufTy).Contents (Elt F) → (⟨S100000x128, .f32⟩ : BufTy).Contents (Elt F)),
    StableHlo.unary main_arg13 main_v314 (broadcastInDim S1x128 ![1] bcast_S128_S1x128_1 : (⟨S128, .f32⟩ : BufTy).Contents (Elt F) → (⟨S1x128, .f32⟩ : BufTy).Contents (Elt F)),
    StableHlo.unary main_v314 main_v315 (broadcastInDim S100000x128 ![0, 1] bcast_S1x128_S100000x128_0_1 : (⟨S1x128, .f32⟩ : BufTy).Contents (Elt F) → (⟨S100000x128, .f32⟩ : BufTy).Contents (Elt F)),
    StableHlo.binary main_v313 main_v315 main_v316 (mulf : (⟨S100000x128, .f32⟩ : BufTy).Contents (Elt F) → (⟨S100000x128, .f32⟩ : BufTy).Contents (Elt F) → (⟨S100000x128, .f32⟩ : BufTy).Contents (Elt F)),
    StableHlo.unary main_arg14 main_v317 (broadcastInDim S1x128 ![1] bcast_S128_S1x128_1 : (⟨S128, .f32⟩ : BufTy).Contents (Elt F) → (⟨S1x128, .f32⟩ : BufTy).Contents (Elt F)),
    StableHlo.unary main_v317 main_v318 (broadcastInDim S100000x128 ![0, 1] bcast_S1x128_S100000x128_0_1 : (⟨S1x128, .f32⟩ : BufTy).Contents (Elt F) → (⟨S100000x128, .f32⟩ : BufTy).Contents (Elt F)),
    StableHlo.binary main_v316 main_v318 main_v319 (addf : (⟨S100000x128, .f32⟩ : BufTy).Contents (Elt F) → (⟨S100000x128, .f32⟩ : BufTy).Contents (Elt F) → (⟨S100000x128, .f32⟩ : BufTy).Contents (Elt F)),
    StableHlo.TRef.nullary main_call11.cst (constant S_ .f32 0x00000000#32),
    StableHlo.TRef.unary main_call11.cst main_call11.v0 (broadcastInDim S100000x128 ![] bcast_S_S100000x128),
    StableHlo.TRef.binary (.of main_v319) main_call11.v0 main_call11.v1 maximumf,
    StableHlo.binary main_v320 main_v23 main_v321 (addf : (⟨S100000x128, .f32⟩ : BufTy).Contents (Elt F) → (⟨S100000x128, .f32⟩ : BufTy).Contents (Elt F) → (⟨S100000x128, .f32⟩ : BufTy).Contents (Elt F)),
    StableHlo.nullary main_c_52 (constantI S_ 32 0#32),
    StableHlo.unary main_c_52 main_v322 (broadcastInDim S800000 ![] bcast_S_S800000 : (⟨S_, .i32⟩ : BufTy).Contents (Elt F) → (⟨S800000, .i32⟩ : BufTy).Contents (Elt F)),
    StableHlo.binary main_arg1 main_v322 main_v323 (cmpi .slt : (⟨S800000, .i32⟩ : BufTy).Contents (Elt F) → (⟨S800000, .i32⟩ : BufTy).Contents (Elt F) → (⟨S800000, .i1⟩ : BufTy).Contents (Elt F)),
    StableHlo.nullary main_c_53 (constantI S_ 32 100000#32),
    StableHlo.unary main_c_53 main_v324 (broadcastInDim S800000 ![] bcast_S_S800000 : (⟨S_, .i32⟩ : BufTy).Contents (Elt F) → (⟨S800000, .i32⟩ : BufTy).Contents (Elt F)),
    StableHlo.binary main_arg1 main_v324 main_v325 (addi : (⟨S800000, .i32⟩ : BufTy).Contents (Elt F) → (⟨S800000, .i32⟩ : BufTy).Contents (Elt F) → (⟨S800000, .i32⟩ : BufTy).Contents (Elt F)),
    StableHlo.ternary main_v323 main_v325 main_arg1 main_v326 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v326 main_v327 (broadcastInDim S800000x1 ![0] bcast_S800000_S800000x1_0 : (⟨S800000, .i32⟩ : BufTy).Contents (Elt F) → (⟨S800000x1, .i32⟩ : BufTy).Contents (Elt F)),
    StableHlo.binary main_v321 main_v327 main_v328 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_54 (constant S_ .f32 0x00000000#32),
    StableHlo.unary main_cst_54 main_v329 (broadcastInDim S100000x128 ![] bcast_S_S100000x128 : (⟨S_, .f32⟩ : BufTy).Contents (Elt F) → (⟨S100000x128, .f32⟩ : BufTy).Contents (Elt F)),
    StableHlo.unary main_arg2 main_v330 (broadcastInDim S800000x1 ![0] bcast_S800000_S800000x1_0 : (⟨S800000, .i32⟩ : BufTy).Contents (Elt F) → (⟨S800000x1, .i32⟩ : BufTy).Contents (Elt F)),
    StableHlo.ternary main_v329 main_v330 main_v328 main_v331 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v331 main_v321 main_v332 (addf : (⟨S100000x128, .f32⟩ : BufTy).Contents (Elt F) → (⟨S100000x128, .f32⟩ : BufTy).Contents (Elt F) → (⟨S100000x128, .f32⟩ : BufTy).Contents (Elt F)),
    StableHlo.unary main_arg8 main_v333 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v333 main_v334 rfl shapeCasts_S1x128x128_S128x128,
    StableHlo.binary main_v332 main_v334 main_v335 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v336 ((extractStridedSlice S1x128 ![0, 0] · slices_S3x128_S1x128_0_0) : (⟨S3x128, .f32⟩ : BufTy).Contents (Elt F) → (⟨S1x128, .f32⟩ : BufTy).Contents (Elt F)),
    StableHlo.reshape main_v336 main_v337 rfl shapeCasts_S1x128_S128,
    StableHlo.unary main_v337 main_v338 (broadcastInDim S1x128 ![1] bcast_S128_S1x128_1 : (⟨S128, .f32⟩ : BufTy).Contents (Elt F) → (⟨S1x128, .f32⟩ : BufTy).Contents (Elt F)),
    StableHlo.unary main_v338 main_v339 (broadcastInDim S100000x128 ![0, 1] bcast_S1x128_S100000x128_0_1 : (⟨S1x128, .f32⟩ : BufTy).Contents (Elt F) → (⟨S100000x128, .f32⟩ : BufTy).Contents (Elt F)),
    StableHlo.binary main_v335 main_v339 main_v340 (addf : (⟨S100000x128, .f32⟩ : BufTy).Contents (Elt F) → (⟨S100000x128, .f32⟩ : BufTy).Contents (Elt F) → (⟨S100000x128, .f32⟩ : BufTy).Contents (Elt F)),
    StableHlo.unary main_arg10 main_v341 ((extractStridedSlice S1x128 ![0, 0] · slices_S3x128_S1x128_0_0) : (⟨S3x128, .f32⟩ : BufTy).Contents (Elt F) → (⟨S1x128, .f32⟩ : BufTy).Contents (Elt F)),
    StableHlo.reshape main_v341 main_v342 rfl shapeCasts_S1x128_S128,
    StableHlo.unary main_arg11 main_v343 ((extractStridedSlice S1x128 ![0, 0] · slices_S3x128_S1x128_0_0) : (⟨S3x128, .f32⟩ : BufTy).Contents (Elt F) → (⟨S1x128, .f32⟩ : BufTy).Contents (Elt F)),
    StableHlo.reshape main_v343 main_v344 rfl shapeCasts_S1x128_S128,
    StableHlo.nullary main_cst_55 (constant S_ .f32 0x00000000#32),
    StableHlo.binary main_v340 main_cst_55 main_v345 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_56 (constant S_ .f32 0x47C35000#32),
    StableHlo.unary main_cst_56 main_v346 (broadcastInDim S128 ![] bcast_S_S128 : (⟨S_, .f32⟩ : BufTy).Contents (Elt F) → (⟨S128, .f32⟩ : BufTy).Contents (Elt F)),
    StableHlo.binary main_v345 main_v346 main_v347 (Host.divf : (⟨S128, .f32⟩ : BufTy).Contents (Elt F) → (⟨S128, .f32⟩ : BufTy).Contents (Elt F) → (⟨S128, .f32⟩ : BufTy).Contents (Elt F)),
    StableHlo.nullary main_c_57 (constantI S_ 32 0#32),
    StableHlo.TRef.nullary main_call12.cst (constant S_ .f32 0x00000000#32),
    StableHlo.TRef.binary (.of main_v340) main_call12.cst main_call12.v0 (fun x v => Host.reduceAdd x v reducesTo_S100000x128_S128_d0 h_S_),
    StableHlo.TRef.unary main_call12.v0 main_call12.v1 (broadcastInDim S1x128 ![1] bcast_S128_S1x128_1),
    StableHlo.TRef.nullary main_call12.cst_0 (constant S_ .f32 0x47C35000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S100000x128 ![0, 1] bcast_S1x128_S100000x128_0_1),
    StableHlo.TRef.binary (.of main_v340) main_call12.v4 main_call12.v5 subf,
    StableHlo.TRef.binary main_call12.v5 main_call12.v5 main_call12.v6 mulf,
    StableHlo.TRef.unary (.of main_c_57) main_call12.v7 (sitofp .f32),
    StableHlo.TRef.nullary main_call12.cst_1 (constant S_ .f32 0x47C35000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S100000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b),
    StableHlo.unary main_v347 main_v349 (broadcastInDim S1x128 ![1] bcast_S128_S1x128_1 : (⟨S128, .f32⟩ : BufTy).Contents (Elt F) → (⟨S1x128, .f32⟩ : BufTy).Contents (Elt F)),
    StableHlo.unary main_v349 main_v350 (broadcastInDim S100000x128 ![0, 1] bcast_S1x128_S100000x128_0_1 : (⟨S1x128, .f32⟩ : BufTy).Contents (Elt F) → (⟨S100000x128, .f32⟩ : BufTy).Contents (Elt F)),
    StableHlo.binary main_v340 main_v350 main_v351 (subf : (⟨S100000x128, .f32⟩ : BufTy).Contents (Elt F) → (⟨S100000x128, .f32⟩ : BufTy).Contents (Elt F) → (⟨S100000x128, .f32⟩ : BufTy).Contents (Elt F)),
    StableHlo.nullary main_cst_58 (constant S_ .f32 0x3727C5AC#32),
    StableHlo.unary main_cst_58 main_v352 (broadcastInDim S128 ![] bcast_S_S128 : (⟨S_, .f32⟩ : BufTy).Contents (Elt F) → (⟨S128, .f32⟩ : BufTy).Contents (Elt F)),
    StableHlo.binary main_v348 main_v352 main_v353 (addf : (⟨S128, .f32⟩ : BufTy).Contents (Elt F) → (⟨S128, .f32⟩ : BufTy).Contents (Elt F) → (⟨S128, .f32⟩ : BufTy).Contents (Elt F)),
    StableHlo.unary main_v353 main_v354 (Host.rsqrt : (⟨S128, .f32⟩ : BufTy).Contents (Elt F) → (⟨S128, .f32⟩ : BufTy).Contents (Elt F)),
    StableHlo.unary main_v354 main_v355 (broadcastInDim S1x128 ![1] bcast_S128_S1x128_1 : (⟨S128, .f32⟩ : BufTy).Contents (Elt F) → (⟨S1x128, .f32⟩ : BufTy).Contents (Elt F)),
    StableHlo.unary main_v355 main_v356 (broadcastInDim S100000x128 ![0, 1] bcast_S1x128_S100000x128_0_1 : (⟨S1x128, .f32⟩ : BufTy).Contents (Elt F) → (⟨S100000x128, .f32⟩ : BufTy).Contents (Elt F)),
    StableHlo.binary main_v351 main_v356 main_v357 (mulf : (⟨S100000x128, .f32⟩ : BufTy).Contents (Elt F) → (⟨S100000x128, .f32⟩ : BufTy).Contents (Elt F) → (⟨S100000x128, .f32⟩ : BufTy).Contents (Elt F)),
    StableHlo.unary main_v342 main_v358 (broadcastInDim S1x128 ![1] bcast_S128_S1x128_1 : (⟨S128, .f32⟩ : BufTy).Contents (Elt F) → (⟨S1x128, .f32⟩ : BufTy).Contents (Elt F)) ]

/-- The 81 operations of window 7 of @main (main_part7), calls unfolded. -/
abbrev ops7 : List (HloOp τ sig (Elt F)) :=
  [ StableHlo.unary main_v358 main_v359 (broadcastInDim S100000x128 ![0, 1] bcast_S1x128_S100000x128_0_1 : (⟨S1x128, .f32⟩ : BufTy).Contents (Elt F) → (⟨S100000x128, .f32⟩ : BufTy).Contents (Elt F)),
    StableHlo.binary main_v357 main_v359 main_v360 (mulf : (⟨S100000x128, .f32⟩ : BufTy).Contents (Elt F) → (⟨S100000x128, .f32⟩ : BufTy).Contents (Elt F) → (⟨S100000x128, .f32⟩ : BufTy).Contents (Elt F)),
    StableHlo.unary main_v344 main_v361 (broadcastInDim S1x128 ![1] bcast_S128_S1x128_1 : (⟨S128, .f32⟩ : BufTy).Contents (Elt F) → (⟨S1x128, .f32⟩ : BufTy).Contents (Elt F)),
    StableHlo.unary main_v361 main_v362 (broadcastInDim S100000x128 ![0, 1] bcast_S1x128_S100000x128_0_1 : (⟨S1x128, .f32⟩ : BufTy).Contents (Elt F) → (⟨S100000x128, .f32⟩ : BufTy).Contents (Elt F)),
    StableHlo.binary main_v360 main_v362 main_v363 (addf : (⟨S100000x128, .f32⟩ : BufTy).Contents (Elt F) → (⟨S100000x128, .f32⟩ : BufTy).Contents (Elt F) → (⟨S100000x128, .f32⟩ : BufTy).Contents (Elt F)),
    StableHlo.nullary main_c_59 (constantI S_ 32 0#32),
    StableHlo.unary main_c_59 main_v364 (broadcastInDim S800000 ![] bcast_S_S800000 : (⟨S_, .i32⟩ : BufTy).Contents (Elt F) → (⟨S800000, .i32⟩ : BufTy).Contents (Elt F)),
    StableHlo.binary main_arg1 main_v364 main_v365 (cmpi .slt : (⟨S800000, .i32⟩ : BufTy).Contents (Elt F) → (⟨S800000, .i32⟩ : BufTy).Contents (Elt F) → (⟨S800000, .i1⟩ : BufTy).Contents (Elt F)),
    StableHlo.nullary main_c_60 (constantI S_ 32 100000#32),
    StableHlo.unary main_c_60 main_v366 (broadcastInDim S800000 ![] bcast_S_S800000 : (⟨S_, .i32⟩ : BufTy).Contents (Elt F) → (⟨S800000, .i32⟩ : BufTy).Contents (Elt F)),
    StableHlo.binary main_arg1 main_v366 main_v367 (addi : (⟨S800000, .i32⟩ : BufTy).Contents (Elt F) → (⟨S800000, .i32⟩ : BufTy).Contents (Elt F) → (⟨S800000, .i32⟩ : BufTy).Contents (Elt F)),
    StableHlo.ternary main_v365 main_v367 main_arg1 main_v368 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v368 main_v369 (broadcastInDim S800000x1 ![0] bcast_S800000_S800000x1_0 : (⟨S800000, .i32⟩ : BufTy).Contents (Elt F) → (⟨S800000x1, .i32⟩ : BufTy).Contents (Elt F)),
    StableHlo.binary main_v363 main_v369 main_v370 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_61 (constant S_ .f32 0x00000000#32),
    StableHlo.unary main_cst_61 main_v371 (broadcastInDim S100000x128 ![] bcast_S_S100000x128 : (⟨S_, .f32⟩ : BufTy).Contents (Elt F) → (⟨S100000x128, .f32⟩ : BufTy).Contents (Elt F)),
    StableHlo.unary main_arg2 main_v372 (broadcastInDim S800000x1 ![0] bcast_S800000_S800000x1_0 : (⟨S800000, .i32⟩ : BufTy).Contents (Elt F) → (⟨S800000x1, .i32⟩ : BufTy).Contents (Elt F)),
    StableHlo.ternary main_v371 main_v372 main_v370 main_v373 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v373 main_v321 main_v374 (addf : (⟨S100000x128, .f32⟩ : BufTy).Contents (Elt F) → (⟨S100000x128, .f32⟩ : BufTy).Contents (Elt F) → (⟨S100000x128, .f32⟩ : BufTy).Contents (Elt F)),
    StableHlo.unary main_arg8 main_v375 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v375 main_v376 rfl shapeCasts_S1x128x128_S128x128,
    StableHlo.binary main_v374 main_v376 main_v377 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v378 ((extractStridedSlice S1x128 ![1, 0] · slices_S3x128_S1x128_1_0) : (⟨S3x128, .f32⟩ : BufTy).Contents (Elt F) → (⟨S1x128, .f32⟩ : BufTy).Contents (Elt F)),
    StableHlo.reshape main_v378 main_v379 rfl shapeCasts_S1x128_S128,
    StableHlo.unary main_v379 main_v380 (broadcastInDim S1x128 ![1] bcast_S128_S1x128_1 : (⟨S128, .f32⟩ : BufTy).Contents (Elt F) → (⟨S1x128, .f32⟩ : BufTy).Contents (Elt F)),
    StableHlo.unary main_v380 main_v381 (broadcastInDim S100000x128 ![0, 1] bcast_S1x128_S100000x128_0_1 : (⟨S1x128, .f32⟩ : BufTy).Contents (Elt F) → (⟨S100000x128, .f32⟩ : BufTy).Contents (Elt F)),
    StableHlo.binary main_v377 main_v381 main_v382 (addf : (⟨S100000x128, .f32⟩ : BufTy).Contents (Elt F) → (⟨S100000x128, .f32⟩ : BufTy).Contents (Elt F) → (⟨S100000x128, .f32⟩ : BufTy).Contents (Elt F)),
    StableHlo.unary main_arg10 main_v383 ((extractStridedSlice S1x128 ![1, 0] · slices_S3x128_S1x128_1_0) : (⟨S3x128, .f32⟩ : BufTy).Contents (Elt F) → (⟨S1x128, .f32⟩ : BufTy).Contents (Elt F)),
    StableHlo.reshape main_v383 main_v384 rfl shapeCasts_S1x128_S128,
    StableHlo.unary main_arg11 main_v385 ((extractStridedSlice S1x128 ![1, 0] · slices_S3x128_S1x128_1_0) : (⟨S3x128, .f32⟩ : BufTy).Contents (Elt F) → (⟨S1x128, .f32⟩ : BufTy).Contents (Elt F)),
    StableHlo.reshape main_v385 main_v386 rfl shapeCasts_S1x128_S128,
    StableHlo.nullary main_cst_62 (constant S_ .f32 0x00000000#32),
    StableHlo.binary main_v382 main_cst_62 main_v387 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_63 (constant S_ .f32 0x47C35000#32),
    StableHlo.unary main_cst_63 main_v388 (broadcastInDim S128 ![] bcast_S_S128 : (⟨S_, .f32⟩ : BufTy).Contents (Elt F) → (⟨S128, .f32⟩ : BufTy).Contents (Elt F)),
    StableHlo.binary main_v387 main_v388 main_v389 (Host.divf : (⟨S128, .f32⟩ : BufTy).Contents (Elt F) → (⟨S128, .f32⟩ : BufTy).Contents (Elt F) → (⟨S128, .f32⟩ : BufTy).Contents (Elt F)),
    StableHlo.nullary main_c_64 (constantI S_ 32 0#32),
    StableHlo.TRef.nullary main_call13.cst (constant S_ .f32 0x00000000#32),
    StableHlo.TRef.binary (.of main_v382) main_call13.cst main_call13.v0 (fun x v => Host.reduceAdd x v reducesTo_S100000x128_S128_d0 h_S_),
    StableHlo.TRef.unary main_call13.v0 main_call13.v1 (broadcastInDim S1x128 ![1] bcast_S128_S1x128_1),
    StableHlo.TRef.nullary main_call13.cst_0 (constant S_ .f32 0x47C35000#32),
    StableHlo.TRef.unary main_call13.cst_0 main_call13.v2 (broadcastInDim S1x128 ![] bcast_S_S1x128),
    StableHlo.TRef.binary main_call13.v1 main_call13.v2 main_call13.v3 Host.divf,
    StableHlo.TRef.unary main_call13.v3 main_call13.v4 (broadcastInDim S100000x128 ![0, 1] bcast_S1x128_S100000x128_0_1),
    StableHlo.TRef.binary (.of main_v382) main_call13.v4 main_call13.v5 subf,
    StableHlo.TRef.binary main_call13.v5 main_call13.v5 main_call13.v6 mulf,
    StableHlo.TRef.unary (.of main_c_64) main_call13.v7 (sitofp .f32),
    StableHlo.TRef.nullary main_call13.cst_1 (constant S_ .f32 0x47C35000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S100000x128_S128_d0 h_S_),
    StableHlo.TRef.unary main_call13.v8 main_call13.v10 (broadcastInDim S128 ![] bcast_S_S128),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S128 ![] bcast_S_S128),
    StableHlo.TRef.ternary main_call13.v12 main_call13.v11 main_call13.call0.v1 main_call13.call0.v2 (fun p a b => select (broadcastInDim S128 ![] bcast_S_S128 p) a b),
    StableHlo.unary main_v389 main_v391 (broadcastInDim S1x128 ![1] bcast_S128_S1x128_1 : (⟨S128, .f32⟩ : BufTy).Contents (Elt F) → (⟨S1x128, .f32⟩ : BufTy).Contents (Elt F)),
    StableHlo.unary main_v391 main_v392 (broadcastInDim S100000x128 ![0, 1] bcast_S1x128_S100000x128_0_1 : (⟨S1x128, .f32⟩ : BufTy).Contents (Elt F) → (⟨S100000x128, .f32⟩ : BufTy).Contents (Elt F)),
    StableHlo.binary main_v382 main_v392 main_v393 (subf : (⟨S100000x128, .f32⟩ : BufTy).Contents (Elt F) → (⟨S100000x128, .f32⟩ : BufTy).Contents (Elt F) → (⟨S100000x128, .f32⟩ : BufTy).Contents (Elt F)),
    StableHlo.nullary main_cst_65 (constant S_ .f32 0x3727C5AC#32),
    StableHlo.unary main_cst_65 main_v394 (broadcastInDim S128 ![] bcast_S_S128 : (⟨S_, .f32⟩ : BufTy).Contents (Elt F) → (⟨S128, .f32⟩ : BufTy).Contents (Elt F)),
    StableHlo.binary main_v390 main_v394 main_v395 (addf : (⟨S128, .f32⟩ : BufTy).Contents (Elt F) → (⟨S128, .f32⟩ : BufTy).Contents (Elt F) → (⟨S128, .f32⟩ : BufTy).Contents (Elt F)),
    StableHlo.unary main_v395 main_v396 (Host.rsqrt : (⟨S128, .f32⟩ : BufTy).Contents (Elt F) → (⟨S128, .f32⟩ : BufTy).Contents (Elt F)),
    StableHlo.unary main_v396 main_v397 (broadcastInDim S1x128 ![1] bcast_S128_S1x128_1 : (⟨S128, .f32⟩ : BufTy).Contents (Elt F) → (⟨S1x128, .f32⟩ : BufTy).Contents (Elt F)),
    StableHlo.unary main_v397 main_v398 (broadcastInDim S100000x128 ![0, 1] bcast_S1x128_S100000x128_0_1 : (⟨S1x128, .f32⟩ : BufTy).Contents (Elt F) → (⟨S100000x128, .f32⟩ : BufTy).Contents (Elt F)),
    StableHlo.binary main_v393 main_v398 main_v399 (mulf : (⟨S100000x128, .f32⟩ : BufTy).Contents (Elt F) → (⟨S100000x128, .f32⟩ : BufTy).Contents (Elt F) → (⟨S100000x128, .f32⟩ : BufTy).Contents (Elt F)),
    StableHlo.unary main_v384 main_v400 (broadcastInDim S1x128 ![1] bcast_S128_S1x128_1 : (⟨S128, .f32⟩ : BufTy).Contents (Elt F) → (⟨S1x128, .f32⟩ : BufTy).Contents (Elt F)),
    StableHlo.unary main_v400 main_v401 (broadcastInDim S100000x128 ![0, 1] bcast_S1x128_S100000x128_0_1 : (⟨S1x128, .f32⟩ : BufTy).Contents (Elt F) → (⟨S100000x128, .f32⟩ : BufTy).Contents (Elt F)),
    StableHlo.binary main_v399 main_v401 main_v402 (mulf : (⟨S100000x128, .f32⟩ : BufTy).Contents (Elt F) → (⟨S100000x128, .f32⟩ : BufTy).Contents (Elt F) → (⟨S100000x128, .f32⟩ : BufTy).Contents (Elt F)),
    StableHlo.unary main_v386 main_v403 (broadcastInDim S1x128 ![1] bcast_S128_S1x128_1 : (⟨S128, .f32⟩ : BufTy).Contents (Elt F) → (⟨S1x128, .f32⟩ : BufTy).Contents (Elt F)),
    StableHlo.unary main_v403 main_v404 (broadcastInDim S100000x128 ![0, 1] bcast_S1x128_S100000x128_0_1 : (⟨S1x128, .f32⟩ : BufTy).Contents (Elt F) → (⟨S100000x128, .f32⟩ : BufTy).Contents (Elt F)),
    StableHlo.binary main_v402 main_v404 main_v405 (addf : (⟨S100000x128, .f32⟩ : BufTy).Contents (Elt F) → (⟨S100000x128, .f32⟩ : BufTy).Contents (Elt F) → (⟨S100000x128, .f32⟩ : BufTy).Contents (Elt F)),
    StableHlo.nullary main_c_66 (constantI S_ 32 0#32),
    StableHlo.unary main_c_66 main_v406 (broadcastInDim S800000 ![] bcast_S_S800000 : (⟨S_, .i32⟩ : BufTy).Contents (Elt F) → (⟨S800000, .i32⟩ : BufTy).Contents (Elt F)),
    StableHlo.binary main_arg1 main_v406 main_v407 (cmpi .slt : (⟨S800000, .i32⟩ : BufTy).Contents (Elt F) → (⟨S800000, .i32⟩ : BufTy).Contents (Elt F) → (⟨S800000, .i1⟩ : BufTy).Contents (Elt F)),
    StableHlo.nullary main_c_67 (constantI S_ 32 100000#32),
    StableHlo.unary main_c_67 main_v408 (broadcastInDim S800000 ![] bcast_S_S800000 : (⟨S_, .i32⟩ : BufTy).Contents (Elt F) → (⟨S800000, .i32⟩ : BufTy).Contents (Elt F)),
    StableHlo.binary main_arg1 main_v408 main_v409 (addi : (⟨S800000, .i32⟩ : BufTy).Contents (Elt F) → (⟨S800000, .i32⟩ : BufTy).Contents (Elt F) → (⟨S800000, .i32⟩ : BufTy).Contents (Elt F)) ]

/-- The 102 operations of window 8 of @main (main_part8), calls unfolded. -/
abbrev ops8 : List (HloOp τ sig (Elt F)) :=
  [ StableHlo.ternary main_v407 main_v409 main_arg1 main_v410 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v410 main_v411 (broadcastInDim S800000x1 ![0] bcast_S800000_S800000x1_0 : (⟨S800000, .i32⟩ : BufTy).Contents (Elt F) → (⟨S800000x1, .i32⟩ : BufTy).Contents (Elt F)),
    StableHlo.binary main_v405 main_v411 main_v412 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_68 (constant S_ .f32 0x00000000#32),
    StableHlo.unary main_cst_68 main_v413 (broadcastInDim S100000x128 ![] bcast_S_S100000x128 : (⟨S_, .f32⟩ : BufTy).Contents (Elt F) → (⟨S100000x128, .f32⟩ : BufTy).Contents (Elt F)),
    StableHlo.unary main_arg2 main_v414 (broadcastInDim S800000x1 ![0] bcast_S800000_S800000x1_0 : (⟨S800000, .i32⟩ : BufTy).Contents (Elt F) → (⟨S800000x1, .i32⟩ : BufTy).Contents (Elt F)),
    StableHlo.ternary main_v413 main_v414 main_v412 main_v415 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v415 main_v321 main_v416 (addf : (⟨S100000x128, .f32⟩ : BufTy).Contents (Elt F) → (⟨S100000x128, .f32⟩ : BufTy).Contents (Elt F) → (⟨S100000x128, .f32⟩ : BufTy).Contents (Elt F)),
    StableHlo.unary main_arg8 main_v417 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v417 main_v418 rfl shapeCasts_S1x128x128_S128x128,
    StableHlo.binary main_v416 main_v418 main_v419 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v420 ((extractStridedSlice S1x128 ![2, 0] · slices_S3x128_S1x128_2_0) : (⟨S3x128, .f32⟩ : BufTy).Contents (Elt F) → (⟨S1x128, .f32⟩ : BufTy).Contents (Elt F)),
    StableHlo.reshape main_v420 main_v421 rfl shapeCasts_S1x128_S128,
    StableHlo.unary main_v421 main_v422 (broadcastInDim S1x128 ![1] bcast_S128_S1x128_1 : (⟨S128, .f32⟩ : BufTy).Contents (Elt F) → (⟨S1x128, .f32⟩ : BufTy).Contents (Elt F)),
    StableHlo.unary main_v422 main_v423 (broadcastInDim S100000x128 ![0, 1] bcast_S1x128_S100000x128_0_1 : (⟨S1x128, .f32⟩ : BufTy).Contents (Elt F) → (⟨S100000x128, .f32⟩ : BufTy).Contents (Elt F)),
    StableHlo.binary main_v419 main_v423 main_v424 (addf : (⟨S100000x128, .f32⟩ : BufTy).Contents (Elt F) → (⟨S100000x128, .f32⟩ : BufTy).Contents (Elt F) → (⟨S100000x128, .f32⟩ : BufTy).Contents (Elt F)),
    StableHlo.unary main_arg10 main_v425 ((extractStridedSlice S1x128 ![2, 0] · slices_S3x128_S1x128_2_0) : (⟨S3x128, .f32⟩ : BufTy).Contents (Elt F) → (⟨S1x128, .f32⟩ : BufTy).Contents (Elt F)),
    StableHlo.reshape main_v425 main_v426 rfl shapeCasts_S1x128_S128,
    StableHlo.unary main_arg11 main_v427 ((extractStridedSlice S1x128 ![2, 0] · slices_S3x128_S1x128_2_0) : (⟨S3x128, .f32⟩ : BufTy).Contents (Elt F) → (⟨S1x128, .f32⟩ : BufTy).Contents (Elt F)),
    StableHlo.reshape main_v427 main_v428 rfl shapeCasts_S1x128_S128,
    StableHlo.nullary main_cst_69 (constant S_ .f32 0x00000000#32),
    StableHlo.binary main_v424 main_cst_69 main_v429 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_70 (constant S_ .f32 0x47C35000#32),
    StableHlo.unary main_cst_70 main_v430 (broadcastInDim S128 ![] bcast_S_S128 : (⟨S_, .f32⟩ : BufTy).Contents (Elt F) → (⟨S128, .f32⟩ : BufTy).Contents (Elt F)),
    StableHlo.binary main_v429 main_v430 main_v431 (Host.divf : (⟨S128, .f32⟩ : BufTy).Contents (Elt F) → (⟨S128, .f32⟩ : BufTy).Contents (Elt F) → (⟨S128, .f32⟩ : BufTy).Contents (Elt F)),
    StableHlo.nullary main_c_71 (constantI S_ 32 0#32),
    StableHlo.TRef.nullary main_call14.cst (constant S_ .f32 0x00000000#32),
    StableHlo.TRef.binary (.of main_v424) main_call14.cst main_call14.v0 (fun x v => Host.reduceAdd x v reducesTo_S100000x128_S128_d0 h_S_),
    StableHlo.TRef.unary main_call14.v0 main_call14.v1 (broadcastInDim S1x128 ![1] bcast_S128_S1x128_1),
    StableHlo.TRef.nullary main_call14.cst_0 (constant S_ .f32 0x47C35000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S100000x128 ![0, 1] bcast_S1x128_S100000x128_0_1),
    StableHlo.TRef.binary (.of main_v424) main_call14.v4 main_call14.v5 subf,
    StableHlo.TRef.binary main_call14.v5 main_call14.v5 main_call14.v6 mulf,
    StableHlo.TRef.unary (.of main_c_71) main_call14.v7 (sitofp .f32),
    StableHlo.TRef.nullary main_call14.cst_1 (constant S_ .f32 0x47C35000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S100000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v431 main_v433 (broadcastInDim S1x128 ![1] bcast_S128_S1x128_1 : (⟨S128, .f32⟩ : BufTy).Contents (Elt F) → (⟨S1x128, .f32⟩ : BufTy).Contents (Elt F)),
    StableHlo.unary main_v433 main_v434 (broadcastInDim S100000x128 ![0, 1] bcast_S1x128_S100000x128_0_1 : (⟨S1x128, .f32⟩ : BufTy).Contents (Elt F) → (⟨S100000x128, .f32⟩ : BufTy).Contents (Elt F)),
    StableHlo.binary main_v424 main_v434 main_v435 (subf : (⟨S100000x128, .f32⟩ : BufTy).Contents (Elt F) → (⟨S100000x128, .f32⟩ : BufTy).Contents (Elt F) → (⟨S100000x128, .f32⟩ : BufTy).Contents (Elt F)),
    StableHlo.nullary main_cst_72 (constant S_ .f32 0x3727C5AC#32),
    StableHlo.unary main_cst_72 main_v436 (broadcastInDim S128 ![] bcast_S_S128 : (⟨S_, .f32⟩ : BufTy).Contents (Elt F) → (⟨S128, .f32⟩ : BufTy).Contents (Elt F)),
    StableHlo.binary main_v432 main_v436 main_v437 (addf : (⟨S128, .f32⟩ : BufTy).Contents (Elt F) → (⟨S128, .f32⟩ : BufTy).Contents (Elt F) → (⟨S128, .f32⟩ : BufTy).Contents (Elt F)),
    StableHlo.unary main_v437 main_v438 (Host.rsqrt : (⟨S128, .f32⟩ : BufTy).Contents (Elt F) → (⟨S128, .f32⟩ : BufTy).Contents (Elt F)),
    StableHlo.unary main_v438 main_v439 (broadcastInDim S1x128 ![1] bcast_S128_S1x128_1 : (⟨S128, .f32⟩ : BufTy).Contents (Elt F) → (⟨S1x128, .f32⟩ : BufTy).Contents (Elt F)),
    StableHlo.unary main_v439 main_v440 (broadcastInDim S100000x128 ![0, 1] bcast_S1x128_S100000x128_0_1 : (⟨S1x128, .f32⟩ : BufTy).Contents (Elt F) → (⟨S100000x128, .f32⟩ : BufTy).Contents (Elt F)),
    StableHlo.binary main_v435 main_v440 main_v441 (mulf : (⟨S100000x128, .f32⟩ : BufTy).Contents (Elt F) → (⟨S100000x128, .f32⟩ : BufTy).Contents (Elt F) → (⟨S100000x128, .f32⟩ : BufTy).Contents (Elt F)),
    StableHlo.unary main_v426 main_v442 (broadcastInDim S1x128 ![1] bcast_S128_S1x128_1 : (⟨S128, .f32⟩ : BufTy).Contents (Elt F) → (⟨S1x128, .f32⟩ : BufTy).Contents (Elt F)),
    StableHlo.unary main_v442 main_v443 (broadcastInDim S100000x128 ![0, 1] bcast_S1x128_S100000x128_0_1 : (⟨S1x128, .f32⟩ : BufTy).Contents (Elt F) → (⟨S100000x128, .f32⟩ : BufTy).Contents (Elt F)),
    StableHlo.binary main_v441 main_v443 main_v444 (mulf : (⟨S100000x128, .f32⟩ : BufTy).Contents (Elt F) → (⟨S100000x128, .f32⟩ : BufTy).Contents (Elt F) → (⟨S100000x128, .f32⟩ : BufTy).Contents (Elt F)),
    StableHlo.unary main_v428 main_v445 (broadcastInDim S1x128 ![1] bcast_S128_S1x128_1 : (⟨S128, .f32⟩ : BufTy).Contents (Elt F) → (⟨S1x128, .f32⟩ : BufTy).Contents (Elt F)),
    StableHlo.unary main_v445 main_v446 (broadcastInDim S100000x128 ![0, 1] bcast_S1x128_S100000x128_0_1 : (⟨S1x128, .f32⟩ : BufTy).Contents (Elt F) → (⟨S100000x128, .f32⟩ : BufTy).Contents (Elt F)),
    StableHlo.binary main_v444 main_v446 main_v447 (addf : (⟨S100000x128, .f32⟩ : BufTy).Contents (Elt F) → (⟨S100000x128, .f32⟩ : BufTy).Contents (Elt F) → (⟨S100000x128, .f32⟩ : BufTy).Contents (Elt F)),
    StableHlo.nary ![main_v363, main_v405, main_v447] main_v448 (fun u => concatenate S100000x384 1 [⟨S100000x128, u 0⟩, ⟨S100000x128, u 1⟩, ⟨S100000x128, u 2⟩] concatenates_S100000x128_S100000x128_S100000x128_S100000x384_d1),
    StableHlo.binary main_v448 main_arg12 main_v449 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)),
    StableHlo.nullary main_cst_73 (constant S_ .f32 0x00000000#32),
    StableHlo.binary main_v449 main_cst_73 main_v450 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_74 (constant S_ .f32 0x47C35000#32),
    StableHlo.unary main_cst_74 main_v451 (broadcastInDim S128 ![] bcast_S_S128 : (⟨S_, .f32⟩ : BufTy).Contents (Elt F) → (⟨S128, .f32⟩ : BufTy).Contents (Elt F)),
    StableHlo.binary main_v450 main_v451 main_v452 (Host.divf : (⟨S128, .f32⟩ : BufTy).Contents (Elt F) → (⟨S128, .f32⟩ : BufTy).Contents (Elt F) → (⟨S128, .f32⟩ : BufTy).Contents (Elt F)),
    StableHlo.nullary main_c_75 (constantI S_ 32 0#32),
    StableHlo.TRef.nullary main_call15.cst (constant S_ .f32 0x00000000#32),
    StableHlo.TRef.binary (.of main_v449) main_call15.cst main_call15.v0 (fun x v => Host.reduceAdd x v reducesTo_S100000x128_S128_d0 h_S_),
    StableHlo.TRef.unary main_call15.v0 main_call15.v1 (broadcastInDim S1x128 ![1] bcast_S128_S1x128_1),
    StableHlo.TRef.nullary main_call15.cst_0 (constant S_ .f32 0x47C35000#32),
    StableHlo.TRef.unary main_call15.cst_0 main_call15.v2 (broadcastInDim S1x128 ![] bcast_S_S1x128),
    StableHlo.TRef.binary main_call15.v1 main_call15.v2 main_call15.v3 Host.divf,
    StableHlo.TRef.unary main_call15.v3 main_call15.v4 (broadcastInDim S100000x128 ![0, 1] bcast_S1x128_S100000x128_0_1),
    StableHlo.TRef.binary (.of main_v449) main_call15.v4 main_call15.v5 subf,
    StableHlo.TRef.binary main_call15.v5 main_call15.v5 main_call15.v6 mulf,
    StableHlo.TRef.unary (.of main_c_75) main_call15.v7 (sitofp .f32),
    StableHlo.TRef.nullary main_call15.cst_1 (constant S_ .f32 0x47C35000#32),
    StableHlo.TRef.binary main_call15.cst_1 main_call15.v7 main_call15.v8 subf,
    StableHlo.TRef.nullary main_call15.cst_2 (constant S_ .f32 0x00000000#32),
    StableHlo.TRef.binary main_call15.v6 main_call15.cst_2 main_call15.v9 (fun x v => Host.reduceAdd x v reducesTo_S100000x128_S128_d0 h_S_),
    StableHlo.TRef.unary main_call15.v8 main_call15.v10 (broadcastInDim S128 ![] bcast_S_S128),
    StableHlo.TRef.binary main_call15.v9 main_call15.v10 main_call15.v11 Host.divf,
    StableHlo.TRef.nullary main_call15.cst_3 (constant S_ .f32 0x00000000#32),
    StableHlo.TRef.binary main_call15.v8 main_call15.cst_3 main_call15.v12 (cmpf .ogt),
    StableHlo.TRef.nullary main_call15.cst_4 (constant S_ .f32 0x7FC00000#32),
    StableHlo.TRef.unary main_call15.cst_4 main_call15.call0.v0 id,
    StableHlo.TRef.unary main_call15.call0.v0 main_call15.call0.v1 (broadcastInDim S128 ![] bcast_S_S128),
    StableHlo.TRef.ternary main_call15.v12 main_call15.v11 main_call15.call0.v1 main_call15.call0.v2 (fun p a b => select (broadcastInDim S128 ![] bcast_S_S128 p) a b),
    StableHlo.unary main_v452 main_v454 (broadcastInDim S1x128 ![1] bcast_S128_S1x128_1 : (⟨S128, .f32⟩ : BufTy).Contents (Elt F) → (⟨S1x128, .f32⟩ : BufTy).Contents (Elt F)),
    StableHlo.unary main_v454 main_v455 (broadcastInDim S100000x128 ![0, 1] bcast_S1x128_S100000x128_0_1 : (⟨S1x128, .f32⟩ : BufTy).Contents (Elt F) → (⟨S100000x128, .f32⟩ : BufTy).Contents (Elt F)),
    StableHlo.binary main_v449 main_v455 main_v456 (subf : (⟨S100000x128, .f32⟩ : BufTy).Contents (Elt F) → (⟨S100000x128, .f32⟩ : BufTy).Contents (Elt F) → (⟨S100000x128, .f32⟩ : BufTy).Contents (Elt F)),
    StableHlo.nullary main_cst_76 (constant S_ .f32 0x3727C5AC#32),
    StableHlo.unary main_cst_76 main_v457 (broadcastInDim S128 ![] bcast_S_S128 : (⟨S_, .f32⟩ : BufTy).Contents (Elt F) → (⟨S128, .f32⟩ : BufTy).Contents (Elt F)),
    StableHlo.binary main_v453 main_v457 main_v458 (addf : (⟨S128, .f32⟩ : BufTy).Contents (Elt F) → (⟨S128, .f32⟩ : BufTy).Contents (Elt F) → (⟨S128, .f32⟩ : BufTy).Contents (Elt F)),
    StableHlo.unary main_v458 main_v459 (Host.rsqrt : (⟨S128, .f32⟩ : BufTy).Contents (Elt F) → (⟨S128, .f32⟩ : BufTy).Contents (Elt F)),
    StableHlo.unary main_v459 main_v460 (broadcastInDim S1x128 ![1] bcast_S128_S1x128_1 : (⟨S128, .f32⟩ : BufTy).Contents (Elt F) → (⟨S1x128, .f32⟩ : BufTy).Contents (Elt F)) ]

/-- The 104 operations of window 9 of @main (main_part9), calls unfolded. -/
abbrev ops9 : List (HloOp τ sig (Elt F)) :=
  [ StableHlo.unary main_v460 main_v461 (broadcastInDim S100000x128 ![0, 1] bcast_S1x128_S100000x128_0_1 : (⟨S1x128, .f32⟩ : BufTy).Contents (Elt F) → (⟨S100000x128, .f32⟩ : BufTy).Contents (Elt F)),
    StableHlo.binary main_v456 main_v461 main_v462 (mulf : (⟨S100000x128, .f32⟩ : BufTy).Contents (Elt F) → (⟨S100000x128, .f32⟩ : BufTy).Contents (Elt F) → (⟨S100000x128, .f32⟩ : BufTy).Contents (Elt F)),
    StableHlo.unary main_arg13 main_v463 (broadcastInDim S1x128 ![1] bcast_S128_S1x128_1 : (⟨S128, .f32⟩ : BufTy).Contents (Elt F) → (⟨S1x128, .f32⟩ : BufTy).Contents (Elt F)),
    StableHlo.unary main_v463 main_v464 (broadcastInDim S100000x128 ![0, 1] bcast_S1x128_S100000x128_0_1 : (⟨S1x128, .f32⟩ : BufTy).Contents (Elt F) → (⟨S100000x128, .f32⟩ : BufTy).Contents (Elt F)),
    StableHlo.binary main_v462 main_v464 main_v465 (mulf : (⟨S100000x128, .f32⟩ : BufTy).Contents (Elt F) → (⟨S100000x128, .f32⟩ : BufTy).Contents (Elt F) → (⟨S100000x128, .f32⟩ : BufTy).Contents (Elt F)),
    StableHlo.unary main_arg14 main_v466 (broadcastInDim S1x128 ![1] bcast_S128_S1x128_1 : (⟨S128, .f32⟩ : BufTy).Contents (Elt F) → (⟨S1x128, .f32⟩ : BufTy).Contents (Elt F)),
    StableHlo.unary main_v466 main_v467 (broadcastInDim S100000x128 ![0, 1] bcast_S1x128_S100000x128_0_1 : (⟨S1x128, .f32⟩ : BufTy).Contents (Elt F) → (⟨S100000x128, .f32⟩ : BufTy).Contents (Elt F)),
    StableHlo.binary main_v465 main_v467 main_v468 (addf : (⟨S100000x128, .f32⟩ : BufTy).Contents (Elt F) → (⟨S100000x128, .f32⟩ : BufTy).Contents (Elt F) → (⟨S100000x128, .f32⟩ : BufTy).Contents (Elt F)),
    StableHlo.TRef.nullary main_call16.cst (constant S_ .f32 0x00000000#32),
    StableHlo.TRef.unary main_call16.cst main_call16.v0 (broadcastInDim S100000x128 ![] bcast_S_S100000x128),
    StableHlo.TRef.binary (.of main_v468) main_call16.v0 main_call16.v1 maximumf,
    StableHlo.binary main_v469 main_arg15 main_v470 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg16 main_v471 (broadcastInDim S1x128 ![1] bcast_S128_S1x128_1 : (⟨S128, .f32⟩ : BufTy).Contents (Elt F) → (⟨S1x128, .f32⟩ : BufTy).Contents (Elt F)),
    StableHlo.unary main_v471 main_v472 (broadcastInDim S100000x128 ![0, 1] bcast_S1x128_S100000x128_0_1 : (⟨S1x128, .f32⟩ : BufTy).Contents (Elt F) → (⟨S100000x128, .f32⟩ : BufTy).Contents (Elt F)),
    StableHlo.binary main_v470 main_v472 main_v473 (addf : (⟨S100000x128, .f32⟩ : BufTy).Contents (Elt F) → (⟨S100000x128, .f32⟩ : BufTy).Contents (Elt F) → (⟨S100000x128, .f32⟩ : BufTy).Contents (Elt F)),
    StableHlo.unary main_v473 main_v474 (Host.tanh : (⟨S100000x128, .f32⟩ : BufTy).Contents (Elt F) → (⟨S100000x128, .f32⟩ : BufTy).Contents (Elt F)),
    StableHlo.nullary main_cst_77 (constant S_ .f32 0x00000000#32),
    StableHlo.binary main_v474 main_cst_77 main_v475 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_78 (constant S_ .f32 0x47C35000#32),
    StableHlo.unary main_cst_78 main_v476 (broadcastInDim S128 ![] bcast_S_S128 : (⟨S_, .f32⟩ : BufTy).Contents (Elt F) → (⟨S128, .f32⟩ : BufTy).Contents (Elt F)),
    StableHlo.binary main_v475 main_v476 main_v477 (Host.divf : (⟨S128, .f32⟩ : BufTy).Contents (Elt F) → (⟨S128, .f32⟩ : BufTy).Contents (Elt F) → (⟨S128, .f32⟩ : BufTy).Contents (Elt F)),
    StableHlo.nullary main_c_79 (constantI S_ 32 0#32),
    StableHlo.TRef.nullary main_call17.cst (constant S_ .f32 0x00000000#32),
    StableHlo.TRef.binary (.of main_v474) main_call17.cst main_call17.v0 (fun x v => Host.reduceAdd x v reducesTo_S100000x128_S128_d0 h_S_),
    StableHlo.TRef.unary main_call17.v0 main_call17.v1 (broadcastInDim S1x128 ![1] bcast_S128_S1x128_1),
    StableHlo.TRef.nullary main_call17.cst_0 (constant S_ .f32 0x47C35000#32),
    StableHlo.TRef.unary main_call17.cst_0 main_call17.v2 (broadcastInDim S1x128 ![] bcast_S_S1x128),
    StableHlo.TRef.binary main_call17.v1 main_call17.v2 main_call17.v3 Host.divf,
    StableHlo.TRef.unary main_call17.v3 main_call17.v4 (broadcastInDim S100000x128 ![0, 1] bcast_S1x128_S100000x128_0_1),
    StableHlo.TRef.binary (.of main_v474) main_call17.v4 main_call17.v5 subf,
    StableHlo.TRef.binary main_call17.v5 main_call17.v5 main_call17.v6 mulf,
    StableHlo.TRef.unary (.of main_c_79) main_call17.v7 (sitofp .f32),
    StableHlo.TRef.nullary main_call17.cst_1 (constant S_ .f32 0x47C35000#32),
    StableHlo.TRef.binary main_call17.cst_1 main_call17.v7 main_call17.v8 subf,
    StableHlo.TRef.nullary main_call17.cst_2 (constant S_ .f32 0x00000000#32),
    StableHlo.TRef.binary main_call17.v6 main_call17.cst_2 main_call17.v9 (fun x v => Host.reduceAdd x v reducesTo_S100000x128_S128_d0 h_S_),
    StableHlo.TRef.unary main_call17.v8 main_call17.v10 (broadcastInDim S128 ![] bcast_S_S128),
    StableHlo.TRef.binary main_call17.v9 main_call17.v10 main_call17.v11 Host.divf,
    StableHlo.TRef.nullary main_call17.cst_3 (constant S_ .f32 0x00000000#32),
    StableHlo.TRef.binary main_call17.v8 main_call17.cst_3 main_call17.v12 (cmpf .ogt),
    StableHlo.TRef.nullary main_call17.cst_4 (constant S_ .f32 0x7FC00000#32),
    StableHlo.TRef.unary main_call17.cst_4 main_call17.call0.v0 id,
    StableHlo.TRef.unary main_call17.call0.v0 main_call17.call0.v1 (broadcastInDim S128 ![] bcast_S_S128),
    StableHlo.TRef.ternary main_call17.v12 main_call17.v11 main_call17.call0.v1 main_call17.call0.v2 (fun p a b => select (broadcastInDim S128 ![] bcast_S_S128 p) a b),
    StableHlo.unary main_v477 main_v479 (broadcastInDim S1x128 ![1] bcast_S128_S1x128_1 : (⟨S128, .f32⟩ : BufTy).Contents (Elt F) → (⟨S1x128, .f32⟩ : BufTy).Contents (Elt F)),
    StableHlo.unary main_v479 main_v480 (broadcastInDim S100000x128 ![0, 1] bcast_S1x128_S100000x128_0_1 : (⟨S1x128, .f32⟩ : BufTy).Contents (Elt F) → (⟨S100000x128, .f32⟩ : BufTy).Contents (Elt F)),
    StableHlo.binary main_v474 main_v480 main_v481 (subf : (⟨S100000x128, .f32⟩ : BufTy).Contents (Elt F) → (⟨S100000x128, .f32⟩ : BufTy).Contents (Elt F) → (⟨S100000x128, .f32⟩ : BufTy).Contents (Elt F)),
    StableHlo.nullary main_cst_80 (constant S_ .f32 0x3727C5AC#32),
    StableHlo.unary main_cst_80 main_v482 (broadcastInDim S128 ![] bcast_S_S128 : (⟨S_, .f32⟩ : BufTy).Contents (Elt F) → (⟨S128, .f32⟩ : BufTy).Contents (Elt F)),
    StableHlo.binary main_v478 main_v482 main_v483 (addf : (⟨S128, .f32⟩ : BufTy).Contents (Elt F) → (⟨S128, .f32⟩ : BufTy).Contents (Elt F) → (⟨S128, .f32⟩ : BufTy).Contents (Elt F)),
    StableHlo.unary main_v483 main_v484 (Host.rsqrt : (⟨S128, .f32⟩ : BufTy).Contents (Elt F) → (⟨S128, .f32⟩ : BufTy).Contents (Elt F)),
    StableHlo.unary main_v484 main_v485 (broadcastInDim S1x128 ![1] bcast_S128_S1x128_1 : (⟨S128, .f32⟩ : BufTy).Contents (Elt F) → (⟨S1x128, .f32⟩ : BufTy).Contents (Elt F)),
    StableHlo.unary main_v485 main_v486 (broadcastInDim S100000x128 ![0, 1] bcast_S1x128_S100000x128_0_1 : (⟨S1x128, .f32⟩ : BufTy).Contents (Elt F) → (⟨S100000x128, .f32⟩ : BufTy).Contents (Elt F)),
    StableHlo.binary main_v481 main_v486 main_v487 (mulf : (⟨S100000x128, .f32⟩ : BufTy).Contents (Elt F) → (⟨S100000x128, .f32⟩ : BufTy).Contents (Elt F) → (⟨S100000x128, .f32⟩ : BufTy).Contents (Elt F)),
    StableHlo.unary main_arg17 main_v488 (broadcastInDim S1x128 ![1] bcast_S128_S1x128_1 : (⟨S128, .f32⟩ : BufTy).Contents (Elt F) → (⟨S1x128, .f32⟩ : BufTy).Contents (Elt F)),
    StableHlo.unary main_v488 main_v489 (broadcastInDim S100000x128 ![0, 1] bcast_S1x128_S100000x128_0_1 : (⟨S1x128, .f32⟩ : BufTy).Contents (Elt F) → (⟨S100000x128, .f32⟩ : BufTy).Contents (Elt F)),
    StableHlo.binary main_v487 main_v489 main_v490 (mulf : (⟨S100000x128, .f32⟩ : BufTy).Contents (Elt F) → (⟨S100000x128, .f32⟩ : BufTy).Contents (Elt F) → (⟨S100000x128, .f32⟩ : BufTy).Contents (Elt F)),
    StableHlo.unary main_arg18 main_v491 (broadcastInDim S1x128 ![1] bcast_S128_S1x128_1 : (⟨S128, .f32⟩ : BufTy).Contents (Elt F) → (⟨S1x128, .f32⟩ : BufTy).Contents (Elt F)),
    StableHlo.unary main_v491 main_v492 (broadcastInDim S100000x128 ![0, 1] bcast_S1x128_S100000x128_0_1 : (⟨S1x128, .f32⟩ : BufTy).Contents (Elt F) → (⟨S100000x128, .f32⟩ : BufTy).Contents (Elt F)),
    StableHlo.binary main_v490 main_v492 main_v493 (addf : (⟨S100000x128, .f32⟩ : BufTy).Contents (Elt F) → (⟨S100000x128, .f32⟩ : BufTy).Contents (Elt F) → (⟨S100000x128, .f32⟩ : BufTy).Contents (Elt F)),
    StableHlo.binary main_v493 main_arg19 main_v494 ((fun l r => Host.dotGeneral dot_S100000x128_S128x5_S100000x5_1_0_0_1_n_n none l r) : (⟨S100000x128, .f32⟩ : BufTy).Contents (Elt F) → (⟨S128x5, .f32⟩ : BufTy).Contents (Elt F) → (⟨S100000x5, .f32⟩ : BufTy).Contents (Elt F)),
    StableHlo.unary main_arg20 main_v495 (broadcastInDim S1x5 ![1] bcast_S5_S1x5_1 : (⟨S5, .f32⟩ : BufTy).Contents (Elt F) → (⟨S1x5, .f32⟩ : BufTy).Contents (Elt F)),
    StableHlo.unary main_v495 main_v496 (broadcastInDim S100000x5 ![0, 1] bcast_S1x5_S100000x5_0_1 : (⟨S1x5, .f32⟩ : BufTy).Contents (Elt F) → (⟨S100000x5, .f32⟩ : BufTy).Contents (Elt F)),
    StableHlo.binary main_v494 main_v496 main_v497 (addf : (⟨S100000x5, .f32⟩ : BufTy).Contents (Elt F) → (⟨S100000x5, .f32⟩ : BufTy).Contents (Elt F) → (⟨S100000x5, .f32⟩ : BufTy).Contents (Elt F)),
    StableHlo.nullary main_cst_81 (constant S_ .f32 0x00000000#32),
    StableHlo.binary main_v497 main_cst_81 main_v498 ((fun x v => Host.reduceAdd x v reducesTo_S100000x5_S5_d0 h_S_) : (⟨S100000x5, .f32⟩ : BufTy).Contents (Elt F) → (⟨S_, .f32⟩ : BufTy).Contents (Elt F) → (⟨S5, .f32⟩ : BufTy).Contents (Elt F)),
    StableHlo.nullary main_cst_82 (constant S_ .f32 0x47C35000#32),
    StableHlo.unary main_cst_82 main_v499 (broadcastInDim S5 ![] bcast_S_S5 : (⟨S_, .f32⟩ : BufTy).Contents (Elt F) → (⟨S5, .f32⟩ : BufTy).Contents (Elt F)),
    StableHlo.binary main_v498 main_v499 main_v500 (Host.divf : (⟨S5, .f32⟩ : BufTy).Contents (Elt F) → (⟨S5, .f32⟩ : BufTy).Contents (Elt F) → (⟨S5, .f32⟩ : BufTy).Contents (Elt F)),
    StableHlo.nullary main_c_83 (constantI S_ 32 0#32),
    StableHlo.TRef.nullary main_call18.cst (constant S_ .f32 0x00000000#32),
    StableHlo.TRef.binary (.of main_v497) main_call18.cst main_call18.v0 (fun x v => Host.reduceAdd x v reducesTo_S100000x5_S5_d0 h_S_),
    StableHlo.TRef.unary main_call18.v0 main_call18.v1 (broadcastInDim S1x5 ![1] bcast_S5_S1x5_1),
    StableHlo.TRef.nullary main_call18.cst_0 (constant S_ .f32 0x47C35000#32),
    StableHlo.TRef.unary main_call18.cst_0 main_call18.v2 (broadcastInDim S1x5 ![] bcast_S_S1x5),
    StableHlo.TRef.binary main_call18.v1 main_call18.v2 main_call18.v3 Host.divf,
    StableHlo.TRef.unary main_call18.v3 main_call18.v4 (broadcastInDim S100000x5 ![0, 1] bcast_S1x5_S100000x5_0_1),
    StableHlo.TRef.binary (.of main_v497) main_call18.v4 main_call18.v5 subf,
    StableHlo.TRef.binary main_call18.v5 main_call18.v5 main_call18.v6 mulf,
    StableHlo.TRef.unary (.of main_c_83) main_call18.v7 (sitofp .f32),
    StableHlo.TRef.nullary main_call18.cst_1 (constant S_ .f32 0x47C35000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S100000x5_S5_d0 h_S_),
    StableHlo.TRef.unary main_call18.v8 main_call18.v10 (broadcastInDim S5 ![] bcast_S_S5),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S5 ![] bcast_S_S5),
    StableHlo.TRef.ternary main_call18.v12 main_call18.v11 main_call18.call0.v1 main_call18.call0.v2 (fun p a b => select (broadcastInDim S5 ![] bcast_S_S5 p) a b),
    StableHlo.unary main_v500 main_v502 (broadcastInDim S1x5 ![1] bcast_S5_S1x5_1 : (⟨S5, .f32⟩ : BufTy).Contents (Elt F) → (⟨S1x5, .f32⟩ : BufTy).Contents (Elt F)),
    StableHlo.unary main_v502 main_v503 (broadcastInDim S100000x5 ![0, 1] bcast_S1x5_S100000x5_0_1 : (⟨S1x5, .f32⟩ : BufTy).Contents (Elt F) → (⟨S100000x5, .f32⟩ : BufTy).Contents (Elt F)),
    StableHlo.binary main_v497 main_v503 main_v504 (subf : (⟨S100000x5, .f32⟩ : BufTy).Contents (Elt F) → (⟨S100000x5, .f32⟩ : BufTy).Contents (Elt F) → (⟨S100000x5, .f32⟩ : BufTy).Contents (Elt F)),
    StableHlo.nullary main_cst_84 (constant S_ .f32 0x3727C5AC#32),
    StableHlo.unary main_cst_84 main_v505 (broadcastInDim S5 ![] bcast_S_S5 : (⟨S_, .f32⟩ : BufTy).Contents (Elt F) → (⟨S5, .f32⟩ : BufTy).Contents (Elt F)),
    StableHlo.binary main_v501 main_v505 main_v506 (addf : (⟨S5, .f32⟩ : BufTy).Contents (Elt F) → (⟨S5, .f32⟩ : BufTy).Contents (Elt F) → (⟨S5, .f32⟩ : BufTy).Contents (Elt F)),
    StableHlo.unary main_v506 main_v507 (Host.rsqrt : (⟨S5, .f32⟩ : BufTy).Contents (Elt F) → (⟨S5, .f32⟩ : BufTy).Contents (Elt F)),
    StableHlo.unary main_v507 main_v508 (broadcastInDim S1x5 ![1] bcast_S5_S1x5_1 : (⟨S5, .f32⟩ : BufTy).Contents (Elt F) → (⟨S1x5, .f32⟩ : BufTy).Contents (Elt F)),
    StableHlo.unary main_v508 main_v509 (broadcastInDim S100000x5 ![0, 1] bcast_S1x5_S100000x5_0_1 : (⟨S1x5, .f32⟩ : BufTy).Contents (Elt F) → (⟨S100000x5, .f32⟩ : BufTy).Contents (Elt F)),
    StableHlo.binary main_v504 main_v509 main_v510 (mulf : (⟨S100000x5, .f32⟩ : BufTy).Contents (Elt F) → (⟨S100000x5, .f32⟩ : BufTy).Contents (Elt F) → (⟨S100000x5, .f32⟩ : BufTy).Contents (Elt F)),
    StableHlo.unary main_arg21 main_v511 (broadcastInDim S1x5 ![1] bcast_S5_S1x5_1 : (⟨S5, .f32⟩ : BufTy).Contents (Elt F) → (⟨S1x5, .f32⟩ : BufTy).Contents (Elt F)),
    StableHlo.unary main_v511 main_v512 (broadcastInDim S100000x5 ![0, 1] bcast_S1x5_S100000x5_0_1 : (⟨S1x5, .f32⟩ : BufTy).Contents (Elt F) → (⟨S100000x5, .f32⟩ : BufTy).Contents (Elt F)) ]

/-- The 52 operations of window 10 of @main (main_part10), calls unfolded. -/
abbrev ops10 : List (HloOp τ sig (Elt F)) :=
  [ StableHlo.binary main_v510 main_v512 main_v513 (mulf : (⟨S100000x5, .f32⟩ : BufTy).Contents (Elt F) → (⟨S100000x5, .f32⟩ : BufTy).Contents (Elt F) → (⟨S100000x5, .f32⟩ : BufTy).Contents (Elt F)),
    StableHlo.unary main_arg22 main_v514 (broadcastInDim S1x5 ![1] bcast_S5_S1x5_1 : (⟨S5, .f32⟩ : BufTy).Contents (Elt F) → (⟨S1x5, .f32⟩ : BufTy).Contents (Elt F)),
    StableHlo.unary main_v514 main_v515 (broadcastInDim S100000x5 ![0, 1] bcast_S1x5_S100000x5_0_1 : (⟨S1x5, .f32⟩ : BufTy).Contents (Elt F) → (⟨S100000x5, .f32⟩ : BufTy).Contents (Elt F)),
    StableHlo.binary main_v513 main_v515 main_v516 (addf : (⟨S100000x5, .f32⟩ : BufTy).Contents (Elt F) → (⟨S100000x5, .f32⟩ : BufTy).Contents (Elt F) → (⟨S100000x5, .f32⟩ : BufTy).Contents (Elt F)),
    StableHlo.nullary main_cst_85 (constant S_ .f32 0xFF800000#32),
    StableHlo.binary main_v516 main_cst_85 main_v517 ((fun x v => Host.reduce FloatOps.maximumf x v reducesTo_S100000x5_S100000_d1 h_S_) : (⟨S100000x5, .f32⟩ : BufTy).Contents (Elt F) → (⟨S_, .f32⟩ : BufTy).Contents (Elt F) → (⟨S100000, .f32⟩ : BufTy).Contents (Elt F)),
    StableHlo.nullary main_cst_86 (constant S_ .f32 0xFF800000#32),
    StableHlo.unary main_cst_86 main_v518 (broadcastInDim S100000 ![] bcast_S_S100000 : (⟨S_, .f32⟩ : BufTy).Contents (Elt F) → (⟨S100000, .f32⟩ : BufTy).Contents (Elt F)),
    StableHlo.binary main_v518 main_v517 main_v519 (maximumf : (⟨S100000, .f32⟩ : BufTy).Contents (Elt F) → (⟨S100000, .f32⟩ : BufTy).Contents (Elt F) → (⟨S100000, .f32⟩ : BufTy).Contents (Elt F)),
    StableHlo.unary main_v519 main_v520 (broadcastInDim S100000x1 ![0] bcast_S100000_S100000x1_0 : (⟨S100000, .f32⟩ : BufTy).Contents (Elt F) → (⟨S100000x1, .f32⟩ : BufTy).Contents (Elt F)),
    StableHlo.unary main_v520 main_v521 (broadcastInDim S100000x5 ![0, 1] bcast_S100000x1_S100000x5_0_1 : (⟨S100000x1, .f32⟩ : BufTy).Contents (Elt F) → (⟨S100000x5, .f32⟩ : BufTy).Contents (Elt F)),
    StableHlo.binary main_v516 main_v521 main_v522 (subf : (⟨S100000x5, .f32⟩ : BufTy).Contents (Elt F) → (⟨S100000x5, .f32⟩ : BufTy).Contents (Elt F) → (⟨S100000x5, .f32⟩ : BufTy).Contents (Elt F)),
    StableHlo.unary main_v522 main_v523 (Host.exp : (⟨S100000x5, .f32⟩ : BufTy).Contents (Elt F) → (⟨S100000x5, .f32⟩ : BufTy).Contents (Elt F)),
    StableHlo.nullary main_cst_87 (constant S_ .f32 0x00000000#32),
    StableHlo.binary main_v523 main_cst_87 main_v524 ((fun x v => Host.reduceAdd x v reducesTo_S100000x5_S100000_d1 h_S_) : (⟨S100000x5, .f32⟩ : BufTy).Contents (Elt F) → (⟨S_, .f32⟩ : BufTy).Contents (Elt F) → (⟨S100000, .f32⟩ : BufTy).Contents (Elt F)),
    StableHlo.unary main_v524 main_v525 (broadcastInDim S100000x1 ![0] bcast_S100000_S100000x1_0 : (⟨S100000, .f32⟩ : BufTy).Contents (Elt F) → (⟨S100000x1, .f32⟩ : BufTy).Contents (Elt F)),
    StableHlo.unary main_v525 main_v526 (broadcastInDim S100000x5 ![0, 1] bcast_S100000x1_S100000x5_0_1 : (⟨S100000x1, .f32⟩ : BufTy).Contents (Elt F) → (⟨S100000x5, .f32⟩ : BufTy).Contents (Elt F)),
    StableHlo.binary main_v523 main_v526 main_v527 (Host.divf : (⟨S100000x5, .f32⟩ : BufTy).Contents (Elt F) → (⟨S100000x5, .f32⟩ : BufTy).Contents (Elt F) → (⟨S100000x5, .f32⟩ : BufTy).Contents (Elt F)),
    StableHlo.unary main_v527 main_v528 (broadcastInDim S100000x5x1 ![0, 1] bcast_S100000x5_S100000x5x1_0_1 : (⟨S100000x5, .f32⟩ : BufTy).Contents (Elt F) → (⟨S100000x5x1, .f32⟩ : BufTy).Contents (Elt F)),
    StableHlo.unary main_v469 main_v529 (broadcastInDim S100000x1x128 ![0, 2] bcast_S100000x128_S100000x1x128_0_2 : (⟨S100000x128, .f32⟩ : BufTy).Contents (Elt F) → (⟨S100000x1x128, .f32⟩ : BufTy).Contents (Elt F)),
    StableHlo.unary main_v528 main_v530 (broadcastInDim S100000x5x128 ![0, 1, 2] bcast_S100000x5x1_S100000x5x128_0_1_2 : (⟨S100000x5x1, .f32⟩ : BufTy).Contents (Elt F) → (⟨S100000x5x128, .f32⟩ : BufTy).Contents (Elt F)),
    StableHlo.unary main_v529 main_v531 (broadcastInDim S100000x5x128 ![0, 1, 2] bcast_S100000x1x128_S100000x5x128_0_1_2 : (⟨S100000x1x128, .f32⟩ : BufTy).Contents (Elt F) → (⟨S100000x5x128, .f32⟩ : BufTy).Contents (Elt F)),
    StableHlo.binary main_v530 main_v531 main_v532 (mulf : (⟨S100000x5x128, .f32⟩ : BufTy).Contents (Elt F) → (⟨S100000x5x128, .f32⟩ : BufTy).Contents (Elt F) → (⟨S100000x5x128, .f32⟩ : BufTy).Contents (Elt F)),
    StableHlo.nullary main_cst_88 (constant S_ .f32 0x00000000#32),
    StableHlo.unary main_cst_88 main_v533 (broadcastInDim S1000x5x128 ![] bcast_S_S1000x5x128 : (⟨S_, .f32⟩ : BufTy).Contents (Elt F) → (⟨S1000x5x128, .f32⟩ : BufTy).Contents (Elt F)),
    StableHlo.unary main_arg3 main_v534 (broadcastInDim S100000x1 ![0] bcast_S100000_S100000x1_0 : (⟨S100000, .i32⟩ : BufTy).Contents (Elt F) → (⟨S100000x1, .i32⟩ : BufTy).Contents (Elt F)),
    StableHlo.ternary main_v533 main_v534 main_v532 main_v535 ((fun x i u => Host.scatterAdd scatter_S1000x5x128_S100000x1_S100000x5x128_12_0_0_1 x i u) : (⟨S1000x5x128, .f32⟩ : BufTy).Contents (Elt F) → (⟨S100000x1, .i32⟩ : BufTy).Contents (Elt F) → (⟨S100000x5x128, .f32⟩ : BufTy).Contents (Elt F) → (⟨S1000x5x128, .f32⟩ : BufTy).Contents (Elt F)),
    StableHlo.reshape main_v535 main_v536 rfl shapeCasts_S1000x5x128_S1000x640,
    StableHlo.TRef.nullary main_call19.cst (constant S_ .f32 0x00000000#32),
    StableHlo.TRef.unary main_call19.cst main_call19.v0 (broadcastInDim S1000x640 ![] bcast_S_S1000x640),
    StableHlo.TRef.binary (.of main_v536) main_call19.v0 main_call19.v1 maximumf,
    StableHlo.unary main_arg4 main_v538 (Host.absf : (⟨S64x128, .f32⟩ : BufTy).Contents (Elt F) → (⟨S64x128, .f32⟩ : BufTy).Contents (Elt F)),
    StableHlo.nullary main_cst_89 (constant S_ .f32 0x00000000#32),
    StableHlo.binary main_v538 main_cst_89 main_v539 ((fun x v => Host.reduceAdd x v reducesTo_S64x128_S_d0_1 h_S_) : (⟨S64x128, .f32⟩ : BufTy).Contents (Elt F) → (⟨S_, .f32⟩ : BufTy).Contents (Elt F) → (⟨S_, .f32⟩ : BufTy).Contents (Elt F)),
    StableHlo.unary main_arg8 main_v540 (Host.absf : (⟨S3x128x128, .f32⟩ : BufTy).Contents (Elt F) → (⟨S3x128x128, .f32⟩ : BufTy).Contents (Elt F)),
    StableHlo.nullary main_cst_90 (constant S_ .f32 0x00000000#32),
    StableHlo.binary main_v540 main_cst_90 main_v541 ((fun x v => Host.reduceAdd x v reducesTo_S3x128x128_S_d0_1_2 h_S_) : (⟨S3x128x128, .f32⟩ : BufTy).Contents (Elt F) → (⟨S_, .f32⟩ : BufTy).Contents (Elt F) → (⟨S_, .f32⟩ : BufTy).Contents (Elt F)),
    StableHlo.binary main_v539 main_v541 main_v542 (addf : (⟨S_, .f32⟩ : BufTy).Contents (Elt F) → (⟨S_, .f32⟩ : BufTy).Contents (Elt F) → (⟨S_, .f32⟩ : BufTy).Contents (Elt F)),
    StableHlo.unary main_arg12 main_v543 (Host.absf : (⟨S384x128, .f32⟩ : BufTy).Contents (Elt F) → (⟨S384x128, .f32⟩ : BufTy).Contents (Elt F)),
    StableHlo.nullary main_cst_91 (constant S_ .f32 0x00000000#32),
    StableHlo.binary main_v543 main_cst_91 main_v544 ((fun x v => Host.reduceAdd x v reducesTo_S384x128_S_d0_1 h_S_) : (⟨S384x128, .f32⟩ : BufTy).Contents (Elt F) → (⟨S_, .f32⟩ : BufTy).Contents (Elt F) → (⟨S_, .f32⟩ : BufTy).Contents (Elt F)),
    StableHlo.binary main_v542 main_v544 main_v545 (addf : (⟨S_, .f32⟩ : BufTy).Contents (Elt F) → (⟨S_, .f32⟩ : BufTy).Contents (Elt F) → (⟨S_, .f32⟩ : BufTy).Contents (Elt F)),
    StableHlo.unary main_arg15 main_v546 (Host.absf : (⟨S128x128, .f32⟩ : BufTy).Contents (Elt F) → (⟨S128x128, .f32⟩ : BufTy).Contents (Elt F)),
    StableHlo.nullary main_cst_92 (constant S_ .f32 0x00000000#32),
    StableHlo.binary main_v546 main_cst_92 main_v547 ((fun x v => Host.reduceAdd x v reducesTo_S128x128_S_d0_1 h_S_) : (⟨S128x128, .f32⟩ : BufTy).Contents (Elt F) → (⟨S_, .f32⟩ : BufTy).Contents (Elt F) → (⟨S_, .f32⟩ : BufTy).Contents (Elt F)),
    StableHlo.binary main_v545 main_v547 main_v548 (addf : (⟨S_, .f32⟩ : BufTy).Contents (Elt F) → (⟨S_, .f32⟩ : BufTy).Contents (Elt F) → (⟨S_, .f32⟩ : BufTy).Contents (Elt F)),
    StableHlo.unary main_arg19 main_v549 (Host.absf : (⟨S128x5, .f32⟩ : BufTy).Contents (Elt F) → (⟨S128x5, .f32⟩ : BufTy).Contents (Elt F)),
    StableHlo.nullary main_cst_93 (constant S_ .f32 0x00000000#32),
    StableHlo.binary main_v549 main_cst_93 main_v550 ((fun x v => Host.reduceAdd x v reducesTo_S128x5_S_d0_1 h_S_) : (⟨S128x5, .f32⟩ : BufTy).Contents (Elt F) → (⟨S_, .f32⟩ : BufTy).Contents (Elt F) → (⟨S_, .f32⟩ : BufTy).Contents (Elt F)),
    StableHlo.binary main_v548 main_v550 main_v551 (addf : (⟨S_, .f32⟩ : BufTy).Contents (Elt F) → (⟨S_, .f32⟩ : BufTy).Contents (Elt F) → (⟨S_, .f32⟩ : BufTy).Contents (Elt F)),
    StableHlo.nullary main_cst_94 (constant S_ .f32 0x447A0000#32),
    StableHlo.binary main_v551 main_cst_94 main_v552 (Host.divf : (⟨S_, .f32⟩ : BufTy).Contents (Elt F) → (⟨S_, .f32⟩ : BufTy).Contents (Elt F) → (⟨S_, .f32⟩ : BufTy).Contents (Elt F)) ]

/-- @main's 975 operations, in order: the windows' lists one after the other. -/
abbrev ops : List (HloOp τ sig (Elt F)) :=
  ops0 ++ (ops1 ++ (ops2 ++ (ops3 ++ (ops4 ++ (ops5 ++ (ops6 ++ (ops7 ++ (ops8 ++ (ops9 ++ (ops10))))))))))

/-! ## Each window is the straight line of its list -/

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl
set_option maxRecDepth 8192 in
set_option maxHeartbeats 4000000 in
theorem main_part3_eq (c : Dev nD) : main_part3 (F := F) c = seq ops3 := rfl
set_option maxRecDepth 8192 in
set_option maxHeartbeats 4000000 in
theorem main_part4_eq (c : Dev nD) : main_part4 (F := F) c = seq ops4 := rfl
set_option maxRecDepth 8192 in
set_option maxHeartbeats 4000000 in
theorem main_part5_eq (c : Dev nD) : main_part5 (F := F) c = seq ops5 := rfl
set_option maxRecDepth 8192 in
set_option maxHeartbeats 4000000 in
theorem main_part6_eq (c : Dev nD) : main_part6 (F := F) c = seq ops6 := rfl
set_option maxRecDepth 8192 in
set_option maxHeartbeats 4000000 in
theorem main_part7_eq (c : Dev nD) : main_part7 (F := F) c = seq ops7 := rfl
set_option maxRecDepth 8192 in
set_option maxHeartbeats 4000000 in
theorem main_part8_eq (c : Dev nD) : main_part8 (F := F) c = seq ops8 := rfl
set_option maxRecDepth 8192 in
set_option maxHeartbeats 4000000 in
theorem main_part9_eq (c : Dev nD) : main_part9 (F := F) c = seq ops9 := rfl
set_option maxRecDepth 8192 in
set_option maxHeartbeats 4000000 in
theorem main_part10_eq (c : Dev nD) : main_part10 (F := F) c = seq ops10 := rfl

/-- @main is the straight line of all its operations: a concatenation's line is the first list's, then the
    second's (seq_append), and each window is its own list's line. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines what it writes -/

set_option maxRecDepth 8192 in
theorem ops0_sub : (ops0 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub ..⟩
set_option maxRecDepth 8192 in
theorem ops1_sub : (ops1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩
set_option maxRecDepth 8192 in
theorem ops2_sub : (ops2 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nary_bufs_sub .., binary_bufs_sub .., nullary_bufs_sub .., binary_bufs_sub .., nullary_bufs_sub ..⟩
set_option maxRecDepth 8192 in
theorem ops3_sub : (ops3 : List (HloOp τ sig (Elt F))).Forall fun op => op.bufs ⊆ tcRefs τ sig :=
  ⟨unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩
set_option maxRecDepth 8192 in
theorem ops4_sub : (ops4 : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub ..⟩
set_option maxRecDepth 8192 in
theorem ops6_sub : (ops6 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub ..⟩
set_option maxRecDepth 8192 in
theorem ops7_sub : (ops7 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩
set_option maxRecDepth 8192 in
theorem ops8_sub : (ops8 : List (HloOp τ sig (Elt F))).Forall fun op => op.bufs ⊆ tcRefs τ sig :=
  ⟨ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub ..⟩
set_option maxRecDepth 8192 in
theorem ops9_sub : (ops9 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩
set_option maxRecDepth 8192 in
theorem ops10_sub : (ops10 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., unary_bufs_sub .., unary_bufs_sub .., binary_bufs_sub .., nullary_bufs_sub .., unary_bufs_sub .., unary_bufs_sub .., ternary_bufs_sub .., reshape_bufs_sub .., nullary_bufs_sub .., unary_bufs_sub .., binary_bufs_sub .., unary_bufs_sub .., nullary_bufs_sub .., binary_bufs_sub .., unary_bufs_sub .., nullary_bufs_sub .., binary_bufs_sub .., binary_bufs_sub .., unary_bufs_sub .., nullary_bufs_sub .., binary_bufs_sub .., binary_bufs_sub .., unary_bufs_sub .., nullary_bufs_sub .., binary_bufs_sub .., binary_bufs_sub .., unary_bufs_sub .., nullary_bufs_sub .., binary_bufs_sub .., binary_bufs_sub .., nullary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h]

set_option maxRecDepth 8192 in
theorem ops0_fresh : ∀ op ∈ (ops0 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops1_fresh : ∀ op ∈ (ops1 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops2_fresh : ∀ op ∈ (ops2 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops3_fresh : ∀ op ∈ (ops3 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops4_fresh : ∀ op ∈ (ops4 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops5_fresh : ∀ op ∈ (ops5 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops6_fresh : ∀ op ∈ (ops6 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops7_fresh : ∀ op ∈ (ops7 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops8_fresh : ∀ op ∈ (ops8 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops9_fresh : ∀ op ∈ (ops9 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops10_fresh : ∀ op ∈ (ops10 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- No operation of @main leaves a buffer it writes undetermined. -/
theorem ops_fresh : ∀ op ∈ (ops : List (HloOp τ sig (Elt F))), op.fresh = ∅ := fun op h => by
  simp only [ops, List.mem_append] at h
  rcases h with h | h | h | h | h | h | h | h | h | h | h
  exacts [ops0_fresh op h, ops1_fresh op h, ops2_fresh op h, ops3_fresh op h, ops4_fresh op h, ops5_fresh op h, ops6_fresh op h, ops7_fresh op h, ops8_fresh op h, ops9_fresh op h, ops10_fresh op h]

/-- On every device, for any float values, from any memory with zero counters: every weakly fair execution of
    @main terminates, and every final state has each TensorCore buffer at the fold of the operations' results
    over the device's launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefRun

end
-- ==== Proof.RefTerms.lean ====
/-
  The recurring terms of the reference's host program, as functions of whole arrays. Every batch-norm stage of the
  network forms the same few things from an array y of 100000 rows: its column sums, its column mean (the sums over
  the row count), its column variance (the column sums of the squared deviations from the mean, over the row count
  less a correction that is the integer zero converted, guarded by that divisor being positive), the standardised
  array (y − mean) · rsqrt(var + ε), and the affine map x · scale + shift, the vectors laid over the rows. They are
  named here once, over the contents they are applied to, so that every window's reads are stated with the same
  words. All are abbreviations: they unfold to the host operations they stand for.
-/
import proofs.«414479_j7705171329025_1_alg».proof.Proof.Gen.ReferenceIdeal

noncomputable section

namespace Cert.ReferenceIdeal.RefTerms

open Cert.ReferenceIdeal Cert.ReferenceIdeal.Gen Idealize.ShloMosaic

variable {F : FTy → Type} [FloatOps F]

/-! ## Scalars -/

/-- The scalar zero: every sum starts from it, and a positive part is the maximum with it. -/
abbrev zero : (⟨S_, .f32⟩ : BufTy).Contents (Elt F) := constant S_ .f32 0x00000000#32

/-- The row count, 100000. -/
abbrev count : (⟨S_, .f32⟩ : BufTy).Contents (Elt F) := constant S_ .f32 0x47C35000#32

/-- The batch norm's epsilon. -/
abbrev eps : (⟨S_, .f32⟩ : BufTy).Contents (Elt F) := constant S_ .f32 0x3727C5AC#32

/-- The not-a-number word a variance takes where its divisor is not positive. -/
abbrev nan : (⟨S_, .f32⟩ : BufTy).Contents (Elt F) := constant S_ .f32 0x7FC00000#32

/-- A variance's divisor: the row count less the correction c converted to a float. -/
abbrev dof (c : (⟨S_, .i32⟩ : BufTy).Contents (Elt F)) : (⟨S_, .f32⟩ : BufTy).Contents (Elt F) :=
  subf count (sitofp .f32 c)

/-! ## Arrays of 100000 rows and 128 columns -/

/-- A vector of 128 laid out as one row and that row repeated down the 100000 rows. -/
abbrev rows (v : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 v)

/-- The column sums. -/
abbrev colSum (y : (⟨S100000x128, .f32⟩ : BufTy).Contents (Elt F)) : (⟨S128, .f32⟩ : BufTy).Contents (Elt F) :=
  Host.reduceAdd y zero reducesTo_S100000x128_S128_d0 h_S_

/-- The column mean: the column sums over the row count. -/
abbrev colMean (y : (⟨S100000x128, .f32⟩ : BufTy).Contents (Elt F)) : (⟨S128, .f32⟩ : BufTy).Contents (Elt F) :=
  Host.divf (colSum y) (broadcastInDim S128 ![] bcast_S_S128 count)

/-- The deviations from the mean as the variance forms it: the column sums laid out as a row, over the row count as
    a row, repeated down the rows and taken off y. -/
abbrev dev (y : (⟨S100000x128, .f32⟩ : BufTy).Contents (Elt F)) : (⟨S100000x128, .f32⟩ : BufTy).Contents (Elt F) :=
  subf y (broadcastInDim S100000x128 ![0, 1] bcast_S1x128_S100000x128_0_1
    (Host.divf (broadcastInDim S1x128 ![1] bcast_S128_S1x128_1 (colSum y)) (broadcastInDim S1x128 ![] bcast_S_S1x128 count)))

/-- The column variance with correction c: where the divisor is positive the column sums of the squared deviations
    over it, elsewhere the not-a-number word. -/
abbrev colVar (y : (⟨S100000x128, .f32⟩ : BufTy).Contents (Elt F)) (c : (⟨S_, .i32⟩ : BufTy).Contents (Elt F)) :
    (⟨S128, .f32⟩ : BufTy).Contents (Elt F) :=
  select (broadcastInDim S128 ![] bcast_S_S128 (cmpf .ogt (dof c) (zero (F := F))))
    (Host.divf (colSum (mulf (dev y) (dev y))) (broadcastInDim S128 ![] bcast_S_S128 (dof c)))
    (broadcastInDim S128 ![] bcast_S_S128 nan)

/-- The standardised array: the deviations from the mean μ times the reciprocal root of the variance v plus epsilon. -/
abbrev standardise (y : (⟨S100000x128, .f32⟩ : BufTy).Contents (Elt F)) (μ v : (⟨S128, .f32⟩ : BufTy).Contents (Elt F)) :
    (⟨S100000x128, .f32⟩ : BufTy).Contents (Elt F) :=
  mulf (subf y (rows μ)) (rows (Host.rsqrt (addf v (broadcastInDim S128 ![] bcast_S_S128 eps))))

/-- The affine map: times the scale g, plus the shift β, both laid over the rows. -/
abbrev affine (x : (⟨S100000x128, .f32⟩ : BufTy).Contents (Elt F)) (g β : (⟨S128, .f32⟩ : BufTy).Contents (Elt F)) :
    (⟨S100000x128, .f32⟩ : BufTy).Contents (Elt F) :=
  addf (mulf x (rows g)) (rows β)

/-- The positive part: the entrywise maximum with zero. -/
abbrev relu (y : (⟨S100000x128, .f32⟩ : BufTy).Contents (Elt F)) : (⟨S100000x128, .f32⟩ : BufTy).Contents (Elt F) :=
  maximumf y (broadcastInDim S100000x128 ![] bcast_S_S100000x128 zero)

/-- An edge's endpoint index made non-negative (100000 added where it is below zero) and laid out as a column. -/
abbrev wrapIdx (i : (⟨S800000, .i32⟩ : BufTy).Contents (Elt F)) : (⟨S800000x1, .i32⟩ : BufTy).Contents (Elt F) :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 100000#32))) i)

/-! ## Arrays of 100000 rows and 5 columns: the same, for the assignment scores -/

/-- A vector of 5 laid out as one row and that row repeated down the 100000 rows. -/
abbrev rows5 (v : (⟨S5, .f32⟩ : BufTy).Contents (Elt F)) : (⟨S100000x5, .f32⟩ : BufTy).Contents (Elt F) :=
  broadcastInDim S100000x5 ![0, 1] bcast_S1x5_S100000x5_0_1 (broadcastInDim S1x5 ![1] bcast_S5_S1x5_1 v)

/-- The column sums. -/
abbrev colSum5 (y : (⟨S100000x5, .f32⟩ : BufTy).Contents (Elt F)) : (⟨S5, .f32⟩ : BufTy).Contents (Elt F) :=
  Host.reduceAdd y zero reducesTo_S100000x5_S5_d0 h_S_

/-- The column mean. -/
abbrev colMean5 (y : (⟨S100000x5, .f32⟩ : BufTy).Contents (Elt F)) : (⟨S5, .f32⟩ : BufTy).Contents (Elt F) :=
  Host.divf (colSum5 y) (broadcastInDim S5 ![] bcast_S_S5 count)

/-- The deviations from the mean as the variance forms it. -/
abbrev dev5 (y : (⟨S100000x5, .f32⟩ : BufTy).Contents (Elt F)) : (⟨S100000x5, .f32⟩ : BufTy).Contents (Elt F) :=
  subf y (broadcastInDim S100000x5 ![0, 1] bcast_S1x5_S100000x5_0_1
    (Host.divf (broadcastInDim S1x5 ![1] bcast_S5_S1x5_1 (colSum5 y)) (broadcastInDim S1x5 ![] bcast_S_S1x5 count)))

/-- The column variance with correction c. -/
abbrev colVar5 (y : (⟨S100000x5, .f32⟩ : BufTy).Contents (Elt F)) (c : (⟨S_, .i32⟩ : BufTy).Contents (Elt F)) :
    (⟨S5, .f32⟩ : BufTy).Contents (Elt F) :=
  select (broadcastInDim S5 ![] bcast_S_S5 (cmpf .ogt (dof c) (zero (F := F))))
    (Host.divf (colSum5 (mulf (dev5 y) (dev5 y))) (broadcastInDim S5 ![] bcast_S_S5 (dof c)))
    (broadcastInDim S5 ![] bcast_S_S5 nan)

/-- The standardised array. -/
abbrev standardise5 (y : (⟨S100000x5, .f32⟩ : BufTy).Contents (Elt F)) (μ v : (⟨S5, .f32⟩ : BufTy).Contents (Elt F)) :
    (⟨S100000x5, .f32⟩ : BufTy).Contents (Elt F) :=
  mulf (subf y (rows5 μ)) (rows5 (Host.rsqrt (addf v (broadcastInDim S5 ![] bcast_S_S5 eps))))

/-- The affine map. -/
abbrev affine5 (x : (⟨S100000x5, .f32⟩ : BufTy).Contents (Elt F)) (g β : (⟨S5, .f32⟩ : BufTy).Contents (Elt F)) :
    (⟨S100000x5, .f32⟩ : BufTy).Contents (Elt F) :=
  addf (mulf x (rows5 g)) (rows5 β)

end Cert.ReferenceIdeal.RefTerms

end
-- ==== Proof.RefStage0.lean ====
/- Window 0 of the reference's @main, read at any contents W of the buffers before it: for each buffer the window
   writes that a later window reads (for the last window, the program's two results), the contents after the
   window as the composition of the window's operations on the path to it, over W at the buffers the window
   reads from before it. A term the window uses more than once is named (t_‹buffer› W); the recurring terms of
   a batch-norm stage carry the names of the shared vocabulary. Each read is the fold of the operations'
   results computed at that buffer. -/
import proofs.«414479_j7705171329025_1_alg».proof.Proof.RefRun
import proofs.«414479_j7705171329025_1_alg».proof.Proof.RefTerms

noncomputable section

namespace Cert.ReferenceIdeal.RefStage0

open Cert.ReferenceIdeal Cert.ReferenceIdeal.Gen Cert.ReferenceIdeal.RefRun Cert.ReferenceIdeal.RefTerms
open Idealize.ShloMosaic Idealize.ShloMosaic.TcCoe Idealize.ShloMosaic.StableHlo

variable {F : FTy → Type} [FloatOps F]
variable (W : Valuation τ sig (Elt F))

/-- What the window forms in main_v3, over the contents before it. -/
abbrev t_v3 : (⟨S100000x128, .f32⟩ : BufTy).Contents (Elt F) :=
  (addf (Host.dotGeneral dot_S100000x64_S64x128_S100000x128_1_0_0_1_n_n none (W (Proc.devRef .tc main_arg0)) (W (Proc.devRef .tc main_arg4))) (RefTerms.rows (W (Proc.devRef .tc main_arg5))))

/-- What the window forms in main_v6, over the contents before it. -/
abbrev t_v6 : (⟨S128, .f32⟩ : BufTy).Contents (Elt F) :=
  (RefTerms.colMean (t_v3 W))

/-- What the window forms in main_v7, over the contents before it. -/
abbrev t_v7 : (⟨S128, .f32⟩ : BufTy).Contents (Elt F) :=
  (RefTerms.colVar (t_v3 W) (constantI S_ 32 0#32 : (⟨S_, .i32⟩ : BufTy).Contents (Elt F)))

/-- What the window forms in main_v22, over the contents before it. -/
abbrev t_v22 : (⟨S100000x128, .f32⟩ : BufTy).Contents (Elt F) :=
  (RefTerms.affine (RefTerms.standardise (t_v3 W) (t_v6 W) (t_v7 W)) (W (Proc.devRef .tc main_arg6)) (W (Proc.devRef .tc main_arg7)))

/-- What the window forms in main_v23, over the contents before it. -/
abbrev t_v23 : (⟨S100000x128, .f32⟩ : BufTy).Contents (Elt F) :=
  (RefTerms.relu (t_v22 W))

/-- What the window forms in main_v42, over the contents before it. -/
abbrev t_v42 : (⟨S100000x128, .f32⟩ : BufTy).Contents (Elt F) :=
  (addf (Host.dotGeneral dot_S100000x128_S128x128_S100000x128_1_0_0_1_n_n none (addf (Host.scatterAdd scatter_S100000x128_S800000x1_S800000x128_1_0_0_1 (broadcastInDim S100000x128 ![] bcast_S_S100000x128 (RefTerms.zero (F := F))) (broadcastInDim S800000x1 ![0] bcast_S800000_S800000x1_0 (W (Proc.devRef .tc main_arg2))) (Host.gather gather_S100000x128_S800000x1_S800000x128_1_0_n_n_0_1_1128 (t_v23 W) (RefTerms.wrapIdx (W (Proc.devRef .tc main_arg1))))) (t_v23 W)) (shapeCast S128x128 (extractStridedSlice S1x128x128 ![0, 0, 0] (W (Proc.devRef .tc main_arg8)) slices_S3x128x128_S1x128x128_0_0_0) shapeCasts_S1x128x128_S128x128)) (RefTerms.rows (shapeCast S128 (extractStridedSlice S1x128 ![0, 0] (W (Proc.devRef .tc main_arg9)) slices_S3x128_S1x128_0_0) shapeCasts_S1x128_S128)))

set_option maxRecDepth 8192 in
set_option maxHeartbeats 4000000 in
/-- The contents of main_v3 after the window (a buffer inside the window). -/
theorem read_v3 : (after ops0 W (Proc.devRef .tc main_v3) : (⟨S100000x128, .f32⟩ : BufTy).Contents (Elt F))
    = (t_v3 W) := by
  after_results_simp <;> rfl

set_option maxRecDepth 8192 in
set_option maxHeartbeats 4000000 in
/-- The contents of main_v6 after the window (a buffer inside the window). -/
theorem read_v6 : (after ops0 W (Proc.devRef .tc main_v6) : (⟨S128, .f32⟩ : BufTy).Contents (Elt F))
    = (t_v6 W) := by
  after_results_simp <;> rfl

set_option maxRecDepth 8192 in
set_option maxHeartbeats 4000000 in
/-- The contents of main_v7 after the window (a buffer inside the window). -/
theorem read_v7 : (after ops0 W (Proc.devRef .tc main_v7) : (⟨S128, .f32⟩ : BufTy).Contents (Elt F))
    = (t_v7 W) := by
  after_results_simp <;> rfl

set_option maxRecDepth 8192 in
set_option maxHeartbeats 4000000 in
/-- The contents of main_v22 after the window (a buffer inside the window). -/
theorem read_v22 : (after ops0 W (Proc.devRef .tc main_v22) : (⟨S100000x128, .f32⟩ : BufTy).Contents (Elt F))
    = (t_v22 W) := by
  after_results_simp <;> rfl

set_option maxRecDepth 8192 in
set_option maxHeartbeats 4000000 in
/-- The contents of main_v23 after the window (read by a later window). -/
theorem read_v23 : (after ops0 W (Proc.devRef .tc main_v23) : (⟨S100000x128, .f32⟩ : BufTy).Contents (Elt F))
    = (t_v23 W) := by
  after_results_simp <;> rfl

set_option maxRecDepth 8192 in
set_option maxHeartbeats 4000000 in
/-- The contents of main_v42 after the window (read by a later window). -/
theorem read_v42 : (after ops0 W (Proc.devRef .tc main_v42) : (⟨S100000x128, .f32⟩ : BufTy).Contents (Elt F))
    = (t_v42 W) := by
  after_results_simp <;> rfl

set_option maxRecDepth 8192 in
set_option maxHeartbeats 4000000 in
/-- The contents of main_v44 after the window (read by a later window). -/
theorem read_v44 : (after ops0 W (Proc.devRef .tc main_v44) : (⟨S128, .f32⟩ : BufTy).Contents (Elt F))
    = (shapeCast S128 (extractStridedSlice S1x128 ![0, 0] (W (Proc.devRef .tc main_arg10)) slices_S3x128_S1x128_0_0) shapeCasts_S1x128_S128) := by
  after_results_simp <;> rfl

set_option maxRecDepth 8192 in
set_option maxHeartbeats 4000000 in
/-- The contents of main_v46 after the window (read by a later window). -/
theorem read_v46 : (after ops0 W (Proc.devRef .tc main_v46) : (⟨S128, .f32⟩ : BufTy).Contents (Elt F))
    = (shapeCast S128 (extractStridedSlice S1x128 ![0, 0] (W (Proc.devRef .tc main_arg11)) slices_S3x128_S1x128_0_0) shapeCasts_S1x128_S128) := by
  after_results_simp <;> rfl

set_option maxRecDepth 8192 in
set_option maxHeartbeats 4000000 in
/-- The contents of main_v49 after the window (read by a later window). -/
theorem read_v49 : (after ops0 W (Proc.devRef .tc main_v49) : (⟨S128, .f32⟩ : BufTy).Contents (Elt F))
    = (RefTerms.colMean (t_v42 W)) := by
  after_results_simp <;> rfl

set_option maxRecDepth 8192 in
set_option maxHeartbeats 4000000 in
/-- The contents of main_c_7 after the window (read by a later window). -/
theorem read_c_7 : (after ops0 W (Proc.devRef .tc main_c_7) : (⟨S_, .i32⟩ : BufTy).Contents (Elt F))
    = (constantI S_ 32 0#32 : (⟨S_, .i32⟩ : BufTy).Contents (Elt F)) := by
  after_results_simp <;> rfl

/-! ## What the window writes, and that it leaves every other buffer alone -/

/-- The references the window writes, in order. -/
abbrev written : List (Ref sig .tc) :=
  [main_v0, main_v1, main_v2, main_v3, main_cst, main_v4, main_cst_0, main_v5, main_v6, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v7, main_v8, main_v9, main_v10, main_cst_1, main_v11, main_v12, main_v13, main_v14, main_v15, main_v16, main_v17, main_v18, main_v19, main_v20, main_v21, main_v22, main_call1_cst, main_call1_v0, main_v23, main_c_2, main_v24, main_v25, main_c_3, main_v26, main_v27, main_v28, main_v29, main_v30, main_cst_4, main_v31, main_v32, main_v33, main_v34, main_v35, main_v36, main_v37, main_v38, main_v39, main_v40, main_v41, main_v42, main_v43, main_v44, main_v45, main_v46, main_cst_5, main_v47, main_cst_6, main_v48, main_v49, main_c_7]

set_option maxRecDepth 8192 in
set_option maxHeartbeats 4000000 in
/-- Every operation of the window writes one of them. -/
theorem writes : (ops0 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, nary_writes, Finset.singleton_subset_iff, List.mem_toFinset]
    exact List.mem_map_of_mem (by decide)

/-- A reference the window does not write keeps its contents. -/
theorem keep {r : Ref sig .tc} (h : r ∉ written) : after ops0 W (Proc.devRef .tc r) = W (Proc.devRef .tc r) :=
  after_of_writes_sub ops0 W writes h

/-- For instance the first argument, which no window writes. -/
example : after ops0 W (Proc.devRef .tc main_arg0) = W (Proc.devRef .tc main_arg0) := keep W (by decide)

end Cert.ReferenceIdeal.RefStage0

end
-- ==== Proof.RefStage1.lean ====
/- Window 1 of the reference's @main, read at any contents W of the buffers before it: for each buffer the window
   writes that a later window reads (for the last window, the program's two results), the contents after the
   window as the composition of the window's operations on the path to it, over W at the buffers the window
   reads from before it. A term the window uses more than once is named (t_‹buffer› W); the recurring terms of
   a batch-norm stage carry the names of the shared vocabulary. Each read is the fold of the operations'
   results computed at that buffer. -/
import proofs.«414479_j7705171329025_1_alg».proof.Proof.RefRun
import proofs.«414479_j7705171329025_1_alg».proof.Proof.RefTerms

noncomputable section

namespace Cert.ReferenceIdeal.RefStage1

open Cert.ReferenceIdeal Cert.ReferenceIdeal.Gen Cert.ReferenceIdeal.RefRun Cert.ReferenceIdeal.RefTerms
open Idealize.ShloMosaic Idealize.ShloMosaic.TcCoe Idealize.ShloMosaic.StableHlo

variable {F : FTy → Type} [FloatOps F]
variable (W : Valuation τ sig (Elt F))

/-- What the window forms in main_v65, over the contents before it. -/
abbrev t_v65 : (⟨S100000x128, .f32⟩ : BufTy).Contents (Elt F) :=
  (RefTerms.affine (RefTerms.standardise (W (Proc.devRef .tc main_v42)) (W (Proc.devRef .tc main_v49)) (RefTerms.colVar (W (Proc.devRef .tc main_v42)) (W (Proc.devRef .tc main_c_7)))) (W (Proc.devRef .tc main_v44)) (W (Proc.devRef .tc main_v46)))

/-- What the window forms in main_v84, over the contents before it. -/
abbrev t_v84 : (⟨S100000x128, .f32⟩ : BufTy).Contents (Elt F) :=
  (addf (Host.dotGeneral dot_S100000x128_S128x128_S100000x128_1_0_0_1_n_n none (addf (Host.scatterAdd scatter_S100000x128_S800000x1_S800000x128_1_0_0_1 (broadcastInDim S100000x128 ![] bcast_S_S100000x128 (RefTerms.zero (F := F))) (broadcastInDim S800000x1 ![0] bcast_S800000_S800000x1_0 (W (Proc.devRef .tc main_arg2))) (Host.gather gather_S100000x128_S800000x1_S800000x128_1_0_n_n_0_1_1128 (t_v65 W) (RefTerms.wrapIdx (W (Proc.devRef .tc main_arg1))))) (W (Proc.devRef .tc main_v23))) (shapeCast S128x128 (extractStridedSlice S1x128x128 ![1, 0, 0] (W (Proc.devRef .tc main_arg8)) slices_S3x128x128_S1x128x128_1_0_0) shapeCasts_S1x128x128_S128x128)) (RefTerms.rows (shapeCast S128 (extractStridedSlice S1x128 ![1, 0] (W (Proc.devRef .tc main_arg9)) slices_S3x128_S1x128_1_0) shapeCasts_S1x128_S128)))

set_option maxRecDepth 8192 in
set_option maxHeartbeats 4000000 in
/-- The contents of main_v65 after the window (read by a later window). -/
theorem read_v65 : (after ops1 W (Proc.devRef .tc main_v65) : (⟨S100000x128, .f32⟩ : BufTy).Contents (Elt F))
    = (t_v65 W) := by
  after_results_simp <;> rfl

set_option maxRecDepth 8192 in
set_option maxHeartbeats 4000000 in
/-- The contents of main_v86 after the window (read by a later window). -/
theorem read_v86 : (after ops1 W (Proc.devRef .tc main_v86) : (⟨S128, .f32⟩ : BufTy).Contents (Elt F))
    = (shapeCast S128 (extractStridedSlice S1x128 ![1, 0] (W (Proc.devRef .tc main_arg10)) slices_S3x128_S1x128_1_0) shapeCasts_S1x128_S128) := by
  after_results_simp <;> rfl

set_option maxRecDepth 8192 in
set_option maxHeartbeats 4000000 in
/-- The contents of main_v88 after the window (read by a later window). -/
theorem read_v88 : (after ops1 W (Proc.devRef .tc main_v88) : (⟨S128, .f32⟩ : BufTy).Contents (Elt F))
    = (shapeCast S128 (extractStridedSlice S1x128 ![1, 0] (W (Proc.devRef .tc main_arg11)) slices_S3x128_S1x128_1_0) shapeCasts_S1x128_S128) := by
  after_results_simp <;> rfl

set_option maxRecDepth 8192 in
set_option maxHeartbeats 4000000 in
/-- The contents of main_v101 after the window (read by a later window). -/
theorem read_v101 : (after ops1 W (Proc.devRef .tc main_v101) : (⟨S100000x128, .f32⟩ : BufTy).Contents (Elt F))
    = (RefTerms.standardise (t_v84 W) (RefTerms.colMean (t_v84 W)) (RefTerms.colVar (t_v84 W) (constantI S_ 32 0#32 : (⟨S_, .i32⟩ : BufTy).Contents (Elt F)))) := by
  after_results_simp <;> rfl

/-! ## What the window writes, and that it leaves every other buffer alone -/

/-- The references the window writes, in order. -/
abbrev written : List (Ref sig .tc) :=
  [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v50, main_v51, main_v52, main_v53, main_cst_8, main_v54, main_v55, main_v56, main_v57, main_v58, main_v59, main_v60, main_v61, main_v62, main_v63, main_v64, main_v65, main_c_9, main_v66, main_v67, main_c_10, main_v68, main_v69, main_v70, main_v71, main_v72, main_cst_11, main_v73, main_v74, main_v75, main_v76, main_v77, main_v78, main_v79, main_v80, main_v81, main_v82, main_v83, main_v84, main_v85, main_v86, main_v87, main_v88, main_cst_12, main_v89, main_cst_13, main_v90, main_v91, main_c_14, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v92, main_v93, main_v94, main_v95, main_cst_15, main_v96, main_v97, main_v98, main_v99, main_v100, main_v101]

set_option maxRecDepth 8192 in
set_option maxHeartbeats 4000000 in
/-- Every operation of the window writes one of them. -/
theorem writes : (ops1 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, nary_writes, Finset.singleton_subset_iff, List.mem_toFinset]
    exact List.mem_map_of_mem (by decide)

/-- A reference the window does not write keeps its contents. -/
theorem keep {r : Ref sig .tc} (h : r ∉ written) : after ops1 W (Proc.devRef .tc r) = W (Proc.devRef .tc r) :=
  after_of_writes_sub ops1 W writes h

/-- For instance the first argument, which no window writes. -/
example : after ops1 W (Proc.devRef .tc main_arg0) = W (Proc.devRef .tc main_arg0) := keep W (by decide)

end Cert.ReferenceIdeal.RefStage1

end
-- ==== Proof.RefStage2.lean ====
/- Window 2 of the reference's @main, read at any contents W of the buffers before it: for each buffer the window
   writes that a later window reads (for the last window, the program's two results), the contents after the
   window as the composition of the window's operations on the path to it, over W at the buffers the window
   reads from before it. A term the window uses more than once is named (t_‹buffer› W); the recurring terms of
   a batch-norm stage carry the names of the shared vocabulary. Each read is the fold of the operations'
   results computed at that buffer. -/
import proofs.«414479_j7705171329025_1_alg».proof.Proof.RefRun
import proofs.«414479_j7705171329025_1_alg».proof.Proof.RefTerms

noncomputable section

namespace Cert.ReferenceIdeal.RefStage2

open Cert.ReferenceIdeal Cert.ReferenceIdeal.Gen Cert.ReferenceIdeal.RefRun Cert.ReferenceIdeal.RefTerms
open Idealize.ShloMosaic Idealize.ShloMosaic.TcCoe Idealize.ShloMosaic.StableHlo

variable {F : FTy → Type} [FloatOps F]
variable (W : Valuation τ sig (Elt F))

/-- What the window forms in main_v107, over the contents before it. -/
abbrev t_v107 : (⟨S100000x128, .f32⟩ : BufTy).Contents (Elt F) :=
  (RefTerms.affine (W (Proc.devRef .tc main_v101)) (W (Proc.devRef .tc main_v86)) (W (Proc.devRef .tc main_v88)))

/-- What the window forms in main_v126, over the contents before it. -/
abbrev t_v126 : (⟨S100000x128, .f32⟩ : BufTy).Contents (Elt F) :=
  (addf (Host.dotGeneral dot_S100000x128_S128x128_S100000x128_1_0_0_1_n_n none (addf (Host.scatterAdd scatter_S100000x128_S800000x1_S800000x128_1_0_0_1 (broadcastInDim S100000x128 ![] bcast_S_S100000x128 (RefTerms.zero (F := F))) (broadcastInDim S800000x1 ![0] bcast_S800000_S800000x1_0 (W (Proc.devRef .tc main_arg2))) (Host.gather gather_S100000x128_S800000x1_S800000x128_1_0_n_n_0_1_1128 (t_v107 W) (RefTerms.wrapIdx (W (Proc.devRef .tc main_arg1))))) (W (Proc.devRef .tc main_v23))) (shapeCast S128x128 (extractStridedSlice S1x128x128 ![2, 0, 0] (W (Proc.devRef .tc main_arg8)) slices_S3x128x128_S1x128x128_2_0_0) shapeCasts_S1x128x128_S128x128)) (RefTerms.rows (shapeCast S128 (extractStridedSlice S1x128 ![2, 0] (W (Proc.devRef .tc main_arg9)) slices_S3x128_S1x128_2_0) shapeCasts_S1x128_S128)))

/-- What the window forms in main_v149, over the contents before it. -/
abbrev t_v149 : (⟨S100000x128, .f32⟩ : BufTy).Contents (Elt F) :=
  (RefTerms.affine (RefTerms.standardise (t_v126 W) (RefTerms.colMean (t_v126 W)) (RefTerms.colVar (t_v126 W) (constantI S_ 32 0#32 : (⟨S_, .i32⟩ : BufTy).Contents (Elt F)))) (shapeCast S128 (extractStridedSlice S1x128 ![2, 0] (W (Proc.devRef .tc main_arg10)) slices_S3x128_S1x128_2_0) shapeCasts_S1x128_S128) (shapeCast S128 (extractStridedSlice S1x128 ![2, 0] (W (Proc.devRef .tc main_arg11)) slices_S3x128_S1x128_2_0) shapeCasts_S1x128_S128))

/-- What the window forms in main_v151, over the contents before it. -/
abbrev t_v151 : (⟨S100000x128, .f32⟩ : BufTy).Contents (Elt F) :=
  (Host.dotGeneral dot_S100000x384_S384x128_S100000x128_1_0_0_1_n_n none (concatenate S100000x384 1 [⟨S100000x128, (W (Proc.devRef .tc main_v65))⟩, ⟨S100000x128, (t_v107 W)⟩, ⟨S100000x128, (t_v149 W)⟩] concatenates_S100000x128_S100000x128_S100000x128_S100000x384_d1) (W (Proc.devRef .tc main_arg12)))

set_option maxRecDepth 8192 in
set_option maxHeartbeats 4000000 in
/-- The contents of main_v107 after the window (a buffer inside the window). -/
theorem read_v107 : (after ops2 W (Proc.devRef .tc main_v107) : (⟨S100000x128, .f32⟩ : BufTy).Contents (Elt F))
    = (t_v107 W) := by
  after_results_simp <;> rfl

set_option maxRecDepth 8192 in
set_option maxHeartbeats 4000000 in
/-- The contents of main_v149 after the window (a buffer inside the window). -/
theorem read_v149 : (after ops2 W (Proc.devRef .tc main_v149) : (⟨S100000x128, .f32⟩ : BufTy).Contents (Elt F))
    = (t_v149 W) := by
  after_results_simp <;> rfl

set_option maxRecDepth 8192 in
set_option maxHeartbeats 4000000 in
/-- The contents of main_v151 after the window (read by a later window). -/
theorem read_v151 : (after ops2 W (Proc.devRef .tc main_v151) : (⟨S100000x128, .f32⟩ : BufTy).Contents (Elt F))
    = (t_v151 W) := by
  after_results_simp <;> rfl

set_option maxRecDepth 8192 in
set_option maxHeartbeats 4000000 in
/-- The contents of main_v152 after the window (read by a later window). -/
theorem read_v152 : (after ops2 W (Proc.devRef .tc main_v152) : (⟨S128, .f32⟩ : BufTy).Contents (Elt F))
    = (RefTerms.colSum (t_v151 W)) := by
  after_results_simp <;> rfl

set_option maxRecDepth 8192 in
set_option maxHeartbeats 4000000 in
/-- The contents of main_cst_24 after the window (read by a later window). -/
theorem read_cst_24 : (after ops2 W (Proc.devRef .tc main_cst_24) : (⟨S_, .f32⟩ : BufTy).Contents (Elt F))
    = (RefTerms.count (F := F)) := by
  after_results_simp <;> rfl

/-! ## What the window writes, and that it leaves every other buffer alone -/

/-- The references the window writes, in order. -/
abbrev written : List (Ref sig .tc) :=
  [main_v102, main_v103, main_v104, main_v105, main_v106, main_v107, main_c_16, main_v108, main_v109, main_c_17, main_v110, main_v111, main_v112, main_v113, main_v114, main_cst_18, main_v115, main_v116, main_v117, main_v118, main_v119, main_v120, main_v121, main_v122, main_v123, main_v124, main_v125, main_v126, main_v127, main_v128, main_v129, main_v130, main_cst_19, main_v131, main_cst_20, main_v132, main_v133, main_c_21, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v134, main_v135, main_v136, main_v137, main_cst_22, main_v138, main_v139, main_v140, main_v141, main_v142, main_v143, main_v144, main_v145, main_v146, main_v147, main_v148, main_v149, main_v150, main_v151, main_cst_23, main_v152, main_cst_24]

set_option maxRecDepth 8192 in
set_option maxHeartbeats 4000000 in
/-- Every operation of the window writes one of them. -/
theorem writes : (ops2 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, nary_writes, Finset.singleton_subset_iff, List.mem_toFinset]
    exact List.mem_map_of_mem (by decide)

/-- A reference the window does not write keeps its contents. -/
theorem keep {r : Ref sig .tc} (h : r ∉ written) : after ops2 W (Proc.devRef .tc r) = W (Proc.devRef .tc r) :=
  after_of_writes_sub ops2 W writes h

/-- For instance the first argument, which no window writes. -/
example : after ops2 W (Proc.devRef .tc main_arg0) = W (Proc.devRef .tc main_arg0) := keep W (by decide)

end Cert.ReferenceIdeal.RefStage2

end
-- ==== Proof.RefStage3.lean ====
/- Window 3 of the reference's @main, read at any contents W of the buffers before it: for each buffer the window
   writes that a later window reads (for the last window, the program's two results), the contents after the
   window as the composition of the window's operations on the path to it, over W at the buffers the window
   reads from before it. A term the window uses more than once is named (t_‹buffer› W); the recurring terms of
   a batch-norm stage carry the names of the shared vocabulary. Each read is the fold of the operations'
   results computed at that buffer. -/
import proofs.«414479_j7705171329025_1_alg».proof.Proof.RefRun
import proofs.«414479_j7705171329025_1_alg».proof.Proof.RefTerms

noncomputable section

namespace Cert.ReferenceIdeal.RefStage3

open Cert.ReferenceIdeal Cert.ReferenceIdeal.Gen Cert.ReferenceIdeal.RefRun Cert.ReferenceIdeal.RefTerms
open Idealize.ShloMosaic Idealize.ShloMosaic.TcCoe Idealize.ShloMosaic.StableHlo

variable {F : FTy → Type} [FloatOps F]
variable (W : Valuation τ sig (Elt F))

/-- What the window forms in main_v171, over the contents before it. -/
abbrev t_v171 : (⟨S100000x128, .f32⟩ : BufTy).Contents (Elt F) :=
  (RefTerms.relu (RefTerms.affine (RefTerms.standardise (W (Proc.devRef .tc main_v151)) (Host.divf (W (Proc.devRef .tc main_v152)) (broadcastInDim S128 ![] bcast_S_S128 (W (Proc.devRef .tc main_cst_24)))) (RefTerms.colVar (W (Proc.devRef .tc main_v151)) (constantI S_ 32 0#32 : (⟨S_, .i32⟩ : BufTy).Contents (Elt F)))) (W (Proc.devRef .tc main_arg13)) (W (Proc.devRef .tc main_arg14))))

/-- What the window forms in main_v172, over the contents before it. -/
abbrev t_v172 : (⟨S100000x128, .f32⟩ : BufTy).Contents (Elt F) :=
  (addf (t_v171 W) (W (Proc.devRef .tc main_v23)))

/-- What the window forms in main_v191, over the contents before it. -/
abbrev t_v191 : (⟨S100000x128, .f32⟩ : BufTy).Contents (Elt F) :=
  (addf (Host.dotGeneral dot_S100000x128_S128x128_S100000x128_1_0_0_1_n_n none (addf (Host.scatterAdd scatter_S100000x128_S800000x1_S800000x128_1_0_0_1 (broadcastInDim S100000x128 ![] bcast_S_S100000x128 (RefTerms.zero (F := F))) (broadcastInDim S800000x1 ![0] bcast_S800000_S800000x1_0 (W (Proc.devRef .tc main_arg2))) (Host.gather gather_S100000x128_S800000x1_S800000x128_1_0_n_n_0_1_1128 (t_v172 W) (RefTerms.wrapIdx (W (Proc.devRef .tc main_arg1))))) (t_v172 W)) (shapeCast S128x128 (extractStridedSlice S1x128x128 ![0, 0, 0] (W (Proc.devRef .tc main_arg8)) slices_S3x128x128_S1x128x128_0_0_0) shapeCasts_S1x128x128_S128x128)) (RefTerms.rows (shapeCast S128 (extractStridedSlice S1x128 ![0, 0] (W (Proc.devRef .tc main_arg9)) slices_S3x128_S1x128_0_0) shapeCasts_S1x128_S128)))

set_option maxRecDepth 8192 in
set_option maxHeartbeats 4000000 in
/-- The contents of main_v171 after the window (a buffer inside the window). -/
theorem read_v171 : (after ops3 W (Proc.devRef .tc main_v171) : (⟨S100000x128, .f32⟩ : BufTy).Contents (Elt F))
    = (t_v171 W) := by
  after_results_simp <;> rfl

set_option maxRecDepth 8192 in
set_option maxHeartbeats 4000000 in
/-- The contents of main_v172 after the window (read by a later window). -/
theorem read_v172 : (after ops3 W (Proc.devRef .tc main_v172) : (⟨S100000x128, .f32⟩ : BufTy).Contents (Elt F))
    = (t_v172 W) := by
  after_results_simp <;> rfl

set_option maxRecDepth 8192 in
set_option maxHeartbeats 4000000 in
/-- The contents of main_v193 after the window (read by a later window). -/
theorem read_v193 : (after ops3 W (Proc.devRef .tc main_v193) : (⟨S128, .f32⟩ : BufTy).Contents (Elt F))
    = (shapeCast S128 (extractStridedSlice S1x128 ![0, 0] (W (Proc.devRef .tc main_arg10)) slices_S3x128_S1x128_0_0) shapeCasts_S1x128_S128) := by
  after_results_simp <;> rfl

set_option maxRecDepth 8192 in
set_option maxHeartbeats 4000000 in
/-- The contents of main_v195 after the window (read by a later window). -/
theorem read_v195 : (after ops3 W (Proc.devRef .tc main_v195) : (⟨S128, .f32⟩ : BufTy).Contents (Elt F))
    = (shapeCast S128 (extractStridedSlice S1x128 ![0, 0] (W (Proc.devRef .tc main_arg11)) slices_S3x128_S1x128_0_0) shapeCasts_S1x128_S128) := by
  after_results_simp <;> rfl

set_option maxRecDepth 8192 in
set_option maxHeartbeats 4000000 in
/-- The contents of main_v199 after the window (read by a later window). -/
theorem read_v199 : (after ops3 W (Proc.devRef .tc main_v199) : (⟨S128, .f32⟩ : BufTy).Contents (Elt F))
    = (RefTerms.colVar (t_v191 W) (constantI S_ 32 0#32 : (⟨S_, .i32⟩ : BufTy).Contents (Elt F))) := by
  after_results_simp <;> rfl

set_option maxRecDepth 8192 in
set_option maxHeartbeats 4000000 in
/-- The contents of main_v202 after the window (read by a later window). -/
theorem read_v202 : (after ops3 W (Proc.devRef .tc main_v202) : (⟨S100000x128, .f32⟩ : BufTy).Contents (Elt F))
    = (subf (t_v191 W) (RefTerms.rows (RefTerms.colMean (t_v191 W)))) := by
  after_results_simp <;> rfl

set_option maxRecDepth 8192 in
set_option maxHeartbeats 4000000 in
/-- The contents of main_v203 after the window (read by a later window). -/
theorem read_v203 : (after ops3 W (Proc.devRef .tc main_v203) : (⟨S128, .f32⟩ : BufTy).Contents (Elt F))
    = (broadcastInDim S128 ![] bcast_S_S128 (RefTerms.eps (F := F))) := by
  after_results_simp <;> rfl

/-! ## What the window writes, and that it leaves every other buffer alone -/

/-- The references the window writes, in order. -/
abbrev written : List (Ref sig .tc) :=
  [main_v153, main_v154, main_c_25, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v155, main_v156, main_v157, main_v158, main_cst_26, main_v159, main_v160, main_v161, main_v162, main_v163, main_v164, main_v165, main_v166, main_v167, main_v168, main_v169, main_v170, main_call6_cst, main_call6_v0, main_v171, main_v172, main_c_27, main_v173, main_v174, main_c_28, main_v175, main_v176, main_v177, main_v178, main_v179, main_cst_29, main_v180, main_v181, main_v182, main_v183, main_v184, main_v185, main_v186, main_v187, main_v188, main_v189, main_v190, main_v191, main_v192, main_v193, main_v194, main_v195, main_cst_30, main_v196, main_cst_31, main_v197, main_v198, main_c_32, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v199, main_v200, main_v201, main_v202, main_cst_33, main_v203]

set_option maxRecDepth 8192 in
set_option maxHeartbeats 4000000 in
/-- Every operation of the window writes one of them. -/
theorem writes : (ops3 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, nary_writes, Finset.singleton_subset_iff, List.mem_toFinset]
    exact List.mem_map_of_mem (by decide)

/-- A reference the window does not write keeps its contents. -/
theorem keep {r : Ref sig .tc} (h : r ∉ written) : after ops3 W (Proc.devRef .tc r) = W (Proc.devRef .tc r) :=
  after_of_writes_sub ops3 W writes h

/-- For instance the first argument, which no window writes. -/
example : after ops3 W (Proc.devRef .tc main_arg0) = W (Proc.devRef .tc main_arg0) := keep W (by decide)

end Cert.ReferenceIdeal.RefStage3

end
-- ==== Proof.RefStage4.lean ====
/- Window 4 of the reference's @main, read at any contents W of the buffers before it: for each buffer the window
   writes that a later window reads (for the last window, the program's two results), the contents after the
   window as the composition of the window's operations on the path to it, over W at the buffers the window
   reads from before it. A term the window uses more than once is named (t_‹buffer› W); the recurring terms of
   a batch-norm stage carry the names of the shared vocabulary. Each read is the fold of the operations'
   results computed at that buffer. -/
import proofs.«414479_j7705171329025_1_alg».proof.Proof.RefRun
import proofs.«414479_j7705171329025_1_alg».proof.Proof.RefTerms

noncomputable section

namespace Cert.ReferenceIdeal.RefStage4

open Cert.ReferenceIdeal Cert.ReferenceIdeal.Gen Cert.ReferenceIdeal.RefRun Cert.ReferenceIdeal.RefTerms
open Idealize.ShloMosaic Idealize.ShloMosaic.TcCoe Idealize.ShloMosaic.StableHlo

variable {F : FTy → Type} [FloatOps F]
variable (W : Valuation τ sig (Elt F))

/-- What the window forms in main_v214, over the contents before it. -/
abbrev t_v214 : (⟨S100000x128, .f32⟩ : BufTy).Contents (Elt F) :=
  (RefTerms.affine (mulf (W (Proc.devRef .tc main_v202)) (RefTerms.rows (Host.rsqrt (addf (W (Proc.devRef .tc main_v199)) (W (Proc.devRef .tc main_v203)))))) (W (Proc.devRef .tc main_v193)) (W (Proc.devRef .tc main_v195)))

/-- What the window forms in main_v233, over the contents before it. -/
abbrev t_v233 : (⟨S100000x128, .f32⟩ : BufTy).Contents (Elt F) :=
  (addf (Host.dotGeneral dot_S100000x128_S128x128_S100000x128_1_0_0_1_n_n none (addf (Host.scatterAdd scatter_S100000x128_S800000x1_S800000x128_1_0_0_1 (broadcastInDim S100000x128 ![] bcast_S_S100000x128 (RefTerms.zero (F := F))) (broadcastInDim S800000x1 ![0] bcast_S800000_S800000x1_0 (W (Proc.devRef .tc main_arg2))) (Host.gather gather_S100000x128_S800000x1_S800000x128_1_0_n_n_0_1_1128 (t_v214 W) (RefTerms.wrapIdx (W (Proc.devRef .tc main_arg1))))) (W (Proc.devRef .tc main_v172))) (shapeCast S128x128 (extractStridedSlice S1x128x128 ![1, 0, 0] (W (Proc.devRef .tc main_arg8)) slices_S3x128x128_S1x128x128_1_0_0) shapeCasts_S1x128x128_S128x128)) (RefTerms.rows (shapeCast S128 (extractStridedSlice S1x128 ![1, 0] (W (Proc.devRef .tc main_arg9)) slices_S3x128_S1x128_1_0) shapeCasts_S1x128_S128)))

set_option maxRecDepth 8192 in
set_option maxHeartbeats 4000000 in
/-- The contents of main_v214 after the window (read by a later window). -/
theorem read_v214 : (after ops4 W (Proc.devRef .tc main_v214) : (⟨S100000x128, .f32⟩ : BufTy).Contents (Elt F))
    = (t_v214 W) := by
  after_results_simp <;> rfl

set_option maxRecDepth 8192 in
set_option maxHeartbeats 4000000 in
/-- The contents of main_v256 after the window (read by a later window). -/
theorem read_v256 : (after ops4 W (Proc.devRef .tc main_v256) : (⟨S100000x128, .f32⟩ : BufTy).Contents (Elt F))
    = (RefTerms.affine (RefTerms.standardise (t_v233 W) (RefTerms.colMean (t_v233 W)) (RefTerms.colVar (t_v233 W) (constantI S_ 32 0#32 : (⟨S_, .i32⟩ : BufTy).Contents (Elt F)))) (shapeCast S128 (extractStridedSlice S1x128 ![1, 0] (W (Proc.devRef .tc main_arg10)) slices_S3x128_S1x128_1_0) shapeCasts_S1x128_S128) (shapeCast S128 (extractStridedSlice S1x128 ![1, 0] (W (Proc.devRef .tc main_arg11)) slices_S3x128_S1x128_1_0) shapeCasts_S1x128_S128)) := by
  after_results_simp <;> rfl

/-! ## What the window writes, and that it leaves every other buffer alone -/

/-- The references the window writes, in order. -/
abbrev written : List (Ref sig .tc) :=
  [main_v204, main_v205, main_v206, main_v207, main_v208, main_v209, main_v210, main_v211, main_v212, main_v213, main_v214, main_c_34, main_v215, main_v216, main_c_35, main_v217, main_v218, main_v219, main_v220, main_v221, main_cst_36, main_v222, main_v223, main_v224, main_v225, main_v226, main_v227, main_v228, main_v229, main_v230, main_v231, main_v232, main_v233, main_v234, main_v235, main_v236, main_v237, main_cst_37, main_v238, main_cst_38, main_v239, main_v240, main_c_39, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v241, main_v242, main_v243, main_v244, main_cst_40, main_v245, main_v246, main_v247, main_v248, main_v249, main_v250, main_v251, main_v252, main_v253, main_v254, main_v255, main_v256]

set_option maxRecDepth 8192 in
set_option maxHeartbeats 4000000 in
/-- Every operation of the window writes one of them. -/
theorem writes : (ops4 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, nary_writes, Finset.singleton_subset_iff, List.mem_toFinset]
    exact List.mem_map_of_mem (by decide)

/-- A reference the window does not write keeps its contents. -/
theorem keep {r : Ref sig .tc} (h : r ∉ written) : after ops4 W (Proc.devRef .tc r) = W (Proc.devRef .tc r) :=
  after_of_writes_sub ops4 W writes h

/-- For instance the first argument, which no window writes. -/
example : after ops4 W (Proc.devRef .tc main_arg0) = W (Proc.devRef .tc main_arg0) := keep W (by decide)

end Cert.ReferenceIdeal.RefStage4

end
-- ==== Proof.RefStage5.lean ====
/- Window 5 of the reference's @main, read at any contents W of the buffers before it: for each buffer the window
   writes that a later window reads (for the last window, the program's two results), the contents after the
   window as the composition of the window's operations on the path to it, over W at the buffers the window
   reads from before it. A term the window uses more than once is named (t_‹buffer› W); the recurring terms of
   a batch-norm stage carry the names of the shared vocabulary. Each read is the fold of the operations'
   results computed at that buffer. -/
import proofs.«414479_j7705171329025_1_alg».proof.Proof.RefRun
import proofs.«414479_j7705171329025_1_alg».proof.Proof.RefTerms

noncomputable section

namespace Cert.ReferenceIdeal.RefStage5

open Cert.ReferenceIdeal Cert.ReferenceIdeal.Gen Cert.ReferenceIdeal.RefRun Cert.ReferenceIdeal.RefTerms
open Idealize.ShloMosaic Idealize.ShloMosaic.TcCoe Idealize.ShloMosaic.StableHlo

variable {F : FTy → Type} [FloatOps F]
variable (W : Valuation τ sig (Elt F))

/-- What the window forms in main_v275, over the contents before it. -/
abbrev t_v275 : (⟨S100000x128, .f32⟩ : BufTy).Contents (Elt F) :=
  (addf (Host.dotGeneral dot_S100000x128_S128x128_S100000x128_1_0_0_1_n_n none (addf (Host.scatterAdd scatter_S100000x128_S800000x1_S800000x128_1_0_0_1 (broadcastInDim S100000x128 ![] bcast_S_S100000x128 (RefTerms.zero (F := F))) (broadcastInDim S800000x1 ![0] bcast_S800000_S800000x1_0 (W (Proc.devRef .tc main_arg2))) (Host.gather gather_S100000x128_S800000x1_S800000x128_1_0_n_n_0_1_1128 (W (Proc.devRef .tc main_v256)) (RefTerms.wrapIdx (W (Proc.devRef .tc main_arg1))))) (W (Proc.devRef .tc main_v172))) (shapeCast S128x128 (extractStridedSlice S1x128x128 ![2, 0, 0] (W (Proc.devRef .tc main_arg8)) slices_S3x128x128_S1x128x128_2_0_0) shapeCasts_S1x128x128_S128x128)) (RefTerms.rows (shapeCast S128 (extractStridedSlice S1x128 ![2, 0] (W (Proc.devRef .tc main_arg9)) slices_S3x128_S1x128_2_0) shapeCasts_S1x128_S128)))

/-- What the window forms in main_v298, over the contents before it. -/
abbrev t_v298 : (⟨S100000x128, .f32⟩ : BufTy).Contents (Elt F) :=
  (RefTerms.affine (RefTerms.standardise (t_v275 W) (RefTerms.colMean (t_v275 W)) (RefTerms.colVar (t_v275 W) (constantI S_ 32 0#32 : (⟨S_, .i32⟩ : BufTy).Contents (Elt F)))) (shapeCast S128 (extractStridedSlice S1x128 ![2, 0] (W (Proc.devRef .tc main_arg10)) slices_S3x128_S1x128_2_0) shapeCasts_S1x128_S128) (shapeCast S128 (extractStridedSlice S1x128 ![2, 0] (W (Proc.devRef .tc main_arg11)) slices_S3x128_S1x128_2_0) shapeCasts_S1x128_S128))

/-- What the window forms in main_v300, over the contents before it. -/
abbrev t_v300 : (⟨S100000x128, .f32⟩ : BufTy).Contents (Elt F) :=
  (Host.dotGeneral dot_S100000x384_S384x128_S100000x128_1_0_0_1_n_n none (concatenate S100000x384 1 [⟨S100000x128, (W (Proc.devRef .tc main_v214))⟩, ⟨S100000x128, (W (Proc.devRef .tc main_v256))⟩, ⟨S100000x128, (t_v298 W)⟩] concatenates_S100000x128_S100000x128_S100000x128_S100000x384_d1) (W (Proc.devRef .tc main_arg12)))

set_option maxRecDepth 8192 in
set_option maxHeartbeats 4000000 in
/-- The contents of main_v298 after the window (a buffer inside the window). -/
theorem read_v298 : (after ops5 W (Proc.devRef .tc main_v298) : (⟨S100000x128, .f32⟩ : BufTy).Contents (Elt F))
    = (t_v298 W) := by
  after_results_simp <;> rfl

set_option maxRecDepth 8192 in
set_option maxHeartbeats 4000000 in
/-- The contents of main_v300 after the window (read by a later window). -/
theorem read_v300 : (after ops5 W (Proc.devRef .tc main_v300) : (⟨S100000x128, .f32⟩ : BufTy).Contents (Elt F))
    = (t_v300 W) := by
  after_results_simp <;> rfl

set_option maxRecDepth 8192 in
set_option maxHeartbeats 4000000 in
/-- The contents of main_v304 after the window (read by a later window). -/
theorem read_v304 : (after ops5 W (Proc.devRef .tc main_v304) : (⟨S128, .f32⟩ : BufTy).Contents (Elt F))
    = (RefTerms.colVar (t_v300 W) (constantI S_ 32 0#32 : (⟨S_, .i32⟩ : BufTy).Contents (Elt F))) := by
  after_results_simp <;> rfl

set_option maxRecDepth 8192 in
set_option maxHeartbeats 4000000 in
/-- The contents of main_v306 after the window (read by a later window). -/
theorem read_v306 : (after ops5 W (Proc.devRef .tc main_v306) : (⟨S100000x128, .f32⟩ : BufTy).Contents (Elt F))
    = (RefTerms.rows (RefTerms.colMean (t_v300 W))) := by
  after_results_simp <;> rfl

/-! ## What the window writes, and that it leaves every other buffer alone -/

/-- The references the window writes, in order. -/
abbrev written : List (Ref sig .tc) :=
  [main_c_41, main_v257, main_v258, main_c_42, main_v259, main_v260, main_v261, main_v262, main_v263, main_cst_43, main_v264, main_v265, main_v266, main_v267, main_v268, main_v269, main_v270, main_v271, main_v272, main_v273, main_v274, main_v275, main_v276, main_v277, main_v278, main_v279, main_cst_44, main_v280, main_cst_45, main_v281, main_v282, main_c_46, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v283, main_v284, main_v285, main_v286, main_cst_47, main_v287, main_v288, main_v289, main_v290, main_v291, main_v292, main_v293, main_v294, main_v295, main_v296, main_v297, main_v298, main_v299, main_v300, main_cst_48, main_v301, main_cst_49, main_v302, main_v303, main_c_50, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v304, main_v305, main_v306]

set_option maxRecDepth 8192 in
set_option maxHeartbeats 4000000 in
/-- Every operation of the window writes one of them. -/
theorem writes : (ops5 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, nary_writes, Finset.singleton_subset_iff, List.mem_toFinset]
    exact List.mem_map_of_mem (by decide)

/-- A reference the window does not write keeps its contents. -/
theorem keep {r : Ref sig .tc} (h : r ∉ written) : after ops5 W (Proc.devRef .tc r) = W (Proc.devRef .tc r) :=
  after_of_writes_sub ops5 W writes h

/-- For instance the first argument, which no window writes. -/
example : after ops5 W (Proc.devRef .tc main_arg0) = W (Proc.devRef .tc main_arg0) := keep W (by decide)

end Cert.ReferenceIdeal.RefStage5

end
-- ==== Proof.RefStage6.lean ====
/- Window 6 of the reference's @main, read at any contents W of the buffers before it: for each buffer the window
   writes that a later window reads (for the last window, the program's two results), the contents after the
   window as the composition of the window's operations on the path to it, over W at the buffers the window
   reads from before it. A term the window uses more than once is named (t_‹buffer› W); the recurring terms of
   a batch-norm stage carry the names of the shared vocabulary. Each read is the fold of the operations'
   results computed at that buffer. -/
import proofs.«414479_j7705171329025_1_alg».proof.Proof.RefRun
import proofs.«414479_j7705171329025_1_alg».proof.Proof.RefTerms

noncomputable section

namespace Cert.ReferenceIdeal.RefStage6

open Cert.ReferenceIdeal Cert.ReferenceIdeal.Gen Cert.ReferenceIdeal.RefRun Cert.ReferenceIdeal.RefTerms
open Idealize.ShloMosaic Idealize.ShloMosaic.TcCoe Idealize.ShloMosaic.StableHlo

variable {F : FTy → Type} [FloatOps F]
variable (W : Valuation τ sig (Elt F))

/-- What the window forms in main_v320, over the contents before it. -/
abbrev t_v320 : (⟨S100000x128, .f32⟩ : BufTy).Contents (Elt F) :=
  (RefTerms.relu (RefTerms.affine (mulf (subf (W (Proc.devRef .tc main_v300)) (W (Proc.devRef .tc main_v306))) (RefTerms.rows (Host.rsqrt (addf (W (Proc.devRef .tc main_v304)) (broadcastInDim S128 ![] bcast_S_S128 (RefTerms.eps (F := F))))))) (W (Proc.devRef .tc main_arg13)) (W (Proc.devRef .tc main_arg14))))

/-- What the window forms in main_v321, over the contents before it. -/
abbrev t_v321 : (⟨S100000x128, .f32⟩ : BufTy).Contents (Elt F) :=
  (addf (t_v320 W) (W (Proc.devRef .tc main_v23)))

/-- What the window forms in main_v340, over the contents before it. -/
abbrev t_v340 : (⟨S100000x128, .f32⟩ : BufTy).Contents (Elt F) :=
  (addf (Host.dotGeneral dot_S100000x128_S128x128_S100000x128_1_0_0_1_n_n none (addf (Host.scatterAdd scatter_S100000x128_S800000x1_S800000x128_1_0_0_1 (broadcastInDim S100000x128 ![] bcast_S_S100000x128 (RefTerms.zero (F := F))) (broadcastInDim S800000x1 ![0] bcast_S800000_S800000x1_0 (W (Proc.devRef .tc main_arg2))) (Host.gather gather_S100000x128_S800000x1_S800000x128_1_0_n_n_0_1_1128 (t_v321 W) (RefTerms.wrapIdx (W (Proc.devRef .tc main_arg1))))) (t_v321 W)) (shapeCast S128x128 (extractStridedSlice S1x128x128 ![0, 0, 0] (W (Proc.devRef .tc main_arg8)) slices_S3x128x128_S1x128x128_0_0_0) shapeCasts_S1x128x128_S128x128)) (RefTerms.rows (shapeCast S128 (extractStridedSlice S1x128 ![0, 0] (W (Proc.devRef .tc main_arg9)) slices_S3x128_S1x128_0_0) shapeCasts_S1x128_S128)))

set_option maxRecDepth 8192 in
set_option maxHeartbeats 4000000 in
/-- The contents of main_v320 after the window (a buffer inside the window). -/
theorem read_v320 : (after ops6 W (Proc.devRef .tc main_v320) : (⟨S100000x128, .f32⟩ : BufTy).Contents (Elt F))
    = (t_v320 W) := by
  after_results_simp <;> rfl

set_option maxRecDepth 8192 in
set_option maxHeartbeats 4000000 in
/-- The contents of main_v321 after the window (read by a later window). -/
theorem read_v321 : (after ops6 W (Proc.devRef .tc main_v321) : (⟨S100000x128, .f32⟩ : BufTy).Contents (Elt F))
    = (t_v321 W) := by
  after_results_simp <;> rfl

set_option maxRecDepth 8192 in
set_option maxHeartbeats 4000000 in
/-- The contents of main_v344 after the window (read by a later window). -/
theorem read_v344 : (after ops6 W (Proc.devRef .tc main_v344) : (⟨S128, .f32⟩ : BufTy).Contents (Elt F))
    = (shapeCast S128 (extractStridedSlice S1x128 ![0, 0] (W (Proc.devRef .tc main_arg11)) slices_S3x128_S1x128_0_0) shapeCasts_S1x128_S128) := by
  after_results_simp <;> rfl

set_option maxRecDepth 8192 in
set_option maxHeartbeats 4000000 in
/-- The contents of main_v357 after the window (read by a later window). -/
theorem read_v357 : (after ops6 W (Proc.devRef .tc main_v357) : (⟨S100000x128, .f32⟩ : BufTy).Contents (Elt F))
    = (RefTerms.standardise (t_v340 W) (RefTerms.colMean (t_v340 W)) (RefTerms.colVar (t_v340 W) (constantI S_ 32 0#32 : (⟨S_, .i32⟩ : BufTy).Contents (Elt F)))) := by
  after_results_simp <;> rfl

set_option maxRecDepth 8192 in
set_option maxHeartbeats 4000000 in
/-- The contents of main_v358 after the window (read by a later window). -/
theorem read_v358 : (after ops6 W (Proc.devRef .tc main_v358) : (⟨S1x128, .f32⟩ : BufTy).Contents (Elt F))
    = (broadcastInDim S1x128 ![1] bcast_S128_S1x128_1 (shapeCast S128 (extractStridedSlice S1x128 ![0, 0] (W (Proc.devRef .tc main_arg10)) slices_S3x128_S1x128_0_0) shapeCasts_S1x128_S128)) := by
  after_results_simp <;> rfl

/-! ## What the window writes, and that it leaves every other buffer alone -/

/-- The references the window writes, in order. -/
abbrev written : List (Ref sig .tc) :=
  [main_v307, main_cst_51, main_v308, main_v309, main_v310, main_v311, main_v312, main_v313, main_v314, main_v315, main_v316, main_v317, main_v318, main_v319, main_call11_cst, main_call11_v0, main_v320, main_v321, main_c_52, main_v322, main_v323, main_c_53, main_v324, main_v325, main_v326, main_v327, main_v328, main_cst_54, main_v329, main_v330, main_v331, main_v332, main_v333, main_v334, main_v335, main_v336, main_v337, main_v338, main_v339, main_v340, main_v341, main_v342, main_v343, main_v344, main_cst_55, main_v345, main_cst_56, main_v346, main_v347, main_c_57, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v348, main_v349, main_v350, main_v351, main_cst_58, main_v352, main_v353, main_v354, main_v355, main_v356, main_v357, main_v358]

set_option maxRecDepth 8192 in
set_option maxHeartbeats 4000000 in
/-- Every operation of the window writes one of them. -/
theorem writes : (ops6 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, nary_writes, Finset.singleton_subset_iff, List.mem_toFinset]
    exact List.mem_map_of_mem (by decide)

/-- A reference the window does not write keeps its contents. -/
theorem keep {r : Ref sig .tc} (h : r ∉ written) : after ops6 W (Proc.devRef .tc r) = W (Proc.devRef .tc r) :=
  after_of_writes_sub ops6 W writes h

/-- For instance the first argument, which no window writes. -/
example : after ops6 W (Proc.devRef .tc main_arg0) = W (Proc.devRef .tc main_arg0) := keep W (by decide)

end Cert.ReferenceIdeal.RefStage6

end
-- ==== Proof.RefStage7.lean ====
/- Window 7 of the reference's @main, read at any contents W of the buffers before it: for each buffer the window
   writes that a later window reads (for the last window, the program's two results), the contents after the
   window as the composition of the window's operations on the path to it, over W at the buffers the window
   reads from before it. A term the window uses more than once is named (t_‹buffer› W); the recurring terms of
   a batch-norm stage carry the names of the shared vocabulary. Each read is the fold of the operations'
   results computed at that buffer. -/
import proofs.«414479_j7705171329025_1_alg».proof.Proof.RefRun
import proofs.«414479_j7705171329025_1_alg».proof.Proof.RefTerms

noncomputable section

namespace Cert.ReferenceIdeal.RefStage7

open Cert.ReferenceIdeal Cert.ReferenceIdeal.Gen Cert.ReferenceIdeal.RefRun Cert.ReferenceIdeal.RefTerms
open Idealize.ShloMosaic Idealize.ShloMosaic.TcCoe Idealize.ShloMosaic.StableHlo

variable {F : FTy → Type} [FloatOps F]
variable (W : Valuation τ sig (Elt F))

/-- What the window forms in main_v363, over the contents before it. -/
abbrev t_v363 : (⟨S100000x128, .f32⟩ : BufTy).Contents (Elt F) :=
  (addf (mulf (W (Proc.devRef .tc main_v357)) (broadcastInDim S100000x128 ![0, 1] bcast_S1x128_S100000x128_0_1 (W (Proc.devRef .tc main_v358)))) (RefTerms.rows (W (Proc.devRef .tc main_v344))))

/-- What the window forms in main_v382, over the contents before it. -/
abbrev t_v382 : (⟨S100000x128, .f32⟩ : BufTy).Contents (Elt F) :=
  (addf (Host.dotGeneral dot_S100000x128_S128x128_S100000x128_1_0_0_1_n_n none (addf (Host.scatterAdd scatter_S100000x128_S800000x1_S800000x128_1_0_0_1 (broadcastInDim S100000x128 ![] bcast_S_S100000x128 (RefTerms.zero (F := F))) (broadcastInDim S800000x1 ![0] bcast_S800000_S800000x1_0 (W (Proc.devRef .tc main_arg2))) (Host.gather gather_S100000x128_S800000x1_S800000x128_1_0_n_n_0_1_1128 (t_v363 W) (RefTerms.wrapIdx (W (Proc.devRef .tc main_arg1))))) (W (Proc.devRef .tc main_v321))) (shapeCast S128x128 (extractStridedSlice S1x128x128 ![1, 0, 0] (W (Proc.devRef .tc main_arg8)) slices_S3x128x128_S1x128x128_1_0_0) shapeCasts_S1x128x128_S128x128)) (RefTerms.rows (shapeCast S128 (extractStridedSlice S1x128 ![1, 0] (W (Proc.devRef .tc main_arg9)) slices_S3x128_S1x128_1_0) shapeCasts_S1x128_S128)))

set_option maxRecDepth 8192 in
set_option maxHeartbeats 4000000 in
/-- The contents of main_v363 after the window (read by a later window). -/
theorem read_v363 : (after ops7 W (Proc.devRef .tc main_v363) : (⟨S100000x128, .f32⟩ : BufTy).Contents (Elt F))
    = (t_v363 W) := by
  after_results_simp <;> rfl

set_option maxRecDepth 8192 in
set_option maxHeartbeats 4000000 in
/-- The contents of main_v405 after the window (read by a later window). -/
theorem read_v405 : (after ops7 W (Proc.devRef .tc main_v405) : (⟨S100000x128, .f32⟩ : BufTy).Contents (Elt F))
    = (RefTerms.affine (RefTerms.standardise (t_v382 W) (RefTerms.colMean (t_v382 W)) (RefTerms.colVar (t_v382 W) (constantI S_ 32 0#32 : (⟨S_, .i32⟩ : BufTy).Contents (Elt F)))) (shapeCast S128 (extractStridedSlice S1x128 ![1, 0] (W (Proc.devRef .tc main_arg10)) slices_S3x128_S1x128_1_0) shapeCasts_S1x128_S128) (shapeCast S128 (extractStridedSlice S1x128 ![1, 0] (W (Proc.devRef .tc main_arg11)) slices_S3x128_S1x128_1_0) shapeCasts_S1x128_S128)) := by
  after_results_simp <;> rfl

set_option maxRecDepth 8192 in
set_option maxHeartbeats 4000000 in
/-- The contents of main_v407 after the window (read by a later window). -/
theorem read_v407 : (after ops7 W (Proc.devRef .tc main_v407) : (⟨S800000, .i1⟩ : BufTy).Contents (Elt F))
    = (cmpi .slt (W (Proc.devRef .tc main_arg1)) (broadcastInDim S800000 ![] bcast_S_S800000 (constantI S_ 32 0#32 : (⟨S_, .i32⟩ : BufTy).Contents (Elt F)))) := by
  after_results_simp <;> rfl

set_option maxRecDepth 8192 in
set_option maxHeartbeats 4000000 in
/-- The contents of main_v409 after the window (read by a later window). -/
theorem read_v409 : (after ops7 W (Proc.devRef .tc main_v409) : (⟨S800000, .i32⟩ : BufTy).Contents (Elt F))
    = (addi (W (Proc.devRef .tc main_arg1)) (broadcastInDim S800000 ![] bcast_S_S800000 (constantI S_ 32 100000#32 : (⟨S_, .i32⟩ : BufTy).Contents (Elt F)))) := by
  after_results_simp <;> rfl

/-! ## What the window writes, and that it leaves every other buffer alone -/

/-- The references the window writes, in order. -/
abbrev written : List (Ref sig .tc) :=
  [main_v359, main_v360, main_v361, main_v362, main_v363, main_c_59, main_v364, main_v365, main_c_60, main_v366, main_v367, main_v368, main_v369, main_v370, main_cst_61, main_v371, main_v372, main_v373, main_v374, main_v375, main_v376, main_v377, main_v378, main_v379, main_v380, main_v381, main_v382, main_v383, main_v384, main_v385, main_v386, main_cst_62, main_v387, main_cst_63, main_v388, main_v389, main_c_64, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v390, main_v391, main_v392, main_v393, main_cst_65, main_v394, main_v395, main_v396, main_v397, main_v398, main_v399, main_v400, main_v401, main_v402, main_v403, main_v404, main_v405, main_c_66, main_v406, main_v407, main_c_67, main_v408, main_v409]

set_option maxRecDepth 8192 in
set_option maxHeartbeats 4000000 in
/-- Every operation of the window writes one of them. -/
theorem writes : (ops7 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, nary_writes, Finset.singleton_subset_iff, List.mem_toFinset]
    exact List.mem_map_of_mem (by decide)

/-- A reference the window does not write keeps its contents. -/
theorem keep {r : Ref sig .tc} (h : r ∉ written) : after ops7 W (Proc.devRef .tc r) = W (Proc.devRef .tc r) :=
  after_of_writes_sub ops7 W writes h

/-- For instance the first argument, which no window writes. -/
example : after ops7 W (Proc.devRef .tc main_arg0) = W (Proc.devRef .tc main_arg0) := keep W (by decide)

end Cert.ReferenceIdeal.RefStage7

end
-- ==== Proof.RefStage8.lean ====
/- Window 8 of the reference's @main, read at any contents W of the buffers before it: for each buffer the window
   writes that a later window reads (for the last window, the program's two results), the contents after the
   window as the composition of the window's operations on the path to it, over W at the buffers the window
   reads from before it. A term the window uses more than once is named (t_‹buffer› W); the recurring terms of
   a batch-norm stage carry the names of the shared vocabulary. Each read is the fold of the operations'
   results computed at that buffer. -/
import proofs.«414479_j7705171329025_1_alg».proof.Proof.RefRun
import proofs.«414479_j7705171329025_1_alg».proof.Proof.RefTerms

noncomputable section

namespace Cert.ReferenceIdeal.RefStage8

open Cert.ReferenceIdeal Cert.ReferenceIdeal.Gen Cert.ReferenceIdeal.RefRun Cert.ReferenceIdeal.RefTerms
open Idealize.ShloMosaic Idealize.ShloMosaic.TcCoe Idealize.ShloMosaic.StableHlo

variable {F : FTy → Type} [FloatOps F]
variable (W : Valuation τ sig (Elt F))

/-- What the window forms in main_v424, over the contents before it. -/
abbrev t_v424 : (⟨S100000x128, .f32⟩ : BufTy).Contents (Elt F) :=
  (addf (Host.dotGeneral dot_S100000x128_S128x128_S100000x128_1_0_0_1_n_n none (addf (Host.scatterAdd scatter_S100000x128_S800000x1_S800000x128_1_0_0_1 (broadcastInDim S100000x128 ![] bcast_S_S100000x128 (RefTerms.zero (F := F))) (broadcastInDim S800000x1 ![0] bcast_S800000_S800000x1_0 (W (Proc.devRef .tc main_arg2))) (Host.gather gather_S100000x128_S800000x1_S800000x128_1_0_n_n_0_1_1128 (W (Proc.devRef .tc main_v405)) (broadcastInDim S800000x1 ![0] bcast_S800000_S800000x1_0 (select (W (Proc.devRef .tc main_v407)) (W (Proc.devRef .tc main_v409)) (W (Proc.devRef .tc main_arg1)))))) (W (Proc.devRef .tc main_v321))) (shapeCast S128x128 (extractStridedSlice S1x128x128 ![2, 0, 0] (W (Proc.devRef .tc main_arg8)) slices_S3x128x128_S1x128x128_2_0_0) shapeCasts_S1x128x128_S128x128)) (RefTerms.rows (shapeCast S128 (extractStridedSlice S1x128 ![2, 0] (W (Proc.devRef .tc main_arg9)) slices_S3x128_S1x128_2_0) shapeCasts_S1x128_S128)))

/-- What the window forms in main_v447, over the contents before it. -/
abbrev t_v447 : (⟨S100000x128, .f32⟩ : BufTy).Contents (Elt F) :=
  (RefTerms.affine (RefTerms.standardise (t_v424 W) (RefTerms.colMean (t_v424 W)) (RefTerms.colVar (t_v424 W) (constantI S_ 32 0#32 : (⟨S_, .i32⟩ : BufTy).Contents (Elt F)))) (shapeCast S128 (extractStridedSlice S1x128 ![2, 0] (W (Proc.devRef .tc main_arg10)) slices_S3x128_S1x128_2_0) shapeCasts_S1x128_S128) (shapeCast S128 (extractStridedSlice S1x128 ![2, 0] (W (Proc.devRef .tc main_arg11)) slices_S3x128_S1x128_2_0) shapeCasts_S1x128_S128))

/-- What the window forms in main_v449, over the contents before it. -/
abbrev t_v449 : (⟨S100000x128, .f32⟩ : BufTy).Contents (Elt F) :=
  (Host.dotGeneral dot_S100000x384_S384x128_S100000x128_1_0_0_1_n_n none (concatenate S100000x384 1 [⟨S100000x128, (W (Proc.devRef .tc main_v363))⟩, ⟨S100000x128, (W (Proc.devRef .tc main_v405))⟩, ⟨S100000x128, (t_v447 W)⟩] concatenates_S100000x128_S100000x128_S100000x128_S100000x384_d1) (W (Proc.devRef .tc main_arg12)))

set_option maxRecDepth 8192 in
set_option maxHeartbeats 4000000 in
/-- The contents of main_v447 after the window (a buffer inside the window). -/
theorem read_v447 : (after ops8 W (Proc.devRef .tc main_v447) : (⟨S100000x128, .f32⟩ : BufTy).Contents (Elt F))
    = (t_v447 W) := by
  after_results_simp <;> rfl

set_option maxRecDepth 8192 in
set_option maxHeartbeats 4000000 in
/-- The contents of main_v456 after the window (read by a later window). -/
theorem read_v456 : (after ops8 W (Proc.devRef .tc main_v456) : (⟨S100000x128, .f32⟩ : BufTy).Contents (Elt F))
    = (subf (t_v449 W) (RefTerms.rows (RefTerms.colMean (t_v449 W)))) := by
  after_results_simp <;> rfl

set_option maxRecDepth 8192 in
set_option maxHeartbeats 4000000 in
/-- The contents of main_v460 after the window (read by a later window). -/
theorem read_v460 : (after ops8 W (Proc.devRef .tc main_v460) : (⟨S1x128, .f32⟩ : BufTy).Contents (Elt F))
    = (broadcastInDim S1x128 ![1] bcast_S128_S1x128_1 (Host.rsqrt (addf (RefTerms.colVar (t_v449 W) (constantI S_ 32 0#32 : (⟨S_, .i32⟩ : BufTy).Contents (Elt F))) (broadcastInDim S128 ![] bcast_S_S128 (RefTerms.eps (F := F)))))) := by
  after_results_simp <;> rfl

/-! ## What the window writes, and that it leaves every other buffer alone -/

/-- The references the window writes, in order. -/
abbrev written : List (Ref sig .tc) :=
  [main_v410, main_v411, main_v412, main_cst_68, main_v413, main_v414, main_v415, main_v416, main_v417, main_v418, main_v419, main_v420, main_v421, main_v422, main_v423, main_v424, main_v425, main_v426, main_v427, main_v428, main_cst_69, main_v429, main_cst_70, main_v430, main_v431, main_c_71, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v432, main_v433, main_v434, main_v435, main_cst_72, main_v436, main_v437, main_v438, main_v439, main_v440, main_v441, main_v442, main_v443, main_v444, main_v445, main_v446, main_v447, main_v448, main_v449, main_cst_73, main_v450, main_cst_74, main_v451, main_v452, main_c_75, main_call15_cst, main_call15_v0, main_call15_v1, main_call15_cst_0, main_call15_v2, main_call15_v3, main_call15_v4, main_call15_v5, main_call15_v6, main_call15_v7, main_call15_cst_1, main_call15_v8, main_call15_cst_2, main_call15_v9, main_call15_v10, main_call15_v11, main_call15_cst_3, main_call15_v12, main_call15_cst_4, main_call15_call0_v0, main_call15_call0_v1, main_v453, main_v454, main_v455, main_v456, main_cst_76, main_v457, main_v458, main_v459, main_v460]

set_option maxRecDepth 8192 in
set_option maxHeartbeats 4000000 in
/-- Every operation of the window writes one of them. -/
theorem writes : (ops8 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, nary_writes, Finset.singleton_subset_iff, List.mem_toFinset]
    exact List.mem_map_of_mem (by decide)

/-- A reference the window does not write keeps its contents. -/
theorem keep {r : Ref sig .tc} (h : r ∉ written) : after ops8 W (Proc.devRef .tc r) = W (Proc.devRef .tc r) :=
  after_of_writes_sub ops8 W writes h

/-- For instance the first argument, which no window writes. -/
example : after ops8 W (Proc.devRef .tc main_arg0) = W (Proc.devRef .tc main_arg0) := keep W (by decide)

end Cert.ReferenceIdeal.RefStage8

end
-- ==== Proof.RefStage9.lean ====
/- Window 9 of the reference's @main, read at any contents W of the buffers before it: for each buffer the window
   writes that a later window reads (for the last window, the program's two results), the contents after the
   window as the composition of the window's operations on the path to it, over W at the buffers the window
   reads from before it. A term the window uses more than once is named (t_‹buffer› W); the recurring terms of
   a batch-norm stage carry the names of the shared vocabulary. Each read is the fold of the operations'
   results computed at that buffer. -/
import proofs.«414479_j7705171329025_1_alg».proof.Proof.RefRun
import proofs.«414479_j7705171329025_1_alg».proof.Proof.RefTerms

noncomputable section

namespace Cert.ReferenceIdeal.RefStage9

open Cert.ReferenceIdeal Cert.ReferenceIdeal.Gen Cert.ReferenceIdeal.RefRun Cert.ReferenceIdeal.RefTerms
open Idealize.ShloMosaic Idealize.ShloMosaic.TcCoe Idealize.ShloMosaic.StableHlo

variable {F : FTy → Type} [FloatOps F]
variable (W : Valuation τ sig (Elt F))

/-- What the window forms in main_v469, over the contents before it. -/
abbrev t_v469 : (⟨S100000x128, .f32⟩ : BufTy).Contents (Elt F) :=
  (RefTerms.relu (RefTerms.affine (mulf (W (Proc.devRef .tc main_v456)) (broadcastInDim S100000x128 ![0, 1] bcast_S1x128_S100000x128_0_1 (W (Proc.devRef .tc main_v460)))) (W (Proc.devRef .tc main_arg13)) (W (Proc.devRef .tc main_arg14))))

/-- What the window forms in main_v474, over the contents before it. -/
abbrev t_v474 : (⟨S100000x128, .f32⟩ : BufTy).Contents (Elt F) :=
  (Host.tanh (addf (Host.dotGeneral dot_S100000x128_S128x128_S100000x128_1_0_0_1_n_n none (t_v469 W) (W (Proc.devRef .tc main_arg15))) (RefTerms.rows (W (Proc.devRef .tc main_arg16)))))

/-- What the window forms in main_v493, over the contents before it. -/
abbrev t_v493 : (⟨S100000x128, .f32⟩ : BufTy).Contents (Elt F) :=
  (RefTerms.affine (RefTerms.standardise (t_v474 W) (RefTerms.colMean (t_v474 W)) (RefTerms.colVar (t_v474 W) (constantI S_ 32 0#32 : (⟨S_, .i32⟩ : BufTy).Contents (Elt F)))) (W (Proc.devRef .tc main_arg17)) (W (Proc.devRef .tc main_arg18)))

/-- What the window forms in main_v497, over the contents before it. -/
abbrev t_v497 : (⟨S100000x5, .f32⟩ : BufTy).Contents (Elt F) :=
  (addf (Host.dotGeneral dot_S100000x128_S128x5_S100000x5_1_0_0_1_n_n none (t_v493 W) (W (Proc.devRef .tc main_arg19))) (RefTerms.rows5 (W (Proc.devRef .tc main_arg20))))

set_option maxRecDepth 8192 in
set_option maxHeartbeats 4000000 in
/-- The contents of main_v469 after the window (read by a later window). -/
theorem read_v469 : (after ops9 W (Proc.devRef .tc main_v469) : (⟨S100000x128, .f32⟩ : BufTy).Contents (Elt F))
    = (t_v469 W) := by
  after_results_simp <;> rfl

set_option maxRecDepth 8192 in
set_option maxHeartbeats 4000000 in
/-- The contents of main_v493 after the window (a buffer inside the window). -/
theorem read_v493 : (after ops9 W (Proc.devRef .tc main_v493) : (⟨S100000x128, .f32⟩ : BufTy).Contents (Elt F))
    = (t_v493 W) := by
  after_results_simp <;> rfl

set_option maxRecDepth 8192 in
set_option maxHeartbeats 4000000 in
/-- The contents of main_v510 after the window (read by a later window). -/
theorem read_v510 : (after ops9 W (Proc.devRef .tc main_v510) : (⟨S100000x5, .f32⟩ : BufTy).Contents (Elt F))
    = (RefTerms.standardise5 (t_v497 W) (RefTerms.colMean5 (t_v497 W)) (RefTerms.colVar5 (t_v497 W) (constantI S_ 32 0#32 : (⟨S_, .i32⟩ : BufTy).Contents (Elt F)))) := by
  after_results_simp <;> rfl

set_option maxRecDepth 8192 in
set_option maxHeartbeats 4000000 in
/-- The contents of main_v512 after the window (read by a later window). -/
theorem read_v512 : (after ops9 W (Proc.devRef .tc main_v512) : (⟨S100000x5, .f32⟩ : BufTy).Contents (Elt F))
    = (RefTerms.rows5 (W (Proc.devRef .tc main_arg21))) := by
  after_results_simp <;> rfl

/-! ## What the window writes, and that it leaves every other buffer alone -/

/-- The references the window writes, in order. -/
abbrev written : List (Ref sig .tc) :=
  [main_v461, main_v462, main_v463, main_v464, main_v465, main_v466, main_v467, main_v468, main_call16_cst, main_call16_v0, main_v469, main_v470, main_v471, main_v472, main_v473, main_v474, main_cst_77, main_v475, main_cst_78, main_v476, main_v477, main_c_79, main_call17_cst, main_call17_v0, main_call17_v1, main_call17_cst_0, main_call17_v2, main_call17_v3, main_call17_v4, main_call17_v5, main_call17_v6, main_call17_v7, main_call17_cst_1, main_call17_v8, main_call17_cst_2, main_call17_v9, main_call17_v10, main_call17_v11, main_call17_cst_3, main_call17_v12, main_call17_cst_4, main_call17_call0_v0, main_call17_call0_v1, main_v478, main_v479, main_v480, main_v481, main_cst_80, main_v482, main_v483, main_v484, main_v485, main_v486, main_v487, main_v488, main_v489, main_v490, main_v491, main_v492, main_v493, main_v494, main_v495, main_v496, main_v497, main_cst_81, main_v498, main_cst_82, main_v499, main_v500, main_c_83, main_call18_cst, main_call18_v0, main_call18_v1, main_call18_cst_0, main_call18_v2, main_call18_v3, main_call18_v4, main_call18_v5, main_call18_v6, main_call18_v7, main_call18_cst_1, main_call18_v8, main_call18_cst_2, main_call18_v9, main_call18_v10, main_call18_v11, main_call18_cst_3, main_call18_v12, main_call18_cst_4, main_call18_call0_v0, main_call18_call0_v1, main_v501, main_v502, main_v503, main_v504, main_cst_84, main_v505, main_v506, main_v507, main_v508, main_v509, main_v510, main_v511, main_v512]

set_option maxRecDepth 8192 in
set_option maxHeartbeats 4000000 in
/-- Every operation of the window writes one of them. -/
theorem writes : (ops9 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, nary_writes, Finset.singleton_subset_iff, List.mem_toFinset]
    exact List.mem_map_of_mem (by decide)

/-- A reference the window does not write keeps its contents. -/
theorem keep {r : Ref sig .tc} (h : r ∉ written) : after ops9 W (Proc.devRef .tc r) = W (Proc.devRef .tc r) :=
  after_of_writes_sub ops9 W writes h

/-- For instance the first argument, which no window writes. -/
example : after ops9 W (Proc.devRef .tc main_arg0) = W (Proc.devRef .tc main_arg0) := keep W (by decide)

end Cert.ReferenceIdeal.RefStage9

end
-- ==== Proof.RefStage10.lean ====
/- Window 10 of the reference's @main, read at any contents W of the buffers before it: for each buffer the window
   writes that a later window reads (for the last window, the program's two results), the contents after the
   window as the composition of the window's operations on the path to it, over W at the buffers the window
   reads from before it. A term the window uses more than once is named (t_‹buffer› W); the recurring terms of
   a batch-norm stage carry the names of the shared vocabulary. Each read is the fold of the operations'
   results computed at that buffer. -/
import proofs.«414479_j7705171329025_1_alg».proof.Proof.RefRun
import proofs.«414479_j7705171329025_1_alg».proof.Proof.RefTerms

noncomputable section

namespace Cert.ReferenceIdeal.RefStage10

open Cert.ReferenceIdeal Cert.ReferenceIdeal.Gen Cert.ReferenceIdeal.RefRun Cert.ReferenceIdeal.RefTerms
open Idealize.ShloMosaic Idealize.ShloMosaic.TcCoe Idealize.ShloMosaic.StableHlo

variable {F : FTy → Type} [FloatOps F]
variable (W : Valuation τ sig (Elt F))

/-- What the window forms in main_v516, over the contents before it. -/
abbrev t_v516 : (⟨S100000x5, .f32⟩ : BufTy).Contents (Elt F) :=
  (addf (mulf (W (Proc.devRef .tc main_v510)) (W (Proc.devRef .tc main_v512))) (RefTerms.rows5 (W (Proc.devRef .tc main_arg22))))

/-- What the window forms in main_v523, over the contents before it. -/
abbrev t_v523 : (⟨S100000x5, .f32⟩ : BufTy).Contents (Elt F) :=
  (Host.exp (subf (t_v516 W) (broadcastInDim S100000x5 ![0, 1] bcast_S100000x1_S100000x5_0_1 (broadcastInDim S100000x1 ![0] bcast_S100000_S100000x1_0 (maximumf (broadcastInDim S100000 ![] bcast_S_S100000 (constant S_ .f32 0xFF800000#32 : (⟨S_, .f32⟩ : BufTy).Contents (Elt F))) (Host.reduce FloatOps.maximumf (t_v516 W) (constant S_ .f32 0xFF800000#32 : (⟨S_, .f32⟩ : BufTy).Contents (Elt F)) reducesTo_S100000x5_S100000_d1 h_S_))))))

set_option maxRecDepth 8192 in
set_option maxHeartbeats 4000000 in
/-- The contents of main_v516 after the window (a buffer inside the window). -/
theorem read_v516 : (after ops10 W (Proc.devRef .tc main_v516) : (⟨S100000x5, .f32⟩ : BufTy).Contents (Elt F))
    = (t_v516 W) := by
  after_results_simp <;> rfl

set_option maxRecDepth 8192 in
set_option maxHeartbeats 4000000 in
/-- The contents of main_v537 after the window (a result of the program). -/
theorem read_v537 : (after ops10 W (Proc.devRef .tc main_v537) : (⟨S1000x640, .f32⟩ : BufTy).Contents (Elt F))
    = (maximumf (shapeCast S1000x640 (Host.scatterAdd scatter_S1000x5x128_S100000x1_S100000x5x128_12_0_0_1 (broadcastInDim S1000x5x128 ![] bcast_S_S1000x5x128 (RefTerms.zero (F := F))) (broadcastInDim S100000x1 ![0] bcast_S100000_S100000x1_0 (W (Proc.devRef .tc main_arg3))) (mulf (broadcastInDim S100000x5x128 ![0, 1, 2] bcast_S100000x5x1_S100000x5x128_0_1_2 (broadcastInDim S100000x5x1 ![0, 1] bcast_S100000x5_S100000x5x1_0_1 (Host.divf (t_v523 W) (broadcastInDim S100000x5 ![0, 1] bcast_S100000x1_S100000x5_0_1 (broadcastInDim S100000x1 ![0] bcast_S100000_S100000x1_0 (Host.reduceAdd (t_v523 W) (RefTerms.zero (F := F)) reducesTo_S100000x5_S100000_d1 h_S_)))))) (broadcastInDim S100000x5x128 ![0, 1, 2] bcast_S100000x1x128_S100000x5x128_0_1_2 (broadcastInDim S100000x1x128 ![0, 2] bcast_S100000x128_S100000x1x128_0_2 (W (Proc.devRef .tc main_v469)))))) shapeCasts_S1000x5x128_S1000x640) (broadcastInDim S1000x640 ![] bcast_S_S1000x640 (RefTerms.zero (F := F)))) := by
  after_results_simp <;> rfl

set_option maxRecDepth 8192 in
set_option maxHeartbeats 4000000 in
/-- The contents of main_v552 after the window (a result of the program). -/
theorem read_v552 : (after ops10 W (Proc.devRef .tc main_v552) : (⟨S_, .f32⟩ : BufTy).Contents (Elt F))
    = (Host.divf (addf (addf (addf (addf (Host.reduceAdd (Host.absf (W (Proc.devRef .tc main_arg4))) (RefTerms.zero (F := F)) reducesTo_S64x128_S_d0_1 h_S_) (Host.reduceAdd (Host.absf (W (Proc.devRef .tc main_arg8))) (RefTerms.zero (F := F)) reducesTo_S3x128x128_S_d0_1_2 h_S_)) (Host.reduceAdd (Host.absf (W (Proc.devRef .tc main_arg12))) (RefTerms.zero (F := F)) reducesTo_S384x128_S_d0_1 h_S_)) (Host.reduceAdd (Host.absf (W (Proc.devRef .tc main_arg15))) (RefTerms.zero (F := F)) reducesTo_S128x128_S_d0_1 h_S_)) (Host.reduceAdd (Host.absf (W (Proc.devRef .tc main_arg19))) (RefTerms.zero (F := F)) reducesTo_S128x5_S_d0_1 h_S_)) (constant S_ .f32 0x447A0000#32 : (⟨S_, .f32⟩ : BufTy).Contents (Elt F))) := by
  after_results_simp <;> rfl

/-! ## What the window writes, and that it leaves every other buffer alone -/

/-- The references the window writes, in order. -/
abbrev written : List (Ref sig .tc) :=
  [main_v513, main_v514, main_v515, main_v516, main_cst_85, main_v517, main_cst_86, main_v518, main_v519, main_v520, main_v521, main_v522, main_v523, main_cst_87, main_v524, main_v525, main_v526, main_v527, main_v528, main_v529, main_v530, main_v531, main_v532, main_cst_88, main_v533, main_v534, main_v535, main_v536, main_call19_cst, main_call19_v0, main_v537, main_v538, main_cst_89, main_v539, main_v540, main_cst_90, main_v541, main_v542, main_v543, main_cst_91, main_v544, main_v545, main_v546, main_cst_92, main_v547, main_v548, main_v549, main_cst_93, main_v550, main_v551, main_cst_94, main_v552]

set_option maxRecDepth 8192 in
set_option maxHeartbeats 4000000 in
/-- Every operation of the window writes one of them. -/
theorem writes : (ops10 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, nary_writes, Finset.singleton_subset_iff, List.mem_toFinset]
    exact List.mem_map_of_mem (by decide)

/-- A reference the window does not write keeps its contents. -/
theorem keep {r : Ref sig .tc} (h : r ∉ written) : after ops10 W (Proc.devRef .tc r) = W (Proc.devRef .tc r) :=
  after_of_writes_sub ops10 W writes h

/-- For instance the first argument, which no window writes. -/
example : after ops10 W (Proc.devRef .tc main_arg0) = W (Proc.devRef .tc main_arg0) := keep W (by decide)

end Cert.ReferenceIdeal.RefStage10

end
-- ==== Proof.AfterAppend.lean ====
/-
  Running a list of host operations that is two lists one after the other: the contents after the whole list are the
  contents after the second list, started from the contents after the first.
-/
import Idealize.ShloMosaic.Lib.StableHlo.Run

namespace Cert.AfterAppend

open Idealize.ShloMosaic Idealize.ShloMosaic.StableHlo

variable {τ : Topo} {sig : RefSig} {Val : EltTy → Type}

/-- The contents after `a ++ b` are the contents after `b` from the contents after `a`. -/
theorem after_append (a b : List (HloOp τ sig Val)) (V : Valuation τ sig Val) :
    after (a ++ b) V = after b (after a V) := by
  induction a generalizing V with
  | nil => rfl
  | cons op a ih => exact ih (op.result V)

end Cert.AfterAppend
-- ==== Proof.RefFrame.lean ====
/-
  The reference program's run, read for what the certificate asks of it.

  The reference is a straight line of 975 host operations, laid out as eleven consecutive lists. Every weakly fair
  execution of it terminates with each buffer at the contents the operations leave, started from the launch memory.
  No operation writes an argument: an argument is written by none of the eleven lists, so it ends as launched. That is
  the reference's frame; and with the two result buffers named it is the reference's half of the algebraic claim.
-/
import proofs.«414479_j7705171329025_1_alg».proof.Proof.RefRun
import proofs.«414479_j7705171329025_1_alg».proof.Proof.RefStage0
import proofs.«414479_j7705171329025_1_alg».proof.Proof.RefStage1
import proofs.«414479_j7705171329025_1_alg».proof.Proof.RefStage2
import proofs.«414479_j7705171329025_1_alg».proof.Proof.RefStage3
import proofs.«414479_j7705171329025_1_alg».proof.Proof.RefStage4
import proofs.«414479_j7705171329025_1_alg».proof.Proof.RefStage5
import proofs.«414479_j7705171329025_1_alg».proof.Proof.RefStage6
import proofs.«414479_j7705171329025_1_alg».proof.Proof.RefStage7
import proofs.«414479_j7705171329025_1_alg».proof.Proof.RefStage8
import proofs.«414479_j7705171329025_1_alg».proof.Proof.RefStage9
import proofs.«414479_j7705171329025_1_alg».proof.Proof.RefStage10
import proofs.«414479_j7705171329025_1_alg».proof.Proof.AfterAppend
import proofs.«414479_j7705171329025_1_alg».proof.Proof.Gen.Pre_finite_inputs
import proofs.«414479_j7705171329025_1_alg».proof.Defs

noncomputable section

namespace Cert.ReferenceIdeal.RefFrame

open Cert.ReferenceIdeal Cert.ReferenceIdeal.Gen Cert.ReferenceIdeal.RefRun
open Idealize.ShloMosaic Idealize.ShloMosaic.TcCoe Idealize.ShloMosaic.StableHlo Idealize.SL.Sem

variable {F : FTy → Type} [FloatOps F]

/-- The contents after the whole program are the contents after the eleven lists in turn. -/
theorem after_ops (W : Valuation τ sig (Elt F)) :
    after (ops (F := F)) W = after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) W)))))))))) := by
  simp only [ops, Cert.AfterAppend.after_append]

/-- A buffer that none of the eleven lists writes ends with the contents it started with. -/
theorem keep_all {r : Ref sig .tc} (h0 : r ∉ Cert.ReferenceIdeal.RefStage0.written) (h1 : r ∉ Cert.ReferenceIdeal.RefStage1.written) (h2 : r ∉ Cert.ReferenceIdeal.RefStage2.written) (h3 : r ∉ Cert.ReferenceIdeal.RefStage3.written) (h4 : r ∉ Cert.ReferenceIdeal.RefStage4.written) (h5 : r ∉ Cert.ReferenceIdeal.RefStage5.written) (h6 : r ∉ Cert.ReferenceIdeal.RefStage6.written) (h7 : r ∉ Cert.ReferenceIdeal.RefStage7.written) (h8 : r ∉ Cert.ReferenceIdeal.RefStage8.written) (h9 : r ∉ Cert.ReferenceIdeal.RefStage9.written) (h10 : r ∉ Cert.ReferenceIdeal.RefStage10.written)
    (W : Valuation τ sig (Elt F)) : after (ops (F := F)) W (Proc.devRef .tc r) = W (Proc.devRef .tc r) := by
  rw [after_ops, Cert.ReferenceIdeal.RefStage10.keep _ h10, Cert.ReferenceIdeal.RefStage9.keep _ h9, Cert.ReferenceIdeal.RefStage8.keep _ h8, Cert.ReferenceIdeal.RefStage7.keep _ h7, Cert.ReferenceIdeal.RefStage6.keep _ h6, Cert.ReferenceIdeal.RefStage5.keep _ h5, Cert.ReferenceIdeal.RefStage4.keep _ h4, Cert.ReferenceIdeal.RefStage3.keep _ h3, Cert.ReferenceIdeal.RefStage2.keep _ h2, Cert.ReferenceIdeal.RefStage1.keep _ h1, Cert.ReferenceIdeal.RefStage0.keep _ h0]

/-- THE FRAME of the reference: it runs, and its argument arrays end as launched. -/
theorem frame : Cert.frame_ReferenceIdeal := fun m ρ _ =>
  (θ_run (Cert.ReferenceIdeal.defs (F := Ideal)) _ _).mono
    (fun r h c =>
      ⟨(h c main_arg0).trans (keep_all (r := main_arg0) (by decide) (by decide) (by decide) (by decide) (by decide) (by decide) (by decide) (by decide) (by decide) (by decide) (by decide) _),
       (h c main_arg1).trans (keep_all (r := main_arg1) (by decide) (by decide) (by decide) (by decide) (by decide) (by decide) (by decide) (by decide) (by decide) (by decide) (by decide) _),
       (h c main_arg2).trans (keep_all (r := main_arg2) (by decide) (by decide) (by decide) (by decide) (by decide) (by decide) (by decide) (by decide) (by decide) (by decide) (by decide) _),
       (h c main_arg3).trans (keep_all (r := main_arg3) (by decide) (by decide) (by decide) (by decide) (by decide) (by decide) (by decide) (by decide) (by decide) (by decide) (by decide) _),
       (h c main_arg4).trans (keep_all (r := main_arg4) (by decide) (by decide) (by decide) (by decide) (by decide) (by decide) (by decide) (by decide) (by decide) (by decide) (by decide) _),
       (h c main_arg5).trans (keep_all (r := main_arg5) (by decide) (by decide) (by decide) (by decide) (by decide) (by decide) (by decide) (by decide) (by decide) (by decide) (by decide) _),
       (h c main_arg6).trans (keep_all (r := main_arg6) (by decide) (by decide) (by decide) (by decide) (by decide) (by decide) (by decide) (by decide) (by decide) (by decide) (by decide) _),
       (h c main_arg7).trans (keep_all (r := main_arg7) (by decide) (by decide) (by decide) (by decide) (by decide) (by decide) (by decide) (by decide) (by decide) (by decide) (by decide) _),
       (h c main_arg8).trans (keep_all (r := main_arg8) (by decide) (by decide) (by decide) (by decide) (by decide) (by decide) (by decide) (by decide) (by decide) (by decide) (by decide) _),
       (h c main_arg9).trans (keep_all (r := main_arg9) (by decide) (by decide) (by decide) (by decide) (by decide) (by decide) (by decide) (by decide) (by decide) (by decide) (by decide) _),
       (h c main_arg10).trans (keep_all (r := main_arg10) (by decide) (by decide) (by decide) (by decide) (by decide) (by decide) (by decide) (by decide) (by decide) (by decide) (by decide) _),
       (h c main_arg11).trans (keep_all (r := main_arg11) (by decide) (by decide) (by decide) (by decide) (by decide) (by decide) (by decide) (by decide) (by decide) (by decide) (by decide) _),
       (h c main_arg12).trans (keep_all (r := main_arg12) (by decide) (by decide) (by decide) (by decide) (by decide) (by decide) (by decide) (by decide) (by decide) (by decide) (by decide) _),
       (h c main_arg13).trans (keep_all (r := main_arg13) (by decide) (by decide) (by decide) (by decide) (by decide) (by decide) (by decide) (by decide) (by decide) (by decide) (by decide) _),
       (h c main_arg14).trans (keep_all (r := main_arg14) (by decide) (by decide) (by decide) (by decide) (by decide) (by decide) (by decide) (by decide) (by decide) (by decide) (by decide) _),
       (h c main_arg15).trans (keep_all (r := main_arg15) (by decide) (by decide) (by decide) (by decide) (by decide) (by decide) (by decide) (by decide) (by decide) (by decide) (by decide) _),
       (h c main_arg16).trans (keep_all (r := main_arg16) (by decide) (by decide) (by decide) (by decide) (by decide) (by decide) (by decide) (by decide) (by decide) (by decide) (by decide) _),
       (h c main_arg17).trans (keep_all (r := main_arg17) (by decide) (by decide) (by decide) (by decide) (by decide) (by decide) (by decide) (by decide) (by decide) (by decide) (by decide) _),
       (h c main_arg18).trans (keep_all (r := main_arg18) (by decide) (by decide) (by decide) (by decide) (by decide) (by decide) (by decide) (by decide) (by decide) (by decide) (by decide) _),
       (h c main_arg19).trans (keep_all (r := main_arg19) (by decide) (by decide) (by decide) (by decide) (by decide) (by decide) (by decide) (by decide) (by decide) (by decide) (by decide) _),
       (h c main_arg20).trans (keep_all (r := main_arg20) (by decide) (by decide) (by decide) (by decide) (by decide) (by decide) (by decide) (by decide) (by decide) (by decide) (by decide) _),
       (h c main_arg21).trans (keep_all (r := main_arg21) (by decide) (by decide) (by decide) (by decide) (by decide) (by decide) (by decide) (by decide) (by decide) (by decide) (by decide) _),
       (h c main_arg22).trans (keep_all (r := main_arg22) (by decide) (by decide) (by decide) (by decide) (by decide) (by decide) (by decide) (by decide) (by decide) (by decide) (by decide) _)⟩)
    (Cert.ReferenceIdeal.RefRun.run (F := Ideal) m ρ)

/-- The reference's run with its two results named: each at the contents the operations leave from the launch memory,
    the arguments as launched. -/
theorem run_named (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v537) = after (ops (F := Ideal)) (launchContents m c) (Proc.devRef .tc main_v537)
      ∧ r.2.mem ((c.tc : Thread nD τ).loc main_v552) = after (ops (F := Ideal)) (launchContents m c) (Proc.devRef .tc main_v552)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run (Cert.ReferenceIdeal.defs (F := Ideal)) _ _).mono
    (fun r h c =>
      ⟨h c main_v537, h c main_v552,
       (h c main_arg0).trans (keep_all (r := main_arg0) (by decide) (by decide) (by decide) (by decide) (by decide) (by decide) (by decide) (by decide) (by decide) (by decide) (by decide) _),
       (h c main_arg1).trans (keep_all (r := main_arg1) (by decide) (by decide) (by decide) (by decide) (by decide) (by decide) (by decide) (by decide) (by decide) (by decide) (by decide) _),
       (h c main_arg2).trans (keep_all (r := main_arg2) (by decide) (by decide) (by decide) (by decide) (by decide) (by decide) (by decide) (by decide) (by decide) (by decide) (by decide) _),
       (h c main_arg3).trans (keep_all (r := main_arg3) (by decide) (by decide) (by decide) (by decide) (by decide) (by decide) (by decide) (by decide) (by decide) (by decide) (by decide) _),
       (h c main_arg4).trans (keep_all (r := main_arg4) (by decide) (by decide) (by decide) (by decide) (by decide) (by decide) (by decide) (by decide) (by decide) (by decide) (by decide) _),
       (h c main_arg5).trans (keep_all (r := main_arg5) (by decide) (by decide) (by decide) (by decide) (by decide) (by decide) (by decide) (by decide) (by decide) (by decide) (by decide) _),
       (h c main_arg6).trans (keep_all (r := main_arg6) (by decide) (by decide) (by decide) (by decide) (by decide) (by decide) (by decide) (by decide) (by decide) (by decide) (by decide) _),
       (h c main_arg7).trans (keep_all (r := main_arg7) (by decide) (by decide) (by decide) (by decide) (by decide) (by decide) (by decide) (by decide) (by decide) (by decide) (by decide) _),
       (h c main_arg8).trans (keep_all (r := main_arg8) (by decide) (by decide) (by decide) (by decide) (by decide) (by decide) (by decide) (by decide) (by decide) (by decide) (by decide) _),
       (h c main_arg9).trans (keep_all (r := main_arg9) (by decide) (by decide) (by decide) (by decide) (by decide) (by decide) (by decide) (by decide) (by decide) (by decide) (by decide) _),
       (h c main_arg10).trans (keep_all (r := main_arg10) (by decide) (by decide) (by decide) (by decide) (by decide) (by decide) (by decide) (by decide) (by decide) (by decide) (by decide) _),
       (h c main_arg11).trans (keep_all (r := main_arg11) (by decide) (by decide) (by decide) (by decide) (by decide) (by decide) (by decide) (by decide) (by decide) (by decide) (by decide) _),
       (h c main_arg12).trans (keep_all (r := main_arg12) (by decide) (by decide) (by decide) (by decide) (by decide) (by decide) (by decide) (by decide) (by decide) (by decide) (by decide) _),
       (h c main_arg13).trans (keep_all (r := main_arg13) (by decide) (by decide) (by decide) (by decide) (by decide) (by decide) (by decide) (by decide) (by decide) (by decide) (by decide) _),
       (h c main_arg14).trans (keep_all (r := main_arg14) (by decide) (by decide) (by decide) (by decide) (by decide) (by decide) (by decide) (by decide) (by decide) (by decide) (by decide) _),
       (h c main_arg15).trans (keep_all (r := main_arg15) (by decide) (by decide) (by decide) (by decide) (by decide) (by decide) (by decide) (by decide) (by decide) (by decide) (by decide) _),
       (h c main_arg16).trans (keep_all (r := main_arg16) (by decide) (by decide) (by decide) (by decide) (by decide) (by decide) (by decide) (by decide) (by decide) (by decide) (by decide) _),
       (h c main_arg17).trans (keep_all (r := main_arg17) (by decide) (by decide) (by decide) (by decide) (by decide) (by decide) (by decide) (by decide) (by decide) (by decide) (by decide) _),
       (h c main_arg18).trans (keep_all (r := main_arg18) (by decide) (by decide) (by decide) (by decide) (by decide) (by decide) (by decide) (by decide) (by decide) (by decide) (by decide) _),
       (h c main_arg19).trans (keep_all (r := main_arg19) (by decide) (by decide) (by decide) (by decide) (by decide) (by decide) (by decide) (by decide) (by decide) (by decide) (by decide) _),
       (h c main_arg20).trans (keep_all (r := main_arg20) (by decide) (by decide) (by decide) (by decide) (by decide) (by decide) (by decide) (by decide) (by decide) (by decide) (by decide) _),
       (h c main_arg21).trans (keep_all (r := main_arg21) (by decide) (by decide) (by decide) (by decide) (by decide) (by decide) (by decide) (by decide) (by decide) (by decide) (by decide) _),
       (h c main_arg22).trans (keep_all (r := main_arg22) (by decide) (by decide) (by decide) (by decide) (by decide) (by decide) (by decide) (by decide) (by decide) (by decide) (by decide) _)⟩)
    (Cert.ReferenceIdeal.RefRun.run (F := Ideal) m ρ)

end Cert.ReferenceIdeal.RefFrame

end
-- ==== Proof.RealSpec.lean ====
/-
  Which extended reals are real numbers. Every float input of the two programs is finite, and every stage of the graph
  network (a matrix product plus a bias, a column mean and variance, a normalisation, a gather and a scatter-add of rows)
  maps real numbers to real numbers; the variance identity that joins the two programs holds on real numbers only.
-/
import Mathlib.Data.EReal.Basic

namespace Cert.RealSpec

/-- An extended real that is the coercion of a real number. -/
def IsReal (x : EReal) : Prop := ∃ r : ℝ, x = (r : EReal)

end Cert.RealSpec
-- ==== Proof.ChainDefs.lean ====
/-
  The arrays the chain speaks of. The kernel program's run is read at its boundaries (after each region and each stretch
  of host operations); the reference's at the contents after each of its eleven lists of operations. Stage s of the
  network (s = 0 … 14: the embedding; three hops and a projection, three times over; the two attention layers) leaves
  one normalised array in each program. The invariant of the chain at stage s: the two arrays are equal, entry by
  entry, and every entry is a real number.
-/
import proofs.«414479_j7705171329025_1_alg».proof.Proof.FrameKI.Run
import proofs.«414479_j7705171329025_1_alg».proof.Proof.RefRun
import proofs.«414479_j7705171329025_1_alg».proof.Proof.RealSpec
import Idealize.ShloMosaic.PureOps.Ideal

noncomputable section

namespace Cert.ChainDefs

open Cert.RealSpec (IsReal)
open Idealize.ShloMosaic Idealize.ShloMosaic.TcCoe Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The reference's contents before its first list of operations: the launch memory. -/
abbrev U0 (c : Dev Cert.ReferenceIdeal.nD) : Valuation Cert.ReferenceIdeal.τ Cert.ReferenceIdeal.sig (Elt Ideal) := launchContents m' c
/-- The reference's contents after its lists 0 … 0. -/
abbrev U1 (c : Dev Cert.ReferenceIdeal.nD) : Valuation Cert.ReferenceIdeal.τ Cert.ReferenceIdeal.sig (Elt Ideal) := after (Cert.ReferenceIdeal.RefRun.ops0 (F := Ideal)) (U0 m' c)
/-- The reference's contents after its lists 0 … 1. -/
abbrev U2 (c : Dev Cert.ReferenceIdeal.nD) : Valuation Cert.ReferenceIdeal.τ Cert.ReferenceIdeal.sig (Elt Ideal) := after (Cert.ReferenceIdeal.RefRun.ops1 (F := Ideal)) (U1 m' c)
/-- The reference's contents after its lists 0 … 2. -/
abbrev U3 (c : Dev Cert.ReferenceIdeal.nD) : Valuation Cert.ReferenceIdeal.τ Cert.ReferenceIdeal.sig (Elt Ideal) := after (Cert.ReferenceIdeal.RefRun.ops2 (F := Ideal)) (U2 m' c)
/-- The reference's contents after its lists 0 … 3. -/
abbrev U4 (c : Dev Cert.ReferenceIdeal.nD) : Valuation Cert.ReferenceIdeal.τ Cert.ReferenceIdeal.sig (Elt Ideal) := after (Cert.ReferenceIdeal.RefRun.ops3 (F := Ideal)) (U3 m' c)
/-- The reference's contents after its lists 0 … 4. -/
abbrev U5 (c : Dev Cert.ReferenceIdeal.nD) : Valuation Cert.ReferenceIdeal.τ Cert.ReferenceIdeal.sig (Elt Ideal) := after (Cert.ReferenceIdeal.RefRun.ops4 (F := Ideal)) (U4 m' c)
/-- The reference's contents after its lists 0 … 5. -/
abbrev U6 (c : Dev Cert.ReferenceIdeal.nD) : Valuation Cert.ReferenceIdeal.τ Cert.ReferenceIdeal.sig (Elt Ideal) := after (Cert.ReferenceIdeal.RefRun.ops5 (F := Ideal)) (U5 m' c)
/-- The reference's contents after its lists 0 … 6. -/
abbrev U7 (c : Dev Cert.ReferenceIdeal.nD) : Valuation Cert.ReferenceIdeal.τ Cert.ReferenceIdeal.sig (Elt Ideal) := after (Cert.ReferenceIdeal.RefRun.ops6 (F := Ideal)) (U6 m' c)
/-- The reference's contents after its lists 0 … 7. -/
abbrev U8 (c : Dev Cert.ReferenceIdeal.nD) : Valuation Cert.ReferenceIdeal.τ Cert.ReferenceIdeal.sig (Elt Ideal) := after (Cert.ReferenceIdeal.RefRun.ops7 (F := Ideal)) (U7 m' c)
/-- The reference's contents after its lists 0 … 8. -/
abbrev U9 (c : Dev Cert.ReferenceIdeal.nD) : Valuation Cert.ReferenceIdeal.τ Cert.ReferenceIdeal.sig (Elt Ideal) := after (Cert.ReferenceIdeal.RefRun.ops8 (F := Ideal)) (U8 m' c)
/-- The reference's contents after its lists 0 … 9. -/
abbrev U10 (c : Dev Cert.ReferenceIdeal.nD) : Valuation Cert.ReferenceIdeal.τ Cert.ReferenceIdeal.sig (Elt Ideal) := after (Cert.ReferenceIdeal.RefRun.ops9 (F := Ideal)) (U9 m' c)
/-- The reference's contents after its lists 0 … 10. -/
abbrev U11 (c : Dev Cert.ReferenceIdeal.nD) : Valuation Cert.ReferenceIdeal.τ Cert.ReferenceIdeal.sig (Elt Ideal) := after (Cert.ReferenceIdeal.RefRun.ops10 (F := Ideal)) (U10 m' c)

/-- Stage 0: the kernel program's normalised array, at the exit of its region 1. -/
abbrev kOut0 (c : Dev Cert.KernelIdeal.nD) : Vec Ideal Cert.KernelIdeal.S100000x128 .f32 := Cert.KernelIdeal.Gen.W4 (F := Ideal) m ρ c (Proc.devRef .tc Cert.KernelIdeal.main_v10)
/-- Stage 0: the reference's, after its list 0. -/
abbrev rOut0 (c : Dev Cert.ReferenceIdeal.nD) : Vec Ideal Cert.ReferenceIdeal.S100000x128 .f32 := U1 m' c (Proc.devRef .tc Cert.ReferenceIdeal.main_v23)
/-- Stage 1: the kernel program's normalised array, at the exit of its region 3. -/
abbrev kOut1 (c : Dev Cert.KernelIdeal.nD) : Vec Ideal Cert.KernelIdeal.S100000x128 .f32 := Cert.KernelIdeal.Gen.W8 (F := Ideal) m ρ c (Proc.devRef .tc Cert.KernelIdeal.main_v40)
/-- Stage 1: the reference's, after its list 1. -/
abbrev rOut1 (c : Dev Cert.ReferenceIdeal.nD) : Vec Ideal Cert.ReferenceIdeal.S100000x128 .f32 := U2 m' c (Proc.devRef .tc Cert.ReferenceIdeal.main_v65)
/-- Stage 2: the kernel program's normalised array, at the exit of its region 5. -/
abbrev kOut2 (c : Dev Cert.KernelIdeal.nD) : Vec Ideal Cert.KernelIdeal.S100000x128 .f32 := Cert.KernelIdeal.Gen.W12 (F := Ideal) m ρ c (Proc.devRef .tc Cert.KernelIdeal.main_v69)
/-- Stage 2: the reference's, after its list 2. -/
abbrev rOut2 (c : Dev Cert.ReferenceIdeal.nD) : Vec Ideal Cert.ReferenceIdeal.S100000x128 .f32 := U3 m' c (Proc.devRef .tc Cert.ReferenceIdeal.main_v107)
/-- Stage 3: the kernel program's normalised array, at the exit of its region 7. -/
abbrev kOut3 (c : Dev Cert.KernelIdeal.nD) : Vec Ideal Cert.KernelIdeal.S100000x128 .f32 := Cert.KernelIdeal.Gen.W16 (F := Ideal) m ρ c (Proc.devRef .tc Cert.KernelIdeal.main_v98)
/-- Stage 3: the reference's, after its list 2. -/
abbrev rOut3 (c : Dev Cert.ReferenceIdeal.nD) : Vec Ideal Cert.ReferenceIdeal.S100000x128 .f32 := U3 m' c (Proc.devRef .tc Cert.ReferenceIdeal.main_v149)
/-- Stage 4: the kernel program's normalised array, at the exit of its region 9. -/
abbrev kOut4 (c : Dev Cert.KernelIdeal.nD) : Vec Ideal Cert.KernelIdeal.S100000x128 .f32 := Cert.KernelIdeal.Gen.W20 (F := Ideal) m ρ c (Proc.devRef .tc Cert.KernelIdeal.main_v112)
/-- Stage 4: the reference's, after its list 3. -/
abbrev rOut4 (c : Dev Cert.ReferenceIdeal.nD) : Vec Ideal Cert.ReferenceIdeal.S100000x128 .f32 := U4 m' c (Proc.devRef .tc Cert.ReferenceIdeal.main_v171)
/-- Stage 5: the kernel program's normalised array, at the exit of its region 11. -/
abbrev kOut5 (c : Dev Cert.KernelIdeal.nD) : Vec Ideal Cert.KernelIdeal.S100000x128 .f32 := Cert.KernelIdeal.Gen.W24 (F := Ideal) m ρ c (Proc.devRef .tc Cert.KernelIdeal.main_v142)
/-- Stage 5: the reference's, after its list 4. -/
abbrev rOut5 (c : Dev Cert.ReferenceIdeal.nD) : Vec Ideal Cert.ReferenceIdeal.S100000x128 .f32 := U5 m' c (Proc.devRef .tc Cert.ReferenceIdeal.main_v214)
/-- Stage 6: the kernel program's normalised array, at the exit of its region 13. -/
abbrev kOut6 (c : Dev Cert.KernelIdeal.nD) : Vec Ideal Cert.KernelIdeal.S100000x128 .f32 := Cert.KernelIdeal.Gen.W28 (F := Ideal) m ρ c (Proc.devRef .tc Cert.KernelIdeal.main_v171)
/-- Stage 6: the reference's, after its list 4. -/
abbrev rOut6 (c : Dev Cert.ReferenceIdeal.nD) : Vec Ideal Cert.ReferenceIdeal.S100000x128 .f32 := U5 m' c (Proc.devRef .tc Cert.ReferenceIdeal.main_v256)
/-- Stage 7: the kernel program's normalised array, at the exit of its region 15. -/
abbrev kOut7 (c : Dev Cert.KernelIdeal.nD) : Vec Ideal Cert.KernelIdeal.S100000x128 .f32 := Cert.KernelIdeal.Gen.W32 (F := Ideal) m ρ c (Proc.devRef .tc Cert.KernelIdeal.main_v200)
/-- Stage 7: the reference's, after its list 5. -/
abbrev rOut7 (c : Dev Cert.ReferenceIdeal.nD) : Vec Ideal Cert.ReferenceIdeal.S100000x128 .f32 := U6 m' c (Proc.devRef .tc Cert.ReferenceIdeal.main_v298)
/-- Stage 8: the kernel program's normalised array, at the exit of its region 17. -/
abbrev kOut8 (c : Dev Cert.KernelIdeal.nD) : Vec Ideal Cert.KernelIdeal.S100000x128 .f32 := Cert.KernelIdeal.Gen.W36 (F := Ideal) m ρ c (Proc.devRef .tc Cert.KernelIdeal.main_v214)
/-- Stage 8: the reference's, after its list 6. -/
abbrev rOut8 (c : Dev Cert.ReferenceIdeal.nD) : Vec Ideal Cert.ReferenceIdeal.S100000x128 .f32 := U7 m' c (Proc.devRef .tc Cert.ReferenceIdeal.main_v320)
/-- Stage 9: the kernel program's normalised array, at the exit of its region 19. -/
abbrev kOut9 (c : Dev Cert.KernelIdeal.nD) : Vec Ideal Cert.KernelIdeal.S100000x128 .f32 := Cert.KernelIdeal.Gen.W40 (F := Ideal) m ρ c (Proc.devRef .tc Cert.KernelIdeal.main_v244)
/-- Stage 9: the reference's, after its list 7. -/
abbrev rOut9 (c : Dev Cert.ReferenceIdeal.nD) : Vec Ideal Cert.ReferenceIdeal.S100000x128 .f32 := U8 m' c (Proc.devRef .tc Cert.ReferenceIdeal.main_v363)
/-- Stage 10: the kernel program's normalised array, at the exit of its region 21. -/
abbrev kOut10 (c : Dev Cert.KernelIdeal.nD) : Vec Ideal Cert.KernelIdeal.S100000x128 .f32 := Cert.KernelIdeal.Gen.W44 (F := Ideal) m ρ c (Proc.devRef .tc Cert.KernelIdeal.main_v273)
/-- Stage 10: the reference's, after its list 7. -/
abbrev rOut10 (c : Dev Cert.ReferenceIdeal.nD) : Vec Ideal Cert.ReferenceIdeal.S100000x128 .f32 := U8 m' c (Proc.devRef .tc Cert.ReferenceIdeal.main_v405)
/-- Stage 11: the kernel program's normalised array, at the exit of its region 23. -/
abbrev kOut11 (c : Dev Cert.KernelIdeal.nD) : Vec Ideal Cert.KernelIdeal.S100000x128 .f32 := Cert.KernelIdeal.Gen.W48 (F := Ideal) m ρ c (Proc.devRef .tc Cert.KernelIdeal.main_v302)
/-- Stage 11: the reference's, after its list 8. -/
abbrev rOut11 (c : Dev Cert.ReferenceIdeal.nD) : Vec Ideal Cert.ReferenceIdeal.S100000x128 .f32 := U9 m' c (Proc.devRef .tc Cert.ReferenceIdeal.main_v447)
/-- Stage 12: the kernel program's normalised array, at the exit of its region 25. -/
abbrev kOut12 (c : Dev Cert.KernelIdeal.nD) : Vec Ideal Cert.KernelIdeal.S100000x128 .f32 := Cert.KernelIdeal.Gen.W52 (F := Ideal) m ρ c (Proc.devRef .tc Cert.KernelIdeal.main_v316)
/-- Stage 12: the reference's, after its list 9. -/
abbrev rOut12 (c : Dev Cert.ReferenceIdeal.nD) : Vec Ideal Cert.ReferenceIdeal.S100000x128 .f32 := U10 m' c (Proc.devRef .tc Cert.ReferenceIdeal.main_v469)
/-- Stage 13: the kernel program's normalised array, at the exit of its region 27. -/
abbrev kOut13 (c : Dev Cert.KernelIdeal.nD) : Vec Ideal Cert.KernelIdeal.S100000x128 .f32 := Cert.KernelIdeal.Gen.W56 (F := Ideal) m ρ c (Proc.devRef .tc Cert.KernelIdeal.main_v327)
/-- Stage 13: the reference's, after its list 9. -/
abbrev rOut13 (c : Dev Cert.ReferenceIdeal.nD) : Vec Ideal Cert.ReferenceIdeal.S100000x128 .f32 := U10 m' c (Proc.devRef .tc Cert.ReferenceIdeal.main_v493)
/-- Stage 14: the kernel program's normalised array, at the exit of its region 29. -/
abbrev kOut14 (c : Dev Cert.KernelIdeal.nD) : Vec Ideal Cert.KernelIdeal.S100000x5 .f32 := Cert.KernelIdeal.Gen.W60 (F := Ideal) m ρ c (Proc.devRef .tc Cert.KernelIdeal.main_v338)
/-- Stage 14: the reference's, after its list 10. -/
abbrev rOut14 (c : Dev Cert.ReferenceIdeal.nD) : Vec Ideal Cert.ReferenceIdeal.S100000x5 .f32 := U11 m' c (Proc.devRef .tc Cert.ReferenceIdeal.main_v516)

/-- The invariant at stage 0. -/
def Inv0 (c : Dev Cert.KernelIdeal.nD) : Prop := (∀ i, kOut0 m ρ c i = rOut0 m' c i) ∧ (∀ i, IsReal (kOut0 m ρ c i))
/-- The invariant at stage 1. -/
def Inv1 (c : Dev Cert.KernelIdeal.nD) : Prop := (∀ i, kOut1 m ρ c i = rOut1 m' c i) ∧ (∀ i, IsReal (kOut1 m ρ c i))
/-- The invariant at stage 2. -/
def Inv2 (c : Dev Cert.KernelIdeal.nD) : Prop := (∀ i, kOut2 m ρ c i = rOut2 m' c i) ∧ (∀ i, IsReal (kOut2 m ρ c i))
/-- The invariant at stage 3. -/
def Inv3 (c : Dev Cert.KernelIdeal.nD) : Prop := (∀ i, kOut3 m ρ c i = rOut3 m' c i) ∧ (∀ i, IsReal (kOut3 m ρ c i))
/-- The invariant at stage 4. -/
def Inv4 (c : Dev Cert.KernelIdeal.nD) : Prop := (∀ i, kOut4 m ρ c i = rOut4 m' c i) ∧ (∀ i, IsReal (kOut4 m ρ c i))
/-- The invariant at stage 5. -/
def Inv5 (c : Dev Cert.KernelIdeal.nD) : Prop := (∀ i, kOut5 m ρ c i = rOut5 m' c i) ∧ (∀ i, IsReal (kOut5 m ρ c i))
/-- The invariant at stage 6. -/
def Inv6 (c : Dev Cert.KernelIdeal.nD) : Prop := (∀ i, kOut6 m ρ c i = rOut6 m' c i) ∧ (∀ i, IsReal (kOut6 m ρ c i))
/-- The invariant at stage 7. -/
def Inv7 (c : Dev Cert.KernelIdeal.nD) : Prop := (∀ i, kOut7 m ρ c i = rOut7 m' c i) ∧ (∀ i, IsReal (kOut7 m ρ c i))
/-- The invariant at stage 8. -/
def Inv8 (c : Dev Cert.KernelIdeal.nD) : Prop := (∀ i, kOut8 m ρ c i = rOut8 m' c i) ∧ (∀ i, IsReal (kOut8 m ρ c i))
/-- The invariant at stage 9. -/
def Inv9 (c : Dev Cert.KernelIdeal.nD) : Prop := (∀ i, kOut9 m ρ c i = rOut9 m' c i) ∧ (∀ i, IsReal (kOut9 m ρ c i))
/-- The invariant at stage 10. -/
def Inv10 (c : Dev Cert.KernelIdeal.nD) : Prop := (∀ i, kOut10 m ρ c i = rOut10 m' c i) ∧ (∀ i, IsReal (kOut10 m ρ c i))
/-- The invariant at stage 11. -/
def Inv11 (c : Dev Cert.KernelIdeal.nD) : Prop := (∀ i, kOut11 m ρ c i = rOut11 m' c i) ∧ (∀ i, IsReal (kOut11 m ρ c i))
/-- The invariant at stage 12. -/
def Inv12 (c : Dev Cert.KernelIdeal.nD) : Prop := (∀ i, kOut12 m ρ c i = rOut12 m' c i) ∧ (∀ i, IsReal (kOut12 m ρ c i))
/-- The invariant at stage 13. -/
def Inv13 (c : Dev Cert.KernelIdeal.nD) : Prop := (∀ i, kOut13 m ρ c i = rOut13 m' c i) ∧ (∀ i, IsReal (kOut13 m ρ c i))
/-- The invariant at stage 14. -/
def Inv14 (c : Dev Cert.KernelIdeal.nD) : Prop := (∀ i, kOut14 m ρ c i = rOut14 m' c i) ∧ (∀ i, IsReal (kOut14 m ρ c i))

end Cert.ChainDefs

end
-- ==== Proof.StageSpec.lean ====
/-
  The stages of the graph network as functions of whole arrays, one entry at a time, on the extended reals.

  A LINEAR stage sends rows `x` (n × k) through a weight matrix (k × d) and adds a bias row: entry (r, q) is
  `Σ_j x(r, j) · w(j, q) + b(q)`. Its COLUMN SUMS `Σ_r y(r, q)` and `Σ_r y(r, q)²` feed the batch statistics.
  A NORMALISATION sends `y` to `(y − mean) · rsqrt(var + ε) · g + β`, column by column, and then possibly through
  `max(·, 0)`. These are stated for any row count, inner width and output width, so that every region of one kind
  is an instance.
-/
import Idealize.ShloMosaic.PureOps.Ideal
import Idealize.ShloMosaic.PureOps.Ideal.Laws
import Idealize.ShloMosaic.Lib.ValueIdx

noncomputable section

namespace Cert.StageSpec

open Idealize.ShloMosaic Idealize.ShloMosaic.ValueIdx
open scoped BigOperators

/-- The batch norm's epsilon: one f32 word, the same in both programs, read exactly. -/
def eps : EReal := Ideal.ofBits .f32 0x3727C5AC#32

/-- One entry of a linear stage: row `r` of `x` against column `q` of `w`, plus the bias row's entry. -/
def lin {n k d : ℕ} (x : (⟨2, ![n, k]⟩ : Shape).Idx → EReal) (w : (⟨2, ![k, d]⟩ : Shape).Idx → EReal)
    (b : (⟨2, ![1, d]⟩ : Shape).Idx → EReal) (r : Fin n) (q : Fin d) : EReal :=
  (∑ j : Fin k, x (ix2 r j) * w (ix2 j q)) + b (ix2 (0 : Fin 1) q)

/-- One entry of a linear stage on the entrywise sum of two inputs: the message-passing hop adds the pooled neighbours to the block's input before the weight matrix. -/
def linAdd {n k d : ℕ} (xa xb : (⟨2, ![n, k]⟩ : Shape).Idx → EReal) (w : (⟨2, ![k, d]⟩ : Shape).Idx → EReal)
    (b : (⟨2, ![1, d]⟩ : Shape).Idx → EReal) (r : Fin n) (q : Fin d) : EReal :=
  (∑ j : Fin k, (xa (ix2 r j) + xb (ix2 r j)) * w (ix2 j q)) + b (ix2 (0 : Fin 1) q)

/-- One entry of the three-hop projection: three inputs against three weight matrices, summed in the order the kernel adds them, plus the bias row's entry. -/
def lin3 {n k d : ℕ} (x0 x1 x2 : (⟨2, ![n, k]⟩ : Shape).Idx → EReal) (w0 w1 w2 : (⟨2, ![k, d]⟩ : Shape).Idx → EReal)
    (b : (⟨2, ![1, d]⟩ : Shape).Idx → EReal) (r : Fin n) (q : Fin d) : EReal :=
  (((∑ j : Fin k, x0 (ix2 r j) * w0 (ix2 j q)) + ∑ j : Fin k, x1 (ix2 r j) * w1 (ix2 j q)) + ∑ j : Fin k, x2 (ix2 r j) * w2 (ix2 j q))
    + b (ix2 (0 : Fin 1) q)

/-- The column sum of an array of `n` rows. -/
def colSum {n d : ℕ} (y : Fin n → Fin d → EReal) (q : Fin d) : EReal := ∑ r : Fin n, y r q

/-- The column sum of squares. -/
def colSumSq {n d : ℕ} (y : Fin n → Fin d → EReal) (q : Fin d) : EReal := ∑ r : Fin n, y r q * y r q

/-- One entry of the normalisation, in the grouping both programs use. -/
def norm (y mean var g beta : EReal) : EReal := (y - mean) * Ideal.rsqrt (var + eps) * g + beta

end Cert.StageSpec

end
-- ==== Proof.PayLinear.lean ====
/-
  The values the linear kernels compute, read at one row and one column, on the extended reals.

  Each linear kernel forms, for its block of 5000 rows, the product of the block with a weight matrix plus a bias row
  (for one kind on the entrywise sum of two blocks, for another as three products added in a row, for another through
  the hyperbolic tangent), and adds to two running rows the block's column sums and column sums of squares. Read at row
  `p` and column `q`: a matrix product into the zero accumulator is the sum over the inner positions of the products; a
  narrowing of the number format is the identity on the extended reals; a row broadcast over the block reads the row; a
  reshape to the same shape is the identity; a sum over the rows, reshaped to one row, is the sum over `p` of the
  entries of column `q`.
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayLinear

open Idealize.ShloMosaic Idealize.ShloMosaic.ValueIdx
open scoped BigOperators

/-! ## The operations at a row and a column, for any extents -/

section Generic

/-- A sum over the rows of an `a × c` array, at column `q`: the sum over `p` of the entries `(p, q)`. -/
theorem rowSum_apply {a c : ℕ} (src : FVec Ideal (⟨2, ![a, c]⟩ : Shape) .f32)
    (h : (⟨2, ![a, c]⟩ : Shape).Reduces [0] ⟨1, ![c]⟩) (hφ : FKind.Formats .f32)
    (hacc : (0x00000000#32 : BitVec 32) = FKind.add.neutral .f32 hφ) (q : Fin c) :
    multiReduction (F := Ideal) .add [0] ⟨1, ![c]⟩ src 0x00000000#32 h hφ hacc (ix1 q) = ∑ p : Fin a, src (ix2 p q) := by
  refine (Ideal.multiReduction_add_single src 0x00000000#32 h hφ hacc (ix1 q)).trans ?_
  show ∑ p : Fin a, src (h.lift (ix1 q) p) = ∑ p : Fin a, src (ix2 p q)
  refine Finset.sum_congr rfl fun p _ => congrArg src (funext fun ax => Fin.ext ?_)
  match ax with
  | ⟨0, _⟩ => rfl
  | ⟨1, _⟩ => rfl

/-- The same sum reshaped to one row of `c` entries, at any unit coordinate `u` and column `q`. -/
theorem rowSum_row_apply {a c : ℕ} (src : FVec Ideal (⟨2, ![a, c]⟩ : Shape) .f32)
    (h : (⟨2, ![a, c]⟩ : Shape).Reduces [0] ⟨1, ![c]⟩) (hφ : FKind.Formats .f32)
    (hacc : (0x00000000#32 : BitVec 32) = FKind.add.neutral .f32 hφ)
    (hc : (⟨1, ![c]⟩ : Shape).ShapeCasts ⟨2, ![1, c]⟩) (u : Fin 1) (q : Fin c) :
    shapeCast ⟨2, ![1, c]⟩ (multiReduction (F := Ideal) .add [0] ⟨1, ![c]⟩ src 0x00000000#32 h hφ hacc) hc (ix2 u q)
      = ∑ p : Fin a, src (ix2 p q) :=
  (shapeCast_a_1a_apply _ hc u q).trans (rowSum_apply src h hφ hacc q)

/-- A bias row, reshaped to its own shape and broadcast over `a` rows, reads the row's entry at every row. -/
theorem biasRow_apply {α : Type} {a c : ℕ} (b : (⟨2, ![1, c]⟩ : Shape).Idx → α)
    (h1 : (⟨2, ![1, c]⟩ : Shape).ShapeCasts ⟨2, ![1, c]⟩) (h2 : (⟨2, ![1, c]⟩ : Shape).Broadcasts ⟨2, ![a, c]⟩)
    (p : Fin a) (q : Fin c) :
    broadcastTo ⟨2, ![a, c]⟩ (shapeCast ⟨2, ![1, c]⟩ b h1) h2 (ix2 p q) = b (ix2 (0 : Fin 1) q) :=
  (broadcastTo_1b_ab_apply _ h2 p q).trans (congrFun (shapeCast_self b h1) _)

/-- A matrix product of an `n × k` array with a `k × d` array into the zero accumulator, contracted over one axis, at
    row `p` and column `q`: the sum over `j` of the products of the entries `(p, j)` and `(j, q)`. The four hypotheses say
    which coordinate of each operand the dimension record reads from the result's index and which from the contracted
    position. -/
theorem matmul_oneAxis_apply {n k d : ℕ} (D : DotDims (⟨2, ![n, k]⟩ : Shape) ⟨2, ![k, d]⟩ ⟨2, ![n, d]⟩)
    (hr : D.contr.rank = 1) (hs : D.contr.size ⟨0, by omega⟩ = k)
    (hl0 : ∀ (i : (⟨2, ![n, d]⟩ : Shape).Idx) (c : D.contr.Idx), (D.lhsIdx i c 0).val = (i 0).val)
    (hl1 : ∀ (i : (⟨2, ![n, d]⟩ : Shape).Idx) (c : D.contr.Idx), (D.lhsIdx i c 1).val = (c ⟨0, by omega⟩).val)
    (hr0 : ∀ (i : (⟨2, ![n, d]⟩ : Shape).Idx) (c : D.contr.Idx), (D.rhsIdx i c 0).val = (c ⟨0, by omega⟩).val)
    (hr1 : ∀ (i : (⟨2, ![n, d]⟩ : Shape).Idx) (c : D.contr.Idx), (D.rhsIdx i c 1).val = (i 1).val)
    {φ₁ φ₂ : FTy} (prec : Option ContractPrecision) (lhs : FVec Ideal (⟨2, ![n, k]⟩ : Shape) φ₁)
    (rhs : FVec Ideal (⟨2, ![k, d]⟩ : Shape) φ₂) (p : Fin n) (q : Fin d) :
    FloatOps.matmul D prec lhs rhs (constant (F := Ideal) ⟨2, ![n, d]⟩ .f32 0x00000000#32) (ix2 p q)
      = ∑ j : Fin k, lhs (ix2 p j) * rhs (ix2 j q) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p q) ((contrEquiv1 D k hr hs).symm j) = ix2 j q := funext fun ax => Fin.ext (by
    match ax with
    | ⟨0, _⟩ => exact (hr0 _ _).trans hk
    | ⟨1, _⟩ => exact hr1 _ _)
  rw [el, er]

end Generic

/-! ## The three dimension records: which coordinate each operand reads -/

/-- The left operand's row coordinate of `dot_S5000x64_S64x128_S5000x128_1_0_0_1_n_n` is the result's row. -/
theorem lhs_64_0 (i : S5000x128.Idx) (c : dot_S5000x64_S64x128_S5000x128_1_0_0_1_n_n.contr.Idx) :
    (dot_S5000x64_S64x128_S5000x128_1_0_0_1_n_n.lhsIdx i c 0).val = (i 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl

/-- The left operand's column coordinate of `dot_S5000x64_S64x128_S5000x128_1_0_0_1_n_n` is the contracted position. -/
theorem lhs_64_1 (i : S5000x128.Idx) (c : dot_S5000x64_S64x128_S5000x128_1_0_0_1_n_n.contr.Idx) :
    (dot_S5000x64_S64x128_S5000x128_1_0_0_1_n_n.lhsIdx i c 1).val = (c ⟨0, by decide⟩).val :=
  dot_S5000x64_S64x128_S5000x128_1_0_0_1_n_n.lhsIdx_val_of_single rfl i c

/-- The right operand's row coordinate of `dot_S5000x64_S64x128_S5000x128_1_0_0_1_n_n` is the contracted position. -/
theorem rhs_64_0 (i : S5000x128.Idx) (c : dot_S5000x64_S64x128_S5000x128_1_0_0_1_n_n.contr.Idx) :
    (dot_S5000x64_S64x128_S5000x128_1_0_0_1_n_n.rhsIdx i c 0).val = (c ⟨0, by decide⟩).val :=
  dot_S5000x64_S64x128_S5000x128_1_0_0_1_n_n.rhsIdx_val_of_single rfl i c

/-- The right operand's column coordinate of `dot_S5000x64_S64x128_S5000x128_1_0_0_1_n_n` is the result's column. -/
theorem rhs_64_1 (i : S5000x128.Idx) (c : dot_S5000x64_S64x128_S5000x128_1_0_0_1_n_n.contr.Idx) :
    (dot_S5000x64_S64x128_S5000x128_1_0_0_1_n_n.rhsIdx i c 1).val = (i 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- The product of a 5000 × 64 block with a 64 × 128 matrix into the zero accumulator, at row `p` and column `q`: the sum
    over the 64 inner positions of the products. -/
theorem matmul_64_apply {φ₁ φ₂ : FTy} (prec : Option ContractPrecision) (lhs : FVec Ideal S5000x64 φ₁) (rhs : FVec Ideal S64x128 φ₂)
    (p : Fin 5000) (q : Fin 128) :
    FloatOps.matmul dot_S5000x64_S64x128_S5000x128_1_0_0_1_n_n prec lhs rhs (constant (F := Ideal) S5000x128 .f32 0x00000000#32) (ix2 p q)
      = ∑ j : Fin 64, lhs (ix2 p j) * rhs (ix2 j q) :=
  matmul_oneAxis_apply dot_S5000x64_S64x128_S5000x128_1_0_0_1_n_n rfl rfl
    lhs_64_0 lhs_64_1 rhs_64_0 rhs_64_1 prec lhs rhs p q

/-- The left operand's row coordinate of `dot_S5000x128_S128x128_S5000x128_1_0_0_1_n_n` is the result's row. -/
theorem lhs_128_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column coordinate of `dot_S5000x128_S128x128_S5000x128_1_0_0_1_n_n` is the contracted position. -/
theorem lhs_128_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- The right operand's row coordinate of `dot_S5000x128_S128x128_S5000x128_1_0_0_1_n_n` is the contracted position. -/
theorem rhs_128_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- The right operand's column coordinate of `dot_S5000x128_S128x128_S5000x128_1_0_0_1_n_n` is the result's column. -/
theorem rhs_128_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product of a 5000 × 128 block with a 128 × 128 matrix into the zero accumulator, at row `p` and column `q`: the sum
    over the 128 inner positions of the products. -/
theorem matmul_128_apply {φ₁ φ₂ : FTy} (prec : Option ContractPrecision) (lhs : FVec Ideal S5000x128 φ₁) (rhs : FVec Ideal S128x128 φ₂)
    (p : Fin 5000) (q : Fin 128) :
    FloatOps.matmul dot_S5000x128_S128x128_S5000x128_1_0_0_1_n_n prec lhs rhs (constant (F := Ideal) S5000x128 .f32 0x00000000#32) (ix2 p q)
      = ∑ j : Fin 128, lhs (ix2 p j) * rhs (ix2 j q) :=
  matmul_oneAxis_apply dot_S5000x128_S128x128_S5000x128_1_0_0_1_n_n rfl rfl
    lhs_128_0 lhs_128_1 rhs_128_0 rhs_128_1 prec lhs rhs p q

/-- The left operand's row coordinate of `dot_S5000x128_S128x5_S5000x5_1_0_0_1_n_n` is the result's row. -/
theorem lhs_5_0 (i : S5000x5.Idx) (c : dot_S5000x128_S128x5_S5000x5_1_0_0_1_n_n.contr.Idx) :
    (dot_S5000x128_S128x5_S5000x5_1_0_0_1_n_n.lhsIdx i c 0).val = (i 0).val := by
  unfold DotDims.lhsIdx
  rw [dif_neg (show ¬(0 : Fin S5000x128.rank) ∈ dot_S5000x128_S128x5_S5000x5_1_0_0_1_n_n.lhsBatch by decide),
    dif_pos (show (0 : Fin S5000x128.rank) ∈ dot_S5000x128_S128x5_S5000x5_1_0_0_1_n_n.lhsNonContracting by decide)]
  rfl

/-- The left operand's column coordinate of `dot_S5000x128_S128x5_S5000x5_1_0_0_1_n_n` is the contracted position. -/
theorem lhs_5_1 (i : S5000x5.Idx) (c : dot_S5000x128_S128x5_S5000x5_1_0_0_1_n_n.contr.Idx) :
    (dot_S5000x128_S128x5_S5000x5_1_0_0_1_n_n.lhsIdx i c 1).val = (c ⟨0, by decide⟩).val :=
  dot_S5000x128_S128x5_S5000x5_1_0_0_1_n_n.lhsIdx_val_of_single rfl i c

/-- The right operand's row coordinate of `dot_S5000x128_S128x5_S5000x5_1_0_0_1_n_n` is the contracted position. -/
theorem rhs_5_0 (i : S5000x5.Idx) (c : dot_S5000x128_S128x5_S5000x5_1_0_0_1_n_n.contr.Idx) :
    (dot_S5000x128_S128x5_S5000x5_1_0_0_1_n_n.rhsIdx i c 0).val = (c ⟨0, by decide⟩).val :=
  dot_S5000x128_S128x5_S5000x5_1_0_0_1_n_n.rhsIdx_val_of_single rfl i c

/-- The right operand's column coordinate of `dot_S5000x128_S128x5_S5000x5_1_0_0_1_n_n` is the result's column. -/
theorem rhs_5_1 (i : S5000x5.Idx) (c : dot_S5000x128_S128x5_S5000x5_1_0_0_1_n_n.contr.Idx) :
    (dot_S5000x128_S128x5_S5000x5_1_0_0_1_n_n.rhsIdx i c 1).val = (i 1).val := by
  unfold DotDims.rhsIdx
  rw [dif_neg (show ¬(1 : Fin S128x5.rank) ∈ dot_S5000x128_S128x5_S5000x5_1_0_0_1_n_n.rhsBatch by decide),
    dif_pos (show (1 : Fin S128x5.rank) ∈ dot_S5000x128_S128x5_S5000x5_1_0_0_1_n_n.rhsNonContracting by decide)]
  rfl

/-- The product of a 5000 × 128 block with a 128 × 5 matrix into the zero accumulator, at row `p` and column `q`: the sum
    over the 128 inner positions of the products. -/
theorem matmul_5_apply {φ₁ φ₂ : FTy} (prec : Option ContractPrecision) (lhs : FVec Ideal S5000x128 φ₁) (rhs : FVec Ideal S128x5 φ₂)
    (p : Fin 5000) (q : Fin 5) :
    FloatOps.matmul dot_S5000x128_S128x5_S5000x5_1_0_0_1_n_n prec lhs rhs (constant (F := Ideal) S5000x5 .f32 0x00000000#32) (ix2 p q)
      = ∑ j : Fin 128, lhs (ix2 p j) * rhs (ix2 j q) :=
  matmul_oneAxis_apply dot_S5000x128_S128x5_S5000x5_1_0_0_1_n_n rfl rfl
    lhs_5_0 lhs_5_1 rhs_5_0 rhs_5_1 prec lhs rhs p q

/-! ## One input block: product plus bias, and the two running rows -/

/-- The first linear kernel's block of values at row `p`, column `q`. -/
theorem k0_pay3_apply (x : Vec Ideal S5000x64 .f32) (w : Vec Ideal S64x128 .f32) (b : Vec Ideal S1x128 .f32)
    (p : Fin 5000) (q : Fin 128) :
    Gen.k0_pay3 (F := Ideal) x w b (ix2 p q) = (∑ j : Fin 64, x (ix2 p j) * w (ix2 j q)) + b (ix2 (0 : Fin 1) q) := by
  unfold Gen.k0_pay3
  exact congrArg₂ (fun s t : EReal => s + t)
    (matmul_64_apply none (truncf (F := Ideal) (φ := .f32) .bf16 x Gen.bitsLt_bf16_f32)
      (truncf (F := Ideal) (φ := .f32) .bf16 w Gen.bitsLt_bf16_f32) p q)
    (biasRow_apply b _ _ p q)

/-- It is the linear stage's entry. -/
theorem k0_pay3_eq_lin (x : Vec Ideal S5000x64 .f32) (w : Vec Ideal S64x128 .f32) (b : Vec Ideal S1x128 .f32)
    (p : Fin 5000) (q : Fin 128) : Gen.k0_pay3 (F := Ideal) x w b (ix2 p q) = StageSpec.lin x w b p q :=
  k0_pay3_apply x w b p q

/-- The running row of column sums after the block: what it held plus the block's column sum. -/
theorem k0_pay4_apply (x : Vec Ideal S5000x64 .f32) (w : Vec Ideal S64x128 .f32) (b : Vec Ideal S1x128 .f32)
    (acc : Vec Ideal S1x128 .f32) (u : Fin 1) (q : Fin 128) :
    Gen.k0_pay4 (F := Ideal) x w b acc (ix2 u q)
      = acc (ix2 u q) + ∑ p : Fin 5000, Gen.k0_pay3 (F := Ideal) x w b (ix2 p q) := by
  unfold Gen.k0_pay4
  exact congrArg₂ (fun s t : EReal => s + t) (congrFun (shapeCast_self acc _) _)
    (rowSum_row_apply (Gen.k0_pay3 (F := Ideal) x w b) _ _ _ _ u q)

/-- The running row of column sums of squares after the block. -/
theorem k0_pay5_apply (x : Vec Ideal S5000x64 .f32) (w : Vec Ideal S64x128 .f32) (b : Vec Ideal S1x128 .f32)
    (acc : Vec Ideal S1x128 .f32) (u : Fin 1) (q : Fin 128) :
    Gen.k0_pay5 (F := Ideal) x w b acc (ix2 u q)
      = acc (ix2 u q)
        + ∑ p : Fin 5000, Gen.k0_pay3 (F := Ideal) x w b (ix2 p q) * Gen.k0_pay3 (F := Ideal) x w b (ix2 p q) := by
  unfold Gen.k0_pay5
  exact congrArg₂ (fun s t : EReal => s + t) (congrFun (shapeCast_self acc _) _)
    (rowSum_row_apply (mulf (Gen.k0_pay3 (F := Ideal) x w b) (Gen.k0_pay3 (F := Ideal) x w b)) _ _ _ _ u q)

/-! ## The entrywise sum of two input blocks -/

/-- The second linear kernel's block of values at row `p`, column `q`. -/
theorem k2_pay3_apply (xa xb : Vec Ideal S5000x128 .f32) (w : Vec Ideal S128x128 .f32) (b : Vec Ideal S1x128 .f32)
    (p : Fin 5000) (q : Fin 128) :
    Gen.k2_pay3 (F := Ideal) xa xb w b (ix2 p q)
      = (∑ j : Fin 128, (xa (ix2 p j) + xb (ix2 p j)) * w (ix2 j q)) + b (ix2 (0 : Fin 1) q) := by
  unfold Gen.k2_pay3
  rw [shapeCast_self xa, shapeCast_self xb, shapeCast_self w]
  exact congrArg₂ (fun s t : EReal => s + t)
    (matmul_128_apply none (truncf (F := Ideal) (φ := .f32) .bf16 (addf (F := Ideal) (φ := .f32) xa xb) Gen.bitsLt_bf16_f32)
      (truncf (F := Ideal) (φ := .f32) .bf16 w Gen.bitsLt_bf16_f32) p q)
    (biasRow_apply b _ _ p q)

/-- It is the linear stage's entry on the entrywise sum. -/
theorem k2_pay3_eq_linAdd (xa xb : Vec Ideal S5000x128 .f32) (w : Vec Ideal S128x128 .f32) (b : Vec Ideal S1x128 .f32)
    (p : Fin 5000) (q : Fin 128) : Gen.k2_pay3 (F := Ideal) xa xb w b (ix2 p q) = StageSpec.linAdd xa xb w b p q :=
  k2_pay3_apply xa xb w b p q

/-- The running row of column sums after the block. -/
theorem k2_pay4_apply (xa xb : Vec Ideal S5000x128 .f32) (w : Vec Ideal S128x128 .f32) (b : Vec Ideal S1x128 .f32)
    (acc : Vec Ideal S1x128 .f32) (u : Fin 1) (q : Fin 128) :
    Gen.k2_pay4 (F := Ideal) xa xb w b acc (ix2 u q)
      = acc (ix2 u q) + ∑ p : Fin 5000, Gen.k2_pay3 (F := Ideal) xa xb w b (ix2 p q) := by
  unfold Gen.k2_pay4
  exact congrArg₂ (fun s t : EReal => s + t) (congrFun (shapeCast_self acc _) _)
    (rowSum_row_apply (Gen.k2_pay3 (F := Ideal) xa xb w b) _ _ _ _ u q)

/-- The running row of column sums of squares after the block. -/
theorem k2_pay5_apply (xa xb : Vec Ideal S5000x128 .f32) (w : Vec Ideal S128x128 .f32) (b : Vec Ideal S1x128 .f32)
    (acc : Vec Ideal S1x128 .f32) (u : Fin 1) (q : Fin 128) :
    Gen.k2_pay5 (F := Ideal) xa xb w b acc (ix2 u q)
      = acc (ix2 u q)
        + ∑ p : Fin 5000, Gen.k2_pay3 (F := Ideal) xa xb w b (ix2 p q) * Gen.k2_pay3 (F := Ideal) xa xb w b (ix2 p q) := by
  unfold Gen.k2_pay5
  exact congrArg₂ (fun s t : EReal => s + t) (congrFun (shapeCast_self acc _) _)
    (rowSum_row_apply (mulf (Gen.k2_pay3 (F := Ideal) xa xb w b) (Gen.k2_pay3 (F := Ideal) xa xb w b)) _ _ _ _ u q)

/-! ## Three products added in a row -/

/-- The three-hop kernel's block of values at row `p`, column `q`: the three sums of products in the order they are
    added, plus the bias row's entry. -/
theorem k8_pay5_apply (x0 : Vec Ideal S5000x128 .f32) (w0 : Vec Ideal S128x128 .f32) (x1 : Vec Ideal S5000x128 .f32)
    (w1 : Vec Ideal S128x128 .f32) (x2 : Vec Ideal S5000x128 .f32) (w2 : Vec Ideal S128x128 .f32)
    (b : Vec Ideal S1x128 .f32) (p : Fin 5000) (q : Fin 128) :
    Gen.k8_pay5 (F := Ideal) x0 w0 x1 w1 x2 w2 b (ix2 p q)
      = (((∑ j : Fin 128, x0 (ix2 p j) * w0 (ix2 j q)) + ∑ j : Fin 128, x1 (ix2 p j) * w1 (ix2 j q))
          + ∑ j : Fin 128, x2 (ix2 p j) * w2 (ix2 j q))
        + b (ix2 (0 : Fin 1) q) := by
  unfold Gen.k8_pay5
  rw [shapeCast_self x0, shapeCast_self w0, shapeCast_self x1, shapeCast_self w1, shapeCast_self x2, shapeCast_self w2]
  exact congrArg₂ (fun s t : EReal => s + t)
    (congrArg₂ (fun s t : EReal => s + t)
      (congrArg₂ (fun s t : EReal => s + t)
        (matmul_128_apply none (truncf (F := Ideal) (φ := .f32) .bf16 x0 Gen.bitsLt_bf16_f32)
          (truncf (F := Ideal) (φ := .f32) .bf16 w0 Gen.bitsLt_bf16_f32) p q)
        (matmul_128_apply none (truncf (F := Ideal) (φ := .f32) .bf16 x1 Gen.bitsLt_bf16_f32)
          (truncf (F := Ideal) (φ := .f32) .bf16 w1 Gen.bitsLt_bf16_f32) p q))
      (matmul_128_apply none (truncf (F := Ideal) (φ := .f32) .bf16 x2 Gen.bitsLt_bf16_f32)
        (truncf (F := Ideal) (φ := .f32) .bf16 w2 Gen.bitsLt_bf16_f32) p q))
    (biasRow_apply b _ _ p q)

/-- It is the three-hop projection's entry (the payload takes each input next to its weight matrix). -/
theorem k8_pay5_eq_lin3 (x0 : Vec Ideal S5000x128 .f32) (w0 : Vec Ideal S128x128 .f32) (x1 : Vec Ideal S5000x128 .f32)
    (w1 : Vec Ideal S128x128 .f32) (x2 : Vec Ideal S5000x128 .f32) (w2 : Vec Ideal S128x128 .f32)
    (b : Vec Ideal S1x128 .f32) (p : Fin 5000) (q : Fin 128) :
    Gen.k8_pay5 (F := Ideal) x0 w0 x1 w1 x2 w2 b (ix2 p q) = StageSpec.lin3 x0 x1 x2 w0 w1 w2 b p q :=
  k8_pay5_apply x0 w0 x1 w1 x2 w2 b p q

/-- The running row of column sums after a block `y` of the three-hop kernel (this one adds to the row as it stands). -/
theorem k8_pay1_apply (y : FVec Ideal S5000x128 .f32) (acc : FVec Ideal S1x128 .f32) (u : Fin 1) (q : Fin 128) :
    Gen.k8_pay1 (F := Ideal) y acc (ix2 u q) = acc (ix2 u q) + ∑ p : Fin 5000, y (ix2 p q) := by
  unfold Gen.k8_pay1
  exact congrArg₂ (fun s t : EReal => s + t) rfl (rowSum_row_apply y _ _ _ _ u q)

/-- The running row of column sums of squares after a block `y` of the three-hop kernel. -/
theorem k8_pay2_apply (y : FVec Ideal S5000x128 .f32) (acc : Vec Ideal S1x128 .f32) (u : Fin 1) (q : Fin 128) :
    Gen.k8_pay2 (F := Ideal) y acc (ix2 u q) = acc (ix2 u q) + ∑ p : Fin 5000, y (ix2 p q) * y (ix2 p q) := by
  unfold Gen.k8_pay2
  exact congrArg₂ (fun s t : EReal => s + t) (congrFun (shapeCast_self acc _) _)
    (rowSum_row_apply (mulf (F := Ideal) (φ := .f32) y y) _ _ _ _ u q)

/-! ## The hyperbolic tangent of a product plus bias -/

/-- The first attention kernel's block of values at row `p`, column `q`. -/
theorem k26_pay3_apply (x : Vec Ideal S5000x128 .f32) (w : Vec Ideal S128x128 .f32) (b : Vec Ideal S1x128 .f32)
    (p : Fin 5000) (q : Fin 128) :
    Gen.k26_pay3 (F := Ideal) x w b (ix2 p q)
      = Ideal.tanh ((∑ j : Fin 128, x (ix2 p j) * w (ix2 j q)) + b (ix2 (0 : Fin 1) q)) := by
  unfold Gen.k26_pay3
  rw [shapeCast_self x]
  exact congrArg Ideal.tanh (congrArg₂ (fun s t : EReal => s + t)
    (matmul_128_apply none (truncf (F := Ideal) (φ := .f32) .bf16 x Gen.bitsLt_bf16_f32)
      (truncf (F := Ideal) (φ := .f32) .bf16 w Gen.bitsLt_bf16_f32) p q)
    (biasRow_apply b _ _ p q))

/-- It is the hyperbolic tangent of the linear stage's entry. -/
theorem k26_pay3_eq_tanh_lin (x : Vec Ideal S5000x128 .f32) (w : Vec Ideal S128x128 .f32) (b : Vec Ideal S1x128 .f32)
    (p : Fin 5000) (q : Fin 128) : Gen.k26_pay3 (F := Ideal) x w b (ix2 p q) = Ideal.tanh (StageSpec.lin x w b p q) :=
  k26_pay3_apply x w b p q

/-- The running row of column sums after the block. -/
theorem k26_pay4_apply (x : Vec Ideal S5000x128 .f32) (w : Vec Ideal S128x128 .f32) (b : Vec Ideal S1x128 .f32)
    (acc : Vec Ideal S1x128 .f32) (u : Fin 1) (q : Fin 128) :
    Gen.k26_pay4 (F := Ideal) x w b acc (ix2 u q)
      = acc (ix2 u q) + ∑ p : Fin 5000, Gen.k26_pay3 (F := Ideal) x w b (ix2 p q) := by
  unfold Gen.k26_pay4
  exact congrArg₂ (fun s t : EReal => s + t) (congrFun (shapeCast_self acc _) _)
    (rowSum_row_apply (Gen.k26_pay3 (F := Ideal) x w b) _ _ _ _ u q)

/-- The running row of column sums of squares after the block. -/
theorem k26_pay5_apply (x : Vec Ideal S5000x128 .f32) (w : Vec Ideal S128x128 .f32) (b : Vec Ideal S1x128 .f32)
    (acc : Vec Ideal S1x128 .f32) (u : Fin 1) (q : Fin 128) :
    Gen.k26_pay5 (F := Ideal) x w b acc (ix2 u q)
      = acc (ix2 u q)
        + ∑ p : Fin 5000, Gen.k26_pay3 (F := Ideal) x w b (ix2 p q) * Gen.k26_pay3 (F := Ideal) x w b (ix2 p q) := by
  unfold Gen.k26_pay5
  exact congrArg₂ (fun s t : EReal => s + t) (congrFun (shapeCast_self acc _) _)
    (rowSum_row_apply (mulf (Gen.k26_pay3 (F := Ideal) x w b) (Gen.k26_pay3 (F := Ideal) x w b)) _ _ _ _ u q)

/-! ## The product into five columns -/

/-- The second attention kernel's block of values at row `p`, column `q`. -/
theorem k28_pay3_apply (x : Vec Ideal S5000x128 .f32) (w : Vec Ideal S128x5 .f32) (b : Vec Ideal S1x5 .f32)
    (p : Fin 5000) (q : Fin 5) :
    Gen.k28_pay3 (F := Ideal) x w b (ix2 p q) = (∑ j : Fin 128, x (ix2 p j) * w (ix2 j q)) + b (ix2 (0 : Fin 1) q) := by
  unfold Gen.k28_pay3
  rw [shapeCast_self x]
  exact congrArg₂ (fun s t : EReal => s + t)
    (matmul_5_apply none (truncf (F := Ideal) (φ := .f32) .bf16 x Gen.bitsLt_bf16_f32)
      (truncf (F := Ideal) (φ := .f32) .bf16 w Gen.bitsLt_bf16_f32) p q)
    (biasRow_apply b _ _ p q)

/-- It is the linear stage's entry. -/
theorem k28_pay3_eq_lin (x : Vec Ideal S5000x128 .f32) (w : Vec Ideal S128x5 .f32) (b : Vec Ideal S1x5 .f32)
    (p : Fin 5000) (q : Fin 5) : Gen.k28_pay3 (F := Ideal) x w b (ix2 p q) = StageSpec.lin x w b p q :=
  k28_pay3_apply x w b p q

/-- The running row of column sums after the block. -/
theorem k28_pay4_apply (x : Vec Ideal S5000x128 .f32) (w : Vec Ideal S128x5 .f32) (b : Vec Ideal S1x5 .f32)
    (acc : Vec Ideal S1x5 .f32) (u : Fin 1) (q : Fin 5) :
    Gen.k28_pay4 (F := Ideal) x w b acc (ix2 u q)
      = acc (ix2 u q) + ∑ p : Fin 5000, Gen.k28_pay3 (F := Ideal) x w b (ix2 p q) := by
  unfold Gen.k28_pay4
  exact congrArg₂ (fun s t : EReal => s + t) (congrFun (shapeCast_self acc _) _)
    (rowSum_row_apply (Gen.k28_pay3 (F := Ideal) x w b) _ _ _ _ u q)

/-- The running row of column sums of squares after the block. -/
theorem k28_pay5_apply (x : Vec Ideal S5000x128 .f32) (w : Vec Ideal S128x5 .f32) (b : Vec Ideal S1x5 .f32)
    (acc : Vec Ideal S1x5 .f32) (u : Fin 1) (q : Fin 5) :
    Gen.k28_pay5 (F := Ideal) x w b acc (ix2 u q)
      = acc (ix2 u q)
        + ∑ p : Fin 5000, Gen.k28_pay3 (F := Ideal) x w b (ix2 p q) * Gen.k28_pay3 (F := Ideal) x w b (ix2 p q) := by
  unfold Gen.k28_pay5
  exact congrArg₂ (fun s t : EReal => s + t) (congrFun (shapeCast_self acc _) _)
    (rowSum_row_apply (mulf (Gen.k28_pay3 (F := Ideal) x w b) (Gen.k28_pay3 (F := Ideal) x w b)) _ _ _ _ u q)

end Cert.KernelIdeal.PayLinear

end
-- ==== Proof.LibIdealReal.lean ====
/-
  Extended-real terms built from REAL arguments by the operations of the ideal float values
  (`Ideal φ = EReal`) are coercions of real expressions. The lemmas below push the coercion
  `ℝ → EReal` outward through each operation as it stands after the instance's `*_def` lemmas
  have fired (`x + y`, `x - y`, `x * y`, `-x`, `max x y`, `max x (-x)`, `Ideal.exp`, `Ideal.log`,
  `Ideal.div`, `Ideal.cmp`), through finite sums and through maxima taken as a fold of `max`
  from `⊥`; and they read the f32 words of a few constants as the reals (or infinities) they denote.
-/
import Idealize.ShloMosaic.PureOps.Ideal
import Idealize.ShloMosaic.PureOps.Ideal.Laws
import Mathlib.Data.EReal.Inv
import Mathlib.Data.EReal.Operations
import Mathlib.Data.Finset.Lattice.Fold
import Mathlib.Data.Finset.Fold
import Mathlib.Algebra.BigOperators.Group.Finset.Basic
import Mathlib.Analysis.SpecialFunctions.Log.Basic

noncomputable section

namespace Cert.LibIdealReal

open Idealize.ShloMosaic
open scoped BigOperators

/-! ## Constants: f32 words as extended reals -/

/-- `+0.0` denotes the real `0` (as a coercion; `Ideal.ofBits_zero_f32` states it as `0 : EReal`). -/
theorem ofBits_zero_f32_coe : Ideal.ofBits .f32 0x00000000#32 = ((0 : ℝ) : EReal) := by
  rw [Ideal.ofBits_zero_f32, EReal.coe_zero]

/-- `1.0` denotes the real `1`. -/
theorem ofBits_one_f32 : Ideal.ofBits .f32 0x3F800000#32 = ((1 : ℝ) : EReal) := by
  simp [Ideal.ofBits, Ideal.ieee, -EReal.coe_mul]; norm_num

/-- `10.0` denotes the real `10`. -/
theorem ofBits_ten_f32 : Ideal.ofBits .f32 0x41200000#32 = ((10 : ℝ) : EReal) := by
  simp [Ideal.ofBits, Ideal.ieee, -EReal.coe_mul]; norm_num

/-- `-10.0` denotes the real `-10`. -/
theorem ofBits_neg_ten_f32 : Ideal.ofBits .f32 0xC1200000#32 = ((-10 : ℝ) : EReal) := by
  simp [Ideal.ofBits, Ideal.ieee, -EReal.coe_mul]; norm_num

/-- `0.5` denotes the real `1/2`. -/
theorem ofBits_half_f32 : Ideal.ofBits .f32 0x3F000000#32 = ((1 / 2 : ℝ) : EReal) := by
  simp [Ideal.ofBits, Ideal.ieee, -EReal.coe_mul]; norm_num

/-- `2048.0` denotes the real `2048`. -/
theorem ofBits_2048_f32 : Ideal.ofBits .f32 0x45000000#32 = ((2048 : ℝ) : EReal) := by
  simp [Ideal.ofBits, Ideal.ieee, -EReal.coe_mul]; norm_num

/-- `50257.0` denotes the real `50257`. -/
theorem ofBits_50257_f32 : Ideal.ofBits .f32 0x47445100#32 = ((50257 : ℝ) : EReal) := by
  simp [Ideal.ofBits, Ideal.ieee, -EReal.coe_mul]; norm_num

/-- `102926336.0` (`= 2048 · 50257`) denotes the real `102926336`. -/
theorem ofBits_102926336_f32 : Ideal.ofBits .f32 0x4CC45100#32 = ((102926336 : ℝ) : EReal) := by
  simp [Ideal.ofBits, Ideal.ieee, -EReal.coe_mul]; norm_num

/-- The pattern of `-∞` denotes `⊥`. -/
theorem ofBits_neg_inf_f32 : Ideal.ofBits .f32 0xFF800000#32 = (⊥ : EReal) := by
  simp [Ideal.ofBits, Ideal.ieee]

/-- The pattern of `+∞` denotes `⊤`. -/
theorem ofBits_inf_f32 : Ideal.ofBits .f32 0x7F800000#32 = (⊤ : EReal) := by
  simp [Ideal.ofBits, Ideal.ieee]

/-! ## Scalar operations on coerced reals

  Sums, differences, products and negations are Mathlib's `EReal.coe_add`, `EReal.coe_sub`, `EReal.coe_mul`,
  `EReal.coe_neg` read right to left; they are restated here left to right so that `rw` / `simp only` can
  use them without an arrow. -/

/-- A sum of two reals' coercions is the coercion of their sum. -/
theorem coe_add_coe (a b : ℝ) : (a : EReal) + (b : EReal) = ((a + b : ℝ) : EReal) := (EReal.coe_add a b).symm

/-- A difference of two reals' coercions is the coercion of their difference. -/
theorem coe_sub_coe (a b : ℝ) : (a : EReal) - (b : EReal) = ((a - b : ℝ) : EReal) := (EReal.coe_sub a b).symm

/-- A product of two reals' coercions is the coercion of their product. -/
theorem coe_mul_coe (a b : ℝ) : (a : EReal) * (b : EReal) = ((a * b : ℝ) : EReal) := (EReal.coe_mul a b).symm

/-- The negation of a real's coercion is the coercion of its negation. -/
theorem neg_coe (a : ℝ) : -(a : EReal) = ((-a : ℝ) : EReal) := (EReal.coe_neg a).symm

/-- The maximum of two reals' coercions is the coercion of their maximum. -/
theorem max_coe_coe (a b : ℝ) : max (a : EReal) (b : EReal) = ((max a b : ℝ) : EReal) :=
  (EReal.coe_strictMono.monotone.map_max (a := a) (b := b)).symm

/-- The minimum of two reals' coercions is the coercion of their minimum. -/
theorem min_coe_coe (a b : ℝ) : min (a : EReal) (b : EReal) = ((min a b : ℝ) : EReal) :=
  (EReal.coe_strictMono.monotone.map_min (a := a) (b := b)).symm

/-- The instance's absolute value, `max x (-x)`, of a real's coercion is the coercion of `|a|`. -/
theorem max_neg_coe (a : ℝ) : max (a : EReal) (-(a : EReal)) = ((|a| : ℝ) : EReal) := by
  rw [neg_coe, max_coe_coe]; rfl

/-- The same, stated on the instance's field `absf` (`Ideal.absf_def` unfolds it to `max x (-x)`). -/
theorem absf_coe {φ : FTy} (a : ℝ) : FloatOps.absf (F := Ideal) (φ := φ) (a : EReal) = ((|a| : ℝ) : EReal) :=
  max_neg_coe a

/-- The instance's logarithm of a POSITIVE real's coercion is the coercion of its real logarithm. -/
theorem log_coe_of_pos {a : ℝ} (h : 0 < a) : Ideal.log (a : EReal) = ((Real.log a : ℝ) : EReal) := by
  rw [Ideal.log_coe, if_neg (not_le.mpr h)]

/-- The instance's division (`divf`, `hostDivf` and the scalar `divf` all unfold to `Ideal.div`) of a real's
    coercion by a NONZERO real's is the coercion of the quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The reciprocal `Ideal.div 1 x` (the instance's `reciprocal`) of a nonzero real's coercion. -/
theorem div_one_coe {b : ℝ} (hb : b ≠ 0) : Ideal.div 1 (b : EReal) = ((1 / b : ℝ) : EReal) := by
  rw [← EReal.coe_one, div_coe_coe 1 hb]

/-! ### Comparisons and the select on them -/

/-- `cmpf ogt` on two reals' coercions is the bit of `b < a`. -/
theorem cmp_ogt_coe (a b : ℝ) : Ideal.cmp .ogt (a : EReal) (b : EReal) = BitVec.ofBool (decide (b < a)) := by
  simp only [Ideal.cmp, EReal.coe_lt_coe_iff]

/-- `cmpf olt` on two reals' coercions is the bit of `a < b`. -/
theorem cmp_olt_coe (a b : ℝ) : Ideal.cmp .olt (a : EReal) (b : EReal) = BitVec.ofBool (decide (a < b)) := by
  simp only [Ideal.cmp, EReal.coe_lt_coe_iff]

/-- `cmpf oge` on two reals' coercions is the bit of `b ≤ a`. -/
theorem cmp_oge_coe (a b : ℝ) : Ideal.cmp .oge (a : EReal) (b : EReal) = BitVec.ofBool (decide (b ≤ a)) := by
  simp only [Ideal.cmp, EReal.coe_le_coe_iff]

/-- `cmpf ole` on two reals' coercions is the bit of `a ≤ b`. -/
theorem cmp_ole_coe (a b : ℝ) : Ideal.cmp .ole (a : EReal) (b : EReal) = BitVec.ofBool (decide (a ≤ b)) := by
  simp only [Ideal.cmp, EReal.coe_le_coe_iff]

/-- `cmpf ogt` on two reals' coercions answers `1` exactly when `a > b`. -/
theorem cmp_ogt_coe_eq_one_iff (a b : ℝ) : Ideal.cmp .ogt (a : EReal) (b : EReal) = 1#1 ↔ b < a := by
  rw [cmp_ogt_coe]; by_cases h : b < a <;> simp [h]

/-- A select on a proposition's bit is the `if` on the proposition. -/
theorem select_ofBool_decide {α : Type} (p : Prop) [Decidable p] (x y : α) :
    Scalar.select (BitVec.ofBool (decide p)) x y = if p then x else y := by
  by_cases h : p <;> simp [Scalar.select, h]

/-- The select on `cmpf ogt` of two reals' coercions: the first branch exactly when `a > b`. -/
theorem select_cmp_ogt_coe {α : Type} (a b : ℝ) (x y : α) :
    Scalar.select (Ideal.cmp .ogt (a : EReal) (b : EReal)) x y = if b < a then x else y := by
  rw [cmp_ogt_coe, select_ofBool_decide]

/-- The select on `cmpf olt` of two reals' coercions: the first branch exactly when `a < b`. -/
theorem select_cmp_olt_coe {α : Type} (a b : ℝ) (x y : α) :
    Scalar.select (Ideal.cmp .olt (a : EReal) (b : EReal)) x y = if a < b then x else y := by
  rw [cmp_olt_coe, select_ofBool_decide]

/-- The select on `cmpf oge` of two reals' coercions: the first branch exactly when `a ≥ b`. -/
theorem select_cmp_oge_coe {α : Type} (a b : ℝ) (x y : α) :
    Scalar.select (Ideal.cmp .oge (a : EReal) (b : EReal)) x y = if b ≤ a then x else y := by
  rw [cmp_oge_coe, select_ofBool_decide]

/-- The select on `cmpf ole` of two reals' coercions: the first branch exactly when `a ≤ b`. -/
theorem select_cmp_ole_coe {α : Type} (a b : ℝ) (x y : α) :
    Scalar.select (Ideal.cmp .ole (a : EReal) (b : EReal)) x y = if a ≤ b then x else y := by
  rw [cmp_ole_coe, select_ofBool_decide]

/-- An `if` between two reals' coercions is the coercion of the `if`. -/
theorem ite_coe (p : Prop) [Decidable p] (a b : ℝ) :
    (if p then (a : EReal) else (b : EReal)) = ((if p then a else b : ℝ) : EReal) := by
  split <;> rfl

/-! ### The bottom element -/

/-- `⊥` minus a real's coercion is `⊥` (Mathlib's `EReal.bot_sub` at a coercion). -/
theorem bot_sub_coe (a : ℝ) : (⊥ : EReal) - (a : EReal) = ⊥ := EReal.bot_sub _

/-- `max ⊥ x = x` on the extended reals. -/
theorem max_bot_left' (x : EReal) : max ⊥ x = x := max_bot_left x

/-- `max x ⊥ = x` on the extended reals. -/
theorem max_bot_right' (x : EReal) : max x ⊥ = x := max_bot_right x

/-! ## Finite sums and maxima of coerced reals -/

section Big
variable {ι : Type*}

/-- A finite sum of reals' coercions is the coercion of the sum (over a `Finset`; a `Fintype`'s
    `∑ i, _` is the case `s = Finset.univ`). -/
theorem sum_coe (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same for a sum whose terms are KNOWN to be coercions: whatever `F i` is, if each equals
    the coercion of `f i` then the sum is the coercion of `∑ f`. -/
theorem sum_eq_coe_of_eq (s : Finset ι) (F : ι → EReal) (f : ι → ℝ) (h : ∀ i ∈ s, F i = ((f i : ℝ) : EReal)) :
    ∑ i ∈ s, F i = ((∑ i ∈ s, f i : ℝ) : EReal) := by
  rw [Finset.sum_congr rfl h, sum_coe]

/-- The supremum over a nonempty finite set of reals' coercions is the coercion of their
    greatest (`Finset.sup'` on the reals). -/
theorem sup_coe (s : Finset ι) (hs : s.Nonempty) (f : ι → ℝ) :
    s.sup (fun i => ((f i : ℝ) : EReal)) = ((s.sup' hs f : ℝ) : EReal) := by
  rw [← Finset.sup'_eq_sup hs]
  exact (Finset.comp_sup'_eq_sup'_comp hs (fun r : ℝ => (r : EReal)) (fun a b => (max_coe_coe a b).symm)).symm

/-- A fold of `max` from `⊥` is the finite supremum. -/
theorem fold_max_bot_eq_sup (s : Finset ι) (F : ι → EReal) : s.fold max (⊥ : EReal) F = s.sup F := rfl

/-- A fold of the instance's `maximumf` is a fold of `max` (what `Host.reduce_eq_fold_single FloatOps.maximumf`
    and `multiReduction_maximumf_eq_fold` leave). -/
theorem fold_maximumf_eq_fold_max {φ : FTy} (s : Finset ι) (b : Ideal φ) (F : ι → Ideal φ) :
    s.fold (FloatOps.maximumf (F := Ideal) (φ := φ)) b F = s.fold (max : EReal → EReal → EReal) b F := rfl

/-- A maximum-reduction of reals' coercions from the initial value `⊥` — the fold of `max` from `⊥` over a
    nonempty finite set, as `multiReduction_maximumf_single` leaves it — is the coercion of their greatest. -/
theorem fold_max_bot_coe (s : Finset ι) (hs : s.Nonempty) (f : ι → ℝ) :
    s.fold max (⊥ : EReal) (fun i => ((f i : ℝ) : EReal)) = ((s.sup' hs f : ℝ) : EReal) := by
  rw [fold_max_bot_eq_sup, sup_coe s hs]

/-- The same for a fold whose terms are KNOWN to be coercions. -/
theorem fold_max_bot_eq_coe_of_eq (s : Finset ι) (hs : s.Nonempty) (F : ι → EReal) (f : ι → ℝ)
    (h : ∀ i ∈ s, F i = ((f i : ℝ) : EReal)) :
    s.fold max (⊥ : EReal) F = ((s.sup' hs f : ℝ) : EReal) := by
  rw [Finset.fold_congr (g := fun i => ((f i : ℝ) : EReal)) h, fold_max_bot_coe s hs]

/-- A fold of `max` from a REAL initial value over reals' coercions is the coercion of the real fold
    (no nonemptiness needed). -/
theorem fold_max_coe (s : Finset ι) (b : ℝ) (f : ι → ℝ) :
    s.fold max ((b : ℝ) : EReal) (fun i => ((f i : ℝ) : EReal)) = ((s.fold max b f : ℝ) : EReal) :=
  Finset.fold_hom (op := (max : ℝ → ℝ → ℝ)) (op' := (max : EReal → EReal → EReal)) (m := fun r : ℝ => (r : EReal))
    (fun a b => (max_coe_coe a b).symm)

end Big

end Cert.LibIdealReal

end
-- ==== Proof.LibBatchStats.lean ====
/-
  Batch statistics over the extended reals, and which extended-real terms are real numbers.

  A batch norm needs the mean and the variance of a column of numbers `y 0, …, y (n-1)`. The variance can be computed
  in one pass over the data, as `max (Σ y² / n − (Σ y / n)², 0)`, or in two, as `Σ (y − Σ y / n)² / n`. Over the real
  numbers the two are the same number: expanding the square, `Σ (y − m)² = Σ y² − 2 m Σ y + n m²` with `m = Σ y / n`,
  that is `Σ y² − n m²`; and a mean of squares is not negative, so the clip at zero does nothing. Over the extended
  reals (`Ideal φ = EReal`, division `Ideal.div x y = x * y⁻¹` for `y ≠ 0`) the same holds as soon as every `y i` is a
  real number, because sums, products, differences and quotients by a nonzero real of real numbers are real numbers
  and the coercion `ℝ → EReal` commutes with each of them.

  The file has four parts: closure of "is a real number" (`Cert.RealSpec.IsReal`) under the scalar operations; the
  statistics; regrouping of a sum over a range cut in two halves or in `P` runs of `R`; and the f32 words of a few
  constants read as real numbers.
-/
import Idealize.ShloMosaic.PureOps.Ideal
import Idealize.ShloMosaic.PureOps.Ideal.Laws
import Mathlib.Data.EReal.Inv
import Mathlib.Data.EReal.Operations
import Mathlib.Algebra.BigOperators.Fin
import Mathlib.Algebra.BigOperators.Group.Finset.Basic
import Mathlib.Algebra.BigOperators.Ring.Finset
import Mathlib.Data.Fintype.BigOperators
import Mathlib.Logic.Equiv.Fin.Basic
import Mathlib.Tactic.Ring
import Mathlib.Tactic.FieldSimp
import Mathlib.Tactic.Positivity
import Mathlib.Tactic.NormNum
import proofs.«414479_j7705171329025_1_alg».proof.Proof.LibIdealReal
import proofs.«414479_j7705171329025_1_alg».proof.Proof.RealSpec

noncomputable section

namespace Cert.BatchStats

open Idealize.ShloMosaic
open Cert.RealSpec (IsReal)
open scoped BigOperators

/-! ## Closure of "is a real number" under the scalar operations -/

/-- A real number's coercion is a real number. -/
theorem isReal_coe (r : ℝ) : IsReal (r : EReal) := ⟨r, rfl⟩

/-- Zero is a real number. -/
theorem isReal_zero : IsReal (0 : EReal) := ⟨0, EReal.coe_zero.symm⟩

/-- One is a real number. -/
theorem isReal_one : IsReal (1 : EReal) := ⟨1, EReal.coe_one.symm⟩

/-- A sum of two real numbers is a real number. -/
theorem isReal_add {x y : EReal} (hx : IsReal x) (hy : IsReal y) : IsReal (x + y) := by
  obtain ⟨a, rfl⟩ := hx; obtain ⟨b, rfl⟩ := hy
  exact ⟨a + b, (EReal.coe_add a b).symm⟩

/-- A difference of two real numbers is a real number. -/
theorem isReal_sub {x y : EReal} (hx : IsReal x) (hy : IsReal y) : IsReal (x - y) := by
  obtain ⟨a, rfl⟩ := hx; obtain ⟨b, rfl⟩ := hy
  exact ⟨a - b, (EReal.coe_sub a b).symm⟩

/-- A product of two real numbers is a real number. -/
theorem isReal_mul {x y : EReal} (hx : IsReal x) (hy : IsReal y) : IsReal (x * y) := by
  obtain ⟨a, rfl⟩ := hx; obtain ⟨b, rfl⟩ := hy
  exact ⟨a * b, (EReal.coe_mul a b).symm⟩

/-- The negation of a real number is a real number. -/
theorem isReal_neg {x : EReal} (hx : IsReal x) : IsReal (-x) := by
  obtain ⟨a, rfl⟩ := hx
  exact ⟨-a, (EReal.coe_neg a).symm⟩

/-- The greater of two real numbers is a real number. -/
theorem isReal_max {x y : EReal} (hx : IsReal x) (hy : IsReal y) : IsReal (max x y) := by
  obtain ⟨a, rfl⟩ := hx; obtain ⟨b, rfl⟩ := hy
  exact ⟨max a b, LibIdealReal.max_coe_coe a b⟩

/-- The lesser of two real numbers is a real number. -/
theorem isReal_min {x y : EReal} (hx : IsReal x) (hy : IsReal y) : IsReal (min x y) := by
  obtain ⟨a, rfl⟩ := hx; obtain ⟨b, rfl⟩ := hy
  exact ⟨min a b, LibIdealReal.min_coe_coe a b⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih (fun i hi => h i (Finset.mem_insert_of_mem hi)))

/-- A sum over a whole finite type of real numbers is a real number. -/
theorem isReal_sum_univ {ι : Type*} [Fintype ι] (f : ι → EReal) (h : ∀ i, IsReal (f i)) : IsReal (∑ i, f i) :=
  isReal_sum Finset.univ f (fun i _ => h i)

/-- A sum from a zero initial value is the sum. -/
theorem zero_add_sum {ι : Type*} (s : Finset ι) (f : ι → EReal) : 0 + ∑ i ∈ s, f i = ∑ i ∈ s, f i := zero_add _

/-- A sum of real numbers from a zero initial value is a real number. -/
theorem isReal_zero_add_sum_univ {ι : Type*} [Fintype ι] (f : ι → EReal) (h : ∀ i, IsReal (f i)) :
    IsReal (0 + ∑ i, f i) := by
  rw [zero_add]; exact isReal_sum_univ f h

/-- The exponential of a real number is a real number. -/
theorem isReal_exp {x : EReal} (hx : IsReal x) : IsReal (Ideal.exp x) := by
  obtain ⟨a, rfl⟩ := hx
  exact ⟨Real.exp a, Ideal.exp_coe a⟩

/-- The exponential of a real number is a POSITIVE real number. -/
theorem exp_pos_real {x : EReal} (hx : IsReal x) : ∃ r : ℝ, 0 < r ∧ Ideal.exp x = (r : EReal) := by
  obtain ⟨a, rfl⟩ := hx
  exact ⟨Real.exp a, Real.exp_pos a, Ideal.exp_coe a⟩

/-- A real number divided by a nonzero real number is a real number. -/
theorem isReal_div {x y : EReal} (hx : IsReal x) {b : ℝ} (hy : y = (b : EReal)) (hb : b ≠ 0) : IsReal (Ideal.div x y) := by
  obtain ⟨a, rfl⟩ := hx
  subst hy
  exact ⟨a / b, LibIdealReal.div_coe_coe a hb⟩

/-- A real number divided by a natural number that is not zero, read as a real, is a real number. -/
theorem isReal_div_natCast {x : EReal} (hx : IsReal x) {n : ℕ} (hn : 0 < n) {N : EReal} (hN : N = ((n : ℝ) : EReal)) :
    IsReal (Ideal.div x N) :=
  isReal_div hx hN (Nat.cast_ne_zero.mpr hn.ne')

/-- The logistic function of a real number is a real number. -/
theorem isReal_logistic {x : EReal} (hx : IsReal x) : IsReal (Ideal.logistic x) := by
  obtain ⟨a, rfl⟩ := hx
  exact ⟨_, Ideal.logistic_coe a⟩

/-- The logistic function written out, `1 / (1 + exp (-a))`, of a real number is a real number. -/
theorem isReal_div_one_add_exp_neg {x : EReal} (hx : IsReal x) : IsReal (Ideal.div 1 (1 + Ideal.exp (-x))) :=
  isReal_logistic hx

/-- The reciprocal square root of a positive real number is a real number. -/
theorem isReal_rsqrt_of_pos {x : EReal} {r : ℝ} (hx : x = (r : EReal)) (hr : 0 < r) : IsReal (Ideal.rsqrt x) := by
  subst hx
  rw [Ideal.rsqrt_coe, if_neg (not_lt.mpr hr.le), if_neg hr.ne']
  exact ⟨_, rfl⟩

/-- The square root of a real number that is not negative is a real number. -/
theorem isReal_sqrt_of_nonneg {x : EReal} {r : ℝ} (hx : x = (r : EReal)) (hr : 0 ≤ r) : IsReal (Ideal.sqrt x) := by
  subst hx
  rw [Ideal.sqrt_coe, if_neg (not_lt.mpr hr)]
  exact ⟨_, rfl⟩

/-- The logistic function is the quotient `1 / (1 + exp (-x))` by definition. -/
theorem logistic_eq_div (x : EReal) : Ideal.logistic x = Ideal.div 1 (1 + Ideal.exp (-x)) := rfl

/-- A choice between two real numbers is a real number. -/
theorem isReal_ite (p : Prop) [Decidable p] {x y : EReal} (hx : IsReal x) (hy : IsReal y) : IsReal (if p then x else y) := by
  split
  · exact hx
  · exact hy

/-- A select between two real numbers is a real number. -/
theorem isReal_select (c : BitVec 1) {x y : EReal} (hx : IsReal x) (hy : IsReal y) : IsReal (Scalar.select c x y) :=
  isReal_ite (c = 1) hx hy

/-! ### A positive count compared with zero

  A variance taken with a correction `d` to the number of terms divides by `N - d` and keeps the quotient only where
  `N - d > 0`. With `d = 0` the divisor is `N` and the comparison holds. -/

/-- A number less the integer zero read as a real is the number. -/
theorem sub_toInt_zero {w : ℕ} (N : EReal) : N - ((((0#w : BitVec w).toInt : ℤ) : ℝ) : EReal) = N := by
  rw [BitVec.toInt_zero, Int.cast_zero, EReal.coe_zero, sub_zero]

/-- A positive real compared "greater" with zero answers the set bit. -/
theorem cmp_ogt_zero_of_pos {x : EReal} {r : ℝ} (hx : x = (r : EReal)) (hr : 0 < r) : Ideal.cmp .ogt x 0 = 1#1 := by
  subst hx
  rw [← EReal.coe_zero, LibIdealReal.cmp_ogt_coe, decide_eq_true hr]
  rfl

/-- The select on that comparison keeps its first branch. -/
theorem select_cmp_ogt_zero_of_pos {α : Type} {x : EReal} {r : ℝ} (hx : x = (r : EReal)) (hr : 0 < r) (a b : α) :
    Scalar.select (Ideal.cmp .ogt x 0) a b = a := by
  rw [cmp_ogt_zero_of_pos hx hr]
  rfl

/-- The number of terms of a nonempty sum is a positive real. -/
theorem natCast_pos_real {n : ℕ} (hn : 0 < n) : (0 : ℝ) < (n : ℝ) := Nat.cast_pos.mpr hn

/-! ## The variance in one pass and in two -/

/-- Over the reals: the mean of the squares less the square of the mean is the mean of the squared deviations. -/
theorem real_var_identity {n : ℕ} (hn : 0 < n) (r : Fin n → ℝ) :
    (∑ i, r i * r i) / (n : ℝ) - (∑ i, r i) / (n : ℝ) * ((∑ i, r i) / (n : ℝ))
      = (∑ i, (r i - (∑ i, r i) / (n : ℝ)) * (r i - (∑ i, r i) / (n : ℝ))) / (n : ℝ) := by
  have hn' : (n : ℝ) ≠ 0 := Nat.cast_ne_zero.mpr hn.ne'
  generalize hm : (∑ i, r i) / (n : ℝ) = m
  have hS : ∑ i, r i = m * n := by rw [← hm]; field_simp
  have hterm : ∀ i, (r i - m) * (r i - m) = r i * r i - 2 * m * r i + m * m := by intro i; ring
  simp only [hterm, Finset.sum_add_distrib, Finset.sum_sub_distrib, ← Finset.mul_sum, Finset.sum_const,
    Finset.card_univ, Fintype.card_fin, nsmul_eq_mul, hS]
  field_simp
  ring

/-- Over the reals: the mean of the squared deviations is not negative. -/
theorem real_var_nonneg {n : ℕ} (r : Fin n → ℝ) (m : ℝ) : 0 ≤ (∑ i, (r i - m) * (r i - m)) / (n : ℝ) :=
  div_nonneg (Finset.sum_nonneg (fun i _ => mul_self_nonneg _)) (Nat.cast_nonneg n)

section Stats

variable {n : ℕ} (hn : 0 < n) (y : Fin n → EReal) (hy : ∀ i, IsReal (y i)) (N : EReal) (hN : N = ((n : ℝ) : EReal))

include hn hy hN

/-- The mean of real numbers, as the coercion of the real mean (for any choice `r` of the reals behind `y`). -/
theorem mean_eq_coe (r : Fin n → ℝ) (hr : ∀ i, y i = (r i : EReal)) :
    Ideal.div (∑ i, y i) N = (((∑ i, r i) / (n : ℝ) : ℝ) : EReal) := by
  have hn' : (n : ℝ) ≠ 0 := Nat.cast_ne_zero.mpr hn.ne'
  rw [hN, LibIdealReal.sum_eq_coe_of_eq Finset.univ y r (fun i _ => hr i), LibIdealReal.div_coe_coe _ hn']

/-- The mean of the squares, as the coercion of the real one. -/
theorem mean_sq_eq_coe (r : Fin n → ℝ) (hr : ∀ i, y i = (r i : EReal)) :
    Ideal.div (∑ i, y i * y i) N = (((∑ i, r i * r i) / (n : ℝ) : ℝ) : EReal) := by
  have hn' : (n : ℝ) ≠ 0 := Nat.cast_ne_zero.mpr hn.ne'
  rw [hN, LibIdealReal.sum_eq_coe_of_eq Finset.univ (fun i => y i * y i) (fun i => r i * r i)
    (fun i _ => by rw [hr i, ← EReal.coe_mul]), LibIdealReal.div_coe_coe _ hn']

/-- The two-pass variance, as the coercion of the real one. -/
theorem var_two_pass_eq_coe (r : Fin n → ℝ) (hr : ∀ i, y i = (r i : EReal)) :
    Ideal.div (∑ i, (y i - Ideal.div (∑ i, y i) N) * (y i - Ideal.div (∑ i, y i) N)) N
      = (((∑ i, (r i - (∑ i, r i) / (n : ℝ)) * (r i - (∑ i, r i) / (n : ℝ))) / (n : ℝ) : ℝ) : EReal) := by
  have hn' : (n : ℝ) ≠ 0 := Nat.cast_ne_zero.mpr hn.ne'
  rw [mean_eq_coe hn y hy N hN r hr]
  rw [hN, LibIdealReal.sum_eq_coe_of_eq Finset.univ _ (fun i => (r i - (∑ i, r i) / (n : ℝ)) * (r i - (∑ i, r i) / (n : ℝ)))
    (fun i _ => by rw [hr i, ← EReal.coe_sub, ← EReal.coe_mul]), LibIdealReal.div_coe_coe _ hn']

/-- The one-pass variance, as the coercion of the real two-pass one. -/
theorem var_one_pass_eq_coe (r : Fin n → ℝ) (hr : ∀ i, y i = (r i : EReal)) :
    max (Ideal.div (∑ i, y i * y i) N - Ideal.div (∑ i, y i) N * Ideal.div (∑ i, y i) N) 0
      = (((∑ i, (r i - (∑ i, r i) / (n : ℝ)) * (r i - (∑ i, r i) / (n : ℝ))) / (n : ℝ) : ℝ) : EReal) := by
  rw [mean_eq_coe hn y hy N hN r hr, mean_sq_eq_coe hn y hy N hN r hr, ← EReal.coe_mul, ← EReal.coe_sub,
    ← EReal.coe_zero, LibIdealReal.max_coe_coe, real_var_identity hn r, max_eq_left (real_var_nonneg r _)]

/-- THE LAW OF THE VARIANCE: on real data the one-pass variance, clipped at zero, is the two-pass variance. -/
theorem var_one_pass_eq_two_pass :
    max (Ideal.div (∑ i, y i * y i) N - Ideal.div (∑ i, y i) N * Ideal.div (∑ i, y i) N) 0
      = Ideal.div (∑ i, (y i - Ideal.div (∑ i, y i) N) * (y i - Ideal.div (∑ i, y i) N)) N := by
  choose r hr using hy
  have hy' : ∀ i, IsReal (y i) := fun i => ⟨r i, hr i⟩
  rw [var_one_pass_eq_coe hn y hy' N hN r hr, var_two_pass_eq_coe hn y hy' N hN r hr]

/-- The mean of real data is a real number. -/
theorem mean_isReal : IsReal (Ideal.div (∑ i, y i) N) := by
  choose r hr using hy
  exact ⟨_, mean_eq_coe hn y (fun i => ⟨r i, hr i⟩) N hN r hr⟩

/-- The mean of the squares of real data is a real number. -/
theorem mean_sq_isReal : IsReal (Ideal.div (∑ i, y i * y i) N) := by
  choose r hr using hy
  exact ⟨_, mean_sq_eq_coe hn y (fun i => ⟨r i, hr i⟩) N hN r hr⟩

/-- The two-pass variance of real data is a real number that is not negative. -/
theorem var_isReal_nonneg :
    ∃ v : ℝ, 0 ≤ v ∧ Ideal.div (∑ i, (y i - Ideal.div (∑ i, y i) N) * (y i - Ideal.div (∑ i, y i) N)) N = (v : EReal) := by
  choose r hr using hy
  exact ⟨_, real_var_nonneg r _, var_two_pass_eq_coe hn y (fun i => ⟨r i, hr i⟩) N hN r hr⟩

/-- The one-pass variance of real data is a real number that is not negative. -/
theorem var_one_pass_isReal_nonneg :
    ∃ v : ℝ, 0 ≤ v ∧
      max (Ideal.div (∑ i, y i * y i) N - Ideal.div (∑ i, y i) N * Ideal.div (∑ i, y i) N) 0 = (v : EReal) := by
  rw [var_one_pass_eq_two_pass hn y hy N hN]
  exact var_isReal_nonneg hn y hy N hN

/-- The two-pass variance of real data is a real number. -/
theorem var_isReal : IsReal (Ideal.div (∑ i, (y i - Ideal.div (∑ i, y i) N) * (y i - Ideal.div (∑ i, y i) N)) N) := by
  obtain ⟨v, _, hv⟩ := var_isReal_nonneg hn y hy N hN
  exact ⟨v, hv⟩

/-- The reciprocal square root of the two-pass variance plus a positive real is a real number. -/
theorem rsqrt_var_eps_isReal (e : ℝ) (he : 0 < e) :
    IsReal (Ideal.rsqrt (Ideal.div (∑ i, (y i - Ideal.div (∑ i, y i) N) * (y i - Ideal.div (∑ i, y i) N)) N + (e : EReal))) := by
  obtain ⟨v, hv0, hv⟩ := var_isReal_nonneg hn y hy N hN
  refine isReal_rsqrt_of_pos (r := v + e) ?_ (by linarith)
  rw [hv, ← EReal.coe_add]

/-- The reciprocal square root of the one-pass variance plus a positive real is a real number. -/
theorem rsqrt_var_one_pass_eps_isReal (e : ℝ) (he : 0 < e) :
    IsReal (Ideal.rsqrt (max (Ideal.div (∑ i, y i * y i) N - Ideal.div (∑ i, y i) N * Ideal.div (∑ i, y i) N) 0 + (e : EReal))) := by
  rw [var_one_pass_eq_two_pass hn y hy N hN]
  exact rsqrt_var_eps_isReal hn y hy N hN e he

/-! ### The same with every sum taken from a zero initial value (`0 + ∑ …`) -/

/-- The law of the variance with the sums written from a zero initial value. -/
theorem var_one_pass_eq_two_pass_zero_add :
    max (Ideal.div (0 + ∑ i, y i * y i) N - Ideal.div (0 + ∑ i, y i) N * Ideal.div (0 + ∑ i, y i) N) 0
      = Ideal.div (0 + ∑ i, (y i - Ideal.div (0 + ∑ i, y i) N) * (y i - Ideal.div (0 + ∑ i, y i) N)) N := by
  simp only [zero_add]
  exact var_one_pass_eq_two_pass hn y hy N hN

/-- The mean from a zero initial value is a real number. -/
theorem mean_isReal_zero_add : IsReal (Ideal.div (0 + ∑ i, y i) N) := by
  rw [zero_add]; exact mean_isReal hn y hy N hN

/-- The two-pass variance from zero initial values is a real number that is not negative. -/
theorem var_isReal_nonneg_zero_add :
    ∃ v : ℝ, 0 ≤ v ∧
      Ideal.div (0 + ∑ i, (y i - Ideal.div (0 + ∑ i, y i) N) * (y i - Ideal.div (0 + ∑ i, y i) N)) N = (v : EReal) := by
  simp only [zero_add]
  exact var_isReal_nonneg hn y hy N hN

/-- The one-pass variance from zero initial values is a real number that is not negative. -/
theorem var_one_pass_isReal_nonneg_zero_add :
    ∃ v : ℝ, 0 ≤ v ∧
      max (Ideal.div (0 + ∑ i, y i * y i) N - Ideal.div (0 + ∑ i, y i) N * Ideal.div (0 + ∑ i, y i) N) 0 = (v : EReal) := by
  simp only [zero_add]
  exact var_one_pass_isReal_nonneg hn y hy N hN

/-- The reciprocal square root of the two-pass variance from zero initial values plus a positive real is real. -/
theorem rsqrt_var_eps_isReal_zero_add (e : ℝ) (he : 0 < e) :
    IsReal (Ideal.rsqrt (Ideal.div (0 + ∑ i, (y i - Ideal.div (0 + ∑ i, y i) N) * (y i - Ideal.div (0 + ∑ i, y i) N)) N + (e : EReal))) := by
  simp only [zero_add]
  exact rsqrt_var_eps_isReal hn y hy N hN e he

/-- The reciprocal square root of the one-pass variance from zero initial values plus a positive real is real. -/
theorem rsqrt_var_one_pass_eps_isReal_zero_add (e : ℝ) (he : 0 < e) :
    IsReal (Ideal.rsqrt (max (Ideal.div (0 + ∑ i, y i * y i) N - Ideal.div (0 + ∑ i, y i) N * Ideal.div (0 + ∑ i, y i) N) 0 + (e : EReal))) := by
  simp only [zero_add]
  exact rsqrt_var_one_pass_eps_isReal hn y hy N hN e he

end Stats

/-! ### The same for sums given by name

  When the two sums reach the statistics through other operations (a sum of two partial sums, a reshaped array), it is
  easier to hand them over as two numbers `S1`, `S2` with the equations that say what they are. -/

section Named

variable {n : ℕ} (hn : 0 < n) (y : Fin n → EReal) (hy : ∀ i, IsReal (y i)) (N : EReal) (hN : N = ((n : ℝ) : EReal))
  (S1 S2 : EReal) (h1 : S1 = ∑ i, y i) (h2 : S2 = ∑ i, y i * y i)

include hn hy hN h1 h2

/-- The law of the variance for sums given by name. -/
theorem var_one_pass_eq_two_pass_of :
    max (Ideal.div S2 N - Ideal.div S1 N * Ideal.div S1 N) 0
      = Ideal.div (∑ i, (y i - Ideal.div S1 N) * (y i - Ideal.div S1 N)) N := by
  subst h1 h2
  exact var_one_pass_eq_two_pass hn y hy N hN

omit h2 in
/-- The mean for a sum given by name is a real number. -/
theorem mean_isReal_of : IsReal (Ideal.div S1 N) := by
  subst h1
  exact mean_isReal hn y hy N hN

/-- The one-pass variance for sums given by name is a real number that is not negative. -/
theorem var_one_pass_isReal_nonneg_of :
    ∃ v : ℝ, 0 ≤ v ∧ max (Ideal.div S2 N - Ideal.div S1 N * Ideal.div S1 N) 0 = (v : EReal) := by
  subst h1 h2
  exact var_one_pass_isReal_nonneg hn y hy N hN

/-- The reciprocal square root of the one-pass variance for sums given by name, plus a positive real, is real. -/
theorem rsqrt_var_one_pass_eps_isReal_of (e : ℝ) (he : 0 < e) :
    IsReal (Ideal.rsqrt (max (Ideal.div S2 N - Ideal.div S1 N * Ideal.div S1 N) 0 + (e : EReal))) := by
  subst h1 h2
  exact rsqrt_var_one_pass_eps_isReal hn y hy N hN e he

end Named

/-! ## Regrouping a sum -/

section Regroup

variable {M : Type*} [AddCommMonoid M]

/-- A range of `a + a` cut in two halves: the sum over the first half plus the sum over the second is the whole sum. -/
theorem sum_halves (a : ℕ) (f : Fin (a + a) → M) :
    (∑ e : Fin a, f ⟨e.val, by have := e.isLt; omega⟩) + (∑ e : Fin a, f ⟨a + e.val, by have := e.isLt; omega⟩)
      = ∑ e : Fin (a + a), f e := by
  rw [Fin.sum_univ_add]
  rfl

/-- 1600000 terms are two halves of 800000. -/
theorem sum_halves_1600000 (f : Fin 1600000 → M) :
    (∑ e : Fin 800000, f ⟨e.val, by have := e.isLt; omega⟩) + (∑ e : Fin 800000, f ⟨800000 + e.val, by have := e.isLt; omega⟩)
      = ∑ e : Fin 1600000, f e :=
  sum_halves 800000 f

/-- 100000 terms are two halves of 50000. -/
theorem sum_halves_100000 (f : Fin 100000 → M) :
    (∑ e : Fin 50000, f ⟨e.val, by have := e.isLt; omega⟩) + (∑ e : Fin 50000, f ⟨50000 + e.val, by have := e.isLt; omega⟩)
      = ∑ e : Fin 100000, f e :=
  sum_halves 50000 f

/-- The place of entry `r` of run `p`, among `P` runs of `R` entries, is inside the range. -/
theorem point_row_lt {P R : ℕ} (p : Fin P) (r : Fin R) : p.val * R + r.val < P * R :=
  calc p.val * R + r.val < p.val * R + R := Nat.add_lt_add_left r.isLt _
    _ = (p.val + 1) * R := (Nat.succ_mul _ _).symm
    _ ≤ P * R := Nat.mul_le_mul_right R p.isLt

/-- A range of `P * R` read as `P` runs of `R`: the double sum over the runs and the entries of a run is the whole sum. -/
theorem sum_points_rows (P R : ℕ) (f : Fin (P * R) → M) :
    (∑ p : Fin P, ∑ r : Fin R, f ⟨p.val * R + r.val, point_row_lt p r⟩) = ∑ e, f e := by
  rw [← Fintype.sum_prod_type' (f := fun (p : Fin P) (r : Fin R) => f ⟨p.val * R + r.val, point_row_lt p r⟩)]
  refine Fintype.sum_equiv (finProdFinEquiv : Fin P × Fin R ≃ Fin (P * R)) _ _ (fun x => ?_)
  congr 1
  apply Fin.ext
  show x.1.val * R + x.2.val = x.2.val + R * x.1.val
  rw [Nat.mul_comm, Nat.add_comm]

end Regroup

/-! ## Constants: f32 words as real numbers -/

/-- The f32 word nearest to `1e-5` denotes a positive real number. -/
theorem ofBits_eps_f32 : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- `100000.0` denotes the real `100000`. -/
theorem ofBits_100000_f32 : Ideal.ofBits .f32 0x47C35000#32 = ((100000 : ℝ) : EReal) := by
  simp [Ideal.ofBits, Ideal.ieee, -EReal.coe_mul]; norm_num

/-- `1600000.0` denotes the real `1600000`. -/
theorem ofBits_1600000_f32 : Ideal.ofBits .f32 0x49C35000#32 = ((1600000 : ℝ) : EReal) := by
  simp [Ideal.ofBits, Ideal.ieee, -EReal.coe_mul]; norm_num

/-- `100000.0` as the number of terms of a sum over `Fin 100000`. -/
theorem ofBits_100000_f32_natCast : Ideal.ofBits .f32 0x47C35000#32 = (((100000 : ℕ) : ℝ) : EReal) := by
  rw [ofBits_100000_f32]; norm_num

/-- `1600000.0` as the number of terms of a sum over `Fin 1600000`. -/
theorem ofBits_1600000_f32_natCast : Ideal.ofBits .f32 0x49C35000#32 = (((1600000 : ℕ) : ℝ) : EReal) := by
  rw [ofBits_1600000_f32]; norm_num

/-- `1.0` denotes the real `1`. -/
theorem ofBits_one_f32 : Ideal.ofBits .f32 0x3F800000#32 = ((1 : ℝ) : EReal) := LibIdealReal.ofBits_one_f32

/-- `1.0` denotes `1`. -/
theorem ofBits_one_f32' : Ideal.ofBits .f32 0x3F800000#32 = (1 : EReal) := by
  rw [LibIdealReal.ofBits_one_f32, EReal.coe_one]

/-- `+0.0` denotes the real `0`. -/
theorem ofBits_zero_f32 : Ideal.ofBits .f32 0x00000000#32 = ((0 : ℝ) : EReal) := LibIdealReal.ofBits_zero_f32_coe

/-- The five words are real numbers. -/
theorem ofBits_eps_f32_isReal : IsReal (Ideal.ofBits .f32 0x3727C5AC#32) := by
  obtain ⟨e, _, he⟩ := ofBits_eps_f32; exact ⟨e, he⟩
theorem ofBits_100000_f32_isReal : IsReal (Ideal.ofBits .f32 0x47C35000#32) := ⟨_, ofBits_100000_f32⟩
theorem ofBits_1600000_f32_isReal : IsReal (Ideal.ofBits .f32 0x49C35000#32) := ⟨_, ofBits_1600000_f32⟩
theorem ofBits_one_f32_isReal : IsReal (Ideal.ofBits .f32 0x3F800000#32) := ⟨_, ofBits_one_f32⟩
theorem ofBits_zero_f32_isReal : IsReal (Ideal.ofBits .f32 0x00000000#32) := ⟨_, ofBits_zero_f32⟩

/-! ### With the f32 word nearest to `1e-5` as the added constant -/

section Eps32

variable {n : ℕ} (hn : 0 < n) (y : Fin n → EReal) (hy : ∀ i, IsReal (y i)) (N : EReal) (hN : N = ((n : ℝ) : EReal))

include hn hy hN

/-- The reciprocal square root of the two-pass variance plus that constant is a real number. -/
theorem rsqrt_var_eps32_isReal :
    IsReal (Ideal.rsqrt (Ideal.div (∑ i, (y i - Ideal.div (∑ i, y i) N) * (y i - Ideal.div (∑ i, y i) N)) N
      + Ideal.ofBits .f32 0x3727C5AC#32)) := by
  obtain ⟨e, he, heq⟩ := ofBits_eps_f32
  rw [heq]
  exact rsqrt_var_eps_isReal hn y hy N hN e he

/-- The reciprocal square root of the one-pass variance plus that constant is a real number. -/
theorem rsqrt_var_one_pass_eps32_isReal :
    IsReal (Ideal.rsqrt (max (Ideal.div (∑ i, y i * y i) N - Ideal.div (∑ i, y i) N * Ideal.div (∑ i, y i) N) 0
      + Ideal.ofBits .f32 0x3727C5AC#32)) := by
  obtain ⟨e, he, heq⟩ := ofBits_eps_f32
  rw [heq]
  exact rsqrt_var_one_pass_eps_isReal hn y hy N hN e he

end Eps32

end Cert.BatchStats

end
-- ==== Proof.AccumLaw.lean ====
/-
  A value carried over the points of a grid, each point adding the sum of its block of rows.

  An array of `P · R` rows is read in `P` blocks of `R` rows: row `p` of block `t` is row `t · R + p` of the array. A carried
  value starts, at the first point, from zero plus the first block's sum, and at every later point is the value at the
  point before plus that point's block's sum. By induction on the point, the value at point `t` is the sum of the sums of
  the blocks `0, …, t`; at the last point it is the sum of all the blocks' sums, which regrouped is the sum over all the
  rows of the array. Only associativity and commutativity of the addition and `0 + x = x` are used, so this holds in any
  commutative additive monoid, the extended reals among them.
-/
import proofs.«414479_j7705171329025_1_alg».proof.Proof.LibBatchStats

namespace Cert.AccumLaw

open scoped BigOperators

variable {M : Type*} [AddCommMonoid M]

/-! ## The carried value at a point is the sum of the blocks' sums so far -/

/-- By induction on the point: the carried value at point `t` is the sum over the points `0, …, t` of their blocks' sums. -/
theorem acc_eq_sum_upto {P R : ℕ} (f : Fin P → Fin R → M) (acc : (t : ℕ) → t < P → M)
    (h0 : ∀ h : 0 < P, acc 0 h = ∑ p, f ⟨0, h⟩ p)
    (hs : ∀ t (ht : t + 1 < P), acc (t + 1) ht = acc t (Nat.lt_of_succ_lt ht) + ∑ p, f ⟨t + 1, ht⟩ p) :
    ∀ t (ht : t < P), acc t ht = ∑ s : Fin (t + 1), ∑ p, f ⟨s.val, Nat.lt_of_lt_of_le s.isLt ht⟩ p := by
  intro t
  induction t with
  | zero =>
    intro ht
    rw [h0 ht]
    exact (Fin.sum_univ_one (fun s : Fin 1 => ∑ p, f ⟨s.val, Nat.lt_of_lt_of_le s.isLt ht⟩ p)).symm
  | succ t ih =>
    intro ht
    rw [hs t ht, ih (Nat.lt_of_succ_lt ht)]
    exact (Fin.sum_univ_castSucc (fun s : Fin (t + 1 + 1) => ∑ p, f ⟨s.val, Nat.lt_of_lt_of_le s.isLt ht⟩ p)).symm

/-- At the last of `P' + 1` points the carried value is the sum of all the blocks' sums. -/
theorem acc_last_succ {P' R : ℕ} (f : Fin (P' + 1) → Fin R → M) (acc : (t : ℕ) → t < P' + 1 → M)
    (h0 : ∀ h : 0 < P' + 1, acc 0 h = ∑ p, f ⟨0, h⟩ p)
    (hs : ∀ t (ht : t + 1 < P' + 1), acc (t + 1) ht = acc t (Nat.lt_of_succ_lt ht) + ∑ p, f ⟨t + 1, ht⟩ p) :
    acc P' (Nat.lt_succ_self P') = ∑ t : Fin (P' + 1), ∑ p, f t p :=
  acc_eq_sum_upto f acc h0 hs P' (Nat.lt_succ_self P')

/-- At the last of `P > 0` points the carried value is the sum of all the blocks' sums. The first point's value may
    be given as a stored entry `z` that is zero, plus the first block's sum. -/
theorem acc_last {P R : ℕ} (hP : 0 < P) (f : Fin P → Fin R → M) (acc : (t : ℕ) → t < P → M) (z : M) (hz : z = 0)
    (h0 : acc 0 hP = z + ∑ p, f ⟨0, hP⟩ p)
    (hs : ∀ t (ht : t + 1 < P), acc (t + 1) ht = acc t (Nat.lt_of_succ_lt ht) + ∑ p, f ⟨t + 1, ht⟩ p) :
    acc (P - 1) (Nat.sub_lt hP Nat.one_pos) = ∑ t : Fin P, ∑ p, f t p := by
  obtain ⟨P', rfl⟩ : ∃ P', P = P' + 1 := ⟨P - 1, by omega⟩
  exact acc_last_succ f acc (fun h => by rw [h0, hz, zero_add]) hs

/-! ## Regrouped over the rows of the whole array -/

/-- The last carried value is the sum over all the rows of the array, when row `p` of block `t` is row `t · R + p`. -/
theorem acc_last_eq_sum_rows {P R : ℕ} (hP : 0 < P) (f : Fin P → Fin R → M) (g : Fin (P * R) → M)
    (hf : ∀ (t : Fin P) (p : Fin R), f t p = g ⟨t.val * R + p.val, BatchStats.point_row_lt t p⟩)
    (acc : (t : ℕ) → t < P → M) (z : M) (hz : z = 0)
    (h0 : acc 0 hP = z + ∑ p, f ⟨0, hP⟩ p)
    (hs : ∀ t (ht : t + 1 < P), acc (t + 1) ht = acc t (Nat.lt_of_succ_lt ht) + ∑ p, f ⟨t + 1, ht⟩ p) :
    acc (P - 1) (Nat.sub_lt hP Nat.one_pos) = ∑ e : Fin (P * R), g e := by
  rw [acc_last hP f acc z hz h0 hs, ← BatchStats.sum_points_rows P R g]
  exact Finset.sum_congr rfl fun t _ => Finset.sum_congr rfl fun p _ => hf t p

/-- The block of a row of the array is inside the grid. -/
theorem row_div_lt {P R : ℕ} (e : Fin (P * R)) : e.val / R < P :=
  Nat.div_lt_of_lt_mul (lt_of_lt_of_eq e.isLt (Nat.mul_comm P R))

/-- The place of a row of the array inside its block is inside the block. -/
theorem row_mod_lt {P R : ℕ} (e : Fin (P * R)) : e.val % R < R :=
  Nat.mod_lt _ (Nat.pos_of_ne_zero (by rintro rfl; exact absurd e.isLt (by simp)))

/-- The last carried value as a sum over the rows of the array, row `e` being row `e % R` of block `e / R`. -/
theorem acc_last_eq_sum_div_mod {P R : ℕ} (hP : 0 < P) (f : Fin P → Fin R → M)
    (acc : (t : ℕ) → t < P → M) (z : M) (hz : z = 0)
    (h0 : acc 0 hP = z + ∑ p, f ⟨0, hP⟩ p)
    (hs : ∀ t (ht : t + 1 < P), acc (t + 1) ht = acc t (Nat.lt_of_succ_lt ht) + ∑ p, f ⟨t + 1, ht⟩ p) :
    acc (P - 1) (Nat.sub_lt hP Nat.one_pos) = ∑ e : Fin (P * R), f ⟨e.val / R, row_div_lt e⟩ ⟨e.val % R, row_mod_lt e⟩ := by
  refine acc_last_eq_sum_rows hP f (fun e => f ⟨e.val / R, row_div_lt e⟩ ⟨e.val % R, row_mod_lt e⟩) (fun t p => ?_) acc z hz h0 hs
  have hR : 0 < R := Nat.lt_of_le_of_lt (Nat.zero_le _) p.isLt
  have h1 : (t.val * R + p.val) / R = t.val := by
    rw [Nat.add_comm, Nat.add_mul_div_right _ _ hR, Nat.div_eq_of_lt p.isLt, Nat.zero_add]
  have h2 : (t.val * R + p.val) % R = p.val := by
    rw [Nat.add_comm, Nat.add_mul_mod_self_right, Nat.mod_eq_of_lt p.isLt]
  have e1 : ∀ h, (⟨(t.val * R + p.val) / R, h⟩ : Fin P) = t := fun _ => Fin.ext h1
  have e2 : ∀ h, (⟨(t.val * R + p.val) % R, h⟩ : Fin R) = p := fun _ => Fin.ext h2
  exact (congrArg₂ f (e1 _) (e2 _)).symm

/-! ## Fed from a run given by cases on the point: the first point, or any other -/

/-- The same, when the carried value is given at each point by cases: at a point whose number is a multiple of `P` (below
    `P` that is the first point alone) it is the stored zero plus the block's sum, at any other point it is the value at
    the point before plus the block's sum. -/
theorem acc_last_eq_sum_rows_of_cases {P R : ℕ} (hP : 0 < P) (f : Fin P → Fin R → M) (g : Fin (P * R) → M)
    (hf : ∀ (t : Fin P) (p : Fin R), f t p = g ⟨t.val * R + p.val, BatchStats.point_row_lt t p⟩)
    (acc : (t : ℕ) → t < P → M) (z : M) (hz : z = 0)
    (hA : ∀ t (ht : t < P), t % P = 0 → acc t ht = z + ∑ p, f ⟨t, ht⟩ p)
    (hB : ∀ t (ht : t < P), t % P ≠ 0 →
      acc t ht = acc (t - 1) (Nat.lt_of_le_of_lt (Nat.sub_le t 1) ht) + ∑ p, f ⟨t, ht⟩ p) :
    acc (P - 1) (Nat.sub_lt hP Nat.one_pos) = ∑ e : Fin (P * R), g e :=
  acc_last_eq_sum_rows hP f g hf acc z hz (hA 0 hP (Nat.zero_mod P))
    (fun t ht => hB (t + 1) ht (by rw [Nat.mod_eq_of_lt ht]; exact Nat.succ_ne_zero t))

/-! ## Twenty points of five thousand rows -/

section Grid20x5000

/-- Row `p` of block `t`, among 20 blocks of 5000 rows, is inside the array of 100000 rows. -/
theorem row_lt_100000 (t : Fin 20) (p : Fin 5000) : t.val * 5000 + p.val < 100000 := by
  have := t.isLt; have := p.isLt; omega

/-- Over 20 points of 5000 rows the last carried value is the sum over the 100000 rows of the array. (For the sums of
    squares take for `g` the rows' squares.) -/
theorem acc_final_100000 (g : Fin 100000 → M) (f : Fin 20 → Fin 5000 → M)
    (hf : ∀ (t : Fin 20) (p : Fin 5000), f t p = g ⟨t.val * 5000 + p.val, row_lt_100000 t p⟩)
    (acc : (t : ℕ) → t < 20 → M) (z : M) (hz : z = 0)
    (h0 : acc 0 (by norm_num) = z + ∑ p, f ⟨0, by norm_num⟩ p)
    (hs : ∀ t (ht : t + 1 < 20), acc (t + 1) ht = acc t (Nat.lt_of_succ_lt ht) + ∑ p, f ⟨t + 1, ht⟩ p) :
    acc 19 (by norm_num) = ∑ r : Fin 100000, g r :=
  acc_last_eq_sum_rows (P := 20) (R := 5000) (by norm_num) f g hf acc z hz h0 hs

/-- The same from a run given by cases on `t % 20`. -/
theorem acc_final_100000_of_cases (g : Fin 100000 → M) (f : Fin 20 → Fin 5000 → M)
    (hf : ∀ (t : Fin 20) (p : Fin 5000), f t p = g ⟨t.val * 5000 + p.val, row_lt_100000 t p⟩)
    (acc : (t : ℕ) → t < 20 → M) (z : M) (hz : z = 0)
    (hA : ∀ t (ht : t < 20), t % 20 = 0 → acc t ht = z + ∑ p, f ⟨t, ht⟩ p)
    (hB : ∀ t (ht : t < 20), t % 20 ≠ 0 →
      acc t ht = acc (t - 1) (Nat.lt_of_le_of_lt (Nat.sub_le t 1) ht) + ∑ p, f ⟨t, ht⟩ p) :
    acc 19 (by norm_num) = ∑ r : Fin 100000, g r :=
  acc_last_eq_sum_rows_of_cases (P := 20) (R := 5000) (by norm_num) f g hf acc z hz hA hB

/-- Below 20 a point's number is a multiple of 20 only at the first point. -/
theorem mod_20_ne_zero {t : ℕ} (ht : t < 20) (h : 0 < t) : t % 20 ≠ 0 := by omega

end Grid20x5000

end Cert.AccumLaw
-- ==== Proof.ValSingle0.lean ====
/-
  Region 0: the embedding's linear stage with its column statistics. At each of the twenty grid points the body
  multiplies a block of 5000 rows of the node features by the weight matrix, adds the bias row, stores that block of
  the output, and adds the block's column sums and column sums of squares to two carried rows, which the first point
  has set to zero. The blocks tile the 100000 rows, so the output is the linear stage of the whole array, and the two
  carried rows end as the column sum and the column sum of squares over all rows: a sum over 100000 rows regrouped as
  twenty runs of 5000, which is a matter of the order of a finite sum only.
-/
import proofs.«414479_j7705171329025_1_alg».proof.Proof.FrameKI.R0
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValSingle0

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. At the first point the two carried rows are first set to zero and then read
  back, so the running rows it leaves are the block's sums added to zero; at the other points they are added to what the
  rows held. -/

section Pieces

variable {F : FTy → Type} [FloatOps F]

theorem outA3 (c : Dev nD) (i : grid0.Coords) (a1 : Memref sig .tc .vmem S5000x64 .f32) (h1 : a1.IsWhole) (a2 : Memref sig .tc .vmem S64x128 .f32) (h2 : a2.IsWhole)
    (a3 : Memref sig .tc .vmem S1x128 .f32) (h3 : a3.IsWhole) (a4 : Memref sig .tc .vmem S5000x128 .f32) (h4 : a4.IsWhole)
    (a5 : Memref sig .tc .vmem S1x128 .f32) (h5 : a5.IsWhole) (a6 : Memref sig .tc .vmem S1x128 .f32) (h6 : a6.IsWhole) (hc : cond0_0 i)
    (x0 : Vec F S5000x64 .f32) (x1 : Vec F S64x128 .f32) (x2 : Vec F S1x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  (try sl_unfold_words)
  rw [View.canon_unit_zero hz]
  simp only [View.readAt_eq_ld, h1.read_unread, h2.read_unread, h3.read_unread,
    View.ld_unit_zero (S := S5000x64) hz, View.ld_unit_zero (S := S64x128) hz,
    View.ld_unit_zero (S := S1x128) hz, View.ld_unit_zero (S := S5000x128) hz]

theorem outA4 (c : Dev nD) (i : grid0.Coords) (a1 : Memref sig .tc .vmem S5000x64 .f32) (h1 : a1.IsWhole) (a2 : Memref sig .tc .vmem S64x128 .f32) (h2 : a2.IsWhole)
    (a3 : Memref sig .tc .vmem S1x128 .f32) (h3 : a3.IsWhole) (a4 : Memref sig .tc .vmem S5000x128 .f32) (h4 : a4.IsWhole)
    (a5 : Memref sig .tc .vmem S1x128 .f32) (h5 : a5.IsWhole) (a6 : Memref sig .tc .vmem S1x128 .f32) (h6 : a6.IsWhole) (hc : cond0_0 i)
    (x0 : Vec F S5000x64 .f32) (x1 : Vec F S64x128 .f32) (x2 : Vec F S1x128 .f32) :
    out0_A_4 c i a1 h1 a2 h2 a3 h3 a4 h4 a5 h5 a6 h6 hc x0 x1 x2 = k0_pay4 x0 x1 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  (try sl_unfold_words)
  rw [View.canon_cons_unit_zero (S := S1x128) hz]
  simp only [View.readAt_eq_ld, h1.read_unread, h2.read_unread, h3.read_unread, View.readCov_unit_zero (S := S1x128) _ hz,
    View.ld_unit_zero (S := S5000x64) hz, View.ld_unit_zero (S := S64x128) hz,
    View.ld_unit_zero (S := S1x128) hz, View.ld_unit_zero (S := S5000x128) hz]

theorem outA5 (c : Dev nD) (i : grid0.Coords) (a1 : Memref sig .tc .vmem S5000x64 .f32) (h1 : a1.IsWhole) (a2 : Memref sig .tc .vmem S64x128 .f32) (h2 : a2.IsWhole)
    (a3 : Memref sig .tc .vmem S1x128 .f32) (h3 : a3.IsWhole) (a4 : Memref sig .tc .vmem S5000x128 .f32) (h4 : a4.IsWhole)
    (a5 : Memref sig .tc .vmem S1x128 .f32) (h5 : a5.IsWhole) (a6 : Memref sig .tc .vmem S1x128 .f32) (h6 : a6.IsWhole) (hc : cond0_0 i)
    (x0 : Vec F S5000x64 .f32) (x1 : Vec F S64x128 .f32) (x2 : Vec F S1x128 .f32) :
    out0_A_5 c i a1 h1 a2 h2 a3 h3 a4 h4 a5 h5 a6 h6 hc x0 x1 x2 = k0_pay5 x0 x1 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  (try sl_unfold_words)
  rw [View.canon_cons_unit_zero (S := S1x128) hz]
  simp only [View.readAt_eq_ld, h1.read_unread, h2.read_unread, h3.read_unread, View.readCov_unit_zero (S := S1x128) _ hz,
    View.ld_unit_zero (S := S5000x64) hz, View.ld_unit_zero (S := S64x128) hz,
    View.ld_unit_zero (S := S1x128) hz, View.ld_unit_zero (S := S5000x128) hz]

theorem outB3 (c : Dev nD) (i : grid0.Coords) (a1 : Memref sig .tc .vmem S5000x64 .f32) (h1 : a1.IsWhole) (a2 : Memref sig .tc .vmem S64x128 .f32) (h2 : a2.IsWhole)
    (a3 : Memref sig .tc .vmem S1x128 .f32) (h3 : a3.IsWhole) (a4 : Memref sig .tc .vmem S5000x128 .f32) (h4 : a4.IsWhole)
    (a5 : Memref sig .tc .vmem S1x128 .f32) (h5 : a5.IsWhole) (a6 : Memref sig .tc .vmem S1x128 .f32) (h6 : a6.IsWhole) (hc : ¬cond0_0 i)
    (x0 : Vec F S5000x64 .f32) (x1 : Vec F S64x128 .f32) (x2 : Vec F S1x128 .f32) (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  (try sl_unfold_words)
  rw [View.canon_unit_zero hz]
  simp only [View.readAt_eq_ld, h1.read_unread, h2.read_unread, h3.read_unread, h5.read_unread, h6.read_unread,
    View.ld_unit_zero (S := S5000x64) hz, View.ld_unit_zero (S := S64x128) hz,
    View.ld_unit_zero (S := S1x128) hz, View.ld_unit_zero (S := S5000x128) hz]

theorem outB4 (c : Dev nD) (i : grid0.Coords) (a1 : Memref sig .tc .vmem S5000x64 .f32) (h1 : a1.IsWhole) (a2 : Memref sig .tc .vmem S64x128 .f32) (h2 : a2.IsWhole)
    (a3 : Memref sig .tc .vmem S1x128 .f32) (h3 : a3.IsWhole) (a4 : Memref sig .tc .vmem S5000x128 .f32) (h4 : a4.IsWhole)
    (a5 : Memref sig .tc .vmem S1x128 .f32) (h5 : a5.IsWhole) (a6 : Memref sig .tc .vmem S1x128 .f32) (h6 : a6.IsWhole) (hc : ¬cond0_0 i)
    (x0 : Vec F S5000x64 .f32) (x1 : Vec F S64x128 .f32) (x2 : Vec F S1x128 .f32) (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  (try sl_unfold_words)
  rw [View.canon_unit_zero hz]
  simp only [View.readAt_eq_ld, h1.read_unread, h2.read_unread, h3.read_unread, h5.read_unread, h6.read_unread,
    View.ld_unit_zero (S := S5000x64) hz, View.ld_unit_zero (S := S64x128) hz,
    View.ld_unit_zero (S := S1x128) hz, View.ld_unit_zero (S := S5000x128) hz]

theorem outB5 (c : Dev nD) (i : grid0.Coords) (a1 : Memref sig .tc .vmem S5000x64 .f32) (h1 : a1.IsWhole) (a2 : Memref sig .tc .vmem S64x128 .f32) (h2 : a2.IsWhole)
    (a3 : Memref sig .tc .vmem S1x128 .f32) (h3 : a3.IsWhole) (a4 : Memref sig .tc .vmem S5000x128 .f32) (h4 : a4.IsWhole)
    (a5 : Memref sig .tc .vmem S1x128 .f32) (h5 : a5.IsWhole) (a6 : Memref sig .tc .vmem S1x128 .f32) (h6 : a6.IsWhole) (hc : ¬cond0_0 i)
    (x0 : Vec F S5000x64 .f32) (x1 : Vec F S64x128 .f32) (x2 : Vec F S1x128 .f32) (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  (try sl_unfold_words)
  rw [View.canon_unit_zero hz]
  simp only [View.readAt_eq_ld, h1.read_unread, h2.read_unread, h3.read_unread, h5.read_unread, h6.read_unread,
    View.ld_unit_zero (S := S5000x64) hz, View.ld_unit_zero (S := S64x128) hz,
    View.ld_unit_zero (S := S1x128) hz, View.ld_unit_zero (S := S5000x128) hz]

end Pieces

variable (V : (c : Dev nD) → (b : Ref sig .tc) → Buf (Elt Ideal) ((c : Thread nD τ).loc b))

/-- The region's input arrays as it finds them, each at its literal type: node features, weight matrix, bias row. -/
abbrev xArr (c : Dev nD) : Vec Ideal S100000x64 .f32 := V c (Pipeline.arrRef spec0 0)
abbrev wArr (c : Dev nD) : Vec Ideal S64x128 .f32 := V c (Pipeline.arrRef spec0 1)
abbrev bRow (c : Dev nD) : Vec Ideal S1x128 .f32 := V c (Pipeline.arrRef spec0 2)

/-- One entry of the linear stage on the region's arrays. -/
def y (c : Dev nD) (r : Fin 100000) (q : Fin 128) : EReal := lin (xArr V c) (wArr V c) (bRow V c) r q

/-- What the region leaves in its three output arrays. -/
def resultY (c : Dev nD) : Vec Ideal S100000x128 .f32 := fun i => y V c (i 0) (i 1)
def resultSum (c : Dev nD) : Vec Ideal S1x128 .f32 := fun i => colSum (y V c) (i 1)
def resultSumSq (c : Dev nD) : Vec Ideal S1x128 .f32 := fun i => colSumSq (y V c) (i 1)

/-! ## Where each window's block lies, and what the input blocks read -/

/-- The three input blocks at a point, each at its literal type. -/
abbrev xBlk (c : Dev nD) (t : Fin cfg0.N) : Vec Ideal S5000x64 .f32 := iblk0 V c 0 t
abbrev wBlk (c : Dev nD) (t : Fin cfg0.N) : Vec Ideal S64x128 .f32 := iblk0 V c 1 t
abbrev bBlk (c : Dev nD) (t : Fin cfg0.N) : Vec Ideal S1x128 .f32 := iblk0 V c 2 t

/-- The block each of the six windows takes at a point, decided over the twenty points: the two tall windows take block
    `t` along the rows, and the weight matrix and each of the three rows are their own one block throughout. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The node features' block at point `t`, read at (p, j), is the array at row 5000·t + p, column j. -/
theorem x_apply (c : Dev nD) (t : Fin cfg0.N) (p : Fin 5000) (j : Fin 64) (h : t.val * 5000 + p.val < 100000) :
    xBlk V c t (ix2 p j) = xArr V c (ix2 ⟨t.val * 5000 + p.val, h⟩ j) := by
  obtain ⟨e00, e01, -⟩ := idx_facts t
  unfold xBlk iblk0
  rw [View.read_apply]
  show xArr V c (((cfg0.win 0).blk t).view.emb (ix2 p j)) = _
  refine congrArg (xArr V c) ?_
  funext a; apply Fin.ext
  match a with
  | ⟨0, _⟩ => show win0_0.index t (0 : Fin 2) * 5000 + 1 * p.val = t.val * 5000 + p.val; omega
  | ⟨1, _⟩ => show win0_0.index t (1 : Fin 2) * 64 + 1 * j.val = j.val; omega

/-- The weight matrix's block, at every point, is the matrix. -/
theorem w_apply (c : Dev nD) (t : Fin cfg0.N) (j : Fin 64) (q : Fin 128) :
    wBlk V c t (ix2 j q) = wArr V c (ix2 j q) := by
  obtain ⟨-, -, e10, e11, -⟩ := idx_facts t
  unfold wBlk iblk0
  rw [View.read_apply]
  show wArr V c (((cfg0.win 1).blk t).view.emb (ix2 j q)) = _
  refine congrArg (wArr V c) ?_
  funext a; apply Fin.ext
  match a with
  | ⟨0, _⟩ => show win0_1.index t (0 : Fin 2) * 64 + 1 * j.val = j.val; omega
  | ⟨1, _⟩ => show win0_1.index t (1 : Fin 2) * 128 + 1 * q.val = q.val; omega

/-- The bias row's block, at every point, is the row. -/
theorem b_apply (c : Dev nD) (t : Fin cfg0.N) (q : Fin 128) :
    bBlk V c t (ix2 (0 : Fin 1) q) = bRow V c (ix2 (0 : Fin 1) q) := by
  obtain ⟨-, -, -, -, e20, e21, -⟩ := idx_facts t
  unfold bBlk iblk0
  rw [View.read_apply]
  show bRow V c (((cfg0.win 2).blk t).view.emb (ix2 (0 : Fin 1) q)) = _
  refine congrArg (bRow V c) ?_
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- The block of values a point computes, at (p, q), is the linear stage's entry of row 5000·t + p, column q. -/
theorem pay3_point (c : Dev nD) (t : Fin cfg0.N) (p : Fin 5000) (q : Fin 128) (h : t.val * 5000 + p.val < 100000) :
    k0_pay3 (F := Ideal) (xBlk V c t) (wBlk V c t) (bBlk V c t) (ix2 p q) = y V c ⟨t.val * 5000 + p.val, h⟩ q := by
  refine (PayLinear.k0_pay3_apply (xBlk V c t) (wBlk V c t) (bBlk V c t) p q).trans ?_
  unfold y lin
  refine congrArg₂ (fun a b : EReal => a + b) (Finset.sum_congr rfl fun j _ => ?_) (b_apply V c t q)
  exact congrArg₂ (fun a b : EReal => a * b) (x_apply V c t p j h) (w_apply V c t j q)

/-! ## What the three output buffers hold after each point -/

/-- The output block after any point is the block of values the point computes. -/
theorem outs3_eq (c : Dev nD) (t : Fin cfg0.N) :
    (outsAt0 V c t.val t.isLt).1 = k0_pay3 (F := Ideal) (xBlk V c t) (wBlk V c t) (bBlk V c t) := by
  by_cases h0 : t.val % 20 = 0
  · rw [outsAt0_A V c t h0]
    dsimp only
    exact outA3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      ((hcond0_0 t).mpr h0) (iblk0 V c 0 t) (iblk0 V c 1 t) (iblk0 V c 2 t)
  · rw [outsAt0_B V c t h0]
    dsimp only
    exact outB3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (fun h => h0 ((hcond0_0 t).mp h)) (iblk0 V c 0 t) (iblk0 V c 1 t) (iblk0 V c 2 t)
      (outsAt0 V c (t.val - 1) (Nat.lt_of_le_of_lt (Nat.sub_le _ _) t.isLt)).2.1
      (outsAt0 V c (t.val - 1) (Nat.lt_of_le_of_lt (Nat.sub_le _ _) t.isLt)).2.2

/-- The carried column sum at column `q`, after point `t`. -/
def accSum (c : Dev nD) (u : Fin 1) (q : Fin 128) : (t : ℕ) → t < 20 → EReal :=
  fun t ht => (outsAt0 V c t (lt_of_lt_of_eq ht N_0.symm)).2.1 (ix2 u q)

/-- At the first point it is the stored zero plus the block's column sum. -/
theorem accSum_first (c : Dev nD) (u : Fin 1) (q : Fin 128) (t : ℕ) (ht : t < 20) (h0 : t % 20 = 0) :
    accSum V c u q t ht = (k0_pay1 (F := Ideal)) (ix2 u q)
      + ∑ p : Fin 5000, y V c ⟨t * 5000 + p.val, by have := p.isLt; omega⟩ q := by
  have ht' : t < cfg0.N := lt_of_lt_of_eq ht N_0.symm
  show (outsAt0 V c (⟨t, ht'⟩ : Fin cfg0.N).val (⟨t, ht'⟩ : Fin cfg0.N).isLt).2.1 (ix2 u q) = _
  rw [outsAt0_A V c ⟨t, ht'⟩ h0]
  dsimp only
  refine (congrFun (outA4 (F := Ideal) c (grid0.coords ⟨t, ht'⟩) (ms0_0 ⟨t, ht'⟩) (hs0_0 ⟨t, ht'⟩) (ms0_1 ⟨t, ht'⟩) (hs0_1 ⟨t, ht'⟩) (ms0_2 ⟨t, ht'⟩) (hs0_2 ⟨t, ht'⟩) (ms0_3 ⟨t, ht'⟩) (hs0_3 ⟨t, ht'⟩) (ms0_4 ⟨t, ht'⟩) (hs0_4 ⟨t, ht'⟩) (ms0_5 ⟨t, ht'⟩) (hs0_5 ⟨t, ht'⟩)
    ((hcond0_0 ⟨t, ht'⟩).mpr h0) (iblk0 V c 0 ⟨t, ht'⟩) (iblk0 V c 1 ⟨t, ht'⟩) (iblk0 V c 2 ⟨t, ht'⟩)) (ix2 u q)).trans ?_
  refine (PayLinear.k0_pay4_apply (xBlk V c ⟨t, ht'⟩) (wBlk V c ⟨t, ht'⟩) (bBlk V c ⟨t, ht'⟩) (k0_pay1 (F := Ideal)) u q).trans ?_
  refine congrArg (fun s : EReal => (k0_pay1 (F := Ideal)) (ix2 u q) + s) (Finset.sum_congr rfl fun p _ => ?_)
  exact pay3_point V c ⟨t, ht'⟩ p q _

/-- At any other point it is what the point before left plus the block's column sum. -/
theorem accSum_step (c : Dev nD) (u : Fin 1) (q : Fin 128) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg0.N := lt_of_lt_of_eq ht N_0.symm
  show (outsAt0 V c (⟨t, ht'⟩ : Fin cfg0.N).val (⟨t, ht'⟩ : Fin cfg0.N).isLt).2.1 (ix2 u q) = _
  rw [outsAt0_B V c ⟨t, ht'⟩ h0]
  dsimp only
  refine (congrFun (outB4 (F := Ideal) c (grid0.coords ⟨t, ht'⟩) (ms0_0 ⟨t, ht'⟩) (hs0_0 ⟨t, ht'⟩) (ms0_1 ⟨t, ht'⟩) (hs0_1 ⟨t, ht'⟩) (ms0_2 ⟨t, ht'⟩) (hs0_2 ⟨t, ht'⟩) (ms0_3 ⟨t, ht'⟩) (hs0_3 ⟨t, ht'⟩) (ms0_4 ⟨t, ht'⟩) (hs0_4 ⟨t, ht'⟩) (ms0_5 ⟨t, ht'⟩) (hs0_5 ⟨t, ht'⟩)
    (fun h => h0 ((hcond0_0 ⟨t, ht'⟩).mp h)) (iblk0 V c 0 ⟨t, ht'⟩) (iblk0 V c 1 ⟨t, ht'⟩) (iblk0 V c 2 ⟨t, ht'⟩)
    (outsAt0 V c ((⟨t, ht'⟩ : Fin cfg0.N).val - 1) (Nat.lt_of_le_of_lt (Nat.sub_le _ _) (⟨t, ht'⟩ : Fin cfg0.N).isLt)).2.1
    (outsAt0 V c ((⟨t, ht'⟩ : Fin cfg0.N).val - 1) (Nat.lt_of_le_of_lt (Nat.sub_le _ _) (⟨t, ht'⟩ : Fin cfg0.N).isLt)).2.2) (ix2 u q)).trans ?_
  refine (PayLinear.k0_pay4_apply (xBlk V c ⟨t, ht'⟩) (wBlk V c ⟨t, ht'⟩) (bBlk V c ⟨t, ht'⟩)
    (outsAt0 V c ((⟨t, ht'⟩ : Fin cfg0.N).val - 1) (Nat.lt_of_le_of_lt (Nat.sub_le _ _) (⟨t, ht'⟩ : Fin cfg0.N).isLt)).2.1 u q).trans ?_
  refine congrArg (fun s : EReal => accSum V c u q (t - 1) (Nat.lt_of_le_of_lt (Nat.sub_le t 1) ht) + s)
    (Finset.sum_congr rfl fun p _ => ?_)
  exact pay3_point V c ⟨t, ht'⟩ p q _

/-- After the last point it is the column sum over all 100000 rows. -/
theorem accSum_last (c : Dev nD) (u : Fin 1) (q : Fin 128) :
    accSum V c u q 19 (by norm_num) = colSum (y V c) q := by
  refine AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k0_pay1 (F := Ideal)) (ix2 u q)) Ideal.ofBits_zero_f32
    (fun t ht h0 => accSum_first V c u q t ht h0) (fun t ht h0 => accSum_step V c u q t ht h0)

/-- The carried column sum of squares at column `q`, after point `t`. -/
def accSumSq (c : Dev nD) (u : Fin 1) (q : Fin 128) : (t : ℕ) → t < 20 → EReal :=
  fun t ht => (outsAt0 V c t (lt_of_lt_of_eq ht N_0.symm)).2.2 (ix2 u q)

/-- At the first point it is the stored zero plus the block's column sum of squares. -/
theorem accSumSq_first (c : Dev nD) (u : Fin 1) (q : Fin 128) (t : ℕ) (ht : t < 20) (h0 : t % 20 = 0) :
    accSumSq V c u q t ht = (k0_pay2 (F := Ideal)) (ix2 u q)
      + ∑ p : Fin 5000, (y V c ⟨t * 5000 + p.val, by have := p.isLt; omega⟩ q * y V c ⟨t * 5000 + p.val, by have := p.isLt; omega⟩ q) := by
  have ht' : t < cfg0.N := lt_of_lt_of_eq ht N_0.symm
  show (outsAt0 V c (⟨t, ht'⟩ : Fin cfg0.N).val (⟨t, ht'⟩ : Fin cfg0.N).isLt).2.2 (ix2 u q) = _
  rw [outsAt0_A V c ⟨t, ht'⟩ h0]
  dsimp only
  refine (congrFun (outA5 (F := Ideal) c (grid0.coords ⟨t, ht'⟩) (ms0_0 ⟨t, ht'⟩) (hs0_0 ⟨t, ht'⟩) (ms0_1 ⟨t, ht'⟩) (hs0_1 ⟨t, ht'⟩) (ms0_2 ⟨t, ht'⟩) (hs0_2 ⟨t, ht'⟩) (ms0_3 ⟨t, ht'⟩) (hs0_3 ⟨t, ht'⟩) (ms0_4 ⟨t, ht'⟩) (hs0_4 ⟨t, ht'⟩) (ms0_5 ⟨t, ht'⟩) (hs0_5 ⟨t, ht'⟩)
    ((hcond0_0 ⟨t, ht'⟩).mpr h0) (iblk0 V c 0 ⟨t, ht'⟩) (iblk0 V c 1 ⟨t, ht'⟩) (iblk0 V c 2 ⟨t, ht'⟩)) (ix2 u q)).trans ?_
  refine (PayLinear.k0_pay5_apply (xBlk V c ⟨t, ht'⟩) (wBlk V c ⟨t, ht'⟩) (bBlk V c ⟨t, ht'⟩) (k0_pay2 (F := Ideal)) u q).trans ?_
  refine congrArg (fun s : EReal => (k0_pay2 (F := Ideal)) (ix2 u q) + s) (Finset.sum_congr rfl fun p _ => ?_)
  exact congrArg₂ (fun a b : EReal => a * b) (pay3_point V c ⟨t, ht'⟩ p q _) (pay3_point V c ⟨t, ht'⟩ p q _)

/-- At any other point it is what the point before left plus the block's column sum of squares. -/
theorem accSumSq_step (c : Dev nD) (u : Fin 1) (q : Fin 128) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg0.N := lt_of_lt_of_eq ht N_0.symm
  show (outsAt0 V c (⟨t, ht'⟩ : Fin cfg0.N).val (⟨t, ht'⟩ : Fin cfg0.N).isLt).2.2 (ix2 u q) = _
  rw [outsAt0_B V c ⟨t, ht'⟩ h0]
  dsimp only
  refine (congrFun (outB5 (F := Ideal) c (grid0.coords ⟨t, ht'⟩) (ms0_0 ⟨t, ht'⟩) (hs0_0 ⟨t, ht'⟩) (ms0_1 ⟨t, ht'⟩) (hs0_1 ⟨t, ht'⟩) (ms0_2 ⟨t, ht'⟩) (hs0_2 ⟨t, ht'⟩) (ms0_3 ⟨t, ht'⟩) (hs0_3 ⟨t, ht'⟩) (ms0_4 ⟨t, ht'⟩) (hs0_4 ⟨t, ht'⟩) (ms0_5 ⟨t, ht'⟩) (hs0_5 ⟨t, ht'⟩)
    (fun h => h0 ((hcond0_0 ⟨t, ht'⟩).mp h)) (iblk0 V c 0 ⟨t, ht'⟩) (iblk0 V c 1 ⟨t, ht'⟩) (iblk0 V c 2 ⟨t, ht'⟩)
    (outsAt0 V c ((⟨t, ht'⟩ : Fin cfg0.N).val - 1) (Nat.lt_of_le_of_lt (Nat.sub_le _ _) (⟨t, ht'⟩ : Fin cfg0.N).isLt)).2.1
    (outsAt0 V c ((⟨t, ht'⟩ : Fin cfg0.N).val - 1) (Nat.lt_of_le_of_lt (Nat.sub_le _ _) (⟨t, ht'⟩ : Fin cfg0.N).isLt)).2.2) (ix2 u q)).trans ?_
  refine (PayLinear.k0_pay5_apply (xBlk V c ⟨t, ht'⟩) (wBlk V c ⟨t, ht'⟩) (bBlk V c ⟨t, ht'⟩)
    (outsAt0 V c ((⟨t, ht'⟩ : Fin cfg0.N).val - 1) (Nat.lt_of_le_of_lt (Nat.sub_le _ _) (⟨t, ht'⟩ : Fin cfg0.N).isLt)).2.2 u q).trans ?_
  refine congrArg (fun s : EReal => accSumSq V c u q (t - 1) (Nat.lt_of_le_of_lt (Nat.sub_le t 1) ht) + s)
    (Finset.sum_congr rfl fun p _ => ?_)
  exact congrArg₂ (fun a b : EReal => a * b) (pay3_point V c ⟨t, ht'⟩ p q _) (pay3_point V c ⟨t, ht'⟩ p q _)

/-- After the last point it is the column sum of squares over all 100000 rows. -/
theorem accSumSq_last (c : Dev nD) (u : Fin 1) (q : Fin 128) :
    accSumSq V c u q 19 (by norm_num) = colSumSq (y V c) q := by
  refine AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k0_pay2 (F := Ideal)) (ix2 u q)) Ideal.ofBits_zero_f32
    (fun t ht h0 => accSumSq_first V c u q t ht h0) (fun t ht h0 => accSumSq_step V c u q t ht h0)

/-! ## From the blocks to the arrays -/

/-- Row `p`, column `q` of the output's block at point `t` is row 5000·t + p, column q of the array: a block's coordinate
    is its index times its extent plus the coordinate inside it. -/
theorem emb_out (t : Fin cfg0.N) (p : Fin 5000) (q : Fin 128) (h : t.val * 5000 + p.val < 100000) :
    ((cfg0.win 3).blk t).view.emb (ix2 p q) = (ix2 ⟨t.val * 5000 + p.val, h⟩ q : S100000x128.Idx) := by
  obtain ⟨-, -, -, -, -, -, e30, e31, -⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-- What point `t` writes back for the output is block `t` of `resultY`. -/
theorem flushed3_eq (c : Dev nD) (t : Fin cfg0.N) :
    (dat0 (F := Ideal) V c).flushed 3 t = ((cfg0.win 3).blk t).view.read (Elt Ideal) (resultY V c) := by
  show (cfg0.win 3).cut (grid0.coords t) ((dat0 V c).after 3 t) = _
  rw [after0_3]
  have ht : t.val < 20 := Nat.lt_of_lt_of_eq t.isLt N_0
  funext j
  obtain ⟨p, q, rfl⟩ : ∃ (p : Fin 5000) (q : Fin 128), j = ix2 p q := ⟨j 0, j 1, eq_ix2 j⟩
  have h : t.val * 5000 + p.val < 100000 := by have := p.isLt; omega
  show (outsAt0 V c t.val t.isLt).1 (ix2 p q) = resultY V c (((cfg0.win 3).blk t).view.emb (ix2 p q))
  refine (congrFun (outs3_eq V c t) (ix2 p q)).trans ?_
  refine (pay3_point V c t p q h).trans ?_
  exact (congrArg (resultY V c) (emb_out t p q h)).symm

/-- An entry of the array lies in point `t`'s block exactly when each of its coordinates lies in the block's range. -/
theorem mem_blk3 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1_0).slice (win0_3.rect t)).set ↔ _
  rw [View.set_slice_whole, Rect.mem_set_unit]
  exact Iff.rfl

/-- The twenty blocks tile the array: row `r` is in the block of point `r / 5000`, and every point writes its block back. -/
theorem cover3 (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e30, e31, -⟩ := idx_facts t
  refine ⟨t, flush0_3 t, ?_⟩
  rw [mem_blk3]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- At a point whose number is 19 the carried column sum is the one over all rows. -/
theorem accSum_at_last (c : Dev nD) (u : Fin 1) (q : Fin 128) (n : ℕ) (hn : n < 20) (h19 : n = 19) :
    accSum V c u q n hn = colSum (y V c) q := by
  subst h19
  exact accSum_last V c u q

/-- The carried row of window 4 after the last point is the whole of `resultSum`. -/
theorem outs4_last (c : Dev nD) (t : Fin cfg0.N) (h19 : t.val = 19) :
    (outsAt0 V c t.val t.isLt).2.1 = resultSum V c := by
  funext j
  obtain ⟨u, q, rfl⟩ : ∃ (u : Fin 1) (q : Fin 128), j = ix2 u q := ⟨j 0, j 1, eq_ix2 j⟩
  exact accSum_at_last V c u q t.val (Nat.lt_of_lt_of_eq t.isLt N_0) h19

/-- What the last point writes back for window 4 is the whole of `resultSum`: the window's one block lies at offset zero,
    so it reads the whole row. -/
theorem flushed4_eq (c : Dev nD) (t : Fin cfg0.N) (hf : (cfg0.win 4).flush t = true) :
    (dat0 (F := Ideal) V c).flushed 4 t = ((cfg0.win 4).blk t).view.read (Elt Ideal) (resultSum V c) := by
  have hN : t.val < 20 := Nat.lt_of_lt_of_eq t.isLt N_0
  have h19 : t.val = 19 := by have := (flush0_4 t).mp hf; omega
  obtain ⟨-, -, -, -, -, -, -, -, e40, e41, e50, e51⟩ := idx_facts t
  have hz' : (fun a => win0_4.index t a * main_v1_1.ty.shape.size a) = fun _ => 0 := funext fun a => by
    match a with
    | ⟨0, _⟩ => show win0_4.index t (0 : Fin 2) * 1 = 0; omega
    | ⟨1, _⟩ => show win0_4.index t (1 : Fin 2) * 128 = 0; omega
  show (cfg0.win 4).cut (grid0.coords t) ((dat0 V c).after 4 t) = _
  rw [after0_4, outs4_last V c t h19]
  exact (Memref.read_access_unit_zero (Elt Ideal) main_v1_1 hz' (fun a => by rw [congrFun hz' a]; simp) (resultSum V c)).symm

/-- An entry of the row lies in point `t`'s block of window 4 exactly when each coordinate lies in the block's range. -/
theorem mem_blk4 (t : Fin cfg0.N) (i : S1x128.Idx) :
    i ∈ ((cfg0.win 4).blk t).view.set ↔ ∀ a : Fin 2, win0_4.index t a * S1x128.size a ≤ (i a).val
      ∧ (i a).val < win0_4.index t a * S1x128.size a + S1x128.size a := by
  show i ∈ ((View.whole main_v1_1).slice (win0_4.rect t)).set ↔ _
  rw [View.set_slice_whole, Rect.mem_set_unit]
  exact Iff.rfl

/-- The last point's block of window 4 is the whole row, and the last point writes it back. -/
theorem cover4 (i : S1x128.Idx) :
    ∃ t : Fin cfg0.N, (cfg0.win 4).flush t = true ∧ i ∈ ((cfg0.win 4).blk t).view.set := by
  have hi0 : (i 0).val < 1 := idx2_lt0 i
  have hi1 : (i 1).val < 128 := idx2_lt1 i
  obtain ⟨t, ht⟩ : ∃ t : Fin cfg0.N, t.val = 19 := ⟨⟨19, by rw [show cfg0.N = 20 from N_0]; norm_num⟩, rfl⟩
  obtain ⟨-, -, -, -, -, -, -, -, e40, e41, e50, e51⟩ := idx_facts t
  refine ⟨t, (flush0_4 t).mpr (by omega), ?_⟩
  rw [mem_blk4]
  intro a
  match a with
  | ⟨0, _⟩ =>
    show win0_4.index t (0 : Fin 2) * 1 ≤ (i 0).val ∧ (i 0).val < win0_4.index t (0 : Fin 2) * 1 + 1
    omega
  | ⟨1, _⟩ =>
    show win0_4.index t (1 : Fin 2) * 128 ≤ (i 1).val ∧ (i 1).val < win0_4.index t (1 : Fin 2) * 128 + 128
    omega

/-- At a point whose number is 19 the carried column sum of squares is the one over all rows. -/
theorem accSumSq_at_last (c : Dev nD) (u : Fin 1) (q : Fin 128) (n : ℕ) (hn : n < 20) (h19 : n = 19) :
    accSumSq V c u q n hn = colSumSq (y V c) q := by
  subst h19
  exact accSumSq_last V c u q

/-- The carried row of window 5 after the last point is the whole of `resultSumSq`. -/
theorem outs5_last (c : Dev nD) (t : Fin cfg0.N) (h19 : t.val = 19) :
    (outsAt0 V c t.val t.isLt).2.2 = resultSumSq V c := by
  funext j
  obtain ⟨u, q, rfl⟩ : ∃ (u : Fin 1) (q : Fin 128), j = ix2 u q := ⟨j 0, j 1, eq_ix2 j⟩
  exact accSumSq_at_last V c u q t.val (Nat.lt_of_lt_of_eq t.isLt N_0) h19

/-- What the last point writes back for window 5 is the whole of `resultSumSq`: the window's one block lies at offset zero,
    so it reads the whole row. -/
theorem flushed5_eq (c : Dev nD) (t : Fin cfg0.N) (hf : (cfg0.win 5).flush t = true) :
    (dat0 (F := Ideal) V c).flushed 5 t = ((cfg0.win 5).blk t).view.read (Elt Ideal) (resultSumSq V c) := by
  have hN : t.val < 20 := Nat.lt_of_lt_of_eq t.isLt N_0
  have h19 : t.val = 19 := by have := (flush0_5 t).mp hf; omega
  obtain ⟨-, -, -, -, -, -, -, -, e40, e41, e50, e51⟩ := idx_facts t
  have hz' : (fun a => win0_5.index t a * main_v1_2.ty.shape.size a) = fun _ => 0 := funext fun a => by
    match a with
    | ⟨0, _⟩ => show win0_5.index t (0 : Fin 2) * 1 = 0; omega
    | ⟨1, _⟩ => show win0_5.index t (1 : Fin 2) * 128 = 0; omega
  show (cfg0.win 5).cut (grid0.coords t) ((dat0 V c).after 5 t) = _
  rw [after0_5, outs5_last V c t h19]
  exact (Memref.read_access_unit_zero (Elt Ideal) main_v1_2 hz' (fun a => by rw [congrFun hz' a]; simp) (resultSumSq V c)).symm

/-- An entry of the row lies in point `t`'s block of window 5 exactly when each coordinate lies in the block's range. -/
theorem mem_blk5 (t : Fin cfg0.N) (i : S1x128.Idx) :
    i ∈ ((cfg0.win 5).blk t).view.set ↔ ∀ a : Fin 2, win0_5.index t a * S1x128.size a ≤ (i a).val
      ∧ (i a).val < win0_5.index t a * S1x128.size a + S1x128.size a := by
  show i ∈ ((View.whole main_v1_2).slice (win0_5.rect t)).set ↔ _
  rw [View.set_slice_whole, Rect.mem_set_unit]
  exact Iff.rfl

/-- The last point's block of window 5 is the whole row, and the last point writes it back. -/
theorem cover5 (i : S1x128.Idx) :
    ∃ t : Fin cfg0.N, (cfg0.win 5).flush t = true ∧ i ∈ ((cfg0.win 5).blk t).view.set := by
  have hi0 : (i 0).val < 1 := idx2_lt0 i
  have hi1 : (i 1).val < 128 := idx2_lt1 i
  obtain ⟨t, ht⟩ : ∃ t : Fin cfg0.N, t.val = 19 := ⟨⟨19, by rw [show cfg0.N = 20 from N_0]; norm_num⟩, rfl⟩
  obtain ⟨-, -, -, -, -, -, -, -, e40, e41, e50, e51⟩ := idx_facts t
  refine ⟨t, (flush0_5 t).mpr (by omega), ?_⟩
  rw [mem_blk5]
  intro a
  match a with
  | ⟨0, _⟩ =>
    show win0_5.index t (0 : Fin 2) * 1 ≤ (i 0).val ∧ (i 0).val < win0_5.index t (0 : Fin 2) * 1 + 1
    omega
  | ⟨1, _⟩ =>
    show win0_5.index t (1 : Fin 2) * 128 ≤ (i 1).val ∧ (i 1).val < win0_5.index t (1 : Fin 2) * 128 + 128
    omega

/-- THE INTERFACE of this region, one statement per output window. -/
theorem arrAt_y (c : Dev nD) : (dat0 (F := Ideal) V c).arrAt 3 cfg0.N = resultY V c :=
  (dat0 V c).arrAt_eq_of_cover 3 (resultY V c) (fun t _ => flushed3_eq V c t) cover3

theorem arrAt_sum (c : Dev nD) : (dat0 (F := Ideal) V c).arrAt 4 cfg0.N = resultSum V c :=
  (dat0 V c).arrAt_eq_of_cover 4 (resultSum V c) (fun t hf => flushed4_eq V c t hf) cover4

theorem arrAt_sumsq (c : Dev nD) : (dat0 (F := Ideal) V c).arrAt 5 cfg0.N = resultSumSq V c :=
  (dat0 V c).arrAt_eq_of_cover 5 (resultSumSq V c) (fun t hf => flushed5_eq V c t hf) cover5

end Cert.KernelIdeal.ValSingle0

end
-- ==== Proof.ValNormRelu1Pay.lean ====
/-
  Region 1's arithmetic: what the normalisation's body computes at one row and column of a block, from the block of the
  linear stage's output and the four statistic and parameter rows.
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm1

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block — and then the larger of that and 0. -/
theorem pay_apply (var : Vec Ideal S1x128 .f32) (y : Vec Ideal S5000x128 .f32) (mean g beta : Vec Ideal S1x128 .f32)
    (p : Fin 5000) (q : Fin 128) :
    k1_pay1 (F := Ideal) var y mean g beta (ix2 p q)
      = max (StageSpec.norm (y (ix2 p q)) (mean (ix2 (0 : Fin 1) q)) (var (ix2 (0 : Fin 1) q)) (g (ix2 (0 : Fin 1) q)) (beta (ix2 (0 : Fin 1) q))) 0 := by
  unfold k1_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  exact congrArg₂ max rfl Ideal.ofBits_zero_f32

/-- The two zero offsets of a load or a store of a whole buffer. -/
theorem hz : (![0, 0] : Fin 2 → Nat) = fun _ => 0 := funext fun a => by fin_cases a <;> rfl

end Cert.KernelIdeal.ValNorm1

end
-- ==== Proof.ValNormRelu1.lean ====
/-
  Region 1: a normalisation followed by max(·, 0). Every grid point takes a block of 5000 rows of the linear stage's output
  and the four statistic and parameter rows, and writes back, entry by entry, the normalised value passed through max(·, 0).
  The twenty blocks tile the 100000 rows, so the output array as a whole is that function of the region's input arrays.
-/
import proofs.«414479_j7705171329025_1_alg».proof.Proof.FrameKI.R1
import proofs.«414479_j7705171329025_1_alg».proof.Proof.StageSpec
import proofs.«414479_j7705171329025_1_alg».proof.Proof.ValNormRelu1Pay
import Idealize.ShloMosaic.Lib.Pipeline.Value
import Idealize.ShloMosaic.Lib.ValueIdx
import Idealize.ShloMosaic.Lib.ValueLayout

set_option maxRecDepth 16384

noncomputable section

namespace Cert.KernelIdeal.ValNorm1

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x128 .f32 := V c (Pipeline.arrRef spec1 0)
abbrev meanRow (c : Dev nD) : Vec Ideal S1x128 .f32 := V c (Pipeline.arrRef spec1 1)
abbrev varRow (c : Dev nD) : Vec Ideal S1x128 .f32 := V c (Pipeline.arrRef spec1 2)
abbrev gRow (c : Dev nD) : Vec Ideal S1x128 .f32 := V c (Pipeline.arrRef spec1 3)
abbrev betaRow (c : Dev nD) : Vec Ideal S1x128 .f32 := V c (Pipeline.arrRef spec1 4)

/-- What the region leaves in its output array: the normalised entry through max(·, 0), at every row and column. -/
def result (c : Dev nD) : Vec Ideal S100000x128 .f32 := fun i =>
  max (StageSpec.norm (yArr V c i) (meanRow V c (ix2 (0 : Fin 1) (i 1))) (varRow V c (ix2 (0 : Fin 1) (i 1)))
        (gRow V c (ix2 (0 : Fin 1) (i 1))) (betaRow V c (ix2 (0 : Fin 1) (i 1)))) 0

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x128 .f32) (x1 x2 x3 x4 : Vec Ideal S1x128 .f32) (p : Fin 5000) (q : Fin 128) :
    out1_5 x0 x1 x2 x3 x4 (ix2 p q)
      = max (StageSpec.norm (x0 (ix2 p q)) (x1 (ix2 (0 : Fin 1) q)) (x2 (ix2 (0 : Fin 1) q)) (x3 (ix2 (0 : Fin 1) q)) (x4 (ix2 (0 : Fin 1) q))) 0 := by
  unfold out1_5
  rw [View.canon_unit_zero hz]
  simp only [View.ld_unit_zero (S := S1x128) hz, View.ld_unit_zero (S := S5000x128) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p`, column `q` of the output's block at point `t` is row 5000·t + p, column q of the array: a block's coordinate
    is its index times its extent plus the coordinate inside it. -/
theorem emb_out (t : Fin cfg1.N) (p : Fin 5000) (q : Fin 128) (h : t.val * 5000 + p.val < 100000) :
    ((cfg1.win 5).blk t).view.emb (ix2 p q) = (ix2 ⟨t.val * 5000 + p.val, h⟩ q : S100000x128.Idx) := by
  obtain ⟨-, -, -, -, -, -, -, -, -, -, e50, e51⟩ := idx_facts t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-- The tall input's block at point `t`, read at (p, q), is the array at row 5000·t + p, column q: the same rows the
    output's block has there. -/
theorem y_apply (c : Dev nD) (t : Fin cfg1.N) (p : Fin 5000) (q : Fin 128) (h : t.val * 5000 + p.val < 100000) :
    (iblk1 V c 0 t : Vec Ideal S5000x128 .f32) (ix2 p q) = yArr V c (ix2 ⟨t.val * 5000 + p.val, h⟩ q) := by
  obtain ⟨e00, e01, -⟩ := idx_facts t
  unfold iblk1
  rw [View.read_apply]
  show yArr V c (((cfg1.win 0).blk t).view.emb (ix2 p q)) = _
  refine congrArg (yArr V c) ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

/-- The mean row's block, at every point, is the row. -/
theorem mean_apply (c : Dev nD) (t : Fin cfg1.N) (q : Fin 128) :
    (iblk1 V c 1 t : Vec Ideal S1x128 .f32) (ix2 (0 : Fin 1) q) = meanRow V c (ix2 (0 : Fin 1) q) := by
  obtain ⟨-, -, e10, e11, -⟩ := idx_facts t
  unfold iblk1
  rw [View.read_apply]
  show meanRow V c (((cfg1.win 1).blk t).view.emb (ix2 (0 : Fin 1) q)) = _
  refine congrArg (meanRow V c) ?_
  funext a; apply Fin.ext
  match a with
  | ⟨0, _⟩ => show win1_1.index t (0 : Fin 2) * 1 + 1 * 0 = 0; omega
  | ⟨1, _⟩ => show win1_1.index t (1 : Fin 2) * 128 + 1 * q.val = q.val; omega

/-- The variance row's block, at every point, is the row. -/
theorem var_apply (c : Dev nD) (t : Fin cfg1.N) (q : Fin 128) :
    (iblk1 V c 2 t : Vec Ideal S1x128 .f32) (ix2 (0 : Fin 1) q) = varRow V c (ix2 (0 : Fin 1) q) := by
  obtain ⟨-, -, -, -, e20, e21, -⟩ := idx_facts t
  unfold iblk1
  rw [View.read_apply]
  show varRow V c (((cfg1.win 2).blk t).view.emb (ix2 (0 : Fin 1) q)) = _
  refine congrArg (varRow V c) ?_
  funext a; apply Fin.ext
  match a with
  | ⟨0, _⟩ => show win1_2.index t (0 : Fin 2) * 1 + 1 * 0 = 0; omega
  | ⟨1, _⟩ => show win1_2.index t (1 : Fin 2) * 128 + 1 * q.val = q.val; omega

/-- The scale row's block, at every point, is the row. -/
theorem g_apply (c : Dev nD) (t : Fin cfg1.N) (q : Fin 128) :
    (iblk1 V c 3 t : Vec Ideal S1x128 .f32) (ix2 (0 : Fin 1) q) = gRow V c (ix2 (0 : Fin 1) q) := by
  obtain ⟨-, -, -, -, -, -, e30, e31, -⟩ := idx_facts t
  unfold iblk1
  rw [View.read_apply]
  show gRow V c (((cfg1.win 3).blk t).view.emb (ix2 (0 : Fin 1) q)) = _
  refine congrArg (gRow V c) ?_
  funext a; apply Fin.ext
  match a with
  | ⟨0, _⟩ => show win1_3.index t (0 : Fin 2) * 1 + 1 * 0 = 0; omega
  | ⟨1, _⟩ => show win1_3.index t (1 : Fin 2) * 128 + 1 * q.val = q.val; omega

/-- The shift row's block, at every point, is the row. -/
theorem beta_apply (c : Dev nD) (t : Fin cfg1.N) (q : Fin 128) :
    (iblk1 V c 4 t : Vec Ideal S1x128 .f32) (ix2 (0 : Fin 1) q) = betaRow V c (ix2 (0 : Fin 1) q) := by
  obtain ⟨-, -, -, -, -, -, -, -, e40, e41, -⟩ := idx_facts t
  unfold iblk1
  rw [View.read_apply]
  show betaRow V c (((cfg1.win 4).blk t).view.emb (ix2 (0 : Fin 1) q)) = _
  refine congrArg (betaRow V c) ?_
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg1.N) :
    (dat1 (F := Ideal) V c).flushed 5 t = ((cfg1.win 5).blk t).view.read (Elt Ideal) (result V c) := by
  show (cfg1.win 5).cut (grid1.coords t) ((dat1 V c).after 5 t) = _
  rw [after1_5]
  have ht : t.val < 20 := Nat.lt_of_lt_of_eq t.isLt N_1
  funext j
  obtain ⟨p, q, rfl⟩ : ∃ (p : Fin 5000) (q : Fin 128), j = ix2 p q := ⟨j 0, j 1, eq_ix2 j⟩
  have h : t.val * 5000 + p.val < 100000 := by have := p.isLt; omega
  show out1_5 (iblk1 V c 0 t) (iblk1 V c 1 t) (iblk1 V c 2 t) (iblk1 V c 3 t) (iblk1 V c 4 t) (ix2 p q)
      = result V c (((cfg1.win 5).blk t).view.emb (ix2 p q))
  refine (out_apply (iblk1 V c 0 t) (iblk1 V c 1 t) (iblk1 V c 2 t) (iblk1 V c 3 t) (iblk1 V c 4 t) p q).trans ?_
  refine Eq.trans ?_ (congrArg (result V c) (emb_out t p q h)).symm
  refine Eq.trans ?_ (show max (StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))) 0
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v10).slice (win1_5.rect t)).set ↔ _
  rw [View.set_slice_whole, Rect.mem_set_unit]
  exact Iff.rfl

/-- The twenty blocks tile the array: row `r` is in the block of point `r / 5000`, and every point writes its block back. -/
theorem cover (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, -, -, e50, e51⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- THE INTERFACE of this region: after its twenty points the output array is `result`. -/
theorem arrAt_out (c : Dev nD) : (dat1 (F := Ideal) V c).arrAt 5 cfg1.N = result V c := by
  exact (dat1 V c).arrAt_eq_of_cover 5 (result V c) (fun t _ => flushed_eq V c t) cover

end Cert.KernelIdeal.ValNorm1

end
-- ==== Proof.HostLin0.lean ====
/-
  The host operation before a linear stage: it lays the stage's bias out as a row. Read here at any contents of
  the buffers before the stretch.
-/
import proofs.«414479_j7705171329025_1_alg».proof.Proof.Gen.KernelIdeal.Launch
import Idealize.ShloMosaic.Lib.StableHlo.Run

noncomputable section

namespace Cert.KernelIdeal.HostLin0

open Cert.KernelIdeal Cert.KernelIdeal.Gen
open Idealize.ShloMosaic Idealize.ShloMosaic.TcCoe Idealize.ShloMosaic.StableHlo

variable {F : FTy → Type} [FloatOps F]
variable (W : Valuation τ sig (Elt F))

/-- The bias, laid out as a row: the same entries in row-major order. -/
theorem read_b : (StableHlo.after hostOps0 W (Proc.devRef .tc main_v0) : (⟨S1x128, .f32⟩ : BufTy).Contents (Elt F))
    = shapeCast S1x128 (W (Proc.devRef .tc main_arg5)) shapeCasts_S128_S1x128 := by
  after_results <;> rfl

/-- The stage's input array is not written. -/
theorem read_keep : StableHlo.after hostOps0 W (Proc.devRef .tc main_arg0) = W (Proc.devRef .tc main_arg0) := by
  refine StableHlo.after_of_forall_not_mem _ _ fun op h => ?_
  fin_cases h <;> simp only [reshape_writes, Finset.mem_singleton] <;>
    exact devRef_ne_of_ne (by decide)

/-- The stage's weights are not written. -/
theorem read_keep_w : StableHlo.after hostOps0 W (Proc.devRef .tc main_arg4) = W (Proc.devRef .tc main_arg4) := by
  refine StableHlo.after_of_forall_not_mem _ _ fun op h => ?_
  fin_cases h <;> simp only [reshape_writes, Finset.mem_singleton] <;>
    exact devRef_ne_of_ne (by decide)

/-- The references the stretch writes, in order. -/
abbrev written : List (Ref sig .tc) :=
  [main_v0]

/-- Every operation of the stretch writes one of them. -/
theorem writes : (hostOps0 : List (HloOp τ sig (Elt F))).Forall fun op =>
    op.writes ⊆ (written.map (Proc.devRef (τ := τ) .tc)).toFinset := by
  simp only [List.Forall]
  repeat' apply And.intro
  all_goals
    simp only [reshape_writes, Finset.singleton_subset_iff, List.mem_toFinset]
    exact List.mem_map_of_mem (by decide)

/-- A reference the stretch does not write keeps its contents. -/
theorem keep {r : Ref sig .tc} (h : r ∉ written) : StableHlo.after hostOps0 W (Proc.devRef .tc r) = W (Proc.devRef .tc r) :=
  StableHlo.after_of_writes_sub hostOps0 W writes h

end Cert.KernelIdeal.HostLin0

end
-- ==== Proof.HostStats1.lean ====
/-
  The host operations between the embedding's linear stage and its normalisation. From the two carried rows the
  region leaves (the column sums and the column sums of squares) they form the mean (the sum over 100000), the mean
  of squares, and the variance as the mean of squares less the squared mean; and they lay the scale and the shift of
  the batch norm out as rows. Read here at any contents of the buffers before the stretch.
-/
import proofs.«414479_j7705171329025_1_alg».proof.Proof.Gen.KernelIdeal.Launch
import Idealize.ShloMosaic.Lib.StableHlo.Run

noncomputable section

namespace Cert.KernelIdeal.HostStats1

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x128, .f32⟩ : BufTy).Contents (Elt F) := broadcastInDim S1x128 ![] bcast_S_S1x128 (constant S_ .f32 0x47C35000#32)

/-- The mean row: the column sums over the divisor. -/
theorem read_mean : (StableHlo.after hostOps1 W (Proc.devRef .tc main_v3) : (⟨S1x128, .f32⟩ : BufTy).Contents (Elt F))
    = Host.divf (W (Proc.devRef .tc main_v1_1)) nRow := by
  after_results; rfl

/-- The variance row: the mean of squares less the squared mean. -/
theorem read_var : (StableHlo.after hostOps1 W (Proc.devRef .tc main_v7) : (⟨S1x128, .f32⟩ : BufTy).Contents (Elt F))
    = subf (Host.divf (W (Proc.devRef .tc main_v1_2)) nRow)
        (mulf (Host.divf (W (Proc.devRef .tc main_v1_1)) nRow) (Host.divf (W (Proc.devRef .tc main_v1_1)) nRow)) := by
  after_results; rfl

/-- The scale, laid out as a row: the same entries in row-major order. -/
theorem read_g : (StableHlo.after hostOps1 W (Proc.devRef .tc main_v8) : (⟨S1x128, .f32⟩ : BufTy).Contents (Elt F))
    = shapeCast S1x128 (W (Proc.devRef .tc main_arg6)) shapeCasts_S128_S1x128 := by
  after_results; rfl

/-- The shift, laid out as a row. -/
theorem read_beta : (StableHlo.after hostOps1 W (Proc.devRef .tc main_v9) : (⟨S1x128, .f32⟩ : BufTy).Contents (Elt F))
    = shapeCast S1x128 (W (Proc.devRef .tc main_arg7)) shapeCasts_S128_S1x128 := by
  after_results; rfl

/-- A buffer the stretch does not write keeps its contents: the linear stage's output array. -/
theorem read_y : StableHlo.after hostOps1 W (Proc.devRef .tc main_v1_0) = W (Proc.devRef .tc main_v1_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats1

end
-- ==== Proof.StatsLaw.lean ====
/-
  The variance as the kernel forms it and as the reference forms it.

  The kernel accumulates, column by column, the sum `S1 = Σ y` and the sum of squares `S2 = Σ y²` over the rows of a
  linear layer's output and then takes `mean = S1 / n` and `var = S2 / n − mean · mean`. The reference takes the same
  mean and `var = Σ (y − mean)² / n`. Expanding the square, `Σ (y − m)² = Σ y² − 2 m Σ y + n m²`, which with
  `m = Σ y / n` is `Σ y² − n m²`: over the real numbers the two variances are one number. Over the extended reals the
  same holds as soon as every `y` is a real number, because the coercion of the reals commutes with sums, products,
  differences and quotients by a nonzero real. There is no clip at zero on either side.
-/
import proofs.«414479_j7705171329025_1_alg».proof.Proof.LibBatchStats

noncomputable section

namespace Cert.StatsLaw

open Idealize.ShloMosaic
open Cert.RealSpec (IsReal)
open scoped BigOperators

variable {n : ℕ} (hn : 0 < n) (y : Fin n → EReal) (hy : ∀ i, IsReal (y i)) (N : EReal) (hN : N = ((n : ℝ) : EReal))

include hn hy hN

/-- The mean of squares less the squared mean is the mean of the squared deviations, on real data. -/
theorem var_sumsq_eq_var_dev :
    Ideal.div (∑ i, y i * y i) N - Ideal.div (∑ i, y i) N * Ideal.div (∑ i, y i) N
      = Ideal.div (∑ i, (y i - Ideal.div (∑ i, y i) N) * (y i - Ideal.div (∑ i, y i) N)) N := by
  choose r hr using hy
  have hy' : ∀ i, IsReal (y i) := fun i => ⟨r i, hr i⟩
  rw [Cert.BatchStats.mean_eq_coe hn y hy' N hN r hr, Cert.BatchStats.mean_sq_eq_coe hn y hy' N hN r hr,
    ← EReal.coe_mul, ← EReal.coe_sub, Cert.BatchStats.real_var_identity hn r]
  have h2 := Cert.BatchStats.var_two_pass_eq_coe hn y hy' N hN r hr
  rw [Cert.BatchStats.mean_eq_coe hn y hy' N hN r hr] at h2
  exact h2.symm

/-- The kernel's variance of real data is a real number that is not negative, so adding a positive epsilon leaves a
    positive real, whose reciprocal square root is a real number. -/
theorem rsqrt_var_sumsq_eps_isReal (e : ℝ) (he : 0 < e) :
    IsReal (Ideal.rsqrt (Ideal.div (∑ i, y i * y i) N - Ideal.div (∑ i, y i) N * Ideal.div (∑ i, y i) N + (e : EReal))) := by
  rw [var_sumsq_eq_var_dev hn y hy N hN]
  exact Cert.BatchStats.rsqrt_var_eps_isReal hn y hy N hN e he

end Cert.StatsLaw

end
-- ==== Proof.StageReal.lean ====
/-
  Which values of the stages of the graph network are real numbers, and how the two programs' batch statistics and
  three-hop projection meet, on the extended reals.

  Closure. A linear stage's entry is a finite sum of products plus a bias entry, so it is a real number as soon as every
  entry of its inputs, weights and bias is; so are the column sums and the column sums of squares of a real family, the
  greater of a real number and zero, and the hyperbolic tangent of a real number. A normalisation's entry
  `(y − mean) · rsqrt (var + ε) · g + β` is a real number when `y`, `mean`, `g`, `β` are and `var + ε` is a positive real,
  in particular when `var` is a real number that is not negative, because `ε` is a positive real.

  Statistics. For a real family of `n > 0` rows, with `N` the number `n`, the mean `Σ y / N` is a real number; the
  variance formed as `Σ y² / N − mean · mean` and the variance formed as `Σ (y − mean)² / N` are one number, a real
  number that is not negative; hence the normalisations written with either are equal and are real numbers.

  Three-hop projection. A sum over a range of `k + k + k` indices is the sum of the sums over its three runs of `k`;
  so three inputs against three weight matrices, added in that order, are one product of the inputs placed side by side
  with the weight matrices stacked. Only associativity of the addition is used.
-/
import proofs.«414479_j7705171329025_1_alg».proof.Proof.StageSpec
import proofs.«414479_j7705171329025_1_alg».proof.Proof.StatsLaw

noncomputable section

namespace Cert.StageReal

open Idealize.ShloMosaic Idealize.ShloMosaic.ValueIdx
open Cert.RealSpec (IsReal)
open Cert.StageSpec
open scoped BigOperators

/-! ## Closure of "is a real number" under the stages -/

section Closure

variable {n k d : ℕ}

/-- An entry of a linear stage on real inputs, real weights and a real bias is a real number. -/
theorem lin_isReal (x : (⟨2, ![n, k]⟩ : Shape).Idx → EReal) (w : (⟨2, ![k, d]⟩ : Shape).Idx → EReal)
    (b : (⟨2, ![1, d]⟩ : Shape).Idx → EReal) (hx : ∀ i, IsReal (x i)) (hw : ∀ i, IsReal (w i))
    (hb : ∀ i, IsReal (b i)) (r : Fin n) (q : Fin d) : IsReal (lin x w b r q) := by
  unfold lin
  exact BatchStats.isReal_add (BatchStats.isReal_sum_univ _ (fun j => BatchStats.isReal_mul (hx _) (hw _))) (hb _)

/-- An entry of a linear stage on the entrywise sum of two real inputs is a real number. -/
theorem linAdd_isReal (xa xb : (⟨2, ![n, k]⟩ : Shape).Idx → EReal) (w : (⟨2, ![k, d]⟩ : Shape).Idx → EReal)
    (b : (⟨2, ![1, d]⟩ : Shape).Idx → EReal) (hxa : ∀ i, IsReal (xa i)) (hxb : ∀ i, IsReal (xb i))
    (hw : ∀ i, IsReal (w i)) (hb : ∀ i, IsReal (b i)) (r : Fin n) (q : Fin d) : IsReal (linAdd xa xb w b r q) := by
  unfold linAdd
  exact BatchStats.isReal_add
    (BatchStats.isReal_sum_univ _ (fun j => BatchStats.isReal_mul (BatchStats.isReal_add (hxa _) (hxb _)) (hw _))) (hb _)

/-- An entry of the three-hop projection on real inputs, real weights and a real bias is a real number. -/
theorem lin3_isReal (x0 x1 x2 : (⟨2, ![n, k]⟩ : Shape).Idx → EReal) (w0 w1 w2 : (⟨2, ![k, d]⟩ : Shape).Idx → EReal)
    (b : (⟨2, ![1, d]⟩ : Shape).Idx → EReal) (hx0 : ∀ i, IsReal (x0 i)) (hx1 : ∀ i, IsReal (x1 i))
    (hx2 : ∀ i, IsReal (x2 i)) (hw0 : ∀ i, IsReal (w0 i)) (hw1 : ∀ i, IsReal (w1 i)) (hw2 : ∀ i, IsReal (w2 i))
    (hb : ∀ i, IsReal (b i)) (r : Fin n) (q : Fin d) : IsReal (lin3 x0 x1 x2 w0 w1 w2 b r q) := by
  unfold lin3
  exact BatchStats.isReal_add
    (BatchStats.isReal_add
      (BatchStats.isReal_add
        (BatchStats.isReal_sum_univ _ (fun j => BatchStats.isReal_mul (hx0 _) (hw0 _)))
        (BatchStats.isReal_sum_univ _ (fun j => BatchStats.isReal_mul (hx1 _) (hw1 _))))
      (BatchStats.isReal_sum_univ _ (fun j => BatchStats.isReal_mul (hx2 _) (hw2 _))))
    (hb _)

/-- A column sum of a real family is a real number. -/
theorem colSum_isReal (y : Fin n → Fin d → EReal) (hy : ∀ r q, IsReal (y r q)) (q : Fin d) : IsReal (colSum y q) := by
  unfold colSum
  exact BatchStats.isReal_sum_univ _ (fun r => hy r q)

/-- A column sum of squares of a real family is a real number. -/
theorem colSumSq_isReal (y : Fin n → Fin d → EReal) (hy : ∀ r q, IsReal (y r q)) (q : Fin d) :
    IsReal (colSumSq y q) := by
  unfold colSumSq
  exact BatchStats.isReal_sum_univ _ (fun r => BatchStats.isReal_mul (hy r q) (hy r q))

end Closure

/-- The greater of a real number and zero is a real number. -/
theorem max_zero_isReal {y : EReal} (hy : IsReal y) : IsReal (max y 0) :=
  BatchStats.isReal_max hy BatchStats.isReal_zero

/-- The greater of zero and a real number is a real number. -/
theorem zero_max_isReal {y : EReal} (hy : IsReal y) : IsReal (max 0 y) :=
  BatchStats.isReal_max BatchStats.isReal_zero hy

/-- The hyperbolic tangent of a real number is a real number. -/
theorem tanh_isReal {y : EReal} (hy : IsReal y) : IsReal (Ideal.tanh y) := by
  obtain ⟨a, rfl⟩ := hy
  exact ⟨Real.tanh a, Ideal.tanh_coe a⟩

/-- The batch norm's epsilon is a positive real number. -/
theorem eps_pos_real : ∃ e : ℝ, 0 < e ∧ eps = (e : EReal) := BatchStats.ofBits_eps_f32

/-- A normalisation's entry is a real number when its data are and the variance plus epsilon is a positive real. -/
theorem norm_isReal_of_pos {y mean var g beta : EReal} (hy : IsReal y) (hm : IsReal mean) (hg : IsReal g)
    (hb : IsReal beta) {s : ℝ} (hs : var + eps = (s : EReal)) (hs0 : 0 < s) : IsReal (StageSpec.norm y mean var g beta) := by
  unfold StageSpec.norm
  exact BatchStats.isReal_add
    (BatchStats.isReal_mul (BatchStats.isReal_mul (BatchStats.isReal_sub hy hm) (BatchStats.isReal_rsqrt_of_pos hs hs0)) hg) hb

/-- A real number that is not negative, plus epsilon, is a positive real. -/
theorem add_eps_pos_real {var : EReal} {v : ℝ} (hv : var = (v : EReal)) (hv0 : 0 ≤ v) :
    ∃ s : ℝ, 0 < s ∧ var + eps = (s : EReal) := by
  obtain ⟨e, he, heq⟩ := eps_pos_real
  exact ⟨v + e, by linarith, by rw [hv, heq, ← EReal.coe_add]⟩

/-- A normalisation's entry is a real number when its data are and the variance is a real number that is not negative. -/
theorem norm_isReal {y mean var g beta : EReal} (hy : IsReal y) (hm : IsReal mean) (hg : IsReal g)
    (hb : IsReal beta) {v : ℝ} (hv : var = (v : EReal)) (hv0 : 0 ≤ v) : IsReal (StageSpec.norm y mean var g beta) := by
  obtain ⟨s, hs0, hs⟩ := add_eps_pos_real hv hv0
  exact norm_isReal_of_pos hy hm hg hb hs hs0

/-! ## The batch statistics in the two programs' forms -/

/-- The column mean: the column sum over the number of rows. -/
def colMean {n d : ℕ} (y : Fin n → Fin d → EReal) (N : EReal) (q : Fin d) : EReal := Ideal.div (colSum y q) N

/-- The column variance as the mean of the squares less the squared mean. -/
def varSumSq {n d : ℕ} (y : Fin n → Fin d → EReal) (N : EReal) (q : Fin d) : EReal :=
  Ideal.div (colSumSq y q) N - colMean y N q * colMean y N q

/-- The column variance as the mean of the squared deviations from the mean. -/
def varDev {n d : ℕ} (y : Fin n → Fin d → EReal) (N : EReal) (q : Fin d) : EReal :=
  Ideal.div (∑ r : Fin n, (y r q - colMean y N q) * (y r q - colMean y N q)) N

section Stats

variable {n d : ℕ}

/-- The mean written out. -/
theorem colMean_eq (y : Fin n → Fin d → EReal) (N : EReal) (q : Fin d) : colMean y N q = Ideal.div (∑ r : Fin n, y r q) N := rfl

/-- The first variance written out. -/
theorem varSumSq_eq (y : Fin n → Fin d → EReal) (N : EReal) (q : Fin d) :
    varSumSq y N q
      = Ideal.div (∑ r : Fin n, y r q * y r q) N - Ideal.div (∑ r : Fin n, y r q) N * Ideal.div (∑ r : Fin n, y r q) N := rfl

/-- The second variance written out. -/
theorem varDev_eq (y : Fin n → Fin d → EReal) (N : EReal) (q : Fin d) :
    varDev y N q
      = Ideal.div (∑ r : Fin n, (y r q - Ideal.div (∑ r : Fin n, y r q) N) * (y r q - Ideal.div (∑ r : Fin n, y r q) N)) N := rfl

variable (hn : 0 < n) (y : Fin n → Fin d → EReal) (hy : ∀ r q, IsReal (y r q)) (N : EReal) (hN : N = ((n : ℝ) : EReal))

include hn hy hN

/-- The column mean of a real family is a real number. -/
theorem colMean_isReal (q : Fin d) : IsReal (colMean y N q) := by
  rw [colMean_eq]
  exact BatchStats.mean_isReal hn (fun r => y r q) (fun r => hy r q) N hN

/-- THE TWO VARIANCES ARE ONE NUMBER on a real family. -/
theorem varSumSq_eq_varDev (q : Fin d) : varSumSq y N q = varDev y N q := by
  rw [varSumSq_eq, varDev_eq]
  exact StatsLaw.var_sumsq_eq_var_dev hn (fun r => y r q) (fun r => hy r q) N hN

/-- The variance of the squared deviations is a real number that is not negative. -/
theorem varDev_nonneg_real (q : Fin d) : ∃ v : ℝ, 0 ≤ v ∧ varDev y N q = (v : EReal) := by
  rw [varDev_eq]
  exact BatchStats.var_isReal_nonneg hn (fun r => y r q) (fun r => hy r q) N hN

/-- The variance of the sum of squares is a real number that is not negative. -/
theorem varSumSq_nonneg_real (q : Fin d) : ∃ v : ℝ, 0 ≤ v ∧ varSumSq y N q = (v : EReal) := by
  rw [varSumSq_eq_varDev hn y hy N hN q]
  exact varDev_nonneg_real hn y hy N hN q

/-- The variance of the squared deviations is a real number. -/
theorem varDev_isReal (q : Fin d) : IsReal (varDev y N q) := by
  obtain ⟨v, _, hv⟩ := varDev_nonneg_real hn y hy N hN q
  exact ⟨v, hv⟩

/-- The variance of the sum of squares is a real number. -/
theorem varSumSq_isReal (q : Fin d) : IsReal (varSumSq y N q) := by
  obtain ⟨v, _, hv⟩ := varSumSq_nonneg_real hn y hy N hN q
  exact ⟨v, hv⟩

/-- The normalisation written with either variance is the same number (for any entry, scale and shift). -/
theorem norm_varSumSq_eq_norm_varDev (q : Fin d) (x g beta : EReal) :
    StageSpec.norm x (colMean y N q) (varSumSq y N q) g beta = StageSpec.norm x (colMean y N q) (varDev y N q) g beta := by
  rw [varSumSq_eq_varDev hn y hy N hN q]

/-- The normalisation with the variance of the squared deviations is a real number on real data. -/
theorem norm_varDev_isReal (q : Fin d) {x g beta : EReal} (hx : IsReal x) (hg : IsReal g) (hb : IsReal beta) :
    IsReal (StageSpec.norm x (colMean y N q) (varDev y N q) g beta) := by
  obtain ⟨v, hv0, hv⟩ := varDev_nonneg_real hn y hy N hN q
  exact norm_isReal hx (colMean_isReal hn y hy N hN q) hg hb hv hv0

/-- The normalisation with the variance of the sum of squares is a real number on real data. -/
theorem norm_varSumSq_isReal (q : Fin d) {x g beta : EReal} (hx : IsReal x) (hg : IsReal g) (hb : IsReal beta) :
    IsReal (StageSpec.norm x (colMean y N q) (varSumSq y N q) g beta) := by
  rw [norm_varSumSq_eq_norm_varDev hn y hy N hN q]
  exact norm_varDev_isReal hn y hy N hN q hx hg hb

/-- The two programs' normalised entries of row `r`, column `q`: equal, and a real number. -/
theorem norm_entry_eq_and_isReal (r : Fin n) (q : Fin d) {g beta : EReal} (hg : IsReal g) (hb : IsReal beta) :
    StageSpec.norm (y r q) (colMean y N q) (varSumSq y N q) g beta = StageSpec.norm (y r q) (colMean y N q) (varDev y N q) g beta
      ∧ IsReal (StageSpec.norm (y r q) (colMean y N q) (varDev y N q) g beta) :=
  ⟨norm_varSumSq_eq_norm_varDev hn y hy N hN q _ _ _, norm_varDev_isReal hn y hy N hN q (hy r q) hg hb⟩

end Stats

/-! ### With one hundred thousand rows and the divisor as its f32 word -/

section Rows100000

variable {d : ℕ} (y : Fin 100000 → Fin d → EReal) (hy : ∀ r q, IsReal (y r q))

/-- The f32 word of `100000.0` is the number of rows of a family of 100000 rows. -/
theorem word_100000_eq : Ideal.ofBits .f32 0x47C35000#32 = (((100000 : ℕ) : ℝ) : EReal) :=
  BatchStats.ofBits_100000_f32_natCast

include hy

/-- The column mean of a real family of 100000 rows is a real number. -/
theorem colMean_isReal_100000 (q : Fin d) : IsReal (colMean y (Ideal.ofBits .f32 0x47C35000#32) q) :=
  colMean_isReal (by norm_num) y hy _ word_100000_eq q

/-- The two variances of a real family of 100000 rows are one number. -/
theorem varSumSq_eq_varDev_100000 (q : Fin d) :
    varSumSq y (Ideal.ofBits .f32 0x47C35000#32) q = varDev y (Ideal.ofBits .f32 0x47C35000#32) q :=
  varSumSq_eq_varDev (by norm_num) y hy _ word_100000_eq q

/-- The variance of the squared deviations of a real family of 100000 rows is a real number that is not negative. -/
theorem varDev_nonneg_real_100000 (q : Fin d) :
    ∃ v : ℝ, 0 ≤ v ∧ varDev y (Ideal.ofBits .f32 0x47C35000#32) q = (v : EReal) :=
  varDev_nonneg_real (by norm_num) y hy _ word_100000_eq q

/-- The variance of the sum of squares of a real family of 100000 rows is a real number that is not negative. -/
theorem varSumSq_nonneg_real_100000 (q : Fin d) :
    ∃ v : ℝ, 0 ≤ v ∧ varSumSq y (Ideal.ofBits .f32 0x47C35000#32) q = (v : EReal) :=
  varSumSq_nonneg_real (by norm_num) y hy _ word_100000_eq q

/-- The normalisation written with either variance of a real family of 100000 rows is the same number. -/
theorem norm_varSumSq_eq_norm_varDev_100000 (q : Fin d) (x g beta : EReal) :
    StageSpec.norm x (colMean y (Ideal.ofBits .f32 0x47C35000#32) q) (varSumSq y (Ideal.ofBits .f32 0x47C35000#32) q) g beta
      = StageSpec.norm x (colMean y (Ideal.ofBits .f32 0x47C35000#32) q) (varDev y (Ideal.ofBits .f32 0x47C35000#32) q) g beta :=
  norm_varSumSq_eq_norm_varDev (by norm_num) y hy _ word_100000_eq q x g beta

/-- The normalisation with the variance of the squared deviations of a real family of 100000 rows is a real number. -/
theorem norm_varDev_isReal_100000 (q : Fin d) {x g beta : EReal} (hx : IsReal x) (hg : IsReal g) (hb : IsReal beta) :
    IsReal (StageSpec.norm x (colMean y (Ideal.ofBits .f32 0x47C35000#32) q) (varDev y (Ideal.ofBits .f32 0x47C35000#32) q) g beta) :=
  norm_varDev_isReal (by norm_num) y hy _ word_100000_eq q hx hg hb

/-- The normalisation with the variance of the sum of squares of a real family of 100000 rows is a real number. -/
theorem norm_varSumSq_isReal_100000 (q : Fin d) {x g beta : EReal} (hx : IsReal x) (hg : IsReal g) (hb : IsReal beta) :
    IsReal (StageSpec.norm x (colMean y (Ideal.ofBits .f32 0x47C35000#32) q) (varSumSq y (Ideal.ofBits .f32 0x47C35000#32) q) g beta) :=
  norm_varSumSq_isReal (by norm_num) y hy _ word_100000_eq q hx hg hb

end Rows100000

/-! ## Three products in a row against one product over the joined inner axis -/

section Concat

/-- A range of `k + k + k` indices cut in three runs of `k`: the three sums, added in that order, are the whole sum. -/
theorem sum_thirds {M : Type*} [AddCommMonoid M] (k m : ℕ) (hm : m = k + k + k) (f : Fin m → M) :
    ((∑ j : Fin k, f ⟨j.val, by have := j.isLt; omega⟩) + ∑ j : Fin k, f ⟨k + j.val, by have := j.isLt; omega⟩)
        + ∑ j : Fin k, f ⟨k + k + j.val, by have := j.isLt; omega⟩
      = ∑ j : Fin m, f j := by
  subst hm
  rw [Fin.sum_univ_add, Fin.sum_univ_add]
  rfl

variable {n k m d : ℕ}

/-- THREE PRODUCTS IN A ROW ARE ONE PRODUCT over the joined inner axis: if the columns `j`, `k + j`, `k + k + j` of `X`
    are the columns `j` of `x0`, `x1`, `x2` and the rows `j`, `k + j`, `k + k + j` of `W` are the rows `j` of `w0`, `w1`,
    `w2`, then the three sums of products, added in that order, are the sum of products of `X` with `W`. -/
theorem sum3_eq_sum_of_slices (hm : m = k + k + k)
    (x0 x1 x2 : (⟨2, ![n, k]⟩ : Shape).Idx → EReal) (w0 w1 w2 : (⟨2, ![k, d]⟩ : Shape).Idx → EReal)
    (X : (⟨2, ![n, m]⟩ : Shape).Idx → EReal) (W : (⟨2, ![m, d]⟩ : Shape).Idx → EReal)
    (hX0 : ∀ (r : Fin n) (j : Fin k), X (ix2 r ⟨j.val, by have := j.isLt; omega⟩) = x0 (ix2 r j))
    (hX1 : ∀ (r : Fin n) (j : Fin k), X (ix2 r ⟨k + j.val, by have := j.isLt; omega⟩) = x1 (ix2 r j))
    (hX2 : ∀ (r : Fin n) (j : Fin k), X (ix2 r ⟨k + k + j.val, by have := j.isLt; omega⟩) = x2 (ix2 r j))
    (hW0 : ∀ (j : Fin k) (q : Fin d), W (ix2 ⟨j.val, by have := j.isLt; omega⟩ q) = w0 (ix2 j q))
    (hW1 : ∀ (j : Fin k) (q : Fin d), W (ix2 ⟨k + j.val, by have := j.isLt; omega⟩ q) = w1 (ix2 j q))
    (hW2 : ∀ (j : Fin k) (q : Fin d), W (ix2 ⟨k + k + j.val, by have := j.isLt; omega⟩ q) = w2 (ix2 j q))
    (r : Fin n) (q : Fin d) :
    ((∑ j : Fin k, x0 (ix2 r j) * w0 (ix2 j q)) + ∑ j : Fin k, x1 (ix2 r j) * w1 (ix2 j q))
        + ∑ j : Fin k, x2 (ix2 r j) * w2 (ix2 j q)
      = ∑ j : Fin m, X (ix2 r j) * W (ix2 j q) := by
  rw [← sum_thirds k m hm (fun j => X (ix2 r j) * W (ix2 j q))]
  have h0 : ∀ j : Fin k, x0 (ix2 r j) * w0 (ix2 j q)
      = X (ix2 r ⟨j.val, by have := j.isLt; omega⟩) * W (ix2 ⟨j.val, by have := j.isLt; omega⟩ q) :=
    fun j => by rw [hX0, hW0]
  have h1 : ∀ j : Fin k, x1 (ix2 r j) * w1 (ix2 j q)
      = X (ix2 r ⟨k + j.val, by have := j.isLt; omega⟩) * W (ix2 ⟨k + j.val, by have := j.isLt; omega⟩ q) :=
    fun j => by rw [hX1, hW1]
  have h2 : ∀ j : Fin k, x2 (ix2 r j) * w2 (ix2 j q)
      = X (ix2 r ⟨k + k + j.val, by have := j.isLt; omega⟩) * W (ix2 ⟨k + k + j.val, by have := j.isLt; omega⟩ q) :=
    fun j => by rw [hX2, hW2]
  rw [Finset.sum_congr rfl (fun j _ => h0 j), Finset.sum_congr rfl (fun j _ => h1 j),
    Finset.sum_congr rfl (fun j _ => h2 j)]

/-- The three-hop projection is that one product plus the bias row's entry. -/
theorem lin3_eq_sum_add_bias (hm : m = k + k + k)
    (x0 x1 x2 : (⟨2, ![n, k]⟩ : Shape).Idx → EReal) (w0 w1 w2 : (⟨2, ![k, d]⟩ : Shape).Idx → EReal)
    (X : (⟨2, ![n, m]⟩ : Shape).Idx → EReal) (W : (⟨2, ![m, d]⟩ : Shape).Idx → EReal)
    (hX0 : ∀ (r : Fin n) (j : Fin k), X (ix2 r ⟨j.val, by have := j.isLt; omega⟩) = x0 (ix2 r j))
    (hX1 : ∀ (r : Fin n) (j : Fin k), X (ix2 r ⟨k + j.val, by have := j.isLt; omega⟩) = x1 (ix2 r j))
    (hX2 : ∀ (r : Fin n) (j : Fin k), X (ix2 r ⟨k + k + j.val, by have := j.isLt; omega⟩) = x2 (ix2 r j))
    (hW0 : ∀ (j : Fin k) (q : Fin d), W (ix2 ⟨j.val, by have := j.isLt; omega⟩ q) = w0 (ix2 j q))
    (hW1 : ∀ (j : Fin k) (q : Fin d), W (ix2 ⟨k + j.val, by have := j.isLt; omega⟩ q) = w1 (ix2 j q))
    (hW2 : ∀ (j : Fin k) (q : Fin d), W (ix2 ⟨k + k + j.val, by have := j.isLt; omega⟩ q) = w2 (ix2 j q))
    (b : (⟨2, ![1, d]⟩ : Shape).Idx → EReal) (r : Fin n) (q : Fin d) :
    lin3 x0 x1 x2 w0 w1 w2 b r q = (∑ j : Fin m, X (ix2 r j) * W (ix2 j q)) + b (ix2 (0 : Fin 1) q) := by
  unfold lin3
  rw [sum3_eq_sum_of_slices hm x0 x1 x2 w0 w1 w2 X W hX0 hX1 hX2 hW0 hW1 hW2 r q]

/-- THE THREE-HOP PROJECTION IS ONE LINEAR STAGE over the joined inner axis, with the same bias row. -/
theorem lin3_eq_lin_of_slices (hm : m = k + k + k)
    (x0 x1 x2 : (⟨2, ![n, k]⟩ : Shape).Idx → EReal) (w0 w1 w2 : (⟨2, ![k, d]⟩ : Shape).Idx → EReal)
    (X : (⟨2, ![n, m]⟩ : Shape).Idx → EReal) (W : (⟨2, ![m, d]⟩ : Shape).Idx → EReal)
    (hX0 : ∀ (r : Fin n) (j : Fin k), X (ix2 r ⟨j.val, by have := j.isLt; omega⟩) = x0 (ix2 r j))
    (hX1 : ∀ (r : Fin n) (j : Fin k), X (ix2 r ⟨k + j.val, by have := j.isLt; omega⟩) = x1 (ix2 r j))
    (hX2 : ∀ (r : Fin n) (j : Fin k), X (ix2 r ⟨k + k + j.val, by have := j.isLt; omega⟩) = x2 (ix2 r j))
    (hW0 : ∀ (j : Fin k) (q : Fin d), W (ix2 ⟨j.val, by have := j.isLt; omega⟩ q) = w0 (ix2 j q))
    (hW1 : ∀ (j : Fin k) (q : Fin d), W (ix2 ⟨k + j.val, by have := j.isLt; omega⟩ q) = w1 (ix2 j q))
    (hW2 : ∀ (j : Fin k) (q : Fin d), W (ix2 ⟨k + k + j.val, by have := j.isLt; omega⟩ q) = w2 (ix2 j q))
    (b : (⟨2, ![1, d]⟩ : Shape).Idx → EReal) (r : Fin n) (q : Fin d) :
    lin3 x0 x1 x2 w0 w1 w2 b r q = lin X W b r q :=
  lin3_eq_sum_add_bias hm x0 x1 x2 w0 w1 w2 X W hX0 hX1 hX2 hW0 hW1 hW2 b r q

/-- With a bias row whose entry is zero the three-hop projection is the bare product: a projection that one program
    writes with a zero bias and the other without any. -/
theorem lin3_eq_sum_of_bias_zero (hm : m = k + k + k)
    (x0 x1 x2 : (⟨2, ![n, k]⟩ : Shape).Idx → EReal) (w0 w1 w2 : (⟨2, ![k, d]⟩ : Shape).Idx → EReal)
    (X : (⟨2, ![n, m]⟩ : Shape).Idx → EReal) (W : (⟨2, ![m, d]⟩ : Shape).Idx → EReal)
    (hX0 : ∀ (r : Fin n) (j : Fin k), X (ix2 r ⟨j.val, by have := j.isLt; omega⟩) = x0 (ix2 r j))
    (hX1 : ∀ (r : Fin n) (j : Fin k), X (ix2 r ⟨k + j.val, by have := j.isLt; omega⟩) = x1 (ix2 r j))
    (hX2 : ∀ (r : Fin n) (j : Fin k), X (ix2 r ⟨k + k + j.val, by have := j.isLt; omega⟩) = x2 (ix2 r j))
    (hW0 : ∀ (j : Fin k) (q : Fin d), W (ix2 ⟨j.val, by have := j.isLt; omega⟩ q) = w0 (ix2 j q))
    (hW1 : ∀ (j : Fin k) (q : Fin d), W (ix2 ⟨k + j.val, by have := j.isLt; omega⟩ q) = w1 (ix2 j q))
    (hW2 : ∀ (j : Fin k) (q : Fin d), W (ix2 ⟨k + k + j.val, by have := j.isLt; omega⟩ q) = w2 (ix2 j q))
    (b : (⟨2, ![1, d]⟩ : Shape).Idx → EReal) (r : Fin n) (q : Fin d) (hb0 : b (ix2 (0 : Fin 1) q) = 0) :
    lin3 x0 x1 x2 w0 w1 w2 b r q = ∑ j : Fin m, X (ix2 r j) * W (ix2 j q) := by
  rw [lin3_eq_sum_add_bias hm x0 x1 x2 w0 w1 w2 X W hX0 hX1 hX2 hW0 hW1 hW2 b r q, hb0, add_zero]

/-- Three arrays of `k` columns side by side: column `j` of the result is column `j` of the first while `j < k`,
    column `j - k` of the second while `k ≤ j < k + k`, and column `j - (k + k)` of the third from `k + k` on. -/
def concat3 (hm : m = k + k + k) (x0 x1 x2 : (⟨2, ![n, k]⟩ : Shape).Idx → EReal) :
    (⟨2, ![n, m]⟩ : Shape).Idx → EReal := fun i =>
  if h0 : (i 1).val < k then x0 (ix2 (i 0 : Fin n) ⟨(i 1).val, h0⟩)
  else if h1 : (i 1).val < k + k then x1 (ix2 (i 0 : Fin n) ⟨(i 1).val - k, by omega⟩)
  else x2 (ix2 (i 0 : Fin n) ⟨(i 1).val - (k + k), by have := idx2_lt1 i; omega⟩)

/-- The first run of columns of the side-by-side array. -/
theorem concat3_fst (hm : m = k + k + k) (x0 x1 x2 : (⟨2, ![n, k]⟩ : Shape).Idx → EReal) (r : Fin n) (j : Fin k) :
    concat3 hm x0 x1 x2 (ix2 r ⟨j.val, by have := j.isLt; omega⟩) = x0 (ix2 r j) := by
  unfold concat3
  exact dif_pos j.isLt

/-- The second run of columns of the side-by-side array. -/
theorem concat3_snd (hm : m = k + k + k) (x0 x1 x2 : (⟨2, ![n, k]⟩ : Shape).Idx → EReal) (r : Fin n) (j : Fin k) :
    concat3 hm x0 x1 x2 (ix2 r ⟨k + j.val, by have := j.isLt; omega⟩) = x1 (ix2 r j) := by
  have hj := j.isLt
  have e : ∀ h : k + j.val - k < k, (⟨k + j.val - k, h⟩ : Fin k) = j :=
    fun _ => Fin.ext (Nat.add_sub_cancel_left k j.val)
  unfold concat3
  refine (dif_neg (show ¬ k + j.val < k by omega)).trans ((dif_pos (show k + j.val < k + k by omega)).trans ?_)
  exact congrArg (fun t : Fin k => x1 (ix2 r t)) (e _)

/-- The third run of columns of the side-by-side array. -/
theorem concat3_trd (hm : m = k + k + k) (x0 x1 x2 : (⟨2, ![n, k]⟩ : Shape).Idx → EReal) (r : Fin n) (j : Fin k) :
    concat3 hm x0 x1 x2 (ix2 r ⟨k + k + j.val, by have := j.isLt; omega⟩) = x2 (ix2 r j) := by
  have hj := j.isLt
  have e : ∀ h : k + k + j.val - (k + k) < k, (⟨k + k + j.val - (k + k), h⟩ : Fin k) = j :=
    fun _ => Fin.ext (Nat.add_sub_cancel_left (k + k) j.val)
  unfold concat3
  refine (dif_neg (show ¬ k + k + j.val < k by omega)).trans ((dif_neg (show ¬ k + k + j.val < k + k by omega)).trans ?_)
  exact congrArg (fun t : Fin k => x2 (ix2 r t)) (e _)

/-- The three-hop projection with its weight matrices cut out of one matrix `W` of `k + k + k` rows is the linear
    stage of the side-by-side array with `W`. -/
theorem lin3_slices_eq_lin_concat3 (hm : m = k + k + k) (x0 x1 x2 : (⟨2, ![n, k]⟩ : Shape).Idx → EReal)
    (W : (⟨2, ![m, d]⟩ : Shape).Idx → EReal) (b : (⟨2, ![1, d]⟩ : Shape).Idx → EReal) (r : Fin n) (q : Fin d) :
    lin3 x0 x1 x2
        (fun i : (⟨2, ![k, d]⟩ : Shape).Idx => W (ix2 ⟨(i 0).val, by have := idx2_lt0 i; omega⟩ (i 1 : Fin d)))
        (fun i : (⟨2, ![k, d]⟩ : Shape).Idx => W (ix2 ⟨k + (i 0).val, by have := idx2_lt0 i; omega⟩ (i 1 : Fin d)))
        (fun i : (⟨2, ![k, d]⟩ : Shape).Idx => W (ix2 ⟨k + k + (i 0).val, by have := idx2_lt0 i; omega⟩ (i 1 : Fin d)))
        b r q
      = lin (concat3 hm x0 x1 x2) W b r q :=
  lin3_eq_lin_of_slices hm x0 x1 x2 _ _ _ (concat3 hm x0 x1 x2) W
    (concat3_fst hm x0 x1 x2) (concat3_snd hm x0 x1 x2) (concat3_trd hm x0 x1 x2)
    (fun _ _ => rfl) (fun _ _ => rfl) (fun _ _ => rfl) b r q

end Concat

end Cert.StageReal

end
-- ==== Proof.PreReal.lean ====
/-
  Finiteness of the float inputs, read back at the ideal instance.

  For each float argument `x` the precondition evaluates the conjunction, over all entries, of
  `|x i| < +∞`, and joins the twenty results by `and`. At the ideal instance a float is an extended
  real and `|x| = max x (-x)`; this is below `⊤` exactly when `x` is neither `⊥` nor `⊤`, that is, when
  `x` is the coercion of a real number. So under the precondition every entry of every float
  argument is a real number.
-/
import proofs.«414479_j7705171329025_1_alg».proof.Defs
import Idealize.ShloMosaic.Lib.ReduceAll
import Idealize.ShloMosaic.Lib.ValueIdx
import Idealize.ShloMosaic.PureOps.Ideal

noncomputable section

namespace Cert.PreReal

open Idealize.ShloMosaic Idealize.SL.Sem

/-- The scalar shape has exactly one index. -/
instance : Subsingleton Cert.Pre_finite_inputs.S_.Idx := ⟨fun a b => funext fun d => d.elim0⟩

/-- The binary32 pattern `0x7F800000` denotes `+∞`. -/
theorem inf_eq_top : Ideal.ofBits .f32 0x7F800000#32 = (⊤ : EReal) := by
  simp [Ideal.ofBits, Ideal.ieee]

/-- An extended real whose absolute value `max x (-x)` compares strictly below `+∞` is a real number:
    at `⊥` and at `⊤` the absolute value is `⊤`. -/
theorem real_of_abs_lt_inf (x : EReal)
    (h : Ideal.cmp .olt (max x (-x)) (Ideal.ofBits .f32 0x7F800000#32) = 1#1) :
    ∃ r : ℝ, x = (r : EReal) := by
  rw [inf_eq_top] at h
  have hlt : max x (-x) < ⊤ := by
    by_contra hn
    simp [Ideal.cmp, hn] at h
  induction x using EReal.rec with
  | bot => simp at hlt
  | coe r => exact ⟨r, rfl⟩
  | top => simp at hlt

/-- At any shape: if the conjunction, over all entries of `x`, of `|x i| < +∞` is one, then every entry
    of `x` is a real number. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi
          (cmpf .olt (Host.absf x)
            (broadcastInDim s ![] hb (constant Cert.Pre_finite_inputs.S_ .f32 0x7F800000#32)))
          (constantI Cert.Pre_finite_inputs.S_ 1 1#1) hr hu ValueIdx.ix0 = 1#1)
    (i : s.Idx) : ∃ r : ℝ, x i = (r : EReal) :=
  real_of_abs_lt_inf (x i) (Host.reduce_andi_all _ _ hr hu ValueIdx.ix0 e i)

set_option quotPrecheck false in
/-- The array that the argument `r` of the program holds on device `c` in the memory `m`, read at the
    shape `s`, has only real entries. (A notation: the statements below are these plain propositions.) -/
local notation "RealEntries[" m ", " c ", " r ", " s "]" =>
  ∀ i : Shape.Idx s, ∃ x : ℝ,
    (m ((Dev.tc c : Thread Cert.KernelIdeal.nD Cert.KernelIdeal.τ).loc r) : FVec Ideal s .f32) i = (x : EReal)

/-- Under the precondition, on every device, every entry of every float argument is a real number:
    one conjunct per float argument, in argument order (arguments 1, 2 and 3 are integer arrays). -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    RealEntries[m, c, KernelIdeal.main_arg0, KernelIdeal.S100000x64]
    ∧ RealEntries[m, c, KernelIdeal.main_arg4, KernelIdeal.S64x128]
    ∧ RealEntries[m, c, KernelIdeal.main_arg5, KernelIdeal.S128]
    ∧ RealEntries[m, c, KernelIdeal.main_arg6, KernelIdeal.S128]
    ∧ RealEntries[m, c, KernelIdeal.main_arg7, KernelIdeal.S128]
    ∧ RealEntries[m, c, KernelIdeal.main_arg8, KernelIdeal.S3x128x128]
    ∧ RealEntries[m, c, KernelIdeal.main_arg9, KernelIdeal.S3x128]
    ∧ RealEntries[m, c, KernelIdeal.main_arg10, KernelIdeal.S3x128]
    ∧ RealEntries[m, c, KernelIdeal.main_arg11, KernelIdeal.S3x128]
    ∧ RealEntries[m, c, KernelIdeal.main_arg12, KernelIdeal.S384x128]
    ∧ RealEntries[m, c, KernelIdeal.main_arg13, KernelIdeal.S128]
    ∧ RealEntries[m, c, KernelIdeal.main_arg14, KernelIdeal.S128]
    ∧ RealEntries[m, c, KernelIdeal.main_arg15, KernelIdeal.S128x128]
    ∧ RealEntries[m, c, KernelIdeal.main_arg16, KernelIdeal.S128]
    ∧ RealEntries[m, c, KernelIdeal.main_arg17, KernelIdeal.S128]
    ∧ RealEntries[m, c, KernelIdeal.main_arg18, KernelIdeal.S128]
    ∧ RealEntries[m, c, KernelIdeal.main_arg19, KernelIdeal.S128x5]
    ∧ RealEntries[m, c, KernelIdeal.main_arg20, KernelIdeal.S5]
    ∧ RealEntries[m, c, KernelIdeal.main_arg21, KernelIdeal.S5]
    ∧ RealEntries[m, c, KernelIdeal.main_arg22, KernelIdeal.S5] := by
  -- the predicate's one entry is one; it is the `and` of the twenty conjunctions, nested to the left
  have h0 := congrFun (h c) ValueIdx.ix0
  simp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Idealize.ShloMosaic.andi, IntOp.andi_eq_one] at h0
  obtain ⟨⟨⟨⟨⟨⟨⟨⟨⟨⟨⟨⟨⟨⟨⟨⟨⟨⟨⟨e0, e4⟩, e5⟩, e6⟩, e7⟩, e8⟩, e9⟩, e10⟩, e11⟩, e12⟩, e13⟩, e14⟩, e15⟩, e16⟩, e17⟩,
    e18⟩, e19⟩, e20⟩, e21⟩, e22⟩ := h0
  exact ⟨real_of_all _ _ _ _ e0, real_of_all _ _ _ _ e4, real_of_all _ _ _ _ e5, real_of_all _ _ _ _ e6,
    real_of_all _ _ _ _ e7, real_of_all _ _ _ _ e8, real_of_all _ _ _ _ e9, real_of_all _ _ _ _ e10,
    real_of_all _ _ _ _ e11, real_of_all _ _ _ _ e12, real_of_all _ _ _ _ e13, real_of_all _ _ _ _ e14,
    real_of_all _ _ _ _ e15, real_of_all _ _ _ _ e16, real_of_all _ _ _ _ e17, real_of_all _ _ _ _ e18,
    real_of_all _ _ _ _ e19, real_of_all _ _ _ _ e20, real_of_all _ _ _ _ e21, real_of_all _ _ _ _ e22⟩

/-! The twenty conjuncts, one theorem each. -/

section Each
variable [Cert.Pre_finite_inputs.Facts]
  (m : (ℓ : Loc Cert.KernelIdeal.nD Cert.KernelIdeal.τ Cert.KernelIdeal.sig) → Buf (Elt Ideal) ℓ)
  (h : Cert.Pre_KernelIdeal m) (c : Dev Cert.KernelIdeal.nD)
include h

theorem real_arg0 : RealEntries[m, c, KernelIdeal.main_arg0, KernelIdeal.S100000x64] :=
  (real_of_pre m h c).1
theorem real_arg4 : RealEntries[m, c, KernelIdeal.main_arg4, KernelIdeal.S64x128] :=
  (real_of_pre m h c).2.1
theorem real_arg5 : RealEntries[m, c, KernelIdeal.main_arg5, KernelIdeal.S128] :=
  (real_of_pre m h c).2.2.1
theorem real_arg6 : RealEntries[m, c, KernelIdeal.main_arg6, KernelIdeal.S128] :=
  (real_of_pre m h c).2.2.2.1
theorem real_arg7 : RealEntries[m, c, KernelIdeal.main_arg7, KernelIdeal.S128] :=
  (real_of_pre m h c).2.2.2.2.1
theorem real_arg8 : RealEntries[m, c, KernelIdeal.main_arg8, KernelIdeal.S3x128x128] :=
  (real_of_pre m h c).2.2.2.2.2.1
theorem real_arg9 : RealEntries[m, c, KernelIdeal.main_arg9, KernelIdeal.S3x128] :=
  (real_of_pre m h c).2.2.2.2.2.2.1
theorem real_arg10 : RealEntries[m, c, KernelIdeal.main_arg10, KernelIdeal.S3x128] :=
  (real_of_pre m h c).2.2.2.2.2.2.2.1
theorem real_arg11 : RealEntries[m, c, KernelIdeal.main_arg11, KernelIdeal.S3x128] :=
  (real_of_pre m h c).2.2.2.2.2.2.2.2.1
theorem real_arg12 : RealEntries[m, c, KernelIdeal.main_arg12, KernelIdeal.S384x128] :=
  (real_of_pre m h c).2.2.2.2.2.2.2.2.2.1
theorem real_arg13 : RealEntries[m, c, KernelIdeal.main_arg13, KernelIdeal.S128] :=
  (real_of_pre m h c).2.2.2.2.2.2.2.2.2.2.1
theorem real_arg14 : RealEntries[m, c, KernelIdeal.main_arg14, KernelIdeal.S128] :=
  (real_of_pre m h c).2.2.2.2.2.2.2.2.2.2.2.1
theorem real_arg15 : RealEntries[m, c, KernelIdeal.main_arg15, KernelIdeal.S128x128] :=
  (real_of_pre m h c).2.2.2.2.2.2.2.2.2.2.2.2.1
theorem real_arg16 : RealEntries[m, c, KernelIdeal.main_arg16, KernelIdeal.S128] :=
  (real_of_pre m h c).2.2.2.2.2.2.2.2.2.2.2.2.2.1
theorem real_arg17 : RealEntries[m, c, KernelIdeal.main_arg17, KernelIdeal.S128] :=
  (real_of_pre m h c).2.2.2.2.2.2.2.2.2.2.2.2.2.2.1
theorem real_arg18 : RealEntries[m, c, KernelIdeal.main_arg18, KernelIdeal.S128] :=
  (real_of_pre m h c).2.2.2.2.2.2.2.2.2.2.2.2.2.2.2.1
theorem real_arg19 : RealEntries[m, c, KernelIdeal.main_arg19, KernelIdeal.S128x5] :=
  (real_of_pre m h c).2.2.2.2.2.2.2.2.2.2.2.2.2.2.2.2.1
theorem real_arg20 : RealEntries[m, c, KernelIdeal.main_arg20, KernelIdeal.S5] :=
  (real_of_pre m h c).2.2.2.2.2.2.2.2.2.2.2.2.2.2.2.2.2.1
theorem real_arg21 : RealEntries[m, c, KernelIdeal.main_arg21, KernelIdeal.S5] :=
  (real_of_pre m h c).2.2.2.2.2.2.2.2.2.2.2.2.2.2.2.2.2.2.1
theorem real_arg22 : RealEntries[m, c, KernelIdeal.main_arg22, KernelIdeal.S5] :=
  (real_of_pre m h c).2.2.2.2.2.2.2.2.2.2.2.2.2.2.2.2.2.2.2

end Each

end Cert.PreReal
-- ==== Proof.KernelChain0.lean ====
/-
  Stage 0 of the chain, the kernel's half: the embedding. The array the second region leaves is, entry by entry, the
  batch normalisation of the linear stage's output, clipped at zero, with everything named over the launch memory:
  the node features, the weight matrix, the bias laid out as a row, the scale and the shift. The first region leaves
  the linear stage's output and its column sums and column sums of squares; the host operations between the regions
  divide those by the row count and form the variance as the mean of squares less the squared mean, and lay the
  scale and the shift out as rows; the second region normalises with those rows. Here the steps are joined.
-/
import proofs.«414479_j7705171329025_1_alg».proof.Proof.ValSingle0
import proofs.«414479_j7705171329025_1_alg».proof.Proof.ValNormRelu1
import proofs.«414479_j7705171329025_1_alg».proof.Proof.HostLin0
import proofs.«414479_j7705171329025_1_alg».proof.Proof.HostStats1
import proofs.«414479_j7705171329025_1_alg».proof.Proof.StageReal
import proofs.«414479_j7705171329025_1_alg».proof.Proof.PreReal
import proofs.«414479_j7705171329025_1_alg».proof.Proof.FrameKI.Run
import Idealize.ShloMosaic.Lib.IdealHost
import Idealize.ShloMosaic.Lib.ValueLayout

set_option maxRecDepth 16384

noncomputable section

namespace Cert.KernelChain0

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (ρ : Dev nD → PrngReg)

/-! ## The launch memory's arrays, each at its literal type -/

/-- The node features. -/
abbrev X (c : Dev nD) : Vec Ideal S100000x64 .f32 := m ((c : Thread nD τ).loc main_arg0)
/-- The embedding's weight matrix. -/
abbrev Wt (c : Dev nD) : Vec Ideal S64x128 .f32 := m ((c : Thread nD τ).loc main_arg4)
/-- The embedding's bias, as given: 128 entries. -/
abbrev Bflat (c : Dev nD) : Vec Ideal S128 .f32 := m ((c : Thread nD τ).loc main_arg5)
/-- The bias laid out as a row. -/
abbrev B (c : Dev nD) : Vec Ideal S1x128 .f32 := shapeCast S1x128 (Bflat m c) shapeCasts_S128_S1x128
/-- The batch norm's scale, as given: 128 entries. -/
abbrev g (c : Dev nD) : Vec Ideal S128 .f32 := m ((c : Thread nD τ).loc main_arg6)
/-- The batch norm's shift, as given: 128 entries. -/
abbrev β (c : Dev nD) : Vec Ideal S128 .f32 := m ((c : Thread nD τ).loc main_arg7)

/-- The linear stage's output, entry by entry. -/
def y (c : Dev nD) (r : Fin 100000) (q : Fin 128) : EReal := StageSpec.lin (X m c) (Wt m c) (B m c) r q

/-- The row count, as the word the host operations divide by. -/
abbrev nRows : EReal := Ideal.ofBits .f32 0x47C35000#32

/-! ## For the join with the reference's half -/

/-- The bias row's entry in column q is the bias's entry q, whatever the unit coordinate. -/
theorem B_apply (c : Dev nD) (u : Fin 1) (q : Fin 128) : B m c (ix2 u q) = Bflat m c (ix1 q) :=
  shapeCast_a_1a_apply (Bflat m c) shapeCasts_S128_S1x128 u q

/-- The linear stage's entry written out over the launch memory: row r of the features against column q of the
    weights, plus the bias's entry q. -/
theorem y_eq_sum (c : Dev nD) (r : Fin 100000) (q : Fin 128) :
    y m c r q = (∑ j : Fin 64, X m c (ix2 r j) * Wt m c (ix2 j q)) + Bflat m c (ix1 q) := by
  unfold y StageSpec.lin
  rw [B_apply m c (0 : Fin 1) q]

/-- Under the precondition every entry of the linear stage's output is a real number: the features, the weights and
    the bias are. -/
theorem y_isReal [Cert.Pre_finite_inputs.Facts] (h : Cert.Pre_KernelIdeal m) (c : Dev nD) (r : Fin 100000) (q : Fin 128) :
    Cert.RealSpec.IsReal (y m c r q) :=
  StageReal.lin_isReal (X m c) (Wt m c) (B m c) (Cert.PreReal.real_arg0 m h c) (Cert.PreReal.real_arg4 m h c)
    (fun i => by
      obtain ⟨u, q', rfl⟩ : ∃ (u : Fin 1) (q' : Fin 128), i = ix2 u q' := ⟨i 0, i 1, eq_ix2 i⟩
      rw [B_apply m c u q']
      exact Cert.PreReal.real_arg5 m h c (ix1 q')) r q

/-- Under the precondition every entry of the scale is a real number. -/
theorem g_isReal [Cert.Pre_finite_inputs.Facts] (h : Cert.Pre_KernelIdeal m) (c : Dev nD) (q : Fin 128) :
    Cert.RealSpec.IsReal (g m c (ix1 q)) :=
  Cert.PreReal.real_arg6 m h c (ix1 q)

/-- And every entry of the shift. -/
theorem β_isReal [Cert.Pre_finite_inputs.Facts] (h : Cert.Pre_KernelIdeal m) (c : Dev nD) (q : Fin 128) :
    Cert.RealSpec.IsReal (β m c (ix1 q)) :=
  Cert.PreReal.real_arg7 m h c (ix1 q)

/-! ## The first region's inputs are the launch memory's -/

/-- The host operation before the first region does not write the node features. -/
theorem x_eq (c : Dev nD) : ValSingle0.xArr (V1 m ρ) c = X m c :=
  (HostLin0.read_keep (W0 m ρ c)).trans rfl

/-- Nor the weight matrix. -/
theorem w_eq (c : Dev nD) : ValSingle0.wArr (V1 m ρ) c = Wt m c :=
  (HostLin0.read_keep_w (W0 m ρ c)).trans rfl

/-- It lays the bias out as the row the region takes. -/
theorem b_eq (c : Dev nD) : ValSingle0.bRow (V1 m ρ) c = B m c :=
  (HostLin0.read_b (W0 m ρ c)).trans rfl

/-- So the first region's linear stage is the launch memory's. -/
theorem y_eq (c : Dev nD) : ValSingle0.y (V1 m ρ) c = y m c := by
  funext r q
  unfold ValSingle0.y y
  rw [x_eq m ρ c, w_eq m ρ c, b_eq m ρ c]

/-! ## The second region's five arrays, from the first region's three -/

/-- The column sums, as the first region leaves them. -/
theorem sum_eq (c : Dev nD) :
    (W2 m ρ c (Proc.devRef .tc main_v1_1) : Vec Ideal S1x128 .f32) = ValSingle0.resultSum (V1 m ρ) c :=
  (W2_arr m ρ c 4).trans (ValSingle0.arrAt_sum (V1 m ρ) c)

/-- The column sums of squares, as the first region leaves them. -/
theorem sumsq_eq (c : Dev nD) :
    (W2 m ρ c (Proc.devRef .tc main_v1_2) : Vec Ideal S1x128 .f32) = ValSingle0.resultSumSq (V1 m ρ) c :=
  (W2_arr m ρ c 5).trans (ValSingle0.arrAt_sumsq (V1 m ρ) c)

/-- The scale is still the launch memory's after the first region: no window of the region is its array, and the host
    operation before the region does not write it. -/
theorem g_eq (c : Dev nD) : (W2 m ρ c (Proc.devRef .tc main_arg6) : Vec Ideal S128 .f32) = g m c :=
  ((W2_of_ne m ρ c main_arg6 (by decide)).trans (HostLin0.keep (W0 m ρ c) (by decide))).trans rfl

/-- And so is the shift. -/
theorem beta_eq (c : Dev nD) : (W2 m ρ c (Proc.devRef .tc main_arg7) : Vec Ideal S128 .f32) = β m c :=
  ((W2_of_ne m ρ c main_arg7 (by decide)).trans (HostLin0.keep (W0 m ρ c) (by decide))).trans rfl

/-- The tall array the second region normalises is the first region's output: the host operations between the two
    do not write it. -/
theorem yArr_eq (c : Dev nD) : ValNorm1.yArr (V3 m ρ) c = ValSingle0.resultY (V1 m ρ) c :=
  ((HostStats1.read_y (W2 m ρ c)).trans (W2_arr m ρ c 3)).trans (ValSingle0.arrAt_y (V1 m ρ) c)

/-- The mean row: the column sums over the row count. -/
theorem meanRow_eq (c : Dev nD) :
    ValNorm1.meanRow (V3 m ρ) c = Host.divf (F := Ideal) (φ := .f32) (ValSingle0.resultSum (V1 m ρ) c) (HostStats1.nRow (F := Ideal)) := by
  refine (HostStats1.read_mean (W2 m ρ c)).trans ?_
  rw [sum_eq m ρ c]

/-- The variance row: the mean of squares less the squared mean. -/
theorem varRow_eq (c : Dev nD) :
    ValNorm1.varRow (V3 m ρ) c
      = subf (F := Ideal) (φ := .f32) (Host.divf (F := Ideal) (φ := .f32) (ValSingle0.resultSumSq (V1 m ρ) c) (HostStats1.nRow (F := Ideal)))
          (mulf (F := Ideal) (φ := .f32) (Host.divf (F := Ideal) (φ := .f32) (ValSingle0.resultSum (V1 m ρ) c) (HostStats1.nRow (F := Ideal)))
            (Host.divf (F := Ideal) (φ := .f32) (ValSingle0.resultSum (V1 m ρ) c) (HostStats1.nRow (F := Ideal)))) := by
  refine (HostStats1.read_var (W2 m ρ c)).trans ?_
  rw [sum_eq m ρ c, sumsq_eq m ρ c]

/-- The scale row: the scale laid out as a row. -/
theorem gRow_eq (c : Dev nD) : ValNorm1.gRow (V3 m ρ) c = shapeCast S1x128 (g m c) shapeCasts_S128_S1x128 := by
  refine (HostStats1.read_g (W2 m ρ c)).trans ?_
  rw [g_eq m ρ c]

/-- The shift row: the shift laid out as a row. -/
theorem betaRow_eq (c : Dev nD) : ValNorm1.betaRow (V3 m ρ) c = shapeCast S1x128 (β m c) shapeCasts_S128_S1x128 := by
  refine (HostStats1.read_beta (W2 m ρ c)).trans ?_
  rw [beta_eq m ρ c]

/-! ## The five arrays read at an entry -/

/-- The divisor row holds the row count in every column. -/
theorem nRow_apply (j : S1x128.Idx) : HostStats1.nRow (F := Ideal) j = nRows := by
  unfold HostStats1.nRow
  exact (broadcastInDim_scalar_apply bcast_S_S1x128 (constant (F := Ideal) S_ .f32 0x47C35000#32) j).trans rfl

/-- The tall array at row r, column q is the linear stage's entry. -/
theorem yArr_apply (c : Dev nD) (r : Fin 100000) (q : Fin 128) :
    ValNorm1.yArr (V3 m ρ) c (ix2 r q) = ValSingle0.y (V1 m ρ) c r q :=
  (congrFun (yArr_eq m ρ c) (ix2 r q)).trans rfl

/-- The mean row at column q is the column mean of the linear stage's output. -/
theorem mean_apply (c : Dev nD) (q : Fin 128) :
    ValNorm1.meanRow (V3 m ρ) c (ix2 (0 : Fin 1) q) = StageReal.colMean (ValSingle0.y (V1 m ρ) c) nRows q := by
  refine (congrFun (meanRow_eq m ρ c) (ix2 (0 : Fin 1) q)).trans ?_
  show Ideal.div (ValSingle0.resultSum (V1 m ρ) c (ix2 (0 : Fin 1) q)) (HostStats1.nRow (F := Ideal) (ix2 (0 : Fin 1) q)) = _
  rw [nRow_apply]
  rfl

/-- The variance row at column q is the mean of squares less the squared mean of that column. -/
theorem var_apply (c : Dev nD) (q : Fin 128) :
    ValNorm1.varRow (V3 m ρ) c (ix2 (0 : Fin 1) q) = StageReal.varSumSq (ValSingle0.y (V1 m ρ) c) nRows q := by
  refine (congrFun (varRow_eq m ρ c) (ix2 (0 : Fin 1) q)).trans ?_
  show Ideal.div (ValSingle0.resultSumSq (V1 m ρ) c (ix2 (0 : Fin 1) q)) (HostStats1.nRow (F := Ideal) (ix2 (0 : Fin 1) q))
      - Ideal.div (ValSingle0.resultSum (V1 m ρ) c (ix2 (0 : Fin 1) q)) (HostStats1.nRow (F := Ideal) (ix2 (0 : Fin 1) q))
        * Ideal.div (ValSingle0.resultSum (V1 m ρ) c (ix2 (0 : Fin 1) q)) (HostStats1.nRow (F := Ideal) (ix2 (0 : Fin 1) q)) = _
  rw [nRow_apply]
  rfl

/-- The scale row at column q is the scale's entry q. -/
theorem g_apply (c : Dev nD) (q : Fin 128) : ValNorm1.gRow (V3 m ρ) c (ix2 (0 : Fin 1) q) = g m c (ix1 q) :=
  (congrFun (gRow_eq m ρ c) (ix2 (0 : Fin 1) q)).trans
    (shapeCast_a_1a_apply (g m c) shapeCasts_S128_S1x128 (0 : Fin 1) q)

/-- The shift row at column q is the shift's entry q. -/
theorem beta_apply (c : Dev nD) (q : Fin 128) : ValNorm1.betaRow (V3 m ρ) c (ix2 (0 : Fin 1) q) = β m c (ix1 q) :=
  (congrFun (betaRow_eq m ρ c) (ix2 (0 : Fin 1) q)).trans
    (shapeCast_a_1a_apply (β m c) shapeCasts_S128_S1x128 (0 : Fin 1) q)

/-! ## The embedding's output -/

/-- What the second region leaves in its output array is what it computes from its five arrays. -/
theorem out_eq (c : Dev nD) :
    (W4 (F := Ideal) m ρ c (Proc.devRef .tc main_v10) : Vec Ideal S100000x128 .f32) = ValNorm1.result (V3 m ρ) c :=
  (W4_arr m ρ c 5).trans (ValNorm1.arrAt_out (V3 m ρ) c)

/-- THE KERNEL'S EMBEDDING OUTPUT, entry by entry, over the launch memory: the batch normalisation of the linear
    stage's output with the statistics in the kernel's form, clipped at zero. -/
theorem kernel_out_apply (c : Dev nD) (r : Fin 100000) (q : Fin 128) :
    (W4 (F := Ideal) m ρ c (Proc.devRef .tc main_v10) : Vec Ideal S100000x128 .f32) (ix2 r q)
      = max (StageSpec.norm (y m c r q) (StageReal.colMean (y m c) nRows q) (StageReal.varSumSq (y m c) nRows q)
          (g m c (ix1 q)) (β m c (ix1 q))) 0 := by
  refine (congrFun (out_eq m ρ c) (ix2 r q)).trans ?_
  show max (StageSpec.norm (ValNorm1.yArr (V3 m ρ) c (ix2 r q)) (ValNorm1.meanRow (V3 m ρ) c (ix2 (0 : Fin 1) q))
      (ValNorm1.varRow (V3 m ρ) c (ix2 (0 : Fin 1) q)) (ValNorm1.gRow (V3 m ρ) c (ix2 (0 : Fin 1) q))
      (ValNorm1.betaRow (V3 m ρ) c (ix2 (0 : Fin 1) q))) 0 = _
  rw [yArr_apply m ρ c r q, mean_apply m ρ c q, var_apply m ρ c q, g_apply m ρ c q, beta_apply m ρ c q, y_eq m ρ c]

end Cert.KernelChain0

end
-- ==== Proof.RefIndex.lean ====
/- Laid out by: python3 scratch/mk_refindex.py proof/Proof/RefIndex.lean   (run from the unit's directory). The section on the
   statistics is ONE text, laid out for the 128-column arrays and again for the 5-column ones; the four lemmas on a
   dimension record's coordinates are ONE text, laid out for each of the four records. Everything else is as written.

  The reference's recurring terms read at one entry, on the extended reals.

  At the ideal values an array is a function from its indices to the extended reals, and each word of the shared
  vocabulary reads, at row r and column q: a vector laid over the rows, its entry q; a column sum, the sum over the
  rows of the entries of column q (it starts from the zero word, the number zero); the column mean, that sum over the
  number 100000; the column variance with correction zero, the mean of the squared deviations from the mean (the guard
  100000 − 0 > 0 holds, so the select keeps the quotient); the standardised, affine and normalised entries, the
  entrywise formulas; the positive part, the greater of the entry and zero; and a product with a weight matrix, the sum
  over the inner positions of the products, for each of the four dimension records the program uses. The same for the
  five-column stage.
-/
import proofs.«414479_j7705171329025_1_alg».proof.Proof.RefTerms
import proofs.«414479_j7705171329025_1_alg».proof.Proof.StageSpec
import proofs.«414479_j7705171329025_1_alg».proof.Proof.StageReal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.ReferenceIdeal.RefIndex

open Cert.ReferenceIdeal Cert.ReferenceIdeal.Gen Idealize.ShloMosaic Idealize.ShloMosaic.ValueIdx
open scoped BigOperators

/-! ## Arrays of 128 columns -/

/-- A vector laid over the rows reads, in every row, its own entry of that column. -/
theorem rows_apply (v : (⟨S128, .f32⟩ : BufTy).Contents (Elt Ideal)) (r : Fin 100000) (q : Fin 128) :
    RefTerms.rows v (ix2 r q) = v (ix1 q) :=
  (broadcastInDim_apply _ _ _ (ix2 r q) (ix2 (0 : Fin 1) q) (fun a => by match a with | ⟨0, _⟩ => rfl | ⟨1, _⟩ => rfl)).trans
    (broadcastInDim_apply _ _ _ (ix2 (0 : Fin 1) q) (ix1 q) (fun a => by match a with | ⟨0, _⟩ => rfl))

/-- A column sum is the sum over the 100000 rows of that column's entries (the sum starts from the zero word, which
    is the number zero). -/
theorem colSum_apply (y : (⟨S100000x128, .f32⟩ : BufTy).Contents (Elt Ideal)) (q : Fin 128) :
    RefTerms.colSum y (ix1 q) = ∑ r : Fin 100000, y (ix2 r q) := by
  have h : S100000x128.Reduces [0] S128 := by decide
  have hz : (RefTerms.zero (F := Ideal)) (Shape.Idx.first h_S_) = 0 := Ideal.ofBits_zero_f32
  refine (Ideal.hostReduceAdd_single reducesTo_S100000x128_S128_d0 h y _ (ix1 q)).trans ?_
  refine (congrArg (· + _) hz).trans ((zero_add _).trans ?_)
  show ∑ p : Fin 100000, y (h.lift (ix1 q) p) = ∑ p : Fin 100000, y (ix2 p q)
  refine Finset.sum_congr rfl fun p _ => congrArg y (funext fun ax => Fin.ext ?_)
  match ax with
  | ⟨0, _⟩ => rfl
  | ⟨1, _⟩ => rfl

/-- The column mean is the column sum over the number 100000, in the form the statistics' laws are stated in. -/
theorem colMean_apply (y : (⟨S100000x128, .f32⟩ : BufTy).Contents (Elt Ideal)) (q : Fin 128) :
    RefTerms.colMean y (ix1 q)
      = StageReal.colMean (fun (r : Fin 100000) (q : Fin 128) => y (ix2 r q)) (Ideal.ofBits .f32 0x47C35000#32) q := by
  show Ideal.div (RefTerms.colSum y (ix1 q)) (broadcastInDim S128 ![] bcast_S_S128 (RefTerms.count (F := Ideal)) (ix1 q)) = _
  rw [colSum_apply, broadcastInDim_scalar_apply]
  rfl

/-- The deviations the variance squares: the entry less the column mean. The mean is formed there as a row (the
    column sums laid out as a row, over the row count as a row) and repeated down the rows; entry by entry it is the
    same quotient. -/
theorem dev_apply (y : (⟨S100000x128, .f32⟩ : BufTy).Contents (Elt Ideal)) (r : Fin 100000) (q : Fin 128) :
    RefTerms.dev y (ix2 r q)
      = y (ix2 r q) - StageReal.colMean (fun (r : Fin 100000) (q : Fin 128) => y (ix2 r q)) (Ideal.ofBits .f32 0x47C35000#32) q := by
  refine congrArg (y (ix2 r q) - ·) ?_
  refine (broadcastInDim_apply _ _ _ (ix2 r q) (ix2 (0 : Fin 1) q) (fun a => by match a with | ⟨0, _⟩ => rfl | ⟨1, _⟩ => rfl)).trans ?_
  show Ideal.div (broadcastInDim S1x128 ![1] bcast_S128_S1x128_1 (RefTerms.colSum y) (ix2 (0 : Fin 1) q))
      (broadcastInDim S1x128 ![] bcast_S_S1x128 (RefTerms.count (F := Ideal)) (ix2 (0 : Fin 1) q)) = _
  rw [broadcastInDim_apply _ _ _ (ix2 (0 : Fin 1) q) (ix1 q) (fun a => by match a with | ⟨0, _⟩ => rfl),
    broadcastInDim_scalar_apply, colSum_apply]
  rfl

/-- THE COLUMN VARIANCE with correction zero is the mean of the squared deviations from the mean: the divisor
    100000 − 0 is 100000, which is positive, so the guard keeps the quotient. -/
theorem colVar_apply (y : (⟨S100000x128, .f32⟩ : BufTy).Contents (Elt Ideal)) (c : (⟨S_, .i32⟩ : BufTy).Contents (Elt Ideal))
    (hc : c ix0 = 0#32) (q : Fin 128) :
    RefTerms.colVar y c (ix1 q)
      = StageReal.varDev (fun (r : Fin 100000) (q : Fin 128) => y (ix2 r q)) (Ideal.ofBits .f32 0x47C35000#32) q := by
  have hd : RefTerms.dof c ix0 = Ideal.ofBits .f32 0x47C35000#32 := by
    show Ideal.ofBits .f32 0x47C35000#32 - ((((c ix0).toInt : ℤ) : ℝ) : EReal) = _
    rw [hc]
    exact BatchStats.sub_toInt_zero _
  have hcond : cmpf .ogt (RefTerms.dof c) (RefTerms.zero (F := Ideal)) ix0 = 1#1 := by
    show Ideal.cmp .ogt (RefTerms.dof c ix0) (Ideal.ofBits .f32 0x00000000#32) = 1#1
    rw [hd, Ideal.ofBits_zero_f32]
    exact BatchStats.cmp_ogt_zero_of_pos BatchStats.ofBits_100000_f32 (by norm_num)
  show Scalar.select (broadcastInDim S128 ![] bcast_S_S128 (cmpf .ogt (RefTerms.dof c) (RefTerms.zero (F := Ideal))) (ix1 q))
      (Ideal.div (RefTerms.colSum (mulf (RefTerms.dev y) (RefTerms.dev y)) (ix1 q))
        (broadcastInDim S128 ![] bcast_S_S128 (RefTerms.dof c) (ix1 q)))
      (broadcastInDim S128 ![] bcast_S_S128 (RefTerms.nan (F := Ideal)) (ix1 q)) = _
  rw [broadcastInDim_scalar_apply, broadcastInDim_scalar_apply, broadcastInDim_scalar_apply]
  rw [hcond, select_one, colSum_apply, hd]
  unfold StageReal.varDev
  refine congrArg (fun s => Ideal.div s (Ideal.ofBits .f32 0x47C35000#32)) (Finset.sum_congr rfl fun r _ => ?_)
  show RefTerms.dev y (ix2 r q) * RefTerms.dev y (ix2 r q) = _
  rw [dev_apply]

/-- The variance at the literal correction the reference passes: the integer zero. -/
theorem colVar_zero_apply (y : (⟨S100000x128, .f32⟩ : BufTy).Contents (Elt Ideal)) (q : Fin 128) :
    RefTerms.colVar y (constantI S_ 32 0#32) (ix1 q)
      = StageReal.varDev (fun (r : Fin 100000) (q : Fin 128) => y (ix2 r q)) (Ideal.ofBits .f32 0x47C35000#32) q :=
  colVar_apply y _ rfl q

/-- The standardised entry: the deviation from μ's entry times the reciprocal root of v's entry plus epsilon. -/
theorem standardise_apply (y : (⟨S100000x128, .f32⟩ : BufTy).Contents (Elt Ideal)) (μ v : (⟨S128, .f32⟩ : BufTy).Contents (Elt Ideal))
    (r : Fin 100000) (q : Fin 128) :
    RefTerms.standardise y μ v (ix2 r q) = (y (ix2 r q) - μ (ix1 q)) * Ideal.rsqrt (v (ix1 q) + StageSpec.eps) := by
  show (y (ix2 r q) - RefTerms.rows μ (ix2 r q))
      * RefTerms.rows (Host.rsqrt (addf v (broadcastInDim S128 ![] bcast_S_S128 (RefTerms.eps (F := Ideal))))) (ix2 r q) = _
  rw [rows_apply, rows_apply]
  show _ * Ideal.rsqrt (v (ix1 q) + broadcastInDim S128 ![] bcast_S_S128 (RefTerms.eps (F := Ideal)) (ix1 q)) = _
  rw [broadcastInDim_scalar_apply]
  rfl

/-- The affine entry: times the scale's entry, plus the shift's. -/
theorem affine_apply (x : (⟨S100000x128, .f32⟩ : BufTy).Contents (Elt Ideal)) (g β : (⟨S128, .f32⟩ : BufTy).Contents (Elt Ideal))
    (r : Fin 100000) (q : Fin 128) :
    RefTerms.affine x g β (ix2 r q) = x (ix2 r q) * g (ix1 q) + β (ix1 q) := by
  show x (ix2 r q) * RefTerms.rows g (ix2 r q) + RefTerms.rows β (ix2 r q) = _
  rw [rows_apply, rows_apply]

/-- THE NORMALISED ENTRY: the affine map of the standardised array is the normalisation of the entry by the
    vectors' entries of its column. -/
theorem norm_apply (y : (⟨S100000x128, .f32⟩ : BufTy).Contents (Elt Ideal)) (μ v g β : (⟨S128, .f32⟩ : BufTy).Contents (Elt Ideal))
    (r : Fin 100000) (q : Fin 128) :
    RefTerms.affine (RefTerms.standardise y μ v) g β (ix2 r q)
      = StageSpec.norm (y (ix2 r q)) (μ (ix1 q)) (v (ix1 q)) (g (ix1 q)) (β (ix1 q)) := by
  rw [affine_apply, standardise_apply]
  rfl

/-- The positive part: the greater of the entry and zero. -/
theorem relu_apply (y : (⟨S100000x128, .f32⟩ : BufTy).Contents (Elt Ideal)) (r : Fin 100000) (q : Fin 128) :
    RefTerms.relu y (ix2 r q) = max (y (ix2 r q)) 0 := by
  show max (y (ix2 r q)) (broadcastInDim S100000x128 ![] bcast_S_S100000x128 (RefTerms.zero (F := Ideal)) (ix2 r q)) = _
  rw [broadcastInDim_scalar_apply]
  exact congrArg (max (y (ix2 r q))) Ideal.ofBits_zero_f32

/-! ## Arrays of 5 columns -/

/-- A vector laid over the rows reads, in every row, its own entry of that column. -/
theorem rows5_apply (v : (⟨S5, .f32⟩ : BufTy).Contents (Elt Ideal)) (r : Fin 100000) (q : Fin 5) :
    RefTerms.rows5 v (ix2 r q) = v (ix1 q) :=
  (broadcastInDim_apply _ _ _ (ix2 r q) (ix2 (0 : Fin 1) q) (fun a => by match a with | ⟨0, _⟩ => rfl | ⟨1, _⟩ => rfl)).trans
    (broadcastInDim_apply _ _ _ (ix2 (0 : Fin 1) q) (ix1 q) (fun a => by match a with | ⟨0, _⟩ => rfl))

/-- A column sum is the sum over the 100000 rows of that column's entries (the sum starts from the zero word, which
    is the number zero). -/
theorem colSum5_apply (y : (⟨S100000x5, .f32⟩ : BufTy).Contents (Elt Ideal)) (q : Fin 5) :
    RefTerms.colSum5 y (ix1 q) = ∑ r : Fin 100000, y (ix2 r q) := by
  have h : S100000x5.Reduces [0] S5 := by decide
  have hz : (RefTerms.zero (F := Ideal)) (Shape.Idx.first h_S_) = 0 := Ideal.ofBits_zero_f32
  refine (Ideal.hostReduceAdd_single reducesTo_S100000x5_S5_d0 h y _ (ix1 q)).trans ?_
  refine (congrArg (· + _) hz).trans ((zero_add _).trans ?_)
  show ∑ p : Fin 100000, y (h.lift (ix1 q) p) = ∑ p : Fin 100000, y (ix2 p q)
  refine Finset.sum_congr rfl fun p _ => congrArg y (funext fun ax => Fin.ext ?_)
  match ax with
  | ⟨0, _⟩ => rfl
  | ⟨1, _⟩ => rfl

/-- The column mean is the column sum over the number 100000, in the form the statistics' laws are stated in. -/
theorem colMean5_apply (y : (⟨S100000x5, .f32⟩ : BufTy).Contents (Elt Ideal)) (q : Fin 5) :
    RefTerms.colMean5 y (ix1 q)
      = StageReal.colMean (fun (r : Fin 100000) (q : Fin 5) => y (ix2 r q)) (Ideal.ofBits .f32 0x47C35000#32) q := by
  show Ideal.div (RefTerms.colSum5 y (ix1 q)) (broadcastInDim S5 ![] bcast_S_S5 (RefTerms.count (F := Ideal)) (ix1 q)) = _
  rw [colSum5_apply, broadcastInDim_scalar_apply]
  rfl

/-- The deviations the variance squares: the entry less the column mean. The mean is formed there as a row (the
    column sums laid out as a row, over the row count as a row) and repeated down the rows; entry by entry it is the
    same quotient. -/
theorem dev5_apply (y : (⟨S100000x5, .f32⟩ : BufTy).Contents (Elt Ideal)) (r : Fin 100000) (q : Fin 5) :
    RefTerms.dev5 y (ix2 r q)
      = y (ix2 r q) - StageReal.colMean (fun (r : Fin 100000) (q : Fin 5) => y (ix2 r q)) (Ideal.ofBits .f32 0x47C35000#32) q := by
  refine congrArg (y (ix2 r q) - ·) ?_
  refine (broadcastInDim_apply _ _ _ (ix2 r q) (ix2 (0 : Fin 1) q) (fun a => by match a with | ⟨0, _⟩ => rfl | ⟨1, _⟩ => rfl)).trans ?_
  show Ideal.div (broadcastInDim S1x5 ![1] bcast_S5_S1x5_1 (RefTerms.colSum5 y) (ix2 (0 : Fin 1) q))
      (broadcastInDim S1x5 ![] bcast_S_S1x5 (RefTerms.count (F := Ideal)) (ix2 (0 : Fin 1) q)) = _
  rw [broadcastInDim_apply _ _ _ (ix2 (0 : Fin 1) q) (ix1 q) (fun a => by match a with | ⟨0, _⟩ => rfl),
    broadcastInDim_scalar_apply, colSum5_apply]
  rfl

/-- THE COLUMN VARIANCE with correction zero is the mean of the squared deviations from the mean: the divisor
    100000 − 0 is 100000, which is positive, so the guard keeps the quotient. -/
theorem colVar5_apply (y : (⟨S100000x5, .f32⟩ : BufTy).Contents (Elt Ideal)) (c : (⟨S_, .i32⟩ : BufTy).Contents (Elt Ideal))
    (hc : c ix0 = 0#32) (q : Fin 5) :
    RefTerms.colVar5 y c (ix1 q)
      = StageReal.varDev (fun (r : Fin 100000) (q : Fin 5) => y (ix2 r q)) (Ideal.ofBits .f32 0x47C35000#32) q := by
  have hd : RefTerms.dof c ix0 = Ideal.ofBits .f32 0x47C35000#32 := by
    show Ideal.ofBits .f32 0x47C35000#32 - ((((c ix0).toInt : ℤ) : ℝ) : EReal) = _
    rw [hc]
    exact BatchStats.sub_toInt_zero _
  have hcond : cmpf .ogt (RefTerms.dof c) (RefTerms.zero (F := Ideal)) ix0 = 1#1 := by
    show Ideal.cmp .ogt (RefTerms.dof c ix0) (Ideal.ofBits .f32 0x00000000#32) = 1#1
    rw [hd, Ideal.ofBits_zero_f32]
    exact BatchStats.cmp_ogt_zero_of_pos BatchStats.ofBits_100000_f32 (by norm_num)
  show Scalar.select (broadcastInDim S5 ![] bcast_S_S5 (cmpf .ogt (RefTerms.dof c) (RefTerms.zero (F := Ideal))) (ix1 q))
      (Ideal.div (RefTerms.colSum5 (mulf (RefTerms.dev5 y) (RefTerms.dev5 y)) (ix1 q))
        (broadcastInDim S5 ![] bcast_S_S5 (RefTerms.dof c) (ix1 q)))
      (broadcastInDim S5 ![] bcast_S_S5 (RefTerms.nan (F := Ideal)) (ix1 q)) = _
  rw [broadcastInDim_scalar_apply, broadcastInDim_scalar_apply, broadcastInDim_scalar_apply]
  rw [hcond, select_one, colSum5_apply, hd]
  unfold StageReal.varDev
  refine congrArg (fun s => Ideal.div s (Ideal.ofBits .f32 0x47C35000#32)) (Finset.sum_congr rfl fun r _ => ?_)
  show RefTerms.dev5 y (ix2 r q) * RefTerms.dev5 y (ix2 r q) = _
  rw [dev5_apply]

/-- The variance at the literal correction the reference passes: the integer zero. -/
theorem colVar5_zero_apply (y : (⟨S100000x5, .f32⟩ : BufTy).Contents (Elt Ideal)) (q : Fin 5) :
    RefTerms.colVar5 y (constantI S_ 32 0#32) (ix1 q)
      = StageReal.varDev (fun (r : Fin 100000) (q : Fin 5) => y (ix2 r q)) (Ideal.ofBits .f32 0x47C35000#32) q :=
  colVar5_apply y _ rfl q

/-- The standardised entry: the deviation from μ's entry times the reciprocal root of v's entry plus epsilon. -/
theorem standardise5_apply (y : (⟨S100000x5, .f32⟩ : BufTy).Contents (Elt Ideal)) (μ v : (⟨S5, .f32⟩ : BufTy).Contents (Elt Ideal))
    (r : Fin 100000) (q : Fin 5) :
    RefTerms.standardise5 y μ v (ix2 r q) = (y (ix2 r q) - μ (ix1 q)) * Ideal.rsqrt (v (ix1 q) + StageSpec.eps) := by
  show (y (ix2 r q) - RefTerms.rows5 μ (ix2 r q))
      * RefTerms.rows5 (Host.rsqrt (addf v (broadcastInDim S5 ![] bcast_S_S5 (RefTerms.eps (F := Ideal))))) (ix2 r q) = _
  rw [rows5_apply, rows5_apply]
  show _ * Ideal.rsqrt (v (ix1 q) + broadcastInDim S5 ![] bcast_S_S5 (RefTerms.eps (F := Ideal)) (ix1 q)) = _
  rw [broadcastInDim_scalar_apply]
  rfl

/-- The affine entry: times the scale's entry, plus the shift's. -/
theorem affine5_apply (x : (⟨S100000x5, .f32⟩ : BufTy).Contents (Elt Ideal)) (g β : (⟨S5, .f32⟩ : BufTy).Contents (Elt Ideal))
    (r : Fin 100000) (q : Fin 5) :
    RefTerms.affine5 x g β (ix2 r q) = x (ix2 r q) * g (ix1 q) + β (ix1 q) := by
  show x (ix2 r q) * RefTerms.rows5 g (ix2 r q) + RefTerms.rows5 β (ix2 r q) = _
  rw [rows5_apply, rows5_apply]

/-- THE NORMALISED ENTRY: the affine map of the standardised array is the normalisation of the entry by the
    vectors' entries of its column. -/
theorem norm5_apply (y : (⟨S100000x5, .f32⟩ : BufTy).Contents (Elt Ideal)) (μ v g β : (⟨S5, .f32⟩ : BufTy).Contents (Elt Ideal))
    (r : Fin 100000) (q : Fin 5) :
    RefTerms.affine5 (RefTerms.standardise5 y μ v) g β (ix2 r q)
      = StageSpec.norm (y (ix2 r q)) (μ (ix1 q)) (v (ix1 q)) (g (ix1 q)) (β (ix1 q)) := by
  rw [affine5_apply, standardise5_apply]
  rfl

/-! ## Products with a weight matrix -/

/-- A product of an n × k array with a k × d array, contracted over one axis, at row p and column q: the sum over j of
    the products of the entries (p, j) and (j, q). The four hypotheses say which coordinate of each operand the
    dimension record reads from the result's index and which from the contracted position. -/
theorem dot_oneAxis_apply {n k d : ℕ} (D : DotDims (⟨2, ![n, k]⟩ : Shape) ⟨2, ![k, d]⟩ ⟨2, ![n, d]⟩)
    (hr : D.contr.rank = 1) (hs : D.contr.size ⟨0, by omega⟩ = k)
    (hl0 : ∀ (i : (⟨2, ![n, d]⟩ : Shape).Idx) (c : D.contr.Idx), (D.lhsIdx i c 0).val = (i 0).val)
    (hl1 : ∀ (i : (⟨2, ![n, d]⟩ : Shape).Idx) (c : D.contr.Idx), (D.lhsIdx i c 1).val = (c ⟨0, by omega⟩).val)
    (hr0 : ∀ (i : (⟨2, ![n, d]⟩ : Shape).Idx) (c : D.contr.Idx), (D.rhsIdx i c 0).val = (c ⟨0, by omega⟩).val)
    (hr1 : ∀ (i : (⟨2, ![n, d]⟩ : Shape).Idx) (c : D.contr.Idx), (D.rhsIdx i c 1).val = (i 1).val)
    {φ₁ φ₂ : FTy} (prec : Option ContractPrecision) (lhs : FVec Ideal (⟨2, ![n, k]⟩ : Shape) φ₁)
    (rhs : FVec Ideal (⟨2, ![k, d]⟩ : Shape) φ₂) (p : Fin n) (q : Fin d) :
    Host.dotGeneral D prec lhs rhs (ix2 p q) = ∑ j : Fin k, lhs (ix2 p j) * rhs (ix2 j q) := by
  show FloatOps.dotGeneral D prec .single lhs rhs (ix2 p q) = _
  rw [Ideal.dotGeneral_apply, ← Equiv.sum_comp (contrEquiv1 D k hr hs).symm]
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p q) ((contrEquiv1 D k hr hs).symm j) = ix2 j q := funext fun ax => Fin.ext (by
    match ax with
    | ⟨0, _⟩ => exact (hr0 _ _).trans hk
    | ⟨1, _⟩ => exact hr1 _ _)
  rw [el, er]

/-- The left operand's row coordinate of `dot_S100000x64_S64x128_S100000x128_1_0_0_1_n_n` is the result's row. -/
theorem lhs_64_0 (i : S100000x128.Idx) (c : dot_S100000x64_S64x128_S100000x128_1_0_0_1_n_n.contr.Idx) :
    (dot_S100000x64_S64x128_S100000x128_1_0_0_1_n_n.lhsIdx i c 0).val = (i 0).val := by
  unfold DotDims.lhsIdx
  rw [dif_neg (show ¬(0 : Fin S100000x64.rank) ∈ dot_S100000x64_S64x128_S100000x128_1_0_0_1_n_n.lhsBatch by decide),
    dif_pos (show (0 : Fin S100000x64.rank) ∈ dot_S100000x64_S64x128_S100000x128_1_0_0_1_n_n.lhsNonContracting by decide)]
  rfl

/-- Its column coordinate is the contracted position. -/
theorem lhs_64_1 (i : S100000x128.Idx) (c : dot_S100000x64_S64x128_S100000x128_1_0_0_1_n_n.contr.Idx) :
    (dot_S100000x64_S64x128_S100000x128_1_0_0_1_n_n.lhsIdx i c 1).val = (c ⟨0, by decide⟩).val :=
  dot_S100000x64_S64x128_S100000x128_1_0_0_1_n_n.lhsIdx_val_of_single rfl i c

/-- The right operand's row coordinate of `dot_S100000x64_S64x128_S100000x128_1_0_0_1_n_n` is the contracted position. -/
theorem rhs_64_0 (i : S100000x128.Idx) (c : dot_S100000x64_S64x128_S100000x128_1_0_0_1_n_n.contr.Idx) :
    (dot_S100000x64_S64x128_S100000x128_1_0_0_1_n_n.rhsIdx i c 0).val = (c ⟨0, by decide⟩).val :=
  dot_S100000x64_S64x128_S100000x128_1_0_0_1_n_n.rhsIdx_val_of_single rfl i c

/-- Its column coordinate is the result's column. -/
theorem rhs_64_1 (i : S100000x128.Idx) (c : dot_S100000x64_S64x128_S100000x128_1_0_0_1_n_n.contr.Idx) :
    (dot_S100000x64_S64x128_S100000x128_1_0_0_1_n_n.rhsIdx i c 1).val = (i 1).val := by
  unfold DotDims.rhsIdx
  rw [dif_neg (show ¬(1 : Fin S64x128.rank) ∈ dot_S100000x64_S64x128_S100000x128_1_0_0_1_n_n.rhsBatch by decide),
    dif_pos (show (1 : Fin S64x128.rank) ∈ dot_S100000x64_S64x128_S100000x128_1_0_0_1_n_n.rhsNonContracting by decide)]
  rfl

/-- The node features against the 64 × 128 weight matrix: the sum over the 64 inner positions of the products. -/
theorem dot64_apply (x : (⟨S100000x64, .f32⟩ : BufTy).Contents (Elt Ideal)) (w : (⟨S64x128, .f32⟩ : BufTy).Contents (Elt Ideal))
    (r : Fin 100000) (q : Fin 128) :
    Host.dotGeneral (F := Ideal) (φ₁ := .f32) (φ₂ := .f32) dot_S100000x64_S64x128_S100000x128_1_0_0_1_n_n none x w (ix2 r q) = ∑ j : Fin 64, x (ix2 r j) * w (ix2 j q) :=
  dot_oneAxis_apply dot_S100000x64_S64x128_S100000x128_1_0_0_1_n_n rfl rfl lhs_64_0 lhs_64_1 rhs_64_0 rhs_64_1 (φ₁ := .f32) (φ₂ := .f32) none x w r q

/-- The first linear stage: that product plus the bias's entry of the column. -/
theorem lin64_apply (x : (⟨S100000x64, .f32⟩ : BufTy).Contents (Elt Ideal)) (w : (⟨S64x128, .f32⟩ : BufTy).Contents (Elt Ideal))
    (b : (⟨S128, .f32⟩ : BufTy).Contents (Elt Ideal)) (r : Fin 100000) (q : Fin 128) :
    addf (Host.dotGeneral (F := Ideal) (φ₁ := .f32) (φ₂ := .f32) dot_S100000x64_S64x128_S100000x128_1_0_0_1_n_n none x w) (RefTerms.rows b) (ix2 r q)
      = (∑ j : Fin 64, x (ix2 r j) * w (ix2 j q)) + b (ix1 q) := by
  show Host.dotGeneral (F := Ideal) (φ₁ := .f32) (φ₂ := .f32) dot_S100000x64_S64x128_S100000x128_1_0_0_1_n_n none x w (ix2 r q) + RefTerms.rows b (ix2 r q) = _
  rw [dot64_apply, rows_apply]

/-- The left operand's row coordinate of `dot_S100000x128_S128x128_S100000x128_1_0_0_1_n_n` is the result's row. -/
theorem lhs_128_0 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- Its column coordinate is the contracted position. -/
theorem lhs_128_1 (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c

/-- The right operand's row coordinate of `dot_S100000x128_S128x128_S100000x128_1_0_0_1_n_n` is the contracted position. -/
theorem rhs_128_0 (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c

/-- Its column coordinate is the result's column. -/
theorem rhs_128_1 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- An array of 128 columns against a 128 × 128 weight matrix: the sum over the 128 inner positions of the products. -/
theorem dot128_apply (x : (⟨S100000x128, .f32⟩ : BufTy).Contents (Elt Ideal)) (w : (⟨S128x128, .f32⟩ : BufTy).Contents (Elt Ideal))
    (r : Fin 100000) (q : Fin 128) :
    Host.dotGeneral (F := Ideal) (φ₁ := .f32) (φ₂ := .f32) dot_S100000x128_S128x128_S100000x128_1_0_0_1_n_n none x w (ix2 r q) = ∑ j : Fin 128, x (ix2 r j) * w (ix2 j q) :=
  dot_oneAxis_apply dot_S100000x128_S128x128_S100000x128_1_0_0_1_n_n rfl rfl lhs_128_0 lhs_128_1 rhs_128_0 rhs_128_1 (φ₁ := .f32) (φ₂ := .f32) none x w r q

/-- A hop's linear stage: that product plus the bias's entry of the column. -/
theorem lin128_apply (x : (⟨S100000x128, .f32⟩ : BufTy).Contents (Elt Ideal)) (w : (⟨S128x128, .f32⟩ : BufTy).Contents (Elt Ideal))
    (b : (⟨S128, .f32⟩ : BufTy).Contents (Elt Ideal)) (r : Fin 100000) (q : Fin 128) :
    addf (Host.dotGeneral (F := Ideal) (φ₁ := .f32) (φ₂ := .f32) dot_S100000x128_S128x128_S100000x128_1_0_0_1_n_n none x w) (RefTerms.rows b) (ix2 r q)
      = (∑ j : Fin 128, x (ix2 r j) * w (ix2 j q)) + b (ix1 q) := by
  show Host.dotGeneral (F := Ideal) (φ₁ := .f32) (φ₂ := .f32) dot_S100000x128_S128x128_S100000x128_1_0_0_1_n_n none x w (ix2 r q) + RefTerms.rows b (ix2 r q) = _
  rw [dot128_apply, rows_apply]

/-- The left operand's row coordinate of `dot_S100000x384_S384x128_S100000x128_1_0_0_1_n_n` is the result's row. -/
theorem lhs_384_0 (i : S100000x128.Idx) (c : dot_S100000x384_S384x128_S100000x128_1_0_0_1_n_n.contr.Idx) :
    (dot_S100000x384_S384x128_S100000x128_1_0_0_1_n_n.lhsIdx i c 0).val = (i 0).val := by
  unfold DotDims.lhsIdx
  rw [dif_neg (show ¬(0 : Fin S100000x384.rank) ∈ dot_S100000x384_S384x128_S100000x128_1_0_0_1_n_n.lhsBatch by decide),
    dif_pos (show (0 : Fin S100000x384.rank) ∈ dot_S100000x384_S384x128_S100000x128_1_0_0_1_n_n.lhsNonContracting by decide)]
  rfl

/-- Its column coordinate is the contracted position. -/
theorem lhs_384_1 (i : S100000x128.Idx) (c : dot_S100000x384_S384x128_S100000x128_1_0_0_1_n_n.contr.Idx) :
    (dot_S100000x384_S384x128_S100000x128_1_0_0_1_n_n.lhsIdx i c 1).val = (c ⟨0, by decide⟩).val :=
  dot_S100000x384_S384x128_S100000x128_1_0_0_1_n_n.lhsIdx_val_of_single rfl i c

/-- The right operand's row coordinate of `dot_S100000x384_S384x128_S100000x128_1_0_0_1_n_n` is the contracted position. -/
theorem rhs_384_0 (i : S100000x128.Idx) (c : dot_S100000x384_S384x128_S100000x128_1_0_0_1_n_n.contr.Idx) :
    (dot_S100000x384_S384x128_S100000x128_1_0_0_1_n_n.rhsIdx i c 0).val = (c ⟨0, by decide⟩).val :=
  dot_S100000x384_S384x128_S100000x128_1_0_0_1_n_n.rhsIdx_val_of_single rfl i c

/-- Its column coordinate is the result's column. -/
theorem rhs_384_1 (i : S100000x128.Idx) (c : dot_S100000x384_S384x128_S100000x128_1_0_0_1_n_n.contr.Idx) :
    (dot_S100000x384_S384x128_S100000x128_1_0_0_1_n_n.rhsIdx i c 1).val = (i 1).val := by
  unfold DotDims.rhsIdx
  rw [dif_neg (show ¬(1 : Fin S384x128.rank) ∈ dot_S100000x384_S384x128_S100000x128_1_0_0_1_n_n.rhsBatch by decide),
    dif_pos (show (1 : Fin S384x128.rank) ∈ dot_S100000x384_S384x128_S100000x128_1_0_0_1_n_n.rhsNonContracting by decide)]
  rfl

/-- The three hops side by side against the 384 × 128 projection: the sum over the 384 inner positions of the
    products (the projection has no bias). -/
theorem dot384_apply (x : (⟨S100000x384, .f32⟩ : BufTy).Contents (Elt Ideal)) (w : (⟨S384x128, .f32⟩ : BufTy).Contents (Elt Ideal))
    (r : Fin 100000) (q : Fin 128) :
    Host.dotGeneral (F := Ideal) (φ₁ := .f32) (φ₂ := .f32) dot_S100000x384_S384x128_S100000x128_1_0_0_1_n_n none x w (ix2 r q) = ∑ j : Fin 384, x (ix2 r j) * w (ix2 j q) :=
  dot_oneAxis_apply dot_S100000x384_S384x128_S100000x128_1_0_0_1_n_n rfl rfl lhs_384_0 lhs_384_1 rhs_384_0 rhs_384_1 (φ₁ := .f32) (φ₂ := .f32) none x w r q

/-- The left operand's row coordinate of `dot_S100000x128_S128x5_S100000x5_1_0_0_1_n_n` is the result's row. -/
theorem lhs_5_0 (i : S100000x5.Idx) (c : dot_S100000x128_S128x5_S100000x5_1_0_0_1_n_n.contr.Idx) :
    (dot_S100000x128_S128x5_S100000x5_1_0_0_1_n_n.lhsIdx i c 0).val = (i 0).val := by
  unfold DotDims.lhsIdx
  rw [dif_neg (show ¬(0 : Fin S100000x128.rank) ∈ dot_S100000x128_S128x5_S100000x5_1_0_0_1_n_n.lhsBatch by decide),
    dif_pos (show (0 : Fin S100000x128.rank) ∈ dot_S100000x128_S128x5_S100000x5_1_0_0_1_n_n.lhsNonContracting by decide)]
  rfl

/-- Its column coordinate is the contracted position. -/
theorem lhs_5_1 (i : S100000x5.Idx) (c : dot_S100000x128_S128x5_S100000x5_1_0_0_1_n_n.contr.Idx) :
    (dot_S100000x128_S128x5_S100000x5_1_0_0_1_n_n.lhsIdx i c 1).val = (c ⟨0, by decide⟩).val :=
  dot_S100000x128_S128x5_S100000x5_1_0_0_1_n_n.lhsIdx_val_of_single rfl i c

/-- The right operand's row coordinate of `dot_S100000x128_S128x5_S100000x5_1_0_0_1_n_n` is the contracted position. -/
theorem rhs_5_0 (i : S100000x5.Idx) (c : dot_S100000x128_S128x5_S100000x5_1_0_0_1_n_n.contr.Idx) :
    (dot_S100000x128_S128x5_S100000x5_1_0_0_1_n_n.rhsIdx i c 0).val = (c ⟨0, by decide⟩).val :=
  dot_S100000x128_S128x5_S100000x5_1_0_0_1_n_n.rhsIdx_val_of_single rfl i c

/-- Its column coordinate is the result's column. -/
theorem rhs_5_1 (i : S100000x5.Idx) (c : dot_S100000x128_S128x5_S100000x5_1_0_0_1_n_n.contr.Idx) :
    (dot_S100000x128_S128x5_S100000x5_1_0_0_1_n_n.rhsIdx i c 1).val = (i 1).val := by
  unfold DotDims.rhsIdx
  rw [dif_neg (show ¬(1 : Fin S128x5.rank) ∈ dot_S100000x128_S128x5_S100000x5_1_0_0_1_n_n.rhsBatch by decide),
    dif_pos (show (1 : Fin S128x5.rank) ∈ dot_S100000x128_S128x5_S100000x5_1_0_0_1_n_n.rhsNonContracting by decide)]
  rfl

/-- An array of 128 columns against the 128 × 5 weight matrix: the sum over the 128 inner positions of the products. -/
theorem dot5_apply (x : (⟨S100000x128, .f32⟩ : BufTy).Contents (Elt Ideal)) (w : (⟨S128x5, .f32⟩ : BufTy).Contents (Elt Ideal))
    (r : Fin 100000) (q : Fin 5) :
    Host.dotGeneral (F := Ideal) (φ₁ := .f32) (φ₂ := .f32) dot_S100000x128_S128x5_S100000x5_1_0_0_1_n_n none x w (ix2 r q) = ∑ j : Fin 128, x (ix2 r j) * w (ix2 j q) :=
  dot_oneAxis_apply dot_S100000x128_S128x5_S100000x5_1_0_0_1_n_n rfl rfl lhs_5_0 lhs_5_1 rhs_5_0 rhs_5_1 (φ₁ := .f32) (φ₂ := .f32) none x w r q

/-- The assignment scores' linear stage: that product plus the bias's entry of the column. -/
theorem lin5_apply (x : (⟨S100000x128, .f32⟩ : BufTy).Contents (Elt Ideal)) (w : (⟨S128x5, .f32⟩ : BufTy).Contents (Elt Ideal))
    (b : (⟨S5, .f32⟩ : BufTy).Contents (Elt Ideal)) (r : Fin 100000) (q : Fin 5) :
    addf (Host.dotGeneral (F := Ideal) (φ₁ := .f32) (φ₂ := .f32) dot_S100000x128_S128x5_S100000x5_1_0_0_1_n_n none x w) (RefTerms.rows5 b) (ix2 r q)
      = (∑ j : Fin 128, x (ix2 r j) * w (ix2 j q)) + b (ix1 q) := by
  show Host.dotGeneral (F := Ideal) (φ₁ := .f32) (φ₂ := .f32) dot_S100000x128_S128x5_S100000x5_1_0_0_1_n_n none x w (ix2 r q) + RefTerms.rows5 b (ix2 r q) = _
  rw [dot5_apply, rows5_apply]

end Cert.ReferenceIdeal.RefIndex

end
-- ==== Proof.RefChain0.lean ====
/-
  The reference's first stage at an entry, on the extended reals.

  After its first window the reference's clipped array holds, at row r and column q, the greater of zero and the
  normalisation of the linear output's entry y(r, q) = Σ_j x(r, j) · w(j, q) + b(q) by the column mean of y, the mean of
  the squared deviations of y from it, the scale's entry and the shift's entry: the window's read of that buffer, taken
  apart word by word with the entrywise readings of the shared vocabulary.
-/
import proofs.«414479_j7705171329025_1_alg».proof.Proof.RefStage0
import proofs.«414479_j7705171329025_1_alg».proof.Proof.RefIndex

noncomputable section

namespace Cert.ReferenceIdeal.RefChain0

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The node features. -/
abbrev X : (⟨S100000x64, .f32⟩ : BufTy).Contents (Elt Ideal) := W (Proc.devRef .tc main_arg0)
/-- The embedding's weight matrix. -/
abbrev Wt : (⟨S64x128, .f32⟩ : BufTy).Contents (Elt Ideal) := W (Proc.devRef .tc main_arg4)
/-- Its bias. -/
abbrev b : (⟨S128, .f32⟩ : BufTy).Contents (Elt Ideal) := W (Proc.devRef .tc main_arg5)
/-- The batch norm's scale. -/
abbrev g : (⟨S128, .f32⟩ : BufTy).Contents (Elt Ideal) := W (Proc.devRef .tc main_arg6)
/-- The batch norm's shift. -/
abbrev β : (⟨S128, .f32⟩ : BufTy).Contents (Elt Ideal) := W (Proc.devRef .tc main_arg7)
/-- The row count as its f32 word. -/
abbrev N : EReal := Ideal.ofBits .f32 0x47C35000#32

/-- The linear output's entry: row r of the features against column q of the weights, plus the bias's entry. -/
abbrev y (r : Fin 100000) (q : Fin 128) : EReal := (∑ j : Fin 64, X W (ix2 r j) * Wt W (ix2 j q)) + b W (ix1 q)

/-- The window's linear output is y, entry by entry. -/
theorem t_v3_apply (r : Fin 100000) (q : Fin 128) : RefStage0.t_v3 W (ix2 r q) = y W r q :=
  RefIndex.lin64_apply _ _ _ r q

/-- … so as a family of rows and columns it is y. -/
theorem t_v3_eq : (fun (r : Fin 100000) (q : Fin 128) => RefStage0.t_v3 W (ix2 r q)) = y W :=
  funext fun r => funext fun q => t_v3_apply W r q

/-- The column mean the window forms is the column mean of y. -/
theorem t_v6_apply (q : Fin 128) : RefStage0.t_v6 W (ix1 q) = StageReal.colMean (y W) N q := by
  show RefTerms.colMean (RefStage0.t_v3 W) (ix1 q) = _
  rw [RefIndex.colMean_apply, t_v3_eq]

/-- The column variance the window forms is the mean of the squared deviations of y from its column mean. -/
theorem t_v7_apply (q : Fin 128) : RefStage0.t_v7 W (ix1 q) = StageReal.varDev (y W) N q := by
  show RefTerms.colVar (RefStage0.t_v3 W) (constantI S_ 32 0#32) (ix1 q) = _
  rw [RefIndex.colVar_zero_apply, t_v3_eq]

/-- The normalised array's entry. -/
theorem t_v22_apply (r : Fin 100000) (q : Fin 128) :
    RefStage0.t_v22 W (ix2 r q)
      = StageSpec.norm (y W r q) (StageReal.colMean (y W) N q) (StageReal.varDev (y W) N q) (g W (ix1 q)) (β W (ix1 q)) := by
  show RefTerms.affine (RefTerms.standardise (RefStage0.t_v3 W) (RefStage0.t_v6 W) (RefStage0.t_v7 W)) (g W) (β W) (ix2 r q) = _
  rw [RefIndex.norm_apply, t_v3_apply, t_v6_apply, t_v7_apply]

/-- THE REFERENCE'S FIRST STAGE AT AN ENTRY: after the first window the clipped array holds the greater of zero and the
    normalised entry. -/
theorem read_v23_apply (r : Fin 100000) (q : Fin 128) :
    (after (ops0 (F := Ideal)) W (Proc.devRef .tc main_v23) : (⟨S100000x128, .f32⟩ : BufTy).Contents (Elt Ideal)) (ix2 r q)
      = max (StageSpec.norm (y W r q) (StageReal.colMean (y W) N q) (StageReal.varDev (y W) N q) (g W (ix1 q)) (β W (ix1 q))) 0 := by
  rw [RefStage0.read_v23]
  show RefTerms.relu (RefStage0.t_v22 W) (ix2 r q) = _
  rw [RefIndex.relu_apply, t_v22_apply]

end Cert.ReferenceIdeal.RefChain0

end
-- ==== Proof.Chain0.lean ====
/-
  Stage 0 of the chain: the embedding. Both programs send the node features through the same weight matrix and bias
  and normalise the result by its batch statistics, then clip at zero. The kernel takes the statistics as the column sum
  and the column sum of squares (variance = mean of squares less the squared mean); the reference as the column mean and
  the mean of the squared deviations. On real data these are one number, so the two normalised arrays are equal, entry
  by entry, and every entry is a real number, which is what the next stage needs in turn.

  Stated here for the kernel's array at the exit of its second region and the reference's array after its first window.
-/
import proofs.«414479_j7705171329025_1_alg».proof.Proof.KernelChain0
import proofs.«414479_j7705171329025_1_alg».proof.Proof.ChainDefs
import proofs.«414479_j7705171329025_1_alg».proof.Proof.RefChain0
import proofs.«414479_j7705171329025_1_alg».proof.Proof.StageReal
import proofs.«414479_j7705171329025_1_alg».proof.Proof.PreReal

noncomputable section

namespace Cert.Chain0

open Cert.RealSpec (IsReal)
open Idealize.ShloMosaic Idealize.ShloMosaic.TcCoe Idealize.ShloMosaic.StableHlo

/-- The two memories agree on argument 0. -/
abbrev AgreeArg0 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
/-- The two memories agree on argument 1. -/
abbrev AgreeArg1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
/-- The two memories agree on argument 2. -/
abbrev AgreeArg2 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
/-- The two memories agree on argument 3. -/
abbrev AgreeArg3 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
/-- The two memories agree on argument 4. -/
abbrev AgreeArg4 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
/-- The two memories agree on argument 5. -/
abbrev AgreeArg5 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
/-- The two memories agree on argument 6. -/
abbrev AgreeArg6 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
/-- The two memories agree on argument 7. -/
abbrev AgreeArg7 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
/-- The two memories agree on argument 8. -/
abbrev AgreeArg8 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
/-- The two memories agree on argument 9. -/
abbrev AgreeArg9 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
/-- The two memories agree on argument 10. -/
abbrev AgreeArg10 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
/-- The two memories agree on argument 11. -/
abbrev AgreeArg11 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
/-- The two memories agree on argument 12. -/
abbrev AgreeArg12 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
/-- The two memories agree on argument 13. -/
abbrev AgreeArg13 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
/-- The two memories agree on argument 14. -/
abbrev AgreeArg14 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
/-- The two memories agree on argument 15. -/
abbrev AgreeArg15 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
/-- The two memories agree on argument 16. -/
abbrev AgreeArg16 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
/-- The two memories agree on argument 17. -/
abbrev AgreeArg17 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
/-- The two memories agree on argument 18. -/
abbrev AgreeArg18 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
/-- The two memories agree on argument 19. -/
abbrev AgreeArg19 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
/-- The two memories agree on argument 20. -/
abbrev AgreeArg20 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
/-- The two memories agree on argument 21. -/
abbrev AgreeArg21 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
/-- The two memories agree on argument 22. -/
abbrev AgreeArg22 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)

/-- The kernel program's memory and the reference program's memory agree on the arguments: the hypothesis of the
    algebraic claim, argument by argument. -/
structure Agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop where
  arg0 : AgreeArg0 m m'
  arg1 : AgreeArg1 m m'
  arg2 : AgreeArg2 m m'
  arg3 : AgreeArg3 m m'
  arg4 : AgreeArg4 m m'
  arg5 : AgreeArg5 m m'
  arg6 : AgreeArg6 m m'
  arg7 : AgreeArg7 m m'
  arg8 : AgreeArg8 m m'
  arg9 : AgreeArg9 m m'
  arg10 : AgreeArg10 m m'
  arg11 : AgreeArg11 m m'
  arg12 : AgreeArg12 m m'
  arg13 : AgreeArg13 m m'
  arg14 : AgreeArg14 m m'
  arg15 : AgreeArg15 m m'
  arg16 : AgreeArg16 m m'
  arg17 : AgreeArg17 m m'
  arg18 : AgreeArg18 m m'
  arg19 : AgreeArg19 m m'
  arg20 : AgreeArg20 m m'
  arg21 : AgreeArg21 m m'
  arg22 : AgreeArg22 m m'

variable [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The kernel's embedding output: what its second region leaves in its output array. -/
abbrev kernelOut (c : Dev Cert.KernelIdeal.nD) : Vec Ideal Cert.KernelIdeal.S100000x128 .f32 :=
  Cert.KernelIdeal.Gen.W4 (F := Ideal) m ρ c (Proc.devRef .tc Cert.KernelIdeal.main_v10)

/-- The reference's embedding output: the clipped normalised array after its first window. -/
abbrev refOut (c : Dev Cert.ReferenceIdeal.nD) : Vec Ideal Cert.ReferenceIdeal.S100000x128 .f32 :=
  StableHlo.after (Cert.ReferenceIdeal.RefRun.ops0 (F := Ideal)) (launchContents m' c) (Proc.devRef .tc Cert.ReferenceIdeal.main_v23)

/-- STAGE 0: the two embedding outputs are equal, and every entry is a real number. -/
theorem stage0 (hpre : Cert.Pre_KernelIdeal m) (hag : Agree m m') (c : Dev Cert.KernelIdeal.nD) :
    (∀ i, kernelOut m ρ c i = refOut m' c i) ∧ (∀ i, IsReal (kernelOut m ρ c i)) := by
  -- the reference's arrays are the kernel's, by the agreement of the two memories on the arguments
  have eX : Cert.ReferenceIdeal.RefChain0.X (launchContents m' c) = Cert.KernelChain0.X m c := hag.arg0 c
  have eW : Cert.ReferenceIdeal.RefChain0.Wt (launchContents m' c) = Cert.KernelChain0.Wt m c := hag.arg4 c
  have eb : Cert.ReferenceIdeal.RefChain0.b (launchContents m' c) = Cert.KernelChain0.Bflat m c := hag.arg5 c
  have eg : Cert.ReferenceIdeal.RefChain0.g (launchContents m' c) = Cert.KernelChain0.g m c := hag.arg6 c
  have eβ : Cert.ReferenceIdeal.RefChain0.β (launchContents m' c) = Cert.KernelChain0.β m c := hag.arg7 c
  -- so the two linear outputs are one array
  have ey : Cert.ReferenceIdeal.RefChain0.y (launchContents m' c) = Cert.KernelChain0.y m c := by
    funext r q
    rw [Cert.KernelChain0.y_eq_sum m c r q]
    show (∑ j : Fin 64, Cert.ReferenceIdeal.RefChain0.X (launchContents m' c) (ValueIdx.ix2 r j) * Cert.ReferenceIdeal.RefChain0.Wt (launchContents m' c) (ValueIdx.ix2 j q))
        + Cert.ReferenceIdeal.RefChain0.b (launchContents m' c) (ValueIdx.ix1 q) = _
    rw [eX, eW, eb]
  -- every entry of the linear output is a real number, so the two variances are one number
  have hy : ∀ r q, IsReal (Cert.KernelChain0.y m c r q) := Cert.KernelChain0.y_isReal m hpre c
  refine ⟨fun i => ?_, fun i => ?_⟩
  · obtain ⟨r, q, rfl⟩ : ∃ (r : Fin 100000) (q : Fin 128), i = ValueIdx.ix2 r q := ⟨i 0, i 1, ValueIdx.eq_ix2 i⟩
    rw [show kernelOut m ρ c (ValueIdx.ix2 r q) = _ from Cert.KernelChain0.kernel_out_apply m ρ c r q,
      show refOut m' c (ValueIdx.ix2 r q) = _ from Cert.ReferenceIdeal.RefChain0.read_v23_apply (launchContents m' c) r q,
      ey, eg, eβ]
    exact congrArg (fun z => max z 0)
      (Cert.StageReal.norm_varSumSq_eq_norm_varDev_100000 (Cert.KernelChain0.y m c) hy q (Cert.KernelChain0.y m c r q) _ _)
  · obtain ⟨r, q, rfl⟩ : ∃ (r : Fin 100000) (q : Fin 128), i = ValueIdx.ix2 r q := ⟨i 0, i 1, ValueIdx.eq_ix2 i⟩
    rw [show kernelOut m ρ c (ValueIdx.ix2 r q) = _ from Cert.KernelChain0.kernel_out_apply m ρ c r q]
    exact Cert.StageReal.max_zero_isReal
      (Cert.StageReal.norm_varSumSq_isReal_100000 (Cert.KernelChain0.y m c) hy q (hy r q)
        (Cert.KernelChain0.g_isReal m hpre c q) (Cert.KernelChain0.β_isReal m hpre c q))

/-- Stage 0 in the chain's own words. -/
theorem inv0 (hpre : Cert.Pre_KernelIdeal m) (hag : Agree m m') (c : Dev Cert.KernelIdeal.nD) : Cert.ChainDefs.Inv0 m ρ m' c :=
  stage0 m ρ m' hpre hag c

end Cert.Chain0

end
-- ==== Proof.TailSame.lean ====
/-
  The tail of the two programs. After the last normalised array (the assignment scores, 100000 rows of 5 heads) both
  programs run the same host code. A softmax over the 5 heads of each row: the row's maximum is taken off, the
  exponentials are formed and divided by their row sum. Each node's embedding row is weighted by each of its 5
  probabilities, and the weighted rows are added up per graph (a segment sum into 1000 graphs, starting from zero),
  laid out as 1000 rows of 640, and the positive part is taken. The regulariser is the sum of the absolute values of
  the entries of the five weight arrays, the five sums added from the left, over 1000.

  The two functions are named here once. The kernel program's last three stretches and the reference program's last
  window are then both read as these two functions applied to their own buffers: the two printed texts agree
  operation by operation, up to the names of the buffers.
-/
import proofs.«414479_j7705171329025_1_alg».proof.Proof.Gen.KernelIdeal.Launch
import proofs.«414479_j7705171329025_1_alg».proof.Proof.RefStage10
import Idealize.ShloMosaic.Lib.StableHlo.Run

noncomputable section

namespace Cert.TailSame

/-! ## The two functions -/

section Functions

open Cert.KernelIdeal Cert.KernelIdeal.Gen
open Idealize.ShloMosaic Idealize.ShloMosaic.TcCoe Idealize.ShloMosaic.StableHlo

variable {F : FTy → Type} [FloatOps F]

/-- The exponentials of the scores less their row maximum (the maximum of a row's 5 entries and `-∞`, laid over
    the row). -/
def expShift (a : (⟨S100000x5, .f32⟩ : BufTy).Contents (Elt F)) : (⟨S100000x5, .f32⟩ : BufTy).Contents (Elt F) :=
  Host.exp (subf a
    (broadcastInDim S100000x5 ![0, 1] bcast_S100000x1_S100000x5_0_1
      (broadcastInDim S100000x1 ![0] bcast_S100000_S100000x1_0
        (maximumf
          (broadcastInDim S100000 ![] bcast_S_S100000 (constant S_ .f32 0xFF800000#32 : (⟨S_, .f32⟩ : BufTy).Contents (Elt F)))
          (Host.reduce FloatOps.maximumf a (constant S_ .f32 0xFF800000#32 : (⟨S_, .f32⟩ : BufTy).Contents (Elt F))
            reducesTo_S100000x5_S100000_d1 h_S_)))))

/-- The pooled output. The softmax of the scores `a` (the shifted exponentials over their row sums), each row of the
    embedding `emb` times each of its row's 5 probabilities, the products added up per graph along the segment
    ids `seg` starting from zero, laid out as 1000 rows of 640, and the entrywise maximum with zero. The reductions
    and the scatter-add stay closed. -/
def tailOut (emb : (⟨S100000x128, .f32⟩ : BufTy).Contents (Elt F)) (a : (⟨S100000x5, .f32⟩ : BufTy).Contents (Elt F))
    (seg : (⟨S100000, .i32⟩ : BufTy).Contents (Elt F)) : (⟨S1000x640, .f32⟩ : BufTy).Contents (Elt F) :=
  maximumf
    (shapeCast S1000x640
      (Host.scatterAdd (F := F) scatter_S1000x5x128_S100000x1_S100000x5x128_12_0_0_1
        (broadcastInDim S1000x5x128 ![] bcast_S_S1000x5x128 (constant S_ .f32 0x00000000#32 : (⟨S_, .f32⟩ : BufTy).Contents (Elt F)))
        (broadcastInDim S100000x1 ![0] bcast_S100000_S100000x1_0 seg)
        (mulf
          (broadcastInDim S100000x5x128 ![0, 1, 2] bcast_S100000x5x1_S100000x5x128_0_1_2
            (broadcastInDim S100000x5x1 ![0, 1] bcast_S100000x5_S100000x5x1_0_1
              (Host.divf (expShift a)
                (broadcastInDim S100000x5 ![0, 1] bcast_S100000x1_S100000x5_0_1
                  (broadcastInDim S100000x1 ![0] bcast_S100000_S100000x1_0
                    (Host.reduceAdd (expShift a) (constant S_ .f32 0x00000000#32 : (⟨S_, .f32⟩ : BufTy).Contents (Elt F))
                      reducesTo_S100000x5_S100000_d1 h_S_))))))
          (broadcastInDim S100000x5x128 ![0, 1, 2] bcast_S100000x1x128_S100000x5x128_0_1_2
            (broadcastInDim S100000x1x128 ![0, 2] bcast_S100000x128_S100000x1x128_0_2 emb))))
      shapeCasts_S1000x5x128_S1000x640)
    (broadcastInDim S1000x640 ![] bcast_S_S1000x640 (constant S_ .f32 0x00000000#32 : (⟨S_, .f32⟩ : BufTy).Contents (Elt F)))

/-- The regulariser. The sum of the absolute values of each weight array's entries, from zero; the five sums added
    from the left; the total over 1000. -/
def tailReg (w4 : (⟨S64x128, .f32⟩ : BufTy).Contents (Elt F)) (w8 : (⟨S3x128x128, .f32⟩ : BufTy).Contents (Elt F))
    (w12 : (⟨S384x128, .f32⟩ : BufTy).Contents (Elt F)) (w15 : (⟨S128x128, .f32⟩ : BufTy).Contents (Elt F))
    (w19 : (⟨S128x5, .f32⟩ : BufTy).Contents (Elt F)) : (⟨S_, .f32⟩ : BufTy).Contents (Elt F) :=
  Host.divf
    (addf (addf (addf (addf
      (Host.reduceAdd (Host.absf w4) (constant S_ .f32 0x00000000#32 : (⟨S_, .f32⟩ : BufTy).Contents (Elt F)) reducesTo_S64x128_S_d0_1 h_S_)
      (Host.reduceAdd (Host.absf w8) (constant S_ .f32 0x00000000#32 : (⟨S_, .f32⟩ : BufTy).Contents (Elt F)) reducesTo_S3x128x128_S_d0_1_2 h_S_))
      (Host.reduceAdd (Host.absf w12) (constant S_ .f32 0x00000000#32 : (⟨S_, .f32⟩ : BufTy).Contents (Elt F)) reducesTo_S384x128_S_d0_1 h_S_))
      (Host.reduceAdd (Host.absf w15) (constant S_ .f32 0x00000000#32 : (⟨S_, .f32⟩ : BufTy).Contents (Elt F)) reducesTo_S128x128_S_d0_1 h_S_))
      (Host.reduceAdd (Host.absf w19) (constant S_ .f32 0x00000000#32 : (⟨S_, .f32⟩ : BufTy).Contents (Elt F)) reducesTo_S128x5_S_d0_1 h_S_))
    (constant S_ .f32 0x447A0000#32 : (⟨S_, .f32⟩ : BufTy).Contents (Elt F))

end Functions

/-! ## The kernel program's last three stretches -/

section Kernel

open Cert.KernelIdeal Cert.KernelIdeal.Gen
open Idealize.ShloMosaic Idealize.ShloMosaic.TcCoe Idealize.ShloMosaic.StableHlo

variable {F : FTy → Type} [FloatOps F]
variable (W : Valuation τ sig (Elt F))

/-! ### Each stretch by itself, at any contents before it -/

set_option maxRecDepth 8192 in
set_option maxHeartbeats 4000000 in
/-- The first stretch leaves the pooled sums, before the positive part, laid out as 1000 rows of 640. -/
theorem read_v358 : (StableHlo.after hostOps30 W (Proc.devRef .tc main_v358) : (⟨S1000x640, .f32⟩ : BufTy).Contents (Elt F))
    = shapeCast S1000x640
      (Host.scatterAdd (F := F) scatter_S1000x5x128_S100000x1_S100000x5x128_12_0_0_1
        (broadcastInDim S1000x5x128 ![] bcast_S_S1000x5x128 (constant S_ .f32 0x00000000#32 : (⟨S_, .f32⟩ : BufTy).Contents (Elt F)))
        (broadcastInDim S100000x1 ![0] bcast_S100000_S100000x1_0 (W (Proc.devRef .tc main_arg3)))
        (mulf
          (broadcastInDim S100000x5x128 ![0, 1, 2] bcast_S100000x5x1_S100000x5x128_0_1_2
            (broadcastInDim S100000x5x1 ![0, 1] bcast_S100000x5_S100000x5x1_0_1
              (Host.divf (expShift (W (Proc.devRef .tc main_v338)))
                (broadcastInDim S100000x5 ![0, 1] bcast_S100000x1_S100000x5_0_1
                  (broadcastInDim S100000x1 ![0] bcast_S100000_S100000x1_0
                    (Host.reduceAdd (expShift (W (Proc.devRef .tc main_v338))) (constant S_ .f32 0x00000000#32 : (⟨S_, .f32⟩ : BufTy).Contents (Elt F))
                      reducesTo_S100000x5_S100000_d1 h_S_))))))
          (broadcastInDim S100000x5x128 ![0, 1, 2] bcast_S100000x1x128_S100000x5x128_0_1_2
            (broadcastInDim S100000x1x128 ![0, 2] bcast_S100000x128_S100000x1x128_0_2 (W (Proc.devRef .tc main_v316))))))
      shapeCasts_S1000x5x128_S1000x640 := by
  after_results_simp <;> rfl

/-- The second stretch takes the positive part: the entrywise maximum with zero. -/
theorem read_v359 : (StableHlo.after hostOps30_1 W (Proc.devRef .tc main_v359) : (⟨S1000x640, .f32⟩ : BufTy).Contents (Elt F))
    = maximumf (W (Proc.devRef .tc main_v358) : (⟨S1000x640, .f32⟩ : BufTy).Contents (Elt F))
        (broadcastInDim S1000x640 ![] bcast_S_S1000x640 (constant S_ .f32 0x00000000#32 : (⟨S_, .f32⟩ : BufTy).Contents (Elt F))) := by
  after_results <;> rfl

set_option maxRecDepth 8192 in
set_option maxHeartbeats 4000000 in
/-- The third stretch forms the regulariser from the five weight arrays. -/
theorem read_v374 : (StableHlo.after hostOps30_2 W (Proc.devRef .tc main_v374) : (⟨S_, .f32⟩ : BufTy).Contents (Elt F))
    = tailReg (W (Proc.devRef .tc main_arg4)) (W (Proc.devRef .tc main_arg8)) (W (Proc.devRef .tc main_arg12))
        (W (Proc.devRef .tc main_arg15)) (W (Proc.devRef .tc main_arg19)) := by
  after_results_simp <;> rfl

/-- The references the first stretch writes, in order. -/
abbrev written30 : List (Ref sig .tc) :=
  [main_cst_56, main_v339, main_cst_57, main_v340, main_v341, main_v342, main_v343, main_v344, main_v345, main_cst_58,
   main_v346, main_v347, main_v348, main_v349, main_v350, main_v351, main_v352, main_v353, main_v354, main_cst_59,
   main_v355, main_v356, main_v357, main_v358]

/-- The references the second stretch writes, in order. -/
abbrev written30_1 : List (Ref sig .tc) := [main_call0_cst, main_call0_v0, main_v359]

/-- The references the third stretch writes, in order. -/
abbrev written30_2 : List (Ref sig .tc) :=
  [main_v360, main_cst_60, main_v361, main_v362, main_cst_61, main_v363, main_v364, main_v365, main_cst_62, main_v366,
   main_v367, main_v368, main_cst_63, main_v369, main_v370, main_v371, main_cst_64, main_v372, main_v373, main_cst_65,
   main_v374]

/-- Every operation of the first stretch writes one of its list. -/
theorem writes30 : (hostOps30 : List (HloOp τ sig (Elt F))).Forall fun op =>
    op.writes ⊆ (written30.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- Every operation of the second stretch writes one of its list. -/
theorem writes30_1 : (hostOps30_1 : List (HloOp τ sig (Elt F))).Forall fun op =>
    op.writes ⊆ (written30_1.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- Every operation of the third stretch writes one of its list. -/
theorem writes30_2 : (hostOps30_2 : List (HloOp τ sig (Elt F))).Forall fun op =>
    op.writes ⊆ (written30_2.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A reference the first stretch does not write keeps its contents. -/
theorem keep30 {r : Ref sig .tc} (h : r ∉ written30) :
    StableHlo.after hostOps30 W (Proc.devRef .tc r) = W (Proc.devRef .tc r) :=
  StableHlo.after_of_writes_sub hostOps30 W writes30 h

/-- A reference the second stretch does not write keeps its contents. -/
theorem keep30_1 {r : Ref sig .tc} (h : r ∉ written30_1) :
    StableHlo.after hostOps30_1 W (Proc.devRef .tc r) = W (Proc.devRef .tc r) :=
  StableHlo.after_of_writes_sub hostOps30_1 W writes30_1 h

/-- A reference the third stretch does not write keeps its contents. -/
theorem keep30_2 {r : Ref sig .tc} (h : r ∉ written30_2) :
    StableHlo.after hostOps30_2 W (Proc.devRef .tc r) = W (Proc.devRef .tc r) :=
  StableHlo.after_of_writes_sub hostOps30_2 W writes30_2 h

/-! ### The three stretches one after the other -/

/-- The contents after the three stretches, run in order from `W`. -/
abbrev tailRun : Valuation τ sig (Elt F) :=
  StableHlo.after hostOps30_2 (StableHlo.after hostOps30_1 (StableHlo.after hostOps30 W))

/-- The references the three stretches write, in order. -/
abbrev written : List (Ref sig .tc) := written30 ++ written30_1 ++ written30_2

/-- A reference none of the three stretches writes keeps its contents. -/
theorem keep {r : Ref sig .tc} (h : r ∉ written) : tailRun W (Proc.devRef .tc r) = W (Proc.devRef .tc r) := by
  have h' : r ∉ written30 ∧ r ∉ written30_1 ∧ r ∉ written30_2 := by
    refine ⟨fun m => h ?_, fun m => h ?_, fun m => h ?_⟩
    · exact List.mem_append_left _ (List.mem_append_left _ m)
    · exact List.mem_append_left _ (List.mem_append_right _ m)
    · exact List.mem_append_right _ m
  show StableHlo.after hostOps30_2 (StableHlo.after hostOps30_1 (StableHlo.after hostOps30 W)) (Proc.devRef .tc r) = _
  rw [keep30_2 _ h'.2.2, keep30_1 _ h'.2.1, keep30 _ h'.1]

/-- The program's first result after the three stretches: the pooled output of the embedding, the scores and the
    segment ids as they stood before the stretches. -/
theorem read_out : (tailRun W (Proc.devRef .tc main_v359) : (⟨S1000x640, .f32⟩ : BufTy).Contents (Elt F))
    = tailOut (W (Proc.devRef .tc main_v316)) (W (Proc.devRef .tc main_v338)) (W (Proc.devRef .tc main_arg3)) := by
  show (StableHlo.after hostOps30_2 (StableHlo.after hostOps30_1 (StableHlo.after hostOps30 W)) (Proc.devRef .tc main_v359) : (⟨S1000x640, .f32⟩ : BufTy).Contents (Elt F)) = _
  rw [keep30_2 _ (r := main_v359) (by decide), read_v359, read_v358]
  rfl

/-- The program's second result after the three stretches: the regulariser of the five weight arrays as they stood
    before the stretches. -/
theorem read_reg : (tailRun W (Proc.devRef .tc main_v374) : (⟨S_, .f32⟩ : BufTy).Contents (Elt F))
    = tailReg (W (Proc.devRef .tc main_arg4)) (W (Proc.devRef .tc main_arg8)) (W (Proc.devRef .tc main_arg12))
        (W (Proc.devRef .tc main_arg15)) (W (Proc.devRef .tc main_arg19)) := by
  show (StableHlo.after hostOps30_2 (StableHlo.after hostOps30_1 (StableHlo.after hostOps30 W)) (Proc.devRef .tc main_v374) : (⟨S_, .f32⟩ : BufTy).Contents (Elt F)) = _
  rw [read_v374,
    keep30_1 _ (r := main_arg4) (by decide), keep30 _ (r := main_arg4) (by decide),
    keep30_1 _ (r := main_arg8) (by decide), keep30 _ (r := main_arg8) (by decide),
    keep30_1 _ (r := main_arg12) (by decide), keep30 _ (r := main_arg12) (by decide),
    keep30_1 _ (r := main_arg15) (by decide), keep30 _ (r := main_arg15) (by decide),
    keep30_1 _ (r := main_arg19) (by decide), keep30 _ (r := main_arg19) (by decide)]

end Kernel

/-! ## The reference program's last window -/

section Reference

open Cert.ReferenceIdeal Cert.ReferenceIdeal.Gen Cert.ReferenceIdeal.RefRun
open Idealize.ShloMosaic Idealize.ShloMosaic.TcCoe Idealize.ShloMosaic.StableHlo

variable {F : FTy → Type} [FloatOps F]
variable (W : Valuation τ sig (Elt F))

set_option maxRecDepth 8192 in
set_option maxHeartbeats 4000000 in
/-- The reference's first result is the same pooled output, of its own embedding, of the scores its last window
    forms (the last affine map of the normalised scores) and of the segment ids. -/
theorem ref_out : (StableHlo.after ops10 W (Proc.devRef .tc main_v537) : (⟨S1000x640, .f32⟩ : BufTy).Contents (Elt F))
    = tailOut (W (Proc.devRef .tc main_v469)) (RefStage10.t_v516 W) (W (Proc.devRef .tc main_arg3)) :=
  (RefStage10.read_v537 W).trans rfl

set_option maxRecDepth 8192 in
set_option maxHeartbeats 4000000 in
/-- The reference's second result is the same regulariser of the five weight arrays. -/
theorem ref_reg : (StableHlo.after ops10 W (Proc.devRef .tc main_v552) : (⟨S_, .f32⟩ : BufTy).Contents (Elt F))
    = tailReg (W (Proc.devRef .tc main_arg4)) (W (Proc.devRef .tc main_arg8)) (W (Proc.devRef .tc main_arg12))
        (W (Proc.devRef .tc main_arg15)) (W (Proc.devRef .tc main_arg19)) :=
  (RefStage10.read_v552 W).trans rfl

end Reference

end Cert.TailSame
-- ==== Proof.Carry1.lean ====
import proofs.«414479_j7705171329025_1_alg».proof.Proof.FrameKI.Run

set_option maxRecDepth 16384

noncomputable section

namespace Cert.KernelIdeal.Carry

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- Nothing between boundary 32 and boundary 33 of the run writes `main_v200`: it keeps its contents. -/
theorem main_v200_32_33 (c : Dev nD) : W33 m ρ c (Proc.devRef .tc main_v200) = W32 m ρ c (Proc.devRef .tc main_v200) :=
  calc W33 m ρ c (Proc.devRef .tc main_v200)
    _ = W32 m ρ c (Proc.devRef .tc main_v200) := StableHlo.after_of_forall_not_mem (b := Proc.devRef .tc main_v200) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 37 and boundary 41 of the run writes `main_v215`: it keeps its contents. -/
theorem main_v215_37_41 (c : Dev nD) : W41 m ρ c (Proc.devRef .tc main_v215) = W37 m ρ c (Proc.devRef .tc main_v215) :=
  calc W41 m ρ c (Proc.devRef .tc main_v215)
    _ = W40 m ρ c (Proc.devRef .tc main_v215) := StableHlo.after_of_forall_not_mem (b := Proc.devRef .tc main_v215) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_v215) := W40_of_ne m ρ c main_v215 (by decide)
    _ = W38 m ρ c (Proc.devRef .tc main_v215) := StableHlo.after_of_forall_not_mem (b := Proc.devRef .tc main_v215) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_v215) := (W38_arr m ρ c 1).trans (((dat18 (V37 m ρ) c).arrAt_in 1 rfl _).trans (A_eq18 (V37 m ρ) c 1))

/-- Nothing between boundary 37 and boundary 45 of the run writes `main_v215`: it keeps its contents. -/
theorem main_v215_37_45 (c : Dev nD) : W45 m ρ c (Proc.devRef .tc main_v215) = W37 m ρ c (Proc.devRef .tc main_v215) :=
  calc W45 m ρ c (Proc.devRef .tc main_v215)
    _ = W44 m ρ c (Proc.devRef .tc main_v215) := StableHlo.after_of_forall_not_mem (b := Proc.devRef .tc main_v215) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_v215) := W44_of_ne m ρ c main_v215 (by decide)
    _ = W42 m ρ c (Proc.devRef .tc main_v215) := StableHlo.after_of_forall_not_mem (b := Proc.devRef .tc main_v215) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_v215) := (W42_arr m ρ c 1).trans (((dat20 (V41 m ρ) c).arrAt_in 1 rfl _).trans (A_eq20 (V41 m ρ) c 1))
    _ = W40 m ρ c (Proc.devRef .tc main_v215) := StableHlo.after_of_forall_not_mem (b := Proc.devRef .tc main_v215) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_v215) := W40_of_ne m ρ c main_v215 (by decide)
    _ = W38 m ρ c (Proc.devRef .tc main_v215) := StableHlo.after_of_forall_not_mem (b := Proc.devRef .tc main_v215) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_v215) := (W38_arr m ρ c 1).trans (((dat18 (V37 m ρ) c).arrAt_in 1 rfl _).trans (A_eq18 (V37 m ρ) c 1))

/-- Nothing between boundary 40 and boundary 49 of the run writes `main_v244`: it keeps its contents. -/
theorem main_v244_40_49 (c : Dev nD) : W49 m ρ c (Proc.devRef .tc main_v244) = W40 m ρ c (Proc.devRef .tc main_v244) :=
  calc W49 m ρ c (Proc.devRef .tc main_v244)
    _ = W48 m ρ c (Proc.devRef .tc main_v244) := StableHlo.after_of_forall_not_mem (b := Proc.devRef .tc main_v244) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_v244) := W48_of_ne m ρ c main_v244 (by decide)
    _ = W46 m ρ c (Proc.devRef .tc main_v244) := StableHlo.after_of_forall_not_mem (b := Proc.devRef .tc main_v244) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_v244) := W46_of_ne m ρ c main_v244 (by decide)
    _ = W44 m ρ c (Proc.devRef .tc main_v244) := StableHlo.after_of_forall_not_mem (b := Proc.devRef .tc main_v244) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_v244) := W44_of_ne m ρ c main_v244 (by decide)
    _ = W42 m ρ c (Proc.devRef .tc main_v244) := StableHlo.after_of_forall_not_mem (b := Proc.devRef .tc main_v244) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_v244) := W42_of_ne m ρ c main_v244 (by decide)
    _ = W40 m ρ c (Proc.devRef .tc main_v244) := StableHlo.after_of_forall_not_mem (b := Proc.devRef .tc main_v244) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 44 and boundary 49 of the run writes `main_v273`: it keeps its contents. -/
theorem main_v273_44_49 (c : Dev nD) : W49 m ρ c (Proc.devRef .tc main_v273) = W44 m ρ c (Proc.devRef .tc main_v273) :=
  calc W49 m ρ c (Proc.devRef .tc main_v273)
    _ = W48 m ρ c (Proc.devRef .tc main_v273) := StableHlo.after_of_forall_not_mem (b := Proc.devRef .tc main_v273) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_v273) := W48_of_ne m ρ c main_v273 (by decide)
    _ = W46 m ρ c (Proc.devRef .tc main_v273) := StableHlo.after_of_forall_not_mem (b := Proc.devRef .tc main_v273) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_v273) := W46_of_ne m ρ c main_v273 (by decide)
    _ = W44 m ρ c (Proc.devRef .tc main_v273) := StableHlo.after_of_forall_not_mem (b := Proc.devRef .tc main_v273) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 48 and boundary 49 of the run writes `main_v302`: it keeps its contents. -/
theorem main_v302_48_49 (c : Dev nD) : W49 m ρ c (Proc.devRef .tc main_v302) = W48 m ρ c (Proc.devRef .tc main_v302) :=
  calc W49 m ρ c (Proc.devRef .tc main_v302)
    _ = W48 m ρ c (Proc.devRef .tc main_v302) := StableHlo.after_of_forall_not_mem (b := Proc.devRef .tc main_v302) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 52 and boundary 60 of the run writes `main_v316`: it keeps its contents. -/
theorem main_v316_52_60 (c : Dev nD) : W60 m ρ c (Proc.devRef .tc main_v316) = W52 m ρ c (Proc.devRef .tc main_v316) :=
  calc W60 m ρ c (Proc.devRef .tc main_v316)
    _ = W59 m ρ c (Proc.devRef .tc main_v316) := W60_of_ne m ρ c main_v316 (by decide)
    _ = W58 m ρ c (Proc.devRef .tc main_v316) := StableHlo.after_of_forall_not_mem (b := Proc.devRef .tc main_v316) _ _ (List.forall_iff_forall_mem.mp (by
          simp only [hostOps29, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W57 m ρ c (Proc.devRef .tc main_v316) := W58_of_ne m ρ c main_v316 (by decide)
    _ = W56 m ρ c (Proc.devRef .tc main_v316) := StableHlo.after_of_forall_not_mem (b := Proc.devRef .tc main_v316) _ _ (List.forall_iff_forall_mem.mp (by
          simp only [hostOps28, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W55 m ρ c (Proc.devRef .tc main_v316) := W56_of_ne m ρ c main_v316 (by decide)
    _ = W54 m ρ c (Proc.devRef .tc main_v316) := StableHlo.after_of_forall_not_mem (b := Proc.devRef .tc main_v316) _ _ (List.forall_iff_forall_mem.mp (by
          simp only [hostOps27, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W53 m ρ c (Proc.devRef .tc main_v316) := (W54_arr m ρ c 0).trans (((dat26 (V53 m ρ) c).arrAt_in 0 rfl _).trans (A_eq26 (V53 m ρ) c 0))
    _ = W52 m ρ c (Proc.devRef .tc main_v316) := StableHlo.after_of_forall_not_mem (b := Proc.devRef .tc main_v316) _ _ (List.forall_iff_forall_mem.mp (by
          simp only [hostOps26, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 2 of the run writes `main_arg6`: it keeps its contents. -/
theorem main_arg6_0_2 (c : Dev nD) : W2 m ρ c (Proc.devRef .tc main_arg6) = W0 m ρ c (Proc.devRef .tc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 2 of the run writes `main_arg7`: it keeps its contents. -/
theorem main_arg7_0_2 (c : Dev nD) : W2 m ρ c (Proc.devRef .tc main_arg7) = W0 m ρ c (Proc.devRef .tc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 4 of the run writes `main_arg1`: it keeps its contents. -/
theorem main_arg1_0_4 (c : Dev nD) : W4 m ρ c (Proc.devRef .tc main_arg1) = W0 m ρ c (Proc.devRef .tc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 4 of the run writes `main_arg2`: it keeps its contents. -/
theorem main_arg2_0_4 (c : Dev nD) : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Carry

end
-- ==== Proof.KernelTail.lean ====
/-
  The kernel program's two results at the end of its run. Its last three host stretches are the tail both programs
  share: a softmax of the assignment scores over the heads, the embedding rows weighted by the probabilities and summed
  per graph, clipped at zero; and the regulariser, the sum of the absolute values of the five weight arrays over 1000.
  Read here over the contents the tail finds: the last embedding array and the assignment scores as the regions before
  left them, and the segment ids and the weight arrays as the launch memory holds them, since nothing in the run writes
  an argument.
-/
import proofs.«414479_j7705171329025_1_alg».proof.Proof.TailSame
import proofs.«414479_j7705171329025_1_alg».proof.Proof.Carry1
import proofs.«414479_j7705171329025_1_alg».proof.Proof.FrameKI.Run
import proofs.«414479_j7705171329025_1_alg».proof.Proof.FrameKI.Arg3
import proofs.«414479_j7705171329025_1_alg».proof.Proof.FrameKI.Arg4
import proofs.«414479_j7705171329025_1_alg».proof.Proof.FrameKI.Arg8
import proofs.«414479_j7705171329025_1_alg».proof.Proof.FrameKI.Arg12
import proofs.«414479_j7705171329025_1_alg».proof.Proof.FrameKI.Arg15
import proofs.«414479_j7705171329025_1_alg».proof.Proof.FrameKI.Arg19

set_option maxRecDepth 16384

noncomputable section

namespace Cert.KernelTail

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-! ## The arguments before the tail -/

/-- The last three stretches do not write argument 3: before them it holds what the launch memory holds. -/
theorem arg3_at_60 (c : Dev nD) :
    W60 m ρ c (Proc.devRef .tc main_arg3) = m ((c : Thread nD τ).loc main_arg3) :=
  (TailSame.keep (W60 m ρ c) (r := main_arg3) (by decide)).symm.trans (W63_main_arg3 m ρ c)

/-- The last three stretches do not write argument 4: before them it holds what the launch memory holds. -/
theorem arg4_at_60 (c : Dev nD) :
    W60 m ρ c (Proc.devRef .tc main_arg4) = m ((c : Thread nD τ).loc main_arg4) :=
  (TailSame.keep (W60 m ρ c) (r := main_arg4) (by decide)).symm.trans (W63_main_arg4 m ρ c)

/-- The last three stretches do not write argument 8: before them it holds what the launch memory holds. -/
theorem arg8_at_60 (c : Dev nD) :
    W60 m ρ c (Proc.devRef .tc main_arg8) = m ((c : Thread nD τ).loc main_arg8) :=
  (TailSame.keep (W60 m ρ c) (r := main_arg8) (by decide)).symm.trans (W63_main_arg8 m ρ c)

/-- The last three stretches do not write argument 12: before them it holds what the launch memory holds. -/
theorem arg12_at_60 (c : Dev nD) :
    W60 m ρ c (Proc.devRef .tc main_arg12) = m ((c : Thread nD τ).loc main_arg12) :=
  (TailSame.keep (W60 m ρ c) (r := main_arg12) (by decide)).symm.trans (W63_main_arg12 m ρ c)

/-- The last three stretches do not write argument 15: before them it holds what the launch memory holds. -/
theorem arg15_at_60 (c : Dev nD) :
    W60 m ρ c (Proc.devRef .tc main_arg15) = m ((c : Thread nD τ).loc main_arg15) :=
  (TailSame.keep (W60 m ρ c) (r := main_arg15) (by decide)).symm.trans (W63_main_arg15 m ρ c)

/-- The last three stretches do not write argument 19: before them it holds what the launch memory holds. -/
theorem arg19_at_60 (c : Dev nD) :
    W60 m ρ c (Proc.devRef .tc main_arg19) = m ((c : Thread nD τ).loc main_arg19) :=
  (TailSame.keep (W60 m ρ c) (r := main_arg19) (by decide)).symm.trans (W63_main_arg19 m ρ c)

/-! ## The two results -/

/-- The program's first result: the tail's pooled output of the last embedding array, the assignment scores and the
    segment ids. -/
theorem out_eq (c : Dev nD) :
    (W63 m ρ c (Proc.devRef .tc main_v359) : (⟨S1000x640, .f32⟩ : BufTy).Contents (Elt F))
      = TailSame.tailOut (W52 m ρ c (Proc.devRef .tc main_v316)) (W60 m ρ c (Proc.devRef .tc main_v338))
          (m ((c : Thread nD τ).loc main_arg3)) := by
  show (TailSame.tailRun (W60 m ρ c) (Proc.devRef .tc main_v359) : (⟨S1000x640, .f32⟩ : BufTy).Contents (Elt F)) = _
  rw [TailSame.read_out (W60 m ρ c), Carry.main_v316_52_60 m ρ c, arg3_at_60 m ρ c]

/-- The program's second result: the tail's regulariser of the five weight arrays. -/
theorem reg_eq (c : Dev nD) :
    (W63 m ρ c (Proc.devRef .tc main_v374) : (⟨S_, .f32⟩ : BufTy).Contents (Elt F))
      = TailSame.tailReg (m ((c : Thread nD τ).loc main_arg4)) (m ((c : Thread nD τ).loc main_arg8))
          (m ((c : Thread nD τ).loc main_arg12)) (m ((c : Thread nD τ).loc main_arg15))
          (m ((c : Thread nD τ).loc main_arg19)) := by
  show (TailSame.tailRun (W60 m ρ c) (Proc.devRef .tc main_v374) : (⟨S_, .f32⟩ : BufTy).Contents (Elt F)) = _
  rw [TailSame.read_reg (W60 m ρ c), arg4_at_60 m ρ c, arg8_at_60 m ρ c, arg12_at_60 m ρ c, arg15_at_60 m ρ c,
    arg19_at_60 m ρ c]

end Cert.KernelTail

end
-- ==== Proof.ChainFinal.lean ====
/-
  The algebraic claim from the chain.

  Both programs run. The kernel program's two results are what its last boundary holds; the reference's what its 975
  operations leave from the launch memory. The chain shows, stage by stage, that the two programs' normalised arrays are
  equal and real; the last part of both programs (the softmax over the heads, the sum over each graph's nodes, the
  clip at zero; the regulariser over the weights) is one function of the node embedding, the head scores, the segment
  ids and the weights, so equal arguments give equal results.
-/
import proofs.«414479_j7705171329025_1_alg».proof.Proof.ChainDefs
import proofs.«414479_j7705171329025_1_alg».proof.Proof.Chain0
import proofs.«414479_j7705171329025_1_alg».proof.Proof.KernelTail
import proofs.«414479_j7705171329025_1_alg».proof.Proof.TailSame
import proofs.«414479_j7705171329025_1_alg».proof.Proof.RefFrame
import proofs.«414479_j7705171329025_1_alg».proof.Defs

noncomputable section

namespace Cert.ChainFinal

open Cert.ChainDefs
open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The reference's contents after all eleven lists are its contents after the whole program. -/
theorem U11_eq (c : Dev Cert.ReferenceIdeal.nD) :
    StableHlo.after (Cert.ReferenceIdeal.RefRun.ops (F := Ideal)) (launchContents m' c) = U11 m' c :=
  Cert.ReferenceIdeal.RefFrame.after_ops (F := Ideal) (launchContents m' c)

/-- No list before the last writes an argument: before the last list each argument is as launched. -/
theorem U10_arg {r : Ref Cert.ReferenceIdeal.sig .tc}
    (h0 : r ∉ Cert.ReferenceIdeal.RefStage0.written) (h1 : r ∉ Cert.ReferenceIdeal.RefStage1.written) (h2 : r ∉ Cert.ReferenceIdeal.RefStage2.written) (h3 : r ∉ Cert.ReferenceIdeal.RefStage3.written) (h4 : r ∉ Cert.ReferenceIdeal.RefStage4.written) (h5 : r ∉ Cert.ReferenceIdeal.RefStage5.written) (h6 : r ∉ Cert.ReferenceIdeal.RefStage6.written) (h7 : r ∉ Cert.ReferenceIdeal.RefStage7.written) (h8 : r ∉ Cert.ReferenceIdeal.RefStage8.written) (h9 : r ∉ Cert.ReferenceIdeal.RefStage9.written)
    (c : Dev Cert.ReferenceIdeal.nD) : U10 m' c (Proc.devRef .tc r) = launchContents m' c (Proc.devRef .tc r) :=
  (Cert.ReferenceIdeal.RefStage9.keep (U9 m' c) h9).trans ((Cert.ReferenceIdeal.RefStage8.keep (U8 m' c) h8).trans ((Cert.ReferenceIdeal.RefStage7.keep (U7 m' c) h7).trans ((Cert.ReferenceIdeal.RefStage6.keep (U6 m' c) h6).trans ((Cert.ReferenceIdeal.RefStage5.keep (U5 m' c) h5).trans ((Cert.ReferenceIdeal.RefStage4.keep (U4 m' c) h4).trans ((Cert.ReferenceIdeal.RefStage3.keep (U3 m' c) h3).trans ((Cert.ReferenceIdeal.RefStage2.keep (U2 m' c) h2).trans ((Cert.ReferenceIdeal.RefStage1.keep (U1 m' c) h1).trans (Cert.ReferenceIdeal.RefStage0.keep (U0 m' c) h0)))))))))

/-- The first result (the graph embeddings): the reference's after its operations is the kernel's at its last boundary,
    given the chain's invariants at the node embedding (stage 12) and at the head scores (stage 14). -/
theorem out_eq (hag : Cert.Chain0.Agree m m') (c : Dev Cert.KernelIdeal.nD)
    (h12 : Inv12 m ρ m' c) (h14 : Inv14 m ρ m' c) :
    StableHlo.after (Cert.ReferenceIdeal.RefRun.ops (F := Ideal)) (launchContents m' c) (Proc.devRef .tc Cert.ReferenceIdeal.main_v537)
      = Cert.KernelIdeal.Gen.W63 (F := Ideal) m ρ c (Proc.devRef .tc Cert.KernelIdeal.main_v359) := by
  have e12 : kOut12 m ρ c = rOut12 m' c := funext h12.1
  have e14 : kOut14 m ρ c = rOut14 m' c := funext h14.1
  -- the head scores on the reference's side are the last list's own term for them
  have e516 : rOut14 m' c = Cert.ReferenceIdeal.RefStage10.t_v516 (U10 m' c) := Cert.ReferenceIdeal.RefStage10.read_v516 (U10 m' c)
  -- the segment ids are an argument: as launched before the last list, and the two memories agree on it
  have e3 : U10 m' c (Proc.devRef .tc Cert.ReferenceIdeal.main_arg3) = m ((c.tc : Thread Cert.KernelIdeal.nD Cert.KernelIdeal.τ).loc Cert.KernelIdeal.main_arg3) :=
    (U10_arg m' (r := Cert.ReferenceIdeal.main_arg3) (by decide) (by decide) (by decide) (by decide) (by decide) (by decide) (by decide) (by decide) (by decide) (by decide) c).trans (hag.arg3 c)
  rw [U11_eq m' c]
  show StableHlo.after (Cert.ReferenceIdeal.RefRun.ops10 (F := Ideal)) (U10 m' c) (Proc.devRef .tc Cert.ReferenceIdeal.main_v537) = _
  rw [Cert.TailSame.ref_out (U10 m' c), Cert.KernelTail.out_eq m ρ c]
  show Cert.TailSame.tailOut (rOut12 m' c) (Cert.ReferenceIdeal.RefStage10.t_v516 (U10 m' c)) (U10 m' c (Proc.devRef .tc Cert.ReferenceIdeal.main_arg3))
      = Cert.TailSame.tailOut (kOut12 m ρ c) (kOut14 m ρ c) (m ((c.tc : Thread Cert.KernelIdeal.nD Cert.KernelIdeal.τ).loc Cert.KernelIdeal.main_arg3))
  rw [e12, e14, e516, e3]

/-- The second result (the regulariser): a function of five weight arguments, on which the two memories agree. -/
theorem reg_eq (hag : Cert.Chain0.Agree m m') (c : Dev Cert.KernelIdeal.nD) :
    StableHlo.after (Cert.ReferenceIdeal.RefRun.ops (F := Ideal)) (launchContents m' c) (Proc.devRef .tc Cert.ReferenceIdeal.main_v552)
      = Cert.KernelIdeal.Gen.W63 (F := Ideal) m ρ c (Proc.devRef .tc Cert.KernelIdeal.main_v374) := by
  have ea (r : Ref Cert.ReferenceIdeal.sig .tc) (h0 : r ∉ Cert.ReferenceIdeal.RefStage0.written) (h1 : r ∉ Cert.ReferenceIdeal.RefStage1.written) (h2 : r ∉ Cert.ReferenceIdeal.RefStage2.written) (h3 : r ∉ Cert.ReferenceIdeal.RefStage3.written) (h4 : r ∉ Cert.ReferenceIdeal.RefStage4.written) (h5 : r ∉ Cert.ReferenceIdeal.RefStage5.written) (h6 : r ∉ Cert.ReferenceIdeal.RefStage6.written) (h7 : r ∉ Cert.ReferenceIdeal.RefStage7.written) (h8 : r ∉ Cert.ReferenceIdeal.RefStage8.written) (h9 : r ∉ Cert.ReferenceIdeal.RefStage9.written) :=
    U10_arg m' (r := r) h0 h1 h2 h3 h4 h5 h6 h7 h8 h9 c
  rw [U11_eq m' c]
  show StableHlo.after (Cert.ReferenceIdeal.RefRun.ops10 (F := Ideal)) (U10 m' c) (Proc.devRef .tc Cert.ReferenceIdeal.main_v552) = _
  rw [Cert.TailSame.ref_reg (U10 m' c), Cert.KernelTail.reg_eq m ρ c,
    (ea Cert.ReferenceIdeal.main_arg4 (by decide) (by decide) (by decide) (by decide) (by decide) (by decide) (by decide) (by decide) (by decide) (by decide)).trans (hag.arg4 c),
    (ea Cert.ReferenceIdeal.main_arg8 (by decide) (by decide) (by decide) (by decide) (by decide) (by decide) (by decide) (by decide) (by decide) (by decide)).trans (hag.arg8 c),
    (ea Cert.ReferenceIdeal.main_arg12 (by decide) (by decide) (by decide) (by decide) (by decide) (by decide) (by decide) (by decide) (by decide) (by decide)).trans (hag.arg12 c),
    (ea Cert.ReferenceIdeal.main_arg15 (by decide) (by decide) (by decide) (by decide) (by decide) (by decide) (by decide) (by decide) (by decide) (by decide)).trans (hag.arg15 c),
    (ea Cert.ReferenceIdeal.main_arg19 (by decide) (by decide) (by decide) (by decide) (by decide) (by decide) (by decide) (by decide) (by decide) (by decide)).trans (hag.arg19 c)]

end Cert.ChainFinal

end
-- ==== Proof.ValAdd2_2.lean ====
/-
  Region 2: a message-passing hop's linear stage with its column statistics. At each grid point the body adds a block of
  5000 rows of the pooled neighbours to the same rows of the block's input, multiplies by the hop's weight matrix, adds the
  bias row, stores that block, and adds the block's column sums and column sums of squares to two carried rows the first
  point has set to zero. As for the embedding, the blocks tile the rows and the carried rows end as sums over all rows.
-/
import proofs.«414479_j7705171329025_1_alg».proof.Proof.FrameKI.R2
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValAdd2_2

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. At the first point the two carried rows are first set to zero and then read
  back, so the running rows it leaves are the block's sums added to zero; at the other points they are added to what the
  rows held. -/

section Pieces

variable {F : FTy → Type} [FloatOps F]

theorem outA4 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond2_0 i)
    (x0 : Vec F S5000x128 .f32) (x1 : Vec F S5000x128 .f32) (x2 : Vec F S128x128 .f32) (x3 : Vec F S1x128 .f32) :
    out2_A_4 c i a1 h1 a2 h2 a3 h3 a4 h4 a5 h5 a6 h6 a7 h7 hc x0 x1 x2 x3 = k2_pay3 x0 x1 x2 x3 := by
  unfold out2_A_4
  rw [View.read_writes_eq_canon _ _ _ (cover2_A_4 c i a1 h1 a2 h2 a3 h3 a4 h4 a5 h5 a6 h6 a7 h7 hc x0 x1 x2 x3)]
  unfold kernelRun2_A
  dsimp only
  (try sl_unfold_words)
  rw [View.canon_unit_zero hz]
  simp only [View.readAt_eq_ld, h1.read_unread, h2.read_unread, h3.read_unread, h4.read_unread,
    View.ld_unit_zero (S := S5000x128) hz, View.ld_unit_zero (S := S128x128) hz, View.ld_unit_zero (S := S1x128) hz]

theorem outA5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond2_0 i)
    (x0 : Vec F S5000x128 .f32) (x1 : Vec F S5000x128 .f32) (x2 : Vec F S128x128 .f32) (x3 : Vec F S1x128 .f32) :
    out2_A_5 c i a1 h1 a2 h2 a3 h3 a4 h4 a5 h5 a6 h6 a7 h7 hc x0 x1 x2 x3 = k2_pay4 x0 x1 x2 x3 (k2_pay1 (F := F)) := by
  unfold out2_A_5
  rw [View.read_writes_eq_canon _ _ _ (cover2_A_5 c i a1 h1 a2 h2 a3 h3 a4 h4 a5 h5 a6 h6 a7 h7 hc x0 x1 x2 x3)]
  unfold kernelRun2_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outA6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond2_0 i)
    (x0 : Vec F S5000x128 .f32) (x1 : Vec F S5000x128 .f32) (x2 : Vec F S128x128 .f32) (x3 : Vec F S1x128 .f32) :
    out2_A_6 c i a1 h1 a2 h2 a3 h3 a4 h4 a5 h5 a6 h6 a7 h7 hc x0 x1 x2 x3 = k2_pay5 x0 x1 x2 x3 (k2_pay2 (F := F)) := by
  unfold out2_A_6
  rw [View.read_writes_eq_canon _ _ _ (cover2_A_6 c i a1 h1 a2 h2 a3 h3 a4 h4 a5 h5 a6 h6 a7 h7 hc x0 x1 x2 x3)]
  unfold kernelRun2_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outB4 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond2_0 i)
    (x0 : Vec F S5000x128 .f32) (x1 : Vec F S5000x128 .f32) (x2 : Vec F S128x128 .f32) (x3 : Vec F S1x128 .f32) (xoS xoQ : Vec F S1x128 .f32) :
    out2_B_4 c i a1 h1 a2 h2 a3 h3 a4 h4 a5 h5 a6 h6 a7 h7 hc x0 x1 x2 x3 xoS xoQ = k2_pay3 x0 x1 x2 x3 := by
  unfold out2_B_4
  rw [View.read_writes_eq_canon _ _ _ (cover2_B_4 c i a1 h1 a2 h2 a3 h3 a4 h4 a5 h5 a6 h6 a7 h7 hc x0 x1 x2 x3 xoS xoQ)]
  unfold kernelRun2_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond2_0 i)
    (x0 : Vec F S5000x128 .f32) (x1 : Vec F S5000x128 .f32) (x2 : Vec F S128x128 .f32) (x3 : Vec F S1x128 .f32) (xoS xoQ : Vec F S1x128 .f32) :
    out2_B_5 c i a1 h1 a2 h2 a3 h3 a4 h4 a5 h5 a6 h6 a7 h7 hc x0 x1 x2 x3 xoS xoQ = k2_pay4 x0 x1 x2 x3 xoS := by
  unfold out2_B_5
  rw [View.read_writes_eq_canon _ _ _ (cover2_B_5 c i a1 h1 a2 h2 a3 h3 a4 h4 a5 h5 a6 h6 a7 h7 hc x0 x1 x2 x3 xoS xoQ)]
  unfold kernelRun2_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond2_0 i)
    (x0 : Vec F S5000x128 .f32) (x1 : Vec F S5000x128 .f32) (x2 : Vec F S128x128 .f32) (x3 : Vec F S1x128 .f32) (xoS xoQ : Vec F S1x128 .f32) :
    out2_B_6 c i a1 h1 a2 h2 a3 h3 a4 h4 a5 h5 a6 h6 a7 h7 hc x0 x1 x2 x3 xoS xoQ = k2_pay5 x0 x1 x2 x3 xoQ := by
  unfold out2_B_6
  rw [View.read_writes_eq_canon _ _ _ (cover2_B_6 c i a1 h1 a2 h2 a3 h3 a4 h4 a5 h5 a6 h6 a7 h7 hc x0 x1 x2 x3 xoS xoQ)]
  unfold kernelRun2_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

end Pieces

variable (V : (c : Dev nD) → (b : Ref sig .tc) → Buf (Elt Ideal) ((c : Thread nD τ).loc b))

/-- The region's input arrays as it finds them, each at its literal type. -/
abbrev xaArr (c : Dev nD) : Vec Ideal S100000x128 .f32 := V c (Pipeline.arrRef spec2 0)
abbrev xbArr (c : Dev nD) : Vec Ideal S100000x128 .f32 := V c (Pipeline.arrRef spec2 1)
abbrev wArr (c : Dev nD) : Vec Ideal S128x128 .f32 := V c (Pipeline.arrRef spec2 2)
abbrev bRow (c : Dev nD) : Vec Ideal S1x128 .f32 := V c (Pipeline.arrRef spec2 3)

/-- One entry of the linear stage on the region's arrays. -/
def y (c : Dev nD) (r : Fin 100000) (q : Fin 128) : EReal := linAdd (xaArr V c) (xbArr V c) (wArr V c) (bRow V c) r q

/-- What the region leaves in its three output arrays. -/
def resultY (c : Dev nD) : Vec Ideal S100000x128 .f32 := fun i => y V c (i 0) (i 1)
def resultSum (c : Dev nD) : Vec Ideal S1x128 .f32 := fun i => colSum (y V c) (i 1)
def resultSumSq (c : Dev nD) : Vec Ideal S1x128 .f32 := fun i => colSumSq (y V c) (i 1)

/-! ## Where each window's block lies, and what the input blocks read -/

/-- The input blocks at a point, each at its literal type. -/
abbrev xaBlk (c : Dev nD) (t : Fin cfg2.N) : Vec Ideal S5000x128 .f32 := iblk2 V c 0 t
abbrev xbBlk (c : Dev nD) (t : Fin cfg2.N) : Vec Ideal S5000x128 .f32 := iblk2 V c 1 t
abbrev wBlk (c : Dev nD) (t : Fin cfg2.N) : Vec Ideal S128x128 .f32 := iblk2 V c 2 t
abbrev bBlk (c : Dev nD) (t : Fin cfg2.N) : Vec Ideal S1x128 .f32 := iblk2 V c 3 t

/-- The block each window takes at a point, decided over the twenty points: the tall windows take block `t` along the
    rows, and the weight matrix and each row are their own one block throughout. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Input 0's block at point `t`, read at (p, j), is the array at row 5000·t + p, column j. -/
theorem xaBlk_apply (c : Dev nD) (t : Fin cfg2.N) (p : Fin 5000) (j : Fin 128) (h : t.val * 5000 + p.val < 100000) :
    xaBlk V c t (ix2 p j) = xaArr V c (ix2 ⟨t.val * 5000 + p.val, h⟩ j) := by
  obtain ⟨e00, e01, -⟩ := idx_facts t
  unfold xaBlk iblk2
  rw [View.read_apply]
  show xaArr V c (((cfg2.win 0).blk t).view.emb (ix2 p j)) = _
  refine congrArg (xaArr V c) ?_
  funext a; apply Fin.ext
  match a with
  | ⟨0, _⟩ => show win2_0.index t (0 : Fin 2) * 5000 + 1 * p.val = t.val * 5000 + p.val; omega
  | ⟨1, _⟩ => show win2_0.index t (1 : Fin 2) * 128 + 1 * j.val = j.val; omega

/-- Input 1's block at point `t`, read at (p, j), is the array at row 5000·t + p, column j. -/
theorem xbBlk_apply (c : Dev nD) (t : Fin cfg2.N) (p : Fin 5000) (j : Fin 128) (h : t.val * 5000 + p.val < 100000) :
    xbBlk V c t (ix2 p j) = xbArr V c (ix2 ⟨t.val * 5000 + p.val, h⟩ j) := by
  obtain ⟨-, -, e10, e11, -⟩ := idx_facts t
  unfold xbBlk iblk2
  rw [View.read_apply]
  show xbArr V c (((cfg2.win 1).blk t).view.emb (ix2 p j)) = _
  refine congrArg (xbArr V c) ?_
  funext a; apply Fin.ext
  match a with
  | ⟨0, _⟩ => show win2_1.index t (0 : Fin 2) * 5000 + 1 * p.val = t.val * 5000 + p.val; omega
  | ⟨1, _⟩ => show win2_1.index t (1 : Fin 2) * 128 + 1 * j.val = j.val; omega

/-- Input 2's block, at every point, is the matrix. -/
theorem wBlk_apply (c : Dev nD) (t : Fin cfg2.N) (j : Fin 128) (q : Fin 128) :
    wBlk V c t (ix2 j q) = wArr V c (ix2 j q) := by
  obtain ⟨-, -, -, -, e20, e21, -⟩ := idx_facts t
  unfold wBlk iblk2
  rw [View.read_apply]
  show wArr V c (((cfg2.win 2).blk t).view.emb (ix2 j q)) = _
  refine congrArg (wArr V c) ?_
  funext a; apply Fin.ext
  match a with
  | ⟨0, _⟩ => show win2_2.index t (0 : Fin 2) * 128 + 1 * j.val = j.val; omega
  | ⟨1, _⟩ => show win2_2.index t (1 : Fin 2) * 128 + 1 * q.val = q.val; omega

/-- Input 3's block, at every point, is the row. -/
theorem bBlk_apply (c : Dev nD) (t : Fin cfg2.N) (q : Fin 128) :
    bBlk V c t (ix2 (0 : Fin 1) q) = bRow V c (ix2 (0 : Fin 1) q) := by
  obtain ⟨-, -, -, -, -, -, e30, e31, -⟩ := idx_facts t
  unfold bBlk iblk2
  rw [View.read_apply]
  show bRow V c (((cfg2.win 3).blk t).view.emb (ix2 (0 : Fin 1) q)) = _
  refine congrArg (bRow V c) ?_
  funext a; apply Fin.ext
  match a with
  | ⟨0, _⟩ => show win2_3.index t (0 : Fin 2) * 1 + 1 * 0 = 0; omega
  | ⟨1, _⟩ => show win2_3.index t (1 : Fin 2) * 128 + 1 * q.val = q.val; omega

/-- The block of values a point computes, at (p, q), is the linear stage's entry of row 5000·t + p, column q. -/
theorem pay3_point (c : Dev nD) (t : Fin cfg2.N) (p : Fin 5000) (q : Fin 128) (h : t.val * 5000 + p.val < 100000) :
    k2_pay3 (F := Ideal) (xaBlk V c t) (xbBlk V c t) (wBlk V c t) (bBlk V c t) (ix2 p q) = y V c ⟨t.val * 5000 + p.val, h⟩ q := by
  refine (PayLinear.k2_pay3_apply (xaBlk V c t) (xbBlk V c t) (wBlk V c t) (bBlk V c t) p q).trans ?_
  unfold y linAdd
  refine congrArg₂ (fun a b : EReal => a + b) (Finset.sum_congr rfl fun j _ => ?_) (bBlk_apply V c t q)
  exact congrArg₂ (fun a b : EReal => a * b)
    (congrArg₂ (fun a b : EReal => a + b) (xaBlk_apply V c t p j h) (xbBlk_apply V c t p j h)) (wBlk_apply V c t j q)

/-! ## What the three output buffers hold after each point -/

/-- The output block after any point is the block of values the point computes. -/
theorem outsY_eq (c : Dev nD) (t : Fin cfg2.N) :
    (outsAt2 V c t.val t.isLt).1 = k2_pay3 (F := Ideal) (xaBlk V c t) (xbBlk V c t) (wBlk V c t) (bBlk V c t) := by
  by_cases h0 : t.val % 20 = 0
  · rw [outsAt2_A V c t h0]
    dsimp only
    exact outA4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t)
      ((hcond2_0 t).mpr h0) (iblk2 V c 0 t) (iblk2 V c 1 t) (iblk2 V c 2 t) (iblk2 V c 3 t)
  · rw [outsAt2_B V c t h0]
    dsimp only
    exact outB4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t)
      (fun h => h0 ((hcond2_0 t).mp h)) (iblk2 V c 0 t) (iblk2 V c 1 t) (iblk2 V c 2 t) (iblk2 V c 3 t)
      (outsAt2 V c (t.val - 1) (Nat.lt_of_le_of_lt (Nat.sub_le _ _) t.isLt)).2.1
      (outsAt2 V c (t.val - 1) (Nat.lt_of_le_of_lt (Nat.sub_le _ _) t.isLt)).2.2

/-- The carried column sum at column `q`, after point `t`. -/
def accSum (c : Dev nD) (u : Fin 1) (q : Fin 128) : (t : ℕ) → t < 20 → EReal :=
  fun t ht => (outsAt2 V c t (lt_of_lt_of_eq ht N_2.symm)).2.1 (ix2 u q)

/-- At the first point it is the stored zero plus the block's column sum. -/
theorem accSum_first (c : Dev nD) (u : Fin 1) (q : Fin 128) (t : ℕ) (ht : t < 20) (h0 : t % 20 = 0) :
    accSum V c u q t ht = (k2_pay1 (F := Ideal)) (ix2 u q)
      + ∑ p : Fin 5000, y V c ⟨t * 5000 + p.val, by have := p.isLt; omega⟩ q := by
  have ht' : t < cfg2.N := lt_of_lt_of_eq ht N_2.symm
  show (outsAt2 V c (⟨t, ht'⟩ : Fin cfg2.N).val (⟨t, ht'⟩ : Fin cfg2.N).isLt).2.1 (ix2 u q) = _
  rw [outsAt2_A V c ⟨t, ht'⟩ h0]
  dsimp only
  refine (congrFun (outA5 (F := Ideal) c (grid2.coords ⟨t, ht'⟩) (ms2_0 ⟨t, ht'⟩) (hs2_0 ⟨t, ht'⟩) (ms2_1 ⟨t, ht'⟩) (hs2_1 ⟨t, ht'⟩) (ms2_2 ⟨t, ht'⟩) (hs2_2 ⟨t, ht'⟩) (ms2_3 ⟨t, ht'⟩) (hs2_3 ⟨t, ht'⟩) (ms2_4 ⟨t, ht'⟩) (hs2_4 ⟨t, ht'⟩) (ms2_5 ⟨t, ht'⟩) (hs2_5 ⟨t, ht'⟩) (ms2_6 ⟨t, ht'⟩) (hs2_6 ⟨t, ht'⟩)
    ((hcond2_0 ⟨t, ht'⟩).mpr h0) (iblk2 V c 0 ⟨t, ht'⟩) (iblk2 V c 1 ⟨t, ht'⟩) (iblk2 V c 2 ⟨t, ht'⟩) (iblk2 V c 3 ⟨t, ht'⟩)) (ix2 u q)).trans ?_
  refine (PayLinear.k2_pay4_apply (xaBlk V c ⟨t, ht'⟩) (xbBlk V c ⟨t, ht'⟩) (wBlk V c ⟨t, ht'⟩) (bBlk V c ⟨t, ht'⟩) (k2_pay1 (F := Ideal)) u q).trans ?_
  refine congrArg (fun s : EReal => (k2_pay1 (F := Ideal)) (ix2 u q) + s) (Finset.sum_congr rfl fun p _ => ?_)
  exact pay3_point V c ⟨t, ht'⟩ p q _

/-- At any other point it is what the point before left plus the block's column sum. -/
theorem accSum_step (c : Dev nD) (u : Fin 1) (q : Fin 128) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg2.N := lt_of_lt_of_eq ht N_2.symm
  show (outsAt2 V c (⟨t, ht'⟩ : Fin cfg2.N).val (⟨t, ht'⟩ : Fin cfg2.N).isLt).2.1 (ix2 u q) = _
  rw [outsAt2_B V c ⟨t, ht'⟩ h0]
  dsimp only
  refine (congrFun (outB5 (F := Ideal) c (grid2.coords ⟨t, ht'⟩) (ms2_0 ⟨t, ht'⟩) (hs2_0 ⟨t, ht'⟩) (ms2_1 ⟨t, ht'⟩) (hs2_1 ⟨t, ht'⟩) (ms2_2 ⟨t, ht'⟩) (hs2_2 ⟨t, ht'⟩) (ms2_3 ⟨t, ht'⟩) (hs2_3 ⟨t, ht'⟩) (ms2_4 ⟨t, ht'⟩) (hs2_4 ⟨t, ht'⟩) (ms2_5 ⟨t, ht'⟩) (hs2_5 ⟨t, ht'⟩) (ms2_6 ⟨t, ht'⟩) (hs2_6 ⟨t, ht'⟩)
    (fun h => h0 ((hcond2_0 ⟨t, ht'⟩).mp h)) (iblk2 V c 0 ⟨t, ht'⟩) (iblk2 V c 1 ⟨t, ht'⟩) (iblk2 V c 2 ⟨t, ht'⟩) (iblk2 V c 3 ⟨t, ht'⟩)
    (outsAt2 V c ((⟨t, ht'⟩ : Fin cfg2.N).val - 1) (Nat.lt_of_le_of_lt (Nat.sub_le _ _) (⟨t, ht'⟩ : Fin cfg2.N).isLt)).2.1
    (outsAt2 V c ((⟨t, ht'⟩ : Fin cfg2.N).val - 1) (Nat.lt_of_le_of_lt (Nat.sub_le _ _) (⟨t, ht'⟩ : Fin cfg2.N).isLt)).2.2) (ix2 u q)).trans ?_
  refine (PayLinear.k2_pay4_apply (xaBlk V c ⟨t, ht'⟩) (xbBlk V c ⟨t, ht'⟩) (wBlk V c ⟨t, ht'⟩) (bBlk V c ⟨t, ht'⟩)
    (outsAt2 V c ((⟨t, ht'⟩ : Fin cfg2.N).val - 1) (Nat.lt_of_le_of_lt (Nat.sub_le _ _) (⟨t, ht'⟩ : Fin cfg2.N).isLt)).2.1 u q).trans ?_
  refine congrArg (fun s : EReal => accSum V c u q (t - 1) (Nat.lt_of_le_of_lt (Nat.sub_le t 1) ht) + s)
    (Finset.sum_congr rfl fun p _ => ?_)
  exact pay3_point V c ⟨t, ht'⟩ p q _

/-- After the last point it is the column sum over all 100000 rows. -/
theorem accSum_last (c : Dev nD) (u : Fin 1) (q : Fin 128) :
    accSum V c u q 19 (by norm_num) = colSum (y V c) q :=
  AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k2_pay1 (F := Ideal)) (ix2 u q)) Ideal.ofBits_zero_f32
    (fun t ht h0 => accSum_first V c u q t ht h0) (fun t ht h0 => accSum_step V c u q t ht h0)

/-- The carried column sum of squares at column `q`, after point `t`. -/
def accSumSq (c : Dev nD) (u : Fin 1) (q : Fin 128) : (t : ℕ) → t < 20 → EReal :=
  fun t ht => (outsAt2 V c t (lt_of_lt_of_eq ht N_2.symm)).2.2 (ix2 u q)

/-- At the first point it is the stored zero plus the block's column sum of squares. -/
theorem accSumSq_first (c : Dev nD) (u : Fin 1) (q : Fin 128) (t : ℕ) (ht : t < 20) (h0 : t % 20 = 0) :
    accSumSq V c u q t ht = (k2_pay2 (F := Ideal)) (ix2 u q)
      + ∑ p : Fin 5000, (y V c ⟨t * 5000 + p.val, by have := p.isLt; omega⟩ q * y V c ⟨t * 5000 + p.val, by have := p.isLt; omega⟩ q) := by
  have ht' : t < cfg2.N := lt_of_lt_of_eq ht N_2.symm
  show (outsAt2 V c (⟨t, ht'⟩ : Fin cfg2.N).val (⟨t, ht'⟩ : Fin cfg2.N).isLt).2.2 (ix2 u q) = _
  rw [outsAt2_A V c ⟨t, ht'⟩ h0]
  dsimp only
  refine (congrFun (outA6 (F := Ideal) c (grid2.coords ⟨t, ht'⟩) (ms2_0 ⟨t, ht'⟩) (hs2_0 ⟨t, ht'⟩) (ms2_1 ⟨t, ht'⟩) (hs2_1 ⟨t, ht'⟩) (ms2_2 ⟨t, ht'⟩) (hs2_2 ⟨t, ht'⟩) (ms2_3 ⟨t, ht'⟩) (hs2_3 ⟨t, ht'⟩) (ms2_4 ⟨t, ht'⟩) (hs2_4 ⟨t, ht'⟩) (ms2_5 ⟨t, ht'⟩) (hs2_5 ⟨t, ht'⟩) (ms2_6 ⟨t, ht'⟩) (hs2_6 ⟨t, ht'⟩)
    ((hcond2_0 ⟨t, ht'⟩).mpr h0) (iblk2 V c 0 ⟨t, ht'⟩) (iblk2 V c 1 ⟨t, ht'⟩) (iblk2 V c 2 ⟨t, ht'⟩) (iblk2 V c 3 ⟨t, ht'⟩)) (ix2 u q)).trans ?_
  refine (PayLinear.k2_pay5_apply (xaBlk V c ⟨t, ht'⟩) (xbBlk V c ⟨t, ht'⟩) (wBlk V c ⟨t, ht'⟩) (bBlk V c ⟨t, ht'⟩) (k2_pay2 (F := Ideal)) u q).trans ?_
  refine congrArg (fun s : EReal => (k2_pay2 (F := Ideal)) (ix2 u q) + s) (Finset.sum_congr rfl fun p _ => ?_)
  exact congrArg₂ (fun a b : EReal => a * b) (pay3_point V c ⟨t, ht'⟩ p q _) (pay3_point V c ⟨t, ht'⟩ p q _)

/-- At any other point it is what the point before left plus the block's column sum of squares. -/
theorem accSumSq_step (c : Dev nD) (u : Fin 1) (q : Fin 128) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg2.N := lt_of_lt_of_eq ht N_2.symm
  show (outsAt2 V c (⟨t, ht'⟩ : Fin cfg2.N).val (⟨t, ht'⟩ : Fin cfg2.N).isLt).2.2 (ix2 u q) = _
  rw [outsAt2_B V c ⟨t, ht'⟩ h0]
  dsimp only
  refine (congrFun (outB6 (F := Ideal) c (grid2.coords ⟨t, ht'⟩) (ms2_0 ⟨t, ht'⟩) (hs2_0 ⟨t, ht'⟩) (ms2_1 ⟨t, ht'⟩) (hs2_1 ⟨t, ht'⟩) (ms2_2 ⟨t, ht'⟩) (hs2_2 ⟨t, ht'⟩) (ms2_3 ⟨t, ht'⟩) (hs2_3 ⟨t, ht'⟩) (ms2_4 ⟨t, ht'⟩) (hs2_4 ⟨t, ht'⟩) (ms2_5 ⟨t, ht'⟩) (hs2_5 ⟨t, ht'⟩) (ms2_6 ⟨t, ht'⟩) (hs2_6 ⟨t, ht'⟩)
    (fun h => h0 ((hcond2_0 ⟨t, ht'⟩).mp h)) (iblk2 V c 0 ⟨t, ht'⟩) (iblk2 V c 1 ⟨t, ht'⟩) (iblk2 V c 2 ⟨t, ht'⟩) (iblk2 V c 3 ⟨t, ht'⟩)
    (outsAt2 V c ((⟨t, ht'⟩ : Fin cfg2.N).val - 1) (Nat.lt_of_le_of_lt (Nat.sub_le _ _) (⟨t, ht'⟩ : Fin cfg2.N).isLt)).2.1
    (outsAt2 V c ((⟨t, ht'⟩ : Fin cfg2.N).val - 1) (Nat.lt_of_le_of_lt (Nat.sub_le _ _) (⟨t, ht'⟩ : Fin cfg2.N).isLt)).2.2) (ix2 u q)).trans ?_
  refine (PayLinear.k2_pay5_apply (xaBlk V c ⟨t, ht'⟩) (xbBlk V c ⟨t, ht'⟩) (wBlk V c ⟨t, ht'⟩) (bBlk V c ⟨t, ht'⟩)
    (outsAt2 V c ((⟨t, ht'⟩ : Fin cfg2.N).val - 1) (Nat.lt_of_le_of_lt (Nat.sub_le _ _) (⟨t, ht'⟩ : Fin cfg2.N).isLt)).2.2 u q).trans ?_
  refine congrArg (fun s : EReal => accSumSq V c u q (t - 1) (Nat.lt_of_le_of_lt (Nat.sub_le t 1) ht) + s)
    (Finset.sum_congr rfl fun p _ => ?_)
  exact congrArg₂ (fun a b : EReal => a * b) (pay3_point V c ⟨t, ht'⟩ p q _) (pay3_point V c ⟨t, ht'⟩ p q _)

/-- After the last point it is the column sum of squares over all 100000 rows. -/
theorem accSumSq_last (c : Dev nD) (u : Fin 1) (q : Fin 128) :
    accSumSq V c u q 19 (by norm_num) = colSumSq (y V c) q :=
  AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k2_pay2 (F := Ideal)) (ix2 u q)) Ideal.ofBits_zero_f32
    (fun t ht h0 => accSumSq_first V c u q t ht h0) (fun t ht h0 => accSumSq_step V c u q t ht h0)

/-! ## From the blocks to the arrays -/

/-- Row `p`, column `q` of the output's block at point `t` is row 5000·t + p, column q of the array: a block's coordinate
    is its index times its extent plus the coordinate inside it. -/
theorem emb_out (t : Fin cfg2.N) (p : Fin 5000) (q : Fin 128) (h : t.val * 5000 + p.val < 100000) :
    ((cfg2.win 4).blk t).view.emb (ix2 p q) = (ix2 ⟨t.val * 5000 + p.val, h⟩ q : S100000x128.Idx) := by
  obtain ⟨-, -, -, -, -, -, -, -, e40, e41, -⟩ := idx_facts t
  funext a; apply Fin.ext
  match a with
  | ⟨0, _⟩ => show win2_4.index t (0 : Fin 2) * 5000 + 1 * p.val = t.val * 5000 + p.val; omega
  | ⟨1, _⟩ => show win2_4.index t (1 : Fin 2) * 128 + 1 * q.val = q.val; omega

/-- What point `t` writes back for the output is block `t` of `resultY`. -/
theorem flushedY_eq (c : Dev nD) (t : Fin cfg2.N) :
    (dat2 (F := Ideal) V c).flushed 4 t = ((cfg2.win 4).blk t).view.read (Elt Ideal) (resultY V c) := by
  show (cfg2.win 4).cut (grid2.coords t) ((dat2 V c).after 4 t) = _
  rw [after2_4]
  have ht : t.val < 20 := Nat.lt_of_lt_of_eq t.isLt N_2
  funext j
  obtain ⟨p, q, rfl⟩ : ∃ (p : Fin 5000) (q : Fin 128), j = ix2 p q := ⟨j 0, j 1, eq_ix2 j⟩
  have h : t.val * 5000 + p.val < 100000 := by have := p.isLt; omega
  show (outsAt2 V c t.val t.isLt).1 (ix2 p q) = resultY V c (((cfg2.win 4).blk t).view.emb (ix2 p q))
  refine (congrFun (outsY_eq V c t) (ix2 p q)).trans ?_
  refine (pay3_point V c t p q h).trans ?_
  exact (congrArg (resultY V c) (emb_out t p q h)).symm

/-- An entry of the array lies in point `t`'s block exactly when each of its coordinates lies in the block's range. -/
theorem mem_blkY (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v27_0).slice (win2_4.rect t)).set ↔ _
  rw [View.set_slice_whole, Rect.mem_set_unit]
  exact Iff.rfl

/-- The twenty blocks tile the array: row `r` is in the block of point `r / 5000`, and every point writes its block back. -/
theorem coverY (i : S100000x128.Idx) :
    ∃ t : Fin cfg2.N, (cfg2.win 4).flush t = true ∧ i ∈ ((cfg2.win 4).blk t).view.set := by
  have hi0 : (i 0).val < 100000 := idx2_lt0 i
  have hi1 : (i 1).val < 128 := idx2_lt1 i
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, -, e40, e41, -⟩ := idx_facts t
  refine ⟨t, flush2_4 t, ?_⟩
  rw [mem_blkY]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 128 ≤ (i 1).val ∧ (i 1).val < win2_4.index t (1 : Fin 2) * 128 + 128
    omega

/-- At a point whose number is 19 the carried column sum is the one over all rows. -/
theorem accSum_at_last (c : Dev nD) (u : Fin 1) (q : Fin 128) (n : ℕ) (hn : n < 20) (h19 : n = 19) :
    accSum V c u q n hn = colSum (y V c) q := by
  subst h19
  exact accSum_last V c u q

/-- The carried row of window 5 after the last point is the whole of `resultSum`. -/
theorem outs5_last (c : Dev nD) (t : Fin cfg2.N) (h19 : t.val = 19) :
    (outsAt2 V c t.val t.isLt).2.1 = resultSum V c := by
  funext j
  obtain ⟨u, q, rfl⟩ : ∃ (u : Fin 1) (q : Fin 128), j = ix2 u q := ⟨j 0, j 1, eq_ix2 j⟩
  exact accSum_at_last V c u q t.val (Nat.lt_of_lt_of_eq t.isLt N_2) h19

/-- What the last point writes back for window 5 is the whole of `resultSum`: the window's one block lies at offset zero,
    so it reads the whole row. -/
theorem flushed5_eq (c : Dev nD) (t : Fin cfg2.N) (hf : (cfg2.win 5).flush t = true) :
    (dat2 (F := Ideal) V c).flushed 5 t = ((cfg2.win 5).blk t).view.read (Elt Ideal) (resultSum V c) := by
  have hN : t.val < 20 := Nat.lt_of_lt_of_eq t.isLt N_2
  have h19 : t.val = 19 := by have := (flush2_5 t).mp hf; omega
  obtain ⟨-, -, -, -, -, -, -, -, -, -, eS0, eS1, eQ0, eQ1⟩ := idx_facts t
  have hz' : (fun a => win2_5.index t a * main_v27_1.ty.shape.size a) = fun _ => 0 := funext fun a => by
    match a with
    | ⟨0, _⟩ => show win2_5.index t (0 : Fin 2) * 1 = 0; omega
    | ⟨1, _⟩ => show win2_5.index t (1 : Fin 2) * 128 = 0; omega
  show (cfg2.win 5).cut (grid2.coords t) ((dat2 V c).after 5 t) = _
  rw [after2_5, outs5_last V c t h19]
  exact (Memref.read_access_unit_zero (Elt Ideal) main_v27_1 hz' (fun a => by rw [congrFun hz' a]; simp) (resultSum V c)).symm

/-- An entry of the row lies in point `t`'s block of window 5 exactly when each coordinate lies in the block's range. -/
theorem mem_blk5 (t : Fin cfg2.N) (i : S1x128.Idx) :
    i ∈ ((cfg2.win 5).blk t).view.set ↔ ∀ a : Fin 2, win2_5.index t a * S1x128.size a ≤ (i a).val
      ∧ (i a).val < win2_5.index t a * S1x128.size a + S1x128.size a := by
  show i ∈ ((View.whole main_v27_1).slice (win2_5.rect t)).set ↔ _
  rw [View.set_slice_whole, Rect.mem_set_unit]
  exact Iff.rfl

/-- The last point's block of window 5 is the whole row, and the last point writes it back. -/
theorem cover5 (i : S1x128.Idx) :
    ∃ t : Fin cfg2.N, (cfg2.win 5).flush t = true ∧ i ∈ ((cfg2.win 5).blk t).view.set := by
  have hi0 : (i 0).val < 1 := idx2_lt0 i
  have hi1 : (i 1).val < 128 := idx2_lt1 i
  obtain ⟨t, ht⟩ : ∃ t : Fin cfg2.N, t.val = 19 := ⟨⟨19, by rw [show cfg2.N = 20 from N_2]; norm_num⟩, rfl⟩
  obtain ⟨-, -, -, -, -, -, -, -, -, -, eS0, eS1, eQ0, eQ1⟩ := idx_facts t
  refine ⟨t, (flush2_5 t).mpr (by omega), ?_⟩
  rw [mem_blk5]
  intro a
  match a with
  | ⟨0, _⟩ =>
    show win2_5.index t (0 : Fin 2) * 1 ≤ (i 0).val ∧ (i 0).val < win2_5.index t (0 : Fin 2) * 1 + 1
    omega
  | ⟨1, _⟩ =>
    show win2_5.index t (1 : Fin 2) * 128 ≤ (i 1).val ∧ (i 1).val < win2_5.index t (1 : Fin 2) * 128 + 128
    omega

/-- At a point whose number is 19 the carried column sum of squares is the one over all rows. -/
theorem accSumSq_at_last (c : Dev nD) (u : Fin 1) (q : Fin 128) (n : ℕ) (hn : n < 20) (h19 : n = 19) :
    accSumSq V c u q n hn = colSumSq (y V c) q := by
  subst h19
  exact accSumSq_last V c u q

/-- The carried row of window 6 after the last point is the whole of `resultSumSq`. -/
theorem outs6_last (c : Dev nD) (t : Fin cfg2.N) (h19 : t.val = 19) :
    (outsAt2 V c t.val t.isLt).2.2 = resultSumSq V c := by
  funext j
  obtain ⟨u, q, rfl⟩ : ∃ (u : Fin 1) (q : Fin 128), j = ix2 u q := ⟨j 0, j 1, eq_ix2 j⟩
  exact accSumSq_at_last V c u q t.val (Nat.lt_of_lt_of_eq t.isLt N_2) h19

/-- What the last point writes back for window 6 is the whole of `resultSumSq`: the window's one block lies at offset zero,
    so it reads the whole row. -/
theorem flushed6_eq (c : Dev nD) (t : Fin cfg2.N) (hf : (cfg2.win 6).flush t = true) :
    (dat2 (F := Ideal) V c).flushed 6 t = ((cfg2.win 6).blk t).view.read (Elt Ideal) (resultSumSq V c) := by
  have hN : t.val < 20 := Nat.lt_of_lt_of_eq t.isLt N_2
  have h19 : t.val = 19 := by have := (flush2_6 t).mp hf; omega
  obtain ⟨-, -, -, -, -, -, -, -, -, -, eS0, eS1, eQ0, eQ1⟩ := idx_facts t
  have hz' : (fun a => win2_6.index t a * main_v27_2.ty.shape.size a) = fun _ => 0 := funext fun a => by
    match a with
    | ⟨0, _⟩ => show win2_6.index t (0 : Fin 2) * 1 = 0; omega
    | ⟨1, _⟩ => show win2_6.index t (1 : Fin 2) * 128 = 0; omega
  show (cfg2.win 6).cut (grid2.coords t) ((dat2 V c).after 6 t) = _
  rw [after2_6, outs6_last V c t h19]
  exact (Memref.read_access_unit_zero (Elt Ideal) main_v27_2 hz' (fun a => by rw [congrFun hz' a]; simp) (resultSumSq V c)).symm

/-- An entry of the row lies in point `t`'s block of window 6 exactly when each coordinate lies in the block's range. -/
theorem mem_blk6 (t : Fin cfg2.N) (i : S1x128.Idx) :
    i ∈ ((cfg2.win 6).blk t).view.set ↔ ∀ a : Fin 2, win2_6.index t a * S1x128.size a ≤ (i a).val
      ∧ (i a).val < win2_6.index t a * S1x128.size a + S1x128.size a := by
  show i ∈ ((View.whole main_v27_2).slice (win2_6.rect t)).set ↔ _
  rw [View.set_slice_whole, Rect.mem_set_unit]
  exact Iff.rfl

/-- The last point's block of window 6 is the whole row, and the last point writes it back. -/
theorem cover6 (i : S1x128.Idx) :
    ∃ t : Fin cfg2.N, (cfg2.win 6).flush t = true ∧ i ∈ ((cfg2.win 6).blk t).view.set := by
  have hi0 : (i 0).val < 1 := idx2_lt0 i
  have hi1 : (i 1).val < 128 := idx2_lt1 i
  obtain ⟨t, ht⟩ : ∃ t : Fin cfg2.N, t.val = 19 := ⟨⟨19, by rw [show cfg2.N = 20 from N_2]; norm_num⟩, rfl⟩
  obtain ⟨-, -, -, -, -, -, -, -, -, -, eS0, eS1, eQ0, eQ1⟩ := idx_facts t
  refine ⟨t, (flush2_6 t).mpr (by omega), ?_⟩
  rw [mem_blk6]
  intro a
  match a with
  | ⟨0, _⟩ =>
    show win2_6.index t (0 : Fin 2) * 1 ≤ (i 0).val ∧ (i 0).val < win2_6.index t (0 : Fin 2) * 1 + 1
    omega
  | ⟨1, _⟩ =>
    show win2_6.index t (1 : Fin 2) * 128 ≤ (i 1).val ∧ (i 1).val < win2_6.index t (1 : Fin 2) * 128 + 128
    omega

/-- THE INTERFACE of this region, one statement per output window. -/
theorem arrAt_y (c : Dev nD) : (dat2 (F := Ideal) V c).arrAt 4 cfg2.N = resultY V c :=
  (dat2 V c).arrAt_eq_of_cover 4 (resultY V c) (fun t _ => flushedY_eq V c t) coverY

theorem arrAt_sum (c : Dev nD) : (dat2 (F := Ideal) V c).arrAt 5 cfg2.N = resultSum V c :=
  (dat2 V c).arrAt_eq_of_cover 5 (resultSum V c) (fun t hf => flushed5_eq V c t hf) cover5

theorem arrAt_sumsq (c : Dev nD) : (dat2 (F := Ideal) V c).arrAt 6 cfg2.N = resultSumSq V c :=
  (dat2 V c).arrAt_eq_of_cover 6 (resultSumSq V c) (fun t hf => flushed6_eq V c t hf) cover6

end Cert.KernelIdeal.ValAdd2_2

end
-- ==== Proof.ValNorm3Pay.lean ====
/-
  Region 3's arithmetic: what the normalisation's body computes at one row and column of a block, from the block of the
  linear stage's output and the four statistic and parameter rows. This normalisation is not followed by max(·, 0).
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm3

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block. -/
theorem pay_apply (var : Vec Ideal S1x128 .f32) (y : Vec Ideal S5000x128 .f32) (mean g beta : Vec Ideal S1x128 .f32)
    (p : Fin 5000) (q : Fin 128) :
    k3_pay1 (F := Ideal) var y mean g beta (ix2 p q)
      = StageSpec.norm (y (ix2 p q)) (mean (ix2 (0 : Fin 1) q)) (var (ix2 (0 : Fin 1) q)) (g (ix2 (0 : Fin 1) q)) (beta (ix2 (0 : Fin 1) q)) := by
  unfold k3_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The two zero offsets of a load or a store of a whole buffer. -/
theorem hz : (![0, 0] : Fin 2 → Nat) = fun _ => 0 := funext fun a => by fin_cases a <;> rfl

end Cert.KernelIdeal.ValNorm3

end
-- ==== Proof.ValNorm3.lean ====
/-
  Region 3: a normalisation with no max(·, 0) after it. Every grid point takes a block of 5000 rows of the linear stage's
  output and the four statistic and parameter rows, and writes back, entry by entry, the normalised value.
  The twenty blocks tile the 100000 rows, so the output array as a whole is that function of the region's input arrays.
-/
import proofs.«414479_j7705171329025_1_alg».proof.Proof.FrameKI.R3
import proofs.«414479_j7705171329025_1_alg».proof.Proof.StageSpec
import proofs.«414479_j7705171329025_1_alg».proof.Proof.ValNorm3Pay
import Idealize.ShloMosaic.Lib.Pipeline.Value
import Idealize.ShloMosaic.Lib.ValueIdx
import Idealize.ShloMosaic.Lib.ValueLayout

set_option maxRecDepth 16384

noncomputable section

namespace Cert.KernelIdeal.ValNorm3

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x128 .f32 := V c (Pipeline.arrRef spec3 0)
abbrev meanRow (c : Dev nD) : Vec Ideal S1x128 .f32 := V c (Pipeline.arrRef spec3 1)
abbrev varRow (c : Dev nD) : Vec Ideal S1x128 .f32 := V c (Pipeline.arrRef spec3 2)
abbrev gRow (c : Dev nD) : Vec Ideal S1x128 .f32 := V c (Pipeline.arrRef spec3 3)
abbrev betaRow (c : Dev nD) : Vec Ideal S1x128 .f32 := V c (Pipeline.arrRef spec3 4)

/-- What the region leaves in its output array: the normalised entry, at every row and column. -/
def result (c : Dev nD) : Vec Ideal S100000x128 .f32 := fun i =>
  StageSpec.norm (yArr V c i) (meanRow V c (ix2 (0 : Fin 1) (i 1))) (varRow V c (ix2 (0 : Fin 1) (i 1)))
    (gRow V c (ix2 (0 : Fin 1) (i 1))) (betaRow V c (ix2 (0 : Fin 1) (i 1)))

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x128 .f32) (x1 x2 x3 x4 : Vec Ideal S1x128 .f32) (p : Fin 5000) (q : Fin 128) :
    out3_5 x0 x1 x2 x3 x4 (ix2 p q)
      = StageSpec.norm (x0 (ix2 p q)) (x1 (ix2 (0 : Fin 1) q)) (x2 (ix2 (0 : Fin 1) q)) (x3 (ix2 (0 : Fin 1) q)) (x4 (ix2 (0 : Fin 1) q)) := by
  unfold out3_5
  rw [View.canon_unit_zero hz]
  simp only [View.ld_unit_zero (S := S1x128) hz, View.ld_unit_zero (S := S5000x128) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p`, column `q` of the output's block at point `t` is row 5000·t + p, column q of the array: a block's coordinate
    is its index times its extent plus the coordinate inside it. -/
theorem emb_out (t : Fin cfg3.N) (p : Fin 5000) (q : Fin 128) (h : t.val * 5000 + p.val < 100000) :
    ((cfg3.win 5).blk t).view.emb (ix2 p q) = (ix2 ⟨t.val * 5000 + p.val, h⟩ q : S100000x128.Idx) := by
  obtain ⟨-, -, -, -, -, -, -, -, -, -, e50, e51⟩ := idx_facts t
  funext a; apply Fin.ext
  match a with
  | ⟨0, _⟩ => show win3_5.index t (0 : Fin 2) * 5000 + 1 * p.val = t.val * 5000 + p.val; omega
  | ⟨1, _⟩ => show win3_5.index t (1 : Fin 2) * 128 + 1 * q.val = q.val; omega

/-- The tall input's block at point `t`, read at (p, q), is the array at row 5000·t + p, column q: the same rows the
    output's block has there. -/
theorem y_apply (c : Dev nD) (t : Fin cfg3.N) (p : Fin 5000) (q : Fin 128) (h : t.val * 5000 + p.val < 100000) :
    (iblk3 V c 0 t : Vec Ideal S5000x128 .f32) (ix2 p q) = yArr V c (ix2 ⟨t.val * 5000 + p.val, h⟩ q) := by
  obtain ⟨e00, e01, -⟩ := idx_facts t
  unfold iblk3
  rw [View.read_apply]
  show yArr V c (((cfg3.win 0).blk t).view.emb (ix2 p q)) = _
  refine congrArg (yArr V c) ?_
  funext a; apply Fin.ext
  match a with
  | ⟨0, _⟩ => show win3_0.index t (0 : Fin 2) * 5000 + 1 * p.val = t.val * 5000 + p.val; omega
  | ⟨1, _⟩ => show win3_0.index t (1 : Fin 2) * 128 + 1 * q.val = q.val; omega

/-- The mean row's block, at every point, is the row. -/
theorem mean_apply (c : Dev nD) (t : Fin cfg3.N) (q : Fin 128) :
    (iblk3 V c 1 t : Vec Ideal S1x128 .f32) (ix2 (0 : Fin 1) q) = meanRow V c (ix2 (0 : Fin 1) q) := by
  obtain ⟨-, -, e10, e11, -⟩ := idx_facts t
  unfold iblk3
  rw [View.read_apply]
  show meanRow V c (((cfg3.win 1).blk t).view.emb (ix2 (0 : Fin 1) q)) = _
  refine congrArg (meanRow V c) ?_
  funext a; apply Fin.ext
  match a with
  | ⟨0, _⟩ => show win3_1.index t (0 : Fin 2) * 1 + 1 * 0 = 0; omega
  | ⟨1, _⟩ => show win3_1.index t (1 : Fin 2) * 128 + 1 * q.val = q.val; omega

/-- The variance row's block, at every point, is the row. -/
theorem var_apply (c : Dev nD) (t : Fin cfg3.N) (q : Fin 128) :
    (iblk3 V c 2 t : Vec Ideal S1x128 .f32) (ix2 (0 : Fin 1) q) = varRow V c (ix2 (0 : Fin 1) q) := by
  obtain ⟨-, -, -, -, e20, e21, -⟩ := idx_facts t
  unfold iblk3
  rw [View.read_apply]
  show varRow V c (((cfg3.win 2).blk t).view.emb (ix2 (0 : Fin 1) q)) = _
  refine congrArg (varRow V c) ?_
  funext a; apply Fin.ext
  match a with
  | ⟨0, _⟩ => show win3_2.index t (0 : Fin 2) * 1 + 1 * 0 = 0; omega
  | ⟨1, _⟩ => show win3_2.index t (1 : Fin 2) * 128 + 1 * q.val = q.val; omega

/-- The scale row's block, at every point, is the row. -/
theorem g_apply (c : Dev nD) (t : Fin cfg3.N) (q : Fin 128) :
    (iblk3 V c 3 t : Vec Ideal S1x128 .f32) (ix2 (0 : Fin 1) q) = gRow V c (ix2 (0 : Fin 1) q) := by
  obtain ⟨-, -, -, -, -, -, e30, e31, -⟩ := idx_facts t
  unfold iblk3
  rw [View.read_apply]
  show gRow V c (((cfg3.win 3).blk t).view.emb (ix2 (0 : Fin 1) q)) = _
  refine congrArg (gRow V c) ?_
  funext a; apply Fin.ext
  match a with
  | ⟨0, _⟩ => show win3_3.index t (0 : Fin 2) * 1 + 1 * 0 = 0; omega
  | ⟨1, _⟩ => show win3_3.index t (1 : Fin 2) * 128 + 1 * q.val = q.val; omega

/-- The shift row's block, at every point, is the row. -/
theorem beta_apply (c : Dev nD) (t : Fin cfg3.N) (q : Fin 128) :
    (iblk3 V c 4 t : Vec Ideal S1x128 .f32) (ix2 (0 : Fin 1) q) = betaRow V c (ix2 (0 : Fin 1) q) := by
  obtain ⟨-, -, -, -, -, -, -, -, e40, e41, -⟩ := idx_facts t
  unfold iblk3
  rw [View.read_apply]
  show betaRow V c (((cfg3.win 4).blk t).view.emb (ix2 (0 : Fin 1) q)) = _
  refine congrArg (betaRow V c) ?_
  funext a; apply Fin.ext
  match a with
  | ⟨0, _⟩ => show win3_4.index t (0 : Fin 2) * 1 + 1 * 0 = 0; omega
  | ⟨1, _⟩ => show win3_4.index t (1 : Fin 2) * 128 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg3.N) :
    (dat3 (F := Ideal) V c).flushed 5 t = ((cfg3.win 5).blk t).view.read (Elt Ideal) (result V c) := by
  show (cfg3.win 5).cut (grid3.coords t) ((dat3 V c).after 5 t) = _
  rw [after3_5]
  have ht : t.val < 20 := Nat.lt_of_lt_of_eq t.isLt N_3
  funext j
  obtain ⟨p, q, rfl⟩ : ∃ (p : Fin 5000) (q : Fin 128), j = ix2 p q := ⟨j 0, j 1, eq_ix2 j⟩
  have h : t.val * 5000 + p.val < 100000 := by have := p.isLt; omega
  show out3_5 (iblk3 V c 0 t) (iblk3 V c 1 t) (iblk3 V c 2 t) (iblk3 V c 3 t) (iblk3 V c 4 t) (ix2 p q)
      = result V c (((cfg3.win 5).blk t).view.emb (ix2 p q))
  refine (out_apply (iblk3 V c 0 t) (iblk3 V c 1 t) (iblk3 V c 2 t) (iblk3 V c 3 t) (iblk3 V c 4 t) p q).trans ?_
  refine Eq.trans ?_ (congrArg (result V c) (emb_out t p q h)).symm
  refine Eq.trans ?_ (show StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v40).slice (win3_5.rect t)).set ↔ _
  rw [View.set_slice_whole, Rect.mem_set_unit]
  exact Iff.rfl

/-- The twenty blocks tile the array: row `r` is in the block of point `r / 5000`, and every point writes its block back. -/
theorem cover (i : S100000x128.Idx) :
    ∃ t : Fin cfg3.N, (cfg3.win 5).flush t = true ∧ i ∈ ((cfg3.win 5).blk t).view.set := by
  have hi0 : (i 0).val < 100000 := idx2_lt0 i
  have hi1 : (i 1).val < 128 := idx2_lt1 i
  obtain ⟨t, ht⟩ : ∃ t : Fin cfg3.N, t.val = (i 0).val / 5000 :=
    ⟨⟨(i 0).val / 5000, by rw [show cfg3.N = 20 from N_3]; omega⟩, rfl⟩
  obtain ⟨-, -, -, -, -, -, -, -, -, -, e50, e51⟩ := idx_facts t
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-- THE INTERFACE of this region: after its twenty points the output array is `result`. -/
theorem arrAt_out (c : Dev nD) : (dat3 (F := Ideal) V c).arrAt 5 cfg3.N = result V c := by
  exact (dat3 V c).arrAt_eq_of_cover 5 (result V c) (fun t _ => flushed_eq V c t) cover

end Cert.KernelIdeal.ValNorm3

end
-- ==== Proof.HostHop2.lean ====
/-
  The host operations before the first hop's region. They form the neighbour sum of the embedding's output: each edge's
  source index is normalised (a negative one counted from the end), the source rows are gathered along the edges and
  added into zeros at the edges' destinations. They also take the hop's square out of the stacked weights and the
  hop's row out of the stacked biases, and make the row of zeros the projection later uses as its bias. Read here at
  any contents of the buffers before the stretch.
-/
import proofs.«414479_j7705171329025_1_alg».proof.Proof.Gen.KernelIdeal.Launch
import Idealize.ShloMosaic.Lib.StableHlo.Run

noncomputable section

namespace Cert.KernelIdeal.HostHop2

open Cert.KernelIdeal Cert.KernelIdeal.Gen
open Idealize.ShloMosaic Idealize.ShloMosaic.TcCoe Idealize.ShloMosaic.StableHlo

variable {F : FTy → Type} [FloatOps F]
variable (W : Valuation τ sig (Elt F))

/-- The neighbour sum of one hop. Every edge carries the row of its source (a negative source index is counted from
    the end: 100000 is added to it) to the row of its destination, and the rows that arrive at one destination are
    added up, starting from zero. The gather and the scatter-add stay closed: both sides of the claim hold the same
    two functions. -/
def pooled (x : (⟨S100000x128, .f32⟩ : BufTy).Contents (Elt F)) (src dst : (⟨S800000, .i32⟩ : BufTy).Contents (Elt F)) :
    (⟨S100000x128, .f32⟩ : BufTy).Contents (Elt F) :=
  Host.scatterAdd (F := F) scatter_S100000x128_S800000x1_S800000x128_1_0_0_1
    (broadcastInDim S100000x128 ![] bcast_S_S100000x128 (constant (F := F) S_ .f32 0x00000000#32))
    (broadcastInDim S800000x1 ![0] bcast_S800000_S800000x1_0 dst)
    (Host.gather gather_S100000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The hop's square of the stacked weights: one 128 by 128 slab, its leading axis of extent one dropped. -/
def wOf (p : (⟨S3x128x128, .f32⟩ : BufTy).Contents (Elt F)) : (⟨S128x128, .f32⟩ : BufTy).Contents (Elt F) :=
  shapeCast S128x128 (extractStridedSlice S1x128x128 ![0, 0, 0] p slices_S3x128x128_S1x128x128_0_0_0) shapeCasts_S1x128x128_S128x128

/-- The hop's row of the stacked biases, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![0, 0] p slices_S3x128_S1x128_0_0) shapeCasts_S1x128_S128)
    shapeCasts_S128_S1x128

/-- The neighbour sum of the embedding's output. -/
theorem read_pooled : (StableHlo.after hostOps2 W (Proc.devRef .tc main_v21) : (⟨S100000x128, .f32⟩ : BufTy).Contents (Elt F))
    = pooled (W (Proc.devRef .tc main_v10)) (W (Proc.devRef .tc main_arg1)) (W (Proc.devRef .tc main_arg2)) := by
  after_results_simp <;> rfl

/-- The hop's weights. -/
theorem read_w : (StableHlo.after hostOps2 W (Proc.devRef .tc main_v23) : (⟨S128x128, .f32⟩ : BufTy).Contents (Elt F))
    = wOf (W (Proc.devRef .tc main_arg8)) := by
  after_results; rfl

/-- The hop's bias row. -/
theorem read_b : (StableHlo.after hostOps2 W (Proc.devRef .tc main_v26) : (⟨S1x128, .f32⟩ : BufTy).Contents (Elt F))
    = rowOf (W (Proc.devRef .tc main_arg9)) := by
  after_results; rfl

/-- The 128 zeros. -/
theorem read_zeros : (StableHlo.after hostOps2 W (Proc.devRef .tc main_v11) : (⟨S128, .f32⟩ : BufTy).Contents (Elt F))
    = broadcastInDim S128 ![] bcast_S_S128 (constant (F := F) S_ .f32 0x00000000#32) := by
  after_results

/-- The embedding's output, which the hop's region also stages, is not written. -/
theorem read_keep : StableHlo.after hostOps2 W (Proc.devRef .tc main_v10) = W (Proc.devRef .tc main_v10) := by
  refine StableHlo.after_of_forall_not_mem _ _ fun op h => ?_
  fin_cases h <;> simp only [nullary_writes, unary_writes, binary_writes, ternary_writes, reshape_writes, Finset.mem_singleton] <;>
    exact devRef_ne_of_ne (by decide)

/-- The references the stretch writes, in order. -/
abbrev written : List (Ref sig .tc) :=
  [main_cst_1, main_v11, main_c, main_v12, main_v13, main_c_2, main_v14, main_v15, main_v16, main_v17, main_v18, main_cst_3, main_v19, main_v20, main_v21, main_v22, main_v23, main_v24, main_v25, main_v26]

/-- Every operation of the stretch writes one of them. -/
theorem writes : (hostOps2 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A reference the stretch does not write keeps its contents. -/
theorem keep {r : Ref sig .tc} (h : r ∉ written) : StableHlo.after hostOps2 W (Proc.devRef .tc r) = W (Proc.devRef .tc r) :=
  StableHlo.after_of_writes_sub hostOps2 W writes h

end Cert.KernelIdeal.HostHop2

end
-- ==== Proof.HostStats3.lean ====
/-
  The host operations between a linear stage and its normalisation, where the scale and the shift of the batch norm
  are one row of a stacked parameter. From the two carried rows the region leaves (the column sums and the column sums
  of squares) they form the mean (the sum over 100000), the mean of squares, and the variance as the mean of squares
  less the squared mean; and they take the stage's row out of the stacked scale and the stacked shift, flatten it and
  lay it out as a row again. Read here at any contents of the buffers before the stretch.
-/
import proofs.«414479_j7705171329025_1_alg».proof.Proof.Gen.KernelIdeal.Launch
import Idealize.ShloMosaic.Lib.StableHlo.Run

noncomputable section

namespace Cert.KernelIdeal.HostStats3

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x128, .f32⟩ : BufTy).Contents (Elt F) := broadcastInDim S1x128 ![] bcast_S_S1x128 (constant S_ .f32 0x47C35000#32)

/-- One row of a stacked parameter, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![0, 0] p slices_S3x128_S1x128_0_0) shapeCasts_S1x128_S128)
    shapeCasts_S128_S1x128

/-- The mean row: the column sums over the divisor. -/
theorem read_mean : (StableHlo.after hostOps3 W (Proc.devRef .tc main_v29) : (⟨S1x128, .f32⟩ : BufTy).Contents (Elt F))
    = Host.divf (W (Proc.devRef .tc main_v27_1)) nRow := by
  after_results; rfl

/-- The variance row: the mean of squares less the squared mean. -/
theorem read_var : (StableHlo.after hostOps3 W (Proc.devRef .tc main_v33) : (⟨S1x128, .f32⟩ : BufTy).Contents (Elt F))
    = subf (Host.divf (W (Proc.devRef .tc main_v27_2)) nRow)
        (mulf (Host.divf (W (Proc.devRef .tc main_v27_1)) nRow) (Host.divf (W (Proc.devRef .tc main_v27_1)) nRow)) := by
  after_results; rfl

/-- The scale row: the stage's row of the stacked scale. -/
theorem read_g : (StableHlo.after hostOps3 W (Proc.devRef .tc main_v38) : (⟨S1x128, .f32⟩ : BufTy).Contents (Elt F))
    = rowOf (W (Proc.devRef .tc main_arg10)) := by
  after_results; rfl

/-- The shift row: the stage's row of the stacked shift. -/
theorem read_beta : (StableHlo.after hostOps3 W (Proc.devRef .tc main_v39) : (⟨S1x128, .f32⟩ : BufTy).Contents (Elt F))
    = rowOf (W (Proc.devRef .tc main_arg11)) := by
  after_results; rfl

/-- A buffer the stretch does not write keeps its contents: the linear stage's output array. -/
theorem read_y : StableHlo.after hostOps3 W (Proc.devRef .tc main_v27_0) = W (Proc.devRef .tc main_v27_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats3

end
-- ==== Proof.Carry2.lean ====
import proofs.«414479_j7705171329025_1_alg».proof.Proof.FrameKI.Run

set_option maxRecDepth 16384

noncomputable section

namespace Cert.KernelIdeal.Carry

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- Nothing between boundary 0 and boundary 4 of the run writes `main_arg8`: it keeps its contents. -/
theorem main_arg8_0_4 (c : Dev nD) : W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 4 of the run writes `main_arg9`: it keeps its contents. -/
theorem main_arg9_0_4 (c : Dev nD) : W4 m ρ c (Proc.devRef .tc main_arg9) = W0 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 6 of the run writes `main_arg10`: it keeps its contents. -/
theorem main_arg10_0_6 (c : Dev nD) : W6 m ρ c (Proc.devRef .tc main_arg10) = W0 m ρ c (Proc.devRef .tc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 6 of the run writes `main_arg11`: it keeps its contents. -/
theorem main_arg11_0_6 (c : Dev nD) : W6 m ρ c (Proc.devRef .tc main_arg11) = W0 m ρ c (Proc.devRef .tc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 8 of the run writes `main_arg1`: it keeps its contents. -/
theorem main_arg1_0_8 (c : Dev nD) : W8 m ρ c (Proc.devRef .tc main_arg1) = W0 m ρ c (Proc.devRef .tc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 8 of the run writes `main_arg2`: it keeps its contents. -/
theorem main_arg2_0_8 (c : Dev nD) : W8 m ρ c (Proc.devRef .tc main_arg2) = W0 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 8 of the run writes `main_arg8`: it keeps its contents. -/
theorem main_arg8_0_8 (c : Dev nD) : W8 m ρ c (Proc.devRef .tc main_arg8) = W0 m ρ c (Proc.devRef .tc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 8 of the run writes `main_arg9`: it keeps its contents. -/
theorem main_arg9_0_8 (c : Dev nD) : W8 m ρ c (Proc.devRef .tc main_arg9) = W0 m ρ c (Proc.devRef .tc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 10 of the run writes `main_arg10`: it keeps its contents. -/
theorem main_arg10_0_10 (c : Dev nD) : W10 m ρ c (Proc.devRef .tc main_arg10) = W0 m ρ c (Proc.devRef .tc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 10 of the run writes `main_arg11`: it keeps its contents. -/
theorem main_arg11_0_10 (c : Dev nD) : W10 m ρ c (Proc.devRef .tc main_arg11) = W0 m ρ c (Proc.devRef .tc main_arg11) :=
  calc W10 m ρ c (Proc.devRef .tc main_arg11)
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 12 of the run writes `main_arg1`: it keeps its contents. -/
theorem main_arg1_0_12 (c : Dev nD) : W12 m ρ c (Proc.devRef .tc main_arg1) = W0 m ρ c (Proc.devRef .tc main_arg1) :=
  calc W12 m ρ c (Proc.devRef .tc main_arg1)
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Carry

end
-- ==== Proof.LibSegmentSum.lean ====
/-
  SEGMENT SUMS READ AT AN INDEX.

  A segment sum adds, into entry `g` of an accumulator, every update row whose segment id is `g`; a row whose id
  lies outside the accumulator's range is dropped. As a host program it is an accumulating float scatter whose scatter
  indices are the ids, one integer per update row. This file reads that scatter, at the ideal values and at any extents,
  as the accumulator's entry plus a masked sum over the update rows — for the two sets of dimension numbers such a
  sum is printed with: rows of width `C` scattered into a `[G, C]` accumulator, and scalars scattered into a `[G]` one.
  Nothing here depends on a program: the dimension numbers enter as four equations on an arbitrary record, which a
  program's record of literals satisfies by `rfl`.
-/
import Idealize.ShloMosaic.PureOps.Ideal
import Idealize.ShloMosaic.PureOps.Ideal.Laws
import Idealize.ShloMosaic.Lib.ValueIdx
import Mathlib.Algebra.BigOperators.Group.Finset.Piecewise

namespace Cert.SegmentSum

open Idealize.ShloMosaic Idealize.ShloMosaic.ValueIdx
open scoped BigOperators

/-! ## Rows of width `C` into a `[G, C]` accumulator -/

section Rows
variable {G C N w : Nat}

/-- On the accumulator's row axis the window starts at the update row's segment id, read signed. -/
private theorem start_rows_zero (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (idx : IVec ⟨2, ![N, 1]⟩ w) (j : (⟨2, ![N, C]⟩ : Shape).Idx) :
    d.start j idx 0 = (idx (ix2 (j 0) 0)).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- On the accumulator's column axis, which no scatter index names, the window starts at zero. -/
private theorem start_rows_one (d : ScatterDims ⟨2, ![G, C]⟩ ⟨2, ![N, 1]⟩ ⟨2, ![N, C]⟩)
    (hsd : d.scatterDimsToOperandDims = [0])
    (idx : IVec ⟨2, ![N, 1]⟩ w) (j : (⟨2, ![N, C]⟩ : Shape).Idx) :
    d.start j idx 1 = 0 := by
  unfold ScatterDims.start
  rw [dif_neg (by rw [hsd]; exact (by decide : (1 : Fin 2) ∉ [(0 : Fin 2)]))]

/-- The row axis is an inserted one: the window has no extent along it. -/
private theorem window_rows_zero (d : ScatterDims ⟨2, ![G, C]⟩ ⟨2, ![N, 1]⟩ ⟨2, ![N, C]⟩)
    (hiw : d.insertedWindowDims = [0]) (j : (⟨2, ![N, C]⟩ : Shape).Idx) :
    d.window j 0 = 0 := by
  have hk : d.sKept = [1] := by
    show Shape.kept _ d.insertedWindowDims = _
    rw [hiw]; rfl
  unfold ScatterDims.window
  rw [dif_neg (by rw [hk]; exact (by decide : (0 : Fin 2) ∉ [(1 : Fin 2)]))]

/-- Along the column axis the window coordinate is the update's column. -/
private theorem window_rows_one (d : ScatterDims ⟨2, ![G, C]⟩ ⟨2, ![N, 1]⟩ ⟨2, ![N, C]⟩)
    (huw : d.updateWindowDims = [1]) (hiw : d.insertedWindowDims = [0])
    (j : (⟨2, ![N, C]⟩ : Shape).Idx) :
    d.window j 1 = (j 1).val := by
  obtain ⟨uw, iw, sd, iv, wf⟩ := d
  simp only at huw hiw
  subst huw hiw
  unfold ScatterDims.window
  split
  · rfl
  · rename_i h
    exact absurd (List.mem_singleton.mpr rfl : (1 : Fin 2) ∈ [(1 : Fin 2)]) h

/-- WHERE AN UPDATE LANDS. Update `(n, q')` lands on accumulator entry `(g, q)` exactly when row `n`'s segment id,
    read signed, is `g` and the columns agree; an id outside `[0, G)` lands nowhere. -/
theorem resultIdx?_rows (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (idx : IVec ⟨2, ![N, 1]⟩ w) (n : Fin N) (q' : Fin C) (g : Fin G) (q : Fin C) :
    d.resultIdx? (ix2 n q') idx = some (ix2 g q) ↔ (idx (ix2 n 0)).toInt = (g.val : ℤ) ∧ q' = q := by
  have hs0 : d.start (ix2 n q') idx 0 = (idx (ix2 n 0)).toInt := start_rows_zero d huw hiw hsd hiv idx _
  have hs1 := start_rows_one d hsd idx (ix2 n q')
  have hw0 := window_rows_zero d hiw (ix2 n q')
  have hw1 : d.window (ix2 n q') 1 = q'.val := window_rows_one d huw hiw _
  have hg := g.isLt
  have hq := q.isLt
  have hq' := q'.isLt
  have hsz0 : (⟨2, ![G, C]⟩ : Shape).size 0 = G := rfl
  have hsz1 : (⟨2, ![G, C]⟩ : Shape).size 1 = C := rfl
  unfold ScatterDims.resultIdx?
  split
  · rename_i h
    rw [Option.some.injEq]
    constructor
    · intro he
      have e0 : (d.start (ix2 n q') idx 0 + d.window (ix2 n q') 0).toNat = g.val := congrArg Fin.val (congrFun he 0)
      have e1 : (d.start (ix2 n q') idx 1 + d.window (ix2 n q') 1).toNat = q.val := congrArg Fin.val (congrFun he 1)
      have h0 := (h 0).1
      rw [hs0, hw0] at e0 h0
      rw [hs1, hw1] at e1
      exact ⟨by omega, Fin.ext (by omega)⟩
    · rintro ⟨ht, rfl⟩
      funext a
      match a with
      | ⟨0, _⟩ =>
        refine Fin.ext ?_
        show (d.start (ix2 n q') idx 0 + d.window (ix2 n q') 0).toNat = g.val
        rw [hs0, hw0]; omega
      | ⟨1, _⟩ =>
        refine Fin.ext ?_
        show (d.start (ix2 n q') idx 1 + d.window (ix2 n q') 1).toNat = q'.val
        rw [hs1, hw1]; omega
  · rename_i h
    constructor
    · intro he; cases he
    · rintro ⟨ht, rfl⟩
      refine absurd (fun a => ?_) h
      match a with
      | ⟨0, _⟩ =>
        show 0 ≤ d.start (ix2 n q') idx 0 + d.window (ix2 n q') 0 ∧
          d.start (ix2 n q') idx 0 + d.window (ix2 n q') 0 < ((⟨2, ![G, C]⟩ : Shape).size 0 : ℕ)
        rw [hs0, hw0, hsz0]; omega
      | ⟨1, _⟩ =>
        show 0 ≤ d.start (ix2 n q') idx 1 + d.window (ix2 n q') 1 ∧
          d.start (ix2 n q') idx 1 + d.window (ix2 n q') 1 < ((⟨2, ![G, C]⟩ : Shape).size 1 : ℕ)
        rw [hs1, hw1, hsz1]; omega

/-- A SEGMENT SUM OF ROWS, AT AN ENTRY. Entry `(g, q)` of the accumulating scatter of the rows `upd` at the segment ids
    `idx` is the accumulator's entry plus column `q` of every row whose id is `g`; a row whose id is outside `[0, G)`
    matches no `g` and contributes nothing. -/
theorem scatterAdd_rows_apply {φ : FTy} (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (x : FVec Ideal ⟨2, ![G, C]⟩ φ) (idx : IVec ⟨2, ![N, 1]⟩ w) (upd : FVec Ideal ⟨2, ![N, C]⟩ φ)
    (g : Fin G) (q : Fin C) :
    Host.scatterAdd (F := Ideal) d x idx upd (ix2 g q) =
      x (ix2 g q) + ∑ n : Fin N, if (idx (ix2 n 0)).toInt = (g.val : ℤ) then upd (ix2 n q) else 0 := by
  show x (ix2 g q) + ∑ j ∈ Finset.univ.filter (fun j => d.resultIdx? j idx = some (ix2 g q)), upd j = _
  congr 1
  rw [Finset.sum_filter, sum_idx2]
  refine Finset.sum_congr rfl (fun n _ => ?_)
  simp only [resultIdx?_rows d huw hiw hsd hiv idx]
  by_cases ht : (idx (ix2 n 0)).toInt = (g.val : ℤ)
  · simp only [ht, true_and, if_true]
    rw [Finset.sum_ite_eq' Finset.univ q (fun b => upd (ix2 n b)), if_pos (Finset.mem_univ q)]
  · simp only [ht, false_and, if_false, Finset.sum_const_zero]

end Rows
/-! ## Scalars into a `[G]` accumulator -/

section Flat
variable {G N w : Nat}

/-- A sum over a rank-1 index set is the sum over its coordinate range. -/
private theorem sum_idx1 {M : Type*} [AddCommMonoid M] {n : Nat} (f : (⟨1, ![n]⟩ : Shape).Idx → M) :
    ∑ i, f i = ∑ a : Fin n, f (ix1 a) := by
  let e : Fin n ≃ (⟨1, ![n]⟩ : Shape).Idx :=
    { toFun := ix1, invFun := fun i => i 0, left_inv := fun _ => rfl, right_inv := fun i => (eq_ix1 i).symm }
  exact (Equiv.sum_comp e f).symm

/-- On the accumulator's one axis the window starts at the update's segment id, read signed. -/
private theorem start_flat (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (idx : IVec ⟨2, ![N, 1]⟩ w) (j : (⟨1, ![N]⟩ : Shape).Idx) :
    d.start j idx 0 = (idx (ix2 (j 0) 0)).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- The accumulator's one axis is an inserted one: the window has no extent along it. -/
private theorem window_flat (d : ScatterDims ⟨1, ![G]⟩ ⟨2, ![N, 1]⟩ ⟨1, ![N]⟩)
    (hiw : d.insertedWindowDims = [0]) (j : (⟨1, ![N]⟩ : Shape).Idx) :
    d.window j 0 = 0 := by
  have hk : d.sKept = [] := by
    show Shape.kept _ d.insertedWindowDims = _
    rw [hiw]; rfl
  unfold ScatterDims.window
  rw [dif_neg (by rw [hk]; exact List.not_mem_nil)]

/-- WHERE AN UPDATE LANDS. Update `n` lands on accumulator entry `g` exactly when its segment id, read signed, is `g`;
    an id outside `[0, G)` lands nowhere. -/
theorem resultIdx?_flat (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (idx : IVec ⟨2, ![N, 1]⟩ w) (n : Fin N) (g : Fin G) :
    d.resultIdx? (ix1 n) idx = some (ix1 g) ↔ (idx (ix2 n 0)).toInt = (g.val : ℤ) := by
  have hs0 : d.start (ix1 n) idx 0 = (idx (ix2 n 0)).toInt := start_flat d huw hiw hsd hiv idx _
  have hw0 := window_flat d hiw (ix1 n)
  have hg := g.isLt
  have hsz0 : (⟨1, ![G]⟩ : Shape).size 0 = G := rfl
  unfold ScatterDims.resultIdx?
  split
  · rename_i h
    rw [Option.some.injEq]
    constructor
    · intro he
      have e0 : (d.start (ix1 n) idx 0 + d.window (ix1 n) 0).toNat = g.val := congrArg Fin.val (congrFun he 0)
      have h0 := (h 0).1
      rw [hs0, hw0] at e0 h0
      omega
    · intro ht
      funext a
      match a with
      | ⟨0, _⟩ =>
        refine Fin.ext ?_
        show (d.start (ix1 n) idx 0 + d.window (ix1 n) 0).toNat = g.val
        rw [hs0, hw0]; omega
  · rename_i h
    constructor
    · intro he; cases he
    · intro ht
      refine absurd (fun a => ?_) h
      match a with
      | ⟨0, _⟩ =>
        show 0 ≤ d.start (ix1 n) idx 0 + d.window (ix1 n) 0 ∧
          d.start (ix1 n) idx 0 + d.window (ix1 n) 0 < ((⟨1, ![G]⟩ : Shape).size 0 : ℕ)
        rw [hs0, hw0, hsz0]; omega

/-- A SEGMENT SUM OF SCALARS, AT AN ENTRY. Entry `g` of the accumulating scatter of the scalars `upd` at the segment ids
    `idx` is the accumulator's entry plus every update whose id is `g`; an update whose id is outside `[0, G)` matches
    no `g` and contributes nothing. -/
theorem scatterAdd_flat_apply {φ : FTy} (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (x : FVec Ideal ⟨1, ![G]⟩ φ) (idx : IVec ⟨2, ![N, 1]⟩ w) (upd : FVec Ideal ⟨1, ![N]⟩ φ) (g : Fin G) :
    Host.scatterAdd (F := Ideal) d x idx upd (ix1 g) =
      x (ix1 g) + ∑ n : Fin N, if (idx (ix2 n 0)).toInt = (g.val : ℤ) then upd (ix1 n) else 0 := by
  show x (ix1 g) + ∑ j ∈ Finset.univ.filter (fun j => d.resultIdx? j idx = some (ix1 g)), upd j = _
  congr 1
  rw [Finset.sum_filter, sum_idx1]
  refine Finset.sum_congr rfl (fun n _ => ?_)
  simp only [resultIdx?_flat d huw hiw hsd hiv idx]

end Flat

end Cert.SegmentSum
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.PooledReal.lean ====
/-
  THE NEIGHBOUR SUM KEEPS REAL NUMBERS REAL.

  Between two stages of the graph network both programs form the neighbour sum of an array of 100000 rows and 128
  columns: every one of the 800000 edges carries the row of its source (a negative source index has 100000 added first)
  to the row of its destination, and the rows arriving at one destination are added into zeros. Read at entry
  `(g, c)` the result is zero plus a sum over the edges; the term of edge `n` is an entry of the array (column `c` of
  the source row, the index clamped into the table) when the destination of `n` is `g`, and zero otherwise. An edge
  whose destination lies outside the array matches no `g`. Nothing is assumed of the two index arrays. So if every
  entry of the array is a real number, every entry of the neighbour sum is one: a finite sum of real numbers.
-/
import proofs.«414479_j7705171329025_1_alg».proof.Proof.HostHop2
import proofs.«414479_j7705171329025_1_alg».proof.Proof.LibSegmentSum
import proofs.«414479_j7705171329025_1_alg».proof.Proof.LibGatherRows
import proofs.«414479_j7705171329025_1_alg».proof.Proof.LibBatchStats

noncomputable section

namespace Cert.PooledReal

open Idealize.ShloMosaic Idealize.ShloMosaic.ValueIdx
open Cert.KernelIdeal Cert.KernelIdeal.Gen Cert.KernelIdeal.HostHop2
open Cert.RealSpec (IsReal)
open scoped BigOperators

/-- The source indices as the gather reads them: an index below zero has 100000 added, and the 800000 indices are laid
    out as a column. -/
def srcCol (src : (⟨S800000, .i32⟩ : BufTy).Contents (Elt Ideal)) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 100000#32))) src)

/-- The destination indices as the scatter reads them: the 800000 indices laid out as a column. -/
def dstCol (dst : (⟨S800000, .i32⟩ : BufTy).Contents (Elt Ideal)) : IVec S800000x1 32 :=
  broadcastInDim S800000x1 ![0] bcast_S800000_S800000x1_0 dst

/-- The array of zeros the rows are added into reads zero everywhere. -/
theorem zeros_apply (i : S100000x128.Idx) :
    broadcastInDim S100000x128 ![] bcast_S_S100000x128 (constant (F := Ideal) S_ .f32 0x00000000#32) i = 0 :=
  Ideal.ofBits_zero_f32

/-- THE NEIGHBOUR SUM AT AN ENTRY. Entry `(g, c)` is zero plus, over the edges whose destination is `g`, column `c` of
    the edge's source row (the source index read signed and clamped into `[0, 99999]`). -/
theorem pooled_apply (x : (⟨S100000x128, .f32⟩ : BufTy).Contents (Elt Ideal))
    (src dst : (⟨S800000, .i32⟩ : BufTy).Contents (Elt Ideal)) (g : Fin 100000) (c : Fin 128) :
    pooled (F := Ideal) x src dst (ix2 g c)
      = 0 + ∑ n : Fin 800000, if (dstCol dst (ix2 n 0)).toInt = (g.val : ℤ)
          then x (ix2 ⟨min (srcCol src (ix2 n ⟨0, Nat.one_pos⟩)).toInt.toNat (100000 - 1), by omega⟩ c) else 0 := by
  unfold pooled
  rw [Cert.SegmentSum.scatterAdd_rows_apply scatter_S100000x128_S800000x1_S800000x128_1_0_0_1 rfl rfl rfl rfl,
    zeros_apply]
  refine congrArg (fun t => 0 + t) (Finset.sum_congr rfl fun n _ => ?_)
  exact congrArg (fun t => if (dstCol dst (ix2 n 0)).toInt = (g.val : ℤ) then t else 0)
    (GatherRows.gather_rows_apply (N := 100000) (C := 128) (n := 800000) (by norm_num)
      gather_S100000x128_S800000x1_S800000x128_1_0_n_n_0_1_1128_wf x (srcCol src) n c)

/-- THE NEIGHBOUR SUM OF A REAL ARRAY IS REAL, whatever the source and destination indices are. -/
theorem pooled_isReal (x : (⟨S100000x128, .f32⟩ : BufTy).Contents (Elt Ideal))
    (src dst : (⟨S800000, .i32⟩ : BufTy).Contents (Elt Ideal)) (hx : ∀ i, IsReal (x i)) :
    ∀ i, IsReal (pooled (F := Ideal) x src dst i) := by
  intro i
  obtain ⟨g, c, rfl⟩ : ∃ (g : Fin 100000) (c : Fin 128), i = ix2 g c := ⟨i 0, i 1, eq_ix2 i⟩
  rw [pooled_apply]
  exact BatchStats.isReal_zero_add_sum_univ _ fun n => BatchStats.isReal_ite _ (hx _) BatchStats.isReal_zero

/-- The same for the entrywise sum of two real arrays: a block's input, the running value plus the embedding's output. -/
theorem pooled_addf_isReal (x y : (⟨S100000x128, .f32⟩ : BufTy).Contents (Elt Ideal))
    (src dst : (⟨S800000, .i32⟩ : BufTy).Contents (Elt Ideal)) (hx : ∀ i, IsReal (x i)) (hy : ∀ i, IsReal (y i)) :
    ∀ i, IsReal (pooled (F := Ideal) (addf (F := Ideal) (s := S100000x128) (φ := .f32) x y) src dst i) :=
  pooled_isReal _ src dst fun i => BatchStats.isReal_add (hx i) (hy i)

end Cert.PooledReal

end
-- ==== Proof.HostHop4.lean ====
/-
  The host operations before a later hop's region. They form the neighbour sum of the hop before's output: each edge's
  source index is normalised (a negative one counted from the end), the source rows are gathered along the edges and
  added into zeros at the edges' destinations. They also take the hop's square out of the stacked weights and the
  hop's row out of the stacked biases. Read here at any contents of the buffers before the stretch.
-/
import proofs.«414479_j7705171329025_1_alg».proof.Proof.Gen.KernelIdeal.Launch
import Idealize.ShloMosaic.Lib.StableHlo.Run

noncomputable section

namespace Cert.KernelIdeal.HostHop4

open Cert.KernelIdeal Cert.KernelIdeal.Gen
open Idealize.ShloMosaic Idealize.ShloMosaic.TcCoe Idealize.ShloMosaic.StableHlo

variable {F : FTy → Type} [FloatOps F]
variable (W : Valuation τ sig (Elt F))

/-- The neighbour sum of one hop. Every edge carries the row of its source (a negative source index is counted from
    the end: 100000 is added to it) to the row of its destination, and the rows that arrive at one destination are
    added up, starting from zero. The gather and the scatter-add stay closed: both sides of the claim hold the same
    two functions. -/
def pooled (x : (⟨S100000x128, .f32⟩ : BufTy).Contents (Elt F)) (src dst : (⟨S800000, .i32⟩ : BufTy).Contents (Elt F)) :
    (⟨S100000x128, .f32⟩ : BufTy).Contents (Elt F) :=
  Host.scatterAdd (F := F) scatter_S100000x128_S800000x1_S800000x128_1_0_0_1
    (broadcastInDim S100000x128 ![] bcast_S_S100000x128 (constant (F := F) S_ .f32 0x00000000#32))
    (broadcastInDim S800000x1 ![0] bcast_S800000_S800000x1_0 dst)
    (Host.gather gather_S100000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The hop's square of the stacked weights: one 128 by 128 slab, its leading axis of extent one dropped. -/
def wOf (p : (⟨S3x128x128, .f32⟩ : BufTy).Contents (Elt F)) : (⟨S128x128, .f32⟩ : BufTy).Contents (Elt F) :=
  shapeCast S128x128 (extractStridedSlice S1x128x128 ![1, 0, 0] p slices_S3x128x128_S1x128x128_1_0_0) shapeCasts_S1x128x128_S128x128

/-- The hop's row of the stacked biases, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![1, 0] p slices_S3x128_S1x128_1_0) shapeCasts_S1x128_S128)
    shapeCasts_S128_S1x128

/-- The neighbour sum of the hop before's output. -/
theorem read_pooled : (StableHlo.after hostOps4 W (Proc.devRef .tc main_v50) : (⟨S100000x128, .f32⟩ : BufTy).Contents (Elt F))
    = pooled (W (Proc.devRef .tc main_v40)) (W (Proc.devRef .tc main_arg1)) (W (Proc.devRef .tc main_arg2)) := by
  after_results_simp <;> rfl

/-- The hop's weights. -/
theorem read_w : (StableHlo.after hostOps4 W (Proc.devRef .tc main_v52) : (⟨S128x128, .f32⟩ : BufTy).Contents (Elt F))
    = wOf (W (Proc.devRef .tc main_arg8)) := by
  after_results <;> rfl

/-- The hop's bias row. -/
theorem read_b : (StableHlo.after hostOps4 W (Proc.devRef .tc main_v55) : (⟨S1x128, .f32⟩ : BufTy).Contents (Elt F))
    = rowOf (W (Proc.devRef .tc main_arg9)) := by
  after_results <;> rfl

/-- The block's input, which the hop's region also stages, is not written. -/
theorem read_keep : StableHlo.after hostOps4 W (Proc.devRef .tc main_v10) = W (Proc.devRef .tc main_v10) := by
  refine StableHlo.after_of_forall_not_mem _ _ fun op h => ?_
  fin_cases h <;> simp only [nullary_writes, unary_writes, binary_writes, ternary_writes, reshape_writes, Finset.mem_singleton] <;>
    exact devRef_ne_of_ne (by decide)

/-- The references the stretch writes, in order. -/
abbrev written : List (Ref sig .tc) :=
  [main_c_6, main_v41, main_v42, main_c_7, main_v43, main_v44, main_v45, main_v46, main_v47, main_cst_8, main_v48, main_v49, main_v50, main_v51, main_v52, main_v53, main_v54, main_v55]

/-- Every operation of the stretch writes one of them. -/
theorem writes : (hostOps4 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A reference the stretch does not write keeps its contents. -/
theorem keep {r : Ref sig .tc} (h : r ∉ written) : StableHlo.after hostOps4 W (Proc.devRef .tc r) = W (Proc.devRef .tc r) :=
  StableHlo.after_of_writes_sub hostOps4 W writes h

end Cert.KernelIdeal.HostHop4

end
-- ==== Proof.HostHop6.lean ====
/-
  The host operations before a later hop's region. They form the neighbour sum of the hop before's output: each edge's
  source index is normalised (a negative one counted from the end), the source rows are gathered along the edges and
  added into zeros at the edges' destinations. They also take the hop's square out of the stacked weights and the
  hop's row out of the stacked biases. Read here at any contents of the buffers before the stretch.
-/
import proofs.«414479_j7705171329025_1_alg».proof.Proof.Gen.KernelIdeal.Launch
import Idealize.ShloMosaic.Lib.StableHlo.Run

noncomputable section

namespace Cert.KernelIdeal.HostHop6

open Cert.KernelIdeal Cert.KernelIdeal.Gen
open Idealize.ShloMosaic Idealize.ShloMosaic.TcCoe Idealize.ShloMosaic.StableHlo

variable {F : FTy → Type} [FloatOps F]
variable (W : Valuation τ sig (Elt F))

/-- The neighbour sum of one hop. Every edge carries the row of its source (a negative source index is counted from
    the end: 100000 is added to it) to the row of its destination, and the rows that arrive at one destination are
    added up, starting from zero. The gather and the scatter-add stay closed: both sides of the claim hold the same
    two functions. -/
def pooled (x : (⟨S100000x128, .f32⟩ : BufTy).Contents (Elt F)) (src dst : (⟨S800000, .i32⟩ : BufTy).Contents (Elt F)) :
    (⟨S100000x128, .f32⟩ : BufTy).Contents (Elt F) :=
  Host.scatterAdd (F := F) scatter_S100000x128_S800000x1_S800000x128_1_0_0_1
    (broadcastInDim S100000x128 ![] bcast_S_S100000x128 (constant (F := F) S_ .f32 0x00000000#32))
    (broadcastInDim S800000x1 ![0] bcast_S800000_S800000x1_0 dst)
    (Host.gather gather_S100000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The hop's square of the stacked weights: one 128 by 128 slab, its leading axis of extent one dropped. -/
def wOf (p : (⟨S3x128x128, .f32⟩ : BufTy).Contents (Elt F)) : (⟨S128x128, .f32⟩ : BufTy).Contents (Elt F) :=
  shapeCast S128x128 (extractStridedSlice S1x128x128 ![2, 0, 0] p slices_S3x128x128_S1x128x128_2_0_0) shapeCasts_S1x128x128_S128x128

/-- The hop's row of the stacked biases, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![2, 0] p slices_S3x128_S1x128_2_0) shapeCasts_S1x128_S128)
    shapeCasts_S128_S1x128

/-- The neighbour sum of the hop before's output. -/
theorem read_pooled : (StableHlo.after hostOps6 W (Proc.devRef .tc main_v79) : (⟨S100000x128, .f32⟩ : BufTy).Contents (Elt F))
    = pooled (W (Proc.devRef .tc main_v69)) (W (Proc.devRef .tc main_arg1)) (W (Proc.devRef .tc main_arg2)) := by
  after_results_simp <;> rfl

/-- The hop's weights. -/
theorem read_w : (StableHlo.after hostOps6 W (Proc.devRef .tc main_v81) : (⟨S128x128, .f32⟩ : BufTy).Contents (Elt F))
    = wOf (W (Proc.devRef .tc main_arg8)) := by
  after_results <;> rfl

/-- The hop's bias row. -/
theorem read_b : (StableHlo.after hostOps6 W (Proc.devRef .tc main_v84) : (⟨S1x128, .f32⟩ : BufTy).Contents (Elt F))
    = rowOf (W (Proc.devRef .tc main_arg9)) := by
  after_results <;> rfl

/-- The block's input, which the hop's region also stages, is not written. -/
theorem read_keep : StableHlo.after hostOps6 W (Proc.devRef .tc main_v10) = W (Proc.devRef .tc main_v10) := by
  refine StableHlo.after_of_forall_not_mem _ _ fun op h => ?_
  fin_cases h <;> simp only [nullary_writes, unary_writes, binary_writes, ternary_writes, reshape_writes, Finset.mem_singleton] <;>
    exact devRef_ne_of_ne (by decide)

/-- The references the stretch writes, in order. -/
abbrev written : List (Ref sig .tc) :=
  [main_c_11, main_v70, main_v71, main_c_12, main_v72, main_v73, main_v74, main_v75, main_v76, main_cst_13, main_v77, main_v78, main_v79, main_v80, main_v81, main_v82, main_v83, main_v84]

/-- Every operation of the stretch writes one of them. -/
theorem writes : (hostOps6 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A reference the stretch does not write keeps its contents. -/
theorem keep {r : Ref sig .tc} (h : r ∉ written) : StableHlo.after hostOps6 W (Proc.devRef .tc r) = W (Proc.devRef .tc r) :=
  StableHlo.after_of_writes_sub hostOps6 W writes h

end Cert.KernelIdeal.HostHop6

end
-- ==== Proof.HostStats5.lean ====
/-
  The host operations between a linear stage and its normalisation, where the scale and the shift of the batch norm
  are one row of a stacked parameter. From the two carried rows the region leaves (the column sums and the column sums
  of squares) they form the mean (the sum over 100000), the mean of squares, and the variance as the mean of squares
  less the squared mean; and they take the stage's row out of the stacked scale and the stacked shift, flatten it and
  lay it out as a row again. Read here at any contents of the buffers before the stretch.
-/
import proofs.«414479_j7705171329025_1_alg».proof.Proof.Gen.KernelIdeal.Launch
import Idealize.ShloMosaic.Lib.StableHlo.Run

noncomputable section

namespace Cert.KernelIdeal.HostStats5

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x128, .f32⟩ : BufTy).Contents (Elt F) := broadcastInDim S1x128 ![] bcast_S_S1x128 (constant S_ .f32 0x47C35000#32)

/-- One row of a stacked parameter, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![1, 0] p slices_S3x128_S1x128_1_0) shapeCasts_S1x128_S128)
    shapeCasts_S128_S1x128

/-- The mean row: the column sums over the divisor. -/
theorem read_mean : (StableHlo.after hostOps5 W (Proc.devRef .tc main_v58) : (⟨S1x128, .f32⟩ : BufTy).Contents (Elt F))
    = Host.divf (W (Proc.devRef .tc main_v56_1)) nRow := by
  after_results; rfl

/-- The variance row: the mean of squares less the squared mean. -/
theorem read_var : (StableHlo.after hostOps5 W (Proc.devRef .tc main_v62) : (⟨S1x128, .f32⟩ : BufTy).Contents (Elt F))
    = subf (Host.divf (W (Proc.devRef .tc main_v56_2)) nRow)
        (mulf (Host.divf (W (Proc.devRef .tc main_v56_1)) nRow) (Host.divf (W (Proc.devRef .tc main_v56_1)) nRow)) := by
  after_results; rfl

/-- The scale row: the stage's row of the stacked scale. -/
theorem read_g : (StableHlo.after hostOps5 W (Proc.devRef .tc main_v67) : (⟨S1x128, .f32⟩ : BufTy).Contents (Elt F))
    = rowOf (W (Proc.devRef .tc main_arg10)) := by
  after_results; rfl

/-- The shift row: the stage's row of the stacked shift. -/
theorem read_beta : (StableHlo.after hostOps5 W (Proc.devRef .tc main_v68) : (⟨S1x128, .f32⟩ : BufTy).Contents (Elt F))
    = rowOf (W (Proc.devRef .tc main_arg11)) := by
  after_results; rfl

/-- A buffer the stretch does not write keeps its contents: the linear stage's output array. -/
theorem read_y : StableHlo.after hostOps5 W (Proc.devRef .tc main_v56_0) = W (Proc.devRef .tc main_v56_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats5

end
-- ==== Proof.HostStats7.lean ====
/-
  The host operations between a linear stage and its normalisation, where the scale and the shift of the batch norm
  are one row of a stacked parameter. From the two carried rows the region leaves (the column sums and the column sums
  of squares) they form the mean (the sum over 100000), the mean of squares, and the variance as the mean of squares
  less the squared mean; and they take the stage's row out of the stacked scale and the stacked shift, flatten it and
  lay it out as a row again. Read here at any contents of the buffers before the stretch.
-/
import proofs.«414479_j7705171329025_1_alg».proof.Proof.Gen.KernelIdeal.Launch
import Idealize.ShloMosaic.Lib.StableHlo.Run

noncomputable section

namespace Cert.KernelIdeal.HostStats7

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x128, .f32⟩ : BufTy).Contents (Elt F) := broadcastInDim S1x128 ![] bcast_S_S1x128 (constant S_ .f32 0x47C35000#32)

/-- One row of a stacked parameter, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![2, 0] p slices_S3x128_S1x128_2_0) shapeCasts_S1x128_S128)
    shapeCasts_S128_S1x128

/-- The mean row: the column sums over the divisor. -/
theorem read_mean : (StableHlo.after hostOps7 W (Proc.devRef .tc main_v87) : (⟨S1x128, .f32⟩ : BufTy).Contents (Elt F))
    = Host.divf (W (Proc.devRef .tc main_v85_1)) nRow := by
  after_results; rfl

/-- The variance row: the mean of squares less the squared mean. -/
theorem read_var : (StableHlo.after hostOps7 W (Proc.devRef .tc main_v91) : (⟨S1x128, .f32⟩ : BufTy).Contents (Elt F))
    = subf (Host.divf (W (Proc.devRef .tc main_v85_2)) nRow)
        (mulf (Host.divf (W (Proc.devRef .tc main_v85_1)) nRow) (Host.divf (W (Proc.devRef .tc main_v85_1)) nRow)) := by
  after_results; rfl

/-- The scale row: the stage's row of the stacked scale. -/
theorem read_g : (StableHlo.after hostOps7 W (Proc.devRef .tc main_v96) : (⟨S1x128, .f32⟩ : BufTy).Contents (Elt F))
    = rowOf (W (Proc.devRef .tc main_arg10)) := by
  after_results; rfl

/-- The shift row: the stage's row of the stacked shift. -/
theorem read_beta : (StableHlo.after hostOps7 W (Proc.devRef .tc main_v97) : (⟨S1x128, .f32⟩ : BufTy).Contents (Elt F))
    = rowOf (W (Proc.devRef .tc main_arg11)) := by
  after_results; rfl

/-- A buffer the stretch does not write keeps its contents: the linear stage's output array. -/
theorem read_y : StableHlo.after hostOps7 W (Proc.devRef .tc main_v85_0) = W (Proc.devRef .tc main_v85_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats7

end
-- ==== Proof.HostProj8.lean ====
/-
  The host operations before a block's projection. They cut the stacked projection weights into the three squares that
  meet the three hops' outputs, and lay the 128 zeros out as the bias row. Read here at any contents of the buffers
  before the stretch.
-/
import proofs.«414479_j7705171329025_1_alg».proof.Proof.Gen.KernelIdeal.Launch
import Idealize.ShloMosaic.Lib.StableHlo.Run

noncomputable section

namespace Cert.KernelIdeal.HostProj8

open Cert.KernelIdeal Cert.KernelIdeal.Gen
open Idealize.ShloMosaic Idealize.ShloMosaic.TcCoe Idealize.ShloMosaic.StableHlo

variable {F : FTy → Type} [FloatOps F]
variable (W : Valuation τ sig (Elt F))

/-- The square that meets the first hop's output: rows 0 to 127. -/
theorem read_w0 : (StableHlo.after hostOps8 W (Proc.devRef .tc main_v99) : (⟨S128x128, .f32⟩ : BufTy).Contents (Elt F))
    = extractStridedSlice S128x128 ![0, 0] (W (Proc.devRef .tc main_arg12)) slices_S384x128_S128x128_0_0 := by
  after_results <;> rfl

/-- The square that meets the second hop's output: rows 128 to 255. -/
theorem read_w1 : (StableHlo.after hostOps8 W (Proc.devRef .tc main_v100) : (⟨S128x128, .f32⟩ : BufTy).Contents (Elt F))
    = extractStridedSlice S128x128 ![128, 0] (W (Proc.devRef .tc main_arg12)) slices_S384x128_S128x128_128_0 := by
  after_results <;> rfl

/-- The square that meets the third hop's output: rows 256 to 383. -/
theorem read_w2 : (StableHlo.after hostOps8 W (Proc.devRef .tc main_v101) : (⟨S128x128, .f32⟩ : BufTy).Contents (Elt F))
    = extractStridedSlice S128x128 ![256, 0] (W (Proc.devRef .tc main_arg12)) slices_S384x128_S128x128_256_0 := by
  after_results <;> rfl

/-- The bias row: the zeros, laid out as a row. -/
theorem read_bias : (StableHlo.after hostOps8 W (Proc.devRef .tc main_v102) : (⟨S1x128, .f32⟩ : BufTy).Contents (Elt F))
    = shapeCast S1x128 (W (Proc.devRef .tc main_v11)) shapeCasts_S128_S1x128 := by
  after_results <;> rfl

/-- The first hop's output, which the projection stages, is not written. -/
theorem read_keep0 : StableHlo.after hostOps8 W (Proc.devRef .tc main_v40) = W (Proc.devRef .tc main_v40) := by
  refine StableHlo.after_of_forall_not_mem _ _ fun op h => ?_
  fin_cases h <;> simp only [unary_writes, reshape_writes, Finset.mem_singleton] <;>
    exact devRef_ne_of_ne (by decide)

/-- The second hop's output, which the projection stages, is not written. -/
theorem read_keep1 : StableHlo.after hostOps8 W (Proc.devRef .tc main_v69) = W (Proc.devRef .tc main_v69) := by
  refine StableHlo.after_of_forall_not_mem _ _ fun op h => ?_
  fin_cases h <;> simp only [unary_writes, reshape_writes, Finset.mem_singleton] <;>
    exact devRef_ne_of_ne (by decide)

/-- The third hop's output, which the projection stages, is not written. -/
theorem read_keep2 : StableHlo.after hostOps8 W (Proc.devRef .tc main_v98) = W (Proc.devRef .tc main_v98) := by
  refine StableHlo.after_of_forall_not_mem _ _ fun op h => ?_
  fin_cases h <;> simp only [unary_writes, reshape_writes, Finset.mem_singleton] <;>
    exact devRef_ne_of_ne (by decide)

/-- The references the stretch writes, in order. -/
abbrev written : List (Ref sig .tc) :=
  [main_v99, main_v100, main_v101, main_v102]

/-- Every operation of the stretch writes one of them. -/
theorem writes : (hostOps8 : List (HloOp τ sig (Elt F))).Forall fun op =>
    op.writes ⊆ (written.map (Proc.devRef (τ := τ) .tc)).toFinset := by
  simp only [List.Forall]
  repeat' apply And.intro
  all_goals
    simp only [unary_writes, reshape_writes, Finset.singleton_subset_iff, List.mem_toFinset]
    exact List.mem_map_of_mem (by decide)

/-- A reference the stretch does not write keeps its contents. -/
theorem keep {r : Ref sig .tc} (h : r ∉ written) : StableHlo.after hostOps8 W (Proc.devRef .tc r) = W (Proc.devRef .tc r) :=
  StableHlo.after_of_writes_sub hostOps8 W writes h

end Cert.KernelIdeal.HostProj8

end
-- ==== Proof.SliceReal.lean ====
/-
  A slice, a re-laid row or a broadcast of an array of real numbers is an array of real numbers: each of these host
  operations only re-indexes, so every entry of the result is an entry of the operand. Stated for the terms the
  kernel's host stretches form from the stacked parameters: a hop's square of the stacked weights and its row of the
  stacked biases, a normalisation's row of the stacked scales and shifts, the projection's three squares, a flat vector
  laid out as a row, and the row of zeros.
-/
import proofs.«414479_j7705171329025_1_alg».proof.Proof.HostHop2
import proofs.«414479_j7705171329025_1_alg».proof.Proof.HostHop4
import proofs.«414479_j7705171329025_1_alg».proof.Proof.HostHop6
import proofs.«414479_j7705171329025_1_alg».proof.Proof.HostStats3
import proofs.«414479_j7705171329025_1_alg».proof.Proof.HostStats5
import proofs.«414479_j7705171329025_1_alg».proof.Proof.HostStats7
import proofs.«414479_j7705171329025_1_alg».proof.Proof.HostProj8
import proofs.«414479_j7705171329025_1_alg».proof.Proof.RealSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.SliceReal

open Cert.RealSpec (IsReal)
open Cert.KernelIdeal Cert.KernelIdeal.Gen
open Idealize.ShloMosaic Idealize.ShloMosaic.ValueIdx

/-! ## Re-indexings keep the entries -/

/-- An entry of a slice is an entry of the operand. -/
theorem slice_isReal {s t : Shape} {off : Fin s.rank → Nat} (p : s.Idx → EReal) (h : s.Slices off t)
    (hp : ∀ i, IsReal (p i)) (j : t.Idx) : IsReal (extractStridedSlice t off p h j) :=
  hp _

/-- An entry of a re-laid array is an entry of the operand. -/
theorem shapeCast_isReal {s t : Shape} (p : s.Idx → EReal) (h : s.ShapeCasts t)
    (hp : ∀ i, IsReal (p i)) (j : t.Idx) : IsReal (shapeCast t p h j) :=
  hp _

/-- An entry of a broadcast is an entry of the operand. -/
theorem broadcast_isReal {s t : Shape} {dims : Fin s.rank → Fin t.rank} (p : s.Idx → EReal) (h : s.BroadcastsInDim t dims)
    (hp : ∀ i, IsReal (p i)) (j : t.Idx) : IsReal (broadcastInDim t dims h p j) :=
  hp _

/-- Zero is a real number. -/
theorem zero_isReal : IsReal (0 : EReal) := ⟨0, EReal.coe_zero.symm⟩

/-! ## The hops' weights and biases -/

/-- Hop 0's square of real stacked weights is real. -/
theorem wOf0_isReal (p : Vec Ideal S3x128x128 .f32) (hp : ∀ i, IsReal (p i)) (i : S128x128.Idx) :
    IsReal (HostHop2.wOf (F := Ideal) p i) :=
  shapeCast_isReal _ _ (slice_isReal p _ hp) i

/-- Hop 1's square of real stacked weights is real. -/
theorem wOf1_isReal (p : Vec Ideal S3x128x128 .f32) (hp : ∀ i, IsReal (p i)) (i : S128x128.Idx) :
    IsReal (HostHop4.wOf (F := Ideal) p i) :=
  shapeCast_isReal _ _ (slice_isReal p _ hp) i

/-- Hop 2's square of real stacked weights is real. -/
theorem wOf2_isReal (p : Vec Ideal S3x128x128 .f32) (hp : ∀ i, IsReal (p i)) (i : S128x128.Idx) :
    IsReal (HostHop6.wOf (F := Ideal) p i) :=
  shapeCast_isReal _ _ (slice_isReal p _ hp) i

/-- Hop 0's row of real stacked biases is real. -/
theorem rowOf0_isReal (p : Vec Ideal S3x128 .f32) (hp : ∀ i, IsReal (p i)) (i : S1x128.Idx) :
    IsReal (HostHop2.rowOf (F := Ideal) p i) :=
  shapeCast_isReal _ _ (shapeCast_isReal _ _ (slice_isReal p _ hp)) i

/-- Hop 1's row of real stacked biases is real. -/
theorem rowOf1_isReal (p : Vec Ideal S3x128 .f32) (hp : ∀ i, IsReal (p i)) (i : S1x128.Idx) :
    IsReal (HostHop4.rowOf (F := Ideal) p i) :=
  shapeCast_isReal _ _ (shapeCast_isReal _ _ (slice_isReal p _ hp)) i

/-- Hop 2's row of real stacked biases is real. -/
theorem rowOf2_isReal (p : Vec Ideal S3x128 .f32) (hp : ∀ i, IsReal (p i)) (i : S1x128.Idx) :
    IsReal (HostHop6.rowOf (F := Ideal) p i) :=
  shapeCast_isReal _ _ (shapeCast_isReal _ _ (slice_isReal p _ hp)) i

/-! ## The normalisations' scales and shifts -/

/-- Hop 0's row of a real stacked scale or shift is real. -/
theorem statsRow0_isReal (p : Vec Ideal S3x128 .f32) (hp : ∀ i, IsReal (p i)) (i : S1x128.Idx) :
    IsReal (HostStats3.rowOf (F := Ideal) p i) :=
  shapeCast_isReal _ _ (shapeCast_isReal _ _ (slice_isReal p _ hp)) i

/-- Hop 1's row of a real stacked scale or shift is real. -/
theorem statsRow1_isReal (p : Vec Ideal S3x128 .f32) (hp : ∀ i, IsReal (p i)) (i : S1x128.Idx) :
    IsReal (HostStats5.rowOf (F := Ideal) p i) :=
  shapeCast_isReal _ _ (shapeCast_isReal _ _ (slice_isReal p _ hp)) i

/-- Hop 2's row of a real stacked scale or shift is real. -/
theorem statsRow2_isReal (p : Vec Ideal S3x128 .f32) (hp : ∀ i, IsReal (p i)) (i : S1x128.Idx) :
    IsReal (HostStats7.rowOf (F := Ideal) p i) :=
  shapeCast_isReal _ _ (shapeCast_isReal _ _ (slice_isReal p _ hp)) i

/-! ## The projection's three squares -/

/-- The projection's square 0 (rows 0 to 127) of real stacked weights is real. -/
theorem projW0_isReal (p : Vec Ideal S384x128 .f32) (hp : ∀ i, IsReal (p i)) (i : S128x128.Idx) :
    IsReal (extractStridedSlice S128x128 ![0, 0] p slices_S384x128_S128x128_0_0 i) :=
  slice_isReal p _ hp i

/-- The projection's square 1 (rows 128 to 255) of real stacked weights is real. -/
theorem projW1_isReal (p : Vec Ideal S384x128 .f32) (hp : ∀ i, IsReal (p i)) (i : S128x128.Idx) :
    IsReal (extractStridedSlice S128x128 ![128, 0] p slices_S384x128_S128x128_128_0 i) :=
  slice_isReal p _ hp i

/-- The projection's square 2 (rows 256 to 383) of real stacked weights is real. -/
theorem projW2_isReal (p : Vec Ideal S384x128 .f32) (hp : ∀ i, IsReal (p i)) (i : S128x128.Idx) :
    IsReal (extractStridedSlice S128x128 ![256, 0] p slices_S384x128_S128x128_256_0 i) :=
  slice_isReal p _ hp i

/-! ## Rows -/

/-- A real vector of 128 laid out as a row is real. -/
theorem row_isReal (v : Vec Ideal S128 .f32) (hv : ∀ i, IsReal (v i)) (i : S1x128.Idx) :
    IsReal (shapeCast S1x128 v shapeCasts_S128_S1x128 i) :=
  shapeCast_isReal v _ hv i

/-- A real vector of 5 laid out as a row is real. -/
theorem row5_isReal (v : Vec Ideal S5 .f32) (hv : ∀ i, IsReal (v i)) (i : S1x5.Idx) :
    IsReal (shapeCast S1x5 v shapeCasts_S5_S1x5 i) :=
  shapeCast_isReal v _ hv i

/-- Every entry of the 128 zeros is zero. -/
theorem zeros_apply (i : S128.Idx) :
    (broadcastInDim S128 ![] bcast_S_S128 (constant (F := Ideal) S_ .f32 0x00000000#32) : Vec Ideal S128 .f32) i = 0 :=
  (broadcastInDim_scalar_apply bcast_S_S128 (constant (F := Ideal) S_ .f32 0x00000000#32) i).trans Ideal.ofBits_zero_f32

/-- The row of zeros is real: every entry is zero. -/
theorem zeroRow_isReal (i : S1x128.Idx) :
    IsReal (shapeCast S1x128 (broadcastInDim S128 ![] bcast_S_S128 (constant (F := Ideal) S_ .f32 0x00000000#32) : Vec Ideal S128 .f32)
      shapeCasts_S128_S1x128 i) :=
  shapeCast_isReal _ _ (fun j => by rw [zeros_apply j]; exact zero_isReal) i

end Cert.SliceReal

end
-- ==== Proof.KernelChain1.lean ====
/-
  Stage 1 of the chain, the kernel's half: the first message-passing hop. The array the hop's second region leaves is,
  entry by entry, the batch normalisation of the hop's linear stage, with no clipping after it, over the previous stage's
  output array as the run leaves it and the launch memory's edge lists and stacked parameters. The host operations before
  the hop's first region pool the previous output's rows along the edges and take the hop's square of the stacked weights
  and its row of the stacked biases; the first region adds the pooled rows to the previous output's, multiplies by the
  weights, adds the bias row, and leaves with that array its column sums and column sums of squares; the host operations
  between the regions divide those by the row count, form the variance as the mean of squares less the squared mean, and
  take the hop's rows of the stacked scale and shift; the second region normalises with those rows. Here the steps are
  joined.
-/
import proofs.«414479_j7705171329025_1_alg».proof.Proof.ValAdd2_2
import proofs.«414479_j7705171329025_1_alg».proof.Proof.ValNorm3
import proofs.«414479_j7705171329025_1_alg».proof.Proof.HostHop2
import proofs.«414479_j7705171329025_1_alg».proof.Proof.HostStats3
import proofs.«414479_j7705171329025_1_alg».proof.Proof.StageReal
import proofs.«414479_j7705171329025_1_alg».proof.Proof.FrameKI.Run
import proofs.«414479_j7705171329025_1_alg».proof.Proof.Carry1
import proofs.«414479_j7705171329025_1_alg».proof.Proof.Carry2
import proofs.«414479_j7705171329025_1_alg».proof.Proof.PreReal
import proofs.«414479_j7705171329025_1_alg».proof.Proof.PooledReal
import proofs.«414479_j7705171329025_1_alg».proof.Proof.SliceReal
import Idealize.ShloMosaic.Lib.IdealHost
import Idealize.ShloMosaic.Lib.ValueLayout

set_option maxRecDepth 16384

noncomputable section

namespace Cert.KernelChain1

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## The hop's data: the previous stage's output, and the launch memory's arrays, each at its literal type -/

/-- The previous stage's output array, as the run leaves it. -/
abbrev prev (c : Dev nD) : Vec Ideal S100000x128 .f32 := W4 (F := Ideal) m ρ c (Proc.devRef .tc main_v10)
/-- The edges' sources. -/
abbrev src (c : Dev nD) : Vec Ideal S800000 .i32 := m ((c : Thread nD τ).loc main_arg1)
/-- The edges' destinations. -/
abbrev dst (c : Dev nD) : Vec Ideal S800000 .i32 := m ((c : Thread nD τ).loc main_arg2)
/-- The stacked weights of the block's three hops. -/
abbrev convW (c : Dev nD) : Vec Ideal S3x128x128 .f32 := m ((c : Thread nD τ).loc main_arg8)
/-- The stacked biases. -/
abbrev convB (c : Dev nD) : Vec Ideal S3x128 .f32 := m ((c : Thread nD τ).loc main_arg9)
/-- The stacked scales of the three hops' batch norms. -/
abbrev bnG (c : Dev nD) : Vec Ideal S3x128 .f32 := m ((c : Thread nD τ).loc main_arg10)
/-- The stacked shifts. -/
abbrev bnB (c : Dev nD) : Vec Ideal S3x128 .f32 := m ((c : Thread nD τ).loc main_arg11)

/-- The previous output's rows pooled along the edges. -/
abbrev pooledPrev (c : Dev nD) : Vec Ideal S100000x128 .f32 := HostHop2.pooled (F := Ideal) (prev m ρ c) (src m c) (dst m c)
/-- The hop's weight matrix. -/
abbrev Wt (c : Dev nD) : Vec Ideal S128x128 .f32 := HostHop2.wOf (F := Ideal) (convW m c)
/-- The hop's bias row. -/
abbrev B (c : Dev nD) : Vec Ideal S1x128 .f32 := HostHop2.rowOf (F := Ideal) (convB m c)
/-- The hop's scale row. -/
abbrev g (c : Dev nD) : Vec Ideal S1x128 .f32 := HostStats3.rowOf (F := Ideal) (bnG m c)
/-- The hop's shift row. -/
abbrev β (c : Dev nD) : Vec Ideal S1x128 .f32 := HostStats3.rowOf (F := Ideal) (bnB m c)

/-- The hop's linear stage, entry by entry: the pooled rows plus the previous output's, against the weights, plus the bias. -/
def y (c : Dev nD) (r : Fin 100000) (q : Fin 128) : EReal :=
  StageSpec.linAdd (pooledPrev m ρ c) (prev m ρ c) (Wt m c) (B m c) r q

/-- The row count, as the word the host operations divide by. -/
abbrev nRows : EReal := Ideal.ofBits .f32 0x47C35000#32

/-! ## Real numbers in, real numbers out -/

/-- Under the precondition, and if every entry of the previous stage's output is a real number, every entry of the hop's
    linear stage is one: the neighbour sum of a real array is real whatever the edges are, and the hop's square of the
    weights and its row of the biases are entries of real arrays. -/
theorem y_isReal [Cert.Pre_finite_inputs.Facts] (h : Cert.Pre_KernelIdeal m) (c : Dev nD)
    (hprev : ∀ i, Cert.RealSpec.IsReal (prev m ρ c i)) (r : Fin 100000) (q : Fin 128) :
    Cert.RealSpec.IsReal (y m ρ c r q) :=
  StageReal.linAdd_isReal (pooledPrev m ρ c) (prev m ρ c) (Wt m c) (B m c)
    (Cert.PooledReal.pooled_isReal (prev m ρ c) (src m c) (dst m c) hprev) hprev
    (Cert.SliceReal.wOf0_isReal (convW m c) (Cert.PreReal.real_arg8 m h c))
    (Cert.SliceReal.rowOf0_isReal (convB m c) (Cert.PreReal.real_arg9 m h c)) r q

/-- Under the precondition every entry of the hop's scale row is a real number. -/
theorem g_isReal [Cert.Pre_finite_inputs.Facts] (h : Cert.Pre_KernelIdeal m) (c : Dev nD) (q : Fin 128) :
    Cert.RealSpec.IsReal (g m c (ix2 (0 : Fin 1) q)) :=
  Cert.SliceReal.statsRow0_isReal (bnG m c) (Cert.PreReal.real_arg10 m h c) (ix2 (0 : Fin 1) q)

/-- And every entry of its shift row. -/
theorem β_isReal [Cert.Pre_finite_inputs.Facts] (h : Cert.Pre_KernelIdeal m) (c : Dev nD) (q : Fin 128) :
    Cert.RealSpec.IsReal (β m c (ix2 (0 : Fin 1) q)) :=
  Cert.SliceReal.statsRow0_isReal (bnB m c) (Cert.PreReal.real_arg11 m h c) (ix2 (0 : Fin 1) q)

/-! ## The first region's inputs -/

/-- The pooled rows: the host operations before the region form them from the previous output and the edge lists, which
    nothing has written since the launch. -/
theorem xa_eq (c : Dev nD) : ValAdd2_2.xaArr (V5 m ρ) c = pooledPrev m ρ c :=
  (HostHop2.read_pooled (W4 m ρ c)).trans
    (congrArg₂ (fun s d => HostHop2.pooled (F := Ideal) (prev m ρ c) s d)
      ((Carry.main_arg1_0_4 m ρ c).trans rfl) ((Carry.main_arg2_0_4 m ρ c).trans rfl))

/-- The previous output itself: those host operations do not write it. -/
theorem xb_eq (c : Dev nD) : ValAdd2_2.xbArr (V5 m ρ) c = prev m ρ c :=
  (HostHop2.read_keep (W4 m ρ c)).trans rfl

/-- The hop's weight matrix, out of the launch memory's stacked weights. -/
theorem w_eq (c : Dev nD) : ValAdd2_2.wArr (V5 m ρ) c = Wt m c :=
  (HostHop2.read_w (W4 m ρ c)).trans (congrArg (HostHop2.wOf (F := Ideal)) ((Carry.main_arg8_0_4 m ρ c).trans rfl))

/-- The hop's bias row, out of the launch memory's stacked biases. -/
theorem b_eq (c : Dev nD) : ValAdd2_2.bRow (V5 m ρ) c = B m c :=
  (HostHop2.read_b (W4 m ρ c)).trans (congrArg (HostHop2.rowOf (F := Ideal)) ((Carry.main_arg9_0_4 m ρ c).trans rfl))

/-- So the first region's linear stage is the hop's. -/
theorem y_eq (c : Dev nD) : ValAdd2_2.y (V5 m ρ) c = y m ρ c := by
  funext r q
  unfold ValAdd2_2.y y
  rw [xa_eq m ρ c, xb_eq m ρ c, w_eq m ρ c, b_eq m ρ c]

/-! ## The second region's five arrays, from the first region's three -/

/-- The column sums, as the first region leaves them. -/
theorem sum_eq (c : Dev nD) :
    (W6 m ρ c (Proc.devRef .tc main_v27_1) : Vec Ideal S1x128 .f32) = ValAdd2_2.resultSum (V5 m ρ) c :=
  (W6_arr m ρ c 5).trans (ValAdd2_2.arrAt_sum (V5 m ρ) c)

/-- The column sums of squares, as the first region leaves them. -/
theorem sumsq_eq (c : Dev nD) :
    (W6 m ρ c (Proc.devRef .tc main_v27_2) : Vec Ideal S1x128 .f32) = ValAdd2_2.resultSumSq (V5 m ρ) c :=
  (W6_arr m ρ c 6).trans (ValAdd2_2.arrAt_sumsq (V5 m ρ) c)

/-- The tall array the second region normalises is the first region's output: the host operations between the two do
    not write it. -/
theorem yArr_eq (c : Dev nD) : ValNorm3.yArr (V7 m ρ) c = ValAdd2_2.resultY (V5 m ρ) c :=
  ((HostStats3.read_y (W6 m ρ c)).trans (W6_arr m ρ c 4)).trans (ValAdd2_2.arrAt_y (V5 m ρ) c)

/-- The mean row: the column sums over the row count. -/
theorem meanRow_eq (c : Dev nD) :
    ValNorm3.meanRow (V7 m ρ) c
      = Host.divf (F := Ideal) (φ := .f32) (ValAdd2_2.resultSum (V5 m ρ) c) (HostStats3.nRow (F := Ideal)) := by
  refine (HostStats3.read_mean (W6 m ρ c)).trans ?_
  rw [sum_eq m ρ c]

/-- The variance row: the mean of squares less the squared mean. -/
theorem varRow_eq (c : Dev nD) :
    ValNorm3.varRow (V7 m ρ) c
      = subf (F := Ideal) (φ := .f32) (Host.divf (F := Ideal) (φ := .f32) (ValAdd2_2.resultSumSq (V5 m ρ) c) (HostStats3.nRow (F := Ideal)))
          (mulf (F := Ideal) (φ := .f32) (Host.divf (F := Ideal) (φ := .f32) (ValAdd2_2.resultSum (V5 m ρ) c) (HostStats3.nRow (F := Ideal)))
            (Host.divf (F := Ideal) (φ := .f32) (ValAdd2_2.resultSum (V5 m ρ) c) (HostStats3.nRow (F := Ideal)))) := by
  refine (HostStats3.read_var (W6 m ρ c)).trans ?_
  rw [sum_eq m ρ c, sumsq_eq m ρ c]

/-- The scale row: the hop's row of the launch memory's stacked scales, which nothing has written since the launch. -/
theorem gRow_eq (c : Dev nD) : ValNorm3.gRow (V7 m ρ) c = g m c :=
  (HostStats3.read_g (W6 m ρ c)).trans (congrArg (HostStats3.rowOf (F := Ideal)) ((Carry.main_arg10_0_6 m ρ c).trans rfl))

/-- The shift row: the hop's row of the launch memory's stacked shifts. -/
theorem betaRow_eq (c : Dev nD) : ValNorm3.betaRow (V7 m ρ) c = β m c :=
  (HostStats3.read_beta (W6 m ρ c)).trans (congrArg (HostStats3.rowOf (F := Ideal)) ((Carry.main_arg11_0_6 m ρ c).trans rfl))

/-! ## The five arrays read at an entry -/

/-- The divisor row holds the row count in every column. -/
theorem nRow_apply (j : S1x128.Idx) : HostStats3.nRow (F := Ideal) j = nRows := by
  unfold HostStats3.nRow
  exact (broadcastInDim_scalar_apply bcast_S_S1x128 (constant (F := Ideal) S_ .f32 0x47C35000#32) j).trans rfl

/-- The tall array at row r, column q is the linear stage's entry. -/
theorem yArr_apply (c : Dev nD) (r : Fin 100000) (q : Fin 128) :
    ValNorm3.yArr (V7 m ρ) c (ix2 r q) = ValAdd2_2.y (V5 m ρ) c r q :=
  (congrFun (yArr_eq m ρ c) (ix2 r q)).trans rfl

/-- The mean row at column q is the column mean of the linear stage's output. -/
theorem mean_apply (c : Dev nD) (q : Fin 128) :
    ValNorm3.meanRow (V7 m ρ) c (ix2 (0 : Fin 1) q) = StageReal.colMean (ValAdd2_2.y (V5 m ρ) c) nRows q := by
  refine (congrFun (meanRow_eq m ρ c) (ix2 (0 : Fin 1) q)).trans ?_
  show Ideal.div (ValAdd2_2.resultSum (V5 m ρ) c (ix2 (0 : Fin 1) q)) (HostStats3.nRow (F := Ideal) (ix2 (0 : Fin 1) q)) = _
  rw [nRow_apply]
  rfl

/-- The variance row at column q is the mean of squares less the squared mean of that column. -/
theorem var_apply (c : Dev nD) (q : Fin 128) :
    ValNorm3.varRow (V7 m ρ) c (ix2 (0 : Fin 1) q) = StageReal.varSumSq (ValAdd2_2.y (V5 m ρ) c) nRows q := by
  refine (congrFun (varRow_eq m ρ c) (ix2 (0 : Fin 1) q)).trans ?_
  show Ideal.div (ValAdd2_2.resultSumSq (V5 m ρ) c (ix2 (0 : Fin 1) q)) (HostStats3.nRow (F := Ideal) (ix2 (0 : Fin 1) q))
      - Ideal.div (ValAdd2_2.resultSum (V5 m ρ) c (ix2 (0 : Fin 1) q)) (HostStats3.nRow (F := Ideal) (ix2 (0 : Fin 1) q))
        * Ideal.div (ValAdd2_2.resultSum (V5 m ρ) c (ix2 (0 : Fin 1) q)) (HostStats3.nRow (F := Ideal) (ix2 (0 : Fin 1) q)) = _
  rw [nRow_apply]
  rfl

/-! ## The hop's output -/

/-- What the second region leaves in its output array is what it computes from its five arrays. -/
theorem out_eq (c : Dev nD) :
    (W8 (F := Ideal) m ρ c (Proc.devRef .tc main_v40) : Vec Ideal S100000x128 .f32) = ValNorm3.result (V7 m ρ) c :=
  (W8_arr m ρ c 5).trans (ValNorm3.arrAt_out (V7 m ρ) c)

/-- THE KERNEL'S HOP OUTPUT, entry by entry: the batch normalisation of the hop's linear stage with the statistics in
    the kernel's form, not clipped. -/
theorem kernel_out_apply (c : Dev nD) (r : Fin 100000) (q : Fin 128) :
    (W8 (F := Ideal) m ρ c (Proc.devRef .tc main_v40) : Vec Ideal S100000x128 .f32) (ix2 r q)
      = StageSpec.norm (y m ρ c r q) (StageReal.colMean (y m ρ c) nRows q) (StageReal.varSumSq (y m ρ c) nRows q)
          (g m c (ix2 (0 : Fin 1) q)) (β m c (ix2 (0 : Fin 1) q)) := by
  refine (congrFun (out_eq m ρ c) (ix2 r q)).trans ?_
  show StageSpec.norm (ValNorm3.yArr (V7 m ρ) c (ix2 r q)) (ValNorm3.meanRow (V7 m ρ) c (ix2 (0 : Fin 1) q))
      (ValNorm3.varRow (V7 m ρ) c (ix2 (0 : Fin 1) q)) (ValNorm3.gRow (V7 m ρ) c (ix2 (0 : Fin 1) q))
      (ValNorm3.betaRow (V7 m ρ) c (ix2 (0 : Fin 1) q)) = _
  rw [yArr_apply m ρ c r q, mean_apply m ρ c q, var_apply m ρ c q, gRow_eq m ρ c, betaRow_eq m ρ c, y_eq m ρ c]

end Cert.KernelChain1

end
-- ==== Proof.RefConcat.lean ====
/-
  Three arrays of 128 columns laid side by side, and a matrix of 384 rows cut in three, read at an entry.

  The array of 384 columns made of three arrays of 128 columns placed side by side reads, at row r and column j, 128 + j
  and 128 + 128 + j (j below 128), the first, the second and the third array at row r and column j: a column falls in
  the piece whose span holds it, at its offset in that piece. A square of 128 rows cut out of a matrix of 384 rows from
  row o reads, at row j, the matrix at row o + j. These are the facts that turn three products added in a row into one
  product over the joined inner axis.

  Stated over the literal shapes, for any contents, any proof of the in-range facts and any proof of the shape facts,
  so that they fit both programs' names.
-/
import Idealize.ShloMosaic.Lib.ValueIdx
import Idealize.ShloMosaic.Lib.ValueLayout
import Idealize.ShloMosaic.Lib.Pipeline.Value

noncomputable section

namespace Cert.RefConcat

open Idealize.ShloMosaic Idealize.ShloMosaic.ValueIdx

variable {α : Type}

/-! ## Side by side -/

section SideBySide

variable (a b c : (⟨2, ![100000, 128]⟩ : Shape).Idx → α)
  (h : Shape.Concatenates
    (([⟨⟨2, ![100000, 128]⟩, a⟩, ⟨⟨2, ![100000, 128]⟩, b⟩, ⟨⟨2, ![100000, 128]⟩, c⟩] : List ((s : Shape) × (s.Idx → α))).map (·.1))
    (⟨2, ![100000, 384]⟩ : Shape) 1)

/-- The first 128 columns are the first array's. -/
theorem cat_fst (r : Fin 100000) (j : Fin 128) (hj : j.val < 384) :
    concatenate (⟨2, ![100000, 384]⟩ : Shape) 1 [⟨⟨2, ![100000, 128]⟩, a⟩, ⟨⟨2, ![100000, 128]⟩, b⟩, ⟨⟨2, ![100000, 128]⟩, c⟩] h
        (ix2 r ⟨j.val, hj⟩) = a (ix2 r j) :=
  concatenate_apply_piece 1 _ h (ix2 r ⟨j.val, hj⟩) 0 (by show 0 < 3; decide) ⟨2, ![100000, 128]⟩ a rfl rfl 0 rfl (ix2 r j)
    (fun d hd => by
      match d with
      | ⟨0, _⟩ => rfl
      | ⟨1, _⟩ => exact absurd (Fin.ext rfl) hd)
    (Nat.zero_add _)

/-- The next 128 columns are the second array's. -/
theorem cat_snd (r : Fin 100000) (j : Fin 128) (hj : 128 + j.val < 384) :
    concatenate (⟨2, ![100000, 384]⟩ : Shape) 1 [⟨⟨2, ![100000, 128]⟩, a⟩, ⟨⟨2, ![100000, 128]⟩, b⟩, ⟨⟨2, ![100000, 128]⟩, c⟩] h
        (ix2 r ⟨128 + j.val, hj⟩) = b (ix2 r j) :=
  concatenate_apply_piece 1 _ h (ix2 r ⟨128 + j.val, hj⟩) 1 (by show 1 < 3; decide) ⟨2, ![100000, 128]⟩ b rfl rfl 128 rfl (ix2 r j)
    (fun d hd => by
      match d with
      | ⟨0, _⟩ => rfl
      | ⟨1, _⟩ => exact absurd (Fin.ext rfl) hd)
    rfl

/-- The last 128 columns are the third array's. -/
theorem cat_trd (r : Fin 100000) (j : Fin 128) (hj : 128 + 128 + j.val < 384) :
    concatenate (⟨2, ![100000, 384]⟩ : Shape) 1 [⟨⟨2, ![100000, 128]⟩, a⟩, ⟨⟨2, ![100000, 128]⟩, b⟩, ⟨⟨2, ![100000, 128]⟩, c⟩] h
        (ix2 r ⟨128 + 128 + j.val, hj⟩) = c (ix2 r j) :=
  concatenate_apply_piece 1 _ h (ix2 r ⟨128 + 128 + j.val, hj⟩) 2 (by show 2 < 3; decide) ⟨2, ![100000, 128]⟩ c rfl rfl 256 rfl (ix2 r j)
    (fun d hd => by
      match d with
      | ⟨0, _⟩ => rfl
      | ⟨1, _⟩ => exact absurd (Fin.ext rfl) hd)
    rfl

end SideBySide

/-! ## A matrix of 384 rows cut in three -/

/-- The square of 128 rows cut from row o reads, at row j, the matrix at row o + j. -/
theorem rows_cut (o : Nat) (w : (⟨2, ![384, 128]⟩ : Shape).Idx → α)
    (h : (⟨2, ![384, 128]⟩ : Shape).Slices ![o, 0] ⟨2, ![128, 128]⟩) (j q : Fin 128) (hj : o + j.val < 384) :
    extractStridedSlice (⟨2, ![128, 128]⟩ : Shape) ![o, 0] w h (ix2 j q) = w (ix2 ⟨o + j.val, hj⟩ q) :=
  slice2_axis0_apply o w h j q ⟨o + j.val, hj⟩ rfl

/-- The square cut from the top, with the row written without the zero offset. -/
theorem rows_cut_zero (w : (⟨2, ![384, 128]⟩ : Shape).Idx → α)
    (h : (⟨2, ![384, 128]⟩ : Shape).Slices ![0, 0] ⟨2, ![128, 128]⟩) (j q : Fin 128) (hj : j.val < 384) :
    extractStridedSlice (⟨2, ![128, 128]⟩ : Shape) ![0, 0] w h (ix2 j q) = w (ix2 ⟨j.val, hj⟩ q) :=
  slice2_axis0_apply 0 w h j q ⟨j.val, hj⟩ (Nat.zero_add _).symm

/-- The third square, with the row written as 128 + 128 + j. -/
theorem rows_cut_256 (w : (⟨2, ![384, 128]⟩ : Shape).Idx → α)
    (h : (⟨2, ![384, 128]⟩ : Shape).Slices ![256, 0] ⟨2, ![128, 128]⟩) (j q : Fin 128) (hj : 128 + 128 + j.val < 384) :
    extractStridedSlice (⟨2, ![128, 128]⟩ : Shape) ![256, 0] w h (ix2 j q) = w (ix2 ⟨128 + 128 + j.val, hj⟩ q) :=
  slice2_axis0_apply 256 w h j q ⟨128 + 128 + j.val, hj⟩ rfl

end Cert.RefConcat

end
-- ==== Proof.RefKinds.lean ====
/- Laid out by: python3 scratch/mk_refkinds.py proof/Proof/RefKinds.lean   (run from the unit's directory). The block on a hop's
   weights, vectors and linear output is ONE text, laid out for each of the three hops of a block. Everything else is as written.

  The kinds of stage of the reference, at an entry.

  Every batch-norm stage forms a linear output A and normalises it by A's own column statistics. If A reads y(r, q) at
  every entry, the normalised array reads, at (r, q), the normalisation of y(r, q) by the column mean of y and the mean
  of the squared deviations of y, with the scale's and the shift's entries of the column; and its positive part reads
  the greater of that and zero. What differs from kind to kind is only the linear output: a hop's is the linear stage
  on the sum of the neighbour sum and the block input; the projection's is one product over the joined inner axis of
  the three hops' outputs side by side, which is three products added in a row; the attention's is the hyperbolic
  tangent of a linear stage; the assignment scores' is a linear stage into five columns.
-/
import proofs.«414479_j7705171329025_1_alg».proof.Proof.RefIndex
import proofs.«414479_j7705171329025_1_alg».proof.Proof.RefConcat

noncomputable section

namespace Cert.ReferenceIdeal.RefKinds

open Cert.ReferenceIdeal Cert.ReferenceIdeal.Gen Idealize.ShloMosaic Idealize.ShloMosaic.ValueIdx
open scoped BigOperators

/-- The row count as its f32 word. -/
abbrev N : EReal := Ideal.ofBits .f32 0x47C35000#32

/-! ## The statistics, for any linear output read entry by entry -/

/-- THE NORMALISED ENTRY of an array that reads y: the normalisation of y's entry by y's column statistics. -/
theorem norm_of_entries (A : (⟨S100000x128, .f32⟩ : BufTy).Contents (Elt Ideal)) (y : Fin 100000 → Fin 128 → EReal)
    (hA : ∀ r q, A (ix2 r q) = y r q) (c : (⟨S_, .i32⟩ : BufTy).Contents (Elt Ideal)) (hc : c ix0 = 0#32)
    (g β : (⟨S128, .f32⟩ : BufTy).Contents (Elt Ideal)) (r : Fin 100000) (q : Fin 128) :
    RefTerms.affine (RefTerms.standardise A (RefTerms.colMean A) (RefTerms.colVar A c)) g β (ix2 r q)
      = StageSpec.norm (y r q) (StageReal.colMean y N q) (StageReal.varDev y N q) (g (ix1 q)) (β (ix1 q)) := by
  have hy : (fun (r : Fin 100000) (q : Fin 128) => A (ix2 r q)) = y := funext fun r => funext fun q => hA r q
  rw [RefIndex.norm_apply, RefIndex.colMean_apply, RefIndex.colVar_apply A c hc, hy, hA]

/-- … and of its positive part: the greater of that and zero. -/
theorem relu_norm_of_entries (A : (⟨S100000x128, .f32⟩ : BufTy).Contents (Elt Ideal)) (y : Fin 100000 → Fin 128 → EReal)
    (hA : ∀ r q, A (ix2 r q) = y r q) (c : (⟨S_, .i32⟩ : BufTy).Contents (Elt Ideal)) (hc : c ix0 = 0#32)
    (g β : (⟨S128, .f32⟩ : BufTy).Contents (Elt Ideal)) (r : Fin 100000) (q : Fin 128) :
    RefTerms.relu (RefTerms.affine (RefTerms.standardise A (RefTerms.colMean A) (RefTerms.colVar A c)) g β) (ix2 r q)
      = max (StageSpec.norm (y r q) (StageReal.colMean y N q) (StageReal.varDev y N q) (g (ix1 q)) (β (ix1 q))) 0 := by
  rw [RefIndex.relu_apply, norm_of_entries A y hA c hc g β r q]

/-- The same for an array of five columns. -/
theorem norm5_of_entries (A : (⟨S100000x5, .f32⟩ : BufTy).Contents (Elt Ideal)) (y : Fin 100000 → Fin 5 → EReal)
    (hA : ∀ r q, A (ix2 r q) = y r q) (c : (⟨S_, .i32⟩ : BufTy).Contents (Elt Ideal)) (hc : c ix0 = 0#32)
    (g β : (⟨S5, .f32⟩ : BufTy).Contents (Elt Ideal)) (r : Fin 100000) (q : Fin 5) :
    RefTerms.affine5 (RefTerms.standardise5 A (RefTerms.colMean5 A) (RefTerms.colVar5 A c)) g β (ix2 r q)
      = StageSpec.norm (y r q) (StageReal.colMean y N q) (StageReal.varDev y N q) (g (ix1 q)) (β (ix1 q)) := by
  have hy : (fun (r : Fin 100000) (q : Fin 5) => A (ix2 r q)) = y := funext fun r => funext fun q => hA r q
  rw [RefIndex.norm5_apply, RefIndex.colMean5_apply, RefIndex.colVar5_apply A c hc, hy, hA]

/-! ## Linear outputs, for arbitrary operands -/

/-- A vector of 128 laid out as a row of 128. -/
theorem shapeCasts_S128_S1x128 : S128.ShapeCasts S1x128 := by decide

/-- A vector of 5 laid out as a row of 5. -/
theorem shapeCasts_S5_S1x5 : S5.ShapeCasts S1x5 := by decide

/-- The product of a sum of two arrays with a square matrix, plus a bias in every row: the linear stage on the
    entrywise sum, the bias read as a row. -/
theorem linAdd_of_lin (P bin : (⟨S100000x128, .f32⟩ : BufTy).Contents (Elt Ideal)) (w : (⟨S128x128, .f32⟩ : BufTy).Contents (Elt Ideal))
    (bv : (⟨S128, .f32⟩ : BufTy).Contents (Elt Ideal)) (r : Fin 100000) (q : Fin 128) :
    addf (Host.dotGeneral (F := Ideal) (φ₁ := .f32) (φ₂ := .f32) dot_S100000x128_S128x128_S100000x128_1_0_0_1_n_n none (addf P bin) w) (RefTerms.rows bv) (ix2 r q)
      = StageSpec.linAdd P bin w (shapeCast S1x128 bv shapeCasts_S128_S1x128) r q := by
  refine (RefIndex.lin128_apply _ _ _ r q).trans ?_
  unfold StageSpec.linAdd
  rw [shapeCast_a_1a_apply]
  rfl

/-- The product of an array with a square matrix, plus a bias in every row: the linear stage, the bias read as a row. -/
theorem lin_of_lin (x : (⟨S100000x128, .f32⟩ : BufTy).Contents (Elt Ideal)) (w : (⟨S128x128, .f32⟩ : BufTy).Contents (Elt Ideal))
    (bv : (⟨S128, .f32⟩ : BufTy).Contents (Elt Ideal)) (r : Fin 100000) (q : Fin 128) :
    addf (Host.dotGeneral (F := Ideal) (φ₁ := .f32) (φ₂ := .f32) dot_S100000x128_S128x128_S100000x128_1_0_0_1_n_n none x w) (RefTerms.rows bv) (ix2 r q)
      = StageSpec.lin x w (shapeCast S1x128 bv shapeCasts_S128_S1x128) r q := by
  refine (RefIndex.lin128_apply _ _ _ r q).trans ?_
  unfold StageSpec.lin
  rw [shapeCast_a_1a_apply]

/-- The hyperbolic tangent of such a linear output, at an entry. -/
theorem tanh_lin_of_lin (x : (⟨S100000x128, .f32⟩ : BufTy).Contents (Elt Ideal)) (w : (⟨S128x128, .f32⟩ : BufTy).Contents (Elt Ideal))
    (bv : (⟨S128, .f32⟩ : BufTy).Contents (Elt Ideal)) (r : Fin 100000) (q : Fin 128) :
    Host.tanh (addf (Host.dotGeneral (F := Ideal) (φ₁ := .f32) (φ₂ := .f32) dot_S100000x128_S128x128_S100000x128_1_0_0_1_n_n none x w) (RefTerms.rows bv)) (ix2 r q)
      = Ideal.tanh (StageSpec.lin x w (shapeCast S1x128 bv shapeCasts_S128_S1x128) r q) :=
  congrArg Ideal.tanh (lin_of_lin x w bv r q)

/-- The product of an array of 128 columns with a 128 × 5 matrix, plus a bias in every row. -/
theorem lin5_of_lin (x : (⟨S100000x128, .f32⟩ : BufTy).Contents (Elt Ideal)) (w : (⟨S128x5, .f32⟩ : BufTy).Contents (Elt Ideal))
    (bv : (⟨S5, .f32⟩ : BufTy).Contents (Elt Ideal)) (r : Fin 100000) (q : Fin 5) :
    addf (Host.dotGeneral (F := Ideal) (φ₁ := .f32) (φ₂ := .f32) dot_S100000x128_S128x5_S100000x5_1_0_0_1_n_n none x w) (RefTerms.rows5 bv) (ix2 r q)
      = StageSpec.lin x w (shapeCast S1x5 bv shapeCasts_S5_S1x5) r q := by
  refine (RefIndex.lin5_apply _ _ _ r q).trans ?_
  unfold StageSpec.lin
  rw [shapeCast_a_1a_apply]

/-! ## A hop's linear output -/

/-- The neighbour sum of x along the edges (s, d), as the reference's host text writes it: the rows of x at the
    edges' sources (an index below zero wrapped) added into zeros at the edges' destinations. -/
abbrev refPooled {F : FTy → Type} [FloatOps F] (x : (⟨S100000x128, .f32⟩ : BufTy).Contents (Elt F))
    (s d : (⟨S800000, .i32⟩ : BufTy).Contents (Elt F)) : (⟨S100000x128, .f32⟩ : BufTy).Contents (Elt F) :=
  Host.scatterAdd scatter_S100000x128_S800000x1_S800000x128_1_0_0_1
    (broadcastInDim S100000x128 ![] bcast_S_S100000x128 (RefTerms.zero (F := F)))
    (broadcastInDim S800000x1 ![0] bcast_S800000_S800000x1_0 d)
    (Host.gather gather_S100000x128_S800000x1_S800000x128_1_0_n_n_0_1_1128 x (RefTerms.wrapIdx s))

/-- Hop 0's square of the stacked weights. -/
abbrev refW0 {F : FTy → Type} [FloatOps F] (p : (⟨S3x128x128, .f32⟩ : BufTy).Contents (Elt F)) : (⟨S128x128, .f32⟩ : BufTy).Contents (Elt F) :=
  shapeCast S128x128 (extractStridedSlice S1x128x128 ![0, 0, 0] p slices_S3x128x128_S1x128x128_0_0_0) shapeCasts_S1x128x128_S128x128

/-- Hop 0's vector out of a stack of three (the bias, the scale or the shift). -/
abbrev refVec0 {F : FTy → Type} [FloatOps F] (p : (⟨S3x128, .f32⟩ : BufTy).Contents (Elt F)) : (⟨S128, .f32⟩ : BufTy).Contents (Elt F) :=
  shapeCast S128 (extractStridedSlice S1x128 ![0, 0] p slices_S3x128_S1x128_0_0) shapeCasts_S1x128_S128

/-- The same vector laid out as a row. -/
abbrev refRow0 {F : FTy → Type} [FloatOps F] (p : (⟨S3x128, .f32⟩ : BufTy).Contents (Elt F)) : (⟨S1x128, .f32⟩ : BufTy).Contents (Elt F) :=
  shapeCast S1x128 (refVec0 p) shapeCasts_S128_S1x128

/-- Hop 0's linear output: the neighbour sum of src plus the block input, against the hop's square, plus the
    hop's bias in every row. -/
abbrev hopLin0 {F : FTy → Type} [FloatOps F] (src bin : (⟨S100000x128, .f32⟩ : BufTy).Contents (Elt F))
    (s d : (⟨S800000, .i32⟩ : BufTy).Contents (Elt F)) (p8 : (⟨S3x128x128, .f32⟩ : BufTy).Contents (Elt F))
    (p9 : (⟨S3x128, .f32⟩ : BufTy).Contents (Elt F)) : (⟨S100000x128, .f32⟩ : BufTy).Contents (Elt F) :=
  addf (Host.dotGeneral dot_S100000x128_S128x128_S100000x128_1_0_0_1_n_n none (addf (refPooled src s d) bin) (refW0 p8))
    (RefTerms.rows (refVec0 p9))

/-- Hop 0's linear output at an entry: the linear stage on the entrywise sum of the neighbour sum and the block
    input, with the hop's square and the hop's bias row. -/
theorem hopLin0_apply (src bin : (⟨S100000x128, .f32⟩ : BufTy).Contents (Elt Ideal))
    (s d : (⟨S800000, .i32⟩ : BufTy).Contents (Elt Ideal)) (p8 : (⟨S3x128x128, .f32⟩ : BufTy).Contents (Elt Ideal))
    (p9 : (⟨S3x128, .f32⟩ : BufTy).Contents (Elt Ideal)) (r : Fin 100000) (q : Fin 128) :
    hopLin0 src bin s d p8 p9 (ix2 r q) = StageSpec.linAdd (refPooled src s d) bin (refW0 p8) (refRow0 p9) r q :=
  linAdd_of_lin (refPooled src s d) bin (refW0 p8) (refVec0 p9) r q

/-- Hop 1's square of the stacked weights. -/
abbrev refW1 {F : FTy → Type} [FloatOps F] (p : (⟨S3x128x128, .f32⟩ : BufTy).Contents (Elt F)) : (⟨S128x128, .f32⟩ : BufTy).Contents (Elt F) :=
  shapeCast S128x128 (extractStridedSlice S1x128x128 ![1, 0, 0] p slices_S3x128x128_S1x128x128_1_0_0) shapeCasts_S1x128x128_S128x128

/-- Hop 1's vector out of a stack of three (the bias, the scale or the shift). -/
abbrev refVec1 {F : FTy → Type} [FloatOps F] (p : (⟨S3x128, .f32⟩ : BufTy).Contents (Elt F)) : (⟨S128, .f32⟩ : BufTy).Contents (Elt F) :=
  shapeCast S128 (extractStridedSlice S1x128 ![1, 0] p slices_S3x128_S1x128_1_0) shapeCasts_S1x128_S128

/-- The same vector laid out as a row. -/
abbrev refRow1 {F : FTy → Type} [FloatOps F] (p : (⟨S3x128, .f32⟩ : BufTy).Contents (Elt F)) : (⟨S1x128, .f32⟩ : BufTy).Contents (Elt F) :=
  shapeCast S1x128 (refVec1 p) shapeCasts_S128_S1x128

/-- Hop 1's linear output: the neighbour sum of src plus the block input, against the hop's square, plus the
    hop's bias in every row. -/
abbrev hopLin1 {F : FTy → Type} [FloatOps F] (src bin : (⟨S100000x128, .f32⟩ : BufTy).Contents (Elt F))
    (s d : (⟨S800000, .i32⟩ : BufTy).Contents (Elt F)) (p8 : (⟨S3x128x128, .f32⟩ : BufTy).Contents (Elt F))
    (p9 : (⟨S3x128, .f32⟩ : BufTy).Contents (Elt F)) : (⟨S100000x128, .f32⟩ : BufTy).Contents (Elt F) :=
  addf (Host.dotGeneral dot_S100000x128_S128x128_S100000x128_1_0_0_1_n_n none (addf (refPooled src s d) bin) (refW1 p8))
    (RefTerms.rows (refVec1 p9))

/-- Hop 1's linear output at an entry: the linear stage on the entrywise sum of the neighbour sum and the block
    input, with the hop's square and the hop's bias row. -/
theorem hopLin1_apply (src bin : (⟨S100000x128, .f32⟩ : BufTy).Contents (Elt Ideal))
    (s d : (⟨S800000, .i32⟩ : BufTy).Contents (Elt Ideal)) (p8 : (⟨S3x128x128, .f32⟩ : BufTy).Contents (Elt Ideal))
    (p9 : (⟨S3x128, .f32⟩ : BufTy).Contents (Elt Ideal)) (r : Fin 100000) (q : Fin 128) :
    hopLin1 src bin s d p8 p9 (ix2 r q) = StageSpec.linAdd (refPooled src s d) bin (refW1 p8) (refRow1 p9) r q :=
  linAdd_of_lin (refPooled src s d) bin (refW1 p8) (refVec1 p9) r q

/-- Hop 2's square of the stacked weights. -/
abbrev refW2 {F : FTy → Type} [FloatOps F] (p : (⟨S3x128x128, .f32⟩ : BufTy).Contents (Elt F)) : (⟨S128x128, .f32⟩ : BufTy).Contents (Elt F) :=
  shapeCast S128x128 (extractStridedSlice S1x128x128 ![2, 0, 0] p slices_S3x128x128_S1x128x128_2_0_0) shapeCasts_S1x128x128_S128x128

/-- Hop 2's vector out of a stack of three (the bias, the scale or the shift). -/
abbrev refVec2 {F : FTy → Type} [FloatOps F] (p : (⟨S3x128, .f32⟩ : BufTy).Contents (Elt F)) : (⟨S128, .f32⟩ : BufTy).Contents (Elt F) :=
  shapeCast S128 (extractStridedSlice S1x128 ![2, 0] p slices_S3x128_S1x128_2_0) shapeCasts_S1x128_S128

/-- The same vector laid out as a row. -/
abbrev refRow2 {F : FTy → Type} [FloatOps F] (p : (⟨S3x128, .f32⟩ : BufTy).Contents (Elt F)) : (⟨S1x128, .f32⟩ : BufTy).Contents (Elt F) :=
  shapeCast S1x128 (refVec2 p) shapeCasts_S128_S1x128

/-- Hop 2's linear output: the neighbour sum of src plus the block input, against the hop's square, plus the
    hop's bias in every row. -/
abbrev hopLin2 {F : FTy → Type} [FloatOps F] (src bin : (⟨S100000x128, .f32⟩ : BufTy).Contents (Elt F))
    (s d : (⟨S800000, .i32⟩ : BufTy).Contents (Elt F)) (p8 : (⟨S3x128x128, .f32⟩ : BufTy).Contents (Elt F))
    (p9 : (⟨S3x128, .f32⟩ : BufTy).Contents (Elt F)) : (⟨S100000x128, .f32⟩ : BufTy).Contents (Elt F) :=
  addf (Host.dotGeneral dot_S100000x128_S128x128_S100000x128_1_0_0_1_n_n none (addf (refPooled src s d) bin) (refW2 p8))
    (RefTerms.rows (refVec2 p9))

/-- Hop 2's linear output at an entry: the linear stage on the entrywise sum of the neighbour sum and the block
    input, with the hop's square and the hop's bias row. -/
theorem hopLin2_apply (src bin : (⟨S100000x128, .f32⟩ : BufTy).Contents (Elt Ideal))
    (s d : (⟨S800000, .i32⟩ : BufTy).Contents (Elt Ideal)) (p8 : (⟨S3x128x128, .f32⟩ : BufTy).Contents (Elt Ideal))
    (p9 : (⟨S3x128, .f32⟩ : BufTy).Contents (Elt Ideal)) (r : Fin 100000) (q : Fin 128) :
    hopLin2 src bin s d p8 p9 (ix2 r q) = StageSpec.linAdd (refPooled src s d) bin (refW2 p8) (refRow2 p9) r q :=
  linAdd_of_lin (refPooled src s d) bin (refW2 p8) (refVec2 p9) r q

end Cert.ReferenceIdeal.RefKinds

end
-- ==== Proof.RefChain1.lean ====
/- Stage 1 of the reference, a hop (the block's hop 0), at an entry: W is the contents before windows 0 and 1. The hop takes the
   neighbour sum of the array src, adds the block input bin, sends the sum through the hop's square of the stacked
   weights and adds the hop's bias; the result is normalised by its own column statistics with the hop's scale and
   shift. The normalised array is what main_v65 holds after the stage's last window; at row r and column q it is the
   normalisation of the linear stage's entry. -/
import proofs.«414479_j7705171329025_1_alg».proof.Proof.RefStage0
import proofs.«414479_j7705171329025_1_alg».proof.Proof.RefStage1
import proofs.«414479_j7705171329025_1_alg».proof.Proof.RefKinds

noncomputable section

namespace Cert.ReferenceIdeal.RefChain1

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The array whose neighbour sum the hop takes. -/
abbrev src : (⟨S100000x128, .f32⟩ : BufTy).Contents (Elt Ideal) :=
  (RefStage0.t_v23 W)

/-- The block input the neighbour sum is added to. -/
abbrev bin : (⟨S100000x128, .f32⟩ : BufTy).Contents (Elt Ideal) :=
  (RefStage0.t_v23 W)

/-- The hop's scale. -/
abbrev g : (⟨S128, .f32⟩ : BufTy).Contents (Elt Ideal) :=
  (RefKinds.refVec0 (W (Proc.devRef .tc main_arg10)))

/-- The hop's shift. -/
abbrev β : (⟨S128, .f32⟩ : BufTy).Contents (Elt Ideal) :=
  (RefKinds.refVec0 (W (Proc.devRef .tc main_arg11)))

/-- The hop's linear output. -/
abbrev lin : (⟨S100000x128, .f32⟩ : BufTy).Contents (Elt Ideal) :=
  RefKinds.hopLin0 (src W) (bin W) (W (Proc.devRef .tc main_arg1)) (W (Proc.devRef .tc main_arg2)) (W (Proc.devRef .tc main_arg8)) (W (Proc.devRef .tc main_arg9))

/-- Its entry: the linear stage on the entrywise sum of the neighbour sum and the block input. -/
abbrev y (r : Fin 100000) (q : Fin 128) : EReal :=
  StageSpec.linAdd (RefKinds.refPooled (src W) (W (Proc.devRef .tc main_arg1)) (W (Proc.devRef .tc main_arg2))) (bin W)
    (RefKinds.refW0 (W (Proc.devRef .tc main_arg8))) (RefKinds.refRow0 (W (Proc.devRef .tc main_arg9))) r q

set_option maxRecDepth 8192 in
/-- After the stage's last window main_v65 holds the linear output normalised by its own column statistics. -/
theorem out_eq : (after (ops1 (F := Ideal)) (after (ops0 (F := Ideal)) W) (Proc.devRef .tc main_v65) : (⟨S100000x128, .f32⟩ : BufTy).Contents (Elt Ideal))
    = RefTerms.affine (RefTerms.standardise (lin W) (RefTerms.colMean (lin W)) (RefTerms.colVar (lin W) (constantI S_ 32 0#32 : (⟨S_, .i32⟩ : BufTy).Contents (Elt Ideal)))) (g W) (β W) := by
  rw [RefStage1.read_v65]
  simp only [RefStage1.t_v65]
  rw [RefStage0.read_c_7 W, RefStage0.read_v42 W, RefStage0.read_v44 W, RefStage0.read_v46 W, RefStage0.read_v49 W] <;> rfl

/-- STAGE 1 AT AN ENTRY. -/
theorem out_apply (r : Fin 100000) (q : Fin 128) : (after (ops1 (F := Ideal)) (after (ops0 (F := Ideal)) W) (Proc.devRef .tc main_v65) : (⟨S100000x128, .f32⟩ : BufTy).Contents (Elt Ideal)) (ix2 r q)
    = StageSpec.norm (y W r q) (StageReal.colMean (y W) RefKinds.N q) (StageReal.varDev (y W) RefKinds.N q) (g W (ix1 q)) (β W (ix1 q)) := by
  rw [out_eq]
  exact RefKinds.norm_of_entries (lin W) (y W) (fun r q => RefKinds.hopLin0_apply _ _ _ _ _ _ r q) _ rfl (g W) (β W) r q

end Cert.ReferenceIdeal.RefChain1

end
-- ==== Proof.HostHop10.lean ====
/-
  The host operations before the first hop's region of a later block. They first form the block's input, the block
  before's output plus the embedding's output, and then its neighbour sum: each edge's source index is normalised (a
  negative one counted from the end), the source rows are gathered along the edges and added into zeros at the edges'
  destinations. They also take the hop's square out of the stacked weights and the hop's row out of the stacked biases.
  Read here at any contents of the buffers before the stretch.
-/
import proofs.«414479_j7705171329025_1_alg».proof.Proof.Gen.KernelIdeal.Launch
import Idealize.ShloMosaic.Lib.StableHlo.Run

noncomputable section

namespace Cert.KernelIdeal.HostHop10

open Cert.KernelIdeal Cert.KernelIdeal.Gen
open Idealize.ShloMosaic Idealize.ShloMosaic.TcCoe Idealize.ShloMosaic.StableHlo

variable {F : FTy → Type} [FloatOps F]
variable (W : Valuation τ sig (Elt F))

/-- The neighbour sum of one hop. Every edge carries the row of its source (a negative source index is counted from
    the end: 100000 is added to it) to the row of its destination, and the rows that arrive at one destination are
    added up, starting from zero. The gather and the scatter-add stay closed: both sides of the claim hold the same
    two functions. -/
def pooled (x : (⟨S100000x128, .f32⟩ : BufTy).Contents (Elt F)) (src dst : (⟨S800000, .i32⟩ : BufTy).Contents (Elt F)) :
    (⟨S100000x128, .f32⟩ : BufTy).Contents (Elt F) :=
  Host.scatterAdd (F := F) scatter_S100000x128_S800000x1_S800000x128_1_0_0_1
    (broadcastInDim S100000x128 ![] bcast_S_S100000x128 (constant (F := F) S_ .f32 0x00000000#32))
    (broadcastInDim S800000x1 ![0] bcast_S800000_S800000x1_0 dst)
    (Host.gather gather_S100000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The hop's square of the stacked weights: one 128 by 128 slab, its leading axis of extent one dropped. -/
def wOf (p : (⟨S3x128x128, .f32⟩ : BufTy).Contents (Elt F)) : (⟨S128x128, .f32⟩ : BufTy).Contents (Elt F) :=
  shapeCast S128x128 (extractStridedSlice S1x128x128 ![0, 0, 0] p slices_S3x128x128_S1x128x128_0_0_0) shapeCasts_S1x128x128_S128x128

/-- The hop's row of the stacked biases, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![0, 0] p slices_S3x128_S1x128_0_0) shapeCasts_S1x128_S128)
    shapeCasts_S128_S1x128

/-- The block's input: the block before's output plus the embedding's output. -/
theorem read_input : (StableHlo.after hostOps10 W (Proc.devRef .tc main_v113) : (⟨S100000x128, .f32⟩ : BufTy).Contents (Elt F))
    = addf (F := F) (W (Proc.devRef .tc main_v112)) (W (Proc.devRef .tc main_v10)) := by
  after_results

/-- The neighbour sum of the block's input. -/
theorem read_pooled : (StableHlo.after hostOps10 W (Proc.devRef .tc main_v123) : (⟨S100000x128, .f32⟩ : BufTy).Contents (Elt F))
    = pooled (addf (F := F) (W (Proc.devRef .tc main_v112)) (W (Proc.devRef .tc main_v10))) (W (Proc.devRef .tc main_arg1)) (W (Proc.devRef .tc main_arg2)) := by
  after_results_simp <;> rfl

/-- The hop's weights. -/
theorem read_w : (StableHlo.after hostOps10 W (Proc.devRef .tc main_v125) : (⟨S128x128, .f32⟩ : BufTy).Contents (Elt F))
    = wOf (W (Proc.devRef .tc main_arg8)) := by
  after_results; rfl

/-- The hop's bias row. -/
theorem read_b : (StableHlo.after hostOps10 W (Proc.devRef .tc main_v128) : (⟨S1x128, .f32⟩ : BufTy).Contents (Elt F))
    = rowOf (W (Proc.devRef .tc main_arg9)) := by
  after_results; rfl

/-- The references the stretch writes, in order. -/
abbrev written : List (Ref sig .tc) :=
  [main_v113, main_c_18, main_v114, main_v115, main_c_19, main_v116, main_v117, main_v118, main_v119, main_v120, main_cst_20, main_v121, main_v122, main_v123, main_v124, main_v125, main_v126, main_v127, main_v128]

/-- Every operation of the stretch writes one of them. -/
theorem writes : (hostOps10 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A reference the stretch does not write keeps its contents. -/
theorem keep {r : Ref sig .tc} (h : r ∉ written) : StableHlo.after hostOps10 W (Proc.devRef .tc r) = W (Proc.devRef .tc r) :=
  StableHlo.after_of_writes_sub hostOps10 W writes h

end Cert.KernelIdeal.HostHop10

end
-- ==== Proof.HostHop12.lean ====
/-
  The host operations before a later hop's region. They form the neighbour sum of the hop before's output: each edge's
  source index is normalised (a negative one counted from the end), the source rows are gathered along the edges and
  added into zeros at the edges' destinations. They also take the hop's square out of the stacked weights and the
  hop's row out of the stacked biases. Read here at any contents of the buffers before the stretch.
-/
import proofs.«414479_j7705171329025_1_alg».proof.Proof.Gen.KernelIdeal.Launch
import Idealize.ShloMosaic.Lib.StableHlo.Run

noncomputable section

namespace Cert.KernelIdeal.HostHop12

open Cert.KernelIdeal Cert.KernelIdeal.Gen
open Idealize.ShloMosaic Idealize.ShloMosaic.TcCoe Idealize.ShloMosaic.StableHlo

variable {F : FTy → Type} [FloatOps F]
variable (W : Valuation τ sig (Elt F))

/-- The neighbour sum of one hop. Every edge carries the row of its source (a negative source index is counted from
    the end: 100000 is added to it) to the row of its destination, and the rows that arrive at one destination are
    added up, starting from zero. The gather and the scatter-add stay closed: both sides of the claim hold the same
    two functions. -/
def pooled (x : (⟨S100000x128, .f32⟩ : BufTy).Contents (Elt F)) (src dst : (⟨S800000, .i32⟩ : BufTy).Contents (Elt F)) :
    (⟨S100000x128, .f32⟩ : BufTy).Contents (Elt F) :=
  Host.scatterAdd (F := F) scatter_S100000x128_S800000x1_S800000x128_1_0_0_1
    (broadcastInDim S100000x128 ![] bcast_S_S100000x128 (constant (F := F) S_ .f32 0x00000000#32))
    (broadcastInDim S800000x1 ![0] bcast_S800000_S800000x1_0 dst)
    (Host.gather gather_S100000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The hop's square of the stacked weights: one 128 by 128 slab, its leading axis of extent one dropped. -/
def wOf (p : (⟨S3x128x128, .f32⟩ : BufTy).Contents (Elt F)) : (⟨S128x128, .f32⟩ : BufTy).Contents (Elt F) :=
  shapeCast S128x128 (extractStridedSlice S1x128x128 ![1, 0, 0] p slices_S3x128x128_S1x128x128_1_0_0) shapeCasts_S1x128x128_S128x128

/-- The hop's row of the stacked biases, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![1, 0] p slices_S3x128_S1x128_1_0) shapeCasts_S1x128_S128)
    shapeCasts_S128_S1x128

/-- The neighbour sum of the hop before's output. -/
theorem read_pooled : (StableHlo.after hostOps12 W (Proc.devRef .tc main_v152) : (⟨S100000x128, .f32⟩ : BufTy).Contents (Elt F))
    = pooled (W (Proc.devRef .tc main_v142)) (W (Proc.devRef .tc main_arg1)) (W (Proc.devRef .tc main_arg2)) := by
  after_results_simp <;> rfl

/-- The hop's weights. -/
theorem read_w : (StableHlo.after hostOps12 W (Proc.devRef .tc main_v154) : (⟨S128x128, .f32⟩ : BufTy).Contents (Elt F))
    = wOf (W (Proc.devRef .tc main_arg8)) := by
  after_results <;> rfl

/-- The hop's bias row. -/
theorem read_b : (StableHlo.after hostOps12 W (Proc.devRef .tc main_v157) : (⟨S1x128, .f32⟩ : BufTy).Contents (Elt F))
    = rowOf (W (Proc.devRef .tc main_arg9)) := by
  after_results <;> rfl

/-- The block's input, which the hop's region also stages, is not written. -/
theorem read_keep : StableHlo.after hostOps12 W (Proc.devRef .tc main_v113) = W (Proc.devRef .tc main_v113) := by
  refine StableHlo.after_of_forall_not_mem _ _ fun op h => ?_
  fin_cases h <;> simp only [nullary_writes, unary_writes, binary_writes, ternary_writes, reshape_writes, Finset.mem_singleton] <;>
    exact devRef_ne_of_ne (by decide)

/-- The references the stretch writes, in order. -/
abbrev written : List (Ref sig .tc) :=
  [main_c_23, main_v143, main_v144, main_c_24, main_v145, main_v146, main_v147, main_v148, main_v149, main_cst_25, main_v150, main_v151, main_v152, main_v153, main_v154, main_v155, main_v156, main_v157]

/-- Every operation of the stretch writes one of them. -/
theorem writes : (hostOps12 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A reference the stretch does not write keeps its contents. -/
theorem keep {r : Ref sig .tc} (h : r ∉ written) : StableHlo.after hostOps12 W (Proc.devRef .tc r) = W (Proc.devRef .tc r) :=
  StableHlo.after_of_writes_sub hostOps12 W writes h

end Cert.KernelIdeal.HostHop12

end
-- ==== Proof.HostHop14.lean ====
/-
  The host operations before a later hop's region. They form the neighbour sum of the hop before's output: each edge's
  source index is normalised (a negative one counted from the end), the source rows are gathered along the edges and
  added into zeros at the edges' destinations. They also take the hop's square out of the stacked weights and the
  hop's row out of the stacked biases. Read here at any contents of the buffers before the stretch.
-/
import proofs.«414479_j7705171329025_1_alg».proof.Proof.Gen.KernelIdeal.Launch
import Idealize.ShloMosaic.Lib.StableHlo.Run

noncomputable section

namespace Cert.KernelIdeal.HostHop14

open Cert.KernelIdeal Cert.KernelIdeal.Gen
open Idealize.ShloMosaic Idealize.ShloMosaic.TcCoe Idealize.ShloMosaic.StableHlo

variable {F : FTy → Type} [FloatOps F]
variable (W : Valuation τ sig (Elt F))

/-- The neighbour sum of one hop. Every edge carries the row of its source (a negative source index is counted from
    the end: 100000 is added to it) to the row of its destination, and the rows that arrive at one destination are
    added up, starting from zero. The gather and the scatter-add stay closed: both sides of the claim hold the same
    two functions. -/
def pooled (x : (⟨S100000x128, .f32⟩ : BufTy).Contents (Elt F)) (src dst : (⟨S800000, .i32⟩ : BufTy).Contents (Elt F)) :
    (⟨S100000x128, .f32⟩ : BufTy).Contents (Elt F) :=
  Host.scatterAdd (F := F) scatter_S100000x128_S800000x1_S800000x128_1_0_0_1
    (broadcastInDim S100000x128 ![] bcast_S_S100000x128 (constant (F := F) S_ .f32 0x00000000#32))
    (broadcastInDim S800000x1 ![0] bcast_S800000_S800000x1_0 dst)
    (Host.gather gather_S100000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The hop's square of the stacked weights: one 128 by 128 slab, its leading axis of extent one dropped. -/
def wOf (p : (⟨S3x128x128, .f32⟩ : BufTy).Contents (Elt F)) : (⟨S128x128, .f32⟩ : BufTy).Contents (Elt F) :=
  shapeCast S128x128 (extractStridedSlice S1x128x128 ![2, 0, 0] p slices_S3x128x128_S1x128x128_2_0_0) shapeCasts_S1x128x128_S128x128

/-- The hop's row of the stacked biases, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![2, 0] p slices_S3x128_S1x128_2_0) shapeCasts_S1x128_S128)
    shapeCasts_S128_S1x128

/-- The neighbour sum of the hop before's output. -/
theorem read_pooled : (StableHlo.after hostOps14 W (Proc.devRef .tc main_v181) : (⟨S100000x128, .f32⟩ : BufTy).Contents (Elt F))
    = pooled (W (Proc.devRef .tc main_v171)) (W (Proc.devRef .tc main_arg1)) (W (Proc.devRef .tc main_arg2)) := by
  after_results_simp <;> rfl

/-- The hop's weights. -/
theorem read_w : (StableHlo.after hostOps14 W (Proc.devRef .tc main_v183) : (⟨S128x128, .f32⟩ : BufTy).Contents (Elt F))
    = wOf (W (Proc.devRef .tc main_arg8)) := by
  after_results <;> rfl

/-- The hop's bias row. -/
theorem read_b : (StableHlo.after hostOps14 W (Proc.devRef .tc main_v186) : (⟨S1x128, .f32⟩ : BufTy).Contents (Elt F))
    = rowOf (W (Proc.devRef .tc main_arg9)) := by
  after_results <;> rfl

/-- The block's input, which the hop's region also stages, is not written. -/
theorem read_keep : StableHlo.after hostOps14 W (Proc.devRef .tc main_v113) = W (Proc.devRef .tc main_v113) := by
  refine StableHlo.after_of_forall_not_mem _ _ fun op h => ?_
  fin_cases h <;> simp only [nullary_writes, unary_writes, binary_writes, ternary_writes, reshape_writes, Finset.mem_singleton] <;>
    exact devRef_ne_of_ne (by decide)

/-- The references the stretch writes, in order. -/
abbrev written : List (Ref sig .tc) :=
  [main_c_28, main_v172, main_v173, main_c_29, main_v174, main_v175, main_v176, main_v177, main_v178, main_cst_30, main_v179, main_v180, main_v181, main_v182, main_v183, main_v184, main_v185, main_v186]

/-- Every operation of the stretch writes one of them. -/
theorem writes : (hostOps14 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A reference the stretch does not write keeps its contents. -/
theorem keep {r : Ref sig .tc} (h : r ∉ written) : StableHlo.after hostOps14 W (Proc.devRef .tc r) = W (Proc.devRef .tc r) :=
  StableHlo.after_of_writes_sub hostOps14 W writes h

end Cert.KernelIdeal.HostHop14

end
-- ==== Proof.HostHop18.lean ====
/-
  The host operations before the first hop's region of a later block. They first form the block's input, the block
  before's output plus the embedding's output, and then its neighbour sum: each edge's source index is normalised (a
  negative one counted from the end), the source rows are gathered along the edges and added into zeros at the edges'
  destinations. They also take the hop's square out of the stacked weights and the hop's row out of the stacked biases.
  Read here at any contents of the buffers before the stretch.
-/
import proofs.«414479_j7705171329025_1_alg».proof.Proof.Gen.KernelIdeal.Launch
import Idealize.ShloMosaic.Lib.StableHlo.Run

noncomputable section

namespace Cert.KernelIdeal.HostHop18

open Cert.KernelIdeal Cert.KernelIdeal.Gen
open Idealize.ShloMosaic Idealize.ShloMosaic.TcCoe Idealize.ShloMosaic.StableHlo

variable {F : FTy → Type} [FloatOps F]
variable (W : Valuation τ sig (Elt F))

/-- The neighbour sum of one hop. Every edge carries the row of its source (a negative source index is counted from
    the end: 100000 is added to it) to the row of its destination, and the rows that arrive at one destination are
    added up, starting from zero. The gather and the scatter-add stay closed: both sides of the claim hold the same
    two functions. -/
def pooled (x : (⟨S100000x128, .f32⟩ : BufTy).Contents (Elt F)) (src dst : (⟨S800000, .i32⟩ : BufTy).Contents (Elt F)) :
    (⟨S100000x128, .f32⟩ : BufTy).Contents (Elt F) :=
  Host.scatterAdd (F := F) scatter_S100000x128_S800000x1_S800000x128_1_0_0_1
    (broadcastInDim S100000x128 ![] bcast_S_S100000x128 (constant (F := F) S_ .f32 0x00000000#32))
    (broadcastInDim S800000x1 ![0] bcast_S800000_S800000x1_0 dst)
    (Host.gather gather_S100000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The hop's square of the stacked weights: one 128 by 128 slab, its leading axis of extent one dropped. -/
def wOf (p : (⟨S3x128x128, .f32⟩ : BufTy).Contents (Elt F)) : (⟨S128x128, .f32⟩ : BufTy).Contents (Elt F) :=
  shapeCast S128x128 (extractStridedSlice S1x128x128 ![0, 0, 0] p slices_S3x128x128_S1x128x128_0_0_0) shapeCasts_S1x128x128_S128x128

/-- The hop's row of the stacked biases, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![0, 0] p slices_S3x128_S1x128_0_0) shapeCasts_S1x128_S128)
    shapeCasts_S128_S1x128

/-- The block's input: the block before's output plus the embedding's output. -/
theorem read_input : (StableHlo.after hostOps18 W (Proc.devRef .tc main_v215) : (⟨S100000x128, .f32⟩ : BufTy).Contents (Elt F))
    = addf (F := F) (W (Proc.devRef .tc main_v214)) (W (Proc.devRef .tc main_v10)) := by
  after_results

/-- The neighbour sum of the block's input. -/
theorem read_pooled : (StableHlo.after hostOps18 W (Proc.devRef .tc main_v225) : (⟨S100000x128, .f32⟩ : BufTy).Contents (Elt F))
    = pooled (addf (F := F) (W (Proc.devRef .tc main_v214)) (W (Proc.devRef .tc main_v10))) (W (Proc.devRef .tc main_arg1)) (W (Proc.devRef .tc main_arg2)) := by
  after_results_simp <;> rfl

/-- The hop's weights. -/
theorem read_w : (StableHlo.after hostOps18 W (Proc.devRef .tc main_v227) : (⟨S128x128, .f32⟩ : BufTy).Contents (Elt F))
    = wOf (W (Proc.devRef .tc main_arg8)) := by
  after_results; rfl

/-- The hop's bias row. -/
theorem read_b : (StableHlo.after hostOps18 W (Proc.devRef .tc main_v230) : (⟨S1x128, .f32⟩ : BufTy).Contents (Elt F))
    = rowOf (W (Proc.devRef .tc main_arg9)) := by
  after_results; rfl

/-- The references the stretch writes, in order. -/
abbrev written : List (Ref sig .tc) :=
  [main_v215, main_c_35, main_v216, main_v217, main_c_36, main_v218, main_v219, main_v220, main_v221, main_v222, main_cst_37, main_v223, main_v224, main_v225, main_v226, main_v227, main_v228, main_v229, main_v230]

/-- Every operation of the stretch writes one of them. -/
theorem writes : (hostOps18 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A reference the stretch does not write keeps its contents. -/
theorem keep {r : Ref sig .tc} (h : r ∉ written) : StableHlo.after hostOps18 W (Proc.devRef .tc r) = W (Proc.devRef .tc r) :=
  StableHlo.after_of_writes_sub hostOps18 W writes h

end Cert.KernelIdeal.HostHop18

end
-- ==== Proof.HostHop20.lean ====
/-
  The host operations before a later hop's region. They form the neighbour sum of the hop before's output: each edge's
  source index is normalised (a negative one counted from the end), the source rows are gathered along the edges and
  added into zeros at the edges' destinations. They also take the hop's square out of the stacked weights and the
  hop's row out of the stacked biases. Read here at any contents of the buffers before the stretch.
-/
import proofs.«414479_j7705171329025_1_alg».proof.Proof.Gen.KernelIdeal.Launch
import Idealize.ShloMosaic.Lib.StableHlo.Run

noncomputable section

namespace Cert.KernelIdeal.HostHop20

open Cert.KernelIdeal Cert.KernelIdeal.Gen
open Idealize.ShloMosaic Idealize.ShloMosaic.TcCoe Idealize.ShloMosaic.StableHlo

variable {F : FTy → Type} [FloatOps F]
variable (W : Valuation τ sig (Elt F))

/-- The neighbour sum of one hop. Every edge carries the row of its source (a negative source index is counted from
    the end: 100000 is added to it) to the row of its destination, and the rows that arrive at one destination are
    added up, starting from zero. The gather and the scatter-add stay closed: both sides of the claim hold the same
    two functions. -/
def pooled (x : (⟨S100000x128, .f32⟩ : BufTy).Contents (Elt F)) (src dst : (⟨S800000, .i32⟩ : BufTy).Contents (Elt F)) :
    (⟨S100000x128, .f32⟩ : BufTy).Contents (Elt F) :=
  Host.scatterAdd (F := F) scatter_S100000x128_S800000x1_S800000x128_1_0_0_1
    (broadcastInDim S100000x128 ![] bcast_S_S100000x128 (constant (F := F) S_ .f32 0x00000000#32))
    (broadcastInDim S800000x1 ![0] bcast_S800000_S800000x1_0 dst)
    (Host.gather gather_S100000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The hop's square of the stacked weights: one 128 by 128 slab, its leading axis of extent one dropped. -/
def wOf (p : (⟨S3x128x128, .f32⟩ : BufTy).Contents (Elt F)) : (⟨S128x128, .f32⟩ : BufTy).Contents (Elt F) :=
  shapeCast S128x128 (extractStridedSlice S1x128x128 ![1, 0, 0] p slices_S3x128x128_S1x128x128_1_0_0) shapeCasts_S1x128x128_S128x128

/-- The hop's row of the stacked biases, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![1, 0] p slices_S3x128_S1x128_1_0) shapeCasts_S1x128_S128)
    shapeCasts_S128_S1x128

/-- The neighbour sum of the hop before's output. -/
theorem read_pooled : (StableHlo.after hostOps20 W (Proc.devRef .tc main_v254) : (⟨S100000x128, .f32⟩ : BufTy).Contents (Elt F))
    = pooled (W (Proc.devRef .tc main_v244)) (W (Proc.devRef .tc main_arg1)) (W (Proc.devRef .tc main_arg2)) := by
  after_results_simp <;> rfl

/-- The hop's weights. -/
theorem read_w : (StableHlo.after hostOps20 W (Proc.devRef .tc main_v256) : (⟨S128x128, .f32⟩ : BufTy).Contents (Elt F))
    = wOf (W (Proc.devRef .tc main_arg8)) := by
  after_results <;> rfl

/-- The hop's bias row. -/
theorem read_b : (StableHlo.after hostOps20 W (Proc.devRef .tc main_v259) : (⟨S1x128, .f32⟩ : BufTy).Contents (Elt F))
    = rowOf (W (Proc.devRef .tc main_arg9)) := by
  after_results <;> rfl

/-- The block's input, which the hop's region also stages, is not written. -/
theorem read_keep : StableHlo.after hostOps20 W (Proc.devRef .tc main_v215) = W (Proc.devRef .tc main_v215) := by
  refine StableHlo.after_of_forall_not_mem _ _ fun op h => ?_
  fin_cases h <;> simp only [nullary_writes, unary_writes, binary_writes, ternary_writes, reshape_writes, Finset.mem_singleton] <;>
    exact devRef_ne_of_ne (by decide)

/-- The references the stretch writes, in order. -/
abbrev written : List (Ref sig .tc) :=
  [main_c_40, main_v245, main_v246, main_c_41, main_v247, main_v248, main_v249, main_v250, main_v251, main_cst_42, main_v252, main_v253, main_v254, main_v255, main_v256, main_v257, main_v258, main_v259]

/-- Every operation of the stretch writes one of them. -/
theorem writes : (hostOps20 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A reference the stretch does not write keeps its contents. -/
theorem keep {r : Ref sig .tc} (h : r ∉ written) : StableHlo.after hostOps20 W (Proc.devRef .tc r) = W (Proc.devRef .tc r) :=
  StableHlo.after_of_writes_sub hostOps20 W writes h

end Cert.KernelIdeal.HostHop20

end
-- ==== Proof.HostHop22.lean ====
/-
  The host operations before a later hop's region. They form the neighbour sum of the hop before's output: each edge's
  source index is normalised (a negative one counted from the end), the source rows are gathered along the edges and
  added into zeros at the edges' destinations. They also take the hop's square out of the stacked weights and the
  hop's row out of the stacked biases. Read here at any contents of the buffers before the stretch.
-/
import proofs.«414479_j7705171329025_1_alg».proof.Proof.Gen.KernelIdeal.Launch
import Idealize.ShloMosaic.Lib.StableHlo.Run

noncomputable section

namespace Cert.KernelIdeal.HostHop22

open Cert.KernelIdeal Cert.KernelIdeal.Gen
open Idealize.ShloMosaic Idealize.ShloMosaic.TcCoe Idealize.ShloMosaic.StableHlo

variable {F : FTy → Type} [FloatOps F]
variable (W : Valuation τ sig (Elt F))

/-- The neighbour sum of one hop. Every edge carries the row of its source (a negative source index is counted from
    the end: 100000 is added to it) to the row of its destination, and the rows that arrive at one destination are
    added up, starting from zero. The gather and the scatter-add stay closed: both sides of the claim hold the same
    two functions. -/
def pooled (x : (⟨S100000x128, .f32⟩ : BufTy).Contents (Elt F)) (src dst : (⟨S800000, .i32⟩ : BufTy).Contents (Elt F)) :
    (⟨S100000x128, .f32⟩ : BufTy).Contents (Elt F) :=
  Host.scatterAdd (F := F) scatter_S100000x128_S800000x1_S800000x128_1_0_0_1
    (broadcastInDim S100000x128 ![] bcast_S_S100000x128 (constant (F := F) S_ .f32 0x00000000#32))
    (broadcastInDim S800000x1 ![0] bcast_S800000_S800000x1_0 dst)
    (Host.gather gather_S100000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The hop's square of the stacked weights: one 128 by 128 slab, its leading axis of extent one dropped. -/
def wOf (p : (⟨S3x128x128, .f32⟩ : BufTy).Contents (Elt F)) : (⟨S128x128, .f32⟩ : BufTy).Contents (Elt F) :=
  shapeCast S128x128 (extractStridedSlice S1x128x128 ![2, 0, 0] p slices_S3x128x128_S1x128x128_2_0_0) shapeCasts_S1x128x128_S128x128

/-- The hop's row of the stacked biases, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![2, 0] p slices_S3x128_S1x128_2_0) shapeCasts_S1x128_S128)
    shapeCasts_S128_S1x128

/-- The neighbour sum of the hop before's output. -/
theorem read_pooled : (StableHlo.after hostOps22 W (Proc.devRef .tc main_v283) : (⟨S100000x128, .f32⟩ : BufTy).Contents (Elt F))
    = pooled (W (Proc.devRef .tc main_v273)) (W (Proc.devRef .tc main_arg1)) (W (Proc.devRef .tc main_arg2)) := by
  after_results_simp <;> rfl

/-- The hop's weights. -/
theorem read_w : (StableHlo.after hostOps22 W (Proc.devRef .tc main_v285) : (⟨S128x128, .f32⟩ : BufTy).Contents (Elt F))
    = wOf (W (Proc.devRef .tc main_arg8)) := by
  after_results <;> rfl

/-- The hop's bias row. -/
theorem read_b : (StableHlo.after hostOps22 W (Proc.devRef .tc main_v288) : (⟨S1x128, .f32⟩ : BufTy).Contents (Elt F))
    = rowOf (W (Proc.devRef .tc main_arg9)) := by
  after_results <;> rfl

/-- The block's input, which the hop's region also stages, is not written. -/
theorem read_keep : StableHlo.after hostOps22 W (Proc.devRef .tc main_v215) = W (Proc.devRef .tc main_v215) := by
  refine StableHlo.after_of_forall_not_mem _ _ fun op h => ?_
  fin_cases h <;> simp only [nullary_writes, unary_writes, binary_writes, ternary_writes, reshape_writes, Finset.mem_singleton] <;>
    exact devRef_ne_of_ne (by decide)

/-- The references the stretch writes, in order. -/
abbrev written : List (Ref sig .tc) :=
  [main_c_45, main_v274, main_v275, main_c_46, main_v276, main_v277, main_v278, main_v279, main_v280, main_cst_47, main_v281, main_v282, main_v283, main_v284, main_v285, main_v286, main_v287, main_v288]

/-- Every operation of the stretch writes one of them. -/
theorem writes : (hostOps22 : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A reference the stretch does not write keeps its contents. -/
theorem keep {r : Ref sig .tc} (h : r ∉ written) : StableHlo.after hostOps22 W (Proc.devRef .tc r) = W (Proc.devRef .tc r) :=
  StableHlo.after_of_writes_sub hostOps22 W writes h

end Cert.KernelIdeal.HostHop22

end
-- ==== Proof.HostStats11.lean ====
/-
  The host operations between a linear stage and its normalisation, where the scale and the shift of the batch norm
  are one row of a stacked parameter. From the two carried rows the region leaves (the column sums and the column sums
  of squares) they form the mean (the sum over 100000), the mean of squares, and the variance as the mean of squares
  less the squared mean; and they take the stage's row out of the stacked scale and the stacked shift, flatten it and
  lay it out as a row again. Read here at any contents of the buffers before the stretch.
-/
import proofs.«414479_j7705171329025_1_alg».proof.Proof.Gen.KernelIdeal.Launch
import Idealize.ShloMosaic.Lib.StableHlo.Run

noncomputable section

namespace Cert.KernelIdeal.HostStats11

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x128, .f32⟩ : BufTy).Contents (Elt F) := broadcastInDim S1x128 ![] bcast_S_S1x128 (constant S_ .f32 0x47C35000#32)

/-- One row of a stacked parameter, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![0, 0] p slices_S3x128_S1x128_0_0) shapeCasts_S1x128_S128)
    shapeCasts_S128_S1x128

/-- The mean row: the column sums over the divisor. -/
theorem read_mean : (StableHlo.after hostOps11 W (Proc.devRef .tc main_v131) : (⟨S1x128, .f32⟩ : BufTy).Contents (Elt F))
    = Host.divf (W (Proc.devRef .tc main_v129_1)) nRow := by
  after_results; rfl

/-- The variance row: the mean of squares less the squared mean. -/
theorem read_var : (StableHlo.after hostOps11 W (Proc.devRef .tc main_v135) : (⟨S1x128, .f32⟩ : BufTy).Contents (Elt F))
    = subf (Host.divf (W (Proc.devRef .tc main_v129_2)) nRow)
        (mulf (Host.divf (W (Proc.devRef .tc main_v129_1)) nRow) (Host.divf (W (Proc.devRef .tc main_v129_1)) nRow)) := by
  after_results; rfl

/-- The scale row: the stage's row of the stacked scale. -/
theorem read_g : (StableHlo.after hostOps11 W (Proc.devRef .tc main_v140) : (⟨S1x128, .f32⟩ : BufTy).Contents (Elt F))
    = rowOf (W (Proc.devRef .tc main_arg10)) := by
  after_results; rfl

/-- The shift row: the stage's row of the stacked shift. -/
theorem read_beta : (StableHlo.after hostOps11 W (Proc.devRef .tc main_v141) : (⟨S1x128, .f32⟩ : BufTy).Contents (Elt F))
    = rowOf (W (Proc.devRef .tc main_arg11)) := by
  after_results; rfl

/-- A buffer the stretch does not write keeps its contents: the linear stage's output array. -/
theorem read_y : StableHlo.after hostOps11 W (Proc.devRef .tc main_v129_0) = W (Proc.devRef .tc main_v129_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats11

end
-- ==== Proof.HostStats13.lean ====
/-
  The host operations between a linear stage and its normalisation, where the scale and the shift of the batch norm
  are one row of a stacked parameter. From the two carried rows the region leaves (the column sums and the column sums
  of squares) they form the mean (the sum over 100000), the mean of squares, and the variance as the mean of squares
  less the squared mean; and they take the stage's row out of the stacked scale and the stacked shift, flatten it and
  lay it out as a row again. Read here at any contents of the buffers before the stretch.
-/
import proofs.«414479_j7705171329025_1_alg».proof.Proof.Gen.KernelIdeal.Launch
import Idealize.ShloMosaic.Lib.StableHlo.Run

noncomputable section

namespace Cert.KernelIdeal.HostStats13

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x128, .f32⟩ : BufTy).Contents (Elt F) := broadcastInDim S1x128 ![] bcast_S_S1x128 (constant S_ .f32 0x47C35000#32)

/-- One row of a stacked parameter, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![1, 0] p slices_S3x128_S1x128_1_0) shapeCasts_S1x128_S128)
    shapeCasts_S128_S1x128

/-- The mean row: the column sums over the divisor. -/
theorem read_mean : (StableHlo.after hostOps13 W (Proc.devRef .tc main_v160) : (⟨S1x128, .f32⟩ : BufTy).Contents (Elt F))
    = Host.divf (W (Proc.devRef .tc main_v158_1)) nRow := by
  after_results; rfl

/-- The variance row: the mean of squares less the squared mean. -/
theorem read_var : (StableHlo.after hostOps13 W (Proc.devRef .tc main_v164) : (⟨S1x128, .f32⟩ : BufTy).Contents (Elt F))
    = subf (Host.divf (W (Proc.devRef .tc main_v158_2)) nRow)
        (mulf (Host.divf (W (Proc.devRef .tc main_v158_1)) nRow) (Host.divf (W (Proc.devRef .tc main_v158_1)) nRow)) := by
  after_results; rfl

/-- The scale row: the stage's row of the stacked scale. -/
theorem read_g : (StableHlo.after hostOps13 W (Proc.devRef .tc main_v169) : (⟨S1x128, .f32⟩ : BufTy).Contents (Elt F))
    = rowOf (W (Proc.devRef .tc main_arg10)) := by
  after_results; rfl

/-- The shift row: the stage's row of the stacked shift. -/
theorem read_beta : (StableHlo.after hostOps13 W (Proc.devRef .tc main_v170) : (⟨S1x128, .f32⟩ : BufTy).Contents (Elt F))
    = rowOf (W (Proc.devRef .tc main_arg11)) := by
  after_results; rfl

/-- A buffer the stretch does not write keeps its contents: the linear stage's output array. -/
theorem read_y : StableHlo.after hostOps13 W (Proc.devRef .tc main_v158_0) = W (Proc.devRef .tc main_v158_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats13

end
-- ==== Proof.HostStats15.lean ====
/-
  The host operations between a linear stage and its normalisation, where the scale and the shift of the batch norm
  are one row of a stacked parameter. From the two carried rows the region leaves (the column sums and the column sums
  of squares) they form the mean (the sum over 100000), the mean of squares, and the variance as the mean of squares
  less the squared mean; and they take the stage's row out of the stacked scale and the stacked shift, flatten it and
  lay it out as a row again. Read here at any contents of the buffers before the stretch.
-/
import proofs.«414479_j7705171329025_1_alg».proof.Proof.Gen.KernelIdeal.Launch
import Idealize.ShloMosaic.Lib.StableHlo.Run

noncomputable section

namespace Cert.KernelIdeal.HostStats15

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x128, .f32⟩ : BufTy).Contents (Elt F) := broadcastInDim S1x128 ![] bcast_S_S1x128 (constant S_ .f32 0x47C35000#32)

/-- One row of a stacked parameter, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![2, 0] p slices_S3x128_S1x128_2_0) shapeCasts_S1x128_S128)
    shapeCasts_S128_S1x128

/-- The mean row: the column sums over the divisor. -/
theorem read_mean : (StableHlo.after hostOps15 W (Proc.devRef .tc main_v189) : (⟨S1x128, .f32⟩ : BufTy).Contents (Elt F))
    = Host.divf (W (Proc.devRef .tc main_v187_1)) nRow := by
  after_results; rfl

/-- The variance row: the mean of squares less the squared mean. -/
theorem read_var : (StableHlo.after hostOps15 W (Proc.devRef .tc main_v193) : (⟨S1x128, .f32⟩ : BufTy).Contents (Elt F))
    = subf (Host.divf (W (Proc.devRef .tc main_v187_2)) nRow)
        (mulf (Host.divf (W (Proc.devRef .tc main_v187_1)) nRow) (Host.divf (W (Proc.devRef .tc main_v187_1)) nRow)) := by
  after_results; rfl

/-- The scale row: the stage's row of the stacked scale. -/
theorem read_g : (StableHlo.after hostOps15 W (Proc.devRef .tc main_v198) : (⟨S1x128, .f32⟩ : BufTy).Contents (Elt F))
    = rowOf (W (Proc.devRef .tc main_arg10)) := by
  after_results; rfl

/-- The shift row: the stage's row of the stacked shift. -/
theorem read_beta : (StableHlo.after hostOps15 W (Proc.devRef .tc main_v199) : (⟨S1x128, .f32⟩ : BufTy).Contents (Elt F))
    = rowOf (W (Proc.devRef .tc main_arg11)) := by
  after_results; rfl

/-- A buffer the stretch does not write keeps its contents: the linear stage's output array. -/
theorem read_y : StableHlo.after hostOps15 W (Proc.devRef .tc main_v187_0) = W (Proc.devRef .tc main_v187_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats15

end
-- ==== Proof.HostStats19.lean ====
/-
  The host operations between a linear stage and its normalisation, where the scale and the shift of the batch norm
  are one row of a stacked parameter. From the two carried rows the region leaves (the column sums and the column sums
  of squares) they form the mean (the sum over 100000), the mean of squares, and the variance as the mean of squares
  less the squared mean; and they take the stage's row out of the stacked scale and the stacked shift, flatten it and
  lay it out as a row again. Read here at any contents of the buffers before the stretch.
-/
import proofs.«414479_j7705171329025_1_alg».proof.Proof.Gen.KernelIdeal.Launch
import Idealize.ShloMosaic.Lib.StableHlo.Run

noncomputable section

namespace Cert.KernelIdeal.HostStats19

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x128, .f32⟩ : BufTy).Contents (Elt F) := broadcastInDim S1x128 ![] bcast_S_S1x128 (constant S_ .f32 0x47C35000#32)

/-- One row of a stacked parameter, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![0, 0] p slices_S3x128_S1x128_0_0) shapeCasts_S1x128_S128)
    shapeCasts_S128_S1x128

/-- The mean row: the column sums over the divisor. -/
theorem read_mean : (StableHlo.after hostOps19 W (Proc.devRef .tc main_v233) : (⟨S1x128, .f32⟩ : BufTy).Contents (Elt F))
    = Host.divf (W (Proc.devRef .tc main_v231_1)) nRow := by
  after_results; rfl

/-- The variance row: the mean of squares less the squared mean. -/
theorem read_var : (StableHlo.after hostOps19 W (Proc.devRef .tc main_v237) : (⟨S1x128, .f32⟩ : BufTy).Contents (Elt F))
    = subf (Host.divf (W (Proc.devRef .tc main_v231_2)) nRow)
        (mulf (Host.divf (W (Proc.devRef .tc main_v231_1)) nRow) (Host.divf (W (Proc.devRef .tc main_v231_1)) nRow)) := by
  after_results; rfl

/-- The scale row: the stage's row of the stacked scale. -/
theorem read_g : (StableHlo.after hostOps19 W (Proc.devRef .tc main_v242) : (⟨S1x128, .f32⟩ : BufTy).Contents (Elt F))
    = rowOf (W (Proc.devRef .tc main_arg10)) := by
  after_results; rfl

/-- The shift row: the stage's row of the stacked shift. -/
theorem read_beta : (StableHlo.after hostOps19 W (Proc.devRef .tc main_v243) : (⟨S1x128, .f32⟩ : BufTy).Contents (Elt F))
    = rowOf (W (Proc.devRef .tc main_arg11)) := by
  after_results; rfl

/-- A buffer the stretch does not write keeps its contents: the linear stage's output array. -/
theorem read_y : StableHlo.after hostOps19 W (Proc.devRef .tc main_v231_0) = W (Proc.devRef .tc main_v231_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats19

end
-- ==== Proof.HostStats21.lean ====
/-
  The host operations between a linear stage and its normalisation, where the scale and the shift of the batch norm
  are one row of a stacked parameter. From the two carried rows the region leaves (the column sums and the column sums
  of squares) they form the mean (the sum over 100000), the mean of squares, and the variance as the mean of squares
  less the squared mean; and they take the stage's row out of the stacked scale and the stacked shift, flatten it and
  lay it out as a row again. Read here at any contents of the buffers before the stretch.
-/
import proofs.«414479_j7705171329025_1_alg».proof.Proof.Gen.KernelIdeal.Launch
import Idealize.ShloMosaic.Lib.StableHlo.Run

noncomputable section

namespace Cert.KernelIdeal.HostStats21

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x128, .f32⟩ : BufTy).Contents (Elt F) := broadcastInDim S1x128 ![] bcast_S_S1x128 (constant S_ .f32 0x47C35000#32)

/-- One row of a stacked parameter, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![1, 0] p slices_S3x128_S1x128_1_0) shapeCasts_S1x128_S128)
    shapeCasts_S128_S1x128

/-- The mean row: the column sums over the divisor. -/
theorem read_mean : (StableHlo.after hostOps21 W (Proc.devRef .tc main_v262) : (⟨S1x128, .f32⟩ : BufTy).Contents (Elt F))
    = Host.divf (W (Proc.devRef .tc main_v260_1)) nRow := by
  after_results; rfl

/-- The variance row: the mean of squares less the squared mean. -/
theorem read_var : (StableHlo.after hostOps21 W (Proc.devRef .tc main_v266) : (⟨S1x128, .f32⟩ : BufTy).Contents (Elt F))
    = subf (Host.divf (W (Proc.devRef .tc main_v260_2)) nRow)
        (mulf (Host.divf (W (Proc.devRef .tc main_v260_1)) nRow) (Host.divf (W (Proc.devRef .tc main_v260_1)) nRow)) := by
  after_results; rfl

/-- The scale row: the stage's row of the stacked scale. -/
theorem read_g : (StableHlo.after hostOps21 W (Proc.devRef .tc main_v271) : (⟨S1x128, .f32⟩ : BufTy).Contents (Elt F))
    = rowOf (W (Proc.devRef .tc main_arg10)) := by
  after_results; rfl

/-- The shift row: the stage's row of the stacked shift. -/
theorem read_beta : (StableHlo.after hostOps21 W (Proc.devRef .tc main_v272) : (⟨S1x128, .f32⟩ : BufTy).Contents (Elt F))
    = rowOf (W (Proc.devRef .tc main_arg11)) := by
  after_results; rfl

/-- A buffer the stretch does not write keeps its contents: the linear stage's output array. -/
theorem read_y : StableHlo.after hostOps21 W (Proc.devRef .tc main_v260_0) = W (Proc.devRef .tc main_v260_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats21

end
-- ==== Proof.HostStats23.lean ====
/-
  The host operations between a linear stage and its normalisation, where the scale and the shift of the batch norm
  are one row of a stacked parameter. From the two carried rows the region leaves (the column sums and the column sums
  of squares) they form the mean (the sum over 100000), the mean of squares, and the variance as the mean of squares
  less the squared mean; and they take the stage's row out of the stacked scale and the stacked shift, flatten it and
  lay it out as a row again. Read here at any contents of the buffers before the stretch.
-/
import proofs.«414479_j7705171329025_1_alg».proof.Proof.Gen.KernelIdeal.Launch
import Idealize.ShloMosaic.Lib.StableHlo.Run

noncomputable section

namespace Cert.KernelIdeal.HostStats23

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x128, .f32⟩ : BufTy).Contents (Elt F) := broadcastInDim S1x128 ![] bcast_S_S1x128 (constant S_ .f32 0x47C35000#32)

/-- One row of a stacked parameter, flattened and laid out as a row again: the same entries, in row-major order. -/
def rowOf (p : (⟨S3x128, .f32⟩ : BufTy).Contents (Elt F)) : (⟨S1x128, .f32⟩ : BufTy).Contents (Elt F) :=
  shapeCast S1x128 (shapeCast S128 (extractStridedSlice S1x128 ![2, 0] p slices_S3x128_S1x128_2_0) shapeCasts_S1x128_S128)
    shapeCasts_S128_S1x128

/-- The mean row: the column sums over the divisor. -/
theorem read_mean : (StableHlo.after hostOps23 W (Proc.devRef .tc main_v291) : (⟨S1x128, .f32⟩ : BufTy).Contents (Elt F))
    = Host.divf (W (Proc.devRef .tc main_v289_1)) nRow := by
  after_results; rfl

/-- The variance row: the mean of squares less the squared mean. -/
theorem read_var : (StableHlo.after hostOps23 W (Proc.devRef .tc main_v295) : (⟨S1x128, .f32⟩ : BufTy).Contents (Elt F))
    = subf (Host.divf (W (Proc.devRef .tc main_v289_2)) nRow)
        (mulf (Host.divf (W (Proc.devRef .tc main_v289_1)) nRow) (Host.divf (W (Proc.devRef .tc main_v289_1)) nRow)) := by
  after_results; rfl

/-- The scale row: the stage's row of the stacked scale. -/
theorem read_g : (StableHlo.after hostOps23 W (Proc.devRef .tc main_v300) : (⟨S1x128, .f32⟩ : BufTy).Contents (Elt F))
    = rowOf (W (Proc.devRef .tc main_arg10)) := by
  after_results; rfl

/-- The shift row: the stage's row of the stacked shift. -/
theorem read_beta : (StableHlo.after hostOps23 W (Proc.devRef .tc main_v301) : (⟨S1x128, .f32⟩ : BufTy).Contents (Elt F))
    = rowOf (W (Proc.devRef .tc main_arg11)) := by
  after_results; rfl

/-- A buffer the stretch does not write keeps its contents: the linear stage's output array. -/
theorem read_y : StableHlo.after hostOps23 W (Proc.devRef .tc main_v289_0) = W (Proc.devRef .tc main_v289_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats23

end
-- ==== Proof.Seam.lean ====
/-
  The seam between the two programs' vocabularies. The kernel's program and the reference's each declare their own
  shapes, their own gather and scatter dimension records and their own side conditions: the same literals under two
  names. Here the records are identified, and the reference's neighbour sum, its hop weights and its hop bias are
  stated as the kernel's named terms of the same arguments, so that a value of the reference can be rewritten into
  the words the kernel's reads are stated in. The gather and the scatter-add stay closed throughout: the two sides
  hold the same two functions of the same arguments. Side conditions need no lemma: they are proofs of one
  proposition under two names, and any two such proofs are the same.
-/
import proofs.«414479_j7705171329025_1_alg».proof.Proof.HostHop2
import proofs.«414479_j7705171329025_1_alg».proof.Proof.HostHop4
import proofs.«414479_j7705171329025_1_alg».proof.Proof.HostHop6
import proofs.«414479_j7705171329025_1_alg».proof.Proof.HostHop10
import proofs.«414479_j7705171329025_1_alg».proof.Proof.HostHop12
import proofs.«414479_j7705171329025_1_alg».proof.Proof.HostHop14
import proofs.«414479_j7705171329025_1_alg».proof.Proof.HostHop18
import proofs.«414479_j7705171329025_1_alg».proof.Proof.HostHop20
import proofs.«414479_j7705171329025_1_alg».proof.Proof.HostHop22
import proofs.«414479_j7705171329025_1_alg».proof.Proof.HostStats3
import proofs.«414479_j7705171329025_1_alg».proof.Proof.HostStats5
import proofs.«414479_j7705171329025_1_alg».proof.Proof.HostStats7
import proofs.«414479_j7705171329025_1_alg».proof.Proof.HostStats11
import proofs.«414479_j7705171329025_1_alg».proof.Proof.HostStats13
import proofs.«414479_j7705171329025_1_alg».proof.Proof.HostStats15
import proofs.«414479_j7705171329025_1_alg».proof.Proof.HostStats19
import proofs.«414479_j7705171329025_1_alg».proof.Proof.HostStats21
import proofs.«414479_j7705171329025_1_alg».proof.Proof.HostStats23
import proofs.«414479_j7705171329025_1_alg».proof.Proof.RefStage0
import proofs.«414479_j7705171329025_1_alg».proof.Proof.RefTerms

noncomputable section

namespace Cert.Seam

open Idealize.ShloMosaic Idealize.ShloMosaic.TcCoe Idealize.ShloMosaic.StableHlo

variable {F : FTy → Type} [FloatOps F]

/-! ## The dimension records -/

/-- The two programs' gather dimensions are one record. -/
theorem gather_eq : ReferenceIdeal.gather_S100000x128_S800000x1_S800000x128_1_0_n_n_0_1_1128 = KernelIdeal.gather_S100000x128_S800000x1_S800000x128_1_0_n_n_0_1_1128 := rfl

/-- The two programs' scatter dimensions are one record. -/
theorem scatter_eq : ReferenceIdeal.scatter_S100000x128_S800000x1_S800000x128_1_0_0_1 = KernelIdeal.scatter_S100000x128_S800000x1_S800000x128_1_0_0_1 := rfl

/-! ## The neighbour sum -/

/-- The reference's neighbour sum of x along the edges (src, dst), as its host text writes it, is the kernel's. -/
theorem ref_pooled_eq (x : (⟨ReferenceIdeal.S100000x128, .f32⟩ : BufTy).Contents (Elt F))
    (src dst : (⟨ReferenceIdeal.S800000, .i32⟩ : BufTy).Contents (Elt F)) :
    Host.scatterAdd ReferenceIdeal.scatter_S100000x128_S800000x1_S800000x128_1_0_0_1
      (broadcastInDim ReferenceIdeal.S100000x128 ![] ReferenceIdeal.Gen.bcast_S_S100000x128 (ReferenceIdeal.RefTerms.zero (F := F)))
      (broadcastInDim ReferenceIdeal.S800000x1 ![0] ReferenceIdeal.Gen.bcast_S800000_S800000x1_0 dst)
      (Host.gather ReferenceIdeal.gather_S100000x128_S800000x1_S800000x128_1_0_n_n_0_1_1128 x (ReferenceIdeal.RefTerms.wrapIdx src))
    = KernelIdeal.HostHop2.pooled x src dst := rfl

/-! ## The hop's weights and bias, for each of the three hops of a block -/

/-- Hop 0: the reference's square of the stacked weights is the kernel's. -/
theorem ref_w_eq0 (p : (⟨ReferenceIdeal.S3x128x128, .f32⟩ : BufTy).Contents (Elt F)) :
    shapeCast ReferenceIdeal.S128x128 (extractStridedSlice ReferenceIdeal.S1x128x128 ![0, 0, 0] p ReferenceIdeal.Gen.slices_S3x128x128_S1x128x128_0_0_0) ReferenceIdeal.Gen.shapeCasts_S1x128x128_S128x128
    = KernelIdeal.HostHop2.wOf p := rfl

/-- Hop 0: the kernel's bias row is the reference's bias vector laid out as a row. -/
theorem ref_b_eq0 (p : (⟨ReferenceIdeal.S3x128, .f32⟩ : BufTy).Contents (Elt F)) :
    shapeCast KernelIdeal.S1x128 (shapeCast ReferenceIdeal.S128 (extractStridedSlice ReferenceIdeal.S1x128 ![0, 0] p ReferenceIdeal.Gen.slices_S3x128_S1x128_0_0) ReferenceIdeal.Gen.shapeCasts_S1x128_S128) KernelIdeal.Gen.shapeCasts_S128_S1x128
    = KernelIdeal.HostHop2.rowOf p := rfl

/-- Hop 1: the reference's square of the stacked weights is the kernel's. -/
theorem ref_w_eq1 (p : (⟨ReferenceIdeal.S3x128x128, .f32⟩ : BufTy).Contents (Elt F)) :
    shapeCast ReferenceIdeal.S128x128 (extractStridedSlice ReferenceIdeal.S1x128x128 ![1, 0, 0] p ReferenceIdeal.Gen.slices_S3x128x128_S1x128x128_1_0_0) ReferenceIdeal.Gen.shapeCasts_S1x128x128_S128x128
    = KernelIdeal.HostHop4.wOf p := rfl

/-- Hop 1: the kernel's bias row is the reference's bias vector laid out as a row. -/
theorem ref_b_eq1 (p : (⟨ReferenceIdeal.S3x128, .f32⟩ : BufTy).Contents (Elt F)) :
    shapeCast KernelIdeal.S1x128 (shapeCast ReferenceIdeal.S128 (extractStridedSlice ReferenceIdeal.S1x128 ![1, 0] p ReferenceIdeal.Gen.slices_S3x128_S1x128_1_0) ReferenceIdeal.Gen.shapeCasts_S1x128_S128) KernelIdeal.Gen.shapeCasts_S128_S1x128
    = KernelIdeal.HostHop4.rowOf p := rfl

/-- Hop 2: the reference's square of the stacked weights is the kernel's. -/
theorem ref_w_eq2 (p : (⟨ReferenceIdeal.S3x128x128, .f32⟩ : BufTy).Contents (Elt F)) :
    shapeCast ReferenceIdeal.S128x128 (extractStridedSlice ReferenceIdeal.S1x128x128 ![2, 0, 0] p ReferenceIdeal.Gen.slices_S3x128x128_S1x128x128_2_0_0) ReferenceIdeal.Gen.shapeCasts_S1x128x128_S128x128
    = KernelIdeal.HostHop6.wOf p := rfl

/-- Hop 2: the kernel's bias row is the reference's bias vector laid out as a row. -/
theorem ref_b_eq2 (p : (⟨ReferenceIdeal.S3x128, .f32⟩ : BufTy).Contents (Elt F)) :
    shapeCast KernelIdeal.S1x128 (shapeCast ReferenceIdeal.S128 (extractStridedSlice ReferenceIdeal.S1x128 ![2, 0] p ReferenceIdeal.Gen.slices_S3x128_S1x128_2_0) ReferenceIdeal.Gen.shapeCasts_S1x128_S128) KernelIdeal.Gen.shapeCasts_S128_S1x128
    = KernelIdeal.HostHop6.rowOf p := rfl

/-! ## One term under several names

Each reading module states its own copy of the neighbour sum, the weight square and the parameter row. They are the
same terms: every copy is the first one. -/
theorem pooled_4 (x : (⟨KernelIdeal.S100000x128, .f32⟩ : BufTy).Contents (Elt F)) (src dst : (⟨KernelIdeal.S800000, .i32⟩ : BufTy).Contents (Elt F)) : KernelIdeal.HostHop4.pooled x src dst = KernelIdeal.HostHop2.pooled x src dst := rfl
theorem pooled_6 (x : (⟨KernelIdeal.S100000x128, .f32⟩ : BufTy).Contents (Elt F)) (src dst : (⟨KernelIdeal.S800000, .i32⟩ : BufTy).Contents (Elt F)) : KernelIdeal.HostHop6.pooled x src dst = KernelIdeal.HostHop2.pooled x src dst := rfl
theorem pooled_10 (x : (⟨KernelIdeal.S100000x128, .f32⟩ : BufTy).Contents (Elt F)) (src dst : (⟨KernelIdeal.S800000, .i32⟩ : BufTy).Contents (Elt F)) : KernelIdeal.HostHop10.pooled x src dst = KernelIdeal.HostHop2.pooled x src dst := rfl
theorem pooled_12 (x : (⟨KernelIdeal.S100000x128, .f32⟩ : BufTy).Contents (Elt F)) (src dst : (⟨KernelIdeal.S800000, .i32⟩ : BufTy).Contents (Elt F)) : KernelIdeal.HostHop12.pooled x src dst = KernelIdeal.HostHop2.pooled x src dst := rfl
theorem pooled_14 (x : (⟨KernelIdeal.S100000x128, .f32⟩ : BufTy).Contents (Elt F)) (src dst : (⟨KernelIdeal.S800000, .i32⟩ : BufTy).Contents (Elt F)) : KernelIdeal.HostHop14.pooled x src dst = KernelIdeal.HostHop2.pooled x src dst := rfl
theorem pooled_18 (x : (⟨KernelIdeal.S100000x128, .f32⟩ : BufTy).Contents (Elt F)) (src dst : (⟨KernelIdeal.S800000, .i32⟩ : BufTy).Contents (Elt F)) : KernelIdeal.HostHop18.pooled x src dst = KernelIdeal.HostHop2.pooled x src dst := rfl
theorem pooled_20 (x : (⟨KernelIdeal.S100000x128, .f32⟩ : BufTy).Contents (Elt F)) (src dst : (⟨KernelIdeal.S800000, .i32⟩ : BufTy).Contents (Elt F)) : KernelIdeal.HostHop20.pooled x src dst = KernelIdeal.HostHop2.pooled x src dst := rfl
theorem pooled_22 (x : (⟨KernelIdeal.S100000x128, .f32⟩ : BufTy).Contents (Elt F)) (src dst : (⟨KernelIdeal.S800000, .i32⟩ : BufTy).Contents (Elt F)) : KernelIdeal.HostHop22.pooled x src dst = KernelIdeal.HostHop2.pooled x src dst := rfl
theorem wOf_10 (p : (⟨KernelIdeal.S3x128x128, .f32⟩ : BufTy).Contents (Elt F)) : KernelIdeal.HostHop10.wOf p = KernelIdeal.HostHop2.wOf p := rfl
theorem wOf_18 (p : (⟨KernelIdeal.S3x128x128, .f32⟩ : BufTy).Contents (Elt F)) : KernelIdeal.HostHop18.wOf p = KernelIdeal.HostHop2.wOf p := rfl
theorem wOf_12 (p : (⟨KernelIdeal.S3x128x128, .f32⟩ : BufTy).Contents (Elt F)) : KernelIdeal.HostHop12.wOf p = KernelIdeal.HostHop4.wOf p := rfl
theorem wOf_20 (p : (⟨KernelIdeal.S3x128x128, .f32⟩ : BufTy).Contents (Elt F)) : KernelIdeal.HostHop20.wOf p = KernelIdeal.HostHop4.wOf p := rfl
theorem wOf_14 (p : (⟨KernelIdeal.S3x128x128, .f32⟩ : BufTy).Contents (Elt F)) : KernelIdeal.HostHop14.wOf p = KernelIdeal.HostHop6.wOf p := rfl
theorem wOf_22 (p : (⟨KernelIdeal.S3x128x128, .f32⟩ : BufTy).Contents (Elt F)) : KernelIdeal.HostHop22.wOf p = KernelIdeal.HostHop6.wOf p := rfl
theorem rowOf_10 (p : (⟨KernelIdeal.S3x128, .f32⟩ : BufTy).Contents (Elt F)) : KernelIdeal.HostHop10.rowOf p = KernelIdeal.HostHop2.rowOf p := rfl
theorem rowOf_18 (p : (⟨KernelIdeal.S3x128, .f32⟩ : BufTy).Contents (Elt F)) : KernelIdeal.HostHop18.rowOf p = KernelIdeal.HostHop2.rowOf p := rfl
theorem rowOf_12 (p : (⟨KernelIdeal.S3x128, .f32⟩ : BufTy).Contents (Elt F)) : KernelIdeal.HostHop12.rowOf p = KernelIdeal.HostHop4.rowOf p := rfl
theorem rowOf_20 (p : (⟨KernelIdeal.S3x128, .f32⟩ : BufTy).Contents (Elt F)) : KernelIdeal.HostHop20.rowOf p = KernelIdeal.HostHop4.rowOf p := rfl
theorem rowOf_14 (p : (⟨KernelIdeal.S3x128, .f32⟩ : BufTy).Contents (Elt F)) : KernelIdeal.HostHop14.rowOf p = KernelIdeal.HostHop6.rowOf p := rfl
theorem rowOf_22 (p : (⟨KernelIdeal.S3x128, .f32⟩ : BufTy).Contents (Elt F)) : KernelIdeal.HostHop22.rowOf p = KernelIdeal.HostHop6.rowOf p := rfl
theorem rowOf_stats3 (p : (⟨KernelIdeal.S3x128, .f32⟩ : BufTy).Contents (Elt F)) : KernelIdeal.HostStats3.rowOf p = KernelIdeal.HostHop2.rowOf p := rfl
theorem rowOf_stats11 (p : (⟨KernelIdeal.S3x128, .f32⟩ : BufTy).Contents (Elt F)) : KernelIdeal.HostStats11.rowOf p = KernelIdeal.HostHop2.rowOf p := rfl
theorem rowOf_stats19 (p : (⟨KernelIdeal.S3x128, .f32⟩ : BufTy).Contents (Elt F)) : KernelIdeal.HostStats19.rowOf p = KernelIdeal.HostHop2.rowOf p := rfl
theorem rowOf_stats5 (p : (⟨KernelIdeal.S3x128, .f32⟩ : BufTy).Contents (Elt F)) : KernelIdeal.HostStats5.rowOf p = KernelIdeal.HostHop4.rowOf p := rfl
theorem rowOf_stats13 (p : (⟨KernelIdeal.S3x128, .f32⟩ : BufTy).Contents (Elt F)) : KernelIdeal.HostStats13.rowOf p = KernelIdeal.HostHop4.rowOf p := rfl
theorem rowOf_stats21 (p : (⟨KernelIdeal.S3x128, .f32⟩ : BufTy).Contents (Elt F)) : KernelIdeal.HostStats21.rowOf p = KernelIdeal.HostHop4.rowOf p := rfl
theorem rowOf_stats7 (p : (⟨KernelIdeal.S3x128, .f32⟩ : BufTy).Contents (Elt F)) : KernelIdeal.HostStats7.rowOf p = KernelIdeal.HostHop6.rowOf p := rfl
theorem rowOf_stats15 (p : (⟨KernelIdeal.S3x128, .f32⟩ : BufTy).Contents (Elt F)) : KernelIdeal.HostStats15.rowOf p = KernelIdeal.HostHop6.rowOf p := rfl
theorem rowOf_stats23 (p : (⟨KernelIdeal.S3x128, .f32⟩ : BufTy).Contents (Elt F)) : KernelIdeal.HostStats23.rowOf p = KernelIdeal.HostHop6.rowOf p := rfl

/-! ## In use -/

/-- The first hop's pre-normalisation array of the reference, in the kernel's words: the rewrite meets the
    reference's term as it stands. -/
example (W : Valuation ReferenceIdeal.τ ReferenceIdeal.sig (Elt F)) :
    ReferenceIdeal.RefStage0.t_v42 W
    = addf (Host.dotGeneral ReferenceIdeal.dot_S100000x128_S128x128_S100000x128_1_0_0_1_n_n none
        (addf (KernelIdeal.HostHop2.pooled (ReferenceIdeal.RefStage0.t_v23 W) (W (Proc.devRef .tc ReferenceIdeal.main_arg1)) (W (Proc.devRef .tc ReferenceIdeal.main_arg2)))
          (ReferenceIdeal.RefStage0.t_v23 W))
        (KernelIdeal.HostHop2.wOf (W (Proc.devRef .tc ReferenceIdeal.main_arg8))))
      (ReferenceIdeal.RefTerms.rows (shapeCast ReferenceIdeal.S128 (extractStridedSlice ReferenceIdeal.S1x128 ![0, 0] (W (Proc.devRef .tc ReferenceIdeal.main_arg9)) ReferenceIdeal.Gen.slices_S3x128_S1x128_0_0) ReferenceIdeal.Gen.shapeCasts_S1x128_S128)) := by
  rw [← ref_pooled_eq, ← ref_w_eq0]

end Cert.Seam

end
-- ==== Proof.Chain1.lean ====
/-
  Stage 1 of the chain: the first message-passing hop. Both programs pool the embedding's output along the edges, add the
  embedding's output, multiply by the hop's square of the stacked weights, add the hop's bias and normalise the result by
  its batch statistics with the hop's scale and shift; there is no clipping after a hop. The two programs' embedding
  outputs are one array of real numbers (the invariant of stage 0), the edge lists and the parameters are the same in the
  two memories, and the neighbour sum, the weight square and the bias row are written with the same words in both; so the
  two linear stages are one array, of real numbers. The kernel takes the variance as the mean of squares less the squared
  mean, the reference as the mean of the squared deviations: on real data one number. So the two normalised arrays are
  equal, entry by entry, and every entry is a real number.
-/
import proofs.«414479_j7705171329025_1_alg».proof.Proof.KernelChain1
import proofs.«414479_j7705171329025_1_alg».proof.Proof.RefChain1
import proofs.«414479_j7705171329025_1_alg».proof.Proof.ChainDefs
import proofs.«414479_j7705171329025_1_alg».proof.Proof.Chain0
import proofs.«414479_j7705171329025_1_alg».proof.Proof.Seam
import proofs.«414479_j7705171329025_1_alg».proof.Proof.StageReal
import proofs.«414479_j7705171329025_1_alg».proof.Proof.PreReal

noncomputable section

namespace Cert.Chain1

open Cert.RealSpec (IsReal)
open Cert.ChainDefs
open Idealize.ShloMosaic Idealize.ShloMosaic.TcCoe Idealize.ShloMosaic.StableHlo

variable [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The reference's array whose neighbour sum the hop takes is its embedding output. -/
theorem ref_src_eq (c : Dev Cert.ReferenceIdeal.nD) : Cert.ReferenceIdeal.RefChain1.src (U0 m' c) = rOut0 m' c :=
  (Cert.ReferenceIdeal.RefStage0.read_v23 (U0 m' c)).symm

/-- And so is the block input the neighbour sum is added to. -/
theorem ref_bin_eq (c : Dev Cert.ReferenceIdeal.nD) : Cert.ReferenceIdeal.RefChain1.bin (U0 m' c) = rOut0 m' c :=
  (Cert.ReferenceIdeal.RefStage0.read_v23 (U0 m' c)).symm

/-- A hop's row of a stacked parameter, read at column q, is the hop's vector of it at q: the row is the vector laid out
    as a row. -/
theorem row_eq_vec (p : Vec Ideal Cert.KernelIdeal.S3x128 .f32) (q : Fin 128) :
    Cert.KernelIdeal.HostStats3.rowOf (F := Ideal) p (ValueIdx.ix2 (0 : Fin 1) q)
      = Cert.ReferenceIdeal.RefKinds.refVec0 (F := Ideal) p (ValueIdx.ix1 q) :=
  ValueIdx.shapeCast_a_1a_apply _ _ (0 : Fin 1) q

/-- STAGE 1: the two hop outputs are equal, and every entry is a real number, given the same of the embedding outputs. -/
theorem inv1 (hpre : Cert.Pre_KernelIdeal m) (hag : Cert.Chain0.Agree m m') (c : Dev Cert.KernelIdeal.nD)
    (h0 : Inv0 m ρ m' c) : Inv1 m ρ m' c := by
  -- the reference's embedding output is the kernel's, by the invariant of stage 0
  have eprev : rOut0 m' c = Cert.KernelChain1.prev m ρ c := (funext h0.1).symm
  have esrc : Cert.ReferenceIdeal.RefChain1.src (U0 m' c) = Cert.KernelChain1.prev m ρ c := (ref_src_eq m' c).trans eprev
  have ebin : Cert.ReferenceIdeal.RefChain1.bin (U0 m' c) = Cert.KernelChain1.prev m ρ c := (ref_bin_eq m' c).trans eprev
  -- the reference's edge lists and parameters are the kernel's, by the agreement of the two memories on the arguments
  have e1 : U0 m' c (Proc.devRef .tc Cert.ReferenceIdeal.main_arg1) = Cert.KernelChain1.src m c := hag.arg1 c
  have e2 : U0 m' c (Proc.devRef .tc Cert.ReferenceIdeal.main_arg2) = Cert.KernelChain1.dst m c := hag.arg2 c
  have e8 : U0 m' c (Proc.devRef .tc Cert.ReferenceIdeal.main_arg8) = Cert.KernelChain1.convW m c := hag.arg8 c
  have e9 : U0 m' c (Proc.devRef .tc Cert.ReferenceIdeal.main_arg9) = Cert.KernelChain1.convB m c := hag.arg9 c
  have e10 : U0 m' c (Proc.devRef .tc Cert.ReferenceIdeal.main_arg10) = Cert.KernelChain1.bnG m c := hag.arg10 c
  have e11 : U0 m' c (Proc.devRef .tc Cert.ReferenceIdeal.main_arg11) = Cert.KernelChain1.bnB m c := hag.arg11 c
  -- so the two linear stages are one array: the neighbour sum, the weight square and the bias row are the same words
  have ey : Cert.ReferenceIdeal.RefChain1.y (U0 m' c) = Cert.KernelChain1.y m ρ c := by
    funext r q
    show StageSpec.linAdd
        (Cert.ReferenceIdeal.RefKinds.refPooled (Cert.ReferenceIdeal.RefChain1.src (U0 m' c))
          (U0 m' c (Proc.devRef .tc Cert.ReferenceIdeal.main_arg1)) (U0 m' c (Proc.devRef .tc Cert.ReferenceIdeal.main_arg2)))
        (Cert.ReferenceIdeal.RefChain1.bin (U0 m' c))
        (Cert.ReferenceIdeal.RefKinds.refW0 (U0 m' c (Proc.devRef .tc Cert.ReferenceIdeal.main_arg8)))
        (Cert.ReferenceIdeal.RefKinds.refRow0 (U0 m' c (Proc.devRef .tc Cert.ReferenceIdeal.main_arg9))) r q = _
    rw [esrc, ebin, e1, e2, e8, e9]
    rfl
  -- the reference's scale and shift at column q are the kernel's rows' entries
  have eg : ∀ q : Fin 128, Cert.ReferenceIdeal.RefChain1.g (U0 m' c) (ValueIdx.ix1 q)
      = Cert.KernelChain1.g m c (ValueIdx.ix2 (0 : Fin 1) q) := fun q => by
    show Cert.ReferenceIdeal.RefKinds.refVec0 (U0 m' c (Proc.devRef .tc Cert.ReferenceIdeal.main_arg10)) (ValueIdx.ix1 q) = _
    rw [e10]
    exact (row_eq_vec (Cert.KernelChain1.bnG m c) q).symm
  have eβ : ∀ q : Fin 128, Cert.ReferenceIdeal.RefChain1.β (U0 m' c) (ValueIdx.ix1 q)
      = Cert.KernelChain1.β m c (ValueIdx.ix2 (0 : Fin 1) q) := fun q => by
    show Cert.ReferenceIdeal.RefKinds.refVec0 (U0 m' c (Proc.devRef .tc Cert.ReferenceIdeal.main_arg11)) (ValueIdx.ix1 q) = _
    rw [e11]
    exact (row_eq_vec (Cert.KernelChain1.bnB m c) q).symm
  -- every entry of the linear stage is a real number, so the two variances are one number
  have hy : ∀ r q, IsReal (Cert.KernelChain1.y m ρ c r q) := Cert.KernelChain1.y_isReal m ρ hpre c h0.2
  refine ⟨fun i => ?_, fun i => ?_⟩
  · obtain ⟨r, q, rfl⟩ : ∃ (r : Fin 100000) (q : Fin 128), i = ValueIdx.ix2 r q := ⟨i 0, i 1, ValueIdx.eq_ix2 i⟩
    rw [show kOut1 m ρ c (ValueIdx.ix2 r q) = _ from Cert.KernelChain1.kernel_out_apply m ρ c r q,
      show rOut1 m' c (ValueIdx.ix2 r q) = _ from Cert.ReferenceIdeal.RefChain1.out_apply (U0 m' c) r q,
      ey, eg q, eβ q]
    exact Cert.StageReal.norm_varSumSq_eq_norm_varDev_100000 (Cert.KernelChain1.y m ρ c) hy q (Cert.KernelChain1.y m ρ c r q) _ _
  · obtain ⟨r, q, rfl⟩ : ∃ (r : Fin 100000) (q : Fin 128), i = ValueIdx.ix2 r q := ⟨i 0, i 1, ValueIdx.eq_ix2 i⟩
    rw [show kOut1 m ρ c (ValueIdx.ix2 r q) = _ from Cert.KernelChain1.kernel_out_apply m ρ c r q]
    exact Cert.StageReal.norm_varSumSq_isReal_100000 (Cert.KernelChain1.y m ρ c) hy q (hy r q)
      (Cert.KernelChain1.g_isReal m hpre c q) (Cert.KernelChain1.β_isReal m hpre c q)

end Cert.Chain1

end
-- ==== Proof.ValAdd2_4.lean ====
/-
  Region 4: a message-passing hop's linear stage with its column statistics. At each grid point the body adds a block of
  5000 rows of the pooled neighbours to the same rows of the block's input, multiplies by the hop's weight matrix, adds the
  bias row, stores that block, and adds the block's column sums and column sums of squares to two carried rows the first
  point has set to zero. As for the embedding, the blocks tile the rows and the carried rows end as sums over all rows.
-/
import proofs.«414479_j7705171329025_1_alg».proof.Proof.FrameKI.R4
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValAdd2_4

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. At the first point the two carried rows are first set to zero and then read
  back, so the running rows it leaves are the block's sums added to zero; at the other points they are added to what the
  rows held. -/

section Pieces

variable {F : FTy → Type} [FloatOps F]

theorem outA4 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond4_0 i)
    (x0 : Vec F S5000x128 .f32) (x1 : Vec F S5000x128 .f32) (x2 : Vec F S128x128 .f32) (x3 : Vec F S1x128 .f32) :
    out4_A_4 c i a1 h1 a2 h2 a3 h3 a4 h4 a5 h5 a6 h6 a7 h7 hc x0 x1 x2 x3 = k4_pay3 x0 x1 x2 x3 := by
  unfold out4_A_4
  rw [View.read_writes_eq_canon _ _ _ (cover4_A_4 c i a1 h1 a2 h2 a3 h3 a4 h4 a5 h5 a6 h6 a7 h7 hc x0 x1 x2 x3)]
  unfold kernelRun4_A
  dsimp only
  (try sl_unfold_words)
  rw [View.canon_unit_zero hz]
  simp only [View.readAt_eq_ld, h1.read_unread, h2.read_unread, h3.read_unread, h4.read_unread,
    View.ld_unit_zero (S := S5000x128) hz, View.ld_unit_zero (S := S128x128) hz, View.ld_unit_zero (S := S1x128) hz]

theorem outA5 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond4_0 i)
    (x0 : Vec F S5000x128 .f32) (x1 : Vec F S5000x128 .f32) (x2 : Vec F S128x128 .f32) (x3 : Vec F S1x128 .f32) :
    out4_A_5 c i a1 h1 a2 h2 a3 h3 a4 h4 a5 h5 a6 h6 a7 h7 hc x0 x1 x2 x3 = k4_pay4 x0 x1 x2 x3 (k4_pay1 (F := F)) := by
  unfold out4_A_5
  rw [View.read_writes_eq_canon _ _ _ (cover4_A_5 c i a1 h1 a2 h2 a3 h3 a4 h4 a5 h5 a6 h6 a7 h7 hc x0 x1 x2 x3)]
  unfold kernelRun4_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outA6 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond4_0 i)
    (x0 : Vec F S5000x128 .f32) (x1 : Vec F S5000x128 .f32) (x2 : Vec F S128x128 .f32) (x3 : Vec F S1x128 .f32) :
    out4_A_6 c i a1 h1 a2 h2 a3 h3 a4 h4 a5 h5 a6 h6 a7 h7 hc x0 x1 x2 x3 = k4_pay5 x0 x1 x2 x3 (k4_pay2 (F := F)) := by
  unfold out4_A_6
  rw [View.read_writes_eq_canon _ _ _ (cover4_A_6 c i a1 h1 a2 h2 a3 h3 a4 h4 a5 h5 a6 h6 a7 h7 hc x0 x1 x2 x3)]
  unfold kernelRun4_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outB4 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond4_0 i)
    (x0 : Vec F S5000x128 .f32) (x1 : Vec F S5000x128 .f32) (x2 : Vec F S128x128 .f32) (x3 : Vec F S1x128 .f32) (xoS xoQ : Vec F S1x128 .f32) :
    out4_B_4 c i a1 h1 a2 h2 a3 h3 a4 h4 a5 h5 a6 h6 a7 h7 hc x0 x1 x2 x3 xoS xoQ = k4_pay3 x0 x1 x2 x3 := by
  unfold out4_B_4
  rw [View.read_writes_eq_canon _ _ _ (cover4_B_4 c i a1 h1 a2 h2 a3 h3 a4 h4 a5 h5 a6 h6 a7 h7 hc x0 x1 x2 x3 xoS xoQ)]
  unfold kernelRun4_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB5 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond4_0 i)
    (x0 : Vec F S5000x128 .f32) (x1 : Vec F S5000x128 .f32) (x2 : Vec F S128x128 .f32) (x3 : Vec F S1x128 .f32) (xoS xoQ : Vec F S1x128 .f32) :
    out4_B_5 c i a1 h1 a2 h2 a3 h3 a4 h4 a5 h5 a6 h6 a7 h7 hc x0 x1 x2 x3 xoS xoQ = k4_pay4 x0 x1 x2 x3 xoS := by
  unfold out4_B_5
  rw [View.read_writes_eq_canon _ _ _ (cover4_B_5 c i a1 h1 a2 h2 a3 h3 a4 h4 a5 h5 a6 h6 a7 h7 hc x0 x1 x2 x3 xoS xoQ)]
  unfold kernelRun4_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB6 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond4_0 i)
    (x0 : Vec F S5000x128 .f32) (x1 : Vec F S5000x128 .f32) (x2 : Vec F S128x128 .f32) (x3 : Vec F S1x128 .f32) (xoS xoQ : Vec F S1x128 .f32) :
    out4_B_6 c i a1 h1 a2 h2 a3 h3 a4 h4 a5 h5 a6 h6 a7 h7 hc x0 x1 x2 x3 xoS xoQ = k4_pay5 x0 x1 x2 x3 xoQ := by
  unfold out4_B_6
  rw [View.read_writes_eq_canon _ _ _ (cover4_B_6 c i a1 h1 a2 h2 a3 h3 a4 h4 a5 h5 a6 h6 a7 h7 hc x0 x1 x2 x3 xoS xoQ)]
  unfold kernelRun4_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

end Pieces

variable (V : (c : Dev nD) → (b : Ref sig .tc) → Buf (Elt Ideal) ((c : Thread nD τ).loc b))

/-- The region's input arrays as it finds them, each at its literal type. -/
abbrev xaArr (c : Dev nD) : Vec Ideal S100000x128 .f32 := V c (Pipeline.arrRef spec4 0)
abbrev xbArr (c : Dev nD) : Vec Ideal S100000x128 .f32 := V c (Pipeline.arrRef spec4 1)
abbrev wArr (c : Dev nD) : Vec Ideal S128x128 .f32 := V c (Pipeline.arrRef spec4 2)
abbrev bRow (c : Dev nD) : Vec Ideal S1x128 .f32 := V c (Pipeline.arrRef spec4 3)

/-- One entry of the linear stage on the region's arrays. -/
def y (c : Dev nD) (r : Fin 100000) (q : Fin 128) : EReal := linAdd (xaArr V c) (xbArr V c) (wArr V c) (bRow V c) r q

/-- What the region leaves in its three output arrays. -/
def resultY (c : Dev nD) : Vec Ideal S100000x128 .f32 := fun i => y V c (i 0) (i 1)
def resultSum (c : Dev nD) : Vec Ideal S1x128 .f32 := fun i => colSum (y V c) (i 1)
def resultSumSq (c : Dev nD) : Vec Ideal S1x128 .f32 := fun i => colSumSq (y V c) (i 1)

/-! ## Where each window's block lies, and what the input blocks read -/

/-- The input blocks at a point, each at its literal type. -/
abbrev xaBlk (c : Dev nD) (t : Fin cfg4.N) : Vec Ideal S5000x128 .f32 := iblk4 V c 0 t
abbrev xbBlk (c : Dev nD) (t : Fin cfg4.N) : Vec Ideal S5000x128 .f32 := iblk4 V c 1 t
abbrev wBlk (c : Dev nD) (t : Fin cfg4.N) : Vec Ideal S128x128 .f32 := iblk4 V c 2 t
abbrev bBlk (c : Dev nD) (t : Fin cfg4.N) : Vec Ideal S1x128 .f32 := iblk4 V c 3 t

/-- The block each window takes at a point, decided over the twenty points: the tall windows take block `t` along the
    rows, and the weight matrix and each row are their own one block throughout. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- Input 0's block at point `t`, read at (p, j), is the array at row 5000·t + p, column j. -/
theorem xaBlk_apply (c : Dev nD) (t : Fin cfg4.N) (p : Fin 5000) (j : Fin 128) (h : t.val * 5000 + p.val < 100000) :
    xaBlk V c t (ix2 p j) = xaArr V c (ix2 ⟨t.val * 5000 + p.val, h⟩ j) := by
  obtain ⟨e00, e01, -⟩ := idx_facts t
  unfold xaBlk iblk4
  rw [View.read_apply]
  show xaArr V c (((cfg4.win 0).blk t).view.emb (ix2 p j)) = _
  refine congrArg (xaArr V c) ?_
  funext a; apply Fin.ext
  match a with
  | ⟨0, _⟩ => show win4_0.index t (0 : Fin 2) * 5000 + 1 * p.val = t.val * 5000 + p.val; omega
  | ⟨1, _⟩ => show win4_0.index t (1 : Fin 2) * 128 + 1 * j.val = j.val; omega

/-- Input 1's block at point `t`, read at (p, j), is the array at row 5000·t + p, column j. -/
theorem xbBlk_apply (c : Dev nD) (t : Fin cfg4.N) (p : Fin 5000) (j : Fin 128) (h : t.val * 5000 + p.val < 100000) :
    xbBlk V c t (ix2 p j) = xbArr V c (ix2 ⟨t.val * 5000 + p.val, h⟩ j) := by
  obtain ⟨-, -, e10, e11, -⟩ := idx_facts t
  unfold xbBlk iblk4
  rw [View.read_apply]
  show xbArr V c (((cfg4.win 1).blk t).view.emb (ix2 p j)) = _
  refine congrArg (xbArr V c) ?_
  funext a; apply Fin.ext
  match a with
  | ⟨0, _⟩ => show win4_1.index t (0 : Fin 2) * 5000 + 1 * p.val = t.val * 5000 + p.val; omega
  | ⟨1, _⟩ => show win4_1.index t (1 : Fin 2) * 128 + 1 * j.val = j.val; omega

/-- Input 2's block, at every point, is the matrix. -/
theorem wBlk_apply (c : Dev nD) (t : Fin cfg4.N) (j : Fin 128) (q : Fin 128) :
    wBlk V c t (ix2 j q) = wArr V c (ix2 j q) := by
  obtain ⟨-, -, -, -, e20, e21, -⟩ := idx_facts t
  unfold wBlk iblk4
  rw [View.read_apply]
  show wArr V c (((cfg4.win 2).blk t).view.emb (ix2 j q)) = _
  refine congrArg (wArr V c) ?_
  funext a; apply Fin.ext
  match a with
  | ⟨0, _⟩ => show win4_2.index t (0 : Fin 2) * 128 + 1 * j.val = j.val; omega
  | ⟨1, _⟩ => show win4_2.index t (1 : Fin 2) * 128 + 1 * q.val = q.val; omega

/-- Input 3's block, at every point, is the row. -/
theorem bBlk_apply (c : Dev nD) (t : Fin cfg4.N) (q : Fin 128) :
    bBlk V c t (ix2 (0 : Fin 1) q) = bRow V c (ix2 (0 : Fin 1) q) := by
  obtain ⟨-, -, -, -, -, -, e30, e31, -⟩ := idx_facts t
  unfold bBlk iblk4
  rw [View.read_apply]
  show bRow V c (((cfg4.win 3).blk t).view.emb (ix2 (0 : Fin 1) q)) = _
  refine congrArg (bRow V c) ?_
  funext a; apply Fin.ext
  match a with
  | ⟨0, _⟩ => show win4_3.index t (0 : Fin 2) * 1 + 1 * 0 = 0; omega
  | ⟨1, _⟩ => show win4_3.index t (1 : Fin 2) * 128 + 1 * q.val = q.val; omega

/-- The block of values a point computes, at (p, q), is the linear stage's entry of row 5000·t + p, column q. -/
theorem pay3_point (c : Dev nD) (t : Fin cfg4.N) (p : Fin 5000) (q : Fin 128) (h : t.val * 5000 + p.val < 100000) :
    k4_pay3 (F := Ideal) (xaBlk V c t) (xbBlk V c t) (wBlk V c t) (bBlk V c t) (ix2 p q) = y V c ⟨t.val * 5000 + p.val, h⟩ q := by
  refine (PayLinear.k2_pay3_apply (xaBlk V c t) (xbBlk V c t) (wBlk V c t) (bBlk V c t) p q).trans ?_
  unfold y linAdd
  refine congrArg₂ (fun a b : EReal => a + b) (Finset.sum_congr rfl fun j _ => ?_) (bBlk_apply V c t q)
  exact congrArg₂ (fun a b : EReal => a * b)
    (congrArg₂ (fun a b : EReal => a + b) (xaBlk_apply V c t p j h) (xbBlk_apply V c t p j h)) (wBlk_apply V c t j q)

/-! ## What the three output buffers hold after each point -/

/-- The output block after any point is the block of values the point computes. -/
theorem outsY_eq (c : Dev nD) (t : Fin cfg4.N) :
    (outsAt4 V c t.val t.isLt).1 = k4_pay3 (F := Ideal) (xaBlk V c t) (xbBlk V c t) (wBlk V c t) (bBlk V c t) := by
  by_cases h0 : t.val % 20 = 0
  · rw [outsAt4_A V c t h0]
    dsimp only
    exact outA4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t)
      ((hcond4_0 t).mpr h0) (iblk4 V c 0 t) (iblk4 V c 1 t) (iblk4 V c 2 t) (iblk4 V c 3 t)
  · rw [outsAt4_B V c t h0]
    dsimp only
    exact outB4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t)
      (fun h => h0 ((hcond4_0 t).mp h)) (iblk4 V c 0 t) (iblk4 V c 1 t) (iblk4 V c 2 t) (iblk4 V c 3 t)
      (outsAt4 V c (t.val - 1) (Nat.lt_of_le_of_lt (Nat.sub_le _ _) t.isLt)).2.1
      (outsAt4 V c (t.val - 1) (Nat.lt_of_le_of_lt (Nat.sub_le _ _) t.isLt)).2.2

/-- The carried column sum at column `q`, after point `t`. -/
def accSum (c : Dev nD) (u : Fin 1) (q : Fin 128) : (t : ℕ) → t < 20 → EReal :=
  fun t ht => (outsAt4 V c t (lt_of_lt_of_eq ht N_4.symm)).2.1 (ix2 u q)

/-- At the first point it is the stored zero plus the block's column sum. -/
theorem accSum_first (c : Dev nD) (u : Fin 1) (q : Fin 128) (t : ℕ) (ht : t < 20) (h0 : t % 20 = 0) :
    accSum V c u q t ht = (k4_pay1 (F := Ideal)) (ix2 u q)
      + ∑ p : Fin 5000, y V c ⟨t * 5000 + p.val, by have := p.isLt; omega⟩ q := by
  have ht' : t < cfg4.N := lt_of_lt_of_eq ht N_4.symm
  show (outsAt4 V c (⟨t, ht'⟩ : Fin cfg4.N).val (⟨t, ht'⟩ : Fin cfg4.N).isLt).2.1 (ix2 u q) = _
  rw [outsAt4_A V c ⟨t, ht'⟩ h0]
  dsimp only
  refine (congrFun (outA5 (F := Ideal) c (grid4.coords ⟨t, ht'⟩) (ms4_0 ⟨t, ht'⟩) (hs4_0 ⟨t, ht'⟩) (ms4_1 ⟨t, ht'⟩) (hs4_1 ⟨t, ht'⟩) (ms4_2 ⟨t, ht'⟩) (hs4_2 ⟨t, ht'⟩) (ms4_3 ⟨t, ht'⟩) (hs4_3 ⟨t, ht'⟩) (ms4_4 ⟨t, ht'⟩) (hs4_4 ⟨t, ht'⟩) (ms4_5 ⟨t, ht'⟩) (hs4_5 ⟨t, ht'⟩) (ms4_6 ⟨t, ht'⟩) (hs4_6 ⟨t, ht'⟩)
    ((hcond4_0 ⟨t, ht'⟩).mpr h0) (iblk4 V c 0 ⟨t, ht'⟩) (iblk4 V c 1 ⟨t, ht'⟩) (iblk4 V c 2 ⟨t, ht'⟩) (iblk4 V c 3 ⟨t, ht'⟩)) (ix2 u q)).trans ?_
  refine (PayLinear.k2_pay4_apply (xaBlk V c ⟨t, ht'⟩) (xbBlk V c ⟨t, ht'⟩) (wBlk V c ⟨t, ht'⟩) (bBlk V c ⟨t, ht'⟩) (k4_pay1 (F := Ideal)) u q).trans ?_
  refine congrArg (fun s : EReal => (k4_pay1 (F := Ideal)) (ix2 u q) + s) (Finset.sum_congr rfl fun p _ => ?_)
  exact pay3_point V c ⟨t, ht'⟩ p q _

/-- At any other point it is what the point before left plus the block's column sum. -/
theorem accSum_step (c : Dev nD) (u : Fin 1) (q : Fin 128) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg4.N := lt_of_lt_of_eq ht N_4.symm
  show (outsAt4 V c (⟨t, ht'⟩ : Fin cfg4.N).val (⟨t, ht'⟩ : Fin cfg4.N).isLt).2.1 (ix2 u q) = _
  rw [outsAt4_B V c ⟨t, ht'⟩ h0]
  dsimp only
  refine (congrFun (outB5 (F := Ideal) c (grid4.coords ⟨t, ht'⟩) (ms4_0 ⟨t, ht'⟩) (hs4_0 ⟨t, ht'⟩) (ms4_1 ⟨t, ht'⟩) (hs4_1 ⟨t, ht'⟩) (ms4_2 ⟨t, ht'⟩) (hs4_2 ⟨t, ht'⟩) (ms4_3 ⟨t, ht'⟩) (hs4_3 ⟨t, ht'⟩) (ms4_4 ⟨t, ht'⟩) (hs4_4 ⟨t, ht'⟩) (ms4_5 ⟨t, ht'⟩) (hs4_5 ⟨t, ht'⟩) (ms4_6 ⟨t, ht'⟩) (hs4_6 ⟨t, ht'⟩)
    (fun h => h0 ((hcond4_0 ⟨t, ht'⟩).mp h)) (iblk4 V c 0 ⟨t, ht'⟩) (iblk4 V c 1 ⟨t, ht'⟩) (iblk4 V c 2 ⟨t, ht'⟩) (iblk4 V c 3 ⟨t, ht'⟩)
    (outsAt4 V c ((⟨t, ht'⟩ : Fin cfg4.N).val - 1) (Nat.lt_of_le_of_lt (Nat.sub_le _ _) (⟨t, ht'⟩ : Fin cfg4.N).isLt)).2.1
    (outsAt4 V c ((⟨t, ht'⟩ : Fin cfg4.N).val - 1) (Nat.lt_of_le_of_lt (Nat.sub_le _ _) (⟨t, ht'⟩ : Fin cfg4.N).isLt)).2.2) (ix2 u q)).trans ?_
  refine (PayLinear.k2_pay4_apply (xaBlk V c ⟨t, ht'⟩) (xbBlk V c ⟨t, ht'⟩) (wBlk V c ⟨t, ht'⟩) (bBlk V c ⟨t, ht'⟩)
    (outsAt4 V c ((⟨t, ht'⟩ : Fin cfg4.N).val - 1) (Nat.lt_of_le_of_lt (Nat.sub_le _ _) (⟨t, ht'⟩ : Fin cfg4.N).isLt)).2.1 u q).trans ?_
  refine congrArg (fun s : EReal => accSum V c u q (t - 1) (Nat.lt_of_le_of_lt (Nat.sub_le t 1) ht) + s)
    (Finset.sum_congr rfl fun p _ => ?_)
  exact pay3_point V c ⟨t, ht'⟩ p q _

/-- After the last point it is the column sum over all 100000 rows. -/
theorem accSum_last (c : Dev nD) (u : Fin 1) (q : Fin 128) :
    accSum V c u q 19 (by norm_num) = colSum (y V c) q :=
  AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k4_pay1 (F := Ideal)) (ix2 u q)) Ideal.ofBits_zero_f32
    (fun t ht h0 => accSum_first V c u q t ht h0) (fun t ht h0 => accSum_step V c u q t ht h0)

/-- The carried column sum of squares at column `q`, after point `t`. -/
def accSumSq (c : Dev nD) (u : Fin 1) (q : Fin 128) : (t : ℕ) → t < 20 → EReal :=
  fun t ht => (outsAt4 V c t (lt_of_lt_of_eq ht N_4.symm)).2.2 (ix2 u q)

/-- At the first point it is the stored zero plus the block's column sum of squares. -/
theorem accSumSq_first (c : Dev nD) (u : Fin 1) (q : Fin 128) (t : ℕ) (ht : t < 20) (h0 : t % 20 = 0) :
    accSumSq V c u q t ht = (k4_pay2 (F := Ideal)) (ix2 u q)
      + ∑ p : Fin 5000, (y V c ⟨t * 5000 + p.val, by have := p.isLt; omega⟩ q * y V c ⟨t * 5000 + p.val, by have := p.isLt; omega⟩ q) := by
  have ht' : t < cfg4.N := lt_of_lt_of_eq ht N_4.symm
  show (outsAt4 V c (⟨t, ht'⟩ : Fin cfg4.N).val (⟨t, ht'⟩ : Fin cfg4.N).isLt).2.2 (ix2 u q) = _
  rw [outsAt4_A V c ⟨t, ht'⟩ h0]
  dsimp only
  refine (congrFun (outA6 (F := Ideal) c (grid4.coords ⟨t, ht'⟩) (ms4_0 ⟨t, ht'⟩) (hs4_0 ⟨t, ht'⟩) (ms4_1 ⟨t, ht'⟩) (hs4_1 ⟨t, ht'⟩) (ms4_2 ⟨t, ht'⟩) (hs4_2 ⟨t, ht'⟩) (ms4_3 ⟨t, ht'⟩) (hs4_3 ⟨t, ht'⟩) (ms4_4 ⟨t, ht'⟩) (hs4_4 ⟨t, ht'⟩) (ms4_5 ⟨t, ht'⟩) (hs4_5 ⟨t, ht'⟩) (ms4_6 ⟨t, ht'⟩) (hs4_6 ⟨t, ht'⟩)
    ((hcond4_0 ⟨t, ht'⟩).mpr h0) (iblk4 V c 0 ⟨t, ht'⟩) (iblk4 V c 1 ⟨t, ht'⟩) (iblk4 V c 2 ⟨t, ht'⟩) (iblk4 V c 3 ⟨t, ht'⟩)) (ix2 u q)).trans ?_
  refine (PayLinear.k2_pay5_apply (xaBlk V c ⟨t, ht'⟩) (xbBlk V c ⟨t, ht'⟩) (wBlk V c ⟨t, ht'⟩) (bBlk V c ⟨t, ht'⟩) (k4_pay2 (F := Ideal)) u q).trans ?_
  refine congrArg (fun s : EReal => (k4_pay2 (F := Ideal)) (ix2 u q) + s) (Finset.sum_congr rfl fun p _ => ?_)
  exact congrArg₂ (fun a b : EReal => a * b) (pay3_point V c ⟨t, ht'⟩ p q _) (pay3_point V c ⟨t, ht'⟩ p q _)

/-- At any other point it is what the point before left plus the block's column sum of squares. -/
theorem accSumSq_step (c : Dev nD) (u : Fin 1) (q : Fin 128) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg4.N := lt_of_lt_of_eq ht N_4.symm
  show (outsAt4 V c (⟨t, ht'⟩ : Fin cfg4.N).val (⟨t, ht'⟩ : Fin cfg4.N).isLt).2.2 (ix2 u q) = _
  rw [outsAt4_B V c ⟨t, ht'⟩ h0]
  dsimp only
  refine (congrFun (outB6 (F := Ideal) c (grid4.coords ⟨t, ht'⟩) (ms4_0 ⟨t, ht'⟩) (hs4_0 ⟨t, ht'⟩) (ms4_1 ⟨t, ht'⟩) (hs4_1 ⟨t, ht'⟩) (ms4_2 ⟨t, ht'⟩) (hs4_2 ⟨t, ht'⟩) (ms4_3 ⟨t, ht'⟩) (hs4_3 ⟨t, ht'⟩) (ms4_4 ⟨t, ht'⟩) (hs4_4 ⟨t, ht'⟩) (ms4_5 ⟨t, ht'⟩) (hs4_5 ⟨t, ht'⟩) (ms4_6 ⟨t, ht'⟩) (hs4_6 ⟨t, ht'⟩)
    (fun h => h0 ((hcond4_0 ⟨t, ht'⟩).mp h)) (iblk4 V c 0 ⟨t, ht'⟩) (iblk4 V c 1 ⟨t, ht'⟩) (iblk4 V c 2 ⟨t, ht'⟩) (iblk4 V c 3 ⟨t, ht'⟩)
    (outsAt4 V c ((⟨t, ht'⟩ : Fin cfg4.N).val - 1) (Nat.lt_of_le_of_lt (Nat.sub_le _ _) (⟨t, ht'⟩ : Fin cfg4.N).isLt)).2.1
    (outsAt4 V c ((⟨t, ht'⟩ : Fin cfg4.N).val - 1) (Nat.lt_of_le_of_lt (Nat.sub_le _ _) (⟨t, ht'⟩ : Fin cfg4.N).isLt)).2.2) (ix2 u q)).trans ?_
  refine (PayLinear.k2_pay5_apply (xaBlk V c ⟨t, ht'⟩) (xbBlk V c ⟨t, ht'⟩) (wBlk V c ⟨t, ht'⟩) (bBlk V c ⟨t, ht'⟩)
    (outsAt4 V c ((⟨t, ht'⟩ : Fin cfg4.N).val - 1) (Nat.lt_of_le_of_lt (Nat.sub_le _ _) (⟨t, ht'⟩ : Fin cfg4.N).isLt)).2.2 u q).trans ?_
  refine congrArg (fun s : EReal => accSumSq V c u q (t - 1) (Nat.lt_of_le_of_lt (Nat.sub_le t 1) ht) + s)
    (Finset.sum_congr rfl fun p _ => ?_)
  exact congrArg₂ (fun a b : EReal => a * b) (pay3_point V c ⟨t, ht'⟩ p q _) (pay3_point V c ⟨t, ht'⟩ p q _)

/-- After the last point it is the column sum of squares over all 100000 rows. -/
theorem accSumSq_last (c : Dev nD) (u : Fin 1) (q : Fin 128) :
    accSumSq V c u q 19 (by norm_num) = colSumSq (y V c) q :=
  AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k4_pay2 (F := Ideal)) (ix2 u q)) Ideal.ofBits_zero_f32
    (fun t ht h0 => accSumSq_first V c u q t ht h0) (fun t ht h0 => accSumSq_step V c u q t ht h0)

/-! ## From the blocks to the arrays -/

/-- Row `p`, column `q` of the output's block at point `t` is row 5000·t + p, column q of the array: a block's coordinate
    is its index times its extent plus the coordinate inside it. -/
theorem emb_out (t : Fin cfg4.N) (p : Fin 5000) (q : Fin 128) (h : t.val * 5000 + p.val < 100000) :
    ((cfg4.win 4).blk t).view.emb (ix2 p q) = (ix2 ⟨t.val * 5000 + p.val, h⟩ q : S100000x128.Idx) := by
  obtain ⟨-, -, -, -, -, -, -, -, e40, e41, -⟩ := idx_facts t
  funext a; apply Fin.ext
  match a with
  | ⟨0, _⟩ => show win4_4.index t (0 : Fin 2) * 5000 + 1 * p.val = t.val * 5000 + p.val; omega
  | ⟨1, _⟩ => show win4_4.index t (1 : Fin 2) * 128 + 1 * q.val = q.val; omega

/-- What point `t` writes back for the output is block `t` of `resultY`. -/
theorem flushedY_eq (c : Dev nD) (t : Fin cfg4.N) :
    (dat4 (F := Ideal) V c).flushed 4 t = ((cfg4.win 4).blk t).view.read (Elt Ideal) (resultY V c) := by
  show (cfg4.win 4).cut (grid4.coords t) ((dat4 V c).after 4 t) = _
  rw [after4_4]
  have ht : t.val < 20 := Nat.lt_of_lt_of_eq t.isLt N_4
  funext j
  obtain ⟨p, q, rfl⟩ : ∃ (p : Fin 5000) (q : Fin 128), j = ix2 p q := ⟨j 0, j 1, eq_ix2 j⟩
  have h : t.val * 5000 + p.val < 100000 := by have := p.isLt; omega
  show (outsAt4 V c t.val t.isLt).1 (ix2 p q) = resultY V c (((cfg4.win 4).blk t).view.emb (ix2 p q))
  refine (congrFun (outsY_eq V c t) (ix2 p q)).trans ?_
  refine (pay3_point V c t p q h).trans ?_
  exact (congrArg (resultY V c) (emb_out t p q h)).symm

/-- An entry of the array lies in point `t`'s block exactly when each of its coordinates lies in the block's range. -/
theorem mem_blkY (t : Fin cfg4.N) (i : S100000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v56_0).slice (win4_4.rect t)).set ↔ _
  rw [View.set_slice_whole, Rect.mem_set_unit]
  exact Iff.rfl

/-- The twenty blocks tile the array: row `r` is in the block of point `r / 5000`, and every point writes its block back. -/
theorem coverY (i : S100000x128.Idx) :
    ∃ t : Fin cfg4.N, (cfg4.win 4).flush t = true ∧ i ∈ ((cfg4.win 4).blk t).view.set := by
  have hi0 : (i 0).val < 100000 := idx2_lt0 i
  have hi1 : (i 1).val < 128 := idx2_lt1 i
  obtain ⟨t, ht⟩ : ∃ t : Fin cfg4.N, t.val = (i 0).val / 5000 :=
    ⟨⟨(i 0).val / 5000, by rw [show cfg4.N = 20 from N_4]; omega⟩, rfl⟩
  obtain ⟨-, -, -, -, -, -, -, -, e40, e41, -⟩ := idx_facts t
  refine ⟨t, flush4_4 t, ?_⟩
  rw [mem_blkY]
  intro a
  match a with
  | ⟨0, _⟩ =>
    show win4_4.index t (0 : Fin 2) * 5000 ≤ (i 0).val ∧ (i 0).val < win4_4.index t (0 : Fin 2) * 5000 + 5000
    omega
  | ⟨1, _⟩ =>
    show win4_4.index t (1 : Fin 2) * 128 ≤ (i 1).val ∧ (i 1).val < win4_4.index t (1 : Fin 2) * 128 + 128
    omega

/-- At a point whose number is 19 the carried column sum is the one over all rows. -/
theorem accSum_at_last (c : Dev nD) (u : Fin 1) (q : Fin 128) (n : ℕ) (hn : n < 20) (h19 : n = 19) :
    accSum V c u q n hn = colSum (y V c) q := by
  subst h19
  exact accSum_last V c u q

/-- The carried row of window 5 after the last point is the whole of `resultSum`. -/
theorem outs5_last (c : Dev nD) (t : Fin cfg4.N) (h19 : t.val = 19) :
    (outsAt4 V c t.val t.isLt).2.1 = resultSum V c := by
  funext j
  obtain ⟨u, q, rfl⟩ : ∃ (u : Fin 1) (q : Fin 128), j = ix2 u q := ⟨j 0, j 1, eq_ix2 j⟩
  exact accSum_at_last V c u q t.val (Nat.lt_of_lt_of_eq t.isLt N_4) h19

/-- What the last point writes back for window 5 is the whole of `resultSum`: the window's one block lies at offset zero,
    so it reads the whole row. -/
theorem flushed5_eq (c : Dev nD) (t : Fin cfg4.N) (hf : (cfg4.win 5).flush t = true) :
    (dat4 (F := Ideal) V c).flushed 5 t = ((cfg4.win 5).blk t).view.read (Elt Ideal) (resultSum V c) := by
  have hN : t.val < 20 := Nat.lt_of_lt_of_eq t.isLt N_4
  have h19 : t.val = 19 := by have := (flush4_5 t).mp hf; omega
  obtain ⟨-, -, -, -, -, -, -, -, -, -, eS0, eS1, eQ0, eQ1⟩ := idx_facts t
  have hz' : (fun a => win4_5.index t a * main_v56_1.ty.shape.size a) = fun _ => 0 := funext fun a => by
    match a with
    | ⟨0, _⟩ => show win4_5.index t (0 : Fin 2) * 1 = 0; omega
    | ⟨1, _⟩ => show win4_5.index t (1 : Fin 2) * 128 = 0; omega
  show (cfg4.win 5).cut (grid4.coords t) ((dat4 V c).after 5 t) = _
  rw [after4_5, outs5_last V c t h19]
  exact (Memref.read_access_unit_zero (Elt Ideal) main_v56_1 hz' (fun a => by rw [congrFun hz' a]; simp) (resultSum V c)).symm

/-- An entry of the row lies in point `t`'s block of window 5 exactly when each coordinate lies in the block's range. -/
theorem mem_blk5 (t : Fin cfg4.N) (i : S1x128.Idx) :
    i ∈ ((cfg4.win 5).blk t).view.set ↔ ∀ a : Fin 2, win4_5.index t a * S1x128.size a ≤ (i a).val
      ∧ (i a).val < win4_5.index t a * S1x128.size a + S1x128.size a := by
  show i ∈ ((View.whole main_v56_1).slice (win4_5.rect t)).set ↔ _
  rw [View.set_slice_whole, Rect.mem_set_unit]
  exact Iff.rfl

/-- The last point's block of window 5 is the whole row, and the last point writes it back. -/
theorem cover5 (i : S1x128.Idx) :
    ∃ t : Fin cfg4.N, (cfg4.win 5).flush t = true ∧ i ∈ ((cfg4.win 5).blk t).view.set := by
  have hi0 : (i 0).val < 1 := idx2_lt0 i
  have hi1 : (i 1).val < 128 := idx2_lt1 i
  obtain ⟨t, ht⟩ : ∃ t : Fin cfg4.N, t.val = 19 := ⟨⟨19, by rw [show cfg4.N = 20 from N_4]; norm_num⟩, rfl⟩
  obtain ⟨-, -, -, -, -, -, -, -, -, -, eS0, eS1, eQ0, eQ1⟩ := idx_facts t
  refine ⟨t, (flush4_5 t).mpr (by omega), ?_⟩
  rw [mem_blk5]
  intro a
  match a with
  | ⟨0, _⟩ =>
    show win4_5.index t (0 : Fin 2) * 1 ≤ (i 0).val ∧ (i 0).val < win4_5.index t (0 : Fin 2) * 1 + 1
    omega
  | ⟨1, _⟩ =>
    show win4_5.index t (1 : Fin 2) * 128 ≤ (i 1).val ∧ (i 1).val < win4_5.index t (1 : Fin 2) * 128 + 128
    omega

/-- At a point whose number is 19 the carried column sum of squares is the one over all rows. -/
theorem accSumSq_at_last (c : Dev nD) (u : Fin 1) (q : Fin 128) (n : ℕ) (hn : n < 20) (h19 : n = 19) :
    accSumSq V c u q n hn = colSumSq (y V c) q := by
  subst h19
  exact accSumSq_last V c u q

/-- The carried row of window 6 after the last point is the whole of `resultSumSq`. -/
theorem outs6_last (c : Dev nD) (t : Fin cfg4.N) (h19 : t.val = 19) :
    (outsAt4 V c t.val t.isLt).2.2 = resultSumSq V c := by
  funext j
  obtain ⟨u, q, rfl⟩ : ∃ (u : Fin 1) (q : Fin 128), j = ix2 u q := ⟨j 0, j 1, eq_ix2 j⟩
  exact accSumSq_at_last V c u q t.val (Nat.lt_of_lt_of_eq t.isLt N_4) h19

/-- What the last point writes back for window 6 is the whole of `resultSumSq`: the window's one block lies at offset zero,
    so it reads the whole row. -/
theorem flushed6_eq (c : Dev nD) (t : Fin cfg4.N) (hf : (cfg4.win 6).flush t = true) :
    (dat4 (F := Ideal) V c).flushed 6 t = ((cfg4.win 6).blk t).view.read (Elt Ideal) (resultSumSq V c) := by
  have hN : t.val < 20 := Nat.lt_of_lt_of_eq t.isLt N_4
  have h19 : t.val = 19 := by have := (flush4_6 t).mp hf; omega
  obtain ⟨-, -, -, -, -, -, -, -, -, -, eS0, eS1, eQ0, eQ1⟩ := idx_facts t
  have hz' : (fun a => win4_6.index t a * main_v56_2.ty.shape.size a) = fun _ => 0 := funext fun a => by
    match a with
    | ⟨0, _⟩ => show win4_6.index t (0 : Fin 2) * 1 = 0; omega
    | ⟨1, _⟩ => show win4_6.index t (1 : Fin 2) * 128 = 0; omega
  show (cfg4.win 6).cut (grid4.coords t) ((dat4 V c).after 6 t) = _
  rw [after4_6, outs6_last V c t h19]
  exact (Memref.read_access_unit_zero (Elt Ideal) main_v56_2 hz' (fun a => by rw [congrFun hz' a]; simp) (resultSumSq V c)).symm

/-- An entry of the row lies in point `t`'s block of window 6 exactly when each coordinate lies in the block's range. -/
theorem mem_blk6 (t : Fin cfg4.N) (i : S1x128.Idx) :
    i ∈ ((cfg4.win 6).blk t).view.set ↔ ∀ a : Fin 2, win4_6.index t a * S1x128.size a ≤ (i a).val
      ∧ (i a).val < win4_6.index t a * S1x128.size a + S1x128.size a := by
  show i ∈ ((View.whole main_v56_2).slice (win4_6.rect t)).set ↔ _
  rw [View.set_slice_whole, Rect.mem_set_unit]
  exact Iff.rfl

/-- The last point's block of window 6 is the whole row, and the last point writes it back. -/
theorem cover6 (i : S1x128.Idx) :
    ∃ t : Fin cfg4.N, (cfg4.win 6).flush t = true ∧ i ∈ ((cfg4.win 6).blk t).view.set := by
  have hi0 : (i 0).val < 1 := idx2_lt0 i
  have hi1 : (i 1).val < 128 := idx2_lt1 i
  obtain ⟨t, ht⟩ : ∃ t : Fin cfg4.N, t.val = 19 := ⟨⟨19, by rw [show cfg4.N = 20 from N_4]; norm_num⟩, rfl⟩
  obtain ⟨-, -, -, -, -, -, -, -, -, -, eS0, eS1, eQ0, eQ1⟩ := idx_facts t
  refine ⟨t, (flush4_6 t).mpr (by omega), ?_⟩
  rw [mem_blk6]
  intro a
  match a with
  | ⟨0, _⟩ =>
    show win4_6.index t (0 : Fin 2) * 1 ≤ (i 0).val ∧ (i 0).val < win4_6.index t (0 : Fin 2) * 1 + 1
    omega
  | ⟨1, _⟩ =>
    show win4_6.index t (1 : Fin 2) * 128 ≤ (i 1).val ∧ (i 1).val < win4_6.index t (1 : Fin 2) * 128 + 128
    omega

/-- THE INTERFACE of this region, one statement per output window. -/
theorem arrAt_y (c : Dev nD) : (dat4 (F := Ideal) V c).arrAt 4 cfg4.N = resultY V c :=
  (dat4 V c).arrAt_eq_of_cover 4 (resultY V c) (fun t _ => flushedY_eq V c t) coverY

theorem arrAt_sum (c : Dev nD) : (dat4 (F := Ideal) V c).arrAt 5 cfg4.N = resultSum V c :=
  (dat4 V c).arrAt_eq_of_cover 5 (resultSum V c) (fun t hf => flushed5_eq V c t hf) cover5

theorem arrAt_sumsq (c : Dev nD) : (dat4 (F := Ideal) V c).arrAt 6 cfg4.N = resultSumSq V c :=
  (dat4 V c).arrAt_eq_of_cover 6 (resultSumSq V c) (fun t hf => flushed6_eq V c t hf) cover6

end Cert.KernelIdeal.ValAdd2_4

end
-- ==== Proof.ValNorm5Pay.lean ====
/-
  Region 5's arithmetic: what the normalisation's body computes at one row and column of a block, from the block of the
  linear stage's output and the four statistic and parameter rows. This normalisation is not followed by max(·, 0).
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm5

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block. -/
theorem pay_apply (var : Vec Ideal S1x128 .f32) (y : Vec Ideal S5000x128 .f32) (mean g beta : Vec Ideal S1x128 .f32)
    (p : Fin 5000) (q : Fin 128) :
    k5_pay1 (F := Ideal) var y mean g beta (ix2 p q)
      = StageSpec.norm (y (ix2 p q)) (mean (ix2 (0 : Fin 1) q)) (var (ix2 (0 : Fin 1) q)) (g (ix2 (0 : Fin 1) q)) (beta (ix2 (0 : Fin 1) q)) := by
  unfold k5_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The two zero offsets of a load or a store of a whole buffer. -/
theorem hz : (![0, 0] : Fin 2 → Nat) = fun _ => 0 := funext fun a => by fin_cases a <;> rfl

end Cert.KernelIdeal.ValNorm5

end
-- ==== Proof.ValNorm5.lean ====
/-
  Region 5: a normalisation with no max(·, 0) after it. Every grid point takes a block of 5000 rows of the linear stage's
  output and the four statistic and parameter rows, and writes back, entry by entry, the normalised value.
  The twenty blocks tile the 100000 rows, so the output array as a whole is that function of the region's input arrays.
-/
import proofs.«414479_j7705171329025_1_alg».proof.Proof.FrameKI.R5
import proofs.«414479_j7705171329025_1_alg».proof.Proof.StageSpec
import proofs.«414479_j7705171329025_1_alg».proof.Proof.ValNorm5Pay
import Idealize.ShloMosaic.Lib.Pipeline.Value
import Idealize.ShloMosaic.Lib.ValueIdx
import Idealize.ShloMosaic.Lib.ValueLayout

set_option maxRecDepth 16384

noncomputable section

namespace Cert.KernelIdeal.ValNorm5

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x128 .f32 := V c (Pipeline.arrRef spec5 0)
abbrev meanRow (c : Dev nD) : Vec Ideal S1x128 .f32 := V c (Pipeline.arrRef spec5 1)
abbrev varRow (c : Dev nD) : Vec Ideal S1x128 .f32 := V c (Pipeline.arrRef spec5 2)
abbrev gRow (c : Dev nD) : Vec Ideal S1x128 .f32 := V c (Pipeline.arrRef spec5 3)
abbrev betaRow (c : Dev nD) : Vec Ideal S1x128 .f32 := V c (Pipeline.arrRef spec5 4)

/-- What the region leaves in its output array: the normalised entry, at every row and column. -/
def result (c : Dev nD) : Vec Ideal S100000x128 .f32 := fun i =>
  StageSpec.norm (yArr V c i) (meanRow V c (ix2 (0 : Fin 1) (i 1))) (varRow V c (ix2 (0 : Fin 1) (i 1)))
    (gRow V c (ix2 (0 : Fin 1) (i 1))) (betaRow V c (ix2 (0 : Fin 1) (i 1)))

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x128 .f32) (x1 x2 x3 x4 : Vec Ideal S1x128 .f32) (p : Fin 5000) (q : Fin 128) :
    out5_5 x0 x1 x2 x3 x4 (ix2 p q)
      = StageSpec.norm (x0 (ix2 p q)) (x1 (ix2 (0 : Fin 1) q)) (x2 (ix2 (0 : Fin 1) q)) (x3 (ix2 (0 : Fin 1) q)) (x4 (ix2 (0 : Fin 1) q)) := by
  unfold out5_5
  rw [View.canon_unit_zero hz]
  simp only [View.ld_unit_zero (S := S1x128) hz, View.ld_unit_zero (S := S5000x128) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row `p`, column `q` of the output's block at point `t` is row 5000·t + p, column q of the array: a block's coordinate
    is its index times its extent plus the coordinate inside it. -/
theorem emb_out (t : Fin cfg5.N) (p : Fin 5000) (q : Fin 128) (h : t.val * 5000 + p.val < 100000) :
    ((cfg5.win 5).blk t).view.emb (ix2 p q) = (ix2 ⟨t.val * 5000 + p.val, h⟩ q : S100000x128.Idx) := by
  obtain ⟨-, -, -, -, -, -, -, -, -, -, e50, e51⟩ := idx_facts t
  funext a; apply Fin.ext
  match a with
  | ⟨0, _⟩ => show win5_5.index t (0 : Fin 2) * 5000 + 1 * p.val = t.val * 5000 + p.val; omega
  | ⟨1, _⟩ => show win5_5.index t (1 : Fin 2) * 128 + 1 * q.val = q.val; omega

/-- The tall input's block at point `t`, read at (p, q), is the array at row 5000·t + p, column q: the same rows the
    output's block has there. -/
theorem y_apply (c : Dev nD) (t : Fin cfg5.N) (p : Fin 5000) (q : Fin 128) (h : t.val * 5000 + p.val < 100000) :
    (iblk5 V c 0 t : Vec Ideal S5000x128 .f32) (ix2 p q) = yArr V c (ix2 ⟨t.val * 5000 + p.val, h⟩ q) := by
  obtain ⟨e00, e01, -⟩ := idx_facts t
  unfold iblk5
  rw [View.read_apply]
  show yArr V c (((cfg5.win 0).blk t).view.emb (ix2 p q)) = _
  refine congrArg (yArr V c) ?_
  funext a; apply Fin.ext
  match a with
  | ⟨0, _⟩ => show win5_0.index t (0 : Fin 2) * 5000 + 1 * p.val = t.val * 5000 + p.val; omega
  | ⟨1, _⟩ => show win5_0.index t (1 : Fin 2) * 128 + 1 * q.val = q.val; omega

/-- The mean row's block, at every point, is the row. -/
theorem mean_apply (c : Dev nD) (t : Fin cfg5.N) (q : Fin 128) :
    (iblk5 V c 1 t : Vec Ideal S1x128 .f32) (ix2 (0 : Fin 1) q) = meanRow V c (ix2 (0 : Fin 1) q) := by
  obtain ⟨-, -, e10, e11, -⟩ := idx_facts t
  unfold iblk5
  rw [View.read_apply]
  show meanRow V c (((cfg5.win 1).blk t).view.emb (ix2 (0 : Fin 1) q)) = _
  refine congrArg (meanRow V c) ?_
  funext a; apply Fin.ext
  match a with
  | ⟨0, _⟩ => show win5_1.index t (0 : Fin 2) * 1 + 1 * 0 = 0; omega
  | ⟨1, _⟩ => show win5_1.index t (1 : Fin 2) * 128 + 1 * q.val = q.val; omega

/-- The variance row's block, at every point, is the row. -/
theorem var_apply (c : Dev nD) (t : Fin cfg5.N) (q : Fin 128) :
    (iblk5 V c 2 t : Vec Ideal S1x128 .f32) (ix2 (0 : Fin 1) q) = varRow V c (ix2 (0 : Fin 1) q) := by
  obtain ⟨-, -, -, -, e20, e21, -⟩ := idx_facts t
  unfold iblk5
  rw [View.read_apply]
  show varRow V c (((cfg5.win 2).blk t).view.emb (ix2 (0 : Fin 1) q)) = _
  refine congrArg (varRow V c) ?_
  funext a; apply Fin.ext
  match a with
  | ⟨0, _⟩ => show win5_2.index t (0 : Fin 2) * 1 + 1 * 0 = 0; omega
  | ⟨1, _⟩ => show win5_2.index t (1 : Fin 2) * 128 + 1 * q.val = q.val; omega

/-- The scale row's block, at every point, is the row. -/
theorem g_apply (c : Dev nD) (t : Fin cfg5.N) (q : Fin 128) :
    (iblk5 V c 3 t : Vec Ideal S1x128 .f32) (ix2 (0 : Fin 1) q) = gRow V c (ix2 (0 : Fin 1) q) := by
  obtain ⟨-, -, -, -, -, -, e30, e31, -⟩ := idx_facts t
  unfold iblk5
  rw [View.read_apply]
  show gRow V c (((cfg5.win 3).blk t).view.emb (ix2 (0 : Fin 1) q)) = _
  refine congrArg (gRow V c) ?_
  funext a; apply Fin.ext
  match a with
  | ⟨0, _⟩ => show win5_3.index t (0 : Fin 2) * 1 + 1 * 0 = 0; omega
  | ⟨1, _⟩ => show win5_3.index t (1 : Fin 2) * 128 + 1 * q.val = q.val; omega

/-- The shift row's block, at every point, is the row. -/
theorem beta_apply (c : Dev nD) (t : Fin cfg5.N) (q : Fin 128) :
    (iblk5 V c 4 t : Vec Ideal S1x128 .f32) (ix2 (0 : Fin 1) q) = betaRow V c (ix2 (0 : Fin 1) q) := by
  obtain ⟨-, -, -, -, -, -, -, -, e40, e41, -⟩ := idx_facts t
  unfold iblk5
  rw [View.read_apply]
  show betaRow V c (((cfg5.win 4).blk t).view.emb (ix2 (0 : Fin 1) q)) = _
  refine congrArg (betaRow V c) ?_
  funext a; apply Fin.ext
  match a with
  | ⟨0, _⟩ => show win5_4.index t (0 : Fin 2) * 1 + 1 * 0 = 0; omega
  | ⟨1, _⟩ => show win5_4.index t (1 : Fin 2) * 128 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg5.N) :
    (dat5 (F := Ideal) V c).flushed 5 t = ((cfg5.win 5).blk t).view.read (Elt Ideal) (result V c) := by
  show (cfg5.win 5).cut (grid5.coords t) ((dat5 V c).after 5 t) = _
  rw [after5_5]
  have ht : t.val < 20 := Nat.lt_of_lt_of_eq t.isLt N_5
  funext j
  obtain ⟨p, q, rfl⟩ : ∃ (p : Fin 5000) (q : Fin 128), j = ix2 p q := ⟨j 0, j 1, eq_ix2 j⟩
  have h : t.val * 5000 + p.val < 100000 := by have := p.isLt; omega
  show out5_5 (iblk5 V c 0 t) (iblk5 V c 1 t) (iblk5 V c 2 t) (iblk5 V c 3 t) (iblk5 V c 4 t) (ix2 p q)
      = result V c (((cfg5.win 5).blk t).view.emb (ix2 p q))
  refine (out_apply (iblk5 V c 0 t) (iblk5 V c 1 t) (iblk5 V c 2 t) (iblk5 V c 3 t) (iblk5 V c 4 t) p q).trans ?_
  refine Eq.trans ?_ (congrArg (result V c) (emb_out t p q h)).symm
  refine Eq.trans ?_ (show StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v69).slice (win5_5.rect t)).set ↔ _
  rw [View.set_slice_whole, Rect.mem_set_unit]
  exact Iff.rfl

/-- The twenty blocks tile the array: row `r` is in the block of point `r / 5000`, and every point writes its block back. -/
theorem cover (i : S100000x128.Idx) :
    ∃ t : Fin cfg5.N, (cfg5.win 5).flush t = true ∧ i ∈ ((cfg5.win 5).blk t).view.set := by
  have hi0 : (i 0).val < 100000 := idx2_lt0 i
  have hi1 : (i 1).val < 128 := idx2_lt1 i
  obtain ⟨t, ht⟩ : ∃ t : Fin cfg5.N, t.val = (i 0).val / 5000 :=
    ⟨⟨(i 0).val / 5000, by rw [show cfg5.N = 20 from N_5]; omega⟩, rfl⟩
  obtain ⟨-, -, -, -, -, -, -, -, -, -, e50, e51⟩ := idx_facts t
  refine ⟨t, flush5_5 t, ?_⟩
  rw [mem_blk]
  intro a
  match a with
  | ⟨0, _⟩ =>
    show win5_5.index t (0 : Fin 2) * 5000 ≤ (i 0).val ∧ (i 0).val < win5_5.index t (0 : Fin 2) * 5000 + 5000
    omega
  | ⟨1, _⟩ =>
    show win5_5.index t (1 : Fin 2) * 128 ≤ (i 1).val ∧ (i 1).val < win5_5.index t (1 : Fin 2) * 128 + 128
    omega

/-- THE INTERFACE of this region: after its twenty points the output array is `result`. -/
theorem arrAt_out (c : Dev nD) : (dat5 (F := Ideal) V c).arrAt 5 cfg5.N = result V c := by
  exact (dat5 V c).arrAt_eq_of_cover 5 (result V c) (fun t _ => flushed_eq V c t) cover

end Cert.KernelIdeal.ValNorm5

end
-- ==== Proof.Carry0.lean ====
import proofs.«414479_j7705171329025_1_alg».proof.Proof.FrameKI.Run

set_option maxRecDepth 16384

noncomputable section

namespace Cert.KernelIdeal.Carry

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- Nothing between boundary 4 and boundary 9 of the run writes `main_v10`: it keeps its contents. -/
theorem main_v10_4_9 (c : Dev nD) : W9 m ρ c (Proc.devRef .tc main_v10) = W4 m ρ c (Proc.devRef .tc main_v10) :=
  calc W9 m ρ c (Proc.devRef .tc main_v10)
    _ = W8 m ρ c (Proc.devRef .tc main_v10) := StableHlo.after_of_forall_not_mem (b := Proc.devRef .tc main_v10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v10) := W8_of_ne m ρ c main_v10 (by decide)
    _ = W6 m ρ c (Proc.devRef .tc main_v10) := StableHlo.after_of_forall_not_mem (b := Proc.devRef .tc main_v10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v10) := (W6_arr m ρ c 1).trans (((dat2 (V5 m ρ) c).arrAt_in 1 rfl _).trans (A_eq2 (V5 m ρ) c 1))
    _ = W4 m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 4 and boundary 13 of the run writes `main_v10`: it keeps its contents. -/
theorem main_v10_4_13 (c : Dev nD) : W13 m ρ c (Proc.devRef .tc main_v10) = W4 m ρ c (Proc.devRef .tc main_v10) :=
  calc W13 m ρ c (Proc.devRef .tc main_v10)
    _ = W12 m ρ c (Proc.devRef .tc main_v10) := StableHlo.after_of_forall_not_mem (b := Proc.devRef .tc main_v10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v10) := W12_of_ne m ρ c main_v10 (by decide)
    _ = W10 m ρ c (Proc.devRef .tc main_v10) := StableHlo.after_of_forall_not_mem (b := Proc.devRef .tc main_v10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v10) := (W10_arr m ρ c 1).trans (((dat4 (V9 m ρ) c).arrAt_in 1 rfl _).trans (A_eq4 (V9 m ρ) c 1))
    _ = W8 m ρ c (Proc.devRef .tc main_v10) := StableHlo.after_of_forall_not_mem (b := Proc.devRef .tc main_v10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v10) := W8_of_ne m ρ c main_v10 (by decide)
    _ = W6 m ρ c (Proc.devRef .tc main_v10) := StableHlo.after_of_forall_not_mem (b := Proc.devRef .tc main_v10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v10) := (W6_arr m ρ c 1).trans (((dat2 (V5 m ρ) c).arrAt_in 1 rfl _).trans (A_eq2 (V5 m ρ) c 1))
    _ = W4 m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 4 and boundary 20 of the run writes `main_v10`: it keeps its contents. -/
theorem main_v10_4_20 (c : Dev nD) : W20 m ρ c (Proc.devRef .tc main_v10) = W4 m ρ c (Proc.devRef .tc main_v10) :=
  calc W20 m ρ c (Proc.devRef .tc main_v10)
    _ = W19 m ρ c (Proc.devRef .tc main_v10) := W20_of_ne m ρ c main_v10 (by decide)
    _ = W18 m ρ c (Proc.devRef .tc main_v10) := StableHlo.after_of_forall_not_mem (b := Proc.devRef .tc main_v10) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v10) := W18_of_ne m ρ c main_v10 (by decide)
    _ = W16 m ρ c (Proc.devRef .tc main_v10) := StableHlo.after_of_forall_not_mem (b := Proc.devRef .tc main_v10) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v10) := W16_of_ne m ρ c main_v10 (by decide)
    _ = W14 m ρ c (Proc.devRef .tc main_v10) := StableHlo.after_of_forall_not_mem (b := Proc.devRef .tc main_v10) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v10) := (W14_arr m ρ c 1).trans (((dat6 (V13 m ρ) c).arrAt_in 1 rfl _).trans (A_eq6 (V13 m ρ) c 1))
    _ = W12 m ρ c (Proc.devRef .tc main_v10) := StableHlo.after_of_forall_not_mem (b := Proc.devRef .tc main_v10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v10) := W12_of_ne m ρ c main_v10 (by decide)
    _ = W10 m ρ c (Proc.devRef .tc main_v10) := StableHlo.after_of_forall_not_mem (b := Proc.devRef .tc main_v10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v10) := (W10_arr m ρ c 1).trans (((dat4 (V9 m ρ) c).arrAt_in 1 rfl _).trans (A_eq4 (V9 m ρ) c 1))
    _ = W8 m ρ c (Proc.devRef .tc main_v10) := StableHlo.after_of_forall_not_mem (b := Proc.devRef .tc main_v10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v10) := W8_of_ne m ρ c main_v10 (by decide)
    _ = W6 m ρ c (Proc.devRef .tc main_v10) := StableHlo.after_of_forall_not_mem (b := Proc.devRef .tc main_v10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v10) := (W6_arr m ρ c 1).trans (((dat2 (V5 m ρ) c).arrAt_in 1 rfl _).trans (A_eq2 (V5 m ρ) c 1))
    _ = W4 m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 4 and boundary 36 of the run writes `main_v10`: it keeps its contents. -/
theorem main_v10_4_36 (c : Dev nD) : W36 m ρ c (Proc.devRef .tc main_v10) = W4 m ρ c (Proc.devRef .tc main_v10) :=
  calc W36 m ρ c (Proc.devRef .tc main_v10)
    _ = W35 m ρ c (Proc.devRef .tc main_v10) := W36_of_ne m ρ c main_v10 (by decide)
    _ = W34 m ρ c (Proc.devRef .tc main_v10) := StableHlo.after_of_forall_not_mem (b := Proc.devRef .tc main_v10) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_v10) := W34_of_ne m ρ c main_v10 (by decide)
    _ = W32 m ρ c (Proc.devRef .tc main_v10) := StableHlo.after_of_forall_not_mem (b := Proc.devRef .tc main_v10) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_v10) := W32_of_ne m ρ c main_v10 (by decide)
    _ = W30 m ρ c (Proc.devRef .tc main_v10) := StableHlo.after_of_forall_not_mem (b := Proc.devRef .tc main_v10) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_v10) := W30_of_ne m ρ c main_v10 (by decide)
    _ = W28 m ρ c (Proc.devRef .tc main_v10) := StableHlo.after_of_forall_not_mem (b := Proc.devRef .tc main_v10) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_v10) := W28_of_ne m ρ c main_v10 (by decide)
    _ = W26 m ρ c (Proc.devRef .tc main_v10) := StableHlo.after_of_forall_not_mem (b := Proc.devRef .tc main_v10) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_v10) := W26_of_ne m ρ c main_v10 (by decide)
    _ = W24 m ρ c (Proc.devRef .tc main_v10) := StableHlo.after_of_forall_not_mem (b := Proc.devRef .tc main_v10) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_v10) := W24_of_ne m ρ c main_v10 (by decide)
    _ = W22 m ρ c (Proc.devRef .tc main_v10) := StableHlo.after_of_forall_not_mem (b := Proc.devRef .tc main_v10) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_v10) := W22_of_ne m ρ c main_v10 (by decide)
    _ = W20 m ρ c (Proc.devRef .tc main_v10) := StableHlo.after_of_forall_not_mem (b := Proc.devRef .tc main_v10) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_v10) := W20_of_ne m ρ c main_v10 (by decide)
    _ = W18 m ρ c (Proc.devRef .tc main_v10) := StableHlo.after_of_forall_not_mem (b := Proc.devRef .tc main_v10) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v10) := W18_of_ne m ρ c main_v10 (by decide)
    _ = W16 m ρ c (Proc.devRef .tc main_v10) := StableHlo.after_of_forall_not_mem (b := Proc.devRef .tc main_v10) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v10) := W16_of_ne m ρ c main_v10 (by decide)
    _ = W14 m ρ c (Proc.devRef .tc main_v10) := StableHlo.after_of_forall_not_mem (b := Proc.devRef .tc main_v10) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v10) := (W14_arr m ρ c 1).trans (((dat6 (V13 m ρ) c).arrAt_in 1 rfl _).trans (A_eq6 (V13 m ρ) c 1))
    _ = W12 m ρ c (Proc.devRef .tc main_v10) := StableHlo.after_of_forall_not_mem (b := Proc.devRef .tc main_v10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v10) := W12_of_ne m ρ c main_v10 (by decide)
    _ = W10 m ρ c (Proc.devRef .tc main_v10) := StableHlo.after_of_forall_not_mem (b := Proc.devRef .tc main_v10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v10) := (W10_arr m ρ c 1).trans (((dat4 (V9 m ρ) c).arrAt_in 1 rfl _).trans (A_eq4 (V9 m ρ) c 1))
    _ = W8 m ρ c (Proc.devRef .tc main_v10) := StableHlo.after_of_forall_not_mem (b := Proc.devRef .tc main_v10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v10) := W8_of_ne m ρ c main_v10 (by decide)
    _ = W6 m ρ c (Proc.devRef .tc main_v10) := StableHlo.after_of_forall_not_mem (b := Proc.devRef .tc main_v10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v10) := (W6_arr m ρ c 1).trans (((dat2 (V5 m ρ) c).arrAt_in 1 rfl _).trans (A_eq2 (V5 m ρ) c 1))
    _ = W4 m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 8 and boundary 17 of the run writes `main_v40`: it keeps its contents. -/
theorem main_v40_8_17 (c : Dev nD) : W17 m ρ c (Proc.devRef .tc main_v40) = W8 m ρ c (Proc.devRef .tc main_v40) :=
  calc W17 m ρ c (Proc.devRef .tc main_v40)
    _ = W16 m ρ c (Proc.devRef .tc main_v40) := StableHlo.after_of_forall_not_mem (b := Proc.devRef .tc main_v40) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v40) := W16_of_ne m ρ c main_v40 (by decide)
    _ = W14 m ρ c (Proc.devRef .tc main_v40) := StableHlo.after_of_forall_not_mem (b := Proc.devRef .tc main_v40) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v40) := W14_of_ne m ρ c main_v40 (by decide)
    _ = W12 m ρ c (Proc.devRef .tc main_v40) := StableHlo.after_of_forall_not_mem (b := Proc.devRef .tc main_v40) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v40) := W12_of_ne m ρ c main_v40 (by decide)
    _ = W10 m ρ c (Proc.devRef .tc main_v40) := StableHlo.after_of_forall_not_mem (b := Proc.devRef .tc main_v40) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v40) := W10_of_ne m ρ c main_v40 (by decide)
    _ = W8 m ρ c (Proc.devRef .tc main_v40) := StableHlo.after_of_forall_not_mem (b := Proc.devRef .tc main_v40) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 12 and boundary 17 of the run writes `main_v69`: it keeps its contents. -/
theorem main_v69_12_17 (c : Dev nD) : W17 m ρ c (Proc.devRef .tc main_v69) = W12 m ρ c (Proc.devRef .tc main_v69) :=
  calc W17 m ρ c (Proc.devRef .tc main_v69)
    _ = W16 m ρ c (Proc.devRef .tc main_v69) := StableHlo.after_of_forall_not_mem (b := Proc.devRef .tc main_v69) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v69) := W16_of_ne m ρ c main_v69 (by decide)
    _ = W14 m ρ c (Proc.devRef .tc main_v69) := StableHlo.after_of_forall_not_mem (b := Proc.devRef .tc main_v69) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v69) := W14_of_ne m ρ c main_v69 (by decide)
    _ = W12 m ρ c (Proc.devRef .tc main_v69) := StableHlo.after_of_forall_not_mem (b := Proc.devRef .tc main_v69) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 16 and boundary 17 of the run writes `main_v98`: it keeps its contents. -/
theorem main_v98_16_17 (c : Dev nD) : W17 m ρ c (Proc.devRef .tc main_v98) = W16 m ρ c (Proc.devRef .tc main_v98) :=
  calc W17 m ρ c (Proc.devRef .tc main_v98)
    _ = W16 m ρ c (Proc.devRef .tc main_v98) := StableHlo.after_of_forall_not_mem (b := Proc.devRef .tc main_v98) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 21 and boundary 25 of the run writes `main_v113`: it keeps its contents. -/
theorem main_v113_21_25 (c : Dev nD) : W25 m ρ c (Proc.devRef .tc main_v113) = W21 m ρ c (Proc.devRef .tc main_v113) :=
  calc W25 m ρ c (Proc.devRef .tc main_v113)
    _ = W24 m ρ c (Proc.devRef .tc main_v113) := StableHlo.after_of_forall_not_mem (b := Proc.devRef .tc main_v113) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_v113) := W24_of_ne m ρ c main_v113 (by decide)
    _ = W22 m ρ c (Proc.devRef .tc main_v113) := StableHlo.after_of_forall_not_mem (b := Proc.devRef .tc main_v113) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_v113) := (W22_arr m ρ c 1).trans (((dat10 (V21 m ρ) c).arrAt_in 1 rfl _).trans (A_eq10 (V21 m ρ) c 1))

/-- Nothing between boundary 21 and boundary 29 of the run writes `main_v113`: it keeps its contents. -/
theorem main_v113_21_29 (c : Dev nD) : W29 m ρ c (Proc.devRef .tc main_v113) = W21 m ρ c (Proc.devRef .tc main_v113) :=
  calc W29 m ρ c (Proc.devRef .tc main_v113)
    _ = W28 m ρ c (Proc.devRef .tc main_v113) := StableHlo.after_of_forall_not_mem (b := Proc.devRef .tc main_v113) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_v113) := W28_of_ne m ρ c main_v113 (by decide)
    _ = W26 m ρ c (Proc.devRef .tc main_v113) := StableHlo.after_of_forall_not_mem (b := Proc.devRef .tc main_v113) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_v113) := (W26_arr m ρ c 1).trans (((dat12 (V25 m ρ) c).arrAt_in 1 rfl _).trans (A_eq12 (V25 m ρ) c 1))
    _ = W24 m ρ c (Proc.devRef .tc main_v113) := StableHlo.after_of_forall_not_mem (b := Proc.devRef .tc main_v113) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_v113) := W24_of_ne m ρ c main_v113 (by decide)
    _ = W22 m ρ c (Proc.devRef .tc main_v113) := StableHlo.after_of_forall_not_mem (b := Proc.devRef .tc main_v113) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_v113) := (W22_arr m ρ c 1).trans (((dat10 (V21 m ρ) c).arrAt_in 1 rfl _).trans (A_eq10 (V21 m ρ) c 1))

/-- Nothing between boundary 24 and boundary 33 of the run writes `main_v142`: it keeps its contents. -/
theorem main_v142_24_33 (c : Dev nD) : W33 m ρ c (Proc.devRef .tc main_v142) = W24 m ρ c (Proc.devRef .tc main_v142) :=
  calc W33 m ρ c (Proc.devRef .tc main_v142)
    _ = W32 m ρ c (Proc.devRef .tc main_v142) := StableHlo.after_of_forall_not_mem (b := Proc.devRef .tc main_v142) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_v142) := W32_of_ne m ρ c main_v142 (by decide)
    _ = W30 m ρ c (Proc.devRef .tc main_v142) := StableHlo.after_of_forall_not_mem (b := Proc.devRef .tc main_v142) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_v142) := W30_of_ne m ρ c main_v142 (by decide)
    _ = W28 m ρ c (Proc.devRef .tc main_v142) := StableHlo.after_of_forall_not_mem (b := Proc.devRef .tc main_v142) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_v142) := W28_of_ne m ρ c main_v142 (by decide)
    _ = W26 m ρ c (Proc.devRef .tc main_v142) := StableHlo.after_of_forall_not_mem (b := Proc.devRef .tc main_v142) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_v142) := W26_of_ne m ρ c main_v142 (by decide)
    _ = W24 m ρ c (Proc.devRef .tc main_v142) := StableHlo.after_of_forall_not_mem (b := Proc.devRef .tc main_v142) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 28 and boundary 33 of the run writes `main_v171`: it keeps its contents. -/
theorem main_v171_28_33 (c : Dev nD) : W33 m ρ c (Proc.devRef .tc main_v171) = W28 m ρ c (Proc.devRef .tc main_v171) :=
  calc W33 m ρ c (Proc.devRef .tc main_v171)
    _ = W32 m ρ c (Proc.devRef .tc main_v171) := StableHlo.after_of_forall_not_mem (b := Proc.devRef .tc main_v171) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_v171) := W32_of_ne m ρ c main_v171 (by decide)
    _ = W30 m ρ c (Proc.devRef .tc main_v171) := StableHlo.after_of_forall_not_mem (b := Proc.devRef .tc main_v171) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_v171) := W30_of_ne m ρ c main_v171 (by decide)
    _ = W28 m ρ c (Proc.devRef .tc main_v171) := StableHlo.after_of_forall_not_mem (b := Proc.devRef .tc main_v171) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Carry

end
-- ==== Proof.KernelChain2.lean ====
/-
  Stage 2 of the chain, the kernel's half: the second message-passing hop of the first block. The array the hop's second
  region leaves is, entry by entry, the batch normalisation of the hop's linear stage, with no clipping after it, over the
  previous hop's output and the block's input (the embedding's output) as the run leaves them and the launch memory's edge
  lists and stacked parameters. The host operations before the hop's first region pool the previous hop's rows along the
  edges and take the hop's square of the stacked weights and its row of the stacked biases; the first region adds the pooled
  rows to the block input's, multiplies by the weights, adds the bias row, and leaves with that array its column sums and
  column sums of squares; the host operations between the regions divide those by the row count, form the variance as the
  mean of squares less the squared mean, and take the hop's rows of the stacked scale and shift; the second region
  normalises with those rows. Here the steps are joined.
-/
import proofs.«414479_j7705171329025_1_alg».proof.Proof.ValAdd2_4
import proofs.«414479_j7705171329025_1_alg».proof.Proof.ValNorm5
import proofs.«414479_j7705171329025_1_alg».proof.Proof.HostHop4
import proofs.«414479_j7705171329025_1_alg».proof.Proof.HostStats5
import proofs.«414479_j7705171329025_1_alg».proof.Proof.StageReal
import proofs.«414479_j7705171329025_1_alg».proof.Proof.FrameKI.Run
import proofs.«414479_j7705171329025_1_alg».proof.Proof.Carry0
import proofs.«414479_j7705171329025_1_alg».proof.Proof.Carry2
import proofs.«414479_j7705171329025_1_alg».proof.Proof.PreReal
import proofs.«414479_j7705171329025_1_alg».proof.Proof.PooledReal
import proofs.«414479_j7705171329025_1_alg».proof.Proof.SliceReal
import Idealize.ShloMosaic.Lib.IdealHost
import Idealize.ShloMosaic.Lib.ValueLayout

set_option maxRecDepth 16384

noncomputable section

namespace Cert.KernelChain2

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## The hop's data: earlier stages' output arrays, and the launch memory's arrays, each at its literal type -/

/-- The previous hop's output array, as the run leaves it. -/
abbrev prev (c : Dev nD) : Vec Ideal S100000x128 .f32 := W8 (F := Ideal) m ρ c (Proc.devRef .tc main_v40)
/-- The block's input, the embedding's output array, as the run leaves it. -/
abbrev inp (c : Dev nD) : Vec Ideal S100000x128 .f32 := W4 (F := Ideal) m ρ c (Proc.devRef .tc main_v10)
/-- The edges' sources. -/
abbrev src (c : Dev nD) : Vec Ideal S800000 .i32 := m ((c : Thread nD τ).loc main_arg1)
/-- The edges' destinations. -/
abbrev dst (c : Dev nD) : Vec Ideal S800000 .i32 := m ((c : Thread nD τ).loc main_arg2)
/-- The stacked weights of the block's three hops. -/
abbrev convW (c : Dev nD) : Vec Ideal S3x128x128 .f32 := m ((c : Thread nD τ).loc main_arg8)
/-- The stacked biases. -/
abbrev convB (c : Dev nD) : Vec Ideal S3x128 .f32 := m ((c : Thread nD τ).loc main_arg9)
/-- The stacked scales of the three hops' batch norms. -/
abbrev bnG (c : Dev nD) : Vec Ideal S3x128 .f32 := m ((c : Thread nD τ).loc main_arg10)
/-- The stacked shifts. -/
abbrev bnB (c : Dev nD) : Vec Ideal S3x128 .f32 := m ((c : Thread nD τ).loc main_arg11)

/-- The previous hop's output's rows pooled along the edges. -/
abbrev pooledPrev (c : Dev nD) : Vec Ideal S100000x128 .f32 := HostHop4.pooled (F := Ideal) (prev m ρ c) (src m c) (dst m c)
/-- The hop's weight matrix. -/
abbrev Wt (c : Dev nD) : Vec Ideal S128x128 .f32 := HostHop4.wOf (F := Ideal) (convW m c)
/-- The hop's bias row. -/
abbrev B (c : Dev nD) : Vec Ideal S1x128 .f32 := HostHop4.rowOf (F := Ideal) (convB m c)
/-- The hop's scale row. -/
abbrev g (c : Dev nD) : Vec Ideal S1x128 .f32 := HostStats5.rowOf (F := Ideal) (bnG m c)
/-- The hop's shift row. -/
abbrev β (c : Dev nD) : Vec Ideal S1x128 .f32 := HostStats5.rowOf (F := Ideal) (bnB m c)

/-- The hop's linear stage, entry by entry: the pooled rows plus the block input's, against the weights, plus the bias. -/
def y (c : Dev nD) (r : Fin 100000) (q : Fin 128) : EReal :=
  StageSpec.linAdd (pooledPrev m ρ c) (inp m ρ c) (Wt m c) (B m c) r q

/-- The row count, as the word the host operations divide by. -/
abbrev nRows : EReal := Ideal.ofBits .f32 0x47C35000#32

/-! ## Real numbers in, real numbers out -/

/-- Under the precondition, and if every entry of the earlier stages' arrays is a real number, every entry of the hop's
    linear stage is one: the neighbour sum of a real array is real whatever the edges are, and the hop's square of the
    weights and its row of the biases are entries of real arrays. -/
theorem y_isReal [Cert.Pre_finite_inputs.Facts] (h : Cert.Pre_KernelIdeal m) (c : Dev nD)
    (hprev : ∀ i, Cert.RealSpec.IsReal (prev m ρ c i)) (hinp : ∀ i, Cert.RealSpec.IsReal (inp m ρ c i)) (r : Fin 100000) (q : Fin 128) :
    Cert.RealSpec.IsReal (y m ρ c r q) :=
  StageReal.linAdd_isReal (pooledPrev m ρ c) (inp m ρ c) (Wt m c) (B m c)
    (Cert.PooledReal.pooled_isReal (prev m ρ c) (src m c) (dst m c) hprev) hinp
    (Cert.SliceReal.wOf1_isReal (convW m c) (Cert.PreReal.real_arg8 m h c))
    (Cert.SliceReal.rowOf1_isReal (convB m c) (Cert.PreReal.real_arg9 m h c)) r q

/-- Under the precondition every entry of the hop's scale row is a real number. -/
theorem g_isReal [Cert.Pre_finite_inputs.Facts] (h : Cert.Pre_KernelIdeal m) (c : Dev nD) (q : Fin 128) :
    Cert.RealSpec.IsReal (g m c (ix2 (0 : Fin 1) q)) :=
  Cert.SliceReal.statsRow1_isReal (bnG m c) (Cert.PreReal.real_arg10 m h c) (ix2 (0 : Fin 1) q)

/-- And every entry of its shift row. -/
theorem β_isReal [Cert.Pre_finite_inputs.Facts] (h : Cert.Pre_KernelIdeal m) (c : Dev nD) (q : Fin 128) :
    Cert.RealSpec.IsReal (β m c (ix2 (0 : Fin 1) q)) :=
  Cert.SliceReal.statsRow1_isReal (bnB m c) (Cert.PreReal.real_arg11 m h c) (ix2 (0 : Fin 1) q)

/-! ## The first region's inputs -/

/-- The pooled rows: the host operations before the region form them, with the edge lists, which nothing has written since
    the launch. -/
theorem xa_eq (c : Dev nD) : ValAdd2_4.xaArr (V9 m ρ) c = pooledPrev m ρ c :=
  (HostHop4.read_pooled (W8 m ρ c)).trans
    (congrArg₂ (fun s d => HostHop4.pooled (F := Ideal) (prev m ρ c) s d)
      ((Carry.main_arg1_0_8 m ρ c).trans rfl) ((Carry.main_arg2_0_8 m ρ c).trans rfl))

/-- The block's input. -/
theorem xb_eq (c : Dev nD) : ValAdd2_4.xbArr (V9 m ρ) c = inp m ρ c :=
  Carry.main_v10_4_9 m ρ c

/-- The hop's weight matrix, out of the launch memory's stacked weights. -/
theorem w_eq (c : Dev nD) : ValAdd2_4.wArr (V9 m ρ) c = Wt m c :=
  (HostHop4.read_w (W8 m ρ c)).trans (congrArg (HostHop4.wOf (F := Ideal)) ((Carry.main_arg8_0_8 m ρ c).trans rfl))

/-- The hop's bias row, out of the launch memory's stacked biases. -/
theorem b_eq (c : Dev nD) : ValAdd2_4.bRow (V9 m ρ) c = B m c :=
  (HostHop4.read_b (W8 m ρ c)).trans (congrArg (HostHop4.rowOf (F := Ideal)) ((Carry.main_arg9_0_8 m ρ c).trans rfl))

/-- So the first region's linear stage is the hop's. -/
theorem y_eq (c : Dev nD) : ValAdd2_4.y (V9 m ρ) c = y m ρ c := by
  funext r q
  unfold ValAdd2_4.y y
  rw [xa_eq m ρ c, xb_eq m ρ c, w_eq m ρ c, b_eq m ρ c]

/-! ## The second region's five arrays, from the first region's three -/

/-- The column sums, as the first region leaves them. -/
theorem sum_eq (c : Dev nD) :
    (W10 m ρ c (Proc.devRef .tc main_v56_1) : Vec Ideal S1x128 .f32) = ValAdd2_4.resultSum (V9 m ρ) c :=
  (W10_arr m ρ c 5).trans (ValAdd2_4.arrAt_sum (V9 m ρ) c)

/-- The column sums of squares, as the first region leaves them. -/
theorem sumsq_eq (c : Dev nD) :
    (W10 m ρ c (Proc.devRef .tc main_v56_2) : Vec Ideal S1x128 .f32) = ValAdd2_4.resultSumSq (V9 m ρ) c :=
  (W10_arr m ρ c 6).trans (ValAdd2_4.arrAt_sumsq (V9 m ρ) c)

/-- The tall array the second region normalises is the first region's output: the host operations between the two do
    not write it. -/
theorem yArr_eq (c : Dev nD) : ValNorm5.yArr (V11 m ρ) c = ValAdd2_4.resultY (V9 m ρ) c :=
  ((HostStats5.read_y (W10 m ρ c)).trans (W10_arr m ρ c 4)).trans (ValAdd2_4.arrAt_y (V9 m ρ) c)

/-- The mean row: the column sums over the row count. -/
theorem meanRow_eq (c : Dev nD) :
    ValNorm5.meanRow (V11 m ρ) c
      = Host.divf (F := Ideal) (φ := .f32) (ValAdd2_4.resultSum (V9 m ρ) c) (HostStats5.nRow (F := Ideal)) := by
  refine (HostStats5.read_mean (W10 m ρ c)).trans ?_
  rw [sum_eq m ρ c]

/-- The variance row: the mean of squares less the squared mean. -/
theorem varRow_eq (c : Dev nD) :
    ValNorm5.varRow (V11 m ρ) c
      = subf (F := Ideal) (φ := .f32) (Host.divf (F := Ideal) (φ := .f32) (ValAdd2_4.resultSumSq (V9 m ρ) c) (HostStats5.nRow (F := Ideal)))
          (mulf (F := Ideal) (φ := .f32) (Host.divf (F := Ideal) (φ := .f32) (ValAdd2_4.resultSum (V9 m ρ) c) (HostStats5.nRow (F := Ideal)))
            (Host.divf (F := Ideal) (φ := .f32) (ValAdd2_4.resultSum (V9 m ρ) c) (HostStats5.nRow (F := Ideal)))) := by
  refine (HostStats5.read_var (W10 m ρ c)).trans ?_
  rw [sum_eq m ρ c, sumsq_eq m ρ c]

/-- The scale row: the hop's row of the launch memory's stacked scales, which nothing has written since the launch. -/
theorem gRow_eq (c : Dev nD) : ValNorm5.gRow (V11 m ρ) c = g m c :=
  (HostStats5.read_g (W10 m ρ c)).trans (congrArg (HostStats5.rowOf (F := Ideal)) ((Carry.main_arg10_0_10 m ρ c).trans rfl))

/-- The shift row: the hop's row of the launch memory's stacked shifts. -/
theorem betaRow_eq (c : Dev nD) : ValNorm5.betaRow (V11 m ρ) c = β m c :=
  (HostStats5.read_beta (W10 m ρ c)).trans (congrArg (HostStats5.rowOf (F := Ideal)) ((Carry.main_arg11_0_10 m ρ c).trans rfl))

/-! ## The five arrays read at an entry -/

/-- The divisor row holds the row count in every column. -/
theorem nRow_apply (j : S1x128.Idx) : HostStats5.nRow (F := Ideal) j = nRows := by
  unfold HostStats5.nRow
  exact (broadcastInDim_scalar_apply bcast_S_S1x128 (constant (F := Ideal) S_ .f32 0x47C35000#32) j).trans rfl

/-- The tall array at row r, column q is the linear stage's entry. -/
theorem yArr_apply (c : Dev nD) (r : Fin 100000) (q : Fin 128) :
    ValNorm5.yArr (V11 m ρ) c (ix2 r q) = ValAdd2_4.y (V9 m ρ) c r q :=
  (congrFun (yArr_eq m ρ c) (ix2 r q)).trans rfl

/-- The mean row at column q is the column mean of the linear stage's output. -/
theorem mean_apply (c : Dev nD) (q : Fin 128) :
    ValNorm5.meanRow (V11 m ρ) c (ix2 (0 : Fin 1) q) = StageReal.colMean (ValAdd2_4.y (V9 m ρ) c) nRows q := by
  refine (congrFun (meanRow_eq m ρ c) (ix2 (0 : Fin 1) q)).trans ?_
  show Ideal.div (ValAdd2_4.resultSum (V9 m ρ) c (ix2 (0 : Fin 1) q)) (HostStats5.nRow (F := Ideal) (ix2 (0 : Fin 1) q)) = _
  rw [nRow_apply]
  rfl

/-- The variance row at column q is the mean of squares less the squared mean of that column. -/
theorem var_apply (c : Dev nD) (q : Fin 128) :
    ValNorm5.varRow (V11 m ρ) c (ix2 (0 : Fin 1) q) = StageReal.varSumSq (ValAdd2_4.y (V9 m ρ) c) nRows q := by
  refine (congrFun (varRow_eq m ρ c) (ix2 (0 : Fin 1) q)).trans ?_
  show Ideal.div (ValAdd2_4.resultSumSq (V9 m ρ) c (ix2 (0 : Fin 1) q)) (HostStats5.nRow (F := Ideal) (ix2 (0 : Fin 1) q))
      - Ideal.div (ValAdd2_4.resultSum (V9 m ρ) c (ix2 (0 : Fin 1) q)) (HostStats5.nRow (F := Ideal) (ix2 (0 : Fin 1) q))
        * Ideal.div (ValAdd2_4.resultSum (V9 m ρ) c (ix2 (0 : Fin 1) q)) (HostStats5.nRow (F := Ideal) (ix2 (0 : Fin 1) q)) = _
  rw [nRow_apply]
  rfl

/-! ## The hop's output -/

/-- What the second region leaves in its output array is what it computes from its five arrays. -/
theorem out_eq (c : Dev nD) :
    (W12 (F := Ideal) m ρ c (Proc.devRef .tc main_v69) : Vec Ideal S100000x128 .f32) = ValNorm5.result (V11 m ρ) c :=
  (W12_arr m ρ c 5).trans (ValNorm5.arrAt_out (V11 m ρ) c)

/-- THE KERNEL'S HOP OUTPUT, entry by entry: the batch normalisation of the hop's linear stage with the statistics in
    the kernel's form, not clipped. -/
theorem kernel_out_apply (c : Dev nD) (r : Fin 100000) (q : Fin 128) :
    (W12 (F := Ideal) m ρ c (Proc.devRef .tc main_v69) : Vec Ideal S100000x128 .f32) (ix2 r q)
      = StageSpec.norm (y m ρ c r q) (StageReal.colMean (y m ρ c) nRows q) (StageReal.varSumSq (y m ρ c) nRows q)
          (g m c (ix2 (0 : Fin 1) q)) (β m c (ix2 (0 : Fin 1) q)) := by
  refine (congrFun (out_eq m ρ c) (ix2 r q)).trans ?_
  show StageSpec.norm (ValNorm5.yArr (V11 m ρ) c (ix2 r q)) (ValNorm5.meanRow (V11 m ρ) c (ix2 (0 : Fin 1) q))
      (ValNorm5.varRow (V11 m ρ) c (ix2 (0 : Fin 1) q)) (ValNorm5.gRow (V11 m ρ) c (ix2 (0 : Fin 1) q))
      (ValNorm5.betaRow (V11 m ρ) c (ix2 (0 : Fin 1) q)) = _
  rw [yArr_apply m ρ c r q, mean_apply m ρ c q, var_apply m ρ c q, gRow_eq m ρ c, betaRow_eq m ρ c, y_eq m ρ c]

end Cert.KernelChain2

end
-- ==== Proof.RefChain2.lean ====
/- Stage 2 of the reference, a hop (the block's hop 1), at an entry: W is the contents before windows 1 and 2. The hop takes the
   neighbour sum of the array src, adds the block input bin, sends the sum through the hop's square of the stacked
   weights and adds the hop's bias; the result is normalised by its own column statistics with the hop's scale and
   shift. The normalised array is what main_v107 holds after the stage's last window; at row r and column q it is the
   normalisation of the linear stage's entry. -/
import proofs.«414479_j7705171329025_1_alg».proof.Proof.RefStage1
import proofs.«414479_j7705171329025_1_alg».proof.Proof.RefStage2
import proofs.«414479_j7705171329025_1_alg».proof.Proof.RefKinds

noncomputable section

namespace Cert.ReferenceIdeal.RefChain2

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The array whose neighbour sum the hop takes. -/
abbrev src : (⟨S100000x128, .f32⟩ : BufTy).Contents (Elt Ideal) :=
  (RefStage1.t_v65 W)

/-- The block input the neighbour sum is added to. -/
abbrev bin : (⟨S100000x128, .f32⟩ : BufTy).Contents (Elt Ideal) :=
  (W (Proc.devRef .tc main_v23))

/-- The hop's scale. -/
abbrev g : (⟨S128, .f32⟩ : BufTy).Contents (Elt Ideal) :=
  (RefKinds.refVec1 (W (Proc.devRef .tc main_arg10)))

/-- The hop's shift. -/
abbrev β : (⟨S128, .f32⟩ : BufTy).Contents (Elt Ideal) :=
  (RefKinds.refVec1 (W (Proc.devRef .tc main_arg11)))

/-- The hop's linear output. -/
abbrev lin : (⟨S100000x128, .f32⟩ : BufTy).Contents (Elt Ideal) :=
  RefKinds.hopLin1 (src W) (bin W) (W (Proc.devRef .tc main_arg1)) (W (Proc.devRef .tc main_arg2)) (W (Proc.devRef .tc main_arg8)) (W (Proc.devRef .tc main_arg9))

/-- Its entry: the linear stage on the entrywise sum of the neighbour sum and the block input. -/
abbrev y (r : Fin 100000) (q : Fin 128) : EReal :=
  StageSpec.linAdd (RefKinds.refPooled (src W) (W (Proc.devRef .tc main_arg1)) (W (Proc.devRef .tc main_arg2))) (bin W)
    (RefKinds.refW1 (W (Proc.devRef .tc main_arg8))) (RefKinds.refRow1 (W (Proc.devRef .tc main_arg9))) r q

set_option maxRecDepth 8192 in
/-- After the stage's last window main_v107 holds the linear output normalised by its own column statistics. -/
theorem out_eq : (after (ops2 (F := Ideal)) (after (ops1 (F := Ideal)) W) (Proc.devRef .tc main_v107) : (⟨S100000x128, .f32⟩ : BufTy).Contents (Elt Ideal))
    = RefTerms.affine (RefTerms.standardise (lin W) (RefTerms.colMean (lin W)) (RefTerms.colVar (lin W) (constantI S_ 32 0#32 : (⟨S_, .i32⟩ : BufTy).Contents (Elt Ideal)))) (g W) (β W) := by
  rw [RefStage2.read_v107]
  simp only [RefStage2.t_v107]
  rw [RefStage1.read_v101 W, RefStage1.read_v86 W, RefStage1.read_v88 W] <;> rfl

/-- STAGE 2 AT AN ENTRY. -/
theorem out_apply (r : Fin 100000) (q : Fin 128) : (after (ops2 (F := Ideal)) (after (ops1 (F := Ideal)) W) (Proc.devRef .tc main_v107) : (⟨S100000x128, .f32⟩ : BufTy).Contents (Elt Ideal)) (ix2 r q)
    = StageSpec.norm (y W r q) (StageReal.colMean (y W) RefKinds.N q) (StageReal.varDev (y W) RefKinds.N q) (g W (ix1 q)) (β W (ix1 q)) := by
  rw [out_eq]
  exact RefKinds.norm_of_entries (lin W) (y W) (fun r q => RefKinds.hopLin1_apply _ _ _ _ _ _ r q) _ rfl (g W) (β W) r q

end Cert.ReferenceIdeal.RefChain2

end
-- ==== Proof.RefChain3.lean ====
/- Stage 3 of the reference, a hop (the block's hop 2), at an entry: W is the contents before window 2. The hop takes the
   neighbour sum of the array src, adds the block input bin, sends the sum through the hop's square of the stacked
   weights and adds the hop's bias; the result is normalised by its own column statistics with the hop's scale and
   shift. The normalised array is what main_v149 holds after the stage's last window; at row r and column q it is the
   normalisation of the linear stage's entry. -/
import proofs.«414479_j7705171329025_1_alg».proof.Proof.RefStage2
import proofs.«414479_j7705171329025_1_alg».proof.Proof.RefKinds

noncomputable section

namespace Cert.ReferenceIdeal.RefChain3

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The array whose neighbour sum the hop takes. -/
abbrev src : (⟨S100000x128, .f32⟩ : BufTy).Contents (Elt Ideal) :=
  (RefStage2.t_v107 W)

/-- The block input the neighbour sum is added to. -/
abbrev bin : (⟨S100000x128, .f32⟩ : BufTy).Contents (Elt Ideal) :=
  (W (Proc.devRef .tc main_v23))

/-- The hop's scale. -/
abbrev g : (⟨S128, .f32⟩ : BufTy).Contents (Elt Ideal) :=
  (RefKinds.refVec2 (W (Proc.devRef .tc main_arg10)))

/-- The hop's shift. -/
abbrev β : (⟨S128, .f32⟩ : BufTy).Contents (Elt Ideal) :=
  (RefKinds.refVec2 (W (Proc.devRef .tc main_arg11)))

/-- The hop's linear output. -/
abbrev lin : (⟨S100000x128, .f32⟩ : BufTy).Contents (Elt Ideal) :=
  RefKinds.hopLin2 (src W) (bin W) (W (Proc.devRef .tc main_arg1)) (W (Proc.devRef .tc main_arg2)) (W (Proc.devRef .tc main_arg8)) (W (Proc.devRef .tc main_arg9))

/-- Its entry: the linear stage on the entrywise sum of the neighbour sum and the block input. -/
abbrev y (r : Fin 100000) (q : Fin 128) : EReal :=
  StageSpec.linAdd (RefKinds.refPooled (src W) (W (Proc.devRef .tc main_arg1)) (W (Proc.devRef .tc main_arg2))) (bin W)
    (RefKinds.refW2 (W (Proc.devRef .tc main_arg8))) (RefKinds.refRow2 (W (Proc.devRef .tc main_arg9))) r q

set_option maxRecDepth 8192 in
/-- After the stage's last window main_v149 holds the linear output normalised by its own column statistics. -/
theorem out_eq : (after (ops2 (F := Ideal)) W (Proc.devRef .tc main_v149) : (⟨S100000x128, .f32⟩ : BufTy).Contents (Elt Ideal))
    = RefTerms.affine (RefTerms.standardise (lin W) (RefTerms.colMean (lin W)) (RefTerms.colVar (lin W) (constantI S_ 32 0#32 : (⟨S_, .i32⟩ : BufTy).Contents (Elt Ideal)))) (g W) (β W) := by
  rw [RefStage2.read_v149] <;> rfl

/-- STAGE 3 AT AN ENTRY. -/
theorem out_apply (r : Fin 100000) (q : Fin 128) : (after (ops2 (F := Ideal)) W (Proc.devRef .tc main_v149) : (⟨S100000x128, .f32⟩ : BufTy).Contents (Elt Ideal)) (ix2 r q)
    = StageSpec.norm (y W r q) (StageReal.colMean (y W) RefKinds.N q) (StageReal.varDev (y W) RefKinds.N q) (g W (ix1 q)) (β W (ix1 q)) := by
  rw [out_eq]
  exact RefKinds.norm_of_entries (lin W) (y W) (fun r q => RefKinds.hopLin2_apply _ _ _ _ _ _ r q) _ rfl (g W) (β W) r q

end Cert.ReferenceIdeal.RefChain3

end
-- ==== Proof.RefChain5.lean ====
/- Stage 5 of the reference, a hop (the block's hop 0), at an entry: W is the contents before windows 3 and 4. The hop takes the
   neighbour sum of the array src, adds the block input bin, sends the sum through the hop's square of the stacked
   weights and adds the hop's bias; the result is normalised by its own column statistics with the hop's scale and
   shift. The normalised array is what main_v214 holds after the stage's last window; at row r and column q it is the
   normalisation of the linear stage's entry. -/
import proofs.«414479_j7705171329025_1_alg».proof.Proof.RefStage3
import proofs.«414479_j7705171329025_1_alg».proof.Proof.RefStage4
import proofs.«414479_j7705171329025_1_alg».proof.Proof.RefKinds

noncomputable section

namespace Cert.ReferenceIdeal.RefChain5

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The array whose neighbour sum the hop takes. -/
abbrev src : (⟨S100000x128, .f32⟩ : BufTy).Contents (Elt Ideal) :=
  (RefStage3.t_v172 W)

/-- The block input the neighbour sum is added to. -/
abbrev bin : (⟨S100000x128, .f32⟩ : BufTy).Contents (Elt Ideal) :=
  (RefStage3.t_v172 W)

/-- The hop's scale. -/
abbrev g : (⟨S128, .f32⟩ : BufTy).Contents (Elt Ideal) :=
  (RefKinds.refVec0 (W (Proc.devRef .tc main_arg10)))

/-- The hop's shift. -/
abbrev β : (⟨S128, .f32⟩ : BufTy).Contents (Elt Ideal) :=
  (RefKinds.refVec0 (W (Proc.devRef .tc main_arg11)))

/-- The hop's linear output. -/
abbrev lin : (⟨S100000x128, .f32⟩ : BufTy).Contents (Elt Ideal) :=
  RefKinds.hopLin0 (src W) (bin W) (W (Proc.devRef .tc main_arg1)) (W (Proc.devRef .tc main_arg2)) (W (Proc.devRef .tc main_arg8)) (W (Proc.devRef .tc main_arg9))

/-- Its entry: the linear stage on the entrywise sum of the neighbour sum and the block input. -/
abbrev y (r : Fin 100000) (q : Fin 128) : EReal :=
  StageSpec.linAdd (RefKinds.refPooled (src W) (W (Proc.devRef .tc main_arg1)) (W (Proc.devRef .tc main_arg2))) (bin W)
    (RefKinds.refW0 (W (Proc.devRef .tc main_arg8))) (RefKinds.refRow0 (W (Proc.devRef .tc main_arg9))) r q

set_option maxRecDepth 8192 in
/-- After the stage's last window main_v214 holds the linear output normalised by its own column statistics. -/
theorem out_eq : (after (ops4 (F := Ideal)) (after (ops3 (F := Ideal)) W) (Proc.devRef .tc main_v214) : (⟨S100000x128, .f32⟩ : BufTy).Contents (Elt Ideal))
    = RefTerms.affine (RefTerms.standardise (lin W) (RefTerms.colMean (lin W)) (RefTerms.colVar (lin W) (constantI S_ 32 0#32 : (⟨S_, .i32⟩ : BufTy).Contents (Elt Ideal)))) (g W) (β W) := by
  rw [RefStage4.read_v214]
  simp only [RefStage4.t_v214]
  rw [RefStage3.read_v193 W, RefStage3.read_v195 W, RefStage3.read_v199 W, RefStage3.read_v202 W, RefStage3.read_v203 W] <;> rfl

/-- STAGE 5 AT AN ENTRY. -/
theorem out_apply (r : Fin 100000) (q : Fin 128) : (after (ops4 (F := Ideal)) (after (ops3 (F := Ideal)) W) (Proc.devRef .tc main_v214) : (⟨S100000x128, .f32⟩ : BufTy).Contents (Elt Ideal)) (ix2 r q)
    = StageSpec.norm (y W r q) (StageReal.colMean (y W) RefKinds.N q) (StageReal.varDev (y W) RefKinds.N q) (g W (ix1 q)) (β W (ix1 q)) := by
  rw [out_eq]
  exact RefKinds.norm_of_entries (lin W) (y W) (fun r q => RefKinds.hopLin0_apply _ _ _ _ _ _ r q) _ rfl (g W) (β W) r q

end Cert.ReferenceIdeal.RefChain5

end
-- ==== Proof.RefChain6.lean ====
/- Stage 6 of the reference, a hop (the block's hop 1), at an entry: W is the contents before window 4. The hop takes the
   neighbour sum of the array src, adds the block input bin, sends the sum through the hop's square of the stacked
   weights and adds the hop's bias; the result is normalised by its own column statistics with the hop's scale and
   shift. The normalised array is what main_v256 holds after the stage's last window; at row r and column q it is the
   normalisation of the linear stage's entry. -/
import proofs.«414479_j7705171329025_1_alg».proof.Proof.RefStage4
import proofs.«414479_j7705171329025_1_alg».proof.Proof.RefKinds

noncomputable section

namespace Cert.ReferenceIdeal.RefChain6

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The array whose neighbour sum the hop takes. -/
abbrev src : (⟨S100000x128, .f32⟩ : BufTy).Contents (Elt Ideal) :=
  (RefStage4.t_v214 W)

/-- The block input the neighbour sum is added to. -/
abbrev bin : (⟨S100000x128, .f32⟩ : BufTy).Contents (Elt Ideal) :=
  (W (Proc.devRef .tc main_v172))

/-- The hop's scale. -/
abbrev g : (⟨S128, .f32⟩ : BufTy).Contents (Elt Ideal) :=
  (RefKinds.refVec1 (W (Proc.devRef .tc main_arg10)))

/-- The hop's shift. -/
abbrev β : (⟨S128, .f32⟩ : BufTy).Contents (Elt Ideal) :=
  (RefKinds.refVec1 (W (Proc.devRef .tc main_arg11)))

/-- The hop's linear output. -/
abbrev lin : (⟨S100000x128, .f32⟩ : BufTy).Contents (Elt Ideal) :=
  RefKinds.hopLin1 (src W) (bin W) (W (Proc.devRef .tc main_arg1)) (W (Proc.devRef .tc main_arg2)) (W (Proc.devRef .tc main_arg8)) (W (Proc.devRef .tc main_arg9))

/-- Its entry: the linear stage on the entrywise sum of the neighbour sum and the block input. -/
abbrev y (r : Fin 100000) (q : Fin 128) : EReal :=
  StageSpec.linAdd (RefKinds.refPooled (src W) (W (Proc.devRef .tc main_arg1)) (W (Proc.devRef .tc main_arg2))) (bin W)
    (RefKinds.refW1 (W (Proc.devRef .tc main_arg8))) (RefKinds.refRow1 (W (Proc.devRef .tc main_arg9))) r q

set_option maxRecDepth 8192 in
/-- After the stage's last window main_v256 holds the linear output normalised by its own column statistics. -/
theorem out_eq : (after (ops4 (F := Ideal)) W (Proc.devRef .tc main_v256) : (⟨S100000x128, .f32⟩ : BufTy).Contents (Elt Ideal))
    = RefTerms.affine (RefTerms.standardise (lin W) (RefTerms.colMean (lin W)) (RefTerms.colVar (lin W) (constantI S_ 32 0#32 : (⟨S_, .i32⟩ : BufTy).Contents (Elt Ideal)))) (g W) (β W) := by
  rw [RefStage4.read_v256] <;> rfl

/-- STAGE 6 AT AN ENTRY. -/
theorem out_apply (r : Fin 100000) (q : Fin 128) : (after (ops4 (F := Ideal)) W (Proc.devRef .tc main_v256) : (⟨S100000x128, .f32⟩ : BufTy).Contents (Elt Ideal)) (ix2 r q)
    = StageSpec.norm (y W r q) (StageReal.colMean (y W) RefKinds.N q) (StageReal.varDev (y W) RefKinds.N q) (g W (ix1 q)) (β W (ix1 q)) := by
  rw [out_eq]
  exact RefKinds.norm_of_entries (lin W) (y W) (fun r q => RefKinds.hopLin1_apply _ _ _ _ _ _ r q) _ rfl (g W) (β W) r q

end Cert.ReferenceIdeal.RefChain6

end
-- ==== Proof.RefChain7.lean ====
/- Stage 7 of the reference, a hop (the block's hop 2), at an entry: W is the contents before window 5. The hop takes the
   neighbour sum of the array src, adds the block input bin, sends the sum through the hop's square of the stacked
   weights and adds the hop's bias; the result is normalised by its own column statistics with the hop's scale and
   shift. The normalised array is what main_v298 holds after the stage's last window; at row r and column q it is the
   normalisation of the linear stage's entry. -/
import proofs.«414479_j7705171329025_1_alg».proof.Proof.RefStage5
import proofs.«414479_j7705171329025_1_alg».proof.Proof.RefKinds

noncomputable section

namespace Cert.ReferenceIdeal.RefChain7

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The array whose neighbour sum the hop takes. -/
abbrev src : (⟨S100000x128, .f32⟩ : BufTy).Contents (Elt Ideal) :=
  (W (Proc.devRef .tc main_v256))

/-- The block input the neighbour sum is added to. -/
abbrev bin : (⟨S100000x128, .f32⟩ : BufTy).Contents (Elt Ideal) :=
  (W (Proc.devRef .tc main_v172))

/-- The hop's scale. -/
abbrev g : (⟨S128, .f32⟩ : BufTy).Contents (Elt Ideal) :=
  (RefKinds.refVec2 (W (Proc.devRef .tc main_arg10)))

/-- The hop's shift. -/
abbrev β : (⟨S128, .f32⟩ : BufTy).Contents (Elt Ideal) :=
  (RefKinds.refVec2 (W (Proc.devRef .tc main_arg11)))

/-- The hop's linear output. -/
abbrev lin : (⟨S100000x128, .f32⟩ : BufTy).Contents (Elt Ideal) :=
  RefKinds.hopLin2 (src W) (bin W) (W (Proc.devRef .tc main_arg1)) (W (Proc.devRef .tc main_arg2)) (W (Proc.devRef .tc main_arg8)) (W (Proc.devRef .tc main_arg9))

/-- Its entry: the linear stage on the entrywise sum of the neighbour sum and the block input. -/
abbrev y (r : Fin 100000) (q : Fin 128) : EReal :=
  StageSpec.linAdd (RefKinds.refPooled (src W) (W (Proc.devRef .tc main_arg1)) (W (Proc.devRef .tc main_arg2))) (bin W)
    (RefKinds.refW2 (W (Proc.devRef .tc main_arg8))) (RefKinds.refRow2 (W (Proc.devRef .tc main_arg9))) r q

set_option maxRecDepth 8192 in
/-- After the stage's last window main_v298 holds the linear output normalised by its own column statistics. -/
theorem out_eq : (after (ops5 (F := Ideal)) W (Proc.devRef .tc main_v298) : (⟨S100000x128, .f32⟩ : BufTy).Contents (Elt Ideal))
    = RefTerms.affine (RefTerms.standardise (lin W) (RefTerms.colMean (lin W)) (RefTerms.colVar (lin W) (constantI S_ 32 0#32 : (⟨S_, .i32⟩ : BufTy).Contents (Elt Ideal)))) (g W) (β W) := by
  rw [RefStage5.read_v298] <;> rfl

/-- STAGE 7 AT AN ENTRY. -/
theorem out_apply (r : Fin 100000) (q : Fin 128) : (after (ops5 (F := Ideal)) W (Proc.devRef .tc main_v298) : (⟨S100000x128, .f32⟩ : BufTy).Contents (Elt Ideal)) (ix2 r q)
    = StageSpec.norm (y W r q) (StageReal.colMean (y W) RefKinds.N q) (StageReal.varDev (y W) RefKinds.N q) (g W (ix1 q)) (β W (ix1 q)) := by
  rw [out_eq]
  exact RefKinds.norm_of_entries (lin W) (y W) (fun r q => RefKinds.hopLin2_apply _ _ _ _ _ _ r q) _ rfl (g W) (β W) r q

end Cert.ReferenceIdeal.RefChain7

end
-- ==== Proof.RefChain9.lean ====
/- Stage 9 of the reference, a hop (the block's hop 0), at an entry: W is the contents before windows 6 and 7. The hop takes the
   neighbour sum of the array src, adds the block input bin, sends the sum through the hop's square of the stacked
   weights and adds the hop's bias; the result is normalised by its own column statistics with the hop's scale and
   shift. The normalised array is what main_v363 holds after the stage's last window; at row r and column q it is the
   normalisation of the linear stage's entry. -/
import proofs.«414479_j7705171329025_1_alg».proof.Proof.RefStage6
import proofs.«414479_j7705171329025_1_alg».proof.Proof.RefStage7
import proofs.«414479_j7705171329025_1_alg».proof.Proof.RefKinds

noncomputable section

namespace Cert.ReferenceIdeal.RefChain9

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The array whose neighbour sum the hop takes. -/
abbrev src : (⟨S100000x128, .f32⟩ : BufTy).Contents (Elt Ideal) :=
  (RefStage6.t_v321 W)

/-- The block input the neighbour sum is added to. -/
abbrev bin : (⟨S100000x128, .f32⟩ : BufTy).Contents (Elt Ideal) :=
  (RefStage6.t_v321 W)

/-- The hop's scale. -/
abbrev g : (⟨S128, .f32⟩ : BufTy).Contents (Elt Ideal) :=
  (RefKinds.refVec0 (W (Proc.devRef .tc main_arg10)))

/-- The hop's shift. -/
abbrev β : (⟨S128, .f32⟩ : BufTy).Contents (Elt Ideal) :=
  (RefKinds.refVec0 (W (Proc.devRef .tc main_arg11)))

/-- The hop's linear output. -/
abbrev lin : (⟨S100000x128, .f32⟩ : BufTy).Contents (Elt Ideal) :=
  RefKinds.hopLin0 (src W) (bin W) (W (Proc.devRef .tc main_arg1)) (W (Proc.devRef .tc main_arg2)) (W (Proc.devRef .tc main_arg8)) (W (Proc.devRef .tc main_arg9))

/-- Its entry: the linear stage on the entrywise sum of the neighbour sum and the block input. -/
abbrev y (r : Fin 100000) (q : Fin 128) : EReal :=
  StageSpec.linAdd (RefKinds.refPooled (src W) (W (Proc.devRef .tc main_arg1)) (W (Proc.devRef .tc main_arg2))) (bin W)
    (RefKinds.refW0 (W (Proc.devRef .tc main_arg8))) (RefKinds.refRow0 (W (Proc.devRef .tc main_arg9))) r q

set_option maxRecDepth 8192 in
/-- After the stage's last window main_v363 holds the linear output normalised by its own column statistics. -/
theorem out_eq : (after (ops7 (F := Ideal)) (after (ops6 (F := Ideal)) W) (Proc.devRef .tc main_v363) : (⟨S100000x128, .f32⟩ : BufTy).Contents (Elt Ideal))
    = RefTerms.affine (RefTerms.standardise (lin W) (RefTerms.colMean (lin W)) (RefTerms.colVar (lin W) (constantI S_ 32 0#32 : (⟨S_, .i32⟩ : BufTy).Contents (Elt Ideal)))) (g W) (β W) := by
  rw [RefStage7.read_v363]
  simp only [RefStage7.t_v363]
  rw [RefStage6.read_v344 W, RefStage6.read_v357 W, RefStage6.read_v358 W] <;> rfl

/-- STAGE 9 AT AN ENTRY. -/
theorem out_apply (r : Fin 100000) (q : Fin 128) : (after (ops7 (F := Ideal)) (after (ops6 (F := Ideal)) W) (Proc.devRef .tc main_v363) : (⟨S100000x128, .f32⟩ : BufTy).Contents (Elt Ideal)) (ix2 r q)
    = StageSpec.norm (y W r q) (StageReal.colMean (y W) RefKinds.N q) (StageReal.varDev (y W) RefKinds.N q) (g W (ix1 q)) (β W (ix1 q)) := by
  rw [out_eq]
  exact RefKinds.norm_of_entries (lin W) (y W) (fun r q => RefKinds.hopLin0_apply _ _ _ _ _ _ r q) _ rfl (g W) (β W) r q

end Cert.ReferenceIdeal.RefChain9

end
-- ==== Proof.RefChain10.lean ====
/- Stage 10 of the reference, a hop (the block's hop 1), at an entry: W is the contents before window 7. The hop takes the
   neighbour sum of the array src, adds the block input bin, sends the sum through the hop's square of the stacked
   weights and adds the hop's bias; the result is normalised by its own column statistics with the hop's scale and
   shift. The normalised array is what main_v405 holds after the stage's last window; at row r and column q it is the
   normalisation of the linear stage's entry. -/
import proofs.«414479_j7705171329025_1_alg».proof.Proof.RefStage7
import proofs.«414479_j7705171329025_1_alg».proof.Proof.RefKinds

noncomputable section

namespace Cert.ReferenceIdeal.RefChain10

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The array whose neighbour sum the hop takes. -/
abbrev src : (⟨S100000x128, .f32⟩ : BufTy).Contents (Elt Ideal) :=
  (RefStage7.t_v363 W)

/-- The block input the neighbour sum is added to. -/
abbrev bin : (⟨S100000x128, .f32⟩ : BufTy).Contents (Elt Ideal) :=
  (W (Proc.devRef .tc main_v321))

/-- The hop's scale. -/
abbrev g : (⟨S128, .f32⟩ : BufTy).Contents (Elt Ideal) :=
  (RefKinds.refVec1 (W (Proc.devRef .tc main_arg10)))

/-- The hop's shift. -/
abbrev β : (⟨S128, .f32⟩ : BufTy).Contents (Elt Ideal) :=
  (RefKinds.refVec1 (W (Proc.devRef .tc main_arg11)))

/-- The hop's linear output. -/
abbrev lin : (⟨S100000x128, .f32⟩ : BufTy).Contents (Elt Ideal) :=
  RefKinds.hopLin1 (src W) (bin W) (W (Proc.devRef .tc main_arg1)) (W (Proc.devRef .tc main_arg2)) (W (Proc.devRef .tc main_arg8)) (W (Proc.devRef .tc main_arg9))

/-- Its entry: the linear stage on the entrywise sum of the neighbour sum and the block input. -/
abbrev y (r : Fin 100000) (q : Fin 128) : EReal :=
  StageSpec.linAdd (RefKinds.refPooled (src W) (W (Proc.devRef .tc main_arg1)) (W (Proc.devRef .tc main_arg2))) (bin W)
    (RefKinds.refW1 (W (Proc.devRef .tc main_arg8))) (RefKinds.refRow1 (W (Proc.devRef .tc main_arg9))) r q

set_option maxRecDepth 8192 in
/-- After the stage's last window main_v405 holds the linear output normalised by its own column statistics. -/
theorem out_eq : (after (ops7 (F := Ideal)) W (Proc.devRef .tc main_v405) : (⟨S100000x128, .f32⟩ : BufTy).Contents (Elt Ideal))
    = RefTerms.affine (RefTerms.standardise (lin W) (RefTerms.colMean (lin W)) (RefTerms.colVar (lin W) (constantI S_ 32 0#32 : (⟨S_, .i32⟩ : BufTy).Contents (Elt Ideal)))) (g W) (β W) := by
  rw [RefStage7.read_v405] <;> rfl

/-- STAGE 10 AT AN ENTRY. -/
theorem out_apply (r : Fin 100000) (q : Fin 128) : (after (ops7 (F := Ideal)) W (Proc.devRef .tc main_v405) : (⟨S100000x128, .f32⟩ : BufTy).Contents (Elt Ideal)) (ix2 r q)
    = StageSpec.norm (y W r q) (StageReal.colMean (y W) RefKinds.N q) (StageReal.varDev (y W) RefKinds.N q) (g W (ix1 q)) (β W (ix1 q)) := by
  rw [out_eq]
  exact RefKinds.norm_of_entries (lin W) (y W) (fun r q => RefKinds.hopLin1_apply _ _ _ _ _ _ r q) _ rfl (g W) (β W) r q

end Cert.ReferenceIdeal.RefChain10

end
-- ==== Proof.RefChain11.lean ====
/- Stage 11 of the reference, a hop (the block's hop 2), at an entry: W is the contents before windows 7 and 8. The hop takes the
   neighbour sum of the array src, adds the block input bin, sends the sum through the hop's square of the stacked
   weights and adds the hop's bias; the result is normalised by its own column statistics with the hop's scale and
   shift. The normalised array is what main_v447 holds after the stage's last window; at row r and column q it is the
   normalisation of the linear stage's entry. -/
import proofs.«414479_j7705171329025_1_alg».proof.Proof.RefStage7
import proofs.«414479_j7705171329025_1_alg».proof.Proof.RefStage8
import proofs.«414479_j7705171329025_1_alg».proof.Proof.RefKinds

noncomputable section

namespace Cert.ReferenceIdeal.RefChain11

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The array whose neighbour sum the hop takes. -/
abbrev src : (⟨S100000x128, .f32⟩ : BufTy).Contents (Elt Ideal) :=
  (RefTerms.affine (RefTerms.standardise (RefStage7.t_v382 W) (RefTerms.colMean (RefStage7.t_v382 W)) (RefTerms.colVar (RefStage7.t_v382 W) (constantI S_ 32 0#32 : (⟨S_, .i32⟩ : BufTy).Contents (Elt Ideal)))) (shapeCast S128 (extractStridedSlice S1x128 ![1, 0] (W (Proc.devRef .tc main_arg10)) slices_S3x128_S1x128_1_0) shapeCasts_S1x128_S128) (shapeCast S128 (extractStridedSlice S1x128 ![1, 0] (W (Proc.devRef .tc main_arg11)) slices_S3x128_S1x128_1_0) shapeCasts_S1x128_S128))

/-- The block input the neighbour sum is added to. -/
abbrev bin : (⟨S100000x128, .f32⟩ : BufTy).Contents (Elt Ideal) :=
  (W (Proc.devRef .tc main_v321))

/-- The hop's scale. -/
abbrev g : (⟨S128, .f32⟩ : BufTy).Contents (Elt Ideal) :=
  (RefKinds.refVec2 (W (Proc.devRef .tc main_arg10)))

/-- The hop's shift. -/
abbrev β : (⟨S128, .f32⟩ : BufTy).Contents (Elt Ideal) :=
  (RefKinds.refVec2 (W (Proc.devRef .tc main_arg11)))

/-- The hop's linear output. -/
abbrev lin : (⟨S100000x128, .f32⟩ : BufTy).Contents (Elt Ideal) :=
  RefKinds.hopLin2 (src W) (bin W) (W (Proc.devRef .tc main_arg1)) (W (Proc.devRef .tc main_arg2)) (W (Proc.devRef .tc main_arg8)) (W (Proc.devRef .tc main_arg9))

/-- Its entry: the linear stage on the entrywise sum of the neighbour sum and the block input. -/
abbrev y (r : Fin 100000) (q : Fin 128) : EReal :=
  StageSpec.linAdd (RefKinds.refPooled (src W) (W (Proc.devRef .tc main_arg1)) (W (Proc.devRef .tc main_arg2))) (bin W)
    (RefKinds.refW2 (W (Proc.devRef .tc main_arg8))) (RefKinds.refRow2 (W (Proc.devRef .tc main_arg9))) r q

set_option maxRecDepth 8192 in
/-- After the stage's last window main_v447 holds the linear output normalised by its own column statistics. -/
theorem out_eq : (after (ops8 (F := Ideal)) (after (ops7 (F := Ideal)) W) (Proc.devRef .tc main_v447) : (⟨S100000x128, .f32⟩ : BufTy).Contents (Elt Ideal))
    = RefTerms.affine (RefTerms.standardise (lin W) (RefTerms.colMean (lin W)) (RefTerms.colVar (lin W) (constantI S_ 32 0#32 : (⟨S_, .i32⟩ : BufTy).Contents (Elt Ideal)))) (g W) (β W) := by
  rw [RefStage8.read_v447]
  simp only [RefStage8.t_v424, RefStage8.t_v447]
  rw [RefStage7.keep W (r := main_arg1) (by decide), RefStage7.keep W (r := main_arg10) (by decide), RefStage7.keep W (r := main_arg11) (by decide), RefStage7.keep W (r := main_arg2) (by decide), RefStage7.keep W (r := main_arg8) (by decide), RefStage7.keep W (r := main_arg9) (by decide), RefStage7.keep W (r := main_v321) (by decide), RefStage7.read_v405 W, RefStage7.read_v407 W, RefStage7.read_v409 W] <;> rfl

/-- STAGE 11 AT AN ENTRY. -/
theorem out_apply (r : Fin 100000) (q : Fin 128) : (after (ops8 (F := Ideal)) (after (ops7 (F := Ideal)) W) (Proc.devRef .tc main_v447) : (⟨S100000x128, .f32⟩ : BufTy).Contents (Elt Ideal)) (ix2 r q)
    = StageSpec.norm (y W r q) (StageReal.colMean (y W) RefKinds.N q) (StageReal.varDev (y W) RefKinds.N q) (g W (ix1 q)) (β W (ix1 q)) := by
  rw [out_eq]
  exact RefKinds.norm_of_entries (lin W) (y W) (fun r q => RefKinds.hopLin2_apply _ _ _ _ _ _ r q) _ rfl (g W) (β W) r q

end Cert.ReferenceIdeal.RefChain11

end
-- ==== Proof.RefSide.lean ====
/-
  The reference's side of the hop stages, in the chain's words. The reference's eleven lists of operations do not fall on
  the stages' boundaries: a hop's source array and its block input are, at the contents the stage's reading starts from,
  either a term of an earlier operation of the same list or a buffer an earlier list left. Here each is identified with
  the chain's own arrays (a stage's normalised array, or a block's input: a projection's array plus the embedding's),
  stage by stage under uniform names; and the arguments no list writes are read back to the launch memory.
-/
import proofs.«414479_j7705171329025_1_alg».proof.Proof.ChainDefs
import proofs.«414479_j7705171329025_1_alg».proof.Proof.RefChain1
import proofs.«414479_j7705171329025_1_alg».proof.Proof.RefChain2
import proofs.«414479_j7705171329025_1_alg».proof.Proof.RefChain3
import proofs.«414479_j7705171329025_1_alg».proof.Proof.RefChain5
import proofs.«414479_j7705171329025_1_alg».proof.Proof.RefChain6
import proofs.«414479_j7705171329025_1_alg».proof.Proof.RefChain7
import proofs.«414479_j7705171329025_1_alg».proof.Proof.RefChain9
import proofs.«414479_j7705171329025_1_alg».proof.Proof.RefChain10
import proofs.«414479_j7705171329025_1_alg».proof.Proof.RefChain11

noncomputable section

namespace Cert.RefSide

open Cert.ChainDefs
open Idealize.ShloMosaic Idealize.ShloMosaic.TcCoe Idealize.ShloMosaic.StableHlo

variable (m' : (ℓ : Loc Cert.ReferenceIdeal.nD Cert.ReferenceIdeal.τ Cert.ReferenceIdeal.sig) → Buf (Elt Ideal) ℓ)

/-! ## What no list of operations writes keeps its contents -/

theorem main_arg1_nw0 : Cert.ReferenceIdeal.main_arg1 ∉ Cert.ReferenceIdeal.RefStage0.written := by decide
theorem main_arg1_nw1 : Cert.ReferenceIdeal.main_arg1 ∉ Cert.ReferenceIdeal.RefStage1.written := by decide
theorem main_arg1_nw2 : Cert.ReferenceIdeal.main_arg1 ∉ Cert.ReferenceIdeal.RefStage2.written := by decide
theorem main_arg1_nw3 : Cert.ReferenceIdeal.main_arg1 ∉ Cert.ReferenceIdeal.RefStage3.written := by decide
theorem main_arg1_nw4 : Cert.ReferenceIdeal.main_arg1 ∉ Cert.ReferenceIdeal.RefStage4.written := by decide
theorem main_arg1_nw5 : Cert.ReferenceIdeal.main_arg1 ∉ Cert.ReferenceIdeal.RefStage5.written := by decide
theorem main_arg1_nw6 : Cert.ReferenceIdeal.main_arg1 ∉ Cert.ReferenceIdeal.RefStage6.written := by decide
theorem main_arg2_nw0 : Cert.ReferenceIdeal.main_arg2 ∉ Cert.ReferenceIdeal.RefStage0.written := by decide
theorem main_arg2_nw1 : Cert.ReferenceIdeal.main_arg2 ∉ Cert.ReferenceIdeal.RefStage1.written := by decide
theorem main_arg2_nw2 : Cert.ReferenceIdeal.main_arg2 ∉ Cert.ReferenceIdeal.RefStage2.written := by decide
theorem main_arg2_nw3 : Cert.ReferenceIdeal.main_arg2 ∉ Cert.ReferenceIdeal.RefStage3.written := by decide
theorem main_arg2_nw4 : Cert.ReferenceIdeal.main_arg2 ∉ Cert.ReferenceIdeal.RefStage4.written := by decide
theorem main_arg2_nw5 : Cert.ReferenceIdeal.main_arg2 ∉ Cert.ReferenceIdeal.RefStage5.written := by decide
theorem main_arg2_nw6 : Cert.ReferenceIdeal.main_arg2 ∉ Cert.ReferenceIdeal.RefStage6.written := by decide
theorem main_arg8_nw0 : Cert.ReferenceIdeal.main_arg8 ∉ Cert.ReferenceIdeal.RefStage0.written := by decide
theorem main_arg8_nw1 : Cert.ReferenceIdeal.main_arg8 ∉ Cert.ReferenceIdeal.RefStage1.written := by decide
theorem main_arg8_nw2 : Cert.ReferenceIdeal.main_arg8 ∉ Cert.ReferenceIdeal.RefStage2.written := by decide
theorem main_arg8_nw3 : Cert.ReferenceIdeal.main_arg8 ∉ Cert.ReferenceIdeal.RefStage3.written := by decide
theorem main_arg8_nw4 : Cert.ReferenceIdeal.main_arg8 ∉ Cert.ReferenceIdeal.RefStage4.written := by decide
theorem main_arg8_nw5 : Cert.ReferenceIdeal.main_arg8 ∉ Cert.ReferenceIdeal.RefStage5.written := by decide
theorem main_arg8_nw6 : Cert.ReferenceIdeal.main_arg8 ∉ Cert.ReferenceIdeal.RefStage6.written := by decide
theorem main_arg9_nw0 : Cert.ReferenceIdeal.main_arg9 ∉ Cert.ReferenceIdeal.RefStage0.written := by decide
theorem main_arg9_nw1 : Cert.ReferenceIdeal.main_arg9 ∉ Cert.ReferenceIdeal.RefStage1.written := by decide
theorem main_arg9_nw2 : Cert.ReferenceIdeal.main_arg9 ∉ Cert.ReferenceIdeal.RefStage2.written := by decide
theorem main_arg9_nw3 : Cert.ReferenceIdeal.main_arg9 ∉ Cert.ReferenceIdeal.RefStage3.written := by decide
theorem main_arg9_nw4 : Cert.ReferenceIdeal.main_arg9 ∉ Cert.ReferenceIdeal.RefStage4.written := by decide
theorem main_arg9_nw5 : Cert.ReferenceIdeal.main_arg9 ∉ Cert.ReferenceIdeal.RefStage5.written := by decide
theorem main_arg9_nw6 : Cert.ReferenceIdeal.main_arg9 ∉ Cert.ReferenceIdeal.RefStage6.written := by decide
theorem main_arg10_nw0 : Cert.ReferenceIdeal.main_arg10 ∉ Cert.ReferenceIdeal.RefStage0.written := by decide
theorem main_arg10_nw1 : Cert.ReferenceIdeal.main_arg10 ∉ Cert.ReferenceIdeal.RefStage1.written := by decide
theorem main_arg10_nw2 : Cert.ReferenceIdeal.main_arg10 ∉ Cert.ReferenceIdeal.RefStage2.written := by decide
theorem main_arg10_nw3 : Cert.ReferenceIdeal.main_arg10 ∉ Cert.ReferenceIdeal.RefStage3.written := by decide
theorem main_arg10_nw4 : Cert.ReferenceIdeal.main_arg10 ∉ Cert.ReferenceIdeal.RefStage4.written := by decide
theorem main_arg10_nw5 : Cert.ReferenceIdeal.main_arg10 ∉ Cert.ReferenceIdeal.RefStage5.written := by decide
theorem main_arg10_nw6 : Cert.ReferenceIdeal.main_arg10 ∉ Cert.ReferenceIdeal.RefStage6.written := by decide
theorem main_arg11_nw0 : Cert.ReferenceIdeal.main_arg11 ∉ Cert.ReferenceIdeal.RefStage0.written := by decide
theorem main_arg11_nw1 : Cert.ReferenceIdeal.main_arg11 ∉ Cert.ReferenceIdeal.RefStage1.written := by decide
theorem main_arg11_nw2 : Cert.ReferenceIdeal.main_arg11 ∉ Cert.ReferenceIdeal.RefStage2.written := by decide
theorem main_arg11_nw3 : Cert.ReferenceIdeal.main_arg11 ∉ Cert.ReferenceIdeal.RefStage3.written := by decide
theorem main_arg11_nw4 : Cert.ReferenceIdeal.main_arg11 ∉ Cert.ReferenceIdeal.RefStage4.written := by decide
theorem main_arg11_nw5 : Cert.ReferenceIdeal.main_arg11 ∉ Cert.ReferenceIdeal.RefStage5.written := by decide
theorem main_arg11_nw6 : Cert.ReferenceIdeal.main_arg11 ∉ Cert.ReferenceIdeal.RefStage6.written := by decide
theorem main_v23_nw1 : Cert.ReferenceIdeal.main_v23 ∉ Cert.ReferenceIdeal.RefStage1.written := by decide
theorem main_v23_nw2 : Cert.ReferenceIdeal.main_v23 ∉ Cert.ReferenceIdeal.RefStage2.written := by decide
theorem main_v23_nw3 : Cert.ReferenceIdeal.main_v23 ∉ Cert.ReferenceIdeal.RefStage3.written := by decide
theorem main_v23_nw4 : Cert.ReferenceIdeal.main_v23 ∉ Cert.ReferenceIdeal.RefStage4.written := by decide
theorem main_v23_nw5 : Cert.ReferenceIdeal.main_v23 ∉ Cert.ReferenceIdeal.RefStage5.written := by decide
theorem main_v172_nw4 : Cert.ReferenceIdeal.main_v172 ∉ Cert.ReferenceIdeal.RefStage4.written := by decide

theorem keep1 (c : Dev Cert.ReferenceIdeal.nD) {r : Ref Cert.ReferenceIdeal.sig .tc} (h0 : r ∉ Cert.ReferenceIdeal.RefStage0.written) :
    U1 m' c (Proc.devRef .tc r) = U0 m' c (Proc.devRef .tc r) :=
  Cert.ReferenceIdeal.RefStage0.keep (U0 m' c) h0
theorem keep2 (c : Dev Cert.ReferenceIdeal.nD) {r : Ref Cert.ReferenceIdeal.sig .tc} (h0 : r ∉ Cert.ReferenceIdeal.RefStage0.written) (h1 : r ∉ Cert.ReferenceIdeal.RefStage1.written) :
    U2 m' c (Proc.devRef .tc r) = U0 m' c (Proc.devRef .tc r) :=
  (Cert.ReferenceIdeal.RefStage1.keep (U1 m' c) h1).trans (keep1 m' c h0)
theorem keep3 (c : Dev Cert.ReferenceIdeal.nD) {r : Ref Cert.ReferenceIdeal.sig .tc} (h0 : r ∉ Cert.ReferenceIdeal.RefStage0.written) (h1 : r ∉ Cert.ReferenceIdeal.RefStage1.written) (h2 : r ∉ Cert.ReferenceIdeal.RefStage2.written) :
    U3 m' c (Proc.devRef .tc r) = U0 m' c (Proc.devRef .tc r) :=
  (Cert.ReferenceIdeal.RefStage2.keep (U2 m' c) h2).trans (keep2 m' c h0 h1)
theorem keep4 (c : Dev Cert.ReferenceIdeal.nD) {r : Ref Cert.ReferenceIdeal.sig .tc} (h0 : r ∉ Cert.ReferenceIdeal.RefStage0.written) (h1 : r ∉ Cert.ReferenceIdeal.RefStage1.written) (h2 : r ∉ Cert.ReferenceIdeal.RefStage2.written) (h3 : r ∉ Cert.ReferenceIdeal.RefStage3.written) :
    U4 m' c (Proc.devRef .tc r) = U0 m' c (Proc.devRef .tc r) :=
  (Cert.ReferenceIdeal.RefStage3.keep (U3 m' c) h3).trans (keep3 m' c h0 h1 h2)
theorem keep5 (c : Dev Cert.ReferenceIdeal.nD) {r : Ref Cert.ReferenceIdeal.sig .tc} (h0 : r ∉ Cert.ReferenceIdeal.RefStage0.written) (h1 : r ∉ Cert.ReferenceIdeal.RefStage1.written) (h2 : r ∉ Cert.ReferenceIdeal.RefStage2.written) (h3 : r ∉ Cert.ReferenceIdeal.RefStage3.written) (h4 : r ∉ Cert.ReferenceIdeal.RefStage4.written) :
    U5 m' c (Proc.devRef .tc r) = U0 m' c (Proc.devRef .tc r) :=
  (Cert.ReferenceIdeal.RefStage4.keep (U4 m' c) h4).trans (keep4 m' c h0 h1 h2 h3)
theorem keep6 (c : Dev Cert.ReferenceIdeal.nD) {r : Ref Cert.ReferenceIdeal.sig .tc} (h0 : r ∉ Cert.ReferenceIdeal.RefStage0.written) (h1 : r ∉ Cert.ReferenceIdeal.RefStage1.written) (h2 : r ∉ Cert.ReferenceIdeal.RefStage2.written) (h3 : r ∉ Cert.ReferenceIdeal.RefStage3.written) (h4 : r ∉ Cert.ReferenceIdeal.RefStage4.written) (h5 : r ∉ Cert.ReferenceIdeal.RefStage5.written) :
    U6 m' c (Proc.devRef .tc r) = U0 m' c (Proc.devRef .tc r) :=
  (Cert.ReferenceIdeal.RefStage5.keep (U5 m' c) h5).trans (keep5 m' c h0 h1 h2 h3 h4)
theorem keep7 (c : Dev Cert.ReferenceIdeal.nD) {r : Ref Cert.ReferenceIdeal.sig .tc} (h0 : r ∉ Cert.ReferenceIdeal.RefStage0.written) (h1 : r ∉ Cert.ReferenceIdeal.RefStage1.written) (h2 : r ∉ Cert.ReferenceIdeal.RefStage2.written) (h3 : r ∉ Cert.ReferenceIdeal.RefStage3.written) (h4 : r ∉ Cert.ReferenceIdeal.RefStage4.written) (h5 : r ∉ Cert.ReferenceIdeal.RefStage5.written) (h6 : r ∉ Cert.ReferenceIdeal.RefStage6.written) :
    U7 m' c (Proc.devRef .tc r) = U0 m' c (Proc.devRef .tc r) :=
  (Cert.ReferenceIdeal.RefStage6.keep (U6 m' c) h6).trans (keep6 m' c h0 h1 h2 h3 h4 h5)

/-! ## The arguments, read back to the launch memory -/

theorem arg1_at1 (c : Dev Cert.ReferenceIdeal.nD) : U1 m' c (Proc.devRef .tc Cert.ReferenceIdeal.main_arg1) = U0 m' c (Proc.devRef .tc Cert.ReferenceIdeal.main_arg1) :=
  keep1 m' c main_arg1_nw0
theorem arg1_at2 (c : Dev Cert.ReferenceIdeal.nD) : U2 m' c (Proc.devRef .tc Cert.ReferenceIdeal.main_arg1) = U0 m' c (Proc.devRef .tc Cert.ReferenceIdeal.main_arg1) :=
  keep2 m' c main_arg1_nw0 main_arg1_nw1
theorem arg1_at3 (c : Dev Cert.ReferenceIdeal.nD) : U3 m' c (Proc.devRef .tc Cert.ReferenceIdeal.main_arg1) = U0 m' c (Proc.devRef .tc Cert.ReferenceIdeal.main_arg1) :=
  keep3 m' c main_arg1_nw0 main_arg1_nw1 main_arg1_nw2
theorem arg1_at4 (c : Dev Cert.ReferenceIdeal.nD) : U4 m' c (Proc.devRef .tc Cert.ReferenceIdeal.main_arg1) = U0 m' c (Proc.devRef .tc Cert.ReferenceIdeal.main_arg1) :=
  keep4 m' c main_arg1_nw0 main_arg1_nw1 main_arg1_nw2 main_arg1_nw3
theorem arg1_at5 (c : Dev Cert.ReferenceIdeal.nD) : U5 m' c (Proc.devRef .tc Cert.ReferenceIdeal.main_arg1) = U0 m' c (Proc.devRef .tc Cert.ReferenceIdeal.main_arg1) :=
  keep5 m' c main_arg1_nw0 main_arg1_nw1 main_arg1_nw2 main_arg1_nw3 main_arg1_nw4
theorem arg1_at6 (c : Dev Cert.ReferenceIdeal.nD) : U6 m' c (Proc.devRef .tc Cert.ReferenceIdeal.main_arg1) = U0 m' c (Proc.devRef .tc Cert.ReferenceIdeal.main_arg1) :=
  keep6 m' c main_arg1_nw0 main_arg1_nw1 main_arg1_nw2 main_arg1_nw3 main_arg1_nw4 main_arg1_nw5
theorem arg1_at7 (c : Dev Cert.ReferenceIdeal.nD) : U7 m' c (Proc.devRef .tc Cert.ReferenceIdeal.main_arg1) = U0 m' c (Proc.devRef .tc Cert.ReferenceIdeal.main_arg1) :=
  keep7 m' c main_arg1_nw0 main_arg1_nw1 main_arg1_nw2 main_arg1_nw3 main_arg1_nw4 main_arg1_nw5 main_arg1_nw6
theorem arg2_at1 (c : Dev Cert.ReferenceIdeal.nD) : U1 m' c (Proc.devRef .tc Cert.ReferenceIdeal.main_arg2) = U0 m' c (Proc.devRef .tc Cert.ReferenceIdeal.main_arg2) :=
  keep1 m' c main_arg2_nw0
theorem arg2_at2 (c : Dev Cert.ReferenceIdeal.nD) : U2 m' c (Proc.devRef .tc Cert.ReferenceIdeal.main_arg2) = U0 m' c (Proc.devRef .tc Cert.ReferenceIdeal.main_arg2) :=
  keep2 m' c main_arg2_nw0 main_arg2_nw1
theorem arg2_at3 (c : Dev Cert.ReferenceIdeal.nD) : U3 m' c (Proc.devRef .tc Cert.ReferenceIdeal.main_arg2) = U0 m' c (Proc.devRef .tc Cert.ReferenceIdeal.main_arg2) :=
  keep3 m' c main_arg2_nw0 main_arg2_nw1 main_arg2_nw2
theorem arg2_at4 (c : Dev Cert.ReferenceIdeal.nD) : U4 m' c (Proc.devRef .tc Cert.ReferenceIdeal.main_arg2) = U0 m' c (Proc.devRef .tc Cert.ReferenceIdeal.main_arg2) :=
  keep4 m' c main_arg2_nw0 main_arg2_nw1 main_arg2_nw2 main_arg2_nw3
theorem arg2_at5 (c : Dev Cert.ReferenceIdeal.nD) : U5 m' c (Proc.devRef .tc Cert.ReferenceIdeal.main_arg2) = U0 m' c (Proc.devRef .tc Cert.ReferenceIdeal.main_arg2) :=
  keep5 m' c main_arg2_nw0 main_arg2_nw1 main_arg2_nw2 main_arg2_nw3 main_arg2_nw4
theorem arg2_at6 (c : Dev Cert.ReferenceIdeal.nD) : U6 m' c (Proc.devRef .tc Cert.ReferenceIdeal.main_arg2) = U0 m' c (Proc.devRef .tc Cert.ReferenceIdeal.main_arg2) :=
  keep6 m' c main_arg2_nw0 main_arg2_nw1 main_arg2_nw2 main_arg2_nw3 main_arg2_nw4 main_arg2_nw5
theorem arg2_at7 (c : Dev Cert.ReferenceIdeal.nD) : U7 m' c (Proc.devRef .tc Cert.ReferenceIdeal.main_arg2) = U0 m' c (Proc.devRef .tc Cert.ReferenceIdeal.main_arg2) :=
  keep7 m' c main_arg2_nw0 main_arg2_nw1 main_arg2_nw2 main_arg2_nw3 main_arg2_nw4 main_arg2_nw5 main_arg2_nw6
theorem arg8_at1 (c : Dev Cert.ReferenceIdeal.nD) : U1 m' c (Proc.devRef .tc Cert.ReferenceIdeal.main_arg8) = U0 m' c (Proc.devRef .tc Cert.ReferenceIdeal.main_arg8) :=
  keep1 m' c main_arg8_nw0
theorem arg8_at2 (c : Dev Cert.ReferenceIdeal.nD) : U2 m' c (Proc.devRef .tc Cert.ReferenceIdeal.main_arg8) = U0 m' c (Proc.devRef .tc Cert.ReferenceIdeal.main_arg8) :=
  keep2 m' c main_arg8_nw0 main_arg8_nw1
theorem arg8_at3 (c : Dev Cert.ReferenceIdeal.nD) : U3 m' c (Proc.devRef .tc Cert.ReferenceIdeal.main_arg8) = U0 m' c (Proc.devRef .tc Cert.ReferenceIdeal.main_arg8) :=
  keep3 m' c main_arg8_nw0 main_arg8_nw1 main_arg8_nw2
theorem arg8_at4 (c : Dev Cert.ReferenceIdeal.nD) : U4 m' c (Proc.devRef .tc Cert.ReferenceIdeal.main_arg8) = U0 m' c (Proc.devRef .tc Cert.ReferenceIdeal.main_arg8) :=
  keep4 m' c main_arg8_nw0 main_arg8_nw1 main_arg8_nw2 main_arg8_nw3
theorem arg8_at5 (c : Dev Cert.ReferenceIdeal.nD) : U5 m' c (Proc.devRef .tc Cert.ReferenceIdeal.main_arg8) = U0 m' c (Proc.devRef .tc Cert.ReferenceIdeal.main_arg8) :=
  keep5 m' c main_arg8_nw0 main_arg8_nw1 main_arg8_nw2 main_arg8_nw3 main_arg8_nw4
theorem arg8_at6 (c : Dev Cert.ReferenceIdeal.nD) : U6 m' c (Proc.devRef .tc Cert.ReferenceIdeal.main_arg8) = U0 m' c (Proc.devRef .tc Cert.ReferenceIdeal.main_arg8) :=
  keep6 m' c main_arg8_nw0 main_arg8_nw1 main_arg8_nw2 main_arg8_nw3 main_arg8_nw4 main_arg8_nw5
theorem arg8_at7 (c : Dev Cert.ReferenceIdeal.nD) : U7 m' c (Proc.devRef .tc Cert.ReferenceIdeal.main_arg8) = U0 m' c (Proc.devRef .tc Cert.ReferenceIdeal.main_arg8) :=
  keep7 m' c main_arg8_nw0 main_arg8_nw1 main_arg8_nw2 main_arg8_nw3 main_arg8_nw4 main_arg8_nw5 main_arg8_nw6
theorem arg9_at1 (c : Dev Cert.ReferenceIdeal.nD) : U1 m' c (Proc.devRef .tc Cert.ReferenceIdeal.main_arg9) = U0 m' c (Proc.devRef .tc Cert.ReferenceIdeal.main_arg9) :=
  keep1 m' c main_arg9_nw0
theorem arg9_at2 (c : Dev Cert.ReferenceIdeal.nD) : U2 m' c (Proc.devRef .tc Cert.ReferenceIdeal.main_arg9) = U0 m' c (Proc.devRef .tc Cert.ReferenceIdeal.main_arg9) :=
  keep2 m' c main_arg9_nw0 main_arg9_nw1
theorem arg9_at3 (c : Dev Cert.ReferenceIdeal.nD) : U3 m' c (Proc.devRef .tc Cert.ReferenceIdeal.main_arg9) = U0 m' c (Proc.devRef .tc Cert.ReferenceIdeal.main_arg9) :=
  keep3 m' c main_arg9_nw0 main_arg9_nw1 main_arg9_nw2
theorem arg9_at4 (c : Dev Cert.ReferenceIdeal.nD) : U4 m' c (Proc.devRef .tc Cert.ReferenceIdeal.main_arg9) = U0 m' c (Proc.devRef .tc Cert.ReferenceIdeal.main_arg9) :=
  keep4 m' c main_arg9_nw0 main_arg9_nw1 main_arg9_nw2 main_arg9_nw3
theorem arg9_at5 (c : Dev Cert.ReferenceIdeal.nD) : U5 m' c (Proc.devRef .tc Cert.ReferenceIdeal.main_arg9) = U0 m' c (Proc.devRef .tc Cert.ReferenceIdeal.main_arg9) :=
  keep5 m' c main_arg9_nw0 main_arg9_nw1 main_arg9_nw2 main_arg9_nw3 main_arg9_nw4
theorem arg9_at6 (c : Dev Cert.ReferenceIdeal.nD) : U6 m' c (Proc.devRef .tc Cert.ReferenceIdeal.main_arg9) = U0 m' c (Proc.devRef .tc Cert.ReferenceIdeal.main_arg9) :=
  keep6 m' c main_arg9_nw0 main_arg9_nw1 main_arg9_nw2 main_arg9_nw3 main_arg9_nw4 main_arg9_nw5
theorem arg9_at7 (c : Dev Cert.ReferenceIdeal.nD) : U7 m' c (Proc.devRef .tc Cert.ReferenceIdeal.main_arg9) = U0 m' c (Proc.devRef .tc Cert.ReferenceIdeal.main_arg9) :=
  keep7 m' c main_arg9_nw0 main_arg9_nw1 main_arg9_nw2 main_arg9_nw3 main_arg9_nw4 main_arg9_nw5 main_arg9_nw6
theorem arg10_at1 (c : Dev Cert.ReferenceIdeal.nD) : U1 m' c (Proc.devRef .tc Cert.ReferenceIdeal.main_arg10) = U0 m' c (Proc.devRef .tc Cert.ReferenceIdeal.main_arg10) :=
  keep1 m' c main_arg10_nw0
theorem arg10_at2 (c : Dev Cert.ReferenceIdeal.nD) : U2 m' c (Proc.devRef .tc Cert.ReferenceIdeal.main_arg10) = U0 m' c (Proc.devRef .tc Cert.ReferenceIdeal.main_arg10) :=
  keep2 m' c main_arg10_nw0 main_arg10_nw1
theorem arg10_at3 (c : Dev Cert.ReferenceIdeal.nD) : U3 m' c (Proc.devRef .tc Cert.ReferenceIdeal.main_arg10) = U0 m' c (Proc.devRef .tc Cert.ReferenceIdeal.main_arg10) :=
  keep3 m' c main_arg10_nw0 main_arg10_nw1 main_arg10_nw2
theorem arg10_at4 (c : Dev Cert.ReferenceIdeal.nD) : U4 m' c (Proc.devRef .tc Cert.ReferenceIdeal.main_arg10) = U0 m' c (Proc.devRef .tc Cert.ReferenceIdeal.main_arg10) :=
  keep4 m' c main_arg10_nw0 main_arg10_nw1 main_arg10_nw2 main_arg10_nw3
theorem arg10_at5 (c : Dev Cert.ReferenceIdeal.nD) : U5 m' c (Proc.devRef .tc Cert.ReferenceIdeal.main_arg10) = U0 m' c (Proc.devRef .tc Cert.ReferenceIdeal.main_arg10) :=
  keep5 m' c main_arg10_nw0 main_arg10_nw1 main_arg10_nw2 main_arg10_nw3 main_arg10_nw4
theorem arg10_at6 (c : Dev Cert.ReferenceIdeal.nD) : U6 m' c (Proc.devRef .tc Cert.ReferenceIdeal.main_arg10) = U0 m' c (Proc.devRef .tc Cert.ReferenceIdeal.main_arg10) :=
  keep6 m' c main_arg10_nw0 main_arg10_nw1 main_arg10_nw2 main_arg10_nw3 main_arg10_nw4 main_arg10_nw5
theorem arg10_at7 (c : Dev Cert.ReferenceIdeal.nD) : U7 m' c (Proc.devRef .tc Cert.ReferenceIdeal.main_arg10) = U0 m' c (Proc.devRef .tc Cert.ReferenceIdeal.main_arg10) :=
  keep7 m' c main_arg10_nw0 main_arg10_nw1 main_arg10_nw2 main_arg10_nw3 main_arg10_nw4 main_arg10_nw5 main_arg10_nw6
theorem arg11_at1 (c : Dev Cert.ReferenceIdeal.nD) : U1 m' c (Proc.devRef .tc Cert.ReferenceIdeal.main_arg11) = U0 m' c (Proc.devRef .tc Cert.ReferenceIdeal.main_arg11) :=
  keep1 m' c main_arg11_nw0
theorem arg11_at2 (c : Dev Cert.ReferenceIdeal.nD) : U2 m' c (Proc.devRef .tc Cert.ReferenceIdeal.main_arg11) = U0 m' c (Proc.devRef .tc Cert.ReferenceIdeal.main_arg11) :=
  keep2 m' c main_arg11_nw0 main_arg11_nw1
theorem arg11_at3 (c : Dev Cert.ReferenceIdeal.nD) : U3 m' c (Proc.devRef .tc Cert.ReferenceIdeal.main_arg11) = U0 m' c (Proc.devRef .tc Cert.ReferenceIdeal.main_arg11) :=
  keep3 m' c main_arg11_nw0 main_arg11_nw1 main_arg11_nw2
theorem arg11_at4 (c : Dev Cert.ReferenceIdeal.nD) : U4 m' c (Proc.devRef .tc Cert.ReferenceIdeal.main_arg11) = U0 m' c (Proc.devRef .tc Cert.ReferenceIdeal.main_arg11) :=
  keep4 m' c main_arg11_nw0 main_arg11_nw1 main_arg11_nw2 main_arg11_nw3
theorem arg11_at5 (c : Dev Cert.ReferenceIdeal.nD) : U5 m' c (Proc.devRef .tc Cert.ReferenceIdeal.main_arg11) = U0 m' c (Proc.devRef .tc Cert.ReferenceIdeal.main_arg11) :=
  keep5 m' c main_arg11_nw0 main_arg11_nw1 main_arg11_nw2 main_arg11_nw3 main_arg11_nw4
theorem arg11_at6 (c : Dev Cert.ReferenceIdeal.nD) : U6 m' c (Proc.devRef .tc Cert.ReferenceIdeal.main_arg11) = U0 m' c (Proc.devRef .tc Cert.ReferenceIdeal.main_arg11) :=
  keep6 m' c main_arg11_nw0 main_arg11_nw1 main_arg11_nw2 main_arg11_nw3 main_arg11_nw4 main_arg11_nw5
theorem arg11_at7 (c : Dev Cert.ReferenceIdeal.nD) : U7 m' c (Proc.devRef .tc Cert.ReferenceIdeal.main_arg11) = U0 m' c (Proc.devRef .tc Cert.ReferenceIdeal.main_arg11) :=
  keep7 m' c main_arg11_nw0 main_arg11_nw1 main_arg11_nw2 main_arg11_nw3 main_arg11_nw4 main_arg11_nw5 main_arg11_nw6

/-! ## The first block: the hops' sources and the block's input, the embedding's array -/

theorem src1 (c : Dev Cert.ReferenceIdeal.nD) : Cert.ReferenceIdeal.RefChain1.src (U0 m' c) = rOut0 m' c := (Cert.ReferenceIdeal.RefStage0.read_v23 (U0 m' c)).symm
theorem bin1 (c : Dev Cert.ReferenceIdeal.nD) : Cert.ReferenceIdeal.RefChain1.bin (U0 m' c) = rOut0 m' c := (Cert.ReferenceIdeal.RefStage0.read_v23 (U0 m' c)).symm
theorem src2 (c : Dev Cert.ReferenceIdeal.nD) : Cert.ReferenceIdeal.RefChain2.src (U1 m' c) = rOut1 m' c := (Cert.ReferenceIdeal.RefStage1.read_v65 (U1 m' c)).symm
theorem bin2 (c : Dev Cert.ReferenceIdeal.nD) : Cert.ReferenceIdeal.RefChain2.bin (U1 m' c) = rOut0 m' c := rfl
theorem src3 (c : Dev Cert.ReferenceIdeal.nD) : Cert.ReferenceIdeal.RefChain3.src (U2 m' c) = rOut2 m' c := (Cert.ReferenceIdeal.RefStage2.read_v107 (U2 m' c)).symm
theorem bin3 (c : Dev Cert.ReferenceIdeal.nD) : Cert.ReferenceIdeal.RefChain3.bin (U2 m' c) = rOut0 m' c := Cert.ReferenceIdeal.RefStage1.keep (U1 m' c) main_v23_nw1

/-! ## The second block: its input is the first projection's array plus the embedding's -/

/-- The embedding's array is still in its buffer when the second block's input is formed. -/
theorem v23_at3 (c : Dev Cert.ReferenceIdeal.nD) : U3 m' c (Proc.devRef .tc Cert.ReferenceIdeal.main_v23) = rOut0 m' c :=
  (Cert.ReferenceIdeal.RefStage2.keep (U2 m' c) main_v23_nw2).trans (Cert.ReferenceIdeal.RefStage1.keep (U1 m' c) main_v23_nw1)

/-- The second block's input. -/
theorem blockIn1 (c : Dev Cert.ReferenceIdeal.nD) :
    Cert.ReferenceIdeal.RefStage3.t_v172 (U3 m' c) = addf (F := Ideal) (s := Cert.ReferenceIdeal.S100000x128) (φ := .f32) (rOut4 m' c) (rOut0 m' c) :=
  congrArg₂ (fun a b => addf (F := Ideal) (s := Cert.ReferenceIdeal.S100000x128) (φ := .f32) a b) (Cert.ReferenceIdeal.RefStage3.read_v171 (U3 m' c)).symm (v23_at3 m' c)

theorem src5 (c : Dev Cert.ReferenceIdeal.nD) : Cert.ReferenceIdeal.RefChain5.src (U3 m' c) = addf (F := Ideal) (s := Cert.ReferenceIdeal.S100000x128) (φ := .f32) (rOut4 m' c) (rOut0 m' c) := blockIn1 m' c
theorem bin5 (c : Dev Cert.ReferenceIdeal.nD) : Cert.ReferenceIdeal.RefChain5.bin (U3 m' c) = addf (F := Ideal) (s := Cert.ReferenceIdeal.S100000x128) (φ := .f32) (rOut4 m' c) (rOut0 m' c) := blockIn1 m' c
theorem src6 (c : Dev Cert.ReferenceIdeal.nD) : Cert.ReferenceIdeal.RefChain6.src (U4 m' c) = rOut5 m' c := (Cert.ReferenceIdeal.RefStage4.read_v214 (U4 m' c)).symm
theorem bin6 (c : Dev Cert.ReferenceIdeal.nD) : Cert.ReferenceIdeal.RefChain6.bin (U4 m' c) = addf (F := Ideal) (s := Cert.ReferenceIdeal.S100000x128) (φ := .f32) (rOut4 m' c) (rOut0 m' c) :=
  (Cert.ReferenceIdeal.RefStage3.read_v172 (U3 m' c)).trans (blockIn1 m' c)
theorem src7 (c : Dev Cert.ReferenceIdeal.nD) : Cert.ReferenceIdeal.RefChain7.src (U5 m' c) = rOut6 m' c := rfl
theorem bin7 (c : Dev Cert.ReferenceIdeal.nD) : Cert.ReferenceIdeal.RefChain7.bin (U5 m' c) = addf (F := Ideal) (s := Cert.ReferenceIdeal.S100000x128) (φ := .f32) (rOut4 m' c) (rOut0 m' c) :=
  (Cert.ReferenceIdeal.RefStage4.keep (U4 m' c) main_v172_nw4).trans (bin6 m' c)

/-! ## The third block: its input is the second projection's array plus the embedding's -/

/-- The embedding's array is still in its buffer when the third block's input is formed. -/
theorem v23_at6 (c : Dev Cert.ReferenceIdeal.nD) : U6 m' c (Proc.devRef .tc Cert.ReferenceIdeal.main_v23) = rOut0 m' c :=
  (Cert.ReferenceIdeal.RefStage5.keep (U5 m' c) main_v23_nw5).trans ((Cert.ReferenceIdeal.RefStage4.keep (U4 m' c) main_v23_nw4).trans
    ((Cert.ReferenceIdeal.RefStage3.keep (U3 m' c) main_v23_nw3).trans (v23_at3 m' c)))

/-- The third block's input. -/
theorem blockIn2 (c : Dev Cert.ReferenceIdeal.nD) :
    Cert.ReferenceIdeal.RefStage6.t_v321 (U6 m' c) = addf (F := Ideal) (s := Cert.ReferenceIdeal.S100000x128) (φ := .f32) (rOut8 m' c) (rOut0 m' c) :=
  congrArg₂ (fun a b => addf (F := Ideal) (s := Cert.ReferenceIdeal.S100000x128) (φ := .f32) a b) (Cert.ReferenceIdeal.RefStage6.read_v320 (U6 m' c)).symm (v23_at6 m' c)

theorem src9 (c : Dev Cert.ReferenceIdeal.nD) : Cert.ReferenceIdeal.RefChain9.src (U6 m' c) = addf (F := Ideal) (s := Cert.ReferenceIdeal.S100000x128) (φ := .f32) (rOut8 m' c) (rOut0 m' c) := blockIn2 m' c
theorem bin9 (c : Dev Cert.ReferenceIdeal.nD) : Cert.ReferenceIdeal.RefChain9.bin (U6 m' c) = addf (F := Ideal) (s := Cert.ReferenceIdeal.S100000x128) (φ := .f32) (rOut8 m' c) (rOut0 m' c) := blockIn2 m' c
theorem src10 (c : Dev Cert.ReferenceIdeal.nD) : Cert.ReferenceIdeal.RefChain10.src (U7 m' c) = rOut9 m' c := (Cert.ReferenceIdeal.RefStage7.read_v363 (U7 m' c)).symm
theorem bin10 (c : Dev Cert.ReferenceIdeal.nD) : Cert.ReferenceIdeal.RefChain10.bin (U7 m' c) = addf (F := Ideal) (s := Cert.ReferenceIdeal.S100000x128) (φ := .f32) (rOut8 m' c) (rOut0 m' c) :=
  (Cert.ReferenceIdeal.RefStage6.read_v321 (U6 m' c)).trans (blockIn2 m' c)
theorem src11 (c : Dev Cert.ReferenceIdeal.nD) : Cert.ReferenceIdeal.RefChain11.src (U7 m' c) = rOut10 m' c := (Cert.ReferenceIdeal.RefStage7.read_v405 (U7 m' c)).symm
theorem bin11 (c : Dev Cert.ReferenceIdeal.nD) : Cert.ReferenceIdeal.RefChain11.bin (U7 m' c) = addf (F := Ideal) (s := Cert.ReferenceIdeal.S100000x128) (φ := .f32) (rOut8 m' c) (rOut0 m' c) :=
  (Cert.ReferenceIdeal.RefStage6.read_v321 (U6 m' c)).trans (blockIn2 m' c)

end Cert.RefSide

end
-- ==== Proof.HopJoin.lean ====
/-
  The join of a hop stage, proved once. Two arrays of 100000 rows and 128 columns are each, entry by entry, the batch
  normalisation of a linear stage by its own column statistics with a scale and a shift; one takes the variance as the
  mean of squares less the squared mean, the other as the mean of the squared deviations. If the two linear stages are one
  array of real numbers, and the scales and shifts agree column by column and are real, then the two normalised arrays are
  equal, entry by entry, and every entry is a real number: on real data the two variances are one number.
-/
import proofs.«414479_j7705171329025_1_alg».proof.Proof.StageSpec
import proofs.«414479_j7705171329025_1_alg».proof.Proof.StageReal

noncomputable section

namespace Cert.HopJoin

open Cert.RealSpec (IsReal)
open Idealize.ShloMosaic Idealize.ShloMosaic.ValueIdx

/-- The row count, as its f32 word. -/
abbrev N : EReal := Ideal.ofBits .f32 0x47C35000#32

/-- THE JOIN: equal, and real. -/
theorem join (kOut rOut : (⟨2, ![100000, 128]⟩ : Shape).Idx → EReal)
    (yK yR : Fin 100000 → Fin 128 → EReal) (gK βK gR βR : Fin 128 → EReal)
    (hk : ∀ r q, kOut (ix2 r q)
      = StageSpec.norm (yK r q) (StageReal.colMean yK N q) (StageReal.varSumSq yK N q) (gK q) (βK q))
    (hr : ∀ r q, rOut (ix2 r q)
      = StageSpec.norm (yR r q) (StageReal.colMean yR N q) (StageReal.varDev yR N q) (gR q) (βR q))
    (ey : yR = yK) (eg : ∀ q, gR q = gK q) (eβ : ∀ q, βR q = βK q)
    (hy : ∀ r q, IsReal (yK r q)) (hg : ∀ q, IsReal (gK q)) (hβ : ∀ q, IsReal (βK q)) :
    (∀ i, kOut i = rOut i) ∧ (∀ i, IsReal (kOut i)) := by
  refine ⟨fun i => ?_, fun i => ?_⟩
  · obtain ⟨r, q, rfl⟩ : ∃ (r : Fin 100000) (q : Fin 128), i = ix2 r q := ⟨i 0, i 1, eq_ix2 i⟩
    rw [hk r q, hr r q, ey, eg q, eβ q]
    exact StageReal.norm_varSumSq_eq_norm_varDev_100000 yK hy q (yK r q) (gK q) (βK q)
  · obtain ⟨r, q, rfl⟩ : ∃ (r : Fin 100000) (q : Fin 128), i = ix2 r q := ⟨i 0, i 1, eq_ix2 i⟩
    rw [hk r q]
    exact StageReal.norm_varSumSq_isReal_100000 yK hy q (hy r q) (hg q) (hβ q)

end Cert.HopJoin

end
-- ==== Proof.Chain2.lean ====
/-
  Stage 2 of the chain: the second message-passing hop of the first block. Both programs pool the previous hop's output along
  the edges, add the block's input (the embedding's output), multiply by the hop's square of the stacked weights, add the
  hop's bias and normalise the result by its batch statistics with the hop's scale and shift; there is no clipping after a
  hop. The two programs' previous hop outputs are one array of real numbers, and so are their embedding outputs (the
  invariants of the earlier stages); the edge lists and the parameters are the same in the two memories.
  The neighbour sum, the weight square and the bias row are written with the same words in both programs, so the two linear
  stages are one array, of real numbers. The kernel takes the variance as the mean of squares less the squared mean, the
  reference as the mean of the squared deviations: on real data one number. So the two normalised arrays are equal, entry
  by entry, and every entry is a real number.
-/
import proofs.«414479_j7705171329025_1_alg».proof.Proof.KernelChain2
import proofs.«414479_j7705171329025_1_alg».proof.Proof.RefChain2
import proofs.«414479_j7705171329025_1_alg».proof.Proof.ChainDefs
import proofs.«414479_j7705171329025_1_alg».proof.Proof.Chain0
import proofs.«414479_j7705171329025_1_alg».proof.Proof.RefSide
import proofs.«414479_j7705171329025_1_alg».proof.Proof.HopJoin
import proofs.«414479_j7705171329025_1_alg».proof.Proof.Seam
import proofs.«414479_j7705171329025_1_alg».proof.Proof.PreReal

noncomputable section

namespace Cert.Chain2

open Cert.RealSpec (IsReal)
open Cert.ChainDefs
open Idealize.ShloMosaic Idealize.ShloMosaic.TcCoe Idealize.ShloMosaic.StableHlo

variable [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The hop's row of a stacked parameter, read at column q, is the hop's vector of it at q: the row is the vector laid out
    as a row. -/
theorem row_eq_vec (p : Vec Ideal Cert.KernelIdeal.S3x128 .f32) (q : Fin 128) :
    Cert.KernelIdeal.HostStats5.rowOf (F := Ideal) p (ValueIdx.ix2 (0 : Fin 1) q)
      = Cert.ReferenceIdeal.RefKinds.refVec1 (F := Ideal) p (ValueIdx.ix1 q) :=
  ValueIdx.shapeCast_a_1a_apply _ _ (0 : Fin 1) q

/-- STAGE 2: the two hop outputs are equal, and every entry is a real number, given the same of the earlier stages'
    arrays this hop reads. -/
theorem inv2 (hpre : Cert.Pre_KernelIdeal m) (hag : Cert.Chain0.Agree m m') (c : Dev Cert.KernelIdeal.nD)
    (h1 : Inv1 m ρ m' c) (h0 : Inv0 m ρ m' c) : Inv2 m ρ m' c := by
  -- the reference's earlier arrays are the kernel's, by the invariants of the earlier stages
  have esrc : Cert.ReferenceIdeal.RefChain2.src (U1 m' c) = Cert.KernelChain2.prev m ρ c := (Cert.RefSide.src2 m' c).trans (funext h1.1).symm
  have ebin : Cert.ReferenceIdeal.RefChain2.bin (U1 m' c) = Cert.KernelChain2.inp m ρ c := (Cert.RefSide.bin2 m' c).trans (funext h0.1).symm
  -- the reference's edge lists and parameters are the kernel's: no list of operations writes them, and the two memories
  -- agree on the arguments
  have e1 : U1 m' c (Proc.devRef .tc Cert.ReferenceIdeal.main_arg1) = Cert.KernelChain2.src m c :=
    (Cert.RefSide.arg1_at1 m' c).trans (hag.arg1 c)
  have e2 : U1 m' c (Proc.devRef .tc Cert.ReferenceIdeal.main_arg2) = Cert.KernelChain2.dst m c :=
    (Cert.RefSide.arg2_at1 m' c).trans (hag.arg2 c)
  have e8 : U1 m' c (Proc.devRef .tc Cert.ReferenceIdeal.main_arg8) = Cert.KernelChain2.convW m c :=
    (Cert.RefSide.arg8_at1 m' c).trans (hag.arg8 c)
  have e9 : U1 m' c (Proc.devRef .tc Cert.ReferenceIdeal.main_arg9) = Cert.KernelChain2.convB m c :=
    (Cert.RefSide.arg9_at1 m' c).trans (hag.arg9 c)
  have e10 : U1 m' c (Proc.devRef .tc Cert.ReferenceIdeal.main_arg10) = Cert.KernelChain2.bnG m c :=
    (Cert.RefSide.arg10_at1 m' c).trans (hag.arg10 c)
  have e11 : U1 m' c (Proc.devRef .tc Cert.ReferenceIdeal.main_arg11) = Cert.KernelChain2.bnB m c :=
    (Cert.RefSide.arg11_at1 m' c).trans (hag.arg11 c)
  -- so the two linear stages are one array: the neighbour sum, the weight square and the bias row are the same words
  have ey : Cert.ReferenceIdeal.RefChain2.y (U1 m' c) = Cert.KernelChain2.y m ρ c := by
    funext r q
    show StageSpec.linAdd
        (Cert.ReferenceIdeal.RefKinds.refPooled (Cert.ReferenceIdeal.RefChain2.src (U1 m' c))
          (U1 m' c (Proc.devRef .tc Cert.ReferenceIdeal.main_arg1)) (U1 m' c (Proc.devRef .tc Cert.ReferenceIdeal.main_arg2)))
        (Cert.ReferenceIdeal.RefChain2.bin (U1 m' c))
        (Cert.ReferenceIdeal.RefKinds.refW1 (U1 m' c (Proc.devRef .tc Cert.ReferenceIdeal.main_arg8)))
        (Cert.ReferenceIdeal.RefKinds.refRow1 (U1 m' c (Proc.devRef .tc Cert.ReferenceIdeal.main_arg9))) r q = _
    rw [esrc, ebin, e1, e2, e8, e9]
    rfl
  -- the reference's scale and shift at column q are the kernel's rows' entries
  have eg : ∀ q : Fin 128, Cert.ReferenceIdeal.RefChain2.g (U1 m' c) (ValueIdx.ix1 q) = Cert.KernelChain2.g m c (ValueIdx.ix2 (0 : Fin 1) q) := fun q => by
    show Cert.ReferenceIdeal.RefKinds.refVec1 (U1 m' c (Proc.devRef .tc Cert.ReferenceIdeal.main_arg10)) (ValueIdx.ix1 q) = _
    rw [e10]
    exact (row_eq_vec (Cert.KernelChain2.bnG m c) q).symm
  have eβ : ∀ q : Fin 128, Cert.ReferenceIdeal.RefChain2.β (U1 m' c) (ValueIdx.ix1 q) = Cert.KernelChain2.β m c (ValueIdx.ix2 (0 : Fin 1) q) := fun q => by
    show Cert.ReferenceIdeal.RefKinds.refVec1 (U1 m' c (Proc.devRef .tc Cert.ReferenceIdeal.main_arg11)) (ValueIdx.ix1 q) = _
    rw [e11]
    exact (row_eq_vec (Cert.KernelChain2.bnB m c) q).symm
  -- the join: on real data the two variances are one number
  exact Cert.HopJoin.join (kOut2 m ρ c) (rOut2 m' c) (Cert.KernelChain2.y m ρ c) (Cert.ReferenceIdeal.RefChain2.y (U1 m' c))
    (fun q => Cert.KernelChain2.g m c (ValueIdx.ix2 (0 : Fin 1) q)) (fun q => Cert.KernelChain2.β m c (ValueIdx.ix2 (0 : Fin 1) q))
    (fun q => Cert.ReferenceIdeal.RefChain2.g (U1 m' c) (ValueIdx.ix1 q)) (fun q => Cert.ReferenceIdeal.RefChain2.β (U1 m' c) (ValueIdx.ix1 q))
    (Cert.KernelChain2.kernel_out_apply m ρ c) (Cert.ReferenceIdeal.RefChain2.out_apply (U1 m' c)) ey eg eβ
    (Cert.KernelChain2.y_isReal m ρ hpre c h1.2 h0.2) (Cert.KernelChain2.g_isReal m hpre c) (Cert.KernelChain2.β_isReal m hpre c)

end Cert.Chain2

end
-- ==== Proof.ValAdd2_6.lean ====
/-
  Region 6: a message-passing hop's linear stage with its column statistics. At each grid point the body adds a block of
  5000 rows of the pooled neighbours to the same rows of the block's input, multiplies by the hop's weight matrix, adds the
  bias row, stores that block, and adds the block's column sums and column sums of squares to two carried rows the first
  point has set to zero. As for the embedding, the blocks tile the rows and the carried rows end as sums over all rows.
-/
import proofs.«414479_j7705171329025_1_alg».proof.Proof.FrameKI.R6
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValAdd2_6

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. At the first point the two carried rows are first set to zero and then read
  back, so the running rows it leaves are the block's sums added to zero; at the other points they are added to what the
  rows held. -/

section Pieces

variable {F : FTy → Type} [FloatOps F]

theorem outA4 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond6_0 i)
    (x0 : Vec F S5000x128 .f32) (x1 : Vec F S5000x128 .f32) (x2 : Vec F S128x128 .f32) (x3 : Vec F S1x128 .f32) :
    out6_A_4 c i a1 h1 a2 h2 a3 h3 a4 h4 a5 h5 a6 h6 a7 h7 hc x0 x1 x2 x3 = k6_pay3 x0 x1 x2 x3 := by
  unfold out6_A_4
  rw [View.read_writes_eq_canon _ _ _ (cover6_A_4 c i a1 h1 a2 h2 a3 h3 a4 h4 a5 h5 a6 h6 a7 h7 hc x0 x1 x2 x3)]
  unfold kernelRun6_A
  dsimp only
  (try sl_unfold_words)
  rw [View.canon_unit_zero hz]
  simp only [View.readAt_eq_ld, h1.read_unread, h2.read_unread, h3.read_unread, h4.read_unread,
    View.ld_unit_zero (S := S5000x128) hz, View.ld_unit_zero (S := S128x128) hz, View.ld_unit_zero (S := S1x128) hz]

theorem outA5 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond6_0 i)
    (x0 : Vec F S5000x128 .f32) (x1 : Vec F S5000x128 .f32) (x2 : Vec F S128x128 .f32) (x3 : Vec F S1x128 .f32) :
    out6_A_5 c i a1 h1 a2 h2 a3 h3 a4 h4 a5 h5 a6 h6 a7 h7 hc x0 x1 x2 x3 = k6_pay4 x0 x1 x2 x3 (k6_pay1 (F := F)) := by
  unfold out6_A_5
  rw [View.read_writes_eq_canon _ _ _ (cover6_A_5 c i a1 h1 a2 h2 a3 h3 a4 h4 a5 h5 a6 h6 a7 h7 hc x0 x1 x2 x3)]
  unfold kernelRun6_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outA6 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond6_0 i)
    (x0 : Vec F S5000x128 .f32) (x1 : Vec F S5000x128 .f32) (x2 : Vec F S128x128 .f32) (x3 : Vec F S1x128 .f32) :
    out6_A_6 c i a1 h1 a2 h2 a3 h3 a4 h4 a5 h5 a6 h6 a7 h7 hc x0 x1 x2 x3 = k6_pay5 x0 x1 x2 x3 (k6_pay2 (F := F)) := by
  unfold out6_A_6
  rw [View.read_writes_eq_canon _ _ _ (cover6_A_6 c i a1 h1 a2 h2 a3 h3 a4 h4 a5 h5 a6 h6 a7 h7 hc x0 x1 x2 x3)]
  unfold kernelRun6_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outB4 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond6_0 i)
    (x0 : Vec F S5000x128 .f32) (x1 : Vec F S5000x128 .f32) (x2 : Vec F S128x128 .f32) (x3 : Vec F S1x128 .f32) (xoS xoQ : Vec F S1x128 .f32) :
    out6_B_4 c i a1 h1 a2 h2 a3 h3 a4 h4 a5 h5 a6 h6 a7 h7 hc x0 x1 x2 x3 xoS xoQ = k6_pay3 x0 x1 x2 x3 := by
  unfold out6_B_4
  rw [View.read_writes_eq_canon _ _ _ (cover6_B_4 c i a1 h1 a2 h2 a3 h3 a4 h4 a5 h5 a6 h6 a7 h7 hc x0 x1 x2 x3 xoS xoQ)]
  unfold kernelRun6_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB5 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond6_0 i)
    (x0 : Vec F S5000x128 .f32) (x1 : Vec F S5000x128 .f32) (x2 : Vec F S128x128 .f32) (x3 : Vec F S1x128 .f32) (xoS xoQ : Vec F S1x128 .f32) :
    out6_B_5 c i a1 h1 a2 h2 a3 h3 a4 h4 a5 h5 a6 h6 a7 h7 hc x0 x1 x2 x3 xoS xoQ = k6_pay4 x0 x1 x2 x3 xoS := by
  unfold out6_B_5
  rw [View.read_writes_eq_canon _ _ _ (cover6_B_5 c i a1 h1 a2 h2 a3 h3 a4 h4 a5 h5 a6 h6 a7 h7 hc x0 x1 x2 x3 xoS xoQ)]
  unfold kernelRun6_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB6 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond6_0 i)
    (x0 : Vec F S5000x128 .f32) (x1 : Vec F S5000x128 .f32) (x2 : Vec F S128x128 .f32) (x3 : Vec F S1x128 .f32) (xoS xoQ : Vec F S1x128 .f32) :
    out6_B_6 c i a1 h1 a2 h2 a3 h3 a4 h4 a5 h5 a6 h6 a7 h7 hc x0 x1 x2 x3 xoS xoQ = k6_pay5 x0 x1 x2 x3 xoQ := by
  unfold out6_B_6
  rw [View.read_writes_eq_canon _ _ _ (cover6_B_6 c i a1 h1 a2 h2 a3 h3 a4 h4 a5 h5 a6 h6 a7 h7 hc x0 x1 x2 x3 xoS xoQ)]
  unfold kernelRun6_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

end Pieces

variable (V : (c : Dev nD) → (b : Ref sig .tc) → Buf (Elt Ideal) ((c : Thread nD τ).loc b))

/-- The region's input arrays as it finds them, each at its literal type. -/
abbrev xaArr (c : Dev nD) : Vec Ideal S100000x128 .f32 := V c (Pipeline.arrRef spec6 0)
abbrev xbArr (c : Dev nD) : Vec Ideal S100000x128 .f32 := V c (Pipeline.arrRef spec6 1)
abbrev wArr (c : Dev nD) : Vec Ideal S128x128 .f32 := V c (Pipeline.arrRef spec6 2)
abbrev bRow (c : Dev nD) : Vec Ideal S1x128 .f32 := V c (Pipeline.arrRef spec6 3)

/-- One entry of the linear stage on the region's arrays. -/
def y (c : Dev nD) (r : Fin 100000) (q : Fin 128) : EReal := linAdd (xaArr V c) (xbArr V c) (wArr V c) (bRow V c) r q

/-- What the region leaves in its three output arrays. -/
def resultY (c : Dev nD) : Vec Ideal S100000x128 .f32 := fun i => y V c (i 0) (i 1)
def resultSum (c : Dev nD) : Vec Ideal S1x128 .f32 := fun i => colSum (y V c) (i 1)
def resultSumSq (c : Dev nD) : Vec Ideal S1x128 .f32 := fun i => colSumSq (y V c) (i 1)

/-! ## Where each window's block lies, and what the input blocks read -/

/-- The input blocks at a point, each at its literal type. -/
abbrev xaBlk (c : Dev nD) (t : Fin cfg6.N) : Vec Ideal S5000x128 .f32 := iblk6 V c 0 t
abbrev xbBlk (c : Dev nD) (t : Fin cfg6.N) : Vec Ideal S5000x128 .f32 := iblk6 V c 1 t
abbrev wBlk (c : Dev nD) (t : Fin cfg6.N) : Vec Ideal S128x128 .f32 := iblk6 V c 2 t
abbrev bBlk (c : Dev nD) (t : Fin cfg6.N) : Vec Ideal S1x128 .f32 := iblk6 V c 3 t

/-- The block each window takes at a point, decided over the twenty points: the tall windows take block `t` along the
    rows, and the weight matrix and each row are their own one block throughout. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- Input 0's block at point `t`, read at (p, j), is the array at row 5000·t + p, column j. -/
theorem xaBlk_apply (c : Dev nD) (t : Fin cfg6.N) (p : Fin 5000) (j : Fin 128) (h : t.val * 5000 + p.val < 100000) :
    xaBlk V c t (ix2 p j) = xaArr V c (ix2 ⟨t.val * 5000 + p.val, h⟩ j) := by
  obtain ⟨e00, e01, -⟩ := idx_facts t
  unfold xaBlk iblk6
  rw [View.read_apply]
  show xaArr V c (((cfg6.win 0).blk t).view.emb (ix2 p j)) = _
  refine congrArg (xaArr V c) ?_
  funext a; apply Fin.ext
  match a with
  | ⟨0, _⟩ => show win6_0.index t (0 : Fin 2) * 5000 + 1 * p.val = t.val * 5000 + p.val; omega
  | ⟨1, _⟩ => show win6_0.index t (1 : Fin 2) * 128 + 1 * j.val = j.val; omega

/-- Input 1's block at point `t`, read at (p, j), is the array at row 5000·t + p, column j. -/
theorem xbBlk_apply (c : Dev nD) (t : Fin cfg6.N) (p : Fin 5000) (j : Fin 128) (h : t.val * 5000 + p.val < 100000) :
    xbBlk V c t (ix2 p j) = xbArr V c (ix2 ⟨t.val * 5000 + p.val, h⟩ j) := by
  obtain ⟨-, -, e10, e11, -⟩ := idx_facts t
  unfold xbBlk iblk6
  rw [View.read_apply]
  show xbArr V c (((cfg6.win 1).blk t).view.emb (ix2 p j)) = _
  refine congrArg (xbArr V c) ?_
  funext a; apply Fin.ext
  match a with
  | ⟨0, _⟩ => show win6_1.index t (0 : Fin 2) * 5000 + 1 * p.val = t.val * 5000 + p.val; omega
  | ⟨1, _⟩ => show win6_1.index t (1 : Fin 2) * 128 + 1 * j.val = j.val; omega

/-- Input 2's block, at every point, is the matrix. -/
theorem wBlk_apply (c : Dev nD) (t : Fin cfg6.N) (j : Fin 128) (q : Fin 128) :
    wBlk V c t (ix2 j q) = wArr V c (ix2 j q) := by
  obtain ⟨-, -, -, -, e20, e21, -⟩ := idx_facts t
  unfold wBlk iblk6
  rw [View.read_apply]
  show wArr V c (((cfg6.win 2).blk t).view.emb (ix2 j q)) = _
  refine congrArg (wArr V c) ?_
  funext a; apply Fin.ext
  match a with
  | ⟨0, _⟩ => show win6_2.index t (0 : Fin 2) * 128 + 1 * j.val = j.val; omega
  | ⟨1, _⟩ => show win6_2.index t (1 : Fin 2) * 128 + 1 * q.val = q.val; omega

/-- Input 3's block, at every point, is the row. -/
theorem bBlk_apply (c : Dev nD) (t : Fin cfg6.N) (q : Fin 128) :
    bBlk V c t (ix2 (0 : Fin 1) q) = bRow V c (ix2 (0 : Fin 1) q) := by
  obtain ⟨-, -, -, -, -, -, e30, e31, -⟩ := idx_facts t
  unfold bBlk iblk6
  rw [View.read_apply]
  show bRow V c (((cfg6.win 3).blk t).view.emb (ix2 (0 : Fin 1) q)) = _
  refine congrArg (bRow V c) ?_
  funext a; apply Fin.ext
  match a with
  | ⟨0, _⟩ => show win6_3.index t (0 : Fin 2) * 1 + 1 * 0 = 0; omega
  | ⟨1, _⟩ => show win6_3.index t (1 : Fin 2) * 128 + 1 * q.val = q.val; omega

/-- The block of values a point computes, at (p, q), is the linear stage's entry of row 5000·t + p, column q. -/
theorem pay3_point (c : Dev nD) (t : Fin cfg6.N) (p : Fin 5000) (q : Fin 128) (h : t.val * 5000 + p.val < 100000) :
    k6_pay3 (F := Ideal) (xaBlk V c t) (xbBlk V c t) (wBlk V c t) (bBlk V c t) (ix2 p q) = y V c ⟨t.val * 5000 + p.val, h⟩ q := by
  refine (PayLinear.k2_pay3_apply (xaBlk V c t) (xbBlk V c t) (wBlk V c t) (bBlk V c t) p q).trans ?_
  unfold y linAdd
  refine congrArg₂ (fun a b : EReal => a + b) (Finset.sum_congr rfl fun j _ => ?_) (bBlk_apply V c t q)
  exact congrArg₂ (fun a b : EReal => a * b)
    (congrArg₂ (fun a b : EReal => a + b) (xaBlk_apply V c t p j h) (xbBlk_apply V c t p j h)) (wBlk_apply V c t j q)

/-! ## What the three output buffers hold after each point -/

/-- The output block after any point is the block of values the point computes. -/
theorem outsY_eq (c : Dev nD) (t : Fin cfg6.N) :
    (outsAt6 V c t.val t.isLt).1 = k6_pay3 (F := Ideal) (xaBlk V c t) (xbBlk V c t) (wBlk V c t) (bBlk V c t) := by
  by_cases h0 : t.val % 20 = 0
  · rw [outsAt6_A V c t h0]
    dsimp only
    exact outA4 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t)
      ((hcond6_0 t).mpr h0) (iblk6 V c 0 t) (iblk6 V c 1 t) (iblk6 V c 2 t) (iblk6 V c 3 t)
  · rw [outsAt6_B V c t h0]
    dsimp only
    exact outB4 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t)
      (fun h => h0 ((hcond6_0 t).mp h)) (iblk6 V c 0 t) (iblk6 V c 1 t) (iblk6 V c 2 t) (iblk6 V c 3 t)
      (outsAt6 V c (t.val - 1) (Nat.lt_of_le_of_lt (Nat.sub_le _ _) t.isLt)).2.1
      (outsAt6 V c (t.val - 1) (Nat.lt_of_le_of_lt (Nat.sub_le _ _) t.isLt)).2.2

/-- The carried column sum at column `q`, after point `t`. -/
def accSum (c : Dev nD) (u : Fin 1) (q : Fin 128) : (t : ℕ) → t < 20 → EReal :=
  fun t ht => (outsAt6 V c t (lt_of_lt_of_eq ht N_6.symm)).2.1 (ix2 u q)

/-- At the first point it is the stored zero plus the block's column sum. -/
theorem accSum_first (c : Dev nD) (u : Fin 1) (q : Fin 128) (t : ℕ) (ht : t < 20) (h0 : t % 20 = 0) :
    accSum V c u q t ht = (k6_pay1 (F := Ideal)) (ix2 u q)
      + ∑ p : Fin 5000, y V c ⟨t * 5000 + p.val, by have := p.isLt; omega⟩ q := by
  have ht' : t < cfg6.N := lt_of_lt_of_eq ht N_6.symm
  show (outsAt6 V c (⟨t, ht'⟩ : Fin cfg6.N).val (⟨t, ht'⟩ : Fin cfg6.N).isLt).2.1 (ix2 u q) = _
  rw [outsAt6_A V c ⟨t, ht'⟩ h0]
  dsimp only
  refine (congrFun (outA5 (F := Ideal) c (grid6.coords ⟨t, ht'⟩) (ms6_0 ⟨t, ht'⟩) (hs6_0 ⟨t, ht'⟩) (ms6_1 ⟨t, ht'⟩) (hs6_1 ⟨t, ht'⟩) (ms6_2 ⟨t, ht'⟩) (hs6_2 ⟨t, ht'⟩) (ms6_3 ⟨t, ht'⟩) (hs6_3 ⟨t, ht'⟩) (ms6_4 ⟨t, ht'⟩) (hs6_4 ⟨t, ht'⟩) (ms6_5 ⟨t, ht'⟩) (hs6_5 ⟨t, ht'⟩) (ms6_6 ⟨t, ht'⟩) (hs6_6 ⟨t, ht'⟩)
    ((hcond6_0 ⟨t, ht'⟩).mpr h0) (iblk6 V c 0 ⟨t, ht'⟩) (iblk6 V c 1 ⟨t, ht'⟩) (iblk6 V c 2 ⟨t, ht'⟩) (iblk6 V c 3 ⟨t, ht'⟩)) (ix2 u q)).trans ?_
  refine (PayLinear.k2_pay4_apply (xaBlk V c ⟨t, ht'⟩) (xbBlk V c ⟨t, ht'⟩) (wBlk V c ⟨t, ht'⟩) (bBlk V c ⟨t, ht'⟩) (k6_pay1 (F := Ideal)) u q).trans ?_
  refine congrArg (fun s : EReal => (k6_pay1 (F := Ideal)) (ix2 u q) + s) (Finset.sum_congr rfl fun p _ => ?_)
  exact pay3_point V c ⟨t, ht'⟩ p q _

/-- At any other point it is what the point before left plus the block's column sum. -/
theorem accSum_step (c : Dev nD) (u : Fin 1) (q : Fin 128) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg6.N := lt_of_lt_of_eq ht N_6.symm
  show (outsAt6 V c (⟨t, ht'⟩ : Fin cfg6.N).val (⟨t, ht'⟩ : Fin cfg6.N).isLt).2.1 (ix2 u q) = _
  rw [outsAt6_B V c ⟨t, ht'⟩ h0]
  dsimp only
  refine (congrFun (outB5 (F := Ideal) c (grid6.coords ⟨t, ht'⟩) (ms6_0 ⟨t, ht'⟩) (hs6_0 ⟨t, ht'⟩) (ms6_1 ⟨t, ht'⟩) (hs6_1 ⟨t, ht'⟩) (ms6_2 ⟨t, ht'⟩) (hs6_2 ⟨t, ht'⟩) (ms6_3 ⟨t, ht'⟩) (hs6_3 ⟨t, ht'⟩) (ms6_4 ⟨t, ht'⟩) (hs6_4 ⟨t, ht'⟩) (ms6_5 ⟨t, ht'⟩) (hs6_5 ⟨t, ht'⟩) (ms6_6 ⟨t, ht'⟩) (hs6_6 ⟨t, ht'⟩)
    (fun h => h0 ((hcond6_0 ⟨t, ht'⟩).mp h)) (iblk6 V c 0 ⟨t, ht'⟩) (iblk6 V c 1 ⟨t, ht'⟩) (iblk6 V c 2 ⟨t, ht'⟩) (iblk6 V c 3 ⟨t, ht'⟩)
    (outsAt6 V c ((⟨t, ht'⟩ : Fin cfg6.N).val - 1) (Nat.lt_of_le_of_lt (Nat.sub_le _ _) (⟨t, ht'⟩ : Fin cfg6.N).isLt)).2.1
    (outsAt6 V c ((⟨t, ht'⟩ : Fin cfg6.N).val - 1) (Nat.lt_of_le_of_lt (Nat.sub_le _ _) (⟨t, ht'⟩ : Fin cfg6.N).isLt)).2.2) (ix2 u q)).trans ?_
  refine (PayLinear.k2_pay4_apply (xaBlk V c ⟨t, ht'⟩) (xbBlk V c ⟨t, ht'⟩) (wBlk V c ⟨t, ht'⟩) (bBlk V c ⟨t, ht'⟩)
    (outsAt6 V c ((⟨t, ht'⟩ : Fin cfg6.N).val - 1) (Nat.lt_of_le_of_lt (Nat.sub_le _ _) (⟨t, ht'⟩ : Fin cfg6.N).isLt)).2.1 u q).trans ?_
  refine congrArg (fun s : EReal => accSum V c u q (t - 1) (Nat.lt_of_le_of_lt (Nat.sub_le t 1) ht) + s)
    (Finset.sum_congr rfl fun p _ => ?_)
  exact pay3_point V c ⟨t, ht'⟩ p q _

/-- After the last point it is the column sum over all 100000 rows. -/
theorem accSum_last (c : Dev nD) (u : Fin 1) (q : Fin 128) :
    accSum V c u q 19 (by norm_num) = colSum (y V c) q :=
  AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k6_pay1 (F := Ideal)) (ix2 u q)) Ideal.ofBits_zero_f32
    (fun t ht h0 => accSum_first V c u q t ht h0) (fun t ht h0 => accSum_step V c u q t ht h0)

/-- The carried column sum of squares at column `q`, after point `t`. -/
def accSumSq (c : Dev nD) (u : Fin 1) (q : Fin 128) : (t : ℕ) → t < 20 → EReal :=
  fun t ht => (outsAt6 V c t (lt_of_lt_of_eq ht N_6.symm)).2.2 (ix2 u q)

/-- At the first point it is the stored zero plus the block's column sum of squares. -/
theorem accSumSq_first (c : Dev nD) (u : Fin 1) (q : Fin 128) (t : ℕ) (ht : t < 20) (h0 : t % 20 = 0) :
    accSumSq V c u q t ht = (k6_pay2 (F := Ideal)) (ix2 u q)
      + ∑ p : Fin 5000, (y V c ⟨t * 5000 + p.val, by have := p.isLt; omega⟩ q * y V c ⟨t * 5000 + p.val, by have := p.isLt; omega⟩ q) := by
  have ht' : t < cfg6.N := lt_of_lt_of_eq ht N_6.symm
  show (outsAt6 V c (⟨t, ht'⟩ : Fin cfg6.N).val (⟨t, ht'⟩ : Fin cfg6.N).isLt).2.2 (ix2 u q) = _
  rw [outsAt6_A V c ⟨t, ht'⟩ h0]
  dsimp only
  refine (congrFun (outA6 (F := Ideal) c (grid6.coords ⟨t, ht'⟩) (ms6_0 ⟨t, ht'⟩) (hs6_0 ⟨t, ht'⟩) (ms6_1 ⟨t, ht'⟩) (hs6_1 ⟨t, ht'⟩) (ms6_2 ⟨t, ht'⟩) (hs6_2 ⟨t, ht'⟩) (ms6_3 ⟨t, ht'⟩) (hs6_3 ⟨t, ht'⟩) (ms6_4 ⟨t, ht'⟩) (hs6_4 ⟨t, ht'⟩) (ms6_5 ⟨t, ht'⟩) (hs6_5 ⟨t, ht'⟩) (ms6_6 ⟨t, ht'⟩) (hs6_6 ⟨t, ht'⟩)
    ((hcond6_0 ⟨t, ht'⟩).mpr h0) (iblk6 V c 0 ⟨t, ht'⟩) (iblk6 V c 1 ⟨t, ht'⟩) (iblk6 V c 2 ⟨t, ht'⟩) (iblk6 V c 3 ⟨t, ht'⟩)) (ix2 u q)).trans ?_
  refine (PayLinear.k2_pay5_apply (xaBlk V c ⟨t, ht'⟩) (xbBlk V c ⟨t, ht'⟩) (wBlk V c ⟨t, ht'⟩) (bBlk V c ⟨t, ht'⟩) (k6_pay2 (F := Ideal)) u q).trans ?_
  refine congrArg (fun s : EReal => (k6_pay2 (F := Ideal)) (ix2 u q) + s) (Finset.sum_congr rfl fun p _ => ?_)
  exact congrArg₂ (fun a b : EReal => a * b) (pay3_point V c ⟨t, ht'⟩ p q _) (pay3_point V c ⟨t, ht'⟩ p q _)

/-- At any other point it is what the point before left plus the block's column sum of squares. -/
theorem accSumSq_step (c : Dev nD) (u : Fin 1) (q : Fin 128) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg6.N := lt_of_lt_of_eq ht N_6.symm
  show (outsAt6 V c (⟨t, ht'⟩ : Fin cfg6.N).val (⟨t, ht'⟩ : Fin cfg6.N).isLt).2.2 (ix2 u q) = _
  rw [outsAt6_B V c ⟨t, ht'⟩ h0]
  dsimp only
  refine (congrFun (outB6 (F := Ideal) c (grid6.coords ⟨t, ht'⟩) (ms6_0 ⟨t, ht'⟩) (hs6_0 ⟨t, ht'⟩) (ms6_1 ⟨t, ht'⟩) (hs6_1 ⟨t, ht'⟩) (ms6_2 ⟨t, ht'⟩) (hs6_2 ⟨t, ht'⟩) (ms6_3 ⟨t, ht'⟩) (hs6_3 ⟨t, ht'⟩) (ms6_4 ⟨t, ht'⟩) (hs6_4 ⟨t, ht'⟩) (ms6_5 ⟨t, ht'⟩) (hs6_5 ⟨t, ht'⟩) (ms6_6 ⟨t, ht'⟩) (hs6_6 ⟨t, ht'⟩)
    (fun h => h0 ((hcond6_0 ⟨t, ht'⟩).mp h)) (iblk6 V c 0 ⟨t, ht'⟩) (iblk6 V c 1 ⟨t, ht'⟩) (iblk6 V c 2 ⟨t, ht'⟩) (iblk6 V c 3 ⟨t, ht'⟩)
    (outsAt6 V c ((⟨t, ht'⟩ : Fin cfg6.N).val - 1) (Nat.lt_of_le_of_lt (Nat.sub_le _ _) (⟨t, ht'⟩ : Fin cfg6.N).isLt)).2.1
    (outsAt6 V c ((⟨t, ht'⟩ : Fin cfg6.N).val - 1) (Nat.lt_of_le_of_lt (Nat.sub_le _ _) (⟨t, ht'⟩ : Fin cfg6.N).isLt)).2.2) (ix2 u q)).trans ?_
  refine (PayLinear.k2_pay5_apply (xaBlk V c ⟨t, ht'⟩) (xbBlk V c ⟨t, ht'⟩) (wBlk V c ⟨t, ht'⟩) (bBlk V c ⟨t, ht'⟩)
    (outsAt6 V c ((⟨t, ht'⟩ : Fin cfg6.N).val - 1) (Nat.lt_of_le_of_lt (Nat.sub_le _ _) (⟨t, ht'⟩ : Fin cfg6.N).isLt)).2.2 u q).trans ?_
  refine congrArg (fun s : EReal => accSumSq V c u q (t - 1) (Nat.lt_of_le_of_lt (Nat.sub_le t 1) ht) + s)
    (Finset.sum_congr rfl fun p _ => ?_)
  exact congrArg₂ (fun a b : EReal => a * b) (pay3_point V c ⟨t, ht'⟩ p q _) (pay3_point V c ⟨t, ht'⟩ p q _)

/-- After the last point it is the column sum of squares over all 100000 rows. -/
theorem accSumSq_last (c : Dev nD) (u : Fin 1) (q : Fin 128) :
    accSumSq V c u q 19 (by norm_num) = colSumSq (y V c) q :=
  AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k6_pay2 (F := Ideal)) (ix2 u q)) Ideal.ofBits_zero_f32
    (fun t ht h0 => accSumSq_first V c u q t ht h0) (fun t ht h0 => accSumSq_step V c u q t ht h0)

/-! ## From the blocks to the arrays -/

/-- Row `p`, column `q` of the output's block at point `t` is row 5000·t + p, column q of the array: a block's coordinate
    is its index times its extent plus the coordinate inside it. -/
theorem emb_out (t : Fin cfg6.N) (p : Fin 5000) (q : Fin 128) (h : t.val * 5000 + p.val < 100000) :
    ((cfg6.win 4).blk t).view.emb (ix2 p q) = (ix2 ⟨t.val * 5000 + p.val, h⟩ q : S100000x128.Idx) := by
  obtain ⟨-, -, -, -, -, -, -, -, e40, e41, -⟩ := idx_facts t
  funext a; apply Fin.ext
  match a with
  | ⟨0, _⟩ => show win6_4.index t (0 : Fin 2) * 5000 + 1 * p.val = t.val * 5000 + p.val; omega
  | ⟨1, _⟩ => show win6_4.index t (1 : Fin 2) * 128 + 1 * q.val = q.val; omega

/-- What point `t` writes back for the output is block `t` of `resultY`. -/
theorem flushedY_eq (c : Dev nD) (t : Fin cfg6.N) :
    (dat6 (F := Ideal) V c).flushed 4 t = ((cfg6.win 4).blk t).view.read (Elt Ideal) (resultY V c) := by
  show (cfg6.win 4).cut (grid6.coords t) ((dat6 V c).after 4 t) = _
  rw [after6_4]
  have ht : t.val < 20 := Nat.lt_of_lt_of_eq t.isLt N_6
  funext j
  obtain ⟨p, q, rfl⟩ : ∃ (p : Fin 5000) (q : Fin 128), j = ix2 p q := ⟨j 0, j 1, eq_ix2 j⟩
  have h : t.val * 5000 + p.val < 100000 := by have := p.isLt; omega
  show (outsAt6 V c t.val t.isLt).1 (ix2 p q) = resultY V c (((cfg6.win 4).blk t).view.emb (ix2 p q))
  refine (congrFun (outsY_eq V c t) (ix2 p q)).trans ?_
  refine (pay3_point V c t p q h).trans ?_
  exact (congrArg (resultY V c) (emb_out t p q h)).symm

/-- An entry of the array lies in point `t`'s block exactly when each of its coordinates lies in the block's range. -/
theorem mem_blkY (t : Fin cfg6.N) (i : S100000x128.Idx) :
    i ∈ ((cfg6.win 4).blk t).view.set ↔ ∀ a : Fin 2, win6_4.index t a * S5000x128.size a ≤ (i a).val
      ∧ (i a).val < win6_4.index t a * S5000x128.size a + S5000x128.size a := by
  show i ∈ ((View.whole main_v85_0).slice (win6_4.rect t)).set ↔ _
  rw [View.set_slice_whole, Rect.mem_set_unit]
  exact Iff.rfl

/-- The twenty blocks tile the array: row `r` is in the block of point `r / 5000`, and every point writes its block back. -/
theorem coverY (i : S100000x128.Idx) :
    ∃ t : Fin cfg6.N, (cfg6.win 4).flush t = true ∧ i ∈ ((cfg6.win 4).blk t).view.set := by
  have hi0 : (i 0).val < 100000 := idx2_lt0 i
  have hi1 : (i 1).val < 128 := idx2_lt1 i
  obtain ⟨t, ht⟩ : ∃ t : Fin cfg6.N, t.val = (i 0).val / 5000 :=
    ⟨⟨(i 0).val / 5000, by rw [show cfg6.N = 20 from N_6]; omega⟩, rfl⟩
  obtain ⟨-, -, -, -, -, -, -, -, e40, e41, -⟩ := idx_facts t
  refine ⟨t, flush6_4 t, ?_⟩
  rw [mem_blkY]
  intro a
  match a with
  | ⟨0, _⟩ =>
    show win6_4.index t (0 : Fin 2) * 5000 ≤ (i 0).val ∧ (i 0).val < win6_4.index t (0 : Fin 2) * 5000 + 5000
    omega
  | ⟨1, _⟩ =>
    show win6_4.index t (1 : Fin 2) * 128 ≤ (i 1).val ∧ (i 1).val < win6_4.index t (1 : Fin 2) * 128 + 128
    omega

/-- At a point whose number is 19 the carried column sum is the one over all rows. -/
theorem accSum_at_last (c : Dev nD) (u : Fin 1) (q : Fin 128) (n : ℕ) (hn : n < 20) (h19 : n = 19) :
    accSum V c u q n hn = colSum (y V c) q := by
  subst h19
  exact accSum_last V c u q

/-- The carried row of window 5 after the last point is the whole of `resultSum`. -/
theorem outs5_last (c : Dev nD) (t : Fin cfg6.N) (h19 : t.val = 19) :
    (outsAt6 V c t.val t.isLt).2.1 = resultSum V c := by
  funext j
  obtain ⟨u, q, rfl⟩ : ∃ (u : Fin 1) (q : Fin 128), j = ix2 u q := ⟨j 0, j 1, eq_ix2 j⟩
  exact accSum_at_last V c u q t.val (Nat.lt_of_lt_of_eq t.isLt N_6) h19

/-- What the last point writes back for window 5 is the whole of `resultSum`: the window's one block lies at offset zero,
    so it reads the whole row. -/
theorem flushed5_eq (c : Dev nD) (t : Fin cfg6.N) (hf : (cfg6.win 5).flush t = true) :
    (dat6 (F := Ideal) V c).flushed 5 t = ((cfg6.win 5).blk t).view.read (Elt Ideal) (resultSum V c) := by
  have hN : t.val < 20 := Nat.lt_of_lt_of_eq t.isLt N_6
  have h19 : t.val = 19 := by have := (flush6_5 t).mp hf; omega
  obtain ⟨-, -, -, -, -, -, -, -, -, -, eS0, eS1, eQ0, eQ1⟩ := idx_facts t
  have hz' : (fun a => win6_5.index t a * main_v85_1.ty.shape.size a) = fun _ => 0 := funext fun a => by
    match a with
    | ⟨0, _⟩ => show win6_5.index t (0 : Fin 2) * 1 = 0; omega
    | ⟨1, _⟩ => show win6_5.index t (1 : Fin 2) * 128 = 0; omega
  show (cfg6.win 5).cut (grid6.coords t) ((dat6 V c).after 5 t) = _
  rw [after6_5, outs5_last V c t h19]
  exact (Memref.read_access_unit_zero (Elt Ideal) main_v85_1 hz' (fun a => by rw [congrFun hz' a]; simp) (resultSum V c)).symm

/-- An entry of the row lies in point `t`'s block of window 5 exactly when each coordinate lies in the block's range. -/
theorem mem_blk5 (t : Fin cfg6.N) (i : S1x128.Idx) :
    i ∈ ((cfg6.win 5).blk t).view.set ↔ ∀ a : Fin 2, win6_5.index t a * S1x128.size a ≤ (i a).val
      ∧ (i a).val < win6_5.index t a * S1x128.size a + S1x128.size a := by
  show i ∈ ((View.whole main_v85_1).slice (win6_5.rect t)).set ↔ _
  rw [View.set_slice_whole, Rect.mem_set_unit]
  exact Iff.rfl

/-- The last point's block of window 5 is the whole row, and the last point writes it back. -/
theorem cover5 (i : S1x128.Idx) :
    ∃ t : Fin cfg6.N, (cfg6.win 5).flush t = true ∧ i ∈ ((cfg6.win 5).blk t).view.set := by
  have hi0 : (i 0).val < 1 := idx2_lt0 i
  have hi1 : (i 1).val < 128 := idx2_lt1 i
  obtain ⟨t, ht⟩ : ∃ t : Fin cfg6.N, t.val = 19 := ⟨⟨19, by rw [show cfg6.N = 20 from N_6]; norm_num⟩, rfl⟩
  obtain ⟨-, -, -, -, -, -, -, -, -, -, eS0, eS1, eQ0, eQ1⟩ := idx_facts t
  refine ⟨t, (flush6_5 t).mpr (by omega), ?_⟩
  rw [mem_blk5]
  intro a
  match a with
  | ⟨0, _⟩ =>
    show win6_5.index t (0 : Fin 2) * 1 ≤ (i 0).val ∧ (i 0).val < win6_5.index t (0 : Fin 2) * 1 + 1
    omega
  | ⟨1, _⟩ =>
    show win6_5.index t (1 : Fin 2) * 128 ≤ (i 1).val ∧ (i 1).val < win6_5.index t (1 : Fin 2) * 128 + 128
    omega

/-- At a point whose number is 19 the carried column sum of squares is the one over all rows. -/
theorem accSumSq_at_last (c : Dev nD) (u : Fin 1) (q : Fin 128) (n : ℕ) (hn : n < 20) (h19 : n = 19) :
    accSumSq V c u q n hn = colSumSq (y V c) q := by
  subst h19
  exact accSumSq_last V c u q

/-- The carried row of window 6 after the last point is the whole of `resultSumSq`. -/
theorem outs6_last (c : Dev nD) (t : Fin cfg6.N) (h19 : t.val = 19) :
    (outsAt6 V c t.val t.isLt).2.2 = resultSumSq V c := by
  funext j
  obtain ⟨u, q, rfl⟩ : ∃ (u : Fin 1) (q : Fin 128), j = ix2 u q := ⟨j 0, j 1, eq_ix2 j⟩
  exact accSumSq_at_last V c u q t.val (Nat.lt_of_lt_of_eq t.isLt N_6) h19

/-- What the last point writes back for window 6 is the whole of `resultSumSq`: the window's one block lies at offset zero,
    so it reads the whole row. -/
theorem flushed6_eq (c : Dev nD) (t : Fin cfg6.N) (hf : (cfg6.win 6).flush t = true) :
    (dat6 (F := Ideal) V c).flushed 6 t = ((cfg6.win 6).blk t).view.read (Elt Ideal) (resultSumSq V c) := by
  have hN : t.val < 20 := Nat.lt_of_lt_of_eq t.isLt N_6
  have h19 : t.val = 19 := by have := (flush6_6 t).mp hf; omega
  obtain ⟨-, -, -, -, -, -, -, -, -, -, eS0, eS1, eQ0, eQ1⟩ := idx_facts t
  have hz' : (fun a => win6_6.index t a * main_v85_2.ty.shape.size a) = fun _ => 0 := funext fun a => by
    match a with
    | ⟨0, _⟩ => show win6_6.index t (0 : Fin 2) * 1 = 0; omega
    | ⟨1, _⟩ => show win6_6.index t (1 : Fin 2) * 128 = 0; omega
  show (cfg6.win 6).cut (grid6.coords t) ((dat6 V c).after 6 t) = _
  rw [after6_6, outs6_last V c t h19]
  exact (Memref.read_access_unit_zero (Elt Ideal) main_v85_2 hz' (fun a => by rw [congrFun hz' a]; simp) (resultSumSq V c)).symm

/-- An entry of the row lies in point `t`'s block of window 6 exactly when each coordinate lies in the block's range. -/
theorem mem_blk6 (t : Fin cfg6.N) (i : S1x128.Idx) :
    i ∈ ((cfg6.win 6).blk t).view.set ↔ ∀ a : Fin 2, win6_6.index t a * S1x128.size a ≤ (i a).val
      ∧ (i a).val < win6_6.index t a * S1x128.size a + S1x128.size a := by
  show i ∈ ((View.whole main_v85_2).slice (win6_6.rect t)).set ↔ _
  rw [View.set_slice_whole, Rect.mem_set_unit]
  exact Iff.rfl

/-- The last point's block of window 6 is the whole row, and the last point writes it back. -/
theorem cover6 (i : S1x128.Idx) :
    ∃ t : Fin cfg6.N, (cfg6.win 6).flush t = true ∧ i ∈ ((cfg6.win 6).blk t).view.set := by
  have hi0 : (i 0).val < 1 := idx2_lt0 i
  have hi1 : (i 1).val < 128 := idx2_lt1 i
  obtain ⟨t, ht⟩ : ∃ t : Fin cfg6.N, t.val = 19 := ⟨⟨19, by rw [show cfg6.N = 20 from N_6]; norm_num⟩, rfl⟩
  obtain ⟨-, -, -, -, -, -, -, -, -, -, eS0, eS1, eQ0, eQ1⟩ := idx_facts t
  refine ⟨t, (flush6_6 t).mpr (by omega), ?_⟩
  rw [mem_blk6]
  intro a
  match a with
  | ⟨0, _⟩ =>
    show win6_6.index t (0 : Fin 2) * 1 ≤ (i 0).val ∧ (i 0).val < win6_6.index t (0 : Fin 2) * 1 + 1
    omega
  | ⟨1, _⟩ =>
    show win6_6.index t (1 : Fin 2) * 128 ≤ (i 1).val ∧ (i 1).val < win6_6.index t (1 : Fin 2) * 128 + 128
    omega

/-- THE INTERFACE of this region, one statement per output window. -/
theorem arrAt_y (c : Dev nD) : (dat6 (F := Ideal) V c).arrAt 4 cfg6.N = resultY V c :=
  (dat6 V c).arrAt_eq_of_cover 4 (resultY V c) (fun t _ => flushedY_eq V c t) coverY

theorem arrAt_sum (c : Dev nD) : (dat6 (F := Ideal) V c).arrAt 5 cfg6.N = resultSum V c :=
  (dat6 V c).arrAt_eq_of_cover 5 (resultSum V c) (fun t hf => flushed5_eq V c t hf) cover5

theorem arrAt_sumsq (c : Dev nD) : (dat6 (F := Ideal) V c).arrAt 6 cfg6.N = resultSumSq V c :=
  (dat6 V c).arrAt_eq_of_cover 6 (resultSumSq V c) (fun t hf => flushed6_eq V c t hf) cover6

end Cert.KernelIdeal.ValAdd2_6

end
-- ==== Proof.ValNorm7Pay.lean ====
/-
  Region 7's arithmetic: what the normalisation's body computes at one row and column of a block, from the block of the
  linear stage's output and the four statistic and parameter rows. This normalisation is not followed by max(·, 0).
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm7

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block. -/
theorem pay_apply (var : Vec Ideal S1x128 .f32) (y : Vec Ideal S5000x128 .f32) (mean g beta : Vec Ideal S1x128 .f32)
    (p : Fin 5000) (q : Fin 128) :
    k7_pay1 (F := Ideal) var y mean g beta (ix2 p q)
      = StageSpec.norm (y (ix2 p q)) (mean (ix2 (0 : Fin 1) q)) (var (ix2 (0 : Fin 1) q)) (g (ix2 (0 : Fin 1) q)) (beta (ix2 (0 : Fin 1) q)) := by
  unfold k7_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The two zero offsets of a load or a store of a whole buffer. -/
theorem hz : (![0, 0] : Fin 2 → Nat) = fun _ => 0 := funext fun a => by fin_cases a <;> rfl

end Cert.KernelIdeal.ValNorm7

end
-- ==== Proof.ValNorm7.lean ====
/-
  Region 7: a normalisation with no max(·, 0) after it. Every grid point takes a block of 5000 rows of the linear stage's
  output and the four statistic and parameter rows, and writes back, entry by entry, the normalised value.
  The twenty blocks tile the 100000 rows, so the output array as a whole is that function of the region's input arrays.
-/
import proofs.«414479_j7705171329025_1_alg».proof.Proof.FrameKI.R7
import proofs.«414479_j7705171329025_1_alg».proof.Proof.StageSpec
import proofs.«414479_j7705171329025_1_alg».proof.Proof.ValNorm7Pay
import Idealize.ShloMosaic.Lib.Pipeline.Value
import Idealize.ShloMosaic.Lib.ValueIdx
import Idealize.ShloMosaic.Lib.ValueLayout

set_option maxRecDepth 16384

noncomputable section

namespace Cert.KernelIdeal.ValNorm7

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x128 .f32 := V c (Pipeline.arrRef spec7 0)
abbrev meanRow (c : Dev nD) : Vec Ideal S1x128 .f32 := V c (Pipeline.arrRef spec7 1)
abbrev varRow (c : Dev nD) : Vec Ideal S1x128 .f32 := V c (Pipeline.arrRef spec7 2)
abbrev gRow (c : Dev nD) : Vec Ideal S1x128 .f32 := V c (Pipeline.arrRef spec7 3)
abbrev betaRow (c : Dev nD) : Vec Ideal S1x128 .f32 := V c (Pipeline.arrRef spec7 4)

/-- What the region leaves in its output array: the normalised entry, at every row and column. -/
def result (c : Dev nD) : Vec Ideal S100000x128 .f32 := fun i =>
  StageSpec.norm (yArr V c i) (meanRow V c (ix2 (0 : Fin 1) (i 1))) (varRow V c (ix2 (0 : Fin 1) (i 1)))
    (gRow V c (ix2 (0 : Fin 1) (i 1))) (betaRow V c (ix2 (0 : Fin 1) (i 1)))

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x128 .f32) (x1 x2 x3 x4 : Vec Ideal S1x128 .f32) (p : Fin 5000) (q : Fin 128) :
    out7_5 x0 x1 x2 x3 x4 (ix2 p q)
      = StageSpec.norm (x0 (ix2 p q)) (x1 (ix2 (0 : Fin 1) q)) (x2 (ix2 (0 : Fin 1) q)) (x3 (ix2 (0 : Fin 1) q)) (x4 (ix2 (0 : Fin 1) q)) := by
  unfold out7_5
  rw [View.canon_unit_zero hz]
  simp only [View.ld_unit_zero (S := S1x128) hz, View.ld_unit_zero (S := S5000x128) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Row `p`, column `q` of the output's block at point `t` is row 5000·t + p, column q of the array: a block's coordinate
    is its index times its extent plus the coordinate inside it. -/
theorem emb_out (t : Fin cfg7.N) (p : Fin 5000) (q : Fin 128) (h : t.val * 5000 + p.val < 100000) :
    ((cfg7.win 5).blk t).view.emb (ix2 p q) = (ix2 ⟨t.val * 5000 + p.val, h⟩ q : S100000x128.Idx) := by
  obtain ⟨-, -, -, -, -, -, -, -, -, -, e50, e51⟩ := idx_facts t
  funext a; apply Fin.ext
  match a with
  | ⟨0, _⟩ => show win7_5.index t (0 : Fin 2) * 5000 + 1 * p.val = t.val * 5000 + p.val; omega
  | ⟨1, _⟩ => show win7_5.index t (1 : Fin 2) * 128 + 1 * q.val = q.val; omega

/-- The tall input's block at point `t`, read at (p, q), is the array at row 5000·t + p, column q: the same rows the
    output's block has there. -/
theorem y_apply (c : Dev nD) (t : Fin cfg7.N) (p : Fin 5000) (q : Fin 128) (h : t.val * 5000 + p.val < 100000) :
    (iblk7 V c 0 t : Vec Ideal S5000x128 .f32) (ix2 p q) = yArr V c (ix2 ⟨t.val * 5000 + p.val, h⟩ q) := by
  obtain ⟨e00, e01, -⟩ := idx_facts t
  unfold iblk7
  rw [View.read_apply]
  show yArr V c (((cfg7.win 0).blk t).view.emb (ix2 p q)) = _
  refine congrArg (yArr V c) ?_
  funext a; apply Fin.ext
  match a with
  | ⟨0, _⟩ => show win7_0.index t (0 : Fin 2) * 5000 + 1 * p.val = t.val * 5000 + p.val; omega
  | ⟨1, _⟩ => show win7_0.index t (1 : Fin 2) * 128 + 1 * q.val = q.val; omega

/-- The mean row's block, at every point, is the row. -/
theorem mean_apply (c : Dev nD) (t : Fin cfg7.N) (q : Fin 128) :
    (iblk7 V c 1 t : Vec Ideal S1x128 .f32) (ix2 (0 : Fin 1) q) = meanRow V c (ix2 (0 : Fin 1) q) := by
  obtain ⟨-, -, e10, e11, -⟩ := idx_facts t
  unfold iblk7
  rw [View.read_apply]
  show meanRow V c (((cfg7.win 1).blk t).view.emb (ix2 (0 : Fin 1) q)) = _
  refine congrArg (meanRow V c) ?_
  funext a; apply Fin.ext
  match a with
  | ⟨0, _⟩ => show win7_1.index t (0 : Fin 2) * 1 + 1 * 0 = 0; omega
  | ⟨1, _⟩ => show win7_1.index t (1 : Fin 2) * 128 + 1 * q.val = q.val; omega

/-- The variance row's block, at every point, is the row. -/
theorem var_apply (c : Dev nD) (t : Fin cfg7.N) (q : Fin 128) :
    (iblk7 V c 2 t : Vec Ideal S1x128 .f32) (ix2 (0 : Fin 1) q) = varRow V c (ix2 (0 : Fin 1) q) := by
  obtain ⟨-, -, -, -, e20, e21, -⟩ := idx_facts t
  unfold iblk7
  rw [View.read_apply]
  show varRow V c (((cfg7.win 2).blk t).view.emb (ix2 (0 : Fin 1) q)) = _
  refine congrArg (varRow V c) ?_
  funext a; apply Fin.ext
  match a with
  | ⟨0, _⟩ => show win7_2.index t (0 : Fin 2) * 1 + 1 * 0 = 0; omega
  | ⟨1, _⟩ => show win7_2.index t (1 : Fin 2) * 128 + 1 * q.val = q.val; omega

/-- The scale row's block, at every point, is the row. -/
theorem g_apply (c : Dev nD) (t : Fin cfg7.N) (q : Fin 128) :
    (iblk7 V c 3 t : Vec Ideal S1x128 .f32) (ix2 (0 : Fin 1) q) = gRow V c (ix2 (0 : Fin 1) q) := by
  obtain ⟨-, -, -, -, -, -, e30, e31, -⟩ := idx_facts t
  unfold iblk7
  rw [View.read_apply]
  show gRow V c (((cfg7.win 3).blk t).view.emb (ix2 (0 : Fin 1) q)) = _
  refine congrArg (gRow V c) ?_
  funext a; apply Fin.ext
  match a with
  | ⟨0, _⟩ => show win7_3.index t (0 : Fin 2) * 1 + 1 * 0 = 0; omega
  | ⟨1, _⟩ => show win7_3.index t (1 : Fin 2) * 128 + 1 * q.val = q.val; omega

/-- The shift row's block, at every point, is the row. -/
theorem beta_apply (c : Dev nD) (t : Fin cfg7.N) (q : Fin 128) :
    (iblk7 V c 4 t : Vec Ideal S1x128 .f32) (ix2 (0 : Fin 1) q) = betaRow V c (ix2 (0 : Fin 1) q) := by
  obtain ⟨-, -, -, -, -, -, -, -, e40, e41, -⟩ := idx_facts t
  unfold iblk7
  rw [View.read_apply]
  show betaRow V c (((cfg7.win 4).blk t).view.emb (ix2 (0 : Fin 1) q)) = _
  refine congrArg (betaRow V c) ?_
  funext a; apply Fin.ext
  match a with
  | ⟨0, _⟩ => show win7_4.index t (0 : Fin 2) * 1 + 1 * 0 = 0; omega
  | ⟨1, _⟩ => show win7_4.index t (1 : Fin 2) * 128 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg7.N) :
    (dat7 (F := Ideal) V c).flushed 5 t = ((cfg7.win 5).blk t).view.read (Elt Ideal) (result V c) := by
  show (cfg7.win 5).cut (grid7.coords t) ((dat7 V c).after 5 t) = _
  rw [after7_5]
  have ht : t.val < 20 := Nat.lt_of_lt_of_eq t.isLt N_7
  funext j
  obtain ⟨p, q, rfl⟩ : ∃ (p : Fin 5000) (q : Fin 128), j = ix2 p q := ⟨j 0, j 1, eq_ix2 j⟩
  have h : t.val * 5000 + p.val < 100000 := by have := p.isLt; omega
  show out7_5 (iblk7 V c 0 t) (iblk7 V c 1 t) (iblk7 V c 2 t) (iblk7 V c 3 t) (iblk7 V c 4 t) (ix2 p q)
      = result V c (((cfg7.win 5).blk t).view.emb (ix2 p q))
  refine (out_apply (iblk7 V c 0 t) (iblk7 V c 1 t) (iblk7 V c 2 t) (iblk7 V c 3 t) (iblk7 V c 4 t) p q).trans ?_
  refine Eq.trans ?_ (congrArg (result V c) (emb_out t p q h)).symm
  refine Eq.trans ?_ (show StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg7.N) (i : S100000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v98).slice (win7_5.rect t)).set ↔ _
  rw [View.set_slice_whole, Rect.mem_set_unit]
  exact Iff.rfl

/-- The twenty blocks tile the array: row `r` is in the block of point `r / 5000`, and every point writes its block back. -/
theorem cover (i : S100000x128.Idx) :
    ∃ t : Fin cfg7.N, (cfg7.win 5).flush t = true ∧ i ∈ ((cfg7.win 5).blk t).view.set := by
  have hi0 : (i 0).val < 100000 := idx2_lt0 i
  have hi1 : (i 1).val < 128 := idx2_lt1 i
  obtain ⟨t, ht⟩ : ∃ t : Fin cfg7.N, t.val = (i 0).val / 5000 :=
    ⟨⟨(i 0).val / 5000, by rw [show cfg7.N = 20 from N_7]; omega⟩, rfl⟩
  obtain ⟨-, -, -, -, -, -, -, -, -, -, e50, e51⟩ := idx_facts t
  refine ⟨t, flush7_5 t, ?_⟩
  rw [mem_blk]
  intro a
  match a with
  | ⟨0, _⟩ =>
    show win7_5.index t (0 : Fin 2) * 5000 ≤ (i 0).val ∧ (i 0).val < win7_5.index t (0 : Fin 2) * 5000 + 5000
    omega
  | ⟨1, _⟩ =>
    show win7_5.index t (1 : Fin 2) * 128 ≤ (i 1).val ∧ (i 1).val < win7_5.index t (1 : Fin 2) * 128 + 128
    omega

/-- THE INTERFACE of this region: after its twenty points the output array is `result`. -/
theorem arrAt_out (c : Dev nD) : (dat7 (F := Ideal) V c).arrAt 5 cfg7.N = result V c := by
  exact (dat7 V c).arrAt_eq_of_cover 5 (result V c) (fun t _ => flushed_eq V c t) cover

end Cert.KernelIdeal.ValNorm7

end
-- ==== Proof.Carry3.lean ====
import proofs.«414479_j7705171329025_1_alg».proof.Proof.FrameKI.Run

set_option maxRecDepth 16384

noncomputable section

namespace Cert.KernelIdeal.Carry

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- Nothing between boundary 0 and boundary 12 of the run writes `main_arg2`: it keeps its contents. -/
theorem main_arg2_0_12 (c : Dev nD) : W12 m ρ c (Proc.devRef .tc main_arg2) = W0 m ρ c (Proc.devRef .tc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 12 of the run writes `main_arg8`: it keeps its contents. -/
theorem main_arg8_0_12 (c : Dev nD) : W12 m ρ c (Proc.devRef .tc main_arg8) = W0 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 12 of the run writes `main_arg9`: it keeps its contents. -/
theorem main_arg9_0_12 (c : Dev nD) : W12 m ρ c (Proc.devRef .tc main_arg9) = W0 m ρ c (Proc.devRef .tc main_arg9) :=
  calc W12 m ρ c (Proc.devRef .tc main_arg9)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 14 of the run writes `main_arg10`: it keeps its contents. -/
theorem main_arg10_0_14 (c : Dev nD) : W14 m ρ c (Proc.devRef .tc main_arg10) = W0 m ρ c (Proc.devRef .tc main_arg10) :=
  calc W14 m ρ c (Proc.devRef .tc main_arg10)
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 14 of the run writes `main_arg11`: it keeps its contents. -/
theorem main_arg11_0_14 (c : Dev nD) : W14 m ρ c (Proc.devRef .tc main_arg11) = W0 m ρ c (Proc.devRef .tc main_arg11) :=
  calc W14 m ρ c (Proc.devRef .tc main_arg11)
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 16 of the run writes `main_arg12`: it keeps its contents. -/
theorem main_arg12_0_16 (c : Dev nD) : W16 m ρ c (Proc.devRef .tc main_arg12) = W0 m ρ c (Proc.devRef .tc main_arg12) :=
  calc W16 m ρ c (Proc.devRef .tc main_arg12)
    _ = W15 m ρ c (Proc.devRef .tc main_arg12) := W16_of_ne m ρ c main_arg12 (by decide)
    _ = W14 m ρ c (Proc.devRef .tc main_arg12) := StableHlo.after_of_forall_not_mem (b := Proc.devRef .tc main_arg12) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 18 of the run writes `main_arg13`: it keeps its contents. -/
theorem main_arg13_0_18 (c : Dev nD) : W18 m ρ c (Proc.devRef .tc main_arg13) = W0 m ρ c (Proc.devRef .tc main_arg13) :=
  calc W18 m ρ c (Proc.devRef .tc main_arg13)
    _ = W17 m ρ c (Proc.devRef .tc main_arg13) := W18_of_ne m ρ c main_arg13 (by decide)
    _ = W16 m ρ c (Proc.devRef .tc main_arg13) := StableHlo.after_of_forall_not_mem (b := Proc.devRef .tc main_arg13) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg13) := W16_of_ne m ρ c main_arg13 (by decide)
    _ = W14 m ρ c (Proc.devRef .tc main_arg13) := StableHlo.after_of_forall_not_mem (b := Proc.devRef .tc main_arg13) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 18 of the run writes `main_arg14`: it keeps its contents. -/
theorem main_arg14_0_18 (c : Dev nD) : W18 m ρ c (Proc.devRef .tc main_arg14) = W0 m ρ c (Proc.devRef .tc main_arg14) :=
  calc W18 m ρ c (Proc.devRef .tc main_arg14)
    _ = W17 m ρ c (Proc.devRef .tc main_arg14) := W18_of_ne m ρ c main_arg14 (by decide)
    _ = W16 m ρ c (Proc.devRef .tc main_arg14) := StableHlo.after_of_forall_not_mem (b := Proc.devRef .tc main_arg14) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg14) := W16_of_ne m ρ c main_arg14 (by decide)
    _ = W14 m ρ c (Proc.devRef .tc main_arg14) := StableHlo.after_of_forall_not_mem (b := Proc.devRef .tc main_arg14) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg14) := W14_of_ne m ρ c main_arg14 (by decide)
    _ = W12 m ρ c (Proc.devRef .tc main_arg14) := StableHlo.after_of_forall_not_mem (b := Proc.devRef .tc main_arg14) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 20 of the run writes `main_arg1`: it keeps its contents. -/
theorem main_arg1_0_20 (c : Dev nD) : W20 m ρ c (Proc.devRef .tc main_arg1) = W0 m ρ c (Proc.devRef .tc main_arg1) :=
  calc W20 m ρ c (Proc.devRef .tc main_arg1)
    _ = W19 m ρ c (Proc.devRef .tc main_arg1) := W20_of_ne m ρ c main_arg1 (by decide)
    _ = W18 m ρ c (Proc.devRef .tc main_arg1) := StableHlo.after_of_forall_not_mem (b := Proc.devRef .tc main_arg1) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg1) := W18_of_ne m ρ c main_arg1 (by decide)
    _ = W16 m ρ c (Proc.devRef .tc main_arg1) := StableHlo.after_of_forall_not_mem (b := Proc.devRef .tc main_arg1) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg1) := W16_of_ne m ρ c main_arg1 (by decide)
    _ = W14 m ρ c (Proc.devRef .tc main_arg1) := StableHlo.after_of_forall_not_mem (b := Proc.devRef .tc main_arg1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg1) := W14_of_ne m ρ c main_arg1 (by decide)
    _ = W12 m ρ c (Proc.devRef .tc main_arg1) := StableHlo.after_of_forall_not_mem (b := Proc.devRef .tc main_arg1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 20 of the run writes `main_arg2`: it keeps its contents. -/
theorem main_arg2_0_20 (c : Dev nD) : W20 m ρ c (Proc.devRef .tc main_arg2) = W0 m ρ c (Proc.devRef .tc main_arg2) :=
  calc W20 m ρ c (Proc.devRef .tc main_arg2)
    _ = W19 m ρ c (Proc.devRef .tc main_arg2) := W20_of_ne m ρ c main_arg2 (by decide)
    _ = W18 m ρ c (Proc.devRef .tc main_arg2) := StableHlo.after_of_forall_not_mem (b := Proc.devRef .tc main_arg2) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg2) := W18_of_ne m ρ c main_arg2 (by decide)
    _ = W16 m ρ c (Proc.devRef .tc main_arg2) := StableHlo.after_of_forall_not_mem (b := Proc.devRef .tc main_arg2) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg2) := W16_of_ne m ρ c main_arg2 (by decide)
    _ = W14 m ρ c (Proc.devRef .tc main_arg2) := StableHlo.after_of_forall_not_mem (b := Proc.devRef .tc main_arg2) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 20 of the run writes `main_arg8`: it keeps its contents. -/
theorem main_arg8_0_20 (c : Dev nD) : W20 m ρ c (Proc.devRef .tc main_arg8) = W0 m ρ c (Proc.devRef .tc main_arg8) :=
  calc W20 m ρ c (Proc.devRef .tc main_arg8)
    _ = W19 m ρ c (Proc.devRef .tc main_arg8) := W20_of_ne m ρ c main_arg8 (by decide)
    _ = W18 m ρ c (Proc.devRef .tc main_arg8) := StableHlo.after_of_forall_not_mem (b := Proc.devRef .tc main_arg8) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg8) := W18_of_ne m ρ c main_arg8 (by decide)
    _ = W16 m ρ c (Proc.devRef .tc main_arg8) := StableHlo.after_of_forall_not_mem (b := Proc.devRef .tc main_arg8) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Carry

end
-- ==== Proof.KernelChain3.lean ====
/-
  Stage 3 of the chain, the kernel's half: the third message-passing hop of the first block. The array the hop's second
  region leaves is, entry by entry, the batch normalisation of the hop's linear stage, with no clipping after it, over the
  previous hop's output and the block's input (the embedding's output) as the run leaves them and the launch memory's edge
  lists and stacked parameters. The host operations before the hop's first region pool the previous hop's rows along the
  edges and take the hop's square of the stacked weights and its row of the stacked biases; the first region adds the pooled
  rows to the block input's, multiplies by the weights, adds the bias row, and leaves with that array its column sums and
  column sums of squares; the host operations between the regions divide those by the row count, form the variance as the
  mean of squares less the squared mean, and take the hop's rows of the stacked scale and shift; the second region
  normalises with those rows. Here the steps are joined.
-/
import proofs.«414479_j7705171329025_1_alg».proof.Proof.ValAdd2_6
import proofs.«414479_j7705171329025_1_alg».proof.Proof.ValNorm7
import proofs.«414479_j7705171329025_1_alg».proof.Proof.HostHop6
import proofs.«414479_j7705171329025_1_alg».proof.Proof.HostStats7
import proofs.«414479_j7705171329025_1_alg».proof.Proof.StageReal
import proofs.«414479_j7705171329025_1_alg».proof.Proof.FrameKI.Run
import proofs.«414479_j7705171329025_1_alg».proof.Proof.Carry0
import proofs.«414479_j7705171329025_1_alg».proof.Proof.Carry2
import proofs.«414479_j7705171329025_1_alg».proof.Proof.Carry3
import proofs.«414479_j7705171329025_1_alg».proof.Proof.PreReal
import proofs.«414479_j7705171329025_1_alg».proof.Proof.PooledReal
import proofs.«414479_j7705171329025_1_alg».proof.Proof.SliceReal
import Idealize.ShloMosaic.Lib.IdealHost
import Idealize.ShloMosaic.Lib.ValueLayout

set_option maxRecDepth 16384

noncomputable section

namespace Cert.KernelChain3

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## The hop's data: earlier stages' output arrays, and the launch memory's arrays, each at its literal type -/

/-- The previous hop's output array, as the run leaves it. -/
abbrev prev (c : Dev nD) : Vec Ideal S100000x128 .f32 := W12 (F := Ideal) m ρ c (Proc.devRef .tc main_v69)
/-- The block's input, the embedding's output array, as the run leaves it. -/
abbrev inp (c : Dev nD) : Vec Ideal S100000x128 .f32 := W4 (F := Ideal) m ρ c (Proc.devRef .tc main_v10)
/-- The edges' sources. -/
abbrev src (c : Dev nD) : Vec Ideal S800000 .i32 := m ((c : Thread nD τ).loc main_arg1)
/-- The edges' destinations. -/
abbrev dst (c : Dev nD) : Vec Ideal S800000 .i32 := m ((c : Thread nD τ).loc main_arg2)
/-- The stacked weights of the block's three hops. -/
abbrev convW (c : Dev nD) : Vec Ideal S3x128x128 .f32 := m ((c : Thread nD τ).loc main_arg8)
/-- The stacked biases. -/
abbrev convB (c : Dev nD) : Vec Ideal S3x128 .f32 := m ((c : Thread nD τ).loc main_arg9)
/-- The stacked scales of the three hops' batch norms. -/
abbrev bnG (c : Dev nD) : Vec Ideal S3x128 .f32 := m ((c : Thread nD τ).loc main_arg10)
/-- The stacked shifts. -/
abbrev bnB (c : Dev nD) : Vec Ideal S3x128 .f32 := m ((c : Thread nD τ).loc main_arg11)

/-- The previous hop's output's rows pooled along the edges. -/
abbrev pooledPrev (c : Dev nD) : Vec Ideal S100000x128 .f32 := HostHop6.pooled (F := Ideal) (prev m ρ c) (src m c) (dst m c)
/-- The hop's weight matrix. -/
abbrev Wt (c : Dev nD) : Vec Ideal S128x128 .f32 := HostHop6.wOf (F := Ideal) (convW m c)
/-- The hop's bias row. -/
abbrev B (c : Dev nD) : Vec Ideal S1x128 .f32 := HostHop6.rowOf (F := Ideal) (convB m c)
/-- The hop's scale row. -/
abbrev g (c : Dev nD) : Vec Ideal S1x128 .f32 := HostStats7.rowOf (F := Ideal) (bnG m c)
/-- The hop's shift row. -/
abbrev β (c : Dev nD) : Vec Ideal S1x128 .f32 := HostStats7.rowOf (F := Ideal) (bnB m c)

/-- The hop's linear stage, entry by entry: the pooled rows plus the block input's, against the weights, plus the bias. -/
def y (c : Dev nD) (r : Fin 100000) (q : Fin 128) : EReal :=
  StageSpec.linAdd (pooledPrev m ρ c) (inp m ρ c) (Wt m c) (B m c) r q

/-- The row count, as the word the host operations divide by. -/
abbrev nRows : EReal := Ideal.ofBits .f32 0x47C35000#32

/-! ## Real numbers in, real numbers out -/

/-- Under the precondition, and if every entry of the earlier stages' arrays is a real number, every entry of the hop's
    linear stage is one: the neighbour sum of a real array is real whatever the edges are, and the hop's square of the
    weights and its row of the biases are entries of real arrays. -/
theorem y_isReal [Cert.Pre_finite_inputs.Facts] (h : Cert.Pre_KernelIdeal m) (c : Dev nD)
    (hprev : ∀ i, Cert.RealSpec.IsReal (prev m ρ c i)) (hinp : ∀ i, Cert.RealSpec.IsReal (inp m ρ c i)) (r : Fin 100000) (q : Fin 128) :
    Cert.RealSpec.IsReal (y m ρ c r q) :=
  StageReal.linAdd_isReal (pooledPrev m ρ c) (inp m ρ c) (Wt m c) (B m c)
    (Cert.PooledReal.pooled_isReal (prev m ρ c) (src m c) (dst m c) hprev) hinp
    (Cert.SliceReal.wOf2_isReal (convW m c) (Cert.PreReal.real_arg8 m h c))
    (Cert.SliceReal.rowOf2_isReal (convB m c) (Cert.PreReal.real_arg9 m h c)) r q

/-- Under the precondition every entry of the hop's scale row is a real number. -/
theorem g_isReal [Cert.Pre_finite_inputs.Facts] (h : Cert.Pre_KernelIdeal m) (c : Dev nD) (q : Fin 128) :
    Cert.RealSpec.IsReal (g m c (ix2 (0 : Fin 1) q)) :=
  Cert.SliceReal.statsRow2_isReal (bnG m c) (Cert.PreReal.real_arg10 m h c) (ix2 (0 : Fin 1) q)

/-- And every entry of its shift row. -/
theorem β_isReal [Cert.Pre_finite_inputs.Facts] (h : Cert.Pre_KernelIdeal m) (c : Dev nD) (q : Fin 128) :
    Cert.RealSpec.IsReal (β m c (ix2 (0 : Fin 1) q)) :=
  Cert.SliceReal.statsRow2_isReal (bnB m c) (Cert.PreReal.real_arg11 m h c) (ix2 (0 : Fin 1) q)

/-! ## The first region's inputs -/

/-- The pooled rows: the host operations before the region form them, with the edge lists, which nothing has written since
    the launch. -/
theorem xa_eq (c : Dev nD) : ValAdd2_6.xaArr (V13 m ρ) c = pooledPrev m ρ c :=
  (HostHop6.read_pooled (W12 m ρ c)).trans
    (congrArg₂ (fun s d => HostHop6.pooled (F := Ideal) (prev m ρ c) s d)
      ((Carry.main_arg1_0_12 m ρ c).trans rfl) ((Carry.main_arg2_0_12 m ρ c).trans rfl))

/-- The block's input. -/
theorem xb_eq (c : Dev nD) : ValAdd2_6.xbArr (V13 m ρ) c = inp m ρ c :=
  Carry.main_v10_4_13 m ρ c

/-- The hop's weight matrix, out of the launch memory's stacked weights. -/
theorem w_eq (c : Dev nD) : ValAdd2_6.wArr (V13 m ρ) c = Wt m c :=
  (HostHop6.read_w (W12 m ρ c)).trans (congrArg (HostHop6.wOf (F := Ideal)) ((Carry.main_arg8_0_12 m ρ c).trans rfl))

/-- The hop's bias row, out of the launch memory's stacked biases. -/
theorem b_eq (c : Dev nD) : ValAdd2_6.bRow (V13 m ρ) c = B m c :=
  (HostHop6.read_b (W12 m ρ c)).trans (congrArg (HostHop6.rowOf (F := Ideal)) ((Carry.main_arg9_0_12 m ρ c).trans rfl))

/-- So the first region's linear stage is the hop's. -/
theorem y_eq (c : Dev nD) : ValAdd2_6.y (V13 m ρ) c = y m ρ c := by
  funext r q
  unfold ValAdd2_6.y y
  rw [xa_eq m ρ c, xb_eq m ρ c, w_eq m ρ c, b_eq m ρ c]

/-! ## The second region's five arrays, from the first region's three -/

/-- The column sums, as the first region leaves them. -/
theorem sum_eq (c : Dev nD) :
    (W14 m ρ c (Proc.devRef .tc main_v85_1) : Vec Ideal S1x128 .f32) = ValAdd2_6.resultSum (V13 m ρ) c :=
  (W14_arr m ρ c 5).trans (ValAdd2_6.arrAt_sum (V13 m ρ) c)

/-- The column sums of squares, as the first region leaves them. -/
theorem sumsq_eq (c : Dev nD) :
    (W14 m ρ c (Proc.devRef .tc main_v85_2) : Vec Ideal S1x128 .f32) = ValAdd2_6.resultSumSq (V13 m ρ) c :=
  (W14_arr m ρ c 6).trans (ValAdd2_6.arrAt_sumsq (V13 m ρ) c)

/-- The tall array the second region normalises is the first region's output: the host operations between the two do
    not write it. -/
theorem yArr_eq (c : Dev nD) : ValNorm7.yArr (V15 m ρ) c = ValAdd2_6.resultY (V13 m ρ) c :=
  ((HostStats7.read_y (W14 m ρ c)).trans (W14_arr m ρ c 4)).trans (ValAdd2_6.arrAt_y (V13 m ρ) c)

/-- The mean row: the column sums over the row count. -/
theorem meanRow_eq (c : Dev nD) :
    ValNorm7.meanRow (V15 m ρ) c
      = Host.divf (F := Ideal) (φ := .f32) (ValAdd2_6.resultSum (V13 m ρ) c) (HostStats7.nRow (F := Ideal)) := by
  refine (HostStats7.read_mean (W14 m ρ c)).trans ?_
  rw [sum_eq m ρ c]

/-- The variance row: the mean of squares less the squared mean. -/
theorem varRow_eq (c : Dev nD) :
    ValNorm7.varRow (V15 m ρ) c
      = subf (F := Ideal) (φ := .f32) (Host.divf (F := Ideal) (φ := .f32) (ValAdd2_6.resultSumSq (V13 m ρ) c) (HostStats7.nRow (F := Ideal)))
          (mulf (F := Ideal) (φ := .f32) (Host.divf (F := Ideal) (φ := .f32) (ValAdd2_6.resultSum (V13 m ρ) c) (HostStats7.nRow (F := Ideal)))
            (Host.divf (F := Ideal) (φ := .f32) (ValAdd2_6.resultSum (V13 m ρ) c) (HostStats7.nRow (F := Ideal)))) := by
  refine (HostStats7.read_var (W14 m ρ c)).trans ?_
  rw [sum_eq m ρ c, sumsq_eq m ρ c]

/-- The scale row: the hop's row of the launch memory's stacked scales, which nothing has written since the launch. -/
theorem gRow_eq (c : Dev nD) : ValNorm7.gRow (V15 m ρ) c = g m c :=
  (HostStats7.read_g (W14 m ρ c)).trans (congrArg (HostStats7.rowOf (F := Ideal)) ((Carry.main_arg10_0_14 m ρ c).trans rfl))

/-- The shift row: the hop's row of the launch memory's stacked shifts. -/
theorem betaRow_eq (c : Dev nD) : ValNorm7.betaRow (V15 m ρ) c = β m c :=
  (HostStats7.read_beta (W14 m ρ c)).trans (congrArg (HostStats7.rowOf (F := Ideal)) ((Carry.main_arg11_0_14 m ρ c).trans rfl))

/-! ## The five arrays read at an entry -/

/-- The divisor row holds the row count in every column. -/
theorem nRow_apply (j : S1x128.Idx) : HostStats7.nRow (F := Ideal) j = nRows := by
  unfold HostStats7.nRow
  exact (broadcastInDim_scalar_apply bcast_S_S1x128 (constant (F := Ideal) S_ .f32 0x47C35000#32) j).trans rfl

/-- The tall array at row r, column q is the linear stage's entry. -/
theorem yArr_apply (c : Dev nD) (r : Fin 100000) (q : Fin 128) :
    ValNorm7.yArr (V15 m ρ) c (ix2 r q) = ValAdd2_6.y (V13 m ρ) c r q :=
  (congrFun (yArr_eq m ρ c) (ix2 r q)).trans rfl

/-- The mean row at column q is the column mean of the linear stage's output. -/
theorem mean_apply (c : Dev nD) (q : Fin 128) :
    ValNorm7.meanRow (V15 m ρ) c (ix2 (0 : Fin 1) q) = StageReal.colMean (ValAdd2_6.y (V13 m ρ) c) nRows q := by
  refine (congrFun (meanRow_eq m ρ c) (ix2 (0 : Fin 1) q)).trans ?_
  show Ideal.div (ValAdd2_6.resultSum (V13 m ρ) c (ix2 (0 : Fin 1) q)) (HostStats7.nRow (F := Ideal) (ix2 (0 : Fin 1) q)) = _
  rw [nRow_apply]
  rfl

/-- The variance row at column q is the mean of squares less the squared mean of that column. -/
theorem var_apply (c : Dev nD) (q : Fin 128) :
    ValNorm7.varRow (V15 m ρ) c (ix2 (0 : Fin 1) q) = StageReal.varSumSq (ValAdd2_6.y (V13 m ρ) c) nRows q := by
  refine (congrFun (varRow_eq m ρ c) (ix2 (0 : Fin 1) q)).trans ?_
  show Ideal.div (ValAdd2_6.resultSumSq (V13 m ρ) c (ix2 (0 : Fin 1) q)) (HostStats7.nRow (F := Ideal) (ix2 (0 : Fin 1) q))
      - Ideal.div (ValAdd2_6.resultSum (V13 m ρ) c (ix2 (0 : Fin 1) q)) (HostStats7.nRow (F := Ideal) (ix2 (0 : Fin 1) q))
        * Ideal.div (ValAdd2_6.resultSum (V13 m ρ) c (ix2 (0 : Fin 1) q)) (HostStats7.nRow (F := Ideal) (ix2 (0 : Fin 1) q)) = _
  rw [nRow_apply]
  rfl

/-! ## The hop's output -/

/-- What the second region leaves in its output array is what it computes from its five arrays. -/
theorem out_eq (c : Dev nD) :
    (W16 (F := Ideal) m ρ c (Proc.devRef .tc main_v98) : Vec Ideal S100000x128 .f32) = ValNorm7.result (V15 m ρ) c :=
  (W16_arr m ρ c 5).trans (ValNorm7.arrAt_out (V15 m ρ) c)

/-- THE KERNEL'S HOP OUTPUT, entry by entry: the batch normalisation of the hop's linear stage with the statistics in
    the kernel's form, not clipped. -/
theorem kernel_out_apply (c : Dev nD) (r : Fin 100000) (q : Fin 128) :
    (W16 (F := Ideal) m ρ c (Proc.devRef .tc main_v98) : Vec Ideal S100000x128 .f32) (ix2 r q)
      = StageSpec.norm (y m ρ c r q) (StageReal.colMean (y m ρ c) nRows q) (StageReal.varSumSq (y m ρ c) nRows q)
          (g m c (ix2 (0 : Fin 1) q)) (β m c (ix2 (0 : Fin 1) q)) := by
  refine (congrFun (out_eq m ρ c) (ix2 r q)).trans ?_
  show StageSpec.norm (ValNorm7.yArr (V15 m ρ) c (ix2 r q)) (ValNorm7.meanRow (V15 m ρ) c (ix2 (0 : Fin 1) q))
      (ValNorm7.varRow (V15 m ρ) c (ix2 (0 : Fin 1) q)) (ValNorm7.gRow (V15 m ρ) c (ix2 (0 : Fin 1) q))
      (ValNorm7.betaRow (V15 m ρ) c (ix2 (0 : Fin 1) q)) = _
  rw [yArr_apply m ρ c r q, mean_apply m ρ c q, var_apply m ρ c q, gRow_eq m ρ c, betaRow_eq m ρ c, y_eq m ρ c]

end Cert.KernelChain3

end
-- ==== Proof.Chain3.lean ====
/-
  Stage 3 of the chain: the third message-passing hop of the first block. Both programs pool the previous hop's output along
  the edges, add the block's input (the embedding's output), multiply by the hop's square of the stacked weights, add the
  hop's bias and normalise the result by its batch statistics with the hop's scale and shift; there is no clipping after a
  hop. The two programs' previous hop outputs are one array of real numbers, and so are their embedding outputs (the
  invariants of the earlier stages); the edge lists and the parameters are the same in the two memories.
  The neighbour sum, the weight square and the bias row are written with the same words in both programs, so the two linear
  stages are one array, of real numbers. The kernel takes the variance as the mean of squares less the squared mean, the
  reference as the mean of the squared deviations: on real data one number. So the two normalised arrays are equal, entry
  by entry, and every entry is a real number.
-/
import proofs.«414479_j7705171329025_1_alg».proof.Proof.KernelChain3
import proofs.«414479_j7705171329025_1_alg».proof.Proof.RefChain3
import proofs.«414479_j7705171329025_1_alg».proof.Proof.ChainDefs
import proofs.«414479_j7705171329025_1_alg».proof.Proof.Chain0
import proofs.«414479_j7705171329025_1_alg».proof.Proof.RefSide
import proofs.«414479_j7705171329025_1_alg».proof.Proof.HopJoin
import proofs.«414479_j7705171329025_1_alg».proof.Proof.Seam
import proofs.«414479_j7705171329025_1_alg».proof.Proof.PreReal

noncomputable section

namespace Cert.Chain3

open Cert.RealSpec (IsReal)
open Cert.ChainDefs
open Idealize.ShloMosaic Idealize.ShloMosaic.TcCoe Idealize.ShloMosaic.StableHlo

variable [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The hop's row of a stacked parameter, read at column q, is the hop's vector of it at q: the row is the vector laid out
    as a row. -/
theorem row_eq_vec (p : Vec Ideal Cert.KernelIdeal.S3x128 .f32) (q : Fin 128) :
    Cert.KernelIdeal.HostStats7.rowOf (F := Ideal) p (ValueIdx.ix2 (0 : Fin 1) q)
      = Cert.ReferenceIdeal.RefKinds.refVec2 (F := Ideal) p (ValueIdx.ix1 q) :=
  ValueIdx.shapeCast_a_1a_apply _ _ (0 : Fin 1) q

/-- STAGE 3: the two hop outputs are equal, and every entry is a real number, given the same of the earlier stages'
    arrays this hop reads. -/
theorem inv3 (hpre : Cert.Pre_KernelIdeal m) (hag : Cert.Chain0.Agree m m') (c : Dev Cert.KernelIdeal.nD)
    (h2 : Inv2 m ρ m' c) (h0 : Inv0 m ρ m' c) : Inv3 m ρ m' c := by
  -- the reference's earlier arrays are the kernel's, by the invariants of the earlier stages
  have esrc : Cert.ReferenceIdeal.RefChain3.src (U2 m' c) = Cert.KernelChain3.prev m ρ c := (Cert.RefSide.src3 m' c).trans (funext h2.1).symm
  have ebin : Cert.ReferenceIdeal.RefChain3.bin (U2 m' c) = Cert.KernelChain3.inp m ρ c := (Cert.RefSide.bin3 m' c).trans (funext h0.1).symm
  -- the reference's edge lists and parameters are the kernel's: no list of operations writes them, and the two memories
  -- agree on the arguments
  have e1 : U2 m' c (Proc.devRef .tc Cert.ReferenceIdeal.main_arg1) = Cert.KernelChain3.src m c :=
    (Cert.RefSide.arg1_at2 m' c).trans (hag.arg1 c)
  have e2 : U2 m' c (Proc.devRef .tc Cert.ReferenceIdeal.main_arg2) = Cert.KernelChain3.dst m c :=
    (Cert.RefSide.arg2_at2 m' c).trans (hag.arg2 c)
  have e8 : U2 m' c (Proc.devRef .tc Cert.ReferenceIdeal.main_arg8) = Cert.KernelChain3.convW m c :=
    (Cert.RefSide.arg8_at2 m' c).trans (hag.arg8 c)
  have e9 : U2 m' c (Proc.devRef .tc Cert.ReferenceIdeal.main_arg9) = Cert.KernelChain3.convB m c :=
    (Cert.RefSide.arg9_at2 m' c).trans (hag.arg9 c)
  have e10 : U2 m' c (Proc.devRef .tc Cert.ReferenceIdeal.main_arg10) = Cert.KernelChain3.bnG m c :=
    (Cert.RefSide.arg10_at2 m' c).trans (hag.arg10 c)
  have e11 : U2 m' c (Proc.devRef .tc Cert.ReferenceIdeal.main_arg11) = Cert.KernelChain3.bnB m c :=
    (Cert.RefSide.arg11_at2 m' c).trans (hag.arg11 c)
  -- so the two linear stages are one array: the neighbour sum, the weight square and the bias row are the same words
  have ey : Cert.ReferenceIdeal.RefChain3.y (U2 m' c) = Cert.KernelChain3.y m ρ c := by
    funext r q
    show StageSpec.linAdd
        (Cert.ReferenceIdeal.RefKinds.refPooled (Cert.ReferenceIdeal.RefChain3.src (U2 m' c))
          (U2 m' c (Proc.devRef .tc Cert.ReferenceIdeal.main_arg1)) (U2 m' c (Proc.devRef .tc Cert.ReferenceIdeal.main_arg2)))
        (Cert.ReferenceIdeal.RefChain3.bin (U2 m' c))
        (Cert.ReferenceIdeal.RefKinds.refW2 (U2 m' c (Proc.devRef .tc Cert.ReferenceIdeal.main_arg8)))
        (Cert.ReferenceIdeal.RefKinds.refRow2 (U2 m' c (Proc.devRef .tc Cert.ReferenceIdeal.main_arg9))) r q = _
    rw [esrc, ebin, e1, e2, e8, e9]
    rfl
  -- the reference's scale and shift at column q are the kernel's rows' entries
  have eg : ∀ q : Fin 128, Cert.ReferenceIdeal.RefChain3.g (U2 m' c) (ValueIdx.ix1 q) = Cert.KernelChain3.g m c (ValueIdx.ix2 (0 : Fin 1) q) := fun q => by
    show Cert.ReferenceIdeal.RefKinds.refVec2 (U2 m' c (Proc.devRef .tc Cert.ReferenceIdeal.main_arg10)) (ValueIdx.ix1 q) = _
    rw [e10]
    exact (row_eq_vec (Cert.KernelChain3.bnG m c) q).symm
  have eβ : ∀ q : Fin 128, Cert.ReferenceIdeal.RefChain3.β (U2 m' c) (ValueIdx.ix1 q) = Cert.KernelChain3.β m c (ValueIdx.ix2 (0 : Fin 1) q) := fun q => by
    show Cert.ReferenceIdeal.RefKinds.refVec2 (U2 m' c (Proc.devRef .tc Cert.ReferenceIdeal.main_arg11)) (ValueIdx.ix1 q) = _
    rw [e11]
    exact (row_eq_vec (Cert.KernelChain3.bnB m c) q).symm
  -- the join: on real data the two variances are one number
  exact Cert.HopJoin.join (kOut3 m ρ c) (rOut3 m' c) (Cert.KernelChain3.y m ρ c) (Cert.ReferenceIdeal.RefChain3.y (U2 m' c))
    (fun q => Cert.KernelChain3.g m c (ValueIdx.ix2 (0 : Fin 1) q)) (fun q => Cert.KernelChain3.β m c (ValueIdx.ix2 (0 : Fin 1) q))
    (fun q => Cert.ReferenceIdeal.RefChain3.g (U2 m' c) (ValueIdx.ix1 q)) (fun q => Cert.ReferenceIdeal.RefChain3.β (U2 m' c) (ValueIdx.ix1 q))
    (Cert.KernelChain3.kernel_out_apply m ρ c) (Cert.ReferenceIdeal.RefChain3.out_apply (U2 m' c)) ey eg eβ
    (Cert.KernelChain3.y_isReal m ρ hpre c h2.2 h0.2) (Cert.KernelChain3.g_isReal m hpre c) (Cert.KernelChain3.β_isReal m hpre c)

end Cert.Chain3

end
-- ==== Proof.ValTriple8.lean ====
/-
  Region 8: the projection of a block's three hops with its column statistics. At each grid point the body multiplies a block
  of 5000 rows of each hop's output by that hop's slice of the projection matrix, adds the three products in order and then the
  bias row, stores that block, and adds the block's column sums and column sums of squares to two carried rows the first point
  has set to zero. The blocks tile the rows and the carried rows end as sums over all rows: a sum over 100000 rows regrouped as
  twenty runs of 5000, which is a matter of the order of a finite sum only.
-/
import proofs.«414479_j7705171329025_1_alg».proof.Proof.FrameKI.R8
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValTriple8

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. The block of values is computed from the three input blocks, each next to its
  slice of the matrix, and the bias row. At the first point the two carried rows are first set to zero and then read back,
  so the running rows it leaves are the block's sums added to zero; at the other points they are added to what the rows
  held. The column-sum row is read once before the block's sum is added to it, and that reading is passed on unchanged. -/

section Pieces

variable {F : FTy → Type} [FloatOps F]

theorem outA7 (c : Dev nD) (i : grid8.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : cond8_0 i)
    (x0 x1 x2 : Vec F S5000x128 .f32) (x3 x4 x5 : Vec F S128x128 .f32) (x6 : Vec F S1x128 .f32) :
    out8_A_7 c i a1 h1 a2 h2 a3 h3 a4 h4 a5 h5 a6 h6 a7 h7 a8 h8 a9 h9 a10 h10 hc x0 x1 x2 x3 x4 x5 x6 = k8_pay5 x0 x3 x1 x4 x2 x5 x6 := by
  unfold out8_A_7
  rw [View.read_writes_eq_canon _ _ _ (cover8_A_7 c i a1 h1 a2 h2 a3 h3 a4 h4 a5 h5 a6 h6 a7 h7 a8 h8 a9 h9 a10 h10 hc x0 x1 x2 x3 x4 x5 x6)]
  unfold kernelRun8_A
  dsimp only
  (try sl_unfold_words)
  rw [View.canon_unit_zero hz]
  simp only [View.readAt_eq_ld, h1.read_unread, h2.read_unread, h3.read_unread, h4.read_unread, h5.read_unread, h6.read_unread, h7.read_unread,
    View.ld_unit_zero (S := S5000x128) hz, View.ld_unit_zero (S := S128x128) hz, View.ld_unit_zero (S := S1x128) hz]

theorem outA8 (c : Dev nD) (i : grid8.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : cond8_0 i)
    (x0 x1 x2 : Vec F S5000x128 .f32) (x3 x4 x5 : Vec F S128x128 .f32) (x6 : Vec F S1x128 .f32) :
    out8_A_8 c i a1 h1 a2 h2 a3 h3 a4 h4 a5 h5 a6 h6 a7 h7 a8 h8 a9 h9 a10 h10 hc x0 x1 x2 x3 x4 x5 x6 = k8_pay1 (k8_pay5 x0 x3 x1 x4 x2 x5 x6) (k8_pay6 (k8_pay3 (F := F))) := by
  unfold out8_A_8
  rw [View.read_writes_eq_canon _ _ _ (cover8_A_8 c i a1 h1 a2 h2 a3 h3 a4 h4 a5 h5 a6 h6 a7 h7 a8 h8 a9 h9 a10 h10 hc x0 x1 x2 x3 x4 x5 x6)]
  unfold kernelRun8_A
  dsimp only
  (try sl_unfold_words)
  rw [View.canon_cons_unit_zero (S := S1x128) hz]
  simp only [View.readAt_eq_ld, h1.read_unread, h2.read_unread, h3.read_unread, h4.read_unread, h5.read_unread, h6.read_unread, h7.read_unread, View.readCov_unit_zero (S := S1x128) _ hz,
    View.ld_unit_zero (S := S5000x128) hz, View.ld_unit_zero (S := S128x128) hz, View.ld_unit_zero (S := S1x128) hz]

theorem outA9 (c : Dev nD) (i : grid8.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : cond8_0 i)
    (x0 x1 x2 : Vec F S5000x128 .f32) (x3 x4 x5 : Vec F S128x128 .f32) (x6 : Vec F S1x128 .f32) :
    out8_A_9 c i a1 h1 a2 h2 a3 h3 a4 h4 a5 h5 a6 h6 a7 h7 a8 h8 a9 h9 a10 h10 hc x0 x1 x2 x3 x4 x5 x6 = k8_pay2 (k8_pay5 x0 x3 x1 x4 x2 x5 x6) (k8_pay4 (F := F)) := by
  unfold out8_A_9
  rw [View.read_writes_eq_canon _ _ _ (cover8_A_9 c i a1 h1 a2 h2 a3 h3 a4 h4 a5 h5 a6 h6 a7 h7 a8 h8 a9 h9 a10 h10 hc x0 x1 x2 x3 x4 x5 x6)]
  unfold kernelRun8_A
  dsimp only
  (try sl_unfold_words)
  rw [View.canon_cons_unit_zero (S := S1x128) hz]
  simp only [View.readAt_eq_ld, h1.read_unread, h2.read_unread, h3.read_unread, h4.read_unread, h5.read_unread, h6.read_unread, h7.read_unread, View.readCov_unit_zero (S := S1x128) _ hz,
    View.ld_unit_zero (S := S5000x128) hz, View.ld_unit_zero (S := S128x128) hz, View.ld_unit_zero (S := S1x128) hz]

theorem outB7 (c : Dev nD) (i : grid8.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : ¬cond8_0 i)
    (x0 x1 x2 : Vec F S5000x128 .f32) (x3 x4 x5 : Vec F S128x128 .f32) (x6 : Vec F S1x128 .f32) (xo8 xo9 : Vec F S1x128 .f32) :
    out8_B_7 c i a1 h1 a2 h2 a3 h3 a4 h4 a5 h5 a6 h6 a7 h7 a8 h8 a9 h9 a10 h10 hc x0 x1 x2 x3 x4 x5 x6 xo8 xo9 = k8_pay5 x0 x3 x1 x4 x2 x5 x6 := by
  unfold out8_B_7
  rw [View.read_writes_eq_canon _ _ _ (cover8_B_7 c i a1 h1 a2 h2 a3 h3 a4 h4 a5 h5 a6 h6 a7 h7 a8 h8 a9 h9 a10 h10 hc x0 x1 x2 x3 x4 x5 x6 xo8 xo9)]
  unfold kernelRun8_B
  dsimp only
  (try sl_unfold_words)
  rw [View.canon_unit_zero hz]
  simp only [View.readAt_eq_ld, h1.read_unread, h2.read_unread, h3.read_unread, h4.read_unread, h5.read_unread, h6.read_unread, h7.read_unread, h9.read_unread, h10.read_unread,
    View.ld_unit_zero (S := S5000x128) hz, View.ld_unit_zero (S := S128x128) hz, View.ld_unit_zero (S := S1x128) hz]

theorem outB8 (c : Dev nD) (i : grid8.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : ¬cond8_0 i)
    (x0 x1 x2 : Vec F S5000x128 .f32) (x3 x4 x5 : Vec F S128x128 .f32) (x6 : Vec F S1x128 .f32) (xo8 xo9 : Vec F S1x128 .f32) :
    out8_B_8 c i a1 h1 a2 h2 a3 h3 a4 h4 a5 h5 a6 h6 a7 h7 a8 h8 a9 h9 a10 h10 hc x0 x1 x2 x3 x4 x5 x6 xo8 xo9 = k8_pay1 (k8_pay5 x0 x3 x1 x4 x2 x5 x6) (k8_pay6 xo8) := by
  unfold out8_B_8
  rw [View.read_writes_eq_canon _ _ _ (cover8_B_8 c i a1 h1 a2 h2 a3 h3 a4 h4 a5 h5 a6 h6 a7 h7 a8 h8 a9 h9 a10 h10 hc x0 x1 x2 x3 x4 x5 x6 xo8 xo9)]
  unfold kernelRun8_B
  dsimp only
  (try sl_unfold_words)
  rw [View.canon_unit_zero hz]
  simp only [View.readAt_eq_ld, h1.read_unread, h2.read_unread, h3.read_unread, h4.read_unread, h5.read_unread, h6.read_unread, h7.read_unread, h9.read_unread, h10.read_unread,
    View.ld_unit_zero (S := S5000x128) hz, View.ld_unit_zero (S := S128x128) hz, View.ld_unit_zero (S := S1x128) hz]

theorem outB9 (c : Dev nD) (i : grid8.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : ¬cond8_0 i)
    (x0 x1 x2 : Vec F S5000x128 .f32) (x3 x4 x5 : Vec F S128x128 .f32) (x6 : Vec F S1x128 .f32) (xo8 xo9 : Vec F S1x128 .f32) :
    out8_B_9 c i a1 h1 a2 h2 a3 h3 a4 h4 a5 h5 a6 h6 a7 h7 a8 h8 a9 h9 a10 h10 hc x0 x1 x2 x3 x4 x5 x6 xo8 xo9 = k8_pay2 (k8_pay5 x0 x3 x1 x4 x2 x5 x6) xo9 := by
  unfold out8_B_9
  rw [View.read_writes_eq_canon _ _ _ (cover8_B_9 c i a1 h1 a2 h2 a3 h3 a4 h4 a5 h5 a6 h6 a7 h7 a8 h8 a9 h9 a10 h10 hc x0 x1 x2 x3 x4 x5 x6 xo8 xo9)]
  unfold kernelRun8_B
  dsimp only
  (try sl_unfold_words)
  rw [View.canon_unit_zero hz]
  simp only [View.readAt_eq_ld, h1.read_unread, h2.read_unread, h3.read_unread, h4.read_unread, h5.read_unread, h6.read_unread, h7.read_unread, h9.read_unread, h10.read_unread,
    View.ld_unit_zero (S := S5000x128) hz, View.ld_unit_zero (S := S128x128) hz, View.ld_unit_zero (S := S1x128) hz]

end Pieces

/-- The carried row as it is passed on after its reading: the reading itself. -/
theorem pay6_apply (acc : Vec Ideal S1x128 .f32) (u : Fin 1) (q : Fin 128) :
    k8_pay6 (F := Ideal) acc (ix2 u q) = acc (ix2 u q) := by
  unfold k8_pay6
  exact congrFun (shapeCast_self acc _) _

variable (V : (c : Dev nD) → (b : Ref sig .tc) → Buf (Elt Ideal) ((c : Thread nD τ).loc b))

/-- The region's input arrays as it finds them, each at its literal type. -/
abbrev x0Arr (c : Dev nD) : Vec Ideal S100000x128 .f32 := V c (Pipeline.arrRef spec8 0)
abbrev x1Arr (c : Dev nD) : Vec Ideal S100000x128 .f32 := V c (Pipeline.arrRef spec8 1)
abbrev x2Arr (c : Dev nD) : Vec Ideal S100000x128 .f32 := V c (Pipeline.arrRef spec8 2)
abbrev w0Arr (c : Dev nD) : Vec Ideal S128x128 .f32 := V c (Pipeline.arrRef spec8 3)
abbrev w1Arr (c : Dev nD) : Vec Ideal S128x128 .f32 := V c (Pipeline.arrRef spec8 4)
abbrev w2Arr (c : Dev nD) : Vec Ideal S128x128 .f32 := V c (Pipeline.arrRef spec8 5)
abbrev bRow (c : Dev nD) : Vec Ideal S1x128 .f32 := V c (Pipeline.arrRef spec8 6)

/-- One entry of the linear stage on the region's arrays. -/
def y (c : Dev nD) (r : Fin 100000) (q : Fin 128) : EReal :=
  lin3 (x0Arr V c) (x1Arr V c) (x2Arr V c) (w0Arr V c) (w1Arr V c) (w2Arr V c) (bRow V c) r q

/-- What the region leaves in its three output arrays. -/
def resultY (c : Dev nD) : Vec Ideal S100000x128 .f32 := fun i => y V c (i 0) (i 1)
def resultSum (c : Dev nD) : Vec Ideal S1x128 .f32 := fun i => colSum (y V c) (i 1)
def resultSumSq (c : Dev nD) : Vec Ideal S1x128 .f32 := fun i => colSumSq (y V c) (i 1)

/-! ## Where each window's block lies, and what the input blocks read -/

/-- The seven input blocks at a point, each at its literal type. -/
abbrev x0Blk (c : Dev nD) (t : Fin cfg8.N) : Vec Ideal S5000x128 .f32 := iblk8 V c 0 t
abbrev x1Blk (c : Dev nD) (t : Fin cfg8.N) : Vec Ideal S5000x128 .f32 := iblk8 V c 1 t
abbrev x2Blk (c : Dev nD) (t : Fin cfg8.N) : Vec Ideal S5000x128 .f32 := iblk8 V c 2 t
abbrev w0Blk (c : Dev nD) (t : Fin cfg8.N) : Vec Ideal S128x128 .f32 := iblk8 V c 3 t
abbrev w1Blk (c : Dev nD) (t : Fin cfg8.N) : Vec Ideal S128x128 .f32 := iblk8 V c 4 t
abbrev w2Blk (c : Dev nD) (t : Fin cfg8.N) : Vec Ideal S128x128 .f32 := iblk8 V c 5 t
abbrev bBlk (c : Dev nD) (t : Fin cfg8.N) : Vec Ideal S1x128 .f32 := iblk8 V c 6 t

/-- The block each of the three tall input windows takes at a point, decided over the twenty points: block `t` along the rows. -/
theorem idx_x : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- The three slices of the matrix and the bias row are each their own one block throughout. -/
theorem idx_w : ∀ t : Fin cfg8.N,
    win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0 :=
  (by decide +kernel : ∀ t : Fin grid8.N, _)

/-- The tall output window takes block `t` along the rows, and each of the two carried rows is its own one block throughout. -/
theorem idx_o : ∀ t : Fin cfg8.N,
    win8_7.index t (0 : Fin 2) = t.val ∧ win8_7.index t (1 : Fin 2) = 0
    ∧ win8_8.index t (0 : Fin 2) = 0 ∧ win8_8.index t (1 : Fin 2) = 0
    ∧ win8_9.index t (0 : Fin 2) = 0 ∧ win8_9.index t (1 : Fin 2) = 0 :=
  (by decide +kernel : ∀ t : Fin grid8.N, _)

/-- The first hop's block at point `t`, read at (p, j), is its array at row 5000·t + p, column j. -/
theorem x0_apply (c : Dev nD) (t : Fin cfg8.N) (p : Fin 5000) (j : Fin 128) (h : t.val * 5000 + p.val < 100000) :
    x0Blk V c t (ix2 p j) = x0Arr V c (ix2 ⟨t.val * 5000 + p.val, h⟩ j) := by
  obtain ⟨e00, e01, e10, e11, e20, e21⟩ := idx_x t
  unfold x0Blk iblk8
  rw [View.read_apply]
  show x0Arr V c (((cfg8.win 0).blk t).view.emb (ix2 p j)) = _
  refine congrArg (x0Arr V c) ?_
  funext a; apply Fin.ext
  match a with
  | ⟨0, _⟩ => show win8_0.index t (0 : Fin 2) * 5000 + 1 * p.val = t.val * 5000 + p.val; omega
  | ⟨1, _⟩ => show win8_0.index t (1 : Fin 2) * 128 + 1 * j.val = j.val; omega

/-- The second hop's block at point `t`, read at (p, j), is its array at row 5000·t + p, column j. -/
theorem x1_apply (c : Dev nD) (t : Fin cfg8.N) (p : Fin 5000) (j : Fin 128) (h : t.val * 5000 + p.val < 100000) :
    x1Blk V c t (ix2 p j) = x1Arr V c (ix2 ⟨t.val * 5000 + p.val, h⟩ j) := by
  obtain ⟨e00, e01, e10, e11, e20, e21⟩ := idx_x t
  unfold x1Blk iblk8
  rw [View.read_apply]
  show x1Arr V c (((cfg8.win 1).blk t).view.emb (ix2 p j)) = _
  refine congrArg (x1Arr V c) ?_
  funext a; apply Fin.ext
  match a with
  | ⟨0, _⟩ => show win8_1.index t (0 : Fin 2) * 5000 + 1 * p.val = t.val * 5000 + p.val; omega
  | ⟨1, _⟩ => show win8_1.index t (1 : Fin 2) * 128 + 1 * j.val = j.val; omega

/-- The third hop's block at point `t`, read at (p, j), is its array at row 5000·t + p, column j. -/
theorem x2_apply (c : Dev nD) (t : Fin cfg8.N) (p : Fin 5000) (j : Fin 128) (h : t.val * 5000 + p.val < 100000) :
    x2Blk V c t (ix2 p j) = x2Arr V c (ix2 ⟨t.val * 5000 + p.val, h⟩ j) := by
  obtain ⟨e00, e01, e10, e11, e20, e21⟩ := idx_x t
  unfold x2Blk iblk8
  rw [View.read_apply]
  show x2Arr V c (((cfg8.win 2).blk t).view.emb (ix2 p j)) = _
  refine congrArg (x2Arr V c) ?_
  funext a; apply Fin.ext
  match a with
  | ⟨0, _⟩ => show win8_2.index t (0 : Fin 2) * 5000 + 1 * p.val = t.val * 5000 + p.val; omega
  | ⟨1, _⟩ => show win8_2.index t (1 : Fin 2) * 128 + 1 * j.val = j.val; omega

/-- The first slice of the matrix, at every point, is the slice. -/
theorem w0_apply (c : Dev nD) (t : Fin cfg8.N) (j : Fin 128) (q : Fin 128) :
    w0Blk V c t (ix2 j q) = w0Arr V c (ix2 j q) := by
  obtain ⟨e30, e31, e40, e41, e50, e51, e60, e61⟩ := idx_w t
  unfold w0Blk iblk8
  rw [View.read_apply]
  show w0Arr V c (((cfg8.win 3).blk t).view.emb (ix2 j q)) = _
  refine congrArg (w0Arr V c) ?_
  funext a; apply Fin.ext
  match a with
  | ⟨0, _⟩ => show win8_3.index t (0 : Fin 2) * 128 + 1 * j.val = j.val; omega
  | ⟨1, _⟩ => show win8_3.index t (1 : Fin 2) * 128 + 1 * q.val = q.val; omega

/-- The second slice of the matrix, at every point, is the slice. -/
theorem w1_apply (c : Dev nD) (t : Fin cfg8.N) (j : Fin 128) (q : Fin 128) :
    w1Blk V c t (ix2 j q) = w1Arr V c (ix2 j q) := by
  obtain ⟨e30, e31, e40, e41, e50, e51, e60, e61⟩ := idx_w t
  unfold w1Blk iblk8
  rw [View.read_apply]
  show w1Arr V c (((cfg8.win 4).blk t).view.emb (ix2 j q)) = _
  refine congrArg (w1Arr V c) ?_
  funext a; apply Fin.ext
  match a with
  | ⟨0, _⟩ => show win8_4.index t (0 : Fin 2) * 128 + 1 * j.val = j.val; omega
  | ⟨1, _⟩ => show win8_4.index t (1 : Fin 2) * 128 + 1 * q.val = q.val; omega

/-- The third slice of the matrix, at every point, is the slice. -/
theorem w2_apply (c : Dev nD) (t : Fin cfg8.N) (j : Fin 128) (q : Fin 128) :
    w2Blk V c t (ix2 j q) = w2Arr V c (ix2 j q) := by
  obtain ⟨e30, e31, e40, e41, e50, e51, e60, e61⟩ := idx_w t
  unfold w2Blk iblk8
  rw [View.read_apply]
  show w2Arr V c (((cfg8.win 5).blk t).view.emb (ix2 j q)) = _
  refine congrArg (w2Arr V c) ?_
  funext a; apply Fin.ext
  match a with
  | ⟨0, _⟩ => show win8_5.index t (0 : Fin 2) * 128 + 1 * j.val = j.val; omega
  | ⟨1, _⟩ => show win8_5.index t (1 : Fin 2) * 128 + 1 * q.val = q.val; omega

/-- The bias row's block, at every point, is the row. -/
theorem b_apply (c : Dev nD) (t : Fin cfg8.N) (q : Fin 128) :
    bBlk V c t (ix2 (0 : Fin 1) q) = bRow V c (ix2 (0 : Fin 1) q) := by
  obtain ⟨e30, e31, e40, e41, e50, e51, e60, e61⟩ := idx_w t
  unfold bBlk iblk8
  rw [View.read_apply]
  show bRow V c (((cfg8.win 6).blk t).view.emb (ix2 (0 : Fin 1) q)) = _
  refine congrArg (bRow V c) ?_
  funext a; apply Fin.ext
  match a with
  | ⟨0, _⟩ => show win8_6.index t (0 : Fin 2) * 1 + 1 * 0 = 0; omega
  | ⟨1, _⟩ => show win8_6.index t (1 : Fin 2) * 128 + 1 * q.val = q.val; omega

/-- The block of values a point computes, at (p, q), is the projection's entry of row 5000·t + p, column q. -/
theorem pay5_point (c : Dev nD) (t : Fin cfg8.N) (p : Fin 5000) (q : Fin 128) (h : t.val * 5000 + p.val < 100000) :
    k8_pay5 (F := Ideal) (x0Blk V c t) (w0Blk V c t) (x1Blk V c t) (w1Blk V c t) (x2Blk V c t) (w2Blk V c t) (bBlk V c t) (ix2 p q)
      = y V c ⟨t.val * 5000 + p.val, h⟩ q := by
  refine (PayLinear.k8_pay5_apply (x0Blk V c t) (w0Blk V c t) (x1Blk V c t) (w1Blk V c t) (x2Blk V c t) (w2Blk V c t) (bBlk V c t) p q).trans ?_
  unfold y lin3
  refine congrArg₂ (fun a b : EReal => a + b) ?_ (b_apply V c t q)
  refine congrArg₂ (fun a b : EReal => a + b) (congrArg₂ (fun a b : EReal => a + b) ?_ ?_) ?_
  · exact Finset.sum_congr rfl fun j _ => congrArg₂ (fun a b : EReal => a * b) (x0_apply V c t p j h) (w0_apply V c t j q)
  · exact Finset.sum_congr rfl fun j _ => congrArg₂ (fun a b : EReal => a * b) (x1_apply V c t p j h) (w1_apply V c t j q)
  · exact Finset.sum_congr rfl fun j _ => congrArg₂ (fun a b : EReal => a * b) (x2_apply V c t p j h) (w2_apply V c t j q)

/-! ## What the three output buffers hold after each point -/

/-- The output block after any point is the block of values the point computes. -/
theorem outs7_eq (c : Dev nD) (t : Fin cfg8.N) :
    (outsAt8 V c t.val t.isLt).1 = k8_pay5 (F := Ideal) (x0Blk V c t) (w0Blk V c t) (x1Blk V c t) (w1Blk V c t) (x2Blk V c t) (w2Blk V c t) (bBlk V c t) := by
  by_cases h0 : t.val % 20 = 0
  · rw [outsAt8_A V c t h0]
    dsimp only
    exact outA7 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t)
      ((hcond8_0 t).mpr h0) (iblk8 V c 0 t) (iblk8 V c 1 t) (iblk8 V c 2 t) (iblk8 V c 3 t) (iblk8 V c 4 t) (iblk8 V c 5 t) (iblk8 V c 6 t)
  · rw [outsAt8_B V c t h0]
    dsimp only
    exact outB7 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t)
      (fun h => h0 ((hcond8_0 t).mp h)) (iblk8 V c 0 t) (iblk8 V c 1 t) (iblk8 V c 2 t) (iblk8 V c 3 t) (iblk8 V c 4 t) (iblk8 V c 5 t) (iblk8 V c 6 t)
      (outsAt8 V c (t.val - 1) (Nat.lt_of_le_of_lt (Nat.sub_le _ _) t.isLt)).2.1
      (outsAt8 V c (t.val - 1) (Nat.lt_of_le_of_lt (Nat.sub_le _ _) t.isLt)).2.2

/-- The carried column sum at column `q`, after point `t`. -/
def accSum (c : Dev nD) (u : Fin 1) (q : Fin 128) : (t : ℕ) → t < 20 → EReal :=
  fun t ht => (outsAt8 V c t (lt_of_lt_of_eq ht N_8.symm)).2.1 (ix2 u q)

/-- At the first point it is the stored zero plus the block's column sum. -/
theorem accSum_first (c : Dev nD) (u : Fin 1) (q : Fin 128) (t : ℕ) (ht : t < 20) (h0 : t % 20 = 0) :
    accSum V c u q t ht = (k8_pay3 (F := Ideal)) (ix2 u q)
      + ∑ p : Fin 5000, y V c ⟨t * 5000 + p.val, by have := p.isLt; omega⟩ q := by
  have ht' : t < cfg8.N := lt_of_lt_of_eq ht N_8.symm
  show (outsAt8 V c (⟨t, ht'⟩ : Fin cfg8.N).val (⟨t, ht'⟩ : Fin cfg8.N).isLt).2.1 (ix2 u q) = _
  rw [outsAt8_A V c ⟨t, ht'⟩ h0]
  dsimp only
  refine (congrFun (outA8 (F := Ideal) c (grid8.coords ⟨t, ht'⟩) (ms8_0 ⟨t, ht'⟩) (hs8_0 ⟨t, ht'⟩) (ms8_1 ⟨t, ht'⟩) (hs8_1 ⟨t, ht'⟩) (ms8_2 ⟨t, ht'⟩) (hs8_2 ⟨t, ht'⟩) (ms8_3 ⟨t, ht'⟩) (hs8_3 ⟨t, ht'⟩) (ms8_4 ⟨t, ht'⟩) (hs8_4 ⟨t, ht'⟩) (ms8_5 ⟨t, ht'⟩) (hs8_5 ⟨t, ht'⟩) (ms8_6 ⟨t, ht'⟩) (hs8_6 ⟨t, ht'⟩) (ms8_7 ⟨t, ht'⟩) (hs8_7 ⟨t, ht'⟩) (ms8_8 ⟨t, ht'⟩) (hs8_8 ⟨t, ht'⟩) (ms8_9 ⟨t, ht'⟩) (hs8_9 ⟨t, ht'⟩)
    ((hcond8_0 ⟨t, ht'⟩).mpr h0) (iblk8 V c 0 ⟨t, ht'⟩) (iblk8 V c 1 ⟨t, ht'⟩) (iblk8 V c 2 ⟨t, ht'⟩) (iblk8 V c 3 ⟨t, ht'⟩) (iblk8 V c 4 ⟨t, ht'⟩) (iblk8 V c 5 ⟨t, ht'⟩) (iblk8 V c 6 ⟨t, ht'⟩)) (ix2 u q)).trans ?_
  refine (PayLinear.k8_pay1_apply (k8_pay5 (F := Ideal) (x0Blk V c ⟨t, ht'⟩) (w0Blk V c ⟨t, ht'⟩) (x1Blk V c ⟨t, ht'⟩) (w1Blk V c ⟨t, ht'⟩) (x2Blk V c ⟨t, ht'⟩) (w2Blk V c ⟨t, ht'⟩) (bBlk V c ⟨t, ht'⟩)) (k8_pay6 (k8_pay3 (F := Ideal))) u q).trans ?_
  refine congrArg₂ (fun a s : EReal => a + s) (pay6_apply (k8_pay3 (F := Ideal)) u q) (Finset.sum_congr rfl fun p _ => ?_)
  exact pay5_point V c ⟨t, ht'⟩ p q _

/-- At any other point it is what the point before left plus the block's column sum. -/
theorem accSum_step (c : Dev nD) (u : Fin 1) (q : Fin 128) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg8.N := lt_of_lt_of_eq ht N_8.symm
  show (outsAt8 V c (⟨t, ht'⟩ : Fin cfg8.N).val (⟨t, ht'⟩ : Fin cfg8.N).isLt).2.1 (ix2 u q) = _
  rw [outsAt8_B V c ⟨t, ht'⟩ h0]
  dsimp only
  refine (congrFun (outB8 (F := Ideal) c (grid8.coords ⟨t, ht'⟩) (ms8_0 ⟨t, ht'⟩) (hs8_0 ⟨t, ht'⟩) (ms8_1 ⟨t, ht'⟩) (hs8_1 ⟨t, ht'⟩) (ms8_2 ⟨t, ht'⟩) (hs8_2 ⟨t, ht'⟩) (ms8_3 ⟨t, ht'⟩) (hs8_3 ⟨t, ht'⟩) (ms8_4 ⟨t, ht'⟩) (hs8_4 ⟨t, ht'⟩) (ms8_5 ⟨t, ht'⟩) (hs8_5 ⟨t, ht'⟩) (ms8_6 ⟨t, ht'⟩) (hs8_6 ⟨t, ht'⟩) (ms8_7 ⟨t, ht'⟩) (hs8_7 ⟨t, ht'⟩) (ms8_8 ⟨t, ht'⟩) (hs8_8 ⟨t, ht'⟩) (ms8_9 ⟨t, ht'⟩) (hs8_9 ⟨t, ht'⟩)
    (fun h => h0 ((hcond8_0 ⟨t, ht'⟩).mp h)) (iblk8 V c 0 ⟨t, ht'⟩) (iblk8 V c 1 ⟨t, ht'⟩) (iblk8 V c 2 ⟨t, ht'⟩) (iblk8 V c 3 ⟨t, ht'⟩) (iblk8 V c 4 ⟨t, ht'⟩) (iblk8 V c 5 ⟨t, ht'⟩) (iblk8 V c 6 ⟨t, ht'⟩)
    (outsAt8 V c ((⟨t, ht'⟩ : Fin cfg8.N).val - 1) (Nat.lt_of_le_of_lt (Nat.sub_le _ _) (⟨t, ht'⟩ : Fin cfg8.N).isLt)).2.1
    (outsAt8 V c ((⟨t, ht'⟩ : Fin cfg8.N).val - 1) (Nat.lt_of_le_of_lt (Nat.sub_le _ _) (⟨t, ht'⟩ : Fin cfg8.N).isLt)).2.2) (ix2 u q)).trans ?_
  refine (PayLinear.k8_pay1_apply (k8_pay5 (F := Ideal) (x0Blk V c ⟨t, ht'⟩) (w0Blk V c ⟨t, ht'⟩) (x1Blk V c ⟨t, ht'⟩) (w1Blk V c ⟨t, ht'⟩) (x2Blk V c ⟨t, ht'⟩) (w2Blk V c ⟨t, ht'⟩) (bBlk V c ⟨t, ht'⟩))
    (k8_pay6 (outsAt8 V c ((⟨t, ht'⟩ : Fin cfg8.N).val - 1) (Nat.lt_of_le_of_lt (Nat.sub_le _ _) (⟨t, ht'⟩ : Fin cfg8.N).isLt)).2.1) u q).trans ?_
  refine congrArg₂ (fun a s : EReal => a + s) (pay6_apply (outsAt8 V c ((⟨t, ht'⟩ : Fin cfg8.N).val - 1) (Nat.lt_of_le_of_lt (Nat.sub_le _ _) (⟨t, ht'⟩ : Fin cfg8.N).isLt)).2.1 u q) (Finset.sum_congr rfl fun p _ => ?_)
  exact pay5_point V c ⟨t, ht'⟩ p q _

/-- After the last point it is the column sum over all 100000 rows. -/
theorem accSum_last (c : Dev nD) (u : Fin 1) (q : Fin 128) :
    accSum V c u q 19 (by norm_num) = colSum (y V c) q := by
  refine AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k8_pay3 (F := Ideal)) (ix2 u q)) Ideal.ofBits_zero_f32
    (fun t ht h0 => accSum_first V c u q t ht h0) (fun t ht h0 => accSum_step V c u q t ht h0)

/-- The carried column sum of squares at column `q`, after point `t`. -/
def accSumSq (c : Dev nD) (u : Fin 1) (q : Fin 128) : (t : ℕ) → t < 20 → EReal :=
  fun t ht => (outsAt8 V c t (lt_of_lt_of_eq ht N_8.symm)).2.2 (ix2 u q)

/-- At the first point it is the stored zero plus the block's column sum of squares. -/
theorem accSumSq_first (c : Dev nD) (u : Fin 1) (q : Fin 128) (t : ℕ) (ht : t < 20) (h0 : t % 20 = 0) :
    accSumSq V c u q t ht = (k8_pay4 (F := Ideal)) (ix2 u q)
      + ∑ p : Fin 5000, (y V c ⟨t * 5000 + p.val, by have := p.isLt; omega⟩ q * y V c ⟨t * 5000 + p.val, by have := p.isLt; omega⟩ q) := by
  have ht' : t < cfg8.N := lt_of_lt_of_eq ht N_8.symm
  show (outsAt8 V c (⟨t, ht'⟩ : Fin cfg8.N).val (⟨t, ht'⟩ : Fin cfg8.N).isLt).2.2 (ix2 u q) = _
  rw [outsAt8_A V c ⟨t, ht'⟩ h0]
  dsimp only
  refine (congrFun (outA9 (F := Ideal) c (grid8.coords ⟨t, ht'⟩) (ms8_0 ⟨t, ht'⟩) (hs8_0 ⟨t, ht'⟩) (ms8_1 ⟨t, ht'⟩) (hs8_1 ⟨t, ht'⟩) (ms8_2 ⟨t, ht'⟩) (hs8_2 ⟨t, ht'⟩) (ms8_3 ⟨t, ht'⟩) (hs8_3 ⟨t, ht'⟩) (ms8_4 ⟨t, ht'⟩) (hs8_4 ⟨t, ht'⟩) (ms8_5 ⟨t, ht'⟩) (hs8_5 ⟨t, ht'⟩) (ms8_6 ⟨t, ht'⟩) (hs8_6 ⟨t, ht'⟩) (ms8_7 ⟨t, ht'⟩) (hs8_7 ⟨t, ht'⟩) (ms8_8 ⟨t, ht'⟩) (hs8_8 ⟨t, ht'⟩) (ms8_9 ⟨t, ht'⟩) (hs8_9 ⟨t, ht'⟩)
    ((hcond8_0 ⟨t, ht'⟩).mpr h0) (iblk8 V c 0 ⟨t, ht'⟩) (iblk8 V c 1 ⟨t, ht'⟩) (iblk8 V c 2 ⟨t, ht'⟩) (iblk8 V c 3 ⟨t, ht'⟩) (iblk8 V c 4 ⟨t, ht'⟩) (iblk8 V c 5 ⟨t, ht'⟩) (iblk8 V c 6 ⟨t, ht'⟩)) (ix2 u q)).trans ?_
  refine (PayLinear.k8_pay2_apply (k8_pay5 (F := Ideal) (x0Blk V c ⟨t, ht'⟩) (w0Blk V c ⟨t, ht'⟩) (x1Blk V c ⟨t, ht'⟩) (w1Blk V c ⟨t, ht'⟩) (x2Blk V c ⟨t, ht'⟩) (w2Blk V c ⟨t, ht'⟩) (bBlk V c ⟨t, ht'⟩)) (k8_pay4 (F := Ideal)) u q).trans ?_
  refine congrArg₂ (fun a s : EReal => a + s) rfl (Finset.sum_congr rfl fun p _ => ?_)
  exact congrArg₂ (fun a b : EReal => a * b) (pay5_point V c ⟨t, ht'⟩ p q _) (pay5_point V c ⟨t, ht'⟩ p q _)

/-- At any other point it is what the point before left plus the block's column sum of squares. -/
theorem accSumSq_step (c : Dev nD) (u : Fin 1) (q : Fin 128) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg8.N := lt_of_lt_of_eq ht N_8.symm
  show (outsAt8 V c (⟨t, ht'⟩ : Fin cfg8.N).val (⟨t, ht'⟩ : Fin cfg8.N).isLt).2.2 (ix2 u q) = _
  rw [outsAt8_B V c ⟨t, ht'⟩ h0]
  dsimp only
  refine (congrFun (outB9 (F := Ideal) c (grid8.coords ⟨t, ht'⟩) (ms8_0 ⟨t, ht'⟩) (hs8_0 ⟨t, ht'⟩) (ms8_1 ⟨t, ht'⟩) (hs8_1 ⟨t, ht'⟩) (ms8_2 ⟨t, ht'⟩) (hs8_2 ⟨t, ht'⟩) (ms8_3 ⟨t, ht'⟩) (hs8_3 ⟨t, ht'⟩) (ms8_4 ⟨t, ht'⟩) (hs8_4 ⟨t, ht'⟩) (ms8_5 ⟨t, ht'⟩) (hs8_5 ⟨t, ht'⟩) (ms8_6 ⟨t, ht'⟩) (hs8_6 ⟨t, ht'⟩) (ms8_7 ⟨t, ht'⟩) (hs8_7 ⟨t, ht'⟩) (ms8_8 ⟨t, ht'⟩) (hs8_8 ⟨t, ht'⟩) (ms8_9 ⟨t, ht'⟩) (hs8_9 ⟨t, ht'⟩)
    (fun h => h0 ((hcond8_0 ⟨t, ht'⟩).mp h)) (iblk8 V c 0 ⟨t, ht'⟩) (iblk8 V c 1 ⟨t, ht'⟩) (iblk8 V c 2 ⟨t, ht'⟩) (iblk8 V c 3 ⟨t, ht'⟩) (iblk8 V c 4 ⟨t, ht'⟩) (iblk8 V c 5 ⟨t, ht'⟩) (iblk8 V c 6 ⟨t, ht'⟩)
    (outsAt8 V c ((⟨t, ht'⟩ : Fin cfg8.N).val - 1) (Nat.lt_of_le_of_lt (Nat.sub_le _ _) (⟨t, ht'⟩ : Fin cfg8.N).isLt)).2.1
    (outsAt8 V c ((⟨t, ht'⟩ : Fin cfg8.N).val - 1) (Nat.lt_of_le_of_lt (Nat.sub_le _ _) (⟨t, ht'⟩ : Fin cfg8.N).isLt)).2.2) (ix2 u q)).trans ?_
  refine (PayLinear.k8_pay2_apply (k8_pay5 (F := Ideal) (x0Blk V c ⟨t, ht'⟩) (w0Blk V c ⟨t, ht'⟩) (x1Blk V c ⟨t, ht'⟩) (w1Blk V c ⟨t, ht'⟩) (x2Blk V c ⟨t, ht'⟩) (w2Blk V c ⟨t, ht'⟩) (bBlk V c ⟨t, ht'⟩))
    (outsAt8 V c ((⟨t, ht'⟩ : Fin cfg8.N).val - 1) (Nat.lt_of_le_of_lt (Nat.sub_le _ _) (⟨t, ht'⟩ : Fin cfg8.N).isLt)).2.2 u q).trans ?_
  refine congrArg₂ (fun a s : EReal => a + s) rfl (Finset.sum_congr rfl fun p _ => ?_)
  exact congrArg₂ (fun a b : EReal => a * b) (pay5_point V c ⟨t, ht'⟩ p q _) (pay5_point V c ⟨t, ht'⟩ p q _)

/-- After the last point it is the column sum of squares over all 100000 rows. -/
theorem accSumSq_last (c : Dev nD) (u : Fin 1) (q : Fin 128) :
    accSumSq V c u q 19 (by norm_num) = colSumSq (y V c) q := by
  refine AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k8_pay4 (F := Ideal)) (ix2 u q)) Ideal.ofBits_zero_f32
    (fun t ht h0 => accSumSq_first V c u q t ht h0) (fun t ht h0 => accSumSq_step V c u q t ht h0)

/-! ## From the blocks to the arrays -/

/-- Row `p`, column `q` of the output's block at point `t` is row 5000·t + p, column q of the array: a block's coordinate
    is its index times its extent plus the coordinate inside it. -/
theorem emb_out (t : Fin cfg8.N) (p : Fin 5000) (q : Fin 128) (h : t.val * 5000 + p.val < 100000) :
    ((cfg8.win 7).blk t).view.emb (ix2 p q) = (ix2 ⟨t.val * 5000 + p.val, h⟩ q : S100000x128.Idx) := by
  obtain ⟨e70, e71, e80, e81, e90, e91⟩ := idx_o t
  funext a; apply Fin.ext
  match a with
  | ⟨0, _⟩ => show win8_7.index t (0 : Fin 2) * 5000 + 1 * p.val = t.val * 5000 + p.val; omega
  | ⟨1, _⟩ => show win8_7.index t (1 : Fin 2) * 128 + 1 * q.val = q.val; omega

/-- What point `t` writes back for the output is block `t` of `resultY`. -/
theorem flushed7_eq (c : Dev nD) (t : Fin cfg8.N) :
    (dat8 (F := Ideal) V c).flushed 7 t = ((cfg8.win 7).blk t).view.read (Elt Ideal) (resultY V c) := by
  show (cfg8.win 7).cut (grid8.coords t) ((dat8 V c).after 7 t) = _
  rw [after8_7]
  have ht : t.val < 20 := Nat.lt_of_lt_of_eq t.isLt N_8
  funext j
  obtain ⟨p, q, rfl⟩ : ∃ (p : Fin 5000) (q : Fin 128), j = ix2 p q := ⟨j 0, j 1, eq_ix2 j⟩
  have h : t.val * 5000 + p.val < 100000 := by have := p.isLt; omega
  show (outsAt8 V c t.val t.isLt).1 (ix2 p q) = resultY V c (((cfg8.win 7).blk t).view.emb (ix2 p q))
  refine (congrFun (outs7_eq V c t) (ix2 p q)).trans ?_
  refine (pay5_point V c t p q h).trans ?_
  exact (congrArg (resultY V c) (emb_out t p q h)).symm

/-- An entry of the array lies in point `t`'s block exactly when each of its coordinates lies in the block's range. -/
theorem mem_blk7 (t : Fin cfg8.N) (i : S100000x128.Idx) :
    i ∈ ((cfg8.win 7).blk t).view.set ↔ ∀ a : Fin 2, win8_7.index t a * S5000x128.size a ≤ (i a).val
      ∧ (i a).val < win8_7.index t a * S5000x128.size a + S5000x128.size a := by
  show i ∈ ((View.whole main_v103_0).slice (win8_7.rect t)).set ↔ _
  rw [View.set_slice_whole, Rect.mem_set_unit]
  exact Iff.rfl

/-- The twenty blocks tile the array: row `r` is in the block of point `r / 5000`, and every point writes its block back. -/
theorem cover7 (i : S100000x128.Idx) :
    ∃ t : Fin cfg8.N, (cfg8.win 7).flush t = true ∧ i ∈ ((cfg8.win 7).blk t).view.set := by
  have hi0 : (i 0).val < 100000 := idx2_lt0 i
  have hi1 : (i 1).val < 128 := idx2_lt1 i
  obtain ⟨t, ht⟩ : ∃ t : Fin cfg8.N, t.val = (i 0).val / 5000 :=
    ⟨⟨(i 0).val / 5000, by rw [show cfg8.N = 20 from N_8]; omega⟩, rfl⟩
  obtain ⟨e70, e71, e80, e81, e90, e91⟩ := idx_o t
  refine ⟨t, flush8_7 t, ?_⟩
  rw [mem_blk7]
  intro a
  match a with
  | ⟨0, _⟩ =>
    show win8_7.index t (0 : Fin 2) * 5000 ≤ (i 0).val ∧ (i 0).val < win8_7.index t (0 : Fin 2) * 5000 + 5000
    omega
  | ⟨1, _⟩ =>
    show win8_7.index t (1 : Fin 2) * 128 ≤ (i 1).val ∧ (i 1).val < win8_7.index t (1 : Fin 2) * 128 + 128
    omega

/-- At a point whose number is 19 the carried column sum is the one over all rows. -/
theorem accSum_at_last (c : Dev nD) (u : Fin 1) (q : Fin 128) (n : ℕ) (hn : n < 20) (h19 : n = 19) :
    accSum V c u q n hn = colSum (y V c) q := by
  subst h19
  exact accSum_last V c u q

/-- The carried row of window 8 after the last point is the whole of `resultSum`. -/
theorem outs8_last (c : Dev nD) (t : Fin cfg8.N) (h19 : t.val = 19) :
    (outsAt8 V c t.val t.isLt).2.1 = resultSum V c := by
  funext j
  obtain ⟨u, q, rfl⟩ : ∃ (u : Fin 1) (q : Fin 128), j = ix2 u q := ⟨j 0, j 1, eq_ix2 j⟩
  exact accSum_at_last V c u q t.val (Nat.lt_of_lt_of_eq t.isLt N_8) h19

/-- What the last point writes back for window 8 is the whole of `resultSum`: the window's one block lies at offset zero,
    so it reads the whole row. -/
theorem flushed8_eq (c : Dev nD) (t : Fin cfg8.N) (hf : (cfg8.win 8).flush t = true) :
    (dat8 (F := Ideal) V c).flushed 8 t = ((cfg8.win 8).blk t).view.read (Elt Ideal) (resultSum V c) := by
  have hN : t.val < 20 := Nat.lt_of_lt_of_eq t.isLt N_8
  have h19 : t.val = 19 := by have := (flush8_8 t).mp hf; omega
  obtain ⟨e70, e71, e80, e81, e90, e91⟩ := idx_o t
  have hz' : (fun a => win8_8.index t a * main_v103_1.ty.shape.size a) = fun _ => 0 := funext fun a => by
    match a with
    | ⟨0, _⟩ => show win8_8.index t (0 : Fin 2) * 1 = 0; omega
    | ⟨1, _⟩ => show win8_8.index t (1 : Fin 2) * 128 = 0; omega
  show (cfg8.win 8).cut (grid8.coords t) ((dat8 V c).after 8 t) = _
  rw [after8_8, outs8_last V c t h19]
  exact (Memref.read_access_unit_zero (Elt Ideal) main_v103_1 hz' (fun a => by rw [congrFun hz' a]; simp) (resultSum V c)).symm

/-- An entry of the row lies in point `t`'s block of window 8 exactly when each coordinate lies in the block's range. -/
theorem mem_blk8 (t : Fin cfg8.N) (i : S1x128.Idx) :
    i ∈ ((cfg8.win 8).blk t).view.set ↔ ∀ a : Fin 2, win8_8.index t a * S1x128.size a ≤ (i a).val
      ∧ (i a).val < win8_8.index t a * S1x128.size a + S1x128.size a := by
  show i ∈ ((View.whole main_v103_1).slice (win8_8.rect t)).set ↔ _
  rw [View.set_slice_whole, Rect.mem_set_unit]
  exact Iff.rfl

/-- The last point's block of window 8 is the whole row, and the last point writes it back. -/
theorem cover8 (i : S1x128.Idx) :
    ∃ t : Fin cfg8.N, (cfg8.win 8).flush t = true ∧ i ∈ ((cfg8.win 8).blk t).view.set := by
  have hi0 : (i 0).val < 1 := idx2_lt0 i
  have hi1 : (i 1).val < 128 := idx2_lt1 i
  obtain ⟨t, ht⟩ : ∃ t : Fin cfg8.N, t.val = 19 := ⟨⟨19, by rw [show cfg8.N = 20 from N_8]; norm_num⟩, rfl⟩
  obtain ⟨e70, e71, e80, e81, e90, e91⟩ := idx_o t
  refine ⟨t, (flush8_8 t).mpr (by omega), ?_⟩
  rw [mem_blk8]
  intro a
  match a with
  | ⟨0, _⟩ =>
    show win8_8.index t (0 : Fin 2) * 1 ≤ (i 0).val ∧ (i 0).val < win8_8.index t (0 : Fin 2) * 1 + 1
    omega
  | ⟨1, _⟩ =>
    show win8_8.index t (1 : Fin 2) * 128 ≤ (i 1).val ∧ (i 1).val < win8_8.index t (1 : Fin 2) * 128 + 128
    omega

/-- At a point whose number is 19 the carried column sum of squares is the one over all rows. -/
theorem accSumSq_at_last (c : Dev nD) (u : Fin 1) (q : Fin 128) (n : ℕ) (hn : n < 20) (h19 : n = 19) :
    accSumSq V c u q n hn = colSumSq (y V c) q := by
  subst h19
  exact accSumSq_last V c u q

/-- The carried row of window 9 after the last point is the whole of `resultSumSq`. -/
theorem outs9_last (c : Dev nD) (t : Fin cfg8.N) (h19 : t.val = 19) :
    (outsAt8 V c t.val t.isLt).2.2 = resultSumSq V c := by
  funext j
  obtain ⟨u, q, rfl⟩ : ∃ (u : Fin 1) (q : Fin 128), j = ix2 u q := ⟨j 0, j 1, eq_ix2 j⟩
  exact accSumSq_at_last V c u q t.val (Nat.lt_of_lt_of_eq t.isLt N_8) h19

/-- What the last point writes back for window 9 is the whole of `resultSumSq`: the window's one block lies at offset zero,
    so it reads the whole row. -/
theorem flushed9_eq (c : Dev nD) (t : Fin cfg8.N) (hf : (cfg8.win 9).flush t = true) :
    (dat8 (F := Ideal) V c).flushed 9 t = ((cfg8.win 9).blk t).view.read (Elt Ideal) (resultSumSq V c) := by
  have hN : t.val < 20 := Nat.lt_of_lt_of_eq t.isLt N_8
  have h19 : t.val = 19 := by have := (flush8_9 t).mp hf; omega
  obtain ⟨e70, e71, e80, e81, e90, e91⟩ := idx_o t
  have hz' : (fun a => win8_9.index t a * main_v103_2.ty.shape.size a) = fun _ => 0 := funext fun a => by
    match a with
    | ⟨0, _⟩ => show win8_9.index t (0 : Fin 2) * 1 = 0; omega
    | ⟨1, _⟩ => show win8_9.index t (1 : Fin 2) * 128 = 0; omega
  show (cfg8.win 9).cut (grid8.coords t) ((dat8 V c).after 9 t) = _
  rw [after8_9, outs9_last V c t h19]
  exact (Memref.read_access_unit_zero (Elt Ideal) main_v103_2 hz' (fun a => by rw [congrFun hz' a]; simp) (resultSumSq V c)).symm

/-- An entry of the row lies in point `t`'s block of window 9 exactly when each coordinate lies in the block's range. -/
theorem mem_blk9 (t : Fin cfg8.N) (i : S1x128.Idx) :
    i ∈ ((cfg8.win 9).blk t).view.set ↔ ∀ a : Fin 2, win8_9.index t a * S1x128.size a ≤ (i a).val
      ∧ (i a).val < win8_9.index t a * S1x128.size a + S1x128.size a := by
  show i ∈ ((View.whole main_v103_2).slice (win8_9.rect t)).set ↔ _
  rw [View.set_slice_whole, Rect.mem_set_unit]
  exact Iff.rfl

/-- The last point's block of window 9 is the whole row, and the last point writes it back. -/
theorem cover9 (i : S1x128.Idx) :
    ∃ t : Fin cfg8.N, (cfg8.win 9).flush t = true ∧ i ∈ ((cfg8.win 9).blk t).view.set := by
  have hi0 : (i 0).val < 1 := idx2_lt0 i
  have hi1 : (i 1).val < 128 := idx2_lt1 i
  obtain ⟨t, ht⟩ : ∃ t : Fin cfg8.N, t.val = 19 := ⟨⟨19, by rw [show cfg8.N = 20 from N_8]; norm_num⟩, rfl⟩
  obtain ⟨e70, e71, e80, e81, e90, e91⟩ := idx_o t
  refine ⟨t, (flush8_9 t).mpr (by omega), ?_⟩
  rw [mem_blk9]
  intro a
  match a with
  | ⟨0, _⟩ =>
    show win8_9.index t (0 : Fin 2) * 1 ≤ (i 0).val ∧ (i 0).val < win8_9.index t (0 : Fin 2) * 1 + 1
    omega
  | ⟨1, _⟩ =>
    show win8_9.index t (1 : Fin 2) * 128 ≤ (i 1).val ∧ (i 1).val < win8_9.index t (1 : Fin 2) * 128 + 128
    omega

/-- THE INTERFACE of this region, one statement per output window. -/
theorem arrAt_y (c : Dev nD) : (dat8 (F := Ideal) V c).arrAt 7 cfg8.N = resultY V c :=
  (dat8 V c).arrAt_eq_of_cover 7 (resultY V c) (fun t _ => flushed7_eq V c t) cover7

theorem arrAt_sum (c : Dev nD) : (dat8 (F := Ideal) V c).arrAt 8 cfg8.N = resultSum V c :=
  (dat8 V c).arrAt_eq_of_cover 8 (resultSum V c) (fun t hf => flushed8_eq V c t hf) cover8

theorem arrAt_sumsq (c : Dev nD) : (dat8 (F := Ideal) V c).arrAt 9 cfg8.N = resultSumSq V c :=
  (dat8 V c).arrAt_eq_of_cover 9 (resultSumSq V c) (fun t hf => flushed9_eq V c t hf) cover9

end Cert.KernelIdeal.ValTriple8

end
-- ==== Proof.ValNormRelu9Pay.lean ====
/-
  Region 9's arithmetic: what the normalisation's body computes at one row and column of a block, from the block of the
  linear stage's output and the four statistic and parameter rows.
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm9

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block — and then the larger of that and 0. -/
theorem pay_apply (var : Vec Ideal S1x128 .f32) (y : Vec Ideal S5000x128 .f32) (mean g beta : Vec Ideal S1x128 .f32)
    (p : Fin 5000) (q : Fin 128) :
    k9_pay1 (F := Ideal) var y mean g beta (ix2 p q)
      = max (StageSpec.norm (y (ix2 p q)) (mean (ix2 (0 : Fin 1) q)) (var (ix2 (0 : Fin 1) q)) (g (ix2 (0 : Fin 1) q)) (beta (ix2 (0 : Fin 1) q))) 0 := by
  unfold k9_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  exact congrArg₂ max rfl Ideal.ofBits_zero_f32

/-- The two zero offsets of a load or a store of a whole buffer. -/
theorem hz : (![0, 0] : Fin 2 → Nat) = fun _ => 0 := funext fun a => by fin_cases a <;> rfl

end Cert.KernelIdeal.ValNorm9

end
-- ==== Proof.ValNormRelu9.lean ====
/-
  Region 9: a normalisation followed by max(·, 0). Every grid point takes a block of 5000 rows of the linear stage's output
  and the four statistic and parameter rows, and writes back, entry by entry, the normalised value passed through max(·, 0).
  The twenty blocks tile the 100000 rows, so the output array as a whole is that function of the region's input arrays.
-/
import proofs.«414479_j7705171329025_1_alg».proof.Proof.FrameKI.R9
import proofs.«414479_j7705171329025_1_alg».proof.Proof.StageSpec
import proofs.«414479_j7705171329025_1_alg».proof.Proof.ValNormRelu9Pay
import Idealize.ShloMosaic.Lib.Pipeline.Value
import Idealize.ShloMosaic.Lib.ValueIdx
import Idealize.ShloMosaic.Lib.ValueLayout

set_option maxRecDepth 16384

noncomputable section

namespace Cert.KernelIdeal.ValNorm9

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x128 .f32 := V c (Pipeline.arrRef spec9 0)
abbrev meanRow (c : Dev nD) : Vec Ideal S1x128 .f32 := V c (Pipeline.arrRef spec9 1)
abbrev varRow (c : Dev nD) : Vec Ideal S1x128 .f32 := V c (Pipeline.arrRef spec9 2)
abbrev gRow (c : Dev nD) : Vec Ideal S1x128 .f32 := V c (Pipeline.arrRef spec9 3)
abbrev betaRow (c : Dev nD) : Vec Ideal S1x128 .f32 := V c (Pipeline.arrRef spec9 4)

/-- What the region leaves in its output array: the normalised entry through max(·, 0), at every row and column. -/
def result (c : Dev nD) : Vec Ideal S100000x128 .f32 := fun i =>
  max (StageSpec.norm (yArr V c i) (meanRow V c (ix2 (0 : Fin 1) (i 1))) (varRow V c (ix2 (0 : Fin 1) (i 1)))
        (gRow V c (ix2 (0 : Fin 1) (i 1))) (betaRow V c (ix2 (0 : Fin 1) (i 1)))) 0

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x128 .f32) (x1 x2 x3 x4 : Vec Ideal S1x128 .f32) (p : Fin 5000) (q : Fin 128) :
    out9_5 x0 x1 x2 x3 x4 (ix2 p q)
      = max (StageSpec.norm (x0 (ix2 p q)) (x1 (ix2 (0 : Fin 1) q)) (x2 (ix2 (0 : Fin 1) q)) (x3 (ix2 (0 : Fin 1) q)) (x4 (ix2 (0 : Fin 1) q))) 0 := by
  unfold out9_5
  rw [View.canon_unit_zero hz]
  simp only [View.ld_unit_zero (S := S1x128) hz, View.ld_unit_zero (S := S5000x128) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- Row `p`, column `q` of the output's block at point `t` is row 5000·t + p, column q of the array: a block's coordinate
    is its index times its extent plus the coordinate inside it. -/
theorem emb_out (t : Fin cfg9.N) (p : Fin 5000) (q : Fin 128) (h : t.val * 5000 + p.val < 100000) :
    ((cfg9.win 5).blk t).view.emb (ix2 p q) = (ix2 ⟨t.val * 5000 + p.val, h⟩ q : S100000x128.Idx) := by
  obtain ⟨-, -, -, -, -, -, -, -, -, -, e50, e51⟩ := idx_facts t
  funext a; apply Fin.ext
  match a with
  | ⟨0, _⟩ => show win9_5.index t (0 : Fin 2) * 5000 + 1 * p.val = t.val * 5000 + p.val; omega
  | ⟨1, _⟩ => show win9_5.index t (1 : Fin 2) * 128 + 1 * q.val = q.val; omega

/-- The tall input's block at point `t`, read at (p, q), is the array at row 5000·t + p, column q: the same rows the
    output's block has there. -/
theorem y_apply (c : Dev nD) (t : Fin cfg9.N) (p : Fin 5000) (q : Fin 128) (h : t.val * 5000 + p.val < 100000) :
    (iblk9 V c 0 t : Vec Ideal S5000x128 .f32) (ix2 p q) = yArr V c (ix2 ⟨t.val * 5000 + p.val, h⟩ q) := by
  obtain ⟨e00, e01, -⟩ := idx_facts t
  unfold iblk9
  rw [View.read_apply]
  show yArr V c (((cfg9.win 0).blk t).view.emb (ix2 p q)) = _
  refine congrArg (yArr V c) ?_
  funext a; apply Fin.ext
  match a with
  | ⟨0, _⟩ => show win9_0.index t (0 : Fin 2) * 5000 + 1 * p.val = t.val * 5000 + p.val; omega
  | ⟨1, _⟩ => show win9_0.index t (1 : Fin 2) * 128 + 1 * q.val = q.val; omega

/-- The mean row's block, at every point, is the row. -/
theorem mean_apply (c : Dev nD) (t : Fin cfg9.N) (q : Fin 128) :
    (iblk9 V c 1 t : Vec Ideal S1x128 .f32) (ix2 (0 : Fin 1) q) = meanRow V c (ix2 (0 : Fin 1) q) := by
  obtain ⟨-, -, e10, e11, -⟩ := idx_facts t
  unfold iblk9
  rw [View.read_apply]
  show meanRow V c (((cfg9.win 1).blk t).view.emb (ix2 (0 : Fin 1) q)) = _
  refine congrArg (meanRow V c) ?_
  funext a; apply Fin.ext
  match a with
  | ⟨0, _⟩ => show win9_1.index t (0 : Fin 2) * 1 + 1 * 0 = 0; omega
  | ⟨1, _⟩ => show win9_1.index t (1 : Fin 2) * 128 + 1 * q.val = q.val; omega

/-- The variance row's block, at every point, is the row. -/
theorem var_apply (c : Dev nD) (t : Fin cfg9.N) (q : Fin 128) :
    (iblk9 V c 2 t : Vec Ideal S1x128 .f32) (ix2 (0 : Fin 1) q) = varRow V c (ix2 (0 : Fin 1) q) := by
  obtain ⟨-, -, -, -, e20, e21, -⟩ := idx_facts t
  unfold iblk9
  rw [View.read_apply]
  show varRow V c (((cfg9.win 2).blk t).view.emb (ix2 (0 : Fin 1) q)) = _
  refine congrArg (varRow V c) ?_
  funext a; apply Fin.ext
  match a with
  | ⟨0, _⟩ => show win9_2.index t (0 : Fin 2) * 1 + 1 * 0 = 0; omega
  | ⟨1, _⟩ => show win9_2.index t (1 : Fin 2) * 128 + 1 * q.val = q.val; omega

/-- The scale row's block, at every point, is the row. -/
theorem g_apply (c : Dev nD) (t : Fin cfg9.N) (q : Fin 128) :
    (iblk9 V c 3 t : Vec Ideal S1x128 .f32) (ix2 (0 : Fin 1) q) = gRow V c (ix2 (0 : Fin 1) q) := by
  obtain ⟨-, -, -, -, -, -, e30, e31, -⟩ := idx_facts t
  unfold iblk9
  rw [View.read_apply]
  show gRow V c (((cfg9.win 3).blk t).view.emb (ix2 (0 : Fin 1) q)) = _
  refine congrArg (gRow V c) ?_
  funext a; apply Fin.ext
  match a with
  | ⟨0, _⟩ => show win9_3.index t (0 : Fin 2) * 1 + 1 * 0 = 0; omega
  | ⟨1, _⟩ => show win9_3.index t (1 : Fin 2) * 128 + 1 * q.val = q.val; omega

/-- The shift row's block, at every point, is the row. -/
theorem beta_apply (c : Dev nD) (t : Fin cfg9.N) (q : Fin 128) :
    (iblk9 V c 4 t : Vec Ideal S1x128 .f32) (ix2 (0 : Fin 1) q) = betaRow V c (ix2 (0 : Fin 1) q) := by
  obtain ⟨-, -, -, -, -, -, -, -, e40, e41, -⟩ := idx_facts t
  unfold iblk9
  rw [View.read_apply]
  show betaRow V c (((cfg9.win 4).blk t).view.emb (ix2 (0 : Fin 1) q)) = _
  refine congrArg (betaRow V c) ?_
  funext a; apply Fin.ext
  match a with
  | ⟨0, _⟩ => show win9_4.index t (0 : Fin 2) * 1 + 1 * 0 = 0; omega
  | ⟨1, _⟩ => show win9_4.index t (1 : Fin 2) * 128 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg9.N) :
    (dat9 (F := Ideal) V c).flushed 5 t = ((cfg9.win 5).blk t).view.read (Elt Ideal) (result V c) := by
  show (cfg9.win 5).cut (grid9.coords t) ((dat9 V c).after 5 t) = _
  rw [after9_5]
  have ht : t.val < 20 := Nat.lt_of_lt_of_eq t.isLt N_9
  funext j
  obtain ⟨p, q, rfl⟩ : ∃ (p : Fin 5000) (q : Fin 128), j = ix2 p q := ⟨j 0, j 1, eq_ix2 j⟩
  have h : t.val * 5000 + p.val < 100000 := by have := p.isLt; omega
  show out9_5 (iblk9 V c 0 t) (iblk9 V c 1 t) (iblk9 V c 2 t) (iblk9 V c 3 t) (iblk9 V c 4 t) (ix2 p q)
      = result V c (((cfg9.win 5).blk t).view.emb (ix2 p q))
  refine (out_apply (iblk9 V c 0 t) (iblk9 V c 1 t) (iblk9 V c 2 t) (iblk9 V c 3 t) (iblk9 V c 4 t) p q).trans ?_
  refine Eq.trans ?_ (congrArg (result V c) (emb_out t p q h)).symm
  refine Eq.trans ?_ (show max (StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))) 0
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg9.N) (i : S100000x128.Idx) :
    i ∈ ((cfg9.win 5).blk t).view.set ↔ ∀ a : Fin 2, win9_5.index t a * S5000x128.size a ≤ (i a).val
      ∧ (i a).val < win9_5.index t a * S5000x128.size a + S5000x128.size a := by
  show i ∈ ((View.whole main_v112).slice (win9_5.rect t)).set ↔ _
  rw [View.set_slice_whole, Rect.mem_set_unit]
  exact Iff.rfl

/-- The twenty blocks tile the array: row `r` is in the block of point `r / 5000`, and every point writes its block back. -/
theorem cover (i : S100000x128.Idx) :
    ∃ t : Fin cfg9.N, (cfg9.win 5).flush t = true ∧ i ∈ ((cfg9.win 5).blk t).view.set := by
  have hi0 : (i 0).val < 100000 := idx2_lt0 i
  have hi1 : (i 1).val < 128 := idx2_lt1 i
  obtain ⟨t, ht⟩ : ∃ t : Fin cfg9.N, t.val = (i 0).val / 5000 :=
    ⟨⟨(i 0).val / 5000, by rw [show cfg9.N = 20 from N_9]; omega⟩, rfl⟩
  obtain ⟨-, -, -, -, -, -, -, -, -, -, e50, e51⟩ := idx_facts t
  refine ⟨t, flush9_5 t, ?_⟩
  rw [mem_blk]
  intro a
  match a with
  | ⟨0, _⟩ =>
    show win9_5.index t (0 : Fin 2) * 5000 ≤ (i 0).val ∧ (i 0).val < win9_5.index t (0 : Fin 2) * 5000 + 5000
    omega
  | ⟨1, _⟩ =>
    show win9_5.index t (1 : Fin 2) * 128 ≤ (i 1).val ∧ (i 1).val < win9_5.index t (1 : Fin 2) * 128 + 128
    omega

/-- THE INTERFACE of this region: after its twenty points the output array is `result`. -/
theorem arrAt_out (c : Dev nD) : (dat9 (F := Ideal) V c).arrAt 5 cfg9.N = result V c := by
  exact (dat9 V c).arrAt_eq_of_cover 5 (result V c) (fun t _ => flushed_eq V c t) cover

end Cert.KernelIdeal.ValNorm9

end
-- ==== Proof.HostStats9.lean ====
/-
  The host operations between a linear stage and its normalisation. From the two carried rows the
  region leaves (the column sums and the column sums of squares) they form the mean (the sum over 100000), the mean
  of squares, and the variance as the mean of squares less the squared mean; and they lay the scale and the shift of
  the batch norm out as rows. Read here at any contents of the buffers before the stretch.
-/
import proofs.«414479_j7705171329025_1_alg».proof.Proof.Gen.KernelIdeal.Launch
import Idealize.ShloMosaic.Lib.StableHlo.Run

noncomputable section

namespace Cert.KernelIdeal.HostStats9

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x128, .f32⟩ : BufTy).Contents (Elt F) := broadcastInDim S1x128 ![] bcast_S_S1x128 (constant S_ .f32 0x47C35000#32)

/-- The mean row: the column sums over the divisor. -/
theorem read_mean : (StableHlo.after hostOps9 W (Proc.devRef .tc main_v105) : (⟨S1x128, .f32⟩ : BufTy).Contents (Elt F))
    = Host.divf (W (Proc.devRef .tc main_v103_1)) nRow := by
  after_results; rfl

/-- The variance row: the mean of squares less the squared mean. -/
theorem read_var : (StableHlo.after hostOps9 W (Proc.devRef .tc main_v109) : (⟨S1x128, .f32⟩ : BufTy).Contents (Elt F))
    = subf (Host.divf (W (Proc.devRef .tc main_v103_2)) nRow)
        (mulf (Host.divf (W (Proc.devRef .tc main_v103_1)) nRow) (Host.divf (W (Proc.devRef .tc main_v103_1)) nRow)) := by
  after_results; rfl

/-- The scale, laid out as a row: the same entries in row-major order. -/
theorem read_g : (StableHlo.after hostOps9 W (Proc.devRef .tc main_v110) : (⟨S1x128, .f32⟩ : BufTy).Contents (Elt F))
    = shapeCast S1x128 (W (Proc.devRef .tc main_arg13)) shapeCasts_S128_S1x128 := by
  after_results; rfl

/-- The shift, laid out as a row. -/
theorem read_beta : (StableHlo.after hostOps9 W (Proc.devRef .tc main_v111) : (⟨S1x128, .f32⟩ : BufTy).Contents (Elt F))
    = shapeCast S1x128 (W (Proc.devRef .tc main_arg14)) shapeCasts_S128_S1x128 := by
  after_results; rfl

/-- A buffer the stretch does not write keeps its contents: the linear stage's output array. -/
theorem read_y : StableHlo.after hostOps9 W (Proc.devRef .tc main_v103_0) = W (Proc.devRef .tc main_v103_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats9

end
-- ==== Proof.Carry9.lean ====
import proofs.«414479_j7705171329025_1_alg».proof.Proof.FrameKI.Run

set_option maxRecDepth 16384

noncomputable section

namespace Cert.KernelIdeal.Carry

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- Nothing between boundary 5 and boundary 16 of the run writes `main_v11`: it keeps its contents. -/
theorem main_v11_5_16 (c : Dev nD) : W16 m ρ c (Proc.devRef .tc main_v11) = W5 m ρ c (Proc.devRef .tc main_v11) :=
  calc W16 m ρ c (Proc.devRef .tc main_v11)
    _ = W15 m ρ c (Proc.devRef .tc main_v11) := W16_of_ne m ρ c main_v11 (by decide)
    _ = W14 m ρ c (Proc.devRef .tc main_v11) := StableHlo.after_of_forall_not_mem (b := Proc.devRef .tc main_v11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v11) := W14_of_ne m ρ c main_v11 (by decide)
    _ = W12 m ρ c (Proc.devRef .tc main_v11) := StableHlo.after_of_forall_not_mem (b := Proc.devRef .tc main_v11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v11) := W12_of_ne m ρ c main_v11 (by decide)
    _ = W10 m ρ c (Proc.devRef .tc main_v11) := StableHlo.after_of_forall_not_mem (b := Proc.devRef .tc main_v11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v11) := W10_of_ne m ρ c main_v11 (by decide)
    _ = W8 m ρ c (Proc.devRef .tc main_v11) := StableHlo.after_of_forall_not_mem (b := Proc.devRef .tc main_v11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v11) := W8_of_ne m ρ c main_v11 (by decide)
    _ = W6 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := W6_of_ne m ρ c main_v11 (by decide)

/-- Nothing between boundary 5 and boundary 32 of the run writes `main_v11`: it keeps its contents. -/
theorem main_v11_5_32 (c : Dev nD) : W32 m ρ c (Proc.devRef .tc main_v11) = W5 m ρ c (Proc.devRef .tc main_v11) :=
  calc W32 m ρ c (Proc.devRef .tc main_v11)
    _ = W31 m ρ c (Proc.devRef .tc main_v11) := W32_of_ne m ρ c main_v11 (by decide)
    _ = W30 m ρ c (Proc.devRef .tc main_v11) := StableHlo.after_of_forall_not_mem (b := Proc.devRef .tc main_v11) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_v11) := W30_of_ne m ρ c main_v11 (by decide)
    _ = W28 m ρ c (Proc.devRef .tc main_v11) := StableHlo.after_of_forall_not_mem (b := Proc.devRef .tc main_v11) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_v11) := W28_of_ne m ρ c main_v11 (by decide)
    _ = W26 m ρ c (Proc.devRef .tc main_v11) := StableHlo.after_of_forall_not_mem (b := Proc.devRef .tc main_v11) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_v11) := W26_of_ne m ρ c main_v11 (by decide)
    _ = W24 m ρ c (Proc.devRef .tc main_v11) := StableHlo.after_of_forall_not_mem (b := Proc.devRef .tc main_v11) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_v11) := W24_of_ne m ρ c main_v11 (by decide)
    _ = W22 m ρ c (Proc.devRef .tc main_v11) := StableHlo.after_of_forall_not_mem (b := Proc.devRef .tc main_v11) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_v11) := W22_of_ne m ρ c main_v11 (by decide)
    _ = W20 m ρ c (Proc.devRef .tc main_v11) := StableHlo.after_of_forall_not_mem (b := Proc.devRef .tc main_v11) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_v11) := W20_of_ne m ρ c main_v11 (by decide)
    _ = W18 m ρ c (Proc.devRef .tc main_v11) := StableHlo.after_of_forall_not_mem (b := Proc.devRef .tc main_v11) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v11) := W18_of_ne m ρ c main_v11 (by decide)
    _ = W16 m ρ c (Proc.devRef .tc main_v11) := StableHlo.after_of_forall_not_mem (b := Proc.devRef .tc main_v11) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v11) := W16_of_ne m ρ c main_v11 (by decide)
    _ = W14 m ρ c (Proc.devRef .tc main_v11) := StableHlo.after_of_forall_not_mem (b := Proc.devRef .tc main_v11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v11) := W14_of_ne m ρ c main_v11 (by decide)
    _ = W12 m ρ c (Proc.devRef .tc main_v11) := StableHlo.after_of_forall_not_mem (b := Proc.devRef .tc main_v11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v11) := W12_of_ne m ρ c main_v11 (by decide)
    _ = W10 m ρ c (Proc.devRef .tc main_v11) := StableHlo.after_of_forall_not_mem (b := Proc.devRef .tc main_v11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v11) := W10_of_ne m ρ c main_v11 (by decide)
    _ = W8 m ρ c (Proc.devRef .tc main_v11) := StableHlo.after_of_forall_not_mem (b := Proc.devRef .tc main_v11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v11) := W8_of_ne m ρ c main_v11 (by decide)
    _ = W6 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := W6_of_ne m ρ c main_v11 (by decide)

/-- Nothing between boundary 5 and boundary 48 of the run writes `main_v11`: it keeps its contents. -/
theorem main_v11_5_48 (c : Dev nD) : W48 m ρ c (Proc.devRef .tc main_v11) = W5 m ρ c (Proc.devRef .tc main_v11) :=
  calc W48 m ρ c (Proc.devRef .tc main_v11)
    _ = W47 m ρ c (Proc.devRef .tc main_v11) := W48_of_ne m ρ c main_v11 (by decide)
    _ = W46 m ρ c (Proc.devRef .tc main_v11) := StableHlo.after_of_forall_not_mem (b := Proc.devRef .tc main_v11) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_v11) := W46_of_ne m ρ c main_v11 (by decide)
    _ = W44 m ρ c (Proc.devRef .tc main_v11) := StableHlo.after_of_forall_not_mem (b := Proc.devRef .tc main_v11) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_v11) := W44_of_ne m ρ c main_v11 (by decide)
    _ = W42 m ρ c (Proc.devRef .tc main_v11) := StableHlo.after_of_forall_not_mem (b := Proc.devRef .tc main_v11) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_v11) := W42_of_ne m ρ c main_v11 (by decide)
    _ = W40 m ρ c (Proc.devRef .tc main_v11) := StableHlo.after_of_forall_not_mem (b := Proc.devRef .tc main_v11) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_v11) := W40_of_ne m ρ c main_v11 (by decide)
    _ = W38 m ρ c (Proc.devRef .tc main_v11) := StableHlo.after_of_forall_not_mem (b := Proc.devRef .tc main_v11) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_v11) := W38_of_ne m ρ c main_v11 (by decide)
    _ = W36 m ρ c (Proc.devRef .tc main_v11) := StableHlo.after_of_forall_not_mem (b := Proc.devRef .tc main_v11) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_v11) := W36_of_ne m ρ c main_v11 (by decide)
    _ = W34 m ρ c (Proc.devRef .tc main_v11) := StableHlo.after_of_forall_not_mem (b := Proc.devRef .tc main_v11) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_v11) := W34_of_ne m ρ c main_v11 (by decide)
    _ = W32 m ρ c (Proc.devRef .tc main_v11) := StableHlo.after_of_forall_not_mem (b := Proc.devRef .tc main_v11) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_v11) := W32_of_ne m ρ c main_v11 (by decide)
    _ = W30 m ρ c (Proc.devRef .tc main_v11) := StableHlo.after_of_forall_not_mem (b := Proc.devRef .tc main_v11) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_v11) := W30_of_ne m ρ c main_v11 (by decide)
    _ = W28 m ρ c (Proc.devRef .tc main_v11) := StableHlo.after_of_forall_not_mem (b := Proc.devRef .tc main_v11) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_v11) := W28_of_ne m ρ c main_v11 (by decide)
    _ = W26 m ρ c (Proc.devRef .tc main_v11) := StableHlo.after_of_forall_not_mem (b := Proc.devRef .tc main_v11) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_v11) := W26_of_ne m ρ c main_v11 (by decide)
    _ = W24 m ρ c (Proc.devRef .tc main_v11) := StableHlo.after_of_forall_not_mem (b := Proc.devRef .tc main_v11) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_v11) := W24_of_ne m ρ c main_v11 (by decide)
    _ = W22 m ρ c (Proc.devRef .tc main_v11) := StableHlo.after_of_forall_not_mem (b := Proc.devRef .tc main_v11) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_v11) := W22_of_ne m ρ c main_v11 (by decide)
    _ = W20 m ρ c (Proc.devRef .tc main_v11) := StableHlo.after_of_forall_not_mem (b := Proc.devRef .tc main_v11) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_v11) := W20_of_ne m ρ c main_v11 (by decide)
    _ = W18 m ρ c (Proc.devRef .tc main_v11) := StableHlo.after_of_forall_not_mem (b := Proc.devRef .tc main_v11) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v11) := W18_of_ne m ρ c main_v11 (by decide)
    _ = W16 m ρ c (Proc.devRef .tc main_v11) := StableHlo.after_of_forall_not_mem (b := Proc.devRef .tc main_v11) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v11) := W16_of_ne m ρ c main_v11 (by decide)
    _ = W14 m ρ c (Proc.devRef .tc main_v11) := StableHlo.after_of_forall_not_mem (b := Proc.devRef .tc main_v11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v11) := W14_of_ne m ρ c main_v11 (by decide)
    _ = W12 m ρ c (Proc.devRef .tc main_v11) := StableHlo.after_of_forall_not_mem (b := Proc.devRef .tc main_v11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v11) := W12_of_ne m ρ c main_v11 (by decide)
    _ = W10 m ρ c (Proc.devRef .tc main_v11) := StableHlo.after_of_forall_not_mem (b := Proc.devRef .tc main_v11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v11) := W10_of_ne m ρ c main_v11 (by decide)
    _ = W8 m ρ c (Proc.devRef .tc main_v11) := StableHlo.after_of_forall_not_mem (b := Proc.devRef .tc main_v11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v11) := W8_of_ne m ρ c main_v11 (by decide)
    _ = W6 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := W6_of_ne m ρ c main_v11 (by decide)

end Cert.KernelIdeal.Carry

end
-- ==== Proof.KernelChain4.lean ====
/-
  Stage 4 of the chain, the kernel's half: the projection that closes a block of three hops. The array the
  normalisation's region leaves is, entry by entry, the batch normalisation of the projection's output, clipped at zero.
  The projection takes the block's three hop outputs, each as the region that made it left it, against the three 128 by
  128 squares of the stacked projection weights, adds the three products in order and then a bias row that is zero. The
  projection's region leaves the projection's output with its column sums and column sums of squares; the host
  operations between the two regions divide those by the row count and form the variance as the mean of squares less
  the squared mean, and lay the scale and the shift out as rows; the normalisation's region normalises with those rows.
  Here the steps are joined, and everything but the three hop outputs is named over the launch memory.
-/
import proofs.«414479_j7705171329025_1_alg».proof.Proof.ValTriple8
import proofs.«414479_j7705171329025_1_alg».proof.Proof.ValNormRelu9
import proofs.«414479_j7705171329025_1_alg».proof.Proof.HostHop2
import proofs.«414479_j7705171329025_1_alg».proof.Proof.HostProj8
import proofs.«414479_j7705171329025_1_alg».proof.Proof.HostStats9
import proofs.«414479_j7705171329025_1_alg».proof.Proof.StageReal
import proofs.«414479_j7705171329025_1_alg».proof.Proof.FrameKI.Run
import proofs.«414479_j7705171329025_1_alg».proof.Proof.Carry0
import proofs.«414479_j7705171329025_1_alg».proof.Proof.Carry3
import proofs.«414479_j7705171329025_1_alg».proof.Proof.Carry9
import Idealize.ShloMosaic.Lib.IdealHost
import Idealize.ShloMosaic.Lib.ValueLayout

set_option maxRecDepth 16384

noncomputable section

namespace Cert.KernelChain4

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## The arrays the stage is stated over, each at its literal type -/

/-- The first hop's output, as the region that made it leaves it. -/
abbrev h1 (c : Dev nD) : Vec Ideal S100000x128 .f32 := W8 (F := Ideal) m ρ c (Proc.devRef .tc main_v40)
/-- The second hop's output, as the region that made it leaves it. -/
abbrev h2 (c : Dev nD) : Vec Ideal S100000x128 .f32 := W12 (F := Ideal) m ρ c (Proc.devRef .tc main_v69)
/-- The third hop's output, as the region that made it leaves it. -/
abbrev h3 (c : Dev nD) : Vec Ideal S100000x128 .f32 := W16 (F := Ideal) m ρ c (Proc.devRef .tc main_v98)
/-- The stacked projection weights, as given: 384 rows of 128. -/
abbrev Wstack (c : Dev nD) : Vec Ideal S384x128 .f32 := m ((c : Thread nD τ).loc main_arg12)
/-- The square that meets the first hop's output: rows 0 to 127. -/
abbrev w0 (c : Dev nD) : Vec Ideal S128x128 .f32 := extractStridedSlice S128x128 ![0, 0] (Wstack m c) slices_S384x128_S128x128_0_0
/-- The square that meets the second hop's output: rows 128 to 255. -/
abbrev w1 (c : Dev nD) : Vec Ideal S128x128 .f32 := extractStridedSlice S128x128 ![128, 0] (Wstack m c) slices_S384x128_S128x128_128_0
/-- The square that meets the third hop's output: rows 256 to 383. -/
abbrev w2 (c : Dev nD) : Vec Ideal S128x128 .f32 := extractStridedSlice S128x128 ![256, 0] (Wstack m c) slices_S384x128_S128x128_256_0
/-- The 128 zeros. -/
abbrev zeros128 : Vec Ideal S128 .f32 := broadcastInDim S128 ![] bcast_S_S128 (constant (F := Ideal) S_ .f32 0x00000000#32)
/-- The bias row: the zeros laid out as a row. -/
abbrev zeroRow : Vec Ideal S1x128 .f32 := shapeCast S1x128 zeros128 shapeCasts_S128_S1x128
/-- The batch norm's scale, as given: 128 entries. -/
abbrev g (c : Dev nD) : Vec Ideal S128 .f32 := m ((c : Thread nD τ).loc main_arg13)
/-- The batch norm's shift, as given: 128 entries. -/
abbrev β (c : Dev nD) : Vec Ideal S128 .f32 := m ((c : Thread nD τ).loc main_arg14)

/-- The projection's output, entry by entry. -/
def y (c : Dev nD) (r : Fin 100000) (q : Fin 128) : EReal :=
  StageSpec.lin3 (h1 m ρ c) (h2 m ρ c) (h3 m ρ c) (w0 m c) (w1 m c) (w2 m c) zeroRow r q

/-- The row count, as the word the host operations divide by. -/
abbrev nRows : EReal := Ideal.ofBits .f32 0x47C35000#32

/-! ## The projection's region's seven arrays -/

/-- Nothing between the exit of the region that made it and the projection's region writes the first hop's output. -/
theorem x0_eq (c : Dev nD) : ValTriple8.x0Arr (V17 m ρ) c = h1 m ρ c :=
  (Carry.main_v40_8_17 m ρ c).trans rfl

/-- Nothing between the exit of the region that made it and the projection's region writes the second hop's output. -/
theorem x1_eq (c : Dev nD) : ValTriple8.x1Arr (V17 m ρ) c = h2 m ρ c :=
  (Carry.main_v69_12_17 m ρ c).trans rfl

/-- The host operations before the projection's region do not write the third hop's output. -/
theorem x2_eq (c : Dev nD) : ValTriple8.x2Arr (V17 m ρ) c = h3 m ρ c :=
  (Carry.main_v98_16_17 m ρ c).trans rfl

/-- The stacked weights are still the launch memory's at the exit of the third hop's last region. -/
theorem arg12_eq (c : Dev nD) : (W16 m ρ c (Proc.devRef .tc main_arg12) : Vec Ideal S384x128 .f32) = Wstack m c :=
  (Carry.main_arg12_0_16 m ρ c).trans rfl

/-- The first square of the weights, as the host operations before the projection's region cut it. -/
theorem w0_eq (c : Dev nD) : ValTriple8.w0Arr (V17 m ρ) c = w0 m c := by
  refine (HostProj8.read_w0 (W16 m ρ c)).trans ?_
  rw [arg12_eq m ρ c]

/-- The second square. -/
theorem w1_eq (c : Dev nD) : ValTriple8.w1Arr (V17 m ρ) c = w1 m c := by
  refine (HostProj8.read_w1 (W16 m ρ c)).trans ?_
  rw [arg12_eq m ρ c]

/-- The third square. -/
theorem w2_eq (c : Dev nD) : ValTriple8.w2Arr (V17 m ρ) c = w2 m c := by
  refine (HostProj8.read_w2 (W16 m ρ c)).trans ?_
  rw [arg12_eq m ρ c]

/-- The 128 zeros, written by the host operations before the first hop's first region of the first block, are written
    by nothing between there and the exit of this block's third hop's last region: no region in between has them as an
    array, and no host operation in between writes them. So there they are still the 128 zeros. -/
theorem v11_eq (c : Dev nD) : (W16 m ρ c (Proc.devRef .tc main_v11) : Vec Ideal S128 .f32) = zeros128 :=
  (Carry.main_v11_5_16 m ρ c).trans (HostHop2.read_zeros (W4 m ρ c))

/-- The bias row the projection's region takes is the zeros laid out as a row. -/
theorem b_eq (c : Dev nD) : ValTriple8.bRow (V17 m ρ) c = zeroRow := by
  refine (HostProj8.read_bias (W16 m ρ c)).trans ?_
  rw [v11_eq m ρ c]

/-- So the region's projection is the one stated over the three hop outputs and the launch memory. -/
theorem y_eq (c : Dev nD) : ValTriple8.y (V17 m ρ) c = y m ρ c := by
  funext r q
  unfold ValTriple8.y y
  rw [x0_eq m ρ c, x1_eq m ρ c, x2_eq m ρ c, w0_eq m ρ c, w1_eq m ρ c, w2_eq m ρ c, b_eq m ρ c]

/-! ## The normalisation's region's five arrays, from the projection's region's three -/

/-- The column sums, as the projection's region leaves them. -/
theorem sum_eq (c : Dev nD) :
    (W18 m ρ c (Proc.devRef .tc main_v103_1) : Vec Ideal S1x128 .f32) = ValTriple8.resultSum (V17 m ρ) c :=
  (W18_arr m ρ c 8).trans (ValTriple8.arrAt_sum (V17 m ρ) c)

/-- The column sums of squares, as the projection's region leaves them. -/
theorem sumsq_eq (c : Dev nD) :
    (W18 m ρ c (Proc.devRef .tc main_v103_2) : Vec Ideal S1x128 .f32) = ValTriple8.resultSumSq (V17 m ρ) c :=
  (W18_arr m ρ c 9).trans (ValTriple8.arrAt_sumsq (V17 m ρ) c)

/-- The scale is still the launch memory's after the projection's region. -/
theorem g_eq (c : Dev nD) : (W18 m ρ c (Proc.devRef .tc main_arg13) : Vec Ideal S128 .f32) = g m c :=
  (Carry.main_arg13_0_18 m ρ c).trans rfl

/-- And so is the shift. -/
theorem beta_eq (c : Dev nD) : (W18 m ρ c (Proc.devRef .tc main_arg14) : Vec Ideal S128 .f32) = β m c :=
  (Carry.main_arg14_0_18 m ρ c).trans rfl

/-- The tall array the normalisation's region takes is the projection's region's output: the host operations between
    the two do not write it. -/
theorem yArr_eq (c : Dev nD) : ValNorm9.yArr (V19 m ρ) c = ValTriple8.resultY (V17 m ρ) c :=
  ((HostStats9.read_y (W18 m ρ c)).trans (W18_arr m ρ c 7)).trans (ValTriple8.arrAt_y (V17 m ρ) c)

/-- The mean row: the column sums over the row count. -/
theorem meanRow_eq (c : Dev nD) :
    ValNorm9.meanRow (V19 m ρ) c = Host.divf (F := Ideal) (φ := .f32) (ValTriple8.resultSum (V17 m ρ) c) (HostStats9.nRow (F := Ideal)) := by
  refine (HostStats9.read_mean (W18 m ρ c)).trans ?_
  rw [sum_eq m ρ c]

/-- The variance row: the mean of squares less the squared mean. -/
theorem varRow_eq (c : Dev nD) :
    ValNorm9.varRow (V19 m ρ) c
      = subf (F := Ideal) (φ := .f32) (Host.divf (F := Ideal) (φ := .f32) (ValTriple8.resultSumSq (V17 m ρ) c) (HostStats9.nRow (F := Ideal)))
          (mulf (F := Ideal) (φ := .f32) (Host.divf (F := Ideal) (φ := .f32) (ValTriple8.resultSum (V17 m ρ) c) (HostStats9.nRow (F := Ideal)))
            (Host.divf (F := Ideal) (φ := .f32) (ValTriple8.resultSum (V17 m ρ) c) (HostStats9.nRow (F := Ideal)))) := by
  refine (HostStats9.read_var (W18 m ρ c)).trans ?_
  rw [sum_eq m ρ c, sumsq_eq m ρ c]

/-- The scale row: the scale laid out as a row. -/
theorem gRow_eq (c : Dev nD) : ValNorm9.gRow (V19 m ρ) c = shapeCast S1x128 (g m c) shapeCasts_S128_S1x128 := by
  refine (HostStats9.read_g (W18 m ρ c)).trans ?_
  rw [g_eq m ρ c]

/-- The shift row: the shift laid out as a row. -/
theorem betaRow_eq (c : Dev nD) : ValNorm9.betaRow (V19 m ρ) c = shapeCast S1x128 (β m c) shapeCasts_S128_S1x128 := by
  refine (HostStats9.read_beta (W18 m ρ c)).trans ?_
  rw [beta_eq m ρ c]

/-! ## The five arrays read at an entry -/

/-- The divisor row holds the row count in every column. -/
theorem nRow_apply (j : S1x128.Idx) : HostStats9.nRow (F := Ideal) j = nRows := by
  unfold HostStats9.nRow
  exact (broadcastInDim_scalar_apply bcast_S_S1x128 (constant (F := Ideal) S_ .f32 0x47C35000#32) j).trans rfl

/-- The tall array at row r, column q is the projection's entry. -/
theorem yArr_apply (c : Dev nD) (r : Fin 100000) (q : Fin 128) :
    ValNorm9.yArr (V19 m ρ) c (ix2 r q) = ValTriple8.y (V17 m ρ) c r q :=
  (congrFun (yArr_eq m ρ c) (ix2 r q)).trans rfl

/-- The mean row at column q is the column mean of the projection's output. -/
theorem mean_apply (c : Dev nD) (q : Fin 128) :
    ValNorm9.meanRow (V19 m ρ) c (ix2 (0 : Fin 1) q) = StageReal.colMean (ValTriple8.y (V17 m ρ) c) nRows q := by
  refine (congrFun (meanRow_eq m ρ c) (ix2 (0 : Fin 1) q)).trans ?_
  show Ideal.div (ValTriple8.resultSum (V17 m ρ) c (ix2 (0 : Fin 1) q)) (HostStats9.nRow (F := Ideal) (ix2 (0 : Fin 1) q)) = _
  rw [nRow_apply]
  rfl

/-- The variance row at column q is the mean of squares less the squared mean of that column. -/
theorem var_apply (c : Dev nD) (q : Fin 128) :
    ValNorm9.varRow (V19 m ρ) c (ix2 (0 : Fin 1) q) = StageReal.varSumSq (ValTriple8.y (V17 m ρ) c) nRows q := by
  refine (congrFun (varRow_eq m ρ c) (ix2 (0 : Fin 1) q)).trans ?_
  show Ideal.div (ValTriple8.resultSumSq (V17 m ρ) c (ix2 (0 : Fin 1) q)) (HostStats9.nRow (F := Ideal) (ix2 (0 : Fin 1) q))
      - Ideal.div (ValTriple8.resultSum (V17 m ρ) c (ix2 (0 : Fin 1) q)) (HostStats9.nRow (F := Ideal) (ix2 (0 : Fin 1) q))
        * Ideal.div (ValTriple8.resultSum (V17 m ρ) c (ix2 (0 : Fin 1) q)) (HostStats9.nRow (F := Ideal) (ix2 (0 : Fin 1) q)) = _
  rw [nRow_apply]
  rfl

/-- The scale row at column q is the scale's entry q. -/
theorem g_apply (c : Dev nD) (q : Fin 128) : ValNorm9.gRow (V19 m ρ) c (ix2 (0 : Fin 1) q) = g m c (ix1 q) :=
  (congrFun (gRow_eq m ρ c) (ix2 (0 : Fin 1) q)).trans
    (shapeCast_a_1a_apply (g m c) shapeCasts_S128_S1x128 (0 : Fin 1) q)

/-- The shift row at column q is the shift's entry q. -/
theorem beta_apply (c : Dev nD) (q : Fin 128) : ValNorm9.betaRow (V19 m ρ) c (ix2 (0 : Fin 1) q) = β m c (ix1 q) :=
  (congrFun (betaRow_eq m ρ c) (ix2 (0 : Fin 1) q)).trans
    (shapeCast_a_1a_apply (β m c) shapeCasts_S128_S1x128 (0 : Fin 1) q)

/-! ## The projection stage's output -/

/-- What the normalisation's region leaves in its output array is what it computes from its five arrays. -/
theorem out_eq (c : Dev nD) :
    (W20 (F := Ideal) m ρ c (Proc.devRef .tc main_v112) : Vec Ideal S100000x128 .f32) = ValNorm9.result (V19 m ρ) c :=
  (W20_arr m ρ c 5).trans (ValNorm9.arrAt_out (V19 m ρ) c)

/-- THE KERNEL'S PROJECTION OUTPUT, entry by entry: the batch normalisation of the projection of the three hop outputs
    with the statistics in the kernel's form, clipped at zero. -/
theorem kernel_out_apply (c : Dev nD) (r : Fin 100000) (q : Fin 128) :
    (W20 (F := Ideal) m ρ c (Proc.devRef .tc main_v112) : Vec Ideal S100000x128 .f32) (ix2 r q)
      = max (StageSpec.norm (y m ρ c r q) (StageReal.colMean (y m ρ c) nRows q) (StageReal.varSumSq (y m ρ c) nRows q)
          (g m c (ix1 q)) (β m c (ix1 q))) 0 := by
  refine (congrFun (out_eq m ρ c) (ix2 r q)).trans ?_
  show max (StageSpec.norm (ValNorm9.yArr (V19 m ρ) c (ix2 r q)) (ValNorm9.meanRow (V19 m ρ) c (ix2 (0 : Fin 1) q))
      (ValNorm9.varRow (V19 m ρ) c (ix2 (0 : Fin 1) q)) (ValNorm9.gRow (V19 m ρ) c (ix2 (0 : Fin 1) q))
      (ValNorm9.betaRow (V19 m ρ) c (ix2 (0 : Fin 1) q))) 0 = _
  rw [yArr_apply m ρ c r q, mean_apply m ρ c q, var_apply m ρ c q, g_apply m ρ c q, beta_apply m ρ c q, y_eq m ρ c]

end Cert.KernelChain4

end
-- ==== Proof.RefChain4.lean ====
/- Stage 4 of the reference, a block's projection, at an entry: W is the contents before windows 2 and 3. The three hops'
   outputs x0, x1, x2 are laid side by side and sent through the 384 × 128 projection (no bias); the result is
   normalised by its own column statistics and clipped at zero. At row r and column q the clipped array is the greater
   of zero and the normalisation of the product's entry, which is the sum over the 384 inner positions, and that sum
   is the three hops' products with the three squares cut out of the projection, added in a row. -/
import proofs.«414479_j7705171329025_1_alg».proof.Proof.RefStage2
import proofs.«414479_j7705171329025_1_alg».proof.Proof.RefStage3
import proofs.«414479_j7705171329025_1_alg».proof.Proof.RefKinds

noncomputable section

namespace Cert.ReferenceIdeal.RefChain4

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The block's hop 0 output. -/
abbrev x0 : (⟨S100000x128, .f32⟩ : BufTy).Contents (Elt Ideal) :=
  (W (Proc.devRef .tc main_v65))

/-- The block's hop 1 output. -/
abbrev x1 : (⟨S100000x128, .f32⟩ : BufTy).Contents (Elt Ideal) :=
  (RefStage2.t_v107 W)

/-- The block's hop 2 output. -/
abbrev x2 : (⟨S100000x128, .f32⟩ : BufTy).Contents (Elt Ideal) :=
  (RefStage2.t_v149 W)

/-- The three side by side. -/
abbrev cat : (⟨S100000x384, .f32⟩ : BufTy).Contents (Elt Ideal) :=
  concatenate S100000x384 1 [⟨S100000x128, x0 W⟩, ⟨S100000x128, x1 W⟩, ⟨S100000x128, x2 W⟩] concatenates_S100000x128_S100000x128_S100000x128_S100000x384_d1

/-- The projection. -/
abbrev K : (⟨S384x128, .f32⟩ : BufTy).Contents (Elt Ideal) := W (Proc.devRef .tc main_arg12)

/-- The scale and the shift. -/
abbrev g : (⟨S128, .f32⟩ : BufTy).Contents (Elt Ideal) := (W (Proc.devRef .tc main_arg13))
abbrev β : (⟨S128, .f32⟩ : BufTy).Contents (Elt Ideal) := (W (Proc.devRef .tc main_arg14))

/-- The projection's output. -/
abbrev lin : (⟨S100000x128, .f32⟩ : BufTy).Contents (Elt Ideal) :=
  Host.dotGeneral (F := Ideal) (φ₁ := .f32) (φ₂ := .f32) dot_S100000x384_S384x128_S100000x128_1_0_0_1_n_n none (cat W) (K W)

/-- Its entry: the sum over the 384 inner positions. -/
abbrev y (r : Fin 100000) (q : Fin 128) : EReal := ∑ j : Fin 384, cat W (ix2 r j) * K W (ix2 j q)

set_option maxRecDepth 8192 in
/-- After the stage's last window main_v171 holds the clipped normalised projection. -/
theorem out_eq : (after (ops3 (F := Ideal)) (after (ops2 (F := Ideal)) W) (Proc.devRef .tc main_v171) : (⟨S100000x128, .f32⟩ : BufTy).Contents (Elt Ideal))
    = RefTerms.relu (RefTerms.affine (RefTerms.standardise (lin W) (RefTerms.colMean (lin W)) (RefTerms.colVar (lin W) (constantI S_ 32 0#32 : (⟨S_, .i32⟩ : BufTy).Contents (Elt Ideal)))) (g W) (β W)) := by
  rw [RefStage3.read_v171]
  simp only [RefStage3.t_v171]
  rw [RefStage2.keep W (r := main_arg13) (by decide), RefStage2.keep W (r := main_arg14) (by decide), RefStage2.read_cst_24 W, RefStage2.read_v151 W, RefStage2.read_v152 W] <;> rfl

/-- STAGE 4 AT AN ENTRY. -/
theorem out_apply (r : Fin 100000) (q : Fin 128) : (after (ops3 (F := Ideal)) (after (ops2 (F := Ideal)) W) (Proc.devRef .tc main_v171) : (⟨S100000x128, .f32⟩ : BufTy).Contents (Elt Ideal)) (ix2 r q)
    = max (StageSpec.norm (y W r q) (StageReal.colMean (y W) RefKinds.N q) (StageReal.varDev (y W) RefKinds.N q) (g W (ix1 q)) (β W (ix1 q))) 0 := by
  rw [out_eq]
  exact RefKinds.relu_norm_of_entries (lin W) (y W) (fun r q => RefIndex.dot384_apply _ _ r q) _ rfl (g W) (β W) r q

/-! ## The same entry as three products added in a row -/

/-- The three squares cut out of the projection, and the row of zeros. -/
theorem slices_0 : S384x128.Slices ![0, 0] S128x128 := by decide
theorem slices_128 : S384x128.Slices ![128, 0] S128x128 := by decide
theorem slices_256 : S384x128.Slices ![256, 0] S128x128 := by decide
abbrev w0 : (⟨S128x128, .f32⟩ : BufTy).Contents (Elt Ideal) := extractStridedSlice S128x128 ![0, 0] (K W) slices_0
abbrev w1 : (⟨S128x128, .f32⟩ : BufTy).Contents (Elt Ideal) := extractStridedSlice S128x128 ![128, 0] (K W) slices_128
abbrev w2 : (⟨S128x128, .f32⟩ : BufTy).Contents (Elt Ideal) := extractStridedSlice S128x128 ![256, 0] (K W) slices_256
abbrev zeroRow : (⟨S1x128, .f32⟩ : BufTy).Contents (Elt Ideal) :=
  shapeCast S1x128 (broadcastInDim S128 ![] bcast_S_S128 (constant (F := Ideal) S_ .f32 0x00000000#32)) RefKinds.shapeCasts_S128_S1x128

/-- The row of zeros reads zero. -/
theorem zeroRow_apply (q : Fin 128) : zeroRow (ix2 (0 : Fin 1) q) = 0 := by
  show shapeCast S1x128 (broadcastInDim S128 ![] bcast_S_S128 (constant (F := Ideal) S_ .f32 0x00000000#32)) RefKinds.shapeCasts_S128_S1x128 (ix2 (0 : Fin 1) q) = 0
  rw [shapeCast_a_1a_apply, broadcastInDim_scalar_apply]
  exact Ideal.ofBits_zero_f32

/-- The product over the joined inner axis is the three hops' products with the three squares, added in that order,
    plus the zero row's entry. -/
theorem y_eq_lin3 (r : Fin 100000) (q : Fin 128) :
    y W r q = StageSpec.lin3 (x0 W) (x1 W) (x2 W) (w0 W) (w1 W) (w2 W) zeroRow r q :=
  (StageReal.lin3_eq_sum_of_bias_zero (k := 128) (m := 384) rfl (x0 W) (x1 W) (x2 W) (w0 W) (w1 W) (w2 W) (cat W) (K W)
    (fun r j => RefConcat.cat_fst _ _ _ _ r j _) (fun r j => RefConcat.cat_snd _ _ _ _ r j _) (fun r j => RefConcat.cat_trd _ _ _ _ r j _)
    (fun j q => (RefConcat.rows_cut_zero _ _ j q _).symm) (fun j q => (RefConcat.rows_cut 128 _ _ j q _).symm)
    (fun j q => (RefConcat.rows_cut_256 _ _ j q _).symm) zeroRow r q (zeroRow_apply q)).symm

end Cert.ReferenceIdeal.RefChain4

end
-- ==== Proof.Chain4.lean ====
/-
  Stage 4 of the chain: the projection that closes a block of three hops. Both programs send the block's three hop
  outputs through the three 128 by 128 squares of the stacked projection weights and add the three products (the
  reference as one product over the three outputs laid side by side against the whole stack, the kernel square by
  square with a zero bias row), normalise the result by its batch statistics, and clip at zero. The three hop outputs
  are equal in the two programs and real by the three earlier stages' invariants, and the weights, the scale and the
  shift are the launch memory's on both sides; so the two projections are one array of real numbers, the two forms of
  its variance are one number, and the two clipped normalised arrays are equal, entry by entry, and real.
-/
import proofs.«414479_j7705171329025_1_alg».proof.Proof.KernelChain4
import proofs.«414479_j7705171329025_1_alg».proof.Proof.RefChain4
import proofs.«414479_j7705171329025_1_alg».proof.Proof.RefStage0
import proofs.«414479_j7705171329025_1_alg».proof.Proof.RefStage1
import proofs.«414479_j7705171329025_1_alg».proof.Proof.RefStage2
import proofs.«414479_j7705171329025_1_alg».proof.Proof.ChainDefs
import proofs.«414479_j7705171329025_1_alg».proof.Proof.Chain0
import proofs.«414479_j7705171329025_1_alg».proof.Proof.StageReal
import proofs.«414479_j7705171329025_1_alg».proof.Proof.SliceReal
import proofs.«414479_j7705171329025_1_alg».proof.Proof.PreReal

noncomputable section

namespace Cert.Chain4

open Cert.RealSpec (IsReal)
open Cert.ChainDefs
open Idealize.ShloMosaic Idealize.ShloMosaic.TcCoe Idealize.ShloMosaic.StableHlo Idealize.ShloMosaic.ValueIdx

variable [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-! ## The parameters: the launch memory's on both sides -/

/-- The reference's stacked projection weights, read before the stage's two lists of operations, are the kernel's: the
    lists of operations before do not write them, and the two launch memories agree on them. -/
theorem K_eq (hag : Cert.Chain0.Agree m m') (c : Dev Cert.KernelIdeal.nD) :
    Cert.ReferenceIdeal.RefChain4.K (U2 m' c) = Cert.KernelChain4.Wstack m c :=
  ((Cert.ReferenceIdeal.RefStage1.keep (U1 m' c) (r := Cert.ReferenceIdeal.main_arg12) (by decide)).trans
    (Cert.ReferenceIdeal.RefStage0.keep (U0 m' c) (r := Cert.ReferenceIdeal.main_arg12) (by decide))).trans (hag.arg12 c)

/-- The scale likewise. -/
theorem g_eq (hag : Cert.Chain0.Agree m m') (c : Dev Cert.KernelIdeal.nD) :
    Cert.ReferenceIdeal.RefChain4.g (U2 m' c) = Cert.KernelChain4.g m c :=
  ((Cert.ReferenceIdeal.RefStage1.keep (U1 m' c) (r := Cert.ReferenceIdeal.main_arg13) (by decide)).trans
    (Cert.ReferenceIdeal.RefStage0.keep (U0 m' c) (r := Cert.ReferenceIdeal.main_arg13) (by decide))).trans (hag.arg13 c)

/-- And the shift. -/
theorem beta_eq (hag : Cert.Chain0.Agree m m') (c : Dev Cert.KernelIdeal.nD) :
    Cert.ReferenceIdeal.RefChain4.β (U2 m' c) = Cert.KernelChain4.β m c :=
  ((Cert.ReferenceIdeal.RefStage1.keep (U1 m' c) (r := Cert.ReferenceIdeal.main_arg14) (by decide)).trans
    (Cert.ReferenceIdeal.RefStage0.keep (U0 m' c) (r := Cert.ReferenceIdeal.main_arg14) (by decide))).trans (hag.arg14 c)

/-- So the three squares cut out of the two stacks are the same squares. -/
theorem w0_eq (hag : Cert.Chain0.Agree m m') (c : Dev Cert.KernelIdeal.nD) :
    Cert.ReferenceIdeal.RefChain4.w0 (U2 m' c) = Cert.KernelChain4.w0 m c :=
  congrArg (fun K : Vec Ideal Cert.KernelIdeal.S384x128 .f32 =>
    extractStridedSlice Cert.KernelIdeal.S128x128 ![0, 0] K Cert.KernelIdeal.Gen.slices_S384x128_S128x128_0_0) (K_eq m m' hag c)

theorem w1_eq (hag : Cert.Chain0.Agree m m') (c : Dev Cert.KernelIdeal.nD) :
    Cert.ReferenceIdeal.RefChain4.w1 (U2 m' c) = Cert.KernelChain4.w1 m c :=
  congrArg (fun K : Vec Ideal Cert.KernelIdeal.S384x128 .f32 =>
    extractStridedSlice Cert.KernelIdeal.S128x128 ![128, 0] K Cert.KernelIdeal.Gen.slices_S384x128_S128x128_128_0) (K_eq m m' hag c)

theorem w2_eq (hag : Cert.Chain0.Agree m m') (c : Dev Cert.KernelIdeal.nD) :
    Cert.ReferenceIdeal.RefChain4.w2 (U2 m' c) = Cert.KernelChain4.w2 m c :=
  congrArg (fun K : Vec Ideal Cert.KernelIdeal.S384x128 .f32 =>
    extractStridedSlice Cert.KernelIdeal.S128x128 ![256, 0] K Cert.KernelIdeal.Gen.slices_S384x128_S128x128_256_0) (K_eq m m' hag c)

/-- The two rows of zeros are the same row. -/
theorem z_eq : Cert.ReferenceIdeal.RefChain4.zeroRow = Cert.KernelChain4.zeroRow := rfl

/-! ## The three hop outputs: equal by the three earlier stages -/

/-- The first hop's output: the reference reads it where its first hop's stage left it. -/
theorem x0_eq (c : Dev Cert.KernelIdeal.nD) (i1 : Inv1 m ρ m' c) :
    Cert.ReferenceIdeal.RefChain4.x0 (U2 m' c) = Cert.KernelChain4.h1 m ρ c :=
  funext fun i => (i1.1 i).symm

/-- The second hop's output: what the reference's next list of operations leaves for it is the term the reference's
    half of this stage names. -/
theorem x1_eq (c : Dev Cert.KernelIdeal.nD) (i2 : Inv2 m ρ m' c) :
    Cert.ReferenceIdeal.RefChain4.x1 (U2 m' c) = Cert.KernelChain4.h2 m ρ c :=
  funext fun i => ((congrFun (Cert.ReferenceIdeal.RefStage2.read_v107 (U2 m' c)) i).symm).trans (i2.1 i).symm

/-- The term the reference's list of operations forms for the third hop's output is the one the reference's half of
    this stage names. -/
theorem t_v149_eq (c : Dev Cert.KernelIdeal.nD) :
    Cert.ReferenceIdeal.RefStage2.t_v149 (U2 m' c) = Cert.ReferenceIdeal.RefChain4.x2 (U2 m' c) := rfl

/-- The third hop's output. -/
theorem x2_eq (c : Dev Cert.KernelIdeal.nD) (i3 : Inv3 m ρ m' c) :
    Cert.ReferenceIdeal.RefChain4.x2 (U2 m' c) = Cert.KernelChain4.h3 m ρ c :=
  funext fun i => ((congrFun ((Cert.ReferenceIdeal.RefStage2.read_v149 (U2 m' c)).trans (t_v149_eq m' c)) i).symm).trans (i3.1 i).symm

/-! ## The two projections are one array of real numbers -/

/-- The reference's projection, written as three products added in a row, is the kernel's. -/
theorem y_eq (hag : Cert.Chain0.Agree m m') (c : Dev Cert.KernelIdeal.nD) (i1 : Inv1 m ρ m' c) (i2 : Inv2 m ρ m' c)
    (i3 : Inv3 m ρ m' c) : Cert.ReferenceIdeal.RefChain4.y (U2 m' c) = Cert.KernelChain4.y m ρ c := by
  funext r q
  rw [Cert.ReferenceIdeal.RefChain4.y_eq_lin3 (U2 m' c) r q]
  unfold Cert.KernelChain4.y
  rw [x0_eq m ρ m' c i1, x1_eq m ρ m' c i2, x2_eq m ρ m' c i3, w0_eq m m' hag c, w1_eq m m' hag c, w2_eq m m' hag c, z_eq]

/-- Every entry of the projection is a real number: the three hop outputs are by the earlier stages, the squares
    of the weights are under the precondition, and the bias row is zero. -/
theorem y_isReal (hpre : Cert.Pre_KernelIdeal m) (c : Dev Cert.KernelIdeal.nD) (i1 : Inv1 m ρ m' c) (i2 : Inv2 m ρ m' c)
    (i3 : Inv3 m ρ m' c) (r : Fin 100000) (q : Fin 128) : IsReal (Cert.KernelChain4.y m ρ c r q) :=
  Cert.StageReal.lin3_isReal (Cert.KernelChain4.h1 m ρ c) (Cert.KernelChain4.h2 m ρ c) (Cert.KernelChain4.h3 m ρ c)
    (Cert.KernelChain4.w0 m c) (Cert.KernelChain4.w1 m c) (Cert.KernelChain4.w2 m c) Cert.KernelChain4.zeroRow
    i1.2 i2.2 i3.2
    (Cert.SliceReal.projW0_isReal (Cert.KernelChain4.Wstack m c) (Cert.PreReal.real_arg12 m hpre c))
    (Cert.SliceReal.projW1_isReal (Cert.KernelChain4.Wstack m c) (Cert.PreReal.real_arg12 m hpre c))
    (Cert.SliceReal.projW2_isReal (Cert.KernelChain4.Wstack m c) (Cert.PreReal.real_arg12 m hpre c))
    Cert.SliceReal.zeroRow_isReal r q

/-! ## The stage -/

/-- STAGE 4: the two clipped normalised projections are equal, and every entry is a real number. -/
theorem stage4 (hpre : Cert.Pre_KernelIdeal m) (hag : Cert.Chain0.Agree m m') (c : Dev Cert.KernelIdeal.nD)
    (i1 : Inv1 m ρ m' c) (i2 : Inv2 m ρ m' c) (i3 : Inv3 m ρ m' c) :
    (∀ i, kOut4 m ρ c i = rOut4 m' c i) ∧ (∀ i, IsReal (kOut4 m ρ c i)) := by
  have ey : Cert.ReferenceIdeal.RefChain4.y (U2 m' c) = Cert.KernelChain4.y m ρ c := y_eq m ρ m' hag c i1 i2 i3
  have eg : Cert.ReferenceIdeal.RefChain4.g (U2 m' c) = Cert.KernelChain4.g m c := g_eq m m' hag c
  have eβ : Cert.ReferenceIdeal.RefChain4.β (U2 m' c) = Cert.KernelChain4.β m c := beta_eq m m' hag c
  have hy : ∀ r q, IsReal (Cert.KernelChain4.y m ρ c r q) := y_isReal m ρ m' hpre c i1 i2 i3
  refine ⟨fun i => ?_, fun i => ?_⟩
  · obtain ⟨r, q, rfl⟩ : ∃ (r : Fin 100000) (q : Fin 128), i = ix2 r q := ⟨i 0, i 1, eq_ix2 i⟩
    rw [show kOut4 m ρ c (ix2 r q) = _ from Cert.KernelChain4.kernel_out_apply m ρ c r q,
      show rOut4 m' c (ix2 r q) = _ from Cert.ReferenceIdeal.RefChain4.out_apply (U2 m' c) r q,
      ey, eg, eβ]
    exact congrArg (fun z => max z 0)
      (Cert.StageReal.norm_varSumSq_eq_norm_varDev_100000 (Cert.KernelChain4.y m ρ c) hy q (Cert.KernelChain4.y m ρ c r q) _ _)
  · obtain ⟨r, q, rfl⟩ : ∃ (r : Fin 100000) (q : Fin 128), i = ix2 r q := ⟨i 0, i 1, eq_ix2 i⟩
    rw [show kOut4 m ρ c (ix2 r q) = _ from Cert.KernelChain4.kernel_out_apply m ρ c r q]
    exact Cert.StageReal.max_zero_isReal
      (Cert.StageReal.norm_varSumSq_isReal_100000 (Cert.KernelChain4.y m ρ c) hy q (hy r q)
        (Cert.PreReal.real_arg13 m hpre c (ix1 q)) (Cert.PreReal.real_arg14 m hpre c (ix1 q)))

/-- Stage 4 in the chain's own words. -/
theorem inv4 (hpre : Cert.Pre_KernelIdeal m) (hag : Cert.Chain0.Agree m m') (c : Dev Cert.KernelIdeal.nD)
    (i1 : Inv1 m ρ m' c) (i2 : Inv2 m ρ m' c) (i3 : Inv3 m ρ m' c) : Inv4 m ρ m' c :=
  stage4 m ρ m' hpre hag c i1 i2 i3

end Cert.Chain4

end
-- ==== Proof.ValAdd2_10.lean ====
/-
  Region 10: a message-passing hop's linear stage with its column statistics. At each grid point the body adds a block of
  5000 rows of the pooled neighbours to the same rows of the block's input, multiplies by the hop's weight matrix, adds the
  bias row, stores that block, and adds the block's column sums and column sums of squares to two carried rows the first
  point has set to zero. As for the embedding, the blocks tile the rows and the carried rows end as sums over all rows.
-/
import proofs.«414479_j7705171329025_1_alg».proof.Proof.FrameKI.R10
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValAdd2_10

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. At the first point the two carried rows are first set to zero and then read
  back, so the running rows it leaves are the block's sums added to zero; at the other points they are added to what the
  rows held. -/

section Pieces

variable {F : FTy → Type} [FloatOps F]

theorem outA4 (c : Dev nD) (i : grid10.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond10_0 i)
    (x0 : Vec F S5000x128 .f32) (x1 : Vec F S5000x128 .f32) (x2 : Vec F S128x128 .f32) (x3 : Vec F S1x128 .f32) :
    out10_A_4 c i a1 h1 a2 h2 a3 h3 a4 h4 a5 h5 a6 h6 a7 h7 hc x0 x1 x2 x3 = k10_pay3 x0 x1 x2 x3 := by
  unfold out10_A_4
  rw [View.read_writes_eq_canon _ _ _ (cover10_A_4 c i a1 h1 a2 h2 a3 h3 a4 h4 a5 h5 a6 h6 a7 h7 hc x0 x1 x2 x3)]
  unfold kernelRun10_A
  dsimp only
  (try sl_unfold_words)
  rw [View.canon_unit_zero hz]
  simp only [View.readAt_eq_ld, h1.read_unread, h2.read_unread, h3.read_unread, h4.read_unread,
    View.ld_unit_zero (S := S5000x128) hz, View.ld_unit_zero (S := S128x128) hz, View.ld_unit_zero (S := S1x128) hz]

theorem outA5 (c : Dev nD) (i : grid10.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond10_0 i)
    (x0 : Vec F S5000x128 .f32) (x1 : Vec F S5000x128 .f32) (x2 : Vec F S128x128 .f32) (x3 : Vec F S1x128 .f32) :
    out10_A_5 c i a1 h1 a2 h2 a3 h3 a4 h4 a5 h5 a6 h6 a7 h7 hc x0 x1 x2 x3 = k10_pay4 x0 x1 x2 x3 (k10_pay1 (F := F)) := by
  unfold out10_A_5
  rw [View.read_writes_eq_canon _ _ _ (cover10_A_5 c i a1 h1 a2 h2 a3 h3 a4 h4 a5 h5 a6 h6 a7 h7 hc x0 x1 x2 x3)]
  unfold kernelRun10_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outA6 (c : Dev nD) (i : grid10.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond10_0 i)
    (x0 : Vec F S5000x128 .f32) (x1 : Vec F S5000x128 .f32) (x2 : Vec F S128x128 .f32) (x3 : Vec F S1x128 .f32) :
    out10_A_6 c i a1 h1 a2 h2 a3 h3 a4 h4 a5 h5 a6 h6 a7 h7 hc x0 x1 x2 x3 = k10_pay5 x0 x1 x2 x3 (k10_pay2 (F := F)) := by
  unfold out10_A_6
  rw [View.read_writes_eq_canon _ _ _ (cover10_A_6 c i a1 h1 a2 h2 a3 h3 a4 h4 a5 h5 a6 h6 a7 h7 hc x0 x1 x2 x3)]
  unfold kernelRun10_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outB4 (c : Dev nD) (i : grid10.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond10_0 i)
    (x0 : Vec F S5000x128 .f32) (x1 : Vec F S5000x128 .f32) (x2 : Vec F S128x128 .f32) (x3 : Vec F S1x128 .f32) (xoS xoQ : Vec F S1x128 .f32) :
    out10_B_4 c i a1 h1 a2 h2 a3 h3 a4 h4 a5 h5 a6 h6 a7 h7 hc x0 x1 x2 x3 xoS xoQ = k10_pay3 x0 x1 x2 x3 := by
  unfold out10_B_4
  rw [View.read_writes_eq_canon _ _ _ (cover10_B_4 c i a1 h1 a2 h2 a3 h3 a4 h4 a5 h5 a6 h6 a7 h7 hc x0 x1 x2 x3 xoS xoQ)]
  unfold kernelRun10_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB5 (c : Dev nD) (i : grid10.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond10_0 i)
    (x0 : Vec F S5000x128 .f32) (x1 : Vec F S5000x128 .f32) (x2 : Vec F S128x128 .f32) (x3 : Vec F S1x128 .f32) (xoS xoQ : Vec F S1x128 .f32) :
    out10_B_5 c i a1 h1 a2 h2 a3 h3 a4 h4 a5 h5 a6 h6 a7 h7 hc x0 x1 x2 x3 xoS xoQ = k10_pay4 x0 x1 x2 x3 xoS := by
  unfold out10_B_5
  rw [View.read_writes_eq_canon _ _ _ (cover10_B_5 c i a1 h1 a2 h2 a3 h3 a4 h4 a5 h5 a6 h6 a7 h7 hc x0 x1 x2 x3 xoS xoQ)]
  unfold kernelRun10_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB6 (c : Dev nD) (i : grid10.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond10_0 i)
    (x0 : Vec F S5000x128 .f32) (x1 : Vec F S5000x128 .f32) (x2 : Vec F S128x128 .f32) (x3 : Vec F S1x128 .f32) (xoS xoQ : Vec F S1x128 .f32) :
    out10_B_6 c i a1 h1 a2 h2 a3 h3 a4 h4 a5 h5 a6 h6 a7 h7 hc x0 x1 x2 x3 xoS xoQ = k10_pay5 x0 x1 x2 x3 xoQ := by
  unfold out10_B_6
  rw [View.read_writes_eq_canon _ _ _ (cover10_B_6 c i a1 h1 a2 h2 a3 h3 a4 h4 a5 h5 a6 h6 a7 h7 hc x0 x1 x2 x3 xoS xoQ)]
  unfold kernelRun10_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

end Pieces

variable (V : (c : Dev nD) → (b : Ref sig .tc) → Buf (Elt Ideal) ((c : Thread nD τ).loc b))

/-- The region's input arrays as it finds them, each at its literal type. -/
abbrev xaArr (c : Dev nD) : Vec Ideal S100000x128 .f32 := V c (Pipeline.arrRef spec10 0)
abbrev xbArr (c : Dev nD) : Vec Ideal S100000x128 .f32 := V c (Pipeline.arrRef spec10 1)
abbrev wArr (c : Dev nD) : Vec Ideal S128x128 .f32 := V c (Pipeline.arrRef spec10 2)
abbrev bRow (c : Dev nD) : Vec Ideal S1x128 .f32 := V c (Pipeline.arrRef spec10 3)

/-- One entry of the linear stage on the region's arrays. -/
def y (c : Dev nD) (r : Fin 100000) (q : Fin 128) : EReal := linAdd (xaArr V c) (xbArr V c) (wArr V c) (bRow V c) r q

/-- What the region leaves in its three output arrays. -/
def resultY (c : Dev nD) : Vec Ideal S100000x128 .f32 := fun i => y V c (i 0) (i 1)
def resultSum (c : Dev nD) : Vec Ideal S1x128 .f32 := fun i => colSum (y V c) (i 1)
def resultSumSq (c : Dev nD) : Vec Ideal S1x128 .f32 := fun i => colSumSq (y V c) (i 1)

/-! ## Where each window's block lies, and what the input blocks read -/

/-- The input blocks at a point, each at its literal type. -/
abbrev xaBlk (c : Dev nD) (t : Fin cfg10.N) : Vec Ideal S5000x128 .f32 := iblk10 V c 0 t
abbrev xbBlk (c : Dev nD) (t : Fin cfg10.N) : Vec Ideal S5000x128 .f32 := iblk10 V c 1 t
abbrev wBlk (c : Dev nD) (t : Fin cfg10.N) : Vec Ideal S128x128 .f32 := iblk10 V c 2 t
abbrev bBlk (c : Dev nD) (t : Fin cfg10.N) : Vec Ideal S1x128 .f32 := iblk10 V c 3 t

/-- The block each window takes at a point, decided over the twenty points: the tall windows take block `t` along the
    rows, and the weight matrix and each row are their own one block throughout. -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0 :=
  (by decide +kernel : ∀ t : Fin grid10.N, _)

/-- Input 0's block at point `t`, read at (p, j), is the array at row 5000·t + p, column j. -/
theorem xaBlk_apply (c : Dev nD) (t : Fin cfg10.N) (p : Fin 5000) (j : Fin 128) (h : t.val * 5000 + p.val < 100000) :
    xaBlk V c t (ix2 p j) = xaArr V c (ix2 ⟨t.val * 5000 + p.val, h⟩ j) := by
  obtain ⟨e00, e01, -⟩ := idx_facts t
  unfold xaBlk iblk10
  rw [View.read_apply]
  show xaArr V c (((cfg10.win 0).blk t).view.emb (ix2 p j)) = _
  refine congrArg (xaArr V c) ?_
  funext a; apply Fin.ext
  match a with
  | ⟨0, _⟩ => show win10_0.index t (0 : Fin 2) * 5000 + 1 * p.val = t.val * 5000 + p.val; omega
  | ⟨1, _⟩ => show win10_0.index t (1 : Fin 2) * 128 + 1 * j.val = j.val; omega

/-- Input 1's block at point `t`, read at (p, j), is the array at row 5000·t + p, column j. -/
theorem xbBlk_apply (c : Dev nD) (t : Fin cfg10.N) (p : Fin 5000) (j : Fin 128) (h : t.val * 5000 + p.val < 100000) :
    xbBlk V c t (ix2 p j) = xbArr V c (ix2 ⟨t.val * 5000 + p.val, h⟩ j) := by
  obtain ⟨-, -, e10, e11, -⟩ := idx_facts t
  unfold xbBlk iblk10
  rw [View.read_apply]
  show xbArr V c (((cfg10.win 1).blk t).view.emb (ix2 p j)) = _
  refine congrArg (xbArr V c) ?_
  funext a; apply Fin.ext
  match a with
  | ⟨0, _⟩ => show win10_1.index t (0 : Fin 2) * 5000 + 1 * p.val = t.val * 5000 + p.val; omega
  | ⟨1, _⟩ => show win10_1.index t (1 : Fin 2) * 128 + 1 * j.val = j.val; omega

/-- Input 2's block, at every point, is the matrix. -/
theorem wBlk_apply (c : Dev nD) (t : Fin cfg10.N) (j : Fin 128) (q : Fin 128) :
    wBlk V c t (ix2 j q) = wArr V c (ix2 j q) := by
  obtain ⟨-, -, -, -, e20, e21, -⟩ := idx_facts t
  unfold wBlk iblk10
  rw [View.read_apply]
  show wArr V c (((cfg10.win 2).blk t).view.emb (ix2 j q)) = _
  refine congrArg (wArr V c) ?_
  funext a; apply Fin.ext
  match a with
  | ⟨0, _⟩ => show win10_2.index t (0 : Fin 2) * 128 + 1 * j.val = j.val; omega
  | ⟨1, _⟩ => show win10_2.index t (1 : Fin 2) * 128 + 1 * q.val = q.val; omega

/-- Input 3's block, at every point, is the row. -/
theorem bBlk_apply (c : Dev nD) (t : Fin cfg10.N) (q : Fin 128) :
    bBlk V c t (ix2 (0 : Fin 1) q) = bRow V c (ix2 (0 : Fin 1) q) := by
  obtain ⟨-, -, -, -, -, -, e30, e31, -⟩ := idx_facts t
  unfold bBlk iblk10
  rw [View.read_apply]
  show bRow V c (((cfg10.win 3).blk t).view.emb (ix2 (0 : Fin 1) q)) = _
  refine congrArg (bRow V c) ?_
  funext a; apply Fin.ext
  match a with
  | ⟨0, _⟩ => show win10_3.index t (0 : Fin 2) * 1 + 1 * 0 = 0; omega
  | ⟨1, _⟩ => show win10_3.index t (1 : Fin 2) * 128 + 1 * q.val = q.val; omega

/-- The block of values a point computes, at (p, q), is the linear stage's entry of row 5000·t + p, column q. -/
theorem pay3_point (c : Dev nD) (t : Fin cfg10.N) (p : Fin 5000) (q : Fin 128) (h : t.val * 5000 + p.val < 100000) :
    k10_pay3 (F := Ideal) (xaBlk V c t) (xbBlk V c t) (wBlk V c t) (bBlk V c t) (ix2 p q) = y V c ⟨t.val * 5000 + p.val, h⟩ q := by
  refine (PayLinear.k2_pay3_apply (xaBlk V c t) (xbBlk V c t) (wBlk V c t) (bBlk V c t) p q).trans ?_
  unfold y linAdd
  refine congrArg₂ (fun a b : EReal => a + b) (Finset.sum_congr rfl fun j _ => ?_) (bBlk_apply V c t q)
  exact congrArg₂ (fun a b : EReal => a * b)
    (congrArg₂ (fun a b : EReal => a + b) (xaBlk_apply V c t p j h) (xbBlk_apply V c t p j h)) (wBlk_apply V c t j q)

/-! ## What the three output buffers hold after each point -/

/-- The output block after any point is the block of values the point computes. -/
theorem outsY_eq (c : Dev nD) (t : Fin cfg10.N) :
    (outsAt10 V c t.val t.isLt).1 = k10_pay3 (F := Ideal) (xaBlk V c t) (xbBlk V c t) (wBlk V c t) (bBlk V c t) := by
  by_cases h0 : t.val % 20 = 0
  · rw [outsAt10_A V c t h0]
    dsimp only
    exact outA4 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t)
      ((hcond10_0 t).mpr h0) (iblk10 V c 0 t) (iblk10 V c 1 t) (iblk10 V c 2 t) (iblk10 V c 3 t)
  · rw [outsAt10_B V c t h0]
    dsimp only
    exact outB4 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t)
      (fun h => h0 ((hcond10_0 t).mp h)) (iblk10 V c 0 t) (iblk10 V c 1 t) (iblk10 V c 2 t) (iblk10 V c 3 t)
      (outsAt10 V c (t.val - 1) (Nat.lt_of_le_of_lt (Nat.sub_le _ _) t.isLt)).2.1
      (outsAt10 V c (t.val - 1) (Nat.lt_of_le_of_lt (Nat.sub_le _ _) t.isLt)).2.2

/-- The carried column sum at column `q`, after point `t`. -/
def accSum (c : Dev nD) (u : Fin 1) (q : Fin 128) : (t : ℕ) → t < 20 → EReal :=
  fun t ht => (outsAt10 V c t (lt_of_lt_of_eq ht N_10.symm)).2.1 (ix2 u q)

/-- At the first point it is the stored zero plus the block's column sum. -/
theorem accSum_first (c : Dev nD) (u : Fin 1) (q : Fin 128) (t : ℕ) (ht : t < 20) (h0 : t % 20 = 0) :
    accSum V c u q t ht = (k10_pay1 (F := Ideal)) (ix2 u q)
      + ∑ p : Fin 5000, y V c ⟨t * 5000 + p.val, by have := p.isLt; omega⟩ q := by
  have ht' : t < cfg10.N := lt_of_lt_of_eq ht N_10.symm
  show (outsAt10 V c (⟨t, ht'⟩ : Fin cfg10.N).val (⟨t, ht'⟩ : Fin cfg10.N).isLt).2.1 (ix2 u q) = _
  rw [outsAt10_A V c ⟨t, ht'⟩ h0]
  dsimp only
  refine (congrFun (outA5 (F := Ideal) c (grid10.coords ⟨t, ht'⟩) (ms10_0 ⟨t, ht'⟩) (hs10_0 ⟨t, ht'⟩) (ms10_1 ⟨t, ht'⟩) (hs10_1 ⟨t, ht'⟩) (ms10_2 ⟨t, ht'⟩) (hs10_2 ⟨t, ht'⟩) (ms10_3 ⟨t, ht'⟩) (hs10_3 ⟨t, ht'⟩) (ms10_4 ⟨t, ht'⟩) (hs10_4 ⟨t, ht'⟩) (ms10_5 ⟨t, ht'⟩) (hs10_5 ⟨t, ht'⟩) (ms10_6 ⟨t, ht'⟩) (hs10_6 ⟨t, ht'⟩)
    ((hcond10_0 ⟨t, ht'⟩).mpr h0) (iblk10 V c 0 ⟨t, ht'⟩) (iblk10 V c 1 ⟨t, ht'⟩) (iblk10 V c 2 ⟨t, ht'⟩) (iblk10 V c 3 ⟨t, ht'⟩)) (ix2 u q)).trans ?_
  refine (PayLinear.k2_pay4_apply (xaBlk V c ⟨t, ht'⟩) (xbBlk V c ⟨t, ht'⟩) (wBlk V c ⟨t, ht'⟩) (bBlk V c ⟨t, ht'⟩) (k10_pay1 (F := Ideal)) u q).trans ?_
  refine congrArg (fun s : EReal => (k10_pay1 (F := Ideal)) (ix2 u q) + s) (Finset.sum_congr rfl fun p _ => ?_)
  exact pay3_point V c ⟨t, ht'⟩ p q _

/-- At any other point it is what the point before left plus the block's column sum. -/
theorem accSum_step (c : Dev nD) (u : Fin 1) (q : Fin 128) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg10.N := lt_of_lt_of_eq ht N_10.symm
  show (outsAt10 V c (⟨t, ht'⟩ : Fin cfg10.N).val (⟨t, ht'⟩ : Fin cfg10.N).isLt).2.1 (ix2 u q) = _
  rw [outsAt10_B V c ⟨t, ht'⟩ h0]
  dsimp only
  refine (congrFun (outB5 (F := Ideal) c (grid10.coords ⟨t, ht'⟩) (ms10_0 ⟨t, ht'⟩) (hs10_0 ⟨t, ht'⟩) (ms10_1 ⟨t, ht'⟩) (hs10_1 ⟨t, ht'⟩) (ms10_2 ⟨t, ht'⟩) (hs10_2 ⟨t, ht'⟩) (ms10_3 ⟨t, ht'⟩) (hs10_3 ⟨t, ht'⟩) (ms10_4 ⟨t, ht'⟩) (hs10_4 ⟨t, ht'⟩) (ms10_5 ⟨t, ht'⟩) (hs10_5 ⟨t, ht'⟩) (ms10_6 ⟨t, ht'⟩) (hs10_6 ⟨t, ht'⟩)
    (fun h => h0 ((hcond10_0 ⟨t, ht'⟩).mp h)) (iblk10 V c 0 ⟨t, ht'⟩) (iblk10 V c 1 ⟨t, ht'⟩) (iblk10 V c 2 ⟨t, ht'⟩) (iblk10 V c 3 ⟨t, ht'⟩)
    (outsAt10 V c ((⟨t, ht'⟩ : Fin cfg10.N).val - 1) (Nat.lt_of_le_of_lt (Nat.sub_le _ _) (⟨t, ht'⟩ : Fin cfg10.N).isLt)).2.1
    (outsAt10 V c ((⟨t, ht'⟩ : Fin cfg10.N).val - 1) (Nat.lt_of_le_of_lt (Nat.sub_le _ _) (⟨t, ht'⟩ : Fin cfg10.N).isLt)).2.2) (ix2 u q)).trans ?_
  refine (PayLinear.k2_pay4_apply (xaBlk V c ⟨t, ht'⟩) (xbBlk V c ⟨t, ht'⟩) (wBlk V c ⟨t, ht'⟩) (bBlk V c ⟨t, ht'⟩)
    (outsAt10 V c ((⟨t, ht'⟩ : Fin cfg10.N).val - 1) (Nat.lt_of_le_of_lt (Nat.sub_le _ _) (⟨t, ht'⟩ : Fin cfg10.N).isLt)).2.1 u q).trans ?_
  refine congrArg (fun s : EReal => accSum V c u q (t - 1) (Nat.lt_of_le_of_lt (Nat.sub_le t 1) ht) + s)
    (Finset.sum_congr rfl fun p _ => ?_)
  exact pay3_point V c ⟨t, ht'⟩ p q _

/-- After the last point it is the column sum over all 100000 rows. -/
theorem accSum_last (c : Dev nD) (u : Fin 1) (q : Fin 128) :
    accSum V c u q 19 (by norm_num) = colSum (y V c) q :=
  AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k10_pay1 (F := Ideal)) (ix2 u q)) Ideal.ofBits_zero_f32
    (fun t ht h0 => accSum_first V c u q t ht h0) (fun t ht h0 => accSum_step V c u q t ht h0)

/-- The carried column sum of squares at column `q`, after point `t`. -/
def accSumSq (c : Dev nD) (u : Fin 1) (q : Fin 128) : (t : ℕ) → t < 20 → EReal :=
  fun t ht => (outsAt10 V c t (lt_of_lt_of_eq ht N_10.symm)).2.2 (ix2 u q)

/-- At the first point it is the stored zero plus the block's column sum of squares. -/
theorem accSumSq_first (c : Dev nD) (u : Fin 1) (q : Fin 128) (t : ℕ) (ht : t < 20) (h0 : t % 20 = 0) :
    accSumSq V c u q t ht = (k10_pay2 (F := Ideal)) (ix2 u q)
      + ∑ p : Fin 5000, (y V c ⟨t * 5000 + p.val, by have := p.isLt; omega⟩ q * y V c ⟨t * 5000 + p.val, by have := p.isLt; omega⟩ q) := by
  have ht' : t < cfg10.N := lt_of_lt_of_eq ht N_10.symm
  show (outsAt10 V c (⟨t, ht'⟩ : Fin cfg10.N).val (⟨t, ht'⟩ : Fin cfg10.N).isLt).2.2 (ix2 u q) = _
  rw [outsAt10_A V c ⟨t, ht'⟩ h0]
  dsimp only
  refine (congrFun (outA6 (F := Ideal) c (grid10.coords ⟨t, ht'⟩) (ms10_0 ⟨t, ht'⟩) (hs10_0 ⟨t, ht'⟩) (ms10_1 ⟨t, ht'⟩) (hs10_1 ⟨t, ht'⟩) (ms10_2 ⟨t, ht'⟩) (hs10_2 ⟨t, ht'⟩) (ms10_3 ⟨t, ht'⟩) (hs10_3 ⟨t, ht'⟩) (ms10_4 ⟨t, ht'⟩) (hs10_4 ⟨t, ht'⟩) (ms10_5 ⟨t, ht'⟩) (hs10_5 ⟨t, ht'⟩) (ms10_6 ⟨t, ht'⟩) (hs10_6 ⟨t, ht'⟩)
    ((hcond10_0 ⟨t, ht'⟩).mpr h0) (iblk10 V c 0 ⟨t, ht'⟩) (iblk10 V c 1 ⟨t, ht'⟩) (iblk10 V c 2 ⟨t, ht'⟩) (iblk10 V c 3 ⟨t, ht'⟩)) (ix2 u q)).trans ?_
  refine (PayLinear.k2_pay5_apply (xaBlk V c ⟨t, ht'⟩) (xbBlk V c ⟨t, ht'⟩) (wBlk V c ⟨t, ht'⟩) (bBlk V c ⟨t, ht'⟩) (k10_pay2 (F := Ideal)) u q).trans ?_
  refine congrArg (fun s : EReal => (k10_pay2 (F := Ideal)) (ix2 u q) + s) (Finset.sum_congr rfl fun p _ => ?_)
  exact congrArg₂ (fun a b : EReal => a * b) (pay3_point V c ⟨t, ht'⟩ p q _) (pay3_point V c ⟨t, ht'⟩ p q _)

/-- At any other point it is what the point before left plus the block's column sum of squares. -/
theorem accSumSq_step (c : Dev nD) (u : Fin 1) (q : Fin 128) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg10.N := lt_of_lt_of_eq ht N_10.symm
  show (outsAt10 V c (⟨t, ht'⟩ : Fin cfg10.N).val (⟨t, ht'⟩ : Fin cfg10.N).isLt).2.2 (ix2 u q) = _
  rw [outsAt10_B V c ⟨t, ht'⟩ h0]
  dsimp only
  refine (congrFun (outB6 (F := Ideal) c (grid10.coords ⟨t, ht'⟩) (ms10_0 ⟨t, ht'⟩) (hs10_0 ⟨t, ht'⟩) (ms10_1 ⟨t, ht'⟩) (hs10_1 ⟨t, ht'⟩) (ms10_2 ⟨t, ht'⟩) (hs10_2 ⟨t, ht'⟩) (ms10_3 ⟨t, ht'⟩) (hs10_3 ⟨t, ht'⟩) (ms10_4 ⟨t, ht'⟩) (hs10_4 ⟨t, ht'⟩) (ms10_5 ⟨t, ht'⟩) (hs10_5 ⟨t, ht'⟩) (ms10_6 ⟨t, ht'⟩) (hs10_6 ⟨t, ht'⟩)
    (fun h => h0 ((hcond10_0 ⟨t, ht'⟩).mp h)) (iblk10 V c 0 ⟨t, ht'⟩) (iblk10 V c 1 ⟨t, ht'⟩) (iblk10 V c 2 ⟨t, ht'⟩) (iblk10 V c 3 ⟨t, ht'⟩)
    (outsAt10 V c ((⟨t, ht'⟩ : Fin cfg10.N).val - 1) (Nat.lt_of_le_of_lt (Nat.sub_le _ _) (⟨t, ht'⟩ : Fin cfg10.N).isLt)).2.1
    (outsAt10 V c ((⟨t, ht'⟩ : Fin cfg10.N).val - 1) (Nat.lt_of_le_of_lt (Nat.sub_le _ _) (⟨t, ht'⟩ : Fin cfg10.N).isLt)).2.2) (ix2 u q)).trans ?_
  refine (PayLinear.k2_pay5_apply (xaBlk V c ⟨t, ht'⟩) (xbBlk V c ⟨t, ht'⟩) (wBlk V c ⟨t, ht'⟩) (bBlk V c ⟨t, ht'⟩)
    (outsAt10 V c ((⟨t, ht'⟩ : Fin cfg10.N).val - 1) (Nat.lt_of_le_of_lt (Nat.sub_le _ _) (⟨t, ht'⟩ : Fin cfg10.N).isLt)).2.2 u q).trans ?_
  refine congrArg (fun s : EReal => accSumSq V c u q (t - 1) (Nat.lt_of_le_of_lt (Nat.sub_le t 1) ht) + s)
    (Finset.sum_congr rfl fun p _ => ?_)
  exact congrArg₂ (fun a b : EReal => a * b) (pay3_point V c ⟨t, ht'⟩ p q _) (pay3_point V c ⟨t, ht'⟩ p q _)

/-- After the last point it is the column sum of squares over all 100000 rows. -/
theorem accSumSq_last (c : Dev nD) (u : Fin 1) (q : Fin 128) :
    accSumSq V c u q 19 (by norm_num) = colSumSq (y V c) q :=
  AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k10_pay2 (F := Ideal)) (ix2 u q)) Ideal.ofBits_zero_f32
    (fun t ht h0 => accSumSq_first V c u q t ht h0) (fun t ht h0 => accSumSq_step V c u q t ht h0)

/-! ## From the blocks to the arrays -/

/-- Row `p`, column `q` of the output's block at point `t` is row 5000·t + p, column q of the array: a block's coordinate
    is its index times its extent plus the coordinate inside it. -/
theorem emb_out (t : Fin cfg10.N) (p : Fin 5000) (q : Fin 128) (h : t.val * 5000 + p.val < 100000) :
    ((cfg10.win 4).blk t).view.emb (ix2 p q) = (ix2 ⟨t.val * 5000 + p.val, h⟩ q : S100000x128.Idx) := by
  obtain ⟨-, -, -, -, -, -, -, -, e40, e41, -⟩ := idx_facts t
  funext a; apply Fin.ext
  match a with
  | ⟨0, _⟩ => show win10_4.index t (0 : Fin 2) * 5000 + 1 * p.val = t.val * 5000 + p.val; omega
  | ⟨1, _⟩ => show win10_4.index t (1 : Fin 2) * 128 + 1 * q.val = q.val; omega

/-- What point `t` writes back for the output is block `t` of `resultY`. -/
theorem flushedY_eq (c : Dev nD) (t : Fin cfg10.N) :
    (dat10 (F := Ideal) V c).flushed 4 t = ((cfg10.win 4).blk t).view.read (Elt Ideal) (resultY V c) := by
  show (cfg10.win 4).cut (grid10.coords t) ((dat10 V c).after 4 t) = _
  rw [after10_4]
  have ht : t.val < 20 := Nat.lt_of_lt_of_eq t.isLt N_10
  funext j
  obtain ⟨p, q, rfl⟩ : ∃ (p : Fin 5000) (q : Fin 128), j = ix2 p q := ⟨j 0, j 1, eq_ix2 j⟩
  have h : t.val * 5000 + p.val < 100000 := by have := p.isLt; omega
  show (outsAt10 V c t.val t.isLt).1 (ix2 p q) = resultY V c (((cfg10.win 4).blk t).view.emb (ix2 p q))
  refine (congrFun (outsY_eq V c t) (ix2 p q)).trans ?_
  refine (pay3_point V c t p q h).trans ?_
  exact (congrArg (resultY V c) (emb_out t p q h)).symm

/-- An entry of the array lies in point `t`'s block exactly when each of its coordinates lies in the block's range. -/
theorem mem_blkY (t : Fin cfg10.N) (i : S100000x128.Idx) :
    i ∈ ((cfg10.win 4).blk t).view.set ↔ ∀ a : Fin 2, win10_4.index t a * S5000x128.size a ≤ (i a).val
      ∧ (i a).val < win10_4.index t a * S5000x128.size a + S5000x128.size a := by
  show i ∈ ((View.whole main_v129_0).slice (win10_4.rect t)).set ↔ _
  rw [View.set_slice_whole, Rect.mem_set_unit]
  exact Iff.rfl

/-- The twenty blocks tile the array: row `r` is in the block of point `r / 5000`, and every point writes its block back. -/
theorem coverY (i : S100000x128.Idx) :
    ∃ t : Fin cfg10.N, (cfg10.win 4).flush t = true ∧ i ∈ ((cfg10.win 4).blk t).view.set := by
  have hi0 : (i 0).val < 100000 := idx2_lt0 i
  have hi1 : (i 1).val < 128 := idx2_lt1 i
  obtain ⟨t, ht⟩ : ∃ t : Fin cfg10.N, t.val = (i 0).val / 5000 :=
    ⟨⟨(i 0).val / 5000, by rw [show cfg10.N = 20 from N_10]; omega⟩, rfl⟩
  obtain ⟨-, -, -, -, -, -, -, -, e40, e41, -⟩ := idx_facts t
  refine ⟨t, flush10_4 t, ?_⟩
  rw [mem_blkY]
  intro a
  match a with
  | ⟨0, _⟩ =>
    show win10_4.index t (0 : Fin 2) * 5000 ≤ (i 0).val ∧ (i 0).val < win10_4.index t (0 : Fin 2) * 5000 + 5000
    omega
  | ⟨1, _⟩ =>
    show win10_4.index t (1 : Fin 2) * 128 ≤ (i 1).val ∧ (i 1).val < win10_4.index t (1 : Fin 2) * 128 + 128
    omega

/-- At a point whose number is 19 the carried column sum is the one over all rows. -/
theorem accSum_at_last (c : Dev nD) (u : Fin 1) (q : Fin 128) (n : ℕ) (hn : n < 20) (h19 : n = 19) :
    accSum V c u q n hn = colSum (y V c) q := by
  subst h19
  exact accSum_last V c u q

/-- The carried row of window 5 after the last point is the whole of `resultSum`. -/
theorem outs5_last (c : Dev nD) (t : Fin cfg10.N) (h19 : t.val = 19) :
    (outsAt10 V c t.val t.isLt).2.1 = resultSum V c := by
  funext j
  obtain ⟨u, q, rfl⟩ : ∃ (u : Fin 1) (q : Fin 128), j = ix2 u q := ⟨j 0, j 1, eq_ix2 j⟩
  exact accSum_at_last V c u q t.val (Nat.lt_of_lt_of_eq t.isLt N_10) h19

/-- What the last point writes back for window 5 is the whole of `resultSum`: the window's one block lies at offset zero,
    so it reads the whole row. -/
theorem flushed5_eq (c : Dev nD) (t : Fin cfg10.N) (hf : (cfg10.win 5).flush t = true) :
    (dat10 (F := Ideal) V c).flushed 5 t = ((cfg10.win 5).blk t).view.read (Elt Ideal) (resultSum V c) := by
  have hN : t.val < 20 := Nat.lt_of_lt_of_eq t.isLt N_10
  have h19 : t.val = 19 := by have := (flush10_5 t).mp hf; omega
  obtain ⟨-, -, -, -, -, -, -, -, -, -, eS0, eS1, eQ0, eQ1⟩ := idx_facts t
  have hz' : (fun a => win10_5.index t a * main_v129_1.ty.shape.size a) = fun _ => 0 := funext fun a => by
    match a with
    | ⟨0, _⟩ => show win10_5.index t (0 : Fin 2) * 1 = 0; omega
    | ⟨1, _⟩ => show win10_5.index t (1 : Fin 2) * 128 = 0; omega
  show (cfg10.win 5).cut (grid10.coords t) ((dat10 V c).after 5 t) = _
  rw [after10_5, outs5_last V c t h19]
  exact (Memref.read_access_unit_zero (Elt Ideal) main_v129_1 hz' (fun a => by rw [congrFun hz' a]; simp) (resultSum V c)).symm

/-- An entry of the row lies in point `t`'s block of window 5 exactly when each coordinate lies in the block's range. -/
theorem mem_blk5 (t : Fin cfg10.N) (i : S1x128.Idx) :
    i ∈ ((cfg10.win 5).blk t).view.set ↔ ∀ a : Fin 2, win10_5.index t a * S1x128.size a ≤ (i a).val
      ∧ (i a).val < win10_5.index t a * S1x128.size a + S1x128.size a := by
  show i ∈ ((View.whole main_v129_1).slice (win10_5.rect t)).set ↔ _
  rw [View.set_slice_whole, Rect.mem_set_unit]
  exact Iff.rfl

/-- The last point's block of window 5 is the whole row, and the last point writes it back. -/
theorem cover5 (i : S1x128.Idx) :
    ∃ t : Fin cfg10.N, (cfg10.win 5).flush t = true ∧ i ∈ ((cfg10.win 5).blk t).view.set := by
  have hi0 : (i 0).val < 1 := idx2_lt0 i
  have hi1 : (i 1).val < 128 := idx2_lt1 i
  obtain ⟨t, ht⟩ : ∃ t : Fin cfg10.N, t.val = 19 := ⟨⟨19, by rw [show cfg10.N = 20 from N_10]; norm_num⟩, rfl⟩
  obtain ⟨-, -, -, -, -, -, -, -, -, -, eS0, eS1, eQ0, eQ1⟩ := idx_facts t
  refine ⟨t, (flush10_5 t).mpr (by omega), ?_⟩
  rw [mem_blk5]
  intro a
  match a with
  | ⟨0, _⟩ =>
    show win10_5.index t (0 : Fin 2) * 1 ≤ (i 0).val ∧ (i 0).val < win10_5.index t (0 : Fin 2) * 1 + 1
    omega
  | ⟨1, _⟩ =>
    show win10_5.index t (1 : Fin 2) * 128 ≤ (i 1).val ∧ (i 1).val < win10_5.index t (1 : Fin 2) * 128 + 128
    omega

/-- At a point whose number is 19 the carried column sum of squares is the one over all rows. -/
theorem accSumSq_at_last (c : Dev nD) (u : Fin 1) (q : Fin 128) (n : ℕ) (hn : n < 20) (h19 : n = 19) :
    accSumSq V c u q n hn = colSumSq (y V c) q := by
  subst h19
  exact accSumSq_last V c u q

/-- The carried row of window 6 after the last point is the whole of `resultSumSq`. -/
theorem outs6_last (c : Dev nD) (t : Fin cfg10.N) (h19 : t.val = 19) :
    (outsAt10 V c t.val t.isLt).2.2 = resultSumSq V c := by
  funext j
  obtain ⟨u, q, rfl⟩ : ∃ (u : Fin 1) (q : Fin 128), j = ix2 u q := ⟨j 0, j 1, eq_ix2 j⟩
  exact accSumSq_at_last V c u q t.val (Nat.lt_of_lt_of_eq t.isLt N_10) h19

/-- What the last point writes back for window 6 is the whole of `resultSumSq`: the window's one block lies at offset zero,
    so it reads the whole row. -/
theorem flushed6_eq (c : Dev nD) (t : Fin cfg10.N) (hf : (cfg10.win 6).flush t = true) :
    (dat10 (F := Ideal) V c).flushed 6 t = ((cfg10.win 6).blk t).view.read (Elt Ideal) (resultSumSq V c) := by
  have hN : t.val < 20 := Nat.lt_of_lt_of_eq t.isLt N_10
  have h19 : t.val = 19 := by have := (flush10_6 t).mp hf; omega
  obtain ⟨-, -, -, -, -, -, -, -, -, -, eS0, eS1, eQ0, eQ1⟩ := idx_facts t
  have hz' : (fun a => win10_6.index t a * main_v129_2.ty.shape.size a) = fun _ => 0 := funext fun a => by
    match a with
    | ⟨0, _⟩ => show win10_6.index t (0 : Fin 2) * 1 = 0; omega
    | ⟨1, _⟩ => show win10_6.index t (1 : Fin 2) * 128 = 0; omega
  show (cfg10.win 6).cut (grid10.coords t) ((dat10 V c).after 6 t) = _
  rw [after10_6, outs6_last V c t h19]
  exact (Memref.read_access_unit_zero (Elt Ideal) main_v129_2 hz' (fun a => by rw [congrFun hz' a]; simp) (resultSumSq V c)).symm

/-- An entry of the row lies in point `t`'s block of window 6 exactly when each coordinate lies in the block's range. -/
theorem mem_blk6 (t : Fin cfg10.N) (i : S1x128.Idx) :
    i ∈ ((cfg10.win 6).blk t).view.set ↔ ∀ a : Fin 2, win10_6.index t a * S1x128.size a ≤ (i a).val
      ∧ (i a).val < win10_6.index t a * S1x128.size a + S1x128.size a := by
  show i ∈ ((View.whole main_v129_2).slice (win10_6.rect t)).set ↔ _
  rw [View.set_slice_whole, Rect.mem_set_unit]
  exact Iff.rfl

/-- The last point's block of window 6 is the whole row, and the last point writes it back. -/
theorem cover6 (i : S1x128.Idx) :
    ∃ t : Fin cfg10.N, (cfg10.win 6).flush t = true ∧ i ∈ ((cfg10.win 6).blk t).view.set := by
  have hi0 : (i 0).val < 1 := idx2_lt0 i
  have hi1 : (i 1).val < 128 := idx2_lt1 i
  obtain ⟨t, ht⟩ : ∃ t : Fin cfg10.N, t.val = 19 := ⟨⟨19, by rw [show cfg10.N = 20 from N_10]; norm_num⟩, rfl⟩
  obtain ⟨-, -, -, -, -, -, -, -, -, -, eS0, eS1, eQ0, eQ1⟩ := idx_facts t
  refine ⟨t, (flush10_6 t).mpr (by omega), ?_⟩
  rw [mem_blk6]
  intro a
  match a with
  | ⟨0, _⟩ =>
    show win10_6.index t (0 : Fin 2) * 1 ≤ (i 0).val ∧ (i 0).val < win10_6.index t (0 : Fin 2) * 1 + 1
    omega
  | ⟨1, _⟩ =>
    show win10_6.index t (1 : Fin 2) * 128 ≤ (i 1).val ∧ (i 1).val < win10_6.index t (1 : Fin 2) * 128 + 128
    omega

/-- THE INTERFACE of this region, one statement per output window. -/
theorem arrAt_y (c : Dev nD) : (dat10 (F := Ideal) V c).arrAt 4 cfg10.N = resultY V c :=
  (dat10 V c).arrAt_eq_of_cover 4 (resultY V c) (fun t _ => flushedY_eq V c t) coverY

theorem arrAt_sum (c : Dev nD) : (dat10 (F := Ideal) V c).arrAt 5 cfg10.N = resultSum V c :=
  (dat10 V c).arrAt_eq_of_cover 5 (resultSum V c) (fun t hf => flushed5_eq V c t hf) cover5

theorem arrAt_sumsq (c : Dev nD) : (dat10 (F := Ideal) V c).arrAt 6 cfg10.N = resultSumSq V c :=
  (dat10 V c).arrAt_eq_of_cover 6 (resultSumSq V c) (fun t hf => flushed6_eq V c t hf) cover6

end Cert.KernelIdeal.ValAdd2_10

end
-- ==== Proof.ValNorm11Pay.lean ====
/-
  Region 11's arithmetic: what the normalisation's body computes at one row and column of a block, from the block of the
  linear stage's output and the four statistic and parameter rows. This normalisation is not followed by max(·, 0).
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm11

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block. -/
theorem pay_apply (var : Vec Ideal S1x128 .f32) (y : Vec Ideal S5000x128 .f32) (mean g beta : Vec Ideal S1x128 .f32)
    (p : Fin 5000) (q : Fin 128) :
    k11_pay1 (F := Ideal) var y mean g beta (ix2 p q)
      = StageSpec.norm (y (ix2 p q)) (mean (ix2 (0 : Fin 1) q)) (var (ix2 (0 : Fin 1) q)) (g (ix2 (0 : Fin 1) q)) (beta (ix2 (0 : Fin 1) q)) := by
  unfold k11_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The two zero offsets of a load or a store of a whole buffer. -/
theorem hz : (![0, 0] : Fin 2 → Nat) = fun _ => 0 := funext fun a => by fin_cases a <;> rfl

end Cert.KernelIdeal.ValNorm11

end
-- ==== Proof.ValNorm11.lean ====
/-
  Region 11: a normalisation with no max(·, 0) after it. Every grid point takes a block of 5000 rows of the linear stage's
  output and the four statistic and parameter rows, and writes back, entry by entry, the normalised value.
  The twenty blocks tile the 100000 rows, so the output array as a whole is that function of the region's input arrays.
-/
import proofs.«414479_j7705171329025_1_alg».proof.Proof.FrameKI.R11
import proofs.«414479_j7705171329025_1_alg».proof.Proof.StageSpec
import proofs.«414479_j7705171329025_1_alg».proof.Proof.ValNorm11Pay
import Idealize.ShloMosaic.Lib.Pipeline.Value
import Idealize.ShloMosaic.Lib.ValueIdx
import Idealize.ShloMosaic.Lib.ValueLayout

set_option maxRecDepth 16384

noncomputable section

namespace Cert.KernelIdeal.ValNorm11

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x128 .f32 := V c (Pipeline.arrRef spec11 0)
abbrev meanRow (c : Dev nD) : Vec Ideal S1x128 .f32 := V c (Pipeline.arrRef spec11 1)
abbrev varRow (c : Dev nD) : Vec Ideal S1x128 .f32 := V c (Pipeline.arrRef spec11 2)
abbrev gRow (c : Dev nD) : Vec Ideal S1x128 .f32 := V c (Pipeline.arrRef spec11 3)
abbrev betaRow (c : Dev nD) : Vec Ideal S1x128 .f32 := V c (Pipeline.arrRef spec11 4)

/-- What the region leaves in its output array: the normalised entry, at every row and column. -/
def result (c : Dev nD) : Vec Ideal S100000x128 .f32 := fun i =>
  StageSpec.norm (yArr V c i) (meanRow V c (ix2 (0 : Fin 1) (i 1))) (varRow V c (ix2 (0 : Fin 1) (i 1)))
    (gRow V c (ix2 (0 : Fin 1) (i 1))) (betaRow V c (ix2 (0 : Fin 1) (i 1)))

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x128 .f32) (x1 x2 x3 x4 : Vec Ideal S1x128 .f32) (p : Fin 5000) (q : Fin 128) :
    out11_5 x0 x1 x2 x3 x4 (ix2 p q)
      = StageSpec.norm (x0 (ix2 p q)) (x1 (ix2 (0 : Fin 1) q)) (x2 (ix2 (0 : Fin 1) q)) (x3 (ix2 (0 : Fin 1) q)) (x4 (ix2 (0 : Fin 1) q)) := by
  unfold out11_5
  rw [View.canon_unit_zero hz]
  simp only [View.ld_unit_zero (S := S1x128) hz, View.ld_unit_zero (S := S5000x128) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- Row `p`, column `q` of the output's block at point `t` is row 5000·t + p, column q of the array: a block's coordinate
    is its index times its extent plus the coordinate inside it. -/
theorem emb_out (t : Fin cfg11.N) (p : Fin 5000) (q : Fin 128) (h : t.val * 5000 + p.val < 100000) :
    ((cfg11.win 5).blk t).view.emb (ix2 p q) = (ix2 ⟨t.val * 5000 + p.val, h⟩ q : S100000x128.Idx) := by
  obtain ⟨-, -, -, -, -, -, -, -, -, -, e50, e51⟩ := idx_facts t
  funext a; apply Fin.ext
  match a with
  | ⟨0, _⟩ => show win11_5.index t (0 : Fin 2) * 5000 + 1 * p.val = t.val * 5000 + p.val; omega
  | ⟨1, _⟩ => show win11_5.index t (1 : Fin 2) * 128 + 1 * q.val = q.val; omega

/-- The tall input's block at point `t`, read at (p, q), is the array at row 5000·t + p, column q: the same rows the
    output's block has there. -/
theorem y_apply (c : Dev nD) (t : Fin cfg11.N) (p : Fin 5000) (q : Fin 128) (h : t.val * 5000 + p.val < 100000) :
    (iblk11 V c 0 t : Vec Ideal S5000x128 .f32) (ix2 p q) = yArr V c (ix2 ⟨t.val * 5000 + p.val, h⟩ q) := by
  obtain ⟨e00, e01, -⟩ := idx_facts t
  unfold iblk11
  rw [View.read_apply]
  show yArr V c (((cfg11.win 0).blk t).view.emb (ix2 p q)) = _
  refine congrArg (yArr V c) ?_
  funext a; apply Fin.ext
  match a with
  | ⟨0, _⟩ => show win11_0.index t (0 : Fin 2) * 5000 + 1 * p.val = t.val * 5000 + p.val; omega
  | ⟨1, _⟩ => show win11_0.index t (1 : Fin 2) * 128 + 1 * q.val = q.val; omega

/-- The mean row's block, at every point, is the row. -/
theorem mean_apply (c : Dev nD) (t : Fin cfg11.N) (q : Fin 128) :
    (iblk11 V c 1 t : Vec Ideal S1x128 .f32) (ix2 (0 : Fin 1) q) = meanRow V c (ix2 (0 : Fin 1) q) := by
  obtain ⟨-, -, e10, e11, -⟩ := idx_facts t
  unfold iblk11
  rw [View.read_apply]
  show meanRow V c (((cfg11.win 1).blk t).view.emb (ix2 (0 : Fin 1) q)) = _
  refine congrArg (meanRow V c) ?_
  funext a; apply Fin.ext
  match a with
  | ⟨0, _⟩ => show win11_1.index t (0 : Fin 2) * 1 + 1 * 0 = 0; omega
  | ⟨1, _⟩ => show win11_1.index t (1 : Fin 2) * 128 + 1 * q.val = q.val; omega

/-- The variance row's block, at every point, is the row. -/
theorem var_apply (c : Dev nD) (t : Fin cfg11.N) (q : Fin 128) :
    (iblk11 V c 2 t : Vec Ideal S1x128 .f32) (ix2 (0 : Fin 1) q) = varRow V c (ix2 (0 : Fin 1) q) := by
  obtain ⟨-, -, -, -, e20, e21, -⟩ := idx_facts t
  unfold iblk11
  rw [View.read_apply]
  show varRow V c (((cfg11.win 2).blk t).view.emb (ix2 (0 : Fin 1) q)) = _
  refine congrArg (varRow V c) ?_
  funext a; apply Fin.ext
  match a with
  | ⟨0, _⟩ => show win11_2.index t (0 : Fin 2) * 1 + 1 * 0 = 0; omega
  | ⟨1, _⟩ => show win11_2.index t (1 : Fin 2) * 128 + 1 * q.val = q.val; omega

/-- The scale row's block, at every point, is the row. -/
theorem g_apply (c : Dev nD) (t : Fin cfg11.N) (q : Fin 128) :
    (iblk11 V c 3 t : Vec Ideal S1x128 .f32) (ix2 (0 : Fin 1) q) = gRow V c (ix2 (0 : Fin 1) q) := by
  obtain ⟨-, -, -, -, -, -, e30, e31, -⟩ := idx_facts t
  unfold iblk11
  rw [View.read_apply]
  show gRow V c (((cfg11.win 3).blk t).view.emb (ix2 (0 : Fin 1) q)) = _
  refine congrArg (gRow V c) ?_
  funext a; apply Fin.ext
  match a with
  | ⟨0, _⟩ => show win11_3.index t (0 : Fin 2) * 1 + 1 * 0 = 0; omega
  | ⟨1, _⟩ => show win11_3.index t (1 : Fin 2) * 128 + 1 * q.val = q.val; omega

/-- The shift row's block, at every point, is the row. -/
theorem beta_apply (c : Dev nD) (t : Fin cfg11.N) (q : Fin 128) :
    (iblk11 V c 4 t : Vec Ideal S1x128 .f32) (ix2 (0 : Fin 1) q) = betaRow V c (ix2 (0 : Fin 1) q) := by
  obtain ⟨-, -, -, -, -, -, -, -, e40, e41, -⟩ := idx_facts t
  unfold iblk11
  rw [View.read_apply]
  show betaRow V c (((cfg11.win 4).blk t).view.emb (ix2 (0 : Fin 1) q)) = _
  refine congrArg (betaRow V c) ?_
  funext a; apply Fin.ext
  match a with
  | ⟨0, _⟩ => show win11_4.index t (0 : Fin 2) * 1 + 1 * 0 = 0; omega
  | ⟨1, _⟩ => show win11_4.index t (1 : Fin 2) * 128 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg11.N) :
    (dat11 (F := Ideal) V c).flushed 5 t = ((cfg11.win 5).blk t).view.read (Elt Ideal) (result V c) := by
  show (cfg11.win 5).cut (grid11.coords t) ((dat11 V c).after 5 t) = _
  rw [after11_5]
  have ht : t.val < 20 := Nat.lt_of_lt_of_eq t.isLt N_11
  funext j
  obtain ⟨p, q, rfl⟩ : ∃ (p : Fin 5000) (q : Fin 128), j = ix2 p q := ⟨j 0, j 1, eq_ix2 j⟩
  have h : t.val * 5000 + p.val < 100000 := by have := p.isLt; omega
  show out11_5 (iblk11 V c 0 t) (iblk11 V c 1 t) (iblk11 V c 2 t) (iblk11 V c 3 t) (iblk11 V c 4 t) (ix2 p q)
      = result V c (((cfg11.win 5).blk t).view.emb (ix2 p q))
  refine (out_apply (iblk11 V c 0 t) (iblk11 V c 1 t) (iblk11 V c 2 t) (iblk11 V c 3 t) (iblk11 V c 4 t) p q).trans ?_
  refine Eq.trans ?_ (congrArg (result V c) (emb_out t p q h)).symm
  refine Eq.trans ?_ (show StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg11.N) (i : S100000x128.Idx) :
    i ∈ ((cfg11.win 5).blk t).view.set ↔ ∀ a : Fin 2, win11_5.index t a * S5000x128.size a ≤ (i a).val
      ∧ (i a).val < win11_5.index t a * S5000x128.size a + S5000x128.size a := by
  show i ∈ ((View.whole main_v142).slice (win11_5.rect t)).set ↔ _
  rw [View.set_slice_whole, Rect.mem_set_unit]
  exact Iff.rfl

/-- The twenty blocks tile the array: row `r` is in the block of point `r / 5000`, and every point writes its block back. -/
theorem cover (i : S100000x128.Idx) :
    ∃ t : Fin cfg11.N, (cfg11.win 5).flush t = true ∧ i ∈ ((cfg11.win 5).blk t).view.set := by
  have hi0 : (i 0).val < 100000 := idx2_lt0 i
  have hi1 : (i 1).val < 128 := idx2_lt1 i
  obtain ⟨t, ht⟩ : ∃ t : Fin cfg11.N, t.val = (i 0).val / 5000 :=
    ⟨⟨(i 0).val / 5000, by rw [show cfg11.N = 20 from N_11]; omega⟩, rfl⟩
  obtain ⟨-, -, -, -, -, -, -, -, -, -, e50, e51⟩ := idx_facts t
  refine ⟨t, flush11_5 t, ?_⟩
  rw [mem_blk]
  intro a
  match a with
  | ⟨0, _⟩ =>
    show win11_5.index t (0 : Fin 2) * 5000 ≤ (i 0).val ∧ (i 0).val < win11_5.index t (0 : Fin 2) * 5000 + 5000
    omega
  | ⟨1, _⟩ =>
    show win11_5.index t (1 : Fin 2) * 128 ≤ (i 1).val ∧ (i 1).val < win11_5.index t (1 : Fin 2) * 128 + 128
    omega

/-- THE INTERFACE of this region: after its twenty points the output array is `result`. -/
theorem arrAt_out (c : Dev nD) : (dat11 (F := Ideal) V c).arrAt 5 cfg11.N = result V c := by
  exact (dat11 V c).arrAt_eq_of_cover 5 (result V c) (fun t _ => flushed_eq V c t) cover

end Cert.KernelIdeal.ValNorm11

end
-- ==== Proof.Carry4.lean ====
import proofs.«414479_j7705171329025_1_alg».proof.Proof.FrameKI.Run

set_option maxRecDepth 16384

noncomputable section

namespace Cert.KernelIdeal.Carry

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- Nothing between boundary 0 and boundary 20 of the run writes `main_arg9`: it keeps its contents. -/
theorem main_arg9_0_20 (c : Dev nD) : W20 m ρ c (Proc.devRef .tc main_arg9) = W0 m ρ c (Proc.devRef .tc main_arg9) :=
  calc W20 m ρ c (Proc.devRef .tc main_arg9)
    _ = W19 m ρ c (Proc.devRef .tc main_arg9) := W20_of_ne m ρ c main_arg9 (by decide)
    _ = W18 m ρ c (Proc.devRef .tc main_arg9) := StableHlo.after_of_forall_not_mem (b := Proc.devRef .tc main_arg9) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg9) := W18_of_ne m ρ c main_arg9 (by decide)
    _ = W16 m ρ c (Proc.devRef .tc main_arg9) := StableHlo.after_of_forall_not_mem (b := Proc.devRef .tc main_arg9) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg9) := W16_of_ne m ρ c main_arg9 (by decide)
    _ = W14 m ρ c (Proc.devRef .tc main_arg9) := StableHlo.after_of_forall_not_mem (b := Proc.devRef .tc main_arg9) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 22 of the run writes `main_arg10`: it keeps its contents. -/
theorem main_arg10_0_22 (c : Dev nD) : W22 m ρ c (Proc.devRef .tc main_arg10) = W0 m ρ c (Proc.devRef .tc main_arg10) :=
  calc W22 m ρ c (Proc.devRef .tc main_arg10)
    _ = W21 m ρ c (Proc.devRef .tc main_arg10) := W22_of_ne m ρ c main_arg10 (by decide)
    _ = W20 m ρ c (Proc.devRef .tc main_arg10) := StableHlo.after_of_forall_not_mem (b := Proc.devRef .tc main_arg10) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg10) := W20_of_ne m ρ c main_arg10 (by decide)
    _ = W18 m ρ c (Proc.devRef .tc main_arg10) := StableHlo.after_of_forall_not_mem (b := Proc.devRef .tc main_arg10) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg10) := W18_of_ne m ρ c main_arg10 (by decide)
    _ = W16 m ρ c (Proc.devRef .tc main_arg10) := StableHlo.after_of_forall_not_mem (b := Proc.devRef .tc main_arg10) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg10) := W16_of_ne m ρ c main_arg10 (by decide)
    _ = W14 m ρ c (Proc.devRef .tc main_arg10) := StableHlo.after_of_forall_not_mem (b := Proc.devRef .tc main_arg10) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 22 of the run writes `main_arg11`: it keeps its contents. -/
theorem main_arg11_0_22 (c : Dev nD) : W22 m ρ c (Proc.devRef .tc main_arg11) = W0 m ρ c (Proc.devRef .tc main_arg11) :=
  calc W22 m ρ c (Proc.devRef .tc main_arg11)
    _ = W21 m ρ c (Proc.devRef .tc main_arg11) := W22_of_ne m ρ c main_arg11 (by decide)
    _ = W20 m ρ c (Proc.devRef .tc main_arg11) := StableHlo.after_of_forall_not_mem (b := Proc.devRef .tc main_arg11) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg11) := W20_of_ne m ρ c main_arg11 (by decide)
    _ = W18 m ρ c (Proc.devRef .tc main_arg11) := StableHlo.after_of_forall_not_mem (b := Proc.devRef .tc main_arg11) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg11) := W18_of_ne m ρ c main_arg11 (by decide)
    _ = W16 m ρ c (Proc.devRef .tc main_arg11) := StableHlo.after_of_forall_not_mem (b := Proc.devRef .tc main_arg11) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg11) := W16_of_ne m ρ c main_arg11 (by decide)
    _ = W14 m ρ c (Proc.devRef .tc main_arg11) := StableHlo.after_of_forall_not_mem (b := Proc.devRef .tc main_arg11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 24 of the run writes `main_arg1`: it keeps its contents. -/
theorem main_arg1_0_24 (c : Dev nD) : W24 m ρ c (Proc.devRef .tc main_arg1) = W0 m ρ c (Proc.devRef .tc main_arg1) :=
  calc W24 m ρ c (Proc.devRef .tc main_arg1)
    _ = W23 m ρ c (Proc.devRef .tc main_arg1) := W24_of_ne m ρ c main_arg1 (by decide)
    _ = W22 m ρ c (Proc.devRef .tc main_arg1) := StableHlo.after_of_forall_not_mem (b := Proc.devRef .tc main_arg1) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg1) := W22_of_ne m ρ c main_arg1 (by decide)
    _ = W20 m ρ c (Proc.devRef .tc main_arg1) := StableHlo.after_of_forall_not_mem (b := Proc.devRef .tc main_arg1) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg1) := W20_of_ne m ρ c main_arg1 (by decide)
    _ = W18 m ρ c (Proc.devRef .tc main_arg1) := StableHlo.after_of_forall_not_mem (b := Proc.devRef .tc main_arg1) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg1) := W18_of_ne m ρ c main_arg1 (by decide)
    _ = W16 m ρ c (Proc.devRef .tc main_arg1) := StableHlo.after_of_forall_not_mem (b := Proc.devRef .tc main_arg1) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg1) := W16_of_ne m ρ c main_arg1 (by decide)
    _ = W14 m ρ c (Proc.devRef .tc main_arg1) := StableHlo.after_of_forall_not_mem (b := Proc.devRef .tc main_arg1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg1) := W14_of_ne m ρ c main_arg1 (by decide)
    _ = W12 m ρ c (Proc.devRef .tc main_arg1) := StableHlo.after_of_forall_not_mem (b := Proc.devRef .tc main_arg1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 24 of the run writes `main_arg2`: it keeps its contents. -/
theorem main_arg2_0_24 (c : Dev nD) : W24 m ρ c (Proc.devRef .tc main_arg2) = W0 m ρ c (Proc.devRef .tc main_arg2) :=
  calc W24 m ρ c (Proc.devRef .tc main_arg2)
    _ = W23 m ρ c (Proc.devRef .tc main_arg2) := W24_of_ne m ρ c main_arg2 (by decide)
    _ = W22 m ρ c (Proc.devRef .tc main_arg2) := StableHlo.after_of_forall_not_mem (b := Proc.devRef .tc main_arg2) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg2) := W22_of_ne m ρ c main_arg2 (by decide)
    _ = W20 m ρ c (Proc.devRef .tc main_arg2) := StableHlo.after_of_forall_not_mem (b := Proc.devRef .tc main_arg2) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg2) := W20_of_ne m ρ c main_arg2 (by decide)
    _ = W18 m ρ c (Proc.devRef .tc main_arg2) := StableHlo.after_of_forall_not_mem (b := Proc.devRef .tc main_arg2) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg2) := W18_of_ne m ρ c main_arg2 (by decide)
    _ = W16 m ρ c (Proc.devRef .tc main_arg2) := StableHlo.after_of_forall_not_mem (b := Proc.devRef .tc main_arg2) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg2) := W16_of_ne m ρ c main_arg2 (by decide)
    _ = W14 m ρ c (Proc.devRef .tc main_arg2) := StableHlo.after_of_forall_not_mem (b := Proc.devRef .tc main_arg2) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 24 of the run writes `main_arg8`: it keeps its contents. -/
theorem main_arg8_0_24 (c : Dev nD) : W24 m ρ c (Proc.devRef .tc main_arg8) = W0 m ρ c (Proc.devRef .tc main_arg8) :=
  calc W24 m ρ c (Proc.devRef .tc main_arg8)
    _ = W23 m ρ c (Proc.devRef .tc main_arg8) := W24_of_ne m ρ c main_arg8 (by decide)
    _ = W22 m ρ c (Proc.devRef .tc main_arg8) := StableHlo.after_of_forall_not_mem (b := Proc.devRef .tc main_arg8) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg8) := W22_of_ne m ρ c main_arg8 (by decide)
    _ = W20 m ρ c (Proc.devRef .tc main_arg8) := StableHlo.after_of_forall_not_mem (b := Proc.devRef .tc main_arg8) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg8) := W20_of_ne m ρ c main_arg8 (by decide)
    _ = W18 m ρ c (Proc.devRef .tc main_arg8) := StableHlo.after_of_forall_not_mem (b := Proc.devRef .tc main_arg8) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg8) := W18_of_ne m ρ c main_arg8 (by decide)
    _ = W16 m ρ c (Proc.devRef .tc main_arg8) := StableHlo.after_of_forall_not_mem (b := Proc.devRef .tc main_arg8) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 24 of the run writes `main_arg9`: it keeps its contents. -/
theorem main_arg9_0_24 (c : Dev nD) : W24 m ρ c (Proc.devRef .tc main_arg9) = W0 m ρ c (Proc.devRef .tc main_arg9) :=
  calc W24 m ρ c (Proc.devRef .tc main_arg9)
    _ = W23 m ρ c (Proc.devRef .tc main_arg9) := W24_of_ne m ρ c main_arg9 (by decide)
    _ = W22 m ρ c (Proc.devRef .tc main_arg9) := StableHlo.after_of_forall_not_mem (b := Proc.devRef .tc main_arg9) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg9) := W22_of_ne m ρ c main_arg9 (by decide)
    _ = W20 m ρ c (Proc.devRef .tc main_arg9) := StableHlo.after_of_forall_not_mem (b := Proc.devRef .tc main_arg9) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg9) := W20_of_ne m ρ c main_arg9 (by decide)
    _ = W18 m ρ c (Proc.devRef .tc main_arg9) := StableHlo.after_of_forall_not_mem (b := Proc.devRef .tc main_arg9) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg9) := W18_of_ne m ρ c main_arg9 (by decide)
    _ = W16 m ρ c (Proc.devRef .tc main_arg9) := StableHlo.after_of_forall_not_mem (b := Proc.devRef .tc main_arg9) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg9) := W16_of_ne m ρ c main_arg9 (by decide)
    _ = W14 m ρ c (Proc.devRef .tc main_arg9) := StableHlo.after_of_forall_not_mem (b := Proc.devRef .tc main_arg9) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 26 of the run writes `main_arg10`: it keeps its contents. -/
theorem main_arg10_0_26 (c : Dev nD) : W26 m ρ c (Proc.devRef .tc main_arg10) = W0 m ρ c (Proc.devRef .tc main_arg10) :=
  calc W26 m ρ c (Proc.devRef .tc main_arg10)
    _ = W25 m ρ c (Proc.devRef .tc main_arg10) := W26_of_ne m ρ c main_arg10 (by decide)
    _ = W24 m ρ c (Proc.devRef .tc main_arg10) := StableHlo.after_of_forall_not_mem (b := Proc.devRef .tc main_arg10) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg10) := W24_of_ne m ρ c main_arg10 (by decide)
    _ = W22 m ρ c (Proc.devRef .tc main_arg10) := StableHlo.after_of_forall_not_mem (b := Proc.devRef .tc main_arg10) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg10) := W22_of_ne m ρ c main_arg10 (by decide)
    _ = W20 m ρ c (Proc.devRef .tc main_arg10) := StableHlo.after_of_forall_not_mem (b := Proc.devRef .tc main_arg10) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg10) := W20_of_ne m ρ c main_arg10 (by decide)
    _ = W18 m ρ c (Proc.devRef .tc main_arg10) := StableHlo.after_of_forall_not_mem (b := Proc.devRef .tc main_arg10) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg10) := W18_of_ne m ρ c main_arg10 (by decide)
    _ = W16 m ρ c (Proc.devRef .tc main_arg10) := StableHlo.after_of_forall_not_mem (b := Proc.devRef .tc main_arg10) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg10) := W16_of_ne m ρ c main_arg10 (by decide)
    _ = W14 m ρ c (Proc.devRef .tc main_arg10) := StableHlo.after_of_forall_not_mem (b := Proc.devRef .tc main_arg10) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 26 of the run writes `main_arg11`: it keeps its contents. -/
theorem main_arg11_0_26 (c : Dev nD) : W26 m ρ c (Proc.devRef .tc main_arg11) = W0 m ρ c (Proc.devRef .tc main_arg11) :=
  calc W26 m ρ c (Proc.devRef .tc main_arg11)
    _ = W25 m ρ c (Proc.devRef .tc main_arg11) := W26_of_ne m ρ c main_arg11 (by decide)
    _ = W24 m ρ c (Proc.devRef .tc main_arg11) := StableHlo.after_of_forall_not_mem (b := Proc.devRef .tc main_arg11) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg11) := W24_of_ne m ρ c main_arg11 (by decide)
    _ = W22 m ρ c (Proc.devRef .tc main_arg11) := StableHlo.after_of_forall_not_mem (b := Proc.devRef .tc main_arg11) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg11) := W22_of_ne m ρ c main_arg11 (by decide)
    _ = W20 m ρ c (Proc.devRef .tc main_arg11) := StableHlo.after_of_forall_not_mem (b := Proc.devRef .tc main_arg11) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg11) := W20_of_ne m ρ c main_arg11 (by decide)
    _ = W18 m ρ c (Proc.devRef .tc main_arg11) := StableHlo.after_of_forall_not_mem (b := Proc.devRef .tc main_arg11) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg11) := W18_of_ne m ρ c main_arg11 (by decide)
    _ = W16 m ρ c (Proc.devRef .tc main_arg11) := StableHlo.after_of_forall_not_mem (b := Proc.devRef .tc main_arg11) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg11) := W16_of_ne m ρ c main_arg11 (by decide)
    _ = W14 m ρ c (Proc.devRef .tc main_arg11) := StableHlo.after_of_forall_not_mem (b := Proc.devRef .tc main_arg11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 28 of the run writes `main_arg1`: it keeps its contents. -/
theorem main_arg1_0_28 (c : Dev nD) : W28 m ρ c (Proc.devRef .tc main_arg1) = W0 m ρ c (Proc.devRef .tc main_arg1) :=
  calc W28 m ρ c (Proc.devRef .tc main_arg1)
    _ = W27 m ρ c (Proc.devRef .tc main_arg1) := W28_of_ne m ρ c main_arg1 (by decide)
    _ = W26 m ρ c (Proc.devRef .tc main_arg1) := StableHlo.after_of_forall_not_mem (b := Proc.devRef .tc main_arg1) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg1) := W26_of_ne m ρ c main_arg1 (by decide)
    _ = W24 m ρ c (Proc.devRef .tc main_arg1) := StableHlo.after_of_forall_not_mem (b := Proc.devRef .tc main_arg1) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg1) := W24_of_ne m ρ c main_arg1 (by decide)
    _ = W22 m ρ c (Proc.devRef .tc main_arg1) := StableHlo.after_of_forall_not_mem (b := Proc.devRef .tc main_arg1) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg1) := W22_of_ne m ρ c main_arg1 (by decide)
    _ = W20 m ρ c (Proc.devRef .tc main_arg1) := StableHlo.after_of_forall_not_mem (b := Proc.devRef .tc main_arg1) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg1) := W20_of_ne m ρ c main_arg1 (by decide)
    _ = W18 m ρ c (Proc.devRef .tc main_arg1) := StableHlo.after_of_forall_not_mem (b := Proc.devRef .tc main_arg1) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg1) := W18_of_ne m ρ c main_arg1 (by decide)
    _ = W16 m ρ c (Proc.devRef .tc main_arg1) := StableHlo.after_of_forall_not_mem (b := Proc.devRef .tc main_arg1) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg1) := W16_of_ne m ρ c main_arg1 (by decide)
    _ = W14 m ρ c (Proc.devRef .tc main_arg1) := StableHlo.after_of_forall_not_mem (b := Proc.devRef .tc main_arg1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg1) := W14_of_ne m ρ c main_arg1 (by decide)
    _ = W12 m ρ c (Proc.devRef .tc main_arg1) := StableHlo.after_of_forall_not_mem (b := Proc.devRef .tc main_arg1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 28 of the run writes `main_arg2`: it keeps its contents. -/
theorem main_arg2_0_28 (c : Dev nD) : W28 m ρ c (Proc.devRef .tc main_arg2) = W0 m ρ c (Proc.devRef .tc main_arg2) :=
  calc W28 m ρ c (Proc.devRef .tc main_arg2)
    _ = W27 m ρ c (Proc.devRef .tc main_arg2) := W28_of_ne m ρ c main_arg2 (by decide)
    _ = W26 m ρ c (Proc.devRef .tc main_arg2) := StableHlo.after_of_forall_not_mem (b := Proc.devRef .tc main_arg2) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg2) := W26_of_ne m ρ c main_arg2 (by decide)
    _ = W24 m ρ c (Proc.devRef .tc main_arg2) := StableHlo.after_of_forall_not_mem (b := Proc.devRef .tc main_arg2) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg2) := W24_of_ne m ρ c main_arg2 (by decide)
    _ = W22 m ρ c (Proc.devRef .tc main_arg2) := StableHlo.after_of_forall_not_mem (b := Proc.devRef .tc main_arg2) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg2) := W22_of_ne m ρ c main_arg2 (by decide)
    _ = W20 m ρ c (Proc.devRef .tc main_arg2) := StableHlo.after_of_forall_not_mem (b := Proc.devRef .tc main_arg2) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg2) := W20_of_ne m ρ c main_arg2 (by decide)
    _ = W18 m ρ c (Proc.devRef .tc main_arg2) := StableHlo.after_of_forall_not_mem (b := Proc.devRef .tc main_arg2) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg2) := W18_of_ne m ρ c main_arg2 (by decide)
    _ = W16 m ρ c (Proc.devRef .tc main_arg2) := StableHlo.after_of_forall_not_mem (b := Proc.devRef .tc main_arg2) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg2) := W16_of_ne m ρ c main_arg2 (by decide)
    _ = W14 m ρ c (Proc.devRef .tc main_arg2) := StableHlo.after_of_forall_not_mem (b := Proc.devRef .tc main_arg2) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Carry

end
-- ==== Proof.KernelChain5.lean ====
/-
  Stage 5 of the chain, the kernel's half: the first message-passing hop of a later block. The block's input is the previous
  block's output plus the embedding's output, entry by entry, formed by the host operations before the hop's first region,
  which also pool its rows along the edges and take the hop's square of the stacked weights and its row of the stacked
  biases. The first region adds the pooled rows to the block input's, multiplies by the weights, adds the bias row, and
  leaves with that array its column sums and column sums of squares; the host operations between the regions divide those
  by the row count, form the variance as the mean of squares less the squared mean, and take the hop's rows of the stacked
  scale and shift; the second region normalises with those rows, with no clipping after it. Here the steps are joined, over
  the previous block's output and the embedding's output as the run leaves them and the launch memory's edge lists and
  stacked parameters.
-/
import proofs.«414479_j7705171329025_1_alg».proof.Proof.ValAdd2_10
import proofs.«414479_j7705171329025_1_alg».proof.Proof.ValNorm11
import proofs.«414479_j7705171329025_1_alg».proof.Proof.HostHop10
import proofs.«414479_j7705171329025_1_alg».proof.Proof.HostStats11
import proofs.«414479_j7705171329025_1_alg».proof.Proof.StageReal
import proofs.«414479_j7705171329025_1_alg».proof.Proof.FrameKI.Run
import proofs.«414479_j7705171329025_1_alg».proof.Proof.Carry0
import proofs.«414479_j7705171329025_1_alg».proof.Proof.Carry3
import proofs.«414479_j7705171329025_1_alg».proof.Proof.Carry4
import proofs.«414479_j7705171329025_1_alg».proof.Proof.PreReal
import proofs.«414479_j7705171329025_1_alg».proof.Proof.PooledReal
import proofs.«414479_j7705171329025_1_alg».proof.Proof.SliceReal
import Idealize.ShloMosaic.Lib.IdealHost
import Idealize.ShloMosaic.Lib.ValueLayout

set_option maxRecDepth 16384

noncomputable section

namespace Cert.KernelChain5

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## The hop's data: earlier stages' output arrays, and the launch memory's arrays, each at its literal type -/

/-- The previous block's output array, as the run leaves it. -/
abbrev prev (c : Dev nD) : Vec Ideal S100000x128 .f32 := W20 (F := Ideal) m ρ c (Proc.devRef .tc main_v112)
/-- The embedding's output array, as the run leaves it. -/
abbrev inp (c : Dev nD) : Vec Ideal S100000x128 .f32 := W4 (F := Ideal) m ρ c (Proc.devRef .tc main_v10)
/-- The block's input: the previous block's output plus the embedding's, entry by entry. -/
abbrev blockIn (c : Dev nD) : Vec Ideal S100000x128 .f32 :=
  addf (F := Ideal) (s := S100000x128) (φ := .f32) (prev m ρ c) (inp m ρ c)
/-- The edges' sources. -/
abbrev src (c : Dev nD) : Vec Ideal S800000 .i32 := m ((c : Thread nD τ).loc main_arg1)
/-- The edges' destinations. -/
abbrev dst (c : Dev nD) : Vec Ideal S800000 .i32 := m ((c : Thread nD τ).loc main_arg2)
/-- The stacked weights of the block's three hops. -/
abbrev convW (c : Dev nD) : Vec Ideal S3x128x128 .f32 := m ((c : Thread nD τ).loc main_arg8)
/-- The stacked biases. -/
abbrev convB (c : Dev nD) : Vec Ideal S3x128 .f32 := m ((c : Thread nD τ).loc main_arg9)
/-- The stacked scales of the three hops' batch norms. -/
abbrev bnG (c : Dev nD) : Vec Ideal S3x128 .f32 := m ((c : Thread nD τ).loc main_arg10)
/-- The stacked shifts. -/
abbrev bnB (c : Dev nD) : Vec Ideal S3x128 .f32 := m ((c : Thread nD τ).loc main_arg11)

/-- The block input's rows pooled along the edges. -/
abbrev pooledPrev (c : Dev nD) : Vec Ideal S100000x128 .f32 := HostHop10.pooled (F := Ideal) (blockIn m ρ c) (src m c) (dst m c)
/-- The hop's weight matrix. -/
abbrev Wt (c : Dev nD) : Vec Ideal S128x128 .f32 := HostHop10.wOf (F := Ideal) (convW m c)
/-- The hop's bias row. -/
abbrev B (c : Dev nD) : Vec Ideal S1x128 .f32 := HostHop10.rowOf (F := Ideal) (convB m c)
/-- The hop's scale row. -/
abbrev g (c : Dev nD) : Vec Ideal S1x128 .f32 := HostStats11.rowOf (F := Ideal) (bnG m c)
/-- The hop's shift row. -/
abbrev β (c : Dev nD) : Vec Ideal S1x128 .f32 := HostStats11.rowOf (F := Ideal) (bnB m c)

/-- The hop's linear stage, entry by entry: the pooled rows plus the block input's, against the weights, plus the bias. -/
def y (c : Dev nD) (r : Fin 100000) (q : Fin 128) : EReal :=
  StageSpec.linAdd (pooledPrev m ρ c) (blockIn m ρ c) (Wt m c) (B m c) r q

/-- The row count, as the word the host operations divide by. -/
abbrev nRows : EReal := Ideal.ofBits .f32 0x47C35000#32

/-! ## Real numbers in, real numbers out -/

/-- Under the precondition, and if every entry of the earlier stages' arrays is a real number, every entry of the hop's
    linear stage is one: the neighbour sum of a real array is real whatever the edges are, and the hop's square of the
    weights and its row of the biases are entries of real arrays. -/
theorem y_isReal [Cert.Pre_finite_inputs.Facts] (h : Cert.Pre_KernelIdeal m) (c : Dev nD)
    (hprev : ∀ i, Cert.RealSpec.IsReal (prev m ρ c i)) (hinp : ∀ i, Cert.RealSpec.IsReal (inp m ρ c i)) (r : Fin 100000) (q : Fin 128) :
    Cert.RealSpec.IsReal (y m ρ c r q) :=
  StageReal.linAdd_isReal (pooledPrev m ρ c) (blockIn m ρ c) (Wt m c) (B m c)
    (Cert.PooledReal.pooled_addf_isReal (prev m ρ c) (inp m ρ c) (src m c) (dst m c) hprev hinp)
    (fun i => BatchStats.isReal_add (hprev i) (hinp i))
    (Cert.SliceReal.wOf0_isReal (convW m c) (Cert.PreReal.real_arg8 m h c))
    (Cert.SliceReal.rowOf0_isReal (convB m c) (Cert.PreReal.real_arg9 m h c)) r q

/-- Under the precondition every entry of the hop's scale row is a real number. -/
theorem g_isReal [Cert.Pre_finite_inputs.Facts] (h : Cert.Pre_KernelIdeal m) (c : Dev nD) (q : Fin 128) :
    Cert.RealSpec.IsReal (g m c (ix2 (0 : Fin 1) q)) :=
  Cert.SliceReal.statsRow0_isReal (bnG m c) (Cert.PreReal.real_arg10 m h c) (ix2 (0 : Fin 1) q)

/-- And every entry of its shift row. -/
theorem β_isReal [Cert.Pre_finite_inputs.Facts] (h : Cert.Pre_KernelIdeal m) (c : Dev nD) (q : Fin 128) :
    Cert.RealSpec.IsReal (β m c (ix2 (0 : Fin 1) q)) :=
  Cert.SliceReal.statsRow0_isReal (bnB m c) (Cert.PreReal.real_arg11 m h c) (ix2 (0 : Fin 1) q)

/-! ## The first region's inputs -/

/-- The pooled rows: the host operations before the region form them, with the edge lists, which nothing has written since
    the launch. -/
theorem xa_eq (c : Dev nD) : ValAdd2_10.xaArr (V21 m ρ) c = pooledPrev m ρ c :=
  ((HostHop10.read_pooled (W20 m ρ c)).trans
    (congrArg (fun x => HostHop10.pooled (F := Ideal) x (W20 m ρ c (Proc.devRef .tc main_arg1)) (W20 m ρ c (Proc.devRef .tc main_arg2)))
      (congrArg (fun t => addf (F := Ideal) (s := S100000x128) (φ := .f32) (prev m ρ c) t) (Carry.main_v10_4_20 m ρ c)))).trans
    (congrArg₂ (fun s d => HostHop10.pooled (F := Ideal) (blockIn m ρ c) s d)
      ((Carry.main_arg1_0_20 m ρ c).trans rfl) ((Carry.main_arg2_0_20 m ρ c).trans rfl))

/-- The block's input. -/
theorem xb_eq (c : Dev nD) : ValAdd2_10.xbArr (V21 m ρ) c = blockIn m ρ c :=
  (HostHop10.read_input (W20 m ρ c)).trans
    (congrArg (fun t => addf (F := Ideal) (s := S100000x128) (φ := .f32) (prev m ρ c) t) (Carry.main_v10_4_20 m ρ c))

/-- The hop's weight matrix, out of the launch memory's stacked weights. -/
theorem w_eq (c : Dev nD) : ValAdd2_10.wArr (V21 m ρ) c = Wt m c :=
  (HostHop10.read_w (W20 m ρ c)).trans (congrArg (HostHop10.wOf (F := Ideal)) ((Carry.main_arg8_0_20 m ρ c).trans rfl))

/-- The hop's bias row, out of the launch memory's stacked biases. -/
theorem b_eq (c : Dev nD) : ValAdd2_10.bRow (V21 m ρ) c = B m c :=
  (HostHop10.read_b (W20 m ρ c)).trans (congrArg (HostHop10.rowOf (F := Ideal)) ((Carry.main_arg9_0_20 m ρ c).trans rfl))

/-- So the first region's linear stage is the hop's. -/
theorem y_eq (c : Dev nD) : ValAdd2_10.y (V21 m ρ) c = y m ρ c := by
  funext r q
  unfold ValAdd2_10.y y
  rw [xa_eq m ρ c, xb_eq m ρ c, w_eq m ρ c, b_eq m ρ c]

/-! ## The second region's five arrays, from the first region's three -/

/-- The column sums, as the first region leaves them. -/
theorem sum_eq (c : Dev nD) :
    (W22 m ρ c (Proc.devRef .tc main_v129_1) : Vec Ideal S1x128 .f32) = ValAdd2_10.resultSum (V21 m ρ) c :=
  (W22_arr m ρ c 5).trans (ValAdd2_10.arrAt_sum (V21 m ρ) c)

/-- The column sums of squares, as the first region leaves them. -/
theorem sumsq_eq (c : Dev nD) :
    (W22 m ρ c (Proc.devRef .tc main_v129_2) : Vec Ideal S1x128 .f32) = ValAdd2_10.resultSumSq (V21 m ρ) c :=
  (W22_arr m ρ c 6).trans (ValAdd2_10.arrAt_sumsq (V21 m ρ) c)

/-- The tall array the second region normalises is the first region's output: the host operations between the two do
    not write it. -/
theorem yArr_eq (c : Dev nD) : ValNorm11.yArr (V23 m ρ) c = ValAdd2_10.resultY (V21 m ρ) c :=
  ((HostStats11.read_y (W22 m ρ c)).trans (W22_arr m ρ c 4)).trans (ValAdd2_10.arrAt_y (V21 m ρ) c)

/-- The mean row: the column sums over the row count. -/
theorem meanRow_eq (c : Dev nD) :
    ValNorm11.meanRow (V23 m ρ) c
      = Host.divf (F := Ideal) (φ := .f32) (ValAdd2_10.resultSum (V21 m ρ) c) (HostStats11.nRow (F := Ideal)) := by
  refine (HostStats11.read_mean (W22 m ρ c)).trans ?_
  rw [sum_eq m ρ c]

/-- The variance row: the mean of squares less the squared mean. -/
theorem varRow_eq (c : Dev nD) :
    ValNorm11.varRow (V23 m ρ) c
      = subf (F := Ideal) (φ := .f32) (Host.divf (F := Ideal) (φ := .f32) (ValAdd2_10.resultSumSq (V21 m ρ) c) (HostStats11.nRow (F := Ideal)))
          (mulf (F := Ideal) (φ := .f32) (Host.divf (F := Ideal) (φ := .f32) (ValAdd2_10.resultSum (V21 m ρ) c) (HostStats11.nRow (F := Ideal)))
            (Host.divf (F := Ideal) (φ := .f32) (ValAdd2_10.resultSum (V21 m ρ) c) (HostStats11.nRow (F := Ideal)))) := by
  refine (HostStats11.read_var (W22 m ρ c)).trans ?_
  rw [sum_eq m ρ c, sumsq_eq m ρ c]

/-- The scale row: the hop's row of the launch memory's stacked scales, which nothing has written since the launch. -/
theorem gRow_eq (c : Dev nD) : ValNorm11.gRow (V23 m ρ) c = g m c :=
  (HostStats11.read_g (W22 m ρ c)).trans (congrArg (HostStats11.rowOf (F := Ideal)) ((Carry.main_arg10_0_22 m ρ c).trans rfl))

/-- The shift row: the hop's row of the launch memory's stacked shifts. -/
theorem betaRow_eq (c : Dev nD) : ValNorm11.betaRow (V23 m ρ) c = β m c :=
  (HostStats11.read_beta (W22 m ρ c)).trans (congrArg (HostStats11.rowOf (F := Ideal)) ((Carry.main_arg11_0_22 m ρ c).trans rfl))

/-! ## The five arrays read at an entry -/

/-- The divisor row holds the row count in every column. -/
theorem nRow_apply (j : S1x128.Idx) : HostStats11.nRow (F := Ideal) j = nRows := by
  unfold HostStats11.nRow
  exact (broadcastInDim_scalar_apply bcast_S_S1x128 (constant (F := Ideal) S_ .f32 0x47C35000#32) j).trans rfl

/-- The tall array at row r, column q is the linear stage's entry. -/
theorem yArr_apply (c : Dev nD) (r : Fin 100000) (q : Fin 128) :
    ValNorm11.yArr (V23 m ρ) c (ix2 r q) = ValAdd2_10.y (V21 m ρ) c r q :=
  (congrFun (yArr_eq m ρ c) (ix2 r q)).trans rfl

/-- The mean row at column q is the column mean of the linear stage's output. -/
theorem mean_apply (c : Dev nD) (q : Fin 128) :
    ValNorm11.meanRow (V23 m ρ) c (ix2 (0 : Fin 1) q) = StageReal.colMean (ValAdd2_10.y (V21 m ρ) c) nRows q := by
  refine (congrFun (meanRow_eq m ρ c) (ix2 (0 : Fin 1) q)).trans ?_
  show Ideal.div (ValAdd2_10.resultSum (V21 m ρ) c (ix2 (0 : Fin 1) q)) (HostStats11.nRow (F := Ideal) (ix2 (0 : Fin 1) q)) = _
  rw [nRow_apply]
  rfl

/-- The variance row at column q is the mean of squares less the squared mean of that column. -/
theorem var_apply (c : Dev nD) (q : Fin 128) :
    ValNorm11.varRow (V23 m ρ) c (ix2 (0 : Fin 1) q) = StageReal.varSumSq (ValAdd2_10.y (V21 m ρ) c) nRows q := by
  refine (congrFun (varRow_eq m ρ c) (ix2 (0 : Fin 1) q)).trans ?_
  show Ideal.div (ValAdd2_10.resultSumSq (V21 m ρ) c (ix2 (0 : Fin 1) q)) (HostStats11.nRow (F := Ideal) (ix2 (0 : Fin 1) q))
      - Ideal.div (ValAdd2_10.resultSum (V21 m ρ) c (ix2 (0 : Fin 1) q)) (HostStats11.nRow (F := Ideal) (ix2 (0 : Fin 1) q))
        * Ideal.div (ValAdd2_10.resultSum (V21 m ρ) c (ix2 (0 : Fin 1) q)) (HostStats11.nRow (F := Ideal) (ix2 (0 : Fin 1) q)) = _
  rw [nRow_apply]
  rfl

/-! ## The hop's output -/

/-- What the second region leaves in its output array is what it computes from its five arrays. -/
theorem out_eq (c : Dev nD) :
    (W24 (F := Ideal) m ρ c (Proc.devRef .tc main_v142) : Vec Ideal S100000x128 .f32) = ValNorm11.result (V23 m ρ) c :=
  (W24_arr m ρ c 5).trans (ValNorm11.arrAt_out (V23 m ρ) c)

/-- THE KERNEL'S HOP OUTPUT, entry by entry: the batch normalisation of the hop's linear stage with the statistics in
    the kernel's form, not clipped. -/
theorem kernel_out_apply (c : Dev nD) (r : Fin 100000) (q : Fin 128) :
    (W24 (F := Ideal) m ρ c (Proc.devRef .tc main_v142) : Vec Ideal S100000x128 .f32) (ix2 r q)
      = StageSpec.norm (y m ρ c r q) (StageReal.colMean (y m ρ c) nRows q) (StageReal.varSumSq (y m ρ c) nRows q)
          (g m c (ix2 (0 : Fin 1) q)) (β m c (ix2 (0 : Fin 1) q)) := by
  refine (congrFun (out_eq m ρ c) (ix2 r q)).trans ?_
  show StageSpec.norm (ValNorm11.yArr (V23 m ρ) c (ix2 r q)) (ValNorm11.meanRow (V23 m ρ) c (ix2 (0 : Fin 1) q))
      (ValNorm11.varRow (V23 m ρ) c (ix2 (0 : Fin 1) q)) (ValNorm11.gRow (V23 m ρ) c (ix2 (0 : Fin 1) q))
      (ValNorm11.betaRow (V23 m ρ) c (ix2 (0 : Fin 1) q)) = _
  rw [yArr_apply m ρ c r q, mean_apply m ρ c q, var_apply m ρ c q, gRow_eq m ρ c, betaRow_eq m ρ c, y_eq m ρ c]

end Cert.KernelChain5

end
-- ==== Proof.Chain5.lean ====
/-
  Stage 5 of the chain: the first message-passing hop of a later block. The block's input is the previous block's output
  plus the embedding's output, entry by entry, in both programs. Both pool the block's input along the edges, add the
  block's input, multiply by the hop's square of the stacked weights, add the hop's bias and normalise the result by its
  batch statistics with the hop's scale and shift; there is no clipping after a hop. The two programs' previous block
  outputs are one array of real numbers, and so are their embedding outputs (the invariants of the earlier stages); the
  edge lists and the parameters are the same in the two memories.
  The neighbour sum, the weight square and the bias row are written with the same words in both programs, so the two linear
  stages are one array, of real numbers. The kernel takes the variance as the mean of squares less the squared mean, the
  reference as the mean of the squared deviations: on real data one number. So the two normalised arrays are equal, entry
  by entry, and every entry is a real number.
-/
import proofs.«414479_j7705171329025_1_alg».proof.Proof.KernelChain5
import proofs.«414479_j7705171329025_1_alg».proof.Proof.RefChain5
import proofs.«414479_j7705171329025_1_alg».proof.Proof.ChainDefs
import proofs.«414479_j7705171329025_1_alg».proof.Proof.Chain0
import proofs.«414479_j7705171329025_1_alg».proof.Proof.RefSide
import proofs.«414479_j7705171329025_1_alg».proof.Proof.HopJoin
import proofs.«414479_j7705171329025_1_alg».proof.Proof.Seam
import proofs.«414479_j7705171329025_1_alg».proof.Proof.PreReal

noncomputable section

namespace Cert.Chain5

open Cert.RealSpec (IsReal)
open Cert.ChainDefs
open Idealize.ShloMosaic Idealize.ShloMosaic.TcCoe Idealize.ShloMosaic.StableHlo

variable [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The hop's row of a stacked parameter, read at column q, is the hop's vector of it at q: the row is the vector laid out
    as a row. -/
theorem row_eq_vec (p : Vec Ideal Cert.KernelIdeal.S3x128 .f32) (q : Fin 128) :
    Cert.KernelIdeal.HostStats11.rowOf (F := Ideal) p (ValueIdx.ix2 (0 : Fin 1) q)
      = Cert.ReferenceIdeal.RefKinds.refVec0 (F := Ideal) p (ValueIdx.ix1 q) :=
  ValueIdx.shapeCast_a_1a_apply _ _ (0 : Fin 1) q

/-- STAGE 5: the two hop outputs are equal, and every entry is a real number, given the same of the earlier stages'
    arrays this hop reads. -/
theorem inv5 (hpre : Cert.Pre_KernelIdeal m) (hag : Cert.Chain0.Agree m m') (c : Dev Cert.KernelIdeal.nD)
    (h4 : Inv4 m ρ m' c) (h0 : Inv0 m ρ m' c) : Inv5 m ρ m' c := by
  -- the reference's earlier arrays are the kernel's, by the invariants of the earlier stages
  have eblock : addf (F := Ideal) (s := Cert.ReferenceIdeal.S100000x128) (φ := .f32) (rOut4 m' c) (rOut0 m' c) = Cert.KernelChain5.blockIn m ρ c :=
    (congrArg₂ (fun a b => addf (F := Ideal) (s := Cert.KernelIdeal.S100000x128) (φ := .f32) a b) (funext h4.1).symm (funext h0.1).symm)
  have esrc : Cert.ReferenceIdeal.RefChain5.src (U3 m' c) = Cert.KernelChain5.blockIn m ρ c := (Cert.RefSide.src5 m' c).trans eblock
  have ebin : Cert.ReferenceIdeal.RefChain5.bin (U3 m' c) = Cert.KernelChain5.blockIn m ρ c := (Cert.RefSide.bin5 m' c).trans eblock
  -- the reference's edge lists and parameters are the kernel's: no list of operations writes them, and the two memories
  -- agree on the arguments
  have e1 : U3 m' c (Proc.devRef .tc Cert.ReferenceIdeal.main_arg1) = Cert.KernelChain5.src m c :=
    (Cert.RefSide.arg1_at3 m' c).trans (hag.arg1 c)
  have e2 : U3 m' c (Proc.devRef .tc Cert.ReferenceIdeal.main_arg2) = Cert.KernelChain5.dst m c :=
    (Cert.RefSide.arg2_at3 m' c).trans (hag.arg2 c)
  have e8 : U3 m' c (Proc.devRef .tc Cert.ReferenceIdeal.main_arg8) = Cert.KernelChain5.convW m c :=
    (Cert.RefSide.arg8_at3 m' c).trans (hag.arg8 c)
  have e9 : U3 m' c (Proc.devRef .tc Cert.ReferenceIdeal.main_arg9) = Cert.KernelChain5.convB m c :=
    (Cert.RefSide.arg9_at3 m' c).trans (hag.arg9 c)
  have e10 : U3 m' c (Proc.devRef .tc Cert.ReferenceIdeal.main_arg10) = Cert.KernelChain5.bnG m c :=
    (Cert.RefSide.arg10_at3 m' c).trans (hag.arg10 c)
  have e11 : U3 m' c (Proc.devRef .tc Cert.ReferenceIdeal.main_arg11) = Cert.KernelChain5.bnB m c :=
    (Cert.RefSide.arg11_at3 m' c).trans (hag.arg11 c)
  -- so the two linear stages are one array: the neighbour sum, the weight square and the bias row are the same words
  have ey : Cert.ReferenceIdeal.RefChain5.y (U3 m' c) = Cert.KernelChain5.y m ρ c := by
    funext r q
    show StageSpec.linAdd
        (Cert.ReferenceIdeal.RefKinds.refPooled (Cert.ReferenceIdeal.RefChain5.src (U3 m' c))
          (U3 m' c (Proc.devRef .tc Cert.ReferenceIdeal.main_arg1)) (U3 m' c (Proc.devRef .tc Cert.ReferenceIdeal.main_arg2)))
        (Cert.ReferenceIdeal.RefChain5.bin (U3 m' c))
        (Cert.ReferenceIdeal.RefKinds.refW0 (U3 m' c (Proc.devRef .tc Cert.ReferenceIdeal.main_arg8)))
        (Cert.ReferenceIdeal.RefKinds.refRow0 (U3 m' c (Proc.devRef .tc Cert.ReferenceIdeal.main_arg9))) r q = _
    rw [esrc, ebin, e1, e2, e8, e9]
    rfl
  -- the reference's scale and shift at column q are the kernel's rows' entries
  have eg : ∀ q : Fin 128, Cert.ReferenceIdeal.RefChain5.g (U3 m' c) (ValueIdx.ix1 q) = Cert.KernelChain5.g m c (ValueIdx.ix2 (0 : Fin 1) q) := fun q => by
    show Cert.ReferenceIdeal.RefKinds.refVec0 (U3 m' c (Proc.devRef .tc Cert.ReferenceIdeal.main_arg10)) (ValueIdx.ix1 q) = _
    rw [e10]
    exact (row_eq_vec (Cert.KernelChain5.bnG m c) q).symm
  have eβ : ∀ q : Fin 128, Cert.ReferenceIdeal.RefChain5.β (U3 m' c) (ValueIdx.ix1 q) = Cert.KernelChain5.β m c (ValueIdx.ix2 (0 : Fin 1) q) := fun q => by
    show Cert.ReferenceIdeal.RefKinds.refVec0 (U3 m' c (Proc.devRef .tc Cert.ReferenceIdeal.main_arg11)) (ValueIdx.ix1 q) = _
    rw [e11]
    exact (row_eq_vec (Cert.KernelChain5.bnB m c) q).symm
  -- the join: on real data the two variances are one number
  exact Cert.HopJoin.join (kOut5 m ρ c) (rOut5 m' c) (Cert.KernelChain5.y m ρ c) (Cert.ReferenceIdeal.RefChain5.y (U3 m' c))
    (fun q => Cert.KernelChain5.g m c (ValueIdx.ix2 (0 : Fin 1) q)) (fun q => Cert.KernelChain5.β m c (ValueIdx.ix2 (0 : Fin 1) q))
    (fun q => Cert.ReferenceIdeal.RefChain5.g (U3 m' c) (ValueIdx.ix1 q)) (fun q => Cert.ReferenceIdeal.RefChain5.β (U3 m' c) (ValueIdx.ix1 q))
    (Cert.KernelChain5.kernel_out_apply m ρ c) (Cert.ReferenceIdeal.RefChain5.out_apply (U3 m' c)) ey eg eβ
    (Cert.KernelChain5.y_isReal m ρ hpre c h4.2 h0.2) (Cert.KernelChain5.g_isReal m hpre c) (Cert.KernelChain5.β_isReal m hpre c)

end Cert.Chain5

end
-- ==== Proof.ValAdd2_12.lean ====
/-
  Region 12: a message-passing hop's linear stage with its column statistics. At each grid point the body adds a block of
  5000 rows of the pooled neighbours to the same rows of the block's input, multiplies by the hop's weight matrix, adds the
  bias row, stores that block, and adds the block's column sums and column sums of squares to two carried rows the first
  point has set to zero. As for the embedding, the blocks tile the rows and the carried rows end as sums over all rows.
-/
import proofs.«414479_j7705171329025_1_alg».proof.Proof.FrameKI.R12
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValAdd2_12

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. At the first point the two carried rows are first set to zero and then read
  back, so the running rows it leaves are the block's sums added to zero; at the other points they are added to what the
  rows held. -/

section Pieces

variable {F : FTy → Type} [FloatOps F]

theorem outA4 (c : Dev nD) (i : grid12.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond12_0 i)
    (x0 : Vec F S5000x128 .f32) (x1 : Vec F S5000x128 .f32) (x2 : Vec F S128x128 .f32) (x3 : Vec F S1x128 .f32) :
    out12_A_4 c i a1 h1 a2 h2 a3 h3 a4 h4 a5 h5 a6 h6 a7 h7 hc x0 x1 x2 x3 = k12_pay3 x0 x1 x2 x3 := by
  unfold out12_A_4
  rw [View.read_writes_eq_canon _ _ _ (cover12_A_4 c i a1 h1 a2 h2 a3 h3 a4 h4 a5 h5 a6 h6 a7 h7 hc x0 x1 x2 x3)]
  unfold kernelRun12_A
  dsimp only
  (try sl_unfold_words)
  rw [View.canon_unit_zero hz]
  simp only [View.readAt_eq_ld, h1.read_unread, h2.read_unread, h3.read_unread, h4.read_unread,
    View.ld_unit_zero (S := S5000x128) hz, View.ld_unit_zero (S := S128x128) hz, View.ld_unit_zero (S := S1x128) hz]

theorem outA5 (c : Dev nD) (i : grid12.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond12_0 i)
    (x0 : Vec F S5000x128 .f32) (x1 : Vec F S5000x128 .f32) (x2 : Vec F S128x128 .f32) (x3 : Vec F S1x128 .f32) :
    out12_A_5 c i a1 h1 a2 h2 a3 h3 a4 h4 a5 h5 a6 h6 a7 h7 hc x0 x1 x2 x3 = k12_pay4 x0 x1 x2 x3 (k12_pay1 (F := F)) := by
  unfold out12_A_5
  rw [View.read_writes_eq_canon _ _ _ (cover12_A_5 c i a1 h1 a2 h2 a3 h3 a4 h4 a5 h5 a6 h6 a7 h7 hc x0 x1 x2 x3)]
  unfold kernelRun12_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outA6 (c : Dev nD) (i : grid12.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond12_0 i)
    (x0 : Vec F S5000x128 .f32) (x1 : Vec F S5000x128 .f32) (x2 : Vec F S128x128 .f32) (x3 : Vec F S1x128 .f32) :
    out12_A_6 c i a1 h1 a2 h2 a3 h3 a4 h4 a5 h5 a6 h6 a7 h7 hc x0 x1 x2 x3 = k12_pay5 x0 x1 x2 x3 (k12_pay2 (F := F)) := by
  unfold out12_A_6
  rw [View.read_writes_eq_canon _ _ _ (cover12_A_6 c i a1 h1 a2 h2 a3 h3 a4 h4 a5 h5 a6 h6 a7 h7 hc x0 x1 x2 x3)]
  unfold kernelRun12_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outB4 (c : Dev nD) (i : grid12.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond12_0 i)
    (x0 : Vec F S5000x128 .f32) (x1 : Vec F S5000x128 .f32) (x2 : Vec F S128x128 .f32) (x3 : Vec F S1x128 .f32) (xoS xoQ : Vec F S1x128 .f32) :
    out12_B_4 c i a1 h1 a2 h2 a3 h3 a4 h4 a5 h5 a6 h6 a7 h7 hc x0 x1 x2 x3 xoS xoQ = k12_pay3 x0 x1 x2 x3 := by
  unfold out12_B_4
  rw [View.read_writes_eq_canon _ _ _ (cover12_B_4 c i a1 h1 a2 h2 a3 h3 a4 h4 a5 h5 a6 h6 a7 h7 hc x0 x1 x2 x3 xoS xoQ)]
  unfold kernelRun12_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB5 (c : Dev nD) (i : grid12.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond12_0 i)
    (x0 : Vec F S5000x128 .f32) (x1 : Vec F S5000x128 .f32) (x2 : Vec F S128x128 .f32) (x3 : Vec F S1x128 .f32) (xoS xoQ : Vec F S1x128 .f32) :
    out12_B_5 c i a1 h1 a2 h2 a3 h3 a4 h4 a5 h5 a6 h6 a7 h7 hc x0 x1 x2 x3 xoS xoQ = k12_pay4 x0 x1 x2 x3 xoS := by
  unfold out12_B_5
  rw [View.read_writes_eq_canon _ _ _ (cover12_B_5 c i a1 h1 a2 h2 a3 h3 a4 h4 a5 h5 a6 h6 a7 h7 hc x0 x1 x2 x3 xoS xoQ)]
  unfold kernelRun12_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB6 (c : Dev nD) (i : grid12.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond12_0 i)
    (x0 : Vec F S5000x128 .f32) (x1 : Vec F S5000x128 .f32) (x2 : Vec F S128x128 .f32) (x3 : Vec F S1x128 .f32) (xoS xoQ : Vec F S1x128 .f32) :
    out12_B_6 c i a1 h1 a2 h2 a3 h3 a4 h4 a5 h5 a6 h6 a7 h7 hc x0 x1 x2 x3 xoS xoQ = k12_pay5 x0 x1 x2 x3 xoQ := by
  unfold out12_B_6
  rw [View.read_writes_eq_canon _ _ _ (cover12_B_6 c i a1 h1 a2 h2 a3 h3 a4 h4 a5 h5 a6 h6 a7 h7 hc x0 x1 x2 x3 xoS xoQ)]
  unfold kernelRun12_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

end Pieces

variable (V : (c : Dev nD) → (b : Ref sig .tc) → Buf (Elt Ideal) ((c : Thread nD τ).loc b))

/-- The region's input arrays as it finds them, each at its literal type. -/
abbrev xaArr (c : Dev nD) : Vec Ideal S100000x128 .f32 := V c (Pipeline.arrRef spec12 0)
abbrev xbArr (c : Dev nD) : Vec Ideal S100000x128 .f32 := V c (Pipeline.arrRef spec12 1)
abbrev wArr (c : Dev nD) : Vec Ideal S128x128 .f32 := V c (Pipeline.arrRef spec12 2)
abbrev bRow (c : Dev nD) : Vec Ideal S1x128 .f32 := V c (Pipeline.arrRef spec12 3)

/-- One entry of the linear stage on the region's arrays. -/
def y (c : Dev nD) (r : Fin 100000) (q : Fin 128) : EReal := linAdd (xaArr V c) (xbArr V c) (wArr V c) (bRow V c) r q

/-- What the region leaves in its three output arrays. -/
def resultY (c : Dev nD) : Vec Ideal S100000x128 .f32 := fun i => y V c (i 0) (i 1)
def resultSum (c : Dev nD) : Vec Ideal S1x128 .f32 := fun i => colSum (y V c) (i 1)
def resultSumSq (c : Dev nD) : Vec Ideal S1x128 .f32 := fun i => colSumSq (y V c) (i 1)

/-! ## Where each window's block lies, and what the input blocks read -/

/-- The input blocks at a point, each at its literal type. -/
abbrev xaBlk (c : Dev nD) (t : Fin cfg12.N) : Vec Ideal S5000x128 .f32 := iblk12 V c 0 t
abbrev xbBlk (c : Dev nD) (t : Fin cfg12.N) : Vec Ideal S5000x128 .f32 := iblk12 V c 1 t
abbrev wBlk (c : Dev nD) (t : Fin cfg12.N) : Vec Ideal S128x128 .f32 := iblk12 V c 2 t
abbrev bBlk (c : Dev nD) (t : Fin cfg12.N) : Vec Ideal S1x128 .f32 := iblk12 V c 3 t

/-- The block each window takes at a point, decided over the twenty points: the tall windows take block `t` along the
    rows, and the weight matrix and each row are their own one block throughout. -/
theorem idx_facts : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0 :=
  (by decide +kernel : ∀ t : Fin grid12.N, _)

/-- Input 0's block at point `t`, read at (p, j), is the array at row 5000·t + p, column j. -/
theorem xaBlk_apply (c : Dev nD) (t : Fin cfg12.N) (p : Fin 5000) (j : Fin 128) (h : t.val * 5000 + p.val < 100000) :
    xaBlk V c t (ix2 p j) = xaArr V c (ix2 ⟨t.val * 5000 + p.val, h⟩ j) := by
  obtain ⟨e00, e01, -⟩ := idx_facts t
  unfold xaBlk iblk12
  rw [View.read_apply]
  show xaArr V c (((cfg12.win 0).blk t).view.emb (ix2 p j)) = _
  refine congrArg (xaArr V c) ?_
  funext a; apply Fin.ext
  match a with
  | ⟨0, _⟩ => show win12_0.index t (0 : Fin 2) * 5000 + 1 * p.val = t.val * 5000 + p.val; omega
  | ⟨1, _⟩ => show win12_0.index t (1 : Fin 2) * 128 + 1 * j.val = j.val; omega

/-- Input 1's block at point `t`, read at (p, j), is the array at row 5000·t + p, column j. -/
theorem xbBlk_apply (c : Dev nD) (t : Fin cfg12.N) (p : Fin 5000) (j : Fin 128) (h : t.val * 5000 + p.val < 100000) :
    xbBlk V c t (ix2 p j) = xbArr V c (ix2 ⟨t.val * 5000 + p.val, h⟩ j) := by
  obtain ⟨-, -, e10, e11, -⟩ := idx_facts t
  unfold xbBlk iblk12
  rw [View.read_apply]
  show xbArr V c (((cfg12.win 1).blk t).view.emb (ix2 p j)) = _
  refine congrArg (xbArr V c) ?_
  funext a; apply Fin.ext
  match a with
  | ⟨0, _⟩ => show win12_1.index t (0 : Fin 2) * 5000 + 1 * p.val = t.val * 5000 + p.val; omega
  | ⟨1, _⟩ => show win12_1.index t (1 : Fin 2) * 128 + 1 * j.val = j.val; omega

/-- Input 2's block, at every point, is the matrix. -/
theorem wBlk_apply (c : Dev nD) (t : Fin cfg12.N) (j : Fin 128) (q : Fin 128) :
    wBlk V c t (ix2 j q) = wArr V c (ix2 j q) := by
  obtain ⟨-, -, -, -, e20, e21, -⟩ := idx_facts t
  unfold wBlk iblk12
  rw [View.read_apply]
  show wArr V c (((cfg12.win 2).blk t).view.emb (ix2 j q)) = _
  refine congrArg (wArr V c) ?_
  funext a; apply Fin.ext
  match a with
  | ⟨0, _⟩ => show win12_2.index t (0 : Fin 2) * 128 + 1 * j.val = j.val; omega
  | ⟨1, _⟩ => show win12_2.index t (1 : Fin 2) * 128 + 1 * q.val = q.val; omega

/-- Input 3's block, at every point, is the row. -/
theorem bBlk_apply (c : Dev nD) (t : Fin cfg12.N) (q : Fin 128) :
    bBlk V c t (ix2 (0 : Fin 1) q) = bRow V c (ix2 (0 : Fin 1) q) := by
  obtain ⟨-, -, -, -, -, -, e30, e31, -⟩ := idx_facts t
  unfold bBlk iblk12
  rw [View.read_apply]
  show bRow V c (((cfg12.win 3).blk t).view.emb (ix2 (0 : Fin 1) q)) = _
  refine congrArg (bRow V c) ?_
  funext a; apply Fin.ext
  match a with
  | ⟨0, _⟩ => show win12_3.index t (0 : Fin 2) * 1 + 1 * 0 = 0; omega
  | ⟨1, _⟩ => show win12_3.index t (1 : Fin 2) * 128 + 1 * q.val = q.val; omega

/-- The block of values a point computes, at (p, q), is the linear stage's entry of row 5000·t + p, column q. -/
theorem pay3_point (c : Dev nD) (t : Fin cfg12.N) (p : Fin 5000) (q : Fin 128) (h : t.val * 5000 + p.val < 100000) :
    k12_pay3 (F := Ideal) (xaBlk V c t) (xbBlk V c t) (wBlk V c t) (bBlk V c t) (ix2 p q) = y V c ⟨t.val * 5000 + p.val, h⟩ q := by
  refine (PayLinear.k2_pay3_apply (xaBlk V c t) (xbBlk V c t) (wBlk V c t) (bBlk V c t) p q).trans ?_
  unfold y linAdd
  refine congrArg₂ (fun a b : EReal => a + b) (Finset.sum_congr rfl fun j _ => ?_) (bBlk_apply V c t q)
  exact congrArg₂ (fun a b : EReal => a * b)
    (congrArg₂ (fun a b : EReal => a + b) (xaBlk_apply V c t p j h) (xbBlk_apply V c t p j h)) (wBlk_apply V c t j q)

/-! ## What the three output buffers hold after each point -/

/-- The output block after any point is the block of values the point computes. -/
theorem outsY_eq (c : Dev nD) (t : Fin cfg12.N) :
    (outsAt12 V c t.val t.isLt).1 = k12_pay3 (F := Ideal) (xaBlk V c t) (xbBlk V c t) (wBlk V c t) (bBlk V c t) := by
  by_cases h0 : t.val % 20 = 0
  · rw [outsAt12_A V c t h0]
    dsimp only
    exact outA4 (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t)
      ((hcond12_0 t).mpr h0) (iblk12 V c 0 t) (iblk12 V c 1 t) (iblk12 V c 2 t) (iblk12 V c 3 t)
  · rw [outsAt12_B V c t h0]
    dsimp only
    exact outB4 (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t)
      (fun h => h0 ((hcond12_0 t).mp h)) (iblk12 V c 0 t) (iblk12 V c 1 t) (iblk12 V c 2 t) (iblk12 V c 3 t)
      (outsAt12 V c (t.val - 1) (Nat.lt_of_le_of_lt (Nat.sub_le _ _) t.isLt)).2.1
      (outsAt12 V c (t.val - 1) (Nat.lt_of_le_of_lt (Nat.sub_le _ _) t.isLt)).2.2

/-- The carried column sum at column `q`, after point `t`. -/
def accSum (c : Dev nD) (u : Fin 1) (q : Fin 128) : (t : ℕ) → t < 20 → EReal :=
  fun t ht => (outsAt12 V c t (lt_of_lt_of_eq ht N_12.symm)).2.1 (ix2 u q)

/-- At the first point it is the stored zero plus the block's column sum. -/
theorem accSum_first (c : Dev nD) (u : Fin 1) (q : Fin 128) (t : ℕ) (ht : t < 20) (h0 : t % 20 = 0) :
    accSum V c u q t ht = (k12_pay1 (F := Ideal)) (ix2 u q)
      + ∑ p : Fin 5000, y V c ⟨t * 5000 + p.val, by have := p.isLt; omega⟩ q := by
  have ht' : t < cfg12.N := lt_of_lt_of_eq ht N_12.symm
  show (outsAt12 V c (⟨t, ht'⟩ : Fin cfg12.N).val (⟨t, ht'⟩ : Fin cfg12.N).isLt).2.1 (ix2 u q) = _
  rw [outsAt12_A V c ⟨t, ht'⟩ h0]
  dsimp only
  refine (congrFun (outA5 (F := Ideal) c (grid12.coords ⟨t, ht'⟩) (ms12_0 ⟨t, ht'⟩) (hs12_0 ⟨t, ht'⟩) (ms12_1 ⟨t, ht'⟩) (hs12_1 ⟨t, ht'⟩) (ms12_2 ⟨t, ht'⟩) (hs12_2 ⟨t, ht'⟩) (ms12_3 ⟨t, ht'⟩) (hs12_3 ⟨t, ht'⟩) (ms12_4 ⟨t, ht'⟩) (hs12_4 ⟨t, ht'⟩) (ms12_5 ⟨t, ht'⟩) (hs12_5 ⟨t, ht'⟩) (ms12_6 ⟨t, ht'⟩) (hs12_6 ⟨t, ht'⟩)
    ((hcond12_0 ⟨t, ht'⟩).mpr h0) (iblk12 V c 0 ⟨t, ht'⟩) (iblk12 V c 1 ⟨t, ht'⟩) (iblk12 V c 2 ⟨t, ht'⟩) (iblk12 V c 3 ⟨t, ht'⟩)) (ix2 u q)).trans ?_
  refine (PayLinear.k2_pay4_apply (xaBlk V c ⟨t, ht'⟩) (xbBlk V c ⟨t, ht'⟩) (wBlk V c ⟨t, ht'⟩) (bBlk V c ⟨t, ht'⟩) (k12_pay1 (F := Ideal)) u q).trans ?_
  refine congrArg (fun s : EReal => (k12_pay1 (F := Ideal)) (ix2 u q) + s) (Finset.sum_congr rfl fun p _ => ?_)
  exact pay3_point V c ⟨t, ht'⟩ p q _

/-- At any other point it is what the point before left plus the block's column sum. -/
theorem accSum_step (c : Dev nD) (u : Fin 1) (q : Fin 128) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg12.N := lt_of_lt_of_eq ht N_12.symm
  show (outsAt12 V c (⟨t, ht'⟩ : Fin cfg12.N).val (⟨t, ht'⟩ : Fin cfg12.N).isLt).2.1 (ix2 u q) = _
  rw [outsAt12_B V c ⟨t, ht'⟩ h0]
  dsimp only
  refine (congrFun (outB5 (F := Ideal) c (grid12.coords ⟨t, ht'⟩) (ms12_0 ⟨t, ht'⟩) (hs12_0 ⟨t, ht'⟩) (ms12_1 ⟨t, ht'⟩) (hs12_1 ⟨t, ht'⟩) (ms12_2 ⟨t, ht'⟩) (hs12_2 ⟨t, ht'⟩) (ms12_3 ⟨t, ht'⟩) (hs12_3 ⟨t, ht'⟩) (ms12_4 ⟨t, ht'⟩) (hs12_4 ⟨t, ht'⟩) (ms12_5 ⟨t, ht'⟩) (hs12_5 ⟨t, ht'⟩) (ms12_6 ⟨t, ht'⟩) (hs12_6 ⟨t, ht'⟩)
    (fun h => h0 ((hcond12_0 ⟨t, ht'⟩).mp h)) (iblk12 V c 0 ⟨t, ht'⟩) (iblk12 V c 1 ⟨t, ht'⟩) (iblk12 V c 2 ⟨t, ht'⟩) (iblk12 V c 3 ⟨t, ht'⟩)
    (outsAt12 V c ((⟨t, ht'⟩ : Fin cfg12.N).val - 1) (Nat.lt_of_le_of_lt (Nat.sub_le _ _) (⟨t, ht'⟩ : Fin cfg12.N).isLt)).2.1
    (outsAt12 V c ((⟨t, ht'⟩ : Fin cfg12.N).val - 1) (Nat.lt_of_le_of_lt (Nat.sub_le _ _) (⟨t, ht'⟩ : Fin cfg12.N).isLt)).2.2) (ix2 u q)).trans ?_
  refine (PayLinear.k2_pay4_apply (xaBlk V c ⟨t, ht'⟩) (xbBlk V c ⟨t, ht'⟩) (wBlk V c ⟨t, ht'⟩) (bBlk V c ⟨t, ht'⟩)
    (outsAt12 V c ((⟨t, ht'⟩ : Fin cfg12.N).val - 1) (Nat.lt_of_le_of_lt (Nat.sub_le _ _) (⟨t, ht'⟩ : Fin cfg12.N).isLt)).2.1 u q).trans ?_
  refine congrArg (fun s : EReal => accSum V c u q (t - 1) (Nat.lt_of_le_of_lt (Nat.sub_le t 1) ht) + s)
    (Finset.sum_congr rfl fun p _ => ?_)
  exact pay3_point V c ⟨t, ht'⟩ p q _

/-- After the last point it is the column sum over all 100000 rows. -/
theorem accSum_last (c : Dev nD) (u : Fin 1) (q : Fin 128) :
    accSum V c u q 19 (by norm_num) = colSum (y V c) q :=
  AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k12_pay1 (F := Ideal)) (ix2 u q)) Ideal.ofBits_zero_f32
    (fun t ht h0 => accSum_first V c u q t ht h0) (fun t ht h0 => accSum_step V c u q t ht h0)

/-- The carried column sum of squares at column `q`, after point `t`. -/
def accSumSq (c : Dev nD) (u : Fin 1) (q : Fin 128) : (t : ℕ) → t < 20 → EReal :=
  fun t ht => (outsAt12 V c t (lt_of_lt_of_eq ht N_12.symm)).2.2 (ix2 u q)

/-- At the first point it is the stored zero plus the block's column sum of squares. -/
theorem accSumSq_first (c : Dev nD) (u : Fin 1) (q : Fin 128) (t : ℕ) (ht : t < 20) (h0 : t % 20 = 0) :
    accSumSq V c u q t ht = (k12_pay2 (F := Ideal)) (ix2 u q)
      + ∑ p : Fin 5000, (y V c ⟨t * 5000 + p.val, by have := p.isLt; omega⟩ q * y V c ⟨t * 5000 + p.val, by have := p.isLt; omega⟩ q) := by
  have ht' : t < cfg12.N := lt_of_lt_of_eq ht N_12.symm
  show (outsAt12 V c (⟨t, ht'⟩ : Fin cfg12.N).val (⟨t, ht'⟩ : Fin cfg12.N).isLt).2.2 (ix2 u q) = _
  rw [outsAt12_A V c ⟨t, ht'⟩ h0]
  dsimp only
  refine (congrFun (outA6 (F := Ideal) c (grid12.coords ⟨t, ht'⟩) (ms12_0 ⟨t, ht'⟩) (hs12_0 ⟨t, ht'⟩) (ms12_1 ⟨t, ht'⟩) (hs12_1 ⟨t, ht'⟩) (ms12_2 ⟨t, ht'⟩) (hs12_2 ⟨t, ht'⟩) (ms12_3 ⟨t, ht'⟩) (hs12_3 ⟨t, ht'⟩) (ms12_4 ⟨t, ht'⟩) (hs12_4 ⟨t, ht'⟩) (ms12_5 ⟨t, ht'⟩) (hs12_5 ⟨t, ht'⟩) (ms12_6 ⟨t, ht'⟩) (hs12_6 ⟨t, ht'⟩)
    ((hcond12_0 ⟨t, ht'⟩).mpr h0) (iblk12 V c 0 ⟨t, ht'⟩) (iblk12 V c 1 ⟨t, ht'⟩) (iblk12 V c 2 ⟨t, ht'⟩) (iblk12 V c 3 ⟨t, ht'⟩)) (ix2 u q)).trans ?_
  refine (PayLinear.k2_pay5_apply (xaBlk V c ⟨t, ht'⟩) (xbBlk V c ⟨t, ht'⟩) (wBlk V c ⟨t, ht'⟩) (bBlk V c ⟨t, ht'⟩) (k12_pay2 (F := Ideal)) u q).trans ?_
  refine congrArg (fun s : EReal => (k12_pay2 (F := Ideal)) (ix2 u q) + s) (Finset.sum_congr rfl fun p _ => ?_)
  exact congrArg₂ (fun a b : EReal => a * b) (pay3_point V c ⟨t, ht'⟩ p q _) (pay3_point V c ⟨t, ht'⟩ p q _)

/-- At any other point it is what the point before left plus the block's column sum of squares. -/
theorem accSumSq_step (c : Dev nD) (u : Fin 1) (q : Fin 128) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg12.N := lt_of_lt_of_eq ht N_12.symm
  show (outsAt12 V c (⟨t, ht'⟩ : Fin cfg12.N).val (⟨t, ht'⟩ : Fin cfg12.N).isLt).2.2 (ix2 u q) = _
  rw [outsAt12_B V c ⟨t, ht'⟩ h0]
  dsimp only
  refine (congrFun (outB6 (F := Ideal) c (grid12.coords ⟨t, ht'⟩) (ms12_0 ⟨t, ht'⟩) (hs12_0 ⟨t, ht'⟩) (ms12_1 ⟨t, ht'⟩) (hs12_1 ⟨t, ht'⟩) (ms12_2 ⟨t, ht'⟩) (hs12_2 ⟨t, ht'⟩) (ms12_3 ⟨t, ht'⟩) (hs12_3 ⟨t, ht'⟩) (ms12_4 ⟨t, ht'⟩) (hs12_4 ⟨t, ht'⟩) (ms12_5 ⟨t, ht'⟩) (hs12_5 ⟨t, ht'⟩) (ms12_6 ⟨t, ht'⟩) (hs12_6 ⟨t, ht'⟩)
    (fun h => h0 ((hcond12_0 ⟨t, ht'⟩).mp h)) (iblk12 V c 0 ⟨t, ht'⟩) (iblk12 V c 1 ⟨t, ht'⟩) (iblk12 V c 2 ⟨t, ht'⟩) (iblk12 V c 3 ⟨t, ht'⟩)
    (outsAt12 V c ((⟨t, ht'⟩ : Fin cfg12.N).val - 1) (Nat.lt_of_le_of_lt (Nat.sub_le _ _) (⟨t, ht'⟩ : Fin cfg12.N).isLt)).2.1
    (outsAt12 V c ((⟨t, ht'⟩ : Fin cfg12.N).val - 1) (Nat.lt_of_le_of_lt (Nat.sub_le _ _) (⟨t, ht'⟩ : Fin cfg12.N).isLt)).2.2) (ix2 u q)).trans ?_
  refine (PayLinear.k2_pay5_apply (xaBlk V c ⟨t, ht'⟩) (xbBlk V c ⟨t, ht'⟩) (wBlk V c ⟨t, ht'⟩) (bBlk V c ⟨t, ht'⟩)
    (outsAt12 V c ((⟨t, ht'⟩ : Fin cfg12.N).val - 1) (Nat.lt_of_le_of_lt (Nat.sub_le _ _) (⟨t, ht'⟩ : Fin cfg12.N).isLt)).2.2 u q).trans ?_
  refine congrArg (fun s : EReal => accSumSq V c u q (t - 1) (Nat.lt_of_le_of_lt (Nat.sub_le t 1) ht) + s)
    (Finset.sum_congr rfl fun p _ => ?_)
  exact congrArg₂ (fun a b : EReal => a * b) (pay3_point V c ⟨t, ht'⟩ p q _) (pay3_point V c ⟨t, ht'⟩ p q _)

/-- After the last point it is the column sum of squares over all 100000 rows. -/
theorem accSumSq_last (c : Dev nD) (u : Fin 1) (q : Fin 128) :
    accSumSq V c u q 19 (by norm_num) = colSumSq (y V c) q :=
  AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k12_pay2 (F := Ideal)) (ix2 u q)) Ideal.ofBits_zero_f32
    (fun t ht h0 => accSumSq_first V c u q t ht h0) (fun t ht h0 => accSumSq_step V c u q t ht h0)

/-! ## From the blocks to the arrays -/

/-- Row `p`, column `q` of the output's block at point `t` is row 5000·t + p, column q of the array: a block's coordinate
    is its index times its extent plus the coordinate inside it. -/
theorem emb_out (t : Fin cfg12.N) (p : Fin 5000) (q : Fin 128) (h : t.val * 5000 + p.val < 100000) :
    ((cfg12.win 4).blk t).view.emb (ix2 p q) = (ix2 ⟨t.val * 5000 + p.val, h⟩ q : S100000x128.Idx) := by
  obtain ⟨-, -, -, -, -, -, -, -, e40, e41, -⟩ := idx_facts t
  funext a; apply Fin.ext
  match a with
  | ⟨0, _⟩ => show win12_4.index t (0 : Fin 2) * 5000 + 1 * p.val = t.val * 5000 + p.val; omega
  | ⟨1, _⟩ => show win12_4.index t (1 : Fin 2) * 128 + 1 * q.val = q.val; omega

/-- What point `t` writes back for the output is block `t` of `resultY`. -/
theorem flushedY_eq (c : Dev nD) (t : Fin cfg12.N) :
    (dat12 (F := Ideal) V c).flushed 4 t = ((cfg12.win 4).blk t).view.read (Elt Ideal) (resultY V c) := by
  show (cfg12.win 4).cut (grid12.coords t) ((dat12 V c).after 4 t) = _
  rw [after12_4]
  have ht : t.val < 20 := Nat.lt_of_lt_of_eq t.isLt N_12
  funext j
  obtain ⟨p, q, rfl⟩ : ∃ (p : Fin 5000) (q : Fin 128), j = ix2 p q := ⟨j 0, j 1, eq_ix2 j⟩
  have h : t.val * 5000 + p.val < 100000 := by have := p.isLt; omega
  show (outsAt12 V c t.val t.isLt).1 (ix2 p q) = resultY V c (((cfg12.win 4).blk t).view.emb (ix2 p q))
  refine (congrFun (outsY_eq V c t) (ix2 p q)).trans ?_
  refine (pay3_point V c t p q h).trans ?_
  exact (congrArg (resultY V c) (emb_out t p q h)).symm

/-- An entry of the array lies in point `t`'s block exactly when each of its coordinates lies in the block's range. -/
theorem mem_blkY (t : Fin cfg12.N) (i : S100000x128.Idx) :
    i ∈ ((cfg12.win 4).blk t).view.set ↔ ∀ a : Fin 2, win12_4.index t a * S5000x128.size a ≤ (i a).val
      ∧ (i a).val < win12_4.index t a * S5000x128.size a + S5000x128.size a := by
  show i ∈ ((View.whole main_v158_0).slice (win12_4.rect t)).set ↔ _
  rw [View.set_slice_whole, Rect.mem_set_unit]
  exact Iff.rfl

/-- The twenty blocks tile the array: row `r` is in the block of point `r / 5000`, and every point writes its block back. -/
theorem coverY (i : S100000x128.Idx) :
    ∃ t : Fin cfg12.N, (cfg12.win 4).flush t = true ∧ i ∈ ((cfg12.win 4).blk t).view.set := by
  have hi0 : (i 0).val < 100000 := idx2_lt0 i
  have hi1 : (i 1).val < 128 := idx2_lt1 i
  obtain ⟨t, ht⟩ : ∃ t : Fin cfg12.N, t.val = (i 0).val / 5000 :=
    ⟨⟨(i 0).val / 5000, by rw [show cfg12.N = 20 from N_12]; omega⟩, rfl⟩
  obtain ⟨-, -, -, -, -, -, -, -, e40, e41, -⟩ := idx_facts t
  refine ⟨t, flush12_4 t, ?_⟩
  rw [mem_blkY]
  intro a
  match a with
  | ⟨0, _⟩ =>
    show win12_4.index t (0 : Fin 2) * 5000 ≤ (i 0).val ∧ (i 0).val < win12_4.index t (0 : Fin 2) * 5000 + 5000
    omega
  | ⟨1, _⟩ =>
    show win12_4.index t (1 : Fin 2) * 128 ≤ (i 1).val ∧ (i 1).val < win12_4.index t (1 : Fin 2) * 128 + 128
    omega

/-- At a point whose number is 19 the carried column sum is the one over all rows. -/
theorem accSum_at_last (c : Dev nD) (u : Fin 1) (q : Fin 128) (n : ℕ) (hn : n < 20) (h19 : n = 19) :
    accSum V c u q n hn = colSum (y V c) q := by
  subst h19
  exact accSum_last V c u q

/-- The carried row of window 5 after the last point is the whole of `resultSum`. -/
theorem outs5_last (c : Dev nD) (t : Fin cfg12.N) (h19 : t.val = 19) :
    (outsAt12 V c t.val t.isLt).2.1 = resultSum V c := by
  funext j
  obtain ⟨u, q, rfl⟩ : ∃ (u : Fin 1) (q : Fin 128), j = ix2 u q := ⟨j 0, j 1, eq_ix2 j⟩
  exact accSum_at_last V c u q t.val (Nat.lt_of_lt_of_eq t.isLt N_12) h19

/-- What the last point writes back for window 5 is the whole of `resultSum`: the window's one block lies at offset zero,
    so it reads the whole row. -/
theorem flushed5_eq (c : Dev nD) (t : Fin cfg12.N) (hf : (cfg12.win 5).flush t = true) :
    (dat12 (F := Ideal) V c).flushed 5 t = ((cfg12.win 5).blk t).view.read (Elt Ideal) (resultSum V c) := by
  have hN : t.val < 20 := Nat.lt_of_lt_of_eq t.isLt N_12
  have h19 : t.val = 19 := by have := (flush12_5 t).mp hf; omega
  obtain ⟨-, -, -, -, -, -, -, -, -, -, eS0, eS1, eQ0, eQ1⟩ := idx_facts t
  have hz' : (fun a => win12_5.index t a * main_v158_1.ty.shape.size a) = fun _ => 0 := funext fun a => by
    match a with
    | ⟨0, _⟩ => show win12_5.index t (0 : Fin 2) * 1 = 0; omega
    | ⟨1, _⟩ => show win12_5.index t (1 : Fin 2) * 128 = 0; omega
  show (cfg12.win 5).cut (grid12.coords t) ((dat12 V c).after 5 t) = _
  rw [after12_5, outs5_last V c t h19]
  exact (Memref.read_access_unit_zero (Elt Ideal) main_v158_1 hz' (fun a => by rw [congrFun hz' a]; simp) (resultSum V c)).symm

/-- An entry of the row lies in point `t`'s block of window 5 exactly when each coordinate lies in the block's range. -/
theorem mem_blk5 (t : Fin cfg12.N) (i : S1x128.Idx) :
    i ∈ ((cfg12.win 5).blk t).view.set ↔ ∀ a : Fin 2, win12_5.index t a * S1x128.size a ≤ (i a).val
      ∧ (i a).val < win12_5.index t a * S1x128.size a + S1x128.size a := by
  show i ∈ ((View.whole main_v158_1).slice (win12_5.rect t)).set ↔ _
  rw [View.set_slice_whole, Rect.mem_set_unit]
  exact Iff.rfl

/-- The last point's block of window 5 is the whole row, and the last point writes it back. -/
theorem cover5 (i : S1x128.Idx) :
    ∃ t : Fin cfg12.N, (cfg12.win 5).flush t = true ∧ i ∈ ((cfg12.win 5).blk t).view.set := by
  have hi0 : (i 0).val < 1 := idx2_lt0 i
  have hi1 : (i 1).val < 128 := idx2_lt1 i
  obtain ⟨t, ht⟩ : ∃ t : Fin cfg12.N, t.val = 19 := ⟨⟨19, by rw [show cfg12.N = 20 from N_12]; norm_num⟩, rfl⟩
  obtain ⟨-, -, -, -, -, -, -, -, -, -, eS0, eS1, eQ0, eQ1⟩ := idx_facts t
  refine ⟨t, (flush12_5 t).mpr (by omega), ?_⟩
  rw [mem_blk5]
  intro a
  match a with
  | ⟨0, _⟩ =>
    show win12_5.index t (0 : Fin 2) * 1 ≤ (i 0).val ∧ (i 0).val < win12_5.index t (0 : Fin 2) * 1 + 1
    omega
  | ⟨1, _⟩ =>
    show win12_5.index t (1 : Fin 2) * 128 ≤ (i 1).val ∧ (i 1).val < win12_5.index t (1 : Fin 2) * 128 + 128
    omega

/-- At a point whose number is 19 the carried column sum of squares is the one over all rows. -/
theorem accSumSq_at_last (c : Dev nD) (u : Fin 1) (q : Fin 128) (n : ℕ) (hn : n < 20) (h19 : n = 19) :
    accSumSq V c u q n hn = colSumSq (y V c) q := by
  subst h19
  exact accSumSq_last V c u q

/-- The carried row of window 6 after the last point is the whole of `resultSumSq`. -/
theorem outs6_last (c : Dev nD) (t : Fin cfg12.N) (h19 : t.val = 19) :
    (outsAt12 V c t.val t.isLt).2.2 = resultSumSq V c := by
  funext j
  obtain ⟨u, q, rfl⟩ : ∃ (u : Fin 1) (q : Fin 128), j = ix2 u q := ⟨j 0, j 1, eq_ix2 j⟩
  exact accSumSq_at_last V c u q t.val (Nat.lt_of_lt_of_eq t.isLt N_12) h19

/-- What the last point writes back for window 6 is the whole of `resultSumSq`: the window's one block lies at offset zero,
    so it reads the whole row. -/
theorem flushed6_eq (c : Dev nD) (t : Fin cfg12.N) (hf : (cfg12.win 6).flush t = true) :
    (dat12 (F := Ideal) V c).flushed 6 t = ((cfg12.win 6).blk t).view.read (Elt Ideal) (resultSumSq V c) := by
  have hN : t.val < 20 := Nat.lt_of_lt_of_eq t.isLt N_12
  have h19 : t.val = 19 := by have := (flush12_6 t).mp hf; omega
  obtain ⟨-, -, -, -, -, -, -, -, -, -, eS0, eS1, eQ0, eQ1⟩ := idx_facts t
  have hz' : (fun a => win12_6.index t a * main_v158_2.ty.shape.size a) = fun _ => 0 := funext fun a => by
    match a with
    | ⟨0, _⟩ => show win12_6.index t (0 : Fin 2) * 1 = 0; omega
    | ⟨1, _⟩ => show win12_6.index t (1 : Fin 2) * 128 = 0; omega
  show (cfg12.win 6).cut (grid12.coords t) ((dat12 V c).after 6 t) = _
  rw [after12_6, outs6_last V c t h19]
  exact (Memref.read_access_unit_zero (Elt Ideal) main_v158_2 hz' (fun a => by rw [congrFun hz' a]; simp) (resultSumSq V c)).symm

/-- An entry of the row lies in point `t`'s block of window 6 exactly when each coordinate lies in the block's range. -/
theorem mem_blk6 (t : Fin cfg12.N) (i : S1x128.Idx) :
    i ∈ ((cfg12.win 6).blk t).view.set ↔ ∀ a : Fin 2, win12_6.index t a * S1x128.size a ≤ (i a).val
      ∧ (i a).val < win12_6.index t a * S1x128.size a + S1x128.size a := by
  show i ∈ ((View.whole main_v158_2).slice (win12_6.rect t)).set ↔ _
  rw [View.set_slice_whole, Rect.mem_set_unit]
  exact Iff.rfl

/-- The last point's block of window 6 is the whole row, and the last point writes it back. -/
theorem cover6 (i : S1x128.Idx) :
    ∃ t : Fin cfg12.N, (cfg12.win 6).flush t = true ∧ i ∈ ((cfg12.win 6).blk t).view.set := by
  have hi0 : (i 0).val < 1 := idx2_lt0 i
  have hi1 : (i 1).val < 128 := idx2_lt1 i
  obtain ⟨t, ht⟩ : ∃ t : Fin cfg12.N, t.val = 19 := ⟨⟨19, by rw [show cfg12.N = 20 from N_12]; norm_num⟩, rfl⟩
  obtain ⟨-, -, -, -, -, -, -, -, -, -, eS0, eS1, eQ0, eQ1⟩ := idx_facts t
  refine ⟨t, (flush12_6 t).mpr (by omega), ?_⟩
  rw [mem_blk6]
  intro a
  match a with
  | ⟨0, _⟩ =>
    show win12_6.index t (0 : Fin 2) * 1 ≤ (i 0).val ∧ (i 0).val < win12_6.index t (0 : Fin 2) * 1 + 1
    omega
  | ⟨1, _⟩ =>
    show win12_6.index t (1 : Fin 2) * 128 ≤ (i 1).val ∧ (i 1).val < win12_6.index t (1 : Fin 2) * 128 + 128
    omega

/-- THE INTERFACE of this region, one statement per output window. -/
theorem arrAt_y (c : Dev nD) : (dat12 (F := Ideal) V c).arrAt 4 cfg12.N = resultY V c :=
  (dat12 V c).arrAt_eq_of_cover 4 (resultY V c) (fun t _ => flushedY_eq V c t) coverY

theorem arrAt_sum (c : Dev nD) : (dat12 (F := Ideal) V c).arrAt 5 cfg12.N = resultSum V c :=
  (dat12 V c).arrAt_eq_of_cover 5 (resultSum V c) (fun t hf => flushed5_eq V c t hf) cover5

theorem arrAt_sumsq (c : Dev nD) : (dat12 (F := Ideal) V c).arrAt 6 cfg12.N = resultSumSq V c :=
  (dat12 V c).arrAt_eq_of_cover 6 (resultSumSq V c) (fun t hf => flushed6_eq V c t hf) cover6

end Cert.KernelIdeal.ValAdd2_12

end
-- ==== Proof.ValNorm13Pay.lean ====
/-
  Region 13's arithmetic: what the normalisation's body computes at one row and column of a block, from the block of the
  linear stage's output and the four statistic and parameter rows. This normalisation is not followed by max(·, 0).
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm13

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block. -/
theorem pay_apply (var : Vec Ideal S1x128 .f32) (y : Vec Ideal S5000x128 .f32) (mean g beta : Vec Ideal S1x128 .f32)
    (p : Fin 5000) (q : Fin 128) :
    k13_pay1 (F := Ideal) var y mean g beta (ix2 p q)
      = StageSpec.norm (y (ix2 p q)) (mean (ix2 (0 : Fin 1) q)) (var (ix2 (0 : Fin 1) q)) (g (ix2 (0 : Fin 1) q)) (beta (ix2 (0 : Fin 1) q)) := by
  unfold k13_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The two zero offsets of a load or a store of a whole buffer. -/
theorem hz : (![0, 0] : Fin 2 → Nat) = fun _ => 0 := funext fun a => by fin_cases a <;> rfl

end Cert.KernelIdeal.ValNorm13

end
-- ==== Proof.ValNorm13.lean ====
/-
  Region 13: a normalisation with no max(·, 0) after it. Every grid point takes a block of 5000 rows of the linear stage's
  output and the four statistic and parameter rows, and writes back, entry by entry, the normalised value.
  The twenty blocks tile the 100000 rows, so the output array as a whole is that function of the region's input arrays.
-/
import proofs.«414479_j7705171329025_1_alg».proof.Proof.FrameKI.R13
import proofs.«414479_j7705171329025_1_alg».proof.Proof.StageSpec
import proofs.«414479_j7705171329025_1_alg».proof.Proof.ValNorm13Pay
import Idealize.ShloMosaic.Lib.Pipeline.Value
import Idealize.ShloMosaic.Lib.ValueIdx
import Idealize.ShloMosaic.Lib.ValueLayout

set_option maxRecDepth 16384

noncomputable section

namespace Cert.KernelIdeal.ValNorm13

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x128 .f32 := V c (Pipeline.arrRef spec13 0)
abbrev meanRow (c : Dev nD) : Vec Ideal S1x128 .f32 := V c (Pipeline.arrRef spec13 1)
abbrev varRow (c : Dev nD) : Vec Ideal S1x128 .f32 := V c (Pipeline.arrRef spec13 2)
abbrev gRow (c : Dev nD) : Vec Ideal S1x128 .f32 := V c (Pipeline.arrRef spec13 3)
abbrev betaRow (c : Dev nD) : Vec Ideal S1x128 .f32 := V c (Pipeline.arrRef spec13 4)

/-- What the region leaves in its output array: the normalised entry, at every row and column. -/
def result (c : Dev nD) : Vec Ideal S100000x128 .f32 := fun i =>
  StageSpec.norm (yArr V c i) (meanRow V c (ix2 (0 : Fin 1) (i 1))) (varRow V c (ix2 (0 : Fin 1) (i 1)))
    (gRow V c (ix2 (0 : Fin 1) (i 1))) (betaRow V c (ix2 (0 : Fin 1) (i 1)))

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x128 .f32) (x1 x2 x3 x4 : Vec Ideal S1x128 .f32) (p : Fin 5000) (q : Fin 128) :
    out13_5 x0 x1 x2 x3 x4 (ix2 p q)
      = StageSpec.norm (x0 (ix2 p q)) (x1 (ix2 (0 : Fin 1) q)) (x2 (ix2 (0 : Fin 1) q)) (x3 (ix2 (0 : Fin 1) q)) (x4 (ix2 (0 : Fin 1) q)) := by
  unfold out13_5
  rw [View.canon_unit_zero hz]
  simp only [View.ld_unit_zero (S := S1x128) hz, View.ld_unit_zero (S := S5000x128) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0 :=
  (by decide +kernel : ∀ t : Fin grid13.N, _)

/-- Row `p`, column `q` of the output's block at point `t` is row 5000·t + p, column q of the array: a block's coordinate
    is its index times its extent plus the coordinate inside it. -/
theorem emb_out (t : Fin cfg13.N) (p : Fin 5000) (q : Fin 128) (h : t.val * 5000 + p.val < 100000) :
    ((cfg13.win 5).blk t).view.emb (ix2 p q) = (ix2 ⟨t.val * 5000 + p.val, h⟩ q : S100000x128.Idx) := by
  obtain ⟨-, -, -, -, -, -, -, -, -, -, e50, e51⟩ := idx_facts t
  funext a; apply Fin.ext
  match a with
  | ⟨0, _⟩ => show win13_5.index t (0 : Fin 2) * 5000 + 1 * p.val = t.val * 5000 + p.val; omega
  | ⟨1, _⟩ => show win13_5.index t (1 : Fin 2) * 128 + 1 * q.val = q.val; omega

/-- The tall input's block at point `t`, read at (p, q), is the array at row 5000·t + p, column q: the same rows the
    output's block has there. -/
theorem y_apply (c : Dev nD) (t : Fin cfg13.N) (p : Fin 5000) (q : Fin 128) (h : t.val * 5000 + p.val < 100000) :
    (iblk13 V c 0 t : Vec Ideal S5000x128 .f32) (ix2 p q) = yArr V c (ix2 ⟨t.val * 5000 + p.val, h⟩ q) := by
  obtain ⟨e00, e01, -⟩ := idx_facts t
  unfold iblk13
  rw [View.read_apply]
  show yArr V c (((cfg13.win 0).blk t).view.emb (ix2 p q)) = _
  refine congrArg (yArr V c) ?_
  funext a; apply Fin.ext
  match a with
  | ⟨0, _⟩ => show win13_0.index t (0 : Fin 2) * 5000 + 1 * p.val = t.val * 5000 + p.val; omega
  | ⟨1, _⟩ => show win13_0.index t (1 : Fin 2) * 128 + 1 * q.val = q.val; omega

/-- The mean row's block, at every point, is the row. -/
theorem mean_apply (c : Dev nD) (t : Fin cfg13.N) (q : Fin 128) :
    (iblk13 V c 1 t : Vec Ideal S1x128 .f32) (ix2 (0 : Fin 1) q) = meanRow V c (ix2 (0 : Fin 1) q) := by
  obtain ⟨-, -, e10, e11, -⟩ := idx_facts t
  unfold iblk13
  rw [View.read_apply]
  show meanRow V c (((cfg13.win 1).blk t).view.emb (ix2 (0 : Fin 1) q)) = _
  refine congrArg (meanRow V c) ?_
  funext a; apply Fin.ext
  match a with
  | ⟨0, _⟩ => show win13_1.index t (0 : Fin 2) * 1 + 1 * 0 = 0; omega
  | ⟨1, _⟩ => show win13_1.index t (1 : Fin 2) * 128 + 1 * q.val = q.val; omega

/-- The variance row's block, at every point, is the row. -/
theorem var_apply (c : Dev nD) (t : Fin cfg13.N) (q : Fin 128) :
    (iblk13 V c 2 t : Vec Ideal S1x128 .f32) (ix2 (0 : Fin 1) q) = varRow V c (ix2 (0 : Fin 1) q) := by
  obtain ⟨-, -, -, -, e20, e21, -⟩ := idx_facts t
  unfold iblk13
  rw [View.read_apply]
  show varRow V c (((cfg13.win 2).blk t).view.emb (ix2 (0 : Fin 1) q)) = _
  refine congrArg (varRow V c) ?_
  funext a; apply Fin.ext
  match a with
  | ⟨0, _⟩ => show win13_2.index t (0 : Fin 2) * 1 + 1 * 0 = 0; omega
  | ⟨1, _⟩ => show win13_2.index t (1 : Fin 2) * 128 + 1 * q.val = q.val; omega

/-- The scale row's block, at every point, is the row. -/
theorem g_apply (c : Dev nD) (t : Fin cfg13.N) (q : Fin 128) :
    (iblk13 V c 3 t : Vec Ideal S1x128 .f32) (ix2 (0 : Fin 1) q) = gRow V c (ix2 (0 : Fin 1) q) := by
  obtain ⟨-, -, -, -, -, -, e30, e31, -⟩ := idx_facts t
  unfold iblk13
  rw [View.read_apply]
  show gRow V c (((cfg13.win 3).blk t).view.emb (ix2 (0 : Fin 1) q)) = _
  refine congrArg (gRow V c) ?_
  funext a; apply Fin.ext
  match a with
  | ⟨0, _⟩ => show win13_3.index t (0 : Fin 2) * 1 + 1 * 0 = 0; omega
  | ⟨1, _⟩ => show win13_3.index t (1 : Fin 2) * 128 + 1 * q.val = q.val; omega

/-- The shift row's block, at every point, is the row. -/
theorem beta_apply (c : Dev nD) (t : Fin cfg13.N) (q : Fin 128) :
    (iblk13 V c 4 t : Vec Ideal S1x128 .f32) (ix2 (0 : Fin 1) q) = betaRow V c (ix2 (0 : Fin 1) q) := by
  obtain ⟨-, -, -, -, -, -, -, -, e40, e41, -⟩ := idx_facts t
  unfold iblk13
  rw [View.read_apply]
  show betaRow V c (((cfg13.win 4).blk t).view.emb (ix2 (0 : Fin 1) q)) = _
  refine congrArg (betaRow V c) ?_
  funext a; apply Fin.ext
  match a with
  | ⟨0, _⟩ => show win13_4.index t (0 : Fin 2) * 1 + 1 * 0 = 0; omega
  | ⟨1, _⟩ => show win13_4.index t (1 : Fin 2) * 128 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg13.N) :
    (dat13 (F := Ideal) V c).flushed 5 t = ((cfg13.win 5).blk t).view.read (Elt Ideal) (result V c) := by
  show (cfg13.win 5).cut (grid13.coords t) ((dat13 V c).after 5 t) = _
  rw [after13_5]
  have ht : t.val < 20 := Nat.lt_of_lt_of_eq t.isLt N_13
  funext j
  obtain ⟨p, q, rfl⟩ : ∃ (p : Fin 5000) (q : Fin 128), j = ix2 p q := ⟨j 0, j 1, eq_ix2 j⟩
  have h : t.val * 5000 + p.val < 100000 := by have := p.isLt; omega
  show out13_5 (iblk13 V c 0 t) (iblk13 V c 1 t) (iblk13 V c 2 t) (iblk13 V c 3 t) (iblk13 V c 4 t) (ix2 p q)
      = result V c (((cfg13.win 5).blk t).view.emb (ix2 p q))
  refine (out_apply (iblk13 V c 0 t) (iblk13 V c 1 t) (iblk13 V c 2 t) (iblk13 V c 3 t) (iblk13 V c 4 t) p q).trans ?_
  refine Eq.trans ?_ (congrArg (result V c) (emb_out t p q h)).symm
  refine Eq.trans ?_ (show StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg13.N) (i : S100000x128.Idx) :
    i ∈ ((cfg13.win 5).blk t).view.set ↔ ∀ a : Fin 2, win13_5.index t a * S5000x128.size a ≤ (i a).val
      ∧ (i a).val < win13_5.index t a * S5000x128.size a + S5000x128.size a := by
  show i ∈ ((View.whole main_v171).slice (win13_5.rect t)).set ↔ _
  rw [View.set_slice_whole, Rect.mem_set_unit]
  exact Iff.rfl

/-- The twenty blocks tile the array: row `r` is in the block of point `r / 5000`, and every point writes its block back. -/
theorem cover (i : S100000x128.Idx) :
    ∃ t : Fin cfg13.N, (cfg13.win 5).flush t = true ∧ i ∈ ((cfg13.win 5).blk t).view.set := by
  have hi0 : (i 0).val < 100000 := idx2_lt0 i
  have hi1 : (i 1).val < 128 := idx2_lt1 i
  obtain ⟨t, ht⟩ : ∃ t : Fin cfg13.N, t.val = (i 0).val / 5000 :=
    ⟨⟨(i 0).val / 5000, by rw [show cfg13.N = 20 from N_13]; omega⟩, rfl⟩
  obtain ⟨-, -, -, -, -, -, -, -, -, -, e50, e51⟩ := idx_facts t
  refine ⟨t, flush13_5 t, ?_⟩
  rw [mem_blk]
  intro a
  match a with
  | ⟨0, _⟩ =>
    show win13_5.index t (0 : Fin 2) * 5000 ≤ (i 0).val ∧ (i 0).val < win13_5.index t (0 : Fin 2) * 5000 + 5000
    omega
  | ⟨1, _⟩ =>
    show win13_5.index t (1 : Fin 2) * 128 ≤ (i 1).val ∧ (i 1).val < win13_5.index t (1 : Fin 2) * 128 + 128
    omega

/-- THE INTERFACE of this region: after its twenty points the output array is `result`. -/
theorem arrAt_out (c : Dev nD) : (dat13 (F := Ideal) V c).arrAt 5 cfg13.N = result V c := by
  exact (dat13 V c).arrAt_eq_of_cover 5 (result V c) (fun t _ => flushed_eq V c t) cover

end Cert.KernelIdeal.ValNorm13

end
-- ==== Proof.KernelChain6.lean ====
/-
  Stage 6 of the chain, the kernel's half: the second message-passing hop of a later block. The block's input is the previous
  block's output plus the embedding's output, entry by entry, formed before the block's first hop and carried unchanged
  to this one. The host operations before the hop's first region pool the previous hop's rows along the edges and take
  the hop's square of the stacked weights and its row of the stacked biases; the first region adds the pooled rows to the
  block input's, multiplies by the weights, adds the bias row, and leaves with that array its column sums and column sums
  of squares; the host operations between the regions divide those by the row count, form the variance as the mean of
  squares less the squared mean, and take the hop's rows of the stacked scale and shift; the second region normalises with
  those rows, with no clipping after it. Here the steps are joined, over the previous hop's output, the previous block's
  output and the embedding's output as the run leaves them and the launch memory's edge lists and stacked parameters.
-/
import proofs.«414479_j7705171329025_1_alg».proof.Proof.ValAdd2_12
import proofs.«414479_j7705171329025_1_alg».proof.Proof.ValNorm13
import proofs.«414479_j7705171329025_1_alg».proof.Proof.HostHop12
import proofs.«414479_j7705171329025_1_alg».proof.Proof.HostHop10
import proofs.«414479_j7705171329025_1_alg».proof.Proof.HostStats13
import proofs.«414479_j7705171329025_1_alg».proof.Proof.StageReal
import proofs.«414479_j7705171329025_1_alg».proof.Proof.FrameKI.Run
import proofs.«414479_j7705171329025_1_alg».proof.Proof.Carry0
import proofs.«414479_j7705171329025_1_alg».proof.Proof.Carry4
import proofs.«414479_j7705171329025_1_alg».proof.Proof.PreReal
import proofs.«414479_j7705171329025_1_alg».proof.Proof.PooledReal
import proofs.«414479_j7705171329025_1_alg».proof.Proof.SliceReal
import Idealize.ShloMosaic.Lib.IdealHost
import Idealize.ShloMosaic.Lib.ValueLayout

set_option maxRecDepth 16384

noncomputable section

namespace Cert.KernelChain6

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## The hop's data: earlier stages' output arrays, and the launch memory's arrays, each at its literal type -/

/-- The previous hop's output array, as the run leaves it. -/
abbrev prev (c : Dev nD) : Vec Ideal S100000x128 .f32 := W24 (F := Ideal) m ρ c (Proc.devRef .tc main_v142)
/-- The previous block's output array, as the run leaves it. -/
abbrev prevBlock (c : Dev nD) : Vec Ideal S100000x128 .f32 := W20 (F := Ideal) m ρ c (Proc.devRef .tc main_v112)
/-- The embedding's output array, as the run leaves it. -/
abbrev inp (c : Dev nD) : Vec Ideal S100000x128 .f32 := W4 (F := Ideal) m ρ c (Proc.devRef .tc main_v10)
/-- The block's input: the previous block's output plus the embedding's, entry by entry. -/
abbrev blockIn (c : Dev nD) : Vec Ideal S100000x128 .f32 :=
  addf (F := Ideal) (s := S100000x128) (φ := .f32) (prevBlock m ρ c) (inp m ρ c)
/-- The edges' sources. -/
abbrev src (c : Dev nD) : Vec Ideal S800000 .i32 := m ((c : Thread nD τ).loc main_arg1)
/-- The edges' destinations. -/
abbrev dst (c : Dev nD) : Vec Ideal S800000 .i32 := m ((c : Thread nD τ).loc main_arg2)
/-- The stacked weights of the block's three hops. -/
abbrev convW (c : Dev nD) : Vec Ideal S3x128x128 .f32 := m ((c : Thread nD τ).loc main_arg8)
/-- The stacked biases. -/
abbrev convB (c : Dev nD) : Vec Ideal S3x128 .f32 := m ((c : Thread nD τ).loc main_arg9)
/-- The stacked scales of the three hops' batch norms. -/
abbrev bnG (c : Dev nD) : Vec Ideal S3x128 .f32 := m ((c : Thread nD τ).loc main_arg10)
/-- The stacked shifts. -/
abbrev bnB (c : Dev nD) : Vec Ideal S3x128 .f32 := m ((c : Thread nD τ).loc main_arg11)

/-- The previous hop's output's rows pooled along the edges. -/
abbrev pooledPrev (c : Dev nD) : Vec Ideal S100000x128 .f32 := HostHop12.pooled (F := Ideal) (prev m ρ c) (src m c) (dst m c)
/-- The hop's weight matrix. -/
abbrev Wt (c : Dev nD) : Vec Ideal S128x128 .f32 := HostHop12.wOf (F := Ideal) (convW m c)
/-- The hop's bias row. -/
abbrev B (c : Dev nD) : Vec Ideal S1x128 .f32 := HostHop12.rowOf (F := Ideal) (convB m c)
/-- The hop's scale row. -/
abbrev g (c : Dev nD) : Vec Ideal S1x128 .f32 := HostStats13.rowOf (F := Ideal) (bnG m c)
/-- The hop's shift row. -/
abbrev β (c : Dev nD) : Vec Ideal S1x128 .f32 := HostStats13.rowOf (F := Ideal) (bnB m c)

/-- The hop's linear stage, entry by entry: the pooled rows plus the block input's, against the weights, plus the bias. -/
def y (c : Dev nD) (r : Fin 100000) (q : Fin 128) : EReal :=
  StageSpec.linAdd (pooledPrev m ρ c) (blockIn m ρ c) (Wt m c) (B m c) r q

/-- The row count, as the word the host operations divide by. -/
abbrev nRows : EReal := Ideal.ofBits .f32 0x47C35000#32

/-! ## Real numbers in, real numbers out -/

/-- Under the precondition, and if every entry of the earlier stages' arrays is a real number, every entry of the hop's
    linear stage is one: the neighbour sum of a real array is real whatever the edges are, and the hop's square of the
    weights and its row of the biases are entries of real arrays. -/
theorem y_isReal [Cert.Pre_finite_inputs.Facts] (h : Cert.Pre_KernelIdeal m) (c : Dev nD)
    (hprev : ∀ i, Cert.RealSpec.IsReal (prev m ρ c i)) (hblk : ∀ i, Cert.RealSpec.IsReal (prevBlock m ρ c i))
    (hinp : ∀ i, Cert.RealSpec.IsReal (inp m ρ c i)) (r : Fin 100000) (q : Fin 128) :
    Cert.RealSpec.IsReal (y m ρ c r q) :=
  StageReal.linAdd_isReal (pooledPrev m ρ c) (blockIn m ρ c) (Wt m c) (B m c)
    (Cert.PooledReal.pooled_isReal (prev m ρ c) (src m c) (dst m c) hprev)
    (fun i => BatchStats.isReal_add (hblk i) (hinp i))
    (Cert.SliceReal.wOf1_isReal (convW m c) (Cert.PreReal.real_arg8 m h c))
    (Cert.SliceReal.rowOf1_isReal (convB m c) (Cert.PreReal.real_arg9 m h c)) r q

/-- Under the precondition every entry of the hop's scale row is a real number. -/
theorem g_isReal [Cert.Pre_finite_inputs.Facts] (h : Cert.Pre_KernelIdeal m) (c : Dev nD) (q : Fin 128) :
    Cert.RealSpec.IsReal (g m c (ix2 (0 : Fin 1) q)) :=
  Cert.SliceReal.statsRow1_isReal (bnG m c) (Cert.PreReal.real_arg10 m h c) (ix2 (0 : Fin 1) q)

/-- And every entry of its shift row. -/
theorem β_isReal [Cert.Pre_finite_inputs.Facts] (h : Cert.Pre_KernelIdeal m) (c : Dev nD) (q : Fin 128) :
    Cert.RealSpec.IsReal (β m c (ix2 (0 : Fin 1) q)) :=
  Cert.SliceReal.statsRow1_isReal (bnB m c) (Cert.PreReal.real_arg11 m h c) (ix2 (0 : Fin 1) q)

/-! ## The first region's inputs -/

/-- The pooled rows: the host operations before the region form them, with the edge lists, which nothing has written since
    the launch. -/
theorem xa_eq (c : Dev nD) : ValAdd2_12.xaArr (V25 m ρ) c = pooledPrev m ρ c :=
  (HostHop12.read_pooled (W24 m ρ c)).trans
    (congrArg₂ (fun s d => HostHop12.pooled (F := Ideal) (prev m ρ c) s d)
      ((Carry.main_arg1_0_24 m ρ c).trans rfl) ((Carry.main_arg2_0_24 m ρ c).trans rfl))

/-- The block's input. -/
theorem xb_eq (c : Dev nD) : ValAdd2_12.xbArr (V25 m ρ) c = blockIn m ρ c :=
  ((Carry.main_v113_21_25 m ρ c).trans (HostHop10.read_input (W20 m ρ c))).trans
    (congrArg (fun t => addf (F := Ideal) (s := S100000x128) (φ := .f32) (prevBlock m ρ c) t) (Carry.main_v10_4_20 m ρ c))

/-- The hop's weight matrix, out of the launch memory's stacked weights. -/
theorem w_eq (c : Dev nD) : ValAdd2_12.wArr (V25 m ρ) c = Wt m c :=
  (HostHop12.read_w (W24 m ρ c)).trans (congrArg (HostHop12.wOf (F := Ideal)) ((Carry.main_arg8_0_24 m ρ c).trans rfl))

/-- The hop's bias row, out of the launch memory's stacked biases. -/
theorem b_eq (c : Dev nD) : ValAdd2_12.bRow (V25 m ρ) c = B m c :=
  (HostHop12.read_b (W24 m ρ c)).trans (congrArg (HostHop12.rowOf (F := Ideal)) ((Carry.main_arg9_0_24 m ρ c).trans rfl))

/-- So the first region's linear stage is the hop's. -/
theorem y_eq (c : Dev nD) : ValAdd2_12.y (V25 m ρ) c = y m ρ c := by
  funext r q
  unfold ValAdd2_12.y y
  rw [xa_eq m ρ c, xb_eq m ρ c, w_eq m ρ c, b_eq m ρ c]

/-! ## The second region's five arrays, from the first region's three -/

/-- The column sums, as the first region leaves them. -/
theorem sum_eq (c : Dev nD) :
    (W26 m ρ c (Proc.devRef .tc main_v158_1) : Vec Ideal S1x128 .f32) = ValAdd2_12.resultSum (V25 m ρ) c :=
  (W26_arr m ρ c 5).trans (ValAdd2_12.arrAt_sum (V25 m ρ) c)

/-- The column sums of squares, as the first region leaves them. -/
theorem sumsq_eq (c : Dev nD) :
    (W26 m ρ c (Proc.devRef .tc main_v158_2) : Vec Ideal S1x128 .f32) = ValAdd2_12.resultSumSq (V25 m ρ) c :=
  (W26_arr m ρ c 6).trans (ValAdd2_12.arrAt_sumsq (V25 m ρ) c)

/-- The tall array the second region normalises is the first region's output: the host operations between the two do
    not write it. -/
theorem yArr_eq (c : Dev nD) : ValNorm13.yArr (V27 m ρ) c = ValAdd2_12.resultY (V25 m ρ) c :=
  ((HostStats13.read_y (W26 m ρ c)).trans (W26_arr m ρ c 4)).trans (ValAdd2_12.arrAt_y (V25 m ρ) c)

/-- The mean row: the column sums over the row count. -/
theorem meanRow_eq (c : Dev nD) :
    ValNorm13.meanRow (V27 m ρ) c
      = Host.divf (F := Ideal) (φ := .f32) (ValAdd2_12.resultSum (V25 m ρ) c) (HostStats13.nRow (F := Ideal)) := by
  refine (HostStats13.read_mean (W26 m ρ c)).trans ?_
  rw [sum_eq m ρ c]

/-- The variance row: the mean of squares less the squared mean. -/
theorem varRow_eq (c : Dev nD) :
    ValNorm13.varRow (V27 m ρ) c
      = subf (F := Ideal) (φ := .f32) (Host.divf (F := Ideal) (φ := .f32) (ValAdd2_12.resultSumSq (V25 m ρ) c) (HostStats13.nRow (F := Ideal)))
          (mulf (F := Ideal) (φ := .f32) (Host.divf (F := Ideal) (φ := .f32) (ValAdd2_12.resultSum (V25 m ρ) c) (HostStats13.nRow (F := Ideal)))
            (Host.divf (F := Ideal) (φ := .f32) (ValAdd2_12.resultSum (V25 m ρ) c) (HostStats13.nRow (F := Ideal)))) := by
  refine (HostStats13.read_var (W26 m ρ c)).trans ?_
  rw [sum_eq m ρ c, sumsq_eq m ρ c]

/-- The scale row: the hop's row of the launch memory's stacked scales, which nothing has written since the launch. -/
theorem gRow_eq (c : Dev nD) : ValNorm13.gRow (V27 m ρ) c = g m c :=
  (HostStats13.read_g (W26 m ρ c)).trans (congrArg (HostStats13.rowOf (F := Ideal)) ((Carry.main_arg10_0_26 m ρ c).trans rfl))

/-- The shift row: the hop's row of the launch memory's stacked shifts. -/
theorem betaRow_eq (c : Dev nD) : ValNorm13.betaRow (V27 m ρ) c = β m c :=
  (HostStats13.read_beta (W26 m ρ c)).trans (congrArg (HostStats13.rowOf (F := Ideal)) ((Carry.main_arg11_0_26 m ρ c).trans rfl))

/-! ## The five arrays read at an entry -/

/-- The divisor row holds the row count in every column. -/
theorem nRow_apply (j : S1x128.Idx) : HostStats13.nRow (F := Ideal) j = nRows := by
  unfold HostStats13.nRow
  exact (broadcastInDim_scalar_apply bcast_S_S1x128 (constant (F := Ideal) S_ .f32 0x47C35000#32) j).trans rfl

/-- The tall array at row r, column q is the linear stage's entry. -/
theorem yArr_apply (c : Dev nD) (r : Fin 100000) (q : Fin 128) :
    ValNorm13.yArr (V27 m ρ) c (ix2 r q) = ValAdd2_12.y (V25 m ρ) c r q :=
  (congrFun (yArr_eq m ρ c) (ix2 r q)).trans rfl

/-- The mean row at column q is the column mean of the linear stage's output. -/
theorem mean_apply (c : Dev nD) (q : Fin 128) :
    ValNorm13.meanRow (V27 m ρ) c (ix2 (0 : Fin 1) q) = StageReal.colMean (ValAdd2_12.y (V25 m ρ) c) nRows q := by
  refine (congrFun (meanRow_eq m ρ c) (ix2 (0 : Fin 1) q)).trans ?_
  show Ideal.div (ValAdd2_12.resultSum (V25 m ρ) c (ix2 (0 : Fin 1) q)) (HostStats13.nRow (F := Ideal) (ix2 (0 : Fin 1) q)) = _
  rw [nRow_apply]
  rfl

/-- The variance row at column q is the mean of squares less the squared mean of that column. -/
theorem var_apply (c : Dev nD) (q : Fin 128) :
    ValNorm13.varRow (V27 m ρ) c (ix2 (0 : Fin 1) q) = StageReal.varSumSq (ValAdd2_12.y (V25 m ρ) c) nRows q := by
  refine (congrFun (varRow_eq m ρ c) (ix2 (0 : Fin 1) q)).trans ?_
  show Ideal.div (ValAdd2_12.resultSumSq (V25 m ρ) c (ix2 (0 : Fin 1) q)) (HostStats13.nRow (F := Ideal) (ix2 (0 : Fin 1) q))
      - Ideal.div (ValAdd2_12.resultSum (V25 m ρ) c (ix2 (0 : Fin 1) q)) (HostStats13.nRow (F := Ideal) (ix2 (0 : Fin 1) q))
        * Ideal.div (ValAdd2_12.resultSum (V25 m ρ) c (ix2 (0 : Fin 1) q)) (HostStats13.nRow (F := Ideal) (ix2 (0 : Fin 1) q)) = _
  rw [nRow_apply]
  rfl

/-! ## The hop's output -/

/-- What the second region leaves in its output array is what it computes from its five arrays. -/
theorem out_eq (c : Dev nD) :
    (W28 (F := Ideal) m ρ c (Proc.devRef .tc main_v171) : Vec Ideal S100000x128 .f32) = ValNorm13.result (V27 m ρ) c :=
  (W28_arr m ρ c 5).trans (ValNorm13.arrAt_out (V27 m ρ) c)

/-- THE KERNEL'S HOP OUTPUT, entry by entry: the batch normalisation of the hop's linear stage with the statistics in
    the kernel's form, not clipped. -/
theorem kernel_out_apply (c : Dev nD) (r : Fin 100000) (q : Fin 128) :
    (W28 (F := Ideal) m ρ c (Proc.devRef .tc main_v171) : Vec Ideal S100000x128 .f32) (ix2 r q)
      = StageSpec.norm (y m ρ c r q) (StageReal.colMean (y m ρ c) nRows q) (StageReal.varSumSq (y m ρ c) nRows q)
          (g m c (ix2 (0 : Fin 1) q)) (β m c (ix2 (0 : Fin 1) q)) := by
  refine (congrFun (out_eq m ρ c) (ix2 r q)).trans ?_
  show StageSpec.norm (ValNorm13.yArr (V27 m ρ) c (ix2 r q)) (ValNorm13.meanRow (V27 m ρ) c (ix2 (0 : Fin 1) q))
      (ValNorm13.varRow (V27 m ρ) c (ix2 (0 : Fin 1) q)) (ValNorm13.gRow (V27 m ρ) c (ix2 (0 : Fin 1) q))
      (ValNorm13.betaRow (V27 m ρ) c (ix2 (0 : Fin 1) q)) = _
  rw [yArr_apply m ρ c r q, mean_apply m ρ c q, var_apply m ρ c q, gRow_eq m ρ c, betaRow_eq m ρ c, y_eq m ρ c]

end Cert.KernelChain6

end
-- ==== Proof.Chain6.lean ====
/-
  Stage 6 of the chain: the second message-passing hop of a later block. The block's input is the previous block's output
  plus the embedding's output, entry by entry, in both programs. Both pool the previous hop's output along the edges, add
  the block's input, multiply by the hop's square of the stacked weights, add the hop's bias and normalise the result by
  its batch statistics with the hop's scale and shift; there is no clipping after a hop. The two programs' previous hop
  outputs are one array of real numbers, and so are their previous block outputs and their embedding outputs (the
  invariants of the earlier stages); the edge lists and the parameters are the same in the two memories.
  The neighbour sum, the weight square and the bias row are written with the same words in both programs, so the two linear
  stages are one array, of real numbers. The kernel takes the variance as the mean of squares less the squared mean, the
  reference as the mean of the squared deviations: on real data one number. So the two normalised arrays are equal, entry
  by entry, and every entry is a real number.
-/
import proofs.«414479_j7705171329025_1_alg».proof.Proof.KernelChain6
import proofs.«414479_j7705171329025_1_alg».proof.Proof.RefChain6
import proofs.«414479_j7705171329025_1_alg».proof.Proof.ChainDefs
import proofs.«414479_j7705171329025_1_alg».proof.Proof.Chain0
import proofs.«414479_j7705171329025_1_alg».proof.Proof.RefSide
import proofs.«414479_j7705171329025_1_alg».proof.Proof.HopJoin
import proofs.«414479_j7705171329025_1_alg».proof.Proof.Seam
import proofs.«414479_j7705171329025_1_alg».proof.Proof.PreReal

noncomputable section

namespace Cert.Chain6

open Cert.RealSpec (IsReal)
open Cert.ChainDefs
open Idealize.ShloMosaic Idealize.ShloMosaic.TcCoe Idealize.ShloMosaic.StableHlo

variable [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The hop's row of a stacked parameter, read at column q, is the hop's vector of it at q: the row is the vector laid out
    as a row. -/
theorem row_eq_vec (p : Vec Ideal Cert.KernelIdeal.S3x128 .f32) (q : Fin 128) :
    Cert.KernelIdeal.HostStats13.rowOf (F := Ideal) p (ValueIdx.ix2 (0 : Fin 1) q)
      = Cert.ReferenceIdeal.RefKinds.refVec1 (F := Ideal) p (ValueIdx.ix1 q) :=
  ValueIdx.shapeCast_a_1a_apply _ _ (0 : Fin 1) q

/-- STAGE 6: the two hop outputs are equal, and every entry is a real number, given the same of the earlier stages'
    arrays this hop reads. -/
theorem inv6 (hpre : Cert.Pre_KernelIdeal m) (hag : Cert.Chain0.Agree m m') (c : Dev Cert.KernelIdeal.nD)
    (h5 : Inv5 m ρ m' c) (h4 : Inv4 m ρ m' c) (h0 : Inv0 m ρ m' c) : Inv6 m ρ m' c := by
  -- the reference's earlier arrays are the kernel's, by the invariants of the earlier stages
  have esrc : Cert.ReferenceIdeal.RefChain6.src (U4 m' c) = Cert.KernelChain6.prev m ρ c := (Cert.RefSide.src6 m' c).trans (funext h5.1).symm
  have ebin : Cert.ReferenceIdeal.RefChain6.bin (U4 m' c) = Cert.KernelChain6.blockIn m ρ c :=
    (Cert.RefSide.bin6 m' c).trans
      (congrArg₂ (fun a b => addf (F := Ideal) (s := Cert.KernelIdeal.S100000x128) (φ := .f32) a b) (funext h4.1).symm (funext h0.1).symm)
  -- the reference's edge lists and parameters are the kernel's: no list of operations writes them, and the two memories
  -- agree on the arguments
  have e1 : U4 m' c (Proc.devRef .tc Cert.ReferenceIdeal.main_arg1) = Cert.KernelChain6.src m c :=
    (Cert.RefSide.arg1_at4 m' c).trans (hag.arg1 c)
  have e2 : U4 m' c (Proc.devRef .tc Cert.ReferenceIdeal.main_arg2) = Cert.KernelChain6.dst m c :=
    (Cert.RefSide.arg2_at4 m' c).trans (hag.arg2 c)
  have e8 : U4 m' c (Proc.devRef .tc Cert.ReferenceIdeal.main_arg8) = Cert.KernelChain6.convW m c :=
    (Cert.RefSide.arg8_at4 m' c).trans (hag.arg8 c)
  have e9 : U4 m' c (Proc.devRef .tc Cert.ReferenceIdeal.main_arg9) = Cert.KernelChain6.convB m c :=
    (Cert.RefSide.arg9_at4 m' c).trans (hag.arg9 c)
  have e10 : U4 m' c (Proc.devRef .tc Cert.ReferenceIdeal.main_arg10) = Cert.KernelChain6.bnG m c :=
    (Cert.RefSide.arg10_at4 m' c).trans (hag.arg10 c)
  have e11 : U4 m' c (Proc.devRef .tc Cert.ReferenceIdeal.main_arg11) = Cert.KernelChain6.bnB m c :=
    (Cert.RefSide.arg11_at4 m' c).trans (hag.arg11 c)
  -- so the two linear stages are one array: the neighbour sum, the weight square and the bias row are the same words
  have ey : Cert.ReferenceIdeal.RefChain6.y (U4 m' c) = Cert.KernelChain6.y m ρ c := by
    funext r q
    show StageSpec.linAdd
        (Cert.ReferenceIdeal.RefKinds.refPooled (Cert.ReferenceIdeal.RefChain6.src (U4 m' c))
          (U4 m' c (Proc.devRef .tc Cert.ReferenceIdeal.main_arg1)) (U4 m' c (Proc.devRef .tc Cert.ReferenceIdeal.main_arg2)))
        (Cert.ReferenceIdeal.RefChain6.bin (U4 m' c))
        (Cert.ReferenceIdeal.RefKinds.refW1 (U4 m' c (Proc.devRef .tc Cert.ReferenceIdeal.main_arg8)))
        (Cert.ReferenceIdeal.RefKinds.refRow1 (U4 m' c (Proc.devRef .tc Cert.ReferenceIdeal.main_arg9))) r q = _
    rw [esrc, ebin, e1, e2, e8, e9]
    rfl
  -- the reference's scale and shift at column q are the kernel's rows' entries
  have eg : ∀ q : Fin 128, Cert.ReferenceIdeal.RefChain6.g (U4 m' c) (ValueIdx.ix1 q) = Cert.KernelChain6.g m c (ValueIdx.ix2 (0 : Fin 1) q) := fun q => by
    show Cert.ReferenceIdeal.RefKinds.refVec1 (U4 m' c (Proc.devRef .tc Cert.ReferenceIdeal.main_arg10)) (ValueIdx.ix1 q) = _
    rw [e10]
    exact (row_eq_vec (Cert.KernelChain6.bnG m c) q).symm
  have eβ : ∀ q : Fin 128, Cert.ReferenceIdeal.RefChain6.β (U4 m' c) (ValueIdx.ix1 q) = Cert.KernelChain6.β m c (ValueIdx.ix2 (0 : Fin 1) q) := fun q => by
    show Cert.ReferenceIdeal.RefKinds.refVec1 (U4 m' c (Proc.devRef .tc Cert.ReferenceIdeal.main_arg11)) (ValueIdx.ix1 q) = _
    rw [e11]
    exact (row_eq_vec (Cert.KernelChain6.bnB m c) q).symm
  -- the join: on real data the two variances are one number
  exact Cert.HopJoin.join (kOut6 m ρ c) (rOut6 m' c) (Cert.KernelChain6.y m ρ c) (Cert.ReferenceIdeal.RefChain6.y (U4 m' c))
    (fun q => Cert.KernelChain6.g m c (ValueIdx.ix2 (0 : Fin 1) q)) (fun q => Cert.KernelChain6.β m c (ValueIdx.ix2 (0 : Fin 1) q))
    (fun q => Cert.ReferenceIdeal.RefChain6.g (U4 m' c) (ValueIdx.ix1 q)) (fun q => Cert.ReferenceIdeal.RefChain6.β (U4 m' c) (ValueIdx.ix1 q))
    (Cert.KernelChain6.kernel_out_apply m ρ c) (Cert.ReferenceIdeal.RefChain6.out_apply (U4 m' c)) ey eg eβ
    (Cert.KernelChain6.y_isReal m ρ hpre c h5.2 h4.2 h0.2) (Cert.KernelChain6.g_isReal m hpre c) (Cert.KernelChain6.β_isReal m hpre c)

end Cert.Chain6

end
-- ==== Proof.ValAdd2_14.lean ====
/-
  Region 14: a message-passing hop's linear stage with its column statistics. At each grid point the body adds a block of
  5000 rows of the pooled neighbours to the same rows of the block's input, multiplies by the hop's weight matrix, adds the
  bias row, stores that block, and adds the block's column sums and column sums of squares to two carried rows the first
  point has set to zero. As for the embedding, the blocks tile the rows and the carried rows end as sums over all rows.
-/
import proofs.«414479_j7705171329025_1_alg».proof.Proof.FrameKI.R14
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValAdd2_14

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. At the first point the two carried rows are first set to zero and then read
  back, so the running rows it leaves are the block's sums added to zero; at the other points they are added to what the
  rows held. -/

section Pieces

variable {F : FTy → Type} [FloatOps F]

theorem outA4 (c : Dev nD) (i : grid14.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond14_0 i)
    (x0 : Vec F S5000x128 .f32) (x1 : Vec F S5000x128 .f32) (x2 : Vec F S128x128 .f32) (x3 : Vec F S1x128 .f32) :
    out14_A_4 c i a1 h1 a2 h2 a3 h3 a4 h4 a5 h5 a6 h6 a7 h7 hc x0 x1 x2 x3 = k14_pay3 x0 x1 x2 x3 := by
  unfold out14_A_4
  rw [View.read_writes_eq_canon _ _ _ (cover14_A_4 c i a1 h1 a2 h2 a3 h3 a4 h4 a5 h5 a6 h6 a7 h7 hc x0 x1 x2 x3)]
  unfold kernelRun14_A
  dsimp only
  (try sl_unfold_words)
  rw [View.canon_unit_zero hz]
  simp only [View.readAt_eq_ld, h1.read_unread, h2.read_unread, h3.read_unread, h4.read_unread,
    View.ld_unit_zero (S := S5000x128) hz, View.ld_unit_zero (S := S128x128) hz, View.ld_unit_zero (S := S1x128) hz]

theorem outA5 (c : Dev nD) (i : grid14.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond14_0 i)
    (x0 : Vec F S5000x128 .f32) (x1 : Vec F S5000x128 .f32) (x2 : Vec F S128x128 .f32) (x3 : Vec F S1x128 .f32) :
    out14_A_5 c i a1 h1 a2 h2 a3 h3 a4 h4 a5 h5 a6 h6 a7 h7 hc x0 x1 x2 x3 = k14_pay4 x0 x1 x2 x3 (k14_pay1 (F := F)) := by
  unfold out14_A_5
  rw [View.read_writes_eq_canon _ _ _ (cover14_A_5 c i a1 h1 a2 h2 a3 h3 a4 h4 a5 h5 a6 h6 a7 h7 hc x0 x1 x2 x3)]
  unfold kernelRun14_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outA6 (c : Dev nD) (i : grid14.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond14_0 i)
    (x0 : Vec F S5000x128 .f32) (x1 : Vec F S5000x128 .f32) (x2 : Vec F S128x128 .f32) (x3 : Vec F S1x128 .f32) :
    out14_A_6 c i a1 h1 a2 h2 a3 h3 a4 h4 a5 h5 a6 h6 a7 h7 hc x0 x1 x2 x3 = k14_pay5 x0 x1 x2 x3 (k14_pay2 (F := F)) := by
  unfold out14_A_6
  rw [View.read_writes_eq_canon _ _ _ (cover14_A_6 c i a1 h1 a2 h2 a3 h3 a4 h4 a5 h5 a6 h6 a7 h7 hc x0 x1 x2 x3)]
  unfold kernelRun14_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outB4 (c : Dev nD) (i : grid14.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond14_0 i)
    (x0 : Vec F S5000x128 .f32) (x1 : Vec F S5000x128 .f32) (x2 : Vec F S128x128 .f32) (x3 : Vec F S1x128 .f32) (xoS xoQ : Vec F S1x128 .f32) :
    out14_B_4 c i a1 h1 a2 h2 a3 h3 a4 h4 a5 h5 a6 h6 a7 h7 hc x0 x1 x2 x3 xoS xoQ = k14_pay3 x0 x1 x2 x3 := by
  unfold out14_B_4
  rw [View.read_writes_eq_canon _ _ _ (cover14_B_4 c i a1 h1 a2 h2 a3 h3 a4 h4 a5 h5 a6 h6 a7 h7 hc x0 x1 x2 x3 xoS xoQ)]
  unfold kernelRun14_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB5 (c : Dev nD) (i : grid14.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond14_0 i)
    (x0 : Vec F S5000x128 .f32) (x1 : Vec F S5000x128 .f32) (x2 : Vec F S128x128 .f32) (x3 : Vec F S1x128 .f32) (xoS xoQ : Vec F S1x128 .f32) :
    out14_B_5 c i a1 h1 a2 h2 a3 h3 a4 h4 a5 h5 a6 h6 a7 h7 hc x0 x1 x2 x3 xoS xoQ = k14_pay4 x0 x1 x2 x3 xoS := by
  unfold out14_B_5
  rw [View.read_writes_eq_canon _ _ _ (cover14_B_5 c i a1 h1 a2 h2 a3 h3 a4 h4 a5 h5 a6 h6 a7 h7 hc x0 x1 x2 x3 xoS xoQ)]
  unfold kernelRun14_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB6 (c : Dev nD) (i : grid14.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond14_0 i)
    (x0 : Vec F S5000x128 .f32) (x1 : Vec F S5000x128 .f32) (x2 : Vec F S128x128 .f32) (x3 : Vec F S1x128 .f32) (xoS xoQ : Vec F S1x128 .f32) :
    out14_B_6 c i a1 h1 a2 h2 a3 h3 a4 h4 a5 h5 a6 h6 a7 h7 hc x0 x1 x2 x3 xoS xoQ = k14_pay5 x0 x1 x2 x3 xoQ := by
  unfold out14_B_6
  rw [View.read_writes_eq_canon _ _ _ (cover14_B_6 c i a1 h1 a2 h2 a3 h3 a4 h4 a5 h5 a6 h6 a7 h7 hc x0 x1 x2 x3 xoS xoQ)]
  unfold kernelRun14_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

end Pieces

variable (V : (c : Dev nD) → (b : Ref sig .tc) → Buf (Elt Ideal) ((c : Thread nD τ).loc b))

/-- The region's input arrays as it finds them, each at its literal type. -/
abbrev xaArr (c : Dev nD) : Vec Ideal S100000x128 .f32 := V c (Pipeline.arrRef spec14 0)
abbrev xbArr (c : Dev nD) : Vec Ideal S100000x128 .f32 := V c (Pipeline.arrRef spec14 1)
abbrev wArr (c : Dev nD) : Vec Ideal S128x128 .f32 := V c (Pipeline.arrRef spec14 2)
abbrev bRow (c : Dev nD) : Vec Ideal S1x128 .f32 := V c (Pipeline.arrRef spec14 3)

/-- One entry of the linear stage on the region's arrays. -/
def y (c : Dev nD) (r : Fin 100000) (q : Fin 128) : EReal := linAdd (xaArr V c) (xbArr V c) (wArr V c) (bRow V c) r q

/-- What the region leaves in its three output arrays. -/
def resultY (c : Dev nD) : Vec Ideal S100000x128 .f32 := fun i => y V c (i 0) (i 1)
def resultSum (c : Dev nD) : Vec Ideal S1x128 .f32 := fun i => colSum (y V c) (i 1)
def resultSumSq (c : Dev nD) : Vec Ideal S1x128 .f32 := fun i => colSumSq (y V c) (i 1)

/-! ## Where each window's block lies, and what the input blocks read -/

/-- The input blocks at a point, each at its literal type. -/
abbrev xaBlk (c : Dev nD) (t : Fin cfg14.N) : Vec Ideal S5000x128 .f32 := iblk14 V c 0 t
abbrev xbBlk (c : Dev nD) (t : Fin cfg14.N) : Vec Ideal S5000x128 .f32 := iblk14 V c 1 t
abbrev wBlk (c : Dev nD) (t : Fin cfg14.N) : Vec Ideal S128x128 .f32 := iblk14 V c 2 t
abbrev bBlk (c : Dev nD) (t : Fin cfg14.N) : Vec Ideal S1x128 .f32 := iblk14 V c 3 t

/-- The block each window takes at a point, decided over the twenty points: the tall windows take block `t` along the
    rows, and the weight matrix and each row are their own one block throughout. -/
theorem idx_facts : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = t.val ∧ win14_4.index t (1 : Fin 2) = 0
    ∧ win14_5.index t (0 : Fin 2) = 0 ∧ win14_5.index t (1 : Fin 2) = 0
    ∧ win14_6.index t (0 : Fin 2) = 0 ∧ win14_6.index t (1 : Fin 2) = 0 :=
  (by decide +kernel : ∀ t : Fin grid14.N, _)

/-- Input 0's block at point `t`, read at (p, j), is the array at row 5000·t + p, column j. -/
theorem xaBlk_apply (c : Dev nD) (t : Fin cfg14.N) (p : Fin 5000) (j : Fin 128) (h : t.val * 5000 + p.val < 100000) :
    xaBlk V c t (ix2 p j) = xaArr V c (ix2 ⟨t.val * 5000 + p.val, h⟩ j) := by
  obtain ⟨e00, e01, -⟩ := idx_facts t
  unfold xaBlk iblk14
  rw [View.read_apply]
  show xaArr V c (((cfg14.win 0).blk t).view.emb (ix2 p j)) = _
  refine congrArg (xaArr V c) ?_
  funext a; apply Fin.ext
  match a with
  | ⟨0, _⟩ => show win14_0.index t (0 : Fin 2) * 5000 + 1 * p.val = t.val * 5000 + p.val; omega
  | ⟨1, _⟩ => show win14_0.index t (1 : Fin 2) * 128 + 1 * j.val = j.val; omega

/-- Input 1's block at point `t`, read at (p, j), is the array at row 5000·t + p, column j. -/
theorem xbBlk_apply (c : Dev nD) (t : Fin cfg14.N) (p : Fin 5000) (j : Fin 128) (h : t.val * 5000 + p.val < 100000) :
    xbBlk V c t (ix2 p j) = xbArr V c (ix2 ⟨t.val * 5000 + p.val, h⟩ j) := by
  obtain ⟨-, -, e10, e11, -⟩ := idx_facts t
  unfold xbBlk iblk14
  rw [View.read_apply]
  show xbArr V c (((cfg14.win 1).blk t).view.emb (ix2 p j)) = _
  refine congrArg (xbArr V c) ?_
  funext a; apply Fin.ext
  match a with
  | ⟨0, _⟩ => show win14_1.index t (0 : Fin 2) * 5000 + 1 * p.val = t.val * 5000 + p.val; omega
  | ⟨1, _⟩ => show win14_1.index t (1 : Fin 2) * 128 + 1 * j.val = j.val; omega

/-- Input 2's block, at every point, is the matrix. -/
theorem wBlk_apply (c : Dev nD) (t : Fin cfg14.N) (j : Fin 128) (q : Fin 128) :
    wBlk V c t (ix2 j q) = wArr V c (ix2 j q) := by
  obtain ⟨-, -, -, -, e20, e21, -⟩ := idx_facts t
  unfold wBlk iblk14
  rw [View.read_apply]
  show wArr V c (((cfg14.win 2).blk t).view.emb (ix2 j q)) = _
  refine congrArg (wArr V c) ?_
  funext a; apply Fin.ext
  match a with
  | ⟨0, _⟩ => show win14_2.index t (0 : Fin 2) * 128 + 1 * j.val = j.val; omega
  | ⟨1, _⟩ => show win14_2.index t (1 : Fin 2) * 128 + 1 * q.val = q.val; omega

/-- Input 3's block, at every point, is the row. -/
theorem bBlk_apply (c : Dev nD) (t : Fin cfg14.N) (q : Fin 128) :
    bBlk V c t (ix2 (0 : Fin 1) q) = bRow V c (ix2 (0 : Fin 1) q) := by
  obtain ⟨-, -, -, -, -, -, e30, e31, -⟩ := idx_facts t
  unfold bBlk iblk14
  rw [View.read_apply]
  show bRow V c (((cfg14.win 3).blk t).view.emb (ix2 (0 : Fin 1) q)) = _
  refine congrArg (bRow V c) ?_
  funext a; apply Fin.ext
  match a with
  | ⟨0, _⟩ => show win14_3.index t (0 : Fin 2) * 1 + 1 * 0 = 0; omega
  | ⟨1, _⟩ => show win14_3.index t (1 : Fin 2) * 128 + 1 * q.val = q.val; omega

/-- The block of values a point computes, at (p, q), is the linear stage's entry of row 5000·t + p, column q. -/
theorem pay3_point (c : Dev nD) (t : Fin cfg14.N) (p : Fin 5000) (q : Fin 128) (h : t.val * 5000 + p.val < 100000) :
    k14_pay3 (F := Ideal) (xaBlk V c t) (xbBlk V c t) (wBlk V c t) (bBlk V c t) (ix2 p q) = y V c ⟨t.val * 5000 + p.val, h⟩ q := by
  refine (PayLinear.k2_pay3_apply (xaBlk V c t) (xbBlk V c t) (wBlk V c t) (bBlk V c t) p q).trans ?_
  unfold y linAdd
  refine congrArg₂ (fun a b : EReal => a + b) (Finset.sum_congr rfl fun j _ => ?_) (bBlk_apply V c t q)
  exact congrArg₂ (fun a b : EReal => a * b)
    (congrArg₂ (fun a b : EReal => a + b) (xaBlk_apply V c t p j h) (xbBlk_apply V c t p j h)) (wBlk_apply V c t j q)

/-! ## What the three output buffers hold after each point -/

/-- The output block after any point is the block of values the point computes. -/
theorem outsY_eq (c : Dev nD) (t : Fin cfg14.N) :
    (outsAt14 V c t.val t.isLt).1 = k14_pay3 (F := Ideal) (xaBlk V c t) (xbBlk V c t) (wBlk V c t) (bBlk V c t) := by
  by_cases h0 : t.val % 20 = 0
  · rw [outsAt14_A V c t h0]
    dsimp only
    exact outA4 (F := Ideal) c (grid14.coords t) (ms14_0 t) (hs14_0 t) (ms14_1 t) (hs14_1 t) (ms14_2 t) (hs14_2 t) (ms14_3 t) (hs14_3 t) (ms14_4 t) (hs14_4 t) (ms14_5 t) (hs14_5 t) (ms14_6 t) (hs14_6 t)
      ((hcond14_0 t).mpr h0) (iblk14 V c 0 t) (iblk14 V c 1 t) (iblk14 V c 2 t) (iblk14 V c 3 t)
  · rw [outsAt14_B V c t h0]
    dsimp only
    exact outB4 (F := Ideal) c (grid14.coords t) (ms14_0 t) (hs14_0 t) (ms14_1 t) (hs14_1 t) (ms14_2 t) (hs14_2 t) (ms14_3 t) (hs14_3 t) (ms14_4 t) (hs14_4 t) (ms14_5 t) (hs14_5 t) (ms14_6 t) (hs14_6 t)
      (fun h => h0 ((hcond14_0 t).mp h)) (iblk14 V c 0 t) (iblk14 V c 1 t) (iblk14 V c 2 t) (iblk14 V c 3 t)
      (outsAt14 V c (t.val - 1) (Nat.lt_of_le_of_lt (Nat.sub_le _ _) t.isLt)).2.1
      (outsAt14 V c (t.val - 1) (Nat.lt_of_le_of_lt (Nat.sub_le _ _) t.isLt)).2.2

/-- The carried column sum at column `q`, after point `t`. -/
def accSum (c : Dev nD) (u : Fin 1) (q : Fin 128) : (t : ℕ) → t < 20 → EReal :=
  fun t ht => (outsAt14 V c t (lt_of_lt_of_eq ht N_14.symm)).2.1 (ix2 u q)

/-- At the first point it is the stored zero plus the block's column sum. -/
theorem accSum_first (c : Dev nD) (u : Fin 1) (q : Fin 128) (t : ℕ) (ht : t < 20) (h0 : t % 20 = 0) :
    accSum V c u q t ht = (k14_pay1 (F := Ideal)) (ix2 u q)
      + ∑ p : Fin 5000, y V c ⟨t * 5000 + p.val, by have := p.isLt; omega⟩ q := by
  have ht' : t < cfg14.N := lt_of_lt_of_eq ht N_14.symm
  show (outsAt14 V c (⟨t, ht'⟩ : Fin cfg14.N).val (⟨t, ht'⟩ : Fin cfg14.N).isLt).2.1 (ix2 u q) = _
  rw [outsAt14_A V c ⟨t, ht'⟩ h0]
  dsimp only
  refine (congrFun (outA5 (F := Ideal) c (grid14.coords ⟨t, ht'⟩) (ms14_0 ⟨t, ht'⟩) (hs14_0 ⟨t, ht'⟩) (ms14_1 ⟨t, ht'⟩) (hs14_1 ⟨t, ht'⟩) (ms14_2 ⟨t, ht'⟩) (hs14_2 ⟨t, ht'⟩) (ms14_3 ⟨t, ht'⟩) (hs14_3 ⟨t, ht'⟩) (ms14_4 ⟨t, ht'⟩) (hs14_4 ⟨t, ht'⟩) (ms14_5 ⟨t, ht'⟩) (hs14_5 ⟨t, ht'⟩) (ms14_6 ⟨t, ht'⟩) (hs14_6 ⟨t, ht'⟩)
    ((hcond14_0 ⟨t, ht'⟩).mpr h0) (iblk14 V c 0 ⟨t, ht'⟩) (iblk14 V c 1 ⟨t, ht'⟩) (iblk14 V c 2 ⟨t, ht'⟩) (iblk14 V c 3 ⟨t, ht'⟩)) (ix2 u q)).trans ?_
  refine (PayLinear.k2_pay4_apply (xaBlk V c ⟨t, ht'⟩) (xbBlk V c ⟨t, ht'⟩) (wBlk V c ⟨t, ht'⟩) (bBlk V c ⟨t, ht'⟩) (k14_pay1 (F := Ideal)) u q).trans ?_
  refine congrArg (fun s : EReal => (k14_pay1 (F := Ideal)) (ix2 u q) + s) (Finset.sum_congr rfl fun p _ => ?_)
  exact pay3_point V c ⟨t, ht'⟩ p q _

/-- At any other point it is what the point before left plus the block's column sum. -/
theorem accSum_step (c : Dev nD) (u : Fin 1) (q : Fin 128) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg14.N := lt_of_lt_of_eq ht N_14.symm
  show (outsAt14 V c (⟨t, ht'⟩ : Fin cfg14.N).val (⟨t, ht'⟩ : Fin cfg14.N).isLt).2.1 (ix2 u q) = _
  rw [outsAt14_B V c ⟨t, ht'⟩ h0]
  dsimp only
  refine (congrFun (outB5 (F := Ideal) c (grid14.coords ⟨t, ht'⟩) (ms14_0 ⟨t, ht'⟩) (hs14_0 ⟨t, ht'⟩) (ms14_1 ⟨t, ht'⟩) (hs14_1 ⟨t, ht'⟩) (ms14_2 ⟨t, ht'⟩) (hs14_2 ⟨t, ht'⟩) (ms14_3 ⟨t, ht'⟩) (hs14_3 ⟨t, ht'⟩) (ms14_4 ⟨t, ht'⟩) (hs14_4 ⟨t, ht'⟩) (ms14_5 ⟨t, ht'⟩) (hs14_5 ⟨t, ht'⟩) (ms14_6 ⟨t, ht'⟩) (hs14_6 ⟨t, ht'⟩)
    (fun h => h0 ((hcond14_0 ⟨t, ht'⟩).mp h)) (iblk14 V c 0 ⟨t, ht'⟩) (iblk14 V c 1 ⟨t, ht'⟩) (iblk14 V c 2 ⟨t, ht'⟩) (iblk14 V c 3 ⟨t, ht'⟩)
    (outsAt14 V c ((⟨t, ht'⟩ : Fin cfg14.N).val - 1) (Nat.lt_of_le_of_lt (Nat.sub_le _ _) (⟨t, ht'⟩ : Fin cfg14.N).isLt)).2.1
    (outsAt14 V c ((⟨t, ht'⟩ : Fin cfg14.N).val - 1) (Nat.lt_of_le_of_lt (Nat.sub_le _ _) (⟨t, ht'⟩ : Fin cfg14.N).isLt)).2.2) (ix2 u q)).trans ?_
  refine (PayLinear.k2_pay4_apply (xaBlk V c ⟨t, ht'⟩) (xbBlk V c ⟨t, ht'⟩) (wBlk V c ⟨t, ht'⟩) (bBlk V c ⟨t, ht'⟩)
    (outsAt14 V c ((⟨t, ht'⟩ : Fin cfg14.N).val - 1) (Nat.lt_of_le_of_lt (Nat.sub_le _ _) (⟨t, ht'⟩ : Fin cfg14.N).isLt)).2.1 u q).trans ?_
  refine congrArg (fun s : EReal => accSum V c u q (t - 1) (Nat.lt_of_le_of_lt (Nat.sub_le t 1) ht) + s)
    (Finset.sum_congr rfl fun p _ => ?_)
  exact pay3_point V c ⟨t, ht'⟩ p q _

/-- After the last point it is the column sum over all 100000 rows. -/
theorem accSum_last (c : Dev nD) (u : Fin 1) (q : Fin 128) :
    accSum V c u q 19 (by norm_num) = colSum (y V c) q :=
  AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k14_pay1 (F := Ideal)) (ix2 u q)) Ideal.ofBits_zero_f32
    (fun t ht h0 => accSum_first V c u q t ht h0) (fun t ht h0 => accSum_step V c u q t ht h0)

/-- The carried column sum of squares at column `q`, after point `t`. -/
def accSumSq (c : Dev nD) (u : Fin 1) (q : Fin 128) : (t : ℕ) → t < 20 → EReal :=
  fun t ht => (outsAt14 V c t (lt_of_lt_of_eq ht N_14.symm)).2.2 (ix2 u q)

/-- At the first point it is the stored zero plus the block's column sum of squares. -/
theorem accSumSq_first (c : Dev nD) (u : Fin 1) (q : Fin 128) (t : ℕ) (ht : t < 20) (h0 : t % 20 = 0) :
    accSumSq V c u q t ht = (k14_pay2 (F := Ideal)) (ix2 u q)
      + ∑ p : Fin 5000, (y V c ⟨t * 5000 + p.val, by have := p.isLt; omega⟩ q * y V c ⟨t * 5000 + p.val, by have := p.isLt; omega⟩ q) := by
  have ht' : t < cfg14.N := lt_of_lt_of_eq ht N_14.symm
  show (outsAt14 V c (⟨t, ht'⟩ : Fin cfg14.N).val (⟨t, ht'⟩ : Fin cfg14.N).isLt).2.2 (ix2 u q) = _
  rw [outsAt14_A V c ⟨t, ht'⟩ h0]
  dsimp only
  refine (congrFun (outA6 (F := Ideal) c (grid14.coords ⟨t, ht'⟩) (ms14_0 ⟨t, ht'⟩) (hs14_0 ⟨t, ht'⟩) (ms14_1 ⟨t, ht'⟩) (hs14_1 ⟨t, ht'⟩) (ms14_2 ⟨t, ht'⟩) (hs14_2 ⟨t, ht'⟩) (ms14_3 ⟨t, ht'⟩) (hs14_3 ⟨t, ht'⟩) (ms14_4 ⟨t, ht'⟩) (hs14_4 ⟨t, ht'⟩) (ms14_5 ⟨t, ht'⟩) (hs14_5 ⟨t, ht'⟩) (ms14_6 ⟨t, ht'⟩) (hs14_6 ⟨t, ht'⟩)
    ((hcond14_0 ⟨t, ht'⟩).mpr h0) (iblk14 V c 0 ⟨t, ht'⟩) (iblk14 V c 1 ⟨t, ht'⟩) (iblk14 V c 2 ⟨t, ht'⟩) (iblk14 V c 3 ⟨t, ht'⟩)) (ix2 u q)).trans ?_
  refine (PayLinear.k2_pay5_apply (xaBlk V c ⟨t, ht'⟩) (xbBlk V c ⟨t, ht'⟩) (wBlk V c ⟨t, ht'⟩) (bBlk V c ⟨t, ht'⟩) (k14_pay2 (F := Ideal)) u q).trans ?_
  refine congrArg (fun s : EReal => (k14_pay2 (F := Ideal)) (ix2 u q) + s) (Finset.sum_congr rfl fun p _ => ?_)
  exact congrArg₂ (fun a b : EReal => a * b) (pay3_point V c ⟨t, ht'⟩ p q _) (pay3_point V c ⟨t, ht'⟩ p q _)

/-- At any other point it is what the point before left plus the block's column sum of squares. -/
theorem accSumSq_step (c : Dev nD) (u : Fin 1) (q : Fin 128) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg14.N := lt_of_lt_of_eq ht N_14.symm
  show (outsAt14 V c (⟨t, ht'⟩ : Fin cfg14.N).val (⟨t, ht'⟩ : Fin cfg14.N).isLt).2.2 (ix2 u q) = _
  rw [outsAt14_B V c ⟨t, ht'⟩ h0]
  dsimp only
  refine (congrFun (outB6 (F := Ideal) c (grid14.coords ⟨t, ht'⟩) (ms14_0 ⟨t, ht'⟩) (hs14_0 ⟨t, ht'⟩) (ms14_1 ⟨t, ht'⟩) (hs14_1 ⟨t, ht'⟩) (ms14_2 ⟨t, ht'⟩) (hs14_2 ⟨t, ht'⟩) (ms14_3 ⟨t, ht'⟩) (hs14_3 ⟨t, ht'⟩) (ms14_4 ⟨t, ht'⟩) (hs14_4 ⟨t, ht'⟩) (ms14_5 ⟨t, ht'⟩) (hs14_5 ⟨t, ht'⟩) (ms14_6 ⟨t, ht'⟩) (hs14_6 ⟨t, ht'⟩)
    (fun h => h0 ((hcond14_0 ⟨t, ht'⟩).mp h)) (iblk14 V c 0 ⟨t, ht'⟩) (iblk14 V c 1 ⟨t, ht'⟩) (iblk14 V c 2 ⟨t, ht'⟩) (iblk14 V c 3 ⟨t, ht'⟩)
    (outsAt14 V c ((⟨t, ht'⟩ : Fin cfg14.N).val - 1) (Nat.lt_of_le_of_lt (Nat.sub_le _ _) (⟨t, ht'⟩ : Fin cfg14.N).isLt)).2.1
    (outsAt14 V c ((⟨t, ht'⟩ : Fin cfg14.N).val - 1) (Nat.lt_of_le_of_lt (Nat.sub_le _ _) (⟨t, ht'⟩ : Fin cfg14.N).isLt)).2.2) (ix2 u q)).trans ?_
  refine (PayLinear.k2_pay5_apply (xaBlk V c ⟨t, ht'⟩) (xbBlk V c ⟨t, ht'⟩) (wBlk V c ⟨t, ht'⟩) (bBlk V c ⟨t, ht'⟩)
    (outsAt14 V c ((⟨t, ht'⟩ : Fin cfg14.N).val - 1) (Nat.lt_of_le_of_lt (Nat.sub_le _ _) (⟨t, ht'⟩ : Fin cfg14.N).isLt)).2.2 u q).trans ?_
  refine congrArg (fun s : EReal => accSumSq V c u q (t - 1) (Nat.lt_of_le_of_lt (Nat.sub_le t 1) ht) + s)
    (Finset.sum_congr rfl fun p _ => ?_)
  exact congrArg₂ (fun a b : EReal => a * b) (pay3_point V c ⟨t, ht'⟩ p q _) (pay3_point V c ⟨t, ht'⟩ p q _)

/-- After the last point it is the column sum of squares over all 100000 rows. -/
theorem accSumSq_last (c : Dev nD) (u : Fin 1) (q : Fin 128) :
    accSumSq V c u q 19 (by norm_num) = colSumSq (y V c) q :=
  AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k14_pay2 (F := Ideal)) (ix2 u q)) Ideal.ofBits_zero_f32
    (fun t ht h0 => accSumSq_first V c u q t ht h0) (fun t ht h0 => accSumSq_step V c u q t ht h0)

/-! ## From the blocks to the arrays -/

/-- Row `p`, column `q` of the output's block at point `t` is row 5000·t + p, column q of the array: a block's coordinate
    is its index times its extent plus the coordinate inside it. -/
theorem emb_out (t : Fin cfg14.N) (p : Fin 5000) (q : Fin 128) (h : t.val * 5000 + p.val < 100000) :
    ((cfg14.win 4).blk t).view.emb (ix2 p q) = (ix2 ⟨t.val * 5000 + p.val, h⟩ q : S100000x128.Idx) := by
  obtain ⟨-, -, -, -, -, -, -, -, e40, e41, -⟩ := idx_facts t
  funext a; apply Fin.ext
  match a with
  | ⟨0, _⟩ => show win14_4.index t (0 : Fin 2) * 5000 + 1 * p.val = t.val * 5000 + p.val; omega
  | ⟨1, _⟩ => show win14_4.index t (1 : Fin 2) * 128 + 1 * q.val = q.val; omega

/-- What point `t` writes back for the output is block `t` of `resultY`. -/
theorem flushedY_eq (c : Dev nD) (t : Fin cfg14.N) :
    (dat14 (F := Ideal) V c).flushed 4 t = ((cfg14.win 4).blk t).view.read (Elt Ideal) (resultY V c) := by
  show (cfg14.win 4).cut (grid14.coords t) ((dat14 V c).after 4 t) = _
  rw [after14_4]
  have ht : t.val < 20 := Nat.lt_of_lt_of_eq t.isLt N_14
  funext j
  obtain ⟨p, q, rfl⟩ : ∃ (p : Fin 5000) (q : Fin 128), j = ix2 p q := ⟨j 0, j 1, eq_ix2 j⟩
  have h : t.val * 5000 + p.val < 100000 := by have := p.isLt; omega
  show (outsAt14 V c t.val t.isLt).1 (ix2 p q) = resultY V c (((cfg14.win 4).blk t).view.emb (ix2 p q))
  refine (congrFun (outsY_eq V c t) (ix2 p q)).trans ?_
  refine (pay3_point V c t p q h).trans ?_
  exact (congrArg (resultY V c) (emb_out t p q h)).symm

/-- An entry of the array lies in point `t`'s block exactly when each of its coordinates lies in the block's range. -/
theorem mem_blkY (t : Fin cfg14.N) (i : S100000x128.Idx) :
    i ∈ ((cfg14.win 4).blk t).view.set ↔ ∀ a : Fin 2, win14_4.index t a * S5000x128.size a ≤ (i a).val
      ∧ (i a).val < win14_4.index t a * S5000x128.size a + S5000x128.size a := by
  show i ∈ ((View.whole main_v187_0).slice (win14_4.rect t)).set ↔ _
  rw [View.set_slice_whole, Rect.mem_set_unit]
  exact Iff.rfl

/-- The twenty blocks tile the array: row `r` is in the block of point `r / 5000`, and every point writes its block back. -/
theorem coverY (i : S100000x128.Idx) :
    ∃ t : Fin cfg14.N, (cfg14.win 4).flush t = true ∧ i ∈ ((cfg14.win 4).blk t).view.set := by
  have hi0 : (i 0).val < 100000 := idx2_lt0 i
  have hi1 : (i 1).val < 128 := idx2_lt1 i
  obtain ⟨t, ht⟩ : ∃ t : Fin cfg14.N, t.val = (i 0).val / 5000 :=
    ⟨⟨(i 0).val / 5000, by rw [show cfg14.N = 20 from N_14]; omega⟩, rfl⟩
  obtain ⟨-, -, -, -, -, -, -, -, e40, e41, -⟩ := idx_facts t
  refine ⟨t, flush14_4 t, ?_⟩
  rw [mem_blkY]
  intro a
  match a with
  | ⟨0, _⟩ =>
    show win14_4.index t (0 : Fin 2) * 5000 ≤ (i 0).val ∧ (i 0).val < win14_4.index t (0 : Fin 2) * 5000 + 5000
    omega
  | ⟨1, _⟩ =>
    show win14_4.index t (1 : Fin 2) * 128 ≤ (i 1).val ∧ (i 1).val < win14_4.index t (1 : Fin 2) * 128 + 128
    omega

/-- At a point whose number is 19 the carried column sum is the one over all rows. -/
theorem accSum_at_last (c : Dev nD) (u : Fin 1) (q : Fin 128) (n : ℕ) (hn : n < 20) (h19 : n = 19) :
    accSum V c u q n hn = colSum (y V c) q := by
  subst h19
  exact accSum_last V c u q

/-- The carried row of window 5 after the last point is the whole of `resultSum`. -/
theorem outs5_last (c : Dev nD) (t : Fin cfg14.N) (h19 : t.val = 19) :
    (outsAt14 V c t.val t.isLt).2.1 = resultSum V c := by
  funext j
  obtain ⟨u, q, rfl⟩ : ∃ (u : Fin 1) (q : Fin 128), j = ix2 u q := ⟨j 0, j 1, eq_ix2 j⟩
  exact accSum_at_last V c u q t.val (Nat.lt_of_lt_of_eq t.isLt N_14) h19

/-- What the last point writes back for window 5 is the whole of `resultSum`: the window's one block lies at offset zero,
    so it reads the whole row. -/
theorem flushed5_eq (c : Dev nD) (t : Fin cfg14.N) (hf : (cfg14.win 5).flush t = true) :
    (dat14 (F := Ideal) V c).flushed 5 t = ((cfg14.win 5).blk t).view.read (Elt Ideal) (resultSum V c) := by
  have hN : t.val < 20 := Nat.lt_of_lt_of_eq t.isLt N_14
  have h19 : t.val = 19 := by have := (flush14_5 t).mp hf; omega
  obtain ⟨-, -, -, -, -, -, -, -, -, -, eS0, eS1, eQ0, eQ1⟩ := idx_facts t
  have hz' : (fun a => win14_5.index t a * main_v187_1.ty.shape.size a) = fun _ => 0 := funext fun a => by
    match a with
    | ⟨0, _⟩ => show win14_5.index t (0 : Fin 2) * 1 = 0; omega
    | ⟨1, _⟩ => show win14_5.index t (1 : Fin 2) * 128 = 0; omega
  show (cfg14.win 5).cut (grid14.coords t) ((dat14 V c).after 5 t) = _
  rw [after14_5, outs5_last V c t h19]
  exact (Memref.read_access_unit_zero (Elt Ideal) main_v187_1 hz' (fun a => by rw [congrFun hz' a]; simp) (resultSum V c)).symm

/-- An entry of the row lies in point `t`'s block of window 5 exactly when each coordinate lies in the block's range. -/
theorem mem_blk5 (t : Fin cfg14.N) (i : S1x128.Idx) :
    i ∈ ((cfg14.win 5).blk t).view.set ↔ ∀ a : Fin 2, win14_5.index t a * S1x128.size a ≤ (i a).val
      ∧ (i a).val < win14_5.index t a * S1x128.size a + S1x128.size a := by
  show i ∈ ((View.whole main_v187_1).slice (win14_5.rect t)).set ↔ _
  rw [View.set_slice_whole, Rect.mem_set_unit]
  exact Iff.rfl

/-- The last point's block of window 5 is the whole row, and the last point writes it back. -/
theorem cover5 (i : S1x128.Idx) :
    ∃ t : Fin cfg14.N, (cfg14.win 5).flush t = true ∧ i ∈ ((cfg14.win 5).blk t).view.set := by
  have hi0 : (i 0).val < 1 := idx2_lt0 i
  have hi1 : (i 1).val < 128 := idx2_lt1 i
  obtain ⟨t, ht⟩ : ∃ t : Fin cfg14.N, t.val = 19 := ⟨⟨19, by rw [show cfg14.N = 20 from N_14]; norm_num⟩, rfl⟩
  obtain ⟨-, -, -, -, -, -, -, -, -, -, eS0, eS1, eQ0, eQ1⟩ := idx_facts t
  refine ⟨t, (flush14_5 t).mpr (by omega), ?_⟩
  rw [mem_blk5]
  intro a
  match a with
  | ⟨0, _⟩ =>
    show win14_5.index t (0 : Fin 2) * 1 ≤ (i 0).val ∧ (i 0).val < win14_5.index t (0 : Fin 2) * 1 + 1
    omega
  | ⟨1, _⟩ =>
    show win14_5.index t (1 : Fin 2) * 128 ≤ (i 1).val ∧ (i 1).val < win14_5.index t (1 : Fin 2) * 128 + 128
    omega

/-- At a point whose number is 19 the carried column sum of squares is the one over all rows. -/
theorem accSumSq_at_last (c : Dev nD) (u : Fin 1) (q : Fin 128) (n : ℕ) (hn : n < 20) (h19 : n = 19) :
    accSumSq V c u q n hn = colSumSq (y V c) q := by
  subst h19
  exact accSumSq_last V c u q

/-- The carried row of window 6 after the last point is the whole of `resultSumSq`. -/
theorem outs6_last (c : Dev nD) (t : Fin cfg14.N) (h19 : t.val = 19) :
    (outsAt14 V c t.val t.isLt).2.2 = resultSumSq V c := by
  funext j
  obtain ⟨u, q, rfl⟩ : ∃ (u : Fin 1) (q : Fin 128), j = ix2 u q := ⟨j 0, j 1, eq_ix2 j⟩
  exact accSumSq_at_last V c u q t.val (Nat.lt_of_lt_of_eq t.isLt N_14) h19

/-- What the last point writes back for window 6 is the whole of `resultSumSq`: the window's one block lies at offset zero,
    so it reads the whole row. -/
theorem flushed6_eq (c : Dev nD) (t : Fin cfg14.N) (hf : (cfg14.win 6).flush t = true) :
    (dat14 (F := Ideal) V c).flushed 6 t = ((cfg14.win 6).blk t).view.read (Elt Ideal) (resultSumSq V c) := by
  have hN : t.val < 20 := Nat.lt_of_lt_of_eq t.isLt N_14
  have h19 : t.val = 19 := by have := (flush14_6 t).mp hf; omega
  obtain ⟨-, -, -, -, -, -, -, -, -, -, eS0, eS1, eQ0, eQ1⟩ := idx_facts t
  have hz' : (fun a => win14_6.index t a * main_v187_2.ty.shape.size a) = fun _ => 0 := funext fun a => by
    match a with
    | ⟨0, _⟩ => show win14_6.index t (0 : Fin 2) * 1 = 0; omega
    | ⟨1, _⟩ => show win14_6.index t (1 : Fin 2) * 128 = 0; omega
  show (cfg14.win 6).cut (grid14.coords t) ((dat14 V c).after 6 t) = _
  rw [after14_6, outs6_last V c t h19]
  exact (Memref.read_access_unit_zero (Elt Ideal) main_v187_2 hz' (fun a => by rw [congrFun hz' a]; simp) (resultSumSq V c)).symm

/-- An entry of the row lies in point `t`'s block of window 6 exactly when each coordinate lies in the block's range. -/
theorem mem_blk6 (t : Fin cfg14.N) (i : S1x128.Idx) :
    i ∈ ((cfg14.win 6).blk t).view.set ↔ ∀ a : Fin 2, win14_6.index t a * S1x128.size a ≤ (i a).val
      ∧ (i a).val < win14_6.index t a * S1x128.size a + S1x128.size a := by
  show i ∈ ((View.whole main_v187_2).slice (win14_6.rect t)).set ↔ _
  rw [View.set_slice_whole, Rect.mem_set_unit]
  exact Iff.rfl

/-- The last point's block of window 6 is the whole row, and the last point writes it back. -/
theorem cover6 (i : S1x128.Idx) :
    ∃ t : Fin cfg14.N, (cfg14.win 6).flush t = true ∧ i ∈ ((cfg14.win 6).blk t).view.set := by
  have hi0 : (i 0).val < 1 := idx2_lt0 i
  have hi1 : (i 1).val < 128 := idx2_lt1 i
  obtain ⟨t, ht⟩ : ∃ t : Fin cfg14.N, t.val = 19 := ⟨⟨19, by rw [show cfg14.N = 20 from N_14]; norm_num⟩, rfl⟩
  obtain ⟨-, -, -, -, -, -, -, -, -, -, eS0, eS1, eQ0, eQ1⟩ := idx_facts t
  refine ⟨t, (flush14_6 t).mpr (by omega), ?_⟩
  rw [mem_blk6]
  intro a
  match a with
  | ⟨0, _⟩ =>
    show win14_6.index t (0 : Fin 2) * 1 ≤ (i 0).val ∧ (i 0).val < win14_6.index t (0 : Fin 2) * 1 + 1
    omega
  | ⟨1, _⟩ =>
    show win14_6.index t (1 : Fin 2) * 128 ≤ (i 1).val ∧ (i 1).val < win14_6.index t (1 : Fin 2) * 128 + 128
    omega

/-- THE INTERFACE of this region, one statement per output window. -/
theorem arrAt_y (c : Dev nD) : (dat14 (F := Ideal) V c).arrAt 4 cfg14.N = resultY V c :=
  (dat14 V c).arrAt_eq_of_cover 4 (resultY V c) (fun t _ => flushedY_eq V c t) coverY

theorem arrAt_sum (c : Dev nD) : (dat14 (F := Ideal) V c).arrAt 5 cfg14.N = resultSum V c :=
  (dat14 V c).arrAt_eq_of_cover 5 (resultSum V c) (fun t hf => flushed5_eq V c t hf) cover5

theorem arrAt_sumsq (c : Dev nD) : (dat14 (F := Ideal) V c).arrAt 6 cfg14.N = resultSumSq V c :=
  (dat14 V c).arrAt_eq_of_cover 6 (resultSumSq V c) (fun t hf => flushed6_eq V c t hf) cover6

end Cert.KernelIdeal.ValAdd2_14

end
-- ==== Proof.ValNorm15Pay.lean ====
/-
  Region 15's arithmetic: what the normalisation's body computes at one row and column of a block, from the block of the
  linear stage's output and the four statistic and parameter rows. This normalisation is not followed by max(·, 0).
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm15

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block. -/
theorem pay_apply (var : Vec Ideal S1x128 .f32) (y : Vec Ideal S5000x128 .f32) (mean g beta : Vec Ideal S1x128 .f32)
    (p : Fin 5000) (q : Fin 128) :
    k15_pay1 (F := Ideal) var y mean g beta (ix2 p q)
      = StageSpec.norm (y (ix2 p q)) (mean (ix2 (0 : Fin 1) q)) (var (ix2 (0 : Fin 1) q)) (g (ix2 (0 : Fin 1) q)) (beta (ix2 (0 : Fin 1) q)) := by
  unfold k15_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The two zero offsets of a load or a store of a whole buffer. -/
theorem hz : (![0, 0] : Fin 2 → Nat) = fun _ => 0 := funext fun a => by fin_cases a <;> rfl

end Cert.KernelIdeal.ValNorm15

end
-- ==== Proof.ValNorm15.lean ====
/-
  Region 15: a normalisation with no max(·, 0) after it. Every grid point takes a block of 5000 rows of the linear stage's
  output and the four statistic and parameter rows, and writes back, entry by entry, the normalised value.
  The twenty blocks tile the 100000 rows, so the output array as a whole is that function of the region's input arrays.
-/
import proofs.«414479_j7705171329025_1_alg».proof.Proof.FrameKI.R15
import proofs.«414479_j7705171329025_1_alg».proof.Proof.StageSpec
import proofs.«414479_j7705171329025_1_alg».proof.Proof.ValNorm15Pay
import Idealize.ShloMosaic.Lib.Pipeline.Value
import Idealize.ShloMosaic.Lib.ValueIdx
import Idealize.ShloMosaic.Lib.ValueLayout

set_option maxRecDepth 16384

noncomputable section

namespace Cert.KernelIdeal.ValNorm15

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x128 .f32 := V c (Pipeline.arrRef spec15 0)
abbrev meanRow (c : Dev nD) : Vec Ideal S1x128 .f32 := V c (Pipeline.arrRef spec15 1)
abbrev varRow (c : Dev nD) : Vec Ideal S1x128 .f32 := V c (Pipeline.arrRef spec15 2)
abbrev gRow (c : Dev nD) : Vec Ideal S1x128 .f32 := V c (Pipeline.arrRef spec15 3)
abbrev betaRow (c : Dev nD) : Vec Ideal S1x128 .f32 := V c (Pipeline.arrRef spec15 4)

/-- What the region leaves in its output array: the normalised entry, at every row and column. -/
def result (c : Dev nD) : Vec Ideal S100000x128 .f32 := fun i =>
  StageSpec.norm (yArr V c i) (meanRow V c (ix2 (0 : Fin 1) (i 1))) (varRow V c (ix2 (0 : Fin 1) (i 1)))
    (gRow V c (ix2 (0 : Fin 1) (i 1))) (betaRow V c (ix2 (0 : Fin 1) (i 1)))

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x128 .f32) (x1 x2 x3 x4 : Vec Ideal S1x128 .f32) (p : Fin 5000) (q : Fin 128) :
    out15_5 x0 x1 x2 x3 x4 (ix2 p q)
      = StageSpec.norm (x0 (ix2 p q)) (x1 (ix2 (0 : Fin 1) q)) (x2 (ix2 (0 : Fin 1) q)) (x3 (ix2 (0 : Fin 1) q)) (x4 (ix2 (0 : Fin 1) q)) := by
  unfold out15_5
  rw [View.canon_unit_zero hz]
  simp only [View.ld_unit_zero (S := S1x128) hz, View.ld_unit_zero (S := S5000x128) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = t.val ∧ win15_5.index t (1 : Fin 2) = 0 :=
  (by decide +kernel : ∀ t : Fin grid15.N, _)

/-- Row `p`, column `q` of the output's block at point `t` is row 5000·t + p, column q of the array: a block's coordinate
    is its index times its extent plus the coordinate inside it. -/
theorem emb_out (t : Fin cfg15.N) (p : Fin 5000) (q : Fin 128) (h : t.val * 5000 + p.val < 100000) :
    ((cfg15.win 5).blk t).view.emb (ix2 p q) = (ix2 ⟨t.val * 5000 + p.val, h⟩ q : S100000x128.Idx) := by
  obtain ⟨-, -, -, -, -, -, -, -, -, -, e50, e51⟩ := idx_facts t
  funext a; apply Fin.ext
  match a with
  | ⟨0, _⟩ => show win15_5.index t (0 : Fin 2) * 5000 + 1 * p.val = t.val * 5000 + p.val; omega
  | ⟨1, _⟩ => show win15_5.index t (1 : Fin 2) * 128 + 1 * q.val = q.val; omega

/-- The tall input's block at point `t`, read at (p, q), is the array at row 5000·t + p, column q: the same rows the
    output's block has there. -/
theorem y_apply (c : Dev nD) (t : Fin cfg15.N) (p : Fin 5000) (q : Fin 128) (h : t.val * 5000 + p.val < 100000) :
    (iblk15 V c 0 t : Vec Ideal S5000x128 .f32) (ix2 p q) = yArr V c (ix2 ⟨t.val * 5000 + p.val, h⟩ q) := by
  obtain ⟨e00, e01, -⟩ := idx_facts t
  unfold iblk15
  rw [View.read_apply]
  show yArr V c (((cfg15.win 0).blk t).view.emb (ix2 p q)) = _
  refine congrArg (yArr V c) ?_
  funext a; apply Fin.ext
  match a with
  | ⟨0, _⟩ => show win15_0.index t (0 : Fin 2) * 5000 + 1 * p.val = t.val * 5000 + p.val; omega
  | ⟨1, _⟩ => show win15_0.index t (1 : Fin 2) * 128 + 1 * q.val = q.val; omega

/-- The mean row's block, at every point, is the row. -/
theorem mean_apply (c : Dev nD) (t : Fin cfg15.N) (q : Fin 128) :
    (iblk15 V c 1 t : Vec Ideal S1x128 .f32) (ix2 (0 : Fin 1) q) = meanRow V c (ix2 (0 : Fin 1) q) := by
  obtain ⟨-, -, e10, e11, -⟩ := idx_facts t
  unfold iblk15
  rw [View.read_apply]
  show meanRow V c (((cfg15.win 1).blk t).view.emb (ix2 (0 : Fin 1) q)) = _
  refine congrArg (meanRow V c) ?_
  funext a; apply Fin.ext
  match a with
  | ⟨0, _⟩ => show win15_1.index t (0 : Fin 2) * 1 + 1 * 0 = 0; omega
  | ⟨1, _⟩ => show win15_1.index t (1 : Fin 2) * 128 + 1 * q.val = q.val; omega

/-- The variance row's block, at every point, is the row. -/
theorem var_apply (c : Dev nD) (t : Fin cfg15.N) (q : Fin 128) :
    (iblk15 V c 2 t : Vec Ideal S1x128 .f32) (ix2 (0 : Fin 1) q) = varRow V c (ix2 (0 : Fin 1) q) := by
  obtain ⟨-, -, -, -, e20, e21, -⟩ := idx_facts t
  unfold iblk15
  rw [View.read_apply]
  show varRow V c (((cfg15.win 2).blk t).view.emb (ix2 (0 : Fin 1) q)) = _
  refine congrArg (varRow V c) ?_
  funext a; apply Fin.ext
  match a with
  | ⟨0, _⟩ => show win15_2.index t (0 : Fin 2) * 1 + 1 * 0 = 0; omega
  | ⟨1, _⟩ => show win15_2.index t (1 : Fin 2) * 128 + 1 * q.val = q.val; omega

/-- The scale row's block, at every point, is the row. -/
theorem g_apply (c : Dev nD) (t : Fin cfg15.N) (q : Fin 128) :
    (iblk15 V c 3 t : Vec Ideal S1x128 .f32) (ix2 (0 : Fin 1) q) = gRow V c (ix2 (0 : Fin 1) q) := by
  obtain ⟨-, -, -, -, -, -, e30, e31, -⟩ := idx_facts t
  unfold iblk15
  rw [View.read_apply]
  show gRow V c (((cfg15.win 3).blk t).view.emb (ix2 (0 : Fin 1) q)) = _
  refine congrArg (gRow V c) ?_
  funext a; apply Fin.ext
  match a with
  | ⟨0, _⟩ => show win15_3.index t (0 : Fin 2) * 1 + 1 * 0 = 0; omega
  | ⟨1, _⟩ => show win15_3.index t (1 : Fin 2) * 128 + 1 * q.val = q.val; omega

/-- The shift row's block, at every point, is the row. -/
theorem beta_apply (c : Dev nD) (t : Fin cfg15.N) (q : Fin 128) :
    (iblk15 V c 4 t : Vec Ideal S1x128 .f32) (ix2 (0 : Fin 1) q) = betaRow V c (ix2 (0 : Fin 1) q) := by
  obtain ⟨-, -, -, -, -, -, -, -, e40, e41, -⟩ := idx_facts t
  unfold iblk15
  rw [View.read_apply]
  show betaRow V c (((cfg15.win 4).blk t).view.emb (ix2 (0 : Fin 1) q)) = _
  refine congrArg (betaRow V c) ?_
  funext a; apply Fin.ext
  match a with
  | ⟨0, _⟩ => show win15_4.index t (0 : Fin 2) * 1 + 1 * 0 = 0; omega
  | ⟨1, _⟩ => show win15_4.index t (1 : Fin 2) * 128 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg15.N) :
    (dat15 (F := Ideal) V c).flushed 5 t = ((cfg15.win 5).blk t).view.read (Elt Ideal) (result V c) := by
  show (cfg15.win 5).cut (grid15.coords t) ((dat15 V c).after 5 t) = _
  rw [after15_5]
  have ht : t.val < 20 := Nat.lt_of_lt_of_eq t.isLt N_15
  funext j
  obtain ⟨p, q, rfl⟩ : ∃ (p : Fin 5000) (q : Fin 128), j = ix2 p q := ⟨j 0, j 1, eq_ix2 j⟩
  have h : t.val * 5000 + p.val < 100000 := by have := p.isLt; omega
  show out15_5 (iblk15 V c 0 t) (iblk15 V c 1 t) (iblk15 V c 2 t) (iblk15 V c 3 t) (iblk15 V c 4 t) (ix2 p q)
      = result V c (((cfg15.win 5).blk t).view.emb (ix2 p q))
  refine (out_apply (iblk15 V c 0 t) (iblk15 V c 1 t) (iblk15 V c 2 t) (iblk15 V c 3 t) (iblk15 V c 4 t) p q).trans ?_
  refine Eq.trans ?_ (congrArg (result V c) (emb_out t p q h)).symm
  refine Eq.trans ?_ (show StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg15.N) (i : S100000x128.Idx) :
    i ∈ ((cfg15.win 5).blk t).view.set ↔ ∀ a : Fin 2, win15_5.index t a * S5000x128.size a ≤ (i a).val
      ∧ (i a).val < win15_5.index t a * S5000x128.size a + S5000x128.size a := by
  show i ∈ ((View.whole main_v200).slice (win15_5.rect t)).set ↔ _
  rw [View.set_slice_whole, Rect.mem_set_unit]
  exact Iff.rfl

/-- The twenty blocks tile the array: row `r` is in the block of point `r / 5000`, and every point writes its block back. -/
theorem cover (i : S100000x128.Idx) :
    ∃ t : Fin cfg15.N, (cfg15.win 5).flush t = true ∧ i ∈ ((cfg15.win 5).blk t).view.set := by
  have hi0 : (i 0).val < 100000 := idx2_lt0 i
  have hi1 : (i 1).val < 128 := idx2_lt1 i
  obtain ⟨t, ht⟩ : ∃ t : Fin cfg15.N, t.val = (i 0).val / 5000 :=
    ⟨⟨(i 0).val / 5000, by rw [show cfg15.N = 20 from N_15]; omega⟩, rfl⟩
  obtain ⟨-, -, -, -, -, -, -, -, -, -, e50, e51⟩ := idx_facts t
  refine ⟨t, flush15_5 t, ?_⟩
  rw [mem_blk]
  intro a
  match a with
  | ⟨0, _⟩ =>
    show win15_5.index t (0 : Fin 2) * 5000 ≤ (i 0).val ∧ (i 0).val < win15_5.index t (0 : Fin 2) * 5000 + 5000
    omega
  | ⟨1, _⟩ =>
    show win15_5.index t (1 : Fin 2) * 128 ≤ (i 1).val ∧ (i 1).val < win15_5.index t (1 : Fin 2) * 128 + 128
    omega

/-- THE INTERFACE of this region: after its twenty points the output array is `result`. -/
theorem arrAt_out (c : Dev nD) : (dat15 (F := Ideal) V c).arrAt 5 cfg15.N = result V c := by
  exact (dat15 V c).arrAt_eq_of_cover 5 (result V c) (fun t _ => flushed_eq V c t) cover

end Cert.KernelIdeal.ValNorm15

end
-- ==== Proof.Carry5.lean ====
import proofs.«414479_j7705171329025_1_alg».proof.Proof.FrameKI.Run

set_option maxRecDepth 16384

noncomputable section

namespace Cert.KernelIdeal.Carry

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- Nothing between boundary 0 and boundary 28 of the run writes `main_arg8`: it keeps its contents. -/
theorem main_arg8_0_28 (c : Dev nD) : W28 m ρ c (Proc.devRef .tc main_arg8) = W0 m ρ c (Proc.devRef .tc main_arg8) :=
  calc W28 m ρ c (Proc.devRef .tc main_arg8)
    _ = W27 m ρ c (Proc.devRef .tc main_arg8) := W28_of_ne m ρ c main_arg8 (by decide)
    _ = W26 m ρ c (Proc.devRef .tc main_arg8) := StableHlo.after_of_forall_not_mem (b := Proc.devRef .tc main_arg8) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg8) := W26_of_ne m ρ c main_arg8 (by decide)
    _ = W24 m ρ c (Proc.devRef .tc main_arg8) := StableHlo.after_of_forall_not_mem (b := Proc.devRef .tc main_arg8) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg8) := W24_of_ne m ρ c main_arg8 (by decide)
    _ = W22 m ρ c (Proc.devRef .tc main_arg8) := StableHlo.after_of_forall_not_mem (b := Proc.devRef .tc main_arg8) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg8) := W22_of_ne m ρ c main_arg8 (by decide)
    _ = W20 m ρ c (Proc.devRef .tc main_arg8) := StableHlo.after_of_forall_not_mem (b := Proc.devRef .tc main_arg8) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg8) := W20_of_ne m ρ c main_arg8 (by decide)
    _ = W18 m ρ c (Proc.devRef .tc main_arg8) := StableHlo.after_of_forall_not_mem (b := Proc.devRef .tc main_arg8) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg8) := W18_of_ne m ρ c main_arg8 (by decide)
    _ = W16 m ρ c (Proc.devRef .tc main_arg8) := StableHlo.after_of_forall_not_mem (b := Proc.devRef .tc main_arg8) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 28 of the run writes `main_arg9`: it keeps its contents. -/
theorem main_arg9_0_28 (c : Dev nD) : W28 m ρ c (Proc.devRef .tc main_arg9) = W0 m ρ c (Proc.devRef .tc main_arg9) :=
  calc W28 m ρ c (Proc.devRef .tc main_arg9)
    _ = W27 m ρ c (Proc.devRef .tc main_arg9) := W28_of_ne m ρ c main_arg9 (by decide)
    _ = W26 m ρ c (Proc.devRef .tc main_arg9) := StableHlo.after_of_forall_not_mem (b := Proc.devRef .tc main_arg9) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg9) := W26_of_ne m ρ c main_arg9 (by decide)
    _ = W24 m ρ c (Proc.devRef .tc main_arg9) := StableHlo.after_of_forall_not_mem (b := Proc.devRef .tc main_arg9) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg9) := W24_of_ne m ρ c main_arg9 (by decide)
    _ = W22 m ρ c (Proc.devRef .tc main_arg9) := StableHlo.after_of_forall_not_mem (b := Proc.devRef .tc main_arg9) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg9) := W22_of_ne m ρ c main_arg9 (by decide)
    _ = W20 m ρ c (Proc.devRef .tc main_arg9) := StableHlo.after_of_forall_not_mem (b := Proc.devRef .tc main_arg9) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg9) := W20_of_ne m ρ c main_arg9 (by decide)
    _ = W18 m ρ c (Proc.devRef .tc main_arg9) := StableHlo.after_of_forall_not_mem (b := Proc.devRef .tc main_arg9) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg9) := W18_of_ne m ρ c main_arg9 (by decide)
    _ = W16 m ρ c (Proc.devRef .tc main_arg9) := StableHlo.after_of_forall_not_mem (b := Proc.devRef .tc main_arg9) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg9) := W16_of_ne m ρ c main_arg9 (by decide)
    _ = W14 m ρ c (Proc.devRef .tc main_arg9) := StableHlo.after_of_forall_not_mem (b := Proc.devRef .tc main_arg9) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 30 of the run writes `main_arg10`: it keeps its contents. -/
theorem main_arg10_0_30 (c : Dev nD) : W30 m ρ c (Proc.devRef .tc main_arg10) = W0 m ρ c (Proc.devRef .tc main_arg10) :=
  calc W30 m ρ c (Proc.devRef .tc main_arg10)
    _ = W29 m ρ c (Proc.devRef .tc main_arg10) := W30_of_ne m ρ c main_arg10 (by decide)
    _ = W28 m ρ c (Proc.devRef .tc main_arg10) := StableHlo.after_of_forall_not_mem (b := Proc.devRef .tc main_arg10) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg10) := W28_of_ne m ρ c main_arg10 (by decide)
    _ = W26 m ρ c (Proc.devRef .tc main_arg10) := StableHlo.after_of_forall_not_mem (b := Proc.devRef .tc main_arg10) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg10) := W26_of_ne m ρ c main_arg10 (by decide)
    _ = W24 m ρ c (Proc.devRef .tc main_arg10) := StableHlo.after_of_forall_not_mem (b := Proc.devRef .tc main_arg10) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg10) := W24_of_ne m ρ c main_arg10 (by decide)
    _ = W22 m ρ c (Proc.devRef .tc main_arg10) := StableHlo.after_of_forall_not_mem (b := Proc.devRef .tc main_arg10) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg10) := W22_of_ne m ρ c main_arg10 (by decide)
    _ = W20 m ρ c (Proc.devRef .tc main_arg10) := StableHlo.after_of_forall_not_mem (b := Proc.devRef .tc main_arg10) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg10) := W20_of_ne m ρ c main_arg10 (by decide)
    _ = W18 m ρ c (Proc.devRef .tc main_arg10) := StableHlo.after_of_forall_not_mem (b := Proc.devRef .tc main_arg10) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg10) := W18_of_ne m ρ c main_arg10 (by decide)
    _ = W16 m ρ c (Proc.devRef .tc main_arg10) := StableHlo.after_of_forall_not_mem (b := Proc.devRef .tc main_arg10) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg10) := W16_of_ne m ρ c main_arg10 (by decide)
    _ = W14 m ρ c (Proc.devRef .tc main_arg10) := StableHlo.after_of_forall_not_mem (b := Proc.devRef .tc main_arg10) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 30 of the run writes `main_arg11`: it keeps its contents. -/
theorem main_arg11_0_30 (c : Dev nD) : W30 m ρ c (Proc.devRef .tc main_arg11) = W0 m ρ c (Proc.devRef .tc main_arg11) :=
  calc W30 m ρ c (Proc.devRef .tc main_arg11)
    _ = W29 m ρ c (Proc.devRef .tc main_arg11) := W30_of_ne m ρ c main_arg11 (by decide)
    _ = W28 m ρ c (Proc.devRef .tc main_arg11) := StableHlo.after_of_forall_not_mem (b := Proc.devRef .tc main_arg11) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg11) := W28_of_ne m ρ c main_arg11 (by decide)
    _ = W26 m ρ c (Proc.devRef .tc main_arg11) := StableHlo.after_of_forall_not_mem (b := Proc.devRef .tc main_arg11) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg11) := W26_of_ne m ρ c main_arg11 (by decide)
    _ = W24 m ρ c (Proc.devRef .tc main_arg11) := StableHlo.after_of_forall_not_mem (b := Proc.devRef .tc main_arg11) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg11) := W24_of_ne m ρ c main_arg11 (by decide)
    _ = W22 m ρ c (Proc.devRef .tc main_arg11) := StableHlo.after_of_forall_not_mem (b := Proc.devRef .tc main_arg11) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg11) := W22_of_ne m ρ c main_arg11 (by decide)
    _ = W20 m ρ c (Proc.devRef .tc main_arg11) := StableHlo.after_of_forall_not_mem (b := Proc.devRef .tc main_arg11) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg11) := W20_of_ne m ρ c main_arg11 (by decide)
    _ = W18 m ρ c (Proc.devRef .tc main_arg11) := StableHlo.after_of_forall_not_mem (b := Proc.devRef .tc main_arg11) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg11) := W18_of_ne m ρ c main_arg11 (by decide)
    _ = W16 m ρ c (Proc.devRef .tc main_arg11) := StableHlo.after_of_forall_not_mem (b := Proc.devRef .tc main_arg11) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg11) := W16_of_ne m ρ c main_arg11 (by decide)
    _ = W14 m ρ c (Proc.devRef .tc main_arg11) := StableHlo.after_of_forall_not_mem (b := Proc.devRef .tc main_arg11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 32 of the run writes `main_arg12`: it keeps its contents. -/
theorem main_arg12_0_32 (c : Dev nD) : W32 m ρ c (Proc.devRef .tc main_arg12) = W0 m ρ c (Proc.devRef .tc main_arg12) :=
  calc W32 m ρ c (Proc.devRef .tc main_arg12)
    _ = W31 m ρ c (Proc.devRef .tc main_arg12) := W32_of_ne m ρ c main_arg12 (by decide)
    _ = W30 m ρ c (Proc.devRef .tc main_arg12) := StableHlo.after_of_forall_not_mem (b := Proc.devRef .tc main_arg12) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg12) := W30_of_ne m ρ c main_arg12 (by decide)
    _ = W28 m ρ c (Proc.devRef .tc main_arg12) := StableHlo.after_of_forall_not_mem (b := Proc.devRef .tc main_arg12) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg12) := W28_of_ne m ρ c main_arg12 (by decide)
    _ = W26 m ρ c (Proc.devRef .tc main_arg12) := StableHlo.after_of_forall_not_mem (b := Proc.devRef .tc main_arg12) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg12) := W26_of_ne m ρ c main_arg12 (by decide)
    _ = W24 m ρ c (Proc.devRef .tc main_arg12) := StableHlo.after_of_forall_not_mem (b := Proc.devRef .tc main_arg12) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg12) := W24_of_ne m ρ c main_arg12 (by decide)
    _ = W22 m ρ c (Proc.devRef .tc main_arg12) := StableHlo.after_of_forall_not_mem (b := Proc.devRef .tc main_arg12) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg12) := W22_of_ne m ρ c main_arg12 (by decide)
    _ = W20 m ρ c (Proc.devRef .tc main_arg12) := StableHlo.after_of_forall_not_mem (b := Proc.devRef .tc main_arg12) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg12) := W20_of_ne m ρ c main_arg12 (by decide)
    _ = W18 m ρ c (Proc.devRef .tc main_arg12) := StableHlo.after_of_forall_not_mem (b := Proc.devRef .tc main_arg12) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg12) := W18_of_ne m ρ c main_arg12 (by decide)
    _ = W16 m ρ c (Proc.devRef .tc main_arg12) := StableHlo.after_of_forall_not_mem (b := Proc.devRef .tc main_arg12) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg12) := W16_of_ne m ρ c main_arg12 (by decide)
    _ = W14 m ρ c (Proc.devRef .tc main_arg12) := StableHlo.after_of_forall_not_mem (b := Proc.devRef .tc main_arg12) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 34 of the run writes `main_arg13`: it keeps its contents. -/
theorem main_arg13_0_34 (c : Dev nD) : W34 m ρ c (Proc.devRef .tc main_arg13) = W0 m ρ c (Proc.devRef .tc main_arg13) :=
  calc W34 m ρ c (Proc.devRef .tc main_arg13)
    _ = W33 m ρ c (Proc.devRef .tc main_arg13) := W34_of_ne m ρ c main_arg13 (by decide)
    _ = W32 m ρ c (Proc.devRef .tc main_arg13) := StableHlo.after_of_forall_not_mem (b := Proc.devRef .tc main_arg13) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg13) := W32_of_ne m ρ c main_arg13 (by decide)
    _ = W30 m ρ c (Proc.devRef .tc main_arg13) := StableHlo.after_of_forall_not_mem (b := Proc.devRef .tc main_arg13) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg13) := W30_of_ne m ρ c main_arg13 (by decide)
    _ = W28 m ρ c (Proc.devRef .tc main_arg13) := StableHlo.after_of_forall_not_mem (b := Proc.devRef .tc main_arg13) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg13) := W28_of_ne m ρ c main_arg13 (by decide)
    _ = W26 m ρ c (Proc.devRef .tc main_arg13) := StableHlo.after_of_forall_not_mem (b := Proc.devRef .tc main_arg13) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg13) := W26_of_ne m ρ c main_arg13 (by decide)
    _ = W24 m ρ c (Proc.devRef .tc main_arg13) := StableHlo.after_of_forall_not_mem (b := Proc.devRef .tc main_arg13) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg13) := W24_of_ne m ρ c main_arg13 (by decide)
    _ = W22 m ρ c (Proc.devRef .tc main_arg13) := StableHlo.after_of_forall_not_mem (b := Proc.devRef .tc main_arg13) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg13) := W22_of_ne m ρ c main_arg13 (by decide)
    _ = W20 m ρ c (Proc.devRef .tc main_arg13) := StableHlo.after_of_forall_not_mem (b := Proc.devRef .tc main_arg13) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg13) := W20_of_ne m ρ c main_arg13 (by decide)
    _ = W18 m ρ c (Proc.devRef .tc main_arg13) := StableHlo.after_of_forall_not_mem (b := Proc.devRef .tc main_arg13) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg13) := W18_of_ne m ρ c main_arg13 (by decide)
    _ = W16 m ρ c (Proc.devRef .tc main_arg13) := StableHlo.after_of_forall_not_mem (b := Proc.devRef .tc main_arg13) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg13) := W16_of_ne m ρ c main_arg13 (by decide)
    _ = W14 m ρ c (Proc.devRef .tc main_arg13) := StableHlo.after_of_forall_not_mem (b := Proc.devRef .tc main_arg13) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 34 of the run writes `main_arg14`: it keeps its contents. -/
theorem main_arg14_0_34 (c : Dev nD) : W34 m ρ c (Proc.devRef .tc main_arg14) = W0 m ρ c (Proc.devRef .tc main_arg14) :=
  calc W34 m ρ c (Proc.devRef .tc main_arg14)
    _ = W33 m ρ c (Proc.devRef .tc main_arg14) := W34_of_ne m ρ c main_arg14 (by decide)
    _ = W32 m ρ c (Proc.devRef .tc main_arg14) := StableHlo.after_of_forall_not_mem (b := Proc.devRef .tc main_arg14) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg14) := W32_of_ne m ρ c main_arg14 (by decide)
    _ = W30 m ρ c (Proc.devRef .tc main_arg14) := StableHlo.after_of_forall_not_mem (b := Proc.devRef .tc main_arg14) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg14) := W30_of_ne m ρ c main_arg14 (by decide)
    _ = W28 m ρ c (Proc.devRef .tc main_arg14) := StableHlo.after_of_forall_not_mem (b := Proc.devRef .tc main_arg14) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg14) := W28_of_ne m ρ c main_arg14 (by decide)
    _ = W26 m ρ c (Proc.devRef .tc main_arg14) := StableHlo.after_of_forall_not_mem (b := Proc.devRef .tc main_arg14) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg14) := W26_of_ne m ρ c main_arg14 (by decide)
    _ = W24 m ρ c (Proc.devRef .tc main_arg14) := StableHlo.after_of_forall_not_mem (b := Proc.devRef .tc main_arg14) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg14) := W24_of_ne m ρ c main_arg14 (by decide)
    _ = W22 m ρ c (Proc.devRef .tc main_arg14) := StableHlo.after_of_forall_not_mem (b := Proc.devRef .tc main_arg14) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg14) := W22_of_ne m ρ c main_arg14 (by decide)
    _ = W20 m ρ c (Proc.devRef .tc main_arg14) := StableHlo.after_of_forall_not_mem (b := Proc.devRef .tc main_arg14) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg14) := W20_of_ne m ρ c main_arg14 (by decide)
    _ = W18 m ρ c (Proc.devRef .tc main_arg14) := StableHlo.after_of_forall_not_mem (b := Proc.devRef .tc main_arg14) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg14) := W18_of_ne m ρ c main_arg14 (by decide)
    _ = W16 m ρ c (Proc.devRef .tc main_arg14) := StableHlo.after_of_forall_not_mem (b := Proc.devRef .tc main_arg14) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg14) := W16_of_ne m ρ c main_arg14 (by decide)
    _ = W14 m ρ c (Proc.devRef .tc main_arg14) := StableHlo.after_of_forall_not_mem (b := Proc.devRef .tc main_arg14) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg14) := W14_of_ne m ρ c main_arg14 (by decide)
    _ = W12 m ρ c (Proc.devRef .tc main_arg14) := StableHlo.after_of_forall_not_mem (b := Proc.devRef .tc main_arg14) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 36 of the run writes `main_arg1`: it keeps its contents. -/
theorem main_arg1_0_36 (c : Dev nD) : W36 m ρ c (Proc.devRef .tc main_arg1) = W0 m ρ c (Proc.devRef .tc main_arg1) :=
  calc W36 m ρ c (Proc.devRef .tc main_arg1)
    _ = W35 m ρ c (Proc.devRef .tc main_arg1) := W36_of_ne m ρ c main_arg1 (by decide)
    _ = W34 m ρ c (Proc.devRef .tc main_arg1) := StableHlo.after_of_forall_not_mem (b := Proc.devRef .tc main_arg1) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg1) := W34_of_ne m ρ c main_arg1 (by decide)
    _ = W32 m ρ c (Proc.devRef .tc main_arg1) := StableHlo.after_of_forall_not_mem (b := Proc.devRef .tc main_arg1) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg1) := W32_of_ne m ρ c main_arg1 (by decide)
    _ = W30 m ρ c (Proc.devRef .tc main_arg1) := StableHlo.after_of_forall_not_mem (b := Proc.devRef .tc main_arg1) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg1) := W30_of_ne m ρ c main_arg1 (by decide)
    _ = W28 m ρ c (Proc.devRef .tc main_arg1) := StableHlo.after_of_forall_not_mem (b := Proc.devRef .tc main_arg1) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg1) := W28_of_ne m ρ c main_arg1 (by decide)
    _ = W26 m ρ c (Proc.devRef .tc main_arg1) := StableHlo.after_of_forall_not_mem (b := Proc.devRef .tc main_arg1) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg1) := W26_of_ne m ρ c main_arg1 (by decide)
    _ = W24 m ρ c (Proc.devRef .tc main_arg1) := StableHlo.after_of_forall_not_mem (b := Proc.devRef .tc main_arg1) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg1) := W24_of_ne m ρ c main_arg1 (by decide)
    _ = W22 m ρ c (Proc.devRef .tc main_arg1) := StableHlo.after_of_forall_not_mem (b := Proc.devRef .tc main_arg1) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg1) := W22_of_ne m ρ c main_arg1 (by decide)
    _ = W20 m ρ c (Proc.devRef .tc main_arg1) := StableHlo.after_of_forall_not_mem (b := Proc.devRef .tc main_arg1) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg1) := W20_of_ne m ρ c main_arg1 (by decide)
    _ = W18 m ρ c (Proc.devRef .tc main_arg1) := StableHlo.after_of_forall_not_mem (b := Proc.devRef .tc main_arg1) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg1) := W18_of_ne m ρ c main_arg1 (by decide)
    _ = W16 m ρ c (Proc.devRef .tc main_arg1) := StableHlo.after_of_forall_not_mem (b := Proc.devRef .tc main_arg1) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg1) := W16_of_ne m ρ c main_arg1 (by decide)
    _ = W14 m ρ c (Proc.devRef .tc main_arg1) := StableHlo.after_of_forall_not_mem (b := Proc.devRef .tc main_arg1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg1) := W14_of_ne m ρ c main_arg1 (by decide)
    _ = W12 m ρ c (Proc.devRef .tc main_arg1) := StableHlo.after_of_forall_not_mem (b := Proc.devRef .tc main_arg1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 36 of the run writes `main_arg2`: it keeps its contents. -/
theorem main_arg2_0_36 (c : Dev nD) : W36 m ρ c (Proc.devRef .tc main_arg2) = W0 m ρ c (Proc.devRef .tc main_arg2) :=
  calc W36 m ρ c (Proc.devRef .tc main_arg2)
    _ = W35 m ρ c (Proc.devRef .tc main_arg2) := W36_of_ne m ρ c main_arg2 (by decide)
    _ = W34 m ρ c (Proc.devRef .tc main_arg2) := StableHlo.after_of_forall_not_mem (b := Proc.devRef .tc main_arg2) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg2) := W34_of_ne m ρ c main_arg2 (by decide)
    _ = W32 m ρ c (Proc.devRef .tc main_arg2) := StableHlo.after_of_forall_not_mem (b := Proc.devRef .tc main_arg2) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg2) := W32_of_ne m ρ c main_arg2 (by decide)
    _ = W30 m ρ c (Proc.devRef .tc main_arg2) := StableHlo.after_of_forall_not_mem (b := Proc.devRef .tc main_arg2) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg2) := W30_of_ne m ρ c main_arg2 (by decide)
    _ = W28 m ρ c (Proc.devRef .tc main_arg2) := StableHlo.after_of_forall_not_mem (b := Proc.devRef .tc main_arg2) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg2) := W28_of_ne m ρ c main_arg2 (by decide)
    _ = W26 m ρ c (Proc.devRef .tc main_arg2) := StableHlo.after_of_forall_not_mem (b := Proc.devRef .tc main_arg2) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg2) := W26_of_ne m ρ c main_arg2 (by decide)
    _ = W24 m ρ c (Proc.devRef .tc main_arg2) := StableHlo.after_of_forall_not_mem (b := Proc.devRef .tc main_arg2) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg2) := W24_of_ne m ρ c main_arg2 (by decide)
    _ = W22 m ρ c (Proc.devRef .tc main_arg2) := StableHlo.after_of_forall_not_mem (b := Proc.devRef .tc main_arg2) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg2) := W22_of_ne m ρ c main_arg2 (by decide)
    _ = W20 m ρ c (Proc.devRef .tc main_arg2) := StableHlo.after_of_forall_not_mem (b := Proc.devRef .tc main_arg2) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg2) := W20_of_ne m ρ c main_arg2 (by decide)
    _ = W18 m ρ c (Proc.devRef .tc main_arg2) := StableHlo.after_of_forall_not_mem (b := Proc.devRef .tc main_arg2) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg2) := W18_of_ne m ρ c main_arg2 (by decide)
    _ = W16 m ρ c (Proc.devRef .tc main_arg2) := StableHlo.after_of_forall_not_mem (b := Proc.devRef .tc main_arg2) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg2) := W16_of_ne m ρ c main_arg2 (by decide)
    _ = W14 m ρ c (Proc.devRef .tc main_arg2) := StableHlo.after_of_forall_not_mem (b := Proc.devRef .tc main_arg2) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 36 of the run writes `main_arg8`: it keeps its contents. -/
theorem main_arg8_0_36 (c : Dev nD) : W36 m ρ c (Proc.devRef .tc main_arg8) = W0 m ρ c (Proc.devRef .tc main_arg8) :=
  calc W36 m ρ c (Proc.devRef .tc main_arg8)
    _ = W35 m ρ c (Proc.devRef .tc main_arg8) := W36_of_ne m ρ c main_arg8 (by decide)
    _ = W34 m ρ c (Proc.devRef .tc main_arg8) := StableHlo.after_of_forall_not_mem (b := Proc.devRef .tc main_arg8) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg8) := W34_of_ne m ρ c main_arg8 (by decide)
    _ = W32 m ρ c (Proc.devRef .tc main_arg8) := StableHlo.after_of_forall_not_mem (b := Proc.devRef .tc main_arg8) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg8) := W32_of_ne m ρ c main_arg8 (by decide)
    _ = W30 m ρ c (Proc.devRef .tc main_arg8) := StableHlo.after_of_forall_not_mem (b := Proc.devRef .tc main_arg8) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg8) := W30_of_ne m ρ c main_arg8 (by decide)
    _ = W28 m ρ c (Proc.devRef .tc main_arg8) := StableHlo.after_of_forall_not_mem (b := Proc.devRef .tc main_arg8) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg8) := W28_of_ne m ρ c main_arg8 (by decide)
    _ = W26 m ρ c (Proc.devRef .tc main_arg8) := StableHlo.after_of_forall_not_mem (b := Proc.devRef .tc main_arg8) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg8) := W26_of_ne m ρ c main_arg8 (by decide)
    _ = W24 m ρ c (Proc.devRef .tc main_arg8) := StableHlo.after_of_forall_not_mem (b := Proc.devRef .tc main_arg8) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg8) := W24_of_ne m ρ c main_arg8 (by decide)
    _ = W22 m ρ c (Proc.devRef .tc main_arg8) := StableHlo.after_of_forall_not_mem (b := Proc.devRef .tc main_arg8) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg8) := W22_of_ne m ρ c main_arg8 (by decide)
    _ = W20 m ρ c (Proc.devRef .tc main_arg8) := StableHlo.after_of_forall_not_mem (b := Proc.devRef .tc main_arg8) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg8) := W20_of_ne m ρ c main_arg8 (by decide)
    _ = W18 m ρ c (Proc.devRef .tc main_arg8) := StableHlo.after_of_forall_not_mem (b := Proc.devRef .tc main_arg8) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg8) := W18_of_ne m ρ c main_arg8 (by decide)
    _ = W16 m ρ c (Proc.devRef .tc main_arg8) := StableHlo.after_of_forall_not_mem (b := Proc.devRef .tc main_arg8) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 36 of the run writes `main_arg9`: it keeps its contents. -/
theorem main_arg9_0_36 (c : Dev nD) : W36 m ρ c (Proc.devRef .tc main_arg9) = W0 m ρ c (Proc.devRef .tc main_arg9) :=
  calc W36 m ρ c (Proc.devRef .tc main_arg9)
    _ = W35 m ρ c (Proc.devRef .tc main_arg9) := W36_of_ne m ρ c main_arg9 (by decide)
    _ = W34 m ρ c (Proc.devRef .tc main_arg9) := StableHlo.after_of_forall_not_mem (b := Proc.devRef .tc main_arg9) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg9) := W34_of_ne m ρ c main_arg9 (by decide)
    _ = W32 m ρ c (Proc.devRef .tc main_arg9) := StableHlo.after_of_forall_not_mem (b := Proc.devRef .tc main_arg9) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg9) := W32_of_ne m ρ c main_arg9 (by decide)
    _ = W30 m ρ c (Proc.devRef .tc main_arg9) := StableHlo.after_of_forall_not_mem (b := Proc.devRef .tc main_arg9) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg9) := W30_of_ne m ρ c main_arg9 (by decide)
    _ = W28 m ρ c (Proc.devRef .tc main_arg9) := StableHlo.after_of_forall_not_mem (b := Proc.devRef .tc main_arg9) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg9) := W28_of_ne m ρ c main_arg9 (by decide)
    _ = W26 m ρ c (Proc.devRef .tc main_arg9) := StableHlo.after_of_forall_not_mem (b := Proc.devRef .tc main_arg9) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg9) := W26_of_ne m ρ c main_arg9 (by decide)
    _ = W24 m ρ c (Proc.devRef .tc main_arg9) := StableHlo.after_of_forall_not_mem (b := Proc.devRef .tc main_arg9) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg9) := W24_of_ne m ρ c main_arg9 (by decide)
    _ = W22 m ρ c (Proc.devRef .tc main_arg9) := StableHlo.after_of_forall_not_mem (b := Proc.devRef .tc main_arg9) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg9) := W22_of_ne m ρ c main_arg9 (by decide)
    _ = W20 m ρ c (Proc.devRef .tc main_arg9) := StableHlo.after_of_forall_not_mem (b := Proc.devRef .tc main_arg9) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg9) := W20_of_ne m ρ c main_arg9 (by decide)
    _ = W18 m ρ c (Proc.devRef .tc main_arg9) := StableHlo.after_of_forall_not_mem (b := Proc.devRef .tc main_arg9) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg9) := W18_of_ne m ρ c main_arg9 (by decide)
    _ = W16 m ρ c (Proc.devRef .tc main_arg9) := StableHlo.after_of_forall_not_mem (b := Proc.devRef .tc main_arg9) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg9) := W16_of_ne m ρ c main_arg9 (by decide)
    _ = W14 m ρ c (Proc.devRef .tc main_arg9) := StableHlo.after_of_forall_not_mem (b := Proc.devRef .tc main_arg9) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Carry

end
-- ==== Proof.KernelChain7.lean ====
/-
  Stage 7 of the chain, the kernel's half: the third message-passing hop of a later block. The block's input is the previous
  block's output plus the embedding's output, entry by entry, formed before the block's first hop and carried unchanged
  to this one. The host operations before the hop's first region pool the previous hop's rows along the edges and take
  the hop's square of the stacked weights and its row of the stacked biases; the first region adds the pooled rows to the
  block input's, multiplies by the weights, adds the bias row, and leaves with that array its column sums and column sums
  of squares; the host operations between the regions divide those by the row count, form the variance as the mean of
  squares less the squared mean, and take the hop's rows of the stacked scale and shift; the second region normalises with
  those rows, with no clipping after it. Here the steps are joined, over the previous hop's output, the previous block's
  output and the embedding's output as the run leaves them and the launch memory's edge lists and stacked parameters.
-/
import proofs.«414479_j7705171329025_1_alg».proof.Proof.ValAdd2_14
import proofs.«414479_j7705171329025_1_alg».proof.Proof.ValNorm15
import proofs.«414479_j7705171329025_1_alg».proof.Proof.HostHop14
import proofs.«414479_j7705171329025_1_alg».proof.Proof.HostHop10
import proofs.«414479_j7705171329025_1_alg».proof.Proof.HostStats15
import proofs.«414479_j7705171329025_1_alg».proof.Proof.StageReal
import proofs.«414479_j7705171329025_1_alg».proof.Proof.FrameKI.Run
import proofs.«414479_j7705171329025_1_alg».proof.Proof.Carry0
import proofs.«414479_j7705171329025_1_alg».proof.Proof.Carry4
import proofs.«414479_j7705171329025_1_alg».proof.Proof.Carry5
import proofs.«414479_j7705171329025_1_alg».proof.Proof.PreReal
import proofs.«414479_j7705171329025_1_alg».proof.Proof.PooledReal
import proofs.«414479_j7705171329025_1_alg».proof.Proof.SliceReal
import Idealize.ShloMosaic.Lib.IdealHost
import Idealize.ShloMosaic.Lib.ValueLayout

set_option maxRecDepth 16384

noncomputable section

namespace Cert.KernelChain7

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## The hop's data: earlier stages' output arrays, and the launch memory's arrays, each at its literal type -/

/-- The previous hop's output array, as the run leaves it. -/
abbrev prev (c : Dev nD) : Vec Ideal S100000x128 .f32 := W28 (F := Ideal) m ρ c (Proc.devRef .tc main_v171)
/-- The previous block's output array, as the run leaves it. -/
abbrev prevBlock (c : Dev nD) : Vec Ideal S100000x128 .f32 := W20 (F := Ideal) m ρ c (Proc.devRef .tc main_v112)
/-- The embedding's output array, as the run leaves it. -/
abbrev inp (c : Dev nD) : Vec Ideal S100000x128 .f32 := W4 (F := Ideal) m ρ c (Proc.devRef .tc main_v10)
/-- The block's input: the previous block's output plus the embedding's, entry by entry. -/
abbrev blockIn (c : Dev nD) : Vec Ideal S100000x128 .f32 :=
  addf (F := Ideal) (s := S100000x128) (φ := .f32) (prevBlock m ρ c) (inp m ρ c)
/-- The edges' sources. -/
abbrev src (c : Dev nD) : Vec Ideal S800000 .i32 := m ((c : Thread nD τ).loc main_arg1)
/-- The edges' destinations. -/
abbrev dst (c : Dev nD) : Vec Ideal S800000 .i32 := m ((c : Thread nD τ).loc main_arg2)
/-- The stacked weights of the block's three hops. -/
abbrev convW (c : Dev nD) : Vec Ideal S3x128x128 .f32 := m ((c : Thread nD τ).loc main_arg8)
/-- The stacked biases. -/
abbrev convB (c : Dev nD) : Vec Ideal S3x128 .f32 := m ((c : Thread nD τ).loc main_arg9)
/-- The stacked scales of the three hops' batch norms. -/
abbrev bnG (c : Dev nD) : Vec Ideal S3x128 .f32 := m ((c : Thread nD τ).loc main_arg10)
/-- The stacked shifts. -/
abbrev bnB (c : Dev nD) : Vec Ideal S3x128 .f32 := m ((c : Thread nD τ).loc main_arg11)

/-- The previous hop's output's rows pooled along the edges. -/
abbrev pooledPrev (c : Dev nD) : Vec Ideal S100000x128 .f32 := HostHop14.pooled (F := Ideal) (prev m ρ c) (src m c) (dst m c)
/-- The hop's weight matrix. -/
abbrev Wt (c : Dev nD) : Vec Ideal S128x128 .f32 := HostHop14.wOf (F := Ideal) (convW m c)
/-- The hop's bias row. -/
abbrev B (c : Dev nD) : Vec Ideal S1x128 .f32 := HostHop14.rowOf (F := Ideal) (convB m c)
/-- The hop's scale row. -/
abbrev g (c : Dev nD) : Vec Ideal S1x128 .f32 := HostStats15.rowOf (F := Ideal) (bnG m c)
/-- The hop's shift row. -/
abbrev β (c : Dev nD) : Vec Ideal S1x128 .f32 := HostStats15.rowOf (F := Ideal) (bnB m c)

/-- The hop's linear stage, entry by entry: the pooled rows plus the block input's, against the weights, plus the bias. -/
def y (c : Dev nD) (r : Fin 100000) (q : Fin 128) : EReal :=
  StageSpec.linAdd (pooledPrev m ρ c) (blockIn m ρ c) (Wt m c) (B m c) r q

/-- The row count, as the word the host operations divide by. -/
abbrev nRows : EReal := Ideal.ofBits .f32 0x47C35000#32

/-! ## Real numbers in, real numbers out -/

/-- Under the precondition, and if every entry of the earlier stages' arrays is a real number, every entry of the hop's
    linear stage is one: the neighbour sum of a real array is real whatever the edges are, and the hop's square of the
    weights and its row of the biases are entries of real arrays. -/
theorem y_isReal [Cert.Pre_finite_inputs.Facts] (h : Cert.Pre_KernelIdeal m) (c : Dev nD)
    (hprev : ∀ i, Cert.RealSpec.IsReal (prev m ρ c i)) (hblk : ∀ i, Cert.RealSpec.IsReal (prevBlock m ρ c i))
    (hinp : ∀ i, Cert.RealSpec.IsReal (inp m ρ c i)) (r : Fin 100000) (q : Fin 128) :
    Cert.RealSpec.IsReal (y m ρ c r q) :=
  StageReal.linAdd_isReal (pooledPrev m ρ c) (blockIn m ρ c) (Wt m c) (B m c)
    (Cert.PooledReal.pooled_isReal (prev m ρ c) (src m c) (dst m c) hprev)
    (fun i => BatchStats.isReal_add (hblk i) (hinp i))
    (Cert.SliceReal.wOf2_isReal (convW m c) (Cert.PreReal.real_arg8 m h c))
    (Cert.SliceReal.rowOf2_isReal (convB m c) (Cert.PreReal.real_arg9 m h c)) r q

/-- Under the precondition every entry of the hop's scale row is a real number. -/
theorem g_isReal [Cert.Pre_finite_inputs.Facts] (h : Cert.Pre_KernelIdeal m) (c : Dev nD) (q : Fin 128) :
    Cert.RealSpec.IsReal (g m c (ix2 (0 : Fin 1) q)) :=
  Cert.SliceReal.statsRow2_isReal (bnG m c) (Cert.PreReal.real_arg10 m h c) (ix2 (0 : Fin 1) q)

/-- And every entry of its shift row. -/
theorem β_isReal [Cert.Pre_finite_inputs.Facts] (h : Cert.Pre_KernelIdeal m) (c : Dev nD) (q : Fin 128) :
    Cert.RealSpec.IsReal (β m c (ix2 (0 : Fin 1) q)) :=
  Cert.SliceReal.statsRow2_isReal (bnB m c) (Cert.PreReal.real_arg11 m h c) (ix2 (0 : Fin 1) q)

/-! ## The first region's inputs -/

/-- The pooled rows: the host operations before the region form them, with the edge lists, which nothing has written since
    the launch. -/
theorem xa_eq (c : Dev nD) : ValAdd2_14.xaArr (V29 m ρ) c = pooledPrev m ρ c :=
  (HostHop14.read_pooled (W28 m ρ c)).trans
    (congrArg₂ (fun s d => HostHop14.pooled (F := Ideal) (prev m ρ c) s d)
      ((Carry.main_arg1_0_28 m ρ c).trans rfl) ((Carry.main_arg2_0_28 m ρ c).trans rfl))

/-- The block's input. -/
theorem xb_eq (c : Dev nD) : ValAdd2_14.xbArr (V29 m ρ) c = blockIn m ρ c :=
  ((Carry.main_v113_21_29 m ρ c).trans (HostHop10.read_input (W20 m ρ c))).trans
    (congrArg (fun t => addf (F := Ideal) (s := S100000x128) (φ := .f32) (prevBlock m ρ c) t) (Carry.main_v10_4_20 m ρ c))

/-- The hop's weight matrix, out of the launch memory's stacked weights. -/
theorem w_eq (c : Dev nD) : ValAdd2_14.wArr (V29 m ρ) c = Wt m c :=
  (HostHop14.read_w (W28 m ρ c)).trans (congrArg (HostHop14.wOf (F := Ideal)) ((Carry.main_arg8_0_28 m ρ c).trans rfl))

/-- The hop's bias row, out of the launch memory's stacked biases. -/
theorem b_eq (c : Dev nD) : ValAdd2_14.bRow (V29 m ρ) c = B m c :=
  (HostHop14.read_b (W28 m ρ c)).trans (congrArg (HostHop14.rowOf (F := Ideal)) ((Carry.main_arg9_0_28 m ρ c).trans rfl))

/-- So the first region's linear stage is the hop's. -/
theorem y_eq (c : Dev nD) : ValAdd2_14.y (V29 m ρ) c = y m ρ c := by
  funext r q
  unfold ValAdd2_14.y y
  rw [xa_eq m ρ c, xb_eq m ρ c, w_eq m ρ c, b_eq m ρ c]

/-! ## The second region's five arrays, from the first region's three -/

/-- The column sums, as the first region leaves them. -/
theorem sum_eq (c : Dev nD) :
    (W30 m ρ c (Proc.devRef .tc main_v187_1) : Vec Ideal S1x128 .f32) = ValAdd2_14.resultSum (V29 m ρ) c :=
  (W30_arr m ρ c 5).trans (ValAdd2_14.arrAt_sum (V29 m ρ) c)

/-- The column sums of squares, as the first region leaves them. -/
theorem sumsq_eq (c : Dev nD) :
    (W30 m ρ c (Proc.devRef .tc main_v187_2) : Vec Ideal S1x128 .f32) = ValAdd2_14.resultSumSq (V29 m ρ) c :=
  (W30_arr m ρ c 6).trans (ValAdd2_14.arrAt_sumsq (V29 m ρ) c)

/-- The tall array the second region normalises is the first region's output: the host operations between the two do
    not write it. -/
theorem yArr_eq (c : Dev nD) : ValNorm15.yArr (V31 m ρ) c = ValAdd2_14.resultY (V29 m ρ) c :=
  ((HostStats15.read_y (W30 m ρ c)).trans (W30_arr m ρ c 4)).trans (ValAdd2_14.arrAt_y (V29 m ρ) c)

/-- The mean row: the column sums over the row count. -/
theorem meanRow_eq (c : Dev nD) :
    ValNorm15.meanRow (V31 m ρ) c
      = Host.divf (F := Ideal) (φ := .f32) (ValAdd2_14.resultSum (V29 m ρ) c) (HostStats15.nRow (F := Ideal)) := by
  refine (HostStats15.read_mean (W30 m ρ c)).trans ?_
  rw [sum_eq m ρ c]

/-- The variance row: the mean of squares less the squared mean. -/
theorem varRow_eq (c : Dev nD) :
    ValNorm15.varRow (V31 m ρ) c
      = subf (F := Ideal) (φ := .f32) (Host.divf (F := Ideal) (φ := .f32) (ValAdd2_14.resultSumSq (V29 m ρ) c) (HostStats15.nRow (F := Ideal)))
          (mulf (F := Ideal) (φ := .f32) (Host.divf (F := Ideal) (φ := .f32) (ValAdd2_14.resultSum (V29 m ρ) c) (HostStats15.nRow (F := Ideal)))
            (Host.divf (F := Ideal) (φ := .f32) (ValAdd2_14.resultSum (V29 m ρ) c) (HostStats15.nRow (F := Ideal)))) := by
  refine (HostStats15.read_var (W30 m ρ c)).trans ?_
  rw [sum_eq m ρ c, sumsq_eq m ρ c]

/-- The scale row: the hop's row of the launch memory's stacked scales, which nothing has written since the launch. -/
theorem gRow_eq (c : Dev nD) : ValNorm15.gRow (V31 m ρ) c = g m c :=
  (HostStats15.read_g (W30 m ρ c)).trans (congrArg (HostStats15.rowOf (F := Ideal)) ((Carry.main_arg10_0_30 m ρ c).trans rfl))

/-- The shift row: the hop's row of the launch memory's stacked shifts. -/
theorem betaRow_eq (c : Dev nD) : ValNorm15.betaRow (V31 m ρ) c = β m c :=
  (HostStats15.read_beta (W30 m ρ c)).trans (congrArg (HostStats15.rowOf (F := Ideal)) ((Carry.main_arg11_0_30 m ρ c).trans rfl))

/-! ## The five arrays read at an entry -/

/-- The divisor row holds the row count in every column. -/
theorem nRow_apply (j : S1x128.Idx) : HostStats15.nRow (F := Ideal) j = nRows := by
  unfold HostStats15.nRow
  exact (broadcastInDim_scalar_apply bcast_S_S1x128 (constant (F := Ideal) S_ .f32 0x47C35000#32) j).trans rfl

/-- The tall array at row r, column q is the linear stage's entry. -/
theorem yArr_apply (c : Dev nD) (r : Fin 100000) (q : Fin 128) :
    ValNorm15.yArr (V31 m ρ) c (ix2 r q) = ValAdd2_14.y (V29 m ρ) c r q :=
  (congrFun (yArr_eq m ρ c) (ix2 r q)).trans rfl

/-- The mean row at column q is the column mean of the linear stage's output. -/
theorem mean_apply (c : Dev nD) (q : Fin 128) :
    ValNorm15.meanRow (V31 m ρ) c (ix2 (0 : Fin 1) q) = StageReal.colMean (ValAdd2_14.y (V29 m ρ) c) nRows q := by
  refine (congrFun (meanRow_eq m ρ c) (ix2 (0 : Fin 1) q)).trans ?_
  show Ideal.div (ValAdd2_14.resultSum (V29 m ρ) c (ix2 (0 : Fin 1) q)) (HostStats15.nRow (F := Ideal) (ix2 (0 : Fin 1) q)) = _
  rw [nRow_apply]
  rfl

/-- The variance row at column q is the mean of squares less the squared mean of that column. -/
theorem var_apply (c : Dev nD) (q : Fin 128) :
    ValNorm15.varRow (V31 m ρ) c (ix2 (0 : Fin 1) q) = StageReal.varSumSq (ValAdd2_14.y (V29 m ρ) c) nRows q := by
  refine (congrFun (varRow_eq m ρ c) (ix2 (0 : Fin 1) q)).trans ?_
  show Ideal.div (ValAdd2_14.resultSumSq (V29 m ρ) c (ix2 (0 : Fin 1) q)) (HostStats15.nRow (F := Ideal) (ix2 (0 : Fin 1) q))
      - Ideal.div (ValAdd2_14.resultSum (V29 m ρ) c (ix2 (0 : Fin 1) q)) (HostStats15.nRow (F := Ideal) (ix2 (0 : Fin 1) q))
        * Ideal.div (ValAdd2_14.resultSum (V29 m ρ) c (ix2 (0 : Fin 1) q)) (HostStats15.nRow (F := Ideal) (ix2 (0 : Fin 1) q)) = _
  rw [nRow_apply]
  rfl

/-! ## The hop's output -/

/-- What the second region leaves in its output array is what it computes from its five arrays. -/
theorem out_eq (c : Dev nD) :
    (W32 (F := Ideal) m ρ c (Proc.devRef .tc main_v200) : Vec Ideal S100000x128 .f32) = ValNorm15.result (V31 m ρ) c :=
  (W32_arr m ρ c 5).trans (ValNorm15.arrAt_out (V31 m ρ) c)

/-- THE KERNEL'S HOP OUTPUT, entry by entry: the batch normalisation of the hop's linear stage with the statistics in
    the kernel's form, not clipped. -/
theorem kernel_out_apply (c : Dev nD) (r : Fin 100000) (q : Fin 128) :
    (W32 (F := Ideal) m ρ c (Proc.devRef .tc main_v200) : Vec Ideal S100000x128 .f32) (ix2 r q)
      = StageSpec.norm (y m ρ c r q) (StageReal.colMean (y m ρ c) nRows q) (StageReal.varSumSq (y m ρ c) nRows q)
          (g m c (ix2 (0 : Fin 1) q)) (β m c (ix2 (0 : Fin 1) q)) := by
  refine (congrFun (out_eq m ρ c) (ix2 r q)).trans ?_
  show StageSpec.norm (ValNorm15.yArr (V31 m ρ) c (ix2 r q)) (ValNorm15.meanRow (V31 m ρ) c (ix2 (0 : Fin 1) q))
      (ValNorm15.varRow (V31 m ρ) c (ix2 (0 : Fin 1) q)) (ValNorm15.gRow (V31 m ρ) c (ix2 (0 : Fin 1) q))
      (ValNorm15.betaRow (V31 m ρ) c (ix2 (0 : Fin 1) q)) = _
  rw [yArr_apply m ρ c r q, mean_apply m ρ c q, var_apply m ρ c q, gRow_eq m ρ c, betaRow_eq m ρ c, y_eq m ρ c]

end Cert.KernelChain7

end
-- ==== Proof.Chain7.lean ====
/-
  Stage 7 of the chain: the third message-passing hop of a later block. The block's input is the previous block's output
  plus the embedding's output, entry by entry, in both programs. Both pool the previous hop's output along the edges, add
  the block's input, multiply by the hop's square of the stacked weights, add the hop's bias and normalise the result by
  its batch statistics with the hop's scale and shift; there is no clipping after a hop. The two programs' previous hop
  outputs are one array of real numbers, and so are their previous block outputs and their embedding outputs (the
  invariants of the earlier stages); the edge lists and the parameters are the same in the two memories.
  The neighbour sum, the weight square and the bias row are written with the same words in both programs, so the two linear
  stages are one array, of real numbers. The kernel takes the variance as the mean of squares less the squared mean, the
  reference as the mean of the squared deviations: on real data one number. So the two normalised arrays are equal, entry
  by entry, and every entry is a real number.
-/
import proofs.«414479_j7705171329025_1_alg».proof.Proof.KernelChain7
import proofs.«414479_j7705171329025_1_alg».proof.Proof.RefChain7
import proofs.«414479_j7705171329025_1_alg».proof.Proof.ChainDefs
import proofs.«414479_j7705171329025_1_alg».proof.Proof.Chain0
import proofs.«414479_j7705171329025_1_alg».proof.Proof.RefSide
import proofs.«414479_j7705171329025_1_alg».proof.Proof.HopJoin
import proofs.«414479_j7705171329025_1_alg».proof.Proof.Seam
import proofs.«414479_j7705171329025_1_alg».proof.Proof.PreReal

noncomputable section

namespace Cert.Chain7

open Cert.RealSpec (IsReal)
open Cert.ChainDefs
open Idealize.ShloMosaic Idealize.ShloMosaic.TcCoe Idealize.ShloMosaic.StableHlo

variable [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The hop's row of a stacked parameter, read at column q, is the hop's vector of it at q: the row is the vector laid out
    as a row. -/
theorem row_eq_vec (p : Vec Ideal Cert.KernelIdeal.S3x128 .f32) (q : Fin 128) :
    Cert.KernelIdeal.HostStats15.rowOf (F := Ideal) p (ValueIdx.ix2 (0 : Fin 1) q)
      = Cert.ReferenceIdeal.RefKinds.refVec2 (F := Ideal) p (ValueIdx.ix1 q) :=
  ValueIdx.shapeCast_a_1a_apply _ _ (0 : Fin 1) q

/-- STAGE 7: the two hop outputs are equal, and every entry is a real number, given the same of the earlier stages'
    arrays this hop reads. -/
theorem inv7 (hpre : Cert.Pre_KernelIdeal m) (hag : Cert.Chain0.Agree m m') (c : Dev Cert.KernelIdeal.nD)
    (h6 : Inv6 m ρ m' c) (h4 : Inv4 m ρ m' c) (h0 : Inv0 m ρ m' c) : Inv7 m ρ m' c := by
  -- the reference's earlier arrays are the kernel's, by the invariants of the earlier stages
  have esrc : Cert.ReferenceIdeal.RefChain7.src (U5 m' c) = Cert.KernelChain7.prev m ρ c := (Cert.RefSide.src7 m' c).trans (funext h6.1).symm
  have ebin : Cert.ReferenceIdeal.RefChain7.bin (U5 m' c) = Cert.KernelChain7.blockIn m ρ c :=
    (Cert.RefSide.bin7 m' c).trans
      (congrArg₂ (fun a b => addf (F := Ideal) (s := Cert.KernelIdeal.S100000x128) (φ := .f32) a b) (funext h4.1).symm (funext h0.1).symm)
  -- the reference's edge lists and parameters are the kernel's: no list of operations writes them, and the two memories
  -- agree on the arguments
  have e1 : U5 m' c (Proc.devRef .tc Cert.ReferenceIdeal.main_arg1) = Cert.KernelChain7.src m c :=
    (Cert.RefSide.arg1_at5 m' c).trans (hag.arg1 c)
  have e2 : U5 m' c (Proc.devRef .tc Cert.ReferenceIdeal.main_arg2) = Cert.KernelChain7.dst m c :=
    (Cert.RefSide.arg2_at5 m' c).trans (hag.arg2 c)
  have e8 : U5 m' c (Proc.devRef .tc Cert.ReferenceIdeal.main_arg8) = Cert.KernelChain7.convW m c :=
    (Cert.RefSide.arg8_at5 m' c).trans (hag.arg8 c)
  have e9 : U5 m' c (Proc.devRef .tc Cert.ReferenceIdeal.main_arg9) = Cert.KernelChain7.convB m c :=
    (Cert.RefSide.arg9_at5 m' c).trans (hag.arg9 c)
  have e10 : U5 m' c (Proc.devRef .tc Cert.ReferenceIdeal.main_arg10) = Cert.KernelChain7.bnG m c :=
    (Cert.RefSide.arg10_at5 m' c).trans (hag.arg10 c)
  have e11 : U5 m' c (Proc.devRef .tc Cert.ReferenceIdeal.main_arg11) = Cert.KernelChain7.bnB m c :=
    (Cert.RefSide.arg11_at5 m' c).trans (hag.arg11 c)
  -- so the two linear stages are one array: the neighbour sum, the weight square and the bias row are the same words
  have ey : Cert.ReferenceIdeal.RefChain7.y (U5 m' c) = Cert.KernelChain7.y m ρ c := by
    funext r q
    show StageSpec.linAdd
        (Cert.ReferenceIdeal.RefKinds.refPooled (Cert.ReferenceIdeal.RefChain7.src (U5 m' c))
          (U5 m' c (Proc.devRef .tc Cert.ReferenceIdeal.main_arg1)) (U5 m' c (Proc.devRef .tc Cert.ReferenceIdeal.main_arg2)))
        (Cert.ReferenceIdeal.RefChain7.bin (U5 m' c))
        (Cert.ReferenceIdeal.RefKinds.refW2 (U5 m' c (Proc.devRef .tc Cert.ReferenceIdeal.main_arg8)))
        (Cert.ReferenceIdeal.RefKinds.refRow2 (U5 m' c (Proc.devRef .tc Cert.ReferenceIdeal.main_arg9))) r q = _
    rw [esrc, ebin, e1, e2, e8, e9]
    rfl
  -- the reference's scale and shift at column q are the kernel's rows' entries
  have eg : ∀ q : Fin 128, Cert.ReferenceIdeal.RefChain7.g (U5 m' c) (ValueIdx.ix1 q) = Cert.KernelChain7.g m c (ValueIdx.ix2 (0 : Fin 1) q) := fun q => by
    show Cert.ReferenceIdeal.RefKinds.refVec2 (U5 m' c (Proc.devRef .tc Cert.ReferenceIdeal.main_arg10)) (ValueIdx.ix1 q) = _
    rw [e10]
    exact (row_eq_vec (Cert.KernelChain7.bnG m c) q).symm
  have eβ : ∀ q : Fin 128, Cert.ReferenceIdeal.RefChain7.β (U5 m' c) (ValueIdx.ix1 q) = Cert.KernelChain7.β m c (ValueIdx.ix2 (0 : Fin 1) q) := fun q => by
    show Cert.ReferenceIdeal.RefKinds.refVec2 (U5 m' c (Proc.devRef .tc Cert.ReferenceIdeal.main_arg11)) (ValueIdx.ix1 q) = _
    rw [e11]
    exact (row_eq_vec (Cert.KernelChain7.bnB m c) q).symm
  -- the join: on real data the two variances are one number
  exact Cert.HopJoin.join (kOut7 m ρ c) (rOut7 m' c) (Cert.KernelChain7.y m ρ c) (Cert.ReferenceIdeal.RefChain7.y (U5 m' c))
    (fun q => Cert.KernelChain7.g m c (ValueIdx.ix2 (0 : Fin 1) q)) (fun q => Cert.KernelChain7.β m c (ValueIdx.ix2 (0 : Fin 1) q))
    (fun q => Cert.ReferenceIdeal.RefChain7.g (U5 m' c) (ValueIdx.ix1 q)) (fun q => Cert.ReferenceIdeal.RefChain7.β (U5 m' c) (ValueIdx.ix1 q))
    (Cert.KernelChain7.kernel_out_apply m ρ c) (Cert.ReferenceIdeal.RefChain7.out_apply (U5 m' c)) ey eg eβ
    (Cert.KernelChain7.y_isReal m ρ hpre c h6.2 h4.2 h0.2) (Cert.KernelChain7.g_isReal m hpre c) (Cert.KernelChain7.β_isReal m hpre c)

end Cert.Chain7

end
-- ==== Proof.ValTriple16.lean ====
/-
  Region 16: the projection of a block's three hops with its column statistics. At each grid point the body multiplies a block
  of 5000 rows of each hop's output by that hop's slice of the projection matrix, adds the three products in order and then the
  bias row, stores that block, and adds the block's column sums and column sums of squares to two carried rows the first point
  has set to zero. The blocks tile the rows and the carried rows end as sums over all rows: a sum over 100000 rows regrouped as
  twenty runs of 5000, which is a matter of the order of a finite sum only.
-/
import proofs.«414479_j7705171329025_1_alg».proof.Proof.FrameKI.R16
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValTriple16

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. The block of values is computed from the three input blocks, each next to its
  slice of the matrix, and the bias row. At the first point the two carried rows are first set to zero and then read back,
  so the running rows it leaves are the block's sums added to zero; at the other points they are added to what the rows
  held. The column-sum row is read once before the block's sum is added to it, and that reading is passed on unchanged. -/

section Pieces

variable {F : FTy → Type} [FloatOps F]

theorem outA7 (c : Dev nD) (i : grid16.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : cond16_0 i)
    (x0 x1 x2 : Vec F S5000x128 .f32) (x3 x4 x5 : Vec F S128x128 .f32) (x6 : Vec F S1x128 .f32) :
    out16_A_7 c i a1 h1 a2 h2 a3 h3 a4 h4 a5 h5 a6 h6 a7 h7 a8 h8 a9 h9 a10 h10 hc x0 x1 x2 x3 x4 x5 x6 = k16_pay5 x0 x3 x1 x4 x2 x5 x6 := by
  unfold out16_A_7
  rw [View.read_writes_eq_canon _ _ _ (cover16_A_7 c i a1 h1 a2 h2 a3 h3 a4 h4 a5 h5 a6 h6 a7 h7 a8 h8 a9 h9 a10 h10 hc x0 x1 x2 x3 x4 x5 x6)]
  unfold kernelRun16_A
  dsimp only
  (try sl_unfold_words)
  rw [View.canon_unit_zero hz]
  simp only [View.readAt_eq_ld, h1.read_unread, h2.read_unread, h3.read_unread, h4.read_unread, h5.read_unread, h6.read_unread, h7.read_unread,
    View.ld_unit_zero (S := S5000x128) hz, View.ld_unit_zero (S := S128x128) hz, View.ld_unit_zero (S := S1x128) hz]

theorem outA8 (c : Dev nD) (i : grid16.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : cond16_0 i)
    (x0 x1 x2 : Vec F S5000x128 .f32) (x3 x4 x5 : Vec F S128x128 .f32) (x6 : Vec F S1x128 .f32) :
    out16_A_8 c i a1 h1 a2 h2 a3 h3 a4 h4 a5 h5 a6 h6 a7 h7 a8 h8 a9 h9 a10 h10 hc x0 x1 x2 x3 x4 x5 x6 = k16_pay1 (k16_pay5 x0 x3 x1 x4 x2 x5 x6) (k16_pay6 (k16_pay3 (F := F))) := by
  unfold out16_A_8
  rw [View.read_writes_eq_canon _ _ _ (cover16_A_8 c i a1 h1 a2 h2 a3 h3 a4 h4 a5 h5 a6 h6 a7 h7 a8 h8 a9 h9 a10 h10 hc x0 x1 x2 x3 x4 x5 x6)]
  unfold kernelRun16_A
  dsimp only
  (try sl_unfold_words)
  rw [View.canon_cons_unit_zero (S := S1x128) hz]
  simp only [View.readAt_eq_ld, h1.read_unread, h2.read_unread, h3.read_unread, h4.read_unread, h5.read_unread, h6.read_unread, h7.read_unread, View.readCov_unit_zero (S := S1x128) _ hz,
    View.ld_unit_zero (S := S5000x128) hz, View.ld_unit_zero (S := S128x128) hz, View.ld_unit_zero (S := S1x128) hz]

theorem outA9 (c : Dev nD) (i : grid16.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : cond16_0 i)
    (x0 x1 x2 : Vec F S5000x128 .f32) (x3 x4 x5 : Vec F S128x128 .f32) (x6 : Vec F S1x128 .f32) :
    out16_A_9 c i a1 h1 a2 h2 a3 h3 a4 h4 a5 h5 a6 h6 a7 h7 a8 h8 a9 h9 a10 h10 hc x0 x1 x2 x3 x4 x5 x6 = k16_pay2 (k16_pay5 x0 x3 x1 x4 x2 x5 x6) (k16_pay4 (F := F)) := by
  unfold out16_A_9
  rw [View.read_writes_eq_canon _ _ _ (cover16_A_9 c i a1 h1 a2 h2 a3 h3 a4 h4 a5 h5 a6 h6 a7 h7 a8 h8 a9 h9 a10 h10 hc x0 x1 x2 x3 x4 x5 x6)]
  unfold kernelRun16_A
  dsimp only
  (try sl_unfold_words)
  rw [View.canon_cons_unit_zero (S := S1x128) hz]
  simp only [View.readAt_eq_ld, h1.read_unread, h2.read_unread, h3.read_unread, h4.read_unread, h5.read_unread, h6.read_unread, h7.read_unread, View.readCov_unit_zero (S := S1x128) _ hz,
    View.ld_unit_zero (S := S5000x128) hz, View.ld_unit_zero (S := S128x128) hz, View.ld_unit_zero (S := S1x128) hz]

theorem outB7 (c : Dev nD) (i : grid16.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : ¬cond16_0 i)
    (x0 x1 x2 : Vec F S5000x128 .f32) (x3 x4 x5 : Vec F S128x128 .f32) (x6 : Vec F S1x128 .f32) (xo8 xo9 : Vec F S1x128 .f32) :
    out16_B_7 c i a1 h1 a2 h2 a3 h3 a4 h4 a5 h5 a6 h6 a7 h7 a8 h8 a9 h9 a10 h10 hc x0 x1 x2 x3 x4 x5 x6 xo8 xo9 = k16_pay5 x0 x3 x1 x4 x2 x5 x6 := by
  unfold out16_B_7
  rw [View.read_writes_eq_canon _ _ _ (cover16_B_7 c i a1 h1 a2 h2 a3 h3 a4 h4 a5 h5 a6 h6 a7 h7 a8 h8 a9 h9 a10 h10 hc x0 x1 x2 x3 x4 x5 x6 xo8 xo9)]
  unfold kernelRun16_B
  dsimp only
  (try sl_unfold_words)
  rw [View.canon_unit_zero hz]
  simp only [View.readAt_eq_ld, h1.read_unread, h2.read_unread, h3.read_unread, h4.read_unread, h5.read_unread, h6.read_unread, h7.read_unread, h9.read_unread, h10.read_unread,
    View.ld_unit_zero (S := S5000x128) hz, View.ld_unit_zero (S := S128x128) hz, View.ld_unit_zero (S := S1x128) hz]

theorem outB8 (c : Dev nD) (i : grid16.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : ¬cond16_0 i)
    (x0 x1 x2 : Vec F S5000x128 .f32) (x3 x4 x5 : Vec F S128x128 .f32) (x6 : Vec F S1x128 .f32) (xo8 xo9 : Vec F S1x128 .f32) :
    out16_B_8 c i a1 h1 a2 h2 a3 h3 a4 h4 a5 h5 a6 h6 a7 h7 a8 h8 a9 h9 a10 h10 hc x0 x1 x2 x3 x4 x5 x6 xo8 xo9 = k16_pay1 (k16_pay5 x0 x3 x1 x4 x2 x5 x6) (k16_pay6 xo8) := by
  unfold out16_B_8
  rw [View.read_writes_eq_canon _ _ _ (cover16_B_8 c i a1 h1 a2 h2 a3 h3 a4 h4 a5 h5 a6 h6 a7 h7 a8 h8 a9 h9 a10 h10 hc x0 x1 x2 x3 x4 x5 x6 xo8 xo9)]
  unfold kernelRun16_B
  dsimp only
  (try sl_unfold_words)
  rw [View.canon_unit_zero hz]
  simp only [View.readAt_eq_ld, h1.read_unread, h2.read_unread, h3.read_unread, h4.read_unread, h5.read_unread, h6.read_unread, h7.read_unread, h9.read_unread, h10.read_unread,
    View.ld_unit_zero (S := S5000x128) hz, View.ld_unit_zero (S := S128x128) hz, View.ld_unit_zero (S := S1x128) hz]

theorem outB9 (c : Dev nD) (i : grid16.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : ¬cond16_0 i)
    (x0 x1 x2 : Vec F S5000x128 .f32) (x3 x4 x5 : Vec F S128x128 .f32) (x6 : Vec F S1x128 .f32) (xo8 xo9 : Vec F S1x128 .f32) :
    out16_B_9 c i a1 h1 a2 h2 a3 h3 a4 h4 a5 h5 a6 h6 a7 h7 a8 h8 a9 h9 a10 h10 hc x0 x1 x2 x3 x4 x5 x6 xo8 xo9 = k16_pay2 (k16_pay5 x0 x3 x1 x4 x2 x5 x6) xo9 := by
  unfold out16_B_9
  rw [View.read_writes_eq_canon _ _ _ (cover16_B_9 c i a1 h1 a2 h2 a3 h3 a4 h4 a5 h5 a6 h6 a7 h7 a8 h8 a9 h9 a10 h10 hc x0 x1 x2 x3 x4 x5 x6 xo8 xo9)]
  unfold kernelRun16_B
  dsimp only
  (try sl_unfold_words)
  rw [View.canon_unit_zero hz]
  simp only [View.readAt_eq_ld, h1.read_unread, h2.read_unread, h3.read_unread, h4.read_unread, h5.read_unread, h6.read_unread, h7.read_unread, h9.read_unread, h10.read_unread,
    View.ld_unit_zero (S := S5000x128) hz, View.ld_unit_zero (S := S128x128) hz, View.ld_unit_zero (S := S1x128) hz]

end Pieces

/-- The carried row as it is passed on after its reading: the reading itself. -/
theorem pay6_apply (acc : Vec Ideal S1x128 .f32) (u : Fin 1) (q : Fin 128) :
    k16_pay6 (F := Ideal) acc (ix2 u q) = acc (ix2 u q) := by
  unfold k16_pay6
  exact congrFun (shapeCast_self acc _) _

variable (V : (c : Dev nD) → (b : Ref sig .tc) → Buf (Elt Ideal) ((c : Thread nD τ).loc b))

/-- The region's input arrays as it finds them, each at its literal type. -/
abbrev x0Arr (c : Dev nD) : Vec Ideal S100000x128 .f32 := V c (Pipeline.arrRef spec16 0)
abbrev x1Arr (c : Dev nD) : Vec Ideal S100000x128 .f32 := V c (Pipeline.arrRef spec16 1)
abbrev x2Arr (c : Dev nD) : Vec Ideal S100000x128 .f32 := V c (Pipeline.arrRef spec16 2)
abbrev w0Arr (c : Dev nD) : Vec Ideal S128x128 .f32 := V c (Pipeline.arrRef spec16 3)
abbrev w1Arr (c : Dev nD) : Vec Ideal S128x128 .f32 := V c (Pipeline.arrRef spec16 4)
abbrev w2Arr (c : Dev nD) : Vec Ideal S128x128 .f32 := V c (Pipeline.arrRef spec16 5)
abbrev bRow (c : Dev nD) : Vec Ideal S1x128 .f32 := V c (Pipeline.arrRef spec16 6)

/-- One entry of the linear stage on the region's arrays. -/
def y (c : Dev nD) (r : Fin 100000) (q : Fin 128) : EReal :=
  lin3 (x0Arr V c) (x1Arr V c) (x2Arr V c) (w0Arr V c) (w1Arr V c) (w2Arr V c) (bRow V c) r q

/-- What the region leaves in its three output arrays. -/
def resultY (c : Dev nD) : Vec Ideal S100000x128 .f32 := fun i => y V c (i 0) (i 1)
def resultSum (c : Dev nD) : Vec Ideal S1x128 .f32 := fun i => colSum (y V c) (i 1)
def resultSumSq (c : Dev nD) : Vec Ideal S1x128 .f32 := fun i => colSumSq (y V c) (i 1)

/-! ## Where each window's block lies, and what the input blocks read -/

/-- The seven input blocks at a point, each at its literal type. -/
abbrev x0Blk (c : Dev nD) (t : Fin cfg16.N) : Vec Ideal S5000x128 .f32 := iblk16 V c 0 t
abbrev x1Blk (c : Dev nD) (t : Fin cfg16.N) : Vec Ideal S5000x128 .f32 := iblk16 V c 1 t
abbrev x2Blk (c : Dev nD) (t : Fin cfg16.N) : Vec Ideal S5000x128 .f32 := iblk16 V c 2 t
abbrev w0Blk (c : Dev nD) (t : Fin cfg16.N) : Vec Ideal S128x128 .f32 := iblk16 V c 3 t
abbrev w1Blk (c : Dev nD) (t : Fin cfg16.N) : Vec Ideal S128x128 .f32 := iblk16 V c 4 t
abbrev w2Blk (c : Dev nD) (t : Fin cfg16.N) : Vec Ideal S128x128 .f32 := iblk16 V c 5 t
abbrev bBlk (c : Dev nD) (t : Fin cfg16.N) : Vec Ideal S1x128 .f32 := iblk16 V c 6 t

/-- The block each of the three tall input windows takes at a point, decided over the twenty points: block `t` along the rows. -/
theorem idx_x : ∀ t : Fin cfg16.N,
    win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0 :=
  (by decide +kernel : ∀ t : Fin grid16.N, _)

/-- The three slices of the matrix and the bias row are each their own one block throughout. -/
theorem idx_w : ∀ t : Fin cfg16.N,
    win16_3.index t (0 : Fin 2) = 0 ∧ win16_3.index t (1 : Fin 2) = 0
    ∧ win16_4.index t (0 : Fin 2) = 0 ∧ win16_4.index t (1 : Fin 2) = 0
    ∧ win16_5.index t (0 : Fin 2) = 0 ∧ win16_5.index t (1 : Fin 2) = 0
    ∧ win16_6.index t (0 : Fin 2) = 0 ∧ win16_6.index t (1 : Fin 2) = 0 :=
  (by decide +kernel : ∀ t : Fin grid16.N, _)

/-- The tall output window takes block `t` along the rows, and each of the two carried rows is its own one block throughout. -/
theorem idx_o : ∀ t : Fin cfg16.N,
    win16_7.index t (0 : Fin 2) = t.val ∧ win16_7.index t (1 : Fin 2) = 0
    ∧ win16_8.index t (0 : Fin 2) = 0 ∧ win16_8.index t (1 : Fin 2) = 0
    ∧ win16_9.index t (0 : Fin 2) = 0 ∧ win16_9.index t (1 : Fin 2) = 0 :=
  (by decide +kernel : ∀ t : Fin grid16.N, _)

/-- The first hop's block at point `t`, read at (p, j), is its array at row 5000·t + p, column j. -/
theorem x0_apply (c : Dev nD) (t : Fin cfg16.N) (p : Fin 5000) (j : Fin 128) (h : t.val * 5000 + p.val < 100000) :
    x0Blk V c t (ix2 p j) = x0Arr V c (ix2 ⟨t.val * 5000 + p.val, h⟩ j) := by
  obtain ⟨e00, e01, e10, e11, e20, e21⟩ := idx_x t
  unfold x0Blk iblk16
  rw [View.read_apply]
  show x0Arr V c (((cfg16.win 0).blk t).view.emb (ix2 p j)) = _
  refine congrArg (x0Arr V c) ?_
  funext a; apply Fin.ext
  match a with
  | ⟨0, _⟩ => show win16_0.index t (0 : Fin 2) * 5000 + 1 * p.val = t.val * 5000 + p.val; omega
  | ⟨1, _⟩ => show win16_0.index t (1 : Fin 2) * 128 + 1 * j.val = j.val; omega

/-- The second hop's block at point `t`, read at (p, j), is its array at row 5000·t + p, column j. -/
theorem x1_apply (c : Dev nD) (t : Fin cfg16.N) (p : Fin 5000) (j : Fin 128) (h : t.val * 5000 + p.val < 100000) :
    x1Blk V c t (ix2 p j) = x1Arr V c (ix2 ⟨t.val * 5000 + p.val, h⟩ j) := by
  obtain ⟨e00, e01, e10, e11, e20, e21⟩ := idx_x t
  unfold x1Blk iblk16
  rw [View.read_apply]
  show x1Arr V c (((cfg16.win 1).blk t).view.emb (ix2 p j)) = _
  refine congrArg (x1Arr V c) ?_
  funext a; apply Fin.ext
  match a with
  | ⟨0, _⟩ => show win16_1.index t (0 : Fin 2) * 5000 + 1 * p.val = t.val * 5000 + p.val; omega
  | ⟨1, _⟩ => show win16_1.index t (1 : Fin 2) * 128 + 1 * j.val = j.val; omega

/-- The third hop's block at point `t`, read at (p, j), is its array at row 5000·t + p, column j. -/
theorem x2_apply (c : Dev nD) (t : Fin cfg16.N) (p : Fin 5000) (j : Fin 128) (h : t.val * 5000 + p.val < 100000) :
    x2Blk V c t (ix2 p j) = x2Arr V c (ix2 ⟨t.val * 5000 + p.val, h⟩ j) := by
  obtain ⟨e00, e01, e10, e11, e20, e21⟩ := idx_x t
  unfold x2Blk iblk16
  rw [View.read_apply]
  show x2Arr V c (((cfg16.win 2).blk t).view.emb (ix2 p j)) = _
  refine congrArg (x2Arr V c) ?_
  funext a; apply Fin.ext
  match a with
  | ⟨0, _⟩ => show win16_2.index t (0 : Fin 2) * 5000 + 1 * p.val = t.val * 5000 + p.val; omega
  | ⟨1, _⟩ => show win16_2.index t (1 : Fin 2) * 128 + 1 * j.val = j.val; omega

/-- The first slice of the matrix, at every point, is the slice. -/
theorem w0_apply (c : Dev nD) (t : Fin cfg16.N) (j : Fin 128) (q : Fin 128) :
    w0Blk V c t (ix2 j q) = w0Arr V c (ix2 j q) := by
  obtain ⟨e30, e31, e40, e41, e50, e51, e60, e61⟩ := idx_w t
  unfold w0Blk iblk16
  rw [View.read_apply]
  show w0Arr V c (((cfg16.win 3).blk t).view.emb (ix2 j q)) = _
  refine congrArg (w0Arr V c) ?_
  funext a; apply Fin.ext
  match a with
  | ⟨0, _⟩ => show win16_3.index t (0 : Fin 2) * 128 + 1 * j.val = j.val; omega
  | ⟨1, _⟩ => show win16_3.index t (1 : Fin 2) * 128 + 1 * q.val = q.val; omega

/-- The second slice of the matrix, at every point, is the slice. -/
theorem w1_apply (c : Dev nD) (t : Fin cfg16.N) (j : Fin 128) (q : Fin 128) :
    w1Blk V c t (ix2 j q) = w1Arr V c (ix2 j q) := by
  obtain ⟨e30, e31, e40, e41, e50, e51, e60, e61⟩ := idx_w t
  unfold w1Blk iblk16
  rw [View.read_apply]
  show w1Arr V c (((cfg16.win 4).blk t).view.emb (ix2 j q)) = _
  refine congrArg (w1Arr V c) ?_
  funext a; apply Fin.ext
  match a with
  | ⟨0, _⟩ => show win16_4.index t (0 : Fin 2) * 128 + 1 * j.val = j.val; omega
  | ⟨1, _⟩ => show win16_4.index t (1 : Fin 2) * 128 + 1 * q.val = q.val; omega

/-- The third slice of the matrix, at every point, is the slice. -/
theorem w2_apply (c : Dev nD) (t : Fin cfg16.N) (j : Fin 128) (q : Fin 128) :
    w2Blk V c t (ix2 j q) = w2Arr V c (ix2 j q) := by
  obtain ⟨e30, e31, e40, e41, e50, e51, e60, e61⟩ := idx_w t
  unfold w2Blk iblk16
  rw [View.read_apply]
  show w2Arr V c (((cfg16.win 5).blk t).view.emb (ix2 j q)) = _
  refine congrArg (w2Arr V c) ?_
  funext a; apply Fin.ext
  match a with
  | ⟨0, _⟩ => show win16_5.index t (0 : Fin 2) * 128 + 1 * j.val = j.val; omega
  | ⟨1, _⟩ => show win16_5.index t (1 : Fin 2) * 128 + 1 * q.val = q.val; omega

/-- The bias row's block, at every point, is the row. -/
theorem b_apply (c : Dev nD) (t : Fin cfg16.N) (q : Fin 128) :
    bBlk V c t (ix2 (0 : Fin 1) q) = bRow V c (ix2 (0 : Fin 1) q) := by
  obtain ⟨e30, e31, e40, e41, e50, e51, e60, e61⟩ := idx_w t
  unfold bBlk iblk16
  rw [View.read_apply]
  show bRow V c (((cfg16.win 6).blk t).view.emb (ix2 (0 : Fin 1) q)) = _
  refine congrArg (bRow V c) ?_
  funext a; apply Fin.ext
  match a with
  | ⟨0, _⟩ => show win16_6.index t (0 : Fin 2) * 1 + 1 * 0 = 0; omega
  | ⟨1, _⟩ => show win16_6.index t (1 : Fin 2) * 128 + 1 * q.val = q.val; omega

/-- The block of values a point computes, at (p, q), is the projection's entry of row 5000·t + p, column q. -/
theorem pay5_point (c : Dev nD) (t : Fin cfg16.N) (p : Fin 5000) (q : Fin 128) (h : t.val * 5000 + p.val < 100000) :
    k16_pay5 (F := Ideal) (x0Blk V c t) (w0Blk V c t) (x1Blk V c t) (w1Blk V c t) (x2Blk V c t) (w2Blk V c t) (bBlk V c t) (ix2 p q)
      = y V c ⟨t.val * 5000 + p.val, h⟩ q := by
  refine (PayLinear.k8_pay5_apply (x0Blk V c t) (w0Blk V c t) (x1Blk V c t) (w1Blk V c t) (x2Blk V c t) (w2Blk V c t) (bBlk V c t) p q).trans ?_
  unfold y lin3
  refine congrArg₂ (fun a b : EReal => a + b) ?_ (b_apply V c t q)
  refine congrArg₂ (fun a b : EReal => a + b) (congrArg₂ (fun a b : EReal => a + b) ?_ ?_) ?_
  · exact Finset.sum_congr rfl fun j _ => congrArg₂ (fun a b : EReal => a * b) (x0_apply V c t p j h) (w0_apply V c t j q)
  · exact Finset.sum_congr rfl fun j _ => congrArg₂ (fun a b : EReal => a * b) (x1_apply V c t p j h) (w1_apply V c t j q)
  · exact Finset.sum_congr rfl fun j _ => congrArg₂ (fun a b : EReal => a * b) (x2_apply V c t p j h) (w2_apply V c t j q)

/-! ## What the three output buffers hold after each point -/

/-- The output block after any point is the block of values the point computes. -/
theorem outs7_eq (c : Dev nD) (t : Fin cfg16.N) :
    (outsAt16 V c t.val t.isLt).1 = k16_pay5 (F := Ideal) (x0Blk V c t) (w0Blk V c t) (x1Blk V c t) (w1Blk V c t) (x2Blk V c t) (w2Blk V c t) (bBlk V c t) := by
  by_cases h0 : t.val % 20 = 0
  · rw [outsAt16_A V c t h0]
    dsimp only
    exact outA7 (F := Ideal) c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) (ms16_8 t) (hs16_8 t) (ms16_9 t) (hs16_9 t)
      ((hcond16_0 t).mpr h0) (iblk16 V c 0 t) (iblk16 V c 1 t) (iblk16 V c 2 t) (iblk16 V c 3 t) (iblk16 V c 4 t) (iblk16 V c 5 t) (iblk16 V c 6 t)
  · rw [outsAt16_B V c t h0]
    dsimp only
    exact outB7 (F := Ideal) c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) (ms16_8 t) (hs16_8 t) (ms16_9 t) (hs16_9 t)
      (fun h => h0 ((hcond16_0 t).mp h)) (iblk16 V c 0 t) (iblk16 V c 1 t) (iblk16 V c 2 t) (iblk16 V c 3 t) (iblk16 V c 4 t) (iblk16 V c 5 t) (iblk16 V c 6 t)
      (outsAt16 V c (t.val - 1) (Nat.lt_of_le_of_lt (Nat.sub_le _ _) t.isLt)).2.1
      (outsAt16 V c (t.val - 1) (Nat.lt_of_le_of_lt (Nat.sub_le _ _) t.isLt)).2.2

/-- The carried column sum at column `q`, after point `t`. -/
def accSum (c : Dev nD) (u : Fin 1) (q : Fin 128) : (t : ℕ) → t < 20 → EReal :=
  fun t ht => (outsAt16 V c t (lt_of_lt_of_eq ht N_16.symm)).2.1 (ix2 u q)

/-- At the first point it is the stored zero plus the block's column sum. -/
theorem accSum_first (c : Dev nD) (u : Fin 1) (q : Fin 128) (t : ℕ) (ht : t < 20) (h0 : t % 20 = 0) :
    accSum V c u q t ht = (k16_pay3 (F := Ideal)) (ix2 u q)
      + ∑ p : Fin 5000, y V c ⟨t * 5000 + p.val, by have := p.isLt; omega⟩ q := by
  have ht' : t < cfg16.N := lt_of_lt_of_eq ht N_16.symm
  show (outsAt16 V c (⟨t, ht'⟩ : Fin cfg16.N).val (⟨t, ht'⟩ : Fin cfg16.N).isLt).2.1 (ix2 u q) = _
  rw [outsAt16_A V c ⟨t, ht'⟩ h0]
  dsimp only
  refine (congrFun (outA8 (F := Ideal) c (grid16.coords ⟨t, ht'⟩) (ms16_0 ⟨t, ht'⟩) (hs16_0 ⟨t, ht'⟩) (ms16_1 ⟨t, ht'⟩) (hs16_1 ⟨t, ht'⟩) (ms16_2 ⟨t, ht'⟩) (hs16_2 ⟨t, ht'⟩) (ms16_3 ⟨t, ht'⟩) (hs16_3 ⟨t, ht'⟩) (ms16_4 ⟨t, ht'⟩) (hs16_4 ⟨t, ht'⟩) (ms16_5 ⟨t, ht'⟩) (hs16_5 ⟨t, ht'⟩) (ms16_6 ⟨t, ht'⟩) (hs16_6 ⟨t, ht'⟩) (ms16_7 ⟨t, ht'⟩) (hs16_7 ⟨t, ht'⟩) (ms16_8 ⟨t, ht'⟩) (hs16_8 ⟨t, ht'⟩) (ms16_9 ⟨t, ht'⟩) (hs16_9 ⟨t, ht'⟩)
    ((hcond16_0 ⟨t, ht'⟩).mpr h0) (iblk16 V c 0 ⟨t, ht'⟩) (iblk16 V c 1 ⟨t, ht'⟩) (iblk16 V c 2 ⟨t, ht'⟩) (iblk16 V c 3 ⟨t, ht'⟩) (iblk16 V c 4 ⟨t, ht'⟩) (iblk16 V c 5 ⟨t, ht'⟩) (iblk16 V c 6 ⟨t, ht'⟩)) (ix2 u q)).trans ?_
  refine (PayLinear.k8_pay1_apply (k16_pay5 (F := Ideal) (x0Blk V c ⟨t, ht'⟩) (w0Blk V c ⟨t, ht'⟩) (x1Blk V c ⟨t, ht'⟩) (w1Blk V c ⟨t, ht'⟩) (x2Blk V c ⟨t, ht'⟩) (w2Blk V c ⟨t, ht'⟩) (bBlk V c ⟨t, ht'⟩)) (k16_pay6 (k16_pay3 (F := Ideal))) u q).trans ?_
  refine congrArg₂ (fun a s : EReal => a + s) (pay6_apply (k16_pay3 (F := Ideal)) u q) (Finset.sum_congr rfl fun p _ => ?_)
  exact pay5_point V c ⟨t, ht'⟩ p q _

/-- At any other point it is what the point before left plus the block's column sum. -/
theorem accSum_step (c : Dev nD) (u : Fin 1) (q : Fin 128) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg16.N := lt_of_lt_of_eq ht N_16.symm
  show (outsAt16 V c (⟨t, ht'⟩ : Fin cfg16.N).val (⟨t, ht'⟩ : Fin cfg16.N).isLt).2.1 (ix2 u q) = _
  rw [outsAt16_B V c ⟨t, ht'⟩ h0]
  dsimp only
  refine (congrFun (outB8 (F := Ideal) c (grid16.coords ⟨t, ht'⟩) (ms16_0 ⟨t, ht'⟩) (hs16_0 ⟨t, ht'⟩) (ms16_1 ⟨t, ht'⟩) (hs16_1 ⟨t, ht'⟩) (ms16_2 ⟨t, ht'⟩) (hs16_2 ⟨t, ht'⟩) (ms16_3 ⟨t, ht'⟩) (hs16_3 ⟨t, ht'⟩) (ms16_4 ⟨t, ht'⟩) (hs16_4 ⟨t, ht'⟩) (ms16_5 ⟨t, ht'⟩) (hs16_5 ⟨t, ht'⟩) (ms16_6 ⟨t, ht'⟩) (hs16_6 ⟨t, ht'⟩) (ms16_7 ⟨t, ht'⟩) (hs16_7 ⟨t, ht'⟩) (ms16_8 ⟨t, ht'⟩) (hs16_8 ⟨t, ht'⟩) (ms16_9 ⟨t, ht'⟩) (hs16_9 ⟨t, ht'⟩)
    (fun h => h0 ((hcond16_0 ⟨t, ht'⟩).mp h)) (iblk16 V c 0 ⟨t, ht'⟩) (iblk16 V c 1 ⟨t, ht'⟩) (iblk16 V c 2 ⟨t, ht'⟩) (iblk16 V c 3 ⟨t, ht'⟩) (iblk16 V c 4 ⟨t, ht'⟩) (iblk16 V c 5 ⟨t, ht'⟩) (iblk16 V c 6 ⟨t, ht'⟩)
    (outsAt16 V c ((⟨t, ht'⟩ : Fin cfg16.N).val - 1) (Nat.lt_of_le_of_lt (Nat.sub_le _ _) (⟨t, ht'⟩ : Fin cfg16.N).isLt)).2.1
    (outsAt16 V c ((⟨t, ht'⟩ : Fin cfg16.N).val - 1) (Nat.lt_of_le_of_lt (Nat.sub_le _ _) (⟨t, ht'⟩ : Fin cfg16.N).isLt)).2.2) (ix2 u q)).trans ?_
  refine (PayLinear.k8_pay1_apply (k16_pay5 (F := Ideal) (x0Blk V c ⟨t, ht'⟩) (w0Blk V c ⟨t, ht'⟩) (x1Blk V c ⟨t, ht'⟩) (w1Blk V c ⟨t, ht'⟩) (x2Blk V c ⟨t, ht'⟩) (w2Blk V c ⟨t, ht'⟩) (bBlk V c ⟨t, ht'⟩))
    (k16_pay6 (outsAt16 V c ((⟨t, ht'⟩ : Fin cfg16.N).val - 1) (Nat.lt_of_le_of_lt (Nat.sub_le _ _) (⟨t, ht'⟩ : Fin cfg16.N).isLt)).2.1) u q).trans ?_
  refine congrArg₂ (fun a s : EReal => a + s) (pay6_apply (outsAt16 V c ((⟨t, ht'⟩ : Fin cfg16.N).val - 1) (Nat.lt_of_le_of_lt (Nat.sub_le _ _) (⟨t, ht'⟩ : Fin cfg16.N).isLt)).2.1 u q) (Finset.sum_congr rfl fun p _ => ?_)
  exact pay5_point V c ⟨t, ht'⟩ p q _

/-- After the last point it is the column sum over all 100000 rows. -/
theorem accSum_last (c : Dev nD) (u : Fin 1) (q : Fin 128) :
    accSum V c u q 19 (by norm_num) = colSum (y V c) q := by
  refine AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k16_pay3 (F := Ideal)) (ix2 u q)) Ideal.ofBits_zero_f32
    (fun t ht h0 => accSum_first V c u q t ht h0) (fun t ht h0 => accSum_step V c u q t ht h0)

/-- The carried column sum of squares at column `q`, after point `t`. -/
def accSumSq (c : Dev nD) (u : Fin 1) (q : Fin 128) : (t : ℕ) → t < 20 → EReal :=
  fun t ht => (outsAt16 V c t (lt_of_lt_of_eq ht N_16.symm)).2.2 (ix2 u q)

/-- At the first point it is the stored zero plus the block's column sum of squares. -/
theorem accSumSq_first (c : Dev nD) (u : Fin 1) (q : Fin 128) (t : ℕ) (ht : t < 20) (h0 : t % 20 = 0) :
    accSumSq V c u q t ht = (k16_pay4 (F := Ideal)) (ix2 u q)
      + ∑ p : Fin 5000, (y V c ⟨t * 5000 + p.val, by have := p.isLt; omega⟩ q * y V c ⟨t * 5000 + p.val, by have := p.isLt; omega⟩ q) := by
  have ht' : t < cfg16.N := lt_of_lt_of_eq ht N_16.symm
  show (outsAt16 V c (⟨t, ht'⟩ : Fin cfg16.N).val (⟨t, ht'⟩ : Fin cfg16.N).isLt).2.2 (ix2 u q) = _
  rw [outsAt16_A V c ⟨t, ht'⟩ h0]
  dsimp only
  refine (congrFun (outA9 (F := Ideal) c (grid16.coords ⟨t, ht'⟩) (ms16_0 ⟨t, ht'⟩) (hs16_0 ⟨t, ht'⟩) (ms16_1 ⟨t, ht'⟩) (hs16_1 ⟨t, ht'⟩) (ms16_2 ⟨t, ht'⟩) (hs16_2 ⟨t, ht'⟩) (ms16_3 ⟨t, ht'⟩) (hs16_3 ⟨t, ht'⟩) (ms16_4 ⟨t, ht'⟩) (hs16_4 ⟨t, ht'⟩) (ms16_5 ⟨t, ht'⟩) (hs16_5 ⟨t, ht'⟩) (ms16_6 ⟨t, ht'⟩) (hs16_6 ⟨t, ht'⟩) (ms16_7 ⟨t, ht'⟩) (hs16_7 ⟨t, ht'⟩) (ms16_8 ⟨t, ht'⟩) (hs16_8 ⟨t, ht'⟩) (ms16_9 ⟨t, ht'⟩) (hs16_9 ⟨t, ht'⟩)
    ((hcond16_0 ⟨t, ht'⟩).mpr h0) (iblk16 V c 0 ⟨t, ht'⟩) (iblk16 V c 1 ⟨t, ht'⟩) (iblk16 V c 2 ⟨t, ht'⟩) (iblk16 V c 3 ⟨t, ht'⟩) (iblk16 V c 4 ⟨t, ht'⟩) (iblk16 V c 5 ⟨t, ht'⟩) (iblk16 V c 6 ⟨t, ht'⟩)) (ix2 u q)).trans ?_
  refine (PayLinear.k8_pay2_apply (k16_pay5 (F := Ideal) (x0Blk V c ⟨t, ht'⟩) (w0Blk V c ⟨t, ht'⟩) (x1Blk V c ⟨t, ht'⟩) (w1Blk V c ⟨t, ht'⟩) (x2Blk V c ⟨t, ht'⟩) (w2Blk V c ⟨t, ht'⟩) (bBlk V c ⟨t, ht'⟩)) (k16_pay4 (F := Ideal)) u q).trans ?_
  refine congrArg₂ (fun a s : EReal => a + s) rfl (Finset.sum_congr rfl fun p _ => ?_)
  exact congrArg₂ (fun a b : EReal => a * b) (pay5_point V c ⟨t, ht'⟩ p q _) (pay5_point V c ⟨t, ht'⟩ p q _)

/-- At any other point it is what the point before left plus the block's column sum of squares. -/
theorem accSumSq_step (c : Dev nD) (u : Fin 1) (q : Fin 128) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg16.N := lt_of_lt_of_eq ht N_16.symm
  show (outsAt16 V c (⟨t, ht'⟩ : Fin cfg16.N).val (⟨t, ht'⟩ : Fin cfg16.N).isLt).2.2 (ix2 u q) = _
  rw [outsAt16_B V c ⟨t, ht'⟩ h0]
  dsimp only
  refine (congrFun (outB9 (F := Ideal) c (grid16.coords ⟨t, ht'⟩) (ms16_0 ⟨t, ht'⟩) (hs16_0 ⟨t, ht'⟩) (ms16_1 ⟨t, ht'⟩) (hs16_1 ⟨t, ht'⟩) (ms16_2 ⟨t, ht'⟩) (hs16_2 ⟨t, ht'⟩) (ms16_3 ⟨t, ht'⟩) (hs16_3 ⟨t, ht'⟩) (ms16_4 ⟨t, ht'⟩) (hs16_4 ⟨t, ht'⟩) (ms16_5 ⟨t, ht'⟩) (hs16_5 ⟨t, ht'⟩) (ms16_6 ⟨t, ht'⟩) (hs16_6 ⟨t, ht'⟩) (ms16_7 ⟨t, ht'⟩) (hs16_7 ⟨t, ht'⟩) (ms16_8 ⟨t, ht'⟩) (hs16_8 ⟨t, ht'⟩) (ms16_9 ⟨t, ht'⟩) (hs16_9 ⟨t, ht'⟩)
    (fun h => h0 ((hcond16_0 ⟨t, ht'⟩).mp h)) (iblk16 V c 0 ⟨t, ht'⟩) (iblk16 V c 1 ⟨t, ht'⟩) (iblk16 V c 2 ⟨t, ht'⟩) (iblk16 V c 3 ⟨t, ht'⟩) (iblk16 V c 4 ⟨t, ht'⟩) (iblk16 V c 5 ⟨t, ht'⟩) (iblk16 V c 6 ⟨t, ht'⟩)
    (outsAt16 V c ((⟨t, ht'⟩ : Fin cfg16.N).val - 1) (Nat.lt_of_le_of_lt (Nat.sub_le _ _) (⟨t, ht'⟩ : Fin cfg16.N).isLt)).2.1
    (outsAt16 V c ((⟨t, ht'⟩ : Fin cfg16.N).val - 1) (Nat.lt_of_le_of_lt (Nat.sub_le _ _) (⟨t, ht'⟩ : Fin cfg16.N).isLt)).2.2) (ix2 u q)).trans ?_
  refine (PayLinear.k8_pay2_apply (k16_pay5 (F := Ideal) (x0Blk V c ⟨t, ht'⟩) (w0Blk V c ⟨t, ht'⟩) (x1Blk V c ⟨t, ht'⟩) (w1Blk V c ⟨t, ht'⟩) (x2Blk V c ⟨t, ht'⟩) (w2Blk V c ⟨t, ht'⟩) (bBlk V c ⟨t, ht'⟩))
    (outsAt16 V c ((⟨t, ht'⟩ : Fin cfg16.N).val - 1) (Nat.lt_of_le_of_lt (Nat.sub_le _ _) (⟨t, ht'⟩ : Fin cfg16.N).isLt)).2.2 u q).trans ?_
  refine congrArg₂ (fun a s : EReal => a + s) rfl (Finset.sum_congr rfl fun p _ => ?_)
  exact congrArg₂ (fun a b : EReal => a * b) (pay5_point V c ⟨t, ht'⟩ p q _) (pay5_point V c ⟨t, ht'⟩ p q _)

/-- After the last point it is the column sum of squares over all 100000 rows. -/
theorem accSumSq_last (c : Dev nD) (u : Fin 1) (q : Fin 128) :
    accSumSq V c u q 19 (by norm_num) = colSumSq (y V c) q := by
  refine AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k16_pay4 (F := Ideal)) (ix2 u q)) Ideal.ofBits_zero_f32
    (fun t ht h0 => accSumSq_first V c u q t ht h0) (fun t ht h0 => accSumSq_step V c u q t ht h0)

/-! ## From the blocks to the arrays -/

/-- Row `p`, column `q` of the output's block at point `t` is row 5000·t + p, column q of the array: a block's coordinate
    is its index times its extent plus the coordinate inside it. -/
theorem emb_out (t : Fin cfg16.N) (p : Fin 5000) (q : Fin 128) (h : t.val * 5000 + p.val < 100000) :
    ((cfg16.win 7).blk t).view.emb (ix2 p q) = (ix2 ⟨t.val * 5000 + p.val, h⟩ q : S100000x128.Idx) := by
  obtain ⟨e70, e71, e80, e81, e90, e91⟩ := idx_o t
  funext a; apply Fin.ext
  match a with
  | ⟨0, _⟩ => show win16_7.index t (0 : Fin 2) * 5000 + 1 * p.val = t.val * 5000 + p.val; omega
  | ⟨1, _⟩ => show win16_7.index t (1 : Fin 2) * 128 + 1 * q.val = q.val; omega

/-- What point `t` writes back for the output is block `t` of `resultY`. -/
theorem flushed7_eq (c : Dev nD) (t : Fin cfg16.N) :
    (dat16 (F := Ideal) V c).flushed 7 t = ((cfg16.win 7).blk t).view.read (Elt Ideal) (resultY V c) := by
  show (cfg16.win 7).cut (grid16.coords t) ((dat16 V c).after 7 t) = _
  rw [after16_7]
  have ht : t.val < 20 := Nat.lt_of_lt_of_eq t.isLt N_16
  funext j
  obtain ⟨p, q, rfl⟩ : ∃ (p : Fin 5000) (q : Fin 128), j = ix2 p q := ⟨j 0, j 1, eq_ix2 j⟩
  have h : t.val * 5000 + p.val < 100000 := by have := p.isLt; omega
  show (outsAt16 V c t.val t.isLt).1 (ix2 p q) = resultY V c (((cfg16.win 7).blk t).view.emb (ix2 p q))
  refine (congrFun (outs7_eq V c t) (ix2 p q)).trans ?_
  refine (pay5_point V c t p q h).trans ?_
  exact (congrArg (resultY V c) (emb_out t p q h)).symm

/-- An entry of the array lies in point `t`'s block exactly when each of its coordinates lies in the block's range. -/
theorem mem_blk7 (t : Fin cfg16.N) (i : S100000x128.Idx) :
    i ∈ ((cfg16.win 7).blk t).view.set ↔ ∀ a : Fin 2, win16_7.index t a * S5000x128.size a ≤ (i a).val
      ∧ (i a).val < win16_7.index t a * S5000x128.size a + S5000x128.size a := by
  show i ∈ ((View.whole main_v205_0).slice (win16_7.rect t)).set ↔ _
  rw [View.set_slice_whole, Rect.mem_set_unit]
  exact Iff.rfl

/-- The twenty blocks tile the array: row `r` is in the block of point `r / 5000`, and every point writes its block back. -/
theorem cover7 (i : S100000x128.Idx) :
    ∃ t : Fin cfg16.N, (cfg16.win 7).flush t = true ∧ i ∈ ((cfg16.win 7).blk t).view.set := by
  have hi0 : (i 0).val < 100000 := idx2_lt0 i
  have hi1 : (i 1).val < 128 := idx2_lt1 i
  obtain ⟨t, ht⟩ : ∃ t : Fin cfg16.N, t.val = (i 0).val / 5000 :=
    ⟨⟨(i 0).val / 5000, by rw [show cfg16.N = 20 from N_16]; omega⟩, rfl⟩
  obtain ⟨e70, e71, e80, e81, e90, e91⟩ := idx_o t
  refine ⟨t, flush16_7 t, ?_⟩
  rw [mem_blk7]
  intro a
  match a with
  | ⟨0, _⟩ =>
    show win16_7.index t (0 : Fin 2) * 5000 ≤ (i 0).val ∧ (i 0).val < win16_7.index t (0 : Fin 2) * 5000 + 5000
    omega
  | ⟨1, _⟩ =>
    show win16_7.index t (1 : Fin 2) * 128 ≤ (i 1).val ∧ (i 1).val < win16_7.index t (1 : Fin 2) * 128 + 128
    omega

/-- At a point whose number is 19 the carried column sum is the one over all rows. -/
theorem accSum_at_last (c : Dev nD) (u : Fin 1) (q : Fin 128) (n : ℕ) (hn : n < 20) (h19 : n = 19) :
    accSum V c u q n hn = colSum (y V c) q := by
  subst h19
  exact accSum_last V c u q

/-- The carried row of window 8 after the last point is the whole of `resultSum`. -/
theorem outs8_last (c : Dev nD) (t : Fin cfg16.N) (h19 : t.val = 19) :
    (outsAt16 V c t.val t.isLt).2.1 = resultSum V c := by
  funext j
  obtain ⟨u, q, rfl⟩ : ∃ (u : Fin 1) (q : Fin 128), j = ix2 u q := ⟨j 0, j 1, eq_ix2 j⟩
  exact accSum_at_last V c u q t.val (Nat.lt_of_lt_of_eq t.isLt N_16) h19

/-- What the last point writes back for window 8 is the whole of `resultSum`: the window's one block lies at offset zero,
    so it reads the whole row. -/
theorem flushed8_eq (c : Dev nD) (t : Fin cfg16.N) (hf : (cfg16.win 8).flush t = true) :
    (dat16 (F := Ideal) V c).flushed 8 t = ((cfg16.win 8).blk t).view.read (Elt Ideal) (resultSum V c) := by
  have hN : t.val < 20 := Nat.lt_of_lt_of_eq t.isLt N_16
  have h19 : t.val = 19 := by have := (flush16_8 t).mp hf; omega
  obtain ⟨e70, e71, e80, e81, e90, e91⟩ := idx_o t
  have hz' : (fun a => win16_8.index t a * main_v205_1.ty.shape.size a) = fun _ => 0 := funext fun a => by
    match a with
    | ⟨0, _⟩ => show win16_8.index t (0 : Fin 2) * 1 = 0; omega
    | ⟨1, _⟩ => show win16_8.index t (1 : Fin 2) * 128 = 0; omega
  show (cfg16.win 8).cut (grid16.coords t) ((dat16 V c).after 8 t) = _
  rw [after16_8, outs8_last V c t h19]
  exact (Memref.read_access_unit_zero (Elt Ideal) main_v205_1 hz' (fun a => by rw [congrFun hz' a]; simp) (resultSum V c)).symm

/-- An entry of the row lies in point `t`'s block of window 8 exactly when each coordinate lies in the block's range. -/
theorem mem_blk8 (t : Fin cfg16.N) (i : S1x128.Idx) :
    i ∈ ((cfg16.win 8).blk t).view.set ↔ ∀ a : Fin 2, win16_8.index t a * S1x128.size a ≤ (i a).val
      ∧ (i a).val < win16_8.index t a * S1x128.size a + S1x128.size a := by
  show i ∈ ((View.whole main_v205_1).slice (win16_8.rect t)).set ↔ _
  rw [View.set_slice_whole, Rect.mem_set_unit]
  exact Iff.rfl

/-- The last point's block of window 8 is the whole row, and the last point writes it back. -/
theorem cover16 (i : S1x128.Idx) :
    ∃ t : Fin cfg16.N, (cfg16.win 8).flush t = true ∧ i ∈ ((cfg16.win 8).blk t).view.set := by
  have hi0 : (i 0).val < 1 := idx2_lt0 i
  have hi1 : (i 1).val < 128 := idx2_lt1 i
  obtain ⟨t, ht⟩ : ∃ t : Fin cfg16.N, t.val = 19 := ⟨⟨19, by rw [show cfg16.N = 20 from N_16]; norm_num⟩, rfl⟩
  obtain ⟨e70, e71, e80, e81, e90, e91⟩ := idx_o t
  refine ⟨t, (flush16_8 t).mpr (by omega), ?_⟩
  rw [mem_blk8]
  intro a
  match a with
  | ⟨0, _⟩ =>
    show win16_8.index t (0 : Fin 2) * 1 ≤ (i 0).val ∧ (i 0).val < win16_8.index t (0 : Fin 2) * 1 + 1
    omega
  | ⟨1, _⟩ =>
    show win16_8.index t (1 : Fin 2) * 128 ≤ (i 1).val ∧ (i 1).val < win16_8.index t (1 : Fin 2) * 128 + 128
    omega

/-- At a point whose number is 19 the carried column sum of squares is the one over all rows. -/
theorem accSumSq_at_last (c : Dev nD) (u : Fin 1) (q : Fin 128) (n : ℕ) (hn : n < 20) (h19 : n = 19) :
    accSumSq V c u q n hn = colSumSq (y V c) q := by
  subst h19
  exact accSumSq_last V c u q

/-- The carried row of window 9 after the last point is the whole of `resultSumSq`. -/
theorem outs9_last (c : Dev nD) (t : Fin cfg16.N) (h19 : t.val = 19) :
    (outsAt16 V c t.val t.isLt).2.2 = resultSumSq V c := by
  funext j
  obtain ⟨u, q, rfl⟩ : ∃ (u : Fin 1) (q : Fin 128), j = ix2 u q := ⟨j 0, j 1, eq_ix2 j⟩
  exact accSumSq_at_last V c u q t.val (Nat.lt_of_lt_of_eq t.isLt N_16) h19

/-- What the last point writes back for window 9 is the whole of `resultSumSq`: the window's one block lies at offset zero,
    so it reads the whole row. -/
theorem flushed9_eq (c : Dev nD) (t : Fin cfg16.N) (hf : (cfg16.win 9).flush t = true) :
    (dat16 (F := Ideal) V c).flushed 9 t = ((cfg16.win 9).blk t).view.read (Elt Ideal) (resultSumSq V c) := by
  have hN : t.val < 20 := Nat.lt_of_lt_of_eq t.isLt N_16
  have h19 : t.val = 19 := by have := (flush16_9 t).mp hf; omega
  obtain ⟨e70, e71, e80, e81, e90, e91⟩ := idx_o t
  have hz' : (fun a => win16_9.index t a * main_v205_2.ty.shape.size a) = fun _ => 0 := funext fun a => by
    match a with
    | ⟨0, _⟩ => show win16_9.index t (0 : Fin 2) * 1 = 0; omega
    | ⟨1, _⟩ => show win16_9.index t (1 : Fin 2) * 128 = 0; omega
  show (cfg16.win 9).cut (grid16.coords t) ((dat16 V c).after 9 t) = _
  rw [after16_9, outs9_last V c t h19]
  exact (Memref.read_access_unit_zero (Elt Ideal) main_v205_2 hz' (fun a => by rw [congrFun hz' a]; simp) (resultSumSq V c)).symm

/-- An entry of the row lies in point `t`'s block of window 9 exactly when each coordinate lies in the block's range. -/
theorem mem_blk9 (t : Fin cfg16.N) (i : S1x128.Idx) :
    i ∈ ((cfg16.win 9).blk t).view.set ↔ ∀ a : Fin 2, win16_9.index t a * S1x128.size a ≤ (i a).val
      ∧ (i a).val < win16_9.index t a * S1x128.size a + S1x128.size a := by
  show i ∈ ((View.whole main_v205_2).slice (win16_9.rect t)).set ↔ _
  rw [View.set_slice_whole, Rect.mem_set_unit]
  exact Iff.rfl

/-- The last point's block of window 9 is the whole row, and the last point writes it back. -/
theorem cover9 (i : S1x128.Idx) :
    ∃ t : Fin cfg16.N, (cfg16.win 9).flush t = true ∧ i ∈ ((cfg16.win 9).blk t).view.set := by
  have hi0 : (i 0).val < 1 := idx2_lt0 i
  have hi1 : (i 1).val < 128 := idx2_lt1 i
  obtain ⟨t, ht⟩ : ∃ t : Fin cfg16.N, t.val = 19 := ⟨⟨19, by rw [show cfg16.N = 20 from N_16]; norm_num⟩, rfl⟩
  obtain ⟨e70, e71, e80, e81, e90, e91⟩ := idx_o t
  refine ⟨t, (flush16_9 t).mpr (by omega), ?_⟩
  rw [mem_blk9]
  intro a
  match a with
  | ⟨0, _⟩ =>
    show win16_9.index t (0 : Fin 2) * 1 ≤ (i 0).val ∧ (i 0).val < win16_9.index t (0 : Fin 2) * 1 + 1
    omega
  | ⟨1, _⟩ =>
    show win16_9.index t (1 : Fin 2) * 128 ≤ (i 1).val ∧ (i 1).val < win16_9.index t (1 : Fin 2) * 128 + 128
    omega

/-- THE INTERFACE of this region, one statement per output window. -/
theorem arrAt_y (c : Dev nD) : (dat16 (F := Ideal) V c).arrAt 7 cfg16.N = resultY V c :=
  (dat16 V c).arrAt_eq_of_cover 7 (resultY V c) (fun t _ => flushed7_eq V c t) cover7

theorem arrAt_sum (c : Dev nD) : (dat16 (F := Ideal) V c).arrAt 8 cfg16.N = resultSum V c :=
  (dat16 V c).arrAt_eq_of_cover 8 (resultSum V c) (fun t hf => flushed8_eq V c t hf) cover16

theorem arrAt_sumsq (c : Dev nD) : (dat16 (F := Ideal) V c).arrAt 9 cfg16.N = resultSumSq V c :=
  (dat16 V c).arrAt_eq_of_cover 9 (resultSumSq V c) (fun t hf => flushed9_eq V c t hf) cover9

end Cert.KernelIdeal.ValTriple16

end
-- ==== Proof.ValNormRelu17Pay.lean ====
/-
  Region 17's arithmetic: what the normalisation's body computes at one row and column of a block, from the block of the
  linear stage's output and the four statistic and parameter rows.
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm17

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block — and then the larger of that and 0. -/
theorem pay_apply (var : Vec Ideal S1x128 .f32) (y : Vec Ideal S5000x128 .f32) (mean g beta : Vec Ideal S1x128 .f32)
    (p : Fin 5000) (q : Fin 128) :
    k17_pay1 (F := Ideal) var y mean g beta (ix2 p q)
      = max (StageSpec.norm (y (ix2 p q)) (mean (ix2 (0 : Fin 1) q)) (var (ix2 (0 : Fin 1) q)) (g (ix2 (0 : Fin 1) q)) (beta (ix2 (0 : Fin 1) q))) 0 := by
  unfold k17_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  exact congrArg₂ max rfl Ideal.ofBits_zero_f32

/-- The two zero offsets of a load or a store of a whole buffer. -/
theorem hz : (![0, 0] : Fin 2 → Nat) = fun _ => 0 := funext fun a => by fin_cases a <;> rfl

end Cert.KernelIdeal.ValNorm17

end
-- ==== Proof.ValNormRelu17.lean ====
/-
  Region 17: a normalisation followed by max(·, 0). Every grid point takes a block of 5000 rows of the linear stage's output
  and the four statistic and parameter rows, and writes back, entry by entry, the normalised value passed through max(·, 0).
  The twenty blocks tile the 100000 rows, so the output array as a whole is that function of the region's input arrays.
-/
import proofs.«414479_j7705171329025_1_alg».proof.Proof.FrameKI.R17
import proofs.«414479_j7705171329025_1_alg».proof.Proof.StageSpec
import proofs.«414479_j7705171329025_1_alg».proof.Proof.ValNormRelu17Pay
import Idealize.ShloMosaic.Lib.Pipeline.Value
import Idealize.ShloMosaic.Lib.ValueIdx
import Idealize.ShloMosaic.Lib.ValueLayout

set_option maxRecDepth 16384

noncomputable section

namespace Cert.KernelIdeal.ValNorm17

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x128 .f32 := V c (Pipeline.arrRef spec17 0)
abbrev meanRow (c : Dev nD) : Vec Ideal S1x128 .f32 := V c (Pipeline.arrRef spec17 1)
abbrev varRow (c : Dev nD) : Vec Ideal S1x128 .f32 := V c (Pipeline.arrRef spec17 2)
abbrev gRow (c : Dev nD) : Vec Ideal S1x128 .f32 := V c (Pipeline.arrRef spec17 3)
abbrev betaRow (c : Dev nD) : Vec Ideal S1x128 .f32 := V c (Pipeline.arrRef spec17 4)

/-- What the region leaves in its output array: the normalised entry through max(·, 0), at every row and column. -/
def result (c : Dev nD) : Vec Ideal S100000x128 .f32 := fun i =>
  max (StageSpec.norm (yArr V c i) (meanRow V c (ix2 (0 : Fin 1) (i 1))) (varRow V c (ix2 (0 : Fin 1) (i 1)))
        (gRow V c (ix2 (0 : Fin 1) (i 1))) (betaRow V c (ix2 (0 : Fin 1) (i 1)))) 0

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x128 .f32) (x1 x2 x3 x4 : Vec Ideal S1x128 .f32) (p : Fin 5000) (q : Fin 128) :
    out17_5 x0 x1 x2 x3 x4 (ix2 p q)
      = max (StageSpec.norm (x0 (ix2 p q)) (x1 (ix2 (0 : Fin 1) q)) (x2 (ix2 (0 : Fin 1) q)) (x3 (ix2 (0 : Fin 1) q)) (x4 (ix2 (0 : Fin 1) q))) 0 := by
  unfold out17_5
  rw [View.canon_unit_zero hz]
  simp only [View.ld_unit_zero (S := S1x128) hz, View.ld_unit_zero (S := S5000x128) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = 0 ∧ win17_3.index t (1 : Fin 2) = 0
    ∧ win17_4.index t (0 : Fin 2) = 0 ∧ win17_4.index t (1 : Fin 2) = 0
    ∧ win17_5.index t (0 : Fin 2) = t.val ∧ win17_5.index t (1 : Fin 2) = 0 :=
  (by decide +kernel : ∀ t : Fin grid17.N, _)

/-- Row `p`, column `q` of the output's block at point `t` is row 5000·t + p, column q of the array: a block's coordinate
    is its index times its extent plus the coordinate inside it. -/
theorem emb_out (t : Fin cfg17.N) (p : Fin 5000) (q : Fin 128) (h : t.val * 5000 + p.val < 100000) :
    ((cfg17.win 5).blk t).view.emb (ix2 p q) = (ix2 ⟨t.val * 5000 + p.val, h⟩ q : S100000x128.Idx) := by
  obtain ⟨-, -, -, -, -, -, -, -, -, -, e50, e51⟩ := idx_facts t
  funext a; apply Fin.ext
  match a with
  | ⟨0, _⟩ => show win17_5.index t (0 : Fin 2) * 5000 + 1 * p.val = t.val * 5000 + p.val; omega
  | ⟨1, _⟩ => show win17_5.index t (1 : Fin 2) * 128 + 1 * q.val = q.val; omega

/-- The tall input's block at point `t`, read at (p, q), is the array at row 5000·t + p, column q: the same rows the
    output's block has there. -/
theorem y_apply (c : Dev nD) (t : Fin cfg17.N) (p : Fin 5000) (q : Fin 128) (h : t.val * 5000 + p.val < 100000) :
    (iblk17 V c 0 t : Vec Ideal S5000x128 .f32) (ix2 p q) = yArr V c (ix2 ⟨t.val * 5000 + p.val, h⟩ q) := by
  obtain ⟨e00, e01, -⟩ := idx_facts t
  unfold iblk17
  rw [View.read_apply]
  show yArr V c (((cfg17.win 0).blk t).view.emb (ix2 p q)) = _
  refine congrArg (yArr V c) ?_
  funext a; apply Fin.ext
  match a with
  | ⟨0, _⟩ => show win17_0.index t (0 : Fin 2) * 5000 + 1 * p.val = t.val * 5000 + p.val; omega
  | ⟨1, _⟩ => show win17_0.index t (1 : Fin 2) * 128 + 1 * q.val = q.val; omega

/-- The mean row's block, at every point, is the row. -/
theorem mean_apply (c : Dev nD) (t : Fin cfg17.N) (q : Fin 128) :
    (iblk17 V c 1 t : Vec Ideal S1x128 .f32) (ix2 (0 : Fin 1) q) = meanRow V c (ix2 (0 : Fin 1) q) := by
  obtain ⟨-, -, e10, e11, -⟩ := idx_facts t
  unfold iblk17
  rw [View.read_apply]
  show meanRow V c (((cfg17.win 1).blk t).view.emb (ix2 (0 : Fin 1) q)) = _
  refine congrArg (meanRow V c) ?_
  funext a; apply Fin.ext
  match a with
  | ⟨0, _⟩ => show win17_1.index t (0 : Fin 2) * 1 + 1 * 0 = 0; omega
  | ⟨1, _⟩ => show win17_1.index t (1 : Fin 2) * 128 + 1 * q.val = q.val; omega

/-- The variance row's block, at every point, is the row. -/
theorem var_apply (c : Dev nD) (t : Fin cfg17.N) (q : Fin 128) :
    (iblk17 V c 2 t : Vec Ideal S1x128 .f32) (ix2 (0 : Fin 1) q) = varRow V c (ix2 (0 : Fin 1) q) := by
  obtain ⟨-, -, -, -, e20, e21, -⟩ := idx_facts t
  unfold iblk17
  rw [View.read_apply]
  show varRow V c (((cfg17.win 2).blk t).view.emb (ix2 (0 : Fin 1) q)) = _
  refine congrArg (varRow V c) ?_
  funext a; apply Fin.ext
  match a with
  | ⟨0, _⟩ => show win17_2.index t (0 : Fin 2) * 1 + 1 * 0 = 0; omega
  | ⟨1, _⟩ => show win17_2.index t (1 : Fin 2) * 128 + 1 * q.val = q.val; omega

/-- The scale row's block, at every point, is the row. -/
theorem g_apply (c : Dev nD) (t : Fin cfg17.N) (q : Fin 128) :
    (iblk17 V c 3 t : Vec Ideal S1x128 .f32) (ix2 (0 : Fin 1) q) = gRow V c (ix2 (0 : Fin 1) q) := by
  obtain ⟨-, -, -, -, -, -, e30, e31, -⟩ := idx_facts t
  unfold iblk17
  rw [View.read_apply]
  show gRow V c (((cfg17.win 3).blk t).view.emb (ix2 (0 : Fin 1) q)) = _
  refine congrArg (gRow V c) ?_
  funext a; apply Fin.ext
  match a with
  | ⟨0, _⟩ => show win17_3.index t (0 : Fin 2) * 1 + 1 * 0 = 0; omega
  | ⟨1, _⟩ => show win17_3.index t (1 : Fin 2) * 128 + 1 * q.val = q.val; omega

/-- The shift row's block, at every point, is the row. -/
theorem beta_apply (c : Dev nD) (t : Fin cfg17.N) (q : Fin 128) :
    (iblk17 V c 4 t : Vec Ideal S1x128 .f32) (ix2 (0 : Fin 1) q) = betaRow V c (ix2 (0 : Fin 1) q) := by
  obtain ⟨-, -, -, -, -, -, -, -, e40, e41, -⟩ := idx_facts t
  unfold iblk17
  rw [View.read_apply]
  show betaRow V c (((cfg17.win 4).blk t).view.emb (ix2 (0 : Fin 1) q)) = _
  refine congrArg (betaRow V c) ?_
  funext a; apply Fin.ext
  match a with
  | ⟨0, _⟩ => show win17_4.index t (0 : Fin 2) * 1 + 1 * 0 = 0; omega
  | ⟨1, _⟩ => show win17_4.index t (1 : Fin 2) * 128 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg17.N) :
    (dat17 (F := Ideal) V c).flushed 5 t = ((cfg17.win 5).blk t).view.read (Elt Ideal) (result V c) := by
  show (cfg17.win 5).cut (grid17.coords t) ((dat17 V c).after 5 t) = _
  rw [after17_5]
  have ht : t.val < 20 := Nat.lt_of_lt_of_eq t.isLt N_17
  funext j
  obtain ⟨p, q, rfl⟩ : ∃ (p : Fin 5000) (q : Fin 128), j = ix2 p q := ⟨j 0, j 1, eq_ix2 j⟩
  have h : t.val * 5000 + p.val < 100000 := by have := p.isLt; omega
  show out17_5 (iblk17 V c 0 t) (iblk17 V c 1 t) (iblk17 V c 2 t) (iblk17 V c 3 t) (iblk17 V c 4 t) (ix2 p q)
      = result V c (((cfg17.win 5).blk t).view.emb (ix2 p q))
  refine (out_apply (iblk17 V c 0 t) (iblk17 V c 1 t) (iblk17 V c 2 t) (iblk17 V c 3 t) (iblk17 V c 4 t) p q).trans ?_
  refine Eq.trans ?_ (congrArg (result V c) (emb_out t p q h)).symm
  refine Eq.trans ?_ (show max (StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))) 0
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg17.N) (i : S100000x128.Idx) :
    i ∈ ((cfg17.win 5).blk t).view.set ↔ ∀ a : Fin 2, win17_5.index t a * S5000x128.size a ≤ (i a).val
      ∧ (i a).val < win17_5.index t a * S5000x128.size a + S5000x128.size a := by
  show i ∈ ((View.whole main_v214).slice (win17_5.rect t)).set ↔ _
  rw [View.set_slice_whole, Rect.mem_set_unit]
  exact Iff.rfl

/-- The twenty blocks tile the array: row `r` is in the block of point `r / 5000`, and every point writes its block back. -/
theorem cover (i : S100000x128.Idx) :
    ∃ t : Fin cfg17.N, (cfg17.win 5).flush t = true ∧ i ∈ ((cfg17.win 5).blk t).view.set := by
  have hi0 : (i 0).val < 100000 := idx2_lt0 i
  have hi1 : (i 1).val < 128 := idx2_lt1 i
  obtain ⟨t, ht⟩ : ∃ t : Fin cfg17.N, t.val = (i 0).val / 5000 :=
    ⟨⟨(i 0).val / 5000, by rw [show cfg17.N = 20 from N_17]; omega⟩, rfl⟩
  obtain ⟨-, -, -, -, -, -, -, -, -, -, e50, e51⟩ := idx_facts t
  refine ⟨t, flush17_5 t, ?_⟩
  rw [mem_blk]
  intro a
  match a with
  | ⟨0, _⟩ =>
    show win17_5.index t (0 : Fin 2) * 5000 ≤ (i 0).val ∧ (i 0).val < win17_5.index t (0 : Fin 2) * 5000 + 5000
    omega
  | ⟨1, _⟩ =>
    show win17_5.index t (1 : Fin 2) * 128 ≤ (i 1).val ∧ (i 1).val < win17_5.index t (1 : Fin 2) * 128 + 128
    omega

/-- THE INTERFACE of this region: after its twenty points the output array is `result`. -/
theorem arrAt_out (c : Dev nD) : (dat17 (F := Ideal) V c).arrAt 5 cfg17.N = result V c := by
  exact (dat17 V c).arrAt_eq_of_cover 5 (result V c) (fun t _ => flushed_eq V c t) cover

end Cert.KernelIdeal.ValNorm17

end
-- ==== Proof.HostProj16.lean ====
/-
  The host operations before a block's projection. They cut the stacked projection weights into the three squares that
  meet the three hops' outputs, and lay the 128 zeros out as the bias row. Read here at any contents of the buffers
  before the stretch.
-/
import proofs.«414479_j7705171329025_1_alg».proof.Proof.Gen.KernelIdeal.Launch
import Idealize.ShloMosaic.Lib.StableHlo.Run

noncomputable section

namespace Cert.KernelIdeal.HostProj16

open Cert.KernelIdeal Cert.KernelIdeal.Gen
open Idealize.ShloMosaic Idealize.ShloMosaic.TcCoe Idealize.ShloMosaic.StableHlo

variable {F : FTy → Type} [FloatOps F]
variable (W : Valuation τ sig (Elt F))

/-- The square that meets the first hop's output: rows 0 to 127. -/
theorem read_w0 : (StableHlo.after hostOps16 W (Proc.devRef .tc main_v201) : (⟨S128x128, .f32⟩ : BufTy).Contents (Elt F))
    = extractStridedSlice S128x128 ![0, 0] (W (Proc.devRef .tc main_arg12)) slices_S384x128_S128x128_0_0 := by
  after_results <;> rfl

/-- The square that meets the second hop's output: rows 128 to 255. -/
theorem read_w1 : (StableHlo.after hostOps16 W (Proc.devRef .tc main_v202) : (⟨S128x128, .f32⟩ : BufTy).Contents (Elt F))
    = extractStridedSlice S128x128 ![128, 0] (W (Proc.devRef .tc main_arg12)) slices_S384x128_S128x128_128_0 := by
  after_results <;> rfl

/-- The square that meets the third hop's output: rows 256 to 383. -/
theorem read_w2 : (StableHlo.after hostOps16 W (Proc.devRef .tc main_v203) : (⟨S128x128, .f32⟩ : BufTy).Contents (Elt F))
    = extractStridedSlice S128x128 ![256, 0] (W (Proc.devRef .tc main_arg12)) slices_S384x128_S128x128_256_0 := by
  after_results <;> rfl

/-- The bias row: the zeros, laid out as a row. -/
theorem read_bias : (StableHlo.after hostOps16 W (Proc.devRef .tc main_v204) : (⟨S1x128, .f32⟩ : BufTy).Contents (Elt F))
    = shapeCast S1x128 (W (Proc.devRef .tc main_v11)) shapeCasts_S128_S1x128 := by
  after_results <;> rfl

/-- The first hop's output, which the projection stages, is not written. -/
theorem read_keep0 : StableHlo.after hostOps16 W (Proc.devRef .tc main_v142) = W (Proc.devRef .tc main_v142) := by
  refine StableHlo.after_of_forall_not_mem _ _ fun op h => ?_
  fin_cases h <;> simp only [unary_writes, reshape_writes, Finset.mem_singleton] <;>
    exact devRef_ne_of_ne (by decide)

/-- The second hop's output, which the projection stages, is not written. -/
theorem read_keep1 : StableHlo.after hostOps16 W (Proc.devRef .tc main_v171) = W (Proc.devRef .tc main_v171) := by
  refine StableHlo.after_of_forall_not_mem _ _ fun op h => ?_
  fin_cases h <;> simp only [unary_writes, reshape_writes, Finset.mem_singleton] <;>
    exact devRef_ne_of_ne (by decide)

/-- The third hop's output, which the projection stages, is not written. -/
theorem read_keep2 : StableHlo.after hostOps16 W (Proc.devRef .tc main_v200) = W (Proc.devRef .tc main_v200) := by
  refine StableHlo.after_of_forall_not_mem _ _ fun op h => ?_
  fin_cases h <;> simp only [unary_writes, reshape_writes, Finset.mem_singleton] <;>
    exact devRef_ne_of_ne (by decide)

/-- The references the stretch writes, in order. -/
abbrev written : List (Ref sig .tc) :=
  [main_v201, main_v202, main_v203, main_v204]

/-- Every operation of the stretch writes one of them. -/
theorem writes : (hostOps16 : List (HloOp τ sig (Elt F))).Forall fun op =>
    op.writes ⊆ (written.map (Proc.devRef (τ := τ) .tc)).toFinset := by
  simp only [List.Forall]
  repeat' apply And.intro
  all_goals
    simp only [unary_writes, reshape_writes, Finset.singleton_subset_iff, List.mem_toFinset]
    exact List.mem_map_of_mem (by decide)

/-- A reference the stretch does not write keeps its contents. -/
theorem keep {r : Ref sig .tc} (h : r ∉ written) : StableHlo.after hostOps16 W (Proc.devRef .tc r) = W (Proc.devRef .tc r) :=
  StableHlo.after_of_writes_sub hostOps16 W writes h

end Cert.KernelIdeal.HostProj16

end
-- ==== Proof.HostStats17.lean ====
/-
  The host operations between a linear stage and its normalisation. From the two carried rows the
  region leaves (the column sums and the column sums of squares) they form the mean (the sum over 100000), the mean
  of squares, and the variance as the mean of squares less the squared mean; and they lay the scale and the shift of
  the batch norm out as rows. Read here at any contents of the buffers before the stretch.
-/
import proofs.«414479_j7705171329025_1_alg».proof.Proof.Gen.KernelIdeal.Launch
import Idealize.ShloMosaic.Lib.StableHlo.Run

noncomputable section

namespace Cert.KernelIdeal.HostStats17

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x128, .f32⟩ : BufTy).Contents (Elt F) := broadcastInDim S1x128 ![] bcast_S_S1x128 (constant S_ .f32 0x47C35000#32)

/-- The mean row: the column sums over the divisor. -/
theorem read_mean : (StableHlo.after hostOps17 W (Proc.devRef .tc main_v207) : (⟨S1x128, .f32⟩ : BufTy).Contents (Elt F))
    = Host.divf (W (Proc.devRef .tc main_v205_1)) nRow := by
  after_results; rfl

/-- The variance row: the mean of squares less the squared mean. -/
theorem read_var : (StableHlo.after hostOps17 W (Proc.devRef .tc main_v211) : (⟨S1x128, .f32⟩ : BufTy).Contents (Elt F))
    = subf (Host.divf (W (Proc.devRef .tc main_v205_2)) nRow)
        (mulf (Host.divf (W (Proc.devRef .tc main_v205_1)) nRow) (Host.divf (W (Proc.devRef .tc main_v205_1)) nRow)) := by
  after_results; rfl

/-- The scale, laid out as a row: the same entries in row-major order. -/
theorem read_g : (StableHlo.after hostOps17 W (Proc.devRef .tc main_v212) : (⟨S1x128, .f32⟩ : BufTy).Contents (Elt F))
    = shapeCast S1x128 (W (Proc.devRef .tc main_arg13)) shapeCasts_S128_S1x128 := by
  after_results; rfl

/-- The shift, laid out as a row. -/
theorem read_beta : (StableHlo.after hostOps17 W (Proc.devRef .tc main_v213) : (⟨S1x128, .f32⟩ : BufTy).Contents (Elt F))
    = shapeCast S1x128 (W (Proc.devRef .tc main_arg14)) shapeCasts_S128_S1x128 := by
  after_results; rfl

/-- A buffer the stretch does not write keeps its contents: the linear stage's output array. -/
theorem read_y : StableHlo.after hostOps17 W (Proc.devRef .tc main_v205_0) = W (Proc.devRef .tc main_v205_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats17

end
-- ==== Proof.KernelChain8.lean ====
/-
  Stage 8 of the chain, the kernel's half: the projection that closes a block of three hops. The array the
  normalisation's region leaves is, entry by entry, the batch normalisation of the projection's output, clipped at zero.
  The projection takes the block's three hop outputs, each as the region that made it left it, against the three 128 by
  128 squares of the stacked projection weights, adds the three products in order and then a bias row that is zero. The
  projection's region leaves the projection's output with its column sums and column sums of squares; the host
  operations between the two regions divide those by the row count and form the variance as the mean of squares less
  the squared mean, and lay the scale and the shift out as rows; the normalisation's region normalises with those rows.
  Here the steps are joined, and everything but the three hop outputs is named over the launch memory.
-/
import proofs.«414479_j7705171329025_1_alg».proof.Proof.ValTriple16
import proofs.«414479_j7705171329025_1_alg».proof.Proof.ValNormRelu17
import proofs.«414479_j7705171329025_1_alg».proof.Proof.HostHop2
import proofs.«414479_j7705171329025_1_alg».proof.Proof.HostProj16
import proofs.«414479_j7705171329025_1_alg».proof.Proof.HostStats17
import proofs.«414479_j7705171329025_1_alg».proof.Proof.StageReal
import proofs.«414479_j7705171329025_1_alg».proof.Proof.FrameKI.Run
import proofs.«414479_j7705171329025_1_alg».proof.Proof.Carry0
import proofs.«414479_j7705171329025_1_alg».proof.Proof.Carry1
import proofs.«414479_j7705171329025_1_alg».proof.Proof.Carry5
import proofs.«414479_j7705171329025_1_alg».proof.Proof.Carry9
import Idealize.ShloMosaic.Lib.IdealHost
import Idealize.ShloMosaic.Lib.ValueLayout

set_option maxRecDepth 16384

noncomputable section

namespace Cert.KernelChain8

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## The arrays the stage is stated over, each at its literal type -/

/-- The first hop's output, as the region that made it leaves it. -/
abbrev h1 (c : Dev nD) : Vec Ideal S100000x128 .f32 := W24 (F := Ideal) m ρ c (Proc.devRef .tc main_v142)
/-- The second hop's output, as the region that made it leaves it. -/
abbrev h2 (c : Dev nD) : Vec Ideal S100000x128 .f32 := W28 (F := Ideal) m ρ c (Proc.devRef .tc main_v171)
/-- The third hop's output, as the region that made it leaves it. -/
abbrev h3 (c : Dev nD) : Vec Ideal S100000x128 .f32 := W32 (F := Ideal) m ρ c (Proc.devRef .tc main_v200)
/-- The stacked projection weights, as given: 384 rows of 128. -/
abbrev Wstack (c : Dev nD) : Vec Ideal S384x128 .f32 := m ((c : Thread nD τ).loc main_arg12)
/-- The square that meets the first hop's output: rows 0 to 127. -/
abbrev w0 (c : Dev nD) : Vec Ideal S128x128 .f32 := extractStridedSlice S128x128 ![0, 0] (Wstack m c) slices_S384x128_S128x128_0_0
/-- The square that meets the second hop's output: rows 128 to 255. -/
abbrev w1 (c : Dev nD) : Vec Ideal S128x128 .f32 := extractStridedSlice S128x128 ![128, 0] (Wstack m c) slices_S384x128_S128x128_128_0
/-- The square that meets the third hop's output: rows 256 to 383. -/
abbrev w2 (c : Dev nD) : Vec Ideal S128x128 .f32 := extractStridedSlice S128x128 ![256, 0] (Wstack m c) slices_S384x128_S128x128_256_0
/-- The 128 zeros. -/
abbrev zeros128 : Vec Ideal S128 .f32 := broadcastInDim S128 ![] bcast_S_S128 (constant (F := Ideal) S_ .f32 0x00000000#32)
/-- The bias row: the zeros laid out as a row. -/
abbrev zeroRow : Vec Ideal S1x128 .f32 := shapeCast S1x128 zeros128 shapeCasts_S128_S1x128
/-- The batch norm's scale, as given: 128 entries. -/
abbrev g (c : Dev nD) : Vec Ideal S128 .f32 := m ((c : Thread nD τ).loc main_arg13)
/-- The batch norm's shift, as given: 128 entries. -/
abbrev β (c : Dev nD) : Vec Ideal S128 .f32 := m ((c : Thread nD τ).loc main_arg14)

/-- The projection's output, entry by entry. -/
def y (c : Dev nD) (r : Fin 100000) (q : Fin 128) : EReal :=
  StageSpec.lin3 (h1 m ρ c) (h2 m ρ c) (h3 m ρ c) (w0 m c) (w1 m c) (w2 m c) zeroRow r q

/-- The row count, as the word the host operations divide by. -/
abbrev nRows : EReal := Ideal.ofBits .f32 0x47C35000#32

/-! ## The projection's region's seven arrays -/

/-- Nothing between the exit of the region that made it and the projection's region writes the first hop's output. -/
theorem x0_eq (c : Dev nD) : ValTriple16.x0Arr (V33 m ρ) c = h1 m ρ c :=
  (Carry.main_v142_24_33 m ρ c).trans rfl

/-- Nothing between the exit of the region that made it and the projection's region writes the second hop's output. -/
theorem x1_eq (c : Dev nD) : ValTriple16.x1Arr (V33 m ρ) c = h2 m ρ c :=
  (Carry.main_v171_28_33 m ρ c).trans rfl

/-- The host operations before the projection's region do not write the third hop's output. -/
theorem x2_eq (c : Dev nD) : ValTriple16.x2Arr (V33 m ρ) c = h3 m ρ c :=
  (Carry.main_v200_32_33 m ρ c).trans rfl

/-- The stacked weights are still the launch memory's at the exit of the third hop's last region. -/
theorem arg12_eq (c : Dev nD) : (W32 m ρ c (Proc.devRef .tc main_arg12) : Vec Ideal S384x128 .f32) = Wstack m c :=
  (Carry.main_arg12_0_32 m ρ c).trans rfl

/-- The first square of the weights, as the host operations before the projection's region cut it. -/
theorem w0_eq (c : Dev nD) : ValTriple16.w0Arr (V33 m ρ) c = w0 m c := by
  refine (HostProj16.read_w0 (W32 m ρ c)).trans ?_
  rw [arg12_eq m ρ c]

/-- The second square. -/
theorem w1_eq (c : Dev nD) : ValTriple16.w1Arr (V33 m ρ) c = w1 m c := by
  refine (HostProj16.read_w1 (W32 m ρ c)).trans ?_
  rw [arg12_eq m ρ c]

/-- The third square. -/
theorem w2_eq (c : Dev nD) : ValTriple16.w2Arr (V33 m ρ) c = w2 m c := by
  refine (HostProj16.read_w2 (W32 m ρ c)).trans ?_
  rw [arg12_eq m ρ c]

/-- The 128 zeros, written by the host operations before the first hop's first region of the first block, are written
    by nothing between there and the exit of this block's third hop's last region: no region in between has them as an
    array, and no host operation in between writes them. So there they are still the 128 zeros. -/
theorem v11_eq (c : Dev nD) : (W32 m ρ c (Proc.devRef .tc main_v11) : Vec Ideal S128 .f32) = zeros128 :=
  (Carry.main_v11_5_32 m ρ c).trans (HostHop2.read_zeros (W4 m ρ c))

/-- The bias row the projection's region takes is the zeros laid out as a row. -/
theorem b_eq (c : Dev nD) : ValTriple16.bRow (V33 m ρ) c = zeroRow := by
  refine (HostProj16.read_bias (W32 m ρ c)).trans ?_
  rw [v11_eq m ρ c]

/-- So the region's projection is the one stated over the three hop outputs and the launch memory. -/
theorem y_eq (c : Dev nD) : ValTriple16.y (V33 m ρ) c = y m ρ c := by
  funext r q
  unfold ValTriple16.y y
  rw [x0_eq m ρ c, x1_eq m ρ c, x2_eq m ρ c, w0_eq m ρ c, w1_eq m ρ c, w2_eq m ρ c, b_eq m ρ c]

/-! ## The normalisation's region's five arrays, from the projection's region's three -/

/-- The column sums, as the projection's region leaves them. -/
theorem sum_eq (c : Dev nD) :
    (W34 m ρ c (Proc.devRef .tc main_v205_1) : Vec Ideal S1x128 .f32) = ValTriple16.resultSum (V33 m ρ) c :=
  (W34_arr m ρ c 8).trans (ValTriple16.arrAt_sum (V33 m ρ) c)

/-- The column sums of squares, as the projection's region leaves them. -/
theorem sumsq_eq (c : Dev nD) :
    (W34 m ρ c (Proc.devRef .tc main_v205_2) : Vec Ideal S1x128 .f32) = ValTriple16.resultSumSq (V33 m ρ) c :=
  (W34_arr m ρ c 9).trans (ValTriple16.arrAt_sumsq (V33 m ρ) c)

/-- The scale is still the launch memory's after the projection's region. -/
theorem g_eq (c : Dev nD) : (W34 m ρ c (Proc.devRef .tc main_arg13) : Vec Ideal S128 .f32) = g m c :=
  (Carry.main_arg13_0_34 m ρ c).trans rfl

/-- And so is the shift. -/
theorem beta_eq (c : Dev nD) : (W34 m ρ c (Proc.devRef .tc main_arg14) : Vec Ideal S128 .f32) = β m c :=
  (Carry.main_arg14_0_34 m ρ c).trans rfl

/-- The tall array the normalisation's region takes is the projection's region's output: the host operations between
    the two do not write it. -/
theorem yArr_eq (c : Dev nD) : ValNorm17.yArr (V35 m ρ) c = ValTriple16.resultY (V33 m ρ) c :=
  ((HostStats17.read_y (W34 m ρ c)).trans (W34_arr m ρ c 7)).trans (ValTriple16.arrAt_y (V33 m ρ) c)

/-- The mean row: the column sums over the row count. -/
theorem meanRow_eq (c : Dev nD) :
    ValNorm17.meanRow (V35 m ρ) c = Host.divf (F := Ideal) (φ := .f32) (ValTriple16.resultSum (V33 m ρ) c) (HostStats17.nRow (F := Ideal)) := by
  refine (HostStats17.read_mean (W34 m ρ c)).trans ?_
  rw [sum_eq m ρ c]

/-- The variance row: the mean of squares less the squared mean. -/
theorem varRow_eq (c : Dev nD) :
    ValNorm17.varRow (V35 m ρ) c
      = subf (F := Ideal) (φ := .f32) (Host.divf (F := Ideal) (φ := .f32) (ValTriple16.resultSumSq (V33 m ρ) c) (HostStats17.nRow (F := Ideal)))
          (mulf (F := Ideal) (φ := .f32) (Host.divf (F := Ideal) (φ := .f32) (ValTriple16.resultSum (V33 m ρ) c) (HostStats17.nRow (F := Ideal)))
            (Host.divf (F := Ideal) (φ := .f32) (ValTriple16.resultSum (V33 m ρ) c) (HostStats17.nRow (F := Ideal)))) := by
  refine (HostStats17.read_var (W34 m ρ c)).trans ?_
  rw [sum_eq m ρ c, sumsq_eq m ρ c]

/-- The scale row: the scale laid out as a row. -/
theorem gRow_eq (c : Dev nD) : ValNorm17.gRow (V35 m ρ) c = shapeCast S1x128 (g m c) shapeCasts_S128_S1x128 := by
  refine (HostStats17.read_g (W34 m ρ c)).trans ?_
  rw [g_eq m ρ c]

/-- The shift row: the shift laid out as a row. -/
theorem betaRow_eq (c : Dev nD) : ValNorm17.betaRow (V35 m ρ) c = shapeCast S1x128 (β m c) shapeCasts_S128_S1x128 := by
  refine (HostStats17.read_beta (W34 m ρ c)).trans ?_
  rw [beta_eq m ρ c]

/-! ## The five arrays read at an entry -/

/-- The divisor row holds the row count in every column. -/
theorem nRow_apply (j : S1x128.Idx) : HostStats17.nRow (F := Ideal) j = nRows := by
  unfold HostStats17.nRow
  exact (broadcastInDim_scalar_apply bcast_S_S1x128 (constant (F := Ideal) S_ .f32 0x47C35000#32) j).trans rfl

/-- The tall array at row r, column q is the projection's entry. -/
theorem yArr_apply (c : Dev nD) (r : Fin 100000) (q : Fin 128) :
    ValNorm17.yArr (V35 m ρ) c (ix2 r q) = ValTriple16.y (V33 m ρ) c r q :=
  (congrFun (yArr_eq m ρ c) (ix2 r q)).trans rfl

/-- The mean row at column q is the column mean of the projection's output. -/
theorem mean_apply (c : Dev nD) (q : Fin 128) :
    ValNorm17.meanRow (V35 m ρ) c (ix2 (0 : Fin 1) q) = StageReal.colMean (ValTriple16.y (V33 m ρ) c) nRows q := by
  refine (congrFun (meanRow_eq m ρ c) (ix2 (0 : Fin 1) q)).trans ?_
  show Ideal.div (ValTriple16.resultSum (V33 m ρ) c (ix2 (0 : Fin 1) q)) (HostStats17.nRow (F := Ideal) (ix2 (0 : Fin 1) q)) = _
  rw [nRow_apply]
  rfl

/-- The variance row at column q is the mean of squares less the squared mean of that column. -/
theorem var_apply (c : Dev nD) (q : Fin 128) :
    ValNorm17.varRow (V35 m ρ) c (ix2 (0 : Fin 1) q) = StageReal.varSumSq (ValTriple16.y (V33 m ρ) c) nRows q := by
  refine (congrFun (varRow_eq m ρ c) (ix2 (0 : Fin 1) q)).trans ?_
  show Ideal.div (ValTriple16.resultSumSq (V33 m ρ) c (ix2 (0 : Fin 1) q)) (HostStats17.nRow (F := Ideal) (ix2 (0 : Fin 1) q))
      - Ideal.div (ValTriple16.resultSum (V33 m ρ) c (ix2 (0 : Fin 1) q)) (HostStats17.nRow (F := Ideal) (ix2 (0 : Fin 1) q))
        * Ideal.div (ValTriple16.resultSum (V33 m ρ) c (ix2 (0 : Fin 1) q)) (HostStats17.nRow (F := Ideal) (ix2 (0 : Fin 1) q)) = _
  rw [nRow_apply]
  rfl

/-- The scale row at column q is the scale's entry q. -/
theorem g_apply (c : Dev nD) (q : Fin 128) : ValNorm17.gRow (V35 m ρ) c (ix2 (0 : Fin 1) q) = g m c (ix1 q) :=
  (congrFun (gRow_eq m ρ c) (ix2 (0 : Fin 1) q)).trans
    (shapeCast_a_1a_apply (g m c) shapeCasts_S128_S1x128 (0 : Fin 1) q)

/-- The shift row at column q is the shift's entry q. -/
theorem beta_apply (c : Dev nD) (q : Fin 128) : ValNorm17.betaRow (V35 m ρ) c (ix2 (0 : Fin 1) q) = β m c (ix1 q) :=
  (congrFun (betaRow_eq m ρ c) (ix2 (0 : Fin 1) q)).trans
    (shapeCast_a_1a_apply (β m c) shapeCasts_S128_S1x128 (0 : Fin 1) q)

/-! ## The projection stage's output -/

/-- What the normalisation's region leaves in its output array is what it computes from its five arrays. -/
theorem out_eq (c : Dev nD) :
    (W36 (F := Ideal) m ρ c (Proc.devRef .tc main_v214) : Vec Ideal S100000x128 .f32) = ValNorm17.result (V35 m ρ) c :=
  (W36_arr m ρ c 5).trans (ValNorm17.arrAt_out (V35 m ρ) c)

/-- THE KERNEL'S PROJECTION OUTPUT, entry by entry: the batch normalisation of the projection of the three hop outputs
    with the statistics in the kernel's form, clipped at zero. -/
theorem kernel_out_apply (c : Dev nD) (r : Fin 100000) (q : Fin 128) :
    (W36 (F := Ideal) m ρ c (Proc.devRef .tc main_v214) : Vec Ideal S100000x128 .f32) (ix2 r q)
      = max (StageSpec.norm (y m ρ c r q) (StageReal.colMean (y m ρ c) nRows q) (StageReal.varSumSq (y m ρ c) nRows q)
          (g m c (ix1 q)) (β m c (ix1 q))) 0 := by
  refine (congrFun (out_eq m ρ c) (ix2 r q)).trans ?_
  show max (StageSpec.norm (ValNorm17.yArr (V35 m ρ) c (ix2 r q)) (ValNorm17.meanRow (V35 m ρ) c (ix2 (0 : Fin 1) q))
      (ValNorm17.varRow (V35 m ρ) c (ix2 (0 : Fin 1) q)) (ValNorm17.gRow (V35 m ρ) c (ix2 (0 : Fin 1) q))
      (ValNorm17.betaRow (V35 m ρ) c (ix2 (0 : Fin 1) q))) 0 = _
  rw [yArr_apply m ρ c r q, mean_apply m ρ c q, var_apply m ρ c q, g_apply m ρ c q, beta_apply m ρ c q, y_eq m ρ c]

end Cert.KernelChain8

end
-- ==== Proof.RefChain8.lean ====
/- Stage 8 of the reference, a block's projection, at an entry: W is the contents before windows 5 and 6. The three hops'
   outputs x0, x1, x2 are laid side by side and sent through the 384 × 128 projection (no bias); the result is
   normalised by its own column statistics and clipped at zero. At row r and column q the clipped array is the greater
   of zero and the normalisation of the product's entry, which is the sum over the 384 inner positions, and that sum
   is the three hops' products with the three squares cut out of the projection, added in a row. -/
import proofs.«414479_j7705171329025_1_alg».proof.Proof.RefStage5
import proofs.«414479_j7705171329025_1_alg».proof.Proof.RefStage6
import proofs.«414479_j7705171329025_1_alg».proof.Proof.RefKinds

noncomputable section

namespace Cert.ReferenceIdeal.RefChain8

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The block's hop 0 output. -/
abbrev x0 : (⟨S100000x128, .f32⟩ : BufTy).Contents (Elt Ideal) :=
  (W (Proc.devRef .tc main_v214))

/-- The block's hop 1 output. -/
abbrev x1 : (⟨S100000x128, .f32⟩ : BufTy).Contents (Elt Ideal) :=
  (W (Proc.devRef .tc main_v256))

/-- The block's hop 2 output. -/
abbrev x2 : (⟨S100000x128, .f32⟩ : BufTy).Contents (Elt Ideal) :=
  (RefStage5.t_v298 W)

/-- The three side by side. -/
abbrev cat : (⟨S100000x384, .f32⟩ : BufTy).Contents (Elt Ideal) :=
  concatenate S100000x384 1 [⟨S100000x128, x0 W⟩, ⟨S100000x128, x1 W⟩, ⟨S100000x128, x2 W⟩] concatenates_S100000x128_S100000x128_S100000x128_S100000x384_d1

/-- The projection. -/
abbrev K : (⟨S384x128, .f32⟩ : BufTy).Contents (Elt Ideal) := W (Proc.devRef .tc main_arg12)

/-- The scale and the shift. -/
abbrev g : (⟨S128, .f32⟩ : BufTy).Contents (Elt Ideal) := (W (Proc.devRef .tc main_arg13))
abbrev β : (⟨S128, .f32⟩ : BufTy).Contents (Elt Ideal) := (W (Proc.devRef .tc main_arg14))

/-- The projection's output. -/
abbrev lin : (⟨S100000x128, .f32⟩ : BufTy).Contents (Elt Ideal) :=
  Host.dotGeneral (F := Ideal) (φ₁ := .f32) (φ₂ := .f32) dot_S100000x384_S384x128_S100000x128_1_0_0_1_n_n none (cat W) (K W)

/-- Its entry: the sum over the 384 inner positions. -/
abbrev y (r : Fin 100000) (q : Fin 128) : EReal := ∑ j : Fin 384, cat W (ix2 r j) * K W (ix2 j q)

set_option maxRecDepth 8192 in
/-- After the stage's last window main_v320 holds the clipped normalised projection. -/
theorem out_eq : (after (ops6 (F := Ideal)) (after (ops5 (F := Ideal)) W) (Proc.devRef .tc main_v320) : (⟨S100000x128, .f32⟩ : BufTy).Contents (Elt Ideal))
    = RefTerms.relu (RefTerms.affine (RefTerms.standardise (lin W) (RefTerms.colMean (lin W)) (RefTerms.colVar (lin W) (constantI S_ 32 0#32 : (⟨S_, .i32⟩ : BufTy).Contents (Elt Ideal)))) (g W) (β W)) := by
  rw [RefStage6.read_v320]
  simp only [RefStage6.t_v320]
  rw [RefStage5.keep W (r := main_arg13) (by decide), RefStage5.keep W (r := main_arg14) (by decide), RefStage5.read_v300 W, RefStage5.read_v304 W, RefStage5.read_v306 W] <;> rfl

/-- STAGE 8 AT AN ENTRY. -/
theorem out_apply (r : Fin 100000) (q : Fin 128) : (after (ops6 (F := Ideal)) (after (ops5 (F := Ideal)) W) (Proc.devRef .tc main_v320) : (⟨S100000x128, .f32⟩ : BufTy).Contents (Elt Ideal)) (ix2 r q)
    = max (StageSpec.norm (y W r q) (StageReal.colMean (y W) RefKinds.N q) (StageReal.varDev (y W) RefKinds.N q) (g W (ix1 q)) (β W (ix1 q))) 0 := by
  rw [out_eq]
  exact RefKinds.relu_norm_of_entries (lin W) (y W) (fun r q => RefIndex.dot384_apply _ _ r q) _ rfl (g W) (β W) r q

/-! ## The same entry as three products added in a row -/

/-- The three squares cut out of the projection, and the row of zeros. -/
theorem slices_0 : S384x128.Slices ![0, 0] S128x128 := by decide
theorem slices_128 : S384x128.Slices ![128, 0] S128x128 := by decide
theorem slices_256 : S384x128.Slices ![256, 0] S128x128 := by decide
abbrev w0 : (⟨S128x128, .f32⟩ : BufTy).Contents (Elt Ideal) := extractStridedSlice S128x128 ![0, 0] (K W) slices_0
abbrev w1 : (⟨S128x128, .f32⟩ : BufTy).Contents (Elt Ideal) := extractStridedSlice S128x128 ![128, 0] (K W) slices_128
abbrev w2 : (⟨S128x128, .f32⟩ : BufTy).Contents (Elt Ideal) := extractStridedSlice S128x128 ![256, 0] (K W) slices_256
abbrev zeroRow : (⟨S1x128, .f32⟩ : BufTy).Contents (Elt Ideal) :=
  shapeCast S1x128 (broadcastInDim S128 ![] bcast_S_S128 (constant (F := Ideal) S_ .f32 0x00000000#32)) RefKinds.shapeCasts_S128_S1x128

/-- The row of zeros reads zero. -/
theorem zeroRow_apply (q : Fin 128) : zeroRow (ix2 (0 : Fin 1) q) = 0 := by
  show shapeCast S1x128 (broadcastInDim S128 ![] bcast_S_S128 (constant (F := Ideal) S_ .f32 0x00000000#32)) RefKinds.shapeCasts_S128_S1x128 (ix2 (0 : Fin 1) q) = 0
  rw [shapeCast_a_1a_apply, broadcastInDim_scalar_apply]
  exact Ideal.ofBits_zero_f32

/-- The product over the joined inner axis is the three hops' products with the three squares, added in that order,
    plus the zero row's entry. -/
theorem y_eq_lin3 (r : Fin 100000) (q : Fin 128) :
    y W r q = StageSpec.lin3 (x0 W) (x1 W) (x2 W) (w0 W) (w1 W) (w2 W) zeroRow r q :=
  (StageReal.lin3_eq_sum_of_bias_zero (k := 128) (m := 384) rfl (x0 W) (x1 W) (x2 W) (w0 W) (w1 W) (w2 W) (cat W) (K W)
    (fun r j => RefConcat.cat_fst _ _ _ _ r j _) (fun r j => RefConcat.cat_snd _ _ _ _ r j _) (fun r j => RefConcat.cat_trd _ _ _ _ r j _)
    (fun j q => (RefConcat.rows_cut_zero _ _ j q _).symm) (fun j q => (RefConcat.rows_cut 128 _ _ j q _).symm)
    (fun j q => (RefConcat.rows_cut_256 _ _ j q _).symm) zeroRow r q (zeroRow_apply q)).symm

end Cert.ReferenceIdeal.RefChain8

end
-- ==== Proof.Chain8.lean ====
/-
  Stage 8 of the chain: the projection that closes a block of three hops. Both programs send the block's three hop
  outputs through the three 128 by 128 squares of the stacked projection weights and add the three products (the
  reference as one product over the three outputs laid side by side against the whole stack, the kernel square by
  square with a zero bias row), normalise the result by its batch statistics, and clip at zero. The three hop outputs
  are equal in the two programs and real by the three earlier stages' invariants, and the weights, the scale and the
  shift are the launch memory's on both sides; so the two projections are one array of real numbers, the two forms of
  its variance are one number, and the two clipped normalised arrays are equal, entry by entry, and real.
-/
import proofs.«414479_j7705171329025_1_alg».proof.Proof.KernelChain8
import proofs.«414479_j7705171329025_1_alg».proof.Proof.RefChain8
import proofs.«414479_j7705171329025_1_alg».proof.Proof.RefStage0
import proofs.«414479_j7705171329025_1_alg».proof.Proof.RefStage1
import proofs.«414479_j7705171329025_1_alg».proof.Proof.RefStage2
import proofs.«414479_j7705171329025_1_alg».proof.Proof.RefStage3
import proofs.«414479_j7705171329025_1_alg».proof.Proof.RefStage4
import proofs.«414479_j7705171329025_1_alg».proof.Proof.RefStage5
import proofs.«414479_j7705171329025_1_alg».proof.Proof.ChainDefs
import proofs.«414479_j7705171329025_1_alg».proof.Proof.Chain0
import proofs.«414479_j7705171329025_1_alg».proof.Proof.StageReal
import proofs.«414479_j7705171329025_1_alg».proof.Proof.SliceReal
import proofs.«414479_j7705171329025_1_alg».proof.Proof.PreReal

noncomputable section

namespace Cert.Chain8

open Cert.RealSpec (IsReal)
open Cert.ChainDefs
open Idealize.ShloMosaic Idealize.ShloMosaic.TcCoe Idealize.ShloMosaic.StableHlo Idealize.ShloMosaic.ValueIdx

variable [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-! ## The parameters: the launch memory's on both sides -/

/-- The reference's stacked projection weights, read before the stage's two lists of operations, are the kernel's: the
    lists of operations before do not write them, and the two launch memories agree on them. -/
theorem K_eq (hag : Cert.Chain0.Agree m m') (c : Dev Cert.KernelIdeal.nD) :
    Cert.ReferenceIdeal.RefChain8.K (U5 m' c) = Cert.KernelChain8.Wstack m c :=
  ((Cert.ReferenceIdeal.RefStage4.keep (U4 m' c) (r := Cert.ReferenceIdeal.main_arg12) (by decide)).trans
    ((Cert.ReferenceIdeal.RefStage3.keep (U3 m' c) (r := Cert.ReferenceIdeal.main_arg12) (by decide)).trans
    ((Cert.ReferenceIdeal.RefStage2.keep (U2 m' c) (r := Cert.ReferenceIdeal.main_arg12) (by decide)).trans
    ((Cert.ReferenceIdeal.RefStage1.keep (U1 m' c) (r := Cert.ReferenceIdeal.main_arg12) (by decide)).trans
    (Cert.ReferenceIdeal.RefStage0.keep (U0 m' c) (r := Cert.ReferenceIdeal.main_arg12) (by decide)))))).trans (hag.arg12 c)

/-- The scale likewise. -/
theorem g_eq (hag : Cert.Chain0.Agree m m') (c : Dev Cert.KernelIdeal.nD) :
    Cert.ReferenceIdeal.RefChain8.g (U5 m' c) = Cert.KernelChain8.g m c :=
  ((Cert.ReferenceIdeal.RefStage4.keep (U4 m' c) (r := Cert.ReferenceIdeal.main_arg13) (by decide)).trans
    ((Cert.ReferenceIdeal.RefStage3.keep (U3 m' c) (r := Cert.ReferenceIdeal.main_arg13) (by decide)).trans
    ((Cert.ReferenceIdeal.RefStage2.keep (U2 m' c) (r := Cert.ReferenceIdeal.main_arg13) (by decide)).trans
    ((Cert.ReferenceIdeal.RefStage1.keep (U1 m' c) (r := Cert.ReferenceIdeal.main_arg13) (by decide)).trans
    (Cert.ReferenceIdeal.RefStage0.keep (U0 m' c) (r := Cert.ReferenceIdeal.main_arg13) (by decide)))))).trans (hag.arg13 c)

/-- And the shift. -/
theorem beta_eq (hag : Cert.Chain0.Agree m m') (c : Dev Cert.KernelIdeal.nD) :
    Cert.ReferenceIdeal.RefChain8.β (U5 m' c) = Cert.KernelChain8.β m c :=
  ((Cert.ReferenceIdeal.RefStage4.keep (U4 m' c) (r := Cert.ReferenceIdeal.main_arg14) (by decide)).trans
    ((Cert.ReferenceIdeal.RefStage3.keep (U3 m' c) (r := Cert.ReferenceIdeal.main_arg14) (by decide)).trans
    ((Cert.ReferenceIdeal.RefStage2.keep (U2 m' c) (r := Cert.ReferenceIdeal.main_arg14) (by decide)).trans
    ((Cert.ReferenceIdeal.RefStage1.keep (U1 m' c) (r := Cert.ReferenceIdeal.main_arg14) (by decide)).trans
    (Cert.ReferenceIdeal.RefStage0.keep (U0 m' c) (r := Cert.ReferenceIdeal.main_arg14) (by decide)))))).trans (hag.arg14 c)

/-- So the three squares cut out of the two stacks are the same squares. -/
theorem w0_eq (hag : Cert.Chain0.Agree m m') (c : Dev Cert.KernelIdeal.nD) :
    Cert.ReferenceIdeal.RefChain8.w0 (U5 m' c) = Cert.KernelChain8.w0 m c :=
  congrArg (fun K : Vec Ideal Cert.KernelIdeal.S384x128 .f32 =>
    extractStridedSlice Cert.KernelIdeal.S128x128 ![0, 0] K Cert.KernelIdeal.Gen.slices_S384x128_S128x128_0_0) (K_eq m m' hag c)

theorem w1_eq (hag : Cert.Chain0.Agree m m') (c : Dev Cert.KernelIdeal.nD) :
    Cert.ReferenceIdeal.RefChain8.w1 (U5 m' c) = Cert.KernelChain8.w1 m c :=
  congrArg (fun K : Vec Ideal Cert.KernelIdeal.S384x128 .f32 =>
    extractStridedSlice Cert.KernelIdeal.S128x128 ![128, 0] K Cert.KernelIdeal.Gen.slices_S384x128_S128x128_128_0) (K_eq m m' hag c)

theorem w2_eq (hag : Cert.Chain0.Agree m m') (c : Dev Cert.KernelIdeal.nD) :
    Cert.ReferenceIdeal.RefChain8.w2 (U5 m' c) = Cert.KernelChain8.w2 m c :=
  congrArg (fun K : Vec Ideal Cert.KernelIdeal.S384x128 .f32 =>
    extractStridedSlice Cert.KernelIdeal.S128x128 ![256, 0] K Cert.KernelIdeal.Gen.slices_S384x128_S128x128_256_0) (K_eq m m' hag c)

/-- The two rows of zeros are the same row. -/
theorem z_eq : Cert.ReferenceIdeal.RefChain8.zeroRow = Cert.KernelChain8.zeroRow := rfl

/-! ## The three hop outputs: equal by the three earlier stages -/

/-- The first hop's output: the reference reads it where its first hop's stage left it. -/
theorem x0_eq (c : Dev Cert.KernelIdeal.nD) (i1 : Inv5 m ρ m' c) :
    Cert.ReferenceIdeal.RefChain8.x0 (U5 m' c) = Cert.KernelChain8.h1 m ρ c :=
  funext fun i => (i1.1 i).symm

/-- The second hop's output: the reference reads it where its second hop's stage left it. -/
theorem x1_eq (c : Dev Cert.KernelIdeal.nD) (i2 : Inv6 m ρ m' c) :
    Cert.ReferenceIdeal.RefChain8.x1 (U5 m' c) = Cert.KernelChain8.h2 m ρ c :=
  funext fun i => (i2.1 i).symm

/-- The term the reference's list of operations forms for the third hop's output is the one the reference's half of
    this stage names. -/
theorem t_v298_eq (c : Dev Cert.KernelIdeal.nD) :
    Cert.ReferenceIdeal.RefStage5.t_v298 (U5 m' c) = Cert.ReferenceIdeal.RefChain8.x2 (U5 m' c) := rfl

/-- The third hop's output. -/
theorem x2_eq (c : Dev Cert.KernelIdeal.nD) (i3 : Inv7 m ρ m' c) :
    Cert.ReferenceIdeal.RefChain8.x2 (U5 m' c) = Cert.KernelChain8.h3 m ρ c :=
  funext fun i => ((congrFun ((Cert.ReferenceIdeal.RefStage5.read_v298 (U5 m' c)).trans (t_v298_eq m' c)) i).symm).trans (i3.1 i).symm

/-! ## The two projections are one array of real numbers -/

/-- The reference's projection, written as three products added in a row, is the kernel's. -/
theorem y_eq (hag : Cert.Chain0.Agree m m') (c : Dev Cert.KernelIdeal.nD) (i1 : Inv5 m ρ m' c) (i2 : Inv6 m ρ m' c)
    (i3 : Inv7 m ρ m' c) : Cert.ReferenceIdeal.RefChain8.y (U5 m' c) = Cert.KernelChain8.y m ρ c := by
  funext r q
  rw [Cert.ReferenceIdeal.RefChain8.y_eq_lin3 (U5 m' c) r q]
  unfold Cert.KernelChain8.y
  rw [x0_eq m ρ m' c i1, x1_eq m ρ m' c i2, x2_eq m ρ m' c i3, w0_eq m m' hag c, w1_eq m m' hag c, w2_eq m m' hag c, z_eq]

/-- Every entry of the projection is a real number: the three hop outputs are by the earlier stages, the squares
    of the weights are under the precondition, and the bias row is zero. -/
theorem y_isReal (hpre : Cert.Pre_KernelIdeal m) (c : Dev Cert.KernelIdeal.nD) (i1 : Inv5 m ρ m' c) (i2 : Inv6 m ρ m' c)
    (i3 : Inv7 m ρ m' c) (r : Fin 100000) (q : Fin 128) : IsReal (Cert.KernelChain8.y m ρ c r q) :=
  Cert.StageReal.lin3_isReal (Cert.KernelChain8.h1 m ρ c) (Cert.KernelChain8.h2 m ρ c) (Cert.KernelChain8.h3 m ρ c)
    (Cert.KernelChain8.w0 m c) (Cert.KernelChain8.w1 m c) (Cert.KernelChain8.w2 m c) Cert.KernelChain8.zeroRow
    i1.2 i2.2 i3.2
    (Cert.SliceReal.projW0_isReal (Cert.KernelChain8.Wstack m c) (Cert.PreReal.real_arg12 m hpre c))
    (Cert.SliceReal.projW1_isReal (Cert.KernelChain8.Wstack m c) (Cert.PreReal.real_arg12 m hpre c))
    (Cert.SliceReal.projW2_isReal (Cert.KernelChain8.Wstack m c) (Cert.PreReal.real_arg12 m hpre c))
    Cert.SliceReal.zeroRow_isReal r q

/-! ## The stage -/

/-- STAGE 8: the two clipped normalised projections are equal, and every entry is a real number. -/
theorem stage8 (hpre : Cert.Pre_KernelIdeal m) (hag : Cert.Chain0.Agree m m') (c : Dev Cert.KernelIdeal.nD)
    (i1 : Inv5 m ρ m' c) (i2 : Inv6 m ρ m' c) (i3 : Inv7 m ρ m' c) :
    (∀ i, kOut8 m ρ c i = rOut8 m' c i) ∧ (∀ i, IsReal (kOut8 m ρ c i)) := by
  have ey : Cert.ReferenceIdeal.RefChain8.y (U5 m' c) = Cert.KernelChain8.y m ρ c := y_eq m ρ m' hag c i1 i2 i3
  have eg : Cert.ReferenceIdeal.RefChain8.g (U5 m' c) = Cert.KernelChain8.g m c := g_eq m m' hag c
  have eβ : Cert.ReferenceIdeal.RefChain8.β (U5 m' c) = Cert.KernelChain8.β m c := beta_eq m m' hag c
  have hy : ∀ r q, IsReal (Cert.KernelChain8.y m ρ c r q) := y_isReal m ρ m' hpre c i1 i2 i3
  refine ⟨fun i => ?_, fun i => ?_⟩
  · obtain ⟨r, q, rfl⟩ : ∃ (r : Fin 100000) (q : Fin 128), i = ix2 r q := ⟨i 0, i 1, eq_ix2 i⟩
    rw [show kOut8 m ρ c (ix2 r q) = _ from Cert.KernelChain8.kernel_out_apply m ρ c r q,
      show rOut8 m' c (ix2 r q) = _ from Cert.ReferenceIdeal.RefChain8.out_apply (U5 m' c) r q,
      ey, eg, eβ]
    exact congrArg (fun z => max z 0)
      (Cert.StageReal.norm_varSumSq_eq_norm_varDev_100000 (Cert.KernelChain8.y m ρ c) hy q (Cert.KernelChain8.y m ρ c r q) _ _)
  · obtain ⟨r, q, rfl⟩ : ∃ (r : Fin 100000) (q : Fin 128), i = ix2 r q := ⟨i 0, i 1, eq_ix2 i⟩
    rw [show kOut8 m ρ c (ix2 r q) = _ from Cert.KernelChain8.kernel_out_apply m ρ c r q]
    exact Cert.StageReal.max_zero_isReal
      (Cert.StageReal.norm_varSumSq_isReal_100000 (Cert.KernelChain8.y m ρ c) hy q (hy r q)
        (Cert.PreReal.real_arg13 m hpre c (ix1 q)) (Cert.PreReal.real_arg14 m hpre c (ix1 q)))

/-- Stage 8 in the chain's own words. -/
theorem inv8 (hpre : Cert.Pre_KernelIdeal m) (hag : Cert.Chain0.Agree m m') (c : Dev Cert.KernelIdeal.nD)
    (i1 : Inv5 m ρ m' c) (i2 : Inv6 m ρ m' c) (i3 : Inv7 m ρ m' c) : Inv8 m ρ m' c :=
  stage8 m ρ m' hpre hag c i1 i2 i3

end Cert.Chain8

end
-- ==== Proof.ValAdd2_18.lean ====
/-
  Region 18: a message-passing hop's linear stage with its column statistics. At each grid point the body adds a block of
  5000 rows of the pooled neighbours to the same rows of the block's input, multiplies by the hop's weight matrix, adds the
  bias row, stores that block, and adds the block's column sums and column sums of squares to two carried rows the first
  point has set to zero. As for the embedding, the blocks tile the rows and the carried rows end as sums over all rows.
-/
import proofs.«414479_j7705171329025_1_alg».proof.Proof.FrameKI.R18
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValAdd2_18

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. At the first point the two carried rows are first set to zero and then read
  back, so the running rows it leaves are the block's sums added to zero; at the other points they are added to what the
  rows held. -/

section Pieces

variable {F : FTy → Type} [FloatOps F]

theorem outA4 (c : Dev nD) (i : grid18.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond18_0 i)
    (x0 : Vec F S5000x128 .f32) (x1 : Vec F S5000x128 .f32) (x2 : Vec F S128x128 .f32) (x3 : Vec F S1x128 .f32) :
    out18_A_4 c i a1 h1 a2 h2 a3 h3 a4 h4 a5 h5 a6 h6 a7 h7 hc x0 x1 x2 x3 = k18_pay3 x0 x1 x2 x3 := by
  unfold out18_A_4
  rw [View.read_writes_eq_canon _ _ _ (cover18_A_4 c i a1 h1 a2 h2 a3 h3 a4 h4 a5 h5 a6 h6 a7 h7 hc x0 x1 x2 x3)]
  unfold kernelRun18_A
  dsimp only
  (try sl_unfold_words)
  rw [View.canon_unit_zero hz]
  simp only [View.readAt_eq_ld, h1.read_unread, h2.read_unread, h3.read_unread, h4.read_unread,
    View.ld_unit_zero (S := S5000x128) hz, View.ld_unit_zero (S := S128x128) hz, View.ld_unit_zero (S := S1x128) hz]

theorem outA5 (c : Dev nD) (i : grid18.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond18_0 i)
    (x0 : Vec F S5000x128 .f32) (x1 : Vec F S5000x128 .f32) (x2 : Vec F S128x128 .f32) (x3 : Vec F S1x128 .f32) :
    out18_A_5 c i a1 h1 a2 h2 a3 h3 a4 h4 a5 h5 a6 h6 a7 h7 hc x0 x1 x2 x3 = k18_pay4 x0 x1 x2 x3 (k18_pay1 (F := F)) := by
  unfold out18_A_5
  rw [View.read_writes_eq_canon _ _ _ (cover18_A_5 c i a1 h1 a2 h2 a3 h3 a4 h4 a5 h5 a6 h6 a7 h7 hc x0 x1 x2 x3)]
  unfold kernelRun18_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outA6 (c : Dev nD) (i : grid18.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond18_0 i)
    (x0 : Vec F S5000x128 .f32) (x1 : Vec F S5000x128 .f32) (x2 : Vec F S128x128 .f32) (x3 : Vec F S1x128 .f32) :
    out18_A_6 c i a1 h1 a2 h2 a3 h3 a4 h4 a5 h5 a6 h6 a7 h7 hc x0 x1 x2 x3 = k18_pay5 x0 x1 x2 x3 (k18_pay2 (F := F)) := by
  unfold out18_A_6
  rw [View.read_writes_eq_canon _ _ _ (cover18_A_6 c i a1 h1 a2 h2 a3 h3 a4 h4 a5 h5 a6 h6 a7 h7 hc x0 x1 x2 x3)]
  unfold kernelRun18_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outB4 (c : Dev nD) (i : grid18.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond18_0 i)
    (x0 : Vec F S5000x128 .f32) (x1 : Vec F S5000x128 .f32) (x2 : Vec F S128x128 .f32) (x3 : Vec F S1x128 .f32) (xoS xoQ : Vec F S1x128 .f32) :
    out18_B_4 c i a1 h1 a2 h2 a3 h3 a4 h4 a5 h5 a6 h6 a7 h7 hc x0 x1 x2 x3 xoS xoQ = k18_pay3 x0 x1 x2 x3 := by
  unfold out18_B_4
  rw [View.read_writes_eq_canon _ _ _ (cover18_B_4 c i a1 h1 a2 h2 a3 h3 a4 h4 a5 h5 a6 h6 a7 h7 hc x0 x1 x2 x3 xoS xoQ)]
  unfold kernelRun18_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB5 (c : Dev nD) (i : grid18.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond18_0 i)
    (x0 : Vec F S5000x128 .f32) (x1 : Vec F S5000x128 .f32) (x2 : Vec F S128x128 .f32) (x3 : Vec F S1x128 .f32) (xoS xoQ : Vec F S1x128 .f32) :
    out18_B_5 c i a1 h1 a2 h2 a3 h3 a4 h4 a5 h5 a6 h6 a7 h7 hc x0 x1 x2 x3 xoS xoQ = k18_pay4 x0 x1 x2 x3 xoS := by
  unfold out18_B_5
  rw [View.read_writes_eq_canon _ _ _ (cover18_B_5 c i a1 h1 a2 h2 a3 h3 a4 h4 a5 h5 a6 h6 a7 h7 hc x0 x1 x2 x3 xoS xoQ)]
  unfold kernelRun18_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB6 (c : Dev nD) (i : grid18.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond18_0 i)
    (x0 : Vec F S5000x128 .f32) (x1 : Vec F S5000x128 .f32) (x2 : Vec F S128x128 .f32) (x3 : Vec F S1x128 .f32) (xoS xoQ : Vec F S1x128 .f32) :
    out18_B_6 c i a1 h1 a2 h2 a3 h3 a4 h4 a5 h5 a6 h6 a7 h7 hc x0 x1 x2 x3 xoS xoQ = k18_pay5 x0 x1 x2 x3 xoQ := by
  unfold out18_B_6
  rw [View.read_writes_eq_canon _ _ _ (cover18_B_6 c i a1 h1 a2 h2 a3 h3 a4 h4 a5 h5 a6 h6 a7 h7 hc x0 x1 x2 x3 xoS xoQ)]
  unfold kernelRun18_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

end Pieces

variable (V : (c : Dev nD) → (b : Ref sig .tc) → Buf (Elt Ideal) ((c : Thread nD τ).loc b))

/-- The region's input arrays as it finds them, each at its literal type. -/
abbrev xaArr (c : Dev nD) : Vec Ideal S100000x128 .f32 := V c (Pipeline.arrRef spec18 0)
abbrev xbArr (c : Dev nD) : Vec Ideal S100000x128 .f32 := V c (Pipeline.arrRef spec18 1)
abbrev wArr (c : Dev nD) : Vec Ideal S128x128 .f32 := V c (Pipeline.arrRef spec18 2)
abbrev bRow (c : Dev nD) : Vec Ideal S1x128 .f32 := V c (Pipeline.arrRef spec18 3)

/-- One entry of the linear stage on the region's arrays. -/
def y (c : Dev nD) (r : Fin 100000) (q : Fin 128) : EReal := linAdd (xaArr V c) (xbArr V c) (wArr V c) (bRow V c) r q

/-- What the region leaves in its three output arrays. -/
def resultY (c : Dev nD) : Vec Ideal S100000x128 .f32 := fun i => y V c (i 0) (i 1)
def resultSum (c : Dev nD) : Vec Ideal S1x128 .f32 := fun i => colSum (y V c) (i 1)
def resultSumSq (c : Dev nD) : Vec Ideal S1x128 .f32 := fun i => colSumSq (y V c) (i 1)

/-! ## Where each window's block lies, and what the input blocks read -/

/-- The input blocks at a point, each at its literal type. -/
abbrev xaBlk (c : Dev nD) (t : Fin cfg18.N) : Vec Ideal S5000x128 .f32 := iblk18 V c 0 t
abbrev xbBlk (c : Dev nD) (t : Fin cfg18.N) : Vec Ideal S5000x128 .f32 := iblk18 V c 1 t
abbrev wBlk (c : Dev nD) (t : Fin cfg18.N) : Vec Ideal S128x128 .f32 := iblk18 V c 2 t
abbrev bBlk (c : Dev nD) (t : Fin cfg18.N) : Vec Ideal S1x128 .f32 := iblk18 V c 3 t

/-- The block each window takes at a point, decided over the twenty points: the tall windows take block `t` along the
    rows, and the weight matrix and each row are their own one block throughout. -/
theorem idx_facts : ∀ t : Fin cfg18.N,
    win18_0.index t (0 : Fin 2) = t.val ∧ win18_0.index t (1 : Fin 2) = 0
    ∧ win18_1.index t (0 : Fin 2) = t.val ∧ win18_1.index t (1 : Fin 2) = 0
    ∧ win18_2.index t (0 : Fin 2) = 0 ∧ win18_2.index t (1 : Fin 2) = 0
    ∧ win18_3.index t (0 : Fin 2) = 0 ∧ win18_3.index t (1 : Fin 2) = 0
    ∧ win18_4.index t (0 : Fin 2) = t.val ∧ win18_4.index t (1 : Fin 2) = 0
    ∧ win18_5.index t (0 : Fin 2) = 0 ∧ win18_5.index t (1 : Fin 2) = 0
    ∧ win18_6.index t (0 : Fin 2) = 0 ∧ win18_6.index t (1 : Fin 2) = 0 :=
  (by decide +kernel : ∀ t : Fin grid18.N, _)

/-- Input 0's block at point `t`, read at (p, j), is the array at row 5000·t + p, column j. -/
theorem xaBlk_apply (c : Dev nD) (t : Fin cfg18.N) (p : Fin 5000) (j : Fin 128) (h : t.val * 5000 + p.val < 100000) :
    xaBlk V c t (ix2 p j) = xaArr V c (ix2 ⟨t.val * 5000 + p.val, h⟩ j) := by
  obtain ⟨e00, e01, -⟩ := idx_facts t
  unfold xaBlk iblk18
  rw [View.read_apply]
  show xaArr V c (((cfg18.win 0).blk t).view.emb (ix2 p j)) = _
  refine congrArg (xaArr V c) ?_
  funext a; apply Fin.ext
  match a with
  | ⟨0, _⟩ => show win18_0.index t (0 : Fin 2) * 5000 + 1 * p.val = t.val * 5000 + p.val; omega
  | ⟨1, _⟩ => show win18_0.index t (1 : Fin 2) * 128 + 1 * j.val = j.val; omega

/-- Input 1's block at point `t`, read at (p, j), is the array at row 5000·t + p, column j. -/
theorem xbBlk_apply (c : Dev nD) (t : Fin cfg18.N) (p : Fin 5000) (j : Fin 128) (h : t.val * 5000 + p.val < 100000) :
    xbBlk V c t (ix2 p j) = xbArr V c (ix2 ⟨t.val * 5000 + p.val, h⟩ j) := by
  obtain ⟨-, -, e10, e11, -⟩ := idx_facts t
  unfold xbBlk iblk18
  rw [View.read_apply]
  show xbArr V c (((cfg18.win 1).blk t).view.emb (ix2 p j)) = _
  refine congrArg (xbArr V c) ?_
  funext a; apply Fin.ext
  match a with
  | ⟨0, _⟩ => show win18_1.index t (0 : Fin 2) * 5000 + 1 * p.val = t.val * 5000 + p.val; omega
  | ⟨1, _⟩ => show win18_1.index t (1 : Fin 2) * 128 + 1 * j.val = j.val; omega

/-- Input 2's block, at every point, is the matrix. -/
theorem wBlk_apply (c : Dev nD) (t : Fin cfg18.N) (j : Fin 128) (q : Fin 128) :
    wBlk V c t (ix2 j q) = wArr V c (ix2 j q) := by
  obtain ⟨-, -, -, -, e20, e21, -⟩ := idx_facts t
  unfold wBlk iblk18
  rw [View.read_apply]
  show wArr V c (((cfg18.win 2).blk t).view.emb (ix2 j q)) = _
  refine congrArg (wArr V c) ?_
  funext a; apply Fin.ext
  match a with
  | ⟨0, _⟩ => show win18_2.index t (0 : Fin 2) * 128 + 1 * j.val = j.val; omega
  | ⟨1, _⟩ => show win18_2.index t (1 : Fin 2) * 128 + 1 * q.val = q.val; omega

/-- Input 3's block, at every point, is the row. -/
theorem bBlk_apply (c : Dev nD) (t : Fin cfg18.N) (q : Fin 128) :
    bBlk V c t (ix2 (0 : Fin 1) q) = bRow V c (ix2 (0 : Fin 1) q) := by
  obtain ⟨-, -, -, -, -, -, e30, e31, -⟩ := idx_facts t
  unfold bBlk iblk18
  rw [View.read_apply]
  show bRow V c (((cfg18.win 3).blk t).view.emb (ix2 (0 : Fin 1) q)) = _
  refine congrArg (bRow V c) ?_
  funext a; apply Fin.ext
  match a with
  | ⟨0, _⟩ => show win18_3.index t (0 : Fin 2) * 1 + 1 * 0 = 0; omega
  | ⟨1, _⟩ => show win18_3.index t (1 : Fin 2) * 128 + 1 * q.val = q.val; omega

/-- The block of values a point computes, at (p, q), is the linear stage's entry of row 5000·t + p, column q. -/
theorem pay3_point (c : Dev nD) (t : Fin cfg18.N) (p : Fin 5000) (q : Fin 128) (h : t.val * 5000 + p.val < 100000) :
    k18_pay3 (F := Ideal) (xaBlk V c t) (xbBlk V c t) (wBlk V c t) (bBlk V c t) (ix2 p q) = y V c ⟨t.val * 5000 + p.val, h⟩ q := by
  refine (PayLinear.k2_pay3_apply (xaBlk V c t) (xbBlk V c t) (wBlk V c t) (bBlk V c t) p q).trans ?_
  unfold y linAdd
  refine congrArg₂ (fun a b : EReal => a + b) (Finset.sum_congr rfl fun j _ => ?_) (bBlk_apply V c t q)
  exact congrArg₂ (fun a b : EReal => a * b)
    (congrArg₂ (fun a b : EReal => a + b) (xaBlk_apply V c t p j h) (xbBlk_apply V c t p j h)) (wBlk_apply V c t j q)

/-! ## What the three output buffers hold after each point -/

/-- The output block after any point is the block of values the point computes. -/
theorem outsY_eq (c : Dev nD) (t : Fin cfg18.N) :
    (outsAt18 V c t.val t.isLt).1 = k18_pay3 (F := Ideal) (xaBlk V c t) (xbBlk V c t) (wBlk V c t) (bBlk V c t) := by
  by_cases h0 : t.val % 20 = 0
  · rw [outsAt18_A V c t h0]
    dsimp only
    exact outA4 (F := Ideal) c (grid18.coords t) (ms18_0 t) (hs18_0 t) (ms18_1 t) (hs18_1 t) (ms18_2 t) (hs18_2 t) (ms18_3 t) (hs18_3 t) (ms18_4 t) (hs18_4 t) (ms18_5 t) (hs18_5 t) (ms18_6 t) (hs18_6 t)
      ((hcond18_0 t).mpr h0) (iblk18 V c 0 t) (iblk18 V c 1 t) (iblk18 V c 2 t) (iblk18 V c 3 t)
  · rw [outsAt18_B V c t h0]
    dsimp only
    exact outB4 (F := Ideal) c (grid18.coords t) (ms18_0 t) (hs18_0 t) (ms18_1 t) (hs18_1 t) (ms18_2 t) (hs18_2 t) (ms18_3 t) (hs18_3 t) (ms18_4 t) (hs18_4 t) (ms18_5 t) (hs18_5 t) (ms18_6 t) (hs18_6 t)
      (fun h => h0 ((hcond18_0 t).mp h)) (iblk18 V c 0 t) (iblk18 V c 1 t) (iblk18 V c 2 t) (iblk18 V c 3 t)
      (outsAt18 V c (t.val - 1) (Nat.lt_of_le_of_lt (Nat.sub_le _ _) t.isLt)).2.1
      (outsAt18 V c (t.val - 1) (Nat.lt_of_le_of_lt (Nat.sub_le _ _) t.isLt)).2.2

/-- The carried column sum at column `q`, after point `t`. -/
def accSum (c : Dev nD) (u : Fin 1) (q : Fin 128) : (t : ℕ) → t < 20 → EReal :=
  fun t ht => (outsAt18 V c t (lt_of_lt_of_eq ht N_18.symm)).2.1 (ix2 u q)

/-- At the first point it is the stored zero plus the block's column sum. -/
theorem accSum_first (c : Dev nD) (u : Fin 1) (q : Fin 128) (t : ℕ) (ht : t < 20) (h0 : t % 20 = 0) :
    accSum V c u q t ht = (k18_pay1 (F := Ideal)) (ix2 u q)
      + ∑ p : Fin 5000, y V c ⟨t * 5000 + p.val, by have := p.isLt; omega⟩ q := by
  have ht' : t < cfg18.N := lt_of_lt_of_eq ht N_18.symm
  show (outsAt18 V c (⟨t, ht'⟩ : Fin cfg18.N).val (⟨t, ht'⟩ : Fin cfg18.N).isLt).2.1 (ix2 u q) = _
  rw [outsAt18_A V c ⟨t, ht'⟩ h0]
  dsimp only
  refine (congrFun (outA5 (F := Ideal) c (grid18.coords ⟨t, ht'⟩) (ms18_0 ⟨t, ht'⟩) (hs18_0 ⟨t, ht'⟩) (ms18_1 ⟨t, ht'⟩) (hs18_1 ⟨t, ht'⟩) (ms18_2 ⟨t, ht'⟩) (hs18_2 ⟨t, ht'⟩) (ms18_3 ⟨t, ht'⟩) (hs18_3 ⟨t, ht'⟩) (ms18_4 ⟨t, ht'⟩) (hs18_4 ⟨t, ht'⟩) (ms18_5 ⟨t, ht'⟩) (hs18_5 ⟨t, ht'⟩) (ms18_6 ⟨t, ht'⟩) (hs18_6 ⟨t, ht'⟩)
    ((hcond18_0 ⟨t, ht'⟩).mpr h0) (iblk18 V c 0 ⟨t, ht'⟩) (iblk18 V c 1 ⟨t, ht'⟩) (iblk18 V c 2 ⟨t, ht'⟩) (iblk18 V c 3 ⟨t, ht'⟩)) (ix2 u q)).trans ?_
  refine (PayLinear.k2_pay4_apply (xaBlk V c ⟨t, ht'⟩) (xbBlk V c ⟨t, ht'⟩) (wBlk V c ⟨t, ht'⟩) (bBlk V c ⟨t, ht'⟩) (k18_pay1 (F := Ideal)) u q).trans ?_
  refine congrArg (fun s : EReal => (k18_pay1 (F := Ideal)) (ix2 u q) + s) (Finset.sum_congr rfl fun p _ => ?_)
  exact pay3_point V c ⟨t, ht'⟩ p q _

/-- At any other point it is what the point before left plus the block's column sum. -/
theorem accSum_step (c : Dev nD) (u : Fin 1) (q : Fin 128) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg18.N := lt_of_lt_of_eq ht N_18.symm
  show (outsAt18 V c (⟨t, ht'⟩ : Fin cfg18.N).val (⟨t, ht'⟩ : Fin cfg18.N).isLt).2.1 (ix2 u q) = _
  rw [outsAt18_B V c ⟨t, ht'⟩ h0]
  dsimp only
  refine (congrFun (outB5 (F := Ideal) c (grid18.coords ⟨t, ht'⟩) (ms18_0 ⟨t, ht'⟩) (hs18_0 ⟨t, ht'⟩) (ms18_1 ⟨t, ht'⟩) (hs18_1 ⟨t, ht'⟩) (ms18_2 ⟨t, ht'⟩) (hs18_2 ⟨t, ht'⟩) (ms18_3 ⟨t, ht'⟩) (hs18_3 ⟨t, ht'⟩) (ms18_4 ⟨t, ht'⟩) (hs18_4 ⟨t, ht'⟩) (ms18_5 ⟨t, ht'⟩) (hs18_5 ⟨t, ht'⟩) (ms18_6 ⟨t, ht'⟩) (hs18_6 ⟨t, ht'⟩)
    (fun h => h0 ((hcond18_0 ⟨t, ht'⟩).mp h)) (iblk18 V c 0 ⟨t, ht'⟩) (iblk18 V c 1 ⟨t, ht'⟩) (iblk18 V c 2 ⟨t, ht'⟩) (iblk18 V c 3 ⟨t, ht'⟩)
    (outsAt18 V c ((⟨t, ht'⟩ : Fin cfg18.N).val - 1) (Nat.lt_of_le_of_lt (Nat.sub_le _ _) (⟨t, ht'⟩ : Fin cfg18.N).isLt)).2.1
    (outsAt18 V c ((⟨t, ht'⟩ : Fin cfg18.N).val - 1) (Nat.lt_of_le_of_lt (Nat.sub_le _ _) (⟨t, ht'⟩ : Fin cfg18.N).isLt)).2.2) (ix2 u q)).trans ?_
  refine (PayLinear.k2_pay4_apply (xaBlk V c ⟨t, ht'⟩) (xbBlk V c ⟨t, ht'⟩) (wBlk V c ⟨t, ht'⟩) (bBlk V c ⟨t, ht'⟩)
    (outsAt18 V c ((⟨t, ht'⟩ : Fin cfg18.N).val - 1) (Nat.lt_of_le_of_lt (Nat.sub_le _ _) (⟨t, ht'⟩ : Fin cfg18.N).isLt)).2.1 u q).trans ?_
  refine congrArg (fun s : EReal => accSum V c u q (t - 1) (Nat.lt_of_le_of_lt (Nat.sub_le t 1) ht) + s)
    (Finset.sum_congr rfl fun p _ => ?_)
  exact pay3_point V c ⟨t, ht'⟩ p q _

/-- After the last point it is the column sum over all 100000 rows. -/
theorem accSum_last (c : Dev nD) (u : Fin 1) (q : Fin 128) :
    accSum V c u q 19 (by norm_num) = colSum (y V c) q :=
  AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k18_pay1 (F := Ideal)) (ix2 u q)) Ideal.ofBits_zero_f32
    (fun t ht h0 => accSum_first V c u q t ht h0) (fun t ht h0 => accSum_step V c u q t ht h0)

/-- The carried column sum of squares at column `q`, after point `t`. -/
def accSumSq (c : Dev nD) (u : Fin 1) (q : Fin 128) : (t : ℕ) → t < 20 → EReal :=
  fun t ht => (outsAt18 V c t (lt_of_lt_of_eq ht N_18.symm)).2.2 (ix2 u q)

/-- At the first point it is the stored zero plus the block's column sum of squares. -/
theorem accSumSq_first (c : Dev nD) (u : Fin 1) (q : Fin 128) (t : ℕ) (ht : t < 20) (h0 : t % 20 = 0) :
    accSumSq V c u q t ht = (k18_pay2 (F := Ideal)) (ix2 u q)
      + ∑ p : Fin 5000, (y V c ⟨t * 5000 + p.val, by have := p.isLt; omega⟩ q * y V c ⟨t * 5000 + p.val, by have := p.isLt; omega⟩ q) := by
  have ht' : t < cfg18.N := lt_of_lt_of_eq ht N_18.symm
  show (outsAt18 V c (⟨t, ht'⟩ : Fin cfg18.N).val (⟨t, ht'⟩ : Fin cfg18.N).isLt).2.2 (ix2 u q) = _
  rw [outsAt18_A V c ⟨t, ht'⟩ h0]
  dsimp only
  refine (congrFun (outA6 (F := Ideal) c (grid18.coords ⟨t, ht'⟩) (ms18_0 ⟨t, ht'⟩) (hs18_0 ⟨t, ht'⟩) (ms18_1 ⟨t, ht'⟩) (hs18_1 ⟨t, ht'⟩) (ms18_2 ⟨t, ht'⟩) (hs18_2 ⟨t, ht'⟩) (ms18_3 ⟨t, ht'⟩) (hs18_3 ⟨t, ht'⟩) (ms18_4 ⟨t, ht'⟩) (hs18_4 ⟨t, ht'⟩) (ms18_5 ⟨t, ht'⟩) (hs18_5 ⟨t, ht'⟩) (ms18_6 ⟨t, ht'⟩) (hs18_6 ⟨t, ht'⟩)
    ((hcond18_0 ⟨t, ht'⟩).mpr h0) (iblk18 V c 0 ⟨t, ht'⟩) (iblk18 V c 1 ⟨t, ht'⟩) (iblk18 V c 2 ⟨t, ht'⟩) (iblk18 V c 3 ⟨t, ht'⟩)) (ix2 u q)).trans ?_
  refine (PayLinear.k2_pay5_apply (xaBlk V c ⟨t, ht'⟩) (xbBlk V c ⟨t, ht'⟩) (wBlk V c ⟨t, ht'⟩) (bBlk V c ⟨t, ht'⟩) (k18_pay2 (F := Ideal)) u q).trans ?_
  refine congrArg (fun s : EReal => (k18_pay2 (F := Ideal)) (ix2 u q) + s) (Finset.sum_congr rfl fun p _ => ?_)
  exact congrArg₂ (fun a b : EReal => a * b) (pay3_point V c ⟨t, ht'⟩ p q _) (pay3_point V c ⟨t, ht'⟩ p q _)

/-- At any other point it is what the point before left plus the block's column sum of squares. -/
theorem accSumSq_step (c : Dev nD) (u : Fin 1) (q : Fin 128) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg18.N := lt_of_lt_of_eq ht N_18.symm
  show (outsAt18 V c (⟨t, ht'⟩ : Fin cfg18.N).val (⟨t, ht'⟩ : Fin cfg18.N).isLt).2.2 (ix2 u q) = _
  rw [outsAt18_B V c ⟨t, ht'⟩ h0]
  dsimp only
  refine (congrFun (outB6 (F := Ideal) c (grid18.coords ⟨t, ht'⟩) (ms18_0 ⟨t, ht'⟩) (hs18_0 ⟨t, ht'⟩) (ms18_1 ⟨t, ht'⟩) (hs18_1 ⟨t, ht'⟩) (ms18_2 ⟨t, ht'⟩) (hs18_2 ⟨t, ht'⟩) (ms18_3 ⟨t, ht'⟩) (hs18_3 ⟨t, ht'⟩) (ms18_4 ⟨t, ht'⟩) (hs18_4 ⟨t, ht'⟩) (ms18_5 ⟨t, ht'⟩) (hs18_5 ⟨t, ht'⟩) (ms18_6 ⟨t, ht'⟩) (hs18_6 ⟨t, ht'⟩)
    (fun h => h0 ((hcond18_0 ⟨t, ht'⟩).mp h)) (iblk18 V c 0 ⟨t, ht'⟩) (iblk18 V c 1 ⟨t, ht'⟩) (iblk18 V c 2 ⟨t, ht'⟩) (iblk18 V c 3 ⟨t, ht'⟩)
    (outsAt18 V c ((⟨t, ht'⟩ : Fin cfg18.N).val - 1) (Nat.lt_of_le_of_lt (Nat.sub_le _ _) (⟨t, ht'⟩ : Fin cfg18.N).isLt)).2.1
    (outsAt18 V c ((⟨t, ht'⟩ : Fin cfg18.N).val - 1) (Nat.lt_of_le_of_lt (Nat.sub_le _ _) (⟨t, ht'⟩ : Fin cfg18.N).isLt)).2.2) (ix2 u q)).trans ?_
  refine (PayLinear.k2_pay5_apply (xaBlk V c ⟨t, ht'⟩) (xbBlk V c ⟨t, ht'⟩) (wBlk V c ⟨t, ht'⟩) (bBlk V c ⟨t, ht'⟩)
    (outsAt18 V c ((⟨t, ht'⟩ : Fin cfg18.N).val - 1) (Nat.lt_of_le_of_lt (Nat.sub_le _ _) (⟨t, ht'⟩ : Fin cfg18.N).isLt)).2.2 u q).trans ?_
  refine congrArg (fun s : EReal => accSumSq V c u q (t - 1) (Nat.lt_of_le_of_lt (Nat.sub_le t 1) ht) + s)
    (Finset.sum_congr rfl fun p _ => ?_)
  exact congrArg₂ (fun a b : EReal => a * b) (pay3_point V c ⟨t, ht'⟩ p q _) (pay3_point V c ⟨t, ht'⟩ p q _)

/-- After the last point it is the column sum of squares over all 100000 rows. -/
theorem accSumSq_last (c : Dev nD) (u : Fin 1) (q : Fin 128) :
    accSumSq V c u q 19 (by norm_num) = colSumSq (y V c) q :=
  AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k18_pay2 (F := Ideal)) (ix2 u q)) Ideal.ofBits_zero_f32
    (fun t ht h0 => accSumSq_first V c u q t ht h0) (fun t ht h0 => accSumSq_step V c u q t ht h0)

/-! ## From the blocks to the arrays -/

/-- Row `p`, column `q` of the output's block at point `t` is row 5000·t + p, column q of the array: a block's coordinate
    is its index times its extent plus the coordinate inside it. -/
theorem emb_out (t : Fin cfg18.N) (p : Fin 5000) (q : Fin 128) (h : t.val * 5000 + p.val < 100000) :
    ((cfg18.win 4).blk t).view.emb (ix2 p q) = (ix2 ⟨t.val * 5000 + p.val, h⟩ q : S100000x128.Idx) := by
  obtain ⟨-, -, -, -, -, -, -, -, e40, e41, -⟩ := idx_facts t
  funext a; apply Fin.ext
  match a with
  | ⟨0, _⟩ => show win18_4.index t (0 : Fin 2) * 5000 + 1 * p.val = t.val * 5000 + p.val; omega
  | ⟨1, _⟩ => show win18_4.index t (1 : Fin 2) * 128 + 1 * q.val = q.val; omega

/-- What point `t` writes back for the output is block `t` of `resultY`. -/
theorem flushedY_eq (c : Dev nD) (t : Fin cfg18.N) :
    (dat18 (F := Ideal) V c).flushed 4 t = ((cfg18.win 4).blk t).view.read (Elt Ideal) (resultY V c) := by
  show (cfg18.win 4).cut (grid18.coords t) ((dat18 V c).after 4 t) = _
  rw [after18_4]
  have ht : t.val < 20 := Nat.lt_of_lt_of_eq t.isLt N_18
  funext j
  obtain ⟨p, q, rfl⟩ : ∃ (p : Fin 5000) (q : Fin 128), j = ix2 p q := ⟨j 0, j 1, eq_ix2 j⟩
  have h : t.val * 5000 + p.val < 100000 := by have := p.isLt; omega
  show (outsAt18 V c t.val t.isLt).1 (ix2 p q) = resultY V c (((cfg18.win 4).blk t).view.emb (ix2 p q))
  refine (congrFun (outsY_eq V c t) (ix2 p q)).trans ?_
  refine (pay3_point V c t p q h).trans ?_
  exact (congrArg (resultY V c) (emb_out t p q h)).symm

/-- An entry of the array lies in point `t`'s block exactly when each of its coordinates lies in the block's range. -/
theorem mem_blkY (t : Fin cfg18.N) (i : S100000x128.Idx) :
    i ∈ ((cfg18.win 4).blk t).view.set ↔ ∀ a : Fin 2, win18_4.index t a * S5000x128.size a ≤ (i a).val
      ∧ (i a).val < win18_4.index t a * S5000x128.size a + S5000x128.size a := by
  show i ∈ ((View.whole main_v231_0).slice (win18_4.rect t)).set ↔ _
  rw [View.set_slice_whole, Rect.mem_set_unit]
  exact Iff.rfl

/-- The twenty blocks tile the array: row `r` is in the block of point `r / 5000`, and every point writes its block back. -/
theorem coverY (i : S100000x128.Idx) :
    ∃ t : Fin cfg18.N, (cfg18.win 4).flush t = true ∧ i ∈ ((cfg18.win 4).blk t).view.set := by
  have hi0 : (i 0).val < 100000 := idx2_lt0 i
  have hi1 : (i 1).val < 128 := idx2_lt1 i
  obtain ⟨t, ht⟩ : ∃ t : Fin cfg18.N, t.val = (i 0).val / 5000 :=
    ⟨⟨(i 0).val / 5000, by rw [show cfg18.N = 20 from N_18]; omega⟩, rfl⟩
  obtain ⟨-, -, -, -, -, -, -, -, e40, e41, -⟩ := idx_facts t
  refine ⟨t, flush18_4 t, ?_⟩
  rw [mem_blkY]
  intro a
  match a with
  | ⟨0, _⟩ =>
    show win18_4.index t (0 : Fin 2) * 5000 ≤ (i 0).val ∧ (i 0).val < win18_4.index t (0 : Fin 2) * 5000 + 5000
    omega
  | ⟨1, _⟩ =>
    show win18_4.index t (1 : Fin 2) * 128 ≤ (i 1).val ∧ (i 1).val < win18_4.index t (1 : Fin 2) * 128 + 128
    omega

/-- At a point whose number is 19 the carried column sum is the one over all rows. -/
theorem accSum_at_last (c : Dev nD) (u : Fin 1) (q : Fin 128) (n : ℕ) (hn : n < 20) (h19 : n = 19) :
    accSum V c u q n hn = colSum (y V c) q := by
  subst h19
  exact accSum_last V c u q

/-- The carried row of window 5 after the last point is the whole of `resultSum`. -/
theorem outs5_last (c : Dev nD) (t : Fin cfg18.N) (h19 : t.val = 19) :
    (outsAt18 V c t.val t.isLt).2.1 = resultSum V c := by
  funext j
  obtain ⟨u, q, rfl⟩ : ∃ (u : Fin 1) (q : Fin 128), j = ix2 u q := ⟨j 0, j 1, eq_ix2 j⟩
  exact accSum_at_last V c u q t.val (Nat.lt_of_lt_of_eq t.isLt N_18) h19

/-- What the last point writes back for window 5 is the whole of `resultSum`: the window's one block lies at offset zero,
    so it reads the whole row. -/
theorem flushed5_eq (c : Dev nD) (t : Fin cfg18.N) (hf : (cfg18.win 5).flush t = true) :
    (dat18 (F := Ideal) V c).flushed 5 t = ((cfg18.win 5).blk t).view.read (Elt Ideal) (resultSum V c) := by
  have hN : t.val < 20 := Nat.lt_of_lt_of_eq t.isLt N_18
  have h19 : t.val = 19 := by have := (flush18_5 t).mp hf; omega
  obtain ⟨-, -, -, -, -, -, -, -, -, -, eS0, eS1, eQ0, eQ1⟩ := idx_facts t
  have hz' : (fun a => win18_5.index t a * main_v231_1.ty.shape.size a) = fun _ => 0 := funext fun a => by
    match a with
    | ⟨0, _⟩ => show win18_5.index t (0 : Fin 2) * 1 = 0; omega
    | ⟨1, _⟩ => show win18_5.index t (1 : Fin 2) * 128 = 0; omega
  show (cfg18.win 5).cut (grid18.coords t) ((dat18 V c).after 5 t) = _
  rw [after18_5, outs5_last V c t h19]
  exact (Memref.read_access_unit_zero (Elt Ideal) main_v231_1 hz' (fun a => by rw [congrFun hz' a]; simp) (resultSum V c)).symm

/-- An entry of the row lies in point `t`'s block of window 5 exactly when each coordinate lies in the block's range. -/
theorem mem_blk5 (t : Fin cfg18.N) (i : S1x128.Idx) :
    i ∈ ((cfg18.win 5).blk t).view.set ↔ ∀ a : Fin 2, win18_5.index t a * S1x128.size a ≤ (i a).val
      ∧ (i a).val < win18_5.index t a * S1x128.size a + S1x128.size a := by
  show i ∈ ((View.whole main_v231_1).slice (win18_5.rect t)).set ↔ _
  rw [View.set_slice_whole, Rect.mem_set_unit]
  exact Iff.rfl

/-- The last point's block of window 5 is the whole row, and the last point writes it back. -/
theorem cover5 (i : S1x128.Idx) :
    ∃ t : Fin cfg18.N, (cfg18.win 5).flush t = true ∧ i ∈ ((cfg18.win 5).blk t).view.set := by
  have hi0 : (i 0).val < 1 := idx2_lt0 i
  have hi1 : (i 1).val < 128 := idx2_lt1 i
  obtain ⟨t, ht⟩ : ∃ t : Fin cfg18.N, t.val = 19 := ⟨⟨19, by rw [show cfg18.N = 20 from N_18]; norm_num⟩, rfl⟩
  obtain ⟨-, -, -, -, -, -, -, -, -, -, eS0, eS1, eQ0, eQ1⟩ := idx_facts t
  refine ⟨t, (flush18_5 t).mpr (by omega), ?_⟩
  rw [mem_blk5]
  intro a
  match a with
  | ⟨0, _⟩ =>
    show win18_5.index t (0 : Fin 2) * 1 ≤ (i 0).val ∧ (i 0).val < win18_5.index t (0 : Fin 2) * 1 + 1
    omega
  | ⟨1, _⟩ =>
    show win18_5.index t (1 : Fin 2) * 128 ≤ (i 1).val ∧ (i 1).val < win18_5.index t (1 : Fin 2) * 128 + 128
    omega

/-- At a point whose number is 19 the carried column sum of squares is the one over all rows. -/
theorem accSumSq_at_last (c : Dev nD) (u : Fin 1) (q : Fin 128) (n : ℕ) (hn : n < 20) (h19 : n = 19) :
    accSumSq V c u q n hn = colSumSq (y V c) q := by
  subst h19
  exact accSumSq_last V c u q

/-- The carried row of window 6 after the last point is the whole of `resultSumSq`. -/
theorem outs6_last (c : Dev nD) (t : Fin cfg18.N) (h19 : t.val = 19) :
    (outsAt18 V c t.val t.isLt).2.2 = resultSumSq V c := by
  funext j
  obtain ⟨u, q, rfl⟩ : ∃ (u : Fin 1) (q : Fin 128), j = ix2 u q := ⟨j 0, j 1, eq_ix2 j⟩
  exact accSumSq_at_last V c u q t.val (Nat.lt_of_lt_of_eq t.isLt N_18) h19

/-- What the last point writes back for window 6 is the whole of `resultSumSq`: the window's one block lies at offset zero,
    so it reads the whole row. -/
theorem flushed6_eq (c : Dev nD) (t : Fin cfg18.N) (hf : (cfg18.win 6).flush t = true) :
    (dat18 (F := Ideal) V c).flushed 6 t = ((cfg18.win 6).blk t).view.read (Elt Ideal) (resultSumSq V c) := by
  have hN : t.val < 20 := Nat.lt_of_lt_of_eq t.isLt N_18
  have h19 : t.val = 19 := by have := (flush18_6 t).mp hf; omega
  obtain ⟨-, -, -, -, -, -, -, -, -, -, eS0, eS1, eQ0, eQ1⟩ := idx_facts t
  have hz' : (fun a => win18_6.index t a * main_v231_2.ty.shape.size a) = fun _ => 0 := funext fun a => by
    match a with
    | ⟨0, _⟩ => show win18_6.index t (0 : Fin 2) * 1 = 0; omega
    | ⟨1, _⟩ => show win18_6.index t (1 : Fin 2) * 128 = 0; omega
  show (cfg18.win 6).cut (grid18.coords t) ((dat18 V c).after 6 t) = _
  rw [after18_6, outs6_last V c t h19]
  exact (Memref.read_access_unit_zero (Elt Ideal) main_v231_2 hz' (fun a => by rw [congrFun hz' a]; simp) (resultSumSq V c)).symm

/-- An entry of the row lies in point `t`'s block of window 6 exactly when each coordinate lies in the block's range. -/
theorem mem_blk6 (t : Fin cfg18.N) (i : S1x128.Idx) :
    i ∈ ((cfg18.win 6).blk t).view.set ↔ ∀ a : Fin 2, win18_6.index t a * S1x128.size a ≤ (i a).val
      ∧ (i a).val < win18_6.index t a * S1x128.size a + S1x128.size a := by
  show i ∈ ((View.whole main_v231_2).slice (win18_6.rect t)).set ↔ _
  rw [View.set_slice_whole, Rect.mem_set_unit]
  exact Iff.rfl

/-- The last point's block of window 6 is the whole row, and the last point writes it back. -/
theorem cover6 (i : S1x128.Idx) :
    ∃ t : Fin cfg18.N, (cfg18.win 6).flush t = true ∧ i ∈ ((cfg18.win 6).blk t).view.set := by
  have hi0 : (i 0).val < 1 := idx2_lt0 i
  have hi1 : (i 1).val < 128 := idx2_lt1 i
  obtain ⟨t, ht⟩ : ∃ t : Fin cfg18.N, t.val = 19 := ⟨⟨19, by rw [show cfg18.N = 20 from N_18]; norm_num⟩, rfl⟩
  obtain ⟨-, -, -, -, -, -, -, -, -, -, eS0, eS1, eQ0, eQ1⟩ := idx_facts t
  refine ⟨t, (flush18_6 t).mpr (by omega), ?_⟩
  rw [mem_blk6]
  intro a
  match a with
  | ⟨0, _⟩ =>
    show win18_6.index t (0 : Fin 2) * 1 ≤ (i 0).val ∧ (i 0).val < win18_6.index t (0 : Fin 2) * 1 + 1
    omega
  | ⟨1, _⟩ =>
    show win18_6.index t (1 : Fin 2) * 128 ≤ (i 1).val ∧ (i 1).val < win18_6.index t (1 : Fin 2) * 128 + 128
    omega

/-- THE INTERFACE of this region, one statement per output window. -/
theorem arrAt_y (c : Dev nD) : (dat18 (F := Ideal) V c).arrAt 4 cfg18.N = resultY V c :=
  (dat18 V c).arrAt_eq_of_cover 4 (resultY V c) (fun t _ => flushedY_eq V c t) coverY

theorem arrAt_sum (c : Dev nD) : (dat18 (F := Ideal) V c).arrAt 5 cfg18.N = resultSum V c :=
  (dat18 V c).arrAt_eq_of_cover 5 (resultSum V c) (fun t hf => flushed5_eq V c t hf) cover5

theorem arrAt_sumsq (c : Dev nD) : (dat18 (F := Ideal) V c).arrAt 6 cfg18.N = resultSumSq V c :=
  (dat18 V c).arrAt_eq_of_cover 6 (resultSumSq V c) (fun t hf => flushed6_eq V c t hf) cover6

end Cert.KernelIdeal.ValAdd2_18

end
-- ==== Proof.ValNorm19Pay.lean ====
/-
  Region 19's arithmetic: what the normalisation's body computes at one row and column of a block, from the block of the
  linear stage's output and the four statistic and parameter rows. This normalisation is not followed by max(·, 0).
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm19

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block. -/
theorem pay_apply (var : Vec Ideal S1x128 .f32) (y : Vec Ideal S5000x128 .f32) (mean g beta : Vec Ideal S1x128 .f32)
    (p : Fin 5000) (q : Fin 128) :
    k19_pay1 (F := Ideal) var y mean g beta (ix2 p q)
      = StageSpec.norm (y (ix2 p q)) (mean (ix2 (0 : Fin 1) q)) (var (ix2 (0 : Fin 1) q)) (g (ix2 (0 : Fin 1) q)) (beta (ix2 (0 : Fin 1) q)) := by
  unfold k19_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The two zero offsets of a load or a store of a whole buffer. -/
theorem hz : (![0, 0] : Fin 2 → Nat) = fun _ => 0 := funext fun a => by fin_cases a <;> rfl

end Cert.KernelIdeal.ValNorm19

end
-- ==== Proof.ValNorm19.lean ====
/-
  Region 19: a normalisation with no max(·, 0) after it. Every grid point takes a block of 5000 rows of the linear stage's
  output and the four statistic and parameter rows, and writes back, entry by entry, the normalised value.
  The twenty blocks tile the 100000 rows, so the output array as a whole is that function of the region's input arrays.
-/
import proofs.«414479_j7705171329025_1_alg».proof.Proof.FrameKI.R19
import proofs.«414479_j7705171329025_1_alg».proof.Proof.StageSpec
import proofs.«414479_j7705171329025_1_alg».proof.Proof.ValNorm19Pay
import Idealize.ShloMosaic.Lib.Pipeline.Value
import Idealize.ShloMosaic.Lib.ValueIdx
import Idealize.ShloMosaic.Lib.ValueLayout

set_option maxRecDepth 16384

noncomputable section

namespace Cert.KernelIdeal.ValNorm19

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x128 .f32 := V c (Pipeline.arrRef spec19 0)
abbrev meanRow (c : Dev nD) : Vec Ideal S1x128 .f32 := V c (Pipeline.arrRef spec19 1)
abbrev varRow (c : Dev nD) : Vec Ideal S1x128 .f32 := V c (Pipeline.arrRef spec19 2)
abbrev gRow (c : Dev nD) : Vec Ideal S1x128 .f32 := V c (Pipeline.arrRef spec19 3)
abbrev betaRow (c : Dev nD) : Vec Ideal S1x128 .f32 := V c (Pipeline.arrRef spec19 4)

/-- What the region leaves in its output array: the normalised entry, at every row and column. -/
def result (c : Dev nD) : Vec Ideal S100000x128 .f32 := fun i =>
  StageSpec.norm (yArr V c i) (meanRow V c (ix2 (0 : Fin 1) (i 1))) (varRow V c (ix2 (0 : Fin 1) (i 1)))
    (gRow V c (ix2 (0 : Fin 1) (i 1))) (betaRow V c (ix2 (0 : Fin 1) (i 1)))

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x128 .f32) (x1 x2 x3 x4 : Vec Ideal S1x128 .f32) (p : Fin 5000) (q : Fin 128) :
    out19_5 x0 x1 x2 x3 x4 (ix2 p q)
      = StageSpec.norm (x0 (ix2 p q)) (x1 (ix2 (0 : Fin 1) q)) (x2 (ix2 (0 : Fin 1) q)) (x3 (ix2 (0 : Fin 1) q)) (x4 (ix2 (0 : Fin 1) q)) := by
  unfold out19_5
  rw [View.canon_unit_zero hz]
  simp only [View.ld_unit_zero (S := S1x128) hz, View.ld_unit_zero (S := S5000x128) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg19.N,
    win19_0.index t (0 : Fin 2) = t.val ∧ win19_0.index t (1 : Fin 2) = 0
    ∧ win19_1.index t (0 : Fin 2) = 0 ∧ win19_1.index t (1 : Fin 2) = 0
    ∧ win19_2.index t (0 : Fin 2) = 0 ∧ win19_2.index t (1 : Fin 2) = 0
    ∧ win19_3.index t (0 : Fin 2) = 0 ∧ win19_3.index t (1 : Fin 2) = 0
    ∧ win19_4.index t (0 : Fin 2) = 0 ∧ win19_4.index t (1 : Fin 2) = 0
    ∧ win19_5.index t (0 : Fin 2) = t.val ∧ win19_5.index t (1 : Fin 2) = 0 :=
  (by decide +kernel : ∀ t : Fin grid19.N, _)

/-- Row `p`, column `q` of the output's block at point `t` is row 5000·t + p, column q of the array: a block's coordinate
    is its index times its extent plus the coordinate inside it. -/
theorem emb_out (t : Fin cfg19.N) (p : Fin 5000) (q : Fin 128) (h : t.val * 5000 + p.val < 100000) :
    ((cfg19.win 5).blk t).view.emb (ix2 p q) = (ix2 ⟨t.val * 5000 + p.val, h⟩ q : S100000x128.Idx) := by
  obtain ⟨-, -, -, -, -, -, -, -, -, -, e50, e51⟩ := idx_facts t
  funext a; apply Fin.ext
  match a with
  | ⟨0, _⟩ => show win19_5.index t (0 : Fin 2) * 5000 + 1 * p.val = t.val * 5000 + p.val; omega
  | ⟨1, _⟩ => show win19_5.index t (1 : Fin 2) * 128 + 1 * q.val = q.val; omega

/-- The tall input's block at point `t`, read at (p, q), is the array at row 5000·t + p, column q: the same rows the
    output's block has there. -/
theorem y_apply (c : Dev nD) (t : Fin cfg19.N) (p : Fin 5000) (q : Fin 128) (h : t.val * 5000 + p.val < 100000) :
    (iblk19 V c 0 t : Vec Ideal S5000x128 .f32) (ix2 p q) = yArr V c (ix2 ⟨t.val * 5000 + p.val, h⟩ q) := by
  obtain ⟨e00, e01, -⟩ := idx_facts t
  unfold iblk19
  rw [View.read_apply]
  show yArr V c (((cfg19.win 0).blk t).view.emb (ix2 p q)) = _
  refine congrArg (yArr V c) ?_
  funext a; apply Fin.ext
  match a with
  | ⟨0, _⟩ => show win19_0.index t (0 : Fin 2) * 5000 + 1 * p.val = t.val * 5000 + p.val; omega
  | ⟨1, _⟩ => show win19_0.index t (1 : Fin 2) * 128 + 1 * q.val = q.val; omega

/-- The mean row's block, at every point, is the row. -/
theorem mean_apply (c : Dev nD) (t : Fin cfg19.N) (q : Fin 128) :
    (iblk19 V c 1 t : Vec Ideal S1x128 .f32) (ix2 (0 : Fin 1) q) = meanRow V c (ix2 (0 : Fin 1) q) := by
  obtain ⟨-, -, e10, e11, -⟩ := idx_facts t
  unfold iblk19
  rw [View.read_apply]
  show meanRow V c (((cfg19.win 1).blk t).view.emb (ix2 (0 : Fin 1) q)) = _
  refine congrArg (meanRow V c) ?_
  funext a; apply Fin.ext
  match a with
  | ⟨0, _⟩ => show win19_1.index t (0 : Fin 2) * 1 + 1 * 0 = 0; omega
  | ⟨1, _⟩ => show win19_1.index t (1 : Fin 2) * 128 + 1 * q.val = q.val; omega

/-- The variance row's block, at every point, is the row. -/
theorem var_apply (c : Dev nD) (t : Fin cfg19.N) (q : Fin 128) :
    (iblk19 V c 2 t : Vec Ideal S1x128 .f32) (ix2 (0 : Fin 1) q) = varRow V c (ix2 (0 : Fin 1) q) := by
  obtain ⟨-, -, -, -, e20, e21, -⟩ := idx_facts t
  unfold iblk19
  rw [View.read_apply]
  show varRow V c (((cfg19.win 2).blk t).view.emb (ix2 (0 : Fin 1) q)) = _
  refine congrArg (varRow V c) ?_
  funext a; apply Fin.ext
  match a with
  | ⟨0, _⟩ => show win19_2.index t (0 : Fin 2) * 1 + 1 * 0 = 0; omega
  | ⟨1, _⟩ => show win19_2.index t (1 : Fin 2) * 128 + 1 * q.val = q.val; omega

/-- The scale row's block, at every point, is the row. -/
theorem g_apply (c : Dev nD) (t : Fin cfg19.N) (q : Fin 128) :
    (iblk19 V c 3 t : Vec Ideal S1x128 .f32) (ix2 (0 : Fin 1) q) = gRow V c (ix2 (0 : Fin 1) q) := by
  obtain ⟨-, -, -, -, -, -, e30, e31, -⟩ := idx_facts t
  unfold iblk19
  rw [View.read_apply]
  show gRow V c (((cfg19.win 3).blk t).view.emb (ix2 (0 : Fin 1) q)) = _
  refine congrArg (gRow V c) ?_
  funext a; apply Fin.ext
  match a with
  | ⟨0, _⟩ => show win19_3.index t (0 : Fin 2) * 1 + 1 * 0 = 0; omega
  | ⟨1, _⟩ => show win19_3.index t (1 : Fin 2) * 128 + 1 * q.val = q.val; omega

/-- The shift row's block, at every point, is the row. -/
theorem beta_apply (c : Dev nD) (t : Fin cfg19.N) (q : Fin 128) :
    (iblk19 V c 4 t : Vec Ideal S1x128 .f32) (ix2 (0 : Fin 1) q) = betaRow V c (ix2 (0 : Fin 1) q) := by
  obtain ⟨-, -, -, -, -, -, -, -, e40, e41, -⟩ := idx_facts t
  unfold iblk19
  rw [View.read_apply]
  show betaRow V c (((cfg19.win 4).blk t).view.emb (ix2 (0 : Fin 1) q)) = _
  refine congrArg (betaRow V c) ?_
  funext a; apply Fin.ext
  match a with
  | ⟨0, _⟩ => show win19_4.index t (0 : Fin 2) * 1 + 1 * 0 = 0; omega
  | ⟨1, _⟩ => show win19_4.index t (1 : Fin 2) * 128 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg19.N) :
    (dat19 (F := Ideal) V c).flushed 5 t = ((cfg19.win 5).blk t).view.read (Elt Ideal) (result V c) := by
  show (cfg19.win 5).cut (grid19.coords t) ((dat19 V c).after 5 t) = _
  rw [after19_5]
  have ht : t.val < 20 := Nat.lt_of_lt_of_eq t.isLt N_19
  funext j
  obtain ⟨p, q, rfl⟩ : ∃ (p : Fin 5000) (q : Fin 128), j = ix2 p q := ⟨j 0, j 1, eq_ix2 j⟩
  have h : t.val * 5000 + p.val < 100000 := by have := p.isLt; omega
  show out19_5 (iblk19 V c 0 t) (iblk19 V c 1 t) (iblk19 V c 2 t) (iblk19 V c 3 t) (iblk19 V c 4 t) (ix2 p q)
      = result V c (((cfg19.win 5).blk t).view.emb (ix2 p q))
  refine (out_apply (iblk19 V c 0 t) (iblk19 V c 1 t) (iblk19 V c 2 t) (iblk19 V c 3 t) (iblk19 V c 4 t) p q).trans ?_
  refine Eq.trans ?_ (congrArg (result V c) (emb_out t p q h)).symm
  refine Eq.trans ?_ (show StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg19.N) (i : S100000x128.Idx) :
    i ∈ ((cfg19.win 5).blk t).view.set ↔ ∀ a : Fin 2, win19_5.index t a * S5000x128.size a ≤ (i a).val
      ∧ (i a).val < win19_5.index t a * S5000x128.size a + S5000x128.size a := by
  show i ∈ ((View.whole main_v244).slice (win19_5.rect t)).set ↔ _
  rw [View.set_slice_whole, Rect.mem_set_unit]
  exact Iff.rfl

/-- The twenty blocks tile the array: row `r` is in the block of point `r / 5000`, and every point writes its block back. -/
theorem cover (i : S100000x128.Idx) :
    ∃ t : Fin cfg19.N, (cfg19.win 5).flush t = true ∧ i ∈ ((cfg19.win 5).blk t).view.set := by
  have hi0 : (i 0).val < 100000 := idx2_lt0 i
  have hi1 : (i 1).val < 128 := idx2_lt1 i
  obtain ⟨t, ht⟩ : ∃ t : Fin cfg19.N, t.val = (i 0).val / 5000 :=
    ⟨⟨(i 0).val / 5000, by rw [show cfg19.N = 20 from N_19]; omega⟩, rfl⟩
  obtain ⟨-, -, -, -, -, -, -, -, -, -, e50, e51⟩ := idx_facts t
  refine ⟨t, flush19_5 t, ?_⟩
  rw [mem_blk]
  intro a
  match a with
  | ⟨0, _⟩ =>
    show win19_5.index t (0 : Fin 2) * 5000 ≤ (i 0).val ∧ (i 0).val < win19_5.index t (0 : Fin 2) * 5000 + 5000
    omega
  | ⟨1, _⟩ =>
    show win19_5.index t (1 : Fin 2) * 128 ≤ (i 1).val ∧ (i 1).val < win19_5.index t (1 : Fin 2) * 128 + 128
    omega

/-- THE INTERFACE of this region: after its twenty points the output array is `result`. -/
theorem arrAt_out (c : Dev nD) : (dat19 (F := Ideal) V c).arrAt 5 cfg19.N = result V c := by
  exact (dat19 V c).arrAt_eq_of_cover 5 (result V c) (fun t _ => flushed_eq V c t) cover

end Cert.KernelIdeal.ValNorm19

end
-- ==== Proof.Carry6.lean ====
import proofs.«414479_j7705171329025_1_alg».proof.Proof.FrameKI.Run

set_option maxRecDepth 16384

noncomputable section

namespace Cert.KernelIdeal.Carry

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- Nothing between boundary 0 and boundary 38 of the run writes `main_arg10`: it keeps its contents. -/
theorem main_arg10_0_38 (c : Dev nD) : W38 m ρ c (Proc.devRef .tc main_arg10) = W0 m ρ c (Proc.devRef .tc main_arg10) :=
  calc W38 m ρ c (Proc.devRef .tc main_arg10)
    _ = W37 m ρ c (Proc.devRef .tc main_arg10) := W38_of_ne m ρ c main_arg10 (by decide)
    _ = W36 m ρ c (Proc.devRef .tc main_arg10) := StableHlo.after_of_forall_not_mem (b := Proc.devRef .tc main_arg10) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg10) := W36_of_ne m ρ c main_arg10 (by decide)
    _ = W34 m ρ c (Proc.devRef .tc main_arg10) := StableHlo.after_of_forall_not_mem (b := Proc.devRef .tc main_arg10) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg10) := W34_of_ne m ρ c main_arg10 (by decide)
    _ = W32 m ρ c (Proc.devRef .tc main_arg10) := StableHlo.after_of_forall_not_mem (b := Proc.devRef .tc main_arg10) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg10) := W32_of_ne m ρ c main_arg10 (by decide)
    _ = W30 m ρ c (Proc.devRef .tc main_arg10) := StableHlo.after_of_forall_not_mem (b := Proc.devRef .tc main_arg10) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg10) := W30_of_ne m ρ c main_arg10 (by decide)
    _ = W28 m ρ c (Proc.devRef .tc main_arg10) := StableHlo.after_of_forall_not_mem (b := Proc.devRef .tc main_arg10) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg10) := W28_of_ne m ρ c main_arg10 (by decide)
    _ = W26 m ρ c (Proc.devRef .tc main_arg10) := StableHlo.after_of_forall_not_mem (b := Proc.devRef .tc main_arg10) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg10) := W26_of_ne m ρ c main_arg10 (by decide)
    _ = W24 m ρ c (Proc.devRef .tc main_arg10) := StableHlo.after_of_forall_not_mem (b := Proc.devRef .tc main_arg10) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg10) := W24_of_ne m ρ c main_arg10 (by decide)
    _ = W22 m ρ c (Proc.devRef .tc main_arg10) := StableHlo.after_of_forall_not_mem (b := Proc.devRef .tc main_arg10) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg10) := W22_of_ne m ρ c main_arg10 (by decide)
    _ = W20 m ρ c (Proc.devRef .tc main_arg10) := StableHlo.after_of_forall_not_mem (b := Proc.devRef .tc main_arg10) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg10) := W20_of_ne m ρ c main_arg10 (by decide)
    _ = W18 m ρ c (Proc.devRef .tc main_arg10) := StableHlo.after_of_forall_not_mem (b := Proc.devRef .tc main_arg10) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg10) := W18_of_ne m ρ c main_arg10 (by decide)
    _ = W16 m ρ c (Proc.devRef .tc main_arg10) := StableHlo.after_of_forall_not_mem (b := Proc.devRef .tc main_arg10) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg10) := W16_of_ne m ρ c main_arg10 (by decide)
    _ = W14 m ρ c (Proc.devRef .tc main_arg10) := StableHlo.after_of_forall_not_mem (b := Proc.devRef .tc main_arg10) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 38 of the run writes `main_arg11`: it keeps its contents. -/
theorem main_arg11_0_38 (c : Dev nD) : W38 m ρ c (Proc.devRef .tc main_arg11) = W0 m ρ c (Proc.devRef .tc main_arg11) :=
  calc W38 m ρ c (Proc.devRef .tc main_arg11)
    _ = W37 m ρ c (Proc.devRef .tc main_arg11) := W38_of_ne m ρ c main_arg11 (by decide)
    _ = W36 m ρ c (Proc.devRef .tc main_arg11) := StableHlo.after_of_forall_not_mem (b := Proc.devRef .tc main_arg11) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg11) := W36_of_ne m ρ c main_arg11 (by decide)
    _ = W34 m ρ c (Proc.devRef .tc main_arg11) := StableHlo.after_of_forall_not_mem (b := Proc.devRef .tc main_arg11) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg11) := W34_of_ne m ρ c main_arg11 (by decide)
    _ = W32 m ρ c (Proc.devRef .tc main_arg11) := StableHlo.after_of_forall_not_mem (b := Proc.devRef .tc main_arg11) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg11) := W32_of_ne m ρ c main_arg11 (by decide)
    _ = W30 m ρ c (Proc.devRef .tc main_arg11) := StableHlo.after_of_forall_not_mem (b := Proc.devRef .tc main_arg11) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg11) := W30_of_ne m ρ c main_arg11 (by decide)
    _ = W28 m ρ c (Proc.devRef .tc main_arg11) := StableHlo.after_of_forall_not_mem (b := Proc.devRef .tc main_arg11) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg11) := W28_of_ne m ρ c main_arg11 (by decide)
    _ = W26 m ρ c (Proc.devRef .tc main_arg11) := StableHlo.after_of_forall_not_mem (b := Proc.devRef .tc main_arg11) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg11) := W26_of_ne m ρ c main_arg11 (by decide)
    _ = W24 m ρ c (Proc.devRef .tc main_arg11) := StableHlo.after_of_forall_not_mem (b := Proc.devRef .tc main_arg11) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg11) := W24_of_ne m ρ c main_arg11 (by decide)
    _ = W22 m ρ c (Proc.devRef .tc main_arg11) := StableHlo.after_of_forall_not_mem (b := Proc.devRef .tc main_arg11) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg11) := W22_of_ne m ρ c main_arg11 (by decide)
    _ = W20 m ρ c (Proc.devRef .tc main_arg11) := StableHlo.after_of_forall_not_mem (b := Proc.devRef .tc main_arg11) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg11) := W20_of_ne m ρ c main_arg11 (by decide)
    _ = W18 m ρ c (Proc.devRef .tc main_arg11) := StableHlo.after_of_forall_not_mem (b := Proc.devRef .tc main_arg11) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg11) := W18_of_ne m ρ c main_arg11 (by decide)
    _ = W16 m ρ c (Proc.devRef .tc main_arg11) := StableHlo.after_of_forall_not_mem (b := Proc.devRef .tc main_arg11) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg11) := W16_of_ne m ρ c main_arg11 (by decide)
    _ = W14 m ρ c (Proc.devRef .tc main_arg11) := StableHlo.after_of_forall_not_mem (b := Proc.devRef .tc main_arg11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 40 of the run writes `main_arg1`: it keeps its contents. -/
theorem main_arg1_0_40 (c : Dev nD) : W40 m ρ c (Proc.devRef .tc main_arg1) = W0 m ρ c (Proc.devRef .tc main_arg1) :=
  calc W40 m ρ c (Proc.devRef .tc main_arg1)
    _ = W39 m ρ c (Proc.devRef .tc main_arg1) := W40_of_ne m ρ c main_arg1 (by decide)
    _ = W38 m ρ c (Proc.devRef .tc main_arg1) := StableHlo.after_of_forall_not_mem (b := Proc.devRef .tc main_arg1) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg1) := W38_of_ne m ρ c main_arg1 (by decide)
    _ = W36 m ρ c (Proc.devRef .tc main_arg1) := StableHlo.after_of_forall_not_mem (b := Proc.devRef .tc main_arg1) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg1) := W36_of_ne m ρ c main_arg1 (by decide)
    _ = W34 m ρ c (Proc.devRef .tc main_arg1) := StableHlo.after_of_forall_not_mem (b := Proc.devRef .tc main_arg1) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg1) := W34_of_ne m ρ c main_arg1 (by decide)
    _ = W32 m ρ c (Proc.devRef .tc main_arg1) := StableHlo.after_of_forall_not_mem (b := Proc.devRef .tc main_arg1) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg1) := W32_of_ne m ρ c main_arg1 (by decide)
    _ = W30 m ρ c (Proc.devRef .tc main_arg1) := StableHlo.after_of_forall_not_mem (b := Proc.devRef .tc main_arg1) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg1) := W30_of_ne m ρ c main_arg1 (by decide)
    _ = W28 m ρ c (Proc.devRef .tc main_arg1) := StableHlo.after_of_forall_not_mem (b := Proc.devRef .tc main_arg1) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg1) := W28_of_ne m ρ c main_arg1 (by decide)
    _ = W26 m ρ c (Proc.devRef .tc main_arg1) := StableHlo.after_of_forall_not_mem (b := Proc.devRef .tc main_arg1) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg1) := W26_of_ne m ρ c main_arg1 (by decide)
    _ = W24 m ρ c (Proc.devRef .tc main_arg1) := StableHlo.after_of_forall_not_mem (b := Proc.devRef .tc main_arg1) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg1) := W24_of_ne m ρ c main_arg1 (by decide)
    _ = W22 m ρ c (Proc.devRef .tc main_arg1) := StableHlo.after_of_forall_not_mem (b := Proc.devRef .tc main_arg1) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg1) := W22_of_ne m ρ c main_arg1 (by decide)
    _ = W20 m ρ c (Proc.devRef .tc main_arg1) := StableHlo.after_of_forall_not_mem (b := Proc.devRef .tc main_arg1) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg1) := W20_of_ne m ρ c main_arg1 (by decide)
    _ = W18 m ρ c (Proc.devRef .tc main_arg1) := StableHlo.after_of_forall_not_mem (b := Proc.devRef .tc main_arg1) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg1) := W18_of_ne m ρ c main_arg1 (by decide)
    _ = W16 m ρ c (Proc.devRef .tc main_arg1) := StableHlo.after_of_forall_not_mem (b := Proc.devRef .tc main_arg1) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg1) := W16_of_ne m ρ c main_arg1 (by decide)
    _ = W14 m ρ c (Proc.devRef .tc main_arg1) := StableHlo.after_of_forall_not_mem (b := Proc.devRef .tc main_arg1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg1) := W14_of_ne m ρ c main_arg1 (by decide)
    _ = W12 m ρ c (Proc.devRef .tc main_arg1) := StableHlo.after_of_forall_not_mem (b := Proc.devRef .tc main_arg1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 40 of the run writes `main_arg2`: it keeps its contents. -/
theorem main_arg2_0_40 (c : Dev nD) : W40 m ρ c (Proc.devRef .tc main_arg2) = W0 m ρ c (Proc.devRef .tc main_arg2) :=
  calc W40 m ρ c (Proc.devRef .tc main_arg2)
    _ = W39 m ρ c (Proc.devRef .tc main_arg2) := W40_of_ne m ρ c main_arg2 (by decide)
    _ = W38 m ρ c (Proc.devRef .tc main_arg2) := StableHlo.after_of_forall_not_mem (b := Proc.devRef .tc main_arg2) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg2) := W38_of_ne m ρ c main_arg2 (by decide)
    _ = W36 m ρ c (Proc.devRef .tc main_arg2) := StableHlo.after_of_forall_not_mem (b := Proc.devRef .tc main_arg2) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg2) := W36_of_ne m ρ c main_arg2 (by decide)
    _ = W34 m ρ c (Proc.devRef .tc main_arg2) := StableHlo.after_of_forall_not_mem (b := Proc.devRef .tc main_arg2) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg2) := W34_of_ne m ρ c main_arg2 (by decide)
    _ = W32 m ρ c (Proc.devRef .tc main_arg2) := StableHlo.after_of_forall_not_mem (b := Proc.devRef .tc main_arg2) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg2) := W32_of_ne m ρ c main_arg2 (by decide)
    _ = W30 m ρ c (Proc.devRef .tc main_arg2) := StableHlo.after_of_forall_not_mem (b := Proc.devRef .tc main_arg2) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg2) := W30_of_ne m ρ c main_arg2 (by decide)
    _ = W28 m ρ c (Proc.devRef .tc main_arg2) := StableHlo.after_of_forall_not_mem (b := Proc.devRef .tc main_arg2) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg2) := W28_of_ne m ρ c main_arg2 (by decide)
    _ = W26 m ρ c (Proc.devRef .tc main_arg2) := StableHlo.after_of_forall_not_mem (b := Proc.devRef .tc main_arg2) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg2) := W26_of_ne m ρ c main_arg2 (by decide)
    _ = W24 m ρ c (Proc.devRef .tc main_arg2) := StableHlo.after_of_forall_not_mem (b := Proc.devRef .tc main_arg2) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg2) := W24_of_ne m ρ c main_arg2 (by decide)
    _ = W22 m ρ c (Proc.devRef .tc main_arg2) := StableHlo.after_of_forall_not_mem (b := Proc.devRef .tc main_arg2) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg2) := W22_of_ne m ρ c main_arg2 (by decide)
    _ = W20 m ρ c (Proc.devRef .tc main_arg2) := StableHlo.after_of_forall_not_mem (b := Proc.devRef .tc main_arg2) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg2) := W20_of_ne m ρ c main_arg2 (by decide)
    _ = W18 m ρ c (Proc.devRef .tc main_arg2) := StableHlo.after_of_forall_not_mem (b := Proc.devRef .tc main_arg2) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg2) := W18_of_ne m ρ c main_arg2 (by decide)
    _ = W16 m ρ c (Proc.devRef .tc main_arg2) := StableHlo.after_of_forall_not_mem (b := Proc.devRef .tc main_arg2) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg2) := W16_of_ne m ρ c main_arg2 (by decide)
    _ = W14 m ρ c (Proc.devRef .tc main_arg2) := StableHlo.after_of_forall_not_mem (b := Proc.devRef .tc main_arg2) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 40 of the run writes `main_arg8`: it keeps its contents. -/
theorem main_arg8_0_40 (c : Dev nD) : W40 m ρ c (Proc.devRef .tc main_arg8) = W0 m ρ c (Proc.devRef .tc main_arg8) :=
  calc W40 m ρ c (Proc.devRef .tc main_arg8)
    _ = W39 m ρ c (Proc.devRef .tc main_arg8) := W40_of_ne m ρ c main_arg8 (by decide)
    _ = W38 m ρ c (Proc.devRef .tc main_arg8) := StableHlo.after_of_forall_not_mem (b := Proc.devRef .tc main_arg8) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg8) := W38_of_ne m ρ c main_arg8 (by decide)
    _ = W36 m ρ c (Proc.devRef .tc main_arg8) := StableHlo.after_of_forall_not_mem (b := Proc.devRef .tc main_arg8) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg8) := W36_of_ne m ρ c main_arg8 (by decide)
    _ = W34 m ρ c (Proc.devRef .tc main_arg8) := StableHlo.after_of_forall_not_mem (b := Proc.devRef .tc main_arg8) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg8) := W34_of_ne m ρ c main_arg8 (by decide)
    _ = W32 m ρ c (Proc.devRef .tc main_arg8) := StableHlo.after_of_forall_not_mem (b := Proc.devRef .tc main_arg8) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg8) := W32_of_ne m ρ c main_arg8 (by decide)
    _ = W30 m ρ c (Proc.devRef .tc main_arg8) := StableHlo.after_of_forall_not_mem (b := Proc.devRef .tc main_arg8) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg8) := W30_of_ne m ρ c main_arg8 (by decide)
    _ = W28 m ρ c (Proc.devRef .tc main_arg8) := StableHlo.after_of_forall_not_mem (b := Proc.devRef .tc main_arg8) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg8) := W28_of_ne m ρ c main_arg8 (by decide)
    _ = W26 m ρ c (Proc.devRef .tc main_arg8) := StableHlo.after_of_forall_not_mem (b := Proc.devRef .tc main_arg8) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg8) := W26_of_ne m ρ c main_arg8 (by decide)
    _ = W24 m ρ c (Proc.devRef .tc main_arg8) := StableHlo.after_of_forall_not_mem (b := Proc.devRef .tc main_arg8) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg8) := W24_of_ne m ρ c main_arg8 (by decide)
    _ = W22 m ρ c (Proc.devRef .tc main_arg8) := StableHlo.after_of_forall_not_mem (b := Proc.devRef .tc main_arg8) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg8) := W22_of_ne m ρ c main_arg8 (by decide)
    _ = W20 m ρ c (Proc.devRef .tc main_arg8) := StableHlo.after_of_forall_not_mem (b := Proc.devRef .tc main_arg8) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg8) := W20_of_ne m ρ c main_arg8 (by decide)
    _ = W18 m ρ c (Proc.devRef .tc main_arg8) := StableHlo.after_of_forall_not_mem (b := Proc.devRef .tc main_arg8) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg8) := W18_of_ne m ρ c main_arg8 (by decide)
    _ = W16 m ρ c (Proc.devRef .tc main_arg8) := StableHlo.after_of_forall_not_mem (b := Proc.devRef .tc main_arg8) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 40 of the run writes `main_arg9`: it keeps its contents. -/
theorem main_arg9_0_40 (c : Dev nD) : W40 m ρ c (Proc.devRef .tc main_arg9) = W0 m ρ c (Proc.devRef .tc main_arg9) :=
  calc W40 m ρ c (Proc.devRef .tc main_arg9)
    _ = W39 m ρ c (Proc.devRef .tc main_arg9) := W40_of_ne m ρ c main_arg9 (by decide)
    _ = W38 m ρ c (Proc.devRef .tc main_arg9) := StableHlo.after_of_forall_not_mem (b := Proc.devRef .tc main_arg9) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg9) := W38_of_ne m ρ c main_arg9 (by decide)
    _ = W36 m ρ c (Proc.devRef .tc main_arg9) := StableHlo.after_of_forall_not_mem (b := Proc.devRef .tc main_arg9) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg9) := W36_of_ne m ρ c main_arg9 (by decide)
    _ = W34 m ρ c (Proc.devRef .tc main_arg9) := StableHlo.after_of_forall_not_mem (b := Proc.devRef .tc main_arg9) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg9) := W34_of_ne m ρ c main_arg9 (by decide)
    _ = W32 m ρ c (Proc.devRef .tc main_arg9) := StableHlo.after_of_forall_not_mem (b := Proc.devRef .tc main_arg9) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg9) := W32_of_ne m ρ c main_arg9 (by decide)
    _ = W30 m ρ c (Proc.devRef .tc main_arg9) := StableHlo.after_of_forall_not_mem (b := Proc.devRef .tc main_arg9) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg9) := W30_of_ne m ρ c main_arg9 (by decide)
    _ = W28 m ρ c (Proc.devRef .tc main_arg9) := StableHlo.after_of_forall_not_mem (b := Proc.devRef .tc main_arg9) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg9) := W28_of_ne m ρ c main_arg9 (by decide)
    _ = W26 m ρ c (Proc.devRef .tc main_arg9) := StableHlo.after_of_forall_not_mem (b := Proc.devRef .tc main_arg9) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg9) := W26_of_ne m ρ c main_arg9 (by decide)
    _ = W24 m ρ c (Proc.devRef .tc main_arg9) := StableHlo.after_of_forall_not_mem (b := Proc.devRef .tc main_arg9) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg9) := W24_of_ne m ρ c main_arg9 (by decide)
    _ = W22 m ρ c (Proc.devRef .tc main_arg9) := StableHlo.after_of_forall_not_mem (b := Proc.devRef .tc main_arg9) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg9) := W22_of_ne m ρ c main_arg9 (by decide)
    _ = W20 m ρ c (Proc.devRef .tc main_arg9) := StableHlo.after_of_forall_not_mem (b := Proc.devRef .tc main_arg9) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg9) := W20_of_ne m ρ c main_arg9 (by decide)
    _ = W18 m ρ c (Proc.devRef .tc main_arg9) := StableHlo.after_of_forall_not_mem (b := Proc.devRef .tc main_arg9) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg9) := W18_of_ne m ρ c main_arg9 (by decide)
    _ = W16 m ρ c (Proc.devRef .tc main_arg9) := StableHlo.after_of_forall_not_mem (b := Proc.devRef .tc main_arg9) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg9) := W16_of_ne m ρ c main_arg9 (by decide)
    _ = W14 m ρ c (Proc.devRef .tc main_arg9) := StableHlo.after_of_forall_not_mem (b := Proc.devRef .tc main_arg9) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 42 of the run writes `main_arg10`: it keeps its contents. -/
theorem main_arg10_0_42 (c : Dev nD) : W42 m ρ c (Proc.devRef .tc main_arg10) = W0 m ρ c (Proc.devRef .tc main_arg10) :=
  calc W42 m ρ c (Proc.devRef .tc main_arg10)
    _ = W41 m ρ c (Proc.devRef .tc main_arg10) := W42_of_ne m ρ c main_arg10 (by decide)
    _ = W40 m ρ c (Proc.devRef .tc main_arg10) := StableHlo.after_of_forall_not_mem (b := Proc.devRef .tc main_arg10) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg10) := W40_of_ne m ρ c main_arg10 (by decide)
    _ = W38 m ρ c (Proc.devRef .tc main_arg10) := StableHlo.after_of_forall_not_mem (b := Proc.devRef .tc main_arg10) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg10) := W38_of_ne m ρ c main_arg10 (by decide)
    _ = W36 m ρ c (Proc.devRef .tc main_arg10) := StableHlo.after_of_forall_not_mem (b := Proc.devRef .tc main_arg10) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg10) := W36_of_ne m ρ c main_arg10 (by decide)
    _ = W34 m ρ c (Proc.devRef .tc main_arg10) := StableHlo.after_of_forall_not_mem (b := Proc.devRef .tc main_arg10) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg10) := W34_of_ne m ρ c main_arg10 (by decide)
    _ = W32 m ρ c (Proc.devRef .tc main_arg10) := StableHlo.after_of_forall_not_mem (b := Proc.devRef .tc main_arg10) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg10) := W32_of_ne m ρ c main_arg10 (by decide)
    _ = W30 m ρ c (Proc.devRef .tc main_arg10) := StableHlo.after_of_forall_not_mem (b := Proc.devRef .tc main_arg10) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg10) := W30_of_ne m ρ c main_arg10 (by decide)
    _ = W28 m ρ c (Proc.devRef .tc main_arg10) := StableHlo.after_of_forall_not_mem (b := Proc.devRef .tc main_arg10) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg10) := W28_of_ne m ρ c main_arg10 (by decide)
    _ = W26 m ρ c (Proc.devRef .tc main_arg10) := StableHlo.after_of_forall_not_mem (b := Proc.devRef .tc main_arg10) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg10) := W26_of_ne m ρ c main_arg10 (by decide)
    _ = W24 m ρ c (Proc.devRef .tc main_arg10) := StableHlo.after_of_forall_not_mem (b := Proc.devRef .tc main_arg10) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg10) := W24_of_ne m ρ c main_arg10 (by decide)
    _ = W22 m ρ c (Proc.devRef .tc main_arg10) := StableHlo.after_of_forall_not_mem (b := Proc.devRef .tc main_arg10) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg10) := W22_of_ne m ρ c main_arg10 (by decide)
    _ = W20 m ρ c (Proc.devRef .tc main_arg10) := StableHlo.after_of_forall_not_mem (b := Proc.devRef .tc main_arg10) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg10) := W20_of_ne m ρ c main_arg10 (by decide)
    _ = W18 m ρ c (Proc.devRef .tc main_arg10) := StableHlo.after_of_forall_not_mem (b := Proc.devRef .tc main_arg10) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg10) := W18_of_ne m ρ c main_arg10 (by decide)
    _ = W16 m ρ c (Proc.devRef .tc main_arg10) := StableHlo.after_of_forall_not_mem (b := Proc.devRef .tc main_arg10) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg10) := W16_of_ne m ρ c main_arg10 (by decide)
    _ = W14 m ρ c (Proc.devRef .tc main_arg10) := StableHlo.after_of_forall_not_mem (b := Proc.devRef .tc main_arg10) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 42 of the run writes `main_arg11`: it keeps its contents. -/
theorem main_arg11_0_42 (c : Dev nD) : W42 m ρ c (Proc.devRef .tc main_arg11) = W0 m ρ c (Proc.devRef .tc main_arg11) :=
  calc W42 m ρ c (Proc.devRef .tc main_arg11)
    _ = W41 m ρ c (Proc.devRef .tc main_arg11) := W42_of_ne m ρ c main_arg11 (by decide)
    _ = W40 m ρ c (Proc.devRef .tc main_arg11) := StableHlo.after_of_forall_not_mem (b := Proc.devRef .tc main_arg11) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg11) := W40_of_ne m ρ c main_arg11 (by decide)
    _ = W38 m ρ c (Proc.devRef .tc main_arg11) := StableHlo.after_of_forall_not_mem (b := Proc.devRef .tc main_arg11) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg11) := W38_of_ne m ρ c main_arg11 (by decide)
    _ = W36 m ρ c (Proc.devRef .tc main_arg11) := StableHlo.after_of_forall_not_mem (b := Proc.devRef .tc main_arg11) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg11) := W36_of_ne m ρ c main_arg11 (by decide)
    _ = W34 m ρ c (Proc.devRef .tc main_arg11) := StableHlo.after_of_forall_not_mem (b := Proc.devRef .tc main_arg11) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg11) := W34_of_ne m ρ c main_arg11 (by decide)
    _ = W32 m ρ c (Proc.devRef .tc main_arg11) := StableHlo.after_of_forall_not_mem (b := Proc.devRef .tc main_arg11) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg11) := W32_of_ne m ρ c main_arg11 (by decide)
    _ = W30 m ρ c (Proc.devRef .tc main_arg11) := StableHlo.after_of_forall_not_mem (b := Proc.devRef .tc main_arg11) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg11) := W30_of_ne m ρ c main_arg11 (by decide)
    _ = W28 m ρ c (Proc.devRef .tc main_arg11) := StableHlo.after_of_forall_not_mem (b := Proc.devRef .tc main_arg11) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg11) := W28_of_ne m ρ c main_arg11 (by decide)
    _ = W26 m ρ c (Proc.devRef .tc main_arg11) := StableHlo.after_of_forall_not_mem (b := Proc.devRef .tc main_arg11) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg11) := W26_of_ne m ρ c main_arg11 (by decide)
    _ = W24 m ρ c (Proc.devRef .tc main_arg11) := StableHlo.after_of_forall_not_mem (b := Proc.devRef .tc main_arg11) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg11) := W24_of_ne m ρ c main_arg11 (by decide)
    _ = W22 m ρ c (Proc.devRef .tc main_arg11) := StableHlo.after_of_forall_not_mem (b := Proc.devRef .tc main_arg11) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg11) := W22_of_ne m ρ c main_arg11 (by decide)
    _ = W20 m ρ c (Proc.devRef .tc main_arg11) := StableHlo.after_of_forall_not_mem (b := Proc.devRef .tc main_arg11) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg11) := W20_of_ne m ρ c main_arg11 (by decide)
    _ = W18 m ρ c (Proc.devRef .tc main_arg11) := StableHlo.after_of_forall_not_mem (b := Proc.devRef .tc main_arg11) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg11) := W18_of_ne m ρ c main_arg11 (by decide)
    _ = W16 m ρ c (Proc.devRef .tc main_arg11) := StableHlo.after_of_forall_not_mem (b := Proc.devRef .tc main_arg11) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg11) := W16_of_ne m ρ c main_arg11 (by decide)
    _ = W14 m ρ c (Proc.devRef .tc main_arg11) := StableHlo.after_of_forall_not_mem (b := Proc.devRef .tc main_arg11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 44 of the run writes `main_arg1`: it keeps its contents. -/
theorem main_arg1_0_44 (c : Dev nD) : W44 m ρ c (Proc.devRef .tc main_arg1) = W0 m ρ c (Proc.devRef .tc main_arg1) :=
  calc W44 m ρ c (Proc.devRef .tc main_arg1)
    _ = W43 m ρ c (Proc.devRef .tc main_arg1) := W44_of_ne m ρ c main_arg1 (by decide)
    _ = W42 m ρ c (Proc.devRef .tc main_arg1) := StableHlo.after_of_forall_not_mem (b := Proc.devRef .tc main_arg1) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg1) := W42_of_ne m ρ c main_arg1 (by decide)
    _ = W40 m ρ c (Proc.devRef .tc main_arg1) := StableHlo.after_of_forall_not_mem (b := Proc.devRef .tc main_arg1) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg1) := W40_of_ne m ρ c main_arg1 (by decide)
    _ = W38 m ρ c (Proc.devRef .tc main_arg1) := StableHlo.after_of_forall_not_mem (b := Proc.devRef .tc main_arg1) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg1) := W38_of_ne m ρ c main_arg1 (by decide)
    _ = W36 m ρ c (Proc.devRef .tc main_arg1) := StableHlo.after_of_forall_not_mem (b := Proc.devRef .tc main_arg1) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg1) := W36_of_ne m ρ c main_arg1 (by decide)
    _ = W34 m ρ c (Proc.devRef .tc main_arg1) := StableHlo.after_of_forall_not_mem (b := Proc.devRef .tc main_arg1) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg1) := W34_of_ne m ρ c main_arg1 (by decide)
    _ = W32 m ρ c (Proc.devRef .tc main_arg1) := StableHlo.after_of_forall_not_mem (b := Proc.devRef .tc main_arg1) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg1) := W32_of_ne m ρ c main_arg1 (by decide)
    _ = W30 m ρ c (Proc.devRef .tc main_arg1) := StableHlo.after_of_forall_not_mem (b := Proc.devRef .tc main_arg1) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg1) := W30_of_ne m ρ c main_arg1 (by decide)
    _ = W28 m ρ c (Proc.devRef .tc main_arg1) := StableHlo.after_of_forall_not_mem (b := Proc.devRef .tc main_arg1) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg1) := W28_of_ne m ρ c main_arg1 (by decide)
    _ = W26 m ρ c (Proc.devRef .tc main_arg1) := StableHlo.after_of_forall_not_mem (b := Proc.devRef .tc main_arg1) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg1) := W26_of_ne m ρ c main_arg1 (by decide)
    _ = W24 m ρ c (Proc.devRef .tc main_arg1) := StableHlo.after_of_forall_not_mem (b := Proc.devRef .tc main_arg1) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg1) := W24_of_ne m ρ c main_arg1 (by decide)
    _ = W22 m ρ c (Proc.devRef .tc main_arg1) := StableHlo.after_of_forall_not_mem (b := Proc.devRef .tc main_arg1) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg1) := W22_of_ne m ρ c main_arg1 (by decide)
    _ = W20 m ρ c (Proc.devRef .tc main_arg1) := StableHlo.after_of_forall_not_mem (b := Proc.devRef .tc main_arg1) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg1) := W20_of_ne m ρ c main_arg1 (by decide)
    _ = W18 m ρ c (Proc.devRef .tc main_arg1) := StableHlo.after_of_forall_not_mem (b := Proc.devRef .tc main_arg1) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg1) := W18_of_ne m ρ c main_arg1 (by decide)
    _ = W16 m ρ c (Proc.devRef .tc main_arg1) := StableHlo.after_of_forall_not_mem (b := Proc.devRef .tc main_arg1) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg1) := W16_of_ne m ρ c main_arg1 (by decide)
    _ = W14 m ρ c (Proc.devRef .tc main_arg1) := StableHlo.after_of_forall_not_mem (b := Proc.devRef .tc main_arg1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg1) := W14_of_ne m ρ c main_arg1 (by decide)
    _ = W12 m ρ c (Proc.devRef .tc main_arg1) := StableHlo.after_of_forall_not_mem (b := Proc.devRef .tc main_arg1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 44 of the run writes `main_arg2`: it keeps its contents. -/
theorem main_arg2_0_44 (c : Dev nD) : W44 m ρ c (Proc.devRef .tc main_arg2) = W0 m ρ c (Proc.devRef .tc main_arg2) :=
  calc W44 m ρ c (Proc.devRef .tc main_arg2)
    _ = W43 m ρ c (Proc.devRef .tc main_arg2) := W44_of_ne m ρ c main_arg2 (by decide)
    _ = W42 m ρ c (Proc.devRef .tc main_arg2) := StableHlo.after_of_forall_not_mem (b := Proc.devRef .tc main_arg2) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg2) := W42_of_ne m ρ c main_arg2 (by decide)
    _ = W40 m ρ c (Proc.devRef .tc main_arg2) := StableHlo.after_of_forall_not_mem (b := Proc.devRef .tc main_arg2) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg2) := W40_of_ne m ρ c main_arg2 (by decide)
    _ = W38 m ρ c (Proc.devRef .tc main_arg2) := StableHlo.after_of_forall_not_mem (b := Proc.devRef .tc main_arg2) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg2) := W38_of_ne m ρ c main_arg2 (by decide)
    _ = W36 m ρ c (Proc.devRef .tc main_arg2) := StableHlo.after_of_forall_not_mem (b := Proc.devRef .tc main_arg2) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg2) := W36_of_ne m ρ c main_arg2 (by decide)
    _ = W34 m ρ c (Proc.devRef .tc main_arg2) := StableHlo.after_of_forall_not_mem (b := Proc.devRef .tc main_arg2) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg2) := W34_of_ne m ρ c main_arg2 (by decide)
    _ = W32 m ρ c (Proc.devRef .tc main_arg2) := StableHlo.after_of_forall_not_mem (b := Proc.devRef .tc main_arg2) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg2) := W32_of_ne m ρ c main_arg2 (by decide)
    _ = W30 m ρ c (Proc.devRef .tc main_arg2) := StableHlo.after_of_forall_not_mem (b := Proc.devRef .tc main_arg2) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg2) := W30_of_ne m ρ c main_arg2 (by decide)
    _ = W28 m ρ c (Proc.devRef .tc main_arg2) := StableHlo.after_of_forall_not_mem (b := Proc.devRef .tc main_arg2) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg2) := W28_of_ne m ρ c main_arg2 (by decide)
    _ = W26 m ρ c (Proc.devRef .tc main_arg2) := StableHlo.after_of_forall_not_mem (b := Proc.devRef .tc main_arg2) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg2) := W26_of_ne m ρ c main_arg2 (by decide)
    _ = W24 m ρ c (Proc.devRef .tc main_arg2) := StableHlo.after_of_forall_not_mem (b := Proc.devRef .tc main_arg2) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg2) := W24_of_ne m ρ c main_arg2 (by decide)
    _ = W22 m ρ c (Proc.devRef .tc main_arg2) := StableHlo.after_of_forall_not_mem (b := Proc.devRef .tc main_arg2) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg2) := W22_of_ne m ρ c main_arg2 (by decide)
    _ = W20 m ρ c (Proc.devRef .tc main_arg2) := StableHlo.after_of_forall_not_mem (b := Proc.devRef .tc main_arg2) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg2) := W20_of_ne m ρ c main_arg2 (by decide)
    _ = W18 m ρ c (Proc.devRef .tc main_arg2) := StableHlo.after_of_forall_not_mem (b := Proc.devRef .tc main_arg2) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg2) := W18_of_ne m ρ c main_arg2 (by decide)
    _ = W16 m ρ c (Proc.devRef .tc main_arg2) := StableHlo.after_of_forall_not_mem (b := Proc.devRef .tc main_arg2) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg2) := W16_of_ne m ρ c main_arg2 (by decide)
    _ = W14 m ρ c (Proc.devRef .tc main_arg2) := StableHlo.after_of_forall_not_mem (b := Proc.devRef .tc main_arg2) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 44 of the run writes `main_arg8`: it keeps its contents. -/
theorem main_arg8_0_44 (c : Dev nD) : W44 m ρ c (Proc.devRef .tc main_arg8) = W0 m ρ c (Proc.devRef .tc main_arg8) :=
  calc W44 m ρ c (Proc.devRef .tc main_arg8)
    _ = W43 m ρ c (Proc.devRef .tc main_arg8) := W44_of_ne m ρ c main_arg8 (by decide)
    _ = W42 m ρ c (Proc.devRef .tc main_arg8) := StableHlo.after_of_forall_not_mem (b := Proc.devRef .tc main_arg8) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg8) := W42_of_ne m ρ c main_arg8 (by decide)
    _ = W40 m ρ c (Proc.devRef .tc main_arg8) := StableHlo.after_of_forall_not_mem (b := Proc.devRef .tc main_arg8) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg8) := W40_of_ne m ρ c main_arg8 (by decide)
    _ = W38 m ρ c (Proc.devRef .tc main_arg8) := StableHlo.after_of_forall_not_mem (b := Proc.devRef .tc main_arg8) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg8) := W38_of_ne m ρ c main_arg8 (by decide)
    _ = W36 m ρ c (Proc.devRef .tc main_arg8) := StableHlo.after_of_forall_not_mem (b := Proc.devRef .tc main_arg8) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg8) := W36_of_ne m ρ c main_arg8 (by decide)
    _ = W34 m ρ c (Proc.devRef .tc main_arg8) := StableHlo.after_of_forall_not_mem (b := Proc.devRef .tc main_arg8) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg8) := W34_of_ne m ρ c main_arg8 (by decide)
    _ = W32 m ρ c (Proc.devRef .tc main_arg8) := StableHlo.after_of_forall_not_mem (b := Proc.devRef .tc main_arg8) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg8) := W32_of_ne m ρ c main_arg8 (by decide)
    _ = W30 m ρ c (Proc.devRef .tc main_arg8) := StableHlo.after_of_forall_not_mem (b := Proc.devRef .tc main_arg8) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg8) := W30_of_ne m ρ c main_arg8 (by decide)
    _ = W28 m ρ c (Proc.devRef .tc main_arg8) := StableHlo.after_of_forall_not_mem (b := Proc.devRef .tc main_arg8) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg8) := W28_of_ne m ρ c main_arg8 (by decide)
    _ = W26 m ρ c (Proc.devRef .tc main_arg8) := StableHlo.after_of_forall_not_mem (b := Proc.devRef .tc main_arg8) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg8) := W26_of_ne m ρ c main_arg8 (by decide)
    _ = W24 m ρ c (Proc.devRef .tc main_arg8) := StableHlo.after_of_forall_not_mem (b := Proc.devRef .tc main_arg8) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg8) := W24_of_ne m ρ c main_arg8 (by decide)
    _ = W22 m ρ c (Proc.devRef .tc main_arg8) := StableHlo.after_of_forall_not_mem (b := Proc.devRef .tc main_arg8) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg8) := W22_of_ne m ρ c main_arg8 (by decide)
    _ = W20 m ρ c (Proc.devRef .tc main_arg8) := StableHlo.after_of_forall_not_mem (b := Proc.devRef .tc main_arg8) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg8) := W20_of_ne m ρ c main_arg8 (by decide)
    _ = W18 m ρ c (Proc.devRef .tc main_arg8) := StableHlo.after_of_forall_not_mem (b := Proc.devRef .tc main_arg8) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg8) := W18_of_ne m ρ c main_arg8 (by decide)
    _ = W16 m ρ c (Proc.devRef .tc main_arg8) := StableHlo.after_of_forall_not_mem (b := Proc.devRef .tc main_arg8) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Carry

end
-- ==== Proof.KernelChain9.lean ====
/-
  Stage 9 of the chain, the kernel's half: the first message-passing hop of a later block. The block's input is the previous
  block's output plus the embedding's output, entry by entry, formed by the host operations before the hop's first region,
  which also pool its rows along the edges and take the hop's square of the stacked weights and its row of the stacked
  biases. The first region adds the pooled rows to the block input's, multiplies by the weights, adds the bias row, and
  leaves with that array its column sums and column sums of squares; the host operations between the regions divide those
  by the row count, form the variance as the mean of squares less the squared mean, and take the hop's rows of the stacked
  scale and shift; the second region normalises with those rows, with no clipping after it. Here the steps are joined, over
  the previous block's output and the embedding's output as the run leaves them and the launch memory's edge lists and
  stacked parameters.
-/
import proofs.«414479_j7705171329025_1_alg».proof.Proof.ValAdd2_18
import proofs.«414479_j7705171329025_1_alg».proof.Proof.ValNorm19
import proofs.«414479_j7705171329025_1_alg».proof.Proof.HostHop18
import proofs.«414479_j7705171329025_1_alg».proof.Proof.HostStats19
import proofs.«414479_j7705171329025_1_alg».proof.Proof.StageReal
import proofs.«414479_j7705171329025_1_alg».proof.Proof.FrameKI.Run
import proofs.«414479_j7705171329025_1_alg».proof.Proof.Carry0
import proofs.«414479_j7705171329025_1_alg».proof.Proof.Carry5
import proofs.«414479_j7705171329025_1_alg».proof.Proof.Carry6
import proofs.«414479_j7705171329025_1_alg».proof.Proof.PreReal
import proofs.«414479_j7705171329025_1_alg».proof.Proof.PooledReal
import proofs.«414479_j7705171329025_1_alg».proof.Proof.SliceReal
import Idealize.ShloMosaic.Lib.IdealHost
import Idealize.ShloMosaic.Lib.ValueLayout

set_option maxRecDepth 16384

noncomputable section

namespace Cert.KernelChain9

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## The hop's data: earlier stages' output arrays, and the launch memory's arrays, each at its literal type -/

/-- The previous block's output array, as the run leaves it. -/
abbrev prev (c : Dev nD) : Vec Ideal S100000x128 .f32 := W36 (F := Ideal) m ρ c (Proc.devRef .tc main_v214)
/-- The embedding's output array, as the run leaves it. -/
abbrev inp (c : Dev nD) : Vec Ideal S100000x128 .f32 := W4 (F := Ideal) m ρ c (Proc.devRef .tc main_v10)
/-- The block's input: the previous block's output plus the embedding's, entry by entry. -/
abbrev blockIn (c : Dev nD) : Vec Ideal S100000x128 .f32 :=
  addf (F := Ideal) (s := S100000x128) (φ := .f32) (prev m ρ c) (inp m ρ c)
/-- The edges' sources. -/
abbrev src (c : Dev nD) : Vec Ideal S800000 .i32 := m ((c : Thread nD τ).loc main_arg1)
/-- The edges' destinations. -/
abbrev dst (c : Dev nD) : Vec Ideal S800000 .i32 := m ((c : Thread nD τ).loc main_arg2)
/-- The stacked weights of the block's three hops. -/
abbrev convW (c : Dev nD) : Vec Ideal S3x128x128 .f32 := m ((c : Thread nD τ).loc main_arg8)
/-- The stacked biases. -/
abbrev convB (c : Dev nD) : Vec Ideal S3x128 .f32 := m ((c : Thread nD τ).loc main_arg9)
/-- The stacked scales of the three hops' batch norms. -/
abbrev bnG (c : Dev nD) : Vec Ideal S3x128 .f32 := m ((c : Thread nD τ).loc main_arg10)
/-- The stacked shifts. -/
abbrev bnB (c : Dev nD) : Vec Ideal S3x128 .f32 := m ((c : Thread nD τ).loc main_arg11)

/-- The block input's rows pooled along the edges. -/
abbrev pooledPrev (c : Dev nD) : Vec Ideal S100000x128 .f32 := HostHop18.pooled (F := Ideal) (blockIn m ρ c) (src m c) (dst m c)
/-- The hop's weight matrix. -/
abbrev Wt (c : Dev nD) : Vec Ideal S128x128 .f32 := HostHop18.wOf (F := Ideal) (convW m c)
/-- The hop's bias row. -/
abbrev B (c : Dev nD) : Vec Ideal S1x128 .f32 := HostHop18.rowOf (F := Ideal) (convB m c)
/-- The hop's scale row. -/
abbrev g (c : Dev nD) : Vec Ideal S1x128 .f32 := HostStats19.rowOf (F := Ideal) (bnG m c)
/-- The hop's shift row. -/
abbrev β (c : Dev nD) : Vec Ideal S1x128 .f32 := HostStats19.rowOf (F := Ideal) (bnB m c)

/-- The hop's linear stage, entry by entry: the pooled rows plus the block input's, against the weights, plus the bias. -/
def y (c : Dev nD) (r : Fin 100000) (q : Fin 128) : EReal :=
  StageSpec.linAdd (pooledPrev m ρ c) (blockIn m ρ c) (Wt m c) (B m c) r q

/-- The row count, as the word the host operations divide by. -/
abbrev nRows : EReal := Ideal.ofBits .f32 0x47C35000#32

/-! ## Real numbers in, real numbers out -/

/-- Under the precondition, and if every entry of the earlier stages' arrays is a real number, every entry of the hop's
    linear stage is one: the neighbour sum of a real array is real whatever the edges are, and the hop's square of the
    weights and its row of the biases are entries of real arrays. -/
theorem y_isReal [Cert.Pre_finite_inputs.Facts] (h : Cert.Pre_KernelIdeal m) (c : Dev nD)
    (hprev : ∀ i, Cert.RealSpec.IsReal (prev m ρ c i)) (hinp : ∀ i, Cert.RealSpec.IsReal (inp m ρ c i)) (r : Fin 100000) (q : Fin 128) :
    Cert.RealSpec.IsReal (y m ρ c r q) :=
  StageReal.linAdd_isReal (pooledPrev m ρ c) (blockIn m ρ c) (Wt m c) (B m c)
    (Cert.PooledReal.pooled_addf_isReal (prev m ρ c) (inp m ρ c) (src m c) (dst m c) hprev hinp)
    (fun i => BatchStats.isReal_add (hprev i) (hinp i))
    (Cert.SliceReal.wOf0_isReal (convW m c) (Cert.PreReal.real_arg8 m h c))
    (Cert.SliceReal.rowOf0_isReal (convB m c) (Cert.PreReal.real_arg9 m h c)) r q

/-- Under the precondition every entry of the hop's scale row is a real number. -/
theorem g_isReal [Cert.Pre_finite_inputs.Facts] (h : Cert.Pre_KernelIdeal m) (c : Dev nD) (q : Fin 128) :
    Cert.RealSpec.IsReal (g m c (ix2 (0 : Fin 1) q)) :=
  Cert.SliceReal.statsRow0_isReal (bnG m c) (Cert.PreReal.real_arg10 m h c) (ix2 (0 : Fin 1) q)

/-- And every entry of its shift row. -/
theorem β_isReal [Cert.Pre_finite_inputs.Facts] (h : Cert.Pre_KernelIdeal m) (c : Dev nD) (q : Fin 128) :
    Cert.RealSpec.IsReal (β m c (ix2 (0 : Fin 1) q)) :=
  Cert.SliceReal.statsRow0_isReal (bnB m c) (Cert.PreReal.real_arg11 m h c) (ix2 (0 : Fin 1) q)

/-! ## The first region's inputs -/

/-- The pooled rows: the host operations before the region form them, with the edge lists, which nothing has written since
    the launch. -/
theorem xa_eq (c : Dev nD) : ValAdd2_18.xaArr (V37 m ρ) c = pooledPrev m ρ c :=
  ((HostHop18.read_pooled (W36 m ρ c)).trans
    (congrArg (fun x => HostHop18.pooled (F := Ideal) x (W36 m ρ c (Proc.devRef .tc main_arg1)) (W36 m ρ c (Proc.devRef .tc main_arg2)))
      (congrArg (fun t => addf (F := Ideal) (s := S100000x128) (φ := .f32) (prev m ρ c) t) (Carry.main_v10_4_36 m ρ c)))).trans
    (congrArg₂ (fun s d => HostHop18.pooled (F := Ideal) (blockIn m ρ c) s d)
      ((Carry.main_arg1_0_36 m ρ c).trans rfl) ((Carry.main_arg2_0_36 m ρ c).trans rfl))

/-- The block's input. -/
theorem xb_eq (c : Dev nD) : ValAdd2_18.xbArr (V37 m ρ) c = blockIn m ρ c :=
  (HostHop18.read_input (W36 m ρ c)).trans
    (congrArg (fun t => addf (F := Ideal) (s := S100000x128) (φ := .f32) (prev m ρ c) t) (Carry.main_v10_4_36 m ρ c))

/-- The hop's weight matrix, out of the launch memory's stacked weights. -/
theorem w_eq (c : Dev nD) : ValAdd2_18.wArr (V37 m ρ) c = Wt m c :=
  (HostHop18.read_w (W36 m ρ c)).trans (congrArg (HostHop18.wOf (F := Ideal)) ((Carry.main_arg8_0_36 m ρ c).trans rfl))

/-- The hop's bias row, out of the launch memory's stacked biases. -/
theorem b_eq (c : Dev nD) : ValAdd2_18.bRow (V37 m ρ) c = B m c :=
  (HostHop18.read_b (W36 m ρ c)).trans (congrArg (HostHop18.rowOf (F := Ideal)) ((Carry.main_arg9_0_36 m ρ c).trans rfl))

/-- So the first region's linear stage is the hop's. -/
theorem y_eq (c : Dev nD) : ValAdd2_18.y (V37 m ρ) c = y m ρ c := by
  funext r q
  unfold ValAdd2_18.y y
  rw [xa_eq m ρ c, xb_eq m ρ c, w_eq m ρ c, b_eq m ρ c]

/-! ## The second region's five arrays, from the first region's three -/

/-- The column sums, as the first region leaves them. -/
theorem sum_eq (c : Dev nD) :
    (W38 m ρ c (Proc.devRef .tc main_v231_1) : Vec Ideal S1x128 .f32) = ValAdd2_18.resultSum (V37 m ρ) c :=
  (W38_arr m ρ c 5).trans (ValAdd2_18.arrAt_sum (V37 m ρ) c)

/-- The column sums of squares, as the first region leaves them. -/
theorem sumsq_eq (c : Dev nD) :
    (W38 m ρ c (Proc.devRef .tc main_v231_2) : Vec Ideal S1x128 .f32) = ValAdd2_18.resultSumSq (V37 m ρ) c :=
  (W38_arr m ρ c 6).trans (ValAdd2_18.arrAt_sumsq (V37 m ρ) c)

/-- The tall array the second region normalises is the first region's output: the host operations between the two do
    not write it. -/
theorem yArr_eq (c : Dev nD) : ValNorm19.yArr (V39 m ρ) c = ValAdd2_18.resultY (V37 m ρ) c :=
  ((HostStats19.read_y (W38 m ρ c)).trans (W38_arr m ρ c 4)).trans (ValAdd2_18.arrAt_y (V37 m ρ) c)

/-- The mean row: the column sums over the row count. -/
theorem meanRow_eq (c : Dev nD) :
    ValNorm19.meanRow (V39 m ρ) c
      = Host.divf (F := Ideal) (φ := .f32) (ValAdd2_18.resultSum (V37 m ρ) c) (HostStats19.nRow (F := Ideal)) := by
  refine (HostStats19.read_mean (W38 m ρ c)).trans ?_
  rw [sum_eq m ρ c]

/-- The variance row: the mean of squares less the squared mean. -/
theorem varRow_eq (c : Dev nD) :
    ValNorm19.varRow (V39 m ρ) c
      = subf (F := Ideal) (φ := .f32) (Host.divf (F := Ideal) (φ := .f32) (ValAdd2_18.resultSumSq (V37 m ρ) c) (HostStats19.nRow (F := Ideal)))
          (mulf (F := Ideal) (φ := .f32) (Host.divf (F := Ideal) (φ := .f32) (ValAdd2_18.resultSum (V37 m ρ) c) (HostStats19.nRow (F := Ideal)))
            (Host.divf (F := Ideal) (φ := .f32) (ValAdd2_18.resultSum (V37 m ρ) c) (HostStats19.nRow (F := Ideal)))) := by
  refine (HostStats19.read_var (W38 m ρ c)).trans ?_
  rw [sum_eq m ρ c, sumsq_eq m ρ c]

/-- The scale row: the hop's row of the launch memory's stacked scales, which nothing has written since the launch. -/
theorem gRow_eq (c : Dev nD) : ValNorm19.gRow (V39 m ρ) c = g m c :=
  (HostStats19.read_g (W38 m ρ c)).trans (congrArg (HostStats19.rowOf (F := Ideal)) ((Carry.main_arg10_0_38 m ρ c).trans rfl))

/-- The shift row: the hop's row of the launch memory's stacked shifts. -/
theorem betaRow_eq (c : Dev nD) : ValNorm19.betaRow (V39 m ρ) c = β m c :=
  (HostStats19.read_beta (W38 m ρ c)).trans (congrArg (HostStats19.rowOf (F := Ideal)) ((Carry.main_arg11_0_38 m ρ c).trans rfl))

/-! ## The five arrays read at an entry -/

/-- The divisor row holds the row count in every column. -/
theorem nRow_apply (j : S1x128.Idx) : HostStats19.nRow (F := Ideal) j = nRows := by
  unfold HostStats19.nRow
  exact (broadcastInDim_scalar_apply bcast_S_S1x128 (constant (F := Ideal) S_ .f32 0x47C35000#32) j).trans rfl

/-- The tall array at row r, column q is the linear stage's entry. -/
theorem yArr_apply (c : Dev nD) (r : Fin 100000) (q : Fin 128) :
    ValNorm19.yArr (V39 m ρ) c (ix2 r q) = ValAdd2_18.y (V37 m ρ) c r q :=
  (congrFun (yArr_eq m ρ c) (ix2 r q)).trans rfl

/-- The mean row at column q is the column mean of the linear stage's output. -/
theorem mean_apply (c : Dev nD) (q : Fin 128) :
    ValNorm19.meanRow (V39 m ρ) c (ix2 (0 : Fin 1) q) = StageReal.colMean (ValAdd2_18.y (V37 m ρ) c) nRows q := by
  refine (congrFun (meanRow_eq m ρ c) (ix2 (0 : Fin 1) q)).trans ?_
  show Ideal.div (ValAdd2_18.resultSum (V37 m ρ) c (ix2 (0 : Fin 1) q)) (HostStats19.nRow (F := Ideal) (ix2 (0 : Fin 1) q)) = _
  rw [nRow_apply]
  rfl

/-- The variance row at column q is the mean of squares less the squared mean of that column. -/
theorem var_apply (c : Dev nD) (q : Fin 128) :
    ValNorm19.varRow (V39 m ρ) c (ix2 (0 : Fin 1) q) = StageReal.varSumSq (ValAdd2_18.y (V37 m ρ) c) nRows q := by
  refine (congrFun (varRow_eq m ρ c) (ix2 (0 : Fin 1) q)).trans ?_
  show Ideal.div (ValAdd2_18.resultSumSq (V37 m ρ) c (ix2 (0 : Fin 1) q)) (HostStats19.nRow (F := Ideal) (ix2 (0 : Fin 1) q))
      - Ideal.div (ValAdd2_18.resultSum (V37 m ρ) c (ix2 (0 : Fin 1) q)) (HostStats19.nRow (F := Ideal) (ix2 (0 : Fin 1) q))
        * Ideal.div (ValAdd2_18.resultSum (V37 m ρ) c (ix2 (0 : Fin 1) q)) (HostStats19.nRow (F := Ideal) (ix2 (0 : Fin 1) q)) = _
  rw [nRow_apply]
  rfl

/-! ## The hop's output -/

/-- What the second region leaves in its output array is what it computes from its five arrays. -/
theorem out_eq (c : Dev nD) :
    (W40 (F := Ideal) m ρ c (Proc.devRef .tc main_v244) : Vec Ideal S100000x128 .f32) = ValNorm19.result (V39 m ρ) c :=
  (W40_arr m ρ c 5).trans (ValNorm19.arrAt_out (V39 m ρ) c)

/-- THE KERNEL'S HOP OUTPUT, entry by entry: the batch normalisation of the hop's linear stage with the statistics in
    the kernel's form, not clipped. -/
theorem kernel_out_apply (c : Dev nD) (r : Fin 100000) (q : Fin 128) :
    (W40 (F := Ideal) m ρ c (Proc.devRef .tc main_v244) : Vec Ideal S100000x128 .f32) (ix2 r q)
      = StageSpec.norm (y m ρ c r q) (StageReal.colMean (y m ρ c) nRows q) (StageReal.varSumSq (y m ρ c) nRows q)
          (g m c (ix2 (0 : Fin 1) q)) (β m c (ix2 (0 : Fin 1) q)) := by
  refine (congrFun (out_eq m ρ c) (ix2 r q)).trans ?_
  show StageSpec.norm (ValNorm19.yArr (V39 m ρ) c (ix2 r q)) (ValNorm19.meanRow (V39 m ρ) c (ix2 (0 : Fin 1) q))
      (ValNorm19.varRow (V39 m ρ) c (ix2 (0 : Fin 1) q)) (ValNorm19.gRow (V39 m ρ) c (ix2 (0 : Fin 1) q))
      (ValNorm19.betaRow (V39 m ρ) c (ix2 (0 : Fin 1) q)) = _
  rw [yArr_apply m ρ c r q, mean_apply m ρ c q, var_apply m ρ c q, gRow_eq m ρ c, betaRow_eq m ρ c, y_eq m ρ c]

end Cert.KernelChain9

end
-- ==== Proof.Chain9.lean ====
/-
  Stage 9 of the chain: the first message-passing hop of a later block. The block's input is the previous block's output
  plus the embedding's output, entry by entry, in both programs. Both pool the block's input along the edges, add the
  block's input, multiply by the hop's square of the stacked weights, add the hop's bias and normalise the result by its
  batch statistics with the hop's scale and shift; there is no clipping after a hop. The two programs' previous block
  outputs are one array of real numbers, and so are their embedding outputs (the invariants of the earlier stages); the
  edge lists and the parameters are the same in the two memories.
  The neighbour sum, the weight square and the bias row are written with the same words in both programs, so the two linear
  stages are one array, of real numbers. The kernel takes the variance as the mean of squares less the squared mean, the
  reference as the mean of the squared deviations: on real data one number. So the two normalised arrays are equal, entry
  by entry, and every entry is a real number.
-/
import proofs.«414479_j7705171329025_1_alg».proof.Proof.KernelChain9
import proofs.«414479_j7705171329025_1_alg».proof.Proof.RefChain9
import proofs.«414479_j7705171329025_1_alg».proof.Proof.ChainDefs
import proofs.«414479_j7705171329025_1_alg».proof.Proof.Chain0
import proofs.«414479_j7705171329025_1_alg».proof.Proof.RefSide
import proofs.«414479_j7705171329025_1_alg».proof.Proof.HopJoin
import proofs.«414479_j7705171329025_1_alg».proof.Proof.Seam
import proofs.«414479_j7705171329025_1_alg».proof.Proof.PreReal

noncomputable section

namespace Cert.Chain9

open Cert.RealSpec (IsReal)
open Cert.ChainDefs
open Idealize.ShloMosaic Idealize.ShloMosaic.TcCoe Idealize.ShloMosaic.StableHlo

variable [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The hop's row of a stacked parameter, read at column q, is the hop's vector of it at q: the row is the vector laid out
    as a row. -/
theorem row_eq_vec (p : Vec Ideal Cert.KernelIdeal.S3x128 .f32) (q : Fin 128) :
    Cert.KernelIdeal.HostStats19.rowOf (F := Ideal) p (ValueIdx.ix2 (0 : Fin 1) q)
      = Cert.ReferenceIdeal.RefKinds.refVec0 (F := Ideal) p (ValueIdx.ix1 q) :=
  ValueIdx.shapeCast_a_1a_apply _ _ (0 : Fin 1) q

/-- STAGE 9: the two hop outputs are equal, and every entry is a real number, given the same of the earlier stages'
    arrays this hop reads. -/
theorem inv9 (hpre : Cert.Pre_KernelIdeal m) (hag : Cert.Chain0.Agree m m') (c : Dev Cert.KernelIdeal.nD)
    (h8 : Inv8 m ρ m' c) (h0 : Inv0 m ρ m' c) : Inv9 m ρ m' c := by
  -- the reference's earlier arrays are the kernel's, by the invariants of the earlier stages
  have eblock : addf (F := Ideal) (s := Cert.ReferenceIdeal.S100000x128) (φ := .f32) (rOut8 m' c) (rOut0 m' c) = Cert.KernelChain9.blockIn m ρ c :=
    (congrArg₂ (fun a b => addf (F := Ideal) (s := Cert.KernelIdeal.S100000x128) (φ := .f32) a b) (funext h8.1).symm (funext h0.1).symm)
  have esrc : Cert.ReferenceIdeal.RefChain9.src (U6 m' c) = Cert.KernelChain9.blockIn m ρ c := (Cert.RefSide.src9 m' c).trans eblock
  have ebin : Cert.ReferenceIdeal.RefChain9.bin (U6 m' c) = Cert.KernelChain9.blockIn m ρ c := (Cert.RefSide.bin9 m' c).trans eblock
  -- the reference's edge lists and parameters are the kernel's: no list of operations writes them, and the two memories
  -- agree on the arguments
  have e1 : U6 m' c (Proc.devRef .tc Cert.ReferenceIdeal.main_arg1) = Cert.KernelChain9.src m c :=
    (Cert.RefSide.arg1_at6 m' c).trans (hag.arg1 c)
  have e2 : U6 m' c (Proc.devRef .tc Cert.ReferenceIdeal.main_arg2) = Cert.KernelChain9.dst m c :=
    (Cert.RefSide.arg2_at6 m' c).trans (hag.arg2 c)
  have e8 : U6 m' c (Proc.devRef .tc Cert.ReferenceIdeal.main_arg8) = Cert.KernelChain9.convW m c :=
    (Cert.RefSide.arg8_at6 m' c).trans (hag.arg8 c)
  have e9 : U6 m' c (Proc.devRef .tc Cert.ReferenceIdeal.main_arg9) = Cert.KernelChain9.convB m c :=
    (Cert.RefSide.arg9_at6 m' c).trans (hag.arg9 c)
  have e10 : U6 m' c (Proc.devRef .tc Cert.ReferenceIdeal.main_arg10) = Cert.KernelChain9.bnG m c :=
    (Cert.RefSide.arg10_at6 m' c).trans (hag.arg10 c)
  have e11 : U6 m' c (Proc.devRef .tc Cert.ReferenceIdeal.main_arg11) = Cert.KernelChain9.bnB m c :=
    (Cert.RefSide.arg11_at6 m' c).trans (hag.arg11 c)
  -- so the two linear stages are one array: the neighbour sum, the weight square and the bias row are the same words
  have ey : Cert.ReferenceIdeal.RefChain9.y (U6 m' c) = Cert.KernelChain9.y m ρ c := by
    funext r q
    show StageSpec.linAdd
        (Cert.ReferenceIdeal.RefKinds.refPooled (Cert.ReferenceIdeal.RefChain9.src (U6 m' c))
          (U6 m' c (Proc.devRef .tc Cert.ReferenceIdeal.main_arg1)) (U6 m' c (Proc.devRef .tc Cert.ReferenceIdeal.main_arg2)))
        (Cert.ReferenceIdeal.RefChain9.bin (U6 m' c))
        (Cert.ReferenceIdeal.RefKinds.refW0 (U6 m' c (Proc.devRef .tc Cert.ReferenceIdeal.main_arg8)))
        (Cert.ReferenceIdeal.RefKinds.refRow0 (U6 m' c (Proc.devRef .tc Cert.ReferenceIdeal.main_arg9))) r q = _
    rw [esrc, ebin, e1, e2, e8, e9]
    rfl
  -- the reference's scale and shift at column q are the kernel's rows' entries
  have eg : ∀ q : Fin 128, Cert.ReferenceIdeal.RefChain9.g (U6 m' c) (ValueIdx.ix1 q) = Cert.KernelChain9.g m c (ValueIdx.ix2 (0 : Fin 1) q) := fun q => by
    show Cert.ReferenceIdeal.RefKinds.refVec0 (U6 m' c (Proc.devRef .tc Cert.ReferenceIdeal.main_arg10)) (ValueIdx.ix1 q) = _
    rw [e10]
    exact (row_eq_vec (Cert.KernelChain9.bnG m c) q).symm
  have eβ : ∀ q : Fin 128, Cert.ReferenceIdeal.RefChain9.β (U6 m' c) (ValueIdx.ix1 q) = Cert.KernelChain9.β m c (ValueIdx.ix2 (0 : Fin 1) q) := fun q => by
    show Cert.ReferenceIdeal.RefKinds.refVec0 (U6 m' c (Proc.devRef .tc Cert.ReferenceIdeal.main_arg11)) (ValueIdx.ix1 q) = _
    rw [e11]
    exact (row_eq_vec (Cert.KernelChain9.bnB m c) q).symm
  -- the join: on real data the two variances are one number
  exact Cert.HopJoin.join (kOut9 m ρ c) (rOut9 m' c) (Cert.KernelChain9.y m ρ c) (Cert.ReferenceIdeal.RefChain9.y (U6 m' c))
    (fun q => Cert.KernelChain9.g m c (ValueIdx.ix2 (0 : Fin 1) q)) (fun q => Cert.KernelChain9.β m c (ValueIdx.ix2 (0 : Fin 1) q))
    (fun q => Cert.ReferenceIdeal.RefChain9.g (U6 m' c) (ValueIdx.ix1 q)) (fun q => Cert.ReferenceIdeal.RefChain9.β (U6 m' c) (ValueIdx.ix1 q))
    (Cert.KernelChain9.kernel_out_apply m ρ c) (Cert.ReferenceIdeal.RefChain9.out_apply (U6 m' c)) ey eg eβ
    (Cert.KernelChain9.y_isReal m ρ hpre c h8.2 h0.2) (Cert.KernelChain9.g_isReal m hpre c) (Cert.KernelChain9.β_isReal m hpre c)

end Cert.Chain9

end
-- ==== Proof.ValAdd2_20.lean ====
/-
  Region 20: a message-passing hop's linear stage with its column statistics. At each grid point the body adds a block of
  5000 rows of the pooled neighbours to the same rows of the block's input, multiplies by the hop's weight matrix, adds the
  bias row, stores that block, and adds the block's column sums and column sums of squares to two carried rows the first
  point has set to zero. As for the embedding, the blocks tile the rows and the carried rows end as sums over all rows.
-/
import proofs.«414479_j7705171329025_1_alg».proof.Proof.FrameKI.R20
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValAdd2_20

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. At the first point the two carried rows are first set to zero and then read
  back, so the running rows it leaves are the block's sums added to zero; at the other points they are added to what the
  rows held. -/

section Pieces

variable {F : FTy → Type} [FloatOps F]

theorem outA4 (c : Dev nD) (i : grid20.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond20_0 i)
    (x0 : Vec F S5000x128 .f32) (x1 : Vec F S5000x128 .f32) (x2 : Vec F S128x128 .f32) (x3 : Vec F S1x128 .f32) :
    out20_A_4 c i a1 h1 a2 h2 a3 h3 a4 h4 a5 h5 a6 h6 a7 h7 hc x0 x1 x2 x3 = k20_pay3 x0 x1 x2 x3 := by
  unfold out20_A_4
  rw [View.read_writes_eq_canon _ _ _ (cover20_A_4 c i a1 h1 a2 h2 a3 h3 a4 h4 a5 h5 a6 h6 a7 h7 hc x0 x1 x2 x3)]
  unfold kernelRun20_A
  dsimp only
  (try sl_unfold_words)
  rw [View.canon_unit_zero hz]
  simp only [View.readAt_eq_ld, h1.read_unread, h2.read_unread, h3.read_unread, h4.read_unread,
    View.ld_unit_zero (S := S5000x128) hz, View.ld_unit_zero (S := S128x128) hz, View.ld_unit_zero (S := S1x128) hz]

theorem outA5 (c : Dev nD) (i : grid20.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond20_0 i)
    (x0 : Vec F S5000x128 .f32) (x1 : Vec F S5000x128 .f32) (x2 : Vec F S128x128 .f32) (x3 : Vec F S1x128 .f32) :
    out20_A_5 c i a1 h1 a2 h2 a3 h3 a4 h4 a5 h5 a6 h6 a7 h7 hc x0 x1 x2 x3 = k20_pay4 x0 x1 x2 x3 (k20_pay1 (F := F)) := by
  unfold out20_A_5
  rw [View.read_writes_eq_canon _ _ _ (cover20_A_5 c i a1 h1 a2 h2 a3 h3 a4 h4 a5 h5 a6 h6 a7 h7 hc x0 x1 x2 x3)]
  unfold kernelRun20_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outA6 (c : Dev nD) (i : grid20.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond20_0 i)
    (x0 : Vec F S5000x128 .f32) (x1 : Vec F S5000x128 .f32) (x2 : Vec F S128x128 .f32) (x3 : Vec F S1x128 .f32) :
    out20_A_6 c i a1 h1 a2 h2 a3 h3 a4 h4 a5 h5 a6 h6 a7 h7 hc x0 x1 x2 x3 = k20_pay5 x0 x1 x2 x3 (k20_pay2 (F := F)) := by
  unfold out20_A_6
  rw [View.read_writes_eq_canon _ _ _ (cover20_A_6 c i a1 h1 a2 h2 a3 h3 a4 h4 a5 h5 a6 h6 a7 h7 hc x0 x1 x2 x3)]
  unfold kernelRun20_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outB4 (c : Dev nD) (i : grid20.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond20_0 i)
    (x0 : Vec F S5000x128 .f32) (x1 : Vec F S5000x128 .f32) (x2 : Vec F S128x128 .f32) (x3 : Vec F S1x128 .f32) (xoS xoQ : Vec F S1x128 .f32) :
    out20_B_4 c i a1 h1 a2 h2 a3 h3 a4 h4 a5 h5 a6 h6 a7 h7 hc x0 x1 x2 x3 xoS xoQ = k20_pay3 x0 x1 x2 x3 := by
  unfold out20_B_4
  rw [View.read_writes_eq_canon _ _ _ (cover20_B_4 c i a1 h1 a2 h2 a3 h3 a4 h4 a5 h5 a6 h6 a7 h7 hc x0 x1 x2 x3 xoS xoQ)]
  unfold kernelRun20_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB5 (c : Dev nD) (i : grid20.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond20_0 i)
    (x0 : Vec F S5000x128 .f32) (x1 : Vec F S5000x128 .f32) (x2 : Vec F S128x128 .f32) (x3 : Vec F S1x128 .f32) (xoS xoQ : Vec F S1x128 .f32) :
    out20_B_5 c i a1 h1 a2 h2 a3 h3 a4 h4 a5 h5 a6 h6 a7 h7 hc x0 x1 x2 x3 xoS xoQ = k20_pay4 x0 x1 x2 x3 xoS := by
  unfold out20_B_5
  rw [View.read_writes_eq_canon _ _ _ (cover20_B_5 c i a1 h1 a2 h2 a3 h3 a4 h4 a5 h5 a6 h6 a7 h7 hc x0 x1 x2 x3 xoS xoQ)]
  unfold kernelRun20_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB6 (c : Dev nD) (i : grid20.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond20_0 i)
    (x0 : Vec F S5000x128 .f32) (x1 : Vec F S5000x128 .f32) (x2 : Vec F S128x128 .f32) (x3 : Vec F S1x128 .f32) (xoS xoQ : Vec F S1x128 .f32) :
    out20_B_6 c i a1 h1 a2 h2 a3 h3 a4 h4 a5 h5 a6 h6 a7 h7 hc x0 x1 x2 x3 xoS xoQ = k20_pay5 x0 x1 x2 x3 xoQ := by
  unfold out20_B_6
  rw [View.read_writes_eq_canon _ _ _ (cover20_B_6 c i a1 h1 a2 h2 a3 h3 a4 h4 a5 h5 a6 h6 a7 h7 hc x0 x1 x2 x3 xoS xoQ)]
  unfold kernelRun20_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

end Pieces

variable (V : (c : Dev nD) → (b : Ref sig .tc) → Buf (Elt Ideal) ((c : Thread nD τ).loc b))

/-- The region's input arrays as it finds them, each at its literal type. -/
abbrev xaArr (c : Dev nD) : Vec Ideal S100000x128 .f32 := V c (Pipeline.arrRef spec20 0)
abbrev xbArr (c : Dev nD) : Vec Ideal S100000x128 .f32 := V c (Pipeline.arrRef spec20 1)
abbrev wArr (c : Dev nD) : Vec Ideal S128x128 .f32 := V c (Pipeline.arrRef spec20 2)
abbrev bRow (c : Dev nD) : Vec Ideal S1x128 .f32 := V c (Pipeline.arrRef spec20 3)

/-- One entry of the linear stage on the region's arrays. -/
def y (c : Dev nD) (r : Fin 100000) (q : Fin 128) : EReal := linAdd (xaArr V c) (xbArr V c) (wArr V c) (bRow V c) r q

/-- What the region leaves in its three output arrays. -/
def resultY (c : Dev nD) : Vec Ideal S100000x128 .f32 := fun i => y V c (i 0) (i 1)
def resultSum (c : Dev nD) : Vec Ideal S1x128 .f32 := fun i => colSum (y V c) (i 1)
def resultSumSq (c : Dev nD) : Vec Ideal S1x128 .f32 := fun i => colSumSq (y V c) (i 1)

/-! ## Where each window's block lies, and what the input blocks read -/

/-- The input blocks at a point, each at its literal type. -/
abbrev xaBlk (c : Dev nD) (t : Fin cfg20.N) : Vec Ideal S5000x128 .f32 := iblk20 V c 0 t
abbrev xbBlk (c : Dev nD) (t : Fin cfg20.N) : Vec Ideal S5000x128 .f32 := iblk20 V c 1 t
abbrev wBlk (c : Dev nD) (t : Fin cfg20.N) : Vec Ideal S128x128 .f32 := iblk20 V c 2 t
abbrev bBlk (c : Dev nD) (t : Fin cfg20.N) : Vec Ideal S1x128 .f32 := iblk20 V c 3 t

/-- The block each window takes at a point, decided over the twenty points: the tall windows take block `t` along the
    rows, and the weight matrix and each row are their own one block throughout. -/
theorem idx_facts : ∀ t : Fin cfg20.N,
    win20_0.index t (0 : Fin 2) = t.val ∧ win20_0.index t (1 : Fin 2) = 0
    ∧ win20_1.index t (0 : Fin 2) = t.val ∧ win20_1.index t (1 : Fin 2) = 0
    ∧ win20_2.index t (0 : Fin 2) = 0 ∧ win20_2.index t (1 : Fin 2) = 0
    ∧ win20_3.index t (0 : Fin 2) = 0 ∧ win20_3.index t (1 : Fin 2) = 0
    ∧ win20_4.index t (0 : Fin 2) = t.val ∧ win20_4.index t (1 : Fin 2) = 0
    ∧ win20_5.index t (0 : Fin 2) = 0 ∧ win20_5.index t (1 : Fin 2) = 0
    ∧ win20_6.index t (0 : Fin 2) = 0 ∧ win20_6.index t (1 : Fin 2) = 0 :=
  (by decide +kernel : ∀ t : Fin grid20.N, _)

/-- Input 0's block at point `t`, read at (p, j), is the array at row 5000·t + p, column j. -/
theorem xaBlk_apply (c : Dev nD) (t : Fin cfg20.N) (p : Fin 5000) (j : Fin 128) (h : t.val * 5000 + p.val < 100000) :
    xaBlk V c t (ix2 p j) = xaArr V c (ix2 ⟨t.val * 5000 + p.val, h⟩ j) := by
  obtain ⟨e00, e01, -⟩ := idx_facts t
  unfold xaBlk iblk20
  rw [View.read_apply]
  show xaArr V c (((cfg20.win 0).blk t).view.emb (ix2 p j)) = _
  refine congrArg (xaArr V c) ?_
  funext a; apply Fin.ext
  match a with
  | ⟨0, _⟩ => show win20_0.index t (0 : Fin 2) * 5000 + 1 * p.val = t.val * 5000 + p.val; omega
  | ⟨1, _⟩ => show win20_0.index t (1 : Fin 2) * 128 + 1 * j.val = j.val; omega

/-- Input 1's block at point `t`, read at (p, j), is the array at row 5000·t + p, column j. -/
theorem xbBlk_apply (c : Dev nD) (t : Fin cfg20.N) (p : Fin 5000) (j : Fin 128) (h : t.val * 5000 + p.val < 100000) :
    xbBlk V c t (ix2 p j) = xbArr V c (ix2 ⟨t.val * 5000 + p.val, h⟩ j) := by
  obtain ⟨-, -, e10, e11, -⟩ := idx_facts t
  unfold xbBlk iblk20
  rw [View.read_apply]
  show xbArr V c (((cfg20.win 1).blk t).view.emb (ix2 p j)) = _
  refine congrArg (xbArr V c) ?_
  funext a; apply Fin.ext
  match a with
  | ⟨0, _⟩ => show win20_1.index t (0 : Fin 2) * 5000 + 1 * p.val = t.val * 5000 + p.val; omega
  | ⟨1, _⟩ => show win20_1.index t (1 : Fin 2) * 128 + 1 * j.val = j.val; omega

/-- Input 2's block, at every point, is the matrix. -/
theorem wBlk_apply (c : Dev nD) (t : Fin cfg20.N) (j : Fin 128) (q : Fin 128) :
    wBlk V c t (ix2 j q) = wArr V c (ix2 j q) := by
  obtain ⟨-, -, -, -, e20, e21, -⟩ := idx_facts t
  unfold wBlk iblk20
  rw [View.read_apply]
  show wArr V c (((cfg20.win 2).blk t).view.emb (ix2 j q)) = _
  refine congrArg (wArr V c) ?_
  funext a; apply Fin.ext
  match a with
  | ⟨0, _⟩ => show win20_2.index t (0 : Fin 2) * 128 + 1 * j.val = j.val; omega
  | ⟨1, _⟩ => show win20_2.index t (1 : Fin 2) * 128 + 1 * q.val = q.val; omega

/-- Input 3's block, at every point, is the row. -/
theorem bBlk_apply (c : Dev nD) (t : Fin cfg20.N) (q : Fin 128) :
    bBlk V c t (ix2 (0 : Fin 1) q) = bRow V c (ix2 (0 : Fin 1) q) := by
  obtain ⟨-, -, -, -, -, -, e30, e31, -⟩ := idx_facts t
  unfold bBlk iblk20
  rw [View.read_apply]
  show bRow V c (((cfg20.win 3).blk t).view.emb (ix2 (0 : Fin 1) q)) = _
  refine congrArg (bRow V c) ?_
  funext a; apply Fin.ext
  match a with
  | ⟨0, _⟩ => show win20_3.index t (0 : Fin 2) * 1 + 1 * 0 = 0; omega
  | ⟨1, _⟩ => show win20_3.index t (1 : Fin 2) * 128 + 1 * q.val = q.val; omega

/-- The block of values a point computes, at (p, q), is the linear stage's entry of row 5000·t + p, column q. -/
theorem pay3_point (c : Dev nD) (t : Fin cfg20.N) (p : Fin 5000) (q : Fin 128) (h : t.val * 5000 + p.val < 100000) :
    k20_pay3 (F := Ideal) (xaBlk V c t) (xbBlk V c t) (wBlk V c t) (bBlk V c t) (ix2 p q) = y V c ⟨t.val * 5000 + p.val, h⟩ q := by
  refine (PayLinear.k2_pay3_apply (xaBlk V c t) (xbBlk V c t) (wBlk V c t) (bBlk V c t) p q).trans ?_
  unfold y linAdd
  refine congrArg₂ (fun a b : EReal => a + b) (Finset.sum_congr rfl fun j _ => ?_) (bBlk_apply V c t q)
  exact congrArg₂ (fun a b : EReal => a * b)
    (congrArg₂ (fun a b : EReal => a + b) (xaBlk_apply V c t p j h) (xbBlk_apply V c t p j h)) (wBlk_apply V c t j q)

/-! ## What the three output buffers hold after each point -/

/-- The output block after any point is the block of values the point computes. -/
theorem outsY_eq (c : Dev nD) (t : Fin cfg20.N) :
    (outsAt20 V c t.val t.isLt).1 = k20_pay3 (F := Ideal) (xaBlk V c t) (xbBlk V c t) (wBlk V c t) (bBlk V c t) := by
  by_cases h0 : t.val % 20 = 0
  · rw [outsAt20_A V c t h0]
    dsimp only
    exact outA4 (F := Ideal) c (grid20.coords t) (ms20_0 t) (hs20_0 t) (ms20_1 t) (hs20_1 t) (ms20_2 t) (hs20_2 t) (ms20_3 t) (hs20_3 t) (ms20_4 t) (hs20_4 t) (ms20_5 t) (hs20_5 t) (ms20_6 t) (hs20_6 t)
      ((hcond20_0 t).mpr h0) (iblk20 V c 0 t) (iblk20 V c 1 t) (iblk20 V c 2 t) (iblk20 V c 3 t)
  · rw [outsAt20_B V c t h0]
    dsimp only
    exact outB4 (F := Ideal) c (grid20.coords t) (ms20_0 t) (hs20_0 t) (ms20_1 t) (hs20_1 t) (ms20_2 t) (hs20_2 t) (ms20_3 t) (hs20_3 t) (ms20_4 t) (hs20_4 t) (ms20_5 t) (hs20_5 t) (ms20_6 t) (hs20_6 t)
      (fun h => h0 ((hcond20_0 t).mp h)) (iblk20 V c 0 t) (iblk20 V c 1 t) (iblk20 V c 2 t) (iblk20 V c 3 t)
      (outsAt20 V c (t.val - 1) (Nat.lt_of_le_of_lt (Nat.sub_le _ _) t.isLt)).2.1
      (outsAt20 V c (t.val - 1) (Nat.lt_of_le_of_lt (Nat.sub_le _ _) t.isLt)).2.2

/-- The carried column sum at column `q`, after point `t`. -/
def accSum (c : Dev nD) (u : Fin 1) (q : Fin 128) : (t : ℕ) → t < 20 → EReal :=
  fun t ht => (outsAt20 V c t (lt_of_lt_of_eq ht N_20.symm)).2.1 (ix2 u q)

/-- At the first point it is the stored zero plus the block's column sum. -/
theorem accSum_first (c : Dev nD) (u : Fin 1) (q : Fin 128) (t : ℕ) (ht : t < 20) (h0 : t % 20 = 0) :
    accSum V c u q t ht = (k20_pay1 (F := Ideal)) (ix2 u q)
      + ∑ p : Fin 5000, y V c ⟨t * 5000 + p.val, by have := p.isLt; omega⟩ q := by
  have ht' : t < cfg20.N := lt_of_lt_of_eq ht N_20.symm
  show (outsAt20 V c (⟨t, ht'⟩ : Fin cfg20.N).val (⟨t, ht'⟩ : Fin cfg20.N).isLt).2.1 (ix2 u q) = _
  rw [outsAt20_A V c ⟨t, ht'⟩ h0]
  dsimp only
  refine (congrFun (outA5 (F := Ideal) c (grid20.coords ⟨t, ht'⟩) (ms20_0 ⟨t, ht'⟩) (hs20_0 ⟨t, ht'⟩) (ms20_1 ⟨t, ht'⟩) (hs20_1 ⟨t, ht'⟩) (ms20_2 ⟨t, ht'⟩) (hs20_2 ⟨t, ht'⟩) (ms20_3 ⟨t, ht'⟩) (hs20_3 ⟨t, ht'⟩) (ms20_4 ⟨t, ht'⟩) (hs20_4 ⟨t, ht'⟩) (ms20_5 ⟨t, ht'⟩) (hs20_5 ⟨t, ht'⟩) (ms20_6 ⟨t, ht'⟩) (hs20_6 ⟨t, ht'⟩)
    ((hcond20_0 ⟨t, ht'⟩).mpr h0) (iblk20 V c 0 ⟨t, ht'⟩) (iblk20 V c 1 ⟨t, ht'⟩) (iblk20 V c 2 ⟨t, ht'⟩) (iblk20 V c 3 ⟨t, ht'⟩)) (ix2 u q)).trans ?_
  refine (PayLinear.k2_pay4_apply (xaBlk V c ⟨t, ht'⟩) (xbBlk V c ⟨t, ht'⟩) (wBlk V c ⟨t, ht'⟩) (bBlk V c ⟨t, ht'⟩) (k20_pay1 (F := Ideal)) u q).trans ?_
  refine congrArg (fun s : EReal => (k20_pay1 (F := Ideal)) (ix2 u q) + s) (Finset.sum_congr rfl fun p _ => ?_)
  exact pay3_point V c ⟨t, ht'⟩ p q _

/-- At any other point it is what the point before left plus the block's column sum. -/
theorem accSum_step (c : Dev nD) (u : Fin 1) (q : Fin 128) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg20.N := lt_of_lt_of_eq ht N_20.symm
  show (outsAt20 V c (⟨t, ht'⟩ : Fin cfg20.N).val (⟨t, ht'⟩ : Fin cfg20.N).isLt).2.1 (ix2 u q) = _
  rw [outsAt20_B V c ⟨t, ht'⟩ h0]
  dsimp only
  refine (congrFun (outB5 (F := Ideal) c (grid20.coords ⟨t, ht'⟩) (ms20_0 ⟨t, ht'⟩) (hs20_0 ⟨t, ht'⟩) (ms20_1 ⟨t, ht'⟩) (hs20_1 ⟨t, ht'⟩) (ms20_2 ⟨t, ht'⟩) (hs20_2 ⟨t, ht'⟩) (ms20_3 ⟨t, ht'⟩) (hs20_3 ⟨t, ht'⟩) (ms20_4 ⟨t, ht'⟩) (hs20_4 ⟨t, ht'⟩) (ms20_5 ⟨t, ht'⟩) (hs20_5 ⟨t, ht'⟩) (ms20_6 ⟨t, ht'⟩) (hs20_6 ⟨t, ht'⟩)
    (fun h => h0 ((hcond20_0 ⟨t, ht'⟩).mp h)) (iblk20 V c 0 ⟨t, ht'⟩) (iblk20 V c 1 ⟨t, ht'⟩) (iblk20 V c 2 ⟨t, ht'⟩) (iblk20 V c 3 ⟨t, ht'⟩)
    (outsAt20 V c ((⟨t, ht'⟩ : Fin cfg20.N).val - 1) (Nat.lt_of_le_of_lt (Nat.sub_le _ _) (⟨t, ht'⟩ : Fin cfg20.N).isLt)).2.1
    (outsAt20 V c ((⟨t, ht'⟩ : Fin cfg20.N).val - 1) (Nat.lt_of_le_of_lt (Nat.sub_le _ _) (⟨t, ht'⟩ : Fin cfg20.N).isLt)).2.2) (ix2 u q)).trans ?_
  refine (PayLinear.k2_pay4_apply (xaBlk V c ⟨t, ht'⟩) (xbBlk V c ⟨t, ht'⟩) (wBlk V c ⟨t, ht'⟩) (bBlk V c ⟨t, ht'⟩)
    (outsAt20 V c ((⟨t, ht'⟩ : Fin cfg20.N).val - 1) (Nat.lt_of_le_of_lt (Nat.sub_le _ _) (⟨t, ht'⟩ : Fin cfg20.N).isLt)).2.1 u q).trans ?_
  refine congrArg (fun s : EReal => accSum V c u q (t - 1) (Nat.lt_of_le_of_lt (Nat.sub_le t 1) ht) + s)
    (Finset.sum_congr rfl fun p _ => ?_)
  exact pay3_point V c ⟨t, ht'⟩ p q _

/-- After the last point it is the column sum over all 100000 rows. -/
theorem accSum_last (c : Dev nD) (u : Fin 1) (q : Fin 128) :
    accSum V c u q 19 (by norm_num) = colSum (y V c) q :=
  AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k20_pay1 (F := Ideal)) (ix2 u q)) Ideal.ofBits_zero_f32
    (fun t ht h0 => accSum_first V c u q t ht h0) (fun t ht h0 => accSum_step V c u q t ht h0)

/-- The carried column sum of squares at column `q`, after point `t`. -/
def accSumSq (c : Dev nD) (u : Fin 1) (q : Fin 128) : (t : ℕ) → t < 20 → EReal :=
  fun t ht => (outsAt20 V c t (lt_of_lt_of_eq ht N_20.symm)).2.2 (ix2 u q)

/-- At the first point it is the stored zero plus the block's column sum of squares. -/
theorem accSumSq_first (c : Dev nD) (u : Fin 1) (q : Fin 128) (t : ℕ) (ht : t < 20) (h0 : t % 20 = 0) :
    accSumSq V c u q t ht = (k20_pay2 (F := Ideal)) (ix2 u q)
      + ∑ p : Fin 5000, (y V c ⟨t * 5000 + p.val, by have := p.isLt; omega⟩ q * y V c ⟨t * 5000 + p.val, by have := p.isLt; omega⟩ q) := by
  have ht' : t < cfg20.N := lt_of_lt_of_eq ht N_20.symm
  show (outsAt20 V c (⟨t, ht'⟩ : Fin cfg20.N).val (⟨t, ht'⟩ : Fin cfg20.N).isLt).2.2 (ix2 u q) = _
  rw [outsAt20_A V c ⟨t, ht'⟩ h0]
  dsimp only
  refine (congrFun (outA6 (F := Ideal) c (grid20.coords ⟨t, ht'⟩) (ms20_0 ⟨t, ht'⟩) (hs20_0 ⟨t, ht'⟩) (ms20_1 ⟨t, ht'⟩) (hs20_1 ⟨t, ht'⟩) (ms20_2 ⟨t, ht'⟩) (hs20_2 ⟨t, ht'⟩) (ms20_3 ⟨t, ht'⟩) (hs20_3 ⟨t, ht'⟩) (ms20_4 ⟨t, ht'⟩) (hs20_4 ⟨t, ht'⟩) (ms20_5 ⟨t, ht'⟩) (hs20_5 ⟨t, ht'⟩) (ms20_6 ⟨t, ht'⟩) (hs20_6 ⟨t, ht'⟩)
    ((hcond20_0 ⟨t, ht'⟩).mpr h0) (iblk20 V c 0 ⟨t, ht'⟩) (iblk20 V c 1 ⟨t, ht'⟩) (iblk20 V c 2 ⟨t, ht'⟩) (iblk20 V c 3 ⟨t, ht'⟩)) (ix2 u q)).trans ?_
  refine (PayLinear.k2_pay5_apply (xaBlk V c ⟨t, ht'⟩) (xbBlk V c ⟨t, ht'⟩) (wBlk V c ⟨t, ht'⟩) (bBlk V c ⟨t, ht'⟩) (k20_pay2 (F := Ideal)) u q).trans ?_
  refine congrArg (fun s : EReal => (k20_pay2 (F := Ideal)) (ix2 u q) + s) (Finset.sum_congr rfl fun p _ => ?_)
  exact congrArg₂ (fun a b : EReal => a * b) (pay3_point V c ⟨t, ht'⟩ p q _) (pay3_point V c ⟨t, ht'⟩ p q _)

/-- At any other point it is what the point before left plus the block's column sum of squares. -/
theorem accSumSq_step (c : Dev nD) (u : Fin 1) (q : Fin 128) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg20.N := lt_of_lt_of_eq ht N_20.symm
  show (outsAt20 V c (⟨t, ht'⟩ : Fin cfg20.N).val (⟨t, ht'⟩ : Fin cfg20.N).isLt).2.2 (ix2 u q) = _
  rw [outsAt20_B V c ⟨t, ht'⟩ h0]
  dsimp only
  refine (congrFun (outB6 (F := Ideal) c (grid20.coords ⟨t, ht'⟩) (ms20_0 ⟨t, ht'⟩) (hs20_0 ⟨t, ht'⟩) (ms20_1 ⟨t, ht'⟩) (hs20_1 ⟨t, ht'⟩) (ms20_2 ⟨t, ht'⟩) (hs20_2 ⟨t, ht'⟩) (ms20_3 ⟨t, ht'⟩) (hs20_3 ⟨t, ht'⟩) (ms20_4 ⟨t, ht'⟩) (hs20_4 ⟨t, ht'⟩) (ms20_5 ⟨t, ht'⟩) (hs20_5 ⟨t, ht'⟩) (ms20_6 ⟨t, ht'⟩) (hs20_6 ⟨t, ht'⟩)
    (fun h => h0 ((hcond20_0 ⟨t, ht'⟩).mp h)) (iblk20 V c 0 ⟨t, ht'⟩) (iblk20 V c 1 ⟨t, ht'⟩) (iblk20 V c 2 ⟨t, ht'⟩) (iblk20 V c 3 ⟨t, ht'⟩)
    (outsAt20 V c ((⟨t, ht'⟩ : Fin cfg20.N).val - 1) (Nat.lt_of_le_of_lt (Nat.sub_le _ _) (⟨t, ht'⟩ : Fin cfg20.N).isLt)).2.1
    (outsAt20 V c ((⟨t, ht'⟩ : Fin cfg20.N).val - 1) (Nat.lt_of_le_of_lt (Nat.sub_le _ _) (⟨t, ht'⟩ : Fin cfg20.N).isLt)).2.2) (ix2 u q)).trans ?_
  refine (PayLinear.k2_pay5_apply (xaBlk V c ⟨t, ht'⟩) (xbBlk V c ⟨t, ht'⟩) (wBlk V c ⟨t, ht'⟩) (bBlk V c ⟨t, ht'⟩)
    (outsAt20 V c ((⟨t, ht'⟩ : Fin cfg20.N).val - 1) (Nat.lt_of_le_of_lt (Nat.sub_le _ _) (⟨t, ht'⟩ : Fin cfg20.N).isLt)).2.2 u q).trans ?_
  refine congrArg (fun s : EReal => accSumSq V c u q (t - 1) (Nat.lt_of_le_of_lt (Nat.sub_le t 1) ht) + s)
    (Finset.sum_congr rfl fun p _ => ?_)
  exact congrArg₂ (fun a b : EReal => a * b) (pay3_point V c ⟨t, ht'⟩ p q _) (pay3_point V c ⟨t, ht'⟩ p q _)

/-- After the last point it is the column sum of squares over all 100000 rows. -/
theorem accSumSq_last (c : Dev nD) (u : Fin 1) (q : Fin 128) :
    accSumSq V c u q 19 (by norm_num) = colSumSq (y V c) q :=
  AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k20_pay2 (F := Ideal)) (ix2 u q)) Ideal.ofBits_zero_f32
    (fun t ht h0 => accSumSq_first V c u q t ht h0) (fun t ht h0 => accSumSq_step V c u q t ht h0)

/-! ## From the blocks to the arrays -/

/-- Row `p`, column `q` of the output's block at point `t` is row 5000·t + p, column q of the array: a block's coordinate
    is its index times its extent plus the coordinate inside it. -/
theorem emb_out (t : Fin cfg20.N) (p : Fin 5000) (q : Fin 128) (h : t.val * 5000 + p.val < 100000) :
    ((cfg20.win 4).blk t).view.emb (ix2 p q) = (ix2 ⟨t.val * 5000 + p.val, h⟩ q : S100000x128.Idx) := by
  obtain ⟨-, -, -, -, -, -, -, -, e40, e41, -⟩ := idx_facts t
  funext a; apply Fin.ext
  match a with
  | ⟨0, _⟩ => show win20_4.index t (0 : Fin 2) * 5000 + 1 * p.val = t.val * 5000 + p.val; omega
  | ⟨1, _⟩ => show win20_4.index t (1 : Fin 2) * 128 + 1 * q.val = q.val; omega

/-- What point `t` writes back for the output is block `t` of `resultY`. -/
theorem flushedY_eq (c : Dev nD) (t : Fin cfg20.N) :
    (dat20 (F := Ideal) V c).flushed 4 t = ((cfg20.win 4).blk t).view.read (Elt Ideal) (resultY V c) := by
  show (cfg20.win 4).cut (grid20.coords t) ((dat20 V c).after 4 t) = _
  rw [after20_4]
  have ht : t.val < 20 := Nat.lt_of_lt_of_eq t.isLt N_20
  funext j
  obtain ⟨p, q, rfl⟩ : ∃ (p : Fin 5000) (q : Fin 128), j = ix2 p q := ⟨j 0, j 1, eq_ix2 j⟩
  have h : t.val * 5000 + p.val < 100000 := by have := p.isLt; omega
  show (outsAt20 V c t.val t.isLt).1 (ix2 p q) = resultY V c (((cfg20.win 4).blk t).view.emb (ix2 p q))
  refine (congrFun (outsY_eq V c t) (ix2 p q)).trans ?_
  refine (pay3_point V c t p q h).trans ?_
  exact (congrArg (resultY V c) (emb_out t p q h)).symm

/-- An entry of the array lies in point `t`'s block exactly when each of its coordinates lies in the block's range. -/
theorem mem_blkY (t : Fin cfg20.N) (i : S100000x128.Idx) :
    i ∈ ((cfg20.win 4).blk t).view.set ↔ ∀ a : Fin 2, win20_4.index t a * S5000x128.size a ≤ (i a).val
      ∧ (i a).val < win20_4.index t a * S5000x128.size a + S5000x128.size a := by
  show i ∈ ((View.whole main_v260_0).slice (win20_4.rect t)).set ↔ _
  rw [View.set_slice_whole, Rect.mem_set_unit]
  exact Iff.rfl

/-- The twenty blocks tile the array: row `r` is in the block of point `r / 5000`, and every point writes its block back. -/
theorem coverY (i : S100000x128.Idx) :
    ∃ t : Fin cfg20.N, (cfg20.win 4).flush t = true ∧ i ∈ ((cfg20.win 4).blk t).view.set := by
  have hi0 : (i 0).val < 100000 := idx2_lt0 i
  have hi1 : (i 1).val < 128 := idx2_lt1 i
  obtain ⟨t, ht⟩ : ∃ t : Fin cfg20.N, t.val = (i 0).val / 5000 :=
    ⟨⟨(i 0).val / 5000, by rw [show cfg20.N = 20 from N_20]; omega⟩, rfl⟩
  obtain ⟨-, -, -, -, -, -, -, -, e40, e41, -⟩ := idx_facts t
  refine ⟨t, flush20_4 t, ?_⟩
  rw [mem_blkY]
  intro a
  match a with
  | ⟨0, _⟩ =>
    show win20_4.index t (0 : Fin 2) * 5000 ≤ (i 0).val ∧ (i 0).val < win20_4.index t (0 : Fin 2) * 5000 + 5000
    omega
  | ⟨1, _⟩ =>
    show win20_4.index t (1 : Fin 2) * 128 ≤ (i 1).val ∧ (i 1).val < win20_4.index t (1 : Fin 2) * 128 + 128
    omega

/-- At a point whose number is 19 the carried column sum is the one over all rows. -/
theorem accSum_at_last (c : Dev nD) (u : Fin 1) (q : Fin 128) (n : ℕ) (hn : n < 20) (h19 : n = 19) :
    accSum V c u q n hn = colSum (y V c) q := by
  subst h19
  exact accSum_last V c u q

/-- The carried row of window 5 after the last point is the whole of `resultSum`. -/
theorem outs5_last (c : Dev nD) (t : Fin cfg20.N) (h19 : t.val = 19) :
    (outsAt20 V c t.val t.isLt).2.1 = resultSum V c := by
  funext j
  obtain ⟨u, q, rfl⟩ : ∃ (u : Fin 1) (q : Fin 128), j = ix2 u q := ⟨j 0, j 1, eq_ix2 j⟩
  exact accSum_at_last V c u q t.val (Nat.lt_of_lt_of_eq t.isLt N_20) h19

/-- What the last point writes back for window 5 is the whole of `resultSum`: the window's one block lies at offset zero,
    so it reads the whole row. -/
theorem flushed5_eq (c : Dev nD) (t : Fin cfg20.N) (hf : (cfg20.win 5).flush t = true) :
    (dat20 (F := Ideal) V c).flushed 5 t = ((cfg20.win 5).blk t).view.read (Elt Ideal) (resultSum V c) := by
  have hN : t.val < 20 := Nat.lt_of_lt_of_eq t.isLt N_20
  have h19 : t.val = 19 := by have := (flush20_5 t).mp hf; omega
  obtain ⟨-, -, -, -, -, -, -, -, -, -, eS0, eS1, eQ0, eQ1⟩ := idx_facts t
  have hz' : (fun a => win20_5.index t a * main_v260_1.ty.shape.size a) = fun _ => 0 := funext fun a => by
    match a with
    | ⟨0, _⟩ => show win20_5.index t (0 : Fin 2) * 1 = 0; omega
    | ⟨1, _⟩ => show win20_5.index t (1 : Fin 2) * 128 = 0; omega
  show (cfg20.win 5).cut (grid20.coords t) ((dat20 V c).after 5 t) = _
  rw [after20_5, outs5_last V c t h19]
  exact (Memref.read_access_unit_zero (Elt Ideal) main_v260_1 hz' (fun a => by rw [congrFun hz' a]; simp) (resultSum V c)).symm

/-- An entry of the row lies in point `t`'s block of window 5 exactly when each coordinate lies in the block's range. -/
theorem mem_blk5 (t : Fin cfg20.N) (i : S1x128.Idx) :
    i ∈ ((cfg20.win 5).blk t).view.set ↔ ∀ a : Fin 2, win20_5.index t a * S1x128.size a ≤ (i a).val
      ∧ (i a).val < win20_5.index t a * S1x128.size a + S1x128.size a := by
  show i ∈ ((View.whole main_v260_1).slice (win20_5.rect t)).set ↔ _
  rw [View.set_slice_whole, Rect.mem_set_unit]
  exact Iff.rfl

/-- The last point's block of window 5 is the whole row, and the last point writes it back. -/
theorem cover5 (i : S1x128.Idx) :
    ∃ t : Fin cfg20.N, (cfg20.win 5).flush t = true ∧ i ∈ ((cfg20.win 5).blk t).view.set := by
  have hi0 : (i 0).val < 1 := idx2_lt0 i
  have hi1 : (i 1).val < 128 := idx2_lt1 i
  obtain ⟨t, ht⟩ : ∃ t : Fin cfg20.N, t.val = 19 := ⟨⟨19, by rw [show cfg20.N = 20 from N_20]; norm_num⟩, rfl⟩
  obtain ⟨-, -, -, -, -, -, -, -, -, -, eS0, eS1, eQ0, eQ1⟩ := idx_facts t
  refine ⟨t, (flush20_5 t).mpr (by omega), ?_⟩
  rw [mem_blk5]
  intro a
  match a with
  | ⟨0, _⟩ =>
    show win20_5.index t (0 : Fin 2) * 1 ≤ (i 0).val ∧ (i 0).val < win20_5.index t (0 : Fin 2) * 1 + 1
    omega
  | ⟨1, _⟩ =>
    show win20_5.index t (1 : Fin 2) * 128 ≤ (i 1).val ∧ (i 1).val < win20_5.index t (1 : Fin 2) * 128 + 128
    omega

/-- At a point whose number is 19 the carried column sum of squares is the one over all rows. -/
theorem accSumSq_at_last (c : Dev nD) (u : Fin 1) (q : Fin 128) (n : ℕ) (hn : n < 20) (h19 : n = 19) :
    accSumSq V c u q n hn = colSumSq (y V c) q := by
  subst h19
  exact accSumSq_last V c u q

/-- The carried row of window 6 after the last point is the whole of `resultSumSq`. -/
theorem outs6_last (c : Dev nD) (t : Fin cfg20.N) (h19 : t.val = 19) :
    (outsAt20 V c t.val t.isLt).2.2 = resultSumSq V c := by
  funext j
  obtain ⟨u, q, rfl⟩ : ∃ (u : Fin 1) (q : Fin 128), j = ix2 u q := ⟨j 0, j 1, eq_ix2 j⟩
  exact accSumSq_at_last V c u q t.val (Nat.lt_of_lt_of_eq t.isLt N_20) h19

/-- What the last point writes back for window 6 is the whole of `resultSumSq`: the window's one block lies at offset zero,
    so it reads the whole row. -/
theorem flushed6_eq (c : Dev nD) (t : Fin cfg20.N) (hf : (cfg20.win 6).flush t = true) :
    (dat20 (F := Ideal) V c).flushed 6 t = ((cfg20.win 6).blk t).view.read (Elt Ideal) (resultSumSq V c) := by
  have hN : t.val < 20 := Nat.lt_of_lt_of_eq t.isLt N_20
  have h19 : t.val = 19 := by have := (flush20_6 t).mp hf; omega
  obtain ⟨-, -, -, -, -, -, -, -, -, -, eS0, eS1, eQ0, eQ1⟩ := idx_facts t
  have hz' : (fun a => win20_6.index t a * main_v260_2.ty.shape.size a) = fun _ => 0 := funext fun a => by
    match a with
    | ⟨0, _⟩ => show win20_6.index t (0 : Fin 2) * 1 = 0; omega
    | ⟨1, _⟩ => show win20_6.index t (1 : Fin 2) * 128 = 0; omega
  show (cfg20.win 6).cut (grid20.coords t) ((dat20 V c).after 6 t) = _
  rw [after20_6, outs6_last V c t h19]
  exact (Memref.read_access_unit_zero (Elt Ideal) main_v260_2 hz' (fun a => by rw [congrFun hz' a]; simp) (resultSumSq V c)).symm

/-- An entry of the row lies in point `t`'s block of window 6 exactly when each coordinate lies in the block's range. -/
theorem mem_blk6 (t : Fin cfg20.N) (i : S1x128.Idx) :
    i ∈ ((cfg20.win 6).blk t).view.set ↔ ∀ a : Fin 2, win20_6.index t a * S1x128.size a ≤ (i a).val
      ∧ (i a).val < win20_6.index t a * S1x128.size a + S1x128.size a := by
  show i ∈ ((View.whole main_v260_2).slice (win20_6.rect t)).set ↔ _
  rw [View.set_slice_whole, Rect.mem_set_unit]
  exact Iff.rfl

/-- The last point's block of window 6 is the whole row, and the last point writes it back. -/
theorem cover6 (i : S1x128.Idx) :
    ∃ t : Fin cfg20.N, (cfg20.win 6).flush t = true ∧ i ∈ ((cfg20.win 6).blk t).view.set := by
  have hi0 : (i 0).val < 1 := idx2_lt0 i
  have hi1 : (i 1).val < 128 := idx2_lt1 i
  obtain ⟨t, ht⟩ : ∃ t : Fin cfg20.N, t.val = 19 := ⟨⟨19, by rw [show cfg20.N = 20 from N_20]; norm_num⟩, rfl⟩
  obtain ⟨-, -, -, -, -, -, -, -, -, -, eS0, eS1, eQ0, eQ1⟩ := idx_facts t
  refine ⟨t, (flush20_6 t).mpr (by omega), ?_⟩
  rw [mem_blk6]
  intro a
  match a with
  | ⟨0, _⟩ =>
    show win20_6.index t (0 : Fin 2) * 1 ≤ (i 0).val ∧ (i 0).val < win20_6.index t (0 : Fin 2) * 1 + 1
    omega
  | ⟨1, _⟩ =>
    show win20_6.index t (1 : Fin 2) * 128 ≤ (i 1).val ∧ (i 1).val < win20_6.index t (1 : Fin 2) * 128 + 128
    omega

/-- THE INTERFACE of this region, one statement per output window. -/
theorem arrAt_y (c : Dev nD) : (dat20 (F := Ideal) V c).arrAt 4 cfg20.N = resultY V c :=
  (dat20 V c).arrAt_eq_of_cover 4 (resultY V c) (fun t _ => flushedY_eq V c t) coverY

theorem arrAt_sum (c : Dev nD) : (dat20 (F := Ideal) V c).arrAt 5 cfg20.N = resultSum V c :=
  (dat20 V c).arrAt_eq_of_cover 5 (resultSum V c) (fun t hf => flushed5_eq V c t hf) cover5

theorem arrAt_sumsq (c : Dev nD) : (dat20 (F := Ideal) V c).arrAt 6 cfg20.N = resultSumSq V c :=
  (dat20 V c).arrAt_eq_of_cover 6 (resultSumSq V c) (fun t hf => flushed6_eq V c t hf) cover6

end Cert.KernelIdeal.ValAdd2_20

end
-- ==== Proof.ValNorm21Pay.lean ====
/-
  Region 21's arithmetic: what the normalisation's body computes at one row and column of a block, from the block of the
  linear stage's output and the four statistic and parameter rows. This normalisation is not followed by max(·, 0).
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm21

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block. -/
theorem pay_apply (var : Vec Ideal S1x128 .f32) (y : Vec Ideal S5000x128 .f32) (mean g beta : Vec Ideal S1x128 .f32)
    (p : Fin 5000) (q : Fin 128) :
    k21_pay1 (F := Ideal) var y mean g beta (ix2 p q)
      = StageSpec.norm (y (ix2 p q)) (mean (ix2 (0 : Fin 1) q)) (var (ix2 (0 : Fin 1) q)) (g (ix2 (0 : Fin 1) q)) (beta (ix2 (0 : Fin 1) q)) := by
  unfold k21_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The two zero offsets of a load or a store of a whole buffer. -/
theorem hz : (![0, 0] : Fin 2 → Nat) = fun _ => 0 := funext fun a => by fin_cases a <;> rfl

end Cert.KernelIdeal.ValNorm21

end
-- ==== Proof.ValNorm21.lean ====
/-
  Region 21: a normalisation with no max(·, 0) after it. Every grid point takes a block of 5000 rows of the linear stage's
  output and the four statistic and parameter rows, and writes back, entry by entry, the normalised value.
  The twenty blocks tile the 100000 rows, so the output array as a whole is that function of the region's input arrays.
-/
import proofs.«414479_j7705171329025_1_alg».proof.Proof.FrameKI.R21
import proofs.«414479_j7705171329025_1_alg».proof.Proof.StageSpec
import proofs.«414479_j7705171329025_1_alg».proof.Proof.ValNorm21Pay
import Idealize.ShloMosaic.Lib.Pipeline.Value
import Idealize.ShloMosaic.Lib.ValueIdx
import Idealize.ShloMosaic.Lib.ValueLayout

set_option maxRecDepth 16384

noncomputable section

namespace Cert.KernelIdeal.ValNorm21

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x128 .f32 := V c (Pipeline.arrRef spec21 0)
abbrev meanRow (c : Dev nD) : Vec Ideal S1x128 .f32 := V c (Pipeline.arrRef spec21 1)
abbrev varRow (c : Dev nD) : Vec Ideal S1x128 .f32 := V c (Pipeline.arrRef spec21 2)
abbrev gRow (c : Dev nD) : Vec Ideal S1x128 .f32 := V c (Pipeline.arrRef spec21 3)
abbrev betaRow (c : Dev nD) : Vec Ideal S1x128 .f32 := V c (Pipeline.arrRef spec21 4)

/-- What the region leaves in its output array: the normalised entry, at every row and column. -/
def result (c : Dev nD) : Vec Ideal S100000x128 .f32 := fun i =>
  StageSpec.norm (yArr V c i) (meanRow V c (ix2 (0 : Fin 1) (i 1))) (varRow V c (ix2 (0 : Fin 1) (i 1)))
    (gRow V c (ix2 (0 : Fin 1) (i 1))) (betaRow V c (ix2 (0 : Fin 1) (i 1)))

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x128 .f32) (x1 x2 x3 x4 : Vec Ideal S1x128 .f32) (p : Fin 5000) (q : Fin 128) :
    out21_5 x0 x1 x2 x3 x4 (ix2 p q)
      = StageSpec.norm (x0 (ix2 p q)) (x1 (ix2 (0 : Fin 1) q)) (x2 (ix2 (0 : Fin 1) q)) (x3 (ix2 (0 : Fin 1) q)) (x4 (ix2 (0 : Fin 1) q)) := by
  unfold out21_5
  rw [View.canon_unit_zero hz]
  simp only [View.ld_unit_zero (S := S1x128) hz, View.ld_unit_zero (S := S5000x128) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg21.N,
    win21_0.index t (0 : Fin 2) = t.val ∧ win21_0.index t (1 : Fin 2) = 0
    ∧ win21_1.index t (0 : Fin 2) = 0 ∧ win21_1.index t (1 : Fin 2) = 0
    ∧ win21_2.index t (0 : Fin 2) = 0 ∧ win21_2.index t (1 : Fin 2) = 0
    ∧ win21_3.index t (0 : Fin 2) = 0 ∧ win21_3.index t (1 : Fin 2) = 0
    ∧ win21_4.index t (0 : Fin 2) = 0 ∧ win21_4.index t (1 : Fin 2) = 0
    ∧ win21_5.index t (0 : Fin 2) = t.val ∧ win21_5.index t (1 : Fin 2) = 0 :=
  (by decide +kernel : ∀ t : Fin grid21.N, _)

/-- Row `p`, column `q` of the output's block at point `t` is row 5000·t + p, column q of the array: a block's coordinate
    is its index times its extent plus the coordinate inside it. -/
theorem emb_out (t : Fin cfg21.N) (p : Fin 5000) (q : Fin 128) (h : t.val * 5000 + p.val < 100000) :
    ((cfg21.win 5).blk t).view.emb (ix2 p q) = (ix2 ⟨t.val * 5000 + p.val, h⟩ q : S100000x128.Idx) := by
  obtain ⟨-, -, -, -, -, -, -, -, -, -, e50, e51⟩ := idx_facts t
  funext a; apply Fin.ext
  match a with
  | ⟨0, _⟩ => show win21_5.index t (0 : Fin 2) * 5000 + 1 * p.val = t.val * 5000 + p.val; omega
  | ⟨1, _⟩ => show win21_5.index t (1 : Fin 2) * 128 + 1 * q.val = q.val; omega

/-- The tall input's block at point `t`, read at (p, q), is the array at row 5000·t + p, column q: the same rows the
    output's block has there. -/
theorem y_apply (c : Dev nD) (t : Fin cfg21.N) (p : Fin 5000) (q : Fin 128) (h : t.val * 5000 + p.val < 100000) :
    (iblk21 V c 0 t : Vec Ideal S5000x128 .f32) (ix2 p q) = yArr V c (ix2 ⟨t.val * 5000 + p.val, h⟩ q) := by
  obtain ⟨e00, e01, -⟩ := idx_facts t
  unfold iblk21
  rw [View.read_apply]
  show yArr V c (((cfg21.win 0).blk t).view.emb (ix2 p q)) = _
  refine congrArg (yArr V c) ?_
  funext a; apply Fin.ext
  match a with
  | ⟨0, _⟩ => show win21_0.index t (0 : Fin 2) * 5000 + 1 * p.val = t.val * 5000 + p.val; omega
  | ⟨1, _⟩ => show win21_0.index t (1 : Fin 2) * 128 + 1 * q.val = q.val; omega

/-- The mean row's block, at every point, is the row. -/
theorem mean_apply (c : Dev nD) (t : Fin cfg21.N) (q : Fin 128) :
    (iblk21 V c 1 t : Vec Ideal S1x128 .f32) (ix2 (0 : Fin 1) q) = meanRow V c (ix2 (0 : Fin 1) q) := by
  obtain ⟨-, -, e10, e11, -⟩ := idx_facts t
  unfold iblk21
  rw [View.read_apply]
  show meanRow V c (((cfg21.win 1).blk t).view.emb (ix2 (0 : Fin 1) q)) = _
  refine congrArg (meanRow V c) ?_
  funext a; apply Fin.ext
  match a with
  | ⟨0, _⟩ => show win21_1.index t (0 : Fin 2) * 1 + 1 * 0 = 0; omega
  | ⟨1, _⟩ => show win21_1.index t (1 : Fin 2) * 128 + 1 * q.val = q.val; omega

/-- The variance row's block, at every point, is the row. -/
theorem var_apply (c : Dev nD) (t : Fin cfg21.N) (q : Fin 128) :
    (iblk21 V c 2 t : Vec Ideal S1x128 .f32) (ix2 (0 : Fin 1) q) = varRow V c (ix2 (0 : Fin 1) q) := by
  obtain ⟨-, -, -, -, e20, e21, -⟩ := idx_facts t
  unfold iblk21
  rw [View.read_apply]
  show varRow V c (((cfg21.win 2).blk t).view.emb (ix2 (0 : Fin 1) q)) = _
  refine congrArg (varRow V c) ?_
  funext a; apply Fin.ext
  match a with
  | ⟨0, _⟩ => show win21_2.index t (0 : Fin 2) * 1 + 1 * 0 = 0; omega
  | ⟨1, _⟩ => show win21_2.index t (1 : Fin 2) * 128 + 1 * q.val = q.val; omega

/-- The scale row's block, at every point, is the row. -/
theorem g_apply (c : Dev nD) (t : Fin cfg21.N) (q : Fin 128) :
    (iblk21 V c 3 t : Vec Ideal S1x128 .f32) (ix2 (0 : Fin 1) q) = gRow V c (ix2 (0 : Fin 1) q) := by
  obtain ⟨-, -, -, -, -, -, e30, e31, -⟩ := idx_facts t
  unfold iblk21
  rw [View.read_apply]
  show gRow V c (((cfg21.win 3).blk t).view.emb (ix2 (0 : Fin 1) q)) = _
  refine congrArg (gRow V c) ?_
  funext a; apply Fin.ext
  match a with
  | ⟨0, _⟩ => show win21_3.index t (0 : Fin 2) * 1 + 1 * 0 = 0; omega
  | ⟨1, _⟩ => show win21_3.index t (1 : Fin 2) * 128 + 1 * q.val = q.val; omega

/-- The shift row's block, at every point, is the row. -/
theorem beta_apply (c : Dev nD) (t : Fin cfg21.N) (q : Fin 128) :
    (iblk21 V c 4 t : Vec Ideal S1x128 .f32) (ix2 (0 : Fin 1) q) = betaRow V c (ix2 (0 : Fin 1) q) := by
  obtain ⟨-, -, -, -, -, -, -, -, e40, e41, -⟩ := idx_facts t
  unfold iblk21
  rw [View.read_apply]
  show betaRow V c (((cfg21.win 4).blk t).view.emb (ix2 (0 : Fin 1) q)) = _
  refine congrArg (betaRow V c) ?_
  funext a; apply Fin.ext
  match a with
  | ⟨0, _⟩ => show win21_4.index t (0 : Fin 2) * 1 + 1 * 0 = 0; omega
  | ⟨1, _⟩ => show win21_4.index t (1 : Fin 2) * 128 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg21.N) :
    (dat21 (F := Ideal) V c).flushed 5 t = ((cfg21.win 5).blk t).view.read (Elt Ideal) (result V c) := by
  show (cfg21.win 5).cut (grid21.coords t) ((dat21 V c).after 5 t) = _
  rw [after21_5]
  have ht : t.val < 20 := Nat.lt_of_lt_of_eq t.isLt N_21
  funext j
  obtain ⟨p, q, rfl⟩ : ∃ (p : Fin 5000) (q : Fin 128), j = ix2 p q := ⟨j 0, j 1, eq_ix2 j⟩
  have h : t.val * 5000 + p.val < 100000 := by have := p.isLt; omega
  show out21_5 (iblk21 V c 0 t) (iblk21 V c 1 t) (iblk21 V c 2 t) (iblk21 V c 3 t) (iblk21 V c 4 t) (ix2 p q)
      = result V c (((cfg21.win 5).blk t).view.emb (ix2 p q))
  refine (out_apply (iblk21 V c 0 t) (iblk21 V c 1 t) (iblk21 V c 2 t) (iblk21 V c 3 t) (iblk21 V c 4 t) p q).trans ?_
  refine Eq.trans ?_ (congrArg (result V c) (emb_out t p q h)).symm
  refine Eq.trans ?_ (show StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg21.N) (i : S100000x128.Idx) :
    i ∈ ((cfg21.win 5).blk t).view.set ↔ ∀ a : Fin 2, win21_5.index t a * S5000x128.size a ≤ (i a).val
      ∧ (i a).val < win21_5.index t a * S5000x128.size a + S5000x128.size a := by
  show i ∈ ((View.whole main_v273).slice (win21_5.rect t)).set ↔ _
  rw [View.set_slice_whole, Rect.mem_set_unit]
  exact Iff.rfl

/-- The twenty blocks tile the array: row `r` is in the block of point `r / 5000`, and every point writes its block back. -/
theorem cover (i : S100000x128.Idx) :
    ∃ t : Fin cfg21.N, (cfg21.win 5).flush t = true ∧ i ∈ ((cfg21.win 5).blk t).view.set := by
  have hi0 : (i 0).val < 100000 := idx2_lt0 i
  have hi1 : (i 1).val < 128 := idx2_lt1 i
  obtain ⟨t, ht⟩ : ∃ t : Fin cfg21.N, t.val = (i 0).val / 5000 :=
    ⟨⟨(i 0).val / 5000, by rw [show cfg21.N = 20 from N_21]; omega⟩, rfl⟩
  obtain ⟨-, -, -, -, -, -, -, -, -, -, e50, e51⟩ := idx_facts t
  refine ⟨t, flush21_5 t, ?_⟩
  rw [mem_blk]
  intro a
  match a with
  | ⟨0, _⟩ =>
    show win21_5.index t (0 : Fin 2) * 5000 ≤ (i 0).val ∧ (i 0).val < win21_5.index t (0 : Fin 2) * 5000 + 5000
    omega
  | ⟨1, _⟩ =>
    show win21_5.index t (1 : Fin 2) * 128 ≤ (i 1).val ∧ (i 1).val < win21_5.index t (1 : Fin 2) * 128 + 128
    omega

/-- THE INTERFACE of this region: after its twenty points the output array is `result`. -/
theorem arrAt_out (c : Dev nD) : (dat21 (F := Ideal) V c).arrAt 5 cfg21.N = result V c := by
  exact (dat21 V c).arrAt_eq_of_cover 5 (result V c) (fun t _ => flushed_eq V c t) cover

end Cert.KernelIdeal.ValNorm21

end
-- ==== Proof.KernelChain10.lean ====
/-
  Stage 10 of the chain, the kernel's half: the second message-passing hop of a later block. The block's input is the previous
  block's output plus the embedding's output, entry by entry, formed before the block's first hop and carried unchanged
  to this one. The host operations before the hop's first region pool the previous hop's rows along the edges and take
  the hop's square of the stacked weights and its row of the stacked biases; the first region adds the pooled rows to the
  block input's, multiplies by the weights, adds the bias row, and leaves with that array its column sums and column sums
  of squares; the host operations between the regions divide those by the row count, form the variance as the mean of
  squares less the squared mean, and take the hop's rows of the stacked scale and shift; the second region normalises with
  those rows, with no clipping after it. Here the steps are joined, over the previous hop's output, the previous block's
  output and the embedding's output as the run leaves them and the launch memory's edge lists and stacked parameters.
-/
import proofs.«414479_j7705171329025_1_alg».proof.Proof.ValAdd2_20
import proofs.«414479_j7705171329025_1_alg».proof.Proof.ValNorm21
import proofs.«414479_j7705171329025_1_alg».proof.Proof.HostHop20
import proofs.«414479_j7705171329025_1_alg».proof.Proof.HostHop18
import proofs.«414479_j7705171329025_1_alg».proof.Proof.HostStats21
import proofs.«414479_j7705171329025_1_alg».proof.Proof.StageReal
import proofs.«414479_j7705171329025_1_alg».proof.Proof.FrameKI.Run
import proofs.«414479_j7705171329025_1_alg».proof.Proof.Carry0
import proofs.«414479_j7705171329025_1_alg».proof.Proof.Carry1
import proofs.«414479_j7705171329025_1_alg».proof.Proof.Carry6
import proofs.«414479_j7705171329025_1_alg».proof.Proof.PreReal
import proofs.«414479_j7705171329025_1_alg».proof.Proof.PooledReal
import proofs.«414479_j7705171329025_1_alg».proof.Proof.SliceReal
import Idealize.ShloMosaic.Lib.IdealHost
import Idealize.ShloMosaic.Lib.ValueLayout

set_option maxRecDepth 16384

noncomputable section

namespace Cert.KernelChain10

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## The hop's data: earlier stages' output arrays, and the launch memory's arrays, each at its literal type -/

/-- The previous hop's output array, as the run leaves it. -/
abbrev prev (c : Dev nD) : Vec Ideal S100000x128 .f32 := W40 (F := Ideal) m ρ c (Proc.devRef .tc main_v244)
/-- The previous block's output array, as the run leaves it. -/
abbrev prevBlock (c : Dev nD) : Vec Ideal S100000x128 .f32 := W36 (F := Ideal) m ρ c (Proc.devRef .tc main_v214)
/-- The embedding's output array, as the run leaves it. -/
abbrev inp (c : Dev nD) : Vec Ideal S100000x128 .f32 := W4 (F := Ideal) m ρ c (Proc.devRef .tc main_v10)
/-- The block's input: the previous block's output plus the embedding's, entry by entry. -/
abbrev blockIn (c : Dev nD) : Vec Ideal S100000x128 .f32 :=
  addf (F := Ideal) (s := S100000x128) (φ := .f32) (prevBlock m ρ c) (inp m ρ c)
/-- The edges' sources. -/
abbrev src (c : Dev nD) : Vec Ideal S800000 .i32 := m ((c : Thread nD τ).loc main_arg1)
/-- The edges' destinations. -/
abbrev dst (c : Dev nD) : Vec Ideal S800000 .i32 := m ((c : Thread nD τ).loc main_arg2)
/-- The stacked weights of the block's three hops. -/
abbrev convW (c : Dev nD) : Vec Ideal S3x128x128 .f32 := m ((c : Thread nD τ).loc main_arg8)
/-- The stacked biases. -/
abbrev convB (c : Dev nD) : Vec Ideal S3x128 .f32 := m ((c : Thread nD τ).loc main_arg9)
/-- The stacked scales of the three hops' batch norms. -/
abbrev bnG (c : Dev nD) : Vec Ideal S3x128 .f32 := m ((c : Thread nD τ).loc main_arg10)
/-- The stacked shifts. -/
abbrev bnB (c : Dev nD) : Vec Ideal S3x128 .f32 := m ((c : Thread nD τ).loc main_arg11)

/-- The previous hop's output's rows pooled along the edges. -/
abbrev pooledPrev (c : Dev nD) : Vec Ideal S100000x128 .f32 := HostHop20.pooled (F := Ideal) (prev m ρ c) (src m c) (dst m c)
/-- The hop's weight matrix. -/
abbrev Wt (c : Dev nD) : Vec Ideal S128x128 .f32 := HostHop20.wOf (F := Ideal) (convW m c)
/-- The hop's bias row. -/
abbrev B (c : Dev nD) : Vec Ideal S1x128 .f32 := HostHop20.rowOf (F := Ideal) (convB m c)
/-- The hop's scale row. -/
abbrev g (c : Dev nD) : Vec Ideal S1x128 .f32 := HostStats21.rowOf (F := Ideal) (bnG m c)
/-- The hop's shift row. -/
abbrev β (c : Dev nD) : Vec Ideal S1x128 .f32 := HostStats21.rowOf (F := Ideal) (bnB m c)

/-- The hop's linear stage, entry by entry: the pooled rows plus the block input's, against the weights, plus the bias. -/
def y (c : Dev nD) (r : Fin 100000) (q : Fin 128) : EReal :=
  StageSpec.linAdd (pooledPrev m ρ c) (blockIn m ρ c) (Wt m c) (B m c) r q

/-- The row count, as the word the host operations divide by. -/
abbrev nRows : EReal := Ideal.ofBits .f32 0x47C35000#32

/-! ## Real numbers in, real numbers out -/

/-- Under the precondition, and if every entry of the earlier stages' arrays is a real number, every entry of the hop's
    linear stage is one: the neighbour sum of a real array is real whatever the edges are, and the hop's square of the
    weights and its row of the biases are entries of real arrays. -/
theorem y_isReal [Cert.Pre_finite_inputs.Facts] (h : Cert.Pre_KernelIdeal m) (c : Dev nD)
    (hprev : ∀ i, Cert.RealSpec.IsReal (prev m ρ c i)) (hblk : ∀ i, Cert.RealSpec.IsReal (prevBlock m ρ c i))
    (hinp : ∀ i, Cert.RealSpec.IsReal (inp m ρ c i)) (r : Fin 100000) (q : Fin 128) :
    Cert.RealSpec.IsReal (y m ρ c r q) :=
  StageReal.linAdd_isReal (pooledPrev m ρ c) (blockIn m ρ c) (Wt m c) (B m c)
    (Cert.PooledReal.pooled_isReal (prev m ρ c) (src m c) (dst m c) hprev)
    (fun i => BatchStats.isReal_add (hblk i) (hinp i))
    (Cert.SliceReal.wOf1_isReal (convW m c) (Cert.PreReal.real_arg8 m h c))
    (Cert.SliceReal.rowOf1_isReal (convB m c) (Cert.PreReal.real_arg9 m h c)) r q

/-- Under the precondition every entry of the hop's scale row is a real number. -/
theorem g_isReal [Cert.Pre_finite_inputs.Facts] (h : Cert.Pre_KernelIdeal m) (c : Dev nD) (q : Fin 128) :
    Cert.RealSpec.IsReal (g m c (ix2 (0 : Fin 1) q)) :=
  Cert.SliceReal.statsRow1_isReal (bnG m c) (Cert.PreReal.real_arg10 m h c) (ix2 (0 : Fin 1) q)

/-- And every entry of its shift row. -/
theorem β_isReal [Cert.Pre_finite_inputs.Facts] (h : Cert.Pre_KernelIdeal m) (c : Dev nD) (q : Fin 128) :
    Cert.RealSpec.IsReal (β m c (ix2 (0 : Fin 1) q)) :=
  Cert.SliceReal.statsRow1_isReal (bnB m c) (Cert.PreReal.real_arg11 m h c) (ix2 (0 : Fin 1) q)

/-! ## The first region's inputs -/

/-- The pooled rows: the host operations before the region form them, with the edge lists, which nothing has written since
    the launch. -/
theorem xa_eq (c : Dev nD) : ValAdd2_20.xaArr (V41 m ρ) c = pooledPrev m ρ c :=
  (HostHop20.read_pooled (W40 m ρ c)).trans
    (congrArg₂ (fun s d => HostHop20.pooled (F := Ideal) (prev m ρ c) s d)
      ((Carry.main_arg1_0_40 m ρ c).trans rfl) ((Carry.main_arg2_0_40 m ρ c).trans rfl))

/-- The block's input. -/
theorem xb_eq (c : Dev nD) : ValAdd2_20.xbArr (V41 m ρ) c = blockIn m ρ c :=
  ((Carry.main_v215_37_41 m ρ c).trans (HostHop18.read_input (W36 m ρ c))).trans
    (congrArg (fun t => addf (F := Ideal) (s := S100000x128) (φ := .f32) (prevBlock m ρ c) t) (Carry.main_v10_4_36 m ρ c))

/-- The hop's weight matrix, out of the launch memory's stacked weights. -/
theorem w_eq (c : Dev nD) : ValAdd2_20.wArr (V41 m ρ) c = Wt m c :=
  (HostHop20.read_w (W40 m ρ c)).trans (congrArg (HostHop20.wOf (F := Ideal)) ((Carry.main_arg8_0_40 m ρ c).trans rfl))

/-- The hop's bias row, out of the launch memory's stacked biases. -/
theorem b_eq (c : Dev nD) : ValAdd2_20.bRow (V41 m ρ) c = B m c :=
  (HostHop20.read_b (W40 m ρ c)).trans (congrArg (HostHop20.rowOf (F := Ideal)) ((Carry.main_arg9_0_40 m ρ c).trans rfl))

/-- So the first region's linear stage is the hop's. -/
theorem y_eq (c : Dev nD) : ValAdd2_20.y (V41 m ρ) c = y m ρ c := by
  funext r q
  unfold ValAdd2_20.y y
  rw [xa_eq m ρ c, xb_eq m ρ c, w_eq m ρ c, b_eq m ρ c]

/-! ## The second region's five arrays, from the first region's three -/

/-- The column sums, as the first region leaves them. -/
theorem sum_eq (c : Dev nD) :
    (W42 m ρ c (Proc.devRef .tc main_v260_1) : Vec Ideal S1x128 .f32) = ValAdd2_20.resultSum (V41 m ρ) c :=
  (W42_arr m ρ c 5).trans (ValAdd2_20.arrAt_sum (V41 m ρ) c)

/-- The column sums of squares, as the first region leaves them. -/
theorem sumsq_eq (c : Dev nD) :
    (W42 m ρ c (Proc.devRef .tc main_v260_2) : Vec Ideal S1x128 .f32) = ValAdd2_20.resultSumSq (V41 m ρ) c :=
  (W42_arr m ρ c 6).trans (ValAdd2_20.arrAt_sumsq (V41 m ρ) c)

/-- The tall array the second region normalises is the first region's output: the host operations between the two do
    not write it. -/
theorem yArr_eq (c : Dev nD) : ValNorm21.yArr (V43 m ρ) c = ValAdd2_20.resultY (V41 m ρ) c :=
  ((HostStats21.read_y (W42 m ρ c)).trans (W42_arr m ρ c 4)).trans (ValAdd2_20.arrAt_y (V41 m ρ) c)

/-- The mean row: the column sums over the row count. -/
theorem meanRow_eq (c : Dev nD) :
    ValNorm21.meanRow (V43 m ρ) c
      = Host.divf (F := Ideal) (φ := .f32) (ValAdd2_20.resultSum (V41 m ρ) c) (HostStats21.nRow (F := Ideal)) := by
  refine (HostStats21.read_mean (W42 m ρ c)).trans ?_
  rw [sum_eq m ρ c]

/-- The variance row: the mean of squares less the squared mean. -/
theorem varRow_eq (c : Dev nD) :
    ValNorm21.varRow (V43 m ρ) c
      = subf (F := Ideal) (φ := .f32) (Host.divf (F := Ideal) (φ := .f32) (ValAdd2_20.resultSumSq (V41 m ρ) c) (HostStats21.nRow (F := Ideal)))
          (mulf (F := Ideal) (φ := .f32) (Host.divf (F := Ideal) (φ := .f32) (ValAdd2_20.resultSum (V41 m ρ) c) (HostStats21.nRow (F := Ideal)))
            (Host.divf (F := Ideal) (φ := .f32) (ValAdd2_20.resultSum (V41 m ρ) c) (HostStats21.nRow (F := Ideal)))) := by
  refine (HostStats21.read_var (W42 m ρ c)).trans ?_
  rw [sum_eq m ρ c, sumsq_eq m ρ c]

/-- The scale row: the hop's row of the launch memory's stacked scales, which nothing has written since the launch. -/
theorem gRow_eq (c : Dev nD) : ValNorm21.gRow (V43 m ρ) c = g m c :=
  (HostStats21.read_g (W42 m ρ c)).trans (congrArg (HostStats21.rowOf (F := Ideal)) ((Carry.main_arg10_0_42 m ρ c).trans rfl))

/-- The shift row: the hop's row of the launch memory's stacked shifts. -/
theorem betaRow_eq (c : Dev nD) : ValNorm21.betaRow (V43 m ρ) c = β m c :=
  (HostStats21.read_beta (W42 m ρ c)).trans (congrArg (HostStats21.rowOf (F := Ideal)) ((Carry.main_arg11_0_42 m ρ c).trans rfl))

/-! ## The five arrays read at an entry -/

/-- The divisor row holds the row count in every column. -/
theorem nRow_apply (j : S1x128.Idx) : HostStats21.nRow (F := Ideal) j = nRows := by
  unfold HostStats21.nRow
  exact (broadcastInDim_scalar_apply bcast_S_S1x128 (constant (F := Ideal) S_ .f32 0x47C35000#32) j).trans rfl

/-- The tall array at row r, column q is the linear stage's entry. -/
theorem yArr_apply (c : Dev nD) (r : Fin 100000) (q : Fin 128) :
    ValNorm21.yArr (V43 m ρ) c (ix2 r q) = ValAdd2_20.y (V41 m ρ) c r q :=
  (congrFun (yArr_eq m ρ c) (ix2 r q)).trans rfl

/-- The mean row at column q is the column mean of the linear stage's output. -/
theorem mean_apply (c : Dev nD) (q : Fin 128) :
    ValNorm21.meanRow (V43 m ρ) c (ix2 (0 : Fin 1) q) = StageReal.colMean (ValAdd2_20.y (V41 m ρ) c) nRows q := by
  refine (congrFun (meanRow_eq m ρ c) (ix2 (0 : Fin 1) q)).trans ?_
  show Ideal.div (ValAdd2_20.resultSum (V41 m ρ) c (ix2 (0 : Fin 1) q)) (HostStats21.nRow (F := Ideal) (ix2 (0 : Fin 1) q)) = _
  rw [nRow_apply]
  rfl

/-- The variance row at column q is the mean of squares less the squared mean of that column. -/
theorem var_apply (c : Dev nD) (q : Fin 128) :
    ValNorm21.varRow (V43 m ρ) c (ix2 (0 : Fin 1) q) = StageReal.varSumSq (ValAdd2_20.y (V41 m ρ) c) nRows q := by
  refine (congrFun (varRow_eq m ρ c) (ix2 (0 : Fin 1) q)).trans ?_
  show Ideal.div (ValAdd2_20.resultSumSq (V41 m ρ) c (ix2 (0 : Fin 1) q)) (HostStats21.nRow (F := Ideal) (ix2 (0 : Fin 1) q))
      - Ideal.div (ValAdd2_20.resultSum (V41 m ρ) c (ix2 (0 : Fin 1) q)) (HostStats21.nRow (F := Ideal) (ix2 (0 : Fin 1) q))
        * Ideal.div (ValAdd2_20.resultSum (V41 m ρ) c (ix2 (0 : Fin 1) q)) (HostStats21.nRow (F := Ideal) (ix2 (0 : Fin 1) q)) = _
  rw [nRow_apply]
  rfl

/-! ## The hop's output -/

/-- What the second region leaves in its output array is what it computes from its five arrays. -/
theorem out_eq (c : Dev nD) :
    (W44 (F := Ideal) m ρ c (Proc.devRef .tc main_v273) : Vec Ideal S100000x128 .f32) = ValNorm21.result (V43 m ρ) c :=
  (W44_arr m ρ c 5).trans (ValNorm21.arrAt_out (V43 m ρ) c)

/-- THE KERNEL'S HOP OUTPUT, entry by entry: the batch normalisation of the hop's linear stage with the statistics in
    the kernel's form, not clipped. -/
theorem kernel_out_apply (c : Dev nD) (r : Fin 100000) (q : Fin 128) :
    (W44 (F := Ideal) m ρ c (Proc.devRef .tc main_v273) : Vec Ideal S100000x128 .f32) (ix2 r q)
      = StageSpec.norm (y m ρ c r q) (StageReal.colMean (y m ρ c) nRows q) (StageReal.varSumSq (y m ρ c) nRows q)
          (g m c (ix2 (0 : Fin 1) q)) (β m c (ix2 (0 : Fin 1) q)) := by
  refine (congrFun (out_eq m ρ c) (ix2 r q)).trans ?_
  show StageSpec.norm (ValNorm21.yArr (V43 m ρ) c (ix2 r q)) (ValNorm21.meanRow (V43 m ρ) c (ix2 (0 : Fin 1) q))
      (ValNorm21.varRow (V43 m ρ) c (ix2 (0 : Fin 1) q)) (ValNorm21.gRow (V43 m ρ) c (ix2 (0 : Fin 1) q))
      (ValNorm21.betaRow (V43 m ρ) c (ix2 (0 : Fin 1) q)) = _
  rw [yArr_apply m ρ c r q, mean_apply m ρ c q, var_apply m ρ c q, gRow_eq m ρ c, betaRow_eq m ρ c, y_eq m ρ c]

end Cert.KernelChain10

end
-- ==== Proof.Chain10.lean ====
/-
  Stage 10 of the chain: the second message-passing hop of a later block. The block's input is the previous block's output
  plus the embedding's output, entry by entry, in both programs. Both pool the previous hop's output along the edges, add
  the block's input, multiply by the hop's square of the stacked weights, add the hop's bias and normalise the result by
  its batch statistics with the hop's scale and shift; there is no clipping after a hop. The two programs' previous hop
  outputs are one array of real numbers, and so are their previous block outputs and their embedding outputs (the
  invariants of the earlier stages); the edge lists and the parameters are the same in the two memories.
  The neighbour sum, the weight square and the bias row are written with the same words in both programs, so the two linear
  stages are one array, of real numbers. The kernel takes the variance as the mean of squares less the squared mean, the
  reference as the mean of the squared deviations: on real data one number. So the two normalised arrays are equal, entry
  by entry, and every entry is a real number.
-/
import proofs.«414479_j7705171329025_1_alg».proof.Proof.KernelChain10
import proofs.«414479_j7705171329025_1_alg».proof.Proof.RefChain10
import proofs.«414479_j7705171329025_1_alg».proof.Proof.ChainDefs
import proofs.«414479_j7705171329025_1_alg».proof.Proof.Chain0
import proofs.«414479_j7705171329025_1_alg».proof.Proof.RefSide
import proofs.«414479_j7705171329025_1_alg».proof.Proof.HopJoin
import proofs.«414479_j7705171329025_1_alg».proof.Proof.Seam
import proofs.«414479_j7705171329025_1_alg».proof.Proof.PreReal

noncomputable section

namespace Cert.Chain10

open Cert.RealSpec (IsReal)
open Cert.ChainDefs
open Idealize.ShloMosaic Idealize.ShloMosaic.TcCoe Idealize.ShloMosaic.StableHlo

variable [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The hop's row of a stacked parameter, read at column q, is the hop's vector of it at q: the row is the vector laid out
    as a row. -/
theorem row_eq_vec (p : Vec Ideal Cert.KernelIdeal.S3x128 .f32) (q : Fin 128) :
    Cert.KernelIdeal.HostStats21.rowOf (F := Ideal) p (ValueIdx.ix2 (0 : Fin 1) q)
      = Cert.ReferenceIdeal.RefKinds.refVec1 (F := Ideal) p (ValueIdx.ix1 q) :=
  ValueIdx.shapeCast_a_1a_apply _ _ (0 : Fin 1) q

/-- STAGE 10: the two hop outputs are equal, and every entry is a real number, given the same of the earlier stages'
    arrays this hop reads. -/
theorem inv10 (hpre : Cert.Pre_KernelIdeal m) (hag : Cert.Chain0.Agree m m') (c : Dev Cert.KernelIdeal.nD)
    (h9 : Inv9 m ρ m' c) (h8 : Inv8 m ρ m' c) (h0 : Inv0 m ρ m' c) : Inv10 m ρ m' c := by
  -- the reference's earlier arrays are the kernel's, by the invariants of the earlier stages
  have esrc : Cert.ReferenceIdeal.RefChain10.src (U7 m' c) = Cert.KernelChain10.prev m ρ c := (Cert.RefSide.src10 m' c).trans (funext h9.1).symm
  have ebin : Cert.ReferenceIdeal.RefChain10.bin (U7 m' c) = Cert.KernelChain10.blockIn m ρ c :=
    (Cert.RefSide.bin10 m' c).trans
      (congrArg₂ (fun a b => addf (F := Ideal) (s := Cert.KernelIdeal.S100000x128) (φ := .f32) a b) (funext h8.1).symm (funext h0.1).symm)
  -- the reference's edge lists and parameters are the kernel's: no list of operations writes them, and the two memories
  -- agree on the arguments
  have e1 : U7 m' c (Proc.devRef .tc Cert.ReferenceIdeal.main_arg1) = Cert.KernelChain10.src m c :=
    (Cert.RefSide.arg1_at7 m' c).trans (hag.arg1 c)
  have e2 : U7 m' c (Proc.devRef .tc Cert.ReferenceIdeal.main_arg2) = Cert.KernelChain10.dst m c :=
    (Cert.RefSide.arg2_at7 m' c).trans (hag.arg2 c)
  have e8 : U7 m' c (Proc.devRef .tc Cert.ReferenceIdeal.main_arg8) = Cert.KernelChain10.convW m c :=
    (Cert.RefSide.arg8_at7 m' c).trans (hag.arg8 c)
  have e9 : U7 m' c (Proc.devRef .tc Cert.ReferenceIdeal.main_arg9) = Cert.KernelChain10.convB m c :=
    (Cert.RefSide.arg9_at7 m' c).trans (hag.arg9 c)
  have e10 : U7 m' c (Proc.devRef .tc Cert.ReferenceIdeal.main_arg10) = Cert.KernelChain10.bnG m c :=
    (Cert.RefSide.arg10_at7 m' c).trans (hag.arg10 c)
  have e11 : U7 m' c (Proc.devRef .tc Cert.ReferenceIdeal.main_arg11) = Cert.KernelChain10.bnB m c :=
    (Cert.RefSide.arg11_at7 m' c).trans (hag.arg11 c)
  -- so the two linear stages are one array: the neighbour sum, the weight square and the bias row are the same words
  have ey : Cert.ReferenceIdeal.RefChain10.y (U7 m' c) = Cert.KernelChain10.y m ρ c := by
    funext r q
    show StageSpec.linAdd
        (Cert.ReferenceIdeal.RefKinds.refPooled (Cert.ReferenceIdeal.RefChain10.src (U7 m' c))
          (U7 m' c (Proc.devRef .tc Cert.ReferenceIdeal.main_arg1)) (U7 m' c (Proc.devRef .tc Cert.ReferenceIdeal.main_arg2)))
        (Cert.ReferenceIdeal.RefChain10.bin (U7 m' c))
        (Cert.ReferenceIdeal.RefKinds.refW1 (U7 m' c (Proc.devRef .tc Cert.ReferenceIdeal.main_arg8)))
        (Cert.ReferenceIdeal.RefKinds.refRow1 (U7 m' c (Proc.devRef .tc Cert.ReferenceIdeal.main_arg9))) r q = _
    rw [esrc, ebin, e1, e2, e8, e9]
    rfl
  -- the reference's scale and shift at column q are the kernel's rows' entries
  have eg : ∀ q : Fin 128, Cert.ReferenceIdeal.RefChain10.g (U7 m' c) (ValueIdx.ix1 q) = Cert.KernelChain10.g m c (ValueIdx.ix2 (0 : Fin 1) q) := fun q => by
    show Cert.ReferenceIdeal.RefKinds.refVec1 (U7 m' c (Proc.devRef .tc Cert.ReferenceIdeal.main_arg10)) (ValueIdx.ix1 q) = _
    rw [e10]
    exact (row_eq_vec (Cert.KernelChain10.bnG m c) q).symm
  have eβ : ∀ q : Fin 128, Cert.ReferenceIdeal.RefChain10.β (U7 m' c) (ValueIdx.ix1 q) = Cert.KernelChain10.β m c (ValueIdx.ix2 (0 : Fin 1) q) := fun q => by
    show Cert.ReferenceIdeal.RefKinds.refVec1 (U7 m' c (Proc.devRef .tc Cert.ReferenceIdeal.main_arg11)) (ValueIdx.ix1 q) = _
    rw [e11]
    exact (row_eq_vec (Cert.KernelChain10.bnB m c) q).symm
  -- the join: on real data the two variances are one number
  exact Cert.HopJoin.join (kOut10 m ρ c) (rOut10 m' c) (Cert.KernelChain10.y m ρ c) (Cert.ReferenceIdeal.RefChain10.y (U7 m' c))
    (fun q => Cert.KernelChain10.g m c (ValueIdx.ix2 (0 : Fin 1) q)) (fun q => Cert.KernelChain10.β m c (ValueIdx.ix2 (0 : Fin 1) q))
    (fun q => Cert.ReferenceIdeal.RefChain10.g (U7 m' c) (ValueIdx.ix1 q)) (fun q => Cert.ReferenceIdeal.RefChain10.β (U7 m' c) (ValueIdx.ix1 q))
    (Cert.KernelChain10.kernel_out_apply m ρ c) (Cert.ReferenceIdeal.RefChain10.out_apply (U7 m' c)) ey eg eβ
    (Cert.KernelChain10.y_isReal m ρ hpre c h9.2 h8.2 h0.2) (Cert.KernelChain10.g_isReal m hpre c) (Cert.KernelChain10.β_isReal m hpre c)

end Cert.Chain10

end
-- ==== Proof.ValAdd2_22.lean ====
/-
  Region 22: a message-passing hop's linear stage with its column statistics. At each grid point the body adds a block of
  5000 rows of the pooled neighbours to the same rows of the block's input, multiplies by the hop's weight matrix, adds the
  bias row, stores that block, and adds the block's column sums and column sums of squares to two carried rows the first
  point has set to zero. As for the embedding, the blocks tile the rows and the carried rows end as sums over all rows.
-/
import proofs.«414479_j7705171329025_1_alg».proof.Proof.FrameKI.R22
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValAdd2_22

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. At the first point the two carried rows are first set to zero and then read
  back, so the running rows it leaves are the block's sums added to zero; at the other points they are added to what the
  rows held. -/

section Pieces

variable {F : FTy → Type} [FloatOps F]

theorem outA4 (c : Dev nD) (i : grid22.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond22_0 i)
    (x0 : Vec F S5000x128 .f32) (x1 : Vec F S5000x128 .f32) (x2 : Vec F S128x128 .f32) (x3 : Vec F S1x128 .f32) :
    out22_A_4 c i a1 h1 a2 h2 a3 h3 a4 h4 a5 h5 a6 h6 a7 h7 hc x0 x1 x2 x3 = k22_pay3 x0 x1 x2 x3 := by
  unfold out22_A_4
  rw [View.read_writes_eq_canon _ _ _ (cover22_A_4 c i a1 h1 a2 h2 a3 h3 a4 h4 a5 h5 a6 h6 a7 h7 hc x0 x1 x2 x3)]
  unfold kernelRun22_A
  dsimp only
  (try sl_unfold_words)
  rw [View.canon_unit_zero hz]
  simp only [View.readAt_eq_ld, h1.read_unread, h2.read_unread, h3.read_unread, h4.read_unread,
    View.ld_unit_zero (S := S5000x128) hz, View.ld_unit_zero (S := S128x128) hz, View.ld_unit_zero (S := S1x128) hz]

theorem outA5 (c : Dev nD) (i : grid22.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond22_0 i)
    (x0 : Vec F S5000x128 .f32) (x1 : Vec F S5000x128 .f32) (x2 : Vec F S128x128 .f32) (x3 : Vec F S1x128 .f32) :
    out22_A_5 c i a1 h1 a2 h2 a3 h3 a4 h4 a5 h5 a6 h6 a7 h7 hc x0 x1 x2 x3 = k22_pay4 x0 x1 x2 x3 (k22_pay1 (F := F)) := by
  unfold out22_A_5
  rw [View.read_writes_eq_canon _ _ _ (cover22_A_5 c i a1 h1 a2 h2 a3 h3 a4 h4 a5 h5 a6 h6 a7 h7 hc x0 x1 x2 x3)]
  unfold kernelRun22_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outA6 (c : Dev nD) (i : grid22.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond22_0 i)
    (x0 : Vec F S5000x128 .f32) (x1 : Vec F S5000x128 .f32) (x2 : Vec F S128x128 .f32) (x3 : Vec F S1x128 .f32) :
    out22_A_6 c i a1 h1 a2 h2 a3 h3 a4 h4 a5 h5 a6 h6 a7 h7 hc x0 x1 x2 x3 = k22_pay5 x0 x1 x2 x3 (k22_pay2 (F := F)) := by
  unfold out22_A_6
  rw [View.read_writes_eq_canon _ _ _ (cover22_A_6 c i a1 h1 a2 h2 a3 h3 a4 h4 a5 h5 a6 h6 a7 h7 hc x0 x1 x2 x3)]
  unfold kernelRun22_A
  dsimp only
  (try sl_unfold_words)
  rw [View.canon_cons_unit_zero (S := S1x128) hz]
  simp only [View.readAt_eq_ld, h1.read_unread, h2.read_unread, h3.read_unread, h4.read_unread, View.readCov_unit_zero (S := S1x128) _ hz,
    View.ld_unit_zero (S := S5000x128) hz, View.ld_unit_zero (S := S128x128) hz, View.ld_unit_zero (S := S1x128) hz]

theorem outB4 (c : Dev nD) (i : grid22.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond22_0 i)
    (x0 : Vec F S5000x128 .f32) (x1 : Vec F S5000x128 .f32) (x2 : Vec F S128x128 .f32) (x3 : Vec F S1x128 .f32) (xoS xoQ : Vec F S1x128 .f32) :
    out22_B_4 c i a1 h1 a2 h2 a3 h3 a4 h4 a5 h5 a6 h6 a7 h7 hc x0 x1 x2 x3 xoS xoQ = k22_pay3 x0 x1 x2 x3 := by
  unfold out22_B_4
  rw [View.read_writes_eq_canon _ _ _ (cover22_B_4 c i a1 h1 a2 h2 a3 h3 a4 h4 a5 h5 a6 h6 a7 h7 hc x0 x1 x2 x3 xoS xoQ)]
  unfold kernelRun22_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB5 (c : Dev nD) (i : grid22.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond22_0 i)
    (x0 : Vec F S5000x128 .f32) (x1 : Vec F S5000x128 .f32) (x2 : Vec F S128x128 .f32) (x3 : Vec F S1x128 .f32) (xoS xoQ : Vec F S1x128 .f32) :
    out22_B_5 c i a1 h1 a2 h2 a3 h3 a4 h4 a5 h5 a6 h6 a7 h7 hc x0 x1 x2 x3 xoS xoQ = k22_pay4 x0 x1 x2 x3 xoS := by
  unfold out22_B_5
  rw [View.read_writes_eq_canon _ _ _ (cover22_B_5 c i a1 h1 a2 h2 a3 h3 a4 h4 a5 h5 a6 h6 a7 h7 hc x0 x1 x2 x3 xoS xoQ)]
  unfold kernelRun22_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

theorem outB6 (c : Dev nD) (i : grid22.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond22_0 i)
    (x0 : Vec F S5000x128 .f32) (x1 : Vec F S5000x128 .f32) (x2 : Vec F S128x128 .f32) (x3 : Vec F S1x128 .f32) (xoS xoQ : Vec F S1x128 .f32) :
    out22_B_6 c i a1 h1 a2 h2 a3 h3 a4 h4 a5 h5 a6 h6 a7 h7 hc x0 x1 x2 x3 xoS xoQ = k22_pay5 x0 x1 x2 x3 xoQ := by
  unfold out22_B_6
  rw [View.read_writes_eq_canon _ _ _ (cover22_B_6 c i a1 h1 a2 h2 a3 h3 a4 h4 a5 h5 a6 h6 a7 h7 hc x0 x1 x2 x3 xoS xoQ)]
  unfold kernelRun22_B
  dsimp only
  (try sl_unfold_words)
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

end Pieces

variable (V : (c : Dev nD) → (b : Ref sig .tc) → Buf (Elt Ideal) ((c : Thread nD τ).loc b))

/-- The region's input arrays as it finds them, each at its literal type. -/
abbrev xaArr (c : Dev nD) : Vec Ideal S100000x128 .f32 := V c (Pipeline.arrRef spec22 0)
abbrev xbArr (c : Dev nD) : Vec Ideal S100000x128 .f32 := V c (Pipeline.arrRef spec22 1)
abbrev wArr (c : Dev nD) : Vec Ideal S128x128 .f32 := V c (Pipeline.arrRef spec22 2)
abbrev bRow (c : Dev nD) : Vec Ideal S1x128 .f32 := V c (Pipeline.arrRef spec22 3)

/-- One entry of the linear stage on the region's arrays. -/
def y (c : Dev nD) (r : Fin 100000) (q : Fin 128) : EReal := linAdd (xaArr V c) (xbArr V c) (wArr V c) (bRow V c) r q

/-- What the region leaves in its three output arrays. -/
def resultY (c : Dev nD) : Vec Ideal S100000x128 .f32 := fun i => y V c (i 0) (i 1)
def resultSum (c : Dev nD) : Vec Ideal S1x128 .f32 := fun i => colSum (y V c) (i 1)
def resultSumSq (c : Dev nD) : Vec Ideal S1x128 .f32 := fun i => colSumSq (y V c) (i 1)

/-! ## Where each window's block lies, and what the input blocks read -/

/-- The input blocks at a point, each at its literal type. -/
abbrev xaBlk (c : Dev nD) (t : Fin cfg22.N) : Vec Ideal S5000x128 .f32 := iblk22 V c 0 t
abbrev xbBlk (c : Dev nD) (t : Fin cfg22.N) : Vec Ideal S5000x128 .f32 := iblk22 V c 1 t
abbrev wBlk (c : Dev nD) (t : Fin cfg22.N) : Vec Ideal S128x128 .f32 := iblk22 V c 2 t
abbrev bBlk (c : Dev nD) (t : Fin cfg22.N) : Vec Ideal S1x128 .f32 := iblk22 V c 3 t

/-- The block each window takes at a point, decided over the twenty points: the tall windows take block `t` along the
    rows, and the weight matrix and each row are their own one block throughout. -/
theorem idx_facts : ∀ t : Fin cfg22.N,
    win22_0.index t (0 : Fin 2) = t.val ∧ win22_0.index t (1 : Fin 2) = 0
    ∧ win22_1.index t (0 : Fin 2) = t.val ∧ win22_1.index t (1 : Fin 2) = 0
    ∧ win22_2.index t (0 : Fin 2) = 0 ∧ win22_2.index t (1 : Fin 2) = 0
    ∧ win22_3.index t (0 : Fin 2) = 0 ∧ win22_3.index t (1 : Fin 2) = 0
    ∧ win22_4.index t (0 : Fin 2) = t.val ∧ win22_4.index t (1 : Fin 2) = 0
    ∧ win22_5.index t (0 : Fin 2) = 0 ∧ win22_5.index t (1 : Fin 2) = 0
    ∧ win22_6.index t (0 : Fin 2) = 0 ∧ win22_6.index t (1 : Fin 2) = 0 :=
  (by decide +kernel : ∀ t : Fin grid22.N, _)

/-- Input 0's block at point `t`, read at (p, j), is the array at row 5000·t + p, column j. -/
theorem xaBlk_apply (c : Dev nD) (t : Fin cfg22.N) (p : Fin 5000) (j : Fin 128) (h : t.val * 5000 + p.val < 100000) :
    xaBlk V c t (ix2 p j) = xaArr V c (ix2 ⟨t.val * 5000 + p.val, h⟩ j) := by
  obtain ⟨e00, e01, -⟩ := idx_facts t
  unfold xaBlk iblk22
  rw [View.read_apply]
  show xaArr V c (((cfg22.win 0).blk t).view.emb (ix2 p j)) = _
  refine congrArg (xaArr V c) ?_
  funext a; apply Fin.ext
  match a with
  | ⟨0, _⟩ => show win22_0.index t (0 : Fin 2) * 5000 + 1 * p.val = t.val * 5000 + p.val; omega
  | ⟨1, _⟩ => show win22_0.index t (1 : Fin 2) * 128 + 1 * j.val = j.val; omega

/-- Input 1's block at point `t`, read at (p, j), is the array at row 5000·t + p, column j. -/
theorem xbBlk_apply (c : Dev nD) (t : Fin cfg22.N) (p : Fin 5000) (j : Fin 128) (h : t.val * 5000 + p.val < 100000) :
    xbBlk V c t (ix2 p j) = xbArr V c (ix2 ⟨t.val * 5000 + p.val, h⟩ j) := by
  obtain ⟨-, -, e10, e11, -⟩ := idx_facts t
  unfold xbBlk iblk22
  rw [View.read_apply]
  show xbArr V c (((cfg22.win 1).blk t).view.emb (ix2 p j)) = _
  refine congrArg (xbArr V c) ?_
  funext a; apply Fin.ext
  match a with
  | ⟨0, _⟩ => show win22_1.index t (0 : Fin 2) * 5000 + 1 * p.val = t.val * 5000 + p.val; omega
  | ⟨1, _⟩ => show win22_1.index t (1 : Fin 2) * 128 + 1 * j.val = j.val; omega

/-- Input 2's block, at every point, is the matrix. -/
theorem wBlk_apply (c : Dev nD) (t : Fin cfg22.N) (j : Fin 128) (q : Fin 128) :
    wBlk V c t (ix2 j q) = wArr V c (ix2 j q) := by
  obtain ⟨-, -, -, -, e20, e21, -⟩ := idx_facts t
  unfold wBlk iblk22
  rw [View.read_apply]
  show wArr V c (((cfg22.win 2).blk t).view.emb (ix2 j q)) = _
  refine congrArg (wArr V c) ?_
  funext a; apply Fin.ext
  match a with
  | ⟨0, _⟩ => show win22_2.index t (0 : Fin 2) * 128 + 1 * j.val = j.val; omega
  | ⟨1, _⟩ => show win22_2.index t (1 : Fin 2) * 128 + 1 * q.val = q.val; omega

/-- Input 3's block, at every point, is the row. -/
theorem bBlk_apply (c : Dev nD) (t : Fin cfg22.N) (q : Fin 128) :
    bBlk V c t (ix2 (0 : Fin 1) q) = bRow V c (ix2 (0 : Fin 1) q) := by
  obtain ⟨-, -, -, -, -, -, e30, e31, -⟩ := idx_facts t
  unfold bBlk iblk22
  rw [View.read_apply]
  show bRow V c (((cfg22.win 3).blk t).view.emb (ix2 (0 : Fin 1) q)) = _
  refine congrArg (bRow V c) ?_
  funext a; apply Fin.ext
  match a with
  | ⟨0, _⟩ => show win22_3.index t (0 : Fin 2) * 1 + 1 * 0 = 0; omega
  | ⟨1, _⟩ => show win22_3.index t (1 : Fin 2) * 128 + 1 * q.val = q.val; omega

/-- The block of values a point computes, at (p, q), is the linear stage's entry of row 5000·t + p, column q. -/
theorem pay3_point (c : Dev nD) (t : Fin cfg22.N) (p : Fin 5000) (q : Fin 128) (h : t.val * 5000 + p.val < 100000) :
    k22_pay3 (F := Ideal) (xaBlk V c t) (xbBlk V c t) (wBlk V c t) (bBlk V c t) (ix2 p q) = y V c ⟨t.val * 5000 + p.val, h⟩ q := by
  refine (PayLinear.k2_pay3_apply (xaBlk V c t) (xbBlk V c t) (wBlk V c t) (bBlk V c t) p q).trans ?_
  unfold y linAdd
  refine congrArg₂ (fun a b : EReal => a + b) (Finset.sum_congr rfl fun j _ => ?_) (bBlk_apply V c t q)
  exact congrArg₂ (fun a b : EReal => a * b)
    (congrArg₂ (fun a b : EReal => a + b) (xaBlk_apply V c t p j h) (xbBlk_apply V c t p j h)) (wBlk_apply V c t j q)

/-! ## What the three output buffers hold after each point -/

/-- The output block after any point is the block of values the point computes. -/
theorem outsY_eq (c : Dev nD) (t : Fin cfg22.N) :
    (outsAt22 V c t.val t.isLt).1 = k22_pay3 (F := Ideal) (xaBlk V c t) (xbBlk V c t) (wBlk V c t) (bBlk V c t) := by
  by_cases h0 : t.val % 20 = 0
  · rw [outsAt22_A V c t h0]
    dsimp only
    exact outA4 (F := Ideal) c (grid22.coords t) (ms22_0 t) (hs22_0 t) (ms22_1 t) (hs22_1 t) (ms22_2 t) (hs22_2 t) (ms22_3 t) (hs22_3 t) (ms22_4 t) (hs22_4 t) (ms22_5 t) (hs22_5 t) (ms22_6 t) (hs22_6 t)
      ((hcond22_0 t).mpr h0) (iblk22 V c 0 t) (iblk22 V c 1 t) (iblk22 V c 2 t) (iblk22 V c 3 t)
  · rw [outsAt22_B V c t h0]
    dsimp only
    exact outB4 (F := Ideal) c (grid22.coords t) (ms22_0 t) (hs22_0 t) (ms22_1 t) (hs22_1 t) (ms22_2 t) (hs22_2 t) (ms22_3 t) (hs22_3 t) (ms22_4 t) (hs22_4 t) (ms22_5 t) (hs22_5 t) (ms22_6 t) (hs22_6 t)
      (fun h => h0 ((hcond22_0 t).mp h)) (iblk22 V c 0 t) (iblk22 V c 1 t) (iblk22 V c 2 t) (iblk22 V c 3 t)
      (outsAt22 V c (t.val - 1) (Nat.lt_of_le_of_lt (Nat.sub_le _ _) t.isLt)).2.1
      (outsAt22 V c (t.val - 1) (Nat.lt_of_le_of_lt (Nat.sub_le _ _) t.isLt)).2.2

/-- The carried column sum at column `q`, after point `t`. -/
def accSum (c : Dev nD) (u : Fin 1) (q : Fin 128) : (t : ℕ) → t < 20 → EReal :=
  fun t ht => (outsAt22 V c t (lt_of_lt_of_eq ht N_22.symm)).2.1 (ix2 u q)

/-- At the first point it is the stored zero plus the block's column sum. -/
theorem accSum_first (c : Dev nD) (u : Fin 1) (q : Fin 128) (t : ℕ) (ht : t < 20) (h0 : t % 20 = 0) :
    accSum V c u q t ht = (k22_pay1 (F := Ideal)) (ix2 u q)
      + ∑ p : Fin 5000, y V c ⟨t * 5000 + p.val, by have := p.isLt; omega⟩ q := by
  have ht' : t < cfg22.N := lt_of_lt_of_eq ht N_22.symm
  show (outsAt22 V c (⟨t, ht'⟩ : Fin cfg22.N).val (⟨t, ht'⟩ : Fin cfg22.N).isLt).2.1 (ix2 u q) = _
  rw [outsAt22_A V c ⟨t, ht'⟩ h0]
  dsimp only
  refine (congrFun (outA5 (F := Ideal) c (grid22.coords ⟨t, ht'⟩) (ms22_0 ⟨t, ht'⟩) (hs22_0 ⟨t, ht'⟩) (ms22_1 ⟨t, ht'⟩) (hs22_1 ⟨t, ht'⟩) (ms22_2 ⟨t, ht'⟩) (hs22_2 ⟨t, ht'⟩) (ms22_3 ⟨t, ht'⟩) (hs22_3 ⟨t, ht'⟩) (ms22_4 ⟨t, ht'⟩) (hs22_4 ⟨t, ht'⟩) (ms22_5 ⟨t, ht'⟩) (hs22_5 ⟨t, ht'⟩) (ms22_6 ⟨t, ht'⟩) (hs22_6 ⟨t, ht'⟩)
    ((hcond22_0 ⟨t, ht'⟩).mpr h0) (iblk22 V c 0 ⟨t, ht'⟩) (iblk22 V c 1 ⟨t, ht'⟩) (iblk22 V c 2 ⟨t, ht'⟩) (iblk22 V c 3 ⟨t, ht'⟩)) (ix2 u q)).trans ?_
  refine (PayLinear.k2_pay4_apply (xaBlk V c ⟨t, ht'⟩) (xbBlk V c ⟨t, ht'⟩) (wBlk V c ⟨t, ht'⟩) (bBlk V c ⟨t, ht'⟩) (k22_pay1 (F := Ideal)) u q).trans ?_
  refine congrArg (fun s : EReal => (k22_pay1 (F := Ideal)) (ix2 u q) + s) (Finset.sum_congr rfl fun p _ => ?_)
  exact pay3_point V c ⟨t, ht'⟩ p q _

/-- At any other point it is what the point before left plus the block's column sum. -/
theorem accSum_step (c : Dev nD) (u : Fin 1) (q : Fin 128) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg22.N := lt_of_lt_of_eq ht N_22.symm
  show (outsAt22 V c (⟨t, ht'⟩ : Fin cfg22.N).val (⟨t, ht'⟩ : Fin cfg22.N).isLt).2.1 (ix2 u q) = _
  rw [outsAt22_B V c ⟨t, ht'⟩ h0]
  dsimp only
  refine (congrFun (outB5 (F := Ideal) c (grid22.coords ⟨t, ht'⟩) (ms22_0 ⟨t, ht'⟩) (hs22_0 ⟨t, ht'⟩) (ms22_1 ⟨t, ht'⟩) (hs22_1 ⟨t, ht'⟩) (ms22_2 ⟨t, ht'⟩) (hs22_2 ⟨t, ht'⟩) (ms22_3 ⟨t, ht'⟩) (hs22_3 ⟨t, ht'⟩) (ms22_4 ⟨t, ht'⟩) (hs22_4 ⟨t, ht'⟩) (ms22_5 ⟨t, ht'⟩) (hs22_5 ⟨t, ht'⟩) (ms22_6 ⟨t, ht'⟩) (hs22_6 ⟨t, ht'⟩)
    (fun h => h0 ((hcond22_0 ⟨t, ht'⟩).mp h)) (iblk22 V c 0 ⟨t, ht'⟩) (iblk22 V c 1 ⟨t, ht'⟩) (iblk22 V c 2 ⟨t, ht'⟩) (iblk22 V c 3 ⟨t, ht'⟩)
    (outsAt22 V c ((⟨t, ht'⟩ : Fin cfg22.N).val - 1) (Nat.lt_of_le_of_lt (Nat.sub_le _ _) (⟨t, ht'⟩ : Fin cfg22.N).isLt)).2.1
    (outsAt22 V c ((⟨t, ht'⟩ : Fin cfg22.N).val - 1) (Nat.lt_of_le_of_lt (Nat.sub_le _ _) (⟨t, ht'⟩ : Fin cfg22.N).isLt)).2.2) (ix2 u q)).trans ?_
  refine (PayLinear.k2_pay4_apply (xaBlk V c ⟨t, ht'⟩) (xbBlk V c ⟨t, ht'⟩) (wBlk V c ⟨t, ht'⟩) (bBlk V c ⟨t, ht'⟩)
    (outsAt22 V c ((⟨t, ht'⟩ : Fin cfg22.N).val - 1) (Nat.lt_of_le_of_lt (Nat.sub_le _ _) (⟨t, ht'⟩ : Fin cfg22.N).isLt)).2.1 u q).trans ?_
  refine congrArg (fun s : EReal => accSum V c u q (t - 1) (Nat.lt_of_le_of_lt (Nat.sub_le t 1) ht) + s)
    (Finset.sum_congr rfl fun p _ => ?_)
  exact pay3_point V c ⟨t, ht'⟩ p q _

/-- After the last point it is the column sum over all 100000 rows. -/
theorem accSum_last (c : Dev nD) (u : Fin 1) (q : Fin 128) :
    accSum V c u q 19 (by norm_num) = colSum (y V c) q :=
  AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k22_pay1 (F := Ideal)) (ix2 u q)) Ideal.ofBits_zero_f32
    (fun t ht h0 => accSum_first V c u q t ht h0) (fun t ht h0 => accSum_step V c u q t ht h0)

/-- The carried column sum of squares at column `q`, after point `t`. -/
def accSumSq (c : Dev nD) (u : Fin 1) (q : Fin 128) : (t : ℕ) → t < 20 → EReal :=
  fun t ht => (outsAt22 V c t (lt_of_lt_of_eq ht N_22.symm)).2.2 (ix2 u q)

/-- At the first point it is the stored zero plus the block's column sum of squares. -/
theorem accSumSq_first (c : Dev nD) (u : Fin 1) (q : Fin 128) (t : ℕ) (ht : t < 20) (h0 : t % 20 = 0) :
    accSumSq V c u q t ht = (k22_pay2 (F := Ideal)) (ix2 u q)
      + ∑ p : Fin 5000, (y V c ⟨t * 5000 + p.val, by have := p.isLt; omega⟩ q * y V c ⟨t * 5000 + p.val, by have := p.isLt; omega⟩ q) := by
  have ht' : t < cfg22.N := lt_of_lt_of_eq ht N_22.symm
  show (outsAt22 V c (⟨t, ht'⟩ : Fin cfg22.N).val (⟨t, ht'⟩ : Fin cfg22.N).isLt).2.2 (ix2 u q) = _
  rw [outsAt22_A V c ⟨t, ht'⟩ h0]
  dsimp only
  refine (congrFun (outA6 (F := Ideal) c (grid22.coords ⟨t, ht'⟩) (ms22_0 ⟨t, ht'⟩) (hs22_0 ⟨t, ht'⟩) (ms22_1 ⟨t, ht'⟩) (hs22_1 ⟨t, ht'⟩) (ms22_2 ⟨t, ht'⟩) (hs22_2 ⟨t, ht'⟩) (ms22_3 ⟨t, ht'⟩) (hs22_3 ⟨t, ht'⟩) (ms22_4 ⟨t, ht'⟩) (hs22_4 ⟨t, ht'⟩) (ms22_5 ⟨t, ht'⟩) (hs22_5 ⟨t, ht'⟩) (ms22_6 ⟨t, ht'⟩) (hs22_6 ⟨t, ht'⟩)
    ((hcond22_0 ⟨t, ht'⟩).mpr h0) (iblk22 V c 0 ⟨t, ht'⟩) (iblk22 V c 1 ⟨t, ht'⟩) (iblk22 V c 2 ⟨t, ht'⟩) (iblk22 V c 3 ⟨t, ht'⟩)) (ix2 u q)).trans ?_
  refine (PayLinear.k2_pay5_apply (xaBlk V c ⟨t, ht'⟩) (xbBlk V c ⟨t, ht'⟩) (wBlk V c ⟨t, ht'⟩) (bBlk V c ⟨t, ht'⟩) (k22_pay2 (F := Ideal)) u q).trans ?_
  refine congrArg (fun s : EReal => (k22_pay2 (F := Ideal)) (ix2 u q) + s) (Finset.sum_congr rfl fun p _ => ?_)
  exact congrArg₂ (fun a b : EReal => a * b) (pay3_point V c ⟨t, ht'⟩ p q _) (pay3_point V c ⟨t, ht'⟩ p q _)

/-- At any other point it is what the point before left plus the block's column sum of squares. -/
theorem accSumSq_step (c : Dev nD) (u : Fin 1) (q : Fin 128) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg22.N := lt_of_lt_of_eq ht N_22.symm
  show (outsAt22 V c (⟨t, ht'⟩ : Fin cfg22.N).val (⟨t, ht'⟩ : Fin cfg22.N).isLt).2.2 (ix2 u q) = _
  rw [outsAt22_B V c ⟨t, ht'⟩ h0]
  dsimp only
  refine (congrFun (outB6 (F := Ideal) c (grid22.coords ⟨t, ht'⟩) (ms22_0 ⟨t, ht'⟩) (hs22_0 ⟨t, ht'⟩) (ms22_1 ⟨t, ht'⟩) (hs22_1 ⟨t, ht'⟩) (ms22_2 ⟨t, ht'⟩) (hs22_2 ⟨t, ht'⟩) (ms22_3 ⟨t, ht'⟩) (hs22_3 ⟨t, ht'⟩) (ms22_4 ⟨t, ht'⟩) (hs22_4 ⟨t, ht'⟩) (ms22_5 ⟨t, ht'⟩) (hs22_5 ⟨t, ht'⟩) (ms22_6 ⟨t, ht'⟩) (hs22_6 ⟨t, ht'⟩)
    (fun h => h0 ((hcond22_0 ⟨t, ht'⟩).mp h)) (iblk22 V c 0 ⟨t, ht'⟩) (iblk22 V c 1 ⟨t, ht'⟩) (iblk22 V c 2 ⟨t, ht'⟩) (iblk22 V c 3 ⟨t, ht'⟩)
    (outsAt22 V c ((⟨t, ht'⟩ : Fin cfg22.N).val - 1) (Nat.lt_of_le_of_lt (Nat.sub_le _ _) (⟨t, ht'⟩ : Fin cfg22.N).isLt)).2.1
    (outsAt22 V c ((⟨t, ht'⟩ : Fin cfg22.N).val - 1) (Nat.lt_of_le_of_lt (Nat.sub_le _ _) (⟨t, ht'⟩ : Fin cfg22.N).isLt)).2.2) (ix2 u q)).trans ?_
  refine (PayLinear.k2_pay5_apply (xaBlk V c ⟨t, ht'⟩) (xbBlk V c ⟨t, ht'⟩) (wBlk V c ⟨t, ht'⟩) (bBlk V c ⟨t, ht'⟩)
    (outsAt22 V c ((⟨t, ht'⟩ : Fin cfg22.N).val - 1) (Nat.lt_of_le_of_lt (Nat.sub_le _ _) (⟨t, ht'⟩ : Fin cfg22.N).isLt)).2.2 u q).trans ?_
  refine congrArg (fun s : EReal => accSumSq V c u q (t - 1) (Nat.lt_of_le_of_lt (Nat.sub_le t 1) ht) + s)
    (Finset.sum_congr rfl fun p _ => ?_)
  exact congrArg₂ (fun a b : EReal => a * b) (pay3_point V c ⟨t, ht'⟩ p q _) (pay3_point V c ⟨t, ht'⟩ p q _)

/-- After the last point it is the column sum of squares over all 100000 rows. -/
theorem accSumSq_last (c : Dev nD) (u : Fin 1) (q : Fin 128) :
    accSumSq V c u q 19 (by norm_num) = colSumSq (y V c) q :=
  AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k22_pay2 (F := Ideal)) (ix2 u q)) Ideal.ofBits_zero_f32
    (fun t ht h0 => accSumSq_first V c u q t ht h0) (fun t ht h0 => accSumSq_step V c u q t ht h0)

/-! ## From the blocks to the arrays -/

/-- Row `p`, column `q` of the output's block at point `t` is row 5000·t + p, column q of the array: a block's coordinate
    is its index times its extent plus the coordinate inside it. -/
theorem emb_out (t : Fin cfg22.N) (p : Fin 5000) (q : Fin 128) (h : t.val * 5000 + p.val < 100000) :
    ((cfg22.win 4).blk t).view.emb (ix2 p q) = (ix2 ⟨t.val * 5000 + p.val, h⟩ q : S100000x128.Idx) := by
  obtain ⟨-, -, -, -, -, -, -, -, e40, e41, -⟩ := idx_facts t
  funext a; apply Fin.ext
  match a with
  | ⟨0, _⟩ => show win22_4.index t (0 : Fin 2) * 5000 + 1 * p.val = t.val * 5000 + p.val; omega
  | ⟨1, _⟩ => show win22_4.index t (1 : Fin 2) * 128 + 1 * q.val = q.val; omega

/-- What point `t` writes back for the output is block `t` of `resultY`. -/
theorem flushedY_eq (c : Dev nD) (t : Fin cfg22.N) :
    (dat22 (F := Ideal) V c).flushed 4 t = ((cfg22.win 4).blk t).view.read (Elt Ideal) (resultY V c) := by
  show (cfg22.win 4).cut (grid22.coords t) ((dat22 V c).after 4 t) = _
  rw [after22_4]
  have ht : t.val < 20 := Nat.lt_of_lt_of_eq t.isLt N_22
  funext j
  obtain ⟨p, q, rfl⟩ : ∃ (p : Fin 5000) (q : Fin 128), j = ix2 p q := ⟨j 0, j 1, eq_ix2 j⟩
  have h : t.val * 5000 + p.val < 100000 := by have := p.isLt; omega
  show (outsAt22 V c t.val t.isLt).1 (ix2 p q) = resultY V c (((cfg22.win 4).blk t).view.emb (ix2 p q))
  refine (congrFun (outsY_eq V c t) (ix2 p q)).trans ?_
  refine (pay3_point V c t p q h).trans ?_
  exact (congrArg (resultY V c) (emb_out t p q h)).symm

/-- An entry of the array lies in point `t`'s block exactly when each of its coordinates lies in the block's range. -/
theorem mem_blkY (t : Fin cfg22.N) (i : S100000x128.Idx) :
    i ∈ ((cfg22.win 4).blk t).view.set ↔ ∀ a : Fin 2, win22_4.index t a * S5000x128.size a ≤ (i a).val
      ∧ (i a).val < win22_4.index t a * S5000x128.size a + S5000x128.size a := by
  show i ∈ ((View.whole main_v289_0).slice (win22_4.rect t)).set ↔ _
  rw [View.set_slice_whole, Rect.mem_set_unit]
  exact Iff.rfl

/-- The twenty blocks tile the array: row `r` is in the block of point `r / 5000`, and every point writes its block back. -/
theorem coverY (i : S100000x128.Idx) :
    ∃ t : Fin cfg22.N, (cfg22.win 4).flush t = true ∧ i ∈ ((cfg22.win 4).blk t).view.set := by
  have hi0 : (i 0).val < 100000 := idx2_lt0 i
  have hi1 : (i 1).val < 128 := idx2_lt1 i
  obtain ⟨t, ht⟩ : ∃ t : Fin cfg22.N, t.val = (i 0).val / 5000 :=
    ⟨⟨(i 0).val / 5000, by rw [show cfg22.N = 20 from N_22]; omega⟩, rfl⟩
  obtain ⟨-, -, -, -, -, -, -, -, e40, e41, -⟩ := idx_facts t
  refine ⟨t, flush22_4 t, ?_⟩
  rw [mem_blkY]
  intro a
  match a with
  | ⟨0, _⟩ =>
    show win22_4.index t (0 : Fin 2) * 5000 ≤ (i 0).val ∧ (i 0).val < win22_4.index t (0 : Fin 2) * 5000 + 5000
    omega
  | ⟨1, _⟩ =>
    show win22_4.index t (1 : Fin 2) * 128 ≤ (i 1).val ∧ (i 1).val < win22_4.index t (1 : Fin 2) * 128 + 128
    omega

/-- At a point whose number is 19 the carried column sum is the one over all rows. -/
theorem accSum_at_last (c : Dev nD) (u : Fin 1) (q : Fin 128) (n : ℕ) (hn : n < 20) (h19 : n = 19) :
    accSum V c u q n hn = colSum (y V c) q := by
  subst h19
  exact accSum_last V c u q

/-- The carried row of window 5 after the last point is the whole of `resultSum`. -/
theorem outs5_last (c : Dev nD) (t : Fin cfg22.N) (h19 : t.val = 19) :
    (outsAt22 V c t.val t.isLt).2.1 = resultSum V c := by
  funext j
  obtain ⟨u, q, rfl⟩ : ∃ (u : Fin 1) (q : Fin 128), j = ix2 u q := ⟨j 0, j 1, eq_ix2 j⟩
  exact accSum_at_last V c u q t.val (Nat.lt_of_lt_of_eq t.isLt N_22) h19

/-- What the last point writes back for window 5 is the whole of `resultSum`: the window's one block lies at offset zero,
    so it reads the whole row. -/
theorem flushed5_eq (c : Dev nD) (t : Fin cfg22.N) (hf : (cfg22.win 5).flush t = true) :
    (dat22 (F := Ideal) V c).flushed 5 t = ((cfg22.win 5).blk t).view.read (Elt Ideal) (resultSum V c) := by
  have hN : t.val < 20 := Nat.lt_of_lt_of_eq t.isLt N_22
  have h19 : t.val = 19 := by have := (flush22_5 t).mp hf; omega
  obtain ⟨-, -, -, -, -, -, -, -, -, -, eS0, eS1, eQ0, eQ1⟩ := idx_facts t
  have hz' : (fun a => win22_5.index t a * main_v289_1.ty.shape.size a) = fun _ => 0 := funext fun a => by
    match a with
    | ⟨0, _⟩ => show win22_5.index t (0 : Fin 2) * 1 = 0; omega
    | ⟨1, _⟩ => show win22_5.index t (1 : Fin 2) * 128 = 0; omega
  show (cfg22.win 5).cut (grid22.coords t) ((dat22 V c).after 5 t) = _
  rw [after22_5, outs5_last V c t h19]
  exact (Memref.read_access_unit_zero (Elt Ideal) main_v289_1 hz' (fun a => by rw [congrFun hz' a]; simp) (resultSum V c)).symm

/-- An entry of the row lies in point `t`'s block of window 5 exactly when each coordinate lies in the block's range. -/
theorem mem_blk5 (t : Fin cfg22.N) (i : S1x128.Idx) :
    i ∈ ((cfg22.win 5).blk t).view.set ↔ ∀ a : Fin 2, win22_5.index t a * S1x128.size a ≤ (i a).val
      ∧ (i a).val < win22_5.index t a * S1x128.size a + S1x128.size a := by
  show i ∈ ((View.whole main_v289_1).slice (win22_5.rect t)).set ↔ _
  rw [View.set_slice_whole, Rect.mem_set_unit]
  exact Iff.rfl

/-- The last point's block of window 5 is the whole row, and the last point writes it back. -/
theorem cover5 (i : S1x128.Idx) :
    ∃ t : Fin cfg22.N, (cfg22.win 5).flush t = true ∧ i ∈ ((cfg22.win 5).blk t).view.set := by
  have hi0 : (i 0).val < 1 := idx2_lt0 i
  have hi1 : (i 1).val < 128 := idx2_lt1 i
  obtain ⟨t, ht⟩ : ∃ t : Fin cfg22.N, t.val = 19 := ⟨⟨19, by rw [show cfg22.N = 20 from N_22]; norm_num⟩, rfl⟩
  obtain ⟨-, -, -, -, -, -, -, -, -, -, eS0, eS1, eQ0, eQ1⟩ := idx_facts t
  refine ⟨t, (flush22_5 t).mpr (by omega), ?_⟩
  rw [mem_blk5]
  intro a
  match a with
  | ⟨0, _⟩ =>
    show win22_5.index t (0 : Fin 2) * 1 ≤ (i 0).val ∧ (i 0).val < win22_5.index t (0 : Fin 2) * 1 + 1
    omega
  | ⟨1, _⟩ =>
    show win22_5.index t (1 : Fin 2) * 128 ≤ (i 1).val ∧ (i 1).val < win22_5.index t (1 : Fin 2) * 128 + 128
    omega

/-- At a point whose number is 19 the carried column sum of squares is the one over all rows. -/
theorem accSumSq_at_last (c : Dev nD) (u : Fin 1) (q : Fin 128) (n : ℕ) (hn : n < 20) (h19 : n = 19) :
    accSumSq V c u q n hn = colSumSq (y V c) q := by
  subst h19
  exact accSumSq_last V c u q

/-- The carried row of window 6 after the last point is the whole of `resultSumSq`. -/
theorem outs6_last (c : Dev nD) (t : Fin cfg22.N) (h19 : t.val = 19) :
    (outsAt22 V c t.val t.isLt).2.2 = resultSumSq V c := by
  funext j
  obtain ⟨u, q, rfl⟩ : ∃ (u : Fin 1) (q : Fin 128), j = ix2 u q := ⟨j 0, j 1, eq_ix2 j⟩
  exact accSumSq_at_last V c u q t.val (Nat.lt_of_lt_of_eq t.isLt N_22) h19

/-- What the last point writes back for window 6 is the whole of `resultSumSq`: the window's one block lies at offset zero,
    so it reads the whole row. -/
theorem flushed6_eq (c : Dev nD) (t : Fin cfg22.N) (hf : (cfg22.win 6).flush t = true) :
    (dat22 (F := Ideal) V c).flushed 6 t = ((cfg22.win 6).blk t).view.read (Elt Ideal) (resultSumSq V c) := by
  have hN : t.val < 20 := Nat.lt_of_lt_of_eq t.isLt N_22
  have h19 : t.val = 19 := by have := (flush22_6 t).mp hf; omega
  obtain ⟨-, -, -, -, -, -, -, -, -, -, eS0, eS1, eQ0, eQ1⟩ := idx_facts t
  have hz' : (fun a => win22_6.index t a * main_v289_2.ty.shape.size a) = fun _ => 0 := funext fun a => by
    match a with
    | ⟨0, _⟩ => show win22_6.index t (0 : Fin 2) * 1 = 0; omega
    | ⟨1, _⟩ => show win22_6.index t (1 : Fin 2) * 128 = 0; omega
  show (cfg22.win 6).cut (grid22.coords t) ((dat22 V c).after 6 t) = _
  rw [after22_6, outs6_last V c t h19]
  exact (Memref.read_access_unit_zero (Elt Ideal) main_v289_2 hz' (fun a => by rw [congrFun hz' a]; simp) (resultSumSq V c)).symm

/-- An entry of the row lies in point `t`'s block of window 6 exactly when each coordinate lies in the block's range. -/
theorem mem_blk6 (t : Fin cfg22.N) (i : S1x128.Idx) :
    i ∈ ((cfg22.win 6).blk t).view.set ↔ ∀ a : Fin 2, win22_6.index t a * S1x128.size a ≤ (i a).val
      ∧ (i a).val < win22_6.index t a * S1x128.size a + S1x128.size a := by
  show i ∈ ((View.whole main_v289_2).slice (win22_6.rect t)).set ↔ _
  rw [View.set_slice_whole, Rect.mem_set_unit]
  exact Iff.rfl

/-- The last point's block of window 6 is the whole row, and the last point writes it back. -/
theorem cover6 (i : S1x128.Idx) :
    ∃ t : Fin cfg22.N, (cfg22.win 6).flush t = true ∧ i ∈ ((cfg22.win 6).blk t).view.set := by
  have hi0 : (i 0).val < 1 := idx2_lt0 i
  have hi1 : (i 1).val < 128 := idx2_lt1 i
  obtain ⟨t, ht⟩ : ∃ t : Fin cfg22.N, t.val = 19 := ⟨⟨19, by rw [show cfg22.N = 20 from N_22]; norm_num⟩, rfl⟩
  obtain ⟨-, -, -, -, -, -, -, -, -, -, eS0, eS1, eQ0, eQ1⟩ := idx_facts t
  refine ⟨t, (flush22_6 t).mpr (by omega), ?_⟩
  rw [mem_blk6]
  intro a
  match a with
  | ⟨0, _⟩ =>
    show win22_6.index t (0 : Fin 2) * 1 ≤ (i 0).val ∧ (i 0).val < win22_6.index t (0 : Fin 2) * 1 + 1
    omega
  | ⟨1, _⟩ =>
    show win22_6.index t (1 : Fin 2) * 128 ≤ (i 1).val ∧ (i 1).val < win22_6.index t (1 : Fin 2) * 128 + 128
    omega

/-- THE INTERFACE of this region, one statement per output window. -/
theorem arrAt_y (c : Dev nD) : (dat22 (F := Ideal) V c).arrAt 4 cfg22.N = resultY V c :=
  (dat22 V c).arrAt_eq_of_cover 4 (resultY V c) (fun t _ => flushedY_eq V c t) coverY

theorem arrAt_sum (c : Dev nD) : (dat22 (F := Ideal) V c).arrAt 5 cfg22.N = resultSum V c :=
  (dat22 V c).arrAt_eq_of_cover 5 (resultSum V c) (fun t hf => flushed5_eq V c t hf) cover5

theorem arrAt_sumsq (c : Dev nD) : (dat22 (F := Ideal) V c).arrAt 6 cfg22.N = resultSumSq V c :=
  (dat22 V c).arrAt_eq_of_cover 6 (resultSumSq V c) (fun t hf => flushed6_eq V c t hf) cover6

end Cert.KernelIdeal.ValAdd2_22

end
-- ==== Proof.ValNorm23Pay.lean ====
/-
  Region 23's arithmetic: what the normalisation's body computes at one row and column of a block, from the block of the
  linear stage's output and the four statistic and parameter rows. This normalisation is not followed by max(·, 0).
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm23

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block. -/
theorem pay_apply (var : Vec Ideal S1x128 .f32) (y : Vec Ideal S5000x128 .f32) (mean g beta : Vec Ideal S1x128 .f32)
    (p : Fin 5000) (q : Fin 128) :
    k23_pay1 (F := Ideal) var y mean g beta (ix2 p q)
      = StageSpec.norm (y (ix2 p q)) (mean (ix2 (0 : Fin 1) q)) (var (ix2 (0 : Fin 1) q)) (g (ix2 (0 : Fin 1) q)) (beta (ix2 (0 : Fin 1) q)) := by
  unfold k23_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The two zero offsets of a load or a store of a whole buffer. -/
theorem hz : (![0, 0] : Fin 2 → Nat) = fun _ => 0 := funext fun a => by fin_cases a <;> rfl

end Cert.KernelIdeal.ValNorm23

end
-- ==== Proof.ValNorm23.lean ====
/-
  Region 23: a normalisation with no max(·, 0) after it. Every grid point takes a block of 5000 rows of the linear stage's
  output and the four statistic and parameter rows, and writes back, entry by entry, the normalised value.
  The twenty blocks tile the 100000 rows, so the output array as a whole is that function of the region's input arrays.
-/
import proofs.«414479_j7705171329025_1_alg».proof.Proof.FrameKI.R23
import proofs.«414479_j7705171329025_1_alg».proof.Proof.StageSpec
import proofs.«414479_j7705171329025_1_alg».proof.Proof.ValNorm23Pay
import Idealize.ShloMosaic.Lib.Pipeline.Value
import Idealize.ShloMosaic.Lib.ValueIdx
import Idealize.ShloMosaic.Lib.ValueLayout

set_option maxRecDepth 16384

noncomputable section

namespace Cert.KernelIdeal.ValNorm23

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x128 .f32 := V c (Pipeline.arrRef spec23 0)
abbrev meanRow (c : Dev nD) : Vec Ideal S1x128 .f32 := V c (Pipeline.arrRef spec23 1)
abbrev varRow (c : Dev nD) : Vec Ideal S1x128 .f32 := V c (Pipeline.arrRef spec23 2)
abbrev gRow (c : Dev nD) : Vec Ideal S1x128 .f32 := V c (Pipeline.arrRef spec23 3)
abbrev betaRow (c : Dev nD) : Vec Ideal S1x128 .f32 := V c (Pipeline.arrRef spec23 4)

/-- What the region leaves in its output array: the normalised entry, at every row and column. -/
def result (c : Dev nD) : Vec Ideal S100000x128 .f32 := fun i =>
  StageSpec.norm (yArr V c i) (meanRow V c (ix2 (0 : Fin 1) (i 1))) (varRow V c (ix2 (0 : Fin 1) (i 1)))
    (gRow V c (ix2 (0 : Fin 1) (i 1))) (betaRow V c (ix2 (0 : Fin 1) (i 1)))

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x128 .f32) (x1 x2 x3 x4 : Vec Ideal S1x128 .f32) (p : Fin 5000) (q : Fin 128) :
    out23_5 x0 x1 x2 x3 x4 (ix2 p q)
      = StageSpec.norm (x0 (ix2 p q)) (x1 (ix2 (0 : Fin 1) q)) (x2 (ix2 (0 : Fin 1) q)) (x3 (ix2 (0 : Fin 1) q)) (x4 (ix2 (0 : Fin 1) q)) := by
  unfold out23_5
  rw [View.canon_unit_zero hz]
  simp only [View.ld_unit_zero (S := S1x128) hz, View.ld_unit_zero (S := S5000x128) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg23.N,
    win23_0.index t (0 : Fin 2) = t.val ∧ win23_0.index t (1 : Fin 2) = 0
    ∧ win23_1.index t (0 : Fin 2) = 0 ∧ win23_1.index t (1 : Fin 2) = 0
    ∧ win23_2.index t (0 : Fin 2) = 0 ∧ win23_2.index t (1 : Fin 2) = 0
    ∧ win23_3.index t (0 : Fin 2) = 0 ∧ win23_3.index t (1 : Fin 2) = 0
    ∧ win23_4.index t (0 : Fin 2) = 0 ∧ win23_4.index t (1 : Fin 2) = 0
    ∧ win23_5.index t (0 : Fin 2) = t.val ∧ win23_5.index t (1 : Fin 2) = 0 :=
  (by decide +kernel : ∀ t : Fin grid23.N, _)

/-- Row `p`, column `q` of the output's block at point `t` is row 5000·t + p, column q of the array: a block's coordinate
    is its index times its extent plus the coordinate inside it. -/
theorem emb_out (t : Fin cfg23.N) (p : Fin 5000) (q : Fin 128) (h : t.val * 5000 + p.val < 100000) :
    ((cfg23.win 5).blk t).view.emb (ix2 p q) = (ix2 ⟨t.val * 5000 + p.val, h⟩ q : S100000x128.Idx) := by
  obtain ⟨-, -, -, -, -, -, -, -, -, -, e50, e51⟩ := idx_facts t
  funext a; apply Fin.ext
  match a with
  | ⟨0, _⟩ => show win23_5.index t (0 : Fin 2) * 5000 + 1 * p.val = t.val * 5000 + p.val; omega
  | ⟨1, _⟩ => show win23_5.index t (1 : Fin 2) * 128 + 1 * q.val = q.val; omega

/-- The tall input's block at point `t`, read at (p, q), is the array at row 5000·t + p, column q: the same rows the
    output's block has there. -/
theorem y_apply (c : Dev nD) (t : Fin cfg23.N) (p : Fin 5000) (q : Fin 128) (h : t.val * 5000 + p.val < 100000) :
    (iblk23 V c 0 t : Vec Ideal S5000x128 .f32) (ix2 p q) = yArr V c (ix2 ⟨t.val * 5000 + p.val, h⟩ q) := by
  obtain ⟨e00, e01, -⟩ := idx_facts t
  unfold iblk23
  rw [View.read_apply]
  show yArr V c (((cfg23.win 0).blk t).view.emb (ix2 p q)) = _
  refine congrArg (yArr V c) ?_
  funext a; apply Fin.ext
  match a with
  | ⟨0, _⟩ => show win23_0.index t (0 : Fin 2) * 5000 + 1 * p.val = t.val * 5000 + p.val; omega
  | ⟨1, _⟩ => show win23_0.index t (1 : Fin 2) * 128 + 1 * q.val = q.val; omega

/-- The mean row's block, at every point, is the row. -/
theorem mean_apply (c : Dev nD) (t : Fin cfg23.N) (q : Fin 128) :
    (iblk23 V c 1 t : Vec Ideal S1x128 .f32) (ix2 (0 : Fin 1) q) = meanRow V c (ix2 (0 : Fin 1) q) := by
  obtain ⟨-, -, e10, e11, -⟩ := idx_facts t
  unfold iblk23
  rw [View.read_apply]
  show meanRow V c (((cfg23.win 1).blk t).view.emb (ix2 (0 : Fin 1) q)) = _
  refine congrArg (meanRow V c) ?_
  funext a; apply Fin.ext
  match a with
  | ⟨0, _⟩ => show win23_1.index t (0 : Fin 2) * 1 + 1 * 0 = 0; omega
  | ⟨1, _⟩ => show win23_1.index t (1 : Fin 2) * 128 + 1 * q.val = q.val; omega

/-- The variance row's block, at every point, is the row. -/
theorem var_apply (c : Dev nD) (t : Fin cfg23.N) (q : Fin 128) :
    (iblk23 V c 2 t : Vec Ideal S1x128 .f32) (ix2 (0 : Fin 1) q) = varRow V c (ix2 (0 : Fin 1) q) := by
  obtain ⟨-, -, -, -, e20, e21, -⟩ := idx_facts t
  unfold iblk23
  rw [View.read_apply]
  show varRow V c (((cfg23.win 2).blk t).view.emb (ix2 (0 : Fin 1) q)) = _
  refine congrArg (varRow V c) ?_
  funext a; apply Fin.ext
  match a with
  | ⟨0, _⟩ => show win23_2.index t (0 : Fin 2) * 1 + 1 * 0 = 0; omega
  | ⟨1, _⟩ => show win23_2.index t (1 : Fin 2) * 128 + 1 * q.val = q.val; omega

/-- The scale row's block, at every point, is the row. -/
theorem g_apply (c : Dev nD) (t : Fin cfg23.N) (q : Fin 128) :
    (iblk23 V c 3 t : Vec Ideal S1x128 .f32) (ix2 (0 : Fin 1) q) = gRow V c (ix2 (0 : Fin 1) q) := by
  obtain ⟨-, -, -, -, -, -, e30, e31, -⟩ := idx_facts t
  unfold iblk23
  rw [View.read_apply]
  show gRow V c (((cfg23.win 3).blk t).view.emb (ix2 (0 : Fin 1) q)) = _
  refine congrArg (gRow V c) ?_
  funext a; apply Fin.ext
  match a with
  | ⟨0, _⟩ => show win23_3.index t (0 : Fin 2) * 1 + 1 * 0 = 0; omega
  | ⟨1, _⟩ => show win23_3.index t (1 : Fin 2) * 128 + 1 * q.val = q.val; omega

/-- The shift row's block, at every point, is the row. -/
theorem beta_apply (c : Dev nD) (t : Fin cfg23.N) (q : Fin 128) :
    (iblk23 V c 4 t : Vec Ideal S1x128 .f32) (ix2 (0 : Fin 1) q) = betaRow V c (ix2 (0 : Fin 1) q) := by
  obtain ⟨-, -, -, -, -, -, -, -, e40, e41, -⟩ := idx_facts t
  unfold iblk23
  rw [View.read_apply]
  show betaRow V c (((cfg23.win 4).blk t).view.emb (ix2 (0 : Fin 1) q)) = _
  refine congrArg (betaRow V c) ?_
  funext a; apply Fin.ext
  match a with
  | ⟨0, _⟩ => show win23_4.index t (0 : Fin 2) * 1 + 1 * 0 = 0; omega
  | ⟨1, _⟩ => show win23_4.index t (1 : Fin 2) * 128 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg23.N) :
    (dat23 (F := Ideal) V c).flushed 5 t = ((cfg23.win 5).blk t).view.read (Elt Ideal) (result V c) := by
  show (cfg23.win 5).cut (grid23.coords t) ((dat23 V c).after 5 t) = _
  rw [after23_5]
  have ht : t.val < 20 := Nat.lt_of_lt_of_eq t.isLt N_23
  funext j
  obtain ⟨p, q, rfl⟩ : ∃ (p : Fin 5000) (q : Fin 128), j = ix2 p q := ⟨j 0, j 1, eq_ix2 j⟩
  have h : t.val * 5000 + p.val < 100000 := by have := p.isLt; omega
  show out23_5 (iblk23 V c 0 t) (iblk23 V c 1 t) (iblk23 V c 2 t) (iblk23 V c 3 t) (iblk23 V c 4 t) (ix2 p q)
      = result V c (((cfg23.win 5).blk t).view.emb (ix2 p q))
  refine (out_apply (iblk23 V c 0 t) (iblk23 V c 1 t) (iblk23 V c 2 t) (iblk23 V c 3 t) (iblk23 V c 4 t) p q).trans ?_
  refine Eq.trans ?_ (congrArg (result V c) (emb_out t p q h)).symm
  refine Eq.trans ?_ (show StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg23.N) (i : S100000x128.Idx) :
    i ∈ ((cfg23.win 5).blk t).view.set ↔ ∀ a : Fin 2, win23_5.index t a * S5000x128.size a ≤ (i a).val
      ∧ (i a).val < win23_5.index t a * S5000x128.size a + S5000x128.size a := by
  show i ∈ ((View.whole main_v302).slice (win23_5.rect t)).set ↔ _
  rw [View.set_slice_whole, Rect.mem_set_unit]
  exact Iff.rfl

/-- The twenty blocks tile the array: row `r` is in the block of point `r / 5000`, and every point writes its block back. -/
theorem cover (i : S100000x128.Idx) :
    ∃ t : Fin cfg23.N, (cfg23.win 5).flush t = true ∧ i ∈ ((cfg23.win 5).blk t).view.set := by
  have hi0 : (i 0).val < 100000 := idx2_lt0 i
  have hi1 : (i 1).val < 128 := idx2_lt1 i
  obtain ⟨t, ht⟩ : ∃ t : Fin cfg23.N, t.val = (i 0).val / 5000 :=
    ⟨⟨(i 0).val / 5000, by rw [show cfg23.N = 20 from N_23]; omega⟩, rfl⟩
  obtain ⟨-, -, -, -, -, -, -, -, -, -, e50, e51⟩ := idx_facts t
  refine ⟨t, flush23_5 t, ?_⟩
  rw [mem_blk]
  intro a
  match a with
  | ⟨0, _⟩ =>
    show win23_5.index t (0 : Fin 2) * 5000 ≤ (i 0).val ∧ (i 0).val < win23_5.index t (0 : Fin 2) * 5000 + 5000
    omega
  | ⟨1, _⟩ =>
    show win23_5.index t (1 : Fin 2) * 128 ≤ (i 1).val ∧ (i 1).val < win23_5.index t (1 : Fin 2) * 128 + 128
    omega

/-- THE INTERFACE of this region: after its twenty points the output array is `result`. -/
theorem arrAt_out (c : Dev nD) : (dat23 (F := Ideal) V c).arrAt 5 cfg23.N = result V c := by
  exact (dat23 V c).arrAt_eq_of_cover 5 (result V c) (fun t _ => flushed_eq V c t) cover

end Cert.KernelIdeal.ValNorm23

end
-- ==== Proof.Carry7.lean ====
import proofs.«414479_j7705171329025_1_alg».proof.Proof.FrameKI.Run

set_option maxRecDepth 16384

noncomputable section

namespace Cert.KernelIdeal.Carry

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- Nothing between boundary 0 and boundary 44 of the run writes `main_arg9`: it keeps its contents. -/
theorem main_arg9_0_44 (c : Dev nD) : W44 m ρ c (Proc.devRef .tc main_arg9) = W0 m ρ c (Proc.devRef .tc main_arg9) :=
  calc W44 m ρ c (Proc.devRef .tc main_arg9)
    _ = W43 m ρ c (Proc.devRef .tc main_arg9) := W44_of_ne m ρ c main_arg9 (by decide)
    _ = W42 m ρ c (Proc.devRef .tc main_arg9) := StableHlo.after_of_forall_not_mem (b := Proc.devRef .tc main_arg9) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg9) := W42_of_ne m ρ c main_arg9 (by decide)
    _ = W40 m ρ c (Proc.devRef .tc main_arg9) := StableHlo.after_of_forall_not_mem (b := Proc.devRef .tc main_arg9) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg9) := W40_of_ne m ρ c main_arg9 (by decide)
    _ = W38 m ρ c (Proc.devRef .tc main_arg9) := StableHlo.after_of_forall_not_mem (b := Proc.devRef .tc main_arg9) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg9) := W38_of_ne m ρ c main_arg9 (by decide)
    _ = W36 m ρ c (Proc.devRef .tc main_arg9) := StableHlo.after_of_forall_not_mem (b := Proc.devRef .tc main_arg9) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg9) := W36_of_ne m ρ c main_arg9 (by decide)
    _ = W34 m ρ c (Proc.devRef .tc main_arg9) := StableHlo.after_of_forall_not_mem (b := Proc.devRef .tc main_arg9) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg9) := W34_of_ne m ρ c main_arg9 (by decide)
    _ = W32 m ρ c (Proc.devRef .tc main_arg9) := StableHlo.after_of_forall_not_mem (b := Proc.devRef .tc main_arg9) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg9) := W32_of_ne m ρ c main_arg9 (by decide)
    _ = W30 m ρ c (Proc.devRef .tc main_arg9) := StableHlo.after_of_forall_not_mem (b := Proc.devRef .tc main_arg9) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg9) := W30_of_ne m ρ c main_arg9 (by decide)
    _ = W28 m ρ c (Proc.devRef .tc main_arg9) := StableHlo.after_of_forall_not_mem (b := Proc.devRef .tc main_arg9) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg9) := W28_of_ne m ρ c main_arg9 (by decide)
    _ = W26 m ρ c (Proc.devRef .tc main_arg9) := StableHlo.after_of_forall_not_mem (b := Proc.devRef .tc main_arg9) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg9) := W26_of_ne m ρ c main_arg9 (by decide)
    _ = W24 m ρ c (Proc.devRef .tc main_arg9) := StableHlo.after_of_forall_not_mem (b := Proc.devRef .tc main_arg9) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg9) := W24_of_ne m ρ c main_arg9 (by decide)
    _ = W22 m ρ c (Proc.devRef .tc main_arg9) := StableHlo.after_of_forall_not_mem (b := Proc.devRef .tc main_arg9) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg9) := W22_of_ne m ρ c main_arg9 (by decide)
    _ = W20 m ρ c (Proc.devRef .tc main_arg9) := StableHlo.after_of_forall_not_mem (b := Proc.devRef .tc main_arg9) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg9) := W20_of_ne m ρ c main_arg9 (by decide)
    _ = W18 m ρ c (Proc.devRef .tc main_arg9) := StableHlo.after_of_forall_not_mem (b := Proc.devRef .tc main_arg9) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg9) := W18_of_ne m ρ c main_arg9 (by decide)
    _ = W16 m ρ c (Proc.devRef .tc main_arg9) := StableHlo.after_of_forall_not_mem (b := Proc.devRef .tc main_arg9) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg9) := W16_of_ne m ρ c main_arg9 (by decide)
    _ = W14 m ρ c (Proc.devRef .tc main_arg9) := StableHlo.after_of_forall_not_mem (b := Proc.devRef .tc main_arg9) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 46 of the run writes `main_arg10`: it keeps its contents. -/
theorem main_arg10_0_46 (c : Dev nD) : W46 m ρ c (Proc.devRef .tc main_arg10) = W0 m ρ c (Proc.devRef .tc main_arg10) :=
  calc W46 m ρ c (Proc.devRef .tc main_arg10)
    _ = W45 m ρ c (Proc.devRef .tc main_arg10) := W46_of_ne m ρ c main_arg10 (by decide)
    _ = W44 m ρ c (Proc.devRef .tc main_arg10) := StableHlo.after_of_forall_not_mem (b := Proc.devRef .tc main_arg10) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg10) := W44_of_ne m ρ c main_arg10 (by decide)
    _ = W42 m ρ c (Proc.devRef .tc main_arg10) := StableHlo.after_of_forall_not_mem (b := Proc.devRef .tc main_arg10) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg10) := W42_of_ne m ρ c main_arg10 (by decide)
    _ = W40 m ρ c (Proc.devRef .tc main_arg10) := StableHlo.after_of_forall_not_mem (b := Proc.devRef .tc main_arg10) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg10) := W40_of_ne m ρ c main_arg10 (by decide)
    _ = W38 m ρ c (Proc.devRef .tc main_arg10) := StableHlo.after_of_forall_not_mem (b := Proc.devRef .tc main_arg10) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg10) := W38_of_ne m ρ c main_arg10 (by decide)
    _ = W36 m ρ c (Proc.devRef .tc main_arg10) := StableHlo.after_of_forall_not_mem (b := Proc.devRef .tc main_arg10) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg10) := W36_of_ne m ρ c main_arg10 (by decide)
    _ = W34 m ρ c (Proc.devRef .tc main_arg10) := StableHlo.after_of_forall_not_mem (b := Proc.devRef .tc main_arg10) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg10) := W34_of_ne m ρ c main_arg10 (by decide)
    _ = W32 m ρ c (Proc.devRef .tc main_arg10) := StableHlo.after_of_forall_not_mem (b := Proc.devRef .tc main_arg10) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg10) := W32_of_ne m ρ c main_arg10 (by decide)
    _ = W30 m ρ c (Proc.devRef .tc main_arg10) := StableHlo.after_of_forall_not_mem (b := Proc.devRef .tc main_arg10) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg10) := W30_of_ne m ρ c main_arg10 (by decide)
    _ = W28 m ρ c (Proc.devRef .tc main_arg10) := StableHlo.after_of_forall_not_mem (b := Proc.devRef .tc main_arg10) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg10) := W28_of_ne m ρ c main_arg10 (by decide)
    _ = W26 m ρ c (Proc.devRef .tc main_arg10) := StableHlo.after_of_forall_not_mem (b := Proc.devRef .tc main_arg10) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg10) := W26_of_ne m ρ c main_arg10 (by decide)
    _ = W24 m ρ c (Proc.devRef .tc main_arg10) := StableHlo.after_of_forall_not_mem (b := Proc.devRef .tc main_arg10) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg10) := W24_of_ne m ρ c main_arg10 (by decide)
    _ = W22 m ρ c (Proc.devRef .tc main_arg10) := StableHlo.after_of_forall_not_mem (b := Proc.devRef .tc main_arg10) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg10) := W22_of_ne m ρ c main_arg10 (by decide)
    _ = W20 m ρ c (Proc.devRef .tc main_arg10) := StableHlo.after_of_forall_not_mem (b := Proc.devRef .tc main_arg10) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg10) := W20_of_ne m ρ c main_arg10 (by decide)
    _ = W18 m ρ c (Proc.devRef .tc main_arg10) := StableHlo.after_of_forall_not_mem (b := Proc.devRef .tc main_arg10) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg10) := W18_of_ne m ρ c main_arg10 (by decide)
    _ = W16 m ρ c (Proc.devRef .tc main_arg10) := StableHlo.after_of_forall_not_mem (b := Proc.devRef .tc main_arg10) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg10) := W16_of_ne m ρ c main_arg10 (by decide)
    _ = W14 m ρ c (Proc.devRef .tc main_arg10) := StableHlo.after_of_forall_not_mem (b := Proc.devRef .tc main_arg10) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 46 of the run writes `main_arg11`: it keeps its contents. -/
theorem main_arg11_0_46 (c : Dev nD) : W46 m ρ c (Proc.devRef .tc main_arg11) = W0 m ρ c (Proc.devRef .tc main_arg11) :=
  calc W46 m ρ c (Proc.devRef .tc main_arg11)
    _ = W45 m ρ c (Proc.devRef .tc main_arg11) := W46_of_ne m ρ c main_arg11 (by decide)
    _ = W44 m ρ c (Proc.devRef .tc main_arg11) := StableHlo.after_of_forall_not_mem (b := Proc.devRef .tc main_arg11) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg11) := W44_of_ne m ρ c main_arg11 (by decide)
    _ = W42 m ρ c (Proc.devRef .tc main_arg11) := StableHlo.after_of_forall_not_mem (b := Proc.devRef .tc main_arg11) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg11) := W42_of_ne m ρ c main_arg11 (by decide)
    _ = W40 m ρ c (Proc.devRef .tc main_arg11) := StableHlo.after_of_forall_not_mem (b := Proc.devRef .tc main_arg11) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg11) := W40_of_ne m ρ c main_arg11 (by decide)
    _ = W38 m ρ c (Proc.devRef .tc main_arg11) := StableHlo.after_of_forall_not_mem (b := Proc.devRef .tc main_arg11) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg11) := W38_of_ne m ρ c main_arg11 (by decide)
    _ = W36 m ρ c (Proc.devRef .tc main_arg11) := StableHlo.after_of_forall_not_mem (b := Proc.devRef .tc main_arg11) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg11) := W36_of_ne m ρ c main_arg11 (by decide)
    _ = W34 m ρ c (Proc.devRef .tc main_arg11) := StableHlo.after_of_forall_not_mem (b := Proc.devRef .tc main_arg11) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg11) := W34_of_ne m ρ c main_arg11 (by decide)
    _ = W32 m ρ c (Proc.devRef .tc main_arg11) := StableHlo.after_of_forall_not_mem (b := Proc.devRef .tc main_arg11) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg11) := W32_of_ne m ρ c main_arg11 (by decide)
    _ = W30 m ρ c (Proc.devRef .tc main_arg11) := StableHlo.after_of_forall_not_mem (b := Proc.devRef .tc main_arg11) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg11) := W30_of_ne m ρ c main_arg11 (by decide)
    _ = W28 m ρ c (Proc.devRef .tc main_arg11) := StableHlo.after_of_forall_not_mem (b := Proc.devRef .tc main_arg11) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg11) := W28_of_ne m ρ c main_arg11 (by decide)
    _ = W26 m ρ c (Proc.devRef .tc main_arg11) := StableHlo.after_of_forall_not_mem (b := Proc.devRef .tc main_arg11) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg11) := W26_of_ne m ρ c main_arg11 (by decide)
    _ = W24 m ρ c (Proc.devRef .tc main_arg11) := StableHlo.after_of_forall_not_mem (b := Proc.devRef .tc main_arg11) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg11) := W24_of_ne m ρ c main_arg11 (by decide)
    _ = W22 m ρ c (Proc.devRef .tc main_arg11) := StableHlo.after_of_forall_not_mem (b := Proc.devRef .tc main_arg11) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg11) := W22_of_ne m ρ c main_arg11 (by decide)
    _ = W20 m ρ c (Proc.devRef .tc main_arg11) := StableHlo.after_of_forall_not_mem (b := Proc.devRef .tc main_arg11) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg11) := W20_of_ne m ρ c main_arg11 (by decide)
    _ = W18 m ρ c (Proc.devRef .tc main_arg11) := StableHlo.after_of_forall_not_mem (b := Proc.devRef .tc main_arg11) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg11) := W18_of_ne m ρ c main_arg11 (by decide)
    _ = W16 m ρ c (Proc.devRef .tc main_arg11) := StableHlo.after_of_forall_not_mem (b := Proc.devRef .tc main_arg11) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg11) := W16_of_ne m ρ c main_arg11 (by decide)
    _ = W14 m ρ c (Proc.devRef .tc main_arg11) := StableHlo.after_of_forall_not_mem (b := Proc.devRef .tc main_arg11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 48 of the run writes `main_arg12`: it keeps its contents. -/
theorem main_arg12_0_48 (c : Dev nD) : W48 m ρ c (Proc.devRef .tc main_arg12) = W0 m ρ c (Proc.devRef .tc main_arg12) :=
  calc W48 m ρ c (Proc.devRef .tc main_arg12)
    _ = W47 m ρ c (Proc.devRef .tc main_arg12) := W48_of_ne m ρ c main_arg12 (by decide)
    _ = W46 m ρ c (Proc.devRef .tc main_arg12) := StableHlo.after_of_forall_not_mem (b := Proc.devRef .tc main_arg12) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg12) := W46_of_ne m ρ c main_arg12 (by decide)
    _ = W44 m ρ c (Proc.devRef .tc main_arg12) := StableHlo.after_of_forall_not_mem (b := Proc.devRef .tc main_arg12) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg12) := W44_of_ne m ρ c main_arg12 (by decide)
    _ = W42 m ρ c (Proc.devRef .tc main_arg12) := StableHlo.after_of_forall_not_mem (b := Proc.devRef .tc main_arg12) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg12) := W42_of_ne m ρ c main_arg12 (by decide)
    _ = W40 m ρ c (Proc.devRef .tc main_arg12) := StableHlo.after_of_forall_not_mem (b := Proc.devRef .tc main_arg12) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg12) := W40_of_ne m ρ c main_arg12 (by decide)
    _ = W38 m ρ c (Proc.devRef .tc main_arg12) := StableHlo.after_of_forall_not_mem (b := Proc.devRef .tc main_arg12) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg12) := W38_of_ne m ρ c main_arg12 (by decide)
    _ = W36 m ρ c (Proc.devRef .tc main_arg12) := StableHlo.after_of_forall_not_mem (b := Proc.devRef .tc main_arg12) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg12) := W36_of_ne m ρ c main_arg12 (by decide)
    _ = W34 m ρ c (Proc.devRef .tc main_arg12) := StableHlo.after_of_forall_not_mem (b := Proc.devRef .tc main_arg12) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg12) := W34_of_ne m ρ c main_arg12 (by decide)
    _ = W32 m ρ c (Proc.devRef .tc main_arg12) := StableHlo.after_of_forall_not_mem (b := Proc.devRef .tc main_arg12) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg12) := W32_of_ne m ρ c main_arg12 (by decide)
    _ = W30 m ρ c (Proc.devRef .tc main_arg12) := StableHlo.after_of_forall_not_mem (b := Proc.devRef .tc main_arg12) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg12) := W30_of_ne m ρ c main_arg12 (by decide)
    _ = W28 m ρ c (Proc.devRef .tc main_arg12) := StableHlo.after_of_forall_not_mem (b := Proc.devRef .tc main_arg12) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg12) := W28_of_ne m ρ c main_arg12 (by decide)
    _ = W26 m ρ c (Proc.devRef .tc main_arg12) := StableHlo.after_of_forall_not_mem (b := Proc.devRef .tc main_arg12) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg12) := W26_of_ne m ρ c main_arg12 (by decide)
    _ = W24 m ρ c (Proc.devRef .tc main_arg12) := StableHlo.after_of_forall_not_mem (b := Proc.devRef .tc main_arg12) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg12) := W24_of_ne m ρ c main_arg12 (by decide)
    _ = W22 m ρ c (Proc.devRef .tc main_arg12) := StableHlo.after_of_forall_not_mem (b := Proc.devRef .tc main_arg12) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg12) := W22_of_ne m ρ c main_arg12 (by decide)
    _ = W20 m ρ c (Proc.devRef .tc main_arg12) := StableHlo.after_of_forall_not_mem (b := Proc.devRef .tc main_arg12) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg12) := W20_of_ne m ρ c main_arg12 (by decide)
    _ = W18 m ρ c (Proc.devRef .tc main_arg12) := StableHlo.after_of_forall_not_mem (b := Proc.devRef .tc main_arg12) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg12) := W18_of_ne m ρ c main_arg12 (by decide)
    _ = W16 m ρ c (Proc.devRef .tc main_arg12) := StableHlo.after_of_forall_not_mem (b := Proc.devRef .tc main_arg12) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg12) := W16_of_ne m ρ c main_arg12 (by decide)
    _ = W14 m ρ c (Proc.devRef .tc main_arg12) := StableHlo.after_of_forall_not_mem (b := Proc.devRef .tc main_arg12) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 50 of the run writes `main_arg13`: it keeps its contents. -/
theorem main_arg13_0_50 (c : Dev nD) : W50 m ρ c (Proc.devRef .tc main_arg13) = W0 m ρ c (Proc.devRef .tc main_arg13) :=
  calc W50 m ρ c (Proc.devRef .tc main_arg13)
    _ = W49 m ρ c (Proc.devRef .tc main_arg13) := W50_of_ne m ρ c main_arg13 (by decide)
    _ = W48 m ρ c (Proc.devRef .tc main_arg13) := StableHlo.after_of_forall_not_mem (b := Proc.devRef .tc main_arg13) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg13) := W48_of_ne m ρ c main_arg13 (by decide)
    _ = W46 m ρ c (Proc.devRef .tc main_arg13) := StableHlo.after_of_forall_not_mem (b := Proc.devRef .tc main_arg13) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg13) := W46_of_ne m ρ c main_arg13 (by decide)
    _ = W44 m ρ c (Proc.devRef .tc main_arg13) := StableHlo.after_of_forall_not_mem (b := Proc.devRef .tc main_arg13) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg13) := W44_of_ne m ρ c main_arg13 (by decide)
    _ = W42 m ρ c (Proc.devRef .tc main_arg13) := StableHlo.after_of_forall_not_mem (b := Proc.devRef .tc main_arg13) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg13) := W42_of_ne m ρ c main_arg13 (by decide)
    _ = W40 m ρ c (Proc.devRef .tc main_arg13) := StableHlo.after_of_forall_not_mem (b := Proc.devRef .tc main_arg13) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg13) := W40_of_ne m ρ c main_arg13 (by decide)
    _ = W38 m ρ c (Proc.devRef .tc main_arg13) := StableHlo.after_of_forall_not_mem (b := Proc.devRef .tc main_arg13) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg13) := W38_of_ne m ρ c main_arg13 (by decide)
    _ = W36 m ρ c (Proc.devRef .tc main_arg13) := StableHlo.after_of_forall_not_mem (b := Proc.devRef .tc main_arg13) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg13) := W36_of_ne m ρ c main_arg13 (by decide)
    _ = W34 m ρ c (Proc.devRef .tc main_arg13) := StableHlo.after_of_forall_not_mem (b := Proc.devRef .tc main_arg13) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg13) := W34_of_ne m ρ c main_arg13 (by decide)
    _ = W32 m ρ c (Proc.devRef .tc main_arg13) := StableHlo.after_of_forall_not_mem (b := Proc.devRef .tc main_arg13) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg13) := W32_of_ne m ρ c main_arg13 (by decide)
    _ = W30 m ρ c (Proc.devRef .tc main_arg13) := StableHlo.after_of_forall_not_mem (b := Proc.devRef .tc main_arg13) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg13) := W30_of_ne m ρ c main_arg13 (by decide)
    _ = W28 m ρ c (Proc.devRef .tc main_arg13) := StableHlo.after_of_forall_not_mem (b := Proc.devRef .tc main_arg13) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg13) := W28_of_ne m ρ c main_arg13 (by decide)
    _ = W26 m ρ c (Proc.devRef .tc main_arg13) := StableHlo.after_of_forall_not_mem (b := Proc.devRef .tc main_arg13) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg13) := W26_of_ne m ρ c main_arg13 (by decide)
    _ = W24 m ρ c (Proc.devRef .tc main_arg13) := StableHlo.after_of_forall_not_mem (b := Proc.devRef .tc main_arg13) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg13) := W24_of_ne m ρ c main_arg13 (by decide)
    _ = W22 m ρ c (Proc.devRef .tc main_arg13) := StableHlo.after_of_forall_not_mem (b := Proc.devRef .tc main_arg13) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg13) := W22_of_ne m ρ c main_arg13 (by decide)
    _ = W20 m ρ c (Proc.devRef .tc main_arg13) := StableHlo.after_of_forall_not_mem (b := Proc.devRef .tc main_arg13) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg13) := W20_of_ne m ρ c main_arg13 (by decide)
    _ = W18 m ρ c (Proc.devRef .tc main_arg13) := StableHlo.after_of_forall_not_mem (b := Proc.devRef .tc main_arg13) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg13) := W18_of_ne m ρ c main_arg13 (by decide)
    _ = W16 m ρ c (Proc.devRef .tc main_arg13) := StableHlo.after_of_forall_not_mem (b := Proc.devRef .tc main_arg13) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg13) := W16_of_ne m ρ c main_arg13 (by decide)
    _ = W14 m ρ c (Proc.devRef .tc main_arg13) := StableHlo.after_of_forall_not_mem (b := Proc.devRef .tc main_arg13) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 50 of the run writes `main_arg14`: it keeps its contents. -/
theorem main_arg14_0_50 (c : Dev nD) : W50 m ρ c (Proc.devRef .tc main_arg14) = W0 m ρ c (Proc.devRef .tc main_arg14) :=
  calc W50 m ρ c (Proc.devRef .tc main_arg14)
    _ = W49 m ρ c (Proc.devRef .tc main_arg14) := W50_of_ne m ρ c main_arg14 (by decide)
    _ = W48 m ρ c (Proc.devRef .tc main_arg14) := StableHlo.after_of_forall_not_mem (b := Proc.devRef .tc main_arg14) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg14) := W48_of_ne m ρ c main_arg14 (by decide)
    _ = W46 m ρ c (Proc.devRef .tc main_arg14) := StableHlo.after_of_forall_not_mem (b := Proc.devRef .tc main_arg14) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg14) := W46_of_ne m ρ c main_arg14 (by decide)
    _ = W44 m ρ c (Proc.devRef .tc main_arg14) := StableHlo.after_of_forall_not_mem (b := Proc.devRef .tc main_arg14) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg14) := W44_of_ne m ρ c main_arg14 (by decide)
    _ = W42 m ρ c (Proc.devRef .tc main_arg14) := StableHlo.after_of_forall_not_mem (b := Proc.devRef .tc main_arg14) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg14) := W42_of_ne m ρ c main_arg14 (by decide)
    _ = W40 m ρ c (Proc.devRef .tc main_arg14) := StableHlo.after_of_forall_not_mem (b := Proc.devRef .tc main_arg14) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg14) := W40_of_ne m ρ c main_arg14 (by decide)
    _ = W38 m ρ c (Proc.devRef .tc main_arg14) := StableHlo.after_of_forall_not_mem (b := Proc.devRef .tc main_arg14) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg14) := W38_of_ne m ρ c main_arg14 (by decide)
    _ = W36 m ρ c (Proc.devRef .tc main_arg14) := StableHlo.after_of_forall_not_mem (b := Proc.devRef .tc main_arg14) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg14) := W36_of_ne m ρ c main_arg14 (by decide)
    _ = W34 m ρ c (Proc.devRef .tc main_arg14) := StableHlo.after_of_forall_not_mem (b := Proc.devRef .tc main_arg14) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg14) := W34_of_ne m ρ c main_arg14 (by decide)
    _ = W32 m ρ c (Proc.devRef .tc main_arg14) := StableHlo.after_of_forall_not_mem (b := Proc.devRef .tc main_arg14) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg14) := W32_of_ne m ρ c main_arg14 (by decide)
    _ = W30 m ρ c (Proc.devRef .tc main_arg14) := StableHlo.after_of_forall_not_mem (b := Proc.devRef .tc main_arg14) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg14) := W30_of_ne m ρ c main_arg14 (by decide)
    _ = W28 m ρ c (Proc.devRef .tc main_arg14) := StableHlo.after_of_forall_not_mem (b := Proc.devRef .tc main_arg14) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg14) := W28_of_ne m ρ c main_arg14 (by decide)
    _ = W26 m ρ c (Proc.devRef .tc main_arg14) := StableHlo.after_of_forall_not_mem (b := Proc.devRef .tc main_arg14) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg14) := W26_of_ne m ρ c main_arg14 (by decide)
    _ = W24 m ρ c (Proc.devRef .tc main_arg14) := StableHlo.after_of_forall_not_mem (b := Proc.devRef .tc main_arg14) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg14) := W24_of_ne m ρ c main_arg14 (by decide)
    _ = W22 m ρ c (Proc.devRef .tc main_arg14) := StableHlo.after_of_forall_not_mem (b := Proc.devRef .tc main_arg14) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg14) := W22_of_ne m ρ c main_arg14 (by decide)
    _ = W20 m ρ c (Proc.devRef .tc main_arg14) := StableHlo.after_of_forall_not_mem (b := Proc.devRef .tc main_arg14) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg14) := W20_of_ne m ρ c main_arg14 (by decide)
    _ = W18 m ρ c (Proc.devRef .tc main_arg14) := StableHlo.after_of_forall_not_mem (b := Proc.devRef .tc main_arg14) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg14) := W18_of_ne m ρ c main_arg14 (by decide)
    _ = W16 m ρ c (Proc.devRef .tc main_arg14) := StableHlo.after_of_forall_not_mem (b := Proc.devRef .tc main_arg14) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg14) := W16_of_ne m ρ c main_arg14 (by decide)
    _ = W14 m ρ c (Proc.devRef .tc main_arg14) := StableHlo.after_of_forall_not_mem (b := Proc.devRef .tc main_arg14) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg14) := W14_of_ne m ρ c main_arg14 (by decide)
    _ = W12 m ρ c (Proc.devRef .tc main_arg14) := StableHlo.after_of_forall_not_mem (b := Proc.devRef .tc main_arg14) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 52 of the run writes `main_arg16`: it keeps its contents. -/
theorem main_arg16_0_52 (c : Dev nD) : W52 m ρ c (Proc.devRef .tc main_arg16) = W0 m ρ c (Proc.devRef .tc main_arg16) :=
  calc W52 m ρ c (Proc.devRef .tc main_arg16)
    _ = W51 m ρ c (Proc.devRef .tc main_arg16) := W52_of_ne m ρ c main_arg16 (by decide)
    _ = W50 m ρ c (Proc.devRef .tc main_arg16) := StableHlo.after_of_forall_not_mem (b := Proc.devRef .tc main_arg16) _ _ (List.forall_iff_forall_mem.mp (by
          simp only [hostOps25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W49 m ρ c (Proc.devRef .tc main_arg16) := W50_of_ne m ρ c main_arg16 (by decide)
    _ = W48 m ρ c (Proc.devRef .tc main_arg16) := StableHlo.after_of_forall_not_mem (b := Proc.devRef .tc main_arg16) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg16) := W48_of_ne m ρ c main_arg16 (by decide)
    _ = W46 m ρ c (Proc.devRef .tc main_arg16) := StableHlo.after_of_forall_not_mem (b := Proc.devRef .tc main_arg16) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg16) := W46_of_ne m ρ c main_arg16 (by decide)
    _ = W44 m ρ c (Proc.devRef .tc main_arg16) := StableHlo.after_of_forall_not_mem (b := Proc.devRef .tc main_arg16) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg16) := W44_of_ne m ρ c main_arg16 (by decide)
    _ = W42 m ρ c (Proc.devRef .tc main_arg16) := StableHlo.after_of_forall_not_mem (b := Proc.devRef .tc main_arg16) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg16) := W42_of_ne m ρ c main_arg16 (by decide)
    _ = W40 m ρ c (Proc.devRef .tc main_arg16) := StableHlo.after_of_forall_not_mem (b := Proc.devRef .tc main_arg16) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg16) := W40_of_ne m ρ c main_arg16 (by decide)
    _ = W38 m ρ c (Proc.devRef .tc main_arg16) := StableHlo.after_of_forall_not_mem (b := Proc.devRef .tc main_arg16) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg16) := W38_of_ne m ρ c main_arg16 (by decide)
    _ = W36 m ρ c (Proc.devRef .tc main_arg16) := StableHlo.after_of_forall_not_mem (b := Proc.devRef .tc main_arg16) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg16) := W36_of_ne m ρ c main_arg16 (by decide)
    _ = W34 m ρ c (Proc.devRef .tc main_arg16) := StableHlo.after_of_forall_not_mem (b := Proc.devRef .tc main_arg16) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg16) := W34_of_ne m ρ c main_arg16 (by decide)
    _ = W32 m ρ c (Proc.devRef .tc main_arg16) := StableHlo.after_of_forall_not_mem (b := Proc.devRef .tc main_arg16) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg16) := W32_of_ne m ρ c main_arg16 (by decide)
    _ = W30 m ρ c (Proc.devRef .tc main_arg16) := StableHlo.after_of_forall_not_mem (b := Proc.devRef .tc main_arg16) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg16) := W30_of_ne m ρ c main_arg16 (by decide)
    _ = W28 m ρ c (Proc.devRef .tc main_arg16) := StableHlo.after_of_forall_not_mem (b := Proc.devRef .tc main_arg16) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg16) := W28_of_ne m ρ c main_arg16 (by decide)
    _ = W26 m ρ c (Proc.devRef .tc main_arg16) := StableHlo.after_of_forall_not_mem (b := Proc.devRef .tc main_arg16) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg16) := W26_of_ne m ρ c main_arg16 (by decide)
    _ = W24 m ρ c (Proc.devRef .tc main_arg16) := StableHlo.after_of_forall_not_mem (b := Proc.devRef .tc main_arg16) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg16) := W24_of_ne m ρ c main_arg16 (by decide)
    _ = W22 m ρ c (Proc.devRef .tc main_arg16) := StableHlo.after_of_forall_not_mem (b := Proc.devRef .tc main_arg16) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg16) := W22_of_ne m ρ c main_arg16 (by decide)
    _ = W20 m ρ c (Proc.devRef .tc main_arg16) := StableHlo.after_of_forall_not_mem (b := Proc.devRef .tc main_arg16) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg16) := W20_of_ne m ρ c main_arg16 (by decide)
    _ = W18 m ρ c (Proc.devRef .tc main_arg16) := StableHlo.after_of_forall_not_mem (b := Proc.devRef .tc main_arg16) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg16) := W18_of_ne m ρ c main_arg16 (by decide)
    _ = W16 m ρ c (Proc.devRef .tc main_arg16) := StableHlo.after_of_forall_not_mem (b := Proc.devRef .tc main_arg16) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg16) := W16_of_ne m ρ c main_arg16 (by decide)
    _ = W14 m ρ c (Proc.devRef .tc main_arg16) := StableHlo.after_of_forall_not_mem (b := Proc.devRef .tc main_arg16) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg16) := W14_of_ne m ρ c main_arg16 (by decide)
    _ = W12 m ρ c (Proc.devRef .tc main_arg16) := StableHlo.after_of_forall_not_mem (b := Proc.devRef .tc main_arg16) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg16) := W12_of_ne m ρ c main_arg16 (by decide)
    _ = W10 m ρ c (Proc.devRef .tc main_arg16) := StableHlo.after_of_forall_not_mem (b := Proc.devRef .tc main_arg16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 54 of the run writes `main_arg17`: it keeps its contents. -/
theorem main_arg17_0_54 (c : Dev nD) : W54 m ρ c (Proc.devRef .tc main_arg17) = W0 m ρ c (Proc.devRef .tc main_arg17) :=
  calc W54 m ρ c (Proc.devRef .tc main_arg17)
    _ = W53 m ρ c (Proc.devRef .tc main_arg17) := W54_of_ne m ρ c main_arg17 (by decide)
    _ = W52 m ρ c (Proc.devRef .tc main_arg17) := StableHlo.after_of_forall_not_mem (b := Proc.devRef .tc main_arg17) _ _ (List.forall_iff_forall_mem.mp (by
          simp only [hostOps26, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W51 m ρ c (Proc.devRef .tc main_arg17) := W52_of_ne m ρ c main_arg17 (by decide)
    _ = W50 m ρ c (Proc.devRef .tc main_arg17) := StableHlo.after_of_forall_not_mem (b := Proc.devRef .tc main_arg17) _ _ (List.forall_iff_forall_mem.mp (by
          simp only [hostOps25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W49 m ρ c (Proc.devRef .tc main_arg17) := W50_of_ne m ρ c main_arg17 (by decide)
    _ = W48 m ρ c (Proc.devRef .tc main_arg17) := StableHlo.after_of_forall_not_mem (b := Proc.devRef .tc main_arg17) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg17) := W48_of_ne m ρ c main_arg17 (by decide)
    _ = W46 m ρ c (Proc.devRef .tc main_arg17) := StableHlo.after_of_forall_not_mem (b := Proc.devRef .tc main_arg17) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg17) := W46_of_ne m ρ c main_arg17 (by decide)
    _ = W44 m ρ c (Proc.devRef .tc main_arg17) := StableHlo.after_of_forall_not_mem (b := Proc.devRef .tc main_arg17) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg17) := W44_of_ne m ρ c main_arg17 (by decide)
    _ = W42 m ρ c (Proc.devRef .tc main_arg17) := StableHlo.after_of_forall_not_mem (b := Proc.devRef .tc main_arg17) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg17) := W42_of_ne m ρ c main_arg17 (by decide)
    _ = W40 m ρ c (Proc.devRef .tc main_arg17) := StableHlo.after_of_forall_not_mem (b := Proc.devRef .tc main_arg17) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg17) := W40_of_ne m ρ c main_arg17 (by decide)
    _ = W38 m ρ c (Proc.devRef .tc main_arg17) := StableHlo.after_of_forall_not_mem (b := Proc.devRef .tc main_arg17) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg17) := W38_of_ne m ρ c main_arg17 (by decide)
    _ = W36 m ρ c (Proc.devRef .tc main_arg17) := StableHlo.after_of_forall_not_mem (b := Proc.devRef .tc main_arg17) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg17) := W36_of_ne m ρ c main_arg17 (by decide)
    _ = W34 m ρ c (Proc.devRef .tc main_arg17) := StableHlo.after_of_forall_not_mem (b := Proc.devRef .tc main_arg17) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg17) := W34_of_ne m ρ c main_arg17 (by decide)
    _ = W32 m ρ c (Proc.devRef .tc main_arg17) := StableHlo.after_of_forall_not_mem (b := Proc.devRef .tc main_arg17) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg17) := W32_of_ne m ρ c main_arg17 (by decide)
    _ = W30 m ρ c (Proc.devRef .tc main_arg17) := StableHlo.after_of_forall_not_mem (b := Proc.devRef .tc main_arg17) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg17) := W30_of_ne m ρ c main_arg17 (by decide)
    _ = W28 m ρ c (Proc.devRef .tc main_arg17) := StableHlo.after_of_forall_not_mem (b := Proc.devRef .tc main_arg17) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg17) := W28_of_ne m ρ c main_arg17 (by decide)
    _ = W26 m ρ c (Proc.devRef .tc main_arg17) := StableHlo.after_of_forall_not_mem (b := Proc.devRef .tc main_arg17) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg17) := W26_of_ne m ρ c main_arg17 (by decide)
    _ = W24 m ρ c (Proc.devRef .tc main_arg17) := StableHlo.after_of_forall_not_mem (b := Proc.devRef .tc main_arg17) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg17) := W24_of_ne m ρ c main_arg17 (by decide)
    _ = W22 m ρ c (Proc.devRef .tc main_arg17) := StableHlo.after_of_forall_not_mem (b := Proc.devRef .tc main_arg17) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg17) := W22_of_ne m ρ c main_arg17 (by decide)
    _ = W20 m ρ c (Proc.devRef .tc main_arg17) := StableHlo.after_of_forall_not_mem (b := Proc.devRef .tc main_arg17) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg17) := W20_of_ne m ρ c main_arg17 (by decide)
    _ = W18 m ρ c (Proc.devRef .tc main_arg17) := StableHlo.after_of_forall_not_mem (b := Proc.devRef .tc main_arg17) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg17) := W18_of_ne m ρ c main_arg17 (by decide)
    _ = W16 m ρ c (Proc.devRef .tc main_arg17) := StableHlo.after_of_forall_not_mem (b := Proc.devRef .tc main_arg17) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg17) := W16_of_ne m ρ c main_arg17 (by decide)
    _ = W14 m ρ c (Proc.devRef .tc main_arg17) := StableHlo.after_of_forall_not_mem (b := Proc.devRef .tc main_arg17) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg17) := W14_of_ne m ρ c main_arg17 (by decide)
    _ = W12 m ρ c (Proc.devRef .tc main_arg17) := StableHlo.after_of_forall_not_mem (b := Proc.devRef .tc main_arg17) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg17) := W12_of_ne m ρ c main_arg17 (by decide)
    _ = W10 m ρ c (Proc.devRef .tc main_arg17) := StableHlo.after_of_forall_not_mem (b := Proc.devRef .tc main_arg17) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg17) := W10_of_ne m ρ c main_arg17 (by decide)
    _ = W8 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 54 of the run writes `main_arg18`: it keeps its contents. -/
theorem main_arg18_0_54 (c : Dev nD) : W54 m ρ c (Proc.devRef .tc main_arg18) = W0 m ρ c (Proc.devRef .tc main_arg18) :=
  calc W54 m ρ c (Proc.devRef .tc main_arg18)
    _ = W53 m ρ c (Proc.devRef .tc main_arg18) := W54_of_ne m ρ c main_arg18 (by decide)
    _ = W52 m ρ c (Proc.devRef .tc main_arg18) := StableHlo.after_of_forall_not_mem (b := Proc.devRef .tc main_arg18) _ _ (List.forall_iff_forall_mem.mp (by
          simp only [hostOps26, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W51 m ρ c (Proc.devRef .tc main_arg18) := W52_of_ne m ρ c main_arg18 (by decide)
    _ = W50 m ρ c (Proc.devRef .tc main_arg18) := StableHlo.after_of_forall_not_mem (b := Proc.devRef .tc main_arg18) _ _ (List.forall_iff_forall_mem.mp (by
          simp only [hostOps25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W49 m ρ c (Proc.devRef .tc main_arg18) := W50_of_ne m ρ c main_arg18 (by decide)
    _ = W48 m ρ c (Proc.devRef .tc main_arg18) := StableHlo.after_of_forall_not_mem (b := Proc.devRef .tc main_arg18) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg18) := W48_of_ne m ρ c main_arg18 (by decide)
    _ = W46 m ρ c (Proc.devRef .tc main_arg18) := StableHlo.after_of_forall_not_mem (b := Proc.devRef .tc main_arg18) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg18) := W46_of_ne m ρ c main_arg18 (by decide)
    _ = W44 m ρ c (Proc.devRef .tc main_arg18) := StableHlo.after_of_forall_not_mem (b := Proc.devRef .tc main_arg18) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg18) := W44_of_ne m ρ c main_arg18 (by decide)
    _ = W42 m ρ c (Proc.devRef .tc main_arg18) := StableHlo.after_of_forall_not_mem (b := Proc.devRef .tc main_arg18) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg18) := W42_of_ne m ρ c main_arg18 (by decide)
    _ = W40 m ρ c (Proc.devRef .tc main_arg18) := StableHlo.after_of_forall_not_mem (b := Proc.devRef .tc main_arg18) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg18) := W40_of_ne m ρ c main_arg18 (by decide)
    _ = W38 m ρ c (Proc.devRef .tc main_arg18) := StableHlo.after_of_forall_not_mem (b := Proc.devRef .tc main_arg18) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg18) := W38_of_ne m ρ c main_arg18 (by decide)
    _ = W36 m ρ c (Proc.devRef .tc main_arg18) := StableHlo.after_of_forall_not_mem (b := Proc.devRef .tc main_arg18) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg18) := W36_of_ne m ρ c main_arg18 (by decide)
    _ = W34 m ρ c (Proc.devRef .tc main_arg18) := StableHlo.after_of_forall_not_mem (b := Proc.devRef .tc main_arg18) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg18) := W34_of_ne m ρ c main_arg18 (by decide)
    _ = W32 m ρ c (Proc.devRef .tc main_arg18) := StableHlo.after_of_forall_not_mem (b := Proc.devRef .tc main_arg18) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg18) := W32_of_ne m ρ c main_arg18 (by decide)
    _ = W30 m ρ c (Proc.devRef .tc main_arg18) := StableHlo.after_of_forall_not_mem (b := Proc.devRef .tc main_arg18) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg18) := W30_of_ne m ρ c main_arg18 (by decide)
    _ = W28 m ρ c (Proc.devRef .tc main_arg18) := StableHlo.after_of_forall_not_mem (b := Proc.devRef .tc main_arg18) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg18) := W28_of_ne m ρ c main_arg18 (by decide)
    _ = W26 m ρ c (Proc.devRef .tc main_arg18) := StableHlo.after_of_forall_not_mem (b := Proc.devRef .tc main_arg18) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg18) := W26_of_ne m ρ c main_arg18 (by decide)
    _ = W24 m ρ c (Proc.devRef .tc main_arg18) := StableHlo.after_of_forall_not_mem (b := Proc.devRef .tc main_arg18) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg18) := W24_of_ne m ρ c main_arg18 (by decide)
    _ = W22 m ρ c (Proc.devRef .tc main_arg18) := StableHlo.after_of_forall_not_mem (b := Proc.devRef .tc main_arg18) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg18) := W22_of_ne m ρ c main_arg18 (by decide)
    _ = W20 m ρ c (Proc.devRef .tc main_arg18) := StableHlo.after_of_forall_not_mem (b := Proc.devRef .tc main_arg18) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg18) := W20_of_ne m ρ c main_arg18 (by decide)
    _ = W18 m ρ c (Proc.devRef .tc main_arg18) := StableHlo.after_of_forall_not_mem (b := Proc.devRef .tc main_arg18) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg18) := W18_of_ne m ρ c main_arg18 (by decide)
    _ = W16 m ρ c (Proc.devRef .tc main_arg18) := StableHlo.after_of_forall_not_mem (b := Proc.devRef .tc main_arg18) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg18) := W16_of_ne m ρ c main_arg18 (by decide)
    _ = W14 m ρ c (Proc.devRef .tc main_arg18) := StableHlo.after_of_forall_not_mem (b := Proc.devRef .tc main_arg18) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg18) := W14_of_ne m ρ c main_arg18 (by decide)
    _ = W12 m ρ c (Proc.devRef .tc main_arg18) := StableHlo.after_of_forall_not_mem (b := Proc.devRef .tc main_arg18) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg18) := W12_of_ne m ρ c main_arg18 (by decide)
    _ = W10 m ρ c (Proc.devRef .tc main_arg18) := StableHlo.after_of_forall_not_mem (b := Proc.devRef .tc main_arg18) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg18) := W10_of_ne m ρ c main_arg18 (by decide)
    _ = W8 m ρ c (Proc.devRef .tc main_arg18) := StableHlo.after_of_forall_not_mem (b := Proc.devRef .tc main_arg18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 56 of the run writes `main_arg20`: it keeps its contents. -/
theorem main_arg20_0_56 (c : Dev nD) : W56 m ρ c (Proc.devRef .tc main_arg20) = W0 m ρ c (Proc.devRef .tc main_arg20) :=
  calc W56 m ρ c (Proc.devRef .tc main_arg20)
    _ = W55 m ρ c (Proc.devRef .tc main_arg20) := W56_of_ne m ρ c main_arg20 (by decide)
    _ = W54 m ρ c (Proc.devRef .tc main_arg20) := StableHlo.after_of_forall_not_mem (b := Proc.devRef .tc main_arg20) _ _ (List.forall_iff_forall_mem.mp (by
          simp only [hostOps27, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W53 m ρ c (Proc.devRef .tc main_arg20) := W54_of_ne m ρ c main_arg20 (by decide)
    _ = W52 m ρ c (Proc.devRef .tc main_arg20) := StableHlo.after_of_forall_not_mem (b := Proc.devRef .tc main_arg20) _ _ (List.forall_iff_forall_mem.mp (by
          simp only [hostOps26, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W51 m ρ c (Proc.devRef .tc main_arg20) := W52_of_ne m ρ c main_arg20 (by decide)
    _ = W50 m ρ c (Proc.devRef .tc main_arg20) := StableHlo.after_of_forall_not_mem (b := Proc.devRef .tc main_arg20) _ _ (List.forall_iff_forall_mem.mp (by
          simp only [hostOps25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W49 m ρ c (Proc.devRef .tc main_arg20) := W50_of_ne m ρ c main_arg20 (by decide)
    _ = W48 m ρ c (Proc.devRef .tc main_arg20) := StableHlo.after_of_forall_not_mem (b := Proc.devRef .tc main_arg20) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg20) := W48_of_ne m ρ c main_arg20 (by decide)
    _ = W46 m ρ c (Proc.devRef .tc main_arg20) := StableHlo.after_of_forall_not_mem (b := Proc.devRef .tc main_arg20) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg20) := W46_of_ne m ρ c main_arg20 (by decide)
    _ = W44 m ρ c (Proc.devRef .tc main_arg20) := StableHlo.after_of_forall_not_mem (b := Proc.devRef .tc main_arg20) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg20) := W44_of_ne m ρ c main_arg20 (by decide)
    _ = W42 m ρ c (Proc.devRef .tc main_arg20) := StableHlo.after_of_forall_not_mem (b := Proc.devRef .tc main_arg20) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg20) := W42_of_ne m ρ c main_arg20 (by decide)
    _ = W40 m ρ c (Proc.devRef .tc main_arg20) := StableHlo.after_of_forall_not_mem (b := Proc.devRef .tc main_arg20) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg20) := W40_of_ne m ρ c main_arg20 (by decide)
    _ = W38 m ρ c (Proc.devRef .tc main_arg20) := StableHlo.after_of_forall_not_mem (b := Proc.devRef .tc main_arg20) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg20) := W38_of_ne m ρ c main_arg20 (by decide)
    _ = W36 m ρ c (Proc.devRef .tc main_arg20) := StableHlo.after_of_forall_not_mem (b := Proc.devRef .tc main_arg20) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg20) := W36_of_ne m ρ c main_arg20 (by decide)
    _ = W34 m ρ c (Proc.devRef .tc main_arg20) := StableHlo.after_of_forall_not_mem (b := Proc.devRef .tc main_arg20) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg20) := W34_of_ne m ρ c main_arg20 (by decide)
    _ = W32 m ρ c (Proc.devRef .tc main_arg20) := StableHlo.after_of_forall_not_mem (b := Proc.devRef .tc main_arg20) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg20) := W32_of_ne m ρ c main_arg20 (by decide)
    _ = W30 m ρ c (Proc.devRef .tc main_arg20) := StableHlo.after_of_forall_not_mem (b := Proc.devRef .tc main_arg20) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg20) := W30_of_ne m ρ c main_arg20 (by decide)
    _ = W28 m ρ c (Proc.devRef .tc main_arg20) := StableHlo.after_of_forall_not_mem (b := Proc.devRef .tc main_arg20) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg20) := W28_of_ne m ρ c main_arg20 (by decide)
    _ = W26 m ρ c (Proc.devRef .tc main_arg20) := StableHlo.after_of_forall_not_mem (b := Proc.devRef .tc main_arg20) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg20) := W26_of_ne m ρ c main_arg20 (by decide)
    _ = W24 m ρ c (Proc.devRef .tc main_arg20) := StableHlo.after_of_forall_not_mem (b := Proc.devRef .tc main_arg20) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg20) := W24_of_ne m ρ c main_arg20 (by decide)
    _ = W22 m ρ c (Proc.devRef .tc main_arg20) := StableHlo.after_of_forall_not_mem (b := Proc.devRef .tc main_arg20) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg20) := W22_of_ne m ρ c main_arg20 (by decide)
    _ = W20 m ρ c (Proc.devRef .tc main_arg20) := StableHlo.after_of_forall_not_mem (b := Proc.devRef .tc main_arg20) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg20) := W20_of_ne m ρ c main_arg20 (by decide)
    _ = W18 m ρ c (Proc.devRef .tc main_arg20) := StableHlo.after_of_forall_not_mem (b := Proc.devRef .tc main_arg20) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg20) := W18_of_ne m ρ c main_arg20 (by decide)
    _ = W16 m ρ c (Proc.devRef .tc main_arg20) := StableHlo.after_of_forall_not_mem (b := Proc.devRef .tc main_arg20) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg20) := W16_of_ne m ρ c main_arg20 (by decide)
    _ = W14 m ρ c (Proc.devRef .tc main_arg20) := StableHlo.after_of_forall_not_mem (b := Proc.devRef .tc main_arg20) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg20) := W14_of_ne m ρ c main_arg20 (by decide)
    _ = W12 m ρ c (Proc.devRef .tc main_arg20) := StableHlo.after_of_forall_not_mem (b := Proc.devRef .tc main_arg20) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg20) := W12_of_ne m ρ c main_arg20 (by decide)
    _ = W10 m ρ c (Proc.devRef .tc main_arg20) := StableHlo.after_of_forall_not_mem (b := Proc.devRef .tc main_arg20) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg20) := W10_of_ne m ρ c main_arg20 (by decide)
    _ = W8 m ρ c (Proc.devRef .tc main_arg20) := StableHlo.after_of_forall_not_mem (b := Proc.devRef .tc main_arg20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg20) := W8_of_ne m ρ c main_arg20 (by decide)
    _ = W6 m ρ c (Proc.devRef .tc main_arg20) := StableHlo.after_of_forall_not_mem (b := Proc.devRef .tc main_arg20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 58 of the run writes `main_arg21`: it keeps its contents. -/
theorem main_arg21_0_58 (c : Dev nD) : W58 m ρ c (Proc.devRef .tc main_arg21) = W0 m ρ c (Proc.devRef .tc main_arg21) :=
  calc W58 m ρ c (Proc.devRef .tc main_arg21)
    _ = W57 m ρ c (Proc.devRef .tc main_arg21) := W58_of_ne m ρ c main_arg21 (by decide)
    _ = W56 m ρ c (Proc.devRef .tc main_arg21) := StableHlo.after_of_forall_not_mem (b := Proc.devRef .tc main_arg21) _ _ (List.forall_iff_forall_mem.mp (by
          simp only [hostOps28, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W55 m ρ c (Proc.devRef .tc main_arg21) := W56_of_ne m ρ c main_arg21 (by decide)
    _ = W54 m ρ c (Proc.devRef .tc main_arg21) := StableHlo.after_of_forall_not_mem (b := Proc.devRef .tc main_arg21) _ _ (List.forall_iff_forall_mem.mp (by
          simp only [hostOps27, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W53 m ρ c (Proc.devRef .tc main_arg21) := W54_of_ne m ρ c main_arg21 (by decide)
    _ = W52 m ρ c (Proc.devRef .tc main_arg21) := StableHlo.after_of_forall_not_mem (b := Proc.devRef .tc main_arg21) _ _ (List.forall_iff_forall_mem.mp (by
          simp only [hostOps26, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W51 m ρ c (Proc.devRef .tc main_arg21) := W52_of_ne m ρ c main_arg21 (by decide)
    _ = W50 m ρ c (Proc.devRef .tc main_arg21) := StableHlo.after_of_forall_not_mem (b := Proc.devRef .tc main_arg21) _ _ (List.forall_iff_forall_mem.mp (by
          simp only [hostOps25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W49 m ρ c (Proc.devRef .tc main_arg21) := W50_of_ne m ρ c main_arg21 (by decide)
    _ = W48 m ρ c (Proc.devRef .tc main_arg21) := StableHlo.after_of_forall_not_mem (b := Proc.devRef .tc main_arg21) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg21) := W48_of_ne m ρ c main_arg21 (by decide)
    _ = W46 m ρ c (Proc.devRef .tc main_arg21) := StableHlo.after_of_forall_not_mem (b := Proc.devRef .tc main_arg21) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg21) := W46_of_ne m ρ c main_arg21 (by decide)
    _ = W44 m ρ c (Proc.devRef .tc main_arg21) := StableHlo.after_of_forall_not_mem (b := Proc.devRef .tc main_arg21) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg21) := W44_of_ne m ρ c main_arg21 (by decide)
    _ = W42 m ρ c (Proc.devRef .tc main_arg21) := StableHlo.after_of_forall_not_mem (b := Proc.devRef .tc main_arg21) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg21) := W42_of_ne m ρ c main_arg21 (by decide)
    _ = W40 m ρ c (Proc.devRef .tc main_arg21) := StableHlo.after_of_forall_not_mem (b := Proc.devRef .tc main_arg21) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg21) := W40_of_ne m ρ c main_arg21 (by decide)
    _ = W38 m ρ c (Proc.devRef .tc main_arg21) := StableHlo.after_of_forall_not_mem (b := Proc.devRef .tc main_arg21) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg21) := W38_of_ne m ρ c main_arg21 (by decide)
    _ = W36 m ρ c (Proc.devRef .tc main_arg21) := StableHlo.after_of_forall_not_mem (b := Proc.devRef .tc main_arg21) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg21) := W36_of_ne m ρ c main_arg21 (by decide)
    _ = W34 m ρ c (Proc.devRef .tc main_arg21) := StableHlo.after_of_forall_not_mem (b := Proc.devRef .tc main_arg21) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg21) := W34_of_ne m ρ c main_arg21 (by decide)
    _ = W32 m ρ c (Proc.devRef .tc main_arg21) := StableHlo.after_of_forall_not_mem (b := Proc.devRef .tc main_arg21) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg21) := W32_of_ne m ρ c main_arg21 (by decide)
    _ = W30 m ρ c (Proc.devRef .tc main_arg21) := StableHlo.after_of_forall_not_mem (b := Proc.devRef .tc main_arg21) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg21) := W30_of_ne m ρ c main_arg21 (by decide)
    _ = W28 m ρ c (Proc.devRef .tc main_arg21) := StableHlo.after_of_forall_not_mem (b := Proc.devRef .tc main_arg21) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg21) := W28_of_ne m ρ c main_arg21 (by decide)
    _ = W26 m ρ c (Proc.devRef .tc main_arg21) := StableHlo.after_of_forall_not_mem (b := Proc.devRef .tc main_arg21) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg21) := W26_of_ne m ρ c main_arg21 (by decide)
    _ = W24 m ρ c (Proc.devRef .tc main_arg21) := StableHlo.after_of_forall_not_mem (b := Proc.devRef .tc main_arg21) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg21) := W24_of_ne m ρ c main_arg21 (by decide)
    _ = W22 m ρ c (Proc.devRef .tc main_arg21) := StableHlo.after_of_forall_not_mem (b := Proc.devRef .tc main_arg21) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg21) := W22_of_ne m ρ c main_arg21 (by decide)
    _ = W20 m ρ c (Proc.devRef .tc main_arg21) := StableHlo.after_of_forall_not_mem (b := Proc.devRef .tc main_arg21) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg21) := W20_of_ne m ρ c main_arg21 (by decide)
    _ = W18 m ρ c (Proc.devRef .tc main_arg21) := StableHlo.after_of_forall_not_mem (b := Proc.devRef .tc main_arg21) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg21) := W18_of_ne m ρ c main_arg21 (by decide)
    _ = W16 m ρ c (Proc.devRef .tc main_arg21) := StableHlo.after_of_forall_not_mem (b := Proc.devRef .tc main_arg21) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg21) := W16_of_ne m ρ c main_arg21 (by decide)
    _ = W14 m ρ c (Proc.devRef .tc main_arg21) := StableHlo.after_of_forall_not_mem (b := Proc.devRef .tc main_arg21) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg21) := W14_of_ne m ρ c main_arg21 (by decide)
    _ = W12 m ρ c (Proc.devRef .tc main_arg21) := StableHlo.after_of_forall_not_mem (b := Proc.devRef .tc main_arg21) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg21) := W12_of_ne m ρ c main_arg21 (by decide)
    _ = W10 m ρ c (Proc.devRef .tc main_arg21) := StableHlo.after_of_forall_not_mem (b := Proc.devRef .tc main_arg21) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg21) := W10_of_ne m ρ c main_arg21 (by decide)
    _ = W8 m ρ c (Proc.devRef .tc main_arg21) := StableHlo.after_of_forall_not_mem (b := Proc.devRef .tc main_arg21) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg21) := W8_of_ne m ρ c main_arg21 (by decide)
    _ = W6 m ρ c (Proc.devRef .tc main_arg21) := StableHlo.after_of_forall_not_mem (b := Proc.devRef .tc main_arg21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg21) := W6_of_ne m ρ c main_arg21 (by decide)
    _ = W4 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Carry

end
-- ==== Proof.KernelChain11.lean ====
/-
  Stage 11 of the chain, the kernel's half: the third message-passing hop of a later block. The block's input is the previous
  block's output plus the embedding's output, entry by entry, formed before the block's first hop and carried unchanged
  to this one. The host operations before the hop's first region pool the previous hop's rows along the edges and take
  the hop's square of the stacked weights and its row of the stacked biases; the first region adds the pooled rows to the
  block input's, multiplies by the weights, adds the bias row, and leaves with that array its column sums and column sums
  of squares; the host operations between the regions divide those by the row count, form the variance as the mean of
  squares less the squared mean, and take the hop's rows of the stacked scale and shift; the second region normalises with
  those rows, with no clipping after it. Here the steps are joined, over the previous hop's output, the previous block's
  output and the embedding's output as the run leaves them and the launch memory's edge lists and stacked parameters.
-/
import proofs.«414479_j7705171329025_1_alg».proof.Proof.ValAdd2_22
import proofs.«414479_j7705171329025_1_alg».proof.Proof.ValNorm23
import proofs.«414479_j7705171329025_1_alg».proof.Proof.HostHop22
import proofs.«414479_j7705171329025_1_alg».proof.Proof.HostHop18
import proofs.«414479_j7705171329025_1_alg».proof.Proof.HostStats23
import proofs.«414479_j7705171329025_1_alg».proof.Proof.StageReal
import proofs.«414479_j7705171329025_1_alg».proof.Proof.FrameKI.Run
import proofs.«414479_j7705171329025_1_alg».proof.Proof.Carry0
import proofs.«414479_j7705171329025_1_alg».proof.Proof.Carry1
import proofs.«414479_j7705171329025_1_alg».proof.Proof.Carry6
import proofs.«414479_j7705171329025_1_alg».proof.Proof.Carry7
import proofs.«414479_j7705171329025_1_alg».proof.Proof.PreReal
import proofs.«414479_j7705171329025_1_alg».proof.Proof.PooledReal
import proofs.«414479_j7705171329025_1_alg».proof.Proof.SliceReal
import Idealize.ShloMosaic.Lib.IdealHost
import Idealize.ShloMosaic.Lib.ValueLayout

set_option maxRecDepth 16384

noncomputable section

namespace Cert.KernelChain11

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## The hop's data: earlier stages' output arrays, and the launch memory's arrays, each at its literal type -/

/-- The previous hop's output array, as the run leaves it. -/
abbrev prev (c : Dev nD) : Vec Ideal S100000x128 .f32 := W44 (F := Ideal) m ρ c (Proc.devRef .tc main_v273)
/-- The previous block's output array, as the run leaves it. -/
abbrev prevBlock (c : Dev nD) : Vec Ideal S100000x128 .f32 := W36 (F := Ideal) m ρ c (Proc.devRef .tc main_v214)
/-- The embedding's output array, as the run leaves it. -/
abbrev inp (c : Dev nD) : Vec Ideal S100000x128 .f32 := W4 (F := Ideal) m ρ c (Proc.devRef .tc main_v10)
/-- The block's input: the previous block's output plus the embedding's, entry by entry. -/
abbrev blockIn (c : Dev nD) : Vec Ideal S100000x128 .f32 :=
  addf (F := Ideal) (s := S100000x128) (φ := .f32) (prevBlock m ρ c) (inp m ρ c)
/-- The edges' sources. -/
abbrev src (c : Dev nD) : Vec Ideal S800000 .i32 := m ((c : Thread nD τ).loc main_arg1)
/-- The edges' destinations. -/
abbrev dst (c : Dev nD) : Vec Ideal S800000 .i32 := m ((c : Thread nD τ).loc main_arg2)
/-- The stacked weights of the block's three hops. -/
abbrev convW (c : Dev nD) : Vec Ideal S3x128x128 .f32 := m ((c : Thread nD τ).loc main_arg8)
/-- The stacked biases. -/
abbrev convB (c : Dev nD) : Vec Ideal S3x128 .f32 := m ((c : Thread nD τ).loc main_arg9)
/-- The stacked scales of the three hops' batch norms. -/
abbrev bnG (c : Dev nD) : Vec Ideal S3x128 .f32 := m ((c : Thread nD τ).loc main_arg10)
/-- The stacked shifts. -/
abbrev bnB (c : Dev nD) : Vec Ideal S3x128 .f32 := m ((c : Thread nD τ).loc main_arg11)

/-- The previous hop's output's rows pooled along the edges. -/
abbrev pooledPrev (c : Dev nD) : Vec Ideal S100000x128 .f32 := HostHop22.pooled (F := Ideal) (prev m ρ c) (src m c) (dst m c)
/-- The hop's weight matrix. -/
abbrev Wt (c : Dev nD) : Vec Ideal S128x128 .f32 := HostHop22.wOf (F := Ideal) (convW m c)
/-- The hop's bias row. -/
abbrev B (c : Dev nD) : Vec Ideal S1x128 .f32 := HostHop22.rowOf (F := Ideal) (convB m c)
/-- The hop's scale row. -/
abbrev g (c : Dev nD) : Vec Ideal S1x128 .f32 := HostStats23.rowOf (F := Ideal) (bnG m c)
/-- The hop's shift row. -/
abbrev β (c : Dev nD) : Vec Ideal S1x128 .f32 := HostStats23.rowOf (F := Ideal) (bnB m c)

/-- The hop's linear stage, entry by entry: the pooled rows plus the block input's, against the weights, plus the bias. -/
def y (c : Dev nD) (r : Fin 100000) (q : Fin 128) : EReal :=
  StageSpec.linAdd (pooledPrev m ρ c) (blockIn m ρ c) (Wt m c) (B m c) r q

/-- The row count, as the word the host operations divide by. -/
abbrev nRows : EReal := Ideal.ofBits .f32 0x47C35000#32

/-! ## Real numbers in, real numbers out -/

/-- Under the precondition, and if every entry of the earlier stages' arrays is a real number, every entry of the hop's
    linear stage is one: the neighbour sum of a real array is real whatever the edges are, and the hop's square of the
    weights and its row of the biases are entries of real arrays. -/
theorem y_isReal [Cert.Pre_finite_inputs.Facts] (h : Cert.Pre_KernelIdeal m) (c : Dev nD)
    (hprev : ∀ i, Cert.RealSpec.IsReal (prev m ρ c i)) (hblk : ∀ i, Cert.RealSpec.IsReal (prevBlock m ρ c i))
    (hinp : ∀ i, Cert.RealSpec.IsReal (inp m ρ c i)) (r : Fin 100000) (q : Fin 128) :
    Cert.RealSpec.IsReal (y m ρ c r q) :=
  StageReal.linAdd_isReal (pooledPrev m ρ c) (blockIn m ρ c) (Wt m c) (B m c)
    (Cert.PooledReal.pooled_isReal (prev m ρ c) (src m c) (dst m c) hprev)
    (fun i => BatchStats.isReal_add (hblk i) (hinp i))
    (Cert.SliceReal.wOf2_isReal (convW m c) (Cert.PreReal.real_arg8 m h c))
    (Cert.SliceReal.rowOf2_isReal (convB m c) (Cert.PreReal.real_arg9 m h c)) r q

/-- Under the precondition every entry of the hop's scale row is a real number. -/
theorem g_isReal [Cert.Pre_finite_inputs.Facts] (h : Cert.Pre_KernelIdeal m) (c : Dev nD) (q : Fin 128) :
    Cert.RealSpec.IsReal (g m c (ix2 (0 : Fin 1) q)) :=
  Cert.SliceReal.statsRow2_isReal (bnG m c) (Cert.PreReal.real_arg10 m h c) (ix2 (0 : Fin 1) q)

/-- And every entry of its shift row. -/
theorem β_isReal [Cert.Pre_finite_inputs.Facts] (h : Cert.Pre_KernelIdeal m) (c : Dev nD) (q : Fin 128) :
    Cert.RealSpec.IsReal (β m c (ix2 (0 : Fin 1) q)) :=
  Cert.SliceReal.statsRow2_isReal (bnB m c) (Cert.PreReal.real_arg11 m h c) (ix2 (0 : Fin 1) q)

/-! ## The first region's inputs -/

/-- The pooled rows: the host operations before the region form them, with the edge lists, which nothing has written since
    the launch. -/
theorem xa_eq (c : Dev nD) : ValAdd2_22.xaArr (V45 m ρ) c = pooledPrev m ρ c :=
  (HostHop22.read_pooled (W44 m ρ c)).trans
    (congrArg₂ (fun s d => HostHop22.pooled (F := Ideal) (prev m ρ c) s d)
      ((Carry.main_arg1_0_44 m ρ c).trans rfl) ((Carry.main_arg2_0_44 m ρ c).trans rfl))

/-- The block's input. -/
theorem xb_eq (c : Dev nD) : ValAdd2_22.xbArr (V45 m ρ) c = blockIn m ρ c :=
  ((Carry.main_v215_37_45 m ρ c).trans (HostHop18.read_input (W36 m ρ c))).trans
    (congrArg (fun t => addf (F := Ideal) (s := S100000x128) (φ := .f32) (prevBlock m ρ c) t) (Carry.main_v10_4_36 m ρ c))

/-- The hop's weight matrix, out of the launch memory's stacked weights. -/
theorem w_eq (c : Dev nD) : ValAdd2_22.wArr (V45 m ρ) c = Wt m c :=
  (HostHop22.read_w (W44 m ρ c)).trans (congrArg (HostHop22.wOf (F := Ideal)) ((Carry.main_arg8_0_44 m ρ c).trans rfl))

/-- The hop's bias row, out of the launch memory's stacked biases. -/
theorem b_eq (c : Dev nD) : ValAdd2_22.bRow (V45 m ρ) c = B m c :=
  (HostHop22.read_b (W44 m ρ c)).trans (congrArg (HostHop22.rowOf (F := Ideal)) ((Carry.main_arg9_0_44 m ρ c).trans rfl))

/-- So the first region's linear stage is the hop's. -/
theorem y_eq (c : Dev nD) : ValAdd2_22.y (V45 m ρ) c = y m ρ c := by
  funext r q
  unfold ValAdd2_22.y y
  rw [xa_eq m ρ c, xb_eq m ρ c, w_eq m ρ c, b_eq m ρ c]

/-! ## The second region's five arrays, from the first region's three -/

/-- The column sums, as the first region leaves them. -/
theorem sum_eq (c : Dev nD) :
    (W46 m ρ c (Proc.devRef .tc main_v289_1) : Vec Ideal S1x128 .f32) = ValAdd2_22.resultSum (V45 m ρ) c :=
  (W46_arr m ρ c 5).trans (ValAdd2_22.arrAt_sum (V45 m ρ) c)

/-- The column sums of squares, as the first region leaves them. -/
theorem sumsq_eq (c : Dev nD) :
    (W46 m ρ c (Proc.devRef .tc main_v289_2) : Vec Ideal S1x128 .f32) = ValAdd2_22.resultSumSq (V45 m ρ) c :=
  (W46_arr m ρ c 6).trans (ValAdd2_22.arrAt_sumsq (V45 m ρ) c)

/-- The tall array the second region normalises is the first region's output: the host operations between the two do
    not write it. -/
theorem yArr_eq (c : Dev nD) : ValNorm23.yArr (V47 m ρ) c = ValAdd2_22.resultY (V45 m ρ) c :=
  ((HostStats23.read_y (W46 m ρ c)).trans (W46_arr m ρ c 4)).trans (ValAdd2_22.arrAt_y (V45 m ρ) c)

/-- The mean row: the column sums over the row count. -/
theorem meanRow_eq (c : Dev nD) :
    ValNorm23.meanRow (V47 m ρ) c
      = Host.divf (F := Ideal) (φ := .f32) (ValAdd2_22.resultSum (V45 m ρ) c) (HostStats23.nRow (F := Ideal)) := by
  refine (HostStats23.read_mean (W46 m ρ c)).trans ?_
  rw [sum_eq m ρ c]

/-- The variance row: the mean of squares less the squared mean. -/
theorem varRow_eq (c : Dev nD) :
    ValNorm23.varRow (V47 m ρ) c
      = subf (F := Ideal) (φ := .f32) (Host.divf (F := Ideal) (φ := .f32) (ValAdd2_22.resultSumSq (V45 m ρ) c) (HostStats23.nRow (F := Ideal)))
          (mulf (F := Ideal) (φ := .f32) (Host.divf (F := Ideal) (φ := .f32) (ValAdd2_22.resultSum (V45 m ρ) c) (HostStats23.nRow (F := Ideal)))
            (Host.divf (F := Ideal) (φ := .f32) (ValAdd2_22.resultSum (V45 m ρ) c) (HostStats23.nRow (F := Ideal)))) := by
  refine (HostStats23.read_var (W46 m ρ c)).trans ?_
  rw [sum_eq m ρ c, sumsq_eq m ρ c]

/-- The scale row: the hop's row of the launch memory's stacked scales, which nothing has written since the launch. -/
theorem gRow_eq (c : Dev nD) : ValNorm23.gRow (V47 m ρ) c = g m c :=
  (HostStats23.read_g (W46 m ρ c)).trans (congrArg (HostStats23.rowOf (F := Ideal)) ((Carry.main_arg10_0_46 m ρ c).trans rfl))

/-- The shift row: the hop's row of the launch memory's stacked shifts. -/
theorem betaRow_eq (c : Dev nD) : ValNorm23.betaRow (V47 m ρ) c = β m c :=
  (HostStats23.read_beta (W46 m ρ c)).trans (congrArg (HostStats23.rowOf (F := Ideal)) ((Carry.main_arg11_0_46 m ρ c).trans rfl))

/-! ## The five arrays read at an entry -/

/-- The divisor row holds the row count in every column. -/
theorem nRow_apply (j : S1x128.Idx) : HostStats23.nRow (F := Ideal) j = nRows := by
  unfold HostStats23.nRow
  exact (broadcastInDim_scalar_apply bcast_S_S1x128 (constant (F := Ideal) S_ .f32 0x47C35000#32) j).trans rfl

/-- The tall array at row r, column q is the linear stage's entry. -/
theorem yArr_apply (c : Dev nD) (r : Fin 100000) (q : Fin 128) :
    ValNorm23.yArr (V47 m ρ) c (ix2 r q) = ValAdd2_22.y (V45 m ρ) c r q :=
  (congrFun (yArr_eq m ρ c) (ix2 r q)).trans rfl

/-- The mean row at column q is the column mean of the linear stage's output. -/
theorem mean_apply (c : Dev nD) (q : Fin 128) :
    ValNorm23.meanRow (V47 m ρ) c (ix2 (0 : Fin 1) q) = StageReal.colMean (ValAdd2_22.y (V45 m ρ) c) nRows q := by
  refine (congrFun (meanRow_eq m ρ c) (ix2 (0 : Fin 1) q)).trans ?_
  show Ideal.div (ValAdd2_22.resultSum (V45 m ρ) c (ix2 (0 : Fin 1) q)) (HostStats23.nRow (F := Ideal) (ix2 (0 : Fin 1) q)) = _
  rw [nRow_apply]
  rfl

/-- The variance row at column q is the mean of squares less the squared mean of that column. -/
theorem var_apply (c : Dev nD) (q : Fin 128) :
    ValNorm23.varRow (V47 m ρ) c (ix2 (0 : Fin 1) q) = StageReal.varSumSq (ValAdd2_22.y (V45 m ρ) c) nRows q := by
  refine (congrFun (varRow_eq m ρ c) (ix2 (0 : Fin 1) q)).trans ?_
  show Ideal.div (ValAdd2_22.resultSumSq (V45 m ρ) c (ix2 (0 : Fin 1) q)) (HostStats23.nRow (F := Ideal) (ix2 (0 : Fin 1) q))
      - Ideal.div (ValAdd2_22.resultSum (V45 m ρ) c (ix2 (0 : Fin 1) q)) (HostStats23.nRow (F := Ideal) (ix2 (0 : Fin 1) q))
        * Ideal.div (ValAdd2_22.resultSum (V45 m ρ) c (ix2 (0 : Fin 1) q)) (HostStats23.nRow (F := Ideal) (ix2 (0 : Fin 1) q)) = _
  rw [nRow_apply]
  rfl

/-! ## The hop's output -/

/-- What the second region leaves in its output array is what it computes from its five arrays. -/
theorem out_eq (c : Dev nD) :
    (W48 (F := Ideal) m ρ c (Proc.devRef .tc main_v302) : Vec Ideal S100000x128 .f32) = ValNorm23.result (V47 m ρ) c :=
  (W48_arr m ρ c 5).trans (ValNorm23.arrAt_out (V47 m ρ) c)

/-- THE KERNEL'S HOP OUTPUT, entry by entry: the batch normalisation of the hop's linear stage with the statistics in
    the kernel's form, not clipped. -/
theorem kernel_out_apply (c : Dev nD) (r : Fin 100000) (q : Fin 128) :
    (W48 (F := Ideal) m ρ c (Proc.devRef .tc main_v302) : Vec Ideal S100000x128 .f32) (ix2 r q)
      = StageSpec.norm (y m ρ c r q) (StageReal.colMean (y m ρ c) nRows q) (StageReal.varSumSq (y m ρ c) nRows q)
          (g m c (ix2 (0 : Fin 1) q)) (β m c (ix2 (0 : Fin 1) q)) := by
  refine (congrFun (out_eq m ρ c) (ix2 r q)).trans ?_
  show StageSpec.norm (ValNorm23.yArr (V47 m ρ) c (ix2 r q)) (ValNorm23.meanRow (V47 m ρ) c (ix2 (0 : Fin 1) q))
      (ValNorm23.varRow (V47 m ρ) c (ix2 (0 : Fin 1) q)) (ValNorm23.gRow (V47 m ρ) c (ix2 (0 : Fin 1) q))
      (ValNorm23.betaRow (V47 m ρ) c (ix2 (0 : Fin 1) q)) = _
  rw [yArr_apply m ρ c r q, mean_apply m ρ c q, var_apply m ρ c q, gRow_eq m ρ c, betaRow_eq m ρ c, y_eq m ρ c]

end Cert.KernelChain11

end
-- ==== Proof.Chain11.lean ====
/-
  Stage 11 of the chain: the third message-passing hop of a later block. The block's input is the previous block's output
  plus the embedding's output, entry by entry, in both programs. Both pool the previous hop's output along the edges, add
  the block's input, multiply by the hop's square of the stacked weights, add the hop's bias and normalise the result by
  its batch statistics with the hop's scale and shift; there is no clipping after a hop. The two programs' previous hop
  outputs are one array of real numbers, and so are their previous block outputs and their embedding outputs (the
  invariants of the earlier stages); the edge lists and the parameters are the same in the two memories.
  The neighbour sum, the weight square and the bias row are written with the same words in both programs, so the two linear
  stages are one array, of real numbers. The kernel takes the variance as the mean of squares less the squared mean, the
  reference as the mean of the squared deviations: on real data one number. So the two normalised arrays are equal, entry
  by entry, and every entry is a real number.
-/
import proofs.«414479_j7705171329025_1_alg».proof.Proof.KernelChain11
import proofs.«414479_j7705171329025_1_alg».proof.Proof.RefChain11
import proofs.«414479_j7705171329025_1_alg».proof.Proof.ChainDefs
import proofs.«414479_j7705171329025_1_alg».proof.Proof.Chain0
import proofs.«414479_j7705171329025_1_alg».proof.Proof.RefSide
import proofs.«414479_j7705171329025_1_alg».proof.Proof.HopJoin
import proofs.«414479_j7705171329025_1_alg».proof.Proof.Seam
import proofs.«414479_j7705171329025_1_alg».proof.Proof.PreReal

noncomputable section

namespace Cert.Chain11

open Cert.RealSpec (IsReal)
open Cert.ChainDefs
open Idealize.ShloMosaic Idealize.ShloMosaic.TcCoe Idealize.ShloMosaic.StableHlo

variable [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The hop's row of a stacked parameter, read at column q, is the hop's vector of it at q: the row is the vector laid out
    as a row. -/
theorem row_eq_vec (p : Vec Ideal Cert.KernelIdeal.S3x128 .f32) (q : Fin 128) :
    Cert.KernelIdeal.HostStats23.rowOf (F := Ideal) p (ValueIdx.ix2 (0 : Fin 1) q)
      = Cert.ReferenceIdeal.RefKinds.refVec2 (F := Ideal) p (ValueIdx.ix1 q) :=
  ValueIdx.shapeCast_a_1a_apply _ _ (0 : Fin 1) q

/-- STAGE 11: the two hop outputs are equal, and every entry is a real number, given the same of the earlier stages'
    arrays this hop reads. -/
theorem inv11 (hpre : Cert.Pre_KernelIdeal m) (hag : Cert.Chain0.Agree m m') (c : Dev Cert.KernelIdeal.nD)
    (h10 : Inv10 m ρ m' c) (h8 : Inv8 m ρ m' c) (h0 : Inv0 m ρ m' c) : Inv11 m ρ m' c := by
  -- the reference's earlier arrays are the kernel's, by the invariants of the earlier stages
  have esrc : Cert.ReferenceIdeal.RefChain11.src (U7 m' c) = Cert.KernelChain11.prev m ρ c := (Cert.RefSide.src11 m' c).trans (funext h10.1).symm
  have ebin : Cert.ReferenceIdeal.RefChain11.bin (U7 m' c) = Cert.KernelChain11.blockIn m ρ c :=
    (Cert.RefSide.bin11 m' c).trans
      (congrArg₂ (fun a b => addf (F := Ideal) (s := Cert.KernelIdeal.S100000x128) (φ := .f32) a b) (funext h8.1).symm (funext h0.1).symm)
  -- the reference's edge lists and parameters are the kernel's: no list of operations writes them, and the two memories
  -- agree on the arguments
  have e1 : U7 m' c (Proc.devRef .tc Cert.ReferenceIdeal.main_arg1) = Cert.KernelChain11.src m c :=
    (Cert.RefSide.arg1_at7 m' c).trans (hag.arg1 c)
  have e2 : U7 m' c (Proc.devRef .tc Cert.ReferenceIdeal.main_arg2) = Cert.KernelChain11.dst m c :=
    (Cert.RefSide.arg2_at7 m' c).trans (hag.arg2 c)
  have e8 : U7 m' c (Proc.devRef .tc Cert.ReferenceIdeal.main_arg8) = Cert.KernelChain11.convW m c :=
    (Cert.RefSide.arg8_at7 m' c).trans (hag.arg8 c)
  have e9 : U7 m' c (Proc.devRef .tc Cert.ReferenceIdeal.main_arg9) = Cert.KernelChain11.convB m c :=
    (Cert.RefSide.arg9_at7 m' c).trans (hag.arg9 c)
  have e10 : U7 m' c (Proc.devRef .tc Cert.ReferenceIdeal.main_arg10) = Cert.KernelChain11.bnG m c :=
    (Cert.RefSide.arg10_at7 m' c).trans (hag.arg10 c)
  have e11 : U7 m' c (Proc.devRef .tc Cert.ReferenceIdeal.main_arg11) = Cert.KernelChain11.bnB m c :=
    (Cert.RefSide.arg11_at7 m' c).trans (hag.arg11 c)
  -- so the two linear stages are one array: the neighbour sum, the weight square and the bias row are the same words
  have ey : Cert.ReferenceIdeal.RefChain11.y (U7 m' c) = Cert.KernelChain11.y m ρ c := by
    funext r q
    show StageSpec.linAdd
        (Cert.ReferenceIdeal.RefKinds.refPooled (Cert.ReferenceIdeal.RefChain11.src (U7 m' c))
          (U7 m' c (Proc.devRef .tc Cert.ReferenceIdeal.main_arg1)) (U7 m' c (Proc.devRef .tc Cert.ReferenceIdeal.main_arg2)))
        (Cert.ReferenceIdeal.RefChain11.bin (U7 m' c))
        (Cert.ReferenceIdeal.RefKinds.refW2 (U7 m' c (Proc.devRef .tc Cert.ReferenceIdeal.main_arg8)))
        (Cert.ReferenceIdeal.RefKinds.refRow2 (U7 m' c (Proc.devRef .tc Cert.ReferenceIdeal.main_arg9))) r q = _
    rw [esrc, ebin, e1, e2, e8, e9]
    rfl
  -- the reference's scale and shift at column q are the kernel's rows' entries
  have eg : ∀ q : Fin 128, Cert.ReferenceIdeal.RefChain11.g (U7 m' c) (ValueIdx.ix1 q) = Cert.KernelChain11.g m c (ValueIdx.ix2 (0 : Fin 1) q) := fun q => by
    show Cert.ReferenceIdeal.RefKinds.refVec2 (U7 m' c (Proc.devRef .tc Cert.ReferenceIdeal.main_arg10)) (ValueIdx.ix1 q) = _
    rw [e10]
    exact (row_eq_vec (Cert.KernelChain11.bnG m c) q).symm
  have eβ : ∀ q : Fin 128, Cert.ReferenceIdeal.RefChain11.β (U7 m' c) (ValueIdx.ix1 q) = Cert.KernelChain11.β m c (ValueIdx.ix2 (0 : Fin 1) q) := fun q => by
    show Cert.ReferenceIdeal.RefKinds.refVec2 (U7 m' c (Proc.devRef .tc Cert.ReferenceIdeal.main_arg11)) (ValueIdx.ix1 q) = _
    rw [e11]
    exact (row_eq_vec (Cert.KernelChain11.bnB m c) q).symm
  -- the join: on real data the two variances are one number
  exact Cert.HopJoin.join (kOut11 m ρ c) (rOut11 m' c) (Cert.KernelChain11.y m ρ c) (Cert.ReferenceIdeal.RefChain11.y (U7 m' c))
    (fun q => Cert.KernelChain11.g m c (ValueIdx.ix2 (0 : Fin 1) q)) (fun q => Cert.KernelChain11.β m c (ValueIdx.ix2 (0 : Fin 1) q))
    (fun q => Cert.ReferenceIdeal.RefChain11.g (U7 m' c) (ValueIdx.ix1 q)) (fun q => Cert.ReferenceIdeal.RefChain11.β (U7 m' c) (ValueIdx.ix1 q))
    (Cert.KernelChain11.kernel_out_apply m ρ c) (Cert.ReferenceIdeal.RefChain11.out_apply (U7 m' c)) ey eg eβ
    (Cert.KernelChain11.y_isReal m ρ hpre c h10.2 h8.2 h0.2) (Cert.KernelChain11.g_isReal m hpre c) (Cert.KernelChain11.β_isReal m hpre c)

end Cert.Chain11

end
-- ==== Proof.ValTriple24.lean ====
/-
  Region 24: the projection of a block's three hops with its column statistics. At each grid point the body multiplies a block
  of 5000 rows of each hop's output by that hop's slice of the projection matrix, adds the three products in order and then the
  bias row, stores that block, and adds the block's column sums and column sums of squares to two carried rows the first point
  has set to zero. The blocks tile the rows and the carried rows end as sums over all rows: a sum over 100000 rows regrouped as
  twenty runs of 5000, which is a matter of the order of a finite sum only.
-/
import proofs.«414479_j7705171329025_1_alg».proof.Proof.FrameKI.R24
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValTriple24

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. The block of values is computed from the three input blocks, each next to its
  slice of the matrix, and the bias row. At the first point the two carried rows are first set to zero and then read back,
  so the running rows it leaves are the block's sums added to zero; at the other points they are added to what the rows
  held. The column-sum row is read once before the block's sum is added to it, and that reading is passed on unchanged. -/

section Pieces

variable {F : FTy → Type} [FloatOps F]

theorem outA7 (c : Dev nD) (i : grid24.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : cond24_0 i)
    (x0 x1 x2 : Vec F S5000x128 .f32) (x3 x4 x5 : Vec F S128x128 .f32) (x6 : Vec F S1x128 .f32) :
    out24_A_7 c i a1 h1 a2 h2 a3 h3 a4 h4 a5 h5 a6 h6 a7 h7 a8 h8 a9 h9 a10 h10 hc x0 x1 x2 x3 x4 x5 x6 = k24_pay5 x0 x3 x1 x4 x2 x5 x6 := by
  unfold out24_A_7
  rw [View.read_writes_eq_canon _ _ _ (cover24_A_7 c i a1 h1 a2 h2 a3 h3 a4 h4 a5 h5 a6 h6 a7 h7 a8 h8 a9 h9 a10 h10 hc x0 x1 x2 x3 x4 x5 x6)]
  unfold kernelRun24_A
  dsimp only
  (try sl_unfold_words)
  rw [View.canon_unit_zero hz]
  simp only [View.readAt_eq_ld, h1.read_unread, h2.read_unread, h3.read_unread, h4.read_unread, h5.read_unread, h6.read_unread, h7.read_unread,
    View.ld_unit_zero (S := S5000x128) hz, View.ld_unit_zero (S := S128x128) hz, View.ld_unit_zero (S := S1x128) hz]

theorem outA8 (c : Dev nD) (i : grid24.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : cond24_0 i)
    (x0 x1 x2 : Vec F S5000x128 .f32) (x3 x4 x5 : Vec F S128x128 .f32) (x6 : Vec F S1x128 .f32) :
    out24_A_8 c i a1 h1 a2 h2 a3 h3 a4 h4 a5 h5 a6 h6 a7 h7 a8 h8 a9 h9 a10 h10 hc x0 x1 x2 x3 x4 x5 x6 = k24_pay1 (k24_pay5 x0 x3 x1 x4 x2 x5 x6) (k24_pay6 (k24_pay3 (F := F))) := by
  unfold out24_A_8
  rw [View.read_writes_eq_canon _ _ _ (cover24_A_8 c i a1 h1 a2 h2 a3 h3 a4 h4 a5 h5 a6 h6 a7 h7 a8 h8 a9 h9 a10 h10 hc x0 x1 x2 x3 x4 x5 x6)]
  unfold kernelRun24_A
  dsimp only
  (try sl_unfold_words)
  rw [View.canon_cons_unit_zero (S := S1x128) hz]
  simp only [View.readAt_eq_ld, h1.read_unread, h2.read_unread, h3.read_unread, h4.read_unread, h5.read_unread, h6.read_unread, h7.read_unread, View.readCov_unit_zero (S := S1x128) _ hz,
    View.ld_unit_zero (S := S5000x128) hz, View.ld_unit_zero (S := S128x128) hz, View.ld_unit_zero (S := S1x128) hz]

theorem outA9 (c : Dev nD) (i : grid24.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : cond24_0 i)
    (x0 x1 x2 : Vec F S5000x128 .f32) (x3 x4 x5 : Vec F S128x128 .f32) (x6 : Vec F S1x128 .f32) :
    out24_A_9 c i a1 h1 a2 h2 a3 h3 a4 h4 a5 h5 a6 h6 a7 h7 a8 h8 a9 h9 a10 h10 hc x0 x1 x2 x3 x4 x5 x6 = k24_pay2 (k24_pay5 x0 x3 x1 x4 x2 x5 x6) (k24_pay4 (F := F)) := by
  unfold out24_A_9
  rw [View.read_writes_eq_canon _ _ _ (cover24_A_9 c i a1 h1 a2 h2 a3 h3 a4 h4 a5 h5 a6 h6 a7 h7 a8 h8 a9 h9 a10 h10 hc x0 x1 x2 x3 x4 x5 x6)]
  unfold kernelRun24_A
  dsimp only
  (try sl_unfold_words)
  rw [View.canon_cons_unit_zero (S := S1x128) hz]
  simp only [View.readAt_eq_ld, h1.read_unread, h2.read_unread, h3.read_unread, h4.read_unread, h5.read_unread, h6.read_unread, h7.read_unread, View.readCov_unit_zero (S := S1x128) _ hz,
    View.ld_unit_zero (S := S5000x128) hz, View.ld_unit_zero (S := S128x128) hz, View.ld_unit_zero (S := S1x128) hz]

theorem outB7 (c : Dev nD) (i : grid24.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : ¬cond24_0 i)
    (x0 x1 x2 : Vec F S5000x128 .f32) (x3 x4 x5 : Vec F S128x128 .f32) (x6 : Vec F S1x128 .f32) (xo8 xo9 : Vec F S1x128 .f32) :
    out24_B_7 c i a1 h1 a2 h2 a3 h3 a4 h4 a5 h5 a6 h6 a7 h7 a8 h8 a9 h9 a10 h10 hc x0 x1 x2 x3 x4 x5 x6 xo8 xo9 = k24_pay5 x0 x3 x1 x4 x2 x5 x6 := by
  unfold out24_B_7
  rw [View.read_writes_eq_canon _ _ _ (cover24_B_7 c i a1 h1 a2 h2 a3 h3 a4 h4 a5 h5 a6 h6 a7 h7 a8 h8 a9 h9 a10 h10 hc x0 x1 x2 x3 x4 x5 x6 xo8 xo9)]
  unfold kernelRun24_B
  dsimp only
  (try sl_unfold_words)
  rw [View.canon_unit_zero hz]
  simp only [View.readAt_eq_ld, h1.read_unread, h2.read_unread, h3.read_unread, h4.read_unread, h5.read_unread, h6.read_unread, h7.read_unread, h9.read_unread, h10.read_unread,
    View.ld_unit_zero (S := S5000x128) hz, View.ld_unit_zero (S := S128x128) hz, View.ld_unit_zero (S := S1x128) hz]

theorem outB8 (c : Dev nD) (i : grid24.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : ¬cond24_0 i)
    (x0 x1 x2 : Vec F S5000x128 .f32) (x3 x4 x5 : Vec F S128x128 .f32) (x6 : Vec F S1x128 .f32) (xo8 xo9 : Vec F S1x128 .f32) :
    out24_B_8 c i a1 h1 a2 h2 a3 h3 a4 h4 a5 h5 a6 h6 a7 h7 a8 h8 a9 h9 a10 h10 hc x0 x1 x2 x3 x4 x5 x6 xo8 xo9 = k24_pay1 (k24_pay5 x0 x3 x1 x4 x2 x5 x6) (k24_pay6 xo8) := by
  unfold out24_B_8
  rw [View.read_writes_eq_canon _ _ _ (cover24_B_8 c i a1 h1 a2 h2 a3 h3 a4 h4 a5 h5 a6 h6 a7 h7 a8 h8 a9 h9 a10 h10 hc x0 x1 x2 x3 x4 x5 x6 xo8 xo9)]
  unfold kernelRun24_B
  dsimp only
  (try sl_unfold_words)
  rw [View.canon_unit_zero hz]
  simp only [View.readAt_eq_ld, h1.read_unread, h2.read_unread, h3.read_unread, h4.read_unread, h5.read_unread, h6.read_unread, h7.read_unread, h9.read_unread, h10.read_unread,
    View.ld_unit_zero (S := S5000x128) hz, View.ld_unit_zero (S := S128x128) hz, View.ld_unit_zero (S := S1x128) hz]

theorem outB9 (c : Dev nD) (i : grid24.Coords) (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S1x128 .f32) (h7 : a7.IsWhole) (a8 : Memref sig .tc .vmem S5000x128 .f32) (h8 : a8.IsWhole)
    (a9 : Memref sig .tc .vmem S1x128 .f32) (h9 : a9.IsWhole) (a10 : Memref sig .tc .vmem S1x128 .f32) (h10 : a10.IsWhole) (hc : ¬cond24_0 i)
    (x0 x1 x2 : Vec F S5000x128 .f32) (x3 x4 x5 : Vec F S128x128 .f32) (x6 : Vec F S1x128 .f32) (xo8 xo9 : Vec F S1x128 .f32) :
    out24_B_9 c i a1 h1 a2 h2 a3 h3 a4 h4 a5 h5 a6 h6 a7 h7 a8 h8 a9 h9 a10 h10 hc x0 x1 x2 x3 x4 x5 x6 xo8 xo9 = k24_pay2 (k24_pay5 x0 x3 x1 x4 x2 x5 x6) xo9 := by
  unfold out24_B_9
  rw [View.read_writes_eq_canon _ _ _ (cover24_B_9 c i a1 h1 a2 h2 a3 h3 a4 h4 a5 h5 a6 h6 a7 h7 a8 h8 a9 h9 a10 h10 hc x0 x1 x2 x3 x4 x5 x6 xo8 xo9)]
  unfold kernelRun24_B
  dsimp only
  (try sl_unfold_words)
  rw [View.canon_unit_zero hz]
  simp only [View.readAt_eq_ld, h1.read_unread, h2.read_unread, h3.read_unread, h4.read_unread, h5.read_unread, h6.read_unread, h7.read_unread, h9.read_unread, h10.read_unread,
    View.ld_unit_zero (S := S5000x128) hz, View.ld_unit_zero (S := S128x128) hz, View.ld_unit_zero (S := S1x128) hz]

end Pieces

/-- The carried row as it is passed on after its reading: the reading itself. -/
theorem pay6_apply (acc : Vec Ideal S1x128 .f32) (u : Fin 1) (q : Fin 128) :
    k24_pay6 (F := Ideal) acc (ix2 u q) = acc (ix2 u q) := by
  unfold k24_pay6
  exact congrFun (shapeCast_self acc _) _

variable (V : (c : Dev nD) → (b : Ref sig .tc) → Buf (Elt Ideal) ((c : Thread nD τ).loc b))

/-- The region's input arrays as it finds them, each at its literal type. -/
abbrev x0Arr (c : Dev nD) : Vec Ideal S100000x128 .f32 := V c (Pipeline.arrRef spec24 0)
abbrev x1Arr (c : Dev nD) : Vec Ideal S100000x128 .f32 := V c (Pipeline.arrRef spec24 1)
abbrev x2Arr (c : Dev nD) : Vec Ideal S100000x128 .f32 := V c (Pipeline.arrRef spec24 2)
abbrev w0Arr (c : Dev nD) : Vec Ideal S128x128 .f32 := V c (Pipeline.arrRef spec24 3)
abbrev w1Arr (c : Dev nD) : Vec Ideal S128x128 .f32 := V c (Pipeline.arrRef spec24 4)
abbrev w2Arr (c : Dev nD) : Vec Ideal S128x128 .f32 := V c (Pipeline.arrRef spec24 5)
abbrev bRow (c : Dev nD) : Vec Ideal S1x128 .f32 := V c (Pipeline.arrRef spec24 6)

/-- One entry of the linear stage on the region's arrays. -/
def y (c : Dev nD) (r : Fin 100000) (q : Fin 128) : EReal :=
  lin3 (x0Arr V c) (x1Arr V c) (x2Arr V c) (w0Arr V c) (w1Arr V c) (w2Arr V c) (bRow V c) r q

/-- What the region leaves in its three output arrays. -/
def resultY (c : Dev nD) : Vec Ideal S100000x128 .f32 := fun i => y V c (i 0) (i 1)
def resultSum (c : Dev nD) : Vec Ideal S1x128 .f32 := fun i => colSum (y V c) (i 1)
def resultSumSq (c : Dev nD) : Vec Ideal S1x128 .f32 := fun i => colSumSq (y V c) (i 1)

/-! ## Where each window's block lies, and what the input blocks read -/

/-- The seven input blocks at a point, each at its literal type. -/
abbrev x0Blk (c : Dev nD) (t : Fin cfg24.N) : Vec Ideal S5000x128 .f32 := iblk24 V c 0 t
abbrev x1Blk (c : Dev nD) (t : Fin cfg24.N) : Vec Ideal S5000x128 .f32 := iblk24 V c 1 t
abbrev x2Blk (c : Dev nD) (t : Fin cfg24.N) : Vec Ideal S5000x128 .f32 := iblk24 V c 2 t
abbrev w0Blk (c : Dev nD) (t : Fin cfg24.N) : Vec Ideal S128x128 .f32 := iblk24 V c 3 t
abbrev w1Blk (c : Dev nD) (t : Fin cfg24.N) : Vec Ideal S128x128 .f32 := iblk24 V c 4 t
abbrev w2Blk (c : Dev nD) (t : Fin cfg24.N) : Vec Ideal S128x128 .f32 := iblk24 V c 5 t
abbrev bBlk (c : Dev nD) (t : Fin cfg24.N) : Vec Ideal S1x128 .f32 := iblk24 V c 6 t

/-- The block each of the three tall input windows takes at a point, decided over the twenty points: block `t` along the rows. -/
theorem idx_x : ∀ t : Fin cfg24.N,
    win24_0.index t (0 : Fin 2) = t.val ∧ win24_0.index t (1 : Fin 2) = 0
    ∧ win24_1.index t (0 : Fin 2) = t.val ∧ win24_1.index t (1 : Fin 2) = 0
    ∧ win24_2.index t (0 : Fin 2) = t.val ∧ win24_2.index t (1 : Fin 2) = 0 :=
  (by decide +kernel : ∀ t : Fin grid24.N, _)

/-- The three slices of the matrix and the bias row are each their own one block throughout. -/
theorem idx_w : ∀ t : Fin cfg24.N,
    win24_3.index t (0 : Fin 2) = 0 ∧ win24_3.index t (1 : Fin 2) = 0
    ∧ win24_4.index t (0 : Fin 2) = 0 ∧ win24_4.index t (1 : Fin 2) = 0
    ∧ win24_5.index t (0 : Fin 2) = 0 ∧ win24_5.index t (1 : Fin 2) = 0
    ∧ win24_6.index t (0 : Fin 2) = 0 ∧ win24_6.index t (1 : Fin 2) = 0 :=
  (by decide +kernel : ∀ t : Fin grid24.N, _)

/-- The tall output window takes block `t` along the rows, and each of the two carried rows is its own one block throughout. -/
theorem idx_o : ∀ t : Fin cfg24.N,
    win24_7.index t (0 : Fin 2) = t.val ∧ win24_7.index t (1 : Fin 2) = 0
    ∧ win24_8.index t (0 : Fin 2) = 0 ∧ win24_8.index t (1 : Fin 2) = 0
    ∧ win24_9.index t (0 : Fin 2) = 0 ∧ win24_9.index t (1 : Fin 2) = 0 :=
  (by decide +kernel : ∀ t : Fin grid24.N, _)

/-- The first hop's block at point `t`, read at (p, j), is its array at row 5000·t + p, column j. -/
theorem x0_apply (c : Dev nD) (t : Fin cfg24.N) (p : Fin 5000) (j : Fin 128) (h : t.val * 5000 + p.val < 100000) :
    x0Blk V c t (ix2 p j) = x0Arr V c (ix2 ⟨t.val * 5000 + p.val, h⟩ j) := by
  obtain ⟨e00, e01, e10, e11, e20, e21⟩ := idx_x t
  unfold x0Blk iblk24
  rw [View.read_apply]
  show x0Arr V c (((cfg24.win 0).blk t).view.emb (ix2 p j)) = _
  refine congrArg (x0Arr V c) ?_
  funext a; apply Fin.ext
  match a with
  | ⟨0, _⟩ => show win24_0.index t (0 : Fin 2) * 5000 + 1 * p.val = t.val * 5000 + p.val; omega
  | ⟨1, _⟩ => show win24_0.index t (1 : Fin 2) * 128 + 1 * j.val = j.val; omega

/-- The second hop's block at point `t`, read at (p, j), is its array at row 5000·t + p, column j. -/
theorem x1_apply (c : Dev nD) (t : Fin cfg24.N) (p : Fin 5000) (j : Fin 128) (h : t.val * 5000 + p.val < 100000) :
    x1Blk V c t (ix2 p j) = x1Arr V c (ix2 ⟨t.val * 5000 + p.val, h⟩ j) := by
  obtain ⟨e00, e01, e10, e11, e20, e21⟩ := idx_x t
  unfold x1Blk iblk24
  rw [View.read_apply]
  show x1Arr V c (((cfg24.win 1).blk t).view.emb (ix2 p j)) = _
  refine congrArg (x1Arr V c) ?_
  funext a; apply Fin.ext
  match a with
  | ⟨0, _⟩ => show win24_1.index t (0 : Fin 2) * 5000 + 1 * p.val = t.val * 5000 + p.val; omega
  | ⟨1, _⟩ => show win24_1.index t (1 : Fin 2) * 128 + 1 * j.val = j.val; omega

/-- The third hop's block at point `t`, read at (p, j), is its array at row 5000·t + p, column j. -/
theorem x2_apply (c : Dev nD) (t : Fin cfg24.N) (p : Fin 5000) (j : Fin 128) (h : t.val * 5000 + p.val < 100000) :
    x2Blk V c t (ix2 p j) = x2Arr V c (ix2 ⟨t.val * 5000 + p.val, h⟩ j) := by
  obtain ⟨e00, e01, e10, e11, e20, e21⟩ := idx_x t
  unfold x2Blk iblk24
  rw [View.read_apply]
  show x2Arr V c (((cfg24.win 2).blk t).view.emb (ix2 p j)) = _
  refine congrArg (x2Arr V c) ?_
  funext a; apply Fin.ext
  match a with
  | ⟨0, _⟩ => show win24_2.index t (0 : Fin 2) * 5000 + 1 * p.val = t.val * 5000 + p.val; omega
  | ⟨1, _⟩ => show win24_2.index t (1 : Fin 2) * 128 + 1 * j.val = j.val; omega

/-- The first slice of the matrix, at every point, is the slice. -/
theorem w0_apply (c : Dev nD) (t : Fin cfg24.N) (j : Fin 128) (q : Fin 128) :
    w0Blk V c t (ix2 j q) = w0Arr V c (ix2 j q) := by
  obtain ⟨e30, e31, e40, e41, e50, e51, e60, e61⟩ := idx_w t
  unfold w0Blk iblk24
  rw [View.read_apply]
  show w0Arr V c (((cfg24.win 3).blk t).view.emb (ix2 j q)) = _
  refine congrArg (w0Arr V c) ?_
  funext a; apply Fin.ext
  match a with
  | ⟨0, _⟩ => show win24_3.index t (0 : Fin 2) * 128 + 1 * j.val = j.val; omega
  | ⟨1, _⟩ => show win24_3.index t (1 : Fin 2) * 128 + 1 * q.val = q.val; omega

/-- The second slice of the matrix, at every point, is the slice. -/
theorem w1_apply (c : Dev nD) (t : Fin cfg24.N) (j : Fin 128) (q : Fin 128) :
    w1Blk V c t (ix2 j q) = w1Arr V c (ix2 j q) := by
  obtain ⟨e30, e31, e40, e41, e50, e51, e60, e61⟩ := idx_w t
  unfold w1Blk iblk24
  rw [View.read_apply]
  show w1Arr V c (((cfg24.win 4).blk t).view.emb (ix2 j q)) = _
  refine congrArg (w1Arr V c) ?_
  funext a; apply Fin.ext
  match a with
  | ⟨0, _⟩ => show win24_4.index t (0 : Fin 2) * 128 + 1 * j.val = j.val; omega
  | ⟨1, _⟩ => show win24_4.index t (1 : Fin 2) * 128 + 1 * q.val = q.val; omega

/-- The third slice of the matrix, at every point, is the slice. -/
theorem w2_apply (c : Dev nD) (t : Fin cfg24.N) (j : Fin 128) (q : Fin 128) :
    w2Blk V c t (ix2 j q) = w2Arr V c (ix2 j q) := by
  obtain ⟨e30, e31, e40, e41, e50, e51, e60, e61⟩ := idx_w t
  unfold w2Blk iblk24
  rw [View.read_apply]
  show w2Arr V c (((cfg24.win 5).blk t).view.emb (ix2 j q)) = _
  refine congrArg (w2Arr V c) ?_
  funext a; apply Fin.ext
  match a with
  | ⟨0, _⟩ => show win24_5.index t (0 : Fin 2) * 128 + 1 * j.val = j.val; omega
  | ⟨1, _⟩ => show win24_5.index t (1 : Fin 2) * 128 + 1 * q.val = q.val; omega

/-- The bias row's block, at every point, is the row. -/
theorem b_apply (c : Dev nD) (t : Fin cfg24.N) (q : Fin 128) :
    bBlk V c t (ix2 (0 : Fin 1) q) = bRow V c (ix2 (0 : Fin 1) q) := by
  obtain ⟨e30, e31, e40, e41, e50, e51, e60, e61⟩ := idx_w t
  unfold bBlk iblk24
  rw [View.read_apply]
  show bRow V c (((cfg24.win 6).blk t).view.emb (ix2 (0 : Fin 1) q)) = _
  refine congrArg (bRow V c) ?_
  funext a; apply Fin.ext
  match a with
  | ⟨0, _⟩ => show win24_6.index t (0 : Fin 2) * 1 + 1 * 0 = 0; omega
  | ⟨1, _⟩ => show win24_6.index t (1 : Fin 2) * 128 + 1 * q.val = q.val; omega

/-- The block of values a point computes, at (p, q), is the projection's entry of row 5000·t + p, column q. -/
theorem pay5_point (c : Dev nD) (t : Fin cfg24.N) (p : Fin 5000) (q : Fin 128) (h : t.val * 5000 + p.val < 100000) :
    k24_pay5 (F := Ideal) (x0Blk V c t) (w0Blk V c t) (x1Blk V c t) (w1Blk V c t) (x2Blk V c t) (w2Blk V c t) (bBlk V c t) (ix2 p q)
      = y V c ⟨t.val * 5000 + p.val, h⟩ q := by
  refine (PayLinear.k8_pay5_apply (x0Blk V c t) (w0Blk V c t) (x1Blk V c t) (w1Blk V c t) (x2Blk V c t) (w2Blk V c t) (bBlk V c t) p q).trans ?_
  unfold y lin3
  refine congrArg₂ (fun a b : EReal => a + b) ?_ (b_apply V c t q)
  refine congrArg₂ (fun a b : EReal => a + b) (congrArg₂ (fun a b : EReal => a + b) ?_ ?_) ?_
  · exact Finset.sum_congr rfl fun j _ => congrArg₂ (fun a b : EReal => a * b) (x0_apply V c t p j h) (w0_apply V c t j q)
  · exact Finset.sum_congr rfl fun j _ => congrArg₂ (fun a b : EReal => a * b) (x1_apply V c t p j h) (w1_apply V c t j q)
  · exact Finset.sum_congr rfl fun j _ => congrArg₂ (fun a b : EReal => a * b) (x2_apply V c t p j h) (w2_apply V c t j q)

/-! ## What the three output buffers hold after each point -/

/-- The output block after any point is the block of values the point computes. -/
theorem outs7_eq (c : Dev nD) (t : Fin cfg24.N) :
    (outsAt24 V c t.val t.isLt).1 = k24_pay5 (F := Ideal) (x0Blk V c t) (w0Blk V c t) (x1Blk V c t) (w1Blk V c t) (x2Blk V c t) (w2Blk V c t) (bBlk V c t) := by
  by_cases h0 : t.val % 20 = 0
  · rw [outsAt24_A V c t h0]
    dsimp only
    exact outA7 (F := Ideal) c (grid24.coords t) (ms24_0 t) (hs24_0 t) (ms24_1 t) (hs24_1 t) (ms24_2 t) (hs24_2 t) (ms24_3 t) (hs24_3 t) (ms24_4 t) (hs24_4 t) (ms24_5 t) (hs24_5 t) (ms24_6 t) (hs24_6 t) (ms24_7 t) (hs24_7 t) (ms24_8 t) (hs24_8 t) (ms24_9 t) (hs24_9 t)
      ((hcond24_0 t).mpr h0) (iblk24 V c 0 t) (iblk24 V c 1 t) (iblk24 V c 2 t) (iblk24 V c 3 t) (iblk24 V c 4 t) (iblk24 V c 5 t) (iblk24 V c 6 t)
  · rw [outsAt24_B V c t h0]
    dsimp only
    exact outB7 (F := Ideal) c (grid24.coords t) (ms24_0 t) (hs24_0 t) (ms24_1 t) (hs24_1 t) (ms24_2 t) (hs24_2 t) (ms24_3 t) (hs24_3 t) (ms24_4 t) (hs24_4 t) (ms24_5 t) (hs24_5 t) (ms24_6 t) (hs24_6 t) (ms24_7 t) (hs24_7 t) (ms24_8 t) (hs24_8 t) (ms24_9 t) (hs24_9 t)
      (fun h => h0 ((hcond24_0 t).mp h)) (iblk24 V c 0 t) (iblk24 V c 1 t) (iblk24 V c 2 t) (iblk24 V c 3 t) (iblk24 V c 4 t) (iblk24 V c 5 t) (iblk24 V c 6 t)
      (outsAt24 V c (t.val - 1) (Nat.lt_of_le_of_lt (Nat.sub_le _ _) t.isLt)).2.1
      (outsAt24 V c (t.val - 1) (Nat.lt_of_le_of_lt (Nat.sub_le _ _) t.isLt)).2.2

/-- The carried column sum at column `q`, after point `t`. -/
def accSum (c : Dev nD) (u : Fin 1) (q : Fin 128) : (t : ℕ) → t < 20 → EReal :=
  fun t ht => (outsAt24 V c t (lt_of_lt_of_eq ht N_24.symm)).2.1 (ix2 u q)

/-- At the first point it is the stored zero plus the block's column sum. -/
theorem accSum_first (c : Dev nD) (u : Fin 1) (q : Fin 128) (t : ℕ) (ht : t < 20) (h0 : t % 20 = 0) :
    accSum V c u q t ht = (k24_pay3 (F := Ideal)) (ix2 u q)
      + ∑ p : Fin 5000, y V c ⟨t * 5000 + p.val, by have := p.isLt; omega⟩ q := by
  have ht' : t < cfg24.N := lt_of_lt_of_eq ht N_24.symm
  show (outsAt24 V c (⟨t, ht'⟩ : Fin cfg24.N).val (⟨t, ht'⟩ : Fin cfg24.N).isLt).2.1 (ix2 u q) = _
  rw [outsAt24_A V c ⟨t, ht'⟩ h0]
  dsimp only
  refine (congrFun (outA8 (F := Ideal) c (grid24.coords ⟨t, ht'⟩) (ms24_0 ⟨t, ht'⟩) (hs24_0 ⟨t, ht'⟩) (ms24_1 ⟨t, ht'⟩) (hs24_1 ⟨t, ht'⟩) (ms24_2 ⟨t, ht'⟩) (hs24_2 ⟨t, ht'⟩) (ms24_3 ⟨t, ht'⟩) (hs24_3 ⟨t, ht'⟩) (ms24_4 ⟨t, ht'⟩) (hs24_4 ⟨t, ht'⟩) (ms24_5 ⟨t, ht'⟩) (hs24_5 ⟨t, ht'⟩) (ms24_6 ⟨t, ht'⟩) (hs24_6 ⟨t, ht'⟩) (ms24_7 ⟨t, ht'⟩) (hs24_7 ⟨t, ht'⟩) (ms24_8 ⟨t, ht'⟩) (hs24_8 ⟨t, ht'⟩) (ms24_9 ⟨t, ht'⟩) (hs24_9 ⟨t, ht'⟩)
    ((hcond24_0 ⟨t, ht'⟩).mpr h0) (iblk24 V c 0 ⟨t, ht'⟩) (iblk24 V c 1 ⟨t, ht'⟩) (iblk24 V c 2 ⟨t, ht'⟩) (iblk24 V c 3 ⟨t, ht'⟩) (iblk24 V c 4 ⟨t, ht'⟩) (iblk24 V c 5 ⟨t, ht'⟩) (iblk24 V c 6 ⟨t, ht'⟩)) (ix2 u q)).trans ?_
  refine (PayLinear.k8_pay1_apply (k24_pay5 (F := Ideal) (x0Blk V c ⟨t, ht'⟩) (w0Blk V c ⟨t, ht'⟩) (x1Blk V c ⟨t, ht'⟩) (w1Blk V c ⟨t, ht'⟩) (x2Blk V c ⟨t, ht'⟩) (w2Blk V c ⟨t, ht'⟩) (bBlk V c ⟨t, ht'⟩)) (k24_pay6 (k24_pay3 (F := Ideal))) u q).trans ?_
  refine congrArg₂ (fun a s : EReal => a + s) (pay6_apply (k24_pay3 (F := Ideal)) u q) (Finset.sum_congr rfl fun p _ => ?_)
  exact pay5_point V c ⟨t, ht'⟩ p q _

/-- At any other point it is what the point before left plus the block's column sum. -/
theorem accSum_step (c : Dev nD) (u : Fin 1) (q : Fin 128) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg24.N := lt_of_lt_of_eq ht N_24.symm
  show (outsAt24 V c (⟨t, ht'⟩ : Fin cfg24.N).val (⟨t, ht'⟩ : Fin cfg24.N).isLt).2.1 (ix2 u q) = _
  rw [outsAt24_B V c ⟨t, ht'⟩ h0]
  dsimp only
  refine (congrFun (outB8 (F := Ideal) c (grid24.coords ⟨t, ht'⟩) (ms24_0 ⟨t, ht'⟩) (hs24_0 ⟨t, ht'⟩) (ms24_1 ⟨t, ht'⟩) (hs24_1 ⟨t, ht'⟩) (ms24_2 ⟨t, ht'⟩) (hs24_2 ⟨t, ht'⟩) (ms24_3 ⟨t, ht'⟩) (hs24_3 ⟨t, ht'⟩) (ms24_4 ⟨t, ht'⟩) (hs24_4 ⟨t, ht'⟩) (ms24_5 ⟨t, ht'⟩) (hs24_5 ⟨t, ht'⟩) (ms24_6 ⟨t, ht'⟩) (hs24_6 ⟨t, ht'⟩) (ms24_7 ⟨t, ht'⟩) (hs24_7 ⟨t, ht'⟩) (ms24_8 ⟨t, ht'⟩) (hs24_8 ⟨t, ht'⟩) (ms24_9 ⟨t, ht'⟩) (hs24_9 ⟨t, ht'⟩)
    (fun h => h0 ((hcond24_0 ⟨t, ht'⟩).mp h)) (iblk24 V c 0 ⟨t, ht'⟩) (iblk24 V c 1 ⟨t, ht'⟩) (iblk24 V c 2 ⟨t, ht'⟩) (iblk24 V c 3 ⟨t, ht'⟩) (iblk24 V c 4 ⟨t, ht'⟩) (iblk24 V c 5 ⟨t, ht'⟩) (iblk24 V c 6 ⟨t, ht'⟩)
    (outsAt24 V c ((⟨t, ht'⟩ : Fin cfg24.N).val - 1) (Nat.lt_of_le_of_lt (Nat.sub_le _ _) (⟨t, ht'⟩ : Fin cfg24.N).isLt)).2.1
    (outsAt24 V c ((⟨t, ht'⟩ : Fin cfg24.N).val - 1) (Nat.lt_of_le_of_lt (Nat.sub_le _ _) (⟨t, ht'⟩ : Fin cfg24.N).isLt)).2.2) (ix2 u q)).trans ?_
  refine (PayLinear.k8_pay1_apply (k24_pay5 (F := Ideal) (x0Blk V c ⟨t, ht'⟩) (w0Blk V c ⟨t, ht'⟩) (x1Blk V c ⟨t, ht'⟩) (w1Blk V c ⟨t, ht'⟩) (x2Blk V c ⟨t, ht'⟩) (w2Blk V c ⟨t, ht'⟩) (bBlk V c ⟨t, ht'⟩))
    (k24_pay6 (outsAt24 V c ((⟨t, ht'⟩ : Fin cfg24.N).val - 1) (Nat.lt_of_le_of_lt (Nat.sub_le _ _) (⟨t, ht'⟩ : Fin cfg24.N).isLt)).2.1) u q).trans ?_
  refine congrArg₂ (fun a s : EReal => a + s) (pay6_apply (outsAt24 V c ((⟨t, ht'⟩ : Fin cfg24.N).val - 1) (Nat.lt_of_le_of_lt (Nat.sub_le _ _) (⟨t, ht'⟩ : Fin cfg24.N).isLt)).2.1 u q) (Finset.sum_congr rfl fun p _ => ?_)
  exact pay5_point V c ⟨t, ht'⟩ p q _

/-- After the last point it is the column sum over all 100000 rows. -/
theorem accSum_last (c : Dev nD) (u : Fin 1) (q : Fin 128) :
    accSum V c u q 19 (by norm_num) = colSum (y V c) q := by
  refine AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k24_pay3 (F := Ideal)) (ix2 u q)) Ideal.ofBits_zero_f32
    (fun t ht h0 => accSum_first V c u q t ht h0) (fun t ht h0 => accSum_step V c u q t ht h0)

/-- The carried column sum of squares at column `q`, after point `t`. -/
def accSumSq (c : Dev nD) (u : Fin 1) (q : Fin 128) : (t : ℕ) → t < 20 → EReal :=
  fun t ht => (outsAt24 V c t (lt_of_lt_of_eq ht N_24.symm)).2.2 (ix2 u q)

/-- At the first point it is the stored zero plus the block's column sum of squares. -/
theorem accSumSq_first (c : Dev nD) (u : Fin 1) (q : Fin 128) (t : ℕ) (ht : t < 20) (h0 : t % 20 = 0) :
    accSumSq V c u q t ht = (k24_pay4 (F := Ideal)) (ix2 u q)
      + ∑ p : Fin 5000, (y V c ⟨t * 5000 + p.val, by have := p.isLt; omega⟩ q * y V c ⟨t * 5000 + p.val, by have := p.isLt; omega⟩ q) := by
  have ht' : t < cfg24.N := lt_of_lt_of_eq ht N_24.symm
  show (outsAt24 V c (⟨t, ht'⟩ : Fin cfg24.N).val (⟨t, ht'⟩ : Fin cfg24.N).isLt).2.2 (ix2 u q) = _
  rw [outsAt24_A V c ⟨t, ht'⟩ h0]
  dsimp only
  refine (congrFun (outA9 (F := Ideal) c (grid24.coords ⟨t, ht'⟩) (ms24_0 ⟨t, ht'⟩) (hs24_0 ⟨t, ht'⟩) (ms24_1 ⟨t, ht'⟩) (hs24_1 ⟨t, ht'⟩) (ms24_2 ⟨t, ht'⟩) (hs24_2 ⟨t, ht'⟩) (ms24_3 ⟨t, ht'⟩) (hs24_3 ⟨t, ht'⟩) (ms24_4 ⟨t, ht'⟩) (hs24_4 ⟨t, ht'⟩) (ms24_5 ⟨t, ht'⟩) (hs24_5 ⟨t, ht'⟩) (ms24_6 ⟨t, ht'⟩) (hs24_6 ⟨t, ht'⟩) (ms24_7 ⟨t, ht'⟩) (hs24_7 ⟨t, ht'⟩) (ms24_8 ⟨t, ht'⟩) (hs24_8 ⟨t, ht'⟩) (ms24_9 ⟨t, ht'⟩) (hs24_9 ⟨t, ht'⟩)
    ((hcond24_0 ⟨t, ht'⟩).mpr h0) (iblk24 V c 0 ⟨t, ht'⟩) (iblk24 V c 1 ⟨t, ht'⟩) (iblk24 V c 2 ⟨t, ht'⟩) (iblk24 V c 3 ⟨t, ht'⟩) (iblk24 V c 4 ⟨t, ht'⟩) (iblk24 V c 5 ⟨t, ht'⟩) (iblk24 V c 6 ⟨t, ht'⟩)) (ix2 u q)).trans ?_
  refine (PayLinear.k8_pay2_apply (k24_pay5 (F := Ideal) (x0Blk V c ⟨t, ht'⟩) (w0Blk V c ⟨t, ht'⟩) (x1Blk V c ⟨t, ht'⟩) (w1Blk V c ⟨t, ht'⟩) (x2Blk V c ⟨t, ht'⟩) (w2Blk V c ⟨t, ht'⟩) (bBlk V c ⟨t, ht'⟩)) (k24_pay4 (F := Ideal)) u q).trans ?_
  refine congrArg₂ (fun a s : EReal => a + s) rfl (Finset.sum_congr rfl fun p _ => ?_)
  exact congrArg₂ (fun a b : EReal => a * b) (pay5_point V c ⟨t, ht'⟩ p q _) (pay5_point V c ⟨t, ht'⟩ p q _)

/-- At any other point it is what the point before left plus the block's column sum of squares. -/
theorem accSumSq_step (c : Dev nD) (u : Fin 1) (q : Fin 128) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg24.N := lt_of_lt_of_eq ht N_24.symm
  show (outsAt24 V c (⟨t, ht'⟩ : Fin cfg24.N).val (⟨t, ht'⟩ : Fin cfg24.N).isLt).2.2 (ix2 u q) = _
  rw [outsAt24_B V c ⟨t, ht'⟩ h0]
  dsimp only
  refine (congrFun (outB9 (F := Ideal) c (grid24.coords ⟨t, ht'⟩) (ms24_0 ⟨t, ht'⟩) (hs24_0 ⟨t, ht'⟩) (ms24_1 ⟨t, ht'⟩) (hs24_1 ⟨t, ht'⟩) (ms24_2 ⟨t, ht'⟩) (hs24_2 ⟨t, ht'⟩) (ms24_3 ⟨t, ht'⟩) (hs24_3 ⟨t, ht'⟩) (ms24_4 ⟨t, ht'⟩) (hs24_4 ⟨t, ht'⟩) (ms24_5 ⟨t, ht'⟩) (hs24_5 ⟨t, ht'⟩) (ms24_6 ⟨t, ht'⟩) (hs24_6 ⟨t, ht'⟩) (ms24_7 ⟨t, ht'⟩) (hs24_7 ⟨t, ht'⟩) (ms24_8 ⟨t, ht'⟩) (hs24_8 ⟨t, ht'⟩) (ms24_9 ⟨t, ht'⟩) (hs24_9 ⟨t, ht'⟩)
    (fun h => h0 ((hcond24_0 ⟨t, ht'⟩).mp h)) (iblk24 V c 0 ⟨t, ht'⟩) (iblk24 V c 1 ⟨t, ht'⟩) (iblk24 V c 2 ⟨t, ht'⟩) (iblk24 V c 3 ⟨t, ht'⟩) (iblk24 V c 4 ⟨t, ht'⟩) (iblk24 V c 5 ⟨t, ht'⟩) (iblk24 V c 6 ⟨t, ht'⟩)
    (outsAt24 V c ((⟨t, ht'⟩ : Fin cfg24.N).val - 1) (Nat.lt_of_le_of_lt (Nat.sub_le _ _) (⟨t, ht'⟩ : Fin cfg24.N).isLt)).2.1
    (outsAt24 V c ((⟨t, ht'⟩ : Fin cfg24.N).val - 1) (Nat.lt_of_le_of_lt (Nat.sub_le _ _) (⟨t, ht'⟩ : Fin cfg24.N).isLt)).2.2) (ix2 u q)).trans ?_
  refine (PayLinear.k8_pay2_apply (k24_pay5 (F := Ideal) (x0Blk V c ⟨t, ht'⟩) (w0Blk V c ⟨t, ht'⟩) (x1Blk V c ⟨t, ht'⟩) (w1Blk V c ⟨t, ht'⟩) (x2Blk V c ⟨t, ht'⟩) (w2Blk V c ⟨t, ht'⟩) (bBlk V c ⟨t, ht'⟩))
    (outsAt24 V c ((⟨t, ht'⟩ : Fin cfg24.N).val - 1) (Nat.lt_of_le_of_lt (Nat.sub_le _ _) (⟨t, ht'⟩ : Fin cfg24.N).isLt)).2.2 u q).trans ?_
  refine congrArg₂ (fun a s : EReal => a + s) rfl (Finset.sum_congr rfl fun p _ => ?_)
  exact congrArg₂ (fun a b : EReal => a * b) (pay5_point V c ⟨t, ht'⟩ p q _) (pay5_point V c ⟨t, ht'⟩ p q _)

/-- After the last point it is the column sum of squares over all 100000 rows. -/
theorem accSumSq_last (c : Dev nD) (u : Fin 1) (q : Fin 128) :
    accSumSq V c u q 19 (by norm_num) = colSumSq (y V c) q := by
  refine AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k24_pay4 (F := Ideal)) (ix2 u q)) Ideal.ofBits_zero_f32
    (fun t ht h0 => accSumSq_first V c u q t ht h0) (fun t ht h0 => accSumSq_step V c u q t ht h0)

/-! ## From the blocks to the arrays -/

/-- Row `p`, column `q` of the output's block at point `t` is row 5000·t + p, column q of the array: a block's coordinate
    is its index times its extent plus the coordinate inside it. -/
theorem emb_out (t : Fin cfg24.N) (p : Fin 5000) (q : Fin 128) (h : t.val * 5000 + p.val < 100000) :
    ((cfg24.win 7).blk t).view.emb (ix2 p q) = (ix2 ⟨t.val * 5000 + p.val, h⟩ q : S100000x128.Idx) := by
  obtain ⟨e70, e71, e80, e81, e90, e91⟩ := idx_o t
  funext a; apply Fin.ext
  match a with
  | ⟨0, _⟩ => show win24_7.index t (0 : Fin 2) * 5000 + 1 * p.val = t.val * 5000 + p.val; omega
  | ⟨1, _⟩ => show win24_7.index t (1 : Fin 2) * 128 + 1 * q.val = q.val; omega

/-- What point `t` writes back for the output is block `t` of `resultY`. -/
theorem flushed7_eq (c : Dev nD) (t : Fin cfg24.N) :
    (dat24 (F := Ideal) V c).flushed 7 t = ((cfg24.win 7).blk t).view.read (Elt Ideal) (resultY V c) := by
  show (cfg24.win 7).cut (grid24.coords t) ((dat24 V c).after 7 t) = _
  rw [after24_7]
  have ht : t.val < 20 := Nat.lt_of_lt_of_eq t.isLt N_24
  funext j
  obtain ⟨p, q, rfl⟩ : ∃ (p : Fin 5000) (q : Fin 128), j = ix2 p q := ⟨j 0, j 1, eq_ix2 j⟩
  have h : t.val * 5000 + p.val < 100000 := by have := p.isLt; omega
  show (outsAt24 V c t.val t.isLt).1 (ix2 p q) = resultY V c (((cfg24.win 7).blk t).view.emb (ix2 p q))
  refine (congrFun (outs7_eq V c t) (ix2 p q)).trans ?_
  refine (pay5_point V c t p q h).trans ?_
  exact (congrArg (resultY V c) (emb_out t p q h)).symm

/-- An entry of the array lies in point `t`'s block exactly when each of its coordinates lies in the block's range. -/
theorem mem_blk7 (t : Fin cfg24.N) (i : S100000x128.Idx) :
    i ∈ ((cfg24.win 7).blk t).view.set ↔ ∀ a : Fin 2, win24_7.index t a * S5000x128.size a ≤ (i a).val
      ∧ (i a).val < win24_7.index t a * S5000x128.size a + S5000x128.size a := by
  show i ∈ ((View.whole main_v307_0).slice (win24_7.rect t)).set ↔ _
  rw [View.set_slice_whole, Rect.mem_set_unit]
  exact Iff.rfl

/-- The twenty blocks tile the array: row `r` is in the block of point `r / 5000`, and every point writes its block back. -/
theorem cover7 (i : S100000x128.Idx) :
    ∃ t : Fin cfg24.N, (cfg24.win 7).flush t = true ∧ i ∈ ((cfg24.win 7).blk t).view.set := by
  have hi0 : (i 0).val < 100000 := idx2_lt0 i
  have hi1 : (i 1).val < 128 := idx2_lt1 i
  obtain ⟨t, ht⟩ : ∃ t : Fin cfg24.N, t.val = (i 0).val / 5000 :=
    ⟨⟨(i 0).val / 5000, by rw [show cfg24.N = 20 from N_24]; omega⟩, rfl⟩
  obtain ⟨e70, e71, e80, e81, e90, e91⟩ := idx_o t
  refine ⟨t, flush24_7 t, ?_⟩
  rw [mem_blk7]
  intro a
  match a with
  | ⟨0, _⟩ =>
    show win24_7.index t (0 : Fin 2) * 5000 ≤ (i 0).val ∧ (i 0).val < win24_7.index t (0 : Fin 2) * 5000 + 5000
    omega
  | ⟨1, _⟩ =>
    show win24_7.index t (1 : Fin 2) * 128 ≤ (i 1).val ∧ (i 1).val < win24_7.index t (1 : Fin 2) * 128 + 128
    omega

/-- At a point whose number is 19 the carried column sum is the one over all rows. -/
theorem accSum_at_last (c : Dev nD) (u : Fin 1) (q : Fin 128) (n : ℕ) (hn : n < 20) (h19 : n = 19) :
    accSum V c u q n hn = colSum (y V c) q := by
  subst h19
  exact accSum_last V c u q

/-- The carried row of window 8 after the last point is the whole of `resultSum`. -/
theorem outs8_last (c : Dev nD) (t : Fin cfg24.N) (h19 : t.val = 19) :
    (outsAt24 V c t.val t.isLt).2.1 = resultSum V c := by
  funext j
  obtain ⟨u, q, rfl⟩ : ∃ (u : Fin 1) (q : Fin 128), j = ix2 u q := ⟨j 0, j 1, eq_ix2 j⟩
  exact accSum_at_last V c u q t.val (Nat.lt_of_lt_of_eq t.isLt N_24) h19

/-- What the last point writes back for window 8 is the whole of `resultSum`: the window's one block lies at offset zero,
    so it reads the whole row. -/
theorem flushed8_eq (c : Dev nD) (t : Fin cfg24.N) (hf : (cfg24.win 8).flush t = true) :
    (dat24 (F := Ideal) V c).flushed 8 t = ((cfg24.win 8).blk t).view.read (Elt Ideal) (resultSum V c) := by
  have hN : t.val < 20 := Nat.lt_of_lt_of_eq t.isLt N_24
  have h19 : t.val = 19 := by have := (flush24_8 t).mp hf; omega
  obtain ⟨e70, e71, e80, e81, e90, e91⟩ := idx_o t
  have hz' : (fun a => win24_8.index t a * main_v307_1.ty.shape.size a) = fun _ => 0 := funext fun a => by
    match a with
    | ⟨0, _⟩ => show win24_8.index t (0 : Fin 2) * 1 = 0; omega
    | ⟨1, _⟩ => show win24_8.index t (1 : Fin 2) * 128 = 0; omega
  show (cfg24.win 8).cut (grid24.coords t) ((dat24 V c).after 8 t) = _
  rw [after24_8, outs8_last V c t h19]
  exact (Memref.read_access_unit_zero (Elt Ideal) main_v307_1 hz' (fun a => by rw [congrFun hz' a]; simp) (resultSum V c)).symm

/-- An entry of the row lies in point `t`'s block of window 8 exactly when each coordinate lies in the block's range. -/
theorem mem_blk8 (t : Fin cfg24.N) (i : S1x128.Idx) :
    i ∈ ((cfg24.win 8).blk t).view.set ↔ ∀ a : Fin 2, win24_8.index t a * S1x128.size a ≤ (i a).val
      ∧ (i a).val < win24_8.index t a * S1x128.size a + S1x128.size a := by
  show i ∈ ((View.whole main_v307_1).slice (win24_8.rect t)).set ↔ _
  rw [View.set_slice_whole, Rect.mem_set_unit]
  exact Iff.rfl

/-- The last point's block of window 8 is the whole row, and the last point writes it back. -/
theorem cover24 (i : S1x128.Idx) :
    ∃ t : Fin cfg24.N, (cfg24.win 8).flush t = true ∧ i ∈ ((cfg24.win 8).blk t).view.set := by
  have hi0 : (i 0).val < 1 := idx2_lt0 i
  have hi1 : (i 1).val < 128 := idx2_lt1 i
  obtain ⟨t, ht⟩ : ∃ t : Fin cfg24.N, t.val = 19 := ⟨⟨19, by rw [show cfg24.N = 20 from N_24]; norm_num⟩, rfl⟩
  obtain ⟨e70, e71, e80, e81, e90, e91⟩ := idx_o t
  refine ⟨t, (flush24_8 t).mpr (by omega), ?_⟩
  rw [mem_blk8]
  intro a
  match a with
  | ⟨0, _⟩ =>
    show win24_8.index t (0 : Fin 2) * 1 ≤ (i 0).val ∧ (i 0).val < win24_8.index t (0 : Fin 2) * 1 + 1
    omega
  | ⟨1, _⟩ =>
    show win24_8.index t (1 : Fin 2) * 128 ≤ (i 1).val ∧ (i 1).val < win24_8.index t (1 : Fin 2) * 128 + 128
    omega

/-- At a point whose number is 19 the carried column sum of squares is the one over all rows. -/
theorem accSumSq_at_last (c : Dev nD) (u : Fin 1) (q : Fin 128) (n : ℕ) (hn : n < 20) (h19 : n = 19) :
    accSumSq V c u q n hn = colSumSq (y V c) q := by
  subst h19
  exact accSumSq_last V c u q

/-- The carried row of window 9 after the last point is the whole of `resultSumSq`. -/
theorem outs9_last (c : Dev nD) (t : Fin cfg24.N) (h19 : t.val = 19) :
    (outsAt24 V c t.val t.isLt).2.2 = resultSumSq V c := by
  funext j
  obtain ⟨u, q, rfl⟩ : ∃ (u : Fin 1) (q : Fin 128), j = ix2 u q := ⟨j 0, j 1, eq_ix2 j⟩
  exact accSumSq_at_last V c u q t.val (Nat.lt_of_lt_of_eq t.isLt N_24) h19

/-- What the last point writes back for window 9 is the whole of `resultSumSq`: the window's one block lies at offset zero,
    so it reads the whole row. -/
theorem flushed9_eq (c : Dev nD) (t : Fin cfg24.N) (hf : (cfg24.win 9).flush t = true) :
    (dat24 (F := Ideal) V c).flushed 9 t = ((cfg24.win 9).blk t).view.read (Elt Ideal) (resultSumSq V c) := by
  have hN : t.val < 20 := Nat.lt_of_lt_of_eq t.isLt N_24
  have h19 : t.val = 19 := by have := (flush24_9 t).mp hf; omega
  obtain ⟨e70, e71, e80, e81, e90, e91⟩ := idx_o t
  have hz' : (fun a => win24_9.index t a * main_v307_2.ty.shape.size a) = fun _ => 0 := funext fun a => by
    match a with
    | ⟨0, _⟩ => show win24_9.index t (0 : Fin 2) * 1 = 0; omega
    | ⟨1, _⟩ => show win24_9.index t (1 : Fin 2) * 128 = 0; omega
  show (cfg24.win 9).cut (grid24.coords t) ((dat24 V c).after 9 t) = _
  rw [after24_9, outs9_last V c t h19]
  exact (Memref.read_access_unit_zero (Elt Ideal) main_v307_2 hz' (fun a => by rw [congrFun hz' a]; simp) (resultSumSq V c)).symm

/-- An entry of the row lies in point `t`'s block of window 9 exactly when each coordinate lies in the block's range. -/
theorem mem_blk9 (t : Fin cfg24.N) (i : S1x128.Idx) :
    i ∈ ((cfg24.win 9).blk t).view.set ↔ ∀ a : Fin 2, win24_9.index t a * S1x128.size a ≤ (i a).val
      ∧ (i a).val < win24_9.index t a * S1x128.size a + S1x128.size a := by
  show i ∈ ((View.whole main_v307_2).slice (win24_9.rect t)).set ↔ _
  rw [View.set_slice_whole, Rect.mem_set_unit]
  exact Iff.rfl

/-- The last point's block of window 9 is the whole row, and the last point writes it back. -/
theorem cover9 (i : S1x128.Idx) :
    ∃ t : Fin cfg24.N, (cfg24.win 9).flush t = true ∧ i ∈ ((cfg24.win 9).blk t).view.set := by
  have hi0 : (i 0).val < 1 := idx2_lt0 i
  have hi1 : (i 1).val < 128 := idx2_lt1 i
  obtain ⟨t, ht⟩ : ∃ t : Fin cfg24.N, t.val = 19 := ⟨⟨19, by rw [show cfg24.N = 20 from N_24]; norm_num⟩, rfl⟩
  obtain ⟨e70, e71, e80, e81, e90, e91⟩ := idx_o t
  refine ⟨t, (flush24_9 t).mpr (by omega), ?_⟩
  rw [mem_blk9]
  intro a
  match a with
  | ⟨0, _⟩ =>
    show win24_9.index t (0 : Fin 2) * 1 ≤ (i 0).val ∧ (i 0).val < win24_9.index t (0 : Fin 2) * 1 + 1
    omega
  | ⟨1, _⟩ =>
    show win24_9.index t (1 : Fin 2) * 128 ≤ (i 1).val ∧ (i 1).val < win24_9.index t (1 : Fin 2) * 128 + 128
    omega

/-- THE INTERFACE of this region, one statement per output window. -/
theorem arrAt_y (c : Dev nD) : (dat24 (F := Ideal) V c).arrAt 7 cfg24.N = resultY V c :=
  (dat24 V c).arrAt_eq_of_cover 7 (resultY V c) (fun t _ => flushed7_eq V c t) cover7

theorem arrAt_sum (c : Dev nD) : (dat24 (F := Ideal) V c).arrAt 8 cfg24.N = resultSum V c :=
  (dat24 V c).arrAt_eq_of_cover 8 (resultSum V c) (fun t hf => flushed8_eq V c t hf) cover24

theorem arrAt_sumsq (c : Dev nD) : (dat24 (F := Ideal) V c).arrAt 9 cfg24.N = resultSumSq V c :=
  (dat24 V c).arrAt_eq_of_cover 9 (resultSumSq V c) (fun t hf => flushed9_eq V c t hf) cover9

end Cert.KernelIdeal.ValTriple24

end
-- ==== Proof.ValNormRelu25Pay.lean ====
/-
  Region 25's arithmetic: what the normalisation's body computes at one row and column of a block, from the block of the
  linear stage's output and the four statistic and parameter rows.
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm25

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block — and then the larger of that and 0. -/
theorem pay_apply (var : Vec Ideal S1x128 .f32) (y : Vec Ideal S5000x128 .f32) (mean g beta : Vec Ideal S1x128 .f32)
    (p : Fin 5000) (q : Fin 128) :
    k25_pay1 (F := Ideal) var y mean g beta (ix2 p q)
      = max (StageSpec.norm (y (ix2 p q)) (mean (ix2 (0 : Fin 1) q)) (var (ix2 (0 : Fin 1) q)) (g (ix2 (0 : Fin 1) q)) (beta (ix2 (0 : Fin 1) q))) 0 := by
  unfold k25_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  exact congrArg₂ max rfl Ideal.ofBits_zero_f32

/-- The two zero offsets of a load or a store of a whole buffer. -/
theorem hz : (![0, 0] : Fin 2 → Nat) = fun _ => 0 := funext fun a => by fin_cases a <;> rfl

end Cert.KernelIdeal.ValNorm25

end
-- ==== Proof.ValNormRelu25.lean ====
/-
  Region 25: a normalisation followed by max(·, 0). Every grid point takes a block of 5000 rows of the linear stage's output
  and the four statistic and parameter rows, and writes back, entry by entry, the normalised value passed through max(·, 0).
  The twenty blocks tile the 100000 rows, so the output array as a whole is that function of the region's input arrays.
-/
import proofs.«414479_j7705171329025_1_alg».proof.Proof.FrameKI.R25
import proofs.«414479_j7705171329025_1_alg».proof.Proof.StageSpec
import proofs.«414479_j7705171329025_1_alg».proof.Proof.ValNormRelu25Pay
import Idealize.ShloMosaic.Lib.Pipeline.Value
import Idealize.ShloMosaic.Lib.ValueIdx
import Idealize.ShloMosaic.Lib.ValueLayout

set_option maxRecDepth 16384

noncomputable section

namespace Cert.KernelIdeal.ValNorm25

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x128 .f32 := V c (Pipeline.arrRef spec25 0)
abbrev meanRow (c : Dev nD) : Vec Ideal S1x128 .f32 := V c (Pipeline.arrRef spec25 1)
abbrev varRow (c : Dev nD) : Vec Ideal S1x128 .f32 := V c (Pipeline.arrRef spec25 2)
abbrev gRow (c : Dev nD) : Vec Ideal S1x128 .f32 := V c (Pipeline.arrRef spec25 3)
abbrev betaRow (c : Dev nD) : Vec Ideal S1x128 .f32 := V c (Pipeline.arrRef spec25 4)

/-- What the region leaves in its output array: the normalised entry through max(·, 0), at every row and column. -/
def result (c : Dev nD) : Vec Ideal S100000x128 .f32 := fun i =>
  max (StageSpec.norm (yArr V c i) (meanRow V c (ix2 (0 : Fin 1) (i 1))) (varRow V c (ix2 (0 : Fin 1) (i 1)))
        (gRow V c (ix2 (0 : Fin 1) (i 1))) (betaRow V c (ix2 (0 : Fin 1) (i 1)))) 0

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x128 .f32) (x1 x2 x3 x4 : Vec Ideal S1x128 .f32) (p : Fin 5000) (q : Fin 128) :
    out25_5 x0 x1 x2 x3 x4 (ix2 p q)
      = max (StageSpec.norm (x0 (ix2 p q)) (x1 (ix2 (0 : Fin 1) q)) (x2 (ix2 (0 : Fin 1) q)) (x3 (ix2 (0 : Fin 1) q)) (x4 (ix2 (0 : Fin 1) q))) 0 := by
  unfold out25_5
  rw [View.canon_unit_zero hz]
  simp only [View.ld_unit_zero (S := S1x128) hz, View.ld_unit_zero (S := S5000x128) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg25.N,
    win25_0.index t (0 : Fin 2) = t.val ∧ win25_0.index t (1 : Fin 2) = 0
    ∧ win25_1.index t (0 : Fin 2) = 0 ∧ win25_1.index t (1 : Fin 2) = 0
    ∧ win25_2.index t (0 : Fin 2) = 0 ∧ win25_2.index t (1 : Fin 2) = 0
    ∧ win25_3.index t (0 : Fin 2) = 0 ∧ win25_3.index t (1 : Fin 2) = 0
    ∧ win25_4.index t (0 : Fin 2) = 0 ∧ win25_4.index t (1 : Fin 2) = 0
    ∧ win25_5.index t (0 : Fin 2) = t.val ∧ win25_5.index t (1 : Fin 2) = 0 :=
  (by decide +kernel : ∀ t : Fin grid25.N, _)

/-- Row `p`, column `q` of the output's block at point `t` is row 5000·t + p, column q of the array: a block's coordinate
    is its index times its extent plus the coordinate inside it. -/
theorem emb_out (t : Fin cfg25.N) (p : Fin 5000) (q : Fin 128) (h : t.val * 5000 + p.val < 100000) :
    ((cfg25.win 5).blk t).view.emb (ix2 p q) = (ix2 ⟨t.val * 5000 + p.val, h⟩ q : S100000x128.Idx) := by
  obtain ⟨-, -, -, -, -, -, -, -, -, -, e50, e51⟩ := idx_facts t
  funext a; apply Fin.ext
  match a with
  | ⟨0, _⟩ => show win25_5.index t (0 : Fin 2) * 5000 + 1 * p.val = t.val * 5000 + p.val; omega
  | ⟨1, _⟩ => show win25_5.index t (1 : Fin 2) * 128 + 1 * q.val = q.val; omega

/-- The tall input's block at point `t`, read at (p, q), is the array at row 5000·t + p, column q: the same rows the
    output's block has there. -/
theorem y_apply (c : Dev nD) (t : Fin cfg25.N) (p : Fin 5000) (q : Fin 128) (h : t.val * 5000 + p.val < 100000) :
    (iblk25 V c 0 t : Vec Ideal S5000x128 .f32) (ix2 p q) = yArr V c (ix2 ⟨t.val * 5000 + p.val, h⟩ q) := by
  obtain ⟨e00, e01, -⟩ := idx_facts t
  unfold iblk25
  rw [View.read_apply]
  show yArr V c (((cfg25.win 0).blk t).view.emb (ix2 p q)) = _
  refine congrArg (yArr V c) ?_
  funext a; apply Fin.ext
  match a with
  | ⟨0, _⟩ => show win25_0.index t (0 : Fin 2) * 5000 + 1 * p.val = t.val * 5000 + p.val; omega
  | ⟨1, _⟩ => show win25_0.index t (1 : Fin 2) * 128 + 1 * q.val = q.val; omega

/-- The mean row's block, at every point, is the row. -/
theorem mean_apply (c : Dev nD) (t : Fin cfg25.N) (q : Fin 128) :
    (iblk25 V c 1 t : Vec Ideal S1x128 .f32) (ix2 (0 : Fin 1) q) = meanRow V c (ix2 (0 : Fin 1) q) := by
  obtain ⟨-, -, e10, e11, -⟩ := idx_facts t
  unfold iblk25
  rw [View.read_apply]
  show meanRow V c (((cfg25.win 1).blk t).view.emb (ix2 (0 : Fin 1) q)) = _
  refine congrArg (meanRow V c) ?_
  funext a; apply Fin.ext
  match a with
  | ⟨0, _⟩ => show win25_1.index t (0 : Fin 2) * 1 + 1 * 0 = 0; omega
  | ⟨1, _⟩ => show win25_1.index t (1 : Fin 2) * 128 + 1 * q.val = q.val; omega

/-- The variance row's block, at every point, is the row. -/
theorem var_apply (c : Dev nD) (t : Fin cfg25.N) (q : Fin 128) :
    (iblk25 V c 2 t : Vec Ideal S1x128 .f32) (ix2 (0 : Fin 1) q) = varRow V c (ix2 (0 : Fin 1) q) := by
  obtain ⟨-, -, -, -, e20, e21, -⟩ := idx_facts t
  unfold iblk25
  rw [View.read_apply]
  show varRow V c (((cfg25.win 2).blk t).view.emb (ix2 (0 : Fin 1) q)) = _
  refine congrArg (varRow V c) ?_
  funext a; apply Fin.ext
  match a with
  | ⟨0, _⟩ => show win25_2.index t (0 : Fin 2) * 1 + 1 * 0 = 0; omega
  | ⟨1, _⟩ => show win25_2.index t (1 : Fin 2) * 128 + 1 * q.val = q.val; omega

/-- The scale row's block, at every point, is the row. -/
theorem g_apply (c : Dev nD) (t : Fin cfg25.N) (q : Fin 128) :
    (iblk25 V c 3 t : Vec Ideal S1x128 .f32) (ix2 (0 : Fin 1) q) = gRow V c (ix2 (0 : Fin 1) q) := by
  obtain ⟨-, -, -, -, -, -, e30, e31, -⟩ := idx_facts t
  unfold iblk25
  rw [View.read_apply]
  show gRow V c (((cfg25.win 3).blk t).view.emb (ix2 (0 : Fin 1) q)) = _
  refine congrArg (gRow V c) ?_
  funext a; apply Fin.ext
  match a with
  | ⟨0, _⟩ => show win25_3.index t (0 : Fin 2) * 1 + 1 * 0 = 0; omega
  | ⟨1, _⟩ => show win25_3.index t (1 : Fin 2) * 128 + 1 * q.val = q.val; omega

/-- The shift row's block, at every point, is the row. -/
theorem beta_apply (c : Dev nD) (t : Fin cfg25.N) (q : Fin 128) :
    (iblk25 V c 4 t : Vec Ideal S1x128 .f32) (ix2 (0 : Fin 1) q) = betaRow V c (ix2 (0 : Fin 1) q) := by
  obtain ⟨-, -, -, -, -, -, -, -, e40, e41, -⟩ := idx_facts t
  unfold iblk25
  rw [View.read_apply]
  show betaRow V c (((cfg25.win 4).blk t).view.emb (ix2 (0 : Fin 1) q)) = _
  refine congrArg (betaRow V c) ?_
  funext a; apply Fin.ext
  match a with
  | ⟨0, _⟩ => show win25_4.index t (0 : Fin 2) * 1 + 1 * 0 = 0; omega
  | ⟨1, _⟩ => show win25_4.index t (1 : Fin 2) * 128 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg25.N) :
    (dat25 (F := Ideal) V c).flushed 5 t = ((cfg25.win 5).blk t).view.read (Elt Ideal) (result V c) := by
  show (cfg25.win 5).cut (grid25.coords t) ((dat25 V c).after 5 t) = _
  rw [after25_5]
  have ht : t.val < 20 := Nat.lt_of_lt_of_eq t.isLt N_25
  funext j
  obtain ⟨p, q, rfl⟩ : ∃ (p : Fin 5000) (q : Fin 128), j = ix2 p q := ⟨j 0, j 1, eq_ix2 j⟩
  have h : t.val * 5000 + p.val < 100000 := by have := p.isLt; omega
  show out25_5 (iblk25 V c 0 t) (iblk25 V c 1 t) (iblk25 V c 2 t) (iblk25 V c 3 t) (iblk25 V c 4 t) (ix2 p q)
      = result V c (((cfg25.win 5).blk t).view.emb (ix2 p q))
  refine (out_apply (iblk25 V c 0 t) (iblk25 V c 1 t) (iblk25 V c 2 t) (iblk25 V c 3 t) (iblk25 V c 4 t) p q).trans ?_
  refine Eq.trans ?_ (congrArg (result V c) (emb_out t p q h)).symm
  refine Eq.trans ?_ (show max (StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))) 0
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg25.N) (i : S100000x128.Idx) :
    i ∈ ((cfg25.win 5).blk t).view.set ↔ ∀ a : Fin 2, win25_5.index t a * S5000x128.size a ≤ (i a).val
      ∧ (i a).val < win25_5.index t a * S5000x128.size a + S5000x128.size a := by
  show i ∈ ((View.whole main_v316).slice (win25_5.rect t)).set ↔ _
  rw [View.set_slice_whole, Rect.mem_set_unit]
  exact Iff.rfl

/-- The twenty blocks tile the array: row `r` is in the block of point `r / 5000`, and every point writes its block back. -/
theorem cover (i : S100000x128.Idx) :
    ∃ t : Fin cfg25.N, (cfg25.win 5).flush t = true ∧ i ∈ ((cfg25.win 5).blk t).view.set := by
  have hi0 : (i 0).val < 100000 := idx2_lt0 i
  have hi1 : (i 1).val < 128 := idx2_lt1 i
  obtain ⟨t, ht⟩ : ∃ t : Fin cfg25.N, t.val = (i 0).val / 5000 :=
    ⟨⟨(i 0).val / 5000, by rw [show cfg25.N = 20 from N_25]; omega⟩, rfl⟩
  obtain ⟨-, -, -, -, -, -, -, -, -, -, e50, e51⟩ := idx_facts t
  refine ⟨t, flush25_5 t, ?_⟩
  rw [mem_blk]
  intro a
  match a with
  | ⟨0, _⟩ =>
    show win25_5.index t (0 : Fin 2) * 5000 ≤ (i 0).val ∧ (i 0).val < win25_5.index t (0 : Fin 2) * 5000 + 5000
    omega
  | ⟨1, _⟩ =>
    show win25_5.index t (1 : Fin 2) * 128 ≤ (i 1).val ∧ (i 1).val < win25_5.index t (1 : Fin 2) * 128 + 128
    omega

/-- THE INTERFACE of this region: after its twenty points the output array is `result`. -/
theorem arrAt_out (c : Dev nD) : (dat25 (F := Ideal) V c).arrAt 5 cfg25.N = result V c := by
  exact (dat25 V c).arrAt_eq_of_cover 5 (result V c) (fun t _ => flushed_eq V c t) cover

end Cert.KernelIdeal.ValNorm25

end
-- ==== Proof.HostProj24.lean ====
/-
  The host operations before a block's projection. They cut the stacked projection weights into the three squares that
  meet the three hops' outputs, and lay the 128 zeros out as the bias row. Read here at any contents of the buffers
  before the stretch.
-/
import proofs.«414479_j7705171329025_1_alg».proof.Proof.Gen.KernelIdeal.Launch
import Idealize.ShloMosaic.Lib.StableHlo.Run

noncomputable section

namespace Cert.KernelIdeal.HostProj24

open Cert.KernelIdeal Cert.KernelIdeal.Gen
open Idealize.ShloMosaic Idealize.ShloMosaic.TcCoe Idealize.ShloMosaic.StableHlo

variable {F : FTy → Type} [FloatOps F]
variable (W : Valuation τ sig (Elt F))

/-- The square that meets the first hop's output: rows 0 to 127. -/
theorem read_w0 : (StableHlo.after hostOps24 W (Proc.devRef .tc main_v303) : (⟨S128x128, .f32⟩ : BufTy).Contents (Elt F))
    = extractStridedSlice S128x128 ![0, 0] (W (Proc.devRef .tc main_arg12)) slices_S384x128_S128x128_0_0 := by
  after_results <;> rfl

/-- The square that meets the second hop's output: rows 128 to 255. -/
theorem read_w1 : (StableHlo.after hostOps24 W (Proc.devRef .tc main_v304) : (⟨S128x128, .f32⟩ : BufTy).Contents (Elt F))
    = extractStridedSlice S128x128 ![128, 0] (W (Proc.devRef .tc main_arg12)) slices_S384x128_S128x128_128_0 := by
  after_results <;> rfl

/-- The square that meets the third hop's output: rows 256 to 383. -/
theorem read_w2 : (StableHlo.after hostOps24 W (Proc.devRef .tc main_v305) : (⟨S128x128, .f32⟩ : BufTy).Contents (Elt F))
    = extractStridedSlice S128x128 ![256, 0] (W (Proc.devRef .tc main_arg12)) slices_S384x128_S128x128_256_0 := by
  after_results <;> rfl

/-- The bias row: the zeros, laid out as a row. -/
theorem read_bias : (StableHlo.after hostOps24 W (Proc.devRef .tc main_v306) : (⟨S1x128, .f32⟩ : BufTy).Contents (Elt F))
    = shapeCast S1x128 (W (Proc.devRef .tc main_v11)) shapeCasts_S128_S1x128 := by
  after_results <;> rfl

/-- The first hop's output, which the projection stages, is not written. -/
theorem read_keep0 : StableHlo.after hostOps24 W (Proc.devRef .tc main_v244) = W (Proc.devRef .tc main_v244) := by
  refine StableHlo.after_of_forall_not_mem _ _ fun op h => ?_
  fin_cases h <;> simp only [unary_writes, reshape_writes, Finset.mem_singleton] <;>
    exact devRef_ne_of_ne (by decide)

/-- The second hop's output, which the projection stages, is not written. -/
theorem read_keep1 : StableHlo.after hostOps24 W (Proc.devRef .tc main_v273) = W (Proc.devRef .tc main_v273) := by
  refine StableHlo.after_of_forall_not_mem _ _ fun op h => ?_
  fin_cases h <;> simp only [unary_writes, reshape_writes, Finset.mem_singleton] <;>
    exact devRef_ne_of_ne (by decide)

/-- The third hop's output, which the projection stages, is not written. -/
theorem read_keep2 : StableHlo.after hostOps24 W (Proc.devRef .tc main_v302) = W (Proc.devRef .tc main_v302) := by
  refine StableHlo.after_of_forall_not_mem _ _ fun op h => ?_
  fin_cases h <;> simp only [unary_writes, reshape_writes, Finset.mem_singleton] <;>
    exact devRef_ne_of_ne (by decide)

/-- The references the stretch writes, in order. -/
abbrev written : List (Ref sig .tc) :=
  [main_v303, main_v304, main_v305, main_v306]

/-- Every operation of the stretch writes one of them. -/
theorem writes : (hostOps24 : List (HloOp τ sig (Elt F))).Forall fun op =>
    op.writes ⊆ (written.map (Proc.devRef (τ := τ) .tc)).toFinset := by
  simp only [List.Forall]
  repeat' apply And.intro
  all_goals
    simp only [unary_writes, reshape_writes, Finset.singleton_subset_iff, List.mem_toFinset]
    exact List.mem_map_of_mem (by decide)

/-- A reference the stretch does not write keeps its contents. -/
theorem keep {r : Ref sig .tc} (h : r ∉ written) : StableHlo.after hostOps24 W (Proc.devRef .tc r) = W (Proc.devRef .tc r) :=
  StableHlo.after_of_writes_sub hostOps24 W writes h

end Cert.KernelIdeal.HostProj24

end
-- ==== Proof.HostStats25.lean ====
/-
  The host operations between a linear stage and its normalisation. From the two carried rows the
  region leaves (the column sums and the column sums of squares) they form the mean (the sum over 100000), the mean
  of squares, and the variance as the mean of squares less the squared mean; and they lay the scale and the shift of
  the batch norm out as rows. Read here at any contents of the buffers before the stretch.
-/
import proofs.«414479_j7705171329025_1_alg».proof.Proof.Gen.KernelIdeal.Launch
import Idealize.ShloMosaic.Lib.StableHlo.Run

noncomputable section

namespace Cert.KernelIdeal.HostStats25

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x128, .f32⟩ : BufTy).Contents (Elt F) := broadcastInDim S1x128 ![] bcast_S_S1x128 (constant S_ .f32 0x47C35000#32)

/-- The mean row: the column sums over the divisor. -/
theorem read_mean : (StableHlo.after hostOps25 W (Proc.devRef .tc main_v309) : (⟨S1x128, .f32⟩ : BufTy).Contents (Elt F))
    = Host.divf (W (Proc.devRef .tc main_v307_1)) nRow := by
  after_results; rfl

/-- The variance row: the mean of squares less the squared mean. -/
theorem read_var : (StableHlo.after hostOps25 W (Proc.devRef .tc main_v313) : (⟨S1x128, .f32⟩ : BufTy).Contents (Elt F))
    = subf (Host.divf (W (Proc.devRef .tc main_v307_2)) nRow)
        (mulf (Host.divf (W (Proc.devRef .tc main_v307_1)) nRow) (Host.divf (W (Proc.devRef .tc main_v307_1)) nRow)) := by
  after_results; rfl

/-- The scale, laid out as a row: the same entries in row-major order. -/
theorem read_g : (StableHlo.after hostOps25 W (Proc.devRef .tc main_v314) : (⟨S1x128, .f32⟩ : BufTy).Contents (Elt F))
    = shapeCast S1x128 (W (Proc.devRef .tc main_arg13)) shapeCasts_S128_S1x128 := by
  after_results; rfl

/-- The shift, laid out as a row. -/
theorem read_beta : (StableHlo.after hostOps25 W (Proc.devRef .tc main_v315) : (⟨S1x128, .f32⟩ : BufTy).Contents (Elt F))
    = shapeCast S1x128 (W (Proc.devRef .tc main_arg14)) shapeCasts_S128_S1x128 := by
  after_results; rfl

/-- A buffer the stretch does not write keeps its contents: the linear stage's output array. -/
theorem read_y : StableHlo.after hostOps25 W (Proc.devRef .tc main_v307_0) = W (Proc.devRef .tc main_v307_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats25

end
-- ==== Proof.KernelChain12.lean ====
/-
  Stage 12 of the chain, the kernel's half: the projection that closes a block of three hops. The array the
  normalisation's region leaves is, entry by entry, the batch normalisation of the projection's output, clipped at zero.
  The projection takes the block's three hop outputs, each as the region that made it left it, against the three 128 by
  128 squares of the stacked projection weights, adds the three products in order and then a bias row that is zero. The
  projection's region leaves the projection's output with its column sums and column sums of squares; the host
  operations between the two regions divide those by the row count and form the variance as the mean of squares less
  the squared mean, and lay the scale and the shift out as rows; the normalisation's region normalises with those rows.
  Here the steps are joined, and everything but the three hop outputs is named over the launch memory.
-/
import proofs.«414479_j7705171329025_1_alg».proof.Proof.ValTriple24
import proofs.«414479_j7705171329025_1_alg».proof.Proof.ValNormRelu25
import proofs.«414479_j7705171329025_1_alg».proof.Proof.HostHop2
import proofs.«414479_j7705171329025_1_alg».proof.Proof.HostProj24
import proofs.«414479_j7705171329025_1_alg».proof.Proof.HostStats25
import proofs.«414479_j7705171329025_1_alg».proof.Proof.StageReal
import proofs.«414479_j7705171329025_1_alg».proof.Proof.FrameKI.Run
import proofs.«414479_j7705171329025_1_alg».proof.Proof.Carry1
import proofs.«414479_j7705171329025_1_alg».proof.Proof.Carry7
import proofs.«414479_j7705171329025_1_alg».proof.Proof.Carry9
import Idealize.ShloMosaic.Lib.IdealHost
import Idealize.ShloMosaic.Lib.ValueLayout

set_option maxRecDepth 16384

noncomputable section

namespace Cert.KernelChain12

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## The arrays the stage is stated over, each at its literal type -/

/-- The first hop's output, as the region that made it leaves it. -/
abbrev h1 (c : Dev nD) : Vec Ideal S100000x128 .f32 := W40 (F := Ideal) m ρ c (Proc.devRef .tc main_v244)
/-- The second hop's output, as the region that made it leaves it. -/
abbrev h2 (c : Dev nD) : Vec Ideal S100000x128 .f32 := W44 (F := Ideal) m ρ c (Proc.devRef .tc main_v273)
/-- The third hop's output, as the region that made it leaves it. -/
abbrev h3 (c : Dev nD) : Vec Ideal S100000x128 .f32 := W48 (F := Ideal) m ρ c (Proc.devRef .tc main_v302)
/-- The stacked projection weights, as given: 384 rows of 128. -/
abbrev Wstack (c : Dev nD) : Vec Ideal S384x128 .f32 := m ((c : Thread nD τ).loc main_arg12)
/-- The square that meets the first hop's output: rows 0 to 127. -/
abbrev w0 (c : Dev nD) : Vec Ideal S128x128 .f32 := extractStridedSlice S128x128 ![0, 0] (Wstack m c) slices_S384x128_S128x128_0_0
/-- The square that meets the second hop's output: rows 128 to 255. -/
abbrev w1 (c : Dev nD) : Vec Ideal S128x128 .f32 := extractStridedSlice S128x128 ![128, 0] (Wstack m c) slices_S384x128_S128x128_128_0
/-- The square that meets the third hop's output: rows 256 to 383. -/
abbrev w2 (c : Dev nD) : Vec Ideal S128x128 .f32 := extractStridedSlice S128x128 ![256, 0] (Wstack m c) slices_S384x128_S128x128_256_0
/-- The 128 zeros. -/
abbrev zeros128 : Vec Ideal S128 .f32 := broadcastInDim S128 ![] bcast_S_S128 (constant (F := Ideal) S_ .f32 0x00000000#32)
/-- The bias row: the zeros laid out as a row. -/
abbrev zeroRow : Vec Ideal S1x128 .f32 := shapeCast S1x128 zeros128 shapeCasts_S128_S1x128
/-- The batch norm's scale, as given: 128 entries. -/
abbrev g (c : Dev nD) : Vec Ideal S128 .f32 := m ((c : Thread nD τ).loc main_arg13)
/-- The batch norm's shift, as given: 128 entries. -/
abbrev β (c : Dev nD) : Vec Ideal S128 .f32 := m ((c : Thread nD τ).loc main_arg14)

/-- The projection's output, entry by entry. -/
def y (c : Dev nD) (r : Fin 100000) (q : Fin 128) : EReal :=
  StageSpec.lin3 (h1 m ρ c) (h2 m ρ c) (h3 m ρ c) (w0 m c) (w1 m c) (w2 m c) zeroRow r q

/-- The row count, as the word the host operations divide by. -/
abbrev nRows : EReal := Ideal.ofBits .f32 0x47C35000#32

/-! ## The projection's region's seven arrays -/

/-- Nothing between the exit of the region that made it and the projection's region writes the first hop's output. -/
theorem x0_eq (c : Dev nD) : ValTriple24.x0Arr (V49 m ρ) c = h1 m ρ c :=
  (Carry.main_v244_40_49 m ρ c).trans rfl

/-- Nothing between the exit of the region that made it and the projection's region writes the second hop's output. -/
theorem x1_eq (c : Dev nD) : ValTriple24.x1Arr (V49 m ρ) c = h2 m ρ c :=
  (Carry.main_v273_44_49 m ρ c).trans rfl

/-- The host operations before the projection's region do not write the third hop's output. -/
theorem x2_eq (c : Dev nD) : ValTriple24.x2Arr (V49 m ρ) c = h3 m ρ c :=
  (Carry.main_v302_48_49 m ρ c).trans rfl

/-- The stacked weights are still the launch memory's at the exit of the third hop's last region. -/
theorem arg12_eq (c : Dev nD) : (W48 m ρ c (Proc.devRef .tc main_arg12) : Vec Ideal S384x128 .f32) = Wstack m c :=
  (Carry.main_arg12_0_48 m ρ c).trans rfl

/-- The first square of the weights, as the host operations before the projection's region cut it. -/
theorem w0_eq (c : Dev nD) : ValTriple24.w0Arr (V49 m ρ) c = w0 m c := by
  refine (HostProj24.read_w0 (W48 m ρ c)).trans ?_
  rw [arg12_eq m ρ c]

/-- The second square. -/
theorem w1_eq (c : Dev nD) : ValTriple24.w1Arr (V49 m ρ) c = w1 m c := by
  refine (HostProj24.read_w1 (W48 m ρ c)).trans ?_
  rw [arg12_eq m ρ c]

/-- The third square. -/
theorem w2_eq (c : Dev nD) : ValTriple24.w2Arr (V49 m ρ) c = w2 m c := by
  refine (HostProj24.read_w2 (W48 m ρ c)).trans ?_
  rw [arg12_eq m ρ c]

/-- The 128 zeros, written by the host operations before the first hop's first region of the first block, are written
    by nothing between there and the exit of this block's third hop's last region: no region in between has them as an
    array, and no host operation in between writes them. So there they are still the 128 zeros. -/
theorem v11_eq (c : Dev nD) : (W48 m ρ c (Proc.devRef .tc main_v11) : Vec Ideal S128 .f32) = zeros128 :=
  (Carry.main_v11_5_48 m ρ c).trans (HostHop2.read_zeros (W4 m ρ c))

/-- The bias row the projection's region takes is the zeros laid out as a row. -/
theorem b_eq (c : Dev nD) : ValTriple24.bRow (V49 m ρ) c = zeroRow := by
  refine (HostProj24.read_bias (W48 m ρ c)).trans ?_
  rw [v11_eq m ρ c]

/-- So the region's projection is the one stated over the three hop outputs and the launch memory. -/
theorem y_eq (c : Dev nD) : ValTriple24.y (V49 m ρ) c = y m ρ c := by
  funext r q
  unfold ValTriple24.y y
  rw [x0_eq m ρ c, x1_eq m ρ c, x2_eq m ρ c, w0_eq m ρ c, w1_eq m ρ c, w2_eq m ρ c, b_eq m ρ c]

/-! ## The normalisation's region's five arrays, from the projection's region's three -/

/-- The column sums, as the projection's region leaves them. -/
theorem sum_eq (c : Dev nD) :
    (W50 m ρ c (Proc.devRef .tc main_v307_1) : Vec Ideal S1x128 .f32) = ValTriple24.resultSum (V49 m ρ) c :=
  (W50_arr m ρ c 8).trans (ValTriple24.arrAt_sum (V49 m ρ) c)

/-- The column sums of squares, as the projection's region leaves them. -/
theorem sumsq_eq (c : Dev nD) :
    (W50 m ρ c (Proc.devRef .tc main_v307_2) : Vec Ideal S1x128 .f32) = ValTriple24.resultSumSq (V49 m ρ) c :=
  (W50_arr m ρ c 9).trans (ValTriple24.arrAt_sumsq (V49 m ρ) c)

/-- The scale is still the launch memory's after the projection's region. -/
theorem g_eq (c : Dev nD) : (W50 m ρ c (Proc.devRef .tc main_arg13) : Vec Ideal S128 .f32) = g m c :=
  (Carry.main_arg13_0_50 m ρ c).trans rfl

/-- And so is the shift. -/
theorem beta_eq (c : Dev nD) : (W50 m ρ c (Proc.devRef .tc main_arg14) : Vec Ideal S128 .f32) = β m c :=
  (Carry.main_arg14_0_50 m ρ c).trans rfl

/-- The tall array the normalisation's region takes is the projection's region's output: the host operations between
    the two do not write it. -/
theorem yArr_eq (c : Dev nD) : ValNorm25.yArr (V51 m ρ) c = ValTriple24.resultY (V49 m ρ) c :=
  ((HostStats25.read_y (W50 m ρ c)).trans (W50_arr m ρ c 7)).trans (ValTriple24.arrAt_y (V49 m ρ) c)

/-- The mean row: the column sums over the row count. -/
theorem meanRow_eq (c : Dev nD) :
    ValNorm25.meanRow (V51 m ρ) c = Host.divf (F := Ideal) (φ := .f32) (ValTriple24.resultSum (V49 m ρ) c) (HostStats25.nRow (F := Ideal)) := by
  refine (HostStats25.read_mean (W50 m ρ c)).trans ?_
  rw [sum_eq m ρ c]

/-- The variance row: the mean of squares less the squared mean. -/
theorem varRow_eq (c : Dev nD) :
    ValNorm25.varRow (V51 m ρ) c
      = subf (F := Ideal) (φ := .f32) (Host.divf (F := Ideal) (φ := .f32) (ValTriple24.resultSumSq (V49 m ρ) c) (HostStats25.nRow (F := Ideal)))
          (mulf (F := Ideal) (φ := .f32) (Host.divf (F := Ideal) (φ := .f32) (ValTriple24.resultSum (V49 m ρ) c) (HostStats25.nRow (F := Ideal)))
            (Host.divf (F := Ideal) (φ := .f32) (ValTriple24.resultSum (V49 m ρ) c) (HostStats25.nRow (F := Ideal)))) := by
  refine (HostStats25.read_var (W50 m ρ c)).trans ?_
  rw [sum_eq m ρ c, sumsq_eq m ρ c]

/-- The scale row: the scale laid out as a row. -/
theorem gRow_eq (c : Dev nD) : ValNorm25.gRow (V51 m ρ) c = shapeCast S1x128 (g m c) shapeCasts_S128_S1x128 := by
  refine (HostStats25.read_g (W50 m ρ c)).trans ?_
  rw [g_eq m ρ c]

/-- The shift row: the shift laid out as a row. -/
theorem betaRow_eq (c : Dev nD) : ValNorm25.betaRow (V51 m ρ) c = shapeCast S1x128 (β m c) shapeCasts_S128_S1x128 := by
  refine (HostStats25.read_beta (W50 m ρ c)).trans ?_
  rw [beta_eq m ρ c]

/-! ## The five arrays read at an entry -/

/-- The divisor row holds the row count in every column. -/
theorem nRow_apply (j : S1x128.Idx) : HostStats25.nRow (F := Ideal) j = nRows := by
  unfold HostStats25.nRow
  exact (broadcastInDim_scalar_apply bcast_S_S1x128 (constant (F := Ideal) S_ .f32 0x47C35000#32) j).trans rfl

/-- The tall array at row r, column q is the projection's entry. -/
theorem yArr_apply (c : Dev nD) (r : Fin 100000) (q : Fin 128) :
    ValNorm25.yArr (V51 m ρ) c (ix2 r q) = ValTriple24.y (V49 m ρ) c r q :=
  (congrFun (yArr_eq m ρ c) (ix2 r q)).trans rfl

/-- The mean row at column q is the column mean of the projection's output. -/
theorem mean_apply (c : Dev nD) (q : Fin 128) :
    ValNorm25.meanRow (V51 m ρ) c (ix2 (0 : Fin 1) q) = StageReal.colMean (ValTriple24.y (V49 m ρ) c) nRows q := by
  refine (congrFun (meanRow_eq m ρ c) (ix2 (0 : Fin 1) q)).trans ?_
  show Ideal.div (ValTriple24.resultSum (V49 m ρ) c (ix2 (0 : Fin 1) q)) (HostStats25.nRow (F := Ideal) (ix2 (0 : Fin 1) q)) = _
  rw [nRow_apply]
  rfl

/-- The variance row at column q is the mean of squares less the squared mean of that column. -/
theorem var_apply (c : Dev nD) (q : Fin 128) :
    ValNorm25.varRow (V51 m ρ) c (ix2 (0 : Fin 1) q) = StageReal.varSumSq (ValTriple24.y (V49 m ρ) c) nRows q := by
  refine (congrFun (varRow_eq m ρ c) (ix2 (0 : Fin 1) q)).trans ?_
  show Ideal.div (ValTriple24.resultSumSq (V49 m ρ) c (ix2 (0 : Fin 1) q)) (HostStats25.nRow (F := Ideal) (ix2 (0 : Fin 1) q))
      - Ideal.div (ValTriple24.resultSum (V49 m ρ) c (ix2 (0 : Fin 1) q)) (HostStats25.nRow (F := Ideal) (ix2 (0 : Fin 1) q))
        * Ideal.div (ValTriple24.resultSum (V49 m ρ) c (ix2 (0 : Fin 1) q)) (HostStats25.nRow (F := Ideal) (ix2 (0 : Fin 1) q)) = _
  rw [nRow_apply]
  rfl

/-- The scale row at column q is the scale's entry q. -/
theorem g_apply (c : Dev nD) (q : Fin 128) : ValNorm25.gRow (V51 m ρ) c (ix2 (0 : Fin 1) q) = g m c (ix1 q) :=
  (congrFun (gRow_eq m ρ c) (ix2 (0 : Fin 1) q)).trans
    (shapeCast_a_1a_apply (g m c) shapeCasts_S128_S1x128 (0 : Fin 1) q)

/-- The shift row at column q is the shift's entry q. -/
theorem beta_apply (c : Dev nD) (q : Fin 128) : ValNorm25.betaRow (V51 m ρ) c (ix2 (0 : Fin 1) q) = β m c (ix1 q) :=
  (congrFun (betaRow_eq m ρ c) (ix2 (0 : Fin 1) q)).trans
    (shapeCast_a_1a_apply (β m c) shapeCasts_S128_S1x128 (0 : Fin 1) q)

/-! ## The projection stage's output -/

/-- What the normalisation's region leaves in its output array is what it computes from its five arrays. -/
theorem out_eq (c : Dev nD) :
    (W52 (F := Ideal) m ρ c (Proc.devRef .tc main_v316) : Vec Ideal S100000x128 .f32) = ValNorm25.result (V51 m ρ) c :=
  (W52_arr m ρ c 5).trans (ValNorm25.arrAt_out (V51 m ρ) c)

/-- THE KERNEL'S PROJECTION OUTPUT, entry by entry: the batch normalisation of the projection of the three hop outputs
    with the statistics in the kernel's form, clipped at zero. -/
theorem kernel_out_apply (c : Dev nD) (r : Fin 100000) (q : Fin 128) :
    (W52 (F := Ideal) m ρ c (Proc.devRef .tc main_v316) : Vec Ideal S100000x128 .f32) (ix2 r q)
      = max (StageSpec.norm (y m ρ c r q) (StageReal.colMean (y m ρ c) nRows q) (StageReal.varSumSq (y m ρ c) nRows q)
          (g m c (ix1 q)) (β m c (ix1 q))) 0 := by
  refine (congrFun (out_eq m ρ c) (ix2 r q)).trans ?_
  show max (StageSpec.norm (ValNorm25.yArr (V51 m ρ) c (ix2 r q)) (ValNorm25.meanRow (V51 m ρ) c (ix2 (0 : Fin 1) q))
      (ValNorm25.varRow (V51 m ρ) c (ix2 (0 : Fin 1) q)) (ValNorm25.gRow (V51 m ρ) c (ix2 (0 : Fin 1) q))
      (ValNorm25.betaRow (V51 m ρ) c (ix2 (0 : Fin 1) q))) 0 = _
  rw [yArr_apply m ρ c r q, mean_apply m ρ c q, var_apply m ρ c q, g_apply m ρ c q, beta_apply m ρ c q, y_eq m ρ c]

end Cert.KernelChain12

end
-- ==== Proof.RefChain12.lean ====
/- Stage 12 of the reference, a block's projection, at an entry: W is the contents before windows 8 and 9. The three hops'
   outputs x0, x1, x2 are laid side by side and sent through the 384 × 128 projection (no bias); the result is
   normalised by its own column statistics and clipped at zero. At row r and column q the clipped array is the greater
   of zero and the normalisation of the product's entry, which is the sum over the 384 inner positions, and that sum
   is the three hops' products with the three squares cut out of the projection, added in a row. -/
import proofs.«414479_j7705171329025_1_alg».proof.Proof.RefStage8
import proofs.«414479_j7705171329025_1_alg».proof.Proof.RefStage9
import proofs.«414479_j7705171329025_1_alg».proof.Proof.RefKinds

noncomputable section

namespace Cert.ReferenceIdeal.RefChain12

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The block's hop 0 output. -/
abbrev x0 : (⟨S100000x128, .f32⟩ : BufTy).Contents (Elt Ideal) :=
  (W (Proc.devRef .tc main_v363))

/-- The block's hop 1 output. -/
abbrev x1 : (⟨S100000x128, .f32⟩ : BufTy).Contents (Elt Ideal) :=
  (W (Proc.devRef .tc main_v405))

/-- The block's hop 2 output. -/
abbrev x2 : (⟨S100000x128, .f32⟩ : BufTy).Contents (Elt Ideal) :=
  (RefStage8.t_v447 W)

/-- The three side by side. -/
abbrev cat : (⟨S100000x384, .f32⟩ : BufTy).Contents (Elt Ideal) :=
  concatenate S100000x384 1 [⟨S100000x128, x0 W⟩, ⟨S100000x128, x1 W⟩, ⟨S100000x128, x2 W⟩] concatenates_S100000x128_S100000x128_S100000x128_S100000x384_d1

/-- The projection. -/
abbrev K : (⟨S384x128, .f32⟩ : BufTy).Contents (Elt Ideal) := W (Proc.devRef .tc main_arg12)

/-- The scale and the shift. -/
abbrev g : (⟨S128, .f32⟩ : BufTy).Contents (Elt Ideal) := (W (Proc.devRef .tc main_arg13))
abbrev β : (⟨S128, .f32⟩ : BufTy).Contents (Elt Ideal) := (W (Proc.devRef .tc main_arg14))

/-- The projection's output. -/
abbrev lin : (⟨S100000x128, .f32⟩ : BufTy).Contents (Elt Ideal) :=
  Host.dotGeneral (F := Ideal) (φ₁ := .f32) (φ₂ := .f32) dot_S100000x384_S384x128_S100000x128_1_0_0_1_n_n none (cat W) (K W)

/-- Its entry: the sum over the 384 inner positions. -/
abbrev y (r : Fin 100000) (q : Fin 128) : EReal := ∑ j : Fin 384, cat W (ix2 r j) * K W (ix2 j q)

set_option maxRecDepth 8192 in
/-- After the stage's last window main_v469 holds the clipped normalised projection. -/
theorem out_eq : (after (ops9 (F := Ideal)) (after (ops8 (F := Ideal)) W) (Proc.devRef .tc main_v469) : (⟨S100000x128, .f32⟩ : BufTy).Contents (Elt Ideal))
    = RefTerms.relu (RefTerms.affine (RefTerms.standardise (lin W) (RefTerms.colMean (lin W)) (RefTerms.colVar (lin W) (constantI S_ 32 0#32 : (⟨S_, .i32⟩ : BufTy).Contents (Elt Ideal)))) (g W) (β W)) := by
  rw [RefStage9.read_v469]
  simp only [RefStage9.t_v469]
  rw [RefStage8.keep W (r := main_arg13) (by decide), RefStage8.keep W (r := main_arg14) (by decide), RefStage8.read_v456 W, RefStage8.read_v460 W] <;> rfl

/-- STAGE 12 AT AN ENTRY. -/
theorem out_apply (r : Fin 100000) (q : Fin 128) : (after (ops9 (F := Ideal)) (after (ops8 (F := Ideal)) W) (Proc.devRef .tc main_v469) : (⟨S100000x128, .f32⟩ : BufTy).Contents (Elt Ideal)) (ix2 r q)
    = max (StageSpec.norm (y W r q) (StageReal.colMean (y W) RefKinds.N q) (StageReal.varDev (y W) RefKinds.N q) (g W (ix1 q)) (β W (ix1 q))) 0 := by
  rw [out_eq]
  exact RefKinds.relu_norm_of_entries (lin W) (y W) (fun r q => RefIndex.dot384_apply _ _ r q) _ rfl (g W) (β W) r q

/-! ## The same entry as three products added in a row -/

/-- The three squares cut out of the projection, and the row of zeros. -/
theorem slices_0 : S384x128.Slices ![0, 0] S128x128 := by decide
theorem slices_128 : S384x128.Slices ![128, 0] S128x128 := by decide
theorem slices_256 : S384x128.Slices ![256, 0] S128x128 := by decide
abbrev w0 : (⟨S128x128, .f32⟩ : BufTy).Contents (Elt Ideal) := extractStridedSlice S128x128 ![0, 0] (K W) slices_0
abbrev w1 : (⟨S128x128, .f32⟩ : BufTy).Contents (Elt Ideal) := extractStridedSlice S128x128 ![128, 0] (K W) slices_128
abbrev w2 : (⟨S128x128, .f32⟩ : BufTy).Contents (Elt Ideal) := extractStridedSlice S128x128 ![256, 0] (K W) slices_256
abbrev zeroRow : (⟨S1x128, .f32⟩ : BufTy).Contents (Elt Ideal) :=
  shapeCast S1x128 (broadcastInDim S128 ![] bcast_S_S128 (constant (F := Ideal) S_ .f32 0x00000000#32)) RefKinds.shapeCasts_S128_S1x128

/-- The row of zeros reads zero. -/
theorem zeroRow_apply (q : Fin 128) : zeroRow (ix2 (0 : Fin 1) q) = 0 := by
  show shapeCast S1x128 (broadcastInDim S128 ![] bcast_S_S128 (constant (F := Ideal) S_ .f32 0x00000000#32)) RefKinds.shapeCasts_S128_S1x128 (ix2 (0 : Fin 1) q) = 0
  rw [shapeCast_a_1a_apply, broadcastInDim_scalar_apply]
  exact Ideal.ofBits_zero_f32

/-- The product over the joined inner axis is the three hops' products with the three squares, added in that order,
    plus the zero row's entry. -/
theorem y_eq_lin3 (r : Fin 100000) (q : Fin 128) :
    y W r q = StageSpec.lin3 (x0 W) (x1 W) (x2 W) (w0 W) (w1 W) (w2 W) zeroRow r q :=
  (StageReal.lin3_eq_sum_of_bias_zero (k := 128) (m := 384) rfl (x0 W) (x1 W) (x2 W) (w0 W) (w1 W) (w2 W) (cat W) (K W)
    (fun r j => RefConcat.cat_fst _ _ _ _ r j _) (fun r j => RefConcat.cat_snd _ _ _ _ r j _) (fun r j => RefConcat.cat_trd _ _ _ _ r j _)
    (fun j q => (RefConcat.rows_cut_zero _ _ j q _).symm) (fun j q => (RefConcat.rows_cut 128 _ _ j q _).symm)
    (fun j q => (RefConcat.rows_cut_256 _ _ j q _).symm) zeroRow r q (zeroRow_apply q)).symm

end Cert.ReferenceIdeal.RefChain12

end
-- ==== Proof.Chain12.lean ====
/-
  Stage 12 of the chain: the projection that closes a block of three hops. Both programs send the block's three hop
  outputs through the three 128 by 128 squares of the stacked projection weights and add the three products (the
  reference as one product over the three outputs laid side by side against the whole stack, the kernel square by
  square with a zero bias row), normalise the result by its batch statistics, and clip at zero. The three hop outputs
  are equal in the two programs and real by the three earlier stages' invariants, and the weights, the scale and the
  shift are the launch memory's on both sides; so the two projections are one array of real numbers, the two forms of
  its variance are one number, and the two clipped normalised arrays are equal, entry by entry, and real.
-/
import proofs.«414479_j7705171329025_1_alg».proof.Proof.KernelChain12
import proofs.«414479_j7705171329025_1_alg».proof.Proof.RefChain12
import proofs.«414479_j7705171329025_1_alg».proof.Proof.RefStage0
import proofs.«414479_j7705171329025_1_alg».proof.Proof.RefStage1
import proofs.«414479_j7705171329025_1_alg».proof.Proof.RefStage2
import proofs.«414479_j7705171329025_1_alg».proof.Proof.RefStage3
import proofs.«414479_j7705171329025_1_alg».proof.Proof.RefStage4
import proofs.«414479_j7705171329025_1_alg».proof.Proof.RefStage5
import proofs.«414479_j7705171329025_1_alg».proof.Proof.RefStage6
import proofs.«414479_j7705171329025_1_alg».proof.Proof.RefStage7
import proofs.«414479_j7705171329025_1_alg».proof.Proof.RefStage8
import proofs.«414479_j7705171329025_1_alg».proof.Proof.ChainDefs
import proofs.«414479_j7705171329025_1_alg».proof.Proof.Chain0
import proofs.«414479_j7705171329025_1_alg».proof.Proof.StageReal
import proofs.«414479_j7705171329025_1_alg».proof.Proof.SliceReal
import proofs.«414479_j7705171329025_1_alg».proof.Proof.PreReal

noncomputable section

namespace Cert.Chain12

open Cert.RealSpec (IsReal)
open Cert.ChainDefs
open Idealize.ShloMosaic Idealize.ShloMosaic.TcCoe Idealize.ShloMosaic.StableHlo Idealize.ShloMosaic.ValueIdx

variable [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-! ## The parameters: the launch memory's on both sides -/

/-- The reference's stacked projection weights, read before the stage's two lists of operations, are the kernel's: the
    lists of operations before do not write them, and the two launch memories agree on them. -/
theorem K_eq (hag : Cert.Chain0.Agree m m') (c : Dev Cert.KernelIdeal.nD) :
    Cert.ReferenceIdeal.RefChain12.K (U8 m' c) = Cert.KernelChain12.Wstack m c :=
  ((Cert.ReferenceIdeal.RefStage7.keep (U7 m' c) (r := Cert.ReferenceIdeal.main_arg12) (by decide)).trans
    ((Cert.ReferenceIdeal.RefStage6.keep (U6 m' c) (r := Cert.ReferenceIdeal.main_arg12) (by decide)).trans
    ((Cert.ReferenceIdeal.RefStage5.keep (U5 m' c) (r := Cert.ReferenceIdeal.main_arg12) (by decide)).trans
    ((Cert.ReferenceIdeal.RefStage4.keep (U4 m' c) (r := Cert.ReferenceIdeal.main_arg12) (by decide)).trans
    ((Cert.ReferenceIdeal.RefStage3.keep (U3 m' c) (r := Cert.ReferenceIdeal.main_arg12) (by decide)).trans
    ((Cert.ReferenceIdeal.RefStage2.keep (U2 m' c) (r := Cert.ReferenceIdeal.main_arg12) (by decide)).trans
    ((Cert.ReferenceIdeal.RefStage1.keep (U1 m' c) (r := Cert.ReferenceIdeal.main_arg12) (by decide)).trans
    (Cert.ReferenceIdeal.RefStage0.keep (U0 m' c) (r := Cert.ReferenceIdeal.main_arg12) (by decide))))))))).trans (hag.arg12 c)

/-- The scale likewise. -/
theorem g_eq (hag : Cert.Chain0.Agree m m') (c : Dev Cert.KernelIdeal.nD) :
    Cert.ReferenceIdeal.RefChain12.g (U8 m' c) = Cert.KernelChain12.g m c :=
  ((Cert.ReferenceIdeal.RefStage7.keep (U7 m' c) (r := Cert.ReferenceIdeal.main_arg13) (by decide)).trans
    ((Cert.ReferenceIdeal.RefStage6.keep (U6 m' c) (r := Cert.ReferenceIdeal.main_arg13) (by decide)).trans
    ((Cert.ReferenceIdeal.RefStage5.keep (U5 m' c) (r := Cert.ReferenceIdeal.main_arg13) (by decide)).trans
    ((Cert.ReferenceIdeal.RefStage4.keep (U4 m' c) (r := Cert.ReferenceIdeal.main_arg13) (by decide)).trans
    ((Cert.ReferenceIdeal.RefStage3.keep (U3 m' c) (r := Cert.ReferenceIdeal.main_arg13) (by decide)).trans
    ((Cert.ReferenceIdeal.RefStage2.keep (U2 m' c) (r := Cert.ReferenceIdeal.main_arg13) (by decide)).trans
    ((Cert.ReferenceIdeal.RefStage1.keep (U1 m' c) (r := Cert.ReferenceIdeal.main_arg13) (by decide)).trans
    (Cert.ReferenceIdeal.RefStage0.keep (U0 m' c) (r := Cert.ReferenceIdeal.main_arg13) (by decide))))))))).trans (hag.arg13 c)

/-- And the shift. -/
theorem beta_eq (hag : Cert.Chain0.Agree m m') (c : Dev Cert.KernelIdeal.nD) :
    Cert.ReferenceIdeal.RefChain12.β (U8 m' c) = Cert.KernelChain12.β m c :=
  ((Cert.ReferenceIdeal.RefStage7.keep (U7 m' c) (r := Cert.ReferenceIdeal.main_arg14) (by decide)).trans
    ((Cert.ReferenceIdeal.RefStage6.keep (U6 m' c) (r := Cert.ReferenceIdeal.main_arg14) (by decide)).trans
    ((Cert.ReferenceIdeal.RefStage5.keep (U5 m' c) (r := Cert.ReferenceIdeal.main_arg14) (by decide)).trans
    ((Cert.ReferenceIdeal.RefStage4.keep (U4 m' c) (r := Cert.ReferenceIdeal.main_arg14) (by decide)).trans
    ((Cert.ReferenceIdeal.RefStage3.keep (U3 m' c) (r := Cert.ReferenceIdeal.main_arg14) (by decide)).trans
    ((Cert.ReferenceIdeal.RefStage2.keep (U2 m' c) (r := Cert.ReferenceIdeal.main_arg14) (by decide)).trans
    ((Cert.ReferenceIdeal.RefStage1.keep (U1 m' c) (r := Cert.ReferenceIdeal.main_arg14) (by decide)).trans
    (Cert.ReferenceIdeal.RefStage0.keep (U0 m' c) (r := Cert.ReferenceIdeal.main_arg14) (by decide))))))))).trans (hag.arg14 c)

/-- So the three squares cut out of the two stacks are the same squares. -/
theorem w0_eq (hag : Cert.Chain0.Agree m m') (c : Dev Cert.KernelIdeal.nD) :
    Cert.ReferenceIdeal.RefChain12.w0 (U8 m' c) = Cert.KernelChain12.w0 m c :=
  congrArg (fun K : Vec Ideal Cert.KernelIdeal.S384x128 .f32 =>
    extractStridedSlice Cert.KernelIdeal.S128x128 ![0, 0] K Cert.KernelIdeal.Gen.slices_S384x128_S128x128_0_0) (K_eq m m' hag c)

theorem w1_eq (hag : Cert.Chain0.Agree m m') (c : Dev Cert.KernelIdeal.nD) :
    Cert.ReferenceIdeal.RefChain12.w1 (U8 m' c) = Cert.KernelChain12.w1 m c :=
  congrArg (fun K : Vec Ideal Cert.KernelIdeal.S384x128 .f32 =>
    extractStridedSlice Cert.KernelIdeal.S128x128 ![128, 0] K Cert.KernelIdeal.Gen.slices_S384x128_S128x128_128_0) (K_eq m m' hag c)

theorem w2_eq (hag : Cert.Chain0.Agree m m') (c : Dev Cert.KernelIdeal.nD) :
    Cert.ReferenceIdeal.RefChain12.w2 (U8 m' c) = Cert.KernelChain12.w2 m c :=
  congrArg (fun K : Vec Ideal Cert.KernelIdeal.S384x128 .f32 =>
    extractStridedSlice Cert.KernelIdeal.S128x128 ![256, 0] K Cert.KernelIdeal.Gen.slices_S384x128_S128x128_256_0) (K_eq m m' hag c)

/-- The two rows of zeros are the same row. -/
theorem z_eq : Cert.ReferenceIdeal.RefChain12.zeroRow = Cert.KernelChain12.zeroRow := rfl

/-! ## The three hop outputs: equal by the three earlier stages -/

/-- The first hop's output: the reference reads it where its first hop's stage left it. -/
theorem x0_eq (c : Dev Cert.KernelIdeal.nD) (i1 : Inv9 m ρ m' c) :
    Cert.ReferenceIdeal.RefChain12.x0 (U8 m' c) = Cert.KernelChain12.h1 m ρ c :=
  funext fun i => (i1.1 i).symm

/-- The second hop's output: the reference reads it where its second hop's stage left it. -/
theorem x1_eq (c : Dev Cert.KernelIdeal.nD) (i2 : Inv10 m ρ m' c) :
    Cert.ReferenceIdeal.RefChain12.x1 (U8 m' c) = Cert.KernelChain12.h2 m ρ c :=
  funext fun i => (i2.1 i).symm

/-- The term the reference's list of operations forms for the third hop's output is the one the reference's half of
    this stage names. -/
theorem t_v447_eq (c : Dev Cert.KernelIdeal.nD) :
    Cert.ReferenceIdeal.RefStage8.t_v447 (U8 m' c) = Cert.ReferenceIdeal.RefChain12.x2 (U8 m' c) := rfl

/-- The third hop's output. -/
theorem x2_eq (c : Dev Cert.KernelIdeal.nD) (i3 : Inv11 m ρ m' c) :
    Cert.ReferenceIdeal.RefChain12.x2 (U8 m' c) = Cert.KernelChain12.h3 m ρ c :=
  funext fun i => ((congrFun ((Cert.ReferenceIdeal.RefStage8.read_v447 (U8 m' c)).trans (t_v447_eq m' c)) i).symm).trans (i3.1 i).symm

/-! ## The two projections are one array of real numbers -/

/-- The reference's projection, written as three products added in a row, is the kernel's. -/
theorem y_eq (hag : Cert.Chain0.Agree m m') (c : Dev Cert.KernelIdeal.nD) (i1 : Inv9 m ρ m' c) (i2 : Inv10 m ρ m' c)
    (i3 : Inv11 m ρ m' c) : Cert.ReferenceIdeal.RefChain12.y (U8 m' c) = Cert.KernelChain12.y m ρ c := by
  funext r q
  rw [Cert.ReferenceIdeal.RefChain12.y_eq_lin3 (U8 m' c) r q]
  unfold Cert.KernelChain12.y
  rw [x0_eq m ρ m' c i1, x1_eq m ρ m' c i2, x2_eq m ρ m' c i3, w0_eq m m' hag c, w1_eq m m' hag c, w2_eq m m' hag c, z_eq]

/-- Every entry of the projection is a real number: the three hop outputs are by the earlier stages, the squares
    of the weights are under the precondition, and the bias row is zero. -/
theorem y_isReal (hpre : Cert.Pre_KernelIdeal m) (c : Dev Cert.KernelIdeal.nD) (i1 : Inv9 m ρ m' c) (i2 : Inv10 m ρ m' c)
    (i3 : Inv11 m ρ m' c) (r : Fin 100000) (q : Fin 128) : IsReal (Cert.KernelChain12.y m ρ c r q) :=
  Cert.StageReal.lin3_isReal (Cert.KernelChain12.h1 m ρ c) (Cert.KernelChain12.h2 m ρ c) (Cert.KernelChain12.h3 m ρ c)
    (Cert.KernelChain12.w0 m c) (Cert.KernelChain12.w1 m c) (Cert.KernelChain12.w2 m c) Cert.KernelChain12.zeroRow
    i1.2 i2.2 i3.2
    (Cert.SliceReal.projW0_isReal (Cert.KernelChain12.Wstack m c) (Cert.PreReal.real_arg12 m hpre c))
    (Cert.SliceReal.projW1_isReal (Cert.KernelChain12.Wstack m c) (Cert.PreReal.real_arg12 m hpre c))
    (Cert.SliceReal.projW2_isReal (Cert.KernelChain12.Wstack m c) (Cert.PreReal.real_arg12 m hpre c))
    Cert.SliceReal.zeroRow_isReal r q

/-! ## The stage -/

/-- STAGE 12: the two clipped normalised projections are equal, and every entry is a real number. -/
theorem stage12 (hpre : Cert.Pre_KernelIdeal m) (hag : Cert.Chain0.Agree m m') (c : Dev Cert.KernelIdeal.nD)
    (i1 : Inv9 m ρ m' c) (i2 : Inv10 m ρ m' c) (i3 : Inv11 m ρ m' c) :
    (∀ i, kOut12 m ρ c i = rOut12 m' c i) ∧ (∀ i, IsReal (kOut12 m ρ c i)) := by
  have ey : Cert.ReferenceIdeal.RefChain12.y (U8 m' c) = Cert.KernelChain12.y m ρ c := y_eq m ρ m' hag c i1 i2 i3
  have eg : Cert.ReferenceIdeal.RefChain12.g (U8 m' c) = Cert.KernelChain12.g m c := g_eq m m' hag c
  have eβ : Cert.ReferenceIdeal.RefChain12.β (U8 m' c) = Cert.KernelChain12.β m c := beta_eq m m' hag c
  have hy : ∀ r q, IsReal (Cert.KernelChain12.y m ρ c r q) := y_isReal m ρ m' hpre c i1 i2 i3
  refine ⟨fun i => ?_, fun i => ?_⟩
  · obtain ⟨r, q, rfl⟩ : ∃ (r : Fin 100000) (q : Fin 128), i = ix2 r q := ⟨i 0, i 1, eq_ix2 i⟩
    rw [show kOut12 m ρ c (ix2 r q) = _ from Cert.KernelChain12.kernel_out_apply m ρ c r q,
      show rOut12 m' c (ix2 r q) = _ from Cert.ReferenceIdeal.RefChain12.out_apply (U8 m' c) r q,
      ey, eg, eβ]
    exact congrArg (fun z => max z 0)
      (Cert.StageReal.norm_varSumSq_eq_norm_varDev_100000 (Cert.KernelChain12.y m ρ c) hy q (Cert.KernelChain12.y m ρ c r q) _ _)
  · obtain ⟨r, q, rfl⟩ : ∃ (r : Fin 100000) (q : Fin 128), i = ix2 r q := ⟨i 0, i 1, eq_ix2 i⟩
    rw [show kOut12 m ρ c (ix2 r q) = _ from Cert.KernelChain12.kernel_out_apply m ρ c r q]
    exact Cert.StageReal.max_zero_isReal
      (Cert.StageReal.norm_varSumSq_isReal_100000 (Cert.KernelChain12.y m ρ c) hy q (hy r q)
        (Cert.PreReal.real_arg13 m hpre c (ix1 q)) (Cert.PreReal.real_arg14 m hpre c (ix1 q)))

/-- Stage 12 in the chain's own words. -/
theorem inv12 (hpre : Cert.Pre_KernelIdeal m) (hag : Cert.Chain0.Agree m m') (c : Dev Cert.KernelIdeal.nD)
    (i1 : Inv9 m ρ m' c) (i2 : Inv10 m ρ m' c) (i3 : Inv11 m ρ m' c) : Inv12 m ρ m' c :=
  stage12 m ρ m' hpre hag c i1 i2 i3

end Cert.Chain12

end
-- ==== Proof.ValSingle26.lean ====
/-
  Region 26: the attention scores' hidden layer with its column statistics. At each of the twenty grid points the
  body multiplies a block of 5000 rows of the node embedding by the weight matrix, adds the bias row, takes the
  hyperbolic tangent, stores that block of the output, and adds the block's column sums and column sums of squares to
  two carried rows, which the first point has set to zero. The blocks tile the 100000 rows, so the output is the
  hyperbolic tangent of the linear stage of the whole array, and the two carried rows end as the column sum and the
  column sum of squares of that output over all rows: a sum over 100000 rows regrouped as twenty runs of 5000, which
  is a matter of the order of a finite sum only.
-/
import proofs.«414479_j7705171329025_1_alg».proof.Proof.FrameKI.R26
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValSingle26

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. At the first point the two carried rows are first set to zero and then
  read back, so the running rows it leaves are the block's sums added to zero; at the other points they are added to
  what the rows held. -/

section Pieces

variable {F : FTy → Type} [FloatOps F]

theorem outA3 (c : Dev nD) (i : grid26.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond26_0 i)
    (x0 : Vec F S5000x128 .f32) (x1 : Vec F S128x128 .f32) (x2 : Vec F S1x128 .f32) :
    out26_A_3 c i a1 h1 a2 h2 a3 h3 a4 h4 a5 h5 a6 h6 hc x0 x1 x2 = k26_pay3 x0 x1 x2 := by
  unfold out26_A_3
  rw [View.read_writes_eq_canon _ _ _ (cover26_A_3 c i a1 h1 a2 h2 a3 h3 a4 h4 a5 h5 a6 h6 hc x0 x1 x2)]
  unfold kernelRun26_A
  dsimp only
  (try sl_unfold_words)
  rw [View.canon_unit_zero hz]
  simp only [View.readAt_eq_ld, h1.read_unread, h2.read_unread, h3.read_unread,
    View.ld_unit_zero (S := S5000x128) hz, View.ld_unit_zero (S := S128x128) hz, View.ld_unit_zero (S := S1x128) hz]

theorem outA4 (c : Dev nD) (i : grid26.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond26_0 i)
    (x0 : Vec F S5000x128 .f32) (x1 : Vec F S128x128 .f32) (x2 : Vec F S1x128 .f32) :
    out26_A_4 c i a1 h1 a2 h2 a3 h3 a4 h4 a5 h5 a6 h6 hc x0 x1 x2 = k26_pay4 x0 x1 x2 (k26_pay1 (F := F)) := by
  unfold out26_A_4
  rw [View.read_writes_eq_canon _ _ _ (cover26_A_4 c i a1 h1 a2 h2 a3 h3 a4 h4 a5 h5 a6 h6 hc x0 x1 x2)]
  unfold kernelRun26_A
  dsimp only
  (try sl_unfold_words)
  rw [View.canon_cons_unit_zero (S := S1x128) hz]
  simp only [View.readAt_eq_ld, h1.read_unread, h2.read_unread, h3.read_unread, View.readCov_unit_zero (S := S1x128) _ hz,
    View.ld_unit_zero (S := S5000x128) hz, View.ld_unit_zero (S := S128x128) hz, View.ld_unit_zero (S := S1x128) hz]

theorem outA5 (c : Dev nD) (i : grid26.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond26_0 i)
    (x0 : Vec F S5000x128 .f32) (x1 : Vec F S128x128 .f32) (x2 : Vec F S1x128 .f32) :
    out26_A_5 c i a1 h1 a2 h2 a3 h3 a4 h4 a5 h5 a6 h6 hc x0 x1 x2 = k26_pay5 x0 x1 x2 (k26_pay2 (F := F)) := by
  unfold out26_A_5
  rw [View.read_writes_eq_canon _ _ _ (cover26_A_5 c i a1 h1 a2 h2 a3 h3 a4 h4 a5 h5 a6 h6 hc x0 x1 x2)]
  unfold kernelRun26_A
  dsimp only
  (try sl_unfold_words)
  rw [View.canon_cons_unit_zero (S := S1x128) hz]
  simp only [View.readAt_eq_ld, h1.read_unread, h2.read_unread, h3.read_unread, View.readCov_unit_zero (S := S1x128) _ hz,
    View.ld_unit_zero (S := S5000x128) hz, View.ld_unit_zero (S := S128x128) hz, View.ld_unit_zero (S := S1x128) hz]

theorem outB3 (c : Dev nD) (i : grid26.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond26_0 i)
    (x0 : Vec F S5000x128 .f32) (x1 : Vec F S128x128 .f32) (x2 : Vec F S1x128 .f32) (xo4 xo5 : Vec F S1x128 .f32) :
    out26_B_3 c i a1 h1 a2 h2 a3 h3 a4 h4 a5 h5 a6 h6 hc x0 x1 x2 xo4 xo5 = k26_pay3 x0 x1 x2 := by
  unfold out26_B_3
  rw [View.read_writes_eq_canon _ _ _ (cover26_B_3 c i a1 h1 a2 h2 a3 h3 a4 h4 a5 h5 a6 h6 hc x0 x1 x2 xo4 xo5)]
  unfold kernelRun26_B
  dsimp only
  (try sl_unfold_words)
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

theorem outB4 (c : Dev nD) (i : grid26.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond26_0 i)
    (x0 : Vec F S5000x128 .f32) (x1 : Vec F S128x128 .f32) (x2 : Vec F S1x128 .f32) (xo4 xo5 : Vec F S1x128 .f32) :
    out26_B_4 c i a1 h1 a2 h2 a3 h3 a4 h4 a5 h5 a6 h6 hc x0 x1 x2 xo4 xo5 = k26_pay4 x0 x1 x2 xo4 := by
  unfold out26_B_4
  rw [View.read_writes_eq_canon _ _ _ (cover26_B_4 c i a1 h1 a2 h2 a3 h3 a4 h4 a5 h5 a6 h6 hc x0 x1 x2 xo4 xo5)]
  unfold kernelRun26_B
  dsimp only
  (try sl_unfold_words)
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

theorem outB5 (c : Dev nD) (i : grid26.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond26_0 i)
    (x0 : Vec F S5000x128 .f32) (x1 : Vec F S128x128 .f32) (x2 : Vec F S1x128 .f32) (xo4 xo5 : Vec F S1x128 .f32) :
    out26_B_5 c i a1 h1 a2 h2 a3 h3 a4 h4 a5 h5 a6 h6 hc x0 x1 x2 xo4 xo5 = k26_pay5 x0 x1 x2 xo5 := by
  unfold out26_B_5
  rw [View.read_writes_eq_canon _ _ _ (cover26_B_5 c i a1 h1 a2 h2 a3 h3 a4 h4 a5 h5 a6 h6 hc x0 x1 x2 xo4 xo5)]
  unfold kernelRun26_B
  dsimp only
  (try sl_unfold_words)
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

end Pieces

variable (V : (c : Dev nD) → (b : Ref sig .tc) → Buf (Elt Ideal) ((c : Thread nD τ).loc b))

/-- The region's input arrays as it finds them, each at its literal type: node embedding, weight matrix, bias row. -/
abbrev xArr (c : Dev nD) : Vec Ideal S100000x128 .f32 := V c (Pipeline.arrRef spec26 0)
abbrev wArr (c : Dev nD) : Vec Ideal S128x128 .f32 := V c (Pipeline.arrRef spec26 1)
abbrev bRow (c : Dev nD) : Vec Ideal S1x128 .f32 := V c (Pipeline.arrRef spec26 2)

/-- One entry of the region's output: the hyperbolic tangent of the linear stage on the region's arrays. -/
def y (c : Dev nD) (r : Fin 100000) (q : Fin 128) : EReal := Ideal.tanh (lin (xArr V c) (wArr V c) (bRow V c) r q)

/-- What the region leaves in its three output arrays. -/
def resultY (c : Dev nD) : Vec Ideal S100000x128 .f32 := fun i => y V c (i 0) (i 1)
def resultSum (c : Dev nD) : Vec Ideal S1x128 .f32 := fun i => colSum (y V c) (i 1)
def resultSumSq (c : Dev nD) : Vec Ideal S1x128 .f32 := fun i => colSumSq (y V c) (i 1)

/-! ## Where each window's block lies, and what the input blocks read -/

/-- The three input blocks at a point, each at its literal type. -/
abbrev xBlk (c : Dev nD) (t : Fin cfg26.N) : Vec Ideal S5000x128 .f32 := iblk26 V c 0 t
abbrev wBlk (c : Dev nD) (t : Fin cfg26.N) : Vec Ideal S128x128 .f32 := iblk26 V c 1 t
abbrev bBlk (c : Dev nD) (t : Fin cfg26.N) : Vec Ideal S1x128 .f32 := iblk26 V c 2 t

/-- The block each of the six windows takes at a point, decided over the twenty points: the two tall windows take
    block `t` along the rows, and the weight matrix and each of the three rows are their own one block throughout. -/
theorem idx_facts : ∀ t : Fin cfg26.N,
    win26_0.index t (0 : Fin 2) = t.val ∧ win26_0.index t (1 : Fin 2) = 0
    ∧ win26_1.index t (0 : Fin 2) = 0 ∧ win26_1.index t (1 : Fin 2) = 0
    ∧ win26_2.index t (0 : Fin 2) = 0 ∧ win26_2.index t (1 : Fin 2) = 0
    ∧ win26_3.index t (0 : Fin 2) = t.val ∧ win26_3.index t (1 : Fin 2) = 0
    ∧ win26_4.index t (0 : Fin 2) = 0 ∧ win26_4.index t (1 : Fin 2) = 0
    ∧ win26_5.index t (0 : Fin 2) = 0 ∧ win26_5.index t (1 : Fin 2) = 0 :=
  (by decide +kernel : ∀ t : Fin grid26.N, _)

/-- The embedding's block at point `t`, read at (p, j), is the array at row 5000·t + p, column j. -/
theorem x_apply (c : Dev nD) (t : Fin cfg26.N) (p : Fin 5000) (j : Fin 128) (h : t.val * 5000 + p.val < 100000) :
    xBlk V c t (ix2 p j) = xArr V c (ix2 ⟨t.val * 5000 + p.val, h⟩ j) := by
  obtain ⟨e00, e01, -⟩ := idx_facts t
  unfold xBlk iblk26
  rw [View.read_apply]
  show xArr V c (((cfg26.win 0).blk t).view.emb (ix2 p j)) = _
  refine congrArg (xArr V c) ?_
  funext a; apply Fin.ext
  match a with
  | ⟨0, _⟩ => show win26_0.index t (0 : Fin 2) * 5000 + 1 * p.val = t.val * 5000 + p.val; omega
  | ⟨1, _⟩ => show win26_0.index t (1 : Fin 2) * 128 + 1 * j.val = j.val; omega

/-- The weight matrix's block, at every point, is the matrix. -/
theorem w_apply (c : Dev nD) (t : Fin cfg26.N) (j : Fin 128) (q : Fin 128) :
    wBlk V c t (ix2 j q) = wArr V c (ix2 j q) := by
  obtain ⟨-, -, e10, e11, -⟩ := idx_facts t
  unfold wBlk iblk26
  rw [View.read_apply]
  show wArr V c (((cfg26.win 1).blk t).view.emb (ix2 j q)) = _
  refine congrArg (wArr V c) ?_
  funext a; apply Fin.ext
  match a with
  | ⟨0, _⟩ => show win26_1.index t (0 : Fin 2) * 128 + 1 * j.val = j.val; omega
  | ⟨1, _⟩ => show win26_1.index t (1 : Fin 2) * 128 + 1 * q.val = q.val; omega

/-- The bias row's block, at every point, is the row. -/
theorem b_apply (c : Dev nD) (t : Fin cfg26.N) (q : Fin 128) :
    bBlk V c t (ix2 (0 : Fin 1) q) = bRow V c (ix2 (0 : Fin 1) q) := by
  obtain ⟨-, -, -, -, e20, e21, -⟩ := idx_facts t
  unfold bBlk iblk26
  rw [View.read_apply]
  show bRow V c (((cfg26.win 2).blk t).view.emb (ix2 (0 : Fin 1) q)) = _
  refine congrArg (bRow V c) ?_
  funext a; apply Fin.ext
  match a with
  | ⟨0, _⟩ => show win26_2.index t (0 : Fin 2) * 1 + 1 * 0 = 0; omega
  | ⟨1, _⟩ => show win26_2.index t (1 : Fin 2) * 128 + 1 * q.val = q.val; omega

/-- The block of values a point computes, at (p, q), is the output's entry of row 5000·t + p, column q. -/
theorem pay3_point (c : Dev nD) (t : Fin cfg26.N) (p : Fin 5000) (q : Fin 128) (h : t.val * 5000 + p.val < 100000) :
    k26_pay3 (F := Ideal) (xBlk V c t) (wBlk V c t) (bBlk V c t) (ix2 p q) = y V c ⟨t.val * 5000 + p.val, h⟩ q := by
  refine (PayLinear.k26_pay3_apply (xBlk V c t) (wBlk V c t) (bBlk V c t) p q).trans ?_
  unfold y lin
  refine congrArg Ideal.tanh ?_
  refine congrArg₂ (fun a b : EReal => a + b) (Finset.sum_congr rfl fun j _ => ?_) (b_apply V c t q)
  exact congrArg₂ (fun a b : EReal => a * b) (x_apply V c t p j h) (w_apply V c t j q)

/-! ## What the three output buffers hold after each point -/

/-- The output block after any point is the block of values the point computes. -/
theorem outs3_eq (c : Dev nD) (t : Fin cfg26.N) :
    (outsAt26 V c t.val t.isLt).1 = k26_pay3 (F := Ideal) (xBlk V c t) (wBlk V c t) (bBlk V c t) := by
  by_cases h0 : t.val % 20 = 0
  · rw [outsAt26_A V c t h0]
    dsimp only
    exact outA3 (F := Ideal) c (grid26.coords t) (ms26_0 t) (hs26_0 t) (ms26_1 t) (hs26_1 t) (ms26_2 t) (hs26_2 t) (ms26_3 t) (hs26_3 t) (ms26_4 t) (hs26_4 t) (ms26_5 t) (hs26_5 t)
      ((hcond26_0 t).mpr h0) (iblk26 V c 0 t) (iblk26 V c 1 t) (iblk26 V c 2 t)
  · rw [outsAt26_B V c t h0]
    dsimp only
    exact outB3 (F := Ideal) c (grid26.coords t) (ms26_0 t) (hs26_0 t) (ms26_1 t) (hs26_1 t) (ms26_2 t) (hs26_2 t) (ms26_3 t) (hs26_3 t) (ms26_4 t) (hs26_4 t) (ms26_5 t) (hs26_5 t)
      (fun h => h0 ((hcond26_0 t).mp h)) (iblk26 V c 0 t) (iblk26 V c 1 t) (iblk26 V c 2 t)
      (outsAt26 V c (t.val - 1) (Nat.lt_of_le_of_lt (Nat.sub_le _ _) t.isLt)).2.1
      (outsAt26 V c (t.val - 1) (Nat.lt_of_le_of_lt (Nat.sub_le _ _) t.isLt)).2.2

/-- The carried column sum at column q, after point t. -/
def accSum (c : Dev nD) (u : Fin 1) (q : Fin 128) : (t : ℕ) → t < 20 → EReal :=
  fun t ht => (outsAt26 V c t (lt_of_lt_of_eq ht N_26.symm)).2.1 (ix2 u q)

/-- At the first point it is the stored zero plus the block's column sum. -/
theorem accSum_first (c : Dev nD) (u : Fin 1) (q : Fin 128) (t : ℕ) (ht : t < 20) (h0 : t % 20 = 0) :
    accSum V c u q t ht = (k26_pay1 (F := Ideal)) (ix2 u q)
      + ∑ p : Fin 5000, y V c ⟨t * 5000 + p.val, by have := p.isLt; omega⟩ q := by
  have ht' : t < cfg26.N := lt_of_lt_of_eq ht N_26.symm
  show (outsAt26 V c (⟨t, ht'⟩ : Fin cfg26.N).val (⟨t, ht'⟩ : Fin cfg26.N).isLt).2.1 (ix2 u q) = _
  rw [outsAt26_A V c ⟨t, ht'⟩ h0]
  dsimp only
  refine (congrFun (outA4 (F := Ideal) c (grid26.coords ⟨t, ht'⟩) (ms26_0 ⟨t, ht'⟩) (hs26_0 ⟨t, ht'⟩) (ms26_1 ⟨t, ht'⟩) (hs26_1 ⟨t, ht'⟩) (ms26_2 ⟨t, ht'⟩) (hs26_2 ⟨t, ht'⟩) (ms26_3 ⟨t, ht'⟩) (hs26_3 ⟨t, ht'⟩) (ms26_4 ⟨t, ht'⟩) (hs26_4 ⟨t, ht'⟩) (ms26_5 ⟨t, ht'⟩) (hs26_5 ⟨t, ht'⟩)
    ((hcond26_0 ⟨t, ht'⟩).mpr h0) (iblk26 V c 0 ⟨t, ht'⟩) (iblk26 V c 1 ⟨t, ht'⟩) (iblk26 V c 2 ⟨t, ht'⟩)) (ix2 u q)).trans ?_
  refine (PayLinear.k26_pay4_apply (xBlk V c ⟨t, ht'⟩) (wBlk V c ⟨t, ht'⟩) (bBlk V c ⟨t, ht'⟩) (k26_pay1 (F := Ideal)) u q).trans ?_
  refine congrArg (fun s : EReal => (k26_pay1 (F := Ideal)) (ix2 u q) + s) (Finset.sum_congr rfl fun p _ => ?_)
  exact pay3_point V c ⟨t, ht'⟩ p q _

/-- At any other point it is what the point before left plus the block's column sum. -/
theorem accSum_step (c : Dev nD) (u : Fin 1) (q : Fin 128) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg26.N := lt_of_lt_of_eq ht N_26.symm
  show (outsAt26 V c (⟨t, ht'⟩ : Fin cfg26.N).val (⟨t, ht'⟩ : Fin cfg26.N).isLt).2.1 (ix2 u q) = _
  rw [outsAt26_B V c ⟨t, ht'⟩ h0]
  dsimp only
  refine (congrFun (outB4 (F := Ideal) c (grid26.coords ⟨t, ht'⟩) (ms26_0 ⟨t, ht'⟩) (hs26_0 ⟨t, ht'⟩) (ms26_1 ⟨t, ht'⟩) (hs26_1 ⟨t, ht'⟩) (ms26_2 ⟨t, ht'⟩) (hs26_2 ⟨t, ht'⟩) (ms26_3 ⟨t, ht'⟩) (hs26_3 ⟨t, ht'⟩) (ms26_4 ⟨t, ht'⟩) (hs26_4 ⟨t, ht'⟩) (ms26_5 ⟨t, ht'⟩) (hs26_5 ⟨t, ht'⟩)
    (fun h => h0 ((hcond26_0 ⟨t, ht'⟩).mp h)) (iblk26 V c 0 ⟨t, ht'⟩) (iblk26 V c 1 ⟨t, ht'⟩) (iblk26 V c 2 ⟨t, ht'⟩)
    (outsAt26 V c ((⟨t, ht'⟩ : Fin cfg26.N).val - 1) (Nat.lt_of_le_of_lt (Nat.sub_le _ _) (⟨t, ht'⟩ : Fin cfg26.N).isLt)).2.1
    (outsAt26 V c ((⟨t, ht'⟩ : Fin cfg26.N).val - 1) (Nat.lt_of_le_of_lt (Nat.sub_le _ _) (⟨t, ht'⟩ : Fin cfg26.N).isLt)).2.2) (ix2 u q)).trans ?_
  refine (PayLinear.k26_pay4_apply (xBlk V c ⟨t, ht'⟩) (wBlk V c ⟨t, ht'⟩) (bBlk V c ⟨t, ht'⟩)
    (outsAt26 V c ((⟨t, ht'⟩ : Fin cfg26.N).val - 1) (Nat.lt_of_le_of_lt (Nat.sub_le _ _) (⟨t, ht'⟩ : Fin cfg26.N).isLt)).2.1 u q).trans ?_
  refine congrArg (fun s : EReal => accSum V c u q (t - 1) (Nat.lt_of_le_of_lt (Nat.sub_le t 1) ht) + s)
    (Finset.sum_congr rfl fun p _ => ?_)
  exact pay3_point V c ⟨t, ht'⟩ p q _

/-- After the last point it is the column sum over all 100000 rows. -/
theorem accSum_last (c : Dev nD) (u : Fin 1) (q : Fin 128) :
    accSum V c u q 19 (by norm_num) = colSum (y V c) q := by
  refine AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k26_pay1 (F := Ideal)) (ix2 u q)) Ideal.ofBits_zero_f32
    (fun t ht h0 => accSum_first V c u q t ht h0) (fun t ht h0 => accSum_step V c u q t ht h0)

/-- The carried column sum of squares at column q, after point t. -/
def accSumSq (c : Dev nD) (u : Fin 1) (q : Fin 128) : (t : ℕ) → t < 20 → EReal :=
  fun t ht => (outsAt26 V c t (lt_of_lt_of_eq ht N_26.symm)).2.2 (ix2 u q)

/-- At the first point it is the stored zero plus the block's column sum of squares. -/
theorem accSumSq_first (c : Dev nD) (u : Fin 1) (q : Fin 128) (t : ℕ) (ht : t < 20) (h0 : t % 20 = 0) :
    accSumSq V c u q t ht = (k26_pay2 (F := Ideal)) (ix2 u q)
      + ∑ p : Fin 5000, (y V c ⟨t * 5000 + p.val, by have := p.isLt; omega⟩ q * y V c ⟨t * 5000 + p.val, by have := p.isLt; omega⟩ q) := by
  have ht' : t < cfg26.N := lt_of_lt_of_eq ht N_26.symm
  show (outsAt26 V c (⟨t, ht'⟩ : Fin cfg26.N).val (⟨t, ht'⟩ : Fin cfg26.N).isLt).2.2 (ix2 u q) = _
  rw [outsAt26_A V c ⟨t, ht'⟩ h0]
  dsimp only
  refine (congrFun (outA5 (F := Ideal) c (grid26.coords ⟨t, ht'⟩) (ms26_0 ⟨t, ht'⟩) (hs26_0 ⟨t, ht'⟩) (ms26_1 ⟨t, ht'⟩) (hs26_1 ⟨t, ht'⟩) (ms26_2 ⟨t, ht'⟩) (hs26_2 ⟨t, ht'⟩) (ms26_3 ⟨t, ht'⟩) (hs26_3 ⟨t, ht'⟩) (ms26_4 ⟨t, ht'⟩) (hs26_4 ⟨t, ht'⟩) (ms26_5 ⟨t, ht'⟩) (hs26_5 ⟨t, ht'⟩)
    ((hcond26_0 ⟨t, ht'⟩).mpr h0) (iblk26 V c 0 ⟨t, ht'⟩) (iblk26 V c 1 ⟨t, ht'⟩) (iblk26 V c 2 ⟨t, ht'⟩)) (ix2 u q)).trans ?_
  refine (PayLinear.k26_pay5_apply (xBlk V c ⟨t, ht'⟩) (wBlk V c ⟨t, ht'⟩) (bBlk V c ⟨t, ht'⟩) (k26_pay2 (F := Ideal)) u q).trans ?_
  refine congrArg (fun s : EReal => (k26_pay2 (F := Ideal)) (ix2 u q) + s) (Finset.sum_congr rfl fun p _ => ?_)
  exact congrArg₂ (fun a b : EReal => a * b) (pay3_point V c ⟨t, ht'⟩ p q _) (pay3_point V c ⟨t, ht'⟩ p q _)

/-- At any other point it is what the point before left plus the block's column sum of squares. -/
theorem accSumSq_step (c : Dev nD) (u : Fin 1) (q : Fin 128) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg26.N := lt_of_lt_of_eq ht N_26.symm
  show (outsAt26 V c (⟨t, ht'⟩ : Fin cfg26.N).val (⟨t, ht'⟩ : Fin cfg26.N).isLt).2.2 (ix2 u q) = _
  rw [outsAt26_B V c ⟨t, ht'⟩ h0]
  dsimp only
  refine (congrFun (outB5 (F := Ideal) c (grid26.coords ⟨t, ht'⟩) (ms26_0 ⟨t, ht'⟩) (hs26_0 ⟨t, ht'⟩) (ms26_1 ⟨t, ht'⟩) (hs26_1 ⟨t, ht'⟩) (ms26_2 ⟨t, ht'⟩) (hs26_2 ⟨t, ht'⟩) (ms26_3 ⟨t, ht'⟩) (hs26_3 ⟨t, ht'⟩) (ms26_4 ⟨t, ht'⟩) (hs26_4 ⟨t, ht'⟩) (ms26_5 ⟨t, ht'⟩) (hs26_5 ⟨t, ht'⟩)
    (fun h => h0 ((hcond26_0 ⟨t, ht'⟩).mp h)) (iblk26 V c 0 ⟨t, ht'⟩) (iblk26 V c 1 ⟨t, ht'⟩) (iblk26 V c 2 ⟨t, ht'⟩)
    (outsAt26 V c ((⟨t, ht'⟩ : Fin cfg26.N).val - 1) (Nat.lt_of_le_of_lt (Nat.sub_le _ _) (⟨t, ht'⟩ : Fin cfg26.N).isLt)).2.1
    (outsAt26 V c ((⟨t, ht'⟩ : Fin cfg26.N).val - 1) (Nat.lt_of_le_of_lt (Nat.sub_le _ _) (⟨t, ht'⟩ : Fin cfg26.N).isLt)).2.2) (ix2 u q)).trans ?_
  refine (PayLinear.k26_pay5_apply (xBlk V c ⟨t, ht'⟩) (wBlk V c ⟨t, ht'⟩) (bBlk V c ⟨t, ht'⟩)
    (outsAt26 V c ((⟨t, ht'⟩ : Fin cfg26.N).val - 1) (Nat.lt_of_le_of_lt (Nat.sub_le _ _) (⟨t, ht'⟩ : Fin cfg26.N).isLt)).2.2 u q).trans ?_
  refine congrArg (fun s : EReal => accSumSq V c u q (t - 1) (Nat.lt_of_le_of_lt (Nat.sub_le t 1) ht) + s)
    (Finset.sum_congr rfl fun p _ => ?_)
  exact congrArg₂ (fun a b : EReal => a * b) (pay3_point V c ⟨t, ht'⟩ p q _) (pay3_point V c ⟨t, ht'⟩ p q _)

/-- After the last point it is the column sum of squares over all 100000 rows. -/
theorem accSumSq_last (c : Dev nD) (u : Fin 1) (q : Fin 128) :
    accSumSq V c u q 19 (by norm_num) = colSumSq (y V c) q := by
  refine AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k26_pay2 (F := Ideal)) (ix2 u q)) Ideal.ofBits_zero_f32
    (fun t ht h0 => accSumSq_first V c u q t ht h0) (fun t ht h0 => accSumSq_step V c u q t ht h0)

/-! ## From the blocks to the arrays -/

/-- Row p, column q of the output's block at point t is row 5000·t + p, column q of the array: a block's coordinate
    is its index times its extent plus the coordinate inside it. -/
theorem emb_out (t : Fin cfg26.N) (p : Fin 5000) (q : Fin 128) (h : t.val * 5000 + p.val < 100000) :
    ((cfg26.win 3).blk t).view.emb (ix2 p q) = (ix2 ⟨t.val * 5000 + p.val, h⟩ q : S100000x128.Idx) := by
  obtain ⟨-, -, -, -, -, -, e30, e31, -⟩ := idx_facts t
  funext a; apply Fin.ext
  match a with
  | ⟨0, _⟩ => show win26_3.index t (0 : Fin 2) * 5000 + 1 * p.val = t.val * 5000 + p.val; omega
  | ⟨1, _⟩ => show win26_3.index t (1 : Fin 2) * 128 + 1 * q.val = q.val; omega

/-- What point t writes back for the output is block t of the output array. -/
theorem flushed3_eq (c : Dev nD) (t : Fin cfg26.N) :
    (dat26 (F := Ideal) V c).flushed 3 t = ((cfg26.win 3).blk t).view.read (Elt Ideal) (resultY V c) := by
  show (cfg26.win 3).cut (grid26.coords t) ((dat26 V c).after 3 t) = _
  rw [after26_3]
  have ht : t.val < 20 := Nat.lt_of_lt_of_eq t.isLt N_26
  funext j
  obtain ⟨p, q, rfl⟩ : ∃ (p : Fin 5000) (q : Fin 128), j = ix2 p q := ⟨j 0, j 1, eq_ix2 j⟩
  have h : t.val * 5000 + p.val < 100000 := by have := p.isLt; omega
  show (outsAt26 V c t.val t.isLt).1 (ix2 p q) = resultY V c (((cfg26.win 3).blk t).view.emb (ix2 p q))
  refine (congrFun (outs3_eq V c t) (ix2 p q)).trans ?_
  refine (pay3_point V c t p q h).trans ?_
  exact (congrArg (resultY V c) (emb_out t p q h)).symm

/-- An entry of the array lies in point t's block exactly when each of its coordinates lies in the block's range. -/
theorem mem_blk3 (t : Fin cfg26.N) (i : S100000x128.Idx) :
    i ∈ ((cfg26.win 3).blk t).view.set ↔ ∀ a : Fin 2, win26_3.index t a * S5000x128.size a ≤ (i a).val
      ∧ (i a).val < win26_3.index t a * S5000x128.size a + S5000x128.size a := by
  show i ∈ ((View.whole main_v318_0).slice (win26_3.rect t)).set ↔ _
  rw [View.set_slice_whole, Rect.mem_set_unit]
  exact Iff.rfl

/-- The twenty blocks tile the array: row r is in the block of point r / 5000, and every point writes its block back. -/
theorem cover3 (i : S100000x128.Idx) :
    ∃ t : Fin cfg26.N, (cfg26.win 3).flush t = true ∧ i ∈ ((cfg26.win 3).blk t).view.set := by
  have hi0 : (i 0).val < 100000 := idx2_lt0 i
  have hi1 : (i 1).val < 128 := idx2_lt1 i
  obtain ⟨t, ht⟩ : ∃ t : Fin cfg26.N, t.val = (i 0).val / 5000 :=
    ⟨⟨(i 0).val / 5000, by rw [show cfg26.N = 20 from N_26]; omega⟩, rfl⟩
  obtain ⟨-, -, -, -, -, -, e30, e31, -⟩ := idx_facts t
  refine ⟨t, flush26_3 t, ?_⟩
  rw [mem_blk3]
  intro a
  match a with
  | ⟨0, _⟩ =>
    show win26_3.index t (0 : Fin 2) * 5000 ≤ (i 0).val ∧ (i 0).val < win26_3.index t (0 : Fin 2) * 5000 + 5000
    omega
  | ⟨1, _⟩ =>
    show win26_3.index t (1 : Fin 2) * 128 ≤ (i 1).val ∧ (i 1).val < win26_3.index t (1 : Fin 2) * 128 + 128
    omega

/-- At a point whose number is 19 the carried column sum is the one over all rows. -/
theorem accSum_at_last (c : Dev nD) (u : Fin 1) (q : Fin 128) (n : ℕ) (hn : n < 20) (h19 : n = 19) :
    accSum V c u q n hn = colSum (y V c) q := by
  subst h19
  exact accSum_last V c u q

/-- The carried row of window 4 after the last point is the whole row of column sums. -/
theorem outs4_last (c : Dev nD) (t : Fin cfg26.N) (h19 : t.val = 19) :
    (outsAt26 V c t.val t.isLt).2.1 = resultSum V c := by
  funext j
  obtain ⟨u, q, rfl⟩ : ∃ (u : Fin 1) (q : Fin 128), j = ix2 u q := ⟨j 0, j 1, eq_ix2 j⟩
  exact accSum_at_last V c u q t.val (Nat.lt_of_lt_of_eq t.isLt N_26) h19

/-- What the last point writes back for window 4 is the whole row of column sums: the window's one block lies at
    offset zero, so it reads the whole row. -/
theorem flushed4_eq (c : Dev nD) (t : Fin cfg26.N) (hf : (cfg26.win 4).flush t = true) :
    (dat26 (F := Ideal) V c).flushed 4 t = ((cfg26.win 4).blk t).view.read (Elt Ideal) (resultSum V c) := by
  have hN : t.val < 20 := Nat.lt_of_lt_of_eq t.isLt N_26
  have h19 : t.val = 19 := by have := (flush26_4 t).mp hf; omega
  obtain ⟨-, -, -, -, -, -, -, -, e40, e41, e50, e51⟩ := idx_facts t
  have hz' : (fun a => win26_4.index t a * main_v318_1.ty.shape.size a) = fun _ => 0 := funext fun a => by
    match a with
    | ⟨0, _⟩ => show win26_4.index t (0 : Fin 2) * 1 = 0; omega
    | ⟨1, _⟩ => show win26_4.index t (1 : Fin 2) * 128 = 0; omega
  show (cfg26.win 4).cut (grid26.coords t) ((dat26 V c).after 4 t) = _
  rw [after26_4, outs4_last V c t h19]
  exact (Memref.read_access_unit_zero (Elt Ideal) main_v318_1 hz' (fun a => by rw [congrFun hz' a]; simp) (resultSum V c)).symm

/-- An entry of the row lies in point t's block of window 4 exactly when each coordinate lies in the block's range. -/
theorem mem_blk4 (t : Fin cfg26.N) (i : S1x128.Idx) :
    i ∈ ((cfg26.win 4).blk t).view.set ↔ ∀ a : Fin 2, win26_4.index t a * S1x128.size a ≤ (i a).val
      ∧ (i a).val < win26_4.index t a * S1x128.size a + S1x128.size a := by
  show i ∈ ((View.whole main_v318_1).slice (win26_4.rect t)).set ↔ _
  rw [View.set_slice_whole, Rect.mem_set_unit]
  exact Iff.rfl

/-- The last point's block of window 4 is the whole row, and the last point writes it back. -/
theorem cover4 (i : S1x128.Idx) :
    ∃ t : Fin cfg26.N, (cfg26.win 4).flush t = true ∧ i ∈ ((cfg26.win 4).blk t).view.set := by
  have hi0 : (i 0).val < 1 := idx2_lt0 i
  have hi1 : (i 1).val < 128 := idx2_lt1 i
  obtain ⟨t, ht⟩ : ∃ t : Fin cfg26.N, t.val = 19 := ⟨⟨19, by rw [show cfg26.N = 20 from N_26]; norm_num⟩, rfl⟩
  obtain ⟨-, -, -, -, -, -, -, -, e40, e41, e50, e51⟩ := idx_facts t
  refine ⟨t, (flush26_4 t).mpr (by omega), ?_⟩
  rw [mem_blk4]
  intro a
  match a with
  | ⟨0, _⟩ =>
    show win26_4.index t (0 : Fin 2) * 1 ≤ (i 0).val ∧ (i 0).val < win26_4.index t (0 : Fin 2) * 1 + 1
    omega
  | ⟨1, _⟩ =>
    show win26_4.index t (1 : Fin 2) * 128 ≤ (i 1).val ∧ (i 1).val < win26_4.index t (1 : Fin 2) * 128 + 128
    omega

/-- At a point whose number is 19 the carried column sum of squares is the one over all rows. -/
theorem accSumSq_at_last (c : Dev nD) (u : Fin 1) (q : Fin 128) (n : ℕ) (hn : n < 20) (h19 : n = 19) :
    accSumSq V c u q n hn = colSumSq (y V c) q := by
  subst h19
  exact accSumSq_last V c u q

/-- The carried row of window 5 after the last point is the whole row of column sums of squares. -/
theorem outs5_last (c : Dev nD) (t : Fin cfg26.N) (h19 : t.val = 19) :
    (outsAt26 V c t.val t.isLt).2.2 = resultSumSq V c := by
  funext j
  obtain ⟨u, q, rfl⟩ : ∃ (u : Fin 1) (q : Fin 128), j = ix2 u q := ⟨j 0, j 1, eq_ix2 j⟩
  exact accSumSq_at_last V c u q t.val (Nat.lt_of_lt_of_eq t.isLt N_26) h19

/-- What the last point writes back for window 5 is the whole row of column sums of squares: the window's one block
    lies at offset zero, so it reads the whole row. -/
theorem flushed5_eq (c : Dev nD) (t : Fin cfg26.N) (hf : (cfg26.win 5).flush t = true) :
    (dat26 (F := Ideal) V c).flushed 5 t = ((cfg26.win 5).blk t).view.read (Elt Ideal) (resultSumSq V c) := by
  have hN : t.val < 20 := Nat.lt_of_lt_of_eq t.isLt N_26
  have h19 : t.val = 19 := by have := (flush26_5 t).mp hf; omega
  obtain ⟨-, -, -, -, -, -, -, -, e40, e41, e50, e51⟩ := idx_facts t
  have hz' : (fun a => win26_5.index t a * main_v318_2.ty.shape.size a) = fun _ => 0 := funext fun a => by
    match a with
    | ⟨0, _⟩ => show win26_5.index t (0 : Fin 2) * 1 = 0; omega
    | ⟨1, _⟩ => show win26_5.index t (1 : Fin 2) * 128 = 0; omega
  show (cfg26.win 5).cut (grid26.coords t) ((dat26 V c).after 5 t) = _
  rw [after26_5, outs5_last V c t h19]
  exact (Memref.read_access_unit_zero (Elt Ideal) main_v318_2 hz' (fun a => by rw [congrFun hz' a]; simp) (resultSumSq V c)).symm

/-- An entry of the row lies in point t's block of window 5 exactly when each coordinate lies in the block's range. -/
theorem mem_blk5 (t : Fin cfg26.N) (i : S1x128.Idx) :
    i ∈ ((cfg26.win 5).blk t).view.set ↔ ∀ a : Fin 2, win26_5.index t a * S1x128.size a ≤ (i a).val
      ∧ (i a).val < win26_5.index t a * S1x128.size a + S1x128.size a := by
  show i ∈ ((View.whole main_v318_2).slice (win26_5.rect t)).set ↔ _
  rw [View.set_slice_whole, Rect.mem_set_unit]
  exact Iff.rfl

/-- The last point's block of window 5 is the whole row, and the last point writes it back. -/
theorem cover5 (i : S1x128.Idx) :
    ∃ t : Fin cfg26.N, (cfg26.win 5).flush t = true ∧ i ∈ ((cfg26.win 5).blk t).view.set := by
  have hi0 : (i 0).val < 1 := idx2_lt0 i
  have hi1 : (i 1).val < 128 := idx2_lt1 i
  obtain ⟨t, ht⟩ : ∃ t : Fin cfg26.N, t.val = 19 := ⟨⟨19, by rw [show cfg26.N = 20 from N_26]; norm_num⟩, rfl⟩
  obtain ⟨-, -, -, -, -, -, -, -, e40, e41, e50, e51⟩ := idx_facts t
  refine ⟨t, (flush26_5 t).mpr (by omega), ?_⟩
  rw [mem_blk5]
  intro a
  match a with
  | ⟨0, _⟩ =>
    show win26_5.index t (0 : Fin 2) * 1 ≤ (i 0).val ∧ (i 0).val < win26_5.index t (0 : Fin 2) * 1 + 1
    omega
  | ⟨1, _⟩ =>
    show win26_5.index t (1 : Fin 2) * 128 ≤ (i 1).val ∧ (i 1).val < win26_5.index t (1 : Fin 2) * 128 + 128
    omega

/-- THE INTERFACE of this region, one statement per output window. -/
theorem arrAt_y (c : Dev nD) : (dat26 (F := Ideal) V c).arrAt 3 cfg26.N = resultY V c :=
  (dat26 V c).arrAt_eq_of_cover 3 (resultY V c) (fun t _ => flushed3_eq V c t) cover3

theorem arrAt_sum (c : Dev nD) : (dat26 (F := Ideal) V c).arrAt 4 cfg26.N = resultSum V c :=
  (dat26 V c).arrAt_eq_of_cover 4 (resultSum V c) (fun t hf => flushed4_eq V c t hf) cover4

theorem arrAt_sumsq (c : Dev nD) : (dat26 (F := Ideal) V c).arrAt 5 cfg26.N = resultSumSq V c :=
  (dat26 V c).arrAt_eq_of_cover 5 (resultSumSq V c) (fun t hf => flushed5_eq V c t hf) cover5

end Cert.KernelIdeal.ValSingle26

end
-- ==== Proof.ValNorm27Pay.lean ====
/-
  Region 27's arithmetic: what the normalisation's body computes at one row and column of a block, from the block of the
  linear stage's output and the four statistic and parameter rows. This normalisation is not followed by max(·, 0).
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm27

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block. -/
theorem pay_apply (var : Vec Ideal S1x128 .f32) (y : Vec Ideal S5000x128 .f32) (mean g beta : Vec Ideal S1x128 .f32)
    (p : Fin 5000) (q : Fin 128) :
    k27_pay1 (F := Ideal) var y mean g beta (ix2 p q)
      = StageSpec.norm (y (ix2 p q)) (mean (ix2 (0 : Fin 1) q)) (var (ix2 (0 : Fin 1) q)) (g (ix2 (0 : Fin 1) q)) (beta (ix2 (0 : Fin 1) q)) := by
  unfold k27_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The two zero offsets of a load or a store of a whole buffer. -/
theorem hz : (![0, 0] : Fin 2 → Nat) = fun _ => 0 := funext fun a => by fin_cases a <;> rfl

end Cert.KernelIdeal.ValNorm27

end
-- ==== Proof.ValNorm27.lean ====
/-
  Region 27: a normalisation with no max(·, 0) after it. Every grid point takes a block of 5000 rows of the linear stage's
  output and the four statistic and parameter rows, and writes back, entry by entry, the normalised value.
  The twenty blocks tile the 100000 rows, so the output array as a whole is that function of the region's input arrays.
-/
import proofs.«414479_j7705171329025_1_alg».proof.Proof.FrameKI.R27
import proofs.«414479_j7705171329025_1_alg».proof.Proof.StageSpec
import proofs.«414479_j7705171329025_1_alg».proof.Proof.ValNorm27Pay
import Idealize.ShloMosaic.Lib.Pipeline.Value
import Idealize.ShloMosaic.Lib.ValueIdx
import Idealize.ShloMosaic.Lib.ValueLayout

set_option maxRecDepth 16384

noncomputable section

namespace Cert.KernelIdeal.ValNorm27

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x128 .f32 := V c (Pipeline.arrRef spec27 0)
abbrev meanRow (c : Dev nD) : Vec Ideal S1x128 .f32 := V c (Pipeline.arrRef spec27 1)
abbrev varRow (c : Dev nD) : Vec Ideal S1x128 .f32 := V c (Pipeline.arrRef spec27 2)
abbrev gRow (c : Dev nD) : Vec Ideal S1x128 .f32 := V c (Pipeline.arrRef spec27 3)
abbrev betaRow (c : Dev nD) : Vec Ideal S1x128 .f32 := V c (Pipeline.arrRef spec27 4)

/-- What the region leaves in its output array: the normalised entry, at every row and column. -/
def result (c : Dev nD) : Vec Ideal S100000x128 .f32 := fun i =>
  StageSpec.norm (yArr V c i) (meanRow V c (ix2 (0 : Fin 1) (i 1))) (varRow V c (ix2 (0 : Fin 1) (i 1)))
    (gRow V c (ix2 (0 : Fin 1) (i 1))) (betaRow V c (ix2 (0 : Fin 1) (i 1)))

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x128 .f32) (x1 x2 x3 x4 : Vec Ideal S1x128 .f32) (p : Fin 5000) (q : Fin 128) :
    out27_5 x0 x1 x2 x3 x4 (ix2 p q)
      = StageSpec.norm (x0 (ix2 p q)) (x1 (ix2 (0 : Fin 1) q)) (x2 (ix2 (0 : Fin 1) q)) (x3 (ix2 (0 : Fin 1) q)) (x4 (ix2 (0 : Fin 1) q)) := by
  unfold out27_5
  rw [View.canon_unit_zero hz]
  simp only [View.ld_unit_zero (S := S1x128) hz, View.ld_unit_zero (S := S5000x128) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg27.N,
    win27_0.index t (0 : Fin 2) = t.val ∧ win27_0.index t (1 : Fin 2) = 0
    ∧ win27_1.index t (0 : Fin 2) = 0 ∧ win27_1.index t (1 : Fin 2) = 0
    ∧ win27_2.index t (0 : Fin 2) = 0 ∧ win27_2.index t (1 : Fin 2) = 0
    ∧ win27_3.index t (0 : Fin 2) = 0 ∧ win27_3.index t (1 : Fin 2) = 0
    ∧ win27_4.index t (0 : Fin 2) = 0 ∧ win27_4.index t (1 : Fin 2) = 0
    ∧ win27_5.index t (0 : Fin 2) = t.val ∧ win27_5.index t (1 : Fin 2) = 0 :=
  (by decide +kernel : ∀ t : Fin grid27.N, _)

/-- Row `p`, column `q` of the output's block at point `t` is row 5000·t + p, column q of the array: a block's coordinate
    is its index times its extent plus the coordinate inside it. -/
theorem emb_out (t : Fin cfg27.N) (p : Fin 5000) (q : Fin 128) (h : t.val * 5000 + p.val < 100000) :
    ((cfg27.win 5).blk t).view.emb (ix2 p q) = (ix2 ⟨t.val * 5000 + p.val, h⟩ q : S100000x128.Idx) := by
  obtain ⟨-, -, -, -, -, -, -, -, -, -, e50, e51⟩ := idx_facts t
  funext a; apply Fin.ext
  match a with
  | ⟨0, _⟩ => show win27_5.index t (0 : Fin 2) * 5000 + 1 * p.val = t.val * 5000 + p.val; omega
  | ⟨1, _⟩ => show win27_5.index t (1 : Fin 2) * 128 + 1 * q.val = q.val; omega

/-- The tall input's block at point `t`, read at (p, q), is the array at row 5000·t + p, column q: the same rows the
    output's block has there. -/
theorem y_apply (c : Dev nD) (t : Fin cfg27.N) (p : Fin 5000) (q : Fin 128) (h : t.val * 5000 + p.val < 100000) :
    (iblk27 V c 0 t : Vec Ideal S5000x128 .f32) (ix2 p q) = yArr V c (ix2 ⟨t.val * 5000 + p.val, h⟩ q) := by
  obtain ⟨e00, e01, -⟩ := idx_facts t
  unfold iblk27
  rw [View.read_apply]
  show yArr V c (((cfg27.win 0).blk t).view.emb (ix2 p q)) = _
  refine congrArg (yArr V c) ?_
  funext a; apply Fin.ext
  match a with
  | ⟨0, _⟩ => show win27_0.index t (0 : Fin 2) * 5000 + 1 * p.val = t.val * 5000 + p.val; omega
  | ⟨1, _⟩ => show win27_0.index t (1 : Fin 2) * 128 + 1 * q.val = q.val; omega

/-- The mean row's block, at every point, is the row. -/
theorem mean_apply (c : Dev nD) (t : Fin cfg27.N) (q : Fin 128) :
    (iblk27 V c 1 t : Vec Ideal S1x128 .f32) (ix2 (0 : Fin 1) q) = meanRow V c (ix2 (0 : Fin 1) q) := by
  obtain ⟨-, -, e10, e11, -⟩ := idx_facts t
  unfold iblk27
  rw [View.read_apply]
  show meanRow V c (((cfg27.win 1).blk t).view.emb (ix2 (0 : Fin 1) q)) = _
  refine congrArg (meanRow V c) ?_
  funext a; apply Fin.ext
  match a with
  | ⟨0, _⟩ => show win27_1.index t (0 : Fin 2) * 1 + 1 * 0 = 0; omega
  | ⟨1, _⟩ => show win27_1.index t (1 : Fin 2) * 128 + 1 * q.val = q.val; omega

/-- The variance row's block, at every point, is the row. -/
theorem var_apply (c : Dev nD) (t : Fin cfg27.N) (q : Fin 128) :
    (iblk27 V c 2 t : Vec Ideal S1x128 .f32) (ix2 (0 : Fin 1) q) = varRow V c (ix2 (0 : Fin 1) q) := by
  obtain ⟨-, -, -, -, e20, e21, -⟩ := idx_facts t
  unfold iblk27
  rw [View.read_apply]
  show varRow V c (((cfg27.win 2).blk t).view.emb (ix2 (0 : Fin 1) q)) = _
  refine congrArg (varRow V c) ?_
  funext a; apply Fin.ext
  match a with
  | ⟨0, _⟩ => show win27_2.index t (0 : Fin 2) * 1 + 1 * 0 = 0; omega
  | ⟨1, _⟩ => show win27_2.index t (1 : Fin 2) * 128 + 1 * q.val = q.val; omega

/-- The scale row's block, at every point, is the row. -/
theorem g_apply (c : Dev nD) (t : Fin cfg27.N) (q : Fin 128) :
    (iblk27 V c 3 t : Vec Ideal S1x128 .f32) (ix2 (0 : Fin 1) q) = gRow V c (ix2 (0 : Fin 1) q) := by
  obtain ⟨-, -, -, -, -, -, e30, e31, -⟩ := idx_facts t
  unfold iblk27
  rw [View.read_apply]
  show gRow V c (((cfg27.win 3).blk t).view.emb (ix2 (0 : Fin 1) q)) = _
  refine congrArg (gRow V c) ?_
  funext a; apply Fin.ext
  match a with
  | ⟨0, _⟩ => show win27_3.index t (0 : Fin 2) * 1 + 1 * 0 = 0; omega
  | ⟨1, _⟩ => show win27_3.index t (1 : Fin 2) * 128 + 1 * q.val = q.val; omega

/-- The shift row's block, at every point, is the row. -/
theorem beta_apply (c : Dev nD) (t : Fin cfg27.N) (q : Fin 128) :
    (iblk27 V c 4 t : Vec Ideal S1x128 .f32) (ix2 (0 : Fin 1) q) = betaRow V c (ix2 (0 : Fin 1) q) := by
  obtain ⟨-, -, -, -, -, -, -, -, e40, e41, -⟩ := idx_facts t
  unfold iblk27
  rw [View.read_apply]
  show betaRow V c (((cfg27.win 4).blk t).view.emb (ix2 (0 : Fin 1) q)) = _
  refine congrArg (betaRow V c) ?_
  funext a; apply Fin.ext
  match a with
  | ⟨0, _⟩ => show win27_4.index t (0 : Fin 2) * 1 + 1 * 0 = 0; omega
  | ⟨1, _⟩ => show win27_4.index t (1 : Fin 2) * 128 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg27.N) :
    (dat27 (F := Ideal) V c).flushed 5 t = ((cfg27.win 5).blk t).view.read (Elt Ideal) (result V c) := by
  show (cfg27.win 5).cut (grid27.coords t) ((dat27 V c).after 5 t) = _
  rw [after27_5]
  have ht : t.val < 20 := Nat.lt_of_lt_of_eq t.isLt N_27
  funext j
  obtain ⟨p, q, rfl⟩ : ∃ (p : Fin 5000) (q : Fin 128), j = ix2 p q := ⟨j 0, j 1, eq_ix2 j⟩
  have h : t.val * 5000 + p.val < 100000 := by have := p.isLt; omega
  show out27_5 (iblk27 V c 0 t) (iblk27 V c 1 t) (iblk27 V c 2 t) (iblk27 V c 3 t) (iblk27 V c 4 t) (ix2 p q)
      = result V c (((cfg27.win 5).blk t).view.emb (ix2 p q))
  refine (out_apply (iblk27 V c 0 t) (iblk27 V c 1 t) (iblk27 V c 2 t) (iblk27 V c 3 t) (iblk27 V c 4 t) p q).trans ?_
  refine Eq.trans ?_ (congrArg (result V c) (emb_out t p q h)).symm
  refine Eq.trans ?_ (show StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg27.N) (i : S100000x128.Idx) :
    i ∈ ((cfg27.win 5).blk t).view.set ↔ ∀ a : Fin 2, win27_5.index t a * S5000x128.size a ≤ (i a).val
      ∧ (i a).val < win27_5.index t a * S5000x128.size a + S5000x128.size a := by
  show i ∈ ((View.whole main_v327).slice (win27_5.rect t)).set ↔ _
  rw [View.set_slice_whole, Rect.mem_set_unit]
  exact Iff.rfl

/-- The twenty blocks tile the array: row `r` is in the block of point `r / 5000`, and every point writes its block back. -/
theorem cover (i : S100000x128.Idx) :
    ∃ t : Fin cfg27.N, (cfg27.win 5).flush t = true ∧ i ∈ ((cfg27.win 5).blk t).view.set := by
  have hi0 : (i 0).val < 100000 := idx2_lt0 i
  have hi1 : (i 1).val < 128 := idx2_lt1 i
  obtain ⟨t, ht⟩ : ∃ t : Fin cfg27.N, t.val = (i 0).val / 5000 :=
    ⟨⟨(i 0).val / 5000, by rw [show cfg27.N = 20 from N_27]; omega⟩, rfl⟩
  obtain ⟨-, -, -, -, -, -, -, -, -, -, e50, e51⟩ := idx_facts t
  refine ⟨t, flush27_5 t, ?_⟩
  rw [mem_blk]
  intro a
  match a with
  | ⟨0, _⟩ =>
    show win27_5.index t (0 : Fin 2) * 5000 ≤ (i 0).val ∧ (i 0).val < win27_5.index t (0 : Fin 2) * 5000 + 5000
    omega
  | ⟨1, _⟩ =>
    show win27_5.index t (1 : Fin 2) * 128 ≤ (i 1).val ∧ (i 1).val < win27_5.index t (1 : Fin 2) * 128 + 128
    omega

/-- THE INTERFACE of this region: after its twenty points the output array is `result`. -/
theorem arrAt_out (c : Dev nD) : (dat27 (F := Ideal) V c).arrAt 5 cfg27.N = result V c := by
  exact (dat27 V c).arrAt_eq_of_cover 5 (result V c) (fun t _ => flushed_eq V c t) cover

end Cert.KernelIdeal.ValNorm27

end
-- ==== Proof.HostLin26.lean ====
/-
  The host operation before a linear stage: it lays the stage's bias out as a row. Read here at any contents of
  the buffers before the stretch.
-/
import proofs.«414479_j7705171329025_1_alg».proof.Proof.Gen.KernelIdeal.Launch
import Idealize.ShloMosaic.Lib.StableHlo.Run

noncomputable section

namespace Cert.KernelIdeal.HostLin26

open Cert.KernelIdeal Cert.KernelIdeal.Gen
open Idealize.ShloMosaic Idealize.ShloMosaic.TcCoe Idealize.ShloMosaic.StableHlo

variable {F : FTy → Type} [FloatOps F]
variable (W : Valuation τ sig (Elt F))

/-- The bias, laid out as a row: the same entries in row-major order. -/
theorem read_b : (StableHlo.after hostOps26 W (Proc.devRef .tc main_v317) : (⟨S1x128, .f32⟩ : BufTy).Contents (Elt F))
    = shapeCast S1x128 (W (Proc.devRef .tc main_arg16)) shapeCasts_S128_S1x128 := by
  after_results <;> rfl

/-- The stage's input array is not written. -/
theorem read_keep : StableHlo.after hostOps26 W (Proc.devRef .tc main_v316) = W (Proc.devRef .tc main_v316) := by
  refine StableHlo.after_of_forall_not_mem _ _ fun op h => ?_
  fin_cases h <;> simp only [reshape_writes, Finset.mem_singleton] <;>
    exact devRef_ne_of_ne (by decide)

/-- The stage's weights are not written. -/
theorem read_keep_w : StableHlo.after hostOps26 W (Proc.devRef .tc main_arg15) = W (Proc.devRef .tc main_arg15) := by
  refine StableHlo.after_of_forall_not_mem _ _ fun op h => ?_
  fin_cases h <;> simp only [reshape_writes, Finset.mem_singleton] <;>
    exact devRef_ne_of_ne (by decide)

/-- The references the stretch writes, in order. -/
abbrev written : List (Ref sig .tc) :=
  [main_v317]

/-- Every operation of the stretch writes one of them. -/
theorem writes : (hostOps26 : List (HloOp τ sig (Elt F))).Forall fun op =>
    op.writes ⊆ (written.map (Proc.devRef (τ := τ) .tc)).toFinset := by
  simp only [List.Forall]
  repeat' apply And.intro
  all_goals
    simp only [reshape_writes, Finset.singleton_subset_iff, List.mem_toFinset]
    exact List.mem_map_of_mem (by decide)

/-- A reference the stretch does not write keeps its contents. -/
theorem keep {r : Ref sig .tc} (h : r ∉ written) : StableHlo.after hostOps26 W (Proc.devRef .tc r) = W (Proc.devRef .tc r) :=
  StableHlo.after_of_writes_sub hostOps26 W writes h

end Cert.KernelIdeal.HostLin26

end
-- ==== Proof.HostStats27.lean ====
/-
  The host operations between a linear stage and its normalisation. From the two carried rows the
  region leaves (the column sums and the column sums of squares) they form the mean (the sum over 100000), the mean
  of squares, and the variance as the mean of squares less the squared mean; and they lay the scale and the shift of
  the batch norm out as rows. Read here at any contents of the buffers before the stretch.
-/
import proofs.«414479_j7705171329025_1_alg».proof.Proof.Gen.KernelIdeal.Launch
import Idealize.ShloMosaic.Lib.StableHlo.Run

noncomputable section

namespace Cert.KernelIdeal.HostStats27

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x128, .f32⟩ : BufTy).Contents (Elt F) := broadcastInDim S1x128 ![] bcast_S_S1x128 (constant S_ .f32 0x47C35000#32)

/-- The mean row: the column sums over the divisor. -/
theorem read_mean : (StableHlo.after hostOps27 W (Proc.devRef .tc main_v320) : (⟨S1x128, .f32⟩ : BufTy).Contents (Elt F))
    = Host.divf (W (Proc.devRef .tc main_v318_1)) nRow := by
  after_results; rfl

/-- The variance row: the mean of squares less the squared mean. -/
theorem read_var : (StableHlo.after hostOps27 W (Proc.devRef .tc main_v324) : (⟨S1x128, .f32⟩ : BufTy).Contents (Elt F))
    = subf (Host.divf (W (Proc.devRef .tc main_v318_2)) nRow)
        (mulf (Host.divf (W (Proc.devRef .tc main_v318_1)) nRow) (Host.divf (W (Proc.devRef .tc main_v318_1)) nRow)) := by
  after_results; rfl

/-- The scale, laid out as a row: the same entries in row-major order. -/
theorem read_g : (StableHlo.after hostOps27 W (Proc.devRef .tc main_v325) : (⟨S1x128, .f32⟩ : BufTy).Contents (Elt F))
    = shapeCast S1x128 (W (Proc.devRef .tc main_arg17)) shapeCasts_S128_S1x128 := by
  after_results; rfl

/-- The shift, laid out as a row. -/
theorem read_beta : (StableHlo.after hostOps27 W (Proc.devRef .tc main_v326) : (⟨S1x128, .f32⟩ : BufTy).Contents (Elt F))
    = shapeCast S1x128 (W (Proc.devRef .tc main_arg18)) shapeCasts_S128_S1x128 := by
  after_results; rfl

/-- A buffer the stretch does not write keeps its contents: the linear stage's output array. -/
theorem read_y : StableHlo.after hostOps27 W (Proc.devRef .tc main_v318_0) = W (Proc.devRef .tc main_v318_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats27

end
-- ==== Proof.Carry8.lean ====
import proofs.«414479_j7705171329025_1_alg».proof.Proof.FrameKI.Run

set_option maxRecDepth 16384

noncomputable section

namespace Cert.KernelIdeal.Carry

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- Nothing between boundary 0 and boundary 58 of the run writes `main_arg22`: it keeps its contents. -/
theorem main_arg22_0_58 (c : Dev nD) : W58 m ρ c (Proc.devRef .tc main_arg22) = W0 m ρ c (Proc.devRef .tc main_arg22) :=
  calc W58 m ρ c (Proc.devRef .tc main_arg22)
    _ = W57 m ρ c (Proc.devRef .tc main_arg22) := W58_of_ne m ρ c main_arg22 (by decide)
    _ = W56 m ρ c (Proc.devRef .tc main_arg22) := StableHlo.after_of_forall_not_mem (b := Proc.devRef .tc main_arg22) _ _ (List.forall_iff_forall_mem.mp (by
          simp only [hostOps28, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W55 m ρ c (Proc.devRef .tc main_arg22) := W56_of_ne m ρ c main_arg22 (by decide)
    _ = W54 m ρ c (Proc.devRef .tc main_arg22) := StableHlo.after_of_forall_not_mem (b := Proc.devRef .tc main_arg22) _ _ (List.forall_iff_forall_mem.mp (by
          simp only [hostOps27, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W53 m ρ c (Proc.devRef .tc main_arg22) := W54_of_ne m ρ c main_arg22 (by decide)
    _ = W52 m ρ c (Proc.devRef .tc main_arg22) := StableHlo.after_of_forall_not_mem (b := Proc.devRef .tc main_arg22) _ _ (List.forall_iff_forall_mem.mp (by
          simp only [hostOps26, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W51 m ρ c (Proc.devRef .tc main_arg22) := W52_of_ne m ρ c main_arg22 (by decide)
    _ = W50 m ρ c (Proc.devRef .tc main_arg22) := StableHlo.after_of_forall_not_mem (b := Proc.devRef .tc main_arg22) _ _ (List.forall_iff_forall_mem.mp (by
          simp only [hostOps25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W49 m ρ c (Proc.devRef .tc main_arg22) := W50_of_ne m ρ c main_arg22 (by decide)
    _ = W48 m ρ c (Proc.devRef .tc main_arg22) := StableHlo.after_of_forall_not_mem (b := Proc.devRef .tc main_arg22) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg22) := W48_of_ne m ρ c main_arg22 (by decide)
    _ = W46 m ρ c (Proc.devRef .tc main_arg22) := StableHlo.after_of_forall_not_mem (b := Proc.devRef .tc main_arg22) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg22) := W46_of_ne m ρ c main_arg22 (by decide)
    _ = W44 m ρ c (Proc.devRef .tc main_arg22) := StableHlo.after_of_forall_not_mem (b := Proc.devRef .tc main_arg22) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg22) := W44_of_ne m ρ c main_arg22 (by decide)
    _ = W42 m ρ c (Proc.devRef .tc main_arg22) := StableHlo.after_of_forall_not_mem (b := Proc.devRef .tc main_arg22) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg22) := W42_of_ne m ρ c main_arg22 (by decide)
    _ = W40 m ρ c (Proc.devRef .tc main_arg22) := StableHlo.after_of_forall_not_mem (b := Proc.devRef .tc main_arg22) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg22) := W40_of_ne m ρ c main_arg22 (by decide)
    _ = W38 m ρ c (Proc.devRef .tc main_arg22) := StableHlo.after_of_forall_not_mem (b := Proc.devRef .tc main_arg22) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg22) := W38_of_ne m ρ c main_arg22 (by decide)
    _ = W36 m ρ c (Proc.devRef .tc main_arg22) := StableHlo.after_of_forall_not_mem (b := Proc.devRef .tc main_arg22) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg22) := W36_of_ne m ρ c main_arg22 (by decide)
    _ = W34 m ρ c (Proc.devRef .tc main_arg22) := StableHlo.after_of_forall_not_mem (b := Proc.devRef .tc main_arg22) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg22) := W34_of_ne m ρ c main_arg22 (by decide)
    _ = W32 m ρ c (Proc.devRef .tc main_arg22) := StableHlo.after_of_forall_not_mem (b := Proc.devRef .tc main_arg22) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg22) := W32_of_ne m ρ c main_arg22 (by decide)
    _ = W30 m ρ c (Proc.devRef .tc main_arg22) := StableHlo.after_of_forall_not_mem (b := Proc.devRef .tc main_arg22) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg22) := W30_of_ne m ρ c main_arg22 (by decide)
    _ = W28 m ρ c (Proc.devRef .tc main_arg22) := StableHlo.after_of_forall_not_mem (b := Proc.devRef .tc main_arg22) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg22) := W28_of_ne m ρ c main_arg22 (by decide)
    _ = W26 m ρ c (Proc.devRef .tc main_arg22) := StableHlo.after_of_forall_not_mem (b := Proc.devRef .tc main_arg22) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg22) := W26_of_ne m ρ c main_arg22 (by decide)
    _ = W24 m ρ c (Proc.devRef .tc main_arg22) := StableHlo.after_of_forall_not_mem (b := Proc.devRef .tc main_arg22) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg22) := W24_of_ne m ρ c main_arg22 (by decide)
    _ = W22 m ρ c (Proc.devRef .tc main_arg22) := StableHlo.after_of_forall_not_mem (b := Proc.devRef .tc main_arg22) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg22) := W22_of_ne m ρ c main_arg22 (by decide)
    _ = W20 m ρ c (Proc.devRef .tc main_arg22) := StableHlo.after_of_forall_not_mem (b := Proc.devRef .tc main_arg22) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg22) := W20_of_ne m ρ c main_arg22 (by decide)
    _ = W18 m ρ c (Proc.devRef .tc main_arg22) := StableHlo.after_of_forall_not_mem (b := Proc.devRef .tc main_arg22) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg22) := W18_of_ne m ρ c main_arg22 (by decide)
    _ = W16 m ρ c (Proc.devRef .tc main_arg22) := StableHlo.after_of_forall_not_mem (b := Proc.devRef .tc main_arg22) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg22) := W16_of_ne m ρ c main_arg22 (by decide)
    _ = W14 m ρ c (Proc.devRef .tc main_arg22) := StableHlo.after_of_forall_not_mem (b := Proc.devRef .tc main_arg22) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg22) := W14_of_ne m ρ c main_arg22 (by decide)
    _ = W12 m ρ c (Proc.devRef .tc main_arg22) := StableHlo.after_of_forall_not_mem (b := Proc.devRef .tc main_arg22) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg22) := W12_of_ne m ρ c main_arg22 (by decide)
    _ = W10 m ρ c (Proc.devRef .tc main_arg22) := StableHlo.after_of_forall_not_mem (b := Proc.devRef .tc main_arg22) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg22) := W10_of_ne m ρ c main_arg22 (by decide)
    _ = W8 m ρ c (Proc.devRef .tc main_arg22) := StableHlo.after_of_forall_not_mem (b := Proc.devRef .tc main_arg22) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg22) := W8_of_ne m ρ c main_arg22 (by decide)
    _ = W6 m ρ c (Proc.devRef .tc main_arg22) := StableHlo.after_of_forall_not_mem (b := Proc.devRef .tc main_arg22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg22) := W6_of_ne m ρ c main_arg22 (by decide)
    _ = W4 m ρ c (Proc.devRef .tc main_arg22) := StableHlo.after_of_forall_not_mem (b := Proc.devRef .tc main_arg22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 60 of the run writes `main_arg3`: it keeps its contents. -/
theorem main_arg3_0_60 (c : Dev nD) : W60 m ρ c (Proc.devRef .tc main_arg3) = W0 m ρ c (Proc.devRef .tc main_arg3) :=
  calc W60 m ρ c (Proc.devRef .tc main_arg3)
    _ = W59 m ρ c (Proc.devRef .tc main_arg3) := W60_of_ne m ρ c main_arg3 (by decide)
    _ = W58 m ρ c (Proc.devRef .tc main_arg3) := StableHlo.after_of_forall_not_mem (b := Proc.devRef .tc main_arg3) _ _ (List.forall_iff_forall_mem.mp (by
          simp only [hostOps29, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W57 m ρ c (Proc.devRef .tc main_arg3) := W58_of_ne m ρ c main_arg3 (by decide)
    _ = W56 m ρ c (Proc.devRef .tc main_arg3) := StableHlo.after_of_forall_not_mem (b := Proc.devRef .tc main_arg3) _ _ (List.forall_iff_forall_mem.mp (by
          simp only [hostOps28, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W55 m ρ c (Proc.devRef .tc main_arg3) := W56_of_ne m ρ c main_arg3 (by decide)
    _ = W54 m ρ c (Proc.devRef .tc main_arg3) := StableHlo.after_of_forall_not_mem (b := Proc.devRef .tc main_arg3) _ _ (List.forall_iff_forall_mem.mp (by
          simp only [hostOps27, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W53 m ρ c (Proc.devRef .tc main_arg3) := W54_of_ne m ρ c main_arg3 (by decide)
    _ = W52 m ρ c (Proc.devRef .tc main_arg3) := StableHlo.after_of_forall_not_mem (b := Proc.devRef .tc main_arg3) _ _ (List.forall_iff_forall_mem.mp (by
          simp only [hostOps26, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W51 m ρ c (Proc.devRef .tc main_arg3) := W52_of_ne m ρ c main_arg3 (by decide)
    _ = W50 m ρ c (Proc.devRef .tc main_arg3) := StableHlo.after_of_forall_not_mem (b := Proc.devRef .tc main_arg3) _ _ (List.forall_iff_forall_mem.mp (by
          simp only [hostOps25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W49 m ρ c (Proc.devRef .tc main_arg3) := W50_of_ne m ρ c main_arg3 (by decide)
    _ = W48 m ρ c (Proc.devRef .tc main_arg3) := StableHlo.after_of_forall_not_mem (b := Proc.devRef .tc main_arg3) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg3) := W48_of_ne m ρ c main_arg3 (by decide)
    _ = W46 m ρ c (Proc.devRef .tc main_arg3) := StableHlo.after_of_forall_not_mem (b := Proc.devRef .tc main_arg3) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg3) := W46_of_ne m ρ c main_arg3 (by decide)
    _ = W44 m ρ c (Proc.devRef .tc main_arg3) := StableHlo.after_of_forall_not_mem (b := Proc.devRef .tc main_arg3) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg3) := W44_of_ne m ρ c main_arg3 (by decide)
    _ = W42 m ρ c (Proc.devRef .tc main_arg3) := StableHlo.after_of_forall_not_mem (b := Proc.devRef .tc main_arg3) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg3) := W42_of_ne m ρ c main_arg3 (by decide)
    _ = W40 m ρ c (Proc.devRef .tc main_arg3) := StableHlo.after_of_forall_not_mem (b := Proc.devRef .tc main_arg3) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg3) := W40_of_ne m ρ c main_arg3 (by decide)
    _ = W38 m ρ c (Proc.devRef .tc main_arg3) := StableHlo.after_of_forall_not_mem (b := Proc.devRef .tc main_arg3) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg3) := W38_of_ne m ρ c main_arg3 (by decide)
    _ = W36 m ρ c (Proc.devRef .tc main_arg3) := StableHlo.after_of_forall_not_mem (b := Proc.devRef .tc main_arg3) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg3) := W36_of_ne m ρ c main_arg3 (by decide)
    _ = W34 m ρ c (Proc.devRef .tc main_arg3) := StableHlo.after_of_forall_not_mem (b := Proc.devRef .tc main_arg3) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg3) := W34_of_ne m ρ c main_arg3 (by decide)
    _ = W32 m ρ c (Proc.devRef .tc main_arg3) := StableHlo.after_of_forall_not_mem (b := Proc.devRef .tc main_arg3) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg3) := W32_of_ne m ρ c main_arg3 (by decide)
    _ = W30 m ρ c (Proc.devRef .tc main_arg3) := StableHlo.after_of_forall_not_mem (b := Proc.devRef .tc main_arg3) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg3) := W30_of_ne m ρ c main_arg3 (by decide)
    _ = W28 m ρ c (Proc.devRef .tc main_arg3) := StableHlo.after_of_forall_not_mem (b := Proc.devRef .tc main_arg3) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg3) := W28_of_ne m ρ c main_arg3 (by decide)
    _ = W26 m ρ c (Proc.devRef .tc main_arg3) := StableHlo.after_of_forall_not_mem (b := Proc.devRef .tc main_arg3) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg3) := W26_of_ne m ρ c main_arg3 (by decide)
    _ = W24 m ρ c (Proc.devRef .tc main_arg3) := StableHlo.after_of_forall_not_mem (b := Proc.devRef .tc main_arg3) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg3) := W24_of_ne m ρ c main_arg3 (by decide)
    _ = W22 m ρ c (Proc.devRef .tc main_arg3) := StableHlo.after_of_forall_not_mem (b := Proc.devRef .tc main_arg3) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg3) := W22_of_ne m ρ c main_arg3 (by decide)
    _ = W20 m ρ c (Proc.devRef .tc main_arg3) := StableHlo.after_of_forall_not_mem (b := Proc.devRef .tc main_arg3) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg3) := W20_of_ne m ρ c main_arg3 (by decide)
    _ = W18 m ρ c (Proc.devRef .tc main_arg3) := StableHlo.after_of_forall_not_mem (b := Proc.devRef .tc main_arg3) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg3) := W18_of_ne m ρ c main_arg3 (by decide)
    _ = W16 m ρ c (Proc.devRef .tc main_arg3) := StableHlo.after_of_forall_not_mem (b := Proc.devRef .tc main_arg3) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg3) := W16_of_ne m ρ c main_arg3 (by decide)
    _ = W14 m ρ c (Proc.devRef .tc main_arg3) := StableHlo.after_of_forall_not_mem (b := Proc.devRef .tc main_arg3) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg3) := W14_of_ne m ρ c main_arg3 (by decide)
    _ = W12 m ρ c (Proc.devRef .tc main_arg3) := StableHlo.after_of_forall_not_mem (b := Proc.devRef .tc main_arg3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg3) := W12_of_ne m ρ c main_arg3 (by decide)
    _ = W10 m ρ c (Proc.devRef .tc main_arg3) := StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 62 of the run writes `main_arg4`: it keeps its contents. -/
theorem main_arg4_0_62 (c : Dev nD) : W62 m ρ c (Proc.devRef .tc main_arg4) = W0 m ρ c (Proc.devRef .tc main_arg4) :=
  calc W62 m ρ c (Proc.devRef .tc main_arg4)
    _ = W61 m ρ c (Proc.devRef .tc main_arg4) := StableHlo.after_of_forall_not_mem (b := Proc.devRef .tc main_arg4) _ _ (List.forall_iff_forall_mem.mp (by
          simp only [hostOps30_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W60 m ρ c (Proc.devRef .tc main_arg4) := StableHlo.after_of_forall_not_mem (b := Proc.devRef .tc main_arg4) _ _ (List.forall_iff_forall_mem.mp (by
          simp only [hostOps30, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W59 m ρ c (Proc.devRef .tc main_arg4) := W60_of_ne m ρ c main_arg4 (by decide)
    _ = W58 m ρ c (Proc.devRef .tc main_arg4) := StableHlo.after_of_forall_not_mem (b := Proc.devRef .tc main_arg4) _ _ (List.forall_iff_forall_mem.mp (by
          simp only [hostOps29, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W57 m ρ c (Proc.devRef .tc main_arg4) := W58_of_ne m ρ c main_arg4 (by decide)
    _ = W56 m ρ c (Proc.devRef .tc main_arg4) := StableHlo.after_of_forall_not_mem (b := Proc.devRef .tc main_arg4) _ _ (List.forall_iff_forall_mem.mp (by
          simp only [hostOps28, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W55 m ρ c (Proc.devRef .tc main_arg4) := W56_of_ne m ρ c main_arg4 (by decide)
    _ = W54 m ρ c (Proc.devRef .tc main_arg4) := StableHlo.after_of_forall_not_mem (b := Proc.devRef .tc main_arg4) _ _ (List.forall_iff_forall_mem.mp (by
          simp only [hostOps27, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W53 m ρ c (Proc.devRef .tc main_arg4) := W54_of_ne m ρ c main_arg4 (by decide)
    _ = W52 m ρ c (Proc.devRef .tc main_arg4) := StableHlo.after_of_forall_not_mem (b := Proc.devRef .tc main_arg4) _ _ (List.forall_iff_forall_mem.mp (by
          simp only [hostOps26, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W51 m ρ c (Proc.devRef .tc main_arg4) := W52_of_ne m ρ c main_arg4 (by decide)
    _ = W50 m ρ c (Proc.devRef .tc main_arg4) := StableHlo.after_of_forall_not_mem (b := Proc.devRef .tc main_arg4) _ _ (List.forall_iff_forall_mem.mp (by
          simp only [hostOps25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W49 m ρ c (Proc.devRef .tc main_arg4) := W50_of_ne m ρ c main_arg4 (by decide)
    _ = W48 m ρ c (Proc.devRef .tc main_arg4) := StableHlo.after_of_forall_not_mem (b := Proc.devRef .tc main_arg4) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg4) := W48_of_ne m ρ c main_arg4 (by decide)
    _ = W46 m ρ c (Proc.devRef .tc main_arg4) := StableHlo.after_of_forall_not_mem (b := Proc.devRef .tc main_arg4) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg4) := W46_of_ne m ρ c main_arg4 (by decide)
    _ = W44 m ρ c (Proc.devRef .tc main_arg4) := StableHlo.after_of_forall_not_mem (b := Proc.devRef .tc main_arg4) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg4) := W44_of_ne m ρ c main_arg4 (by decide)
    _ = W42 m ρ c (Proc.devRef .tc main_arg4) := StableHlo.after_of_forall_not_mem (b := Proc.devRef .tc main_arg4) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg4) := W42_of_ne m ρ c main_arg4 (by decide)
    _ = W40 m ρ c (Proc.devRef .tc main_arg4) := StableHlo.after_of_forall_not_mem (b := Proc.devRef .tc main_arg4) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg4) := W40_of_ne m ρ c main_arg4 (by decide)
    _ = W38 m ρ c (Proc.devRef .tc main_arg4) := StableHlo.after_of_forall_not_mem (b := Proc.devRef .tc main_arg4) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg4) := W38_of_ne m ρ c main_arg4 (by decide)
    _ = W36 m ρ c (Proc.devRef .tc main_arg4) := StableHlo.after_of_forall_not_mem (b := Proc.devRef .tc main_arg4) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg4) := W36_of_ne m ρ c main_arg4 (by decide)
    _ = W34 m ρ c (Proc.devRef .tc main_arg4) := StableHlo.after_of_forall_not_mem (b := Proc.devRef .tc main_arg4) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg4) := W34_of_ne m ρ c main_arg4 (by decide)
    _ = W32 m ρ c (Proc.devRef .tc main_arg4) := StableHlo.after_of_forall_not_mem (b := Proc.devRef .tc main_arg4) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg4) := W32_of_ne m ρ c main_arg4 (by decide)
    _ = W30 m ρ c (Proc.devRef .tc main_arg4) := StableHlo.after_of_forall_not_mem (b := Proc.devRef .tc main_arg4) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg4) := W30_of_ne m ρ c main_arg4 (by decide)
    _ = W28 m ρ c (Proc.devRef .tc main_arg4) := StableHlo.after_of_forall_not_mem (b := Proc.devRef .tc main_arg4) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg4) := W28_of_ne m ρ c main_arg4 (by decide)
    _ = W26 m ρ c (Proc.devRef .tc main_arg4) := StableHlo.after_of_forall_not_mem (b := Proc.devRef .tc main_arg4) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg4) := W26_of_ne m ρ c main_arg4 (by decide)
    _ = W24 m ρ c (Proc.devRef .tc main_arg4) := StableHlo.after_of_forall_not_mem (b := Proc.devRef .tc main_arg4) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg4) := W24_of_ne m ρ c main_arg4 (by decide)
    _ = W22 m ρ c (Proc.devRef .tc main_arg4) := StableHlo.after_of_forall_not_mem (b := Proc.devRef .tc main_arg4) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg4) := W22_of_ne m ρ c main_arg4 (by decide)
    _ = W20 m ρ c (Proc.devRef .tc main_arg4) := StableHlo.after_of_forall_not_mem (b := Proc.devRef .tc main_arg4) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg4) := W20_of_ne m ρ c main_arg4 (by decide)
    _ = W18 m ρ c (Proc.devRef .tc main_arg4) := StableHlo.after_of_forall_not_mem (b := Proc.devRef .tc main_arg4) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg4) := W18_of_ne m ρ c main_arg4 (by decide)
    _ = W16 m ρ c (Proc.devRef .tc main_arg4) := StableHlo.after_of_forall_not_mem (b := Proc.devRef .tc main_arg4) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg4) := W16_of_ne m ρ c main_arg4 (by decide)
    _ = W14 m ρ c (Proc.devRef .tc main_arg4) := StableHlo.after_of_forall_not_mem (b := Proc.devRef .tc main_arg4) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg4) := W14_of_ne m ρ c main_arg4 (by decide)
    _ = W12 m ρ c (Proc.devRef .tc main_arg4) := StableHlo.after_of_forall_not_mem (b := Proc.devRef .tc main_arg4) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg4) := W12_of_ne m ρ c main_arg4 (by decide)
    _ = W10 m ρ c (Proc.devRef .tc main_arg4) := StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 62 of the run writes `main_arg8`: it keeps its contents. -/
theorem main_arg8_0_62 (c : Dev nD) : W62 m ρ c (Proc.devRef .tc main_arg8) = W0 m ρ c (Proc.devRef .tc main_arg8) :=
  calc W62 m ρ c (Proc.devRef .tc main_arg8)
    _ = W61 m ρ c (Proc.devRef .tc main_arg8) := StableHlo.after_of_forall_not_mem (b := Proc.devRef .tc main_arg8) _ _ (List.forall_iff_forall_mem.mp (by
          simp only [hostOps30_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W60 m ρ c (Proc.devRef .tc main_arg8) := StableHlo.after_of_forall_not_mem (b := Proc.devRef .tc main_arg8) _ _ (List.forall_iff_forall_mem.mp (by
          simp only [hostOps30, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W59 m ρ c (Proc.devRef .tc main_arg8) := W60_of_ne m ρ c main_arg8 (by decide)
    _ = W58 m ρ c (Proc.devRef .tc main_arg8) := StableHlo.after_of_forall_not_mem (b := Proc.devRef .tc main_arg8) _ _ (List.forall_iff_forall_mem.mp (by
          simp only [hostOps29, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W57 m ρ c (Proc.devRef .tc main_arg8) := W58_of_ne m ρ c main_arg8 (by decide)
    _ = W56 m ρ c (Proc.devRef .tc main_arg8) := StableHlo.after_of_forall_not_mem (b := Proc.devRef .tc main_arg8) _ _ (List.forall_iff_forall_mem.mp (by
          simp only [hostOps28, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W55 m ρ c (Proc.devRef .tc main_arg8) := W56_of_ne m ρ c main_arg8 (by decide)
    _ = W54 m ρ c (Proc.devRef .tc main_arg8) := StableHlo.after_of_forall_not_mem (b := Proc.devRef .tc main_arg8) _ _ (List.forall_iff_forall_mem.mp (by
          simp only [hostOps27, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W53 m ρ c (Proc.devRef .tc main_arg8) := W54_of_ne m ρ c main_arg8 (by decide)
    _ = W52 m ρ c (Proc.devRef .tc main_arg8) := StableHlo.after_of_forall_not_mem (b := Proc.devRef .tc main_arg8) _ _ (List.forall_iff_forall_mem.mp (by
          simp only [hostOps26, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W51 m ρ c (Proc.devRef .tc main_arg8) := W52_of_ne m ρ c main_arg8 (by decide)
    _ = W50 m ρ c (Proc.devRef .tc main_arg8) := StableHlo.after_of_forall_not_mem (b := Proc.devRef .tc main_arg8) _ _ (List.forall_iff_forall_mem.mp (by
          simp only [hostOps25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W49 m ρ c (Proc.devRef .tc main_arg8) := W50_of_ne m ρ c main_arg8 (by decide)
    _ = W48 m ρ c (Proc.devRef .tc main_arg8) := StableHlo.after_of_forall_not_mem (b := Proc.devRef .tc main_arg8) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg8) := W48_of_ne m ρ c main_arg8 (by decide)
    _ = W46 m ρ c (Proc.devRef .tc main_arg8) := StableHlo.after_of_forall_not_mem (b := Proc.devRef .tc main_arg8) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg8) := W46_of_ne m ρ c main_arg8 (by decide)
    _ = W44 m ρ c (Proc.devRef .tc main_arg8) := StableHlo.after_of_forall_not_mem (b := Proc.devRef .tc main_arg8) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg8) := W44_of_ne m ρ c main_arg8 (by decide)
    _ = W42 m ρ c (Proc.devRef .tc main_arg8) := StableHlo.after_of_forall_not_mem (b := Proc.devRef .tc main_arg8) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg8) := W42_of_ne m ρ c main_arg8 (by decide)
    _ = W40 m ρ c (Proc.devRef .tc main_arg8) := StableHlo.after_of_forall_not_mem (b := Proc.devRef .tc main_arg8) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg8) := W40_of_ne m ρ c main_arg8 (by decide)
    _ = W38 m ρ c (Proc.devRef .tc main_arg8) := StableHlo.after_of_forall_not_mem (b := Proc.devRef .tc main_arg8) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg8) := W38_of_ne m ρ c main_arg8 (by decide)
    _ = W36 m ρ c (Proc.devRef .tc main_arg8) := StableHlo.after_of_forall_not_mem (b := Proc.devRef .tc main_arg8) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg8) := W36_of_ne m ρ c main_arg8 (by decide)
    _ = W34 m ρ c (Proc.devRef .tc main_arg8) := StableHlo.after_of_forall_not_mem (b := Proc.devRef .tc main_arg8) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg8) := W34_of_ne m ρ c main_arg8 (by decide)
    _ = W32 m ρ c (Proc.devRef .tc main_arg8) := StableHlo.after_of_forall_not_mem (b := Proc.devRef .tc main_arg8) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg8) := W32_of_ne m ρ c main_arg8 (by decide)
    _ = W30 m ρ c (Proc.devRef .tc main_arg8) := StableHlo.after_of_forall_not_mem (b := Proc.devRef .tc main_arg8) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg8) := W30_of_ne m ρ c main_arg8 (by decide)
    _ = W28 m ρ c (Proc.devRef .tc main_arg8) := StableHlo.after_of_forall_not_mem (b := Proc.devRef .tc main_arg8) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg8) := W28_of_ne m ρ c main_arg8 (by decide)
    _ = W26 m ρ c (Proc.devRef .tc main_arg8) := StableHlo.after_of_forall_not_mem (b := Proc.devRef .tc main_arg8) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg8) := W26_of_ne m ρ c main_arg8 (by decide)
    _ = W24 m ρ c (Proc.devRef .tc main_arg8) := StableHlo.after_of_forall_not_mem (b := Proc.devRef .tc main_arg8) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg8) := W24_of_ne m ρ c main_arg8 (by decide)
    _ = W22 m ρ c (Proc.devRef .tc main_arg8) := StableHlo.after_of_forall_not_mem (b := Proc.devRef .tc main_arg8) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg8) := W22_of_ne m ρ c main_arg8 (by decide)
    _ = W20 m ρ c (Proc.devRef .tc main_arg8) := StableHlo.after_of_forall_not_mem (b := Proc.devRef .tc main_arg8) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg8) := W20_of_ne m ρ c main_arg8 (by decide)
    _ = W18 m ρ c (Proc.devRef .tc main_arg8) := StableHlo.after_of_forall_not_mem (b := Proc.devRef .tc main_arg8) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg8) := W18_of_ne m ρ c main_arg8 (by decide)
    _ = W16 m ρ c (Proc.devRef .tc main_arg8) := StableHlo.after_of_forall_not_mem (b := Proc.devRef .tc main_arg8) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 62 of the run writes `main_arg12`: it keeps its contents. -/
theorem main_arg12_0_62 (c : Dev nD) : W62 m ρ c (Proc.devRef .tc main_arg12) = W0 m ρ c (Proc.devRef .tc main_arg12) :=
  calc W62 m ρ c (Proc.devRef .tc main_arg12)
    _ = W61 m ρ c (Proc.devRef .tc main_arg12) := StableHlo.after_of_forall_not_mem (b := Proc.devRef .tc main_arg12) _ _ (List.forall_iff_forall_mem.mp (by
          simp only [hostOps30_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W60 m ρ c (Proc.devRef .tc main_arg12) := StableHlo.after_of_forall_not_mem (b := Proc.devRef .tc main_arg12) _ _ (List.forall_iff_forall_mem.mp (by
          simp only [hostOps30, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W59 m ρ c (Proc.devRef .tc main_arg12) := W60_of_ne m ρ c main_arg12 (by decide)
    _ = W58 m ρ c (Proc.devRef .tc main_arg12) := StableHlo.after_of_forall_not_mem (b := Proc.devRef .tc main_arg12) _ _ (List.forall_iff_forall_mem.mp (by
          simp only [hostOps29, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W57 m ρ c (Proc.devRef .tc main_arg12) := W58_of_ne m ρ c main_arg12 (by decide)
    _ = W56 m ρ c (Proc.devRef .tc main_arg12) := StableHlo.after_of_forall_not_mem (b := Proc.devRef .tc main_arg12) _ _ (List.forall_iff_forall_mem.mp (by
          simp only [hostOps28, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W55 m ρ c (Proc.devRef .tc main_arg12) := W56_of_ne m ρ c main_arg12 (by decide)
    _ = W54 m ρ c (Proc.devRef .tc main_arg12) := StableHlo.after_of_forall_not_mem (b := Proc.devRef .tc main_arg12) _ _ (List.forall_iff_forall_mem.mp (by
          simp only [hostOps27, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W53 m ρ c (Proc.devRef .tc main_arg12) := W54_of_ne m ρ c main_arg12 (by decide)
    _ = W52 m ρ c (Proc.devRef .tc main_arg12) := StableHlo.after_of_forall_not_mem (b := Proc.devRef .tc main_arg12) _ _ (List.forall_iff_forall_mem.mp (by
          simp only [hostOps26, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W51 m ρ c (Proc.devRef .tc main_arg12) := W52_of_ne m ρ c main_arg12 (by decide)
    _ = W50 m ρ c (Proc.devRef .tc main_arg12) := StableHlo.after_of_forall_not_mem (b := Proc.devRef .tc main_arg12) _ _ (List.forall_iff_forall_mem.mp (by
          simp only [hostOps25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W49 m ρ c (Proc.devRef .tc main_arg12) := W50_of_ne m ρ c main_arg12 (by decide)
    _ = W48 m ρ c (Proc.devRef .tc main_arg12) := StableHlo.after_of_forall_not_mem (b := Proc.devRef .tc main_arg12) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg12) := W48_of_ne m ρ c main_arg12 (by decide)
    _ = W46 m ρ c (Proc.devRef .tc main_arg12) := StableHlo.after_of_forall_not_mem (b := Proc.devRef .tc main_arg12) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg12) := W46_of_ne m ρ c main_arg12 (by decide)
    _ = W44 m ρ c (Proc.devRef .tc main_arg12) := StableHlo.after_of_forall_not_mem (b := Proc.devRef .tc main_arg12) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg12) := W44_of_ne m ρ c main_arg12 (by decide)
    _ = W42 m ρ c (Proc.devRef .tc main_arg12) := StableHlo.after_of_forall_not_mem (b := Proc.devRef .tc main_arg12) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg12) := W42_of_ne m ρ c main_arg12 (by decide)
    _ = W40 m ρ c (Proc.devRef .tc main_arg12) := StableHlo.after_of_forall_not_mem (b := Proc.devRef .tc main_arg12) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg12) := W40_of_ne m ρ c main_arg12 (by decide)
    _ = W38 m ρ c (Proc.devRef .tc main_arg12) := StableHlo.after_of_forall_not_mem (b := Proc.devRef .tc main_arg12) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg12) := W38_of_ne m ρ c main_arg12 (by decide)
    _ = W36 m ρ c (Proc.devRef .tc main_arg12) := StableHlo.after_of_forall_not_mem (b := Proc.devRef .tc main_arg12) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg12) := W36_of_ne m ρ c main_arg12 (by decide)
    _ = W34 m ρ c (Proc.devRef .tc main_arg12) := StableHlo.after_of_forall_not_mem (b := Proc.devRef .tc main_arg12) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg12) := W34_of_ne m ρ c main_arg12 (by decide)
    _ = W32 m ρ c (Proc.devRef .tc main_arg12) := StableHlo.after_of_forall_not_mem (b := Proc.devRef .tc main_arg12) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg12) := W32_of_ne m ρ c main_arg12 (by decide)
    _ = W30 m ρ c (Proc.devRef .tc main_arg12) := StableHlo.after_of_forall_not_mem (b := Proc.devRef .tc main_arg12) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg12) := W30_of_ne m ρ c main_arg12 (by decide)
    _ = W28 m ρ c (Proc.devRef .tc main_arg12) := StableHlo.after_of_forall_not_mem (b := Proc.devRef .tc main_arg12) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg12) := W28_of_ne m ρ c main_arg12 (by decide)
    _ = W26 m ρ c (Proc.devRef .tc main_arg12) := StableHlo.after_of_forall_not_mem (b := Proc.devRef .tc main_arg12) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg12) := W26_of_ne m ρ c main_arg12 (by decide)
    _ = W24 m ρ c (Proc.devRef .tc main_arg12) := StableHlo.after_of_forall_not_mem (b := Proc.devRef .tc main_arg12) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg12) := W24_of_ne m ρ c main_arg12 (by decide)
    _ = W22 m ρ c (Proc.devRef .tc main_arg12) := StableHlo.after_of_forall_not_mem (b := Proc.devRef .tc main_arg12) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg12) := W22_of_ne m ρ c main_arg12 (by decide)
    _ = W20 m ρ c (Proc.devRef .tc main_arg12) := StableHlo.after_of_forall_not_mem (b := Proc.devRef .tc main_arg12) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg12) := W20_of_ne m ρ c main_arg12 (by decide)
    _ = W18 m ρ c (Proc.devRef .tc main_arg12) := StableHlo.after_of_forall_not_mem (b := Proc.devRef .tc main_arg12) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg12) := W18_of_ne m ρ c main_arg12 (by decide)
    _ = W16 m ρ c (Proc.devRef .tc main_arg12) := StableHlo.after_of_forall_not_mem (b := Proc.devRef .tc main_arg12) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg12) := W16_of_ne m ρ c main_arg12 (by decide)
    _ = W14 m ρ c (Proc.devRef .tc main_arg12) := StableHlo.after_of_forall_not_mem (b := Proc.devRef .tc main_arg12) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 62 of the run writes `main_arg15`: it keeps its contents. -/
theorem main_arg15_0_62 (c : Dev nD) : W62 m ρ c (Proc.devRef .tc main_arg15) = W0 m ρ c (Proc.devRef .tc main_arg15) :=
  calc W62 m ρ c (Proc.devRef .tc main_arg15)
    _ = W61 m ρ c (Proc.devRef .tc main_arg15) := StableHlo.after_of_forall_not_mem (b := Proc.devRef .tc main_arg15) _ _ (List.forall_iff_forall_mem.mp (by
          simp only [hostOps30_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W60 m ρ c (Proc.devRef .tc main_arg15) := StableHlo.after_of_forall_not_mem (b := Proc.devRef .tc main_arg15) _ _ (List.forall_iff_forall_mem.mp (by
          simp only [hostOps30, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W59 m ρ c (Proc.devRef .tc main_arg15) := W60_of_ne m ρ c main_arg15 (by decide)
    _ = W58 m ρ c (Proc.devRef .tc main_arg15) := StableHlo.after_of_forall_not_mem (b := Proc.devRef .tc main_arg15) _ _ (List.forall_iff_forall_mem.mp (by
          simp only [hostOps29, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W57 m ρ c (Proc.devRef .tc main_arg15) := W58_of_ne m ρ c main_arg15 (by decide)
    _ = W56 m ρ c (Proc.devRef .tc main_arg15) := StableHlo.after_of_forall_not_mem (b := Proc.devRef .tc main_arg15) _ _ (List.forall_iff_forall_mem.mp (by
          simp only [hostOps28, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W55 m ρ c (Proc.devRef .tc main_arg15) := W56_of_ne m ρ c main_arg15 (by decide)
    _ = W54 m ρ c (Proc.devRef .tc main_arg15) := StableHlo.after_of_forall_not_mem (b := Proc.devRef .tc main_arg15) _ _ (List.forall_iff_forall_mem.mp (by
          simp only [hostOps27, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W53 m ρ c (Proc.devRef .tc main_arg15) := (W54_arr m ρ c 1).trans (((dat26 (V53 m ρ) c).arrAt_in 1 rfl _).trans (A_eq26 (V53 m ρ) c 1))
    _ = W52 m ρ c (Proc.devRef .tc main_arg15) := StableHlo.after_of_forall_not_mem (b := Proc.devRef .tc main_arg15) _ _ (List.forall_iff_forall_mem.mp (by
          simp only [hostOps26, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W51 m ρ c (Proc.devRef .tc main_arg15) := W52_of_ne m ρ c main_arg15 (by decide)
    _ = W50 m ρ c (Proc.devRef .tc main_arg15) := StableHlo.after_of_forall_not_mem (b := Proc.devRef .tc main_arg15) _ _ (List.forall_iff_forall_mem.mp (by
          simp only [hostOps25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W49 m ρ c (Proc.devRef .tc main_arg15) := W50_of_ne m ρ c main_arg15 (by decide)
    _ = W48 m ρ c (Proc.devRef .tc main_arg15) := StableHlo.after_of_forall_not_mem (b := Proc.devRef .tc main_arg15) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg15) := W48_of_ne m ρ c main_arg15 (by decide)
    _ = W46 m ρ c (Proc.devRef .tc main_arg15) := StableHlo.after_of_forall_not_mem (b := Proc.devRef .tc main_arg15) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg15) := W46_of_ne m ρ c main_arg15 (by decide)
    _ = W44 m ρ c (Proc.devRef .tc main_arg15) := StableHlo.after_of_forall_not_mem (b := Proc.devRef .tc main_arg15) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg15) := W44_of_ne m ρ c main_arg15 (by decide)
    _ = W42 m ρ c (Proc.devRef .tc main_arg15) := StableHlo.after_of_forall_not_mem (b := Proc.devRef .tc main_arg15) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg15) := W42_of_ne m ρ c main_arg15 (by decide)
    _ = W40 m ρ c (Proc.devRef .tc main_arg15) := StableHlo.after_of_forall_not_mem (b := Proc.devRef .tc main_arg15) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg15) := W40_of_ne m ρ c main_arg15 (by decide)
    _ = W38 m ρ c (Proc.devRef .tc main_arg15) := StableHlo.after_of_forall_not_mem (b := Proc.devRef .tc main_arg15) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg15) := W38_of_ne m ρ c main_arg15 (by decide)
    _ = W36 m ρ c (Proc.devRef .tc main_arg15) := StableHlo.after_of_forall_not_mem (b := Proc.devRef .tc main_arg15) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg15) := W36_of_ne m ρ c main_arg15 (by decide)
    _ = W34 m ρ c (Proc.devRef .tc main_arg15) := StableHlo.after_of_forall_not_mem (b := Proc.devRef .tc main_arg15) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg15) := W34_of_ne m ρ c main_arg15 (by decide)
    _ = W32 m ρ c (Proc.devRef .tc main_arg15) := StableHlo.after_of_forall_not_mem (b := Proc.devRef .tc main_arg15) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg15) := W32_of_ne m ρ c main_arg15 (by decide)
    _ = W30 m ρ c (Proc.devRef .tc main_arg15) := StableHlo.after_of_forall_not_mem (b := Proc.devRef .tc main_arg15) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg15) := W30_of_ne m ρ c main_arg15 (by decide)
    _ = W28 m ρ c (Proc.devRef .tc main_arg15) := StableHlo.after_of_forall_not_mem (b := Proc.devRef .tc main_arg15) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg15) := W28_of_ne m ρ c main_arg15 (by decide)
    _ = W26 m ρ c (Proc.devRef .tc main_arg15) := StableHlo.after_of_forall_not_mem (b := Proc.devRef .tc main_arg15) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg15) := W26_of_ne m ρ c main_arg15 (by decide)
    _ = W24 m ρ c (Proc.devRef .tc main_arg15) := StableHlo.after_of_forall_not_mem (b := Proc.devRef .tc main_arg15) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg15) := W24_of_ne m ρ c main_arg15 (by decide)
    _ = W22 m ρ c (Proc.devRef .tc main_arg15) := StableHlo.after_of_forall_not_mem (b := Proc.devRef .tc main_arg15) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg15) := W22_of_ne m ρ c main_arg15 (by decide)
    _ = W20 m ρ c (Proc.devRef .tc main_arg15) := StableHlo.after_of_forall_not_mem (b := Proc.devRef .tc main_arg15) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg15) := W20_of_ne m ρ c main_arg15 (by decide)
    _ = W18 m ρ c (Proc.devRef .tc main_arg15) := StableHlo.after_of_forall_not_mem (b := Proc.devRef .tc main_arg15) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg15) := W18_of_ne m ρ c main_arg15 (by decide)
    _ = W16 m ρ c (Proc.devRef .tc main_arg15) := StableHlo.after_of_forall_not_mem (b := Proc.devRef .tc main_arg15) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg15) := W16_of_ne m ρ c main_arg15 (by decide)
    _ = W14 m ρ c (Proc.devRef .tc main_arg15) := StableHlo.after_of_forall_not_mem (b := Proc.devRef .tc main_arg15) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg15) := W14_of_ne m ρ c main_arg15 (by decide)
    _ = W12 m ρ c (Proc.devRef .tc main_arg15) := StableHlo.after_of_forall_not_mem (b := Proc.devRef .tc main_arg15) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 62 of the run writes `main_arg19`: it keeps its contents. -/
theorem main_arg19_0_62 (c : Dev nD) : W62 m ρ c (Proc.devRef .tc main_arg19) = W0 m ρ c (Proc.devRef .tc main_arg19) :=
  calc W62 m ρ c (Proc.devRef .tc main_arg19)
    _ = W61 m ρ c (Proc.devRef .tc main_arg19) := StableHlo.after_of_forall_not_mem (b := Proc.devRef .tc main_arg19) _ _ (List.forall_iff_forall_mem.mp (by
          simp only [hostOps30_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W60 m ρ c (Proc.devRef .tc main_arg19) := StableHlo.after_of_forall_not_mem (b := Proc.devRef .tc main_arg19) _ _ (List.forall_iff_forall_mem.mp (by
          simp only [hostOps30, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W59 m ρ c (Proc.devRef .tc main_arg19) := W60_of_ne m ρ c main_arg19 (by decide)
    _ = W58 m ρ c (Proc.devRef .tc main_arg19) := StableHlo.after_of_forall_not_mem (b := Proc.devRef .tc main_arg19) _ _ (List.forall_iff_forall_mem.mp (by
          simp only [hostOps29, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W57 m ρ c (Proc.devRef .tc main_arg19) := (W58_arr m ρ c 1).trans (((dat28 (V57 m ρ) c).arrAt_in 1 rfl _).trans (A_eq28 (V57 m ρ) c 1))
    _ = W56 m ρ c (Proc.devRef .tc main_arg19) := StableHlo.after_of_forall_not_mem (b := Proc.devRef .tc main_arg19) _ _ (List.forall_iff_forall_mem.mp (by
          simp only [hostOps28, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W55 m ρ c (Proc.devRef .tc main_arg19) := W56_of_ne m ρ c main_arg19 (by decide)
    _ = W54 m ρ c (Proc.devRef .tc main_arg19) := StableHlo.after_of_forall_not_mem (b := Proc.devRef .tc main_arg19) _ _ (List.forall_iff_forall_mem.mp (by
          simp only [hostOps27, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W53 m ρ c (Proc.devRef .tc main_arg19) := W54_of_ne m ρ c main_arg19 (by decide)
    _ = W52 m ρ c (Proc.devRef .tc main_arg19) := StableHlo.after_of_forall_not_mem (b := Proc.devRef .tc main_arg19) _ _ (List.forall_iff_forall_mem.mp (by
          simp only [hostOps26, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W51 m ρ c (Proc.devRef .tc main_arg19) := W52_of_ne m ρ c main_arg19 (by decide)
    _ = W50 m ρ c (Proc.devRef .tc main_arg19) := StableHlo.after_of_forall_not_mem (b := Proc.devRef .tc main_arg19) _ _ (List.forall_iff_forall_mem.mp (by
          simp only [hostOps25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W49 m ρ c (Proc.devRef .tc main_arg19) := W50_of_ne m ρ c main_arg19 (by decide)
    _ = W48 m ρ c (Proc.devRef .tc main_arg19) := StableHlo.after_of_forall_not_mem (b := Proc.devRef .tc main_arg19) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg19) := W48_of_ne m ρ c main_arg19 (by decide)
    _ = W46 m ρ c (Proc.devRef .tc main_arg19) := StableHlo.after_of_forall_not_mem (b := Proc.devRef .tc main_arg19) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg19) := W46_of_ne m ρ c main_arg19 (by decide)
    _ = W44 m ρ c (Proc.devRef .tc main_arg19) := StableHlo.after_of_forall_not_mem (b := Proc.devRef .tc main_arg19) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg19) := W44_of_ne m ρ c main_arg19 (by decide)
    _ = W42 m ρ c (Proc.devRef .tc main_arg19) := StableHlo.after_of_forall_not_mem (b := Proc.devRef .tc main_arg19) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg19) := W42_of_ne m ρ c main_arg19 (by decide)
    _ = W40 m ρ c (Proc.devRef .tc main_arg19) := StableHlo.after_of_forall_not_mem (b := Proc.devRef .tc main_arg19) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg19) := W40_of_ne m ρ c main_arg19 (by decide)
    _ = W38 m ρ c (Proc.devRef .tc main_arg19) := StableHlo.after_of_forall_not_mem (b := Proc.devRef .tc main_arg19) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg19) := W38_of_ne m ρ c main_arg19 (by decide)
    _ = W36 m ρ c (Proc.devRef .tc main_arg19) := StableHlo.after_of_forall_not_mem (b := Proc.devRef .tc main_arg19) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg19) := W36_of_ne m ρ c main_arg19 (by decide)
    _ = W34 m ρ c (Proc.devRef .tc main_arg19) := StableHlo.after_of_forall_not_mem (b := Proc.devRef .tc main_arg19) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg19) := W34_of_ne m ρ c main_arg19 (by decide)
    _ = W32 m ρ c (Proc.devRef .tc main_arg19) := StableHlo.after_of_forall_not_mem (b := Proc.devRef .tc main_arg19) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg19) := W32_of_ne m ρ c main_arg19 (by decide)
    _ = W30 m ρ c (Proc.devRef .tc main_arg19) := StableHlo.after_of_forall_not_mem (b := Proc.devRef .tc main_arg19) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg19) := W30_of_ne m ρ c main_arg19 (by decide)
    _ = W28 m ρ c (Proc.devRef .tc main_arg19) := StableHlo.after_of_forall_not_mem (b := Proc.devRef .tc main_arg19) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg19) := W28_of_ne m ρ c main_arg19 (by decide)
    _ = W26 m ρ c (Proc.devRef .tc main_arg19) := StableHlo.after_of_forall_not_mem (b := Proc.devRef .tc main_arg19) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg19) := W26_of_ne m ρ c main_arg19 (by decide)
    _ = W24 m ρ c (Proc.devRef .tc main_arg19) := StableHlo.after_of_forall_not_mem (b := Proc.devRef .tc main_arg19) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg19) := W24_of_ne m ρ c main_arg19 (by decide)
    _ = W22 m ρ c (Proc.devRef .tc main_arg19) := StableHlo.after_of_forall_not_mem (b := Proc.devRef .tc main_arg19) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg19) := W22_of_ne m ρ c main_arg19 (by decide)
    _ = W20 m ρ c (Proc.devRef .tc main_arg19) := StableHlo.after_of_forall_not_mem (b := Proc.devRef .tc main_arg19) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg19) := W20_of_ne m ρ c main_arg19 (by decide)
    _ = W18 m ρ c (Proc.devRef .tc main_arg19) := StableHlo.after_of_forall_not_mem (b := Proc.devRef .tc main_arg19) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg19) := W18_of_ne m ρ c main_arg19 (by decide)
    _ = W16 m ρ c (Proc.devRef .tc main_arg19) := StableHlo.after_of_forall_not_mem (b := Proc.devRef .tc main_arg19) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg19) := W16_of_ne m ρ c main_arg19 (by decide)
    _ = W14 m ρ c (Proc.devRef .tc main_arg19) := StableHlo.after_of_forall_not_mem (b := Proc.devRef .tc main_arg19) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg19) := W14_of_ne m ρ c main_arg19 (by decide)
    _ = W12 m ρ c (Proc.devRef .tc main_arg19) := StableHlo.after_of_forall_not_mem (b := Proc.devRef .tc main_arg19) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg19) := W12_of_ne m ρ c main_arg19 (by decide)
    _ = W10 m ρ c (Proc.devRef .tc main_arg19) := StableHlo.after_of_forall_not_mem (b := Proc.devRef .tc main_arg19) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg19) := W10_of_ne m ρ c main_arg19 (by decide)
    _ = W8 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 1 of the run writes `main_arg0`: it keeps its contents. -/
theorem main_arg0_0_1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 1 of the run writes `main_arg4`: it keeps its contents. -/
theorem main_arg4_0_1 (c : Dev nD) : W1 m ρ c (Proc.devRef .tc main_arg4) = W0 m ρ c (Proc.devRef .tc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 53 of the run writes `main_arg15`: it keeps its contents. -/
theorem main_arg15_0_53 (c : Dev nD) : W53 m ρ c (Proc.devRef .tc main_arg15) = W0 m ρ c (Proc.devRef .tc main_arg15) :=
  calc W53 m ρ c (Proc.devRef .tc main_arg15)
    _ = W52 m ρ c (Proc.devRef .tc main_arg15) := StableHlo.after_of_forall_not_mem (b := Proc.devRef .tc main_arg15) _ _ (List.forall_iff_forall_mem.mp (by
          simp only [hostOps26, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W51 m ρ c (Proc.devRef .tc main_arg15) := W52_of_ne m ρ c main_arg15 (by decide)
    _ = W50 m ρ c (Proc.devRef .tc main_arg15) := StableHlo.after_of_forall_not_mem (b := Proc.devRef .tc main_arg15) _ _ (List.forall_iff_forall_mem.mp (by
          simp only [hostOps25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W49 m ρ c (Proc.devRef .tc main_arg15) := W50_of_ne m ρ c main_arg15 (by decide)
    _ = W48 m ρ c (Proc.devRef .tc main_arg15) := StableHlo.after_of_forall_not_mem (b := Proc.devRef .tc main_arg15) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg15) := W48_of_ne m ρ c main_arg15 (by decide)
    _ = W46 m ρ c (Proc.devRef .tc main_arg15) := StableHlo.after_of_forall_not_mem (b := Proc.devRef .tc main_arg15) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg15) := W46_of_ne m ρ c main_arg15 (by decide)
    _ = W44 m ρ c (Proc.devRef .tc main_arg15) := StableHlo.after_of_forall_not_mem (b := Proc.devRef .tc main_arg15) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg15) := W44_of_ne m ρ c main_arg15 (by decide)
    _ = W42 m ρ c (Proc.devRef .tc main_arg15) := StableHlo.after_of_forall_not_mem (b := Proc.devRef .tc main_arg15) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg15) := W42_of_ne m ρ c main_arg15 (by decide)
    _ = W40 m ρ c (Proc.devRef .tc main_arg15) := StableHlo.after_of_forall_not_mem (b := Proc.devRef .tc main_arg15) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg15) := W40_of_ne m ρ c main_arg15 (by decide)
    _ = W38 m ρ c (Proc.devRef .tc main_arg15) := StableHlo.after_of_forall_not_mem (b := Proc.devRef .tc main_arg15) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg15) := W38_of_ne m ρ c main_arg15 (by decide)
    _ = W36 m ρ c (Proc.devRef .tc main_arg15) := StableHlo.after_of_forall_not_mem (b := Proc.devRef .tc main_arg15) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg15) := W36_of_ne m ρ c main_arg15 (by decide)
    _ = W34 m ρ c (Proc.devRef .tc main_arg15) := StableHlo.after_of_forall_not_mem (b := Proc.devRef .tc main_arg15) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg15) := W34_of_ne m ρ c main_arg15 (by decide)
    _ = W32 m ρ c (Proc.devRef .tc main_arg15) := StableHlo.after_of_forall_not_mem (b := Proc.devRef .tc main_arg15) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg15) := W32_of_ne m ρ c main_arg15 (by decide)
    _ = W30 m ρ c (Proc.devRef .tc main_arg15) := StableHlo.after_of_forall_not_mem (b := Proc.devRef .tc main_arg15) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg15) := W30_of_ne m ρ c main_arg15 (by decide)
    _ = W28 m ρ c (Proc.devRef .tc main_arg15) := StableHlo.after_of_forall_not_mem (b := Proc.devRef .tc main_arg15) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg15) := W28_of_ne m ρ c main_arg15 (by decide)
    _ = W26 m ρ c (Proc.devRef .tc main_arg15) := StableHlo.after_of_forall_not_mem (b := Proc.devRef .tc main_arg15) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg15) := W26_of_ne m ρ c main_arg15 (by decide)
    _ = W24 m ρ c (Proc.devRef .tc main_arg15) := StableHlo.after_of_forall_not_mem (b := Proc.devRef .tc main_arg15) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg15) := W24_of_ne m ρ c main_arg15 (by decide)
    _ = W22 m ρ c (Proc.devRef .tc main_arg15) := StableHlo.after_of_forall_not_mem (b := Proc.devRef .tc main_arg15) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg15) := W22_of_ne m ρ c main_arg15 (by decide)
    _ = W20 m ρ c (Proc.devRef .tc main_arg15) := StableHlo.after_of_forall_not_mem (b := Proc.devRef .tc main_arg15) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg15) := W20_of_ne m ρ c main_arg15 (by decide)
    _ = W18 m ρ c (Proc.devRef .tc main_arg15) := StableHlo.after_of_forall_not_mem (b := Proc.devRef .tc main_arg15) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg15) := W18_of_ne m ρ c main_arg15 (by decide)
    _ = W16 m ρ c (Proc.devRef .tc main_arg15) := StableHlo.after_of_forall_not_mem (b := Proc.devRef .tc main_arg15) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg15) := W16_of_ne m ρ c main_arg15 (by decide)
    _ = W14 m ρ c (Proc.devRef .tc main_arg15) := StableHlo.after_of_forall_not_mem (b := Proc.devRef .tc main_arg15) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg15) := W14_of_ne m ρ c main_arg15 (by decide)
    _ = W12 m ρ c (Proc.devRef .tc main_arg15) := StableHlo.after_of_forall_not_mem (b := Proc.devRef .tc main_arg15) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 57 of the run writes `main_arg19`: it keeps its contents. -/
theorem main_arg19_0_57 (c : Dev nD) : W57 m ρ c (Proc.devRef .tc main_arg19) = W0 m ρ c (Proc.devRef .tc main_arg19) :=
  calc W57 m ρ c (Proc.devRef .tc main_arg19)
    _ = W56 m ρ c (Proc.devRef .tc main_arg19) := StableHlo.after_of_forall_not_mem (b := Proc.devRef .tc main_arg19) _ _ (List.forall_iff_forall_mem.mp (by
          simp only [hostOps28, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W55 m ρ c (Proc.devRef .tc main_arg19) := W56_of_ne m ρ c main_arg19 (by decide)
    _ = W54 m ρ c (Proc.devRef .tc main_arg19) := StableHlo.after_of_forall_not_mem (b := Proc.devRef .tc main_arg19) _ _ (List.forall_iff_forall_mem.mp (by
          simp only [hostOps27, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W53 m ρ c (Proc.devRef .tc main_arg19) := W54_of_ne m ρ c main_arg19 (by decide)
    _ = W52 m ρ c (Proc.devRef .tc main_arg19) := StableHlo.after_of_forall_not_mem (b := Proc.devRef .tc main_arg19) _ _ (List.forall_iff_forall_mem.mp (by
          simp only [hostOps26, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W51 m ρ c (Proc.devRef .tc main_arg19) := W52_of_ne m ρ c main_arg19 (by decide)
    _ = W50 m ρ c (Proc.devRef .tc main_arg19) := StableHlo.after_of_forall_not_mem (b := Proc.devRef .tc main_arg19) _ _ (List.forall_iff_forall_mem.mp (by
          simp only [hostOps25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W49 m ρ c (Proc.devRef .tc main_arg19) := W50_of_ne m ρ c main_arg19 (by decide)
    _ = W48 m ρ c (Proc.devRef .tc main_arg19) := StableHlo.after_of_forall_not_mem (b := Proc.devRef .tc main_arg19) _ _ (List.forall_iff_forall_mem.mp (by
          simp only [hostOps24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W47 m ρ c (Proc.devRef .tc main_arg19) := W48_of_ne m ρ c main_arg19 (by decide)
    _ = W46 m ρ c (Proc.devRef .tc main_arg19) := StableHlo.after_of_forall_not_mem (b := Proc.devRef .tc main_arg19) _ _ (List.forall_iff_forall_mem.mp (by
          simp only [hostOps23, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W45 m ρ c (Proc.devRef .tc main_arg19) := W46_of_ne m ρ c main_arg19 (by decide)
    _ = W44 m ρ c (Proc.devRef .tc main_arg19) := StableHlo.after_of_forall_not_mem (b := Proc.devRef .tc main_arg19) _ _ (List.forall_iff_forall_mem.mp (by
          simp only [hostOps22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W43 m ρ c (Proc.devRef .tc main_arg19) := W44_of_ne m ρ c main_arg19 (by decide)
    _ = W42 m ρ c (Proc.devRef .tc main_arg19) := StableHlo.after_of_forall_not_mem (b := Proc.devRef .tc main_arg19) _ _ (List.forall_iff_forall_mem.mp (by
          simp only [hostOps21, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W41 m ρ c (Proc.devRef .tc main_arg19) := W42_of_ne m ρ c main_arg19 (by decide)
    _ = W40 m ρ c (Proc.devRef .tc main_arg19) := StableHlo.after_of_forall_not_mem (b := Proc.devRef .tc main_arg19) _ _ (List.forall_iff_forall_mem.mp (by
          simp only [hostOps20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W39 m ρ c (Proc.devRef .tc main_arg19) := W40_of_ne m ρ c main_arg19 (by decide)
    _ = W38 m ρ c (Proc.devRef .tc main_arg19) := StableHlo.after_of_forall_not_mem (b := Proc.devRef .tc main_arg19) _ _ (List.forall_iff_forall_mem.mp (by
          simp only [hostOps19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W37 m ρ c (Proc.devRef .tc main_arg19) := W38_of_ne m ρ c main_arg19 (by decide)
    _ = W36 m ρ c (Proc.devRef .tc main_arg19) := StableHlo.after_of_forall_not_mem (b := Proc.devRef .tc main_arg19) _ _ (List.forall_iff_forall_mem.mp (by
          simp only [hostOps18, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W35 m ρ c (Proc.devRef .tc main_arg19) := W36_of_ne m ρ c main_arg19 (by decide)
    _ = W34 m ρ c (Proc.devRef .tc main_arg19) := StableHlo.after_of_forall_not_mem (b := Proc.devRef .tc main_arg19) _ _ (List.forall_iff_forall_mem.mp (by
          simp only [hostOps17, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W33 m ρ c (Proc.devRef .tc main_arg19) := W34_of_ne m ρ c main_arg19 (by decide)
    _ = W32 m ρ c (Proc.devRef .tc main_arg19) := StableHlo.after_of_forall_not_mem (b := Proc.devRef .tc main_arg19) _ _ (List.forall_iff_forall_mem.mp (by
          simp only [hostOps16, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg19) := W32_of_ne m ρ c main_arg19 (by decide)
    _ = W30 m ρ c (Proc.devRef .tc main_arg19) := StableHlo.after_of_forall_not_mem (b := Proc.devRef .tc main_arg19) _ _ (List.forall_iff_forall_mem.mp (by
          simp only [hostOps15, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg19) := W30_of_ne m ρ c main_arg19 (by decide)
    _ = W28 m ρ c (Proc.devRef .tc main_arg19) := StableHlo.after_of_forall_not_mem (b := Proc.devRef .tc main_arg19) _ _ (List.forall_iff_forall_mem.mp (by
          simp only [hostOps14, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg19) := W28_of_ne m ρ c main_arg19 (by decide)
    _ = W26 m ρ c (Proc.devRef .tc main_arg19) := StableHlo.after_of_forall_not_mem (b := Proc.devRef .tc main_arg19) _ _ (List.forall_iff_forall_mem.mp (by
          simp only [hostOps13, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg19) := W26_of_ne m ρ c main_arg19 (by decide)
    _ = W24 m ρ c (Proc.devRef .tc main_arg19) := StableHlo.after_of_forall_not_mem (b := Proc.devRef .tc main_arg19) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg19) := W24_of_ne m ρ c main_arg19 (by decide)
    _ = W22 m ρ c (Proc.devRef .tc main_arg19) := StableHlo.after_of_forall_not_mem (b := Proc.devRef .tc main_arg19) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg19) := W22_of_ne m ρ c main_arg19 (by decide)
    _ = W20 m ρ c (Proc.devRef .tc main_arg19) := StableHlo.after_of_forall_not_mem (b := Proc.devRef .tc main_arg19) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg19) := W20_of_ne m ρ c main_arg19 (by decide)
    _ = W18 m ρ c (Proc.devRef .tc main_arg19) := StableHlo.after_of_forall_not_mem (b := Proc.devRef .tc main_arg19) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg19) := W18_of_ne m ρ c main_arg19 (by decide)
    _ = W16 m ρ c (Proc.devRef .tc main_arg19) := StableHlo.after_of_forall_not_mem (b := Proc.devRef .tc main_arg19) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg19) := W16_of_ne m ρ c main_arg19 (by decide)
    _ = W14 m ρ c (Proc.devRef .tc main_arg19) := StableHlo.after_of_forall_not_mem (b := Proc.devRef .tc main_arg19) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg19) := W14_of_ne m ρ c main_arg19 (by decide)
    _ = W12 m ρ c (Proc.devRef .tc main_arg19) := StableHlo.after_of_forall_not_mem (b := Proc.devRef .tc main_arg19) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg19) := W12_of_ne m ρ c main_arg19 (by decide)
    _ = W10 m ρ c (Proc.devRef .tc main_arg19) := StableHlo.after_of_forall_not_mem (b := Proc.devRef .tc main_arg19) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg19) := W10_of_ne m ρ c main_arg19 (by decide)
    _ = W8 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Carry

end
-- ==== Proof.KernelChain13.lean ====
/-
  Stage 13 of the chain, the kernel's half: the attention layer's hidden layer. The array its normalising region
  leaves is, entry by entry, the batch normalisation, with no clipping after it, of the hyperbolic tangent of a linear
  stage of 128 columns, over the node embedding as the run leaves it and the launch memory's weight matrix, bias, scale
  and shift. The region before it leaves the hyperbolic tangent of the linear stage and that array's column sums and
  column sums of squares; the host operations between the two regions divide those by the row count, form the
  variance as the mean of squares less the squared mean, and lay the scale and the shift out as rows; the second
  region normalises with those rows. Here the steps are joined.
-/
import proofs.«414479_j7705171329025_1_alg».proof.Proof.ValSingle26
import proofs.«414479_j7705171329025_1_alg».proof.Proof.ValNorm27
import proofs.«414479_j7705171329025_1_alg».proof.Proof.HostLin26
import proofs.«414479_j7705171329025_1_alg».proof.Proof.HostStats27
import proofs.«414479_j7705171329025_1_alg».proof.Proof.StageReal
import proofs.«414479_j7705171329025_1_alg».proof.Proof.PreReal
import proofs.«414479_j7705171329025_1_alg».proof.Proof.FrameKI.Run
import proofs.«414479_j7705171329025_1_alg».proof.Proof.Carry7
import proofs.«414479_j7705171329025_1_alg».proof.Proof.Carry8
import Idealize.ShloMosaic.Lib.IdealHost
import Idealize.ShloMosaic.Lib.ValueLayout

set_option maxRecDepth 16384

noncomputable section

namespace Cert.KernelChain13

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (ρ : Dev nD → PrngReg)

/-! ## The stage's data: the node embedding, and the launch memory's arrays, each at its literal type -/

/-- The node embedding: the previous stage's output array, as the run leaves it. -/
abbrev emb (c : Dev nD) : Vec Ideal S100000x128 .f32 := W52 (F := Ideal) m ρ c (Proc.devRef .tc main_v316)
/-- The stage's weight matrix: 128 by 128. -/
abbrev Wt (c : Dev nD) : Vec Ideal S128x128 .f32 := m ((c : Thread nD τ).loc main_arg15)
/-- The stage's bias, as given: 128 entries. -/
abbrev Bflat (c : Dev nD) : Vec Ideal S128 .f32 := m ((c : Thread nD τ).loc main_arg16)
/-- The bias laid out as a row. -/
abbrev B (c : Dev nD) : Vec Ideal S1x128 .f32 := shapeCast S1x128 (Bflat m c) shapeCasts_S128_S1x128
/-- The batch norm's scale, as given: 128 entries. -/
abbrev g (c : Dev nD) : Vec Ideal S128 .f32 := m ((c : Thread nD τ).loc main_arg17)
/-- The batch norm's shift, as given: 128 entries. -/
abbrev β (c : Dev nD) : Vec Ideal S128 .f32 := m ((c : Thread nD τ).loc main_arg18)

/-- The hidden layer before its normalisation, entry by entry: the hyperbolic tangent of the linear stage. -/
def y (c : Dev nD) (r : Fin 100000) (q : Fin 128) : EReal :=
  Ideal.tanh (StageSpec.lin (emb m ρ c) (Wt m c) (B m c) r q)

/-- The row count, as the word the host operations divide by. -/
abbrev nRows : EReal := Ideal.ofBits .f32 0x47C35000#32

/-! ## For the join with the reference's half -/

/-- The bias row's entry in column q is the bias's entry q, whatever the unit coordinate. -/
theorem B_apply (c : Dev nD) (u : Fin 1) (q : Fin 128) : B m c (ix2 u q) = Bflat m c (ix1 q) :=
  shapeCast_a_1a_apply (Bflat m c) shapeCasts_S128_S1x128 u q

/-- The hidden layer's entry written out: the hyperbolic tangent of row r of the node embedding against column q of
    the weights, plus the bias's entry q. -/
theorem y_eq_sum (c : Dev nD) (r : Fin 100000) (q : Fin 128) :
    y m ρ c r q = Ideal.tanh ((∑ j : Fin 128, emb m ρ c (ix2 r j) * Wt m c (ix2 j q)) + Bflat m c (ix1 q)) := by
  unfold y StageSpec.lin
  rw [B_apply m c (0 : Fin 1) q]

/-- If every entry of the node embedding is a real number then, under the precondition, so is every entry of the
    hidden layer before its normalisation: the weights and the bias are real, a finite sum of products of real numbers
    is real, and the hyperbolic tangent of a real number is real. -/
theorem y_isReal [Cert.Pre_finite_inputs.Facts] (h : Cert.Pre_KernelIdeal m) (c : Dev nD)
    (hemb : ∀ i, Cert.RealSpec.IsReal (emb m ρ c i)) (r : Fin 100000) (q : Fin 128) :
    Cert.RealSpec.IsReal (y m ρ c r q) :=
  StageReal.tanh_isReal
    (StageReal.lin_isReal (emb m ρ c) (Wt m c) (B m c) hemb (Cert.PreReal.real_arg15 m h c)
      (fun i => by
        obtain ⟨u, q', rfl⟩ : ∃ (u : Fin 1) (q' : Fin 128), i = ix2 u q' := ⟨i 0, i 1, eq_ix2 i⟩
        rw [B_apply m c u q']
        exact Cert.PreReal.real_arg16 m h c (ix1 q')) r q)

/-- Under the precondition every entry of the scale is a real number. -/
theorem g_isReal [Cert.Pre_finite_inputs.Facts] (h : Cert.Pre_KernelIdeal m) (c : Dev nD) (q : Fin 128) :
    Cert.RealSpec.IsReal (g m c (ix1 q)) :=
  Cert.PreReal.real_arg17 m h c (ix1 q)

/-- And every entry of the shift. -/
theorem β_isReal [Cert.Pre_finite_inputs.Facts] (h : Cert.Pre_KernelIdeal m) (c : Dev nD) (q : Fin 128) :
    Cert.RealSpec.IsReal (β m c (ix1 q)) :=
  Cert.PreReal.real_arg18 m h c (ix1 q)

/-! ## The first region's inputs -/

/-- The host operation before the first region does not write the node embedding. -/
theorem x_eq (c : Dev nD) : ValSingle26.xArr (V53 m ρ) c = emb m ρ c :=
  (HostLin26.read_keep (W52 m ρ c)).trans rfl

/-- Nothing since the launch has written the weight matrix. -/
theorem w_eq (c : Dev nD) : ValSingle26.wArr (V53 m ρ) c = Wt m c :=
  (Carry.main_arg15_0_53 m ρ c).trans rfl

/-- Nor the bias, up to the host operation that lays it out. -/
theorem bflat_eq (c : Dev nD) : (W52 m ρ c (Proc.devRef .tc main_arg16) : Vec Ideal S128 .f32) = Bflat m c :=
  (Carry.main_arg16_0_52 m ρ c).trans rfl

/-- The host operation lays the bias out as the row the region takes. -/
theorem b_eq (c : Dev nD) : ValSingle26.bRow (V53 m ρ) c = B m c :=
  (HostLin26.read_b (W52 m ρ c)).trans
    (congrArg (fun b : Vec Ideal S128 .f32 => (shapeCast S1x128 b shapeCasts_S128_S1x128 : Vec Ideal S1x128 .f32))
      (bflat_eq m ρ c))

/-- So the first region's array, the hyperbolic tangent of its linear stage, is the stage's. -/
theorem y_eq (c : Dev nD) : ValSingle26.y (V53 m ρ) c = y m ρ c := by
  funext r q
  show Ideal.tanh (StageSpec.lin (ValSingle26.xArr (V53 m ρ) c) (ValSingle26.wArr (V53 m ρ) c) (ValSingle26.bRow (V53 m ρ) c) r q)
    = Ideal.tanh (StageSpec.lin (emb m ρ c) (Wt m c) (B m c) r q)
  rw [x_eq m ρ c, w_eq m ρ c, b_eq m ρ c]

/-! ## The second region's five arrays, from the first region's three -/

/-- The column sums, as the first region leaves them. -/
theorem sum_eq (c : Dev nD) :
    (W54 m ρ c (Proc.devRef .tc main_v318_1) : Vec Ideal S1x128 .f32) = ValSingle26.resultSum (V53 m ρ) c :=
  (W54_arr m ρ c 4).trans (ValSingle26.arrAt_sum (V53 m ρ) c)

/-- The column sums of squares, as the first region leaves them. -/
theorem sumsq_eq (c : Dev nD) :
    (W54 m ρ c (Proc.devRef .tc main_v318_2) : Vec Ideal S1x128 .f32) = ValSingle26.resultSumSq (V53 m ρ) c :=
  (W54_arr m ρ c 5).trans (ValSingle26.arrAt_sumsq (V53 m ρ) c)

/-- The scale is still the launch memory's after the first region. -/
theorem g_eq (c : Dev nD) : (W54 m ρ c (Proc.devRef .tc main_arg17) : Vec Ideal S128 .f32) = g m c :=
  (Carry.main_arg17_0_54 m ρ c).trans rfl

/-- And so is the shift. -/
theorem beta_eq (c : Dev nD) : (W54 m ρ c (Proc.devRef .tc main_arg18) : Vec Ideal S128 .f32) = β m c :=
  (Carry.main_arg18_0_54 m ρ c).trans rfl

/-- The tall array the second region normalises is the first region's output: the host operations between the two
    do not write it. -/
theorem yArr_eq (c : Dev nD) : ValNorm27.yArr (V55 m ρ) c = ValSingle26.resultY (V53 m ρ) c :=
  ((HostStats27.read_y (W54 m ρ c)).trans (W54_arr m ρ c 3)).trans (ValSingle26.arrAt_y (V53 m ρ) c)

/-- The mean row: the column sums over the row count. -/
theorem meanRow_eq (c : Dev nD) :
    ValNorm27.meanRow (V55 m ρ) c
      = Host.divf (F := Ideal) (φ := .f32) (ValSingle26.resultSum (V53 m ρ) c) (HostStats27.nRow (F := Ideal)) :=
  (HostStats27.read_mean (W54 m ρ c)).trans
    (congrArg (fun s : Vec Ideal S1x128 .f32 => Host.divf (F := Ideal) (φ := .f32) s (HostStats27.nRow (F := Ideal)))
      (sum_eq m ρ c))

/-- The variance row: the mean of squares less the squared mean. -/
theorem varRow_eq (c : Dev nD) :
    ValNorm27.varRow (V55 m ρ) c
      = subf (F := Ideal) (φ := .f32)
          (Host.divf (F := Ideal) (φ := .f32) (ValSingle26.resultSumSq (V53 m ρ) c) (HostStats27.nRow (F := Ideal)))
          (mulf (F := Ideal) (φ := .f32)
            (Host.divf (F := Ideal) (φ := .f32) (ValSingle26.resultSum (V53 m ρ) c) (HostStats27.nRow (F := Ideal)))
            (Host.divf (F := Ideal) (φ := .f32) (ValSingle26.resultSum (V53 m ρ) c) (HostStats27.nRow (F := Ideal)))) :=
  (HostStats27.read_var (W54 m ρ c)).trans
    (congrArg₂ (fun s2 s1 : Vec Ideal S1x128 .f32 =>
        subf (F := Ideal) (φ := .f32) (Host.divf (F := Ideal) (φ := .f32) s2 (HostStats27.nRow (F := Ideal)))
          (mulf (F := Ideal) (φ := .f32) (Host.divf (F := Ideal) (φ := .f32) s1 (HostStats27.nRow (F := Ideal)))
            (Host.divf (F := Ideal) (φ := .f32) s1 (HostStats27.nRow (F := Ideal)))))
      (sumsq_eq m ρ c) (sum_eq m ρ c))

/-- The scale row: the scale laid out as a row. -/
theorem gRow_eq (c : Dev nD) : ValNorm27.gRow (V55 m ρ) c = shapeCast S1x128 (g m c) shapeCasts_S128_S1x128 :=
  (HostStats27.read_g (W54 m ρ c)).trans
    (congrArg (fun b : Vec Ideal S128 .f32 => (shapeCast S1x128 b shapeCasts_S128_S1x128 : Vec Ideal S1x128 .f32))
      (g_eq m ρ c))

/-- The shift row: the shift laid out as a row. -/
theorem betaRow_eq (c : Dev nD) : ValNorm27.betaRow (V55 m ρ) c = shapeCast S1x128 (β m c) shapeCasts_S128_S1x128 :=
  (HostStats27.read_beta (W54 m ρ c)).trans
    (congrArg (fun b : Vec Ideal S128 .f32 => (shapeCast S1x128 b shapeCasts_S128_S1x128 : Vec Ideal S1x128 .f32))
      (beta_eq m ρ c))

/-! ## The five arrays read at an entry -/

/-- The divisor row holds the row count in every column. -/
theorem nRow_apply (j : S1x128.Idx) : HostStats27.nRow (F := Ideal) j = nRows := by
  unfold HostStats27.nRow
  exact (broadcastInDim_scalar_apply bcast_S_S1x128 (constant (F := Ideal) S_ .f32 0x47C35000#32) j).trans rfl

/-- The tall array at row r, column q is the hidden layer's entry before its normalisation. -/
theorem yArr_apply (c : Dev nD) (r : Fin 100000) (q : Fin 128) :
    ValNorm27.yArr (V55 m ρ) c (ix2 r q) = ValSingle26.y (V53 m ρ) c r q :=
  (congrFun (yArr_eq m ρ c) (ix2 r q)).trans rfl

/-- The mean row at column q is the column mean of that array. -/
theorem mean_apply (c : Dev nD) (q : Fin 128) :
    ValNorm27.meanRow (V55 m ρ) c (ix2 (0 : Fin 1) q) = StageReal.colMean (ValSingle26.y (V53 m ρ) c) nRows q := by
  refine (congrFun (meanRow_eq m ρ c) (ix2 (0 : Fin 1) q)).trans ?_
  show Ideal.div (ValSingle26.resultSum (V53 m ρ) c (ix2 (0 : Fin 1) q)) (HostStats27.nRow (F := Ideal) (ix2 (0 : Fin 1) q)) = _
  rw [nRow_apply]
  rfl

/-- The variance row at column q is the mean of squares less the squared mean of that column. -/
theorem var_apply (c : Dev nD) (q : Fin 128) :
    ValNorm27.varRow (V55 m ρ) c (ix2 (0 : Fin 1) q) = StageReal.varSumSq (ValSingle26.y (V53 m ρ) c) nRows q := by
  refine (congrFun (varRow_eq m ρ c) (ix2 (0 : Fin 1) q)).trans ?_
  show Ideal.div (ValSingle26.resultSumSq (V53 m ρ) c (ix2 (0 : Fin 1) q)) (HostStats27.nRow (F := Ideal) (ix2 (0 : Fin 1) q))
      - Ideal.div (ValSingle26.resultSum (V53 m ρ) c (ix2 (0 : Fin 1) q)) (HostStats27.nRow (F := Ideal) (ix2 (0 : Fin 1) q))
        * Ideal.div (ValSingle26.resultSum (V53 m ρ) c (ix2 (0 : Fin 1) q)) (HostStats27.nRow (F := Ideal) (ix2 (0 : Fin 1) q)) = _
  rw [nRow_apply]
  rfl

/-- The scale row at column q is the scale's entry q. -/
theorem g_apply (c : Dev nD) (q : Fin 128) : ValNorm27.gRow (V55 m ρ) c (ix2 (0 : Fin 1) q) = g m c (ix1 q) :=
  (congrFun (gRow_eq m ρ c) (ix2 (0 : Fin 1) q)).trans
    (shapeCast_a_1a_apply (g m c) shapeCasts_S128_S1x128 (0 : Fin 1) q)

/-- The shift row at column q is the shift's entry q. -/
theorem beta_apply (c : Dev nD) (q : Fin 128) : ValNorm27.betaRow (V55 m ρ) c (ix2 (0 : Fin 1) q) = β m c (ix1 q) :=
  (congrFun (betaRow_eq m ρ c) (ix2 (0 : Fin 1) q)).trans
    (shapeCast_a_1a_apply (β m c) shapeCasts_S128_S1x128 (0 : Fin 1) q)

/-! ## The stage's output -/

/-- What the second region leaves in its output array is what it computes from its five arrays. -/
theorem out_eq (c : Dev nD) :
    (W56 (F := Ideal) m ρ c (Proc.devRef .tc main_v327) : Vec Ideal S100000x128 .f32) = ValNorm27.result (V55 m ρ) c :=
  (W56_arr m ρ c 5).trans (ValNorm27.arrAt_out (V55 m ρ) c)

/-- THE KERNEL'S HIDDEN LAYER OF THE ATTENTION, entry by entry: the batch normalisation of the hyperbolic tangent of
    the linear stage, with the statistics in the kernel's form, over the node embedding and the launch memory's
    parameters. -/
theorem kernel_out_apply (c : Dev nD) (r : Fin 100000) (q : Fin 128) :
    (W56 (F := Ideal) m ρ c (Proc.devRef .tc main_v327) : Vec Ideal S100000x128 .f32) (ix2 r q)
      = StageSpec.norm (y m ρ c r q) (StageReal.colMean (y m ρ c) nRows q) (StageReal.varSumSq (y m ρ c) nRows q)
          (g m c (ix1 q)) (β m c (ix1 q)) := by
  refine (congrFun (out_eq m ρ c) (ix2 r q)).trans ?_
  show StageSpec.norm (ValNorm27.yArr (V55 m ρ) c (ix2 r q)) (ValNorm27.meanRow (V55 m ρ) c (ix2 (0 : Fin 1) q))
      (ValNorm27.varRow (V55 m ρ) c (ix2 (0 : Fin 1) q)) (ValNorm27.gRow (V55 m ρ) c (ix2 (0 : Fin 1) q))
      (ValNorm27.betaRow (V55 m ρ) c (ix2 (0 : Fin 1) q)) = _
  rw [yArr_apply m ρ c r q, mean_apply m ρ c q, var_apply m ρ c q, g_apply m ρ c q, beta_apply m ρ c q, y_eq m ρ c]

end Cert.KernelChain13

end
-- ==== Proof.RefChain13.lean ====
/- Stage 13 of the reference, the attention's hidden layer, at an entry: W is the contents before window 9. The node
   embedding x goes through a linear stage and the hyperbolic tangent; the result is normalised by its own column
   statistics (the statistics are of the tangent). At row r and column q the normalised array is the normalisation of
   the tangent of the linear stage's entry. -/
import proofs.«414479_j7705171329025_1_alg».proof.Proof.RefStage9
import proofs.«414479_j7705171329025_1_alg».proof.Proof.RefKinds

noncomputable section

namespace Cert.ReferenceIdeal.RefChain13

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The node embedding the stage reads. -/
abbrev x : (⟨S100000x128, .f32⟩ : BufTy).Contents (Elt Ideal) :=
  (RefStage9.t_v469 W)

/-- The weights, the bias, the scale and the shift. -/
abbrev w : (⟨S128x128, .f32⟩ : BufTy).Contents (Elt Ideal) := (W (Proc.devRef .tc main_arg15))
abbrev bv : (⟨S128, .f32⟩ : BufTy).Contents (Elt Ideal) := (W (Proc.devRef .tc main_arg16))
abbrev g : (⟨S128, .f32⟩ : BufTy).Contents (Elt Ideal) := (W (Proc.devRef .tc main_arg17))
abbrev β : (⟨S128, .f32⟩ : BufTy).Contents (Elt Ideal) := (W (Proc.devRef .tc main_arg18))

/-- The tangent of the linear output. -/
abbrev lin : (⟨S100000x128, .f32⟩ : BufTy).Contents (Elt Ideal) :=
  Host.tanh (addf (Host.dotGeneral (F := Ideal) (φ₁ := .f32) (φ₂ := .f32) dot_S100000x128_S128x128_S100000x128_1_0_0_1_n_n none (x W) (w W)) (RefTerms.rows (bv W)))

/-- Its entry. -/
abbrev y (r : Fin 100000) (q : Fin 128) : EReal :=
  Ideal.tanh (StageSpec.lin (x W) (w W) (shapeCast S1x128 (bv W) RefKinds.shapeCasts_S128_S1x128) r q)

set_option maxRecDepth 8192 in
/-- After the window main_v493 holds the tangent normalised by its own column statistics. -/
theorem out_eq : (after (ops9 (F := Ideal)) W (Proc.devRef .tc main_v493) : (⟨S100000x128, .f32⟩ : BufTy).Contents (Elt Ideal))
    = RefTerms.affine (RefTerms.standardise (lin W) (RefTerms.colMean (lin W)) (RefTerms.colVar (lin W) (constantI S_ 32 0#32 : (⟨S_, .i32⟩ : BufTy).Contents (Elt Ideal)))) (g W) (β W) := by
  rw [RefStage9.read_v493] <;> rfl

/-- STAGE 13 AT AN ENTRY. -/
theorem out_apply (r : Fin 100000) (q : Fin 128) : (after (ops9 (F := Ideal)) W (Proc.devRef .tc main_v493) : (⟨S100000x128, .f32⟩ : BufTy).Contents (Elt Ideal)) (ix2 r q)
    = StageSpec.norm (y W r q) (StageReal.colMean (y W) RefKinds.N q) (StageReal.varDev (y W) RefKinds.N q) (g W (ix1 q)) (β W (ix1 q)) := by
  rw [out_eq]
  exact RefKinds.norm_of_entries (lin W) (y W) (fun r q => RefKinds.tanh_lin_of_lin _ _ _ r q) _ rfl (g W) (β W) r q

end Cert.ReferenceIdeal.RefChain13

end
-- ==== Proof.RefArgs9.lean ====
/-
  The reference program's arguments before its tenth list of operations. None of its first nine lists writes an
  argument of the two attention layers (their weight matrices, biases, scales and shifts), so before the tenth list
  each of them still holds what the launch memory holds.
-/
import proofs.«414479_j7705171329025_1_alg».proof.Proof.ChainDefs
import proofs.«414479_j7705171329025_1_alg».proof.Proof.RefStage0
import proofs.«414479_j7705171329025_1_alg».proof.Proof.RefStage1
import proofs.«414479_j7705171329025_1_alg».proof.Proof.RefStage2
import proofs.«414479_j7705171329025_1_alg».proof.Proof.RefStage3
import proofs.«414479_j7705171329025_1_alg».proof.Proof.RefStage4
import proofs.«414479_j7705171329025_1_alg».proof.Proof.RefStage5
import proofs.«414479_j7705171329025_1_alg».proof.Proof.RefStage6
import proofs.«414479_j7705171329025_1_alg».proof.Proof.RefStage7
import proofs.«414479_j7705171329025_1_alg».proof.Proof.RefStage8

noncomputable section

namespace Cert.RefArgs9

open Cert.ReferenceIdeal Cert.ChainDefs
open Idealize.ShloMosaic Idealize.ShloMosaic.TcCoe Idealize.ShloMosaic.StableHlo

variable (m' : (ℓ : Loc nD τ sig) → Buf (Elt Ideal) ℓ)

/-- A buffer none of the first nine lists writes holds, before the tenth, what it held at the launch. -/
theorem U9_keep (c : Dev nD) {r : Ref sig .tc} (h0 : r ∉ RefStage0.written) (h1 : r ∉ RefStage1.written)
    (h2 : r ∉ RefStage2.written) (h3 : r ∉ RefStage3.written) (h4 : r ∉ RefStage4.written) (h5 : r ∉ RefStage5.written)
    (h6 : r ∉ RefStage6.written) (h7 : r ∉ RefStage7.written) (h8 : r ∉ RefStage8.written) :
    U9 m' c (Proc.devRef .tc r) = U0 m' c (Proc.devRef .tc r) :=
  calc U9 m' c (Proc.devRef .tc r)
    _ = U8 m' c (Proc.devRef .tc r) := RefStage8.keep (U8 m' c) h8
    _ = U7 m' c (Proc.devRef .tc r) := RefStage7.keep (U7 m' c) h7
    _ = U6 m' c (Proc.devRef .tc r) := RefStage6.keep (U6 m' c) h6
    _ = U5 m' c (Proc.devRef .tc r) := RefStage5.keep (U5 m' c) h5
    _ = U4 m' c (Proc.devRef .tc r) := RefStage4.keep (U4 m' c) h4
    _ = U3 m' c (Proc.devRef .tc r) := RefStage3.keep (U3 m' c) h3
    _ = U2 m' c (Proc.devRef .tc r) := RefStage2.keep (U2 m' c) h2
    _ = U1 m' c (Proc.devRef .tc r) := RefStage1.keep (U1 m' c) h1
    _ = U0 m' c (Proc.devRef .tc r) := RefStage0.keep (U0 m' c) h0

/-- The hidden layer's weight matrix. -/
theorem arg15 (c : Dev nD) :
    (U9 m' c (Proc.devRef .tc main_arg15) : Vec Ideal S128x128 .f32) = m' ((c.tc : Thread nD τ).loc main_arg15) :=
  (U9_keep m' c (by decide) (by decide) (by decide) (by decide) (by decide) (by decide) (by decide) (by decide) (by decide)).trans rfl

/-- The hidden layer's bias. -/
theorem arg16 (c : Dev nD) :
    (U9 m' c (Proc.devRef .tc main_arg16) : Vec Ideal S128 .f32) = m' ((c.tc : Thread nD τ).loc main_arg16) :=
  (U9_keep m' c (by decide) (by decide) (by decide) (by decide) (by decide) (by decide) (by decide) (by decide) (by decide)).trans rfl

/-- The hidden layer's scale. -/
theorem arg17 (c : Dev nD) :
    (U9 m' c (Proc.devRef .tc main_arg17) : Vec Ideal S128 .f32) = m' ((c.tc : Thread nD τ).loc main_arg17) :=
  (U9_keep m' c (by decide) (by decide) (by decide) (by decide) (by decide) (by decide) (by decide) (by decide) (by decide)).trans rfl

/-- The hidden layer's shift. -/
theorem arg18 (c : Dev nD) :
    (U9 m' c (Proc.devRef .tc main_arg18) : Vec Ideal S128 .f32) = m' ((c.tc : Thread nD τ).loc main_arg18) :=
  (U9_keep m' c (by decide) (by decide) (by decide) (by decide) (by decide) (by decide) (by decide) (by decide) (by decide)).trans rfl

/-- The scores' weight matrix. -/
theorem arg19 (c : Dev nD) :
    (U9 m' c (Proc.devRef .tc main_arg19) : Vec Ideal S128x5 .f32) = m' ((c.tc : Thread nD τ).loc main_arg19) :=
  (U9_keep m' c (by decide) (by decide) (by decide) (by decide) (by decide) (by decide) (by decide) (by decide) (by decide)).trans rfl

/-- The scores' bias. -/
theorem arg20 (c : Dev nD) :
    (U9 m' c (Proc.devRef .tc main_arg20) : Vec Ideal S5 .f32) = m' ((c.tc : Thread nD τ).loc main_arg20) :=
  (U9_keep m' c (by decide) (by decide) (by decide) (by decide) (by decide) (by decide) (by decide) (by decide) (by decide)).trans rfl

/-- The scores' scale. -/
theorem arg21 (c : Dev nD) :
    (U9 m' c (Proc.devRef .tc main_arg21) : Vec Ideal S5 .f32) = m' ((c.tc : Thread nD τ).loc main_arg21) :=
  (U9_keep m' c (by decide) (by decide) (by decide) (by decide) (by decide) (by decide) (by decide) (by decide) (by decide)).trans rfl

/-- The scores' shift. -/
theorem arg22 (c : Dev nD) :
    (U9 m' c (Proc.devRef .tc main_arg22) : Vec Ideal S5 .f32) = m' ((c.tc : Thread nD τ).loc main_arg22) :=
  (U9_keep m' c (by decide) (by decide) (by decide) (by decide) (by decide) (by decide) (by decide) (by decide) (by decide)).trans rfl

end Cert.RefArgs9

end
-- ==== Proof.Chain13.lean ====
/-
  Stage 13 of the chain: the attention layer's hidden layer. Both programs send the node embedding through the same
  weight matrix and bias, take the hyperbolic tangent, and normalise the result by its own batch statistics. The two
  node embeddings are one array by the invariant of the stage before; the parameters are one by the agreement of the
  two memories, no operation before the stage having written them in either program. The kernel takes the variance as
  the mean of squares less the squared mean, the reference as the mean of the squared deviations: on real data one
  number. So the two normalised arrays are equal, entry by entry, and every entry is a real number.
-/
import proofs.«414479_j7705171329025_1_alg».proof.Proof.KernelChain13
import proofs.«414479_j7705171329025_1_alg».proof.Proof.ChainDefs
import proofs.«414479_j7705171329025_1_alg».proof.Proof.RefChain13
import proofs.«414479_j7705171329025_1_alg».proof.Proof.RefArgs9
import proofs.«414479_j7705171329025_1_alg».proof.Proof.Chain0
import proofs.«414479_j7705171329025_1_alg».proof.Proof.StageReal
import proofs.«414479_j7705171329025_1_alg».proof.Proof.PreReal

noncomputable section

namespace Cert.Chain13

open Cert.RealSpec (IsReal)
open Cert.ChainDefs
open Idealize.ShloMosaic Idealize.ShloMosaic.TcCoe Idealize.ShloMosaic.StableHlo

variable [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- STAGE 13: if the two node embeddings are equal and real, the two normalised hidden layers are equal and real. -/
theorem inv13 (hpre : Cert.Pre_KernelIdeal m) (hag : Cert.Chain0.Agree m m') (c : Dev Cert.KernelIdeal.nD)
    (h12 : Inv12 m ρ m' c) : Inv13 m ρ m' c := by
  have h12' : (∀ i, kOut12 m ρ c i = rOut12 m' c i) ∧ (∀ i, IsReal (kOut12 m ρ c i)) := h12
  -- the reference's node embedding is the kernel's, by the invariant of the stage before
  have ex : Cert.ReferenceIdeal.RefChain13.x (U9 m' c) = Cert.KernelChain13.emb m ρ c := by
    have e1 : rOut12 m' c = Cert.ReferenceIdeal.RefChain13.x (U9 m' c) := Cert.ReferenceIdeal.RefStage9.read_v469 (U9 m' c)
    have e2 : kOut12 m ρ c = rOut12 m' c := funext fun i => h12'.1 i
    exact (e2.trans e1).symm
  -- the reference's parameters are the kernel's, by the agreement of the two memories on the arguments
  have ew : Cert.ReferenceIdeal.RefChain13.w (U9 m' c) = Cert.KernelChain13.Wt m c :=
    (Cert.RefArgs9.arg15 m' c).trans (hag.arg15 c)
  have eb : Cert.ReferenceIdeal.RefChain13.bv (U9 m' c) = Cert.KernelChain13.Bflat m c :=
    (Cert.RefArgs9.arg16 m' c).trans (hag.arg16 c)
  have eg : Cert.ReferenceIdeal.RefChain13.g (U9 m' c) = Cert.KernelChain13.g m c :=
    (Cert.RefArgs9.arg17 m' c).trans (hag.arg17 c)
  have eβ : Cert.ReferenceIdeal.RefChain13.β (U9 m' c) = Cert.KernelChain13.β m c :=
    (Cert.RefArgs9.arg18 m' c).trans (hag.arg18 c)
  -- so the two hidden layers before the normalisation are one array
  have ey : Cert.ReferenceIdeal.RefChain13.y (U9 m' c) = Cert.KernelChain13.y m ρ c := by
    funext r q
    show Ideal.tanh (StageSpec.lin (Cert.ReferenceIdeal.RefChain13.x (U9 m' c)) (Cert.ReferenceIdeal.RefChain13.w (U9 m' c))
        (shapeCast Cert.ReferenceIdeal.S1x128 (Cert.ReferenceIdeal.RefChain13.bv (U9 m' c)) Cert.ReferenceIdeal.RefKinds.shapeCasts_S128_S1x128) r q)
      = Ideal.tanh (StageSpec.lin (Cert.KernelChain13.emb m ρ c) (Cert.KernelChain13.Wt m c) (Cert.KernelChain13.B m c) r q)
    rw [ex, ew, eb]
  -- every entry of it is a real number, so the two variances are one number
  have hy : ∀ r q, IsReal (Cert.KernelChain13.y m ρ c r q) := Cert.KernelChain13.y_isReal m ρ hpre c h12'.2
  show (∀ i, kOut13 m ρ c i = rOut13 m' c i) ∧ (∀ i, IsReal (kOut13 m ρ c i))
  refine ⟨fun i => ?_, fun i => ?_⟩
  · obtain ⟨r, q, rfl⟩ : ∃ (r : Fin 100000) (q : Fin 128), i = ValueIdx.ix2 r q := ⟨i 0, i 1, ValueIdx.eq_ix2 i⟩
    rw [show kOut13 m ρ c (ValueIdx.ix2 r q) = _ from Cert.KernelChain13.kernel_out_apply m ρ c r q,
      show rOut13 m' c (ValueIdx.ix2 r q) = _ from Cert.ReferenceIdeal.RefChain13.out_apply (U9 m' c) r q,
      ey, eg, eβ]
    exact Cert.StageReal.norm_varSumSq_eq_norm_varDev_100000 (Cert.KernelChain13.y m ρ c) hy q (Cert.KernelChain13.y m ρ c r q) _ _
  · obtain ⟨r, q, rfl⟩ : ∃ (r : Fin 100000) (q : Fin 128), i = ValueIdx.ix2 r q := ⟨i 0, i 1, ValueIdx.eq_ix2 i⟩
    rw [show kOut13 m ρ c (ValueIdx.ix2 r q) = _ from Cert.KernelChain13.kernel_out_apply m ρ c r q]
    exact Cert.StageReal.norm_varSumSq_isReal_100000 (Cert.KernelChain13.y m ρ c) hy q (hy r q)
      (Cert.KernelChain13.g_isReal m hpre c q) (Cert.KernelChain13.β_isReal m hpre c q)

end Cert.Chain13

end
-- ==== Proof.ValSingle28.lean ====
/-
  Region 28: the attention scores' output layer with its column statistics. At each of the twenty grid points the
  body multiplies a block of 5000 rows of its input by the weight matrix of 5 columns, adds the bias row, stores that
  block of the output, and adds the block's column sums and column sums of squares to two carried rows, which the
  first point has set to zero. The blocks tile the 100000 rows, so the output is the linear stage of the whole array,
  and the two carried rows end as the column sum and the column sum of squares over all rows: a sum over 100000 rows
  regrouped as twenty runs of 5000, which is a matter of the order of a finite sum only.
-/
import proofs.«414479_j7705171329025_1_alg».proof.Proof.FrameKI.R28
import proofs.«414479_j7705171329025_1_alg».proof.Proof.StageSpec
import proofs.«414479_j7705171329025_1_alg».proof.Proof.PayLinear
import proofs.«414479_j7705171329025_1_alg».proof.Proof.AccumLaw
import proofs.«414479_j7705171329025_1_alg».proof.Proof.LibBatchStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ValSingle28

open Cert.KernelIdeal Cert.KernelIdeal.Gen Cert.StageSpec
open Idealize.ShloMosaic Idealize.ShloMosaic.TcCoe Idealize.ShloMosaic.ValueIdx
open scoped BigOperators

/-- The zero offsets of a rank-two buffer, as a constant function. -/
theorem hz : (![0, 0] : Fin 2 → Nat) = fun _ => 0 := funext fun a => by fin_cases a <;> rfl

/-! ## What each case of the body leaves in each output buffer

  Every load of the body reads a whole buffer and every store covers its whole buffer, so each output buffer holds the
  body's arithmetic of what the loads found. At the first point the two carried rows are first set to zero and then
  read back, so the running rows it leaves are the block's sums added to zero; at the other points they are added to
  what the rows held. -/

section Pieces

variable {F : FTy → Type} [FloatOps F]

theorem outA3 (c : Dev nD) (i : grid28.Coords) (a1 : Memref sig .tc .vmem S5000x128 .f32) (h1 : a1.IsWhole)
    (a2 : Memref sig .tc .vmem S128x5 .f32) (h2 : a2.IsWhole) (a3 : Memref sig .tc .vmem S1x5 .f32) (h3 : a3.IsWhole)
    (a4 : Memref sig .tc .vmem S5000x5 .f32) (h4 : a4.IsWhole) (a5 : Memref sig .tc .vmem S1x5 .f32) (h5 : a5.IsWhole)
    (a6 : Memref sig .tc .vmem S1x5 .f32) (h6 : a6.IsWhole) (hc : cond28_0 i)
    (x0 : Vec F S5000x128 .f32) (x1 : Vec F S128x5 .f32) (x2 : Vec F S1x5 .f32) :
    out28_A_3 c i a1 h1 a2 h2 a3 h3 a4 h4 a5 h5 a6 h6 hc x0 x1 x2 = k28_pay3 x0 x1 x2 := by
  unfold out28_A_3
  rw [View.read_writes_eq_canon _ _ _ (cover28_A_3 c i a1 h1 a2 h2 a3 h3 a4 h4 a5 h5 a6 h6 hc x0 x1 x2)]
  unfold kernelRun28_A
  dsimp only
  (try sl_unfold_words)
  rw [View.canon_unit_zero hz]
  simp only [View.readAt_eq_ld, h1.read_unread, h2.read_unread, h3.read_unread,
    View.ld_unit_zero (S := S5000x128) hz, View.ld_unit_zero (S := S128x5) hz, View.ld_unit_zero (S := S1x5) hz]

theorem outA4 (c : Dev nD) (i : grid28.Coords) (a1 : Memref sig .tc .vmem S5000x128 .f32) (h1 : a1.IsWhole)
    (a2 : Memref sig .tc .vmem S128x5 .f32) (h2 : a2.IsWhole) (a3 : Memref sig .tc .vmem S1x5 .f32) (h3 : a3.IsWhole)
    (a4 : Memref sig .tc .vmem S5000x5 .f32) (h4 : a4.IsWhole) (a5 : Memref sig .tc .vmem S1x5 .f32) (h5 : a5.IsWhole)
    (a6 : Memref sig .tc .vmem S1x5 .f32) (h6 : a6.IsWhole) (hc : cond28_0 i)
    (x0 : Vec F S5000x128 .f32) (x1 : Vec F S128x5 .f32) (x2 : Vec F S1x5 .f32) :
    out28_A_4 c i a1 h1 a2 h2 a3 h3 a4 h4 a5 h5 a6 h6 hc x0 x1 x2 = k28_pay4 x0 x1 x2 (k28_pay1 (F := F)) := by
  unfold out28_A_4
  rw [View.read_writes_eq_canon _ _ _ (cover28_A_4 c i a1 h1 a2 h2 a3 h3 a4 h4 a5 h5 a6 h6 hc x0 x1 x2)]
  unfold kernelRun28_A
  dsimp only
  (try sl_unfold_words)
  rw [View.canon_cons_unit_zero (S := S1x5) hz]
  simp only [View.readAt_eq_ld, h1.read_unread, h2.read_unread, h3.read_unread, View.readCov_unit_zero (S := S1x5) _ hz,
    View.ld_unit_zero (S := S5000x128) hz, View.ld_unit_zero (S := S128x5) hz, View.ld_unit_zero (S := S1x5) hz]

theorem outA5 (c : Dev nD) (i : grid28.Coords) (a1 : Memref sig .tc .vmem S5000x128 .f32) (h1 : a1.IsWhole)
    (a2 : Memref sig .tc .vmem S128x5 .f32) (h2 : a2.IsWhole) (a3 : Memref sig .tc .vmem S1x5 .f32) (h3 : a3.IsWhole)
    (a4 : Memref sig .tc .vmem S5000x5 .f32) (h4 : a4.IsWhole) (a5 : Memref sig .tc .vmem S1x5 .f32) (h5 : a5.IsWhole)
    (a6 : Memref sig .tc .vmem S1x5 .f32) (h6 : a6.IsWhole) (hc : cond28_0 i)
    (x0 : Vec F S5000x128 .f32) (x1 : Vec F S128x5 .f32) (x2 : Vec F S1x5 .f32) :
    out28_A_5 c i a1 h1 a2 h2 a3 h3 a4 h4 a5 h5 a6 h6 hc x0 x1 x2 = k28_pay5 x0 x1 x2 (k28_pay2 (F := F)) := by
  unfold out28_A_5
  rw [View.read_writes_eq_canon _ _ _ (cover28_A_5 c i a1 h1 a2 h2 a3 h3 a4 h4 a5 h5 a6 h6 hc x0 x1 x2)]
  unfold kernelRun28_A
  dsimp only
  (try sl_unfold_words)
  rw [View.canon_cons_unit_zero (S := S1x5) hz]
  simp only [View.readAt_eq_ld, h1.read_unread, h2.read_unread, h3.read_unread, View.readCov_unit_zero (S := S1x5) _ hz,
    View.ld_unit_zero (S := S5000x128) hz, View.ld_unit_zero (S := S128x5) hz, View.ld_unit_zero (S := S1x5) hz]

theorem outB3 (c : Dev nD) (i : grid28.Coords) (a1 : Memref sig .tc .vmem S5000x128 .f32) (h1 : a1.IsWhole)
    (a2 : Memref sig .tc .vmem S128x5 .f32) (h2 : a2.IsWhole) (a3 : Memref sig .tc .vmem S1x5 .f32) (h3 : a3.IsWhole)
    (a4 : Memref sig .tc .vmem S5000x5 .f32) (h4 : a4.IsWhole) (a5 : Memref sig .tc .vmem S1x5 .f32) (h5 : a5.IsWhole)
    (a6 : Memref sig .tc .vmem S1x5 .f32) (h6 : a6.IsWhole) (hc : ¬cond28_0 i)
    (x0 : Vec F S5000x128 .f32) (x1 : Vec F S128x5 .f32) (x2 : Vec F S1x5 .f32) (xo4 xo5 : Vec F S1x5 .f32) :
    out28_B_3 c i a1 h1 a2 h2 a3 h3 a4 h4 a5 h5 a6 h6 hc x0 x1 x2 xo4 xo5 = k28_pay3 x0 x1 x2 := by
  unfold out28_B_3
  rw [View.read_writes_eq_canon _ _ _ (cover28_B_3 c i a1 h1 a2 h2 a3 h3 a4 h4 a5 h5 a6 h6 hc x0 x1 x2 xo4 xo5)]
  unfold kernelRun28_B
  dsimp only
  (try sl_unfold_words)
  rw [View.canon_unit_zero hz]
  simp only [View.readAt_eq_ld, h1.read_unread, h2.read_unread, h3.read_unread, h5.read_unread, h6.read_unread,
    View.ld_unit_zero (S := S5000x128) hz, View.ld_unit_zero (S := S128x5) hz, View.ld_unit_zero (S := S1x5) hz]

theorem outB4 (c : Dev nD) (i : grid28.Coords) (a1 : Memref sig .tc .vmem S5000x128 .f32) (h1 : a1.IsWhole)
    (a2 : Memref sig .tc .vmem S128x5 .f32) (h2 : a2.IsWhole) (a3 : Memref sig .tc .vmem S1x5 .f32) (h3 : a3.IsWhole)
    (a4 : Memref sig .tc .vmem S5000x5 .f32) (h4 : a4.IsWhole) (a5 : Memref sig .tc .vmem S1x5 .f32) (h5 : a5.IsWhole)
    (a6 : Memref sig .tc .vmem S1x5 .f32) (h6 : a6.IsWhole) (hc : ¬cond28_0 i)
    (x0 : Vec F S5000x128 .f32) (x1 : Vec F S128x5 .f32) (x2 : Vec F S1x5 .f32) (xo4 xo5 : Vec F S1x5 .f32) :
    out28_B_4 c i a1 h1 a2 h2 a3 h3 a4 h4 a5 h5 a6 h6 hc x0 x1 x2 xo4 xo5 = k28_pay4 x0 x1 x2 xo4 := by
  unfold out28_B_4
  rw [View.read_writes_eq_canon _ _ _ (cover28_B_4 c i a1 h1 a2 h2 a3 h3 a4 h4 a5 h5 a6 h6 hc x0 x1 x2 xo4 xo5)]
  unfold kernelRun28_B
  dsimp only
  (try sl_unfold_words)
  rw [View.canon_unit_zero hz]
  simp only [View.readAt_eq_ld, h1.read_unread, h2.read_unread, h3.read_unread, h5.read_unread, h6.read_unread,
    View.ld_unit_zero (S := S5000x128) hz, View.ld_unit_zero (S := S128x5) hz, View.ld_unit_zero (S := S1x5) hz]

theorem outB5 (c : Dev nD) (i : grid28.Coords) (a1 : Memref sig .tc .vmem S5000x128 .f32) (h1 : a1.IsWhole)
    (a2 : Memref sig .tc .vmem S128x5 .f32) (h2 : a2.IsWhole) (a3 : Memref sig .tc .vmem S1x5 .f32) (h3 : a3.IsWhole)
    (a4 : Memref sig .tc .vmem S5000x5 .f32) (h4 : a4.IsWhole) (a5 : Memref sig .tc .vmem S1x5 .f32) (h5 : a5.IsWhole)
    (a6 : Memref sig .tc .vmem S1x5 .f32) (h6 : a6.IsWhole) (hc : ¬cond28_0 i)
    (x0 : Vec F S5000x128 .f32) (x1 : Vec F S128x5 .f32) (x2 : Vec F S1x5 .f32) (xo4 xo5 : Vec F S1x5 .f32) :
    out28_B_5 c i a1 h1 a2 h2 a3 h3 a4 h4 a5 h5 a6 h6 hc x0 x1 x2 xo4 xo5 = k28_pay5 x0 x1 x2 xo5 := by
  unfold out28_B_5
  rw [View.read_writes_eq_canon _ _ _ (cover28_B_5 c i a1 h1 a2 h2 a3 h3 a4 h4 a5 h5 a6 h6 hc x0 x1 x2 xo4 xo5)]
  unfold kernelRun28_B
  dsimp only
  (try sl_unfold_words)
  rw [View.canon_unit_zero hz]
  simp only [View.readAt_eq_ld, h1.read_unread, h2.read_unread, h3.read_unread, h5.read_unread, h6.read_unread,
    View.ld_unit_zero (S := S5000x128) hz, View.ld_unit_zero (S := S128x5) hz, View.ld_unit_zero (S := S1x5) hz]

end Pieces

variable (V : (c : Dev nD) → (b : Ref sig .tc) → Buf (Elt Ideal) ((c : Thread nD τ).loc b))

/-- The region's input arrays as it finds them, each at its literal type: input rows, weight matrix, bias row. -/
abbrev xArr (c : Dev nD) : Vec Ideal S100000x128 .f32 := V c (Pipeline.arrRef spec28 0)
abbrev wArr (c : Dev nD) : Vec Ideal S128x5 .f32 := V c (Pipeline.arrRef spec28 1)
abbrev bRow (c : Dev nD) : Vec Ideal S1x5 .f32 := V c (Pipeline.arrRef spec28 2)

/-- One entry of the linear stage on the region's arrays. -/
def y (c : Dev nD) (r : Fin 100000) (q : Fin 5) : EReal := lin (xArr V c) (wArr V c) (bRow V c) r q

/-- What the region leaves in its three output arrays. -/
def resultY (c : Dev nD) : Vec Ideal S100000x5 .f32 := fun i => y V c (i 0) (i 1)
def resultSum (c : Dev nD) : Vec Ideal S1x5 .f32 := fun i => colSum (y V c) (i 1)
def resultSumSq (c : Dev nD) : Vec Ideal S1x5 .f32 := fun i => colSumSq (y V c) (i 1)

/-! ## Where each window's block lies, and what the input blocks read -/

/-- The three input blocks at a point, each at its literal type. -/
abbrev xBlk (c : Dev nD) (t : Fin cfg28.N) : Vec Ideal S5000x128 .f32 := iblk28 V c 0 t
abbrev wBlk (c : Dev nD) (t : Fin cfg28.N) : Vec Ideal S128x5 .f32 := iblk28 V c 1 t
abbrev bBlk (c : Dev nD) (t : Fin cfg28.N) : Vec Ideal S1x5 .f32 := iblk28 V c 2 t

/-- The block each of the six windows takes at a point, decided over the twenty points: the two tall windows take
    block t along the rows, and the weight matrix and each of the three rows are their own one block throughout. -/
theorem idx_facts : ∀ t : Fin cfg28.N,
    win28_0.index t (0 : Fin 2) = t.val ∧ win28_0.index t (1 : Fin 2) = 0
    ∧ win28_1.index t (0 : Fin 2) = 0 ∧ win28_1.index t (1 : Fin 2) = 0
    ∧ win28_2.index t (0 : Fin 2) = 0 ∧ win28_2.index t (1 : Fin 2) = 0
    ∧ win28_3.index t (0 : Fin 2) = t.val ∧ win28_3.index t (1 : Fin 2) = 0
    ∧ win28_4.index t (0 : Fin 2) = 0 ∧ win28_4.index t (1 : Fin 2) = 0
    ∧ win28_5.index t (0 : Fin 2) = 0 ∧ win28_5.index t (1 : Fin 2) = 0 :=
  (by decide +kernel : ∀ t : Fin grid28.N, _)

/-- The input's block at point t, read at (p, j), is the array at row 5000·t + p, column j. -/
theorem x_apply (c : Dev nD) (t : Fin cfg28.N) (p : Fin 5000) (j : Fin 128) (h : t.val * 5000 + p.val < 100000) :
    xBlk V c t (ix2 p j) = xArr V c (ix2 ⟨t.val * 5000 + p.val, h⟩ j) := by
  obtain ⟨e00, e01, -⟩ := idx_facts t
  unfold xBlk iblk28
  rw [View.read_apply]
  show xArr V c (((cfg28.win 0).blk t).view.emb (ix2 p j)) = _
  refine congrArg (xArr V c) ?_
  funext a; apply Fin.ext
  match a with
  | ⟨0, _⟩ => show win28_0.index t (0 : Fin 2) * 5000 + 1 * p.val = t.val * 5000 + p.val; omega
  | ⟨1, _⟩ => show win28_0.index t (1 : Fin 2) * 128 + 1 * j.val = j.val; omega

/-- The weight matrix's block, at every point, is the matrix. -/
theorem w_apply (c : Dev nD) (t : Fin cfg28.N) (j : Fin 128) (q : Fin 5) :
    wBlk V c t (ix2 j q) = wArr V c (ix2 j q) := by
  obtain ⟨-, -, e10, e11, -⟩ := idx_facts t
  unfold wBlk iblk28
  rw [View.read_apply]
  show wArr V c (((cfg28.win 1).blk t).view.emb (ix2 j q)) = _
  refine congrArg (wArr V c) ?_
  funext a; apply Fin.ext
  match a with
  | ⟨0, _⟩ => show win28_1.index t (0 : Fin 2) * 128 + 1 * j.val = j.val; omega
  | ⟨1, _⟩ => show win28_1.index t (1 : Fin 2) * 5 + 1 * q.val = q.val; omega

/-- The bias row's block, at every point, is the row. -/
theorem b_apply (c : Dev nD) (t : Fin cfg28.N) (q : Fin 5) :
    bBlk V c t (ix2 (0 : Fin 1) q) = bRow V c (ix2 (0 : Fin 1) q) := by
  obtain ⟨-, -, -, -, e20, e21, -⟩ := idx_facts t
  unfold bBlk iblk28
  rw [View.read_apply]
  show bRow V c (((cfg28.win 2).blk t).view.emb (ix2 (0 : Fin 1) q)) = _
  refine congrArg (bRow V c) ?_
  funext a; apply Fin.ext
  match a with
  | ⟨0, _⟩ => show win28_2.index t (0 : Fin 2) * 1 + 1 * 0 = 0; omega
  | ⟨1, _⟩ => show win28_2.index t (1 : Fin 2) * 5 + 1 * q.val = q.val; omega

/-- The block of values a point computes, at (p, q), is the linear stage's entry of row 5000·t + p, column q. -/
theorem pay3_point (c : Dev nD) (t : Fin cfg28.N) (p : Fin 5000) (q : Fin 5) (h : t.val * 5000 + p.val < 100000) :
    k28_pay3 (F := Ideal) (xBlk V c t) (wBlk V c t) (bBlk V c t) (ix2 p q) = y V c ⟨t.val * 5000 + p.val, h⟩ q := by
  refine (PayLinear.k28_pay3_apply (xBlk V c t) (wBlk V c t) (bBlk V c t) p q).trans ?_
  unfold y lin
  refine congrArg₂ (fun a b : EReal => a + b) (Finset.sum_congr rfl fun j _ => ?_) (b_apply V c t q)
  exact congrArg₂ (fun a b : EReal => a * b) (x_apply V c t p j h) (w_apply V c t j q)

/-! ## What the three output buffers hold after each point -/

/-- The output block after any point is the block of values the point computes. -/
theorem outs3_eq (c : Dev nD) (t : Fin cfg28.N) :
    (outsAt28 V c t.val t.isLt).1 = k28_pay3 (F := Ideal) (xBlk V c t) (wBlk V c t) (bBlk V c t) := by
  by_cases h0 : t.val % 20 = 0
  · rw [outsAt28_A V c t h0]
    dsimp only
    exact outA3 (F := Ideal) c (grid28.coords t) (ms28_0 t) (hs28_0 t) (ms28_1 t) (hs28_1 t) (ms28_2 t) (hs28_2 t) (ms28_3 t) (hs28_3 t) (ms28_4 t) (hs28_4 t) (ms28_5 t) (hs28_5 t)
      ((hcond28_0 t).mpr h0) (iblk28 V c 0 t) (iblk28 V c 1 t) (iblk28 V c 2 t)
  · rw [outsAt28_B V c t h0]
    dsimp only
    exact outB3 (F := Ideal) c (grid28.coords t) (ms28_0 t) (hs28_0 t) (ms28_1 t) (hs28_1 t) (ms28_2 t) (hs28_2 t) (ms28_3 t) (hs28_3 t) (ms28_4 t) (hs28_4 t) (ms28_5 t) (hs28_5 t)
      (fun h => h0 ((hcond28_0 t).mp h)) (iblk28 V c 0 t) (iblk28 V c 1 t) (iblk28 V c 2 t)
      (outsAt28 V c (t.val - 1) (Nat.lt_of_le_of_lt (Nat.sub_le _ _) t.isLt)).2.1
      (outsAt28 V c (t.val - 1) (Nat.lt_of_le_of_lt (Nat.sub_le _ _) t.isLt)).2.2

/-- The carried column sum at column q, after point t. -/
def accSum (c : Dev nD) (u : Fin 1) (q : Fin 5) : (t : ℕ) → t < 20 → EReal :=
  fun t ht => (outsAt28 V c t (lt_of_lt_of_eq ht N_28.symm)).2.1 (ix2 u q)

/-- At the first point it is the stored zero plus the block's column sum. -/
theorem accSum_first (c : Dev nD) (u : Fin 1) (q : Fin 5) (t : ℕ) (ht : t < 20) (h0 : t % 20 = 0) :
    accSum V c u q t ht = (k28_pay1 (F := Ideal)) (ix2 u q)
      + ∑ p : Fin 5000, y V c ⟨t * 5000 + p.val, by have := p.isLt; omega⟩ q := by
  have ht' : t < cfg28.N := lt_of_lt_of_eq ht N_28.symm
  show (outsAt28 V c (⟨t, ht'⟩ : Fin cfg28.N).val (⟨t, ht'⟩ : Fin cfg28.N).isLt).2.1 (ix2 u q) = _
  rw [outsAt28_A V c ⟨t, ht'⟩ h0]
  dsimp only
  refine (congrFun (outA4 (F := Ideal) c (grid28.coords ⟨t, ht'⟩) (ms28_0 ⟨t, ht'⟩) (hs28_0 ⟨t, ht'⟩) (ms28_1 ⟨t, ht'⟩) (hs28_1 ⟨t, ht'⟩) (ms28_2 ⟨t, ht'⟩) (hs28_2 ⟨t, ht'⟩) (ms28_3 ⟨t, ht'⟩) (hs28_3 ⟨t, ht'⟩) (ms28_4 ⟨t, ht'⟩) (hs28_4 ⟨t, ht'⟩) (ms28_5 ⟨t, ht'⟩) (hs28_5 ⟨t, ht'⟩)
    ((hcond28_0 ⟨t, ht'⟩).mpr h0) (iblk28 V c 0 ⟨t, ht'⟩) (iblk28 V c 1 ⟨t, ht'⟩) (iblk28 V c 2 ⟨t, ht'⟩)) (ix2 u q)).trans ?_
  refine (PayLinear.k28_pay4_apply (xBlk V c ⟨t, ht'⟩) (wBlk V c ⟨t, ht'⟩) (bBlk V c ⟨t, ht'⟩) (k28_pay1 (F := Ideal)) u q).trans ?_
  refine congrArg (fun s : EReal => (k28_pay1 (F := Ideal)) (ix2 u q) + s) (Finset.sum_congr rfl fun p _ => ?_)
  exact pay3_point V c ⟨t, ht'⟩ p q _

/-- At any other point it is what the point before left plus the block's column sum. -/
theorem accSum_step (c : Dev nD) (u : Fin 1) (q : Fin 5) (t : ℕ) (ht : t < 20) (h0 : t % 20 ≠ 0) :
    accSum V c u q t ht = accSum V c u q (t - 1) (Nat.lt_of_le_of_lt (Nat.sub_le t 1) ht)
      + ∑ p : Fin 5000, y V c ⟨t * 5000 + p.val, by have := p.isLt; omega⟩ q := by
  have ht' : t < cfg28.N := lt_of_lt_of_eq ht N_28.symm
  show (outsAt28 V c (⟨t, ht'⟩ : Fin cfg28.N).val (⟨t, ht'⟩ : Fin cfg28.N).isLt).2.1 (ix2 u q) = _
  rw [outsAt28_B V c ⟨t, ht'⟩ h0]
  dsimp only
  refine (congrFun (outB4 (F := Ideal) c (grid28.coords ⟨t, ht'⟩) (ms28_0 ⟨t, ht'⟩) (hs28_0 ⟨t, ht'⟩) (ms28_1 ⟨t, ht'⟩) (hs28_1 ⟨t, ht'⟩) (ms28_2 ⟨t, ht'⟩) (hs28_2 ⟨t, ht'⟩) (ms28_3 ⟨t, ht'⟩) (hs28_3 ⟨t, ht'⟩) (ms28_4 ⟨t, ht'⟩) (hs28_4 ⟨t, ht'⟩) (ms28_5 ⟨t, ht'⟩) (hs28_5 ⟨t, ht'⟩)
    (fun h => h0 ((hcond28_0 ⟨t, ht'⟩).mp h)) (iblk28 V c 0 ⟨t, ht'⟩) (iblk28 V c 1 ⟨t, ht'⟩) (iblk28 V c 2 ⟨t, ht'⟩)
    (outsAt28 V c ((⟨t, ht'⟩ : Fin cfg28.N).val - 1) (Nat.lt_of_le_of_lt (Nat.sub_le _ _) (⟨t, ht'⟩ : Fin cfg28.N).isLt)).2.1
    (outsAt28 V c ((⟨t, ht'⟩ : Fin cfg28.N).val - 1) (Nat.lt_of_le_of_lt (Nat.sub_le _ _) (⟨t, ht'⟩ : Fin cfg28.N).isLt)).2.2) (ix2 u q)).trans ?_
  refine (PayLinear.k28_pay4_apply (xBlk V c ⟨t, ht'⟩) (wBlk V c ⟨t, ht'⟩) (bBlk V c ⟨t, ht'⟩)
    (outsAt28 V c ((⟨t, ht'⟩ : Fin cfg28.N).val - 1) (Nat.lt_of_le_of_lt (Nat.sub_le _ _) (⟨t, ht'⟩ : Fin cfg28.N).isLt)).2.1 u q).trans ?_
  refine congrArg (fun s : EReal => accSum V c u q (t - 1) (Nat.lt_of_le_of_lt (Nat.sub_le t 1) ht) + s)
    (Finset.sum_congr rfl fun p _ => ?_)
  exact pay3_point V c ⟨t, ht'⟩ p q _

/-- After the last point it is the column sum over all 100000 rows. -/
theorem accSum_last (c : Dev nD) (u : Fin 1) (q : Fin 5) :
    accSum V c u q 19 (by norm_num) = colSum (y V c) q := by
  refine AccumLaw.acc_final_100000_of_cases (fun r : Fin 100000 => y V c r q)
    (fun (t : Fin 20) (p : Fin 5000) => y V c ⟨t.val * 5000 + p.val, AccumLaw.row_lt_100000 t p⟩ q)
    (fun _ _ => rfl) (accSum V c u q) ((k28_pay1 (F := Ideal)) (ix2 u q)) Ideal.ofBits_zero_f32
    (fun t ht h0 => accSum_first V c u q t ht h0) (fun t ht h0 => accSum_step V c u q t ht h0)

/-- The carried column sum of squares at column q, after point t. -/
def accSumSq (c : Dev nD) (u : Fin 1) (q : Fin 5) : (t : ℕ) → t < 20 → EReal :=
  fun t ht => (outsAt28 V c t (lt_of_lt_of_eq ht N_28.symm)).2.2 (ix2 u q)

/-- At the first point it is the stored zero plus the block's column sum of squares. -/
theorem accSumSq_first (c : Dev nD) (u : Fin 1) (q : Fin 5) (t : ℕ) (ht : t < 20) (h0 : t % 20 = 0) :
    accSumSq V c u q t ht = (k28_pay2 (F := Ideal)) (ix2 u q)
      + ∑ p : Fin 5000, (y V c ⟨t * 5000 + p.val, by have := p.isLt; omega⟩ q * y V c ⟨t * 5000 + p.val, by have := p.isLt; omega⟩ q) := by
  have ht' : t < cfg28.N := lt_of_lt_of_eq ht N_28.symm
  show (outsAt28 V c (⟨t, ht'⟩ : Fin cfg28.N).val (⟨t, ht'⟩ : Fin cfg28.N).isLt).2.2 (ix2 u q) = _
  rw [outsAt28_A V c ⟨t, ht'⟩ h0]
  dsimp only
  refine (congrFun (outA5 (F := Ideal) c (grid28.coords ⟨t, ht'⟩) (ms28_0 ⟨t, ht'⟩) (hs28_0 ⟨t, ht'⟩) (ms28_1 ⟨t, ht'⟩) (hs28_1 ⟨t, ht'⟩) (ms28_2 ⟨t, ht'⟩) (hs28_2 ⟨t, ht'⟩) (ms28_3 ⟨t, ht'⟩) (hs28_3 ⟨t, ht'⟩) (ms28_4 ⟨t, ht'⟩) (hs28_4 ⟨t, ht'⟩) (ms28_5 ⟨t, ht'⟩) (hs28_5 ⟨t, ht'⟩)
    ((hcond28_0 ⟨t, ht'⟩).mpr h0) (iblk28 V c 0 ⟨t, ht'⟩) (iblk28 V c 1 ⟨t, ht'⟩) (iblk28 V c 2 ⟨t, ht'⟩)) (ix2 u q)).trans ?_
  refine (PayLinear.k28_pay5_apply (xBlk V c ⟨t, ht'⟩) (wBlk V c ⟨t, ht'⟩) (bBlk V c ⟨t, ht'⟩) (k28_pay2 (F := Ideal)) u q).trans ?_
  refine congrArg (fun s : EReal => (k28_pay2 (F := Ideal)) (ix2 u q) + s) (Finset.sum_congr rfl fun p _ => ?_)
  exact congrArg₂ (fun a b : EReal => a * b) (pay3_point V c ⟨t, ht'⟩ p q _) (pay3_point V c ⟨t, ht'⟩ p q _)

/-- At any other point it is what the point before left plus the block's column sum of squares. -/
theorem accSumSq_step (c : Dev nD) (u : Fin 1) (q : Fin 5) (t : ℕ) (ht : t < 20) (h0 : t % 20 ≠ 0) :
    accSumSq V c u q t ht = accSumSq V c u q (t - 1) (Nat.lt_of_le_of_lt (Nat.sub_le t 1) ht)
      + ∑ p : Fin 5000, (y V c ⟨t * 5000 + p.val, by have := p.isLt; omega⟩ q * y V c ⟨t * 5000 + p.val, by have := p.isLt; omega⟩ q) := by
  have ht' : t < cfg28.N := lt_of_lt_of_eq ht N_28.symm
  show (outsAt28 V c (⟨t, ht'⟩ : Fin cfg28.N).val (⟨t, ht'⟩ : Fin cfg28.N).isLt).2.2 (ix2 u q) = _
  rw [outsAt28_B V c ⟨t, ht'⟩ h0]
  dsimp only
  refine (congrFun (outB5 (F := Ideal) c (grid28.coords ⟨t, ht'⟩) (ms28_0 ⟨t, ht'⟩) (hs28_0 ⟨t, ht'⟩) (ms28_1 ⟨t, ht'⟩) (hs28_1 ⟨t, ht'⟩) (ms28_2 ⟨t, ht'⟩) (hs28_2 ⟨t, ht'⟩) (ms28_3 ⟨t, ht'⟩) (hs28_3 ⟨t, ht'⟩) (ms28_4 ⟨t, ht'⟩) (hs28_4 ⟨t, ht'⟩) (ms28_5 ⟨t, ht'⟩) (hs28_5 ⟨t, ht'⟩)
    (fun h => h0 ((hcond28_0 ⟨t, ht'⟩).mp h)) (iblk28 V c 0 ⟨t, ht'⟩) (iblk28 V c 1 ⟨t, ht'⟩) (iblk28 V c 2 ⟨t, ht'⟩)
    (outsAt28 V c ((⟨t, ht'⟩ : Fin cfg28.N).val - 1) (Nat.lt_of_le_of_lt (Nat.sub_le _ _) (⟨t, ht'⟩ : Fin cfg28.N).isLt)).2.1
    (outsAt28 V c ((⟨t, ht'⟩ : Fin cfg28.N).val - 1) (Nat.lt_of_le_of_lt (Nat.sub_le _ _) (⟨t, ht'⟩ : Fin cfg28.N).isLt)).2.2) (ix2 u q)).trans ?_
  refine (PayLinear.k28_pay5_apply (xBlk V c ⟨t, ht'⟩) (wBlk V c ⟨t, ht'⟩) (bBlk V c ⟨t, ht'⟩)
    (outsAt28 V c ((⟨t, ht'⟩ : Fin cfg28.N).val - 1) (Nat.lt_of_le_of_lt (Nat.sub_le _ _) (⟨t, ht'⟩ : Fin cfg28.N).isLt)).2.2 u q).trans ?_
  refine congrArg (fun s : EReal => accSumSq V c u q (t - 1) (Nat.lt_of_le_of_lt (Nat.sub_le t 1) ht) + s)
    (Finset.sum_congr rfl fun p _ => ?_)
  exact congrArg₂ (fun a b : EReal => a * b) (pay3_point V c ⟨t, ht'⟩ p q _) (pay3_point V c ⟨t, ht'⟩ p q _)

/-- After the last point it is the column sum of squares over all 100000 rows. -/
theorem accSumSq_last (c : Dev nD) (u : Fin 1) (q : Fin 5) :
    accSumSq V c u q 19 (by norm_num) = colSumSq (y V c) q := by
  refine AccumLaw.acc_final_100000_of_cases (fun r : Fin 100000 => (y V c r q * y V c r q))
    (fun (t : Fin 20) (p : Fin 5000) => (y V c ⟨t.val * 5000 + p.val, AccumLaw.row_lt_100000 t p⟩ q * y V c ⟨t.val * 5000 + p.val, AccumLaw.row_lt_100000 t p⟩ q))
    (fun _ _ => rfl) (accSumSq V c u q) ((k28_pay2 (F := Ideal)) (ix2 u q)) Ideal.ofBits_zero_f32
    (fun t ht h0 => accSumSq_first V c u q t ht h0) (fun t ht h0 => accSumSq_step V c u q t ht h0)

/-! ## From the blocks to the arrays -/

/-- Row p, column q of the output's block at point t is row 5000·t + p, column q of the array: a block's coordinate
    is its index times its extent plus the coordinate inside it. -/
theorem emb_out (t : Fin cfg28.N) (p : Fin 5000) (q : Fin 5) (h : t.val * 5000 + p.val < 100000) :
    ((cfg28.win 3).blk t).view.emb (ix2 p q) = (ix2 ⟨t.val * 5000 + p.val, h⟩ q : S100000x5.Idx) := by
  obtain ⟨-, -, -, -, -, -, e30, e31, -⟩ := idx_facts t
  funext a; apply Fin.ext
  match a with
  | ⟨0, _⟩ => show win28_3.index t (0 : Fin 2) * 5000 + 1 * p.val = t.val * 5000 + p.val; omega
  | ⟨1, _⟩ => show win28_3.index t (1 : Fin 2) * 5 + 1 * q.val = q.val; omega

/-- What point t writes back for the output is block t of the output array. -/
theorem flushed3_eq (c : Dev nD) (t : Fin cfg28.N) :
    (dat28 (F := Ideal) V c).flushed 3 t = ((cfg28.win 3).blk t).view.read (Elt Ideal) (resultY V c) := by
  show (cfg28.win 3).cut (grid28.coords t) ((dat28 V c).after 3 t) = _
  rw [after28_3]
  have ht : t.val < 20 := Nat.lt_of_lt_of_eq t.isLt N_28
  funext j
  obtain ⟨p, q, rfl⟩ : ∃ (p : Fin 5000) (q : Fin 5), j = ix2 p q := ⟨j 0, j 1, eq_ix2 j⟩
  have h : t.val * 5000 + p.val < 100000 := by have := p.isLt; omega
  show (outsAt28 V c t.val t.isLt).1 (ix2 p q) = resultY V c (((cfg28.win 3).blk t).view.emb (ix2 p q))
  refine (congrFun (outs3_eq V c t) (ix2 p q)).trans ?_
  refine (pay3_point V c t p q h).trans ?_
  exact (congrArg (resultY V c) (emb_out t p q h)).symm

/-- An entry of the array lies in point t's block exactly when each of its coordinates lies in the block's range. -/
theorem mem_blk3 (t : Fin cfg28.N) (i : S100000x5.Idx) :
    i ∈ ((cfg28.win 3).blk t).view.set ↔ ∀ a : Fin 2, win28_3.index t a * S5000x5.size a ≤ (i a).val
      ∧ (i a).val < win28_3.index t a * S5000x5.size a + S5000x5.size a := by
  show i ∈ ((View.whole main_v329_0).slice (win28_3.rect t)).set ↔ _
  rw [View.set_slice_whole, Rect.mem_set_unit]
  exact Iff.rfl

/-- The twenty blocks tile the array: row r is in the block of point r / 5000, and every point writes its block back. -/
theorem cover3 (i : S100000x5.Idx) :
    ∃ t : Fin cfg28.N, (cfg28.win 3).flush t = true ∧ i ∈ ((cfg28.win 3).blk t).view.set := by
  have hi0 : (i 0).val < 100000 := idx2_lt0 i
  have hi1 : (i 1).val < 5 := idx2_lt1 i
  obtain ⟨t, ht⟩ : ∃ t : Fin cfg28.N, t.val = (i 0).val / 5000 :=
    ⟨⟨(i 0).val / 5000, by rw [show cfg28.N = 20 from N_28]; omega⟩, rfl⟩
  obtain ⟨-, -, -, -, -, -, e30, e31, -⟩ := idx_facts t
  refine ⟨t, flush28_3 t, ?_⟩
  rw [mem_blk3]
  intro a
  match a with
  | ⟨0, _⟩ =>
    show win28_3.index t (0 : Fin 2) * 5000 ≤ (i 0).val ∧ (i 0).val < win28_3.index t (0 : Fin 2) * 5000 + 5000
    omega
  | ⟨1, _⟩ =>
    show win28_3.index t (1 : Fin 2) * 5 ≤ (i 1).val ∧ (i 1).val < win28_3.index t (1 : Fin 2) * 5 + 5
    omega

/-- At a point whose number is 19 the carried column sum is the one over all rows. -/
theorem accSum_at_last (c : Dev nD) (u : Fin 1) (q : Fin 5) (n : ℕ) (hn : n < 20) (h19 : n = 19) :
    accSum V c u q n hn = colSum (y V c) q := by
  subst h19
  exact accSum_last V c u q

/-- The carried row of window 4 after the last point is the whole row of column sums. -/
theorem outs4_last (c : Dev nD) (t : Fin cfg28.N) (h19 : t.val = 19) :
    (outsAt28 V c t.val t.isLt).2.1 = resultSum V c := by
  funext j
  obtain ⟨u, q, rfl⟩ : ∃ (u : Fin 1) (q : Fin 5), j = ix2 u q := ⟨j 0, j 1, eq_ix2 j⟩
  exact accSum_at_last V c u q t.val (Nat.lt_of_lt_of_eq t.isLt N_28) h19

/-- What the last point writes back for window 4 is the whole row of column sums: the window's one block lies at
    offset zero, so it reads the whole row. -/
theorem flushed4_eq (c : Dev nD) (t : Fin cfg28.N) (hf : (cfg28.win 4).flush t = true) :
    (dat28 (F := Ideal) V c).flushed 4 t = ((cfg28.win 4).blk t).view.read (Elt Ideal) (resultSum V c) := by
  have hN : t.val < 20 := Nat.lt_of_lt_of_eq t.isLt N_28
  have h19 : t.val = 19 := by have := (flush28_4 t).mp hf; omega
  obtain ⟨-, -, -, -, -, -, -, -, e40, e41, e50, e51⟩ := idx_facts t
  have hz' : (fun a => win28_4.index t a * main_v329_1.ty.shape.size a) = fun _ => 0 := funext fun a => by
    match a with
    | ⟨0, _⟩ => show win28_4.index t (0 : Fin 2) * 1 = 0; omega
    | ⟨1, _⟩ => show win28_4.index t (1 : Fin 2) * 5 = 0; omega
  show (cfg28.win 4).cut (grid28.coords t) ((dat28 V c).after 4 t) = _
  rw [after28_4, outs4_last V c t h19]
  exact (Memref.read_access_unit_zero (Elt Ideal) main_v329_1 hz' (fun a => by rw [congrFun hz' a]; simp) (resultSum V c)).symm

/-- An entry of the row lies in point t's block of window 4 exactly when each coordinate lies in the block's range. -/
theorem mem_blk4 (t : Fin cfg28.N) (i : S1x5.Idx) :
    i ∈ ((cfg28.win 4).blk t).view.set ↔ ∀ a : Fin 2, win28_4.index t a * S1x5.size a ≤ (i a).val
      ∧ (i a).val < win28_4.index t a * S1x5.size a + S1x5.size a := by
  show i ∈ ((View.whole main_v329_1).slice (win28_4.rect t)).set ↔ _
  rw [View.set_slice_whole, Rect.mem_set_unit]
  exact Iff.rfl

/-- The last point's block of window 4 is the whole row, and the last point writes it back. -/
theorem cover4 (i : S1x5.Idx) :
    ∃ t : Fin cfg28.N, (cfg28.win 4).flush t = true ∧ i ∈ ((cfg28.win 4).blk t).view.set := by
  have hi0 : (i 0).val < 1 := idx2_lt0 i
  have hi1 : (i 1).val < 5 := idx2_lt1 i
  obtain ⟨t, ht⟩ : ∃ t : Fin cfg28.N, t.val = 19 := ⟨⟨19, by rw [show cfg28.N = 20 from N_28]; norm_num⟩, rfl⟩
  obtain ⟨-, -, -, -, -, -, -, -, e40, e41, e50, e51⟩ := idx_facts t
  refine ⟨t, (flush28_4 t).mpr (by omega), ?_⟩
  rw [mem_blk4]
  intro a
  match a with
  | ⟨0, _⟩ =>
    show win28_4.index t (0 : Fin 2) * 1 ≤ (i 0).val ∧ (i 0).val < win28_4.index t (0 : Fin 2) * 1 + 1
    omega
  | ⟨1, _⟩ =>
    show win28_4.index t (1 : Fin 2) * 5 ≤ (i 1).val ∧ (i 1).val < win28_4.index t (1 : Fin 2) * 5 + 5
    omega

/-- At a point whose number is 19 the carried column sum of squares is the one over all rows. -/
theorem accSumSq_at_last (c : Dev nD) (u : Fin 1) (q : Fin 5) (n : ℕ) (hn : n < 20) (h19 : n = 19) :
    accSumSq V c u q n hn = colSumSq (y V c) q := by
  subst h19
  exact accSumSq_last V c u q

/-- The carried row of window 5 after the last point is the whole row of column sums of squares. -/
theorem outs5_last (c : Dev nD) (t : Fin cfg28.N) (h19 : t.val = 19) :
    (outsAt28 V c t.val t.isLt).2.2 = resultSumSq V c := by
  funext j
  obtain ⟨u, q, rfl⟩ : ∃ (u : Fin 1) (q : Fin 5), j = ix2 u q := ⟨j 0, j 1, eq_ix2 j⟩
  exact accSumSq_at_last V c u q t.val (Nat.lt_of_lt_of_eq t.isLt N_28) h19

/-- What the last point writes back for window 5 is the whole row of column sums of squares: the window's one block
    lies at offset zero, so it reads the whole row. -/
theorem flushed5_eq (c : Dev nD) (t : Fin cfg28.N) (hf : (cfg28.win 5).flush t = true) :
    (dat28 (F := Ideal) V c).flushed 5 t = ((cfg28.win 5).blk t).view.read (Elt Ideal) (resultSumSq V c) := by
  have hN : t.val < 20 := Nat.lt_of_lt_of_eq t.isLt N_28
  have h19 : t.val = 19 := by have := (flush28_5 t).mp hf; omega
  obtain ⟨-, -, -, -, -, -, -, -, e40, e41, e50, e51⟩ := idx_facts t
  have hz' : (fun a => win28_5.index t a * main_v329_2.ty.shape.size a) = fun _ => 0 := funext fun a => by
    match a with
    | ⟨0, _⟩ => show win28_5.index t (0 : Fin 2) * 1 = 0; omega
    | ⟨1, _⟩ => show win28_5.index t (1 : Fin 2) * 5 = 0; omega
  show (cfg28.win 5).cut (grid28.coords t) ((dat28 V c).after 5 t) = _
  rw [after28_5, outs5_last V c t h19]
  exact (Memref.read_access_unit_zero (Elt Ideal) main_v329_2 hz' (fun a => by rw [congrFun hz' a]; simp) (resultSumSq V c)).symm

/-- An entry of the row lies in point t's block of window 5 exactly when each coordinate lies in the block's range. -/
theorem mem_blk5 (t : Fin cfg28.N) (i : S1x5.Idx) :
    i ∈ ((cfg28.win 5).blk t).view.set ↔ ∀ a : Fin 2, win28_5.index t a * S1x5.size a ≤ (i a).val
      ∧ (i a).val < win28_5.index t a * S1x5.size a + S1x5.size a := by
  show i ∈ ((View.whole main_v329_2).slice (win28_5.rect t)).set ↔ _
  rw [View.set_slice_whole, Rect.mem_set_unit]
  exact Iff.rfl

/-- The last point's block of window 5 is the whole row, and the last point writes it back. -/
theorem cover5 (i : S1x5.Idx) :
    ∃ t : Fin cfg28.N, (cfg28.win 5).flush t = true ∧ i ∈ ((cfg28.win 5).blk t).view.set := by
  have hi0 : (i 0).val < 1 := idx2_lt0 i
  have hi1 : (i 1).val < 5 := idx2_lt1 i
  obtain ⟨t, ht⟩ : ∃ t : Fin cfg28.N, t.val = 19 := ⟨⟨19, by rw [show cfg28.N = 20 from N_28]; norm_num⟩, rfl⟩
  obtain ⟨-, -, -, -, -, -, -, -, e40, e41, e50, e51⟩ := idx_facts t
  refine ⟨t, (flush28_5 t).mpr (by omega), ?_⟩
  rw [mem_blk5]
  intro a
  match a with
  | ⟨0, _⟩ =>
    show win28_5.index t (0 : Fin 2) * 1 ≤ (i 0).val ∧ (i 0).val < win28_5.index t (0 : Fin 2) * 1 + 1
    omega
  | ⟨1, _⟩ =>
    show win28_5.index t (1 : Fin 2) * 5 ≤ (i 1).val ∧ (i 1).val < win28_5.index t (1 : Fin 2) * 5 + 5
    omega

/-- THE INTERFACE of this region, one statement per output window. -/
theorem arrAt_y (c : Dev nD) : (dat28 (F := Ideal) V c).arrAt 3 cfg28.N = resultY V c :=
  (dat28 V c).arrAt_eq_of_cover 3 (resultY V c) (fun t _ => flushed3_eq V c t) cover3

theorem arrAt_sum (c : Dev nD) : (dat28 (F := Ideal) V c).arrAt 4 cfg28.N = resultSum V c :=
  (dat28 V c).arrAt_eq_of_cover 4 (resultSum V c) (fun t hf => flushed4_eq V c t hf) cover4

theorem arrAt_sumsq (c : Dev nD) : (dat28 (F := Ideal) V c).arrAt 5 cfg28.N = resultSumSq V c :=
  (dat28 V c).arrAt_eq_of_cover 5 (resultSumSq V c) (fun t hf => flushed5_eq V c t hf) cover5

end Cert.KernelIdeal.ValSingle28

end
-- ==== Proof.ValNorm29Pay.lean ====
/-
  Region 29's arithmetic: what the normalisation's body computes at one row and column of a block, from the block of the
  linear stage's output and the four statistic and parameter rows. This normalisation is not followed by max(·, 0).
-/
import proofs.«414479_j7705171329025_1_alg».proof.Proof.Gen.KernelIdeal.Skeleton
import proofs.«414479_j7705171329025_1_alg».proof.Proof.StageSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.ValNorm29

open Cert.KernelIdeal Cert.KernelIdeal.Gen Cert.StageSpec
open Idealize.ShloMosaic Idealize.ShloMosaic.ValueIdx

/-- The body's arithmetic at row `p`, column `q` of a block: the entry of `y` less its column's mean, times the reciprocal
    root of the column's variance plus epsilon, times the column's scale, plus its shift — the four rows are spread over
    the 5000 rows of the block. -/
theorem pay_apply (var : Vec Ideal S1x5 .f32) (y : Vec Ideal S5000x5 .f32) (mean g beta : Vec Ideal S1x5 .f32)
    (p : Fin 5000) (q : Fin 5) :
    k29_pay1 (F := Ideal) var y mean g beta (ix2 p q)
      = StageSpec.norm (y (ix2 p q)) (mean (ix2 (0 : Fin 1) q)) (var (ix2 (0 : Fin 1) q)) (g (ix2 (0 : Fin 1) q)) (beta (ix2 (0 : Fin 1) q)) := by
  unfold k29_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The two zero offsets of a load or a store of a whole buffer. -/
theorem hz : (![0, 0] : Fin 2 → Nat) = fun _ => 0 := funext fun a => by fin_cases a <;> rfl

end Cert.KernelIdeal.ValNorm29

end
-- ==== Proof.ValNorm29.lean ====
/-
  Region 29: a normalisation with no max(·, 0) after it. Every grid point takes a block of 5000 rows of the linear stage's
  output and the four statistic and parameter rows, and writes back, entry by entry, the normalised value.
  The twenty blocks tile the 100000 rows, so the output array as a whole is that function of the region's input arrays.
-/
import proofs.«414479_j7705171329025_1_alg».proof.Proof.FrameKI.R29
import proofs.«414479_j7705171329025_1_alg».proof.Proof.StageSpec
import proofs.«414479_j7705171329025_1_alg».proof.Proof.ValNorm29Pay
import Idealize.ShloMosaic.Lib.Pipeline.Value
import Idealize.ShloMosaic.Lib.ValueIdx
import Idealize.ShloMosaic.Lib.ValueLayout

set_option maxRecDepth 16384

noncomputable section

namespace Cert.KernelIdeal.ValNorm29

open Cert.KernelIdeal Cert.KernelIdeal.Gen Cert.StageSpec
open Idealize.ShloMosaic Idealize.ShloMosaic.TcCoe Idealize.ShloMosaic.ValueIdx

variable (V : (c : Dev nD) → (b : Ref sig .tc) → Buf (Elt Ideal) ((c : Thread nD τ).loc b))

/-- The region's arrays as it finds them, each at its literal type: the linear output, then mean, variance, scale, shift. -/
abbrev yArr (c : Dev nD) : Vec Ideal S100000x5 .f32 := V c (Pipeline.arrRef spec29 0)
abbrev meanRow (c : Dev nD) : Vec Ideal S1x5 .f32 := V c (Pipeline.arrRef spec29 1)
abbrev varRow (c : Dev nD) : Vec Ideal S1x5 .f32 := V c (Pipeline.arrRef spec29 2)
abbrev gRow (c : Dev nD) : Vec Ideal S1x5 .f32 := V c (Pipeline.arrRef spec29 3)
abbrev betaRow (c : Dev nD) : Vec Ideal S1x5 .f32 := V c (Pipeline.arrRef spec29 4)

/-- What the region leaves in its output array: the normalised entry, at every row and column. -/
def result (c : Dev nD) : Vec Ideal S100000x5 .f32 := fun i =>
  StageSpec.norm (yArr V c i) (meanRow V c (ix2 (0 : Fin 1) (i 1))) (varRow V c (ix2 (0 : Fin 1) (i 1)))
    (gRow V c (ix2 (0 : Fin 1) (i 1))) (betaRow V c (ix2 (0 : Fin 1) (i 1)))

/-! ## One point's arithmetic, entry by entry -/

/-- What a point leaves in its output buffer, entry by entry, from the five buffers it was given: its one store covers
    the buffer and each of its loads reads a whole buffer, so the buffer holds the body's arithmetic of the inputs. -/
theorem out_apply (x0 : Vec Ideal S5000x5 .f32) (x1 x2 x3 x4 : Vec Ideal S1x5 .f32) (p : Fin 5000) (q : Fin 5) :
    out29_5 x0 x1 x2 x3 x4 (ix2 p q)
      = StageSpec.norm (x0 (ix2 p q)) (x1 (ix2 (0 : Fin 1) q)) (x2 (ix2 (0 : Fin 1) q)) (x3 (ix2 (0 : Fin 1) q)) (x4 (ix2 (0 : Fin 1) q)) := by
  unfold out29_5
  rw [View.canon_unit_zero hz]
  simp only [View.ld_unit_zero (S := S1x5) hz, View.ld_unit_zero (S := S5000x5) hz]
  exact pay_apply x2 x0 x1 x3 x4 p q

/-! ## Where each window's block lies -/

/-- The block each of the six windows takes at a point, decided over the twenty points: the two tall windows take block
    `t` along the rows, and each of the four rows is its own one block throughout. -/
theorem idx_facts : ∀ t : Fin cfg29.N,
    win29_0.index t (0 : Fin 2) = t.val ∧ win29_0.index t (1 : Fin 2) = 0
    ∧ win29_1.index t (0 : Fin 2) = 0 ∧ win29_1.index t (1 : Fin 2) = 0
    ∧ win29_2.index t (0 : Fin 2) = 0 ∧ win29_2.index t (1 : Fin 2) = 0
    ∧ win29_3.index t (0 : Fin 2) = 0 ∧ win29_3.index t (1 : Fin 2) = 0
    ∧ win29_4.index t (0 : Fin 2) = 0 ∧ win29_4.index t (1 : Fin 2) = 0
    ∧ win29_5.index t (0 : Fin 2) = t.val ∧ win29_5.index t (1 : Fin 2) = 0 :=
  (by decide +kernel : ∀ t : Fin grid29.N, _)

/-- Row `p`, column `q` of the output's block at point `t` is row 5000·t + p, column q of the array: a block's coordinate
    is its index times its extent plus the coordinate inside it. -/
theorem emb_out (t : Fin cfg29.N) (p : Fin 5000) (q : Fin 5) (h : t.val * 5000 + p.val < 100000) :
    ((cfg29.win 5).blk t).view.emb (ix2 p q) = (ix2 ⟨t.val * 5000 + p.val, h⟩ q : S100000x5.Idx) := by
  obtain ⟨-, -, -, -, -, -, -, -, -, -, e50, e51⟩ := idx_facts t
  funext a; apply Fin.ext
  match a with
  | ⟨0, _⟩ => show win29_5.index t (0 : Fin 2) * 5000 + 1 * p.val = t.val * 5000 + p.val; omega
  | ⟨1, _⟩ => show win29_5.index t (1 : Fin 2) * 5 + 1 * q.val = q.val; omega

/-- The tall input's block at point `t`, read at (p, q), is the array at row 5000·t + p, column q: the same rows the
    output's block has there. -/
theorem y_apply (c : Dev nD) (t : Fin cfg29.N) (p : Fin 5000) (q : Fin 5) (h : t.val * 5000 + p.val < 100000) :
    (iblk29 V c 0 t : Vec Ideal S5000x5 .f32) (ix2 p q) = yArr V c (ix2 ⟨t.val * 5000 + p.val, h⟩ q) := by
  obtain ⟨e00, e01, -⟩ := idx_facts t
  unfold iblk29
  rw [View.read_apply]
  show yArr V c (((cfg29.win 0).blk t).view.emb (ix2 p q)) = _
  refine congrArg (yArr V c) ?_
  funext a; apply Fin.ext
  match a with
  | ⟨0, _⟩ => show win29_0.index t (0 : Fin 2) * 5000 + 1 * p.val = t.val * 5000 + p.val; omega
  | ⟨1, _⟩ => show win29_0.index t (1 : Fin 2) * 5 + 1 * q.val = q.val; omega

/-- The mean row's block, at every point, is the row. -/
theorem mean_apply (c : Dev nD) (t : Fin cfg29.N) (q : Fin 5) :
    (iblk29 V c 1 t : Vec Ideal S1x5 .f32) (ix2 (0 : Fin 1) q) = meanRow V c (ix2 (0 : Fin 1) q) := by
  obtain ⟨-, -, e10, e11, -⟩ := idx_facts t
  unfold iblk29
  rw [View.read_apply]
  show meanRow V c (((cfg29.win 1).blk t).view.emb (ix2 (0 : Fin 1) q)) = _
  refine congrArg (meanRow V c) ?_
  funext a; apply Fin.ext
  match a with
  | ⟨0, _⟩ => show win29_1.index t (0 : Fin 2) * 1 + 1 * 0 = 0; omega
  | ⟨1, _⟩ => show win29_1.index t (1 : Fin 2) * 5 + 1 * q.val = q.val; omega

/-- The variance row's block, at every point, is the row. -/
theorem var_apply (c : Dev nD) (t : Fin cfg29.N) (q : Fin 5) :
    (iblk29 V c 2 t : Vec Ideal S1x5 .f32) (ix2 (0 : Fin 1) q) = varRow V c (ix2 (0 : Fin 1) q) := by
  obtain ⟨-, -, -, -, e20, e21, -⟩ := idx_facts t
  unfold iblk29
  rw [View.read_apply]
  show varRow V c (((cfg29.win 2).blk t).view.emb (ix2 (0 : Fin 1) q)) = _
  refine congrArg (varRow V c) ?_
  funext a; apply Fin.ext
  match a with
  | ⟨0, _⟩ => show win29_2.index t (0 : Fin 2) * 1 + 1 * 0 = 0; omega
  | ⟨1, _⟩ => show win29_2.index t (1 : Fin 2) * 5 + 1 * q.val = q.val; omega

/-- The scale row's block, at every point, is the row. -/
theorem g_apply (c : Dev nD) (t : Fin cfg29.N) (q : Fin 5) :
    (iblk29 V c 3 t : Vec Ideal S1x5 .f32) (ix2 (0 : Fin 1) q) = gRow V c (ix2 (0 : Fin 1) q) := by
  obtain ⟨-, -, -, -, -, -, e30, e31, -⟩ := idx_facts t
  unfold iblk29
  rw [View.read_apply]
  show gRow V c (((cfg29.win 3).blk t).view.emb (ix2 (0 : Fin 1) q)) = _
  refine congrArg (gRow V c) ?_
  funext a; apply Fin.ext
  match a with
  | ⟨0, _⟩ => show win29_3.index t (0 : Fin 2) * 1 + 1 * 0 = 0; omega
  | ⟨1, _⟩ => show win29_3.index t (1 : Fin 2) * 5 + 1 * q.val = q.val; omega

/-- The shift row's block, at every point, is the row. -/
theorem beta_apply (c : Dev nD) (t : Fin cfg29.N) (q : Fin 5) :
    (iblk29 V c 4 t : Vec Ideal S1x5 .f32) (ix2 (0 : Fin 1) q) = betaRow V c (ix2 (0 : Fin 1) q) := by
  obtain ⟨-, -, -, -, -, -, -, -, e40, e41, -⟩ := idx_facts t
  unfold iblk29
  rw [View.read_apply]
  show betaRow V c (((cfg29.win 4).blk t).view.emb (ix2 (0 : Fin 1) q)) = _
  refine congrArg (betaRow V c) ?_
  funext a; apply Fin.ext
  match a with
  | ⟨0, _⟩ => show win29_4.index t (0 : Fin 2) * 1 + 1 * 0 = 0; omega
  | ⟨1, _⟩ => show win29_4.index t (1 : Fin 2) * 5 + 1 * q.val = q.val; omega

/-! ## From the twenty blocks to the array -/

/-- What point `t` writes back is block `t` of `result`: the buffer it leaves holds, at (p, q), the normalised entry of
    row 5000·t + p, column q, and that is where the block puts it. -/
theorem flushed_eq (c : Dev nD) (t : Fin cfg29.N) :
    (dat29 (F := Ideal) V c).flushed 5 t = ((cfg29.win 5).blk t).view.read (Elt Ideal) (result V c) := by
  show (cfg29.win 5).cut (grid29.coords t) ((dat29 V c).after 5 t) = _
  rw [after29_5]
  have ht : t.val < 20 := Nat.lt_of_lt_of_eq t.isLt N_29
  funext j
  obtain ⟨p, q, rfl⟩ : ∃ (p : Fin 5000) (q : Fin 5), j = ix2 p q := ⟨j 0, j 1, eq_ix2 j⟩
  have h : t.val * 5000 + p.val < 100000 := by have := p.isLt; omega
  show out29_5 (iblk29 V c 0 t) (iblk29 V c 1 t) (iblk29 V c 2 t) (iblk29 V c 3 t) (iblk29 V c 4 t) (ix2 p q)
      = result V c (((cfg29.win 5).blk t).view.emb (ix2 p q))
  refine (out_apply (iblk29 V c 0 t) (iblk29 V c 1 t) (iblk29 V c 2 t) (iblk29 V c 3 t) (iblk29 V c 4 t) p q).trans ?_
  refine Eq.trans ?_ (congrArg (result V c) (emb_out t p q h)).symm
  refine Eq.trans ?_ (show StageSpec.norm (yArr V c (ix2 ⟨t.val * 5000 + p.val, h⟩ q)) (meanRow V c (ix2 (0 : Fin 1) q))
      (varRow V c (ix2 (0 : Fin 1) q)) (gRow V c (ix2 (0 : Fin 1) q)) (betaRow V c (ix2 (0 : Fin 1) q))
        = result V c (ix2 ⟨t.val * 5000 + p.val, h⟩ q) from rfl)
  rw [y_apply V c t p q h, mean_apply V c t q, var_apply V c t q, g_apply V c t q, beta_apply V c t q]

/-- An entry of the array lies in point `t`'s block exactly when each of its coordinates lies in the block's range on
    that axis. -/
theorem mem_blk (t : Fin cfg29.N) (i : S100000x5.Idx) :
    i ∈ ((cfg29.win 5).blk t).view.set ↔ ∀ a : Fin 2, win29_5.index t a * S5000x5.size a ≤ (i a).val
      ∧ (i a).val < win29_5.index t a * S5000x5.size a + S5000x5.size a := by
  show i ∈ ((View.whole main_v338).slice (win29_5.rect t)).set ↔ _
  rw [View.set_slice_whole, Rect.mem_set_unit]
  exact Iff.rfl

/-- The twenty blocks tile the array: row `r` is in the block of point `r / 5000`, and every point writes its block back. -/
theorem cover (i : S100000x5.Idx) :
    ∃ t : Fin cfg29.N, (cfg29.win 5).flush t = true ∧ i ∈ ((cfg29.win 5).blk t).view.set := by
  have hi0 : (i 0).val < 100000 := idx2_lt0 i
  have hi1 : (i 1).val < 5 := idx2_lt1 i
  obtain ⟨t, ht⟩ : ∃ t : Fin cfg29.N, t.val = (i 0).val / 5000 :=
    ⟨⟨(i 0).val / 5000, by rw [show cfg29.N = 20 from N_29]; omega⟩, rfl⟩
  obtain ⟨-, -, -, -, -, -, -, -, -, -, e50, e51⟩ := idx_facts t
  refine ⟨t, flush29_5 t, ?_⟩
  rw [mem_blk]
  intro a
  match a with
  | ⟨0, _⟩ =>
    show win29_5.index t (0 : Fin 2) * 5000 ≤ (i 0).val ∧ (i 0).val < win29_5.index t (0 : Fin 2) * 5000 + 5000
    omega
  | ⟨1, _⟩ =>
    show win29_5.index t (1 : Fin 2) * 5 ≤ (i 1).val ∧ (i 1).val < win29_5.index t (1 : Fin 2) * 5 + 5
    omega

/-- THE INTERFACE of this region: after its twenty points the output array is `result`. -/
theorem arrAt_out (c : Dev nD) : (dat29 (F := Ideal) V c).arrAt 5 cfg29.N = result V c := by
  exact (dat29 V c).arrAt_eq_of_cover 5 (result V c) (fun t _ => flushed_eq V c t) cover

end Cert.KernelIdeal.ValNorm29

end
-- ==== Proof.HostLin28.lean ====
/-
  The host operation before a linear stage: it lays the stage's bias out as a row. Read here at any contents of
  the buffers before the stretch.
-/
import proofs.«414479_j7705171329025_1_alg».proof.Proof.Gen.KernelIdeal.Launch
import Idealize.ShloMosaic.Lib.StableHlo.Run

noncomputable section

namespace Cert.KernelIdeal.HostLin28

open Cert.KernelIdeal Cert.KernelIdeal.Gen
open Idealize.ShloMosaic Idealize.ShloMosaic.TcCoe Idealize.ShloMosaic.StableHlo

variable {F : FTy → Type} [FloatOps F]
variable (W : Valuation τ sig (Elt F))

/-- The bias, laid out as a row: the same entries in row-major order. -/
theorem read_b : (StableHlo.after hostOps28 W (Proc.devRef .tc main_v328) : (⟨S1x5, .f32⟩ : BufTy).Contents (Elt F))
    = shapeCast S1x5 (W (Proc.devRef .tc main_arg20)) shapeCasts_S5_S1x5 := by
  after_results <;> rfl

/-- The stage's input array is not written. -/
theorem read_keep : StableHlo.after hostOps28 W (Proc.devRef .tc main_v327) = W (Proc.devRef .tc main_v327) := by
  refine StableHlo.after_of_forall_not_mem _ _ fun op h => ?_
  fin_cases h <;> simp only [reshape_writes, Finset.mem_singleton] <;>
    exact devRef_ne_of_ne (by decide)

/-- The stage's weights are not written. -/
theorem read_keep_w : StableHlo.after hostOps28 W (Proc.devRef .tc main_arg19) = W (Proc.devRef .tc main_arg19) := by
  refine StableHlo.after_of_forall_not_mem _ _ fun op h => ?_
  fin_cases h <;> simp only [reshape_writes, Finset.mem_singleton] <;>
    exact devRef_ne_of_ne (by decide)

/-- The references the stretch writes, in order. -/
abbrev written : List (Ref sig .tc) :=
  [main_v328]

/-- Every operation of the stretch writes one of them. -/
theorem writes : (hostOps28 : List (HloOp τ sig (Elt F))).Forall fun op =>
    op.writes ⊆ (written.map (Proc.devRef (τ := τ) .tc)).toFinset := by
  simp only [List.Forall]
  repeat' apply And.intro
  all_goals
    simp only [reshape_writes, Finset.singleton_subset_iff, List.mem_toFinset]
    exact List.mem_map_of_mem (by decide)

/-- A reference the stretch does not write keeps its contents. -/
theorem keep {r : Ref sig .tc} (h : r ∉ written) : StableHlo.after hostOps28 W (Proc.devRef .tc r) = W (Proc.devRef .tc r) :=
  StableHlo.after_of_writes_sub hostOps28 W writes h

end Cert.KernelIdeal.HostLin28

end
-- ==== Proof.HostStats29.lean ====
/-
  The host operations between a linear stage and its normalisation. From the two carried rows the
  region leaves (the column sums and the column sums of squares) they form the mean (the sum over 100000), the mean
  of squares, and the variance as the mean of squares less the squared mean; and they lay the scale and the shift of
  the batch norm out as rows. Read here at any contents of the buffers before the stretch.
-/
import proofs.«414479_j7705171329025_1_alg».proof.Proof.Gen.KernelIdeal.Launch
import Idealize.ShloMosaic.Lib.StableHlo.Run

noncomputable section

namespace Cert.KernelIdeal.HostStats29

open Cert.KernelIdeal Cert.KernelIdeal.Gen
open Idealize.ShloMosaic Idealize.ShloMosaic.TcCoe Idealize.ShloMosaic.StableHlo

variable {F : FTy → Type} [FloatOps F]
variable (W : Valuation τ sig (Elt F))

/-- The divisor row: 100000 in every column. -/
def nRow : (⟨S1x5, .f32⟩ : BufTy).Contents (Elt F) := broadcastInDim S1x5 ![] bcast_S_S1x5 (constant S_ .f32 0x47C35000#32)

/-- The mean row: the column sums over the divisor. -/
theorem read_mean : (StableHlo.after hostOps29 W (Proc.devRef .tc main_v331) : (⟨S1x5, .f32⟩ : BufTy).Contents (Elt F))
    = Host.divf (W (Proc.devRef .tc main_v329_1)) nRow := by
  after_results; rfl

/-- The variance row: the mean of squares less the squared mean. -/
theorem read_var : (StableHlo.after hostOps29 W (Proc.devRef .tc main_v335) : (⟨S1x5, .f32⟩ : BufTy).Contents (Elt F))
    = subf (Host.divf (W (Proc.devRef .tc main_v329_2)) nRow)
        (mulf (Host.divf (W (Proc.devRef .tc main_v329_1)) nRow) (Host.divf (W (Proc.devRef .tc main_v329_1)) nRow)) := by
  after_results; rfl

/-- The scale, laid out as a row: the same entries in row-major order. -/
theorem read_g : (StableHlo.after hostOps29 W (Proc.devRef .tc main_v336) : (⟨S1x5, .f32⟩ : BufTy).Contents (Elt F))
    = shapeCast S1x5 (W (Proc.devRef .tc main_arg21)) shapeCasts_S5_S1x5 := by
  after_results; rfl

/-- The shift, laid out as a row. -/
theorem read_beta : (StableHlo.after hostOps29 W (Proc.devRef .tc main_v337) : (⟨S1x5, .f32⟩ : BufTy).Contents (Elt F))
    = shapeCast S1x5 (W (Proc.devRef .tc main_arg22)) shapeCasts_S5_S1x5 := by
  after_results; rfl

/-- A buffer the stretch does not write keeps its contents: the linear stage's output array. -/
theorem read_y : StableHlo.after hostOps29 W (Proc.devRef .tc main_v329_0) = W (Proc.devRef .tc main_v329_0) := by
  refine StableHlo.after_of_forall_not_mem _ _ fun op h => ?_
  fin_cases h <;> simp only [nullary_writes, unary_writes, binary_writes, reshape_writes, Finset.mem_singleton] <;>
    exact devRef_ne_of_ne (by decide)

end Cert.KernelIdeal.HostStats29

end
-- ==== Proof.KernelChain14.lean ====
/-
  Stage 14 of the chain, the kernel's half: the attention layer's scores. The array the last normalising region leaves
  is, entry by entry, the batch normalisation of a linear stage of five columns, with no clipping after it, over the
  previous stage's output array as the run leaves it and the launch memory's weight matrix, bias, scale and shift.
  The region before it leaves the linear stage's output and its column sums and column sums of squares; the host
  operations between the two regions divide those by the row count, form the variance as the mean of squares less
  the squared mean, and lay the scale and the shift out as rows; the last region normalises with those rows. Here
  the steps are joined.
-/
import proofs.«414479_j7705171329025_1_alg».proof.Proof.ValSingle28
import proofs.«414479_j7705171329025_1_alg».proof.Proof.ValNorm29
import proofs.«414479_j7705171329025_1_alg».proof.Proof.HostLin28
import proofs.«414479_j7705171329025_1_alg».proof.Proof.HostStats29
import proofs.«414479_j7705171329025_1_alg».proof.Proof.StageReal
import proofs.«414479_j7705171329025_1_alg».proof.Proof.PreReal
import proofs.«414479_j7705171329025_1_alg».proof.Proof.FrameKI.Run
import proofs.«414479_j7705171329025_1_alg».proof.Proof.Carry7
import proofs.«414479_j7705171329025_1_alg».proof.Proof.Carry8
import Idealize.ShloMosaic.Lib.IdealHost
import Idealize.ShloMosaic.Lib.ValueLayout

set_option maxRecDepth 16384

noncomputable section

namespace Cert.KernelChain14

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (ρ : Dev nD → PrngReg)

/-! ## The stage's data: the previous stage's output, and the launch memory's arrays, each at its literal type -/

/-- The previous stage's output array, as the run leaves it. -/
abbrev a1 (c : Dev nD) : Vec Ideal S100000x128 .f32 := W56 (F := Ideal) m ρ c (Proc.devRef .tc main_v327)
/-- The stage's weight matrix: 128 rows, five columns. -/
abbrev Wt (c : Dev nD) : Vec Ideal S128x5 .f32 := m ((c : Thread nD τ).loc main_arg19)
/-- The stage's bias, as given: five entries. -/
abbrev Bflat (c : Dev nD) : Vec Ideal S5 .f32 := m ((c : Thread nD τ).loc main_arg20)
/-- The bias laid out as a row. -/
abbrev B (c : Dev nD) : Vec Ideal S1x5 .f32 := shapeCast S1x5 (Bflat m c) shapeCasts_S5_S1x5
/-- The batch norm's scale, as given: five entries. -/
abbrev g (c : Dev nD) : Vec Ideal S5 .f32 := m ((c : Thread nD τ).loc main_arg21)
/-- The batch norm's shift, as given: five entries. -/
abbrev β (c : Dev nD) : Vec Ideal S5 .f32 := m ((c : Thread nD τ).loc main_arg22)

/-- The linear stage's output, entry by entry. -/
def y (c : Dev nD) (r : Fin 100000) (q : Fin 5) : EReal := StageSpec.lin (a1 m ρ c) (Wt m c) (B m c) r q

/-- The row count, as the word the host operations divide by. -/
abbrev nRows : EReal := Ideal.ofBits .f32 0x47C35000#32

/-! ## For the join with the reference's half -/

/-- The bias row's entry in column q is the bias's entry q, whatever the unit coordinate. -/
theorem B_apply (c : Dev nD) (u : Fin 1) (q : Fin 5) : B m c (ix2 u q) = Bflat m c (ix1 q) :=
  shapeCast_a_1a_apply (Bflat m c) shapeCasts_S5_S1x5 u q

/-- The linear stage's entry written out: row r of the previous stage's output against column q of the weights, plus
    the bias's entry q. -/
theorem y_eq_sum (c : Dev nD) (r : Fin 100000) (q : Fin 5) :
    y m ρ c r q = (∑ j : Fin 128, a1 m ρ c (ix2 r j) * Wt m c (ix2 j q)) + Bflat m c (ix1 q) := by
  unfold y StageSpec.lin
  rw [B_apply m c (0 : Fin 1) q]

/-- If every entry of the previous stage's output is a real number then, under the precondition, so is every entry of
    the linear stage's output: the weights and the bias are real, and a finite sum of products of real numbers is real. -/
theorem y_isReal [Cert.Pre_finite_inputs.Facts] (h : Cert.Pre_KernelIdeal m) (c : Dev nD)
    (ha1 : ∀ i, Cert.RealSpec.IsReal (a1 m ρ c i)) (r : Fin 100000) (q : Fin 5) :
    Cert.RealSpec.IsReal (y m ρ c r q) :=
  StageReal.lin_isReal (a1 m ρ c) (Wt m c) (B m c) ha1 (Cert.PreReal.real_arg19 m h c)
    (fun i => by
      obtain ⟨u, q', rfl⟩ : ∃ (u : Fin 1) (q' : Fin 5), i = ix2 u q' := ⟨i 0, i 1, eq_ix2 i⟩
      rw [B_apply m c u q']
      exact Cert.PreReal.real_arg20 m h c (ix1 q')) r q

/-- Under the precondition every entry of the scale is a real number. -/
theorem g_isReal [Cert.Pre_finite_inputs.Facts] (h : Cert.Pre_KernelIdeal m) (c : Dev nD) (q : Fin 5) :
    Cert.RealSpec.IsReal (g m c (ix1 q)) :=
  Cert.PreReal.real_arg21 m h c (ix1 q)

/-- And every entry of the shift. -/
theorem β_isReal [Cert.Pre_finite_inputs.Facts] (h : Cert.Pre_KernelIdeal m) (c : Dev nD) (q : Fin 5) :
    Cert.RealSpec.IsReal (β m c (ix1 q)) :=
  Cert.PreReal.real_arg22 m h c (ix1 q)

/-! ## The first region's inputs -/

/-- The host operation before the first region does not write the previous stage's output. -/
theorem x_eq (c : Dev nD) : ValSingle28.xArr (V57 m ρ) c = a1 m ρ c :=
  (HostLin28.read_keep (W56 m ρ c)).trans rfl

/-- Nothing since the launch has written the weight matrix. -/
theorem w_eq (c : Dev nD) : ValSingle28.wArr (V57 m ρ) c = Wt m c :=
  (Carry.main_arg19_0_57 m ρ c).trans rfl

/-- Nor the bias, up to the host operation that lays it out. -/
theorem bflat_eq (c : Dev nD) : (W56 m ρ c (Proc.devRef .tc main_arg20) : Vec Ideal S5 .f32) = Bflat m c :=
  (Carry.main_arg20_0_56 m ρ c).trans rfl

/-- The host operation lays the bias out as the row the region takes. -/
theorem b_eq (c : Dev nD) : ValSingle28.bRow (V57 m ρ) c = B m c :=
  (HostLin28.read_b (W56 m ρ c)).trans
    (congrArg (fun b : Vec Ideal S5 .f32 => (shapeCast S1x5 b shapeCasts_S5_S1x5 : Vec Ideal S1x5 .f32)) (bflat_eq m ρ c))

/-- So the first region's linear stage is the stage's. -/
theorem y_eq (c : Dev nD) : ValSingle28.y (V57 m ρ) c = y m ρ c := by
  funext r q
  show StageSpec.lin (ValSingle28.xArr (V57 m ρ) c) (ValSingle28.wArr (V57 m ρ) c) (ValSingle28.bRow (V57 m ρ) c) r q
    = StageSpec.lin (a1 m ρ c) (Wt m c) (B m c) r q
  rw [x_eq m ρ c, w_eq m ρ c, b_eq m ρ c]

/-! ## The second region's five arrays, from the first region's three -/

/-- The column sums, as the first region leaves them. -/
theorem sum_eq (c : Dev nD) :
    (W58 m ρ c (Proc.devRef .tc main_v329_1) : Vec Ideal S1x5 .f32) = ValSingle28.resultSum (V57 m ρ) c :=
  (W58_arr m ρ c 4).trans (ValSingle28.arrAt_sum (V57 m ρ) c)

/-- The column sums of squares, as the first region leaves them. -/
theorem sumsq_eq (c : Dev nD) :
    (W58 m ρ c (Proc.devRef .tc main_v329_2) : Vec Ideal S1x5 .f32) = ValSingle28.resultSumSq (V57 m ρ) c :=
  (W58_arr m ρ c 5).trans (ValSingle28.arrAt_sumsq (V57 m ρ) c)

/-- The scale is still the launch memory's after the first region. -/
theorem g_eq (c : Dev nD) : (W58 m ρ c (Proc.devRef .tc main_arg21) : Vec Ideal S5 .f32) = g m c :=
  (Carry.main_arg21_0_58 m ρ c).trans rfl

/-- And so is the shift. -/
theorem beta_eq (c : Dev nD) : (W58 m ρ c (Proc.devRef .tc main_arg22) : Vec Ideal S5 .f32) = β m c :=
  (Carry.main_arg22_0_58 m ρ c).trans rfl

/-- The tall array the second region normalises is the first region's output: the host operations between the two
    do not write it. -/
theorem yArr_eq (c : Dev nD) : ValNorm29.yArr (V59 m ρ) c = ValSingle28.resultY (V57 m ρ) c :=
  ((HostStats29.read_y (W58 m ρ c)).trans (W58_arr m ρ c 3)).trans (ValSingle28.arrAt_y (V57 m ρ) c)

/-- The mean row: the column sums over the row count. -/
theorem meanRow_eq (c : Dev nD) :
    ValNorm29.meanRow (V59 m ρ) c
      = Host.divf (F := Ideal) (φ := .f32) (ValSingle28.resultSum (V57 m ρ) c) (HostStats29.nRow (F := Ideal)) :=
  (HostStats29.read_mean (W58 m ρ c)).trans
    (congrArg (fun s : Vec Ideal S1x5 .f32 => Host.divf (F := Ideal) (φ := .f32) s (HostStats29.nRow (F := Ideal)))
      (sum_eq m ρ c))

/-- The variance row: the mean of squares less the squared mean. -/
theorem varRow_eq (c : Dev nD) :
    ValNorm29.varRow (V59 m ρ) c
      = subf (F := Ideal) (φ := .f32)
          (Host.divf (F := Ideal) (φ := .f32) (ValSingle28.resultSumSq (V57 m ρ) c) (HostStats29.nRow (F := Ideal)))
          (mulf (F := Ideal) (φ := .f32)
            (Host.divf (F := Ideal) (φ := .f32) (ValSingle28.resultSum (V57 m ρ) c) (HostStats29.nRow (F := Ideal)))
            (Host.divf (F := Ideal) (φ := .f32) (ValSingle28.resultSum (V57 m ρ) c) (HostStats29.nRow (F := Ideal)))) :=
  (HostStats29.read_var (W58 m ρ c)).trans
    (congrArg₂ (fun s2 s1 : Vec Ideal S1x5 .f32 =>
        subf (F := Ideal) (φ := .f32) (Host.divf (F := Ideal) (φ := .f32) s2 (HostStats29.nRow (F := Ideal)))
          (mulf (F := Ideal) (φ := .f32) (Host.divf (F := Ideal) (φ := .f32) s1 (HostStats29.nRow (F := Ideal)))
            (Host.divf (F := Ideal) (φ := .f32) s1 (HostStats29.nRow (F := Ideal)))))
      (sumsq_eq m ρ c) (sum_eq m ρ c))

/-- The scale row: the scale laid out as a row. -/
theorem gRow_eq (c : Dev nD) : ValNorm29.gRow (V59 m ρ) c = shapeCast S1x5 (g m c) shapeCasts_S5_S1x5 :=
  (HostStats29.read_g (W58 m ρ c)).trans
    (congrArg (fun b : Vec Ideal S5 .f32 => (shapeCast S1x5 b shapeCasts_S5_S1x5 : Vec Ideal S1x5 .f32)) (g_eq m ρ c))

/-- The shift row: the shift laid out as a row. -/
theorem betaRow_eq (c : Dev nD) : ValNorm29.betaRow (V59 m ρ) c = shapeCast S1x5 (β m c) shapeCasts_S5_S1x5 :=
  (HostStats29.read_beta (W58 m ρ c)).trans
    (congrArg (fun b : Vec Ideal S5 .f32 => (shapeCast S1x5 b shapeCasts_S5_S1x5 : Vec Ideal S1x5 .f32)) (beta_eq m ρ c))

/-! ## The five arrays read at an entry -/

/-- The divisor row holds the row count in every column. -/
theorem nRow_apply (j : S1x5.Idx) : HostStats29.nRow (F := Ideal) j = nRows := by
  unfold HostStats29.nRow
  exact (broadcastInDim_scalar_apply bcast_S_S1x5 (constant (F := Ideal) S_ .f32 0x47C35000#32) j).trans rfl

/-- The tall array at row r, column q is the linear stage's entry. -/
theorem yArr_apply (c : Dev nD) (r : Fin 100000) (q : Fin 5) :
    ValNorm29.yArr (V59 m ρ) c (ix2 r q) = ValSingle28.y (V57 m ρ) c r q :=
  (congrFun (yArr_eq m ρ c) (ix2 r q)).trans rfl

/-- The mean row at column q is the column mean of the linear stage's output. -/
theorem mean_apply (c : Dev nD) (q : Fin 5) :
    ValNorm29.meanRow (V59 m ρ) c (ix2 (0 : Fin 1) q) = StageReal.colMean (ValSingle28.y (V57 m ρ) c) nRows q := by
  refine (congrFun (meanRow_eq m ρ c) (ix2 (0 : Fin 1) q)).trans ?_
  show Ideal.div (ValSingle28.resultSum (V57 m ρ) c (ix2 (0 : Fin 1) q)) (HostStats29.nRow (F := Ideal) (ix2 (0 : Fin 1) q)) = _
  rw [nRow_apply]
  rfl

/-- The variance row at column q is the mean of squares less the squared mean of that column. -/
theorem var_apply (c : Dev nD) (q : Fin 5) :
    ValNorm29.varRow (V59 m ρ) c (ix2 (0 : Fin 1) q) = StageReal.varSumSq (ValSingle28.y (V57 m ρ) c) nRows q := by
  refine (congrFun (varRow_eq m ρ c) (ix2 (0 : Fin 1) q)).trans ?_
  show Ideal.div (ValSingle28.resultSumSq (V57 m ρ) c (ix2 (0 : Fin 1) q)) (HostStats29.nRow (F := Ideal) (ix2 (0 : Fin 1) q))
      - Ideal.div (ValSingle28.resultSum (V57 m ρ) c (ix2 (0 : Fin 1) q)) (HostStats29.nRow (F := Ideal) (ix2 (0 : Fin 1) q))
        * Ideal.div (ValSingle28.resultSum (V57 m ρ) c (ix2 (0 : Fin 1) q)) (HostStats29.nRow (F := Ideal) (ix2 (0 : Fin 1) q)) = _
  rw [nRow_apply]
  rfl

/-- The scale row at column q is the scale's entry q. -/
theorem g_apply (c : Dev nD) (q : Fin 5) : ValNorm29.gRow (V59 m ρ) c (ix2 (0 : Fin 1) q) = g m c (ix1 q) :=
  (congrFun (gRow_eq m ρ c) (ix2 (0 : Fin 1) q)).trans
    (shapeCast_a_1a_apply (g m c) shapeCasts_S5_S1x5 (0 : Fin 1) q)

/-- The shift row at column q is the shift's entry q. -/
theorem beta_apply (c : Dev nD) (q : Fin 5) : ValNorm29.betaRow (V59 m ρ) c (ix2 (0 : Fin 1) q) = β m c (ix1 q) :=
  (congrFun (betaRow_eq m ρ c) (ix2 (0 : Fin 1) q)).trans
    (shapeCast_a_1a_apply (β m c) shapeCasts_S5_S1x5 (0 : Fin 1) q)

/-! ## The stage's output -/

/-- What the second region leaves in its output array is what it computes from its five arrays. -/
theorem out_eq (c : Dev nD) :
    (W60 (F := Ideal) m ρ c (Proc.devRef .tc main_v338) : Vec Ideal S100000x5 .f32) = ValNorm29.result (V59 m ρ) c :=
  (W60_arr m ρ c 5).trans (ValNorm29.arrAt_out (V59 m ρ) c)

/-- THE KERNEL'S SCORES BEFORE THE SOFTMAX, entry by entry: the batch normalisation of the linear stage's output with
    the statistics in the kernel's form, over the previous stage's output and the launch memory's parameters. -/
theorem kernel_out_apply (c : Dev nD) (r : Fin 100000) (q : Fin 5) :
    (W60 (F := Ideal) m ρ c (Proc.devRef .tc main_v338) : Vec Ideal S100000x5 .f32) (ix2 r q)
      = StageSpec.norm (y m ρ c r q) (StageReal.colMean (y m ρ c) nRows q) (StageReal.varSumSq (y m ρ c) nRows q)
          (g m c (ix1 q)) (β m c (ix1 q)) := by
  refine (congrFun (out_eq m ρ c) (ix2 r q)).trans ?_
  show StageSpec.norm (ValNorm29.yArr (V59 m ρ) c (ix2 r q)) (ValNorm29.meanRow (V59 m ρ) c (ix2 (0 : Fin 1) q))
      (ValNorm29.varRow (V59 m ρ) c (ix2 (0 : Fin 1) q)) (ValNorm29.gRow (V59 m ρ) c (ix2 (0 : Fin 1) q))
      (ValNorm29.betaRow (V59 m ρ) c (ix2 (0 : Fin 1) q)) = _
  rw [yArr_apply m ρ c r q, mean_apply m ρ c q, var_apply m ρ c q, g_apply m ρ c q, beta_apply m ρ c q, y_eq m ρ c]

end Cert.KernelChain14

end
-- ==== Proof.RefChain14.lean ====
/- Stage 14 of the reference, the assignment scores, at an entry: W is the contents before windows 9 and 10. The attention's
   hidden array x goes through a linear stage into five columns; the result is normalised by its own column statistics.
   At row r and column q (of five) the normalised array is the normalisation of the linear stage's entry. -/
import proofs.«414479_j7705171329025_1_alg».proof.Proof.RefStage9
import proofs.«414479_j7705171329025_1_alg».proof.Proof.RefStage10
import proofs.«414479_j7705171329025_1_alg».proof.Proof.RefKinds

noncomputable section

namespace Cert.ReferenceIdeal.RefChain14

open Cert.ReferenceIdeal Cert.ReferenceIdeal.Gen Cert.ReferenceIdeal.RefRun
open Idealize.ShloMosaic Idealize.ShloMosaic.TcCoe Idealize.ShloMosaic.StableHlo Idealize.ShloMosaic.ValueIdx
open scoped BigOperators

variable (W : Valuation τ sig (Elt Ideal))

/-- The hidden array the stage reads. -/
abbrev x : (⟨S100000x128, .f32⟩ : BufTy).Contents (Elt Ideal) :=
  (RefStage9.t_v493 W)

/-- The weights, the bias, the scale and the shift. -/
abbrev w : (⟨S128x5, .f32⟩ : BufTy).Contents (Elt Ideal) := (W (Proc.devRef .tc main_arg19))
abbrev bv : (⟨S5, .f32⟩ : BufTy).Contents (Elt Ideal) := (W (Proc.devRef .tc main_arg20))
abbrev g : (⟨S5, .f32⟩ : BufTy).Contents (Elt Ideal) := (W (Proc.devRef .tc main_arg21))
abbrev β : (⟨S5, .f32⟩ : BufTy).Contents (Elt Ideal) := (W (Proc.devRef .tc main_arg22))

/-- The linear output. -/
abbrev lin : (⟨S100000x5, .f32⟩ : BufTy).Contents (Elt Ideal) :=
  addf (Host.dotGeneral (F := Ideal) (φ₁ := .f32) (φ₂ := .f32) dot_S100000x128_S128x5_S100000x5_1_0_0_1_n_n none (x W) (w W)) (RefTerms.rows5 (bv W))

/-- Its entry. -/
abbrev y (r : Fin 100000) (q : Fin 5) : EReal :=
  StageSpec.lin (x W) (w W) (shapeCast S1x5 (bv W) RefKinds.shapeCasts_S5_S1x5) r q

set_option maxRecDepth 8192 in
/-- After the stage's last window main_v516 holds the linear output normalised by its own column statistics. -/
theorem out_eq : (after (ops10 (F := Ideal)) (after (ops9 (F := Ideal)) W) (Proc.devRef .tc main_v516) : (⟨S100000x5, .f32⟩ : BufTy).Contents (Elt Ideal))
    = RefTerms.affine5 (RefTerms.standardise5 (lin W) (RefTerms.colMean5 (lin W)) (RefTerms.colVar5 (lin W) (constantI S_ 32 0#32 : (⟨S_, .i32⟩ : BufTy).Contents (Elt Ideal)))) (g W) (β W) := by
  rw [RefStage10.read_v516]
  simp only [RefStage10.t_v516]
  rw [RefStage9.keep W (r := main_arg22) (by decide), RefStage9.read_v510 W, RefStage9.read_v512 W] <;> rfl

/-- STAGE 14 AT AN ENTRY. -/
theorem out_apply (r : Fin 100000) (q : Fin 5) : (after (ops10 (F := Ideal)) (after (ops9 (F := Ideal)) W) (Proc.devRef .tc main_v516) : (⟨S100000x5, .f32⟩ : BufTy).Contents (Elt Ideal)) (ix2 r q)
    = StageSpec.norm (y W r q) (StageReal.colMean (y W) RefKinds.N q) (StageReal.varDev (y W) RefKinds.N q) (g W (ix1 q)) (β W (ix1 q)) := by
  rw [out_eq]
  exact RefKinds.norm5_of_entries (lin W) (y W) (fun r q => RefKinds.lin5_of_lin _ _ _ r q) _ rfl (g W) (β W) r q

end Cert.ReferenceIdeal.RefChain14

end
-- ==== Proof.Chain14.lean ====
/-
  Stage 14 of the chain: the attention layer's scores. Both programs send the normalised hidden layer through the same
  weight matrix of five columns and bias, and normalise the result by its own batch statistics. The two hidden layers
  are one array by the invariant of the stage before; the parameters are one by the agreement of the two memories, no
  operation before the stage having written them in either program. The kernel takes the variance as the mean of
  squares less the squared mean, the reference as the mean of the squared deviations: on real data one number. So the
  two normalised arrays of scores are equal, entry by entry, and every entry is a real number.
-/
import proofs.«414479_j7705171329025_1_alg».proof.Proof.KernelChain14
import proofs.«414479_j7705171329025_1_alg».proof.Proof.ChainDefs
import proofs.«414479_j7705171329025_1_alg».proof.Proof.RefChain14
import proofs.«414479_j7705171329025_1_alg».proof.Proof.RefArgs9
import proofs.«414479_j7705171329025_1_alg».proof.Proof.Chain0
import proofs.«414479_j7705171329025_1_alg».proof.Proof.StageReal
import proofs.«414479_j7705171329025_1_alg».proof.Proof.PreReal

noncomputable section

namespace Cert.Chain14

open Cert.RealSpec (IsReal)
open Cert.ChainDefs
open Idealize.ShloMosaic Idealize.ShloMosaic.TcCoe Idealize.ShloMosaic.StableHlo

variable [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- STAGE 14: if the two normalised hidden layers are equal and real, the two normalised arrays of scores are equal
    and real. -/
theorem inv14 (hpre : Cert.Pre_KernelIdeal m) (hag : Cert.Chain0.Agree m m') (c : Dev Cert.KernelIdeal.nD)
    (h13 : Inv13 m ρ m' c) : Inv14 m ρ m' c := by
  have h13' : (∀ i, kOut13 m ρ c i = rOut13 m' c i) ∧ (∀ i, IsReal (kOut13 m ρ c i)) := h13
  -- the reference's hidden layer is the kernel's, by the invariant of the stage before
  have ex : Cert.ReferenceIdeal.RefChain14.x (U9 m' c) = Cert.KernelChain14.a1 m ρ c := by
    have e1 : rOut13 m' c = Cert.ReferenceIdeal.RefChain14.x (U9 m' c) := Cert.ReferenceIdeal.RefStage9.read_v493 (U9 m' c)
    have e2 : kOut13 m ρ c = rOut13 m' c := funext fun i => h13'.1 i
    exact (e2.trans e1).symm
  -- the reference's parameters are the kernel's, by the agreement of the two memories on the arguments
  have ew : Cert.ReferenceIdeal.RefChain14.w (U9 m' c) = Cert.KernelChain14.Wt m c :=
    (Cert.RefArgs9.arg19 m' c).trans (hag.arg19 c)
  have eb : Cert.ReferenceIdeal.RefChain14.bv (U9 m' c) = Cert.KernelChain14.Bflat m c :=
    (Cert.RefArgs9.arg20 m' c).trans (hag.arg20 c)
  have eg : Cert.ReferenceIdeal.RefChain14.g (U9 m' c) = Cert.KernelChain14.g m c :=
    (Cert.RefArgs9.arg21 m' c).trans (hag.arg21 c)
  have eβ : Cert.ReferenceIdeal.RefChain14.β (U9 m' c) = Cert.KernelChain14.β m c :=
    (Cert.RefArgs9.arg22 m' c).trans (hag.arg22 c)
  -- so the two linear outputs are one array
  have ey : Cert.ReferenceIdeal.RefChain14.y (U9 m' c) = Cert.KernelChain14.y m ρ c := by
    funext r q
    show StageSpec.lin (Cert.ReferenceIdeal.RefChain14.x (U9 m' c)) (Cert.ReferenceIdeal.RefChain14.w (U9 m' c))
        (shapeCast Cert.ReferenceIdeal.S1x5 (Cert.ReferenceIdeal.RefChain14.bv (U9 m' c)) Cert.ReferenceIdeal.RefKinds.shapeCasts_S5_S1x5) r q
      = StageSpec.lin (Cert.KernelChain14.a1 m ρ c) (Cert.KernelChain14.Wt m c) (Cert.KernelChain14.B m c) r q
    rw [ex, ew, eb]
  -- every entry of it is a real number, so the two variances are one number
  have hy : ∀ r q, IsReal (Cert.KernelChain14.y m ρ c r q) := Cert.KernelChain14.y_isReal m ρ hpre c h13'.2
  show (∀ i, kOut14 m ρ c i = rOut14 m' c i) ∧ (∀ i, IsReal (kOut14 m ρ c i))
  refine ⟨fun i => ?_, fun i => ?_⟩
  · obtain ⟨r, q, rfl⟩ : ∃ (r : Fin 100000) (q : Fin 5), i = ValueIdx.ix2 r q := ⟨i 0, i 1, ValueIdx.eq_ix2 i⟩
    rw [show kOut14 m ρ c (ValueIdx.ix2 r q) = _ from Cert.KernelChain14.kernel_out_apply m ρ c r q,
      show rOut14 m' c (ValueIdx.ix2 r q) = _ from Cert.ReferenceIdeal.RefChain14.out_apply (U9 m' c) r q,
      ey, eg, eβ]
    exact Cert.StageReal.norm_varSumSq_eq_norm_varDev_100000 (Cert.KernelChain14.y m ρ c) hy q (Cert.KernelChain14.y m ρ c r q) _ _
  · obtain ⟨r, q, rfl⟩ : ∃ (r : Fin 100000) (q : Fin 5), i = ValueIdx.ix2 r q := ⟨i 0, i 1, ValueIdx.eq_ix2 i⟩
    rw [show kOut14 m ρ c (ValueIdx.ix2 r q) = _ from Cert.KernelChain14.kernel_out_apply m ρ c r q]
    exact Cert.StageReal.norm_varSumSq_isReal_100000 (Cert.KernelChain14.y m ρ c) hy q (hy r q)
      (Cert.KernelChain14.g_isReal m hpre c q) (Cert.KernelChain14.β_isReal m hpre c q)

end Cert.Chain14

end
-- ==== Proof.ChainAll.lean ====
/-
  The chain, end to end. Stage 0 holds from the precondition and the agreement of the two memories; every later stage
  from the stages it reads: a hop from the hop before it and from its block's input (the embedding, and in the later
  blocks the projection before), a projection from its three hops, an attention layer from the layer before. What the
  last part of the two programs needs are the node embedding (stage 12) and the head scores (stage 14).
-/
import proofs.«414479_j7705171329025_1_alg».proof.Proof.ChainDefs
import proofs.«414479_j7705171329025_1_alg».proof.Proof.Chain0
import proofs.«414479_j7705171329025_1_alg».proof.Proof.Chain1
import proofs.«414479_j7705171329025_1_alg».proof.Proof.Chain2
import proofs.«414479_j7705171329025_1_alg».proof.Proof.Chain3
import proofs.«414479_j7705171329025_1_alg».proof.Proof.Chain4
import proofs.«414479_j7705171329025_1_alg».proof.Proof.Chain5
import proofs.«414479_j7705171329025_1_alg».proof.Proof.Chain6
import proofs.«414479_j7705171329025_1_alg».proof.Proof.Chain7
import proofs.«414479_j7705171329025_1_alg».proof.Proof.Chain8
import proofs.«414479_j7705171329025_1_alg».proof.Proof.Chain9
import proofs.«414479_j7705171329025_1_alg».proof.Proof.Chain10
import proofs.«414479_j7705171329025_1_alg».proof.Proof.Chain11
import proofs.«414479_j7705171329025_1_alg».proof.Proof.Chain12
import proofs.«414479_j7705171329025_1_alg».proof.Proof.Chain13
import proofs.«414479_j7705171329025_1_alg».proof.Proof.Chain14

noncomputable section

namespace Cert.ChainAll

open Cert.ChainDefs
open Idealize.ShloMosaic Idealize.ShloMosaic.TcCoe

variable [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The invariants at the node embedding and at the head scores. -/
theorem inv12_inv14 (hpre : Cert.Pre_KernelIdeal m) (hag : Cert.Chain0.Agree m m') (c : Dev Cert.KernelIdeal.nD) :
    Inv12 m ρ m' c ∧ Inv14 m ρ m' c := by
  have h0 := Cert.Chain0.inv0 m ρ m' hpre hag c
  have h1 := Cert.Chain1.inv1 m ρ m' hpre hag c h0
  have h2 := Cert.Chain2.inv2 m ρ m' hpre hag c h1 h0
  have h3 := Cert.Chain3.inv3 m ρ m' hpre hag c h2 h0
  have h4 := Cert.Chain4.inv4 m ρ m' hpre hag c h1 h2 h3
  have h5 := Cert.Chain5.inv5 m ρ m' hpre hag c h4 h0
  have h6 := Cert.Chain6.inv6 m ρ m' hpre hag c h5 h4 h0
  have h7 := Cert.Chain7.inv7 m ρ m' hpre hag c h6 h4 h0
  have h8 := Cert.Chain8.inv8 m ρ m' hpre hag c h5 h6 h7
  have h9 := Cert.Chain9.inv9 m ρ m' hpre hag c h8 h0
  have h10 := Cert.Chain10.inv10 m ρ m' hpre hag c h9 h8 h0
  have h11 := Cert.Chain11.inv11 m ρ m' hpre hag c h10 h8 h0
  have h12 := Cert.Chain12.inv12 m ρ m' hpre hag c h9 h10 h11
  have h13 := Cert.Chain13.inv13 m ρ m' hpre hag c h12
  have h14 := Cert.Chain14.inv14 m ρ m' hpre hag c h13
  exact ⟨h12, h14⟩

end Cert.ChainAll

end
-- ==== Proof.AgreeOfClaim.lean ====
/-
  The agreement of the two memories on the arguments, as the algebraic claim states it (one conjunction per device),
  gives the agreement argument by argument.
-/
import proofs.«414479_j7705171329025_1_alg».proof.Proof.Chain0

noncomputable section

namespace Cert.Chain0

open Idealize.ShloMosaic Idealize.ShloMosaic.TcCoe

theorem Agree.of_claim {m : (ℓ : Loc Cert.KernelIdeal.nD Cert.KernelIdeal.τ Cert.KernelIdeal.sig) → Buf (Elt Ideal) ℓ} {m' : (ℓ : Loc Cert.ReferenceIdeal.nD Cert.ReferenceIdeal.τ Cert.ReferenceIdeal.sig) → Buf (Elt Ideal) ℓ}
    (h : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) : Agree m m' :=
  ⟨fun c => (h c).1, fun c => (h c).2.1, fun c => (h c).2.2.1, fun c => (h c).2.2.2.1, fun c => (h c).2.2.2.2.1, fun c => (h c).2.2.2.2.2.1, fun c => (h c).2.2.2.2.2.2.1, fun c => (h c).2.2.2.2.2.2.2.1, fun c => (h c).2.2.2.2.2.2.2.2.1, fun c => (h c).2.2.2.2.2.2.2.2.2.1, fun c => (h c).2.2.2.2.2.2.2.2.2.2.1, fun c => (h c).2.2.2.2.2.2.2.2.2.2.2.1, fun c => (h c).2.2.2.2.2.2.2.2.2.2.2.2.1, fun c => (h c).2.2.2.2.2.2.2.2.2.2.2.2.2.1, fun c => (h c).2.2.2.2.2.2.2.2.2.2.2.2.2.2.1, fun c => (h c).2.2.2.2.2.2.2.2.2.2.2.2.2.2.2.1, fun c => (h c).2.2.2.2.2.2.2.2.2.2.2.2.2.2.2.2.1, fun c => (h c).2.2.2.2.2.2.2.2.2.2.2.2.2.2.2.2.2.1, fun c => (h c).2.2.2.2.2.2.2.2.2.2.2.2.2.2.2.2.2.2.1, fun c => (h c).2.2.2.2.2.2.2.2.2.2.2.2.2.2.2.2.2.2.2.1, fun c => (h c).2.2.2.2.2.2.2.2.2.2.2.2.2.2.2.2.2.2.2.2.1, fun c => (h c).2.2.2.2.2.2.2.2.2.2.2.2.2.2.2.2.2.2.2.2.2.1, fun c => (h c).2.2.2.2.2.2.2.2.2.2.2.2.2.2.2.2.2.2.2.2.2.2⟩

end Cert.Chain0

end
-- ==== Proof.lean ====
/-
  A graph network of fifteen linear layers, each followed by a batch normalisation, computed two ways.

  The kernel program runs thirty regions on the accelerator — a linear layer that also accumulates its output's column
  sums and column sums of squares over twenty blocks of 5000 rows, then a normalisation by those statistics — among
  stretches of host operations (the sums over each node's neighbours, the slices of the stacked weights, the
  statistics' means). The reference program is one straight line of host operations that takes each layer's mean and
  its mean of squared deviations directly.

  Frames: each program runs to its end without a fault and leaves its arguments as launched (the two kernel programs by
  the launch over their regions and stretches, the reference because none of its operations writes an argument).
  The idealised kernel is the kernel's own text read on the extended reals: nothing to preserve beyond that.
  The algebraic claim: on finite inputs every entry of every layer's output is a real number, and on real numbers the
  mean of squares less the squared mean IS the mean of the squared deviations; so the two programs' normalised arrays
  agree layer after layer, and the last part of both (a softmax over five heads, a sum over each graph's nodes, a clip
  at zero; the regulariser) is one function of arrays that agree.
-/
import proofs.«414479_j7705171329025_1_alg».proof.Defs
import proofs.«414479_j7705171329025_1_alg».proof.Proof.Gen.Kernel
import proofs.«414479_j7705171329025_1_alg».proof.Proof.Gen.KernelIdeal
import proofs.«414479_j7705171329025_1_alg».proof.Proof.Gen.ReferenceIdeal
import proofs.«414479_j7705171329025_1_alg».proof.Proof.Gen.Pre_finite_inputs
import proofs.«414479_j7705171329025_1_alg».proof.Proof.FrameK.Main
import proofs.«414479_j7705171329025_1_alg».proof.Proof.FrameKI.Main
import proofs.«414479_j7705171329025_1_alg».proof.Proof.RunNamed
import proofs.«414479_j7705171329025_1_alg».proof.Proof.RefFrame
import proofs.«414479_j7705171329025_1_alg».proof.Proof.ChainFinal
import proofs.«414479_j7705171329025_1_alg».proof.Proof.ChainAll
import proofs.«414479_j7705171329025_1_alg».proof.Proof.AgreeOfClaim

noncomputable section

namespace Cert.Proof

open Idealize.ShloMosaic Idealize.ShloMosaic.TcCoe Idealize.ShloMosaic.StableHlo Idealize.SL.Sem

/-- Both idealised programs run, from memories that agree on the arguments, to equal results. -/
theorem algebraic : Cert.algebraic_KernelIdeal_ReferenceIdeal := by
  intro m ρ m' ρ' hpre hag
  refine ⟨fun c => Cert.KernelIdeal.Gen.W63 (F := Ideal) m ρ c (Proc.devRef .tc Cert.KernelIdeal.main_v359),
    fun c => Cert.KernelIdeal.Gen.W63 (F := Ideal) m ρ c (Proc.devRef .tc Cert.KernelIdeal.main_v374),
    Cert.KernelIdeal.Named.run_named (F := Ideal) m ρ, ?_⟩
  refine (θ_run (Cert.ReferenceIdeal.defs (F := Ideal)) _ _).mono (fun r h c => ?_) (Cert.ReferenceIdeal.RefFrame.run_named m' ρ')
  obtain ⟨h0, h1, hargs⟩ := h c
  have hag' : Cert.Chain0.Agree m m' := Cert.Chain0.Agree.of_claim hag
  obtain ⟨h12, h14⟩ := Cert.ChainAll.inv12_inv14 m ρ m' hpre hag' c
  exact ⟨h0.trans (Cert.ChainFinal.out_eq m ρ m' hag' c h12 h14),
    h1.trans (Cert.ChainFinal.reg_eq m ρ m' hag' c), hargs⟩

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.ReferenceIdeal.RefFrame.frame,
    trivial,
    algebraic⟩

end Cert.Proof

end
